-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v354)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v354) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v407) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S2x8000000 : Shape := ⟨2, ![2, 8000000]⟩
abbrev S6x8 : Shape := ⟨2, ![6, 8]⟩
abbrev S8x8 : Shape := ⟨2, ![8, 8]⟩
abbrev S8x8x8 : Shape := ⟨3, ![8, 8, 8]⟩
abbrev S8x128 : Shape := ⟨2, ![8, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S6x8 : S_.BroadcastsInDim S6x8 (![] : Fin 0 → Fin S6x8.rank)
  reducesTo_S6x8_S_d0_1 : S6x8.ReducesTo [0, 1] S_
  h_S_ : 0 < S_.numel
  bcast_S_S8x8 : S_.BroadcastsInDim S8x8 (![] : Fin 0 → Fin S8x8.rank)
  reducesTo_S8x8_S_d0_1 : S8x8.ReducesTo [0, 1] S_
  bcast_S_S8x8x8 : S_.BroadcastsInDim S8x8x8 (![] : Fin 0 → Fin S8x8x8.rank)
  reducesTo_S8x8x8_S_d0_1_2 : S8x8x8.ReducesTo [0, 1, 2] S_
  bcast_S_S8x128 : S_.BroadcastsInDim S8x128 (![] : Fin 0 → Fin S8x128.rank)
  reducesTo_S8x128_S_d0_1 : S8x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S128x1 .f32) (main_arg11 : FVec F S1 .f32) (main_v33 : IVec S_ 1) : IVec S_ 1 :=
  let main_v34 : FVec F S128x1 .f32 := Host.absf main_arg10
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S8x8 .f32) (main_arg8 : FVec F S8x128 .f32) (main_arg9 : FVec F S128 .f32) (main_arg10 : FVec F S128x1 .f32) (main_arg11 : FVec F S1 .f32) (main_v13 : IVec S_ 1) (main_v16 : IVec S8x8x8 1) : IVec S_ 1 :=
  let main_c_5 : IVec S_ 1 := constantI S_ 1 1#1
  let main_v17 : IVec S_ 1 := (fun x v => Host.reduce IntOp.andi x v reducesTo_S8x8x8_S_d0_1_2 h_S_) main_v16 main_c_5
  let main_v18 : IVec S_ 1 := andi main_v13 main_v17
  let main_v19 : FVec F S8x8 .f32 := Host.absf main_arg7
  let main_cst_6 : FVec F S_ .f32 := constant S_ .f32 0x7F800000#32
  let main_v20 : FVec F S8x8 .f32 := broadcastInDim S8x8 ![] bcast_S_S8x8 main_cst_6
  let main_v21 : IVec S8x8 1 := cmpf .olt main_v19 main_v20
  let main_c_7 : IVec S_ 1 := constantI S_ 1 1#1
  let main_v22 : IVec S_ 1 := (fun x v => Host.reduce IntOp.andi x v reducesTo_S8x8_S_d0_1 h_S_) main_v21 main_c_7
  let main_v23 : IVec S_ 1 := andi main_v18 main_v22
  let main_v24 : FVec F S8x128 .f32 := Host.absf main_arg8
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_v33

def fn {F : FTy → Type} [FloatOps F] (main_arg0 : IVec S500000 32) (main_arg1 : IVec S2x8000000 32) (main_arg2 : IVec S500000 32) (main_arg3 : FVec F S6x8 .f32) (main_arg4 : FVec F S8x8 .f32) (main_arg5 : FVec F S8x8 .f32) (main_arg6 : FVec F S8x8x8 .f32) (main_arg7 : FVec F S8x8 .f32) (main_arg8 : FVec F S8x128 .f32) (main_arg9 : FVec F S128 .f32) (main_arg10 : FVec F S128x1 .f32) (main_arg11 : FVec F S1 .f32) : IVec S_ 1 :=
  let main_v0 : FVec F S6x8 .f32 := Host.absf main_arg3
  let main_cst : FVec F S_ .f32 := constant S_ .f32 0x7F800000#32
  let main_v1 : FVec F S6x8 .f32 := broadcastInDim S6x8 ![] bcast_S_S6x8 main_cst
  let main_v2 : IVec S6x8 1 := cmpf .olt main_v0 main_v1
  let main_c : IVec S_ 1 := constantI S_ 1 1#1
  let main_v3 : IVec S_ 1 := (fun x v => Host.reduce IntOp.andi x v reducesTo_S6x8_S_d0_1 h_S_) main_v2 main_c
  let main_v4 : FVec F S8x8 .f32 := Host.absf main_arg4
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : FVec F S8x8 .f32 := Host.absf main_arg5
  let main_cst_2 : FVec F S_ .f32 := constant S_ .f32 0x7F800000#32
  let main_v10 : FVec F S8x8 .f32 := broadcastInDim S8x8 ![] bcast_S_S8x8 main_cst_2
  let main_v11 : IVec S8x8 1 := cmpf .olt main_v9 main_v10
  let main_c_3 : IVec S_ 1 := constantI S_ 1 1#1
  let main_v12 : IVec S_ 1 := (fun x v => Host.reduce IntOp.andi x v reducesTo_S8x8_S_d0_1 h_S_) main_v11 main_c_3
  let main_v13 : IVec S_ 1 := andi main_v8 main_v12
  let main_v14 : FVec F S8x8x8 .f32 := Host.absf main_arg6
  let main_cst_4 : FVec F S_ .f32 := constant S_ .f32 0x7F800000#32
  let main_v15 : FVec F S8x8x8 .f32 := broadcastInDim S8x8x8 ![] bcast_S_S8x8x8 main_cst_4
  let main_v16 : IVec S8x8x8 1 := cmpf .olt main_v14 main_v15
  fn_part1 (F := F) main_arg7 main_arg8 main_arg9 main_arg10 main_arg11 main_v13 main_v16
-- ==== Kernel.lean ====
abbrev S500000 : Shape := ⟨1, ![500000]⟩
abbrev S2x8000000 : Shape := ⟨2, ![2, 8000000]⟩
abbrev S6x8 : Shape := ⟨2, ![6, 8]⟩
abbrev S8x8 : Shape := ⟨2, ![8, 8]⟩
abbrev S8x8x8 : Shape := ⟨3, ![8, 8, 8]⟩
abbrev S8x128 : Shape := ⟨2, ![8, 128]⟩
abbrev S128 : Shape := ⟨1, ![128]⟩
abbrev S128x1 : Shape := ⟨2, ![128, 1]⟩
abbrev S1 : Shape := ⟨1, ![1]⟩
abbrev S1x8000000 : Shape := ⟨2, ![1, 8000000]⟩
abbrev S8000000 : Shape := ⟨1, ![8000000]⟩
abbrev S8500000 : Shape := ⟨1, ![8500000]⟩
abbrev S_ : Shape := ⟨0, ![]⟩
abbrev S8500000x1 : Shape := ⟨2, ![8500000, 1]⟩
abbrev S500000x1 : Shape := ⟨2, ![500000, 1]⟩
abbrev S500000x8 : Shape := ⟨2, ![500000, 8]⟩
abbrev S8x500000 : Shape := ⟨2, ![8, 500000]⟩
abbrev S8x524288 : Shape := ⟨2, ![8, 524288]⟩
abbrev S8x1 : Shape := ⟨2, ![8, 1]⟩
abbrev S8x65536 : Shape := ⟨2, ![8, 65536]⟩
abbrev S8 : Shape := ⟨1, ![8]⟩
abbrev S1x8 : Shape := ⟨2, ![1, 8]⟩
abbrev S1x8x8 : Shape := ⟨3, ![1, 8, 8]⟩
abbrev S8500000x8 : Shape := ⟨2, ![8500000, 8]⟩
abbrev S1x65536 : Shape := ⟨2, ![1, 65536]⟩
abbrev S5000x8 : Shape := ⟨2, ![5000, 8]⟩
abbrev S5000x128 : Shape := ⟨2, ![5000, 128]⟩
abbrev S1x128 : Shape := ⟨2, ![1, 128]⟩
abbrev S5000x1 : Shape := ⟨2, ![5000, 1]⟩
abbrev S1x1 : Shape := ⟨2, ![1, 1]⟩
abbrev S5000 : Shape := ⟨1, ![5000]⟩

abbrev nBuf : Space → Nat
  | .hbm => 444
  | .vmem => 160
  | .smem => 0
  | _ => 0

abbrev hbmTy0_0 (i : Nat) : BufTy := match i % 128 with
  | 0 => ⟨S500000, .i32⟩
  | 1 => ⟨S2x8000000, .i32⟩
  | 2 => ⟨S500000, .i32⟩
  | 3 => ⟨S6x8, .f32⟩
  | 4 => ⟨S8x8, .f32⟩
  | 5 => ⟨S8x8, .f32⟩
  | 6 => ⟨S8x8x8, .f32⟩
  | 7 => ⟨S8x8, .f32⟩
  | 8 => ⟨S8x128, .f32⟩
  | 9 => ⟨S128, .f32⟩
  | 10 => ⟨S128x1, .f32⟩
  | 11 => ⟨S1, .f32⟩
  | 12 => ⟨S500000, .i32⟩
  | 13 => ⟨S1x8000000, .i32⟩
  | 14 => ⟨S8000000, .i32⟩
  | 15 => ⟨S8500000, .i32⟩
  | 16 => ⟨S1x8000000, .i32⟩
  | 17 => ⟨S8000000, .i32⟩
  | 18 => ⟨S8500000, .i32⟩
  | 19 => ⟨S_, .f32⟩
  | 20 => ⟨S8500000, .f32⟩
  | 21 => ⟨S_, .f32⟩
  | 22 => ⟨S500000, .f32⟩
  | 23 => ⟨S8500000x1, .i32⟩
  | 24 => ⟨S500000, .f32⟩
  | 25 => ⟨S500000, .f32⟩
  | 26 => ⟨S_, .i32⟩
  | 27 => ⟨S8500000, .i32⟩
  | 28 => ⟨S8500000, .i1⟩
  | 29 => ⟨S_, .i32⟩
  | 30 => ⟨S8500000, .i32⟩
  | 31 => ⟨S8500000, .i32⟩
  | 32 => ⟨S8500000, .i32⟩
  | 33 => ⟨S8500000x1, .i32⟩
  | 34 => ⟨S8500000, .f32⟩
  | 35 => ⟨S_, .i32⟩
  | 36 => ⟨S8500000, .i32⟩
  | 37 => ⟨S8500000, .i1⟩
  | 38 => ⟨S_, .i32⟩
  | 39 => ⟨S8500000, .i32⟩
  | 40 => ⟨S8500000, .i32⟩
  | 41 => ⟨S8500000, .i32⟩
  | 42 => ⟨S8500000x1, .i32⟩
  | 43 => ⟨S8500000, .f32⟩
  | 44 => ⟨S8500000, .f32⟩
  | 45 => ⟨S_, .i32⟩
  | 46 => ⟨S500000, .i32⟩
  | 47 => ⟨S500000, .i1⟩
  | 48 => ⟨S_, .i32⟩
  | 49 => ⟨S500000, .i32⟩
  | 50 => ⟨S500000, .i32⟩
  | 51 => ⟨S500000, .i32⟩
  | 52 => ⟨S500000x1, .i32⟩
  | 53 => ⟨S500000x8, .f32⟩
  | 54 => ⟨S8x500000, .f32⟩
  | 55 => ⟨S_, .i32⟩
  | 56 => ⟨S_, .f32⟩
  | 57 => ⟨S8x524288, .f32⟩
  | 58 => ⟨S8x1, .f32⟩
  | 59 => ⟨S8x1, .f32⟩
  | 60 => ⟨S_, .f32⟩
  | 61 => ⟨S8x1, .f32⟩
  | 62 => ⟨S8x1, .f32⟩
  | 63 => ⟨S_, .f32⟩
  | 64 => ⟨S8x1, .f32⟩
  | 65 => ⟨S8x1, .f32⟩
  | 66 => ⟨S8x1, .f32⟩
  | 67 => ⟨S8x1, .f32⟩
  | 68 => ⟨S1x8, .f32⟩
  | 69 => ⟨S8, .f32⟩
  | 70 => ⟨S8x1, .f32⟩
  | 71 => ⟨S1x8, .f32⟩
  | 72 => ⟨S8, .f32⟩
  | 73 => ⟨S8x1, .f32⟩
  | 74 => ⟨S1x8x8, .f32⟩
  | 75 => ⟨S8x8, .f32⟩
  | 76 => ⟨S8x8, .f32⟩
  | 77 => ⟨S8x524288, .f32⟩
  | 78 => ⟨S8x500000, .f32⟩
  | 79 => ⟨S500000x8, .f32⟩
  | 80 => ⟨S_, .i32⟩
  | 81 => ⟨S8500000, .i32⟩
  | 82 => ⟨S8500000, .i1⟩
  | 83 => ⟨S_, .i32⟩
  | 84 => ⟨S8500000, .i32⟩
  | 85 => ⟨S8500000, .i32⟩
  | 86 => ⟨S8500000, .i32⟩
  | 87 => ⟨S8500000x1, .i32⟩
  | 88 => ⟨S8500000x8, .f32⟩
  | 89 => ⟨S8500000x1, .f32⟩
  | 90 => ⟨S8500000x8, .f32⟩
  | 91 => ⟨S8500000x8, .f32⟩
  | 92 => ⟨S_, .f32⟩
  | 93 => ⟨S500000x8, .f32⟩
  | 94 => ⟨S8500000x1, .i32⟩
  | 95 => ⟨S500000x8, .f32⟩
  | 96 => ⟨S8x500000, .f32⟩
  | 97 => ⟨S_, .i32⟩
  | 98 => ⟨S_, .f32⟩
  | 99 => ⟨S8x524288, .f32⟩
  | 100 => ⟨S1x8, .f32⟩
  | 101 => ⟨S8, .f32⟩
  | 102 => ⟨S8x1, .f32⟩
  | 103 => ⟨S8x524288, .f32⟩
  | 104 => ⟨S8x1, .f32⟩
  | 105 => ⟨S8x1, .f32⟩
  | 106 => ⟨S_, .f32⟩
  | 107 => ⟨S8x1, .f32⟩
  | 108 => ⟨S8x1, .f32⟩
  | 109 => ⟨S_, .f32⟩
  | 110 => ⟨S8x1, .f32⟩
  | 111 => ⟨S8x1, .f32⟩
  | 112 => ⟨S8x1, .f32⟩
  | 113 => ⟨S8x1, .f32⟩
  | 114 => ⟨S1x8, .f32⟩
  | 115 => ⟨S8, .f32⟩
  | 116 => ⟨S8x1, .f32⟩
  | 117 => ⟨S1x8, .f32⟩
  | 118 => ⟨S8, .f32⟩
  | 119 => ⟨S8x1, .f32⟩
  | 120 => ⟨S1x8x8, .f32⟩
  | 121 => ⟨S8x8, .f32⟩
  | 122 => ⟨S8x8, .f32⟩
  | 123 => ⟨S8x524288, .f32⟩
  | 124 => ⟨S8x500000, .f32⟩
  | 125 => ⟨S500000x8, .f32⟩
  | 126 => ⟨S_, .i32⟩
  | 127 => ⟨S8500000, .i32⟩
  | _ => ⟨S500000, .i32⟩

abbrev hbmTy0_1 (i : Nat) : BufTy := match i % 128 with
  | 0 => ⟨S8500000, .i1⟩
  | 1 => ⟨S_, .i32⟩
  | 2 => ⟨S8500000, .i32⟩
  | 3 => ⟨S8500000, .i32⟩
  | 4 => ⟨S8500000, .i32⟩
  | 5 => ⟨S8500000x1, .i32⟩
  | 6 => ⟨S8500000x8, .f32⟩
  | 7 => ⟨S8500000x1, .f32⟩
  | 8 => ⟨S8500000x8, .f32⟩
  | 9 => ⟨S8500000x8, .f32⟩
  | 10 => ⟨S_, .f32⟩
  | 11 => ⟨S500000x8, .f32⟩
  | 12 => ⟨S8500000x1, .i32⟩
  | 13 => ⟨S500000x8, .f32⟩
  | 14 => ⟨S8x500000, .f32⟩
  | 15 => ⟨S_, .i32⟩
  | 16 => ⟨S_, .f32⟩
  | 17 => ⟨S8x524288, .f32⟩
  | 18 => ⟨S1x8, .f32⟩
  | 19 => ⟨S8, .f32⟩
  | 20 => ⟨S8x1, .f32⟩
  | 21 => ⟨S8x524288, .f32⟩
  | 22 => ⟨S8x1, .f32⟩
  | 23 => ⟨S8x1, .f32⟩
  | 24 => ⟨S_, .f32⟩
  | 25 => ⟨S8x1, .f32⟩
  | 26 => ⟨S8x1, .f32⟩
  | 27 => ⟨S_, .f32⟩
  | 28 => ⟨S8x1, .f32⟩
  | 29 => ⟨S8x1, .f32⟩
  | 30 => ⟨S8x1, .f32⟩
  | 31 => ⟨S8x1, .f32⟩
  | 32 => ⟨S1x8, .f32⟩
  | 33 => ⟨S8, .f32⟩
  | 34 => ⟨S8x1, .f32⟩
  | 35 => ⟨S1x8, .f32⟩
  | 36 => ⟨S8, .f32⟩
  | 37 => ⟨S8x1, .f32⟩
  | 38 => ⟨S1x8x8, .f32⟩
  | 39 => ⟨S8x8, .f32⟩
  | 40 => ⟨S8x8, .f32⟩
  | 41 => ⟨S8x524288, .f32⟩
  | 42 => ⟨S8x500000, .f32⟩
  | 43 => ⟨S500000x8, .f32⟩
  | 44 => ⟨S_, .i32⟩
  | 45 => ⟨S8500000, .i32⟩
  | 46 => ⟨S8500000, .i1⟩
  | 47 => ⟨S_, .i32⟩
  | 48 => ⟨S8500000, .i32⟩
  | 49 => ⟨S8500000, .i32⟩
  | 50 => ⟨S8500000, .i32⟩
  | 51 => ⟨S8500000x1, .i32⟩
  | 52 => ⟨S8500000x8, .f32⟩
  | 53 => ⟨S8500000x1, .f32⟩
  | 54 => ⟨S8500000x8, .f32⟩
  | 55 => ⟨S8500000x8, .f32⟩
  | 56 => ⟨S_, .f32⟩
  | 57 => ⟨S500000x8, .f32⟩
  | 58 => ⟨S8500000x1, .i32⟩
  | 59 => ⟨S500000x8, .f32⟩
  | 60 => ⟨S8x500000, .f32⟩
  | 61 => ⟨S_, .i32⟩
  | 62 => ⟨S_, .f32⟩
  | 63 => ⟨S8x524288, .f32⟩
  | 64 => ⟨S1x8, .f32⟩
  | 65 => ⟨S8, .f32⟩
  | 66 => ⟨S8x1, .f32⟩
  | 67 => ⟨S8x524288, .f32⟩
  | 68 => ⟨S8x1, .f32⟩
  | 69 => ⟨S8x1, .f32⟩
  | 70 => ⟨S_, .f32⟩
  | 71 => ⟨S8x1, .f32⟩
  | 72 => ⟨S8x1, .f32⟩
  | 73 => ⟨S_, .f32⟩
  | 74 => ⟨S8x1, .f32⟩
  | 75 => ⟨S8x1, .f32⟩
  | 76 => ⟨S8x1, .f32⟩
  | 77 => ⟨S8x1, .f32⟩
  | 78 => ⟨S1x8, .f32⟩
  | 79 => ⟨S8, .f32⟩
  | 80 => ⟨S8x1, .f32⟩
  | 81 => ⟨S1x8, .f32⟩
  | 82 => ⟨S8, .f32⟩
  | 83 => ⟨S8x1, .f32⟩
  | 84 => ⟨S1x8x8, .f32⟩
  | 85 => ⟨S8x8, .f32⟩
  | 86 => ⟨S8x8, .f32⟩
  | 87 => ⟨S8x524288, .f32⟩
  | 88 => ⟨S8x500000, .f32⟩
  | 89 => ⟨S500000x8, .f32⟩
  | 90 => ⟨S_, .i32⟩
  | 91 => ⟨S8500000, .i32⟩
  | 92 => ⟨S8500000, .i1⟩
  | 93 => ⟨S_, .i32⟩
  | 94 => ⟨S8500000, .i32⟩
  | 95 => ⟨S8500000, .i32⟩
  | 96 => ⟨S8500000, .i32⟩
  | 97 => ⟨S8500000x1, .i32⟩
  | 98 => ⟨S8500000x8, .f32⟩
  | 99 => ⟨S8500000x1, .f32⟩
  | 100 => ⟨S8500000x8, .f32⟩
  | 101 => ⟨S8500000x8, .f32⟩
  | 102 => ⟨S_, .f32⟩
  | 103 => ⟨S500000x8, .f32⟩
  | 104 => ⟨S8500000x1, .i32⟩
  | 105 => ⟨S500000x8, .f32⟩
  | 106 => ⟨S8x500000, .f32⟩
  | 107 => ⟨S_, .i32⟩
  | 108 => ⟨S_, .f32⟩
  | 109 => ⟨S8x524288, .f32⟩
  | 110 => ⟨S1x8, .f32⟩
  | 111 => ⟨S8, .f32⟩
  | 112 => ⟨S8x1, .f32⟩
  | 113 => ⟨S8x524288, .f32⟩
  | 114 => ⟨S8x1, .f32⟩
  | 115 => ⟨S8x1, .f32⟩
  | 116 => ⟨S_, .f32⟩
  | 117 => ⟨S8x1, .f32⟩
  | 118 => ⟨S8x1, .f32⟩
  | 119 => ⟨S_, .f32⟩
  | 120 => ⟨S8x1, .f32⟩
  | 121 => ⟨S8x1, .f32⟩
  | 122 => ⟨S8x1, .f32⟩
  | 123 => ⟨S8x1, .f32⟩
  | 124 => ⟨S1x8, .f32⟩
  | 125 => ⟨S8, .f32⟩
  | 126 => ⟨S8x1, .f32⟩
  | 127 => ⟨S1x8, .f32⟩
  | _ => ⟨S500000, .i32⟩

abbrev hbmTy0_2 (i : Nat) : BufTy := match i % 128 with
  | 0 => ⟨S8, .f32⟩
  | 1 => ⟨S8x1, .f32⟩
  | 2 => ⟨S1x8x8, .f32⟩
  | 3 => ⟨S8x8, .f32⟩
  | 4 => ⟨S8x8, .f32⟩
  | 5 => ⟨S8x524288, .f32⟩
  | 6 => ⟨S8x500000, .f32⟩
  | 7 => ⟨S500000x8, .f32⟩
  | 8 => ⟨S_, .i32⟩
  | 9 => ⟨S8500000, .i32⟩
  | 10 => ⟨S8500000, .i1⟩
  | 11 => ⟨S_, .i32⟩
  | 12 => ⟨S8500000, .i32⟩
  | 13 => ⟨S8500000, .i32⟩
  | 14 => ⟨S8500000, .i32⟩
  | 15 => ⟨S8500000x1, .i32⟩
  | 16 => ⟨S8500000x8, .f32⟩
  | 17 => ⟨S8500000x1, .f32⟩
  | 18 => ⟨S8500000x8, .f32⟩
  | 19 => ⟨S8500000x8, .f32⟩
  | 20 => ⟨S_, .f32⟩
  | 21 => ⟨S500000x8, .f32⟩
  | 22 => ⟨S8500000x1, .i32⟩
  | 23 => ⟨S500000x8, .f32⟩
  | 24 => ⟨S8x500000, .f32⟩
  | 25 => ⟨S_, .i32⟩
  | 26 => ⟨S_, .f32⟩
  | 27 => ⟨S8x524288, .f32⟩
  | 28 => ⟨S1x8, .f32⟩
  | 29 => ⟨S8, .f32⟩
  | 30 => ⟨S8x1, .f32⟩
  | 31 => ⟨S8x524288, .f32⟩
  | 32 => ⟨S8x1, .f32⟩
  | 33 => ⟨S8x1, .f32⟩
  | 34 => ⟨S_, .f32⟩
  | 35 => ⟨S8x1, .f32⟩
  | 36 => ⟨S8x1, .f32⟩
  | 37 => ⟨S_, .f32⟩
  | 38 => ⟨S8x1, .f32⟩
  | 39 => ⟨S8x1, .f32⟩
  | 40 => ⟨S8x1, .f32⟩
  | 41 => ⟨S8x1, .f32⟩
  | 42 => ⟨S1x8, .f32⟩
  | 43 => ⟨S8, .f32⟩
  | 44 => ⟨S8x1, .f32⟩
  | 45 => ⟨S1x8, .f32⟩
  | 46 => ⟨S8, .f32⟩
  | 47 => ⟨S8x1, .f32⟩
  | 48 => ⟨S1x8x8, .f32⟩
  | 49 => ⟨S8x8, .f32⟩
  | 50 => ⟨S8x8, .f32⟩
  | 51 => ⟨S8x524288, .f32⟩
  | 52 => ⟨S8x500000, .f32⟩
  | 53 => ⟨S500000x8, .f32⟩
  | 54 => ⟨S_, .i32⟩
  | 55 => ⟨S8500000, .i32⟩
  | 56 => ⟨S8500000, .i1⟩
  | 57 => ⟨S_, .i32⟩
  | 58 => ⟨S8500000, .i32⟩
  | 59 => ⟨S8500000, .i32⟩
  | 60 => ⟨S8500000, .i32⟩
  | 61 => ⟨S8500000x1, .i32⟩
  | 62 => ⟨S8500000x8, .f32⟩
  | 63 => ⟨S8500000x1, .f32⟩
  | 64 => ⟨S8500000x8, .f32⟩
  | 65 => ⟨S8500000x8, .f32⟩
  | 66 => ⟨S_, .f32⟩
  | 67 => ⟨S500000x8, .f32⟩
  | 68 => ⟨S8500000x1, .i32⟩
  | 69 => ⟨S500000x8, .f32⟩
  | 70 => ⟨S8x500000, .f32⟩
  | 71 => ⟨S_, .i32⟩
  | 72 => ⟨S_, .f32⟩
  | 73 => ⟨S8x524288, .f32⟩
  | 74 => ⟨S1x8, .f32⟩
  | 75 => ⟨S8, .f32⟩
  | 76 => ⟨S8x1, .f32⟩
  | 77 => ⟨S8x524288, .f32⟩
  | 78 => ⟨S8x1, .f32⟩
  | 79 => ⟨S8x1, .f32⟩
  | 80 => ⟨S_, .f32⟩
  | 81 => ⟨S8x1, .f32⟩
  | 82 => ⟨S8x1, .f32⟩
  | 83 => ⟨S_, .f32⟩
  | 84 => ⟨S8x1, .f32⟩
  | 85 => ⟨S8x1, .f32⟩
  | 86 => ⟨S8x1, .f32⟩
  | 87 => ⟨S8x1, .f32⟩
  | 88 => ⟨S1x8, .f32⟩
  | 89 => ⟨S8, .f32⟩
  | 90 => ⟨S8x1, .f32⟩
  | 91 => ⟨S1x8, .f32⟩
  | 92 => ⟨S8, .f32⟩
  | 93 => ⟨S8x1, .f32⟩
  | 94 => ⟨S1x8x8, .f32⟩
  | 95 => ⟨S8x8, .f32⟩
  | 96 => ⟨S8x8, .f32⟩
  | 97 => ⟨S8x524288, .f32⟩
  | 98 => ⟨S8x500000, .f32⟩
  | 99 => ⟨S500000x8, .f32⟩
  | 100 => ⟨S_, .i32⟩
  | 101 => ⟨S8500000, .i32⟩
  | 102 => ⟨S8500000, .i1⟩
  | 103 => ⟨S_, .i32⟩
  | 104 => ⟨S8500000, .i32⟩
  | 105 => ⟨S8500000, .i32⟩
  | 106 => ⟨S8500000, .i32⟩
  | 107 => ⟨S8500000x1, .i32⟩
  | 108 => ⟨S8500000x8, .f32⟩
  | 109 => ⟨S8500000x1, .f32⟩
  | 110 => ⟨S8500000x8, .f32⟩
  | 111 => ⟨S8500000x8, .f32⟩
  | 112 => ⟨S_, .f32⟩
  | 113 => ⟨S500000x8, .f32⟩
  | 114 => ⟨S8500000x1, .i32⟩
  | 115 => ⟨S500000x8, .f32⟩
  | 116 => ⟨S8x500000, .f32⟩
  | 117 => ⟨S_, .i32⟩
  | 118 => ⟨S_, .f32⟩
  | 119 => ⟨S8x524288, .f32⟩
  | 120 => ⟨S1x8, .f32⟩
  | 121 => ⟨S8, .f32⟩
  | 122 => ⟨S8x1, .f32⟩
  | 123 => ⟨S8x524288, .f32⟩
  | 124 => ⟨S8x1, .f32⟩
  | 125 => ⟨S8x1, .f32⟩
  | 126 => ⟨S_, .f32⟩
  | 127 => ⟨S8x1, .f32⟩
  | _ => ⟨S500000, .i32⟩

abbrev hbmTy0_3 (i : Nat) : BufTy := match i % 128 with
  | 0 => ⟨S8x1, .f32⟩
  | 1 => ⟨S_, .f32⟩
  | 2 => ⟨S8x1, .f32⟩
  | 3 => ⟨S8x1, .f32⟩
  | 4 => ⟨S8x1, .f32⟩
  | 5 => ⟨S8x1, .f32⟩
  | 6 => ⟨S1x8, .f32⟩
  | 7 => ⟨S8, .f32⟩
  | 8 => ⟨S8x1, .f32⟩
  | 9 => ⟨S1x8, .f32⟩
  | 10 => ⟨S8, .f32⟩
  | 11 => ⟨S8x1, .f32⟩
  | 12 => ⟨S1x8x8, .f32⟩
  | 13 => ⟨S8x8, .f32⟩
  | 14 => ⟨S8x8, .f32⟩
  | 15 => ⟨S8x524288, .f32⟩
  | 16 => ⟨S8x500000, .f32⟩
  | 17 => ⟨S500000x8, .f32⟩
  | 18 => ⟨S_, .i32⟩
  | 19 => ⟨S8500000, .i32⟩
  | 20 => ⟨S8500000, .i1⟩
  | 21 => ⟨S_, .i32⟩
  | 22 => ⟨S8500000, .i32⟩
  | 23 => ⟨S8500000, .i32⟩
  | 24 => ⟨S8500000, .i32⟩
  | 25 => ⟨S8500000x1, .i32⟩
  | 26 => ⟨S8500000x8, .f32⟩
  | 27 => ⟨S8500000x1, .f32⟩
  | 28 => ⟨S8500000x8, .f32⟩
  | 29 => ⟨S8500000x8, .f32⟩
  | 30 => ⟨S_, .f32⟩
  | 31 => ⟨S500000x8, .f32⟩
  | 32 => ⟨S8500000x1, .i32⟩
  | 33 => ⟨S500000x8, .f32⟩
  | 34 => ⟨S8x500000, .f32⟩
  | 35 => ⟨S_, .i32⟩
  | 36 => ⟨S_, .f32⟩
  | 37 => ⟨S8x524288, .f32⟩
  | 38 => ⟨S1x8, .f32⟩
  | 39 => ⟨S8, .f32⟩
  | 40 => ⟨S8x1, .f32⟩
  | 41 => ⟨S8x524288, .f32⟩
  | 42 => ⟨S8x500000, .f32⟩
  | 43 => ⟨S500000x8, .f32⟩
  | 44 => ⟨S_, .f32⟩
  | 45 => ⟨S5000x8, .f32⟩
  | 46 => ⟨S500000x1, .i32⟩
  | 47 => ⟨S5000x8, .f32⟩
  | 48 => ⟨S5000x128, .f32⟩
  | 49 => ⟨S1x128, .f32⟩
  | 50 => ⟨S5000x128, .f32⟩
  | 51 => ⟨S5000x128, .f32⟩
  | 52 => ⟨S_, .f32⟩
  | 53 => ⟨S5000x128, .f32⟩
  | 54 => ⟨S5000x128, .f32⟩
  | 55 => ⟨S5000x1, .f32⟩
  | 56 => ⟨S1x1, .f32⟩
  | 57 => ⟨S5000x1, .f32⟩
  | 58 => ⟨S5000x1, .f32⟩
  | 59 => ⟨S5000, .f32⟩
  | _ => ⟨S500000, .i32⟩

abbrev hbmTy (i : Nat) : BufTy := match i / 128 with
  | 0 => hbmTy0_0 i
  | 1 => hbmTy0_1 i
  | 2 => hbmTy0_2 i
  | 3 => hbmTy0_3 i
  | _ => ⟨S500000, .i32⟩

abbrev vmemTy0_0 (i : Nat) : BufTy := match i % 128 with
  | 0 => ⟨S8x65536, .f32⟩
  | 1 => ⟨S8x65536, .f32⟩
  | 2 => ⟨S8x1, .f32⟩
  | 3 => ⟨S8x1, .f32⟩
  | 4 => ⟨S8x65536, .f32⟩
  | 5 => ⟨S8x65536, .f32⟩
  | 6 => ⟨S8x1, .f32⟩
  | 7 => ⟨S8x1, .f32⟩
  | 8 => ⟨S8x1, .f32⟩
  | 9 => ⟨S8x1, .f32⟩
  | 10 => ⟨S8x8, .f32⟩
  | 11 => ⟨S8x65536, .f32⟩
  | 12 => ⟨S8x65536, .f32⟩
  | 13 => ⟨S8x65536, .f32⟩
  | 14 => ⟨S8x65536, .f32⟩
  | 15 => ⟨S8x65536, .f32⟩
  | 16 => ⟨S8x65536, .f32⟩
  | 17 => ⟨S8x1, .f32⟩
  | 18 => ⟨S8x65536, .f32⟩
  | 19 => ⟨S8x65536, .f32⟩
  | 20 => ⟨S8x65536, .f32⟩
  | 21 => ⟨S8x65536, .f32⟩
  | 22 => ⟨S8x1, .f32⟩
  | 23 => ⟨S8x1, .f32⟩
  | 24 => ⟨S8x65536, .f32⟩
  | 25 => ⟨S8x65536, .f32⟩
  | 26 => ⟨S8x1, .f32⟩
  | 27 => ⟨S8x1, .f32⟩
  | 28 => ⟨S8x1, .f32⟩
  | 29 => ⟨S8x1, .f32⟩
  | 30 => ⟨S8x8, .f32⟩
  | 31 => ⟨S8x65536, .f32⟩
  | 32 => ⟨S8x65536, .f32⟩
  | 33 => ⟨S8x65536, .f32⟩
  | 34 => ⟨S8x65536, .f32⟩
  | 35 => ⟨S8x65536, .f32⟩
  | 36 => ⟨S8x65536, .f32⟩
  | 37 => ⟨S8x1, .f32⟩
  | 38 => ⟨S8x65536, .f32⟩
  | 39 => ⟨S8x65536, .f32⟩
  | 40 => ⟨S8x65536, .f32⟩
  | 41 => ⟨S8x65536, .f32⟩
  | 42 => ⟨S8x1, .f32⟩
  | 43 => ⟨S8x1, .f32⟩
  | 44 => ⟨S8x65536, .f32⟩
  | 45 => ⟨S8x65536, .f32⟩
  | 46 => ⟨S8x1, .f32⟩
  | 47 => ⟨S8x1, .f32⟩
  | 48 => ⟨S8x1, .f32⟩
  | 49 => ⟨S8x1, .f32⟩
  | 50 => ⟨S8x8, .f32⟩
  | 51 => ⟨S8x65536, .f32⟩
  | 52 => ⟨S8x65536, .f32⟩
  | 53 => ⟨S8x65536, .f32⟩
  | 54 => ⟨S8x65536, .f32⟩
  | 55 => ⟨S8x65536, .f32⟩
  | 56 => ⟨S8x65536, .f32⟩
  | 57 => ⟨S8x1, .f32⟩
  | 58 => ⟨S8x65536, .f32⟩
  | 59 => ⟨S8x65536, .f32⟩
  | 60 => ⟨S8x65536, .f32⟩
  | 61 => ⟨S8x65536, .f32⟩
  | 62 => ⟨S8x1, .f32⟩
  | 63 => ⟨S8x1, .f32⟩
  | 64 => ⟨S8x65536, .f32⟩
  | 65 => ⟨S8x65536, .f32⟩
  | 66 => ⟨S8x1, .f32⟩
  | 67 => ⟨S8x1, .f32⟩
  | 68 => ⟨S8x1, .f32⟩
  | 69 => ⟨S8x1, .f32⟩
  | 70 => ⟨S8x8, .f32⟩
  | 71 => ⟨S8x65536, .f32⟩
  | 72 => ⟨S8x65536, .f32⟩
  | 73 => ⟨S8x65536, .f32⟩
  | 74 => ⟨S8x65536, .f32⟩
  | 75 => ⟨S8x65536, .f32⟩
  | 76 => ⟨S8x65536, .f32⟩
  | 77 => ⟨S8x1, .f32⟩
  | 78 => ⟨S8x65536, .f32⟩
  | 79 => ⟨S8x65536, .f32⟩
  | 80 => ⟨S8x65536, .f32⟩
  | 81 => ⟨S8x65536, .f32⟩
  | 82 => ⟨S8x1, .f32⟩
  | 83 => ⟨S8x1, .f32⟩
  | 84 => ⟨S8x65536, .f32⟩
  | 85 => ⟨S8x65536, .f32⟩
  | 86 => ⟨S8x1, .f32⟩
  | 87 => ⟨S8x1, .f32⟩
  | 88 => ⟨S8x1, .f32⟩
  | 89 => ⟨S8x1, .f32⟩
  | 90 => ⟨S8x8, .f32⟩
  | 91 => ⟨S8x65536, .f32⟩
  | 92 => ⟨S8x65536, .f32⟩
  | 93 => ⟨S8x65536, .f32⟩
  | 94 => ⟨S8x65536, .f32⟩
  | 95 => ⟨S8x65536, .f32⟩
  | 96 => ⟨S8x65536, .f32⟩
  | 97 => ⟨S8x1, .f32⟩
  | 98 => ⟨S8x65536, .f32⟩
  | 99 => ⟨S8x65536, .f32⟩
  | 100 => ⟨S8x65536, .f32⟩
  | 101 => ⟨S8x65536, .f32⟩
  | 102 => ⟨S8x1, .f32⟩
  | 103 => ⟨S8x1, .f32⟩
  | 104 => ⟨S8x65536, .f32⟩
  | 105 => ⟨S8x65536, .f32⟩
  | 106 => ⟨S8x1, .f32⟩
  | 107 => ⟨S8x1, .f32⟩
  | 108 => ⟨S8x1, .f32⟩
  | 109 => ⟨S8x1, .f32⟩
  | 110 => ⟨S8x8, .f32⟩
  | 111 => ⟨S8x65536, .f32⟩
  | 112 => ⟨S8x65536, .f32⟩
  | 113 => ⟨S8x65536, .f32⟩
  | 114 => ⟨S8x65536, .f32⟩
  | 115 => ⟨S8x65536, .f32⟩
  | 116 => ⟨S8x65536, .f32⟩
  | 117 => ⟨S8x1, .f32⟩
  | 118 => ⟨S8x65536, .f32⟩
  | 119 => ⟨S8x65536, .f32⟩
  | 120 => ⟨S8x65536, .f32⟩
  | 121 => ⟨S8x65536, .f32⟩
  | 122 => ⟨S8x1, .f32⟩
  | 123 => ⟨S8x1, .f32⟩
  | 124 => ⟨S8x65536, .f32⟩
  | 125 => ⟨S8x65536, .f32⟩
  | 126 => ⟨S8x1, .f32⟩
  | 127 => ⟨S8x1, .f32⟩
  | _ => ⟨S500000, .i32⟩

abbrev vmemTy0_1 (i : Nat) : BufTy := match i % 128 with
  | 0 => ⟨S8x1, .f32⟩
  | 1 => ⟨S8x1, .f32⟩
  | 2 => ⟨S8x8, .f32⟩
  | 3 => ⟨S8x65536, .f32⟩
  | 4 => ⟨S8x65536, .f32⟩
  | 5 => ⟨S8x65536, .f32⟩
  | 6 => ⟨S8x65536, .f32⟩
  | 7 => ⟨S8x65536, .f32⟩
  | 8 => ⟨S8x65536, .f32⟩
  | 9 => ⟨S8x1, .f32⟩
  | 10 => ⟨S8x65536, .f32⟩
  | 11 => ⟨S8x65536, .f32⟩
  | 12 => ⟨S8x65536, .f32⟩
  | 13 => ⟨S8x65536, .f32⟩
  | 14 => ⟨S8x1, .f32⟩
  | 15 => ⟨S8x1, .f32⟩
  | 16 => ⟨S8x65536, .f32⟩
  | 17 => ⟨S8x65536, .f32⟩
  | 18 => ⟨S8x1, .f32⟩
  | 19 => ⟨S8x1, .f32⟩
  | 20 => ⟨S8x1, .f32⟩
  | 21 => ⟨S8x1, .f32⟩
  | 22 => ⟨S8x8, .f32⟩
  | 23 => ⟨S8x65536, .f32⟩
  | 24 => ⟨S8x65536, .f32⟩
  | 25 => ⟨S8x65536, .f32⟩
  | 26 => ⟨S8x65536, .f32⟩
  | 27 => ⟨S8x65536, .f32⟩
  | 28 => ⟨S8x65536, .f32⟩
  | 29 => ⟨S8x1, .f32⟩
  | 30 => ⟨S8x65536, .f32⟩
  | 31 => ⟨S8x65536, .f32⟩
  | _ => ⟨S500000, .i32⟩

abbrev vmemTy (i : Nat) : BufTy := match i / 128 with
  | 0 => vmemTy0_0 i
  | 1 => vmemTy0_1 i
  | _ => ⟨S500000, .i32⟩

abbrev bufTy : (tb : Table) → Fin (tcTables nBuf tb) → BufTy
  | .hbm, ⟨i, _⟩ => hbmTy i
  | .local _ .vmem, ⟨i, _⟩ => vmemTy i
  | _, _ => ⟨S500000, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 160 → Bool
  | ⟨i, _⟩ => dmaSemScopedAt i

abbrev sig : RefSig :=
  ofTc nBuf bufTy 0 160 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_call0_v0 : Ref sig .tc := ⟨.hbm, 56, rfl⟩
abbrev main_v35 : Ref sig .tc := ⟨.hbm, 57, rfl⟩
abbrev main_v36_0 : Ref sig .tc := ⟨.hbm, 58, rfl⟩
abbrev main_v36_1 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_9 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_12 : Ref sig .tc := ⟨.hbm, 97, rfl⟩
abbrev main_call1_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74_0 : Ref sig .tc := ⟨.hbm, 104, rfl⟩
abbrev main_v74_1 : Ref sig .tc := ⟨.hbm, 105, rfl⟩
abbrev main_cst_13 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_15 : Ref sig .tc := ⟨.hbm, 126, rfl⟩
abbrev main_v93 : Ref sig .tc := ⟨.hbm, 127, rfl⟩
abbrev main_v94 : Ref sig .tc := ⟨.hbm, 128, rfl⟩
abbrev main_c_16 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_17 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_c_18 : Ref sig .tc := ⟨.hbm, 143, rfl⟩
abbrev main_call2_v0 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112_0 : Ref sig .tc := ⟨.hbm, 150, rfl⟩
abbrev main_v112_1 : Ref sig .tc := ⟨.hbm, 151, rfl⟩
abbrev main_cst_19 : Ref sig .tc := ⟨.hbm, 152, rfl⟩
abbrev main_v113 : Ref sig .tc := ⟨.hbm, 153, rfl⟩
abbrev main_v114 : Ref sig .tc := ⟨.hbm, 154, rfl⟩
abbrev main_cst_20 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_c_21 : Ref sig .tc := ⟨.hbm, 172, rfl⟩
abbrev main_v131 : Ref sig .tc := ⟨.hbm, 173, rfl⟩
abbrev main_v132 : Ref sig .tc := ⟨.hbm, 174, rfl⟩
abbrev main_c_22 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_23 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_c_24 : Ref sig .tc := ⟨.hbm, 189, rfl⟩
abbrev main_call3_v0 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150_0 : Ref sig .tc := ⟨.hbm, 196, rfl⟩
abbrev main_v150_1 : Ref sig .tc := ⟨.hbm, 197, rfl⟩
abbrev main_cst_25 : Ref sig .tc := ⟨.hbm, 198, rfl⟩
abbrev main_v151 : Ref sig .tc := ⟨.hbm, 199, rfl⟩
abbrev main_v152 : Ref sig .tc := ⟨.hbm, 200, rfl⟩
abbrev main_cst_26 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_c_27 : Ref sig .tc := ⟨.hbm, 218, rfl⟩
abbrev main_v169 : Ref sig .tc := ⟨.hbm, 219, rfl⟩
abbrev main_v170 : Ref sig .tc := ⟨.hbm, 220, rfl⟩
abbrev main_c_28 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_cst_29 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_c_30 : Ref sig .tc := ⟨.hbm, 235, rfl⟩
abbrev main_call4_v0 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188_0 : Ref sig .tc := ⟨.hbm, 242, rfl⟩
abbrev main_v188_1 : Ref sig .tc := ⟨.hbm, 243, rfl⟩
abbrev main_cst_31 : Ref sig .tc := ⟨.hbm, 244, rfl⟩
abbrev main_v189 : Ref sig .tc := ⟨.hbm, 245, rfl⟩
abbrev main_v190 : Ref sig .tc := ⟨.hbm, 246, rfl⟩
abbrev main_cst_32 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_c_33 : Ref sig .tc := ⟨.hbm, 264, rfl⟩
abbrev main_v207 : Ref sig .tc := ⟨.hbm, 265, rfl⟩
abbrev main_v208 : Ref sig .tc := ⟨.hbm, 266, rfl⟩
abbrev main_c_34 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_cst_35 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_c_36 : Ref sig .tc := ⟨.hbm, 281, rfl⟩
abbrev main_call5_v0 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226_0 : Ref sig .tc := ⟨.hbm, 288, rfl⟩
abbrev main_v226_1 : Ref sig .tc := ⟨.hbm, 289, rfl⟩
abbrev main_cst_37 : Ref sig .tc := ⟨.hbm, 290, rfl⟩
abbrev main_v227 : Ref sig .tc := ⟨.hbm, 291, rfl⟩
abbrev main_v228 : Ref sig .tc := ⟨.hbm, 292, rfl⟩
abbrev main_cst_38 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_c_39 : Ref sig .tc := ⟨.hbm, 310, rfl⟩
abbrev main_v245 : Ref sig .tc := ⟨.hbm, 311, rfl⟩
abbrev main_v246 : Ref sig .tc := ⟨.hbm, 312, rfl⟩
abbrev main_c_40 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_cst_41 : Ref sig .tc := ⟨.hbm, 322, rfl⟩
abbrev main_v255 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_c_42 : Ref sig .tc := ⟨.hbm, 327, rfl⟩
abbrev main_call6_v0 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264_0 : Ref sig .tc := ⟨.hbm, 334, rfl⟩
abbrev main_v264_1 : Ref sig .tc := ⟨.hbm, 335, rfl⟩
abbrev main_cst_43 : Ref sig .tc := ⟨.hbm, 336, rfl⟩
abbrev main_v265 : Ref sig .tc := ⟨.hbm, 337, rfl⟩
abbrev main_v266 : Ref sig .tc := ⟨.hbm, 338, rfl⟩
abbrev main_cst_44 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_v273 : Ref sig .tc := ⟨.hbm, 346, rfl⟩
abbrev main_v274 : Ref sig .tc := ⟨.hbm, 347, rfl⟩
abbrev main_v275 : Ref sig .tc := ⟨.hbm, 348, rfl⟩
abbrev main_v276 : Ref sig .tc := ⟨.hbm, 349, rfl⟩
abbrev main_v277 : Ref sig .tc := ⟨.hbm, 350, rfl⟩
abbrev main_v278 : Ref sig .tc := ⟨.hbm, 351, rfl⟩
abbrev main_v279 : Ref sig .tc := ⟨.hbm, 352, rfl⟩
abbrev main_v280 : Ref sig .tc := ⟨.hbm, 353, rfl⟩
abbrev main_v281 : Ref sig .tc := ⟨.hbm, 354, rfl⟩
abbrev main_v282 : Ref sig .tc := ⟨.hbm, 355, rfl⟩
abbrev main_c_45 : Ref sig .tc := ⟨.hbm, 356, rfl⟩
abbrev main_v283 : Ref sig .tc := ⟨.hbm, 357, rfl⟩
abbrev main_v284 : Ref sig .tc := ⟨.hbm, 358, rfl⟩
abbrev main_c_46 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_cst_47 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_c_48 : Ref sig .tc := ⟨.hbm, 373, rfl⟩
abbrev main_call7_v0 : Ref sig .tc := ⟨.hbm, 374, rfl⟩
abbrev main_v297 : Ref sig .tc := ⟨.hbm, 375, rfl⟩
abbrev main_v298 : Ref sig .tc := ⟨.hbm, 376, rfl⟩
abbrev main_v299 : Ref sig .tc := ⟨.hbm, 377, rfl⟩
abbrev main_v300 : Ref sig .tc := ⟨.hbm, 378, rfl⟩
abbrev main_v301 : Ref sig .tc := ⟨.hbm, 379, rfl⟩
abbrev main_v302_0 : Ref sig .tc := ⟨.hbm, 380, rfl⟩
abbrev main_v302_1 : Ref sig .tc := ⟨.hbm, 381, rfl⟩
abbrev main_cst_49 : Ref sig .tc := ⟨.hbm, 382, rfl⟩
abbrev main_v303 : Ref sig .tc := ⟨.hbm, 383, rfl⟩
abbrev main_v304 : Ref sig .tc := ⟨.hbm, 384, rfl⟩
abbrev main_cst_50 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_v310 : Ref sig .tc := ⟨.hbm, 391, rfl⟩
abbrev main_v311 : Ref sig .tc := ⟨.hbm, 392, rfl⟩
abbrev main_v312 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_v316 : Ref sig .tc := ⟨.hbm, 397, rfl⟩
abbrev main_v317 : Ref sig .tc := ⟨.hbm, 398, rfl⟩
abbrev main_v318 : Ref sig .tc := ⟨.hbm, 399, rfl⟩
abbrev main_v319 : Ref sig .tc := ⟨.hbm, 400, rfl⟩
abbrev main_v320 : Ref sig .tc := ⟨.hbm, 401, rfl⟩
abbrev main_c_51 : Ref sig .tc := ⟨.hbm, 402, rfl⟩
abbrev main_v321 : Ref sig .tc := ⟨.hbm, 403, rfl⟩
abbrev main_v322 : Ref sig .tc := ⟨.hbm, 404, rfl⟩
abbrev main_c_52 : Ref sig .tc := ⟨.hbm, 405, rfl⟩
abbrev main_v323 : Ref sig .tc := ⟨.hbm, 406, rfl⟩
abbrev main_v324 : Ref sig .tc := ⟨.hbm, 407, rfl⟩
abbrev main_v325 : Ref sig .tc := ⟨.hbm, 408, rfl⟩
abbrev main_v326 : Ref sig .tc := ⟨.hbm, 409, rfl⟩
abbrev main_v327 : Ref sig .tc := ⟨.hbm, 410, rfl⟩
abbrev main_v328 : Ref sig .tc := ⟨.hbm, 411, rfl⟩
abbrev main_v329 : Ref sig .tc := ⟨.hbm, 412, rfl⟩
abbrev main_v330 : Ref sig .tc := ⟨.hbm, 413, rfl⟩
abbrev main_cst_53 : Ref sig .tc := ⟨.hbm, 414, rfl⟩
abbrev main_v331 : Ref sig .tc := ⟨.hbm, 415, rfl⟩
abbrev main_v332 : Ref sig .tc := ⟨.hbm, 416, rfl⟩
abbrev main_v333 : Ref sig .tc := ⟨.hbm, 417, rfl⟩
abbrev main_v334 : Ref sig .tc := ⟨.hbm, 418, rfl⟩
abbrev main_c_54 : Ref sig .tc := ⟨.hbm, 419, rfl⟩
abbrev main_call8_v0 : Ref sig .tc := ⟨.hbm, 420, rfl⟩
abbrev main_v335 : Ref sig .tc := ⟨.hbm, 421, rfl⟩
abbrev main_v336 : Ref sig .tc := ⟨.hbm, 422, rfl⟩
abbrev main_v337 : Ref sig .tc := ⟨.hbm, 423, rfl⟩
abbrev main_v338 : Ref sig .tc := ⟨.hbm, 424, rfl⟩
abbrev main_v339 : Ref sig .tc := ⟨.hbm, 425, rfl⟩
abbrev main_v340 : Ref sig .tc := ⟨.hbm, 426, rfl⟩
abbrev main_v341 : Ref sig .tc := ⟨.hbm, 427, rfl⟩
abbrev main_cst_55 : Ref sig .tc := ⟨.hbm, 428, rfl⟩
abbrev main_v342 : Ref sig .tc := ⟨.hbm, 429, rfl⟩
abbrev main_v343 : Ref sig .tc := ⟨.hbm, 430, rfl⟩
abbrev main_v344 : Ref sig .tc := ⟨.hbm, 431, rfl⟩
abbrev main_v345 : Ref sig .tc := ⟨.hbm, 432, rfl⟩
abbrev main_v346 : Ref sig .tc := ⟨.hbm, 433, rfl⟩
abbrev main_v347 : Ref sig .tc := ⟨.hbm, 434, rfl⟩
abbrev main_v348 : Ref sig .tc := ⟨.hbm, 435, rfl⟩
abbrev main_call9_cst : Ref sig .tc := ⟨.hbm, 436, rfl⟩
abbrev main_call9_v0 : Ref sig .tc := ⟨.hbm, 437, rfl⟩
abbrev main_v349 : Ref sig .tc := ⟨.hbm, 438, rfl⟩
abbrev main_v350 : Ref sig .tc := ⟨.hbm, 439, rfl⟩
abbrev main_v351 : Ref sig .tc := ⟨.hbm, 440, rfl⟩
abbrev main_v352 : Ref sig .tc := ⟨.hbm, 441, rfl⟩
abbrev main_v353 : Ref sig .tc := ⟨.hbm, 442, rfl⟩
abbrev main_v354 : Ref sig .tc := ⟨.hbm, 443, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg5_0 : Ref sig .tc := ⟨.vmem, 30, rfl⟩
abbrev cc4_stg6_0 : Ref sig .tc := ⟨.vmem, 31, rfl⟩
abbrev cc4_stg6_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg3_0 : Ref sig .tc := ⟨.vmem, 48, rfl⟩
abbrev cc7_stg4_0 : Ref sig .tc := ⟨.vmem, 49, rfl⟩
abbrev cc7_stg5_0 : Ref sig .tc := ⟨.vmem, 50, rfl⟩
abbrev cc7_stg6_0 : Ref sig .tc := ⟨.vmem, 51, rfl⟩
abbrev cc7_stg6_1 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg1_1 : Ref sig .tc := ⟨.vmem, 56, rfl⟩
abbrev cc8_stg2_0 : Ref sig .tc := ⟨.vmem, 57, rfl⟩
abbrev cc8_stg3_0 : Ref sig .tc := ⟨.vmem, 58, rfl⟩
abbrev cc8_stg3_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg2_0 : Ref sig .tc := ⟨.vmem, 63, rfl⟩
abbrev cc10_stg0_0 : Ref sig .tc := ⟨.vmem, 64, rfl⟩
abbrev cc10_stg0_1 : Ref sig .tc := ⟨.vmem, 65, rfl⟩
abbrev cc10_stg1_0 : Ref sig .tc := ⟨.vmem, 66, rfl⟩
abbrev cc10_stg2_0 : Ref sig .tc := ⟨.vmem, 67, rfl⟩
abbrev cc10_stg3_0 : Ref sig .tc := ⟨.vmem, 68, rfl⟩
abbrev cc10_stg4_0 : Ref sig .tc := ⟨.vmem, 69, rfl⟩
abbrev cc10_stg5_0 : Ref sig .tc := ⟨.vmem, 70, rfl⟩
abbrev cc10_stg6_0 : Ref sig .tc := ⟨.vmem, 71, rfl⟩
abbrev cc10_stg6_1 : Ref sig .tc := ⟨.vmem, 72, rfl⟩
abbrev cc11_stg0_0 : Ref sig .tc := ⟨.vmem, 73, rfl⟩
abbrev cc11_stg0_1 : Ref sig .tc := ⟨.vmem, 74, rfl⟩
abbrev cc11_stg1_0 : Ref sig .tc := ⟨.vmem, 75, rfl⟩
abbrev cc11_stg1_1 : Ref sig .tc := ⟨.vmem, 76, rfl⟩
abbrev cc11_stg2_0 : Ref sig .tc := ⟨.vmem, 77, rfl⟩
abbrev cc11_stg3_0 : Ref sig .tc := ⟨.vmem, 78, rfl⟩
abbrev cc11_stg3_1 : Ref sig .tc := ⟨.vmem, 79, rfl⟩
abbrev cc12_stg0_0 : Ref sig .tc := ⟨.vmem, 80, rfl⟩
abbrev cc12_stg0_1 : Ref sig .tc := ⟨.vmem, 81, rfl⟩
abbrev cc12_stg1_0 : Ref sig .tc := ⟨.vmem, 82, rfl⟩
abbrev cc12_stg2_0 : Ref sig .tc := ⟨.vmem, 83, rfl⟩
abbrev cc13_stg0_0 : Ref sig .tc := ⟨.vmem, 84, rfl⟩
abbrev cc13_stg0_1 : Ref sig .tc := ⟨.vmem, 85, rfl⟩
abbrev cc13_stg1_0 : Ref sig .tc := ⟨.vmem, 86, rfl⟩
abbrev cc13_stg2_0 : Ref sig .tc := ⟨.vmem, 87, rfl⟩
abbrev cc13_stg3_0 : Ref sig .tc := ⟨.vmem, 88, rfl⟩
abbrev cc13_stg4_0 : Ref sig .tc := ⟨.vmem, 89, rfl⟩
abbrev cc13_stg5_0 : Ref sig .tc := ⟨.vmem, 90, rfl⟩
abbrev cc13_stg6_0 : Ref sig .tc := ⟨.vmem, 91, rfl⟩
abbrev cc13_stg6_1 : Ref sig .tc := ⟨.vmem, 92, rfl⟩
abbrev cc14_stg0_0 : Ref sig .tc := ⟨.vmem, 93, rfl⟩
abbrev cc14_stg0_1 : Ref sig .tc := ⟨.vmem, 94, rfl⟩
abbrev cc14_stg1_0 : Ref sig .tc := ⟨.vmem, 95, rfl⟩
abbrev cc14_stg1_1 : Ref sig .tc := ⟨.vmem, 96, rfl⟩
abbrev cc14_stg2_0 : Ref sig .tc := ⟨.vmem, 97, rfl⟩
abbrev cc14_stg3_0 : Ref sig .tc := ⟨.vmem, 98, rfl⟩
abbrev cc14_stg3_1 : Ref sig .tc := ⟨.vmem, 99, rfl⟩
abbrev cc15_stg0_0 : Ref sig .tc := ⟨.vmem, 100, rfl⟩
abbrev cc15_stg0_1 : Ref sig .tc := ⟨.vmem, 101, rfl⟩
abbrev cc15_stg1_0 : Ref sig .tc := ⟨.vmem, 102, rfl⟩
abbrev cc15_stg2_0 : Ref sig .tc := ⟨.vmem, 103, rfl⟩
abbrev cc16_stg0_0 : Ref sig .tc := ⟨.vmem, 104, rfl⟩
abbrev cc16_stg0_1 : Ref sig .tc := ⟨.vmem, 105, rfl⟩
abbrev cc16_stg1_0 : Ref sig .tc := ⟨.vmem, 106, rfl⟩
abbrev cc16_stg2_0 : Ref sig .tc := ⟨.vmem, 107, rfl⟩
abbrev cc16_stg3_0 : Ref sig .tc := ⟨.vmem, 108, rfl⟩
abbrev cc16_stg4_0 : Ref sig .tc := ⟨.vmem, 109, rfl⟩
abbrev cc16_stg5_0 : Ref sig .tc := ⟨.vmem, 110, rfl⟩
abbrev cc16_stg6_0 : Ref sig .tc := ⟨.vmem, 111, rfl⟩
abbrev cc16_stg6_1 : Ref sig .tc := ⟨.vmem, 112, rfl⟩
abbrev cc17_stg0_0 : Ref sig .tc := ⟨.vmem, 113, rfl⟩
abbrev cc17_stg0_1 : Ref sig .tc := ⟨.vmem, 114, rfl⟩
abbrev cc17_stg1_0 : Ref sig .tc := ⟨.vmem, 115, rfl⟩
abbrev cc17_stg1_1 : Ref sig .tc := ⟨.vmem, 116, rfl⟩
abbrev cc17_stg2_0 : Ref sig .tc := ⟨.vmem, 117, rfl⟩
abbrev cc17_stg3_0 : Ref sig .tc := ⟨.vmem, 118, rfl⟩
abbrev cc17_stg3_1 : Ref sig .tc := ⟨.vmem, 119, rfl⟩
abbrev cc18_stg0_0 : Ref sig .tc := ⟨.vmem, 120, rfl⟩
abbrev cc18_stg0_1 : Ref sig .tc := ⟨.vmem, 121, rfl⟩
abbrev cc18_stg1_0 : Ref sig .tc := ⟨.vmem, 122, rfl⟩
abbrev cc18_stg2_0 : Ref sig .tc := ⟨.vmem, 123, rfl⟩
abbrev cc19_stg0_0 : Ref sig .tc := ⟨.vmem, 124, rfl⟩
abbrev cc19_stg0_1 : Ref sig .tc := ⟨.vmem, 125, rfl⟩
abbrev cc19_stg1_0 : Ref sig .tc := ⟨.vmem, 126, rfl⟩
abbrev cc19_stg2_0 : Ref sig .tc := ⟨.vmem, 127, rfl⟩
abbrev cc19_stg3_0 : Ref sig .tc := ⟨.vmem, 128, rfl⟩
abbrev cc19_stg4_0 : Ref sig .tc := ⟨.vmem, 129, rfl⟩
abbrev cc19_stg5_0 : Ref sig .tc := ⟨.vmem, 130, rfl⟩
abbrev cc19_stg6_0 : Ref sig .tc := ⟨.vmem, 131, rfl⟩
abbrev cc19_stg6_1 : Ref sig .tc := ⟨.vmem, 132, rfl⟩
abbrev cc20_stg0_0 : Ref sig .tc := ⟨.vmem, 133, rfl⟩
abbrev cc20_stg0_1 : Ref sig .tc := ⟨.vmem, 134, rfl⟩
abbrev cc20_stg1_0 : Ref sig .tc := ⟨.vmem, 135, rfl⟩
abbrev cc20_stg1_1 : Ref sig .tc := ⟨.vmem, 136, rfl⟩
abbrev cc20_stg2_0 : Ref sig .tc := ⟨.vmem, 137, rfl⟩
abbrev cc20_stg3_0 : Ref sig .tc := ⟨.vmem, 138, rfl⟩
abbrev cc20_stg3_1 : Ref sig .tc := ⟨.vmem, 139, rfl⟩
abbrev cc21_stg0_0 : Ref sig .tc := ⟨.vmem, 140, rfl⟩
abbrev cc21_stg0_1 : Ref sig .tc := ⟨.vmem, 141, rfl⟩
abbrev cc21_stg1_0 : Ref sig .tc := ⟨.vmem, 142, rfl⟩
abbrev cc21_stg2_0 : Ref sig .tc := ⟨.vmem, 143, rfl⟩
abbrev cc22_stg0_0 : Ref sig .tc := ⟨.vmem, 144, rfl⟩
abbrev cc22_stg0_1 : Ref sig .tc := ⟨.vmem, 145, rfl⟩
abbrev cc22_stg1_0 : Ref sig .tc := ⟨.vmem, 146, rfl⟩
abbrev cc22_stg2_0 : Ref sig .tc := ⟨.vmem, 147, rfl⟩
abbrev cc22_stg3_0 : Ref sig .tc := ⟨.vmem, 148, rfl⟩
abbrev cc22_stg4_0 : Ref sig .tc := ⟨.vmem, 149, rfl⟩
abbrev cc22_stg5_0 : Ref sig .tc := ⟨.vmem, 150, rfl⟩
abbrev cc22_stg6_0 : Ref sig .tc := ⟨.vmem, 151, rfl⟩
abbrev cc22_stg6_1 : Ref sig .tc := ⟨.vmem, 152, rfl⟩
abbrev cc23_stg0_0 : Ref sig .tc := ⟨.vmem, 153, rfl⟩
abbrev cc23_stg0_1 : Ref sig .tc := ⟨.vmem, 154, rfl⟩
abbrev cc23_stg1_0 : Ref sig .tc := ⟨.vmem, 155, rfl⟩
abbrev cc23_stg1_1 : Ref sig .tc := ⟨.vmem, 156, rfl⟩
abbrev cc23_stg2_0 : Ref sig .tc := ⟨.vmem, 157, rfl⟩
abbrev cc23_stg3_0 : Ref sig .tc := ⟨.vmem, 158, rfl⟩
abbrev cc23_stg3_1 : Ref sig .tc := ⟨.vmem, 159, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem5_0 : DmaSem sig := 30
abbrev cc4_sem6_0 : DmaSem sig := 31
abbrev cc4_sem6_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem4_0 : DmaSem sig := 49
abbrev cc7_sem5_0 : DmaSem sig := 50
abbrev cc7_sem6_0 : DmaSem sig := 51
abbrev cc7_sem6_1 : DmaSem sig := 52
abbrev cc8_sem0_0 : DmaSem sig := 53
abbrev cc8_sem0_1 : DmaSem sig := 54
abbrev cc8_sem1_0 : DmaSem sig := 55
abbrev cc8_sem1_1 : DmaSem sig := 56
abbrev cc8_sem2_0 : DmaSem sig := 57
abbrev cc8_sem3_0 : DmaSem sig := 58
abbrev cc8_sem3_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc10_sem0_0 : DmaSem sig := 64
abbrev cc10_sem0_1 : DmaSem sig := 65
abbrev cc10_sem1_0 : DmaSem sig := 66
abbrev cc10_sem2_0 : DmaSem sig := 67
abbrev cc10_sem3_0 : DmaSem sig := 68
abbrev cc10_sem4_0 : DmaSem sig := 69
abbrev cc10_sem5_0 : DmaSem sig := 70
abbrev cc10_sem6_0 : DmaSem sig := 71
abbrev cc10_sem6_1 : DmaSem sig := 72
abbrev cc11_sem0_0 : DmaSem sig := 73
abbrev cc11_sem0_1 : DmaSem sig := 74
abbrev cc11_sem1_0 : DmaSem sig := 75
abbrev cc11_sem1_1 : DmaSem sig := 76
abbrev cc11_sem2_0 : DmaSem sig := 77
abbrev cc11_sem3_0 : DmaSem sig := 78
abbrev cc11_sem3_1 : DmaSem sig := 79
abbrev cc12_sem0_0 : DmaSem sig := 80
abbrev cc12_sem0_1 : DmaSem sig := 81
abbrev cc12_sem1_0 : DmaSem sig := 82
abbrev cc12_sem2_0 : DmaSem sig := 83
abbrev cc13_sem0_0 : DmaSem sig := 84
abbrev cc13_sem0_1 : DmaSem sig := 85
abbrev cc13_sem1_0 : DmaSem sig := 86
abbrev cc13_sem2_0 : DmaSem sig := 87
abbrev cc13_sem3_0 : DmaSem sig := 88
abbrev cc13_sem4_0 : DmaSem sig := 89
abbrev cc13_sem5_0 : DmaSem sig := 90
abbrev cc13_sem6_0 : DmaSem sig := 91
abbrev cc13_sem6_1 : DmaSem sig := 92
abbrev cc14_sem0_0 : DmaSem sig := 93
abbrev cc14_sem0_1 : DmaSem sig := 94
abbrev cc14_sem1_0 : DmaSem sig := 95
abbrev cc14_sem1_1 : DmaSem sig := 96
abbrev cc14_sem2_0 : DmaSem sig := 97
abbrev cc14_sem3_0 : DmaSem sig := 98
abbrev cc14_sem3_1 : DmaSem sig := 99
abbrev cc15_sem0_0 : DmaSem sig := 100
abbrev cc15_sem0_1 : DmaSem sig := 101
abbrev cc15_sem1_0 : DmaSem sig := 102
abbrev cc15_sem2_0 : DmaSem sig := 103
abbrev cc16_sem0_0 : DmaSem sig := 104
abbrev cc16_sem0_1 : DmaSem sig := 105
abbrev cc16_sem1_0 : DmaSem sig := 106
abbrev cc16_sem2_0 : DmaSem sig := 107
abbrev cc16_sem3_0 : DmaSem sig := 108
abbrev cc16_sem4_0 : DmaSem sig := 109
abbrev cc16_sem5_0 : DmaSem sig := 110
abbrev cc16_sem6_0 : DmaSem sig := 111
abbrev cc16_sem6_1 : DmaSem sig := 112
abbrev cc17_sem0_0 : DmaSem sig := 113
abbrev cc17_sem0_1 : DmaSem sig := 114
abbrev cc17_sem1_0 : DmaSem sig := 115
abbrev cc17_sem1_1 : DmaSem sig := 116
abbrev cc17_sem2_0 : DmaSem sig := 117
abbrev cc17_sem3_0 : DmaSem sig := 118
abbrev cc17_sem3_1 : DmaSem sig := 119
abbrev cc18_sem0_0 : DmaSem sig := 120
abbrev cc18_sem0_1 : DmaSem sig := 121
abbrev cc18_sem1_0 : DmaSem sig := 122
abbrev cc18_sem2_0 : DmaSem sig := 123
abbrev cc19_sem0_0 : DmaSem sig := 124
abbrev cc19_sem0_1 : DmaSem sig := 125
abbrev cc19_sem1_0 : DmaSem sig := 126
abbrev cc19_sem2_0 : DmaSem sig := 127
abbrev cc19_sem3_0 : DmaSem sig := 128
abbrev cc19_sem4_0 : DmaSem sig := 129
abbrev cc19_sem5_0 : DmaSem sig := 130
abbrev cc19_sem6_0 : DmaSem sig := 131
abbrev cc19_sem6_1 : DmaSem sig := 132
abbrev cc20_sem0_0 : DmaSem sig := 133
abbrev cc20_sem0_1 : DmaSem sig := 134
abbrev cc20_sem1_0 : DmaSem sig := 135
abbrev cc20_sem1_1 : DmaSem sig := 136
abbrev cc20_sem2_0 : DmaSem sig := 137
abbrev cc20_sem3_0 : DmaSem sig := 138
abbrev cc20_sem3_1 : DmaSem sig := 139
abbrev cc21_sem0_0 : DmaSem sig := 140
abbrev cc21_sem0_1 : DmaSem sig := 141
abbrev cc21_sem1_0 : DmaSem sig := 142
abbrev cc21_sem2_0 : DmaSem sig := 143
abbrev cc22_sem0_0 : DmaSem sig := 144
abbrev cc22_sem0_1 : DmaSem sig := 145
abbrev cc22_sem1_0 : DmaSem sig := 146
abbrev cc22_sem2_0 : DmaSem sig := 147
abbrev cc22_sem3_0 : DmaSem sig := 148
abbrev cc22_sem4_0 : DmaSem sig := 149
abbrev cc22_sem5_0 : DmaSem sig := 150
abbrev cc22_sem6_0 : DmaSem sig := 151
abbrev cc22_sem6_1 : DmaSem sig := 152
abbrev cc23_sem0_0 : DmaSem sig := 153
abbrev cc23_sem0_1 : DmaSem sig := 154
abbrev cc23_sem1_0 : DmaSem sig := 155
abbrev cc23_sem1_1 : DmaSem sig := 156
abbrev cc23_sem2_0 : DmaSem sig := 157
abbrev cc23_sem3_0 : DmaSem sig := 158
abbrev cc23_sem3_1 : DmaSem sig := 159

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8x65536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8x65536 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S8x65536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x65536 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8x65536 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S8x65536 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S8x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S8x65536 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S8x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S8x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S8x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S8x8 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S8x65536 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S8x65536 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8x65536 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S8x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S8x65536 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S8x65536 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S8x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S8x65536 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S8x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S8x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S8x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S8x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S8x8 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S8x65536 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage8_0 : Fin 2 → Memref sig .tc .vmem S8x65536 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S8x65536 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S8x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S8x65536 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S8x65536 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S8x1 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S8x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage10_0 : Fin 2 → Memref sig .tc .vmem S8x65536 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S8x1 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S8x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S8x1 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S8x1 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S8x8 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S8x65536 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![8], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

def cc11_transform_1 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage11_0 : Fin 2 → Memref sig .tc .vmem S8x65536 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S8x65536 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S8x1 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S8x65536 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![8], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S8x65536 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S8x1 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S8x1 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev grid13 : Pipeline.Grid := ⟨1, ![8], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage13_0 : Fin 2 → Memref sig .tc .vmem S8x65536 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S8x1 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S8x1 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S8x1 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S8x1 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S8x8 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S8x65536 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![8], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![c0_i32.toNat, arg0.toNat]

def cc14_transform_1 (i : grid14.Coords) : Fin 2 → Nat :=
  let arg0 : BitVec 32 := BitVec.ofNat 32 (i 0).val
  let c0_i32 : BitVec 32 := 0#32
  let c0_i32_0 : BitVec 32 := 0#32
  ![c0_i32.toNat, arg0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage14_0 : Fin 2 → Memref sig .tc .vmem S8x65536 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S8x65536 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S8x1 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S8x65536 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![8], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![c0_i32.toNat, arg0.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 2 → Memref sig .tc .vmem S8x65536 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S8x1 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S8x1 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev grid16 : Pipeline.Grid := ⟨1, ![8], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![c0_i32.toNat, arg0.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage16_0 : Fin 2 → Memref sig .tc .vmem S8x65536 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S8x1 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S8x1 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S8x1 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S8x1 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S8x8 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 2 → Memref sig .tc .vmem S8x65536 .f32 := fun | 0 => Memref.whole cc16_stg6_0 | 1 => Memref.whole cc16_stg6_1 | ⟨_ + 2, h⟩ => absurd h (Nat.not_lt.2 (Nat.le_add_left _ _))
abbrev sem16_6 : Fin 2 → DmaSem sig := fun | 0 => cc16_sem6_0 | 1 => cc16_sem6_1 | ⟨_ + 2, h⟩ => absurd h (Nat.not_lt.2 (Nat.le_add_left _ _))
abbrev reads16_6 : Fin grid16.rank → Bool := ![true]

abbrev grid17 : Pipeline.Grid := ⟨1, ![8], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![c0_i32.toNat, arg0.toNat]

def cc17_transform_1 (i : grid17.Coords) : Fin 2 → Nat :=
  let arg0 : BitVec 32 := BitVec.ofNat 32 (i 0).val
  let c0_i32 : BitVec 32 := 0#32
  let c0_i32_0 : BitVec 32 := 0#32
  ![c0_i32.toNat, arg0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage17_0 : Fin 2 → Memref sig .tc .vmem S8x65536 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S8x65536 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 1 → Memref sig .tc .vmem S8x1 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S8x65536 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev grid18 : Pipeline.Grid := ⟨1, ![8], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![c0_i32.toNat, arg0.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage18_0 : Fin 2 → Memref sig .tc .vmem S8x65536 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S8x1 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S8x1 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev grid19 : Pipeline.Grid := ⟨1, ![8], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![c0_i32.toNat, arg0.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_6 (i : grid19.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage19_0 : Fin 2 → Memref sig .tc .vmem S8x65536 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S8x1 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S8x1 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S8x1 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S8x1 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 1 → Memref sig .tc .vmem S8x8 .f32 := fun | 0 => Memref.whole cc19_stg5_0 | ⟨_ + 1, h⟩ => absurd h (Nat.not_lt.2 (Nat.le_add_left _ _))
abbrev sem19_5 : Fin 1 → DmaSem sig := fun | 0 => cc19_sem5_0 | ⟨_ + 1, h⟩ => absurd h (Nat.not_lt.2 (Nat.le_add_left _ _))
abbrev reads19_5 : Fin grid19.rank → Bool := ![false]

abbrev stage19_6 : Fin 2 → Memref sig .tc .vmem S8x65536 .f32 := fun | 0 => Memref.whole cc19_stg6_0 | 1 => Memref.whole cc19_stg6_1 | ⟨_ + 2, h⟩ => absurd h (Nat.not_lt.2 (Nat.le_add_left _ _))
abbrev sem19_6 : Fin 2 → DmaSem sig := fun | 0 => cc19_sem6_0 | 1 => cc19_sem6_1 | ⟨_ + 2, h⟩ => absurd h (Nat.not_lt.2 (Nat.le_add_left _ _))
abbrev reads19_6 : Fin grid19.rank → Bool := ![true]

abbrev grid20 : Pipeline.Grid := ⟨1, ![8], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![c0_i32.toNat, arg0.toNat]

def cc20_transform_1 (i : grid20.Coords) : Fin 2 → Nat :=
  let arg0 : BitVec 32 := BitVec.ofNat 32 (i 0).val
  let c0_i32 : BitVec 32 := 0#32
  let c0_i32_0 : BitVec 32 := 0#32
  ![c0_i32.toNat, arg0.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage20_0 : Fin 2 → Memref sig .tc .vmem S8x65536 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S8x65536 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 1 → Memref sig .tc .vmem S8x1 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 2 → Memref sig .tc .vmem S8x65536 .f32 := fun | 0 => Memref.whole cc20_stg3_0 | 1 => Memref.whole cc20_stg3_1 | ⟨_ + 2, h⟩ => absurd h (Nat.not_lt.2 (Nat.le_add_left _ _))
abbrev sem20_3 : Fin 2 → DmaSem sig := fun | 0 => cc20_sem3_0 | 1 => cc20_sem3_1 | ⟨_ + 2, h⟩ => absurd h (Nat.not_lt.2 (Nat.le_add_left _ _))
abbrev reads20_3 : Fin grid20.rank → Bool := ![true]

abbrev grid21 : Pipeline.Grid := ⟨1, ![8], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![c0_i32.toNat, arg0.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage21_0 : Fin 2 → Memref sig .tc .vmem S8x65536 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S8x1 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S8x1 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev grid22 : Pipeline.Grid := ⟨1, ![8], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![c0_i32.toNat, arg0.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_4 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_5 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_6 (i : grid22.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage22_0 : Fin 2 → Memref sig .tc .vmem S8x65536 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S8x1 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 1 → Memref sig .tc .vmem S8x1 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 1 → Memref sig .tc .vmem S8x1 .f32 := fun | 0 => Memref.whole cc22_stg3_0 | ⟨_ + 1, h⟩ => absurd h (Nat.not_lt.2 (Nat.le_add_left _ _))
abbrev sem22_3 : Fin 1 → DmaSem sig := fun | 0 => cc22_sem3_0 | ⟨_ + 1, h⟩ => absurd h (Nat.not_lt.2 (Nat.le_add_left _ _))
abbrev reads22_3 : Fin grid22.rank → Bool := ![false]

abbrev stage22_4 : Fin 1 → Memref sig .tc .vmem S8x1 .f32 := fun | 0 => Memref.whole cc22_stg4_0 | ⟨_ + 1, h⟩ => absurd h (Nat.not_lt.2 (Nat.le_add_left _ _))
abbrev sem22_4 : Fin 1 → DmaSem sig := fun | 0 => cc22_sem4_0 | ⟨_ + 1, h⟩ => absurd h (Nat.not_lt.2 (Nat.le_add_left _ _))
abbrev reads22_4 : Fin grid22.rank → Bool := ![false]

abbrev stage22_5 : Fin 1 → Memref sig .tc .vmem S8x8 .f32 := fun | 0 => Memref.whole cc22_stg5_0 | ⟨_ + 1, h⟩ => absurd h (Nat.not_lt.2 (Nat.le_add_left _ _))
abbrev sem22_5 : Fin 1 → DmaSem sig := fun | 0 => cc22_sem5_0 | ⟨_ + 1, h⟩ => absurd h (Nat.not_lt.2 (Nat.le_add_left _ _))
abbrev reads22_5 : Fin grid22.rank → Bool := ![false]

abbrev stage22_6 : Fin 2 → Memref sig .tc .vmem S8x65536 .f32 := fun | 0 => Memref.whole cc22_stg6_0 | 1 => Memref.whole cc22_stg6_1 | ⟨_ + 2, h⟩ => absurd h (Nat.not_lt.2 (Nat.le_add_left _ _))
abbrev sem22_6 : Fin 2 → DmaSem sig := fun | 0 => cc22_sem6_0 | 1 => cc22_sem6_1 | ⟨_ + 2, h⟩ => absurd h (Nat.not_lt.2 (Nat.le_add_left _ _))
abbrev reads22_6 : Fin grid22.rank → Bool := ![true]

abbrev grid23 : Pipeline.Grid := ⟨1, ![8], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![c0_i32.toNat, arg0.toNat]

def cc23_transform_1 (i : grid23.Coords) : Fin 2 → Nat :=
  let arg0 : BitVec 32 := BitVec.ofNat 32 (i 0).val
  let c0_i32 : BitVec 32 := 0#32
  let c0_i32_0 : BitVec 32 := 0#32
  ![c0_i32.toNat, arg0.toNat]

def cc23_transform_2 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_3 (i : grid23.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage23_0 : Fin 2 → Memref sig .tc .vmem S8x65536 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 2 → Memref sig .tc .vmem S8x65536 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![true]

abbrev stage23_2 : Fin 1 → Memref sig .tc .vmem S8x1 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev stage23_3 : Fin 2 → Memref sig .tc .vmem S8x65536 .f32 := fun | 0 => Memref.whole cc23_stg3_0 | 1 => Memref.whole cc23_stg3_1 | ⟨_ + 2, h⟩ => absurd h (Nat.not_lt.2 (Nat.le_add_left _ _))
abbrev sem23_3 : Fin 2 → DmaSem sig := fun | 0 => cc23_sem3_0 | 1 => cc23_sem3_1 | ⟨_ + 2, h⟩ => absurd h (Nat.not_lt.2 (Nat.le_add_left _ _))
abbrev reads23_3 : Fin grid23.rank → Bool := ![true]

class Facts₀ : Prop where
  slices_S2x8000000_S1x8000000_0_0 : S2x8000000.Slices ![0, 0] S1x8000000
  shapeCasts_S1x8000000_S8000000 : S1x8000000.ShapeCasts S8000000
  concatenates_S8000000_S500000_S8500000_d0 : Shape.Concatenates [S8000000, S500000] S8500000 0
  slices_S2x8000000_S1x8000000_1_0 : S2x8000000.Slices ![1, 0] S1x8000000
  bcast_S_S8500000 : S_.BroadcastsInDim S8500000 (![] : Fin 0 → Fin S8500000.rank)
  bcast_S_S500000 : S_.BroadcastsInDim S500000 (![] : Fin 0 → Fin S500000.rank)
  bcast_S8500000_S8500000x1_0 : S8500000.BroadcastsInDim S8500000x1 (![0] : Fin 1 → Fin S8500000x1.rank)
  bcast_S500000_S500000x1_0 : S500000.BroadcastsInDim S500000x1 (![0] : Fin 1 → Fin S500000x1.rank)
  transposes_S500000x8_S8x500000_1_0 : S500000x8.Transposes [1, 0] S8x500000
  pads_S8x500000_S8x524288_000_0242880 : S8x500000.Pads (![0, 0] : Fin 2 → Nat) ![0, 24288] ![0, 0] S8x524288
  h_S_ : 0 < S_.numel
  inb_S8x1_S8x1_0_0 : ∀ a, (![0, 0] : Fin 2 → Nat) a + S8x1.size a ≤ S8x1.size a
  h_S8x1 : 0 < S8x1.numel
  inb_S8x65536_S8x65536_0_0 : ∀ a, (![0, 0] : Fin 2 → Nat) a + S8x65536.size a ≤ S8x65536.size a
  h_S8x65536 : 0 < S8x65536.numel
  shapeCasts_S8x65536_S8x65536 : S8x65536.ShapeCasts S8x65536
  shapeCasts_S8x1_S8x1 : S8x1.ShapeCasts S8x1
  reduces_S8x65536_S8 : S8x65536.Reduces [1] S8
  shapeCasts_S8_S8x1 : S8.ShapeCasts S8x1
  bcast_S_S8x1 : S_.BroadcastsInDim S8x1 (![] : Fin 0 → Fin S8x1.rank)
  slices_S8x8_S1x8_0_0 : S8x8.Slices ![0, 0] S1x8
  shapeCasts_S1x8_S8 : S1x8.ShapeCasts S8
  slices_S8x8x8_S1x8x8_0_0_0 : S8x8x8.Slices ![0, 0, 0] S1x8x8
  shapeCasts_S1x8x8_S8x8 : S1x8x8.ShapeCasts S8x8
  transposes_S8x8_S8x8_1_0 : S8x8.Transposes [1, 0] S8x8
  broadcasts_S8x1_S8x65536 : S8x1.Broadcasts S8x65536
  inb_S8x8_S8x8_0_0 : ∀ a, (![0, 0] : Fin 2 → Nat) a + S8x8.size a ≤ S8x8.size a
  h_S8x8 : 0 < S8x8.numel
  shapeCasts_S8x8_S8x8 : S8x8.ShapeCasts S8x8
  bitsLt_bf16_f32 : FTy.bits .bf16 < FTy.bits .f32
  slices_S8x524288_S8x500000_0_0 : S8x524288.Slices ![0, 0] S8x500000
  transposes_S8x500000_S500000x8_1_0 : S8x500000.Transposes [1, 0] S500000x8
  bcast_S8500000x1_S8500000x8_0_1 : S8500000x1.BroadcastsInDim S8500000x8 (![0, 1] : Fin 2 → Fin S8500000x8.rank)
  bcast_S_S500000x8 : S_.BroadcastsInDim S500000x8 (![] : Fin 0 → Fin S500000x8.rank)
  iota_S1x65536_d1_w32 : S1x65536.Iotas .tc 32 [1]
  natLt_1_32 : 1 < 32
  broadcasts_S1x65536_S8x65536 : S1x65536.Broadcasts S8x65536
  slices_S8x8_S1x8_1_0 : S8x8.Slices ![1, 0] S1x8
  slices_S8x8x8_S1x8x8_1_0_0 : S8x8x8.Slices ![1, 0, 0] S1x8x8
  slices_S8x8_S1x8_2_0 : S8x8.Slices ![2, 0] S1x8
  slices_S8x8x8_S1x8x8_2_0_0 : S8x8x8.Slices ![2, 0, 0] S1x8x8
  slices_S8x8_S1x8_3_0 : S8x8.Slices ![3, 0] S1x8
  slices_S8x8x8_S1x8x8_3_0_0 : S8x8x8.Slices ![3, 0, 0] S1x8x8
  slices_S8x8_S1x8_4_0 : S8x8.Slices ![4, 0] S1x8
  slices_S8x8x8_S1x8x8_4_0_0 : S8x8x8.Slices ![4, 0, 0] S1x8x8
  slices_S8x8_S1x8_5_0 : S8x8.Slices ![5, 0] S1x8
  slices_S8x8x8_S1x8x8_5_0_0 : S8x8x8.Slices ![5, 0, 0] S1x8x8
  slices_S8x8_S1x8_6_0 : S8x8.Slices ![6, 0] S1x8
  slices_S8x8x8_S1x8x8_6_0_0 : S8x8x8.Slices ![6, 0, 0] S1x8x8
  slices_S8x8_S1x8_7_0 : S8x8.Slices ![7, 0] S1x8
  slices_S8x8x8_S1x8x8_7_0_0 : S8x8x8.Slices ![7, 0, 0] S1x8x8
  bcast_S_S5000x8 : S_.BroadcastsInDim S5000x8 (![] : Fin 0 → Fin S5000x8.rank)
  bcast_S128_S1x128_1 : S128.BroadcastsInDim S1x128 (![1] : Fin 1 → Fin S1x128.rank)
  bcast_S1x128_S5000x128_0_1 : S1x128.BroadcastsInDim S5000x128 (![0, 1] : Fin 2 → Fin S5000x128.rank)
  bcast_S_S5000x128 : S_.BroadcastsInDim S5000x128 (![] : Fin 0 → Fin S5000x128.rank)
  bcast_S1_S1x1_1 : S1.BroadcastsInDim S1x1 (![1] : Fin 1 → Fin S1x1.rank)
  bcast_S1x1_S5000x1_0_1 : S1x1.BroadcastsInDim S5000x1 (![0, 1] : Fin 2 → Fin S5000x1.rank)
  shapeCasts_S5000x1_S5000 : S5000x1.ShapeCasts S5000
  scatter_S500000_S8500000x1_S8500000_n_0_0_1_wf : ScatterDims.WF S500000 S8500000x1 S8500000 [] [0] [0] 1
  gather_S500000_S8500000x1_S8500000_n_0_n_n_0_1_1_wf : GatherDims.WF S500000 S8500000x1 S8500000 [] [0] [] [0] [] 1 ![1]
  gather_S6x8_S500000x1_S500000x8_1_0_n_n_0_1_18_wf : GatherDims.WF S6x8 S500000x1 S500000x8 [1] [0] [] [0] [] 1 ![1, 8]
  dot_S8x8_S8x65536_S8x65536_1_0_0_1_n_n_wf : DotDims.WF S8x8 S8x65536 S8x65536 [1] [0] [0] [1] [] []
  gather_S500000x8_S8500000x1_S8500000x8_1_0_n_n_0_1_18_wf : GatherDims.WF S500000x8 S8500000x1 S8500000x8 [1] [0] [] [0] [] 1 ![1, 8]
  scatter_S500000x8_S8500000x1_S8500000x8_1_0_0_1_wf : ScatterDims.WF S500000x8 S8500000x1 S8500000x8 [1] [0] [0] 1
  scatter_S5000x8_S500000x1_S500000x8_1_0_0_1_wf : ScatterDims.WF S5000x8 S500000x1 S500000x8 [1] [0] [0] 1
  dot_S5000x8_S8x128_S5000x128_1_0_0_1_n_n_wf : DotDims.WF S5000x8 S8x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x65536.size a ≤ S8x524288.size a
  hwx0_0 : ∀ i : grid0.Coords, EltTy.bits .f32 = 32 ∨ (Rect.block (s := S8x524288) S8x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1.size a ≤ S8x1.size a
  hwx0_1 : ∀ i : grid0.Coords, EltTy.bits .f32 = 32 ∨ (Rect.block (s := S8x1) S8x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S8x1.size a
  hwx0_2 : ∀ i : grid0.Coords, EltTy.bits .f32 = 32 ∨ (Rect.block (s := S8x1) S8x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x65536.size a ≤ S8x524288.size a
  hwx1_0 : ∀ i : grid1.Coords, EltTy.bits .f32 = 32 ∨ (Rect.block (s := S8x524288) S8x65536.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x1.size a ≤ S8x1.size a
  hwx1_1 : ∀ i : grid1.Coords, EltTy.bits .f32 = 32 ∨ (Rect.block (s := S8x1) S8x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x1.size a ≤ S8x1.size a
  hwx1_2 : ∀ i : grid1.Coords, EltTy.bits .f32 = 32 ∨ (Rect.block (s := S8x1) S8x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x1.size a ≤ S8x1.size a
  hwx1_3 : ∀ i : grid1.Coords, EltTy.bits .f32 = 32 ∨ (Rect.block (s := S8x1) S8x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x1.size a ≤ S8x1.size a
  hwx1_4 : ∀ i : grid1.Coords, EltTy.bits .f32 = 32 ∨ (Rect.block (s := S8x1) S8x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x8.size a ≤ S8x8.size a
  hwx1_5 : ∀ i : grid1.Coords, EltTy.bits .f32 = 32 ∨ (Rect.block (s := S8x8) S8x8.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x65536.size a ≤ S8x524288.size a
  hwx1_6 : ∀ i : grid1.Coords, EltTy.bits .f32 = 32 ∨ (Rect.block (s := S8x524288) S8x65536.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x65536.size a ≤ S8x524288.size a
  hwx2_0 : ∀ i : grid2.Coords, EltTy.bits .f32 = 32 ∨ (Rect.block (s := S8x524288) S8x65536.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x65536.size a ≤ S8x524288.size a
  hwx2_1 : ∀ i : grid2.Coords, EltTy.bits .f32 = 32 ∨ (Rect.block (s := S8x524288) S8x65536.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x1.size a ≤ S8x1.size a
  hwx2_2 : ∀ i : grid2.Coords, EltTy.bits .f32 = 32 ∨ (Rect.block (s := S8x1) S8x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x65536.size a ≤ S8x524288.size a
  hwx2_3 : ∀ i : grid2.Coords, EltTy.bits .f32 = 32 ∨ (Rect.block (s := S8x524288) S8x65536.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x65536.size a ≤ S8x524288.size a
  hwx3_0 : ∀ i : grid3.Coords, EltTy.bits .f32 = 32 ∨ (Rect.block (s := S8x524288) S8x65536.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8x1.size a ≤ S8x1.size a
  hwx3_1 : ∀ i : grid3.Coords, EltTy.bits .f32 = 32 ∨ (Rect.block (s := S8x1) S8x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8x1.size a ≤ S8x1.size a
  hwx3_2 : ∀ i : grid3.Coords, EltTy.bits .f32 = 32 ∨ (Rect.block (s := S8x1) S8x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x65536.size a ≤ S8x524288.size a
  hwx4_0 : ∀ i : grid4.Coords, EltTy.bits .f32 = 32 ∨ (Rect.block (s := S8x524288) S8x65536.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8x1.size a ≤ S8x1.size a
  hwx4_1 : ∀ i : grid4.Coords, EltTy.bits .f32 = 32 ∨ (Rect.block (s := S8x1) S8x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S8x1.size a ≤ S8x1.size a
  hwx4_2 : ∀ i : grid4.Coords, EltTy.bits .f32 = 32 ∨ (Rect.block (s := S8x1) S8x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S8x1.size a ≤ S8x1.size a
  hwx4_3 : ∀ i : grid4.Coords, EltTy.bits .f32 = 32 ∨ (Rect.block (s := S8x1) S8x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S8x1.size a ≤ S8x1.size a
  hwx4_4 : ∀ i : grid4.Coords, EltTy.bits .f32 = 32 ∨ (Rect.block (s := S8x1) S8x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S8x8.size a ≤ S8x8.size a
  hwx4_5 : ∀ i : grid4.Coords, EltTy.bits .f32 = 32 ∨ (Rect.block (s := S8x8) S8x8.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S8x65536.size a ≤ S8x524288.size a
  hwx4_6 : ∀ i : grid4.Coords, EltTy.bits .f32 = 32 ∨ (Rect.block (s := S8x524288) S8x65536.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8x65536.size a ≤ S8x524288.size a
  hwx5_0 : ∀ i : grid5.Coords, EltTy.bits .f32 = 32 ∨ (Rect.block (s := S8x524288) S8x65536.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8x65536.size a ≤ S8x524288.size a
  hwx5_1 : ∀ i : grid5.Coords, EltTy.bits .f32 = 32 ∨ (Rect.block (s := S8x524288) S8x65536.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S8x1.size a ≤ S8x1.size a
  hwx5_2 : ∀ i : grid5.Coords, EltTy.bits .f32 = 32 ∨ (Rect.block (s := S8x1) S8x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8x65536.size a ≤ S8x524288.size a
  hwx5_3 : ∀ i : grid5.Coords, EltTy.bits .f32 = 32 ∨ (Rect.block (s := S8x524288) S8x65536.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8x65536.size a ≤ S8x524288.size a
  hwx6_0 : ∀ i : grid6.Coords, EltTy.bits .f32 = 32 ∨ (Rect.block (s := S8x524288) S8x65536.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S8x1.size a ≤ S8x1.size a
  hwx6_1 : ∀ i : grid6.Coords, EltTy.bits .f32 = 32 ∨ (Rect.block (s := S8x1) S8x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S8x1.size a ≤ S8x1.size a
  hwx6_2 : ∀ i : grid6.Coords, EltTy.bits .f32 = 32 ∨ (Rect.block (s := S8x1) S8x1.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8x65536.size a ≤ S8x524288.size a
  hwx7_0 : ∀ i : grid7.Coords, EltTy.bits .f32 = 32 ∨ (Rect.block (s := S8x524288) S8x65536.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S8x1.size a ≤ S8x1.size a
  hwx7_1 : ∀ i : grid7.Coords, EltTy.bits .f32 = 32 ∨ (Rect.block (s := S8x1) S8x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S8x1.size a ≤ S8x1.size a
  hwx7_2 : ∀ i : grid7.Coords, EltTy.bits .f32 = 32 ∨ (Rect.block (s := S8x1) S8x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S8x1.size a ≤ S8x1.size a
  hwx7_3 : ∀ i : grid7.Coords, EltTy.bits .f32 = 32 ∨ (Rect.block (s := S8x1) S8x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S8x1.size a ≤ S8x1.size a
  hwx7_4 : ∀ i : grid7.Coords, EltTy.bits .f32 = 32 ∨ (Rect.block (s := S8x1) S8x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S8x8.size a ≤ S8x8.size a
  hwx7_5 : ∀ i : grid7.Coords, EltTy.bits .f32 = 32 ∨ (Rect.block (s := S8x8) S8x8.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S8x65536.size a ≤ S8x524288.size a
  hwx7_6 : ∀ i : grid7.Coords, EltTy.bits .f32 = 32 ∨ (Rect.block (s := S8x524288) S8x65536.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8x65536.size a ≤ S8x524288.size a
  hwx8_0 : ∀ i : grid8.Coords, EltTy.bits .f32 = 32 ∨ (Rect.block (s := S8x524288) S8x65536.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S8x65536.size a ≤ S8x524288.size a
  hwx8_1 : ∀ i : grid8.Coords, EltTy.bits .f32 = 32 ∨ (Rect.block (s := S8x524288) S8x65536.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S8x1.size a ≤ S8x1.size a
  hwx8_2 : ∀ i : grid8.Coords, EltTy.bits .f32 = 32 ∨ (Rect.block (s := S8x1) S8x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S8x65536.size a ≤ S8x524288.size a
  hwx8_3 : ∀ i : grid8.Coords, EltTy.bits .f32 = 32 ∨ (Rect.block (s := S8x524288) S8x65536.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8x65536.size a ≤ S8x524288.size a
  hwx9_0 : ∀ i : grid9.Coords, EltTy.bits .f32 = 32 ∨ (Rect.block (s := S8x524288) S8x65536.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S8x1.size a ≤ S8x1.size a
  hwx9_1 : ∀ i : grid9.Coords, EltTy.bits .f32 = 32 ∨ (Rect.block (s := S8x1) S8x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S8x1.size a ≤ S8x1.size a
  hwx9_2 : ∀ i : grid9.Coords, EltTy.bits .f32 = 32 ∨ (Rect.block (s := S8x1) S8x1.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8x65536.size a ≤ S8x524288.size a
  hwx10_0 : ∀ i : grid10.Coords, EltTy.bits .f32 = 32 ∨ (Rect.block (s := S8x524288) S8x65536.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S8x1.size a ≤ S8x1.size a
  hwx10_1 : ∀ i : grid10.Coords, EltTy.bits .f32 = 32 ∨ (Rect.block (s := S8x1) S8x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S8x1.size a ≤ S8x1.size a
  hwx10_2 : ∀ i : grid10.Coords, EltTy.bits .f32 = 32 ∨ (Rect.block (s := S8x1) S8x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S8x1.size a ≤ S8x1.size a
  hwx10_3 : ∀ i : grid10.Coords, EltTy.bits .f32 = 32 ∨ (Rect.block (s := S8x1) S8x1.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S8x1.size a ≤ S8x1.size a
  hwx10_4 : ∀ i : grid10.Coords, EltTy.bits .f32 = 32 ∨ (Rect.block (s := S8x1) S8x1.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S8x8.size a ≤ S8x8.size a
  hwx10_5 : ∀ i : grid10.Coords, EltTy.bits .f32 = 32 ∨ (Rect.block (s := S8x8) S8x8.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S8x65536.size a ≤ S8x524288.size a
  hwx10_6 : ∀ i : grid10.Coords, EltTy.bits .f32 = 32 ∨ (Rect.block (s := S8x524288) S8x65536.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8x65536.size a ≤ S8x524288.size a
  hwx11_0 : ∀ i : grid11.Coords, EltTy.bits .f32 = 32 ∨ (Rect.block (s := S8x524288) S8x65536.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S8x65536.size a ≤ S8x524288.size a
  hwx11_1 : ∀ i : grid11.Coords, EltTy.bits .f32 = 32 ∨ (Rect.block (s := S8x524288) S8x65536.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S8x1.size a ≤ S8x1.size a
  hwx11_2 : ∀ i : grid11.Coords, EltTy.bits .f32 = 32 ∨ (Rect.block (s := S8x1) S8x1.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S8x65536.size a ≤ S8x524288.size a
  hwx11_3 : ∀ i : grid11.Coords, EltTy.bits .f32 = 32 ∨ (Rect.block (s := S8x524288) S8x65536.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S8x65536.size a ≤ S8x524288.size a
  hwx12_0 : ∀ i : grid12.Coords, EltTy.bits .f32 = 32 ∨ (Rect.block (s := S8x524288) S8x65536.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S8x1.size a ≤ S8x1.size a
  hwx12_1 : ∀ i : grid12.Coords, EltTy.bits .f32 = 32 ∨ (Rect.block (s := S8x1) S8x1.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S8x1.size a ≤ S8x1.size a
  hwx12_2 : ∀ i : grid12.Coords, EltTy.bits .f32 = 32 ∨ (Rect.block (s := S8x1) S8x1.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S8x65536.size a ≤ S8x524288.size a
  hwx13_0 : ∀ i : grid13.Coords, EltTy.bits .f32 = 32 ∨ (Rect.block (s := S8x524288) S8x65536.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S8x1.size a ≤ S8x1.size a
  hwx13_1 : ∀ i : grid13.Coords, EltTy.bits .f32 = 32 ∨ (Rect.block (s := S8x1) S8x1.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S8x1.size a ≤ S8x1.size a
  hwx13_2 : ∀ i : grid13.Coords, EltTy.bits .f32 = 32 ∨ (Rect.block (s := S8x1) S8x1.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S8x1.size a ≤ S8x1.size a
  hwx13_3 : ∀ i : grid13.Coords, EltTy.bits .f32 = 32 ∨ (Rect.block (s := S8x1) S8x1.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S8x1.size a ≤ S8x1.size a
  hwx13_4 : ∀ i : grid13.Coords, EltTy.bits .f32 = 32 ∨ (Rect.block (s := S8x1) S8x1.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S8x8.size a ≤ S8x8.size a
  hwx13_5 : ∀ i : grid13.Coords, EltTy.bits .f32 = 32 ∨ (Rect.block (s := S8x8) S8x8.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S8x65536.size a ≤ S8x524288.size a
  hwx13_6 : ∀ i : grid13.Coords, EltTy.bits .f32 = 32 ∨ (Rect.block (s := S8x524288) S8x65536.size (cc13_transform_6 i) (hinb13_6 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S8x65536.size a ≤ S8x524288.size a
  hwx14_0 : ∀ i : grid14.Coords, EltTy.bits .f32 = 32 ∨ (Rect.block (s := S8x524288) S8x65536.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S8x65536.size a ≤ S8x524288.size a
  hwx14_1 : ∀ i : grid14.Coords, EltTy.bits .f32 = 32 ∨ (Rect.block (s := S8x524288) S8x65536.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S8x1.size a ≤ S8x1.size a
  hwx14_2 : ∀ i : grid14.Coords, EltTy.bits .f32 = 32 ∨ (Rect.block (s := S8x1) S8x1.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S8x65536.size a ≤ S8x524288.size a
  hwx14_3 : ∀ i : grid14.Coords, EltTy.bits .f32 = 32 ∨ (Rect.block (s := S8x524288) S8x65536.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S8x65536.size a ≤ S8x524288.size a
  hwx15_0 : ∀ i : grid15.Coords, EltTy.bits .f32 = 32 ∨ (Rect.block (s := S8x524288) S8x65536.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S8x1.size a ≤ S8x1.size a
  hwx15_1 : ∀ i : grid15.Coords, EltTy.bits .f32 = 32 ∨ (Rect.block (s := S8x1) S8x1.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S8x1.size a ≤ S8x1.size a
  hwx15_2 : ∀ i : grid15.Coords, EltTy.bits .f32 = 32 ∨ (Rect.block (s := S8x1) S8x1.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S8x65536.size a ≤ S8x524288.size a
  hwx16_0 : ∀ i : grid16.Coords, EltTy.bits .f32 = 32 ∨ (Rect.block (s := S8x524288) S8x65536.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S8x1.size a ≤ S8x1.size a
  hwx16_1 : ∀ i : grid16.Coords, EltTy.bits .f32 = 32 ∨ (Rect.block (s := S8x1) S8x1.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S8x1.size a ≤ S8x1.size a
  hwx16_2 : ∀ i : grid16.Coords, EltTy.bits .f32 = 32 ∨ (Rect.block (s := S8x1) S8x1.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S8x1.size a ≤ S8x1.size a
  hwx16_3 : ∀ i : grid16.Coords, EltTy.bits .f32 = 32 ∨ (Rect.block (s := S8x1) S8x1.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S8x1.size a ≤ S8x1.size a
  hwx16_4 : ∀ i : grid16.Coords, EltTy.bits .f32 = 32 ∨ (Rect.block (s := S8x1) S8x1.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S8x8.size a ≤ S8x8.size a
  hwx16_5 : ∀ i : grid16.Coords, EltTy.bits .f32 = 32 ∨ (Rect.block (s := S8x8) S8x8.size (cc16_transform_5 i) (hinb16_5 i)).WholeWords (EltTy.packing .f32)
  hstage16_6 : ∀ j, (stage16_6 j).IsWhole
  nbuf16_6 : grid16.bufCount reads16_6 false = 2
  hreads16_6 : ∀ i i' : grid16.Coords, (∀ a, reads16_6 a = true → i a = i' a) → cc16_transform_6 i = cc16_transform_6 i'
  hinb16_6 : ∀ (i : grid16.Coords) a, (cc16_transform_6 i a + 1) * S8x65536.size a ≤ S8x524288.size a
  hwx16_6 : ∀ i : grid16.Coords, EltTy.bits .f32 = 32 ∨ (Rect.block (s := S8x524288) S8x65536.size (cc16_transform_6 i) (hinb16_6 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S8x65536.size a ≤ S8x524288.size a
  hwx17_0 : ∀ i : grid17.Coords, EltTy.bits .f32 = 32 ∨ (Rect.block (s := S8x524288) S8x65536.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S8x65536.size a ≤ S8x524288.size a
  hwx17_1 : ∀ i : grid17.Coords, EltTy.bits .f32 = 32 ∨ (Rect.block (s := S8x524288) S8x65536.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S8x1.size a ≤ S8x1.size a
  hwx17_2 : ∀ i : grid17.Coords, EltTy.bits .f32 = 32 ∨ (Rect.block (s := S8x1) S8x1.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S8x65536.size a ≤ S8x524288.size a
  hwx17_3 : ∀ i : grid17.Coords, EltTy.bits .f32 = 32 ∨ (Rect.block (s := S8x524288) S8x65536.size (cc17_transform_3 i) (hinb17_3 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S8x65536.size a ≤ S8x524288.size a
  hwx18_0 : ∀ i : grid18.Coords, EltTy.bits .f32 = 32 ∨ (Rect.block (s := S8x524288) S8x65536.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S8x1.size a ≤ S8x1.size a
  hwx18_1 : ∀ i : grid18.Coords, EltTy.bits .f32 = 32 ∨ (Rect.block (s := S8x1) S8x1.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S8x1.size a ≤ S8x1.size a
  hwx18_2 : ∀ i : grid18.Coords, EltTy.bits .f32 = 32 ∨ (Rect.block (s := S8x1) S8x1.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S8x65536.size a ≤ S8x524288.size a
  hwx19_0 : ∀ i : grid19.Coords, EltTy.bits .f32 = 32 ∨ (Rect.block (s := S8x524288) S8x65536.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S8x1.size a ≤ S8x1.size a
  hwx19_1 : ∀ i : grid19.Coords, EltTy.bits .f32 = 32 ∨ (Rect.block (s := S8x1) S8x1.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S8x1.size a ≤ S8x1.size a
  hwx19_2 : ∀ i : grid19.Coords, EltTy.bits .f32 = 32 ∨ (Rect.block (s := S8x1) S8x1.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S8x1.size a ≤ S8x1.size a
  hwx19_3 : ∀ i : grid19.Coords, EltTy.bits .f32 = 32 ∨ (Rect.block (s := S8x1) S8x1.size (cc19_transform_3 i) (hinb19_3 i)).WholeWords (EltTy.packing .f32)
  hstage19_4 : ∀ j, (stage19_4 j).IsWhole
  nbuf19_4 : grid19.bufCount reads19_4 true = 1
  hreads19_4 : ∀ i i' : grid19.Coords, (∀ a, reads19_4 a = true → i a = i' a) → cc19_transform_4 i = cc19_transform_4 i'
  hinb19_4 : ∀ (i : grid19.Coords) a, (cc19_transform_4 i a + 1) * S8x1.size a ≤ S8x1.size a
  hwx19_4 : ∀ i : grid19.Coords, EltTy.bits .f32 = 32 ∨ (Rect.block (s := S8x1) S8x1.size (cc19_transform_4 i) (hinb19_4 i)).WholeWords (EltTy.packing .f32)
  hstage19_5 : ∀ j, (stage19_5 j).IsWhole
  nbuf19_5 : grid19.bufCount reads19_5 true = 1
  hreads19_5 : ∀ i i' : grid19.Coords, (∀ a, reads19_5 a = true → i a = i' a) → cc19_transform_5 i = cc19_transform_5 i'
  hinb19_5 : ∀ (i : grid19.Coords) a, (cc19_transform_5 i a + 1) * S8x8.size a ≤ S8x8.size a
  hwx19_5 : ∀ i : grid19.Coords, EltTy.bits .f32 = 32 ∨ (Rect.block (s := S8x8) S8x8.size (cc19_transform_5 i) (hinb19_5 i)).WholeWords (EltTy.packing .f32)
  hstage19_6 : ∀ j, (stage19_6 j).IsWhole
  nbuf19_6 : grid19.bufCount reads19_6 false = 2
  hreads19_6 : ∀ i i' : grid19.Coords, (∀ a, reads19_6 a = true → i a = i' a) → cc19_transform_6 i = cc19_transform_6 i'
  hinb19_6 : ∀ (i : grid19.Coords) a, (cc19_transform_6 i a + 1) * S8x65536.size a ≤ S8x524288.size a
  hwx19_6 : ∀ i : grid19.Coords, EltTy.bits .f32 = 32 ∨ (Rect.block (s := S8x524288) S8x65536.size (cc19_transform_6 i) (hinb19_6 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S8x65536.size a ≤ S8x524288.size a
  hwx20_0 : ∀ i : grid20.Coords, EltTy.bits .f32 = 32 ∨ (Rect.block (s := S8x524288) S8x65536.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S8x65536.size a ≤ S8x524288.size a
  hwx20_1 : ∀ i : grid20.Coords, EltTy.bits .f32 = 32 ∨ (Rect.block (s := S8x524288) S8x65536.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S8x1.size a ≤ S8x1.size a
  hwx20_2 : ∀ i : grid20.Coords, EltTy.bits .f32 = 32 ∨ (Rect.block (s := S8x1) S8x1.size (cc20_transform_2 i) (hinb20_2 i)).WholeWords (EltTy.packing .f32)
  hstage20_3 : ∀ j, (stage20_3 j).IsWhole
  nbuf20_3 : grid20.bufCount reads20_3 false = 2
  hreads20_3 : ∀ i i' : grid20.Coords, (∀ a, reads20_3 a = true → i a = i' a) → cc20_transform_3 i = cc20_transform_3 i'
  hinb20_3 : ∀ (i : grid20.Coords) a, (cc20_transform_3 i a + 1) * S8x65536.size a ≤ S8x524288.size a
  hwx20_3 : ∀ i : grid20.Coords, EltTy.bits .f32 = 32 ∨ (Rect.block (s := S8x524288) S8x65536.size (cc20_transform_3 i) (hinb20_3 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S8x65536.size a ≤ S8x524288.size a
  hwx21_0 : ∀ i : grid21.Coords, EltTy.bits .f32 = 32 ∨ (Rect.block (s := S8x524288) S8x65536.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S8x1.size a ≤ S8x1.size a
  hwx21_1 : ∀ i : grid21.Coords, EltTy.bits .f32 = 32 ∨ (Rect.block (s := S8x1) S8x1.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S8x1.size a ≤ S8x1.size a
  hwx21_2 : ∀ i : grid21.Coords, EltTy.bits .f32 = 32 ∨ (Rect.block (s := S8x1) S8x1.size (cc21_transform_2 i) (hinb21_2 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S8x65536.size a ≤ S8x524288.size a
  hwx22_0 : ∀ i : grid22.Coords, EltTy.bits .f32 = 32 ∨ (Rect.block (s := S8x524288) S8x65536.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S8x1.size a ≤ S8x1.size a
  hwx22_1 : ∀ i : grid22.Coords, EltTy.bits .f32 = 32 ∨ (Rect.block (s := S8x1) S8x1.size (cc22_transform_1 i) (hinb22_1 i)).WholeWords (EltTy.packing .f32)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S8x1.size a ≤ S8x1.size a
  hwx22_2 : ∀ i : grid22.Coords, EltTy.bits .f32 = 32 ∨ (Rect.block (s := S8x1) S8x1.size (cc22_transform_2 i) (hinb22_2 i)).WholeWords (EltTy.packing .f32)
  hstage22_3 : ∀ j, (stage22_3 j).IsWhole
  nbuf22_3 : grid22.bufCount reads22_3 true = 1
  hreads22_3 : ∀ i i' : grid22.Coords, (∀ a, reads22_3 a = true → i a = i' a) → cc22_transform_3 i = cc22_transform_3 i'
  hinb22_3 : ∀ (i : grid22.Coords) a, (cc22_transform_3 i a + 1) * S8x1.size a ≤ S8x1.size a
  hwx22_3 : ∀ i : grid22.Coords, EltTy.bits .f32 = 32 ∨ (Rect.block (s := S8x1) S8x1.size (cc22_transform_3 i) (hinb22_3 i)).WholeWords (EltTy.packing .f32)
  hstage22_4 : ∀ j, (stage22_4 j).IsWhole
  nbuf22_4 : grid22.bufCount reads22_4 true = 1
  hreads22_4 : ∀ i i' : grid22.Coords, (∀ a, reads22_4 a = true → i a = i' a) → cc22_transform_4 i = cc22_transform_4 i'
  hinb22_4 : ∀ (i : grid22.Coords) a, (cc22_transform_4 i a + 1) * S8x1.size a ≤ S8x1.size a
  hwx22_4 : ∀ i : grid22.Coords, EltTy.bits .f32 = 32 ∨ (Rect.block (s := S8x1) S8x1.size (cc22_transform_4 i) (hinb22_4 i)).WholeWords (EltTy.packing .f32)
  hstage22_5 : ∀ j, (stage22_5 j).IsWhole
  nbuf22_5 : grid22.bufCount reads22_5 true = 1
  hreads22_5 : ∀ i i' : grid22.Coords, (∀ a, reads22_5 a = true → i a = i' a) → cc22_transform_5 i = cc22_transform_5 i'
  hinb22_5 : ∀ (i : grid22.Coords) a, (cc22_transform_5 i a + 1) * S8x8.size a ≤ S8x8.size a
  hwx22_5 : ∀ i : grid22.Coords, EltTy.bits .f32 = 32 ∨ (Rect.block (s := S8x8) S8x8.size (cc22_transform_5 i) (hinb22_5 i)).WholeWords (EltTy.packing .f32)
  hstage22_6 : ∀ j, (stage22_6 j).IsWhole
  nbuf22_6 : grid22.bufCount reads22_6 false = 2
  hreads22_6 : ∀ i i' : grid22.Coords, (∀ a, reads22_6 a = true → i a = i' a) → cc22_transform_6 i = cc22_transform_6 i'
  hinb22_6 : ∀ (i : grid22.Coords) a, (cc22_transform_6 i a + 1) * S8x65536.size a ≤ S8x524288.size a
  hwx22_6 : ∀ i : grid22.Coords, EltTy.bits .f32 = 32 ∨ (Rect.block (s := S8x524288) S8x65536.size (cc22_transform_6 i) (hinb22_6 i)).WholeWords (EltTy.packing .f32)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S8x65536.size a ≤ S8x524288.size a
  hwx23_0 : ∀ i : grid23.Coords, EltTy.bits .f32 = 32 ∨ (Rect.block (s := S8x524288) S8x65536.size (cc23_transform_0 i) (hinb23_0 i)).WholeWords (EltTy.packing .f32)
  hstage23_1 : ∀ j, (stage23_1 j).IsWhole
  nbuf23_1 : grid23.bufCount reads23_1 false = 2
  hreads23_1 : ∀ i i' : grid23.Coords, (∀ a, reads23_1 a = true → i a = i' a) → cc23_transform_1 i = cc23_transform_1 i'
  hinb23_1 : ∀ (i : grid23.Coords) a, (cc23_transform_1 i a + 1) * S8x65536.size a ≤ S8x524288.size a
  hwx23_1 : ∀ i : grid23.Coords, EltTy.bits .f32 = 32 ∨ (Rect.block (s := S8x524288) S8x65536.size (cc23_transform_1 i) (hinb23_1 i)).WholeWords (EltTy.packing .f32)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S8x1.size a ≤ S8x1.size a
  hwx23_2 : ∀ i : grid23.Coords, EltTy.bits .f32 = 32 ∨ (Rect.block (s := S8x1) S8x1.size (cc23_transform_2 i) (hinb23_2 i)).WholeWords (EltTy.packing .f32)
  hstage23_3 : ∀ j, (stage23_3 j).IsWhole
  nbuf23_3 : grid23.bufCount reads23_3 false = 2
  hreads23_3 : ∀ i i' : grid23.Coords, (∀ a, reads23_3 a = true → i a = i' a) → cc23_transform_3 i = cc23_transform_3 i'
  hinb23_3 : ∀ (i : grid23.Coords) a, (cc23_transform_3 i a + 1) * S8x65536.size a ≤ S8x524288.size a
  hwx23_3 : ∀ i : grid23.Coords, EltTy.bits .f32 = 32 ∨ (Rect.block (s := S8x524288) S8x65536.size (cc23_transform_3 i) (hinb23_3 i)).WholeWords (EltTy.packing .f32)

variable [Facts₀]

def scatter_S500000_S8500000x1_S8500000_n_0_0_1 : ScatterDims S500000 S8500000x1 S8500000 where
  updateWindowDims := []
  insertedWindowDims := [0]
  scatterDimsToOperandDims := [0]
  indexVectorDim := 1
  wf := scatter_S500000_S8500000x1_S8500000_n_0_0_1_wf
def gather_S500000_S8500000x1_S8500000_n_0_n_n_0_1_1 : GatherDims S500000 S8500000x1 S8500000 where
  offsetDims := []
  collapsedSliceDims := [0]
  operandBatchingDims := []
  startIndicesBatchingDims := []
  startIndexMap := [0]
  indexVectorDim := 1
  sliceSizes := ![1]
  wf := gather_S500000_S8500000x1_S8500000_n_0_n_n_0_1_1_wf
def gather_S6x8_S500000x1_S500000x8_1_0_n_n_0_1_18 : GatherDims S6x8 S500000x1 S500000x8 where
  offsetDims := [1]
  collapsedSliceDims := [0]
  operandBatchingDims := []
  startIndicesBatchingDims := []
  startIndexMap := [0]
  indexVectorDim := 1
  sliceSizes := ![1, 8]
  wf := gather_S6x8_S500000x1_S500000x8_1_0_n_n_0_1_18_wf
def dot_S8x8_S8x65536_S8x65536_1_0_0_1_n_n : DotDims S8x8 S8x65536 S8x65536 where
  lhsContracting := [1]
  rhsContracting := [0]
  lhsNonContracting := [0]
  rhsNonContracting := [1]
  lhsBatch := []
  rhsBatch := []
  wf := dot_S8x8_S8x65536_S8x65536_1_0_0_1_n_n_wf
def gather_S500000x8_S8500000x1_S8500000x8_1_0_n_n_0_1_18 : GatherDims S500000x8 S8500000x1 S8500000x8 where
  offsetDims := [1]
  collapsedSliceDims := [0]
  operandBatchingDims := []
  startIndicesBatchingDims := []
  startIndexMap := [0]
  indexVectorDim := 1
  sliceSizes := ![1, 8]
  wf := gather_S500000x8_S8500000x1_S8500000x8_1_0_n_n_0_1_18_wf
def scatter_S500000x8_S8500000x1_S8500000x8_1_0_0_1 : ScatterDims S500000x8 S8500000x1 S8500000x8 where
  updateWindowDims := [1]
  insertedWindowDims := [0]
  scatterDimsToOperandDims := [0]
  indexVectorDim := 1
  wf := scatter_S500000x8_S8500000x1_S8500000x8_1_0_0_1_wf
def scatter_S5000x8_S500000x1_S500000x8_1_0_0_1 : ScatterDims S5000x8 S500000x1 S500000x8 where
  updateWindowDims := [1]
  insertedWindowDims := [0]
  scatterDimsToOperandDims := [0]
  indexVectorDim := 1
  wf := scatter_S5000x8_S500000x1_S500000x8_1_0_0_1_wf
def dot_S5000x8_S8x128_S5000x128_1_0_0_1_n_n : DotDims S5000x8 S8x128 S5000x128 where
  lhsContracting := [1]
  rhsContracting := [0]
  lhsNonContracting := [0]
  rhsNonContracting := [1]
  lhsBatch := []
  rhsBatch := []
  wf := dot_S5000x8_S8x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v35) S8x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36_0) S8x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36_1) S8x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S8x65536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S8x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S8x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S8x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S8x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S8x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S8x65536.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v35) S8x65536.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S8x65536.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v72) S8x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S8x65536.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S8x65536.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74_0) S8x1.size cc3_transform_1 reads3_1 true true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74_1) S8x1.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S8x65536.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S8x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S8x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S8x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86) S8x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v89) S8x8.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v90) S8x65536.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v73) S8x65536.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v107) S8x65536.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v110) S8x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v111) S8x65536.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v111) S8x65536.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v112_0) S8x1.size cc6_transform_1 reads6_1 true true 1 stage6_1 sem6_1
    hrank6 hreads6_1 hinb6_1 nbuf6_1 (Memref.isWhole_whole _) hwx6_1 hstage6_1

abbrev win6_2 : Pipeline.Window sig grid6 :=
  Pipeline.Window.ofSpec (Memref.whole main_v112_1) S8x1.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v111) S8x65536.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v114) S8x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v118) S8x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v121) S8x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v124) S8x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v127) S8x8.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v128) S8x65536.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v111) S8x65536.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v145) S8x65536.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v148) S8x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v149) S8x65536.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v149) S8x65536.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v150_0) S8x1.size cc9_transform_1 reads9_1 true true 1 stage9_1 sem9_1
    hrank9 hreads9_1 hinb9_1 nbuf9_1 (Memref.isWhole_whole _) hwx9_1 hstage9_1

abbrev win9_2 : Pipeline.Window sig grid9 :=
  Pipeline.Window.ofSpec (Memref.whole main_v150_1) S8x1.size cc9_transform_2 reads9_2 true true 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v149) S8x65536.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v152) S8x1.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v156) S8x1.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v159) S8x1.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v162) S8x1.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v165) S8x8.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v166) S8x65536.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v149) S8x65536.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v183) S8x65536.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v186) S8x1.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v187) S8x65536.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v187) S8x65536.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v188_0) S8x1.size cc12_transform_1 reads12_1 true true 1 stage12_1 sem12_1
    hrank12 hreads12_1 hinb12_1 nbuf12_1 (Memref.isWhole_whole _) hwx12_1 hstage12_1

abbrev win12_2 : Pipeline.Window sig grid12 :=
  Pipeline.Window.ofSpec (Memref.whole main_v188_1) S8x1.size cc12_transform_2 reads12_2 true true 1 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v187) S8x65536.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v190) S8x1.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v194) S8x1.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v197) S8x1.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v200) S8x1.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v203) S8x8.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v204) S8x65536.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v187) S8x65536.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v221) S8x65536.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v224) S8x1.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v225) S8x65536.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v225) S8x65536.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v226_0) S8x1.size cc15_transform_1 reads15_1 true true 1 stage15_1 sem15_1
    hrank15 hreads15_1 hinb15_1 nbuf15_1 (Memref.isWhole_whole _) hwx15_1 hstage15_1

abbrev win15_2 : Pipeline.Window sig grid15 :=
  Pipeline.Window.ofSpec (Memref.whole main_v226_1) S8x1.size cc15_transform_2 reads15_2 true true 1 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v225) S8x65536.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v228) S8x1.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v232) S8x1.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v235) S8x1.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v238) S8x1.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v241) S8x8.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_v242) S8x65536.size cc16_transform_6 reads16_6 true false 2 stage16_6 sem16_6
    hrank16 hreads16_6 hinb16_6 nbuf16_6 (Memref.isWhole_whole _) hwx16_6 hstage16_6

abbrev win16 : Fin 7 → Pipeline.Window sig grid16 := fun | 0 => win16_0 | 1 => win16_1 | 2 => win16_2 | 3 => win16_3 | 4 => win16_4 | 5 => win16_5 | 6 => win16_6 | ⟨_ + 7, h⟩ => absurd h (Nat.not_lt.2 (Nat.le_add_left _ _))
abbrev spec16 : Fin 7 → Pipeline.WinSpec sig grid16.rank := fun w => (win16 w).toWinSpec

abbrev win17_0 : Pipeline.Window sig grid17 :=
  Pipeline.Window.ofSpec (Memref.whole main_v225) S8x65536.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v259) S8x65536.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v262) S8x1.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v263) S8x65536.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v263) S8x65536.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v264_0) S8x1.size cc18_transform_1 reads18_1 true true 1 stage18_1 sem18_1
    hrank18 hreads18_1 hinb18_1 nbuf18_1 (Memref.isWhole_whole _) hwx18_1 hstage18_1

abbrev win18_2 : Pipeline.Window sig grid18 :=
  Pipeline.Window.ofSpec (Memref.whole main_v264_1) S8x1.size cc18_transform_2 reads18_2 true true 1 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v263) S8x65536.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v266) S8x1.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v270) S8x1.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v273) S8x1.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v276) S8x1.size cc19_transform_4 reads19_4 false true 1 stage19_4 sem19_4
    hrank19 hreads19_4 hinb19_4 nbuf19_4 (Memref.isWhole_whole _) hwx19_4 hstage19_4

abbrev win19_5 : Pipeline.Window sig grid19 :=
  Pipeline.Window.ofSpec (Memref.whole main_v279) S8x8.size cc19_transform_5 reads19_5 false true 1 stage19_5 sem19_5
    hrank19 hreads19_5 hinb19_5 nbuf19_5 (Memref.isWhole_whole _) hwx19_5 hstage19_5

abbrev win19_6 : Pipeline.Window sig grid19 :=
  Pipeline.Window.ofSpec (Memref.whole main_v280) S8x65536.size cc19_transform_6 reads19_6 true false 2 stage19_6 sem19_6
    hrank19 hreads19_6 hinb19_6 nbuf19_6 (Memref.isWhole_whole _) hwx19_6 hstage19_6

abbrev win19 : Fin 7 → Pipeline.Window sig grid19 := fun | 0 => win19_0 | 1 => win19_1 | 2 => win19_2 | 3 => win19_3 | 4 => win19_4 | 5 => win19_5 | 6 => win19_6 | ⟨_ + 7, h⟩ => absurd h (Nat.not_lt.2 (Nat.le_add_left _ _))
abbrev spec19 : Fin 7 → Pipeline.WinSpec sig grid19.rank := fun w => (win19 w).toWinSpec

abbrev win20_0 : Pipeline.Window sig grid20 :=
  Pipeline.Window.ofSpec (Memref.whole main_v263) S8x65536.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v297) S8x65536.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v300) S8x1.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v301) S8x65536.size cc20_transform_3 reads20_3 true false 2 stage20_3 sem20_3
    hrank20 hreads20_3 hinb20_3 nbuf20_3 (Memref.isWhole_whole _) hwx20_3 hstage20_3

abbrev win20 : Fin 4 → Pipeline.Window sig grid20 := fun | 0 => win20_0 | 1 => win20_1 | 2 => win20_2 | 3 => win20_3 | ⟨_ + 4, h⟩ => absurd h (Nat.not_lt.2 (Nat.le_add_left _ _))
abbrev spec20 : Fin 4 → Pipeline.WinSpec sig grid20.rank := fun w => (win20 w).toWinSpec

abbrev win21_0 : Pipeline.Window sig grid21 :=
  Pipeline.Window.ofSpec (Memref.whole main_v301) S8x65536.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v302_0) S8x1.size cc21_transform_1 reads21_1 true true 1 stage21_1 sem21_1
    hrank21 hreads21_1 hinb21_1 nbuf21_1 (Memref.isWhole_whole _) hwx21_1 hstage21_1

abbrev win21_2 : Pipeline.Window sig grid21 :=
  Pipeline.Window.ofSpec (Memref.whole main_v302_1) S8x1.size cc21_transform_2 reads21_2 true true 1 stage21_2 sem21_2
    hrank21 hreads21_2 hinb21_2 nbuf21_2 (Memref.isWhole_whole _) hwx21_2 hstage21_2

abbrev win21 : Fin 3 → Pipeline.Window sig grid21 := fun | 0 => win21_0 | 1 => win21_1 | 2 => win21_2 | ⟨_ + 3, h⟩ => absurd h (Nat.not_lt.2 (Nat.le_add_left _ _))
abbrev spec21 : Fin 3 → Pipeline.WinSpec sig grid21.rank := fun w => (win21 w).toWinSpec

abbrev win22_0 : Pipeline.Window sig grid22 :=
  Pipeline.Window.ofSpec (Memref.whole main_v301) S8x65536.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v304) S8x1.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v308) S8x1.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_v311) S8x1.size cc22_transform_3 reads22_3 false true 1 stage22_3 sem22_3
    hrank22 hreads22_3 hinb22_3 nbuf22_3 (Memref.isWhole_whole _) hwx22_3 hstage22_3

abbrev win22_4 : Pipeline.Window sig grid22 :=
  Pipeline.Window.ofSpec (Memref.whole main_v314) S8x1.size cc22_transform_4 reads22_4 false true 1 stage22_4 sem22_4
    hrank22 hreads22_4 hinb22_4 nbuf22_4 (Memref.isWhole_whole _) hwx22_4 hstage22_4

abbrev win22_5 : Pipeline.Window sig grid22 :=
  Pipeline.Window.ofSpec (Memref.whole main_v317) S8x8.size cc22_transform_5 reads22_5 false true 1 stage22_5 sem22_5
    hrank22 hreads22_5 hinb22_5 nbuf22_5 (Memref.isWhole_whole _) hwx22_5 hstage22_5

abbrev win22_6 : Pipeline.Window sig grid22 :=
  Pipeline.Window.ofSpec (Memref.whole main_v318) S8x65536.size cc22_transform_6 reads22_6 true false 2 stage22_6 sem22_6
    hrank22 hreads22_6 hinb22_6 nbuf22_6 (Memref.isWhole_whole _) hwx22_6 hstage22_6

abbrev win22 : Fin 7 → Pipeline.Window sig grid22 := fun | 0 => win22_0 | 1 => win22_1 | 2 => win22_2 | 3 => win22_3 | 4 => win22_4 | 5 => win22_5 | 6 => win22_6 | ⟨_ + 7, h⟩ => absurd h (Nat.not_lt.2 (Nat.le_add_left _ _))
abbrev spec22 : Fin 7 → Pipeline.WinSpec sig grid22.rank := fun w => (win22 w).toWinSpec

abbrev win23_0 : Pipeline.Window sig grid23 :=
  Pipeline.Window.ofSpec (Memref.whole main_v301) S8x65536.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v335) S8x65536.size cc23_transform_1 reads23_1 false false 2 stage23_1 sem23_1
    hrank23 hreads23_1 hinb23_1 nbuf23_1 (Memref.isWhole_whole _) hwx23_1 hstage23_1

abbrev win23_2 : Pipeline.Window sig grid23 :=
  Pipeline.Window.ofSpec (Memref.whole main_v338) S8x1.size cc23_transform_2 reads23_2 false true 1 stage23_2 sem23_2
    hrank23 hreads23_2 hinb23_2 nbuf23_2 (Memref.isWhole_whole _) hwx23_2 hstage23_2

abbrev win23_3 : Pipeline.Window sig grid23 :=
  Pipeline.Window.ofSpec (Memref.whole main_v339) S8x65536.size cc23_transform_3 reads23_3 true false 2 stage23_3 sem23_3
    hrank23 hreads23_3 hinb23_3 nbuf23_3 (Memref.isWhole_whole _) hwx23_3 hstage23_3

abbrev win23 : Fin 4 → Pipeline.Window sig grid23 := fun | 0 => win23_0 | 1 => win23_1 | 2 => win23_2 | 3 => win23_3 | ⟨_ + 4, h⟩ => absurd h (Nat.not_lt.2 (Nat.le_add_left _ _))
abbrev spec23 : Fin 4 → Pipeline.WinSpec sig grid23.rank := fun w => (win23 w).toWinSpec

class Facts : Prop extends Facts₀ where

variable [Facts]
-- ==== ReferenceIdeal.lean ====
abbrev S500000 : Shape := ⟨1, ![500000]⟩
abbrev S2x8000000 : Shape := ⟨2, ![2, 8000000]⟩
abbrev S6x8 : Shape := ⟨2, ![6, 8]⟩
abbrev S8x8 : Shape := ⟨2, ![8, 8]⟩
abbrev S8x8x8 : Shape := ⟨3, ![8, 8, 8]⟩
abbrev S8x128 : Shape := ⟨2, ![8, 128]⟩
abbrev S128 : Shape := ⟨1, ![128]⟩
abbrev S128x1 : Shape := ⟨2, ![128, 1]⟩
abbrev S1 : Shape := ⟨1, ![1]⟩
abbrev S1x8000000 : Shape := ⟨2, ![1, 8000000]⟩
abbrev S8000000 : Shape := ⟨1, ![8000000]⟩
abbrev S8500000 : Shape := ⟨1, ![8500000]⟩
abbrev S_ : Shape := ⟨0, ![]⟩
abbrev S8500000x1 : Shape := ⟨2, ![8500000, 1]⟩
abbrev S500000x1 : Shape := ⟨2, ![500000, 1]⟩
abbrev S500000x8 : Shape := ⟨2, ![500000, 8]⟩
abbrev S8 : Shape := ⟨1, ![8]⟩
abbrev S1x8 : Shape := ⟨2, ![1, 8]⟩
abbrev S1x8x8 : Shape := ⟨3, ![1, 8, 8]⟩
abbrev S8500000x8 : Shape := ⟨2, ![8500000, 8]⟩
abbrev S5000x8 : Shape := ⟨2, ![5000, 8]⟩
abbrev S5000x128 : Shape := ⟨2, ![5000, 128]⟩
abbrev S1x128 : Shape := ⟨2, ![1, 128]⟩
abbrev S5000x1 : Shape := ⟨2, ![5000, 1]⟩
abbrev S1x1 : Shape := ⟨2, ![1, 1]⟩
abbrev S5000 : Shape := ⟨1, ![5000]⟩

abbrev nBuf : Space → Nat
  | .hbm => 671
  | .vmem => 0
  | .smem => 0
  | _ => 0

abbrev hbmTy0_0 (i : Nat) : BufTy := match i % 128 with
  | 0 => ⟨S500000, .i32⟩
  | 1 => ⟨S2x8000000, .i32⟩
  | 2 => ⟨S500000, .i32⟩
  | 3 => ⟨S6x8, .f32⟩
  | 4 => ⟨S8x8, .f32⟩
  | 5 => ⟨S8x8, .f32⟩
  | 6 => ⟨S8x8x8, .f32⟩
  | 7 => ⟨S8x8, .f32⟩
  | 8 => ⟨S8x128, .f32⟩
  | 9 => ⟨S128, .f32⟩
  | 10 => ⟨S128x1, .f32⟩
  | 11 => ⟨S1, .f32⟩
  | 12 => ⟨S500000, .i32⟩
  | 13 => ⟨S1x8000000, .i32⟩
  | 14 => ⟨S8000000, .i32⟩
  | 15 => ⟨S8500000, .i32⟩
  | 16 => ⟨S1x8000000, .i32⟩
  | 17 => ⟨S8000000, .i32⟩
  | 18 => ⟨S8500000, .i32⟩
  | 19 => ⟨S_, .f32⟩
  | 20 => ⟨S8500000, .f32⟩
  | 21 => ⟨S_, .f32⟩
  | 22 => ⟨S500000, .f32⟩
  | 23 => ⟨S8500000x1, .i32⟩
  | 24 => ⟨S500000, .f32⟩
  | 25 => ⟨S500000, .f32⟩
  | 26 => ⟨S_, .i32⟩
  | 27 => ⟨S8500000, .i32⟩
  | 28 => ⟨S8500000, .i1⟩
  | 29 => ⟨S_, .i32⟩
  | 30 => ⟨S8500000, .i32⟩
  | 31 => ⟨S8500000, .i32⟩
  | 32 => ⟨S8500000, .i32⟩
  | 33 => ⟨S8500000x1, .i32⟩
  | 34 => ⟨S8500000, .f32⟩
  | 35 => ⟨S_, .i32⟩
  | 36 => ⟨S8500000, .i32⟩
  | 37 => ⟨S8500000, .i1⟩
  | 38 => ⟨S_, .i32⟩
  | 39 => ⟨S8500000, .i32⟩
  | 40 => ⟨S8500000, .i32⟩
  | 41 => ⟨S8500000, .i32⟩
  | 42 => ⟨S8500000x1, .i32⟩
  | 43 => ⟨S8500000, .f32⟩
  | 44 => ⟨S8500000, .f32⟩
  | 45 => ⟨S8500000x1, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x8, .f32⟩
  | 55 => ⟨S_, .f32⟩
  | 56 => ⟨S8, .f32⟩
  | 57 => ⟨S_, .f32⟩
  | 58 => ⟨S8, .f32⟩
  | 59 => ⟨S8, .f32⟩
  | 60 => ⟨S_, .i32⟩
  | 61 => ⟨S_, .f32⟩
  | 62 => ⟨S8, .f32⟩
  | 63 => ⟨S1x8, .f32⟩
  | 64 => ⟨S_, .f32⟩
  | 65 => ⟨S1x8, .f32⟩
  | 66 => ⟨S1x8, .f32⟩
  | 67 => ⟨S500000x8, .f32⟩
  | 68 => ⟨S500000x8, .f32⟩
  | 69 => ⟨S500000x8, .f32⟩
  | 70 => ⟨S_, .f32⟩
  | 71 => ⟨S_, .f32⟩
  | 72 => ⟨S_, .f32⟩
  | 73 => ⟨S_, .f32⟩
  | 74 => ⟨S8, .f32⟩
  | 75 => ⟨S8, .f32⟩
  | 76 => ⟨S8, .f32⟩
  | 77 => ⟨S_, .f32⟩
  | 78 => ⟨S_, .i1⟩
  | 79 => ⟨S_, .f32⟩
  | 80 => ⟨S_, .f32⟩
  | 81 => ⟨S8, .f32⟩
  | 82 => ⟨S8, .f32⟩
  | 83 => ⟨S1x8, .f32⟩
  | 84 => ⟨S500000x8, .f32⟩
  | 85 => ⟨S500000x8, .f32⟩
  | 86 => ⟨S_, .f32⟩
  | 87 => ⟨S8, .f32⟩
  | 88 => ⟨S8, .f32⟩
  | 89 => ⟨S8, .f32⟩
  | 90 => ⟨S1x8, .f32⟩
  | 91 => ⟨S500000x8, .f32⟩
  | 92 => ⟨S500000x8, .f32⟩
  | 93 => ⟨S1x8, .f32⟩
  | 94 => ⟨S8, .f32⟩
  | 95 => ⟨S1x8, .f32⟩
  | 96 => ⟨S500000x8, .f32⟩
  | 97 => ⟨S500000x8, .f32⟩
  | 98 => ⟨S1x8, .f32⟩
  | 99 => ⟨S8, .f32⟩
  | 100 => ⟨S1x8, .f32⟩
  | 101 => ⟨S500000x8, .f32⟩
  | 102 => ⟨S500000x8, .f32⟩
  | 103 => ⟨S1x8x8, .f32⟩
  | 104 => ⟨S8x8, .f32⟩
  | 105 => ⟨S500000x8, .f32⟩
  | 106 => ⟨S_, .i32⟩
  | 107 => ⟨S8500000, .i32⟩
  | 108 => ⟨S8500000, .i1⟩
  | 109 => ⟨S_, .i32⟩
  | 110 => ⟨S8500000, .i32⟩
  | 111 => ⟨S8500000, .i32⟩
  | 112 => ⟨S8500000, .i32⟩
  | 113 => ⟨S8500000x1, .i32⟩
  | 114 => ⟨S8500000x8, .f32⟩
  | 115 => ⟨S8500000x8, .f32⟩
  | 116 => ⟨S8500000x8, .f32⟩
  | 117 => ⟨S_, .f32⟩
  | 118 => ⟨S500000x8, .f32⟩
  | 119 => ⟨S8500000x1, .i32⟩
  | 120 => ⟨S500000x8, .f32⟩
  | 121 => ⟨S1x8, .f32⟩
  | 122 => ⟨S8, .f32⟩
  | 123 => ⟨S1x8, .f32⟩
  | 124 => ⟨S500000x8, .f32⟩
  | 125 => ⟨S500000x8, .f32⟩
  | 126 => ⟨S500000x8, .f32⟩
  | 127 => ⟨S_, .f32⟩
  | _ => ⟨S500000, .i32⟩

abbrev hbmTy0_1 (i : Nat) : BufTy := match i % 128 with
  | 0 => ⟨S500000x8, .f32⟩
  | 1 => ⟨S500000x8, .f32⟩
  | 2 => ⟨S_, .f32⟩
  | 3 => ⟨S8, .f32⟩
  | 4 => ⟨S_, .f32⟩
  | 5 => ⟨S8, .f32⟩
  | 6 => ⟨S8, .f32⟩
  | 7 => ⟨S_, .i32⟩
  | 8 => ⟨S_, .f32⟩
  | 9 => ⟨S8, .f32⟩
  | 10 => ⟨S1x8, .f32⟩
  | 11 => ⟨S_, .f32⟩
  | 12 => ⟨S1x8, .f32⟩
  | 13 => ⟨S1x8, .f32⟩
  | 14 => ⟨S500000x8, .f32⟩
  | 15 => ⟨S500000x8, .f32⟩
  | 16 => ⟨S500000x8, .f32⟩
  | 17 => ⟨S_, .f32⟩
  | 18 => ⟨S_, .f32⟩
  | 19 => ⟨S_, .f32⟩
  | 20 => ⟨S_, .f32⟩
  | 21 => ⟨S8, .f32⟩
  | 22 => ⟨S8, .f32⟩
  | 23 => ⟨S8, .f32⟩
  | 24 => ⟨S_, .f32⟩
  | 25 => ⟨S_, .i1⟩
  | 26 => ⟨S_, .f32⟩
  | 27 => ⟨S_, .f32⟩
  | 28 => ⟨S8, .f32⟩
  | 29 => ⟨S8, .f32⟩
  | 30 => ⟨S1x8, .f32⟩
  | 31 => ⟨S500000x8, .f32⟩
  | 32 => ⟨S500000x8, .f32⟩
  | 33 => ⟨S_, .f32⟩
  | 34 => ⟨S8, .f32⟩
  | 35 => ⟨S8, .f32⟩
  | 36 => ⟨S8, .f32⟩
  | 37 => ⟨S1x8, .f32⟩
  | 38 => ⟨S500000x8, .f32⟩
  | 39 => ⟨S500000x8, .f32⟩
  | 40 => ⟨S1x8, .f32⟩
  | 41 => ⟨S8, .f32⟩
  | 42 => ⟨S1x8, .f32⟩
  | 43 => ⟨S500000x8, .f32⟩
  | 44 => ⟨S500000x8, .f32⟩
  | 45 => ⟨S1x8, .f32⟩
  | 46 => ⟨S8, .f32⟩
  | 47 => ⟨S1x8, .f32⟩
  | 48 => ⟨S500000x8, .f32⟩
  | 49 => ⟨S500000x8, .f32⟩
  | 50 => ⟨S1x8x8, .f32⟩
  | 51 => ⟨S8x8, .f32⟩
  | 52 => ⟨S500000x8, .f32⟩
  | 53 => ⟨S_, .i32⟩
  | 54 => ⟨S8500000, .i32⟩
  | 55 => ⟨S8500000, .i1⟩
  | 56 => ⟨S_, .i32⟩
  | 57 => ⟨S8500000, .i32⟩
  | 58 => ⟨S8500000, .i32⟩
  | 59 => ⟨S8500000, .i32⟩
  | 60 => ⟨S8500000x1, .i32⟩
  | 61 => ⟨S8500000x8, .f32⟩
  | 62 => ⟨S8500000x8, .f32⟩
  | 63 => ⟨S8500000x8, .f32⟩
  | 64 => ⟨S_, .f32⟩
  | 65 => ⟨S500000x8, .f32⟩
  | 66 => ⟨S8500000x1, .i32⟩
  | 67 => ⟨S500000x8, .f32⟩
  | 68 => ⟨S1x8, .f32⟩
  | 69 => ⟨S8, .f32⟩
  | 70 => ⟨S1x8, .f32⟩
  | 71 => ⟨S500000x8, .f32⟩
  | 72 => ⟨S500000x8, .f32⟩
  | 73 => ⟨S500000x8, .f32⟩
  | 74 => ⟨S_, .f32⟩
  | 75 => ⟨S500000x8, .f32⟩
  | 76 => ⟨S500000x8, .f32⟩
  | 77 => ⟨S_, .f32⟩
  | 78 => ⟨S8, .f32⟩
  | 79 => ⟨S_, .f32⟩
  | 80 => ⟨S8, .f32⟩
  | 81 => ⟨S8, .f32⟩
  | 82 => ⟨S_, .i32⟩
  | 83 => ⟨S_, .f32⟩
  | 84 => ⟨S8, .f32⟩
  | 85 => ⟨S1x8, .f32⟩
  | 86 => ⟨S_, .f32⟩
  | 87 => ⟨S1x8, .f32⟩
  | 88 => ⟨S1x8, .f32⟩
  | 89 => ⟨S500000x8, .f32⟩
  | 90 => ⟨S500000x8, .f32⟩
  | 91 => ⟨S500000x8, .f32⟩
  | 92 => ⟨S_, .f32⟩
  | 93 => ⟨S_, .f32⟩
  | 94 => ⟨S_, .f32⟩
  | 95 => ⟨S_, .f32⟩
  | 96 => ⟨S8, .f32⟩
  | 97 => ⟨S8, .f32⟩
  | 98 => ⟨S8, .f32⟩
  | 99 => ⟨S_, .f32⟩
  | 100 => ⟨S_, .i1⟩
  | 101 => ⟨S_, .f32⟩
  | 102 => ⟨S_, .f32⟩
  | 103 => ⟨S8, .f32⟩
  | 104 => ⟨S8, .f32⟩
  | 105 => ⟨S1x8, .f32⟩
  | 106 => ⟨S500000x8, .f32⟩
  | 107 => ⟨S500000x8, .f32⟩
  | 108 => ⟨S_, .f32⟩
  | 109 => ⟨S8, .f32⟩
  | 110 => ⟨S8, .f32⟩
  | 111 => ⟨S8, .f32⟩
  | 112 => ⟨S1x8, .f32⟩
  | 113 => ⟨S500000x8, .f32⟩
  | 114 => ⟨S500000x8, .f32⟩
  | 115 => ⟨S1x8, .f32⟩
  | 116 => ⟨S8, .f32⟩
  | 117 => ⟨S1x8, .f32⟩
  | 118 => ⟨S500000x8, .f32⟩
  | 119 => ⟨S500000x8, .f32⟩
  | 120 => ⟨S1x8, .f32⟩
  | 121 => ⟨S8, .f32⟩
  | 122 => ⟨S1x8, .f32⟩
  | 123 => ⟨S500000x8, .f32⟩
  | 124 => ⟨S500000x8, .f32⟩
  | 125 => ⟨S1x8x8, .f32⟩
  | 126 => ⟨S8x8, .f32⟩
  | 127 => ⟨S500000x8, .f32⟩
  | _ => ⟨S500000, .i32⟩

abbrev hbmTy0_2 (i : Nat) : BufTy := match i % 128 with
  | 0 => ⟨S_, .i32⟩
  | 1 => ⟨S8500000, .i32⟩
  | 2 => ⟨S8500000, .i1⟩
  | 3 => ⟨S_, .i32⟩
  | 4 => ⟨S8500000, .i32⟩
  | 5 => ⟨S8500000, .i32⟩
  | 6 => ⟨S8500000, .i32⟩
  | 7 => ⟨S8500000x1, .i32⟩
  | 8 => ⟨S8500000x8, .f32⟩
  | 9 => ⟨S8500000x8, .f32⟩
  | 10 => ⟨S8500000x8, .f32⟩
  | 11 => ⟨S_, .f32⟩
  | 12 => ⟨S500000x8, .f32⟩
  | 13 => ⟨S8500000x1, .i32⟩
  | 14 => ⟨S500000x8, .f32⟩
  | 15 => ⟨S1x8, .f32⟩
  | 16 => ⟨S8, .f32⟩
  | 17 => ⟨S1x8, .f32⟩
  | 18 => ⟨S500000x8, .f32⟩
  | 19 => ⟨S500000x8, .f32⟩
  | 20 => ⟨S500000x8, .f32⟩
  | 21 => ⟨S_, .f32⟩
  | 22 => ⟨S500000x8, .f32⟩
  | 23 => ⟨S500000x8, .f32⟩
  | 24 => ⟨S_, .f32⟩
  | 25 => ⟨S8, .f32⟩
  | 26 => ⟨S_, .f32⟩
  | 27 => ⟨S8, .f32⟩
  | 28 => ⟨S8, .f32⟩
  | 29 => ⟨S_, .i32⟩
  | 30 => ⟨S_, .f32⟩
  | 31 => ⟨S8, .f32⟩
  | 32 => ⟨S1x8, .f32⟩
  | 33 => ⟨S_, .f32⟩
  | 34 => ⟨S1x8, .f32⟩
  | 35 => ⟨S1x8, .f32⟩
  | 36 => ⟨S500000x8, .f32⟩
  | 37 => ⟨S500000x8, .f32⟩
  | 38 => ⟨S500000x8, .f32⟩
  | 39 => ⟨S_, .f32⟩
  | 40 => ⟨S_, .f32⟩
  | 41 => ⟨S_, .f32⟩
  | 42 => ⟨S_, .f32⟩
  | 43 => ⟨S8, .f32⟩
  | 44 => ⟨S8, .f32⟩
  | 45 => ⟨S8, .f32⟩
  | 46 => ⟨S_, .f32⟩
  | 47 => ⟨S_, .i1⟩
  | 48 => ⟨S_, .f32⟩
  | 49 => ⟨S_, .f32⟩
  | 50 => ⟨S8, .f32⟩
  | 51 => ⟨S8, .f32⟩
  | 52 => ⟨S1x8, .f32⟩
  | 53 => ⟨S500000x8, .f32⟩
  | 54 => ⟨S500000x8, .f32⟩
  | 55 => ⟨S_, .f32⟩
  | 56 => ⟨S8, .f32⟩
  | 57 => ⟨S8, .f32⟩
  | 58 => ⟨S8, .f32⟩
  | 59 => ⟨S1x8, .f32⟩
  | 60 => ⟨S500000x8, .f32⟩
  | 61 => ⟨S500000x8, .f32⟩
  | 62 => ⟨S1x8, .f32⟩
  | 63 => ⟨S8, .f32⟩
  | 64 => ⟨S1x8, .f32⟩
  | 65 => ⟨S500000x8, .f32⟩
  | 66 => ⟨S500000x8, .f32⟩
  | 67 => ⟨S1x8, .f32⟩
  | 68 => ⟨S8, .f32⟩
  | 69 => ⟨S1x8, .f32⟩
  | 70 => ⟨S500000x8, .f32⟩
  | 71 => ⟨S500000x8, .f32⟩
  | 72 => ⟨S1x8x8, .f32⟩
  | 73 => ⟨S8x8, .f32⟩
  | 74 => ⟨S500000x8, .f32⟩
  | 75 => ⟨S_, .i32⟩
  | 76 => ⟨S8500000, .i32⟩
  | 77 => ⟨S8500000, .i1⟩
  | 78 => ⟨S_, .i32⟩
  | 79 => ⟨S8500000, .i32⟩
  | 80 => ⟨S8500000, .i32⟩
  | 81 => ⟨S8500000, .i32⟩
  | 82 => ⟨S8500000x1, .i32⟩
  | 83 => ⟨S8500000x8, .f32⟩
  | 84 => ⟨S8500000x8, .f32⟩
  | 85 => ⟨S8500000x8, .f32⟩
  | 86 => ⟨S_, .f32⟩
  | 87 => ⟨S500000x8, .f32⟩
  | 88 => ⟨S8500000x1, .i32⟩
  | 89 => ⟨S500000x8, .f32⟩
  | 90 => ⟨S1x8, .f32⟩
  | 91 => ⟨S8, .f32⟩
  | 92 => ⟨S1x8, .f32⟩
  | 93 => ⟨S500000x8, .f32⟩
  | 94 => ⟨S500000x8, .f32⟩
  | 95 => ⟨S500000x8, .f32⟩
  | 96 => ⟨S_, .f32⟩
  | 97 => ⟨S500000x8, .f32⟩
  | 98 => ⟨S500000x8, .f32⟩
  | 99 => ⟨S_, .f32⟩
  | 100 => ⟨S8, .f32⟩
  | 101 => ⟨S_, .f32⟩
  | 102 => ⟨S8, .f32⟩
  | 103 => ⟨S8, .f32⟩
  | 104 => ⟨S_, .i32⟩
  | 105 => ⟨S_, .f32⟩
  | 106 => ⟨S8, .f32⟩
  | 107 => ⟨S1x8, .f32⟩
  | 108 => ⟨S_, .f32⟩
  | 109 => ⟨S1x8, .f32⟩
  | 110 => ⟨S1x8, .f32⟩
  | 111 => ⟨S500000x8, .f32⟩
  | 112 => ⟨S500000x8, .f32⟩
  | 113 => ⟨S500000x8, .f32⟩
  | 114 => ⟨S_, .f32⟩
  | 115 => ⟨S_, .f32⟩
  | 116 => ⟨S_, .f32⟩
  | 117 => ⟨S_, .f32⟩
  | 118 => ⟨S8, .f32⟩
  | 119 => ⟨S8, .f32⟩
  | 120 => ⟨S8, .f32⟩
  | 121 => ⟨S_, .f32⟩
  | 122 => ⟨S_, .i1⟩
  | 123 => ⟨S_, .f32⟩
  | 124 => ⟨S_, .f32⟩
  | 125 => ⟨S8, .f32⟩
  | 126 => ⟨S8, .f32⟩
  | 127 => ⟨S1x8, .f32⟩
  | _ => ⟨S500000, .i32⟩

abbrev hbmTy0_3 (i : Nat) : BufTy := match i % 128 with
  | 0 => ⟨S500000x8, .f32⟩
  | 1 => ⟨S500000x8, .f32⟩
  | 2 => ⟨S_, .f32⟩
  | 3 => ⟨S8, .f32⟩
  | 4 => ⟨S8, .f32⟩
  | 5 => ⟨S8, .f32⟩
  | 6 => ⟨S1x8, .f32⟩
  | 7 => ⟨S500000x8, .f32⟩
  | 8 => ⟨S500000x8, .f32⟩
  | 9 => ⟨S1x8, .f32⟩
  | 10 => ⟨S8, .f32⟩
  | 11 => ⟨S1x8, .f32⟩
  | 12 => ⟨S500000x8, .f32⟩
  | 13 => ⟨S500000x8, .f32⟩
  | 14 => ⟨S1x8, .f32⟩
  | 15 => ⟨S8, .f32⟩
  | 16 => ⟨S1x8, .f32⟩
  | 17 => ⟨S500000x8, .f32⟩
  | 18 => ⟨S500000x8, .f32⟩
  | 19 => ⟨S1x8x8, .f32⟩
  | 20 => ⟨S8x8, .f32⟩
  | 21 => ⟨S500000x8, .f32⟩
  | 22 => ⟨S_, .i32⟩
  | 23 => ⟨S8500000, .i32⟩
  | 24 => ⟨S8500000, .i1⟩
  | 25 => ⟨S_, .i32⟩
  | 26 => ⟨S8500000, .i32⟩
  | 27 => ⟨S8500000, .i32⟩
  | 28 => ⟨S8500000, .i32⟩
  | 29 => ⟨S8500000x1, .i32⟩
  | 30 => ⟨S8500000x8, .f32⟩
  | 31 => ⟨S8500000x8, .f32⟩
  | 32 => ⟨S8500000x8, .f32⟩
  | 33 => ⟨S_, .f32⟩
  | 34 => ⟨S500000x8, .f32⟩
  | 35 => ⟨S8500000x1, .i32⟩
  | 36 => ⟨S500000x8, .f32⟩
  | 37 => ⟨S1x8, .f32⟩
  | 38 => ⟨S8, .f32⟩
  | 39 => ⟨S1x8, .f32⟩
  | 40 => ⟨S500000x8, .f32⟩
  | 41 => ⟨S500000x8, .f32⟩
  | 42 => ⟨S500000x8, .f32⟩
  | 43 => ⟨S_, .f32⟩
  | 44 => ⟨S500000x8, .f32⟩
  | 45 => ⟨S500000x8, .f32⟩
  | 46 => ⟨S_, .f32⟩
  | 47 => ⟨S8, .f32⟩
  | 48 => ⟨S_, .f32⟩
  | 49 => ⟨S8, .f32⟩
  | 50 => ⟨S8, .f32⟩
  | 51 => ⟨S_, .i32⟩
  | 52 => ⟨S_, .f32⟩
  | 53 => ⟨S8, .f32⟩
  | 54 => ⟨S1x8, .f32⟩
  | 55 => ⟨S_, .f32⟩
  | 56 => ⟨S1x8, .f32⟩
  | 57 => ⟨S1x8, .f32⟩
  | 58 => ⟨S500000x8, .f32⟩
  | 59 => ⟨S500000x8, .f32⟩
  | 60 => ⟨S500000x8, .f32⟩
  | 61 => ⟨S_, .f32⟩
  | 62 => ⟨S_, .f32⟩
  | 63 => ⟨S_, .f32⟩
  | 64 => ⟨S_, .f32⟩
  | 65 => ⟨S8, .f32⟩
  | 66 => ⟨S8, .f32⟩
  | 67 => ⟨S8, .f32⟩
  | 68 => ⟨S_, .f32⟩
  | 69 => ⟨S_, .i1⟩
  | 70 => ⟨S_, .f32⟩
  | 71 => ⟨S_, .f32⟩
  | 72 => ⟨S8, .f32⟩
  | 73 => ⟨S8, .f32⟩
  | 74 => ⟨S1x8, .f32⟩
  | 75 => ⟨S500000x8, .f32⟩
  | 76 => ⟨S500000x8, .f32⟩
  | 77 => ⟨S_, .f32⟩
  | 78 => ⟨S8, .f32⟩
  | 79 => ⟨S8, .f32⟩
  | 80 => ⟨S8, .f32⟩
  | 81 => ⟨S1x8, .f32⟩
  | 82 => ⟨S500000x8, .f32⟩
  | 83 => ⟨S500000x8, .f32⟩
  | 84 => ⟨S1x8, .f32⟩
  | 85 => ⟨S8, .f32⟩
  | 86 => ⟨S1x8, .f32⟩
  | 87 => ⟨S500000x8, .f32⟩
  | 88 => ⟨S500000x8, .f32⟩
  | 89 => ⟨S1x8, .f32⟩
  | 90 => ⟨S8, .f32⟩
  | 91 => ⟨S1x8, .f32⟩
  | 92 => ⟨S500000x8, .f32⟩
  | 93 => ⟨S500000x8, .f32⟩
  | 94 => ⟨S1x8x8, .f32⟩
  | 95 => ⟨S8x8, .f32⟩
  | 96 => ⟨S500000x8, .f32⟩
  | 97 => ⟨S_, .i32⟩
  | 98 => ⟨S8500000, .i32⟩
  | 99 => ⟨S8500000, .i1⟩
  | 100 => ⟨S_, .i32⟩
  | 101 => ⟨S8500000, .i32⟩
  | 102 => ⟨S8500000, .i32⟩
  | 103 => ⟨S8500000, .i32⟩
  | 104 => ⟨S8500000x1, .i32⟩
  | 105 => ⟨S8500000x8, .f32⟩
  | 106 => ⟨S8500000x8, .f32⟩
  | 107 => ⟨S8500000x8, .f32⟩
  | 108 => ⟨S_, .f32⟩
  | 109 => ⟨S500000x8, .f32⟩
  | 110 => ⟨S8500000x1, .i32⟩
  | 111 => ⟨S500000x8, .f32⟩
  | 112 => ⟨S1x8, .f32⟩
  | 113 => ⟨S8, .f32⟩
  | 114 => ⟨S1x8, .f32⟩
  | 115 => ⟨S500000x8, .f32⟩
  | 116 => ⟨S500000x8, .f32⟩
  | 117 => ⟨S500000x8, .f32⟩
  | 118 => ⟨S_, .f32⟩
  | 119 => ⟨S500000x8, .f32⟩
  | 120 => ⟨S500000x8, .f32⟩
  | 121 => ⟨S_, .f32⟩
  | 122 => ⟨S8, .f32⟩
  | 123 => ⟨S_, .f32⟩
  | 124 => ⟨S8, .f32⟩
  | 125 => ⟨S8, .f32⟩
  | 126 => ⟨S_, .i32⟩
  | 127 => ⟨S_, .f32⟩
  | _ => ⟨S500000, .i32⟩

abbrev hbmTy0_4 (i : Nat) : BufTy := match i % 128 with
  | 0 => ⟨S8, .f32⟩
  | 1 => ⟨S1x8, .f32⟩
  | 2 => ⟨S_, .f32⟩
  | 3 => ⟨S1x8, .f32⟩
  | 4 => ⟨S1x8, .f32⟩
  | 5 => ⟨S500000x8, .f32⟩
  | 6 => ⟨S500000x8, .f32⟩
  | 7 => ⟨S500000x8, .f32⟩
  | 8 => ⟨S_, .f32⟩
  | 9 => ⟨S_, .f32⟩
  | 10 => ⟨S_, .f32⟩
  | 11 => ⟨S_, .f32⟩
  | 12 => ⟨S8, .f32⟩
  | 13 => ⟨S8, .f32⟩
  | 14 => ⟨S8, .f32⟩
  | 15 => ⟨S_, .f32⟩
  | 16 => ⟨S_, .i1⟩
  | 17 => ⟨S_, .f32⟩
  | 18 => ⟨S_, .f32⟩
  | 19 => ⟨S8, .f32⟩
  | 20 => ⟨S8, .f32⟩
  | 21 => ⟨S1x8, .f32⟩
  | 22 => ⟨S500000x8, .f32⟩
  | 23 => ⟨S500000x8, .f32⟩
  | 24 => ⟨S_, .f32⟩
  | 25 => ⟨S8, .f32⟩
  | 26 => ⟨S8, .f32⟩
  | 27 => ⟨S8, .f32⟩
  | 28 => ⟨S1x8, .f32⟩
  | 29 => ⟨S500000x8, .f32⟩
  | 30 => ⟨S500000x8, .f32⟩
  | 31 => ⟨S1x8, .f32⟩
  | 32 => ⟨S8, .f32⟩
  | 33 => ⟨S1x8, .f32⟩
  | 34 => ⟨S500000x8, .f32⟩
  | 35 => ⟨S500000x8, .f32⟩
  | 36 => ⟨S1x8, .f32⟩
  | 37 => ⟨S8, .f32⟩
  | 38 => ⟨S1x8, .f32⟩
  | 39 => ⟨S500000x8, .f32⟩
  | 40 => ⟨S500000x8, .f32⟩
  | 41 => ⟨S1x8x8, .f32⟩
  | 42 => ⟨S8x8, .f32⟩
  | 43 => ⟨S500000x8, .f32⟩
  | 44 => ⟨S_, .i32⟩
  | 45 => ⟨S8500000, .i32⟩
  | 46 => ⟨S8500000, .i1⟩
  | 47 => ⟨S_, .i32⟩
  | 48 => ⟨S8500000, .i32⟩
  | 49 => ⟨S8500000, .i32⟩
  | 50 => ⟨S8500000, .i32⟩
  | 51 => ⟨S8500000x1, .i32⟩
  | 52 => ⟨S8500000x8, .f32⟩
  | 53 => ⟨S8500000x8, .f32⟩
  | 54 => ⟨S8500000x8, .f32⟩
  | 55 => ⟨S_, .f32⟩
  | 56 => ⟨S500000x8, .f32⟩
  | 57 => ⟨S8500000x1, .i32⟩
  | 58 => ⟨S500000x8, .f32⟩
  | 59 => ⟨S1x8, .f32⟩
  | 60 => ⟨S8, .f32⟩
  | 61 => ⟨S1x8, .f32⟩
  | 62 => ⟨S500000x8, .f32⟩
  | 63 => ⟨S500000x8, .f32⟩
  | 64 => ⟨S500000x8, .f32⟩
  | 65 => ⟨S_, .f32⟩
  | 66 => ⟨S500000x8, .f32⟩
  | 67 => ⟨S500000x8, .f32⟩
  | 68 => ⟨S_, .f32⟩
  | 69 => ⟨S8, .f32⟩
  | 70 => ⟨S_, .f32⟩
  | 71 => ⟨S8, .f32⟩
  | 72 => ⟨S8, .f32⟩
  | 73 => ⟨S_, .i32⟩
  | 74 => ⟨S_, .f32⟩
  | 75 => ⟨S8, .f32⟩
  | 76 => ⟨S1x8, .f32⟩
  | 77 => ⟨S_, .f32⟩
  | 78 => ⟨S1x8, .f32⟩
  | 79 => ⟨S1x8, .f32⟩
  | 80 => ⟨S500000x8, .f32⟩
  | 81 => ⟨S500000x8, .f32⟩
  | 82 => ⟨S500000x8, .f32⟩
  | 83 => ⟨S_, .f32⟩
  | 84 => ⟨S_, .f32⟩
  | 85 => ⟨S_, .f32⟩
  | 86 => ⟨S_, .f32⟩
  | 87 => ⟨S8, .f32⟩
  | 88 => ⟨S8, .f32⟩
  | 89 => ⟨S8, .f32⟩
  | 90 => ⟨S_, .f32⟩
  | 91 => ⟨S_, .i1⟩
  | 92 => ⟨S_, .f32⟩
  | 93 => ⟨S_, .f32⟩
  | 94 => ⟨S8, .f32⟩
  | 95 => ⟨S8, .f32⟩
  | 96 => ⟨S1x8, .f32⟩
  | 97 => ⟨S500000x8, .f32⟩
  | 98 => ⟨S500000x8, .f32⟩
  | 99 => ⟨S_, .f32⟩
  | 100 => ⟨S8, .f32⟩
  | 101 => ⟨S8, .f32⟩
  | 102 => ⟨S8, .f32⟩
  | 103 => ⟨S1x8, .f32⟩
  | 104 => ⟨S500000x8, .f32⟩
  | 105 => ⟨S500000x8, .f32⟩
  | 106 => ⟨S1x8, .f32⟩
  | 107 => ⟨S8, .f32⟩
  | 108 => ⟨S1x8, .f32⟩
  | 109 => ⟨S500000x8, .f32⟩
  | 110 => ⟨S500000x8, .f32⟩
  | 111 => ⟨S1x8, .f32⟩
  | 112 => ⟨S8, .f32⟩
  | 113 => ⟨S1x8, .f32⟩
  | 114 => ⟨S500000x8, .f32⟩
  | 115 => ⟨S500000x8, .f32⟩
  | 116 => ⟨S1x8x8, .f32⟩
  | 117 => ⟨S8x8, .f32⟩
  | 118 => ⟨S500000x8, .f32⟩
  | 119 => ⟨S_, .i32⟩
  | 120 => ⟨S8500000, .i32⟩
  | 121 => ⟨S8500000, .i1⟩
  | 122 => ⟨S_, .i32⟩
  | 123 => ⟨S8500000, .i32⟩
  | 124 => ⟨S8500000, .i32⟩
  | 125 => ⟨S8500000, .i32⟩
  | 126 => ⟨S8500000x1, .i32⟩
  | 127 => ⟨S8500000x8, .f32⟩
  | _ => ⟨S500000, .i32⟩

abbrev hbmTy0_5 (i : Nat) : BufTy := match i % 128 with
  | 0 => ⟨S8500000x8, .f32⟩
  | 1 => ⟨S8500000x8, .f32⟩
  | 2 => ⟨S_, .f32⟩
  | 3 => ⟨S500000x8, .f32⟩
  | 4 => ⟨S8500000x1, .i32⟩
  | 5 => ⟨S500000x8, .f32⟩
  | 6 => ⟨S1x8, .f32⟩
  | 7 => ⟨S8, .f32⟩
  | 8 => ⟨S1x8, .f32⟩
  | 9 => ⟨S500000x8, .f32⟩
  | 10 => ⟨S500000x8, .f32⟩
  | 11 => ⟨S500000x8, .f32⟩
  | 12 => ⟨S_, .f32⟩
  | 13 => ⟨S500000x8, .f32⟩
  | 14 => ⟨S500000x8, .f32⟩
  | 15 => ⟨S_, .f32⟩
  | 16 => ⟨S5000x8, .f32⟩
  | 17 => ⟨S500000x1, .i32⟩
  | 18 => ⟨S5000x8, .f32⟩
  | 19 => ⟨S5000x128, .f32⟩
  | 20 => ⟨S1x128, .f32⟩
  | 21 => ⟨S5000x128, .f32⟩
  | 22 => ⟨S5000x128, .f32⟩
  | 23 => ⟨S_, .f32⟩
  | 24 => ⟨S5000x128, .f32⟩
  | 25 => ⟨S5000x128, .f32⟩
  | 26 => ⟨S5000x1, .f32⟩
  | 27 => ⟨S1x1, .f32⟩
  | 28 => ⟨S5000x1, .f32⟩
  | 29 => ⟨S5000x1, .f32⟩
  | 30 => ⟨S5000, .f32⟩
  | _ => ⟨S500000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S500000, .i32⟩

abbrev bufTy : (tb : Table) → Fin (tcTables nBuf tb) → BufTy
  | .hbm, ⟨i, _⟩ => hbmTy i
  | _, _ => ⟨S500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_cst_0 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_cst_1 : Ref sig .tc := ⟨.hbm, 71, rfl⟩
abbrev main_call0_v8 : Ref sig .tc := ⟨.hbm, 72, rfl⟩
abbrev main_call0_cst_2 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_cst_3 : Ref sig .tc := ⟨.hbm, 77, rfl⟩
abbrev main_call0_v12 : Ref sig .tc := ⟨.hbm, 78, rfl⟩
abbrev main_call0_cst_4 : Ref sig .tc := ⟨.hbm, 79, rfl⟩
abbrev main_call0_call0_v0 : Ref sig .tc := ⟨.hbm, 80, rfl⟩
abbrev main_call0_call0_v1 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_9 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_c_10 : Ref sig .tc := ⟨.hbm, 106, rfl⟩
abbrev main_v61 : Ref sig .tc := ⟨.hbm, 107, rfl⟩
abbrev main_v62 : Ref sig .tc := ⟨.hbm, 108, rfl⟩
abbrev main_c_11 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_cst_12 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_call1_cst : Ref sig .tc := ⟨.hbm, 127, rfl⟩
abbrev main_call1_v0 : Ref sig .tc := ⟨.hbm, 128, rfl⟩
abbrev main_v79 : Ref sig .tc := ⟨.hbm, 129, rfl⟩
abbrev main_cst_13 : Ref sig .tc := ⟨.hbm, 130, rfl⟩
abbrev main_v80 : Ref sig .tc := ⟨.hbm, 131, rfl⟩
abbrev main_cst_14 : Ref sig .tc := ⟨.hbm, 132, rfl⟩
abbrev main_v81 : Ref sig .tc := ⟨.hbm, 133, rfl⟩
abbrev main_v82 : Ref sig .tc := ⟨.hbm, 134, rfl⟩
abbrev main_c_15 : Ref sig .tc := ⟨.hbm, 135, rfl⟩
abbrev main_call2_cst : Ref sig .tc := ⟨.hbm, 136, rfl⟩
abbrev main_call2_v0 : Ref sig .tc := ⟨.hbm, 137, rfl⟩
abbrev main_call2_v1 : Ref sig .tc := ⟨.hbm, 138, rfl⟩
abbrev main_call2_cst_0 : Ref sig .tc := ⟨.hbm, 139, rfl⟩
abbrev main_call2_v2 : Ref sig .tc := ⟨.hbm, 140, rfl⟩
abbrev main_call2_v3 : Ref sig .tc := ⟨.hbm, 141, rfl⟩
abbrev main_call2_v4 : Ref sig .tc := ⟨.hbm, 142, rfl⟩
abbrev main_call2_v5 : Ref sig .tc := ⟨.hbm, 143, rfl⟩
abbrev main_call2_v6 : Ref sig .tc := ⟨.hbm, 144, rfl⟩
abbrev main_call2_v7 : Ref sig .tc := ⟨.hbm, 145, rfl⟩
abbrev main_call2_cst_1 : Ref sig .tc := ⟨.hbm, 146, rfl⟩
abbrev main_call2_v8 : Ref sig .tc := ⟨.hbm, 147, rfl⟩
abbrev main_call2_cst_2 : Ref sig .tc := ⟨.hbm, 148, rfl⟩
abbrev main_call2_v9 : Ref sig .tc := ⟨.hbm, 149, rfl⟩
abbrev main_call2_v10 : Ref sig .tc := ⟨.hbm, 150, rfl⟩
abbrev main_call2_v11 : Ref sig .tc := ⟨.hbm, 151, rfl⟩
abbrev main_call2_cst_3 : Ref sig .tc := ⟨.hbm, 152, rfl⟩
abbrev main_call2_v12 : Ref sig .tc := ⟨.hbm, 153, rfl⟩
abbrev main_call2_cst_4 : Ref sig .tc := ⟨.hbm, 154, rfl⟩
abbrev main_call2_call0_v0 : Ref sig .tc := ⟨.hbm, 155, rfl⟩
abbrev main_call2_call0_v1 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_cst_16 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_c_17 : Ref sig .tc := ⟨.hbm, 181, rfl⟩
abbrev main_v106 : Ref sig .tc := ⟨.hbm, 182, rfl⟩
abbrev main_v107 : Ref sig .tc := ⟨.hbm, 183, rfl⟩
abbrev main_c_18 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_cst_19 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_call3_cst : Ref sig .tc := ⟨.hbm, 202, rfl⟩
abbrev main_call3_v0 : Ref sig .tc := ⟨.hbm, 203, rfl⟩
abbrev main_v124 : Ref sig .tc := ⟨.hbm, 204, rfl⟩
abbrev main_cst_20 : Ref sig .tc := ⟨.hbm, 205, rfl⟩
abbrev main_v125 : Ref sig .tc := ⟨.hbm, 206, rfl⟩
abbrev main_cst_21 : Ref sig .tc := ⟨.hbm, 207, rfl⟩
abbrev main_v126 : Ref sig .tc := ⟨.hbm, 208, rfl⟩
abbrev main_v127 : Ref sig .tc := ⟨.hbm, 209, rfl⟩
abbrev main_c_22 : Ref sig .tc := ⟨.hbm, 210, rfl⟩
abbrev main_call4_cst : Ref sig .tc := ⟨.hbm, 211, rfl⟩
abbrev main_call4_v0 : Ref sig .tc := ⟨.hbm, 212, rfl⟩
abbrev main_call4_v1 : Ref sig .tc := ⟨.hbm, 213, rfl⟩
abbrev main_call4_cst_0 : Ref sig .tc := ⟨.hbm, 214, rfl⟩
abbrev main_call4_v2 : Ref sig .tc := ⟨.hbm, 215, rfl⟩
abbrev main_call4_v3 : Ref sig .tc := ⟨.hbm, 216, rfl⟩
abbrev main_call4_v4 : Ref sig .tc := ⟨.hbm, 217, rfl⟩
abbrev main_call4_v5 : Ref sig .tc := ⟨.hbm, 218, rfl⟩
abbrev main_call4_v6 : Ref sig .tc := ⟨.hbm, 219, rfl⟩
abbrev main_call4_v7 : Ref sig .tc := ⟨.hbm, 220, rfl⟩
abbrev main_call4_cst_1 : Ref sig .tc := ⟨.hbm, 221, rfl⟩
abbrev main_call4_v8 : Ref sig .tc := ⟨.hbm, 222, rfl⟩
abbrev main_call4_cst_2 : Ref sig .tc := ⟨.hbm, 223, rfl⟩
abbrev main_call4_v9 : Ref sig .tc := ⟨.hbm, 224, rfl⟩
abbrev main_call4_v10 : Ref sig .tc := ⟨.hbm, 225, rfl⟩
abbrev main_call4_v11 : Ref sig .tc := ⟨.hbm, 226, rfl⟩
abbrev main_call4_cst_3 : Ref sig .tc := ⟨.hbm, 227, rfl⟩
abbrev main_call4_v12 : Ref sig .tc := ⟨.hbm, 228, rfl⟩
abbrev main_call4_cst_4 : Ref sig .tc := ⟨.hbm, 229, rfl⟩
abbrev main_call4_call0_v0 : Ref sig .tc := ⟨.hbm, 230, rfl⟩
abbrev main_call4_call0_v1 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_cst_23 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_c_24 : Ref sig .tc := ⟨.hbm, 256, rfl⟩
abbrev main_v151 : Ref sig .tc := ⟨.hbm, 257, rfl⟩
abbrev main_v152 : Ref sig .tc := ⟨.hbm, 258, rfl⟩
abbrev main_c_25 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_v159 : Ref sig .tc := ⟨.hbm, 266, rfl⟩
abbrev main_cst_26 : Ref sig .tc := ⟨.hbm, 267, rfl⟩
abbrev main_v160 : Ref sig .tc := ⟨.hbm, 268, rfl⟩
abbrev main_v161 : Ref sig .tc := ⟨.hbm, 269, rfl⟩
abbrev main_v162 : Ref sig .tc := ⟨.hbm, 270, rfl⟩
abbrev main_v163 : Ref sig .tc := ⟨.hbm, 271, rfl⟩
abbrev main_v164 : Ref sig .tc := ⟨.hbm, 272, rfl⟩
abbrev main_v165 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_call5_cst : Ref sig .tc := ⟨.hbm, 277, rfl⟩
abbrev main_call5_v0 : Ref sig .tc := ⟨.hbm, 278, rfl⟩
abbrev main_v169 : Ref sig .tc := ⟨.hbm, 279, rfl⟩
abbrev main_cst_27 : Ref sig .tc := ⟨.hbm, 280, rfl⟩
abbrev main_v170 : Ref sig .tc := ⟨.hbm, 281, rfl⟩
abbrev main_cst_28 : Ref sig .tc := ⟨.hbm, 282, rfl⟩
abbrev main_v171 : Ref sig .tc := ⟨.hbm, 283, rfl⟩
abbrev main_v172 : Ref sig .tc := ⟨.hbm, 284, rfl⟩
abbrev main_c_29 : Ref sig .tc := ⟨.hbm, 285, rfl⟩
abbrev main_call6_cst : Ref sig .tc := ⟨.hbm, 286, rfl⟩
abbrev main_call6_v0 : Ref sig .tc := ⟨.hbm, 287, rfl⟩
abbrev main_call6_v1 : Ref sig .tc := ⟨.hbm, 288, rfl⟩
abbrev main_call6_cst_0 : Ref sig .tc := ⟨.hbm, 289, rfl⟩
abbrev main_call6_v2 : Ref sig .tc := ⟨.hbm, 290, rfl⟩
abbrev main_call6_v3 : Ref sig .tc := ⟨.hbm, 291, rfl⟩
abbrev main_call6_v4 : Ref sig .tc := ⟨.hbm, 292, rfl⟩
abbrev main_call6_v5 : Ref sig .tc := ⟨.hbm, 293, rfl⟩
abbrev main_call6_v6 : Ref sig .tc := ⟨.hbm, 294, rfl⟩
abbrev main_call6_v7 : Ref sig .tc := ⟨.hbm, 295, rfl⟩
abbrev main_call6_cst_1 : Ref sig .tc := ⟨.hbm, 296, rfl⟩
abbrev main_call6_v8 : Ref sig .tc := ⟨.hbm, 297, rfl⟩
abbrev main_call6_cst_2 : Ref sig .tc := ⟨.hbm, 298, rfl⟩
abbrev main_call6_v9 : Ref sig .tc := ⟨.hbm, 299, rfl⟩
abbrev main_call6_v10 : Ref sig .tc := ⟨.hbm, 300, rfl⟩
abbrev main_call6_v11 : Ref sig .tc := ⟨.hbm, 301, rfl⟩
abbrev main_call6_cst_3 : Ref sig .tc := ⟨.hbm, 302, rfl⟩
abbrev main_call6_v12 : Ref sig .tc := ⟨.hbm, 303, rfl⟩
abbrev main_call6_cst_4 : Ref sig .tc := ⟨.hbm, 304, rfl⟩
abbrev main_call6_call0_v0 : Ref sig .tc := ⟨.hbm, 305, rfl⟩
abbrev main_call6_call0_v1 : Ref sig .tc := ⟨.hbm, 306, rfl⟩
abbrev main_v173 : Ref sig .tc := ⟨.hbm, 307, rfl⟩
abbrev main_v174 : Ref sig .tc := ⟨.hbm, 308, rfl⟩
abbrev main_v175 : Ref sig .tc := ⟨.hbm, 309, rfl⟩
abbrev main_v176 : Ref sig .tc := ⟨.hbm, 310, rfl⟩
abbrev main_cst_30 : Ref sig .tc := ⟨.hbm, 311, rfl⟩
abbrev main_v177 : Ref sig .tc := ⟨.hbm, 312, rfl⟩
abbrev main_v178 : Ref sig .tc := ⟨.hbm, 313, rfl⟩
abbrev main_v179 : Ref sig .tc := ⟨.hbm, 314, rfl⟩
abbrev main_v180 : Ref sig .tc := ⟨.hbm, 315, rfl⟩
abbrev main_v181 : Ref sig .tc := ⟨.hbm, 316, rfl⟩
abbrev main_v182 : Ref sig .tc := ⟨.hbm, 317, rfl⟩
abbrev main_v183 : Ref sig .tc := ⟨.hbm, 318, rfl⟩
abbrev main_v184 : Ref sig .tc := ⟨.hbm, 319, rfl⟩
abbrev main_v185 : Ref sig .tc := ⟨.hbm, 320, rfl⟩
abbrev main_v186 : Ref sig .tc := ⟨.hbm, 321, rfl⟩
abbrev main_v187 : Ref sig .tc := ⟨.hbm, 322, rfl⟩
abbrev main_v188 : Ref sig .tc := ⟨.hbm, 323, rfl⟩
abbrev main_v189 : Ref sig .tc := ⟨.hbm, 324, rfl⟩
abbrev main_v190 : Ref sig .tc := ⟨.hbm, 325, rfl⟩
abbrev main_v191 : Ref sig .tc := ⟨.hbm, 326, rfl⟩
abbrev main_v192 : Ref sig .tc := ⟨.hbm, 327, rfl⟩
abbrev main_v193 : Ref sig .tc := ⟨.hbm, 328, rfl⟩
abbrev main_v194 : Ref sig .tc := ⟨.hbm, 329, rfl⟩
abbrev main_v195 : Ref sig .tc := ⟨.hbm, 330, rfl⟩
abbrev main_c_31 : Ref sig .tc := ⟨.hbm, 331, rfl⟩
abbrev main_v196 : Ref sig .tc := ⟨.hbm, 332, rfl⟩
abbrev main_v197 : Ref sig .tc := ⟨.hbm, 333, rfl⟩
abbrev main_c_32 : Ref sig .tc := ⟨.hbm, 334, rfl⟩
abbrev main_v198 : Ref sig .tc := ⟨.hbm, 335, rfl⟩
abbrev main_v199 : Ref sig .tc := ⟨.hbm, 336, rfl⟩
abbrev main_v200 : Ref sig .tc := ⟨.hbm, 337, rfl⟩
abbrev main_v201 : Ref sig .tc := ⟨.hbm, 338, rfl⟩
abbrev main_v202 : Ref sig .tc := ⟨.hbm, 339, rfl⟩
abbrev main_v203 : Ref sig .tc := ⟨.hbm, 340, rfl⟩
abbrev main_v204 : Ref sig .tc := ⟨.hbm, 341, rfl⟩
abbrev main_cst_33 : Ref sig .tc := ⟨.hbm, 342, rfl⟩
abbrev main_v205 : Ref sig .tc := ⟨.hbm, 343, rfl⟩
abbrev main_v206 : Ref sig .tc := ⟨.hbm, 344, rfl⟩
abbrev main_v207 : Ref sig .tc := ⟨.hbm, 345, rfl⟩
abbrev main_v208 : Ref sig .tc := ⟨.hbm, 346, rfl⟩
abbrev main_v209 : Ref sig .tc := ⟨.hbm, 347, rfl⟩
abbrev main_v210 : Ref sig .tc := ⟨.hbm, 348, rfl⟩
abbrev main_v211 : Ref sig .tc := ⟨.hbm, 349, rfl⟩
abbrev main_v212 : Ref sig .tc := ⟨.hbm, 350, rfl⟩
abbrev main_v213 : Ref sig .tc := ⟨.hbm, 351, rfl⟩
abbrev main_call7_cst : Ref sig .tc := ⟨.hbm, 352, rfl⟩
abbrev main_call7_v0 : Ref sig .tc := ⟨.hbm, 353, rfl⟩
abbrev main_v214 : Ref sig .tc := ⟨.hbm, 354, rfl⟩
abbrev main_cst_34 : Ref sig .tc := ⟨.hbm, 355, rfl⟩
abbrev main_v215 : Ref sig .tc := ⟨.hbm, 356, rfl⟩
abbrev main_cst_35 : Ref sig .tc := ⟨.hbm, 357, rfl⟩
abbrev main_v216 : Ref sig .tc := ⟨.hbm, 358, rfl⟩
abbrev main_v217 : Ref sig .tc := ⟨.hbm, 359, rfl⟩
abbrev main_c_36 : Ref sig .tc := ⟨.hbm, 360, rfl⟩
abbrev main_call8_cst : Ref sig .tc := ⟨.hbm, 361, rfl⟩
abbrev main_call8_v0 : Ref sig .tc := ⟨.hbm, 362, rfl⟩
abbrev main_call8_v1 : Ref sig .tc := ⟨.hbm, 363, rfl⟩
abbrev main_call8_cst_0 : Ref sig .tc := ⟨.hbm, 364, rfl⟩
abbrev main_call8_v2 : Ref sig .tc := ⟨.hbm, 365, rfl⟩
abbrev main_call8_v3 : Ref sig .tc := ⟨.hbm, 366, rfl⟩
abbrev main_call8_v4 : Ref sig .tc := ⟨.hbm, 367, rfl⟩
abbrev main_call8_v5 : Ref sig .tc := ⟨.hbm, 368, rfl⟩
abbrev main_call8_v6 : Ref sig .tc := ⟨.hbm, 369, rfl⟩
abbrev main_call8_v7 : Ref sig .tc := ⟨.hbm, 370, rfl⟩
abbrev main_call8_cst_1 : Ref sig .tc := ⟨.hbm, 371, rfl⟩
abbrev main_call8_v8 : Ref sig .tc := ⟨.hbm, 372, rfl⟩
abbrev main_call8_cst_2 : Ref sig .tc := ⟨.hbm, 373, rfl⟩
abbrev main_call8_v9 : Ref sig .tc := ⟨.hbm, 374, rfl⟩
abbrev main_call8_v10 : Ref sig .tc := ⟨.hbm, 375, rfl⟩
abbrev main_call8_v11 : Ref sig .tc := ⟨.hbm, 376, rfl⟩
abbrev main_call8_cst_3 : Ref sig .tc := ⟨.hbm, 377, rfl⟩
abbrev main_call8_v12 : Ref sig .tc := ⟨.hbm, 378, rfl⟩
abbrev main_call8_cst_4 : Ref sig .tc := ⟨.hbm, 379, rfl⟩
abbrev main_call8_call0_v0 : Ref sig .tc := ⟨.hbm, 380, rfl⟩
abbrev main_call8_call0_v1 : Ref sig .tc := ⟨.hbm, 381, rfl⟩
abbrev main_v218 : Ref sig .tc := ⟨.hbm, 382, rfl⟩
abbrev main_v219 : Ref sig .tc := ⟨.hbm, 383, rfl⟩
abbrev main_v220 : Ref sig .tc := ⟨.hbm, 384, rfl⟩
abbrev main_v221 : Ref sig .tc := ⟨.hbm, 385, rfl⟩
abbrev main_cst_37 : Ref sig .tc := ⟨.hbm, 386, rfl⟩
abbrev main_v222 : Ref sig .tc := ⟨.hbm, 387, rfl⟩
abbrev main_v223 : Ref sig .tc := ⟨.hbm, 388, rfl⟩
abbrev main_v224 : Ref sig .tc := ⟨.hbm, 389, rfl⟩
abbrev main_v225 : Ref sig .tc := ⟨.hbm, 390, rfl⟩
abbrev main_v226 : Ref sig .tc := ⟨.hbm, 391, rfl⟩
abbrev main_v227 : Ref sig .tc := ⟨.hbm, 392, rfl⟩
abbrev main_v228 : Ref sig .tc := ⟨.hbm, 393, rfl⟩
abbrev main_v229 : Ref sig .tc := ⟨.hbm, 394, rfl⟩
abbrev main_v230 : Ref sig .tc := ⟨.hbm, 395, rfl⟩
abbrev main_v231 : Ref sig .tc := ⟨.hbm, 396, rfl⟩
abbrev main_v232 : Ref sig .tc := ⟨.hbm, 397, rfl⟩
abbrev main_v233 : Ref sig .tc := ⟨.hbm, 398, rfl⟩
abbrev main_v234 : Ref sig .tc := ⟨.hbm, 399, rfl⟩
abbrev main_v235 : Ref sig .tc := ⟨.hbm, 400, rfl⟩
abbrev main_v236 : Ref sig .tc := ⟨.hbm, 401, rfl⟩
abbrev main_v237 : Ref sig .tc := ⟨.hbm, 402, rfl⟩
abbrev main_v238 : Ref sig .tc := ⟨.hbm, 403, rfl⟩
abbrev main_v239 : Ref sig .tc := ⟨.hbm, 404, rfl⟩
abbrev main_v240 : Ref sig .tc := ⟨.hbm, 405, rfl⟩
abbrev main_c_38 : Ref sig .tc := ⟨.hbm, 406, rfl⟩
abbrev main_v241 : Ref sig .tc := ⟨.hbm, 407, rfl⟩
abbrev main_v242 : Ref sig .tc := ⟨.hbm, 408, rfl⟩
abbrev main_c_39 : Ref sig .tc := ⟨.hbm, 409, rfl⟩
abbrev main_v243 : Ref sig .tc := ⟨.hbm, 410, rfl⟩
abbrev main_v244 : Ref sig .tc := ⟨.hbm, 411, rfl⟩
abbrev main_v245 : Ref sig .tc := ⟨.hbm, 412, rfl⟩
abbrev main_v246 : Ref sig .tc := ⟨.hbm, 413, rfl⟩
abbrev main_v247 : Ref sig .tc := ⟨.hbm, 414, rfl⟩
abbrev main_v248 : Ref sig .tc := ⟨.hbm, 415, rfl⟩
abbrev main_v249 : Ref sig .tc := ⟨.hbm, 416, rfl⟩
abbrev main_cst_40 : Ref sig .tc := ⟨.hbm, 417, rfl⟩
abbrev main_v250 : Ref sig .tc := ⟨.hbm, 418, rfl⟩
abbrev main_v251 : Ref sig .tc := ⟨.hbm, 419, rfl⟩
abbrev main_v252 : Ref sig .tc := ⟨.hbm, 420, rfl⟩
abbrev main_v253 : Ref sig .tc := ⟨.hbm, 421, rfl⟩
abbrev main_v254 : Ref sig .tc := ⟨.hbm, 422, rfl⟩
abbrev main_v255 : Ref sig .tc := ⟨.hbm, 423, rfl⟩
abbrev main_v256 : Ref sig .tc := ⟨.hbm, 424, rfl⟩
abbrev main_v257 : Ref sig .tc := ⟨.hbm, 425, rfl⟩
abbrev main_v258 : Ref sig .tc := ⟨.hbm, 426, rfl⟩
abbrev main_call9_cst : Ref sig .tc := ⟨.hbm, 427, rfl⟩
abbrev main_call9_v0 : Ref sig .tc := ⟨.hbm, 428, rfl⟩
abbrev main_v259 : Ref sig .tc := ⟨.hbm, 429, rfl⟩
abbrev main_cst_41 : Ref sig .tc := ⟨.hbm, 430, rfl⟩
abbrev main_v260 : Ref sig .tc := ⟨.hbm, 431, rfl⟩
abbrev main_cst_42 : Ref sig .tc := ⟨.hbm, 432, rfl⟩
abbrev main_v261 : Ref sig .tc := ⟨.hbm, 433, rfl⟩
abbrev main_v262 : Ref sig .tc := ⟨.hbm, 434, rfl⟩
abbrev main_c_43 : Ref sig .tc := ⟨.hbm, 435, rfl⟩
abbrev main_call10_cst : Ref sig .tc := ⟨.hbm, 436, rfl⟩
abbrev main_call10_v0 : Ref sig .tc := ⟨.hbm, 437, rfl⟩
abbrev main_call10_v1 : Ref sig .tc := ⟨.hbm, 438, rfl⟩
abbrev main_call10_cst_0 : Ref sig .tc := ⟨.hbm, 439, rfl⟩
abbrev main_call10_v2 : Ref sig .tc := ⟨.hbm, 440, rfl⟩
abbrev main_call10_v3 : Ref sig .tc := ⟨.hbm, 441, rfl⟩
abbrev main_call10_v4 : Ref sig .tc := ⟨.hbm, 442, rfl⟩
abbrev main_call10_v5 : Ref sig .tc := ⟨.hbm, 443, rfl⟩
abbrev main_call10_v6 : Ref sig .tc := ⟨.hbm, 444, rfl⟩
abbrev main_call10_v7 : Ref sig .tc := ⟨.hbm, 445, rfl⟩
abbrev main_call10_cst_1 : Ref sig .tc := ⟨.hbm, 446, rfl⟩
abbrev main_call10_v8 : Ref sig .tc := ⟨.hbm, 447, rfl⟩
abbrev main_call10_cst_2 : Ref sig .tc := ⟨.hbm, 448, rfl⟩
abbrev main_call10_v9 : Ref sig .tc := ⟨.hbm, 449, rfl⟩
abbrev main_call10_v10 : Ref sig .tc := ⟨.hbm, 450, rfl⟩
abbrev main_call10_v11 : Ref sig .tc := ⟨.hbm, 451, rfl⟩
abbrev main_call10_cst_3 : Ref sig .tc := ⟨.hbm, 452, rfl⟩
abbrev main_call10_v12 : Ref sig .tc := ⟨.hbm, 453, rfl⟩
abbrev main_call10_cst_4 : Ref sig .tc := ⟨.hbm, 454, rfl⟩
abbrev main_call10_call0_v0 : Ref sig .tc := ⟨.hbm, 455, rfl⟩
abbrev main_call10_call0_v1 : Ref sig .tc := ⟨.hbm, 456, rfl⟩
abbrev main_v263 : Ref sig .tc := ⟨.hbm, 457, rfl⟩
abbrev main_v264 : Ref sig .tc := ⟨.hbm, 458, rfl⟩
abbrev main_v265 : Ref sig .tc := ⟨.hbm, 459, rfl⟩
abbrev main_v266 : Ref sig .tc := ⟨.hbm, 460, rfl⟩
abbrev main_cst_44 : Ref sig .tc := ⟨.hbm, 461, rfl⟩
abbrev main_v267 : Ref sig .tc := ⟨.hbm, 462, rfl⟩
abbrev main_v268 : Ref sig .tc := ⟨.hbm, 463, rfl⟩
abbrev main_v269 : Ref sig .tc := ⟨.hbm, 464, rfl⟩
abbrev main_v270 : Ref sig .tc := ⟨.hbm, 465, rfl⟩
abbrev main_v271 : Ref sig .tc := ⟨.hbm, 466, rfl⟩
abbrev main_v272 : Ref sig .tc := ⟨.hbm, 467, rfl⟩
abbrev main_v273 : Ref sig .tc := ⟨.hbm, 468, rfl⟩
abbrev main_v274 : Ref sig .tc := ⟨.hbm, 469, rfl⟩
abbrev main_v275 : Ref sig .tc := ⟨.hbm, 470, rfl⟩
abbrev main_v276 : Ref sig .tc := ⟨.hbm, 471, rfl⟩
abbrev main_v277 : Ref sig .tc := ⟨.hbm, 472, rfl⟩
abbrev main_v278 : Ref sig .tc := ⟨.hbm, 473, rfl⟩
abbrev main_v279 : Ref sig .tc := ⟨.hbm, 474, rfl⟩
abbrev main_v280 : Ref sig .tc := ⟨.hbm, 475, rfl⟩
abbrev main_v281 : Ref sig .tc := ⟨.hbm, 476, rfl⟩
abbrev main_v282 : Ref sig .tc := ⟨.hbm, 477, rfl⟩
abbrev main_v283 : Ref sig .tc := ⟨.hbm, 478, rfl⟩
abbrev main_v284 : Ref sig .tc := ⟨.hbm, 479, rfl⟩
abbrev main_v285 : Ref sig .tc := ⟨.hbm, 480, rfl⟩
abbrev main_c_45 : Ref sig .tc := ⟨.hbm, 481, rfl⟩
abbrev main_v286 : Ref sig .tc := ⟨.hbm, 482, rfl⟩
abbrev main_v287 : Ref sig .tc := ⟨.hbm, 483, rfl⟩
abbrev main_c_46 : Ref sig .tc := ⟨.hbm, 484, rfl⟩
abbrev main_v288 : Ref sig .tc := ⟨.hbm, 485, rfl⟩
abbrev main_v289 : Ref sig .tc := ⟨.hbm, 486, rfl⟩
abbrev main_v290 : Ref sig .tc := ⟨.hbm, 487, rfl⟩
abbrev main_v291 : Ref sig .tc := ⟨.hbm, 488, rfl⟩
abbrev main_v292 : Ref sig .tc := ⟨.hbm, 489, rfl⟩
abbrev main_v293 : Ref sig .tc := ⟨.hbm, 490, rfl⟩
abbrev main_v294 : Ref sig .tc := ⟨.hbm, 491, rfl⟩
abbrev main_cst_47 : Ref sig .tc := ⟨.hbm, 492, rfl⟩
abbrev main_v295 : Ref sig .tc := ⟨.hbm, 493, rfl⟩
abbrev main_v296 : Ref sig .tc := ⟨.hbm, 494, rfl⟩
abbrev main_v297 : Ref sig .tc := ⟨.hbm, 495, rfl⟩
abbrev main_v298 : Ref sig .tc := ⟨.hbm, 496, rfl⟩
abbrev main_v299 : Ref sig .tc := ⟨.hbm, 497, rfl⟩
abbrev main_v300 : Ref sig .tc := ⟨.hbm, 498, rfl⟩
abbrev main_v301 : Ref sig .tc := ⟨.hbm, 499, rfl⟩
abbrev main_v302 : Ref sig .tc := ⟨.hbm, 500, rfl⟩
abbrev main_v303 : Ref sig .tc := ⟨.hbm, 501, rfl⟩
abbrev main_call11_cst : Ref sig .tc := ⟨.hbm, 502, rfl⟩
abbrev main_call11_v0 : Ref sig .tc := ⟨.hbm, 503, rfl⟩
abbrev main_v304 : Ref sig .tc := ⟨.hbm, 504, rfl⟩
abbrev main_cst_48 : Ref sig .tc := ⟨.hbm, 505, rfl⟩
abbrev main_v305 : Ref sig .tc := ⟨.hbm, 506, rfl⟩
abbrev main_cst_49 : Ref sig .tc := ⟨.hbm, 507, rfl⟩
abbrev main_v306 : Ref sig .tc := ⟨.hbm, 508, rfl⟩
abbrev main_v307 : Ref sig .tc := ⟨.hbm, 509, rfl⟩
abbrev main_c_50 : Ref sig .tc := ⟨.hbm, 510, rfl⟩
abbrev main_call12_cst : Ref sig .tc := ⟨.hbm, 511, rfl⟩
abbrev main_call12_v0 : Ref sig .tc := ⟨.hbm, 512, rfl⟩
abbrev main_call12_v1 : Ref sig .tc := ⟨.hbm, 513, rfl⟩
abbrev main_call12_cst_0 : Ref sig .tc := ⟨.hbm, 514, rfl⟩
abbrev main_call12_v2 : Ref sig .tc := ⟨.hbm, 515, rfl⟩
abbrev main_call12_v3 : Ref sig .tc := ⟨.hbm, 516, rfl⟩
abbrev main_call12_v4 : Ref sig .tc := ⟨.hbm, 517, rfl⟩
abbrev main_call12_v5 : Ref sig .tc := ⟨.hbm, 518, rfl⟩
abbrev main_call12_v6 : Ref sig .tc := ⟨.hbm, 519, rfl⟩
abbrev main_call12_v7 : Ref sig .tc := ⟨.hbm, 520, rfl⟩
abbrev main_call12_cst_1 : Ref sig .tc := ⟨.hbm, 521, rfl⟩
abbrev main_call12_v8 : Ref sig .tc := ⟨.hbm, 522, rfl⟩
abbrev main_call12_cst_2 : Ref sig .tc := ⟨.hbm, 523, rfl⟩
abbrev main_call12_v9 : Ref sig .tc := ⟨.hbm, 524, rfl⟩
abbrev main_call12_v10 : Ref sig .tc := ⟨.hbm, 525, rfl⟩
abbrev main_call12_v11 : Ref sig .tc := ⟨.hbm, 526, rfl⟩
abbrev main_call12_cst_3 : Ref sig .tc := ⟨.hbm, 527, rfl⟩
abbrev main_call12_v12 : Ref sig .tc := ⟨.hbm, 528, rfl⟩
abbrev main_call12_cst_4 : Ref sig .tc := ⟨.hbm, 529, rfl⟩
abbrev main_call12_call0_v0 : Ref sig .tc := ⟨.hbm, 530, rfl⟩
abbrev main_call12_call0_v1 : Ref sig .tc := ⟨.hbm, 531, rfl⟩
abbrev main_v308 : Ref sig .tc := ⟨.hbm, 532, rfl⟩
abbrev main_v309 : Ref sig .tc := ⟨.hbm, 533, rfl⟩
abbrev main_v310 : Ref sig .tc := ⟨.hbm, 534, rfl⟩
abbrev main_v311 : Ref sig .tc := ⟨.hbm, 535, rfl⟩
abbrev main_cst_51 : Ref sig .tc := ⟨.hbm, 536, rfl⟩
abbrev main_v312 : Ref sig .tc := ⟨.hbm, 537, rfl⟩
abbrev main_v313 : Ref sig .tc := ⟨.hbm, 538, rfl⟩
abbrev main_v314 : Ref sig .tc := ⟨.hbm, 539, rfl⟩
abbrev main_v315 : Ref sig .tc := ⟨.hbm, 540, rfl⟩
abbrev main_v316 : Ref sig .tc := ⟨.hbm, 541, rfl⟩
abbrev main_v317 : Ref sig .tc := ⟨.hbm, 542, rfl⟩
abbrev main_v318 : Ref sig .tc := ⟨.hbm, 543, rfl⟩
abbrev main_v319 : Ref sig .tc := ⟨.hbm, 544, rfl⟩
abbrev main_v320 : Ref sig .tc := ⟨.hbm, 545, rfl⟩
abbrev main_v321 : Ref sig .tc := ⟨.hbm, 546, rfl⟩
abbrev main_v322 : Ref sig .tc := ⟨.hbm, 547, rfl⟩
abbrev main_v323 : Ref sig .tc := ⟨.hbm, 548, rfl⟩
abbrev main_v324 : Ref sig .tc := ⟨.hbm, 549, rfl⟩
abbrev main_v325 : Ref sig .tc := ⟨.hbm, 550, rfl⟩
abbrev main_v326 : Ref sig .tc := ⟨.hbm, 551, rfl⟩
abbrev main_v327 : Ref sig .tc := ⟨.hbm, 552, rfl⟩
abbrev main_v328 : Ref sig .tc := ⟨.hbm, 553, rfl⟩
abbrev main_v329 : Ref sig .tc := ⟨.hbm, 554, rfl⟩
abbrev main_v330 : Ref sig .tc := ⟨.hbm, 555, rfl⟩
abbrev main_c_52 : Ref sig .tc := ⟨.hbm, 556, rfl⟩
abbrev main_v331 : Ref sig .tc := ⟨.hbm, 557, rfl⟩
abbrev main_v332 : Ref sig .tc := ⟨.hbm, 558, rfl⟩
abbrev main_c_53 : Ref sig .tc := ⟨.hbm, 559, rfl⟩
abbrev main_v333 : Ref sig .tc := ⟨.hbm, 560, rfl⟩
abbrev main_v334 : Ref sig .tc := ⟨.hbm, 561, rfl⟩
abbrev main_v335 : Ref sig .tc := ⟨.hbm, 562, rfl⟩
abbrev main_v336 : Ref sig .tc := ⟨.hbm, 563, rfl⟩
abbrev main_v337 : Ref sig .tc := ⟨.hbm, 564, rfl⟩
abbrev main_v338 : Ref sig .tc := ⟨.hbm, 565, rfl⟩
abbrev main_v339 : Ref sig .tc := ⟨.hbm, 566, rfl⟩
abbrev main_cst_54 : Ref sig .tc := ⟨.hbm, 567, rfl⟩
abbrev main_v340 : Ref sig .tc := ⟨.hbm, 568, rfl⟩
abbrev main_v341 : Ref sig .tc := ⟨.hbm, 569, rfl⟩
abbrev main_v342 : Ref sig .tc := ⟨.hbm, 570, rfl⟩
abbrev main_v343 : Ref sig .tc := ⟨.hbm, 571, rfl⟩
abbrev main_v344 : Ref sig .tc := ⟨.hbm, 572, rfl⟩
abbrev main_v345 : Ref sig .tc := ⟨.hbm, 573, rfl⟩
abbrev main_v346 : Ref sig .tc := ⟨.hbm, 574, rfl⟩
abbrev main_v347 : Ref sig .tc := ⟨.hbm, 575, rfl⟩
abbrev main_v348 : Ref sig .tc := ⟨.hbm, 576, rfl⟩
abbrev main_call13_cst : Ref sig .tc := ⟨.hbm, 577, rfl⟩
abbrev main_call13_v0 : Ref sig .tc := ⟨.hbm, 578, rfl⟩
abbrev main_v349 : Ref sig .tc := ⟨.hbm, 579, rfl⟩
abbrev main_cst_55 : Ref sig .tc := ⟨.hbm, 580, rfl⟩
abbrev main_v350 : Ref sig .tc := ⟨.hbm, 581, rfl⟩
abbrev main_cst_56 : Ref sig .tc := ⟨.hbm, 582, rfl⟩
abbrev main_v351 : Ref sig .tc := ⟨.hbm, 583, rfl⟩
abbrev main_v352 : Ref sig .tc := ⟨.hbm, 584, rfl⟩
abbrev main_c_57 : Ref sig .tc := ⟨.hbm, 585, rfl⟩
abbrev main_call14_cst : Ref sig .tc := ⟨.hbm, 586, rfl⟩
abbrev main_call14_v0 : Ref sig .tc := ⟨.hbm, 587, rfl⟩
abbrev main_call14_v1 : Ref sig .tc := ⟨.hbm, 588, rfl⟩
abbrev main_call14_cst_0 : Ref sig .tc := ⟨.hbm, 589, rfl⟩
abbrev main_call14_v2 : Ref sig .tc := ⟨.hbm, 590, rfl⟩
abbrev main_call14_v3 : Ref sig .tc := ⟨.hbm, 591, rfl⟩
abbrev main_call14_v4 : Ref sig .tc := ⟨.hbm, 592, rfl⟩
abbrev main_call14_v5 : Ref sig .tc := ⟨.hbm, 593, rfl⟩
abbrev main_call14_v6 : Ref sig .tc := ⟨.hbm, 594, rfl⟩
abbrev main_call14_v7 : Ref sig .tc := ⟨.hbm, 595, rfl⟩
abbrev main_call14_cst_1 : Ref sig .tc := ⟨.hbm, 596, rfl⟩
abbrev main_call14_v8 : Ref sig .tc := ⟨.hbm, 597, rfl⟩
abbrev main_call14_cst_2 : Ref sig .tc := ⟨.hbm, 598, rfl⟩
abbrev main_call14_v9 : Ref sig .tc := ⟨.hbm, 599, rfl⟩
abbrev main_call14_v10 : Ref sig .tc := ⟨.hbm, 600, rfl⟩
abbrev main_call14_v11 : Ref sig .tc := ⟨.hbm, 601, rfl⟩
abbrev main_call14_cst_3 : Ref sig .tc := ⟨.hbm, 602, rfl⟩
abbrev main_call14_v12 : Ref sig .tc := ⟨.hbm, 603, rfl⟩
abbrev main_call14_cst_4 : Ref sig .tc := ⟨.hbm, 604, rfl⟩
abbrev main_call14_call0_v0 : Ref sig .tc := ⟨.hbm, 605, rfl⟩
abbrev main_call14_call0_v1 : Ref sig .tc := ⟨.hbm, 606, rfl⟩
abbrev main_v353 : Ref sig .tc := ⟨.hbm, 607, rfl⟩
abbrev main_v354 : Ref sig .tc := ⟨.hbm, 608, rfl⟩
abbrev main_v355 : Ref sig .tc := ⟨.hbm, 609, rfl⟩
abbrev main_v356 : Ref sig .tc := ⟨.hbm, 610, rfl⟩
abbrev main_cst_58 : Ref sig .tc := ⟨.hbm, 611, rfl⟩
abbrev main_v357 : Ref sig .tc := ⟨.hbm, 612, rfl⟩
abbrev main_v358 : Ref sig .tc := ⟨.hbm, 613, rfl⟩
abbrev main_v359 : Ref sig .tc := ⟨.hbm, 614, rfl⟩
abbrev main_v360 : Ref sig .tc := ⟨.hbm, 615, rfl⟩
abbrev main_v361 : Ref sig .tc := ⟨.hbm, 616, rfl⟩
abbrev main_v362 : Ref sig .tc := ⟨.hbm, 617, rfl⟩
abbrev main_v363 : Ref sig .tc := ⟨.hbm, 618, rfl⟩
abbrev main_v364 : Ref sig .tc := ⟨.hbm, 619, rfl⟩
abbrev main_v365 : Ref sig .tc := ⟨.hbm, 620, rfl⟩
abbrev main_v366 : Ref sig .tc := ⟨.hbm, 621, rfl⟩
abbrev main_v367 : Ref sig .tc := ⟨.hbm, 622, rfl⟩
abbrev main_v368 : Ref sig .tc := ⟨.hbm, 623, rfl⟩
abbrev main_v369 : Ref sig .tc := ⟨.hbm, 624, rfl⟩
abbrev main_v370 : Ref sig .tc := ⟨.hbm, 625, rfl⟩
abbrev main_v371 : Ref sig .tc := ⟨.hbm, 626, rfl⟩
abbrev main_v372 : Ref sig .tc := ⟨.hbm, 627, rfl⟩
abbrev main_v373 : Ref sig .tc := ⟨.hbm, 628, rfl⟩
abbrev main_v374 : Ref sig .tc := ⟨.hbm, 629, rfl⟩
abbrev main_v375 : Ref sig .tc := ⟨.hbm, 630, rfl⟩
abbrev main_c_59 : Ref sig .tc := ⟨.hbm, 631, rfl⟩
abbrev main_v376 : Ref sig .tc := ⟨.hbm, 632, rfl⟩
abbrev main_v377 : Ref sig .tc := ⟨.hbm, 633, rfl⟩
abbrev main_c_60 : Ref sig .tc := ⟨.hbm, 634, rfl⟩
abbrev main_v378 : Ref sig .tc := ⟨.hbm, 635, rfl⟩
abbrev main_v379 : Ref sig .tc := ⟨.hbm, 636, rfl⟩
abbrev main_v380 : Ref sig .tc := ⟨.hbm, 637, rfl⟩
abbrev main_v381 : Ref sig .tc := ⟨.hbm, 638, rfl⟩
abbrev main_v382 : Ref sig .tc := ⟨.hbm, 639, rfl⟩
abbrev main_v383 : Ref sig .tc := ⟨.hbm, 640, rfl⟩
abbrev main_v384 : Ref sig .tc := ⟨.hbm, 641, rfl⟩
abbrev main_cst_61 : Ref sig .tc := ⟨.hbm, 642, rfl⟩
abbrev main_v385 : Ref sig .tc := ⟨.hbm, 643, rfl⟩
abbrev main_v386 : Ref sig .tc := ⟨.hbm, 644, rfl⟩
abbrev main_v387 : Ref sig .tc := ⟨.hbm, 645, rfl⟩
abbrev main_v388 : Ref sig .tc := ⟨.hbm, 646, rfl⟩
abbrev main_v389 : Ref sig .tc := ⟨.hbm, 647, rfl⟩
abbrev main_v390 : Ref sig .tc := ⟨.hbm, 648, rfl⟩
abbrev main_v391 : Ref sig .tc := ⟨.hbm, 649, rfl⟩
abbrev main_v392 : Ref sig .tc := ⟨.hbm, 650, rfl⟩
abbrev main_v393 : Ref sig .tc := ⟨.hbm, 651, rfl⟩
abbrev main_call15_cst : Ref sig .tc := ⟨.hbm, 652, rfl⟩
abbrev main_call15_v0 : Ref sig .tc := ⟨.hbm, 653, rfl⟩
abbrev main_v394 : Ref sig .tc := ⟨.hbm, 654, rfl⟩
abbrev main_cst_62 : Ref sig .tc := ⟨.hbm, 655, rfl⟩
abbrev main_v395 : Ref sig .tc := ⟨.hbm, 656, rfl⟩
abbrev main_v396 : Ref sig .tc := ⟨.hbm, 657, rfl⟩
abbrev main_v397 : Ref sig .tc := ⟨.hbm, 658, rfl⟩
abbrev main_v398 : Ref sig .tc := ⟨.hbm, 659, rfl⟩
abbrev main_v399 : Ref sig .tc := ⟨.hbm, 660, rfl⟩
abbrev main_v400 : Ref sig .tc := ⟨.hbm, 661, rfl⟩
abbrev main_v401 : Ref sig .tc := ⟨.hbm, 662, rfl⟩
abbrev main_call16_cst : Ref sig .tc := ⟨.hbm, 663, rfl⟩
abbrev main_call16_v0 : Ref sig .tc := ⟨.hbm, 664, rfl⟩
abbrev main_v402 : Ref sig .tc := ⟨.hbm, 665, rfl⟩
abbrev main_v403 : Ref sig .tc := ⟨.hbm, 666, rfl⟩
abbrev main_v404 : Ref sig .tc := ⟨.hbm, 667, rfl⟩
abbrev main_v405 : Ref sig .tc := ⟨.hbm, 668, rfl⟩
abbrev main_v406 : Ref sig .tc := ⟨.hbm, 669, rfl⟩
abbrev main_v407 : Ref sig .tc := ⟨.hbm, 670, rfl⟩

abbrev nD : Nat := 1
abbrev τ : Topo := Topo.v7x

variable {F : FTy → Type} [FloatOps F]

class Facts₀ : Prop where
  slices_S2x8000000_S1x8000000_0_0 : S2x8000000.Slices ![0, 0] S1x8000000
  shapeCasts_S1x8000000_S8000000 : S1x8000000.ShapeCasts S8000000
  concatenates_S8000000_S500000_S8500000_d0 : Shape.Concatenates [S8000000, S500000] S8500000 0
  slices_S2x8000000_S1x8000000_1_0 : S2x8000000.Slices ![1, 0] S1x8000000
  bcast_S_S8500000 : S_.BroadcastsInDim S8500000 (![] : Fin 0 → Fin S8500000.rank)
  bcast_S_S500000 : S_.BroadcastsInDim S500000 (![] : Fin 0 → Fin S500000.rank)
  bcast_S8500000_S8500000x1_0 : S8500000.BroadcastsInDim S8500000x1 (![0] : Fin 1 → Fin S8500000x1.rank)
  bcast_S500000_S500000x1_0 : S500000.BroadcastsInDim S500000x1 (![0] : Fin 1 → Fin S500000x1.rank)
  reducesTo_S500000x8_S8_d0 : S500000x8.ReducesTo [0] S8
  h_S_ : 0 < S_.numel
  bcast_S_S8 : S_.BroadcastsInDim S8 (![] : Fin 0 → Fin S8.rank)
  bcast_S8_S1x8_1 : S8.BroadcastsInDim S1x8 (![1] : Fin 1 → Fin S1x8.rank)
  bcast_S_S1x8 : S_.BroadcastsInDim S1x8 (![] : Fin 0 → Fin S1x8.rank)
  bcast_S1x8_S500000x8_0_1 : S1x8.BroadcastsInDim S500000x8 (![0, 1] : Fin 2 → Fin S500000x8.rank)
  slices_S8x8_S1x8_0_0 : S8x8.Slices ![0, 0] S1x8
  shapeCasts_S1x8_S8 : S1x8.ShapeCasts S8
  slices_S8x8x8_S1x8x8_0_0_0 : S8x8x8.Slices ![0, 0, 0] S1x8x8
  shapeCasts_S1x8x8_S8x8 : S1x8x8.ShapeCasts S8x8
  bcast_S8500000x1_S8500000x8_0_1 : S8500000x1.BroadcastsInDim S8500000x8 (![0, 1] : Fin 2 → Fin S8500000x8.rank)
  bcast_S_S500000x8 : S_.BroadcastsInDim S500000x8 (![] : Fin 0 → Fin S500000x8.rank)
  slices_S8x8_S1x8_1_0 : S8x8.Slices ![1, 0] S1x8
  slices_S8x8x8_S1x8x8_1_0_0 : S8x8x8.Slices ![1, 0, 0] S1x8x8
  slices_S8x8_S1x8_2_0 : S8x8.Slices ![2, 0] S1x8
  slices_S8x8x8_S1x8x8_2_0_0 : S8x8x8.Slices ![2, 0, 0] S1x8x8
  slices_S8x8_S1x8_3_0 : S8x8.Slices ![3, 0] S1x8
  slices_S8x8x8_S1x8x8_3_0_0 : S8x8x8.Slices ![3, 0, 0] S1x8x8
  slices_S8x8_S1x8_4_0 : S8x8.Slices ![4, 0] S1x8
  slices_S8x8x8_S1x8x8_4_0_0 : S8x8x8.Slices ![4, 0, 0] S1x8x8
  slices_S8x8_S1x8_5_0 : S8x8.Slices ![5, 0] S1x8
  slices_S8x8x8_S1x8x8_5_0_0 : S8x8x8.Slices ![5, 0, 0] S1x8x8
  slices_S8x8_S1x8_6_0 : S8x8.Slices ![6, 0] S1x8
  slices_S8x8x8_S1x8x8_6_0_0 : S8x8x8.Slices ![6, 0, 0] S1x8x8
  slices_S8x8_S1x8_7_0 : S8x8.Slices ![7, 0] S1x8
  slices_S8x8x8_S1x8x8_7_0_0 : S8x8x8.Slices ![7, 0, 0] S1x8x8
  bcast_S_S5000x8 : S_.BroadcastsInDim S5000x8 (![] : Fin 0 → Fin S5000x8.rank)
  bcast_S128_S1x128_1 : S128.BroadcastsInDim S1x128 (![1] : Fin 1 → Fin S1x128.rank)
  bcast_S1x128_S5000x128_0_1 : S1x128.BroadcastsInDim S5000x128 (![0, 1] : Fin 2 → Fin S5000x128.rank)
  bcast_S_S5000x128 : S_.BroadcastsInDim S5000x128 (![] : Fin 0 → Fin S5000x128.rank)
  bcast_S1_S1x1_1 : S1.BroadcastsInDim S1x1 (![1] : Fin 1 → Fin S1x1.rank)
  bcast_S1x1_S5000x1_0_1 : S1x1.BroadcastsInDim S5000x1 (![0, 1] : Fin 2 → Fin S5000x1.rank)
  shapeCasts_S5000x1_S5000 : S5000x1.ShapeCasts S5000
  scatter_S500000_S8500000x1_S8500000_n_0_0_1_wf : ScatterDims.WF S500000 S8500000x1 S8500000 [] [0] [0] 1
  gather_S500000_S8500000x1_S8500000_n_0_n_n_0_1_1_wf : GatherDims.WF S500000 S8500000x1 S8500000 [] [0] [] [0] [] 1 ![1]
  gather_S6x8_S500000x1_S500000x8_1_0_n_n_0_1_18_wf : GatherDims.WF S6x8 S500000x1 S500000x8 [1] [0] [] [0] [] 1 ![1, 8]
  dot_S500000x8_S8x8_S500000x8_1_0_0_1_n_n_wf : DotDims.WF S500000x8 S8x8 S500000x8 [1] [0] [0] [1] [] []
  gather_S500000x8_S8500000x1_S8500000x8_1_0_n_n_0_1_18_wf : GatherDims.WF S500000x8 S8500000x1 S8500000x8 [1] [0] [] [0] [] 1 ![1, 8]
  scatter_S500000x8_S8500000x1_S8500000x8_1_0_0_1_wf : ScatterDims.WF S500000x8 S8500000x1 S8500000x8 [1] [0] [0] 1
  scatter_S5000x8_S500000x1_S500000x8_1_0_0_1_wf : ScatterDims.WF S5000x8 S500000x1 S500000x8 [1] [0] [0] 1
  dot_S5000x8_S8x128_S5000x128_1_0_0_1_n_n_wf : DotDims.WF S5000x8 S8x128 S5000x128 [1] [0] [0] [1] [] []
  dot_S5000x128_S128x1_S5000x1_1_0_0_1_n_n_wf : DotDims.WF S5000x128 S128x1 S5000x1 [1] [0] [0] [1] [] []

variable [Facts₀]

def scatter_S500000_S8500000x1_S8500000_n_0_0_1 : ScatterDims S500000 S8500000x1 S8500000 where
  updateWindowDims := []
  insertedWindowDims := [0]
  scatterDimsToOperandDims := [0]
  indexVectorDim := 1
  wf := scatter_S500000_S8500000x1_S8500000_n_0_0_1_wf
def gather_S500000_S8500000x1_S8500000_n_0_n_n_0_1_1 : GatherDims S500000 S8500000x1 S8500000 where
  offsetDims := []
  collapsedSliceDims := [0]
  operandBatchingDims := []
  startIndicesBatchingDims := []
  startIndexMap := [0]
  indexVectorDim := 1
  sliceSizes := ![1]
  wf := gather_S500000_S8500000x1_S8500000_n_0_n_n_0_1_1_wf
def gather_S6x8_S500000x1_S500000x8_1_0_n_n_0_1_18 : GatherDims S6x8 S500000x1 S500000x8 where
  offsetDims := [1]
  collapsedSliceDims := [0]
  operandBatchingDims := []
  startIndicesBatchingDims := []
  startIndexMap := [0]
  indexVectorDim := 1
  sliceSizes := ![1, 8]
  wf := gather_S6x8_S500000x1_S500000x8_1_0_n_n_0_1_18_wf
def dot_S500000x8_S8x8_S500000x8_1_0_0_1_n_n : DotDims S500000x8 S8x8 S500000x8 where
  lhsContracting := [1]
  rhsContracting := [0]
  lhsNonContracting := [0]
  rhsNonContracting := [1]
  lhsBatch := []
  rhsBatch := []
  wf := dot_S500000x8_S8x8_S500000x8_1_0_0_1_n_n_wf
def gather_S500000x8_S8500000x1_S8500000x8_1_0_n_n_0_1_18 : GatherDims S500000x8 S8500000x1 S8500000x8 where
  offsetDims := [1]
  collapsedSliceDims := [0]
  operandBatchingDims := []
  startIndicesBatchingDims := []
  startIndexMap := [0]
  indexVectorDim := 1
  sliceSizes := ![1, 8]
  wf := gather_S500000x8_S8500000x1_S8500000x8_1_0_n_n_0_1_18_wf
def scatter_S500000x8_S8500000x1_S8500000x8_1_0_0_1 : ScatterDims S500000x8 S8500000x1 S8500000x8 where
  updateWindowDims := [1]
  insertedWindowDims := [0]
  scatterDimsToOperandDims := [0]
  indexVectorDim := 1
  wf := scatter_S500000x8_S8500000x1_S8500000x8_1_0_0_1_wf
def scatter_S5000x8_S500000x1_S500000x8_1_0_0_1 : ScatterDims S5000x8 S500000x1 S500000x8 where
  updateWindowDims := [1]
  insertedWindowDims := [0]
  scatterDimsToOperandDims := [0]
  indexVectorDim := 1
  wf := scatter_S5000x8_S500000x1_S500000x8_1_0_0_1_wf
def dot_S5000x8_S8x128_S5000x128_1_0_0_1_n_n : DotDims S5000x8 S8x128 S5000x128 where
  lhsContracting := [1]
  rhsContracting := [0]
  lhsNonContracting := [0]
  rhsNonContracting := [1]
  lhsBatch := []
  rhsBatch := []
  wf := dot_S5000x8_S8x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

class Facts : Prop extends Facts₀ where

variable [Facts]
-- ==== Proof.RefRunA.lean ====
import proofs.«143139_j73710228734964_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The edge normalisation and the embedding rows: @main's statements through the gather that writes %34. 43 operations. -/
abbrev opsPre : List (HloOp τ sig (Elt F)) :=
  [ StableHlo.nullary main_v0 (iotaInDim S500000 32 0),
    StableHlo.unary main_arg1 main_v1 ((extractStridedSlice S1x8000000 ![0, 0] · slices_S2x8000000_S1x8000000_0_0) : (⟨S2x8000000, .i32⟩ : BufTy).Contents (Elt F) → (⟨S1x8000000, .i32⟩ : BufTy).Contents (Elt F)),
    StableHlo.reshape main_v1 main_v2 rfl shapeCasts_S1x8000000_S8000000,
    StableHlo.binary main_v2 main_v0 main_v3 ((fun a b => concatenate S8500000 0 [⟨S8000000, a⟩, ⟨S500000, b⟩] concatenates_S8000000_S500000_S8500000_d0) : (⟨S8000000, .i32⟩ : BufTy).Contents (Elt F) → (⟨S500000, .i32⟩ : BufTy).Contents (Elt F) → (⟨S8500000, .i32⟩ : BufTy).Contents (Elt F)),
    StableHlo.unary main_arg1 main_v4 ((extractStridedSlice S1x8000000 ![1, 0] · slices_S2x8000000_S1x8000000_1_0) : (⟨S2x8000000, .i32⟩ : BufTy).Contents (Elt F) → (⟨S1x8000000, .i32⟩ : BufTy).Contents (Elt F)),
    StableHlo.reshape main_v4 main_v5 rfl shapeCasts_S1x8000000_S8000000,
    StableHlo.binary main_v5 main_v0 main_v6 ((fun a b => concatenate S8500000 0 [⟨S8000000, a⟩, ⟨S500000, b⟩] concatenates_S8000000_S500000_S8500000_d0) : (⟨S8000000, .i32⟩ : BufTy).Contents (Elt F) → (⟨S500000, .i32⟩ : BufTy).Contents (Elt F) → (⟨S8500000, .i32⟩ : BufTy).Contents (Elt F)),
    StableHlo.nullary main_cst (constant S_ .f32 0x3F800000#32),
    StableHlo.unary main_cst main_v7 (broadcastInDim S8500000 ![] bcast_S_S8500000 : (⟨S_, .f32⟩ : BufTy).Contents (Elt F) → (⟨S8500000, .f32⟩ : BufTy).Contents (Elt F)),
    StableHlo.nullary main_cst_0 (constant S_ .f32 0x00000000#32),
    StableHlo.unary main_cst_0 main_v8 (broadcastInDim S500000 ![] bcast_S_S500000 : (⟨S_, .f32⟩ : BufTy).Contents (Elt F) → (⟨S500000, .f32⟩ : BufTy).Contents (Elt F)),
    StableHlo.unary main_v6 main_v9 (broadcastInDim S8500000x1 ![0] bcast_S8500000_S8500000x1_0 : (⟨S8500000, .i32⟩ : BufTy).Contents (Elt F) → (⟨S8500000x1, .i32⟩ : BufTy).Contents (Elt F)),
    StableHlo.ternary main_v8 main_v9 main_v7 main_v10 ((fun x i u => Host.scatterAdd scatter_S500000_S8500000x1_S8500000_n_0_0_1 x i u) : (⟨S500000, .f32⟩ : BufTy).Contents (Elt F) → (⟨S8500000x1, .i32⟩ : BufTy).Contents (Elt F) → (⟨S8500000, .f32⟩ : BufTy).Contents (Elt F) → (⟨S500000, .f32⟩ : BufTy).Contents (Elt F)),
    StableHlo.unary main_v10 main_v11 (Host.rsqrt : (⟨S500000, .f32⟩ : BufTy).Contents (Elt F) → (⟨S500000, .f32⟩ : BufTy).Contents (Elt F)),
    StableHlo.nullary main_c (constantI S_ 32 0#32),
    StableHlo.unary main_c main_v12 (broadcastInDim S8500000 ![] bcast_S_S8500000 : (⟨S_, .i32⟩ : BufTy).Contents (Elt F) → (⟨S8500000, .i32⟩ : BufTy).Contents (Elt F)),
    StableHlo.binary main_v3 main_v12 main_v13 (cmpi .slt : (⟨S8500000, .i32⟩ : BufTy).Contents (Elt F) → (⟨S8500000, .i32⟩ : BufTy).Contents (Elt F) → (⟨S8500000, .i1⟩ : BufTy).Contents (Elt F)),
    StableHlo.nullary main_c_1 (constantI S_ 32 500000#32),
    StableHlo.unary main_c_1 main_v14 (broadcastInDim S8500000 ![] bcast_S_S8500000 : (⟨S_, .i32⟩ : BufTy).Contents (Elt F) → (⟨S8500000, .i32⟩ : BufTy).Contents (Elt F)),
    StableHlo.binary main_v3 main_v14 main_v15 (addi : (⟨S8500000, .i32⟩ : BufTy).Contents (Elt F) → (⟨S8500000, .i32⟩ : BufTy).Contents (Elt F) → (⟨S8500000, .i32⟩ : BufTy).Contents (Elt F)),
    StableHlo.ternary main_v13 main_v15 main_v3 main_v16 (select : (⟨S8500000, .i1⟩ : BufTy).Contents (Elt F) → (⟨S8500000, .i32⟩ : BufTy).Contents (Elt F) → (⟨S8500000, .i32⟩ : BufTy).Contents (Elt F) → (⟨S8500000, .i32⟩ : BufTy).Contents (Elt F)),
    StableHlo.unary main_v16 main_v17 (broadcastInDim S8500000x1 ![0] bcast_S8500000_S8500000x1_0 : (⟨S8500000, .i32⟩ : BufTy).Contents (Elt F) → (⟨S8500000x1, .i32⟩ : BufTy).Contents (Elt F)),
    StableHlo.binary main_v11 main_v17 main_v18 ((fun x i => Host.gather gather_S500000_S8500000x1_S8500000_n_0_n_n_0_1_1 x i) : (⟨S500000, .f32⟩ : BufTy).Contents (Elt F) → (⟨S8500000x1, .i32⟩ : BufTy).Contents (Elt F) → (⟨S8500000, .f32⟩ : BufTy).Contents (Elt F)),
    StableHlo.nullary main_c_2 (constantI S_ 32 0#32),
    StableHlo.unary main_c_2 main_v19 (broadcastInDim S8500000 ![] bcast_S_S8500000 : (⟨S_, .i32⟩ : BufTy).Contents (Elt F) → (⟨S8500000, .i32⟩ : BufTy).Contents (Elt F)),
    StableHlo.binary main_v6 main_v19 main_v20 (cmpi .slt : (⟨S8500000, .i32⟩ : BufTy).Contents (Elt F) → (⟨S8500000, .i32⟩ : BufTy).Contents (Elt F) → (⟨S8500000, .i1⟩ : BufTy).Contents (Elt F)),
    StableHlo.nullary main_c_3 (constantI S_ 32 500000#32),
    StableHlo.unary main_c_3 main_v21 (broadcastInDim S8500000 ![] bcast_S_S8500000 : (⟨S_, .i32⟩ : BufTy).Contents (Elt F) → (⟨S8500000, .i32⟩ : BufTy).Contents (Elt F)),
    StableHlo.binary main_v6 main_v21 main_v22 (addi : (⟨S8500000, .i32⟩ : BufTy).Contents (Elt F) → (⟨S8500000, .i32⟩ : BufTy).Contents (Elt F) → (⟨S8500000, .i32⟩ : BufTy).Contents (Elt F)),
    StableHlo.ternary main_v20 main_v22 main_v6 main_v23 (select : (⟨S8500000, .i1⟩ : BufTy).Contents (Elt F) → (⟨S8500000, .i32⟩ : BufTy).Contents (Elt F) → (⟨S8500000, .i32⟩ : BufTy).Contents (Elt F) → (⟨S8500000, .i32⟩ : BufTy).Contents (Elt F)),
    StableHlo.unary main_v23 main_v24 (broadcastInDim S8500000x1 ![0] bcast_S8500000_S8500000x1_0 : (⟨S8500000, .i32⟩ : BufTy).Contents (Elt F) → (⟨S8500000x1, .i32⟩ : BufTy).Contents (Elt F)),
    StableHlo.binary main_v11 main_v24 main_v25 ((fun x i => Host.gather gather_S500000_S8500000x1_S8500000_n_0_n_n_0_1_1 x i) : (⟨S500000, .f32⟩ : BufTy).Contents (Elt F) → (⟨S8500000x1, .i32⟩ : BufTy).Contents (Elt F) → (⟨S8500000, .f32⟩ : BufTy).Contents (Elt F)),
    StableHlo.binary main_v18 main_v25 main_v26 (mulf : (⟨S8500000, .f32⟩ : BufTy).Contents (Elt F) → (⟨S8500000, .f32⟩ : BufTy).Contents (Elt F) → (⟨S8500000, .f32⟩ : BufTy).Contents (Elt F)),
    StableHlo.unary main_v26 main_v27 (broadcastInDim S8500000x1 ![0] bcast_S8500000_S8500000x1_0 : (⟨S8500000, .f32⟩ : BufTy).Contents (Elt F) → (⟨S8500000x1, .f32⟩ : BufTy).Contents (Elt F)),
    StableHlo.nullary main_c_4 (constantI S_ 32 0#32),
    StableHlo.unary main_c_4 main_v28 (broadcastInDim S500000 ![] bcast_S_S500000 : (⟨S_, .i32⟩ : BufTy).Contents (Elt F) → (⟨S500000, .i32⟩ : BufTy).Contents (Elt F)),
    StableHlo.binary main_arg0 main_v28 main_v29 (cmpi .slt : (⟨S500000, .i32⟩ : BufTy).Contents (Elt F) → (⟨S500000, .i32⟩ : BufTy).Contents (Elt F) → (⟨S500000, .i1⟩ : BufTy).Contents (Elt F)),
    StableHlo.nullary main_c_5 (constantI S_ 32 6#32),
    StableHlo.unary main_c_5 main_v30 (broadcastInDim S500000 ![] bcast_S_S500000 : (⟨S_, .i32⟩ : BufTy).Contents (Elt F) → (⟨S500000, .i32⟩ : BufTy).Contents (Elt F)),
    StableHlo.binary main_arg0 main_v30 main_v31 (addi : (⟨S500000, .i32⟩ : BufTy).Contents (Elt F) → (⟨S500000, .i32⟩ : BufTy).Contents (Elt F) → (⟨S500000, .i32⟩ : BufTy).Contents (Elt F)),
    StableHlo.ternary main_v29 main_v31 main_arg0 main_v32 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v32 main_v33 (broadcastInDim S500000x1 ![0] bcast_S500000_S500000x1_0 : (⟨S500000, .i32⟩ : BufTy).Contents (Elt F) → (⟨S500000x1, .i32⟩ : BufTy).Contents (Elt F)),
    StableHlo.binary main_arg3 main_v33 main_v34 ((fun x i => Host.gather gather_S6x8_S500000x1_S500000x8_1_0_n_n_0_1_18 x i) : (⟨S6x8, .f32⟩ : BufTy).Contents (Elt F) → (⟨S500000x1, .i32⟩ : BufTy).Contents (Elt F) → (⟨S500000x8, .f32⟩ : BufTy).Contents (Elt F)) ]

set_option maxRecDepth 8192 in
theorem opsPre_sub : (opsPre : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

set_option maxRecDepth 8192 in
theorem opsPre_fresh : (opsPre : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 0: from the statement after the previous layer's output to the rectifier that writes %79, the variance and the rectifier written out at their calls. 75 operations. -/
abbrev opsL0 : List (HloOp τ sig (Elt F)) :=
  [ StableHlo.nullary main_cst_6 (constant S_ .f32 0x00000000#32),
    StableHlo.binary main_v34 main_cst_6 main_v35 ((fun x v => Host.reduceAdd x v reducesTo_S500000x8_S8_d0 h_S_) : (⟨S500000x8, .f32⟩ : BufTy).Contents (Elt F) → (⟨S_, .f32⟩ : BufTy).Contents (Elt F) → (⟨S8, .f32⟩ : BufTy).Contents (Elt F)),
    StableHlo.nullary main_cst_7 (constant S_ .f32 0x48F42400#32),
    StableHlo.unary main_cst_7 main_v36 (broadcastInDim S8 ![] bcast_S_S8 : (⟨S_, .f32⟩ : BufTy).Contents (Elt F) → (⟨S8, .f32⟩ : BufTy).Contents (Elt F)),
    StableHlo.binary main_v35 main_v36 main_v37 (Host.divf : (⟨S8, .f32⟩ : BufTy).Contents (Elt F) → (⟨S8, .f32⟩ : BufTy).Contents (Elt F) → (⟨S8, .f32⟩ : BufTy).Contents (Elt F)),
    StableHlo.nullary main_c_8 (constantI S_ 32 0#32),
    StableHlo.TRef.nullary main_call0.cst (constant S_ .f32 0x00000000#32),
    StableHlo.TRef.binary (.of main_v34 : StableHlo.TRef sig ⟨S500000x8, .f32⟩) main_call0.cst main_call0.v0 (fun x v => Host.reduceAdd x v reducesTo_S500000x8_S8_d0 h_S_),
    StableHlo.TRef.unary main_call0.v0 main_call0.v1 (broadcastInDim S1x8 ![1] bcast_S8_S1x8_1),
    StableHlo.TRef.nullary main_call0.cst_0 (constant S_ .f32 0x48F42400#32),
    StableHlo.TRef.unary main_call0.cst_0 main_call0.v2 (broadcastInDim S1x8 ![] bcast_S_S1x8),
    StableHlo.TRef.binary main_call0.v1 main_call0.v2 main_call0.v3 Host.divf,
    StableHlo.TRef.unary main_call0.v3 main_call0.v4 (broadcastInDim S500000x8 ![0, 1] bcast_S1x8_S500000x8_0_1),
    StableHlo.TRef.binary (.of main_v34 : StableHlo.TRef sig ⟨S500000x8, .f32⟩) main_call0.v4 main_call0.v5 subf,
    StableHlo.TRef.binary main_call0.v5 main_call0.v5 main_call0.v6 mulf,
    StableHlo.TRef.unary (.of main_c_8 : StableHlo.TRef sig ⟨S_, .i32⟩) main_call0.v7 (sitofp .f32),
    StableHlo.TRef.nullary main_call0.cst_1 (constant S_ .f32 0x48F42400#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S500000x8_S8_d0 h_S_),
    StableHlo.TRef.unary main_call0.v8 main_call0.v10 (broadcastInDim S8 ![] bcast_S_S8),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S8 ![] bcast_S_S8),
    StableHlo.TRef.ternary main_call0.v12 main_call0.v11 main_call0.call0.v1 main_call0.call0.v2 (fun p a b => select (broadcastInDim S8 ![] bcast_S_S8 p) a b),
    StableHlo.unary main_v37 main_v39 (broadcastInDim S1x8 ![1] bcast_S8_S1x8_1 : (⟨S8, .f32⟩ : BufTy).Contents (Elt F) → (⟨S1x8, .f32⟩ : BufTy).Contents (Elt F)),
    StableHlo.unary main_v39 main_v40 (broadcastInDim S500000x8 ![0, 1] bcast_S1x8_S500000x8_0_1 : (⟨S1x8, .f32⟩ : BufTy).Contents (Elt F) → (⟨S500000x8, .f32⟩ : BufTy).Contents (Elt F)),
    StableHlo.binary main_v34 main_v40 main_v41 (subf : (⟨S500000x8, .f32⟩ : BufTy).Contents (Elt F) → (⟨S500000x8, .f32⟩ : BufTy).Contents (Elt F) → (⟨S500000x8, .f32⟩ : BufTy).Contents (Elt F)),
    StableHlo.nullary main_cst_9 (constant S_ .f32 0x3727C5AC#32),
    StableHlo.unary main_cst_9 main_v42 (broadcastInDim S8 ![] bcast_S_S8 : (⟨S_, .f32⟩ : BufTy).Contents (Elt F) → (⟨S8, .f32⟩ : BufTy).Contents (Elt F)),
    StableHlo.binary main_v38 main_v42 main_v43 (addf : (⟨S8, .f32⟩ : BufTy).Contents (Elt F) → (⟨S8, .f32⟩ : BufTy).Contents (Elt F) → (⟨S8, .f32⟩ : BufTy).Contents (Elt F)),
    StableHlo.unary main_v43 main_v44 (Host.rsqrt : (⟨S8, .f32⟩ : BufTy).Contents (Elt F) → (⟨S8, .f32⟩ : BufTy).Contents (Elt F)),
    StableHlo.unary main_v44 main_v45 (broadcastInDim S1x8 ![1] bcast_S8_S1x8_1 : (⟨S8, .f32⟩ : BufTy).Contents (Elt F) → (⟨S1x8, .f32⟩ : BufTy).Contents (Elt F)),
    StableHlo.unary main_v45 main_v46 (broadcastInDim S500000x8 ![0, 1] bcast_S1x8_S500000x8_0_1 : (⟨S1x8, .f32⟩ : BufTy).Contents (Elt F) → (⟨S500000x8, .f32⟩ : BufTy).Contents (Elt F)),
    StableHlo.binary main_v41 main_v46 main_v47 (mulf : (⟨S500000x8, .f32⟩ : BufTy).Contents (Elt F) → (⟨S500000x8, .f32⟩ : BufTy).Contents (Elt F) → (⟨S500000x8, .f32⟩ : BufTy).Contents (Elt F)),
    StableHlo.unary main_arg4 main_v48 ((extractStridedSlice S1x8 ![0, 0] · slices_S8x8_S1x8_0_0) : (⟨S8x8, .f32⟩ : BufTy).Contents (Elt F) → (⟨S1x8, .f32⟩ : BufTy).Contents (Elt F)),
    StableHlo.reshape main_v48 main_v49 rfl shapeCasts_S1x8_S8,
    StableHlo.unary main_v49 main_v50 (broadcastInDim S1x8 ![1] bcast_S8_S1x8_1 : (⟨S8, .f32⟩ : BufTy).Contents (Elt F) → (⟨S1x8, .f32⟩ : BufTy).Contents (Elt F)),
    StableHlo.unary main_v50 main_v51 (broadcastInDim S500000x8 ![0, 1] bcast_S1x8_S500000x8_0_1 : (⟨S1x8, .f32⟩ : BufTy).Contents (Elt F) → (⟨S500000x8, .f32⟩ : BufTy).Contents (Elt F)),
    StableHlo.binary main_v47 main_v51 main_v52 (mulf : (⟨S500000x8, .f32⟩ : BufTy).Contents (Elt F) → (⟨S500000x8, .f32⟩ : BufTy).Contents (Elt F) → (⟨S500000x8, .f32⟩ : BufTy).Contents (Elt F)),
    StableHlo.unary main_arg5 main_v53 ((extractStridedSlice S1x8 ![0, 0] · slices_S8x8_S1x8_0_0) : (⟨S8x8, .f32⟩ : BufTy).Contents (Elt F) → (⟨S1x8, .f32⟩ : BufTy).Contents (Elt F)),
    StableHlo.reshape main_v53 main_v54 rfl shapeCasts_S1x8_S8,
    StableHlo.unary main_v54 main_v55 (broadcastInDim S1x8 ![1] bcast_S8_S1x8_1 : (⟨S8, .f32⟩ : BufTy).Contents (Elt F) → (⟨S1x8, .f32⟩ : BufTy).Contents (Elt F)),
    StableHlo.unary main_v55 main_v56 (broadcastInDim S500000x8 ![0, 1] bcast_S1x8_S500000x8_0_1 : (⟨S1x8, .f32⟩ : BufTy).Contents (Elt F) → (⟨S500000x8, .f32⟩ : BufTy).Contents (Elt F)),
    StableHlo.binary main_v52 main_v56 main_v57 (addf : (⟨S500000x8, .f32⟩ : BufTy).Contents (Elt F) → (⟨S500000x8, .f32⟩ : BufTy).Contents (Elt F) → (⟨S500000x8, .f32⟩ : BufTy).Contents (Elt F)),
    StableHlo.unary main_arg6 main_v58 ((extractStridedSlice S1x8x8 ![0, 0, 0] · slices_S8x8x8_S1x8x8_0_0_0) : (⟨S8x8x8, .f32⟩ : BufTy).Contents (Elt F) → (⟨S1x8x8, .f32⟩ : BufTy).Contents (Elt F)),
    StableHlo.reshape main_v58 main_v59 rfl shapeCasts_S1x8x8_S8x8,
    StableHlo.binary main_v57 main_v59 main_v60 ((fun l r => Host.dotGeneral dot_S500000x8_S8x8_S500000x8_1_0_0_1_n_n none l r) : (⟨S500000x8, .f32⟩ : BufTy).Contents (Elt F) → (⟨S8x8, .f32⟩ : BufTy).Contents (Elt F) → (⟨S500000x8, .f32⟩ : BufTy).Contents (Elt F)),
    StableHlo.nullary main_c_10 (constantI S_ 32 0#32),
    StableHlo.unary main_c_10 main_v61 (broadcastInDim S8500000 ![] bcast_S_S8500000 : (⟨S_, .i32⟩ : BufTy).Contents (Elt F) → (⟨S8500000, .i32⟩ : BufTy).Contents (Elt F)),
    StableHlo.binary main_v3 main_v61 main_v62 (cmpi .slt : (⟨S8500000, .i32⟩ : BufTy).Contents (Elt F) → (⟨S8500000, .i32⟩ : BufTy).Contents (Elt F) → (⟨S8500000, .i1⟩ : BufTy).Contents (Elt F)),
    StableHlo.nullary main_c_11 (constantI S_ 32 500000#32),
    StableHlo.unary main_c_11 main_v63 (broadcastInDim S8500000 ![] bcast_S_S8500000 : (⟨S_, .i32⟩ : BufTy).Contents (Elt F) → (⟨S8500000, .i32⟩ : BufTy).Contents (Elt F)),
    StableHlo.binary main_v3 main_v63 main_v64 (addi : (⟨S8500000, .i32⟩ : BufTy).Contents (Elt F) → (⟨S8500000, .i32⟩ : BufTy).Contents (Elt F) → (⟨S8500000, .i32⟩ : BufTy).Contents (Elt F)),
    StableHlo.ternary main_v62 main_v64 main_v3 main_v65 (select : (⟨S8500000, .i1⟩ : BufTy).Contents (Elt F) → (⟨S8500000, .i32⟩ : BufTy).Contents (Elt F) → (⟨S8500000, .i32⟩ : BufTy).Contents (Elt F) → (⟨S8500000, .i32⟩ : BufTy).Contents (Elt F)),
    StableHlo.unary main_v65 main_v66 (broadcastInDim S8500000x1 ![0] bcast_S8500000_S8500000x1_0 : (⟨S8500000, .i32⟩ : BufTy).Contents (Elt F) → (⟨S8500000x1, .i32⟩ : BufTy).Contents (Elt F)),
    StableHlo.binary main_v60 main_v66 main_v67 ((fun x i => Host.gather gather_S500000x8_S8500000x1_S8500000x8_1_0_n_n_0_1_18 x i) : (⟨S500000x8, .f32⟩ : BufTy).Contents (Elt F) → (⟨S8500000x1, .i32⟩ : BufTy).Contents (Elt F) → (⟨S8500000x8, .f32⟩ : BufTy).Contents (Elt F)),
    StableHlo.unary main_v27 main_v68 (broadcastInDim S8500000x8 ![0, 1] bcast_S8500000x1_S8500000x8_0_1 : (⟨S8500000x1, .f32⟩ : BufTy).Contents (Elt F) → (⟨S8500000x8, .f32⟩ : BufTy).Contents (Elt F)),
    StableHlo.binary main_v68 main_v67 main_v69 (mulf : (⟨S8500000x8, .f32⟩ : BufTy).Contents (Elt F) → (⟨S8500000x8, .f32⟩ : BufTy).Contents (Elt F) → (⟨S8500000x8, .f32⟩ : BufTy).Contents (Elt F)),
    StableHlo.nullary main_cst_12 (constant S_ .f32 0x00000000#32),
    StableHlo.unary main_cst_12 main_v70 (broadcastInDim S500000x8 ![] bcast_S_S500000x8 : (⟨S_, .f32⟩ : BufTy).Contents (Elt F) → (⟨S500000x8, .f32⟩ : BufTy).Contents (Elt F)),
    StableHlo.unary main_v6 main_v71 (broadcastInDim S8500000x1 ![0] bcast_S8500000_S8500000x1_0 : (⟨S8500000, .i32⟩ : BufTy).Contents (Elt F) → (⟨S8500000x1, .i32⟩ : BufTy).Contents (Elt F)),
    StableHlo.ternary main_v70 main_v71 main_v69 main_v72 ((fun x i u => Host.scatterAdd scatter_S500000x8_S8500000x1_S8500000x8_1_0_0_1 x i u) : (⟨S500000x8, .f32⟩ : BufTy).Contents (Elt F) → (⟨S8500000x1, .i32⟩ : BufTy).Contents (Elt F) → (⟨S8500000x8, .f32⟩ : BufTy).Contents (Elt F) → (⟨S500000x8, .f32⟩ : BufTy).Contents (Elt F)),
    StableHlo.unary main_arg7 main_v73 ((extractStridedSlice S1x8 ![0, 0] · slices_S8x8_S1x8_0_0) : (⟨S8x8, .f32⟩ : BufTy).Contents (Elt F) → (⟨S1x8, .f32⟩ : BufTy).Contents (Elt F)),
    StableHlo.reshape main_v73 main_v74 rfl shapeCasts_S1x8_S8,
    StableHlo.unary main_v74 main_v75 (broadcastInDim S1x8 ![1] bcast_S8_S1x8_1 : (⟨S8, .f32⟩ : BufTy).Contents (Elt F) → (⟨S1x8, .f32⟩ : BufTy).Contents (Elt F)),
    StableHlo.unary main_v75 main_v76 (broadcastInDim S500000x8 ![0, 1] bcast_S1x8_S500000x8_0_1 : (⟨S1x8, .f32⟩ : BufTy).Contents (Elt F) → (⟨S500000x8, .f32⟩ : BufTy).Contents (Elt F)),
    StableHlo.binary main_v72 main_v76 main_v77 (addf : (⟨S500000x8, .f32⟩ : BufTy).Contents (Elt F) → (⟨S500000x8, .f32⟩ : BufTy).Contents (Elt F) → (⟨S500000x8, .f32⟩ : BufTy).Contents (Elt F)),
    StableHlo.binary main_v34 main_v77 main_v78 (addf : (⟨S500000x8, .f32⟩ : BufTy).Contents (Elt F) → (⟨S500000x8, .f32⟩ : BufTy).Contents (Elt F) → (⟨S500000x8, .f32⟩ : BufTy).Contents (Elt F)),
    StableHlo.TRef.nullary main_call1.cst (constant S_ .f32 0x00000000#32),
    StableHlo.TRef.unary main_call1.cst main_call1.v0 (broadcastInDim S500000x8 ![] bcast_S_S500000x8),
    StableHlo.TRef.binary (.of main_v78 : StableHlo.TRef sig ⟨S500000x8, .f32⟩) main_call1.v0 main_call1.v1 maximumf ]

set_option maxRecDepth 8192 in
theorem opsL0_sub : (opsL0 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩

set_option maxRecDepth 8192 in
theorem opsL0_fresh : (opsL0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 1: from the statement after the previous layer's output to the rectifier that writes %124, the variance and the rectifier written out at their calls. 75 operations. -/
abbrev opsL1 : List (HloOp τ sig (Elt F)) :=
  [ StableHlo.nullary main_cst_13 (constant S_ .f32 0x00000000#32),
    StableHlo.binary main_v79 main_cst_13 main_v80 ((fun x v => Host.reduceAdd x v reducesTo_S500000x8_S8_d0 h_S_) : (⟨S500000x8, .f32⟩ : BufTy).Contents (Elt F) → (⟨S_, .f32⟩ : BufTy).Contents (Elt F) → (⟨S8, .f32⟩ : BufTy).Contents (Elt F)),
    StableHlo.nullary main_cst_14 (constant S_ .f32 0x48F42400#32),
    StableHlo.unary main_cst_14 main_v81 (broadcastInDim S8 ![] bcast_S_S8 : (⟨S_, .f32⟩ : BufTy).Contents (Elt F) → (⟨S8, .f32⟩ : BufTy).Contents (Elt F)),
    StableHlo.binary main_v80 main_v81 main_v82 (Host.divf : (⟨S8, .f32⟩ : BufTy).Contents (Elt F) → (⟨S8, .f32⟩ : BufTy).Contents (Elt F) → (⟨S8, .f32⟩ : BufTy).Contents (Elt F)),
    StableHlo.nullary main_c_15 (constantI S_ 32 0#32),
    StableHlo.TRef.nullary main_call2.cst (constant S_ .f32 0x00000000#32),
    StableHlo.TRef.binary (.of main_v79 : StableHlo.TRef sig ⟨S500000x8, .f32⟩) main_call2.cst main_call2.v0 (fun x v => Host.reduceAdd x v reducesTo_S500000x8_S8_d0 h_S_),
    StableHlo.TRef.unary main_call2.v0 main_call2.v1 (broadcastInDim S1x8 ![1] bcast_S8_S1x8_1),
    StableHlo.TRef.nullary main_call2.cst_0 (constant S_ .f32 0x48F42400#32),
    StableHlo.TRef.unary main_call2.cst_0 main_call2.v2 (broadcastInDim S1x8 ![] bcast_S_S1x8),
    StableHlo.TRef.binary main_call2.v1 main_call2.v2 main_call2.v3 Host.divf,
    StableHlo.TRef.unary main_call2.v3 main_call2.v4 (broadcastInDim S500000x8 ![0, 1] bcast_S1x8_S500000x8_0_1),
    StableHlo.TRef.binary (.of main_v79 : StableHlo.TRef sig ⟨S500000x8, .f32⟩) main_call2.v4 main_call2.v5 subf,
    StableHlo.TRef.binary main_call2.v5 main_call2.v5 main_call2.v6 mulf,
    StableHlo.TRef.unary (.of main_c_15 : StableHlo.TRef sig ⟨S_, .i32⟩) main_call2.v7 (sitofp .f32),
    StableHlo.TRef.nullary main_call2.cst_1 (constant S_ .f32 0x48F42400#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S500000x8_S8_d0 h_S_),
    StableHlo.TRef.unary main_call2.v8 main_call2.v10 (broadcastInDim S8 ![] bcast_S_S8),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S8 ![] bcast_S_S8),
    StableHlo.TRef.ternary main_call2.v12 main_call2.v11 main_call2.call0.v1 main_call2.call0.v2 (fun p a b => select (broadcastInDim S8 ![] bcast_S_S8 p) a b),
    StableHlo.unary main_v82 main_v84 (broadcastInDim S1x8 ![1] bcast_S8_S1x8_1 : (⟨S8, .f32⟩ : BufTy).Contents (Elt F) → (⟨S1x8, .f32⟩ : BufTy).Contents (Elt F)),
    StableHlo.unary main_v84 main_v85 (broadcastInDim S500000x8 ![0, 1] bcast_S1x8_S500000x8_0_1 : (⟨S1x8, .f32⟩ : BufTy).Contents (Elt F) → (⟨S500000x8, .f32⟩ : BufTy).Contents (Elt F)),
    StableHlo.binary main_v79 main_v85 main_v86 (subf : (⟨S500000x8, .f32⟩ : BufTy).Contents (Elt F) → (⟨S500000x8, .f32⟩ : BufTy).Contents (Elt F) → (⟨S500000x8, .f32⟩ : BufTy).Contents (Elt F)),
    StableHlo.nullary main_cst_16 (constant S_ .f32 0x3727C5AC#32),
    StableHlo.unary main_cst_16 main_v87 (broadcastInDim S8 ![] bcast_S_S8 : (⟨S_, .f32⟩ : BufTy).Contents (Elt F) → (⟨S8, .f32⟩ : BufTy).Contents (Elt F)),
    StableHlo.binary main_v83 main_v87 main_v88 (addf : (⟨S8, .f32⟩ : BufTy).Contents (Elt F) → (⟨S8, .f32⟩ : BufTy).Contents (Elt F) → (⟨S8, .f32⟩ : BufTy).Contents (Elt F)),
    StableHlo.unary main_v88 main_v89 (Host.rsqrt : (⟨S8, .f32⟩ : BufTy).Contents (Elt F) → (⟨S8, .f32⟩ : BufTy).Contents (Elt F)),
    StableHlo.unary main_v89 main_v90 (broadcastInDim S1x8 ![1] bcast_S8_S1x8_1 : (⟨S8, .f32⟩ : BufTy).Contents (Elt F) → (⟨S1x8, .f32⟩ : BufTy).Contents (Elt F)),
    StableHlo.unary main_v90 main_v91 (broadcastInDim S500000x8 ![0, 1] bcast_S1x8_S500000x8_0_1 : (⟨S1x8, .f32⟩ : BufTy).Contents (Elt F) → (⟨S500000x8, .f32⟩ : BufTy).Contents (Elt F)),
    StableHlo.binary main_v86 main_v91 main_v92 (mulf : (⟨S500000x8, .f32⟩ : BufTy).Contents (Elt F) → (⟨S500000x8, .f32⟩ : BufTy).Contents (Elt F) → (⟨S500000x8, .f32⟩ : BufTy).Contents (Elt F)),
    StableHlo.unary main_arg4 main_v93 ((extractStridedSlice S1x8 ![1, 0] · slices_S8x8_S1x8_1_0) : (⟨S8x8, .f32⟩ : BufTy).Contents (Elt F) → (⟨S1x8, .f32⟩ : BufTy).Contents (Elt F)),
    StableHlo.reshape main_v93 main_v94 rfl shapeCasts_S1x8_S8,
    StableHlo.unary main_v94 main_v95 (broadcastInDim S1x8 ![1] bcast_S8_S1x8_1 : (⟨S8, .f32⟩ : BufTy).Contents (Elt F) → (⟨S1x8, .f32⟩ : BufTy).Contents (Elt F)),
    StableHlo.unary main_v95 main_v96 (broadcastInDim S500000x8 ![0, 1] bcast_S1x8_S500000x8_0_1 : (⟨S1x8, .f32⟩ : BufTy).Contents (Elt F) → (⟨S500000x8, .f32⟩ : BufTy).Contents (Elt F)),
    StableHlo.binary main_v92 main_v96 main_v97 (mulf : (⟨S500000x8, .f32⟩ : BufTy).Contents (Elt F) → (⟨S500000x8, .f32⟩ : BufTy).Contents (Elt F) → (⟨S500000x8, .f32⟩ : BufTy).Contents (Elt F)),
    StableHlo.unary main_arg5 main_v98 ((extractStridedSlice S1x8 ![1, 0] · slices_S8x8_S1x8_1_0) : (⟨S8x8, .f32⟩ : BufTy).Contents (Elt F) → (⟨S1x8, .f32⟩ : BufTy).Contents (Elt F)),
    StableHlo.reshape main_v98 main_v99 rfl shapeCasts_S1x8_S8,
    StableHlo.unary main_v99 main_v100 (broadcastInDim S1x8 ![1] bcast_S8_S1x8_1 : (⟨S8, .f32⟩ : BufTy).Contents (Elt F) → (⟨S1x8, .f32⟩ : BufTy).Contents (Elt F)),
    StableHlo.unary main_v100 main_v101 (broadcastInDim S500000x8 ![0, 1] bcast_S1x8_S500000x8_0_1 : (⟨S1x8, .f32⟩ : BufTy).Contents (Elt F) → (⟨S500000x8, .f32⟩ : BufTy).Contents (Elt F)),
    StableHlo.binary main_v97 main_v101 main_v102 (addf : (⟨S500000x8, .f32⟩ : BufTy).Contents (Elt F) → (⟨S500000x8, .f32⟩ : BufTy).Contents (Elt F) → (⟨S500000x8, .f32⟩ : BufTy).Contents (Elt F)),
    StableHlo.unary main_arg6 main_v103 ((extractStridedSlice S1x8x8 ![1, 0, 0] · slices_S8x8x8_S1x8x8_1_0_0) : (⟨S8x8x8, .f32⟩ : BufTy).Contents (Elt F) → (⟨S1x8x8, .f32⟩ : BufTy).Contents (Elt F)),
    StableHlo.reshape main_v103 main_v104 rfl shapeCasts_S1x8x8_S8x8,
    StableHlo.binary main_v102 main_v104 main_v105 ((fun l r => Host.dotGeneral dot_S500000x8_S8x8_S500000x8_1_0_0_1_n_n none l r) : (⟨S500000x8, .f32⟩ : BufTy).Contents (Elt F) → (⟨S8x8, .f32⟩ : BufTy).Contents (Elt F) → (⟨S500000x8, .f32⟩ : BufTy).Contents (Elt F)),
    StableHlo.nullary main_c_17 (constantI S_ 32 0#32),
    StableHlo.unary main_c_17 main_v106 (broadcastInDim S8500000 ![] bcast_S_S8500000 : (⟨S_, .i32⟩ : BufTy).Contents (Elt F) → (⟨S8500000, .i32⟩ : BufTy).Contents (Elt F)),
    StableHlo.binary main_v3 main_v106 main_v107 (cmpi .slt : (⟨S8500000, .i32⟩ : BufTy).Contents (Elt F) → (⟨S8500000, .i32⟩ : BufTy).Contents (Elt F) → (⟨S8500000, .i1⟩ : BufTy).Contents (Elt F)),
    StableHlo.nullary main_c_18 (constantI S_ 32 500000#32),
    StableHlo.unary main_c_18 main_v108 (broadcastInDim S8500000 ![] bcast_S_S8500000 : (⟨S_, .i32⟩ : BufTy).Contents (Elt F) → (⟨S8500000, .i32⟩ : BufTy).Contents (Elt F)),
    StableHlo.binary main_v3 main_v108 main_v109 (addi : (⟨S8500000, .i32⟩ : BufTy).Contents (Elt F) → (⟨S8500000, .i32⟩ : BufTy).Contents (Elt F) → (⟨S8500000, .i32⟩ : BufTy).Contents (Elt F)),
    StableHlo.ternary main_v107 main_v109 main_v3 main_v110 (select : (⟨S8500000, .i1⟩ : BufTy).Contents (Elt F) → (⟨S8500000, .i32⟩ : BufTy).Contents (Elt F) → (⟨S8500000, .i32⟩ : BufTy).Contents (Elt F) → (⟨S8500000, .i32⟩ : BufTy).Contents (Elt F)),
    StableHlo.unary main_v110 main_v111 (broadcastInDim S8500000x1 ![0] bcast_S8500000_S8500000x1_0 : (⟨S8500000, .i32⟩ : BufTy).Contents (Elt F) → (⟨S8500000x1, .i32⟩ : BufTy).Contents (Elt F)),
    StableHlo.binary main_v105 main_v111 main_v112 ((fun x i => Host.gather gather_S500000x8_S8500000x1_S8500000x8_1_0_n_n_0_1_18 x i) : (⟨S500000x8, .f32⟩ : BufTy).Contents (Elt F) → (⟨S8500000x1, .i32⟩ : BufTy).Contents (Elt F) → (⟨S8500000x8, .f32⟩ : BufTy).Contents (Elt F)),
    StableHlo.unary main_v27 main_v113 (broadcastInDim S8500000x8 ![0, 1] bcast_S8500000x1_S8500000x8_0_1 : (⟨S8500000x1, .f32⟩ : BufTy).Contents (Elt F) → (⟨S8500000x8, .f32⟩ : BufTy).Contents (Elt F)),
    StableHlo.binary main_v113 main_v112 main_v114 (mulf : (⟨S8500000x8, .f32⟩ : BufTy).Contents (Elt F) → (⟨S8500000x8, .f32⟩ : BufTy).Contents (Elt F) → (⟨S8500000x8, .f32⟩ : BufTy).Contents (Elt F)),
    StableHlo.nullary main_cst_19 (constant S_ .f32 0x00000000#32),
    StableHlo.unary main_cst_19 main_v115 (broadcastInDim S500000x8 ![] bcast_S_S500000x8 : (⟨S_, .f32⟩ : BufTy).Contents (Elt F) → (⟨S500000x8, .f32⟩ : BufTy).Contents (Elt F)),
    StableHlo.unary main_v6 main_v116 (broadcastInDim S8500000x1 ![0] bcast_S8500000_S8500000x1_0 : (⟨S8500000, .i32⟩ : BufTy).Contents (Elt F) → (⟨S8500000x1, .i32⟩ : BufTy).Contents (Elt F)),
    StableHlo.ternary main_v115 main_v116 main_v114 main_v117 ((fun x i u => Host.scatterAdd scatter_S500000x8_S8500000x1_S8500000x8_1_0_0_1 x i u) : (⟨S500000x8, .f32⟩ : BufTy).Contents (Elt F) → (⟨S8500000x1, .i32⟩ : BufTy).Contents (Elt F) → (⟨S8500000x8, .f32⟩ : BufTy).Contents (Elt F) → (⟨S500000x8, .f32⟩ : BufTy).Contents (Elt F)),
    StableHlo.unary main_arg7 main_v118 ((extractStridedSlice S1x8 ![1, 0] · slices_S8x8_S1x8_1_0) : (⟨S8x8, .f32⟩ : BufTy).Contents (Elt F) → (⟨S1x8, .f32⟩ : BufTy).Contents (Elt F)),
    StableHlo.reshape main_v118 main_v119 rfl shapeCasts_S1x8_S8,
    StableHlo.unary main_v119 main_v120 (broadcastInDim S1x8 ![1] bcast_S8_S1x8_1 : (⟨S8, .f32⟩ : BufTy).Contents (Elt F) → (⟨S1x8, .f32⟩ : BufTy).Contents (Elt F)),
    StableHlo.unary main_v120 main_v121 (broadcastInDim S500000x8 ![0, 1] bcast_S1x8_S500000x8_0_1 : (⟨S1x8, .f32⟩ : BufTy).Contents (Elt F) → (⟨S500000x8, .f32⟩ : BufTy).Contents (Elt F)),
    StableHlo.binary main_v117 main_v121 main_v122 (addf : (⟨S500000x8, .f32⟩ : BufTy).Contents (Elt F) → (⟨S500000x8, .f32⟩ : BufTy).Contents (Elt F) → (⟨S500000x8, .f32⟩ : BufTy).Contents (Elt F)),
    StableHlo.binary main_v79 main_v122 main_v123 (addf : (⟨S500000x8, .f32⟩ : BufTy).Contents (Elt F) → (⟨S500000x8, .f32⟩ : BufTy).Contents (Elt F) → (⟨S500000x8, .f32⟩ : BufTy).Contents (Elt F)),
    StableHlo.TRef.nullary main_call3.cst (constant S_ .f32 0x00000000#32),
    StableHlo.TRef.unary main_call3.cst main_call3.v0 (broadcastInDim S500000x8 ![] bcast_S_S500000x8),
    StableHlo.TRef.binary (.of main_v123 : StableHlo.TRef sig ⟨S500000x8, .f32⟩) main_call3.v0 main_call3.v1 maximumf ]

set_option maxRecDepth 8192 in
theorem opsL1_sub : (opsL1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩

set_option maxRecDepth 8192 in
theorem opsL1_fresh : (opsL1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 2: from the statement after the previous layer's output to the rectifier that writes %169, the variance and the rectifier written out at their calls. 75 operations. -/
abbrev opsL2 : List (HloOp τ sig (Elt F)) :=
  [ StableHlo.nullary main_cst_20 (constant S_ .f32 0x00000000#32),
    StableHlo.binary main_v124 main_cst_20 main_v125 ((fun x v => Host.reduceAdd x v reducesTo_S500000x8_S8_d0 h_S_) : (⟨S500000x8, .f32⟩ : BufTy).Contents (Elt F) → (⟨S_, .f32⟩ : BufTy).Contents (Elt F) → (⟨S8, .f32⟩ : BufTy).Contents (Elt F)),
    StableHlo.nullary main_cst_21 (constant S_ .f32 0x48F42400#32),
    StableHlo.unary main_cst_21 main_v126 (broadcastInDim S8 ![] bcast_S_S8 : (⟨S_, .f32⟩ : BufTy).Contents (Elt F) → (⟨S8, .f32⟩ : BufTy).Contents (Elt F)),
    StableHlo.binary main_v125 main_v126 main_v127 (Host.divf : (⟨S8, .f32⟩ : BufTy).Contents (Elt F) → (⟨S8, .f32⟩ : BufTy).Contents (Elt F) → (⟨S8, .f32⟩ : BufTy).Contents (Elt F)),
    StableHlo.nullary main_c_22 (constantI S_ 32 0#32),
    StableHlo.TRef.nullary main_call4.cst (constant S_ .f32 0x00000000#32),
    StableHlo.TRef.binary (.of main_v124 : StableHlo.TRef sig ⟨S500000x8, .f32⟩) main_call4.cst main_call4.v0 (fun x v => Host.reduceAdd x v reducesTo_S500000x8_S8_d0 h_S_),
    StableHlo.TRef.unary main_call4.v0 main_call4.v1 (broadcastInDim S1x8 ![1] bcast_S8_S1x8_1),
    StableHlo.TRef.nullary main_call4.cst_0 (constant S_ .f32 0x48F42400#32),
    StableHlo.TRef.unary main_call4.cst_0 main_call4.v2 (broadcastInDim S1x8 ![] bcast_S_S1x8),
    StableHlo.TRef.binary main_call4.v1 main_call4.v2 main_call4.v3 Host.divf,
    StableHlo.TRef.unary main_call4.v3 main_call4.v4 (broadcastInDim S500000x8 ![0, 1] bcast_S1x8_S500000x8_0_1),
    StableHlo.TRef.binary (.of main_v124 : StableHlo.TRef sig ⟨S500000x8, .f32⟩) main_call4.v4 main_call4.v5 subf,
    StableHlo.TRef.binary main_call4.v5 main_call4.v5 main_call4.v6 mulf,
    StableHlo.TRef.unary (.of main_c_22 : StableHlo.TRef sig ⟨S_, .i32⟩) main_call4.v7 (sitofp .f32),
    StableHlo.TRef.nullary main_call4.cst_1 (constant S_ .f32 0x48F42400#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S500000x8_S8_d0 h_S_),
    StableHlo.TRef.unary main_call4.v8 main_call4.v10 (broadcastInDim S8 ![] bcast_S_S8),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S8 ![] bcast_S_S8),
    StableHlo.TRef.ternary main_call4.v12 main_call4.v11 main_call4.call0.v1 main_call4.call0.v2 (fun p a b => select (broadcastInDim S8 ![] bcast_S_S8 p) a b),
    StableHlo.unary main_v127 main_v129 (broadcastInDim S1x8 ![1] bcast_S8_S1x8_1 : (⟨S8, .f32⟩ : BufTy).Contents (Elt F) → (⟨S1x8, .f32⟩ : BufTy).Contents (Elt F)),
    StableHlo.unary main_v129 main_v130 (broadcastInDim S500000x8 ![0, 1] bcast_S1x8_S500000x8_0_1 : (⟨S1x8, .f32⟩ : BufTy).Contents (Elt F) → (⟨S500000x8, .f32⟩ : BufTy).Contents (Elt F)),
    StableHlo.binary main_v124 main_v130 main_v131 (subf : (⟨S500000x8, .f32⟩ : BufTy).Contents (Elt F) → (⟨S500000x8, .f32⟩ : BufTy).Contents (Elt F) → (⟨S500000x8, .f32⟩ : BufTy).Contents (Elt F)),
    StableHlo.nullary main_cst_23 (constant S_ .f32 0x3727C5AC#32),
    StableHlo.unary main_cst_23 main_v132 (broadcastInDim S8 ![] bcast_S_S8 : (⟨S_, .f32⟩ : BufTy).Contents (Elt F) → (⟨S8, .f32⟩ : BufTy).Contents (Elt F)),
    StableHlo.binary main_v128 main_v132 main_v133 (addf : (⟨S8, .f32⟩ : BufTy).Contents (Elt F) → (⟨S8, .f32⟩ : BufTy).Contents (Elt F) → (⟨S8, .f32⟩ : BufTy).Contents (Elt F)),
    StableHlo.unary main_v133 main_v134 (Host.rsqrt : (⟨S8, .f32⟩ : BufTy).Contents (Elt F) → (⟨S8, .f32⟩ : BufTy).Contents (Elt F)),
    StableHlo.unary main_v134 main_v135 (broadcastInDim S1x8 ![1] bcast_S8_S1x8_1 : (⟨S8, .f32⟩ : BufTy).Contents (Elt F) → (⟨S1x8, .f32⟩ : BufTy).Contents (Elt F)),
    StableHlo.unary main_v135 main_v136 (broadcastInDim S500000x8 ![0, 1] bcast_S1x8_S500000x8_0_1 : (⟨S1x8, .f32⟩ : BufTy).Contents (Elt F) → (⟨S500000x8, .f32⟩ : BufTy).Contents (Elt F)),
    StableHlo.binary main_v131 main_v136 main_v137 (mulf : (⟨S500000x8, .f32⟩ : BufTy).Contents (Elt F) → (⟨S500000x8, .f32⟩ : BufTy).Contents (Elt F) → (⟨S500000x8, .f32⟩ : BufTy).Contents (Elt F)),
    StableHlo.unary main_arg4 main_v138 ((extractStridedSlice S1x8 ![2, 0] · slices_S8x8_S1x8_2_0) : (⟨S8x8, .f32⟩ : BufTy).Contents (Elt F) → (⟨S1x8, .f32⟩ : BufTy).Contents (Elt F)),
    StableHlo.reshape main_v138 main_v139 rfl shapeCasts_S1x8_S8,
    StableHlo.unary main_v139 main_v140 (broadcastInDim S1x8 ![1] bcast_S8_S1x8_1 : (⟨S8, .f32⟩ : BufTy).Contents (Elt F) → (⟨S1x8, .f32⟩ : BufTy).Contents (Elt F)),
    StableHlo.unary main_v140 main_v141 (broadcastInDim S500000x8 ![0, 1] bcast_S1x8_S500000x8_0_1 : (⟨S1x8, .f32⟩ : BufTy).Contents (Elt F) → (⟨S500000x8, .f32⟩ : BufTy).Contents (Elt F)),
    StableHlo.binary main_v137 main_v141 main_v142 (mulf : (⟨S500000x8, .f32⟩ : BufTy).Contents (Elt F) → (⟨S500000x8, .f32⟩ : BufTy).Contents (Elt F) → (⟨S500000x8, .f32⟩ : BufTy).Contents (Elt F)),
    StableHlo.unary main_arg5 main_v143 ((extractStridedSlice S1x8 ![2, 0] · slices_S8x8_S1x8_2_0) : (⟨S8x8, .f32⟩ : BufTy).Contents (Elt F) → (⟨S1x8, .f32⟩ : BufTy).Contents (Elt F)),
    StableHlo.reshape main_v143 main_v144 rfl shapeCasts_S1x8_S8,
    StableHlo.unary main_v144 main_v145 (broadcastInDim S1x8 ![1] bcast_S8_S1x8_1 : (⟨S8, .f32⟩ : BufTy).Contents (Elt F) → (⟨S1x8, .f32⟩ : BufTy).Contents (Elt F)),
    StableHlo.unary main_v145 main_v146 (broadcastInDim S500000x8 ![0, 1] bcast_S1x8_S500000x8_0_1 : (⟨S1x8, .f32⟩ : BufTy).Contents (Elt F) → (⟨S500000x8, .f32⟩ : BufTy).Contents (Elt F)),
    StableHlo.binary main_v142 main_v146 main_v147 (addf : (⟨S500000x8, .f32⟩ : BufTy).Contents (Elt F) → (⟨S500000x8, .f32⟩ : BufTy).Contents (Elt F) → (⟨S500000x8, .f32⟩ : BufTy).Contents (Elt F)),
    StableHlo.unary main_arg6 main_v148 ((extractStridedSlice S1x8x8 ![2, 0, 0] · slices_S8x8x8_S1x8x8_2_0_0) : (⟨S8x8x8, .f32⟩ : BufTy).Contents (Elt F) → (⟨S1x8x8, .f32⟩ : BufTy).Contents (Elt F)),
    StableHlo.reshape main_v148 main_v149 rfl shapeCasts_S1x8x8_S8x8,
    StableHlo.binary main_v147 main_v149 main_v150 ((fun l r => Host.dotGeneral dot_S500000x8_S8x8_S500000x8_1_0_0_1_n_n none l r) : (⟨S500000x8, .f32⟩ : BufTy).Contents (Elt F) → (⟨S8x8, .f32⟩ : BufTy).Contents (Elt F) → (⟨S500000x8, .f32⟩ : BufTy).Contents (Elt F)),
    StableHlo.nullary main_c_24 (constantI S_ 32 0#32),
    StableHlo.unary main_c_24 main_v151 (broadcastInDim S8500000 ![] bcast_S_S8500000 : (⟨S_, .i32⟩ : BufTy).Contents (Elt F) → (⟨S8500000, .i32⟩ : BufTy).Contents (Elt F)),
    StableHlo.binary main_v3 main_v151 main_v152 (cmpi .slt : (⟨S8500000, .i32⟩ : BufTy).Contents (Elt F) → (⟨S8500000, .i32⟩ : BufTy).Contents (Elt F) → (⟨S8500000, .i1⟩ : BufTy).Contents (Elt F)),
    StableHlo.nullary main_c_25 (constantI S_ 32 500000#32),
    StableHlo.unary main_c_25 main_v153 (broadcastInDim S8500000 ![] bcast_S_S8500000 : (⟨S_, .i32⟩ : BufTy).Contents (Elt F) → (⟨S8500000, .i32⟩ : BufTy).Contents (Elt F)),
    StableHlo.binary main_v3 main_v153 main_v154 (addi : (⟨S8500000, .i32⟩ : BufTy).Contents (Elt F) → (⟨S8500000, .i32⟩ : BufTy).Contents (Elt F) → (⟨S8500000, .i32⟩ : BufTy).Contents (Elt F)),
    StableHlo.ternary main_v152 main_v154 main_v3 main_v155 (select : (⟨S8500000, .i1⟩ : BufTy).Contents (Elt F) → (⟨S8500000, .i32⟩ : BufTy).Contents (Elt F) → (⟨S8500000, .i32⟩ : BufTy).Contents (Elt F) → (⟨S8500000, .i32⟩ : BufTy).Contents (Elt F)),
    StableHlo.unary main_v155 main_v156 (broadcastInDim S8500000x1 ![0] bcast_S8500000_S8500000x1_0 : (⟨S8500000, .i32⟩ : BufTy).Contents (Elt F) → (⟨S8500000x1, .i32⟩ : BufTy).Contents (Elt F)),
    StableHlo.binary main_v150 main_v156 main_v157 ((fun x i => Host.gather gather_S500000x8_S8500000x1_S8500000x8_1_0_n_n_0_1_18 x i) : (⟨S500000x8, .f32⟩ : BufTy).Contents (Elt F) → (⟨S8500000x1, .i32⟩ : BufTy).Contents (Elt F) → (⟨S8500000x8, .f32⟩ : BufTy).Contents (Elt F)),
    StableHlo.unary main_v27 main_v158 (broadcastInDim S8500000x8 ![0, 1] bcast_S8500000x1_S8500000x8_0_1 : (⟨S8500000x1, .f32⟩ : BufTy).Contents (Elt F) → (⟨S8500000x8, .f32⟩ : BufTy).Contents (Elt F)),
    StableHlo.binary main_v158 main_v157 main_v159 (mulf : (⟨S8500000x8, .f32⟩ : BufTy).Contents (Elt F) → (⟨S8500000x8, .f32⟩ : BufTy).Contents (Elt F) → (⟨S8500000x8, .f32⟩ : BufTy).Contents (Elt F)),
    StableHlo.nullary main_cst_26 (constant S_ .f32 0x00000000#32),
    StableHlo.unary main_cst_26 main_v160 (broadcastInDim S500000x8 ![] bcast_S_S500000x8 : (⟨S_, .f32⟩ : BufTy).Contents (Elt F) → (⟨S500000x8, .f32⟩ : BufTy).Contents (Elt F)),
    StableHlo.unary main_v6 main_v161 (broadcastInDim S8500000x1 ![0] bcast_S8500000_S8500000x1_0 : (⟨S8500000, .i32⟩ : BufTy).Contents (Elt F) → (⟨S8500000x1, .i32⟩ : BufTy).Contents (Elt F)),
    StableHlo.ternary main_v160 main_v161 main_v159 main_v162 ((fun x i u => Host.scatterAdd scatter_S500000x8_S8500000x1_S8500000x8_1_0_0_1 x i u) : (⟨S500000x8, .f32⟩ : BufTy).Contents (Elt F) → (⟨S8500000x1, .i32⟩ : BufTy).Contents (Elt F) → (⟨S8500000x8, .f32⟩ : BufTy).Contents (Elt F) → (⟨S500000x8, .f32⟩ : BufTy).Contents (Elt F)),
    StableHlo.unary main_arg7 main_v163 ((extractStridedSlice S1x8 ![2, 0] · slices_S8x8_S1x8_2_0) : (⟨S8x8, .f32⟩ : BufTy).Contents (Elt F) → (⟨S1x8, .f32⟩ : BufTy).Contents (Elt F)),
    StableHlo.reshape main_v163 main_v164 rfl shapeCasts_S1x8_S8,
    StableHlo.unary main_v164 main_v165 (broadcastInDim S1x8 ![1] bcast_S8_S1x8_1 : (⟨S8, .f32⟩ : BufTy).Contents (Elt F) → (⟨S1x8, .f32⟩ : BufTy).Contents (Elt F)),
    StableHlo.unary main_v165 main_v166 (broadcastInDim S500000x8 ![0, 1] bcast_S1x8_S500000x8_0_1 : (⟨S1x8, .f32⟩ : BufTy).Contents (Elt F) → (⟨S500000x8, .f32⟩ : BufTy).Contents (Elt F)),
    StableHlo.binary main_v162 main_v166 main_v167 (addf : (⟨S500000x8, .f32⟩ : BufTy).Contents (Elt F) → (⟨S500000x8, .f32⟩ : BufTy).Contents (Elt F) → (⟨S500000x8, .f32⟩ : BufTy).Contents (Elt F)),
    StableHlo.binary main_v124 main_v167 main_v168 (addf : (⟨S500000x8, .f32⟩ : BufTy).Contents (Elt F) → (⟨S500000x8, .f32⟩ : BufTy).Contents (Elt F) → (⟨S500000x8, .f32⟩ : BufTy).Contents (Elt F)),
    StableHlo.TRef.nullary main_call5.cst (constant S_ .f32 0x00000000#32),
    StableHlo.TRef.unary main_call5.cst main_call5.v0 (broadcastInDim S500000x8 ![] bcast_S_S500000x8),
    StableHlo.TRef.binary (.of main_v168 : StableHlo.TRef sig ⟨S500000x8, .f32⟩) main_call5.v0 main_call5.v1 maximumf ]

set_option maxRecDepth 8192 in
theorem opsL2_sub : (opsL2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩

set_option maxRecDepth 8192 in
theorem opsL2_fresh : (opsL2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 3: from the statement after the previous layer's output to the rectifier that writes %214, the variance and the rectifier written out at their calls. 75 operations. -/
abbrev opsL3 : List (HloOp τ sig (Elt F)) :=
  [ StableHlo.nullary main_cst_27 (constant S_ .f32 0x00000000#32),
    StableHlo.binary main_v169 main_cst_27 main_v170 ((fun x v => Host.reduceAdd x v reducesTo_S500000x8_S8_d0 h_S_) : (⟨S500000x8, .f32⟩ : BufTy).Contents (Elt F) → (⟨S_, .f32⟩ : BufTy).Contents (Elt F) → (⟨S8, .f32⟩ : BufTy).Contents (Elt F)),
    StableHlo.nullary main_cst_28 (constant S_ .f32 0x48F42400#32),
    StableHlo.unary main_cst_28 main_v171 (broadcastInDim S8 ![] bcast_S_S8 : (⟨S_, .f32⟩ : BufTy).Contents (Elt F) → (⟨S8, .f32⟩ : BufTy).Contents (Elt F)),
    StableHlo.binary main_v170 main_v171 main_v172 (Host.divf : (⟨S8, .f32⟩ : BufTy).Contents (Elt F) → (⟨S8, .f32⟩ : BufTy).Contents (Elt F) → (⟨S8, .f32⟩ : BufTy).Contents (Elt F)),
    StableHlo.nullary main_c_29 (constantI S_ 32 0#32),
    StableHlo.TRef.nullary main_call6.cst (constant S_ .f32 0x00000000#32),
    StableHlo.TRef.binary (.of main_v169 : StableHlo.TRef sig ⟨S500000x8, .f32⟩) main_call6.cst main_call6.v0 (fun x v => Host.reduceAdd x v reducesTo_S500000x8_S8_d0 h_S_),
    StableHlo.TRef.unary main_call6.v0 main_call6.v1 (broadcastInDim S1x8 ![1] bcast_S8_S1x8_1),
    StableHlo.TRef.nullary main_call6.cst_0 (constant S_ .f32 0x48F42400#32),
    StableHlo.TRef.unary main_call6.cst_0 main_call6.v2 (broadcastInDim S1x8 ![] bcast_S_S1x8),
    StableHlo.TRef.binary main_call6.v1 main_call6.v2 main_call6.v3 Host.divf,
    StableHlo.TRef.unary main_call6.v3 main_call6.v4 (broadcastInDim S500000x8 ![0, 1] bcast_S1x8_S500000x8_0_1),
    StableHlo.TRef.binary (.of main_v169 : StableHlo.TRef sig ⟨S500000x8, .f32⟩) main_call6.v4 main_call6.v5 subf,
    StableHlo.TRef.binary main_call6.v5 main_call6.v5 main_call6.v6 mulf,
    StableHlo.TRef.unary (.of main_c_29 : StableHlo.TRef sig ⟨S_, .i32⟩) main_call6.v7 (sitofp .f32),
    StableHlo.TRef.nullary main_call6.cst_1 (constant S_ .f32 0x48F42400#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S500000x8_S8_d0 h_S_),
    StableHlo.TRef.unary main_call6.v8 main_call6.v10 (broadcastInDim S8 ![] bcast_S_S8),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S8 ![] bcast_S_S8),
    StableHlo.TRef.ternary main_call6.v12 main_call6.v11 main_call6.call0.v1 main_call6.call0.v2 (fun p a b => select (broadcastInDim S8 ![] bcast_S_S8 p) a b),
    StableHlo.unary main_v172 main_v174 (broadcastInDim S1x8 ![1] bcast_S8_S1x8_1 : (⟨S8, .f32⟩ : BufTy).Contents (Elt F) → (⟨S1x8, .f32⟩ : BufTy).Contents (Elt F)),
    StableHlo.unary main_v174 main_v175 (broadcastInDim S500000x8 ![0, 1] bcast_S1x8_S500000x8_0_1 : (⟨S1x8, .f32⟩ : BufTy).Contents (Elt F) → (⟨S500000x8, .f32⟩ : BufTy).Contents (Elt F)),
    StableHlo.binary main_v169 main_v175 main_v176 (subf : (⟨S500000x8, .f32⟩ : BufTy).Contents (Elt F) → (⟨S500000x8, .f32⟩ : BufTy).Contents (Elt F) → (⟨S500000x8, .f32⟩ : BufTy).Contents (Elt F)),
    StableHlo.nullary main_cst_30 (constant S_ .f32 0x3727C5AC#32),
    StableHlo.unary main_cst_30 main_v177 (broadcastInDim S8 ![] bcast_S_S8 : (⟨S_, .f32⟩ : BufTy).Contents (Elt F) → (⟨S8, .f32⟩ : BufTy).Contents (Elt F)),
    StableHlo.binary main_v173 main_v177 main_v178 (addf : (⟨S8, .f32⟩ : BufTy).Contents (Elt F) → (⟨S8, .f32⟩ : BufTy).Contents (Elt F) → (⟨S8, .f32⟩ : BufTy).Contents (Elt F)),
    StableHlo.unary main_v178 main_v179 (Host.rsqrt : (⟨S8, .f32⟩ : BufTy).Contents (Elt F) → (⟨S8, .f32⟩ : BufTy).Contents (Elt F)),
    StableHlo.unary main_v179 main_v180 (broadcastInDim S1x8 ![1] bcast_S8_S1x8_1 : (⟨S8, .f32⟩ : BufTy).Contents (Elt F) → (⟨S1x8, .f32⟩ : BufTy).Contents (Elt F)),
    StableHlo.unary main_v180 main_v181 (broadcastInDim S500000x8 ![0, 1] bcast_S1x8_S500000x8_0_1 : (⟨S1x8, .f32⟩ : BufTy).Contents (Elt F) → (⟨S500000x8, .f32⟩ : BufTy).Contents (Elt F)),
    StableHlo.binary main_v176 main_v181 main_v182 (mulf : (⟨S500000x8, .f32⟩ : BufTy).Contents (Elt F) → (⟨S500000x8, .f32⟩ : BufTy).Contents (Elt F) → (⟨S500000x8, .f32⟩ : BufTy).Contents (Elt F)),
    StableHlo.unary main_arg4 main_v183 ((extractStridedSlice S1x8 ![3, 0] · slices_S8x8_S1x8_3_0) : (⟨S8x8, .f32⟩ : BufTy).Contents (Elt F) → (⟨S1x8, .f32⟩ : BufTy).Contents (Elt F)),
    StableHlo.reshape main_v183 main_v184 rfl shapeCasts_S1x8_S8,
    StableHlo.unary main_v184 main_v185 (broadcastInDim S1x8 ![1] bcast_S8_S1x8_1 : (⟨S8, .f32⟩ : BufTy).Contents (Elt F) → (⟨S1x8, .f32⟩ : BufTy).Contents (Elt F)),
    StableHlo.unary main_v185 main_v186 (broadcastInDim S500000x8 ![0, 1] bcast_S1x8_S500000x8_0_1 : (⟨S1x8, .f32⟩ : BufTy).Contents (Elt F) → (⟨S500000x8, .f32⟩ : BufTy).Contents (Elt F)),
    StableHlo.binary main_v182 main_v186 main_v187 (mulf : (⟨S500000x8, .f32⟩ : BufTy).Contents (Elt F) → (⟨S500000x8, .f32⟩ : BufTy).Contents (Elt F) → (⟨S500000x8, .f32⟩ : BufTy).Contents (Elt F)),
    StableHlo.unary main_arg5 main_v188 ((extractStridedSlice S1x8 ![3, 0] · slices_S8x8_S1x8_3_0) : (⟨S8x8, .f32⟩ : BufTy).Contents (Elt F) → (⟨S1x8, .f32⟩ : BufTy).Contents (Elt F)),
    StableHlo.reshape main_v188 main_v189 rfl shapeCasts_S1x8_S8,
    StableHlo.unary main_v189 main_v190 (broadcastInDim S1x8 ![1] bcast_S8_S1x8_1 : (⟨S8, .f32⟩ : BufTy).Contents (Elt F) → (⟨S1x8, .f32⟩ : BufTy).Contents (Elt F)),
    StableHlo.unary main_v190 main_v191 (broadcastInDim S500000x8 ![0, 1] bcast_S1x8_S500000x8_0_1 : (⟨S1x8, .f32⟩ : BufTy).Contents (Elt F) → (⟨S500000x8, .f32⟩ : BufTy).Contents (Elt F)),
    StableHlo.binary main_v187 main_v191 main_v192 (addf : (⟨S500000x8, .f32⟩ : BufTy).Contents (Elt F) → (⟨S500000x8, .f32⟩ : BufTy).Contents (Elt F) → (⟨S500000x8, .f32⟩ : BufTy).Contents (Elt F)),
    StableHlo.unary main_arg6 main_v193 ((extractStridedSlice S1x8x8 ![3, 0, 0] · slices_S8x8x8_S1x8x8_3_0_0) : (⟨S8x8x8, .f32⟩ : BufTy).Contents (Elt F) → (⟨S1x8x8, .f32⟩ : BufTy).Contents (Elt F)),
    StableHlo.reshape main_v193 main_v194 rfl shapeCasts_S1x8x8_S8x8,
    StableHlo.binary main_v192 main_v194 main_v195 ((fun l r => Host.dotGeneral dot_S500000x8_S8x8_S500000x8_1_0_0_1_n_n none l r) : (⟨S500000x8, .f32⟩ : BufTy).Contents (Elt F) → (⟨S8x8, .f32⟩ : BufTy).Contents (Elt F) → (⟨S500000x8, .f32⟩ : BufTy).Contents (Elt F)),
    StableHlo.nullary main_c_31 (constantI S_ 32 0#32),
    StableHlo.unary main_c_31 main_v196 (broadcastInDim S8500000 ![] bcast_S_S8500000 : (⟨S_, .i32⟩ : BufTy).Contents (Elt F) → (⟨S8500000, .i32⟩ : BufTy).Contents (Elt F)),
    StableHlo.binary main_v3 main_v196 main_v197 (cmpi .slt : (⟨S8500000, .i32⟩ : BufTy).Contents (Elt F) → (⟨S8500000, .i32⟩ : BufTy).Contents (Elt F) → (⟨S8500000, .i1⟩ : BufTy).Contents (Elt F)),
    StableHlo.nullary main_c_32 (constantI S_ 32 500000#32),
    StableHlo.unary main_c_32 main_v198 (broadcastInDim S8500000 ![] bcast_S_S8500000 : (⟨S_, .i32⟩ : BufTy).Contents (Elt F) → (⟨S8500000, .i32⟩ : BufTy).Contents (Elt F)),
    StableHlo.binary main_v3 main_v198 main_v199 (addi : (⟨S8500000, .i32⟩ : BufTy).Contents (Elt F) → (⟨S8500000, .i32⟩ : BufTy).Contents (Elt F) → (⟨S8500000, .i32⟩ : BufTy).Contents (Elt F)),
    StableHlo.ternary main_v197 main_v199 main_v3 main_v200 (select : (⟨S8500000, .i1⟩ : BufTy).Contents (Elt F) → (⟨S8500000, .i32⟩ : BufTy).Contents (Elt F) → (⟨S8500000, .i32⟩ : BufTy).Contents (Elt F) → (⟨S8500000, .i32⟩ : BufTy).Contents (Elt F)),
    StableHlo.unary main_v200 main_v201 (broadcastInDim S8500000x1 ![0] bcast_S8500000_S8500000x1_0 : (⟨S8500000, .i32⟩ : BufTy).Contents (Elt F) → (⟨S8500000x1, .i32⟩ : BufTy).Contents (Elt F)),
    StableHlo.binary main_v195 main_v201 main_v202 ((fun x i => Host.gather gather_S500000x8_S8500000x1_S8500000x8_1_0_n_n_0_1_18 x i) : (⟨S500000x8, .f32⟩ : BufTy).Contents (Elt F) → (⟨S8500000x1, .i32⟩ : BufTy).Contents (Elt F) → (⟨S8500000x8, .f32⟩ : BufTy).Contents (Elt F)),
    StableHlo.unary main_v27 main_v203 (broadcastInDim S8500000x8 ![0, 1] bcast_S8500000x1_S8500000x8_0_1 : (⟨S8500000x1, .f32⟩ : BufTy).Contents (Elt F) → (⟨S8500000x8, .f32⟩ : BufTy).Contents (Elt F)),
    StableHlo.binary main_v203 main_v202 main_v204 (mulf : (⟨S8500000x8, .f32⟩ : BufTy).Contents (Elt F) → (⟨S8500000x8, .f32⟩ : BufTy).Contents (Elt F) → (⟨S8500000x8, .f32⟩ : BufTy).Contents (Elt F)),
    StableHlo.nullary main_cst_33 (constant S_ .f32 0x00000000#32),
    StableHlo.unary main_cst_33 main_v205 (broadcastInDim S500000x8 ![] bcast_S_S500000x8 : (⟨S_, .f32⟩ : BufTy).Contents (Elt F) → (⟨S500000x8, .f32⟩ : BufTy).Contents (Elt F)),
    StableHlo.unary main_v6 main_v206 (broadcastInDim S8500000x1 ![0] bcast_S8500000_S8500000x1_0 : (⟨S8500000, .i32⟩ : BufTy).Contents (Elt F) → (⟨S8500000x1, .i32⟩ : BufTy).Contents (Elt F)),
    StableHlo.ternary main_v205 main_v206 main_v204 main_v207 ((fun x i u => Host.scatterAdd scatter_S500000x8_S8500000x1_S8500000x8_1_0_0_1 x i u) : (⟨S500000x8, .f32⟩ : BufTy).Contents (Elt F) → (⟨S8500000x1, .i32⟩ : BufTy).Contents (Elt F) → (⟨S8500000x8, .f32⟩ : BufTy).Contents (Elt F) → (⟨S500000x8, .f32⟩ : BufTy).Contents (Elt F)),
    StableHlo.unary main_arg7 main_v208 ((extractStridedSlice S1x8 ![3, 0] · slices_S8x8_S1x8_3_0) : (⟨S8x8, .f32⟩ : BufTy).Contents (Elt F) → (⟨S1x8, .f32⟩ : BufTy).Contents (Elt F)),
    StableHlo.reshape main_v208 main_v209 rfl shapeCasts_S1x8_S8,
    StableHlo.unary main_v209 main_v210 (broadcastInDim S1x8 ![1] bcast_S8_S1x8_1 : (⟨S8, .f32⟩ : BufTy).Contents (Elt F) → (⟨S1x8, .f32⟩ : BufTy).Contents (Elt F)),
    StableHlo.unary main_v210 main_v211 (broadcastInDim S500000x8 ![0, 1] bcast_S1x8_S500000x8_0_1 : (⟨S1x8, .f32⟩ : BufTy).Contents (Elt F) → (⟨S500000x8, .f32⟩ : BufTy).Contents (Elt F)),
    StableHlo.binary main_v207 main_v211 main_v212 (addf : (⟨S500000x8, .f32⟩ : BufTy).Contents (Elt F) → (⟨S500000x8, .f32⟩ : BufTy).Contents (Elt F) → (⟨S500000x8, .f32⟩ : BufTy).Contents (Elt F)),
    StableHlo.binary main_v169 main_v212 main_v213 (addf : (⟨S500000x8, .f32⟩ : BufTy).Contents (Elt F) → (⟨S500000x8, .f32⟩ : BufTy).Contents (Elt F) → (⟨S500000x8, .f32⟩ : BufTy).Contents (Elt F)),
    StableHlo.TRef.nullary main_call7.cst (constant S_ .f32 0x00000000#32),
    StableHlo.TRef.unary main_call7.cst main_call7.v0 (broadcastInDim S500000x8 ![] bcast_S_S500000x8),
    StableHlo.TRef.binary (.of main_v213 : StableHlo.TRef sig ⟨S500000x8, .f32⟩) main_call7.v0 main_call7.v1 maximumf ]

set_option maxRecDepth 8192 in
theorem opsL3_sub : (opsL3 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩

set_option maxRecDepth 8192 in
theorem opsL3_fresh : (opsL3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 4: from the statement after the previous layer's output to the rectifier that writes %259, the variance and the rectifier written out at their calls. 75 operations. -/
abbrev opsL4 : List (HloOp τ sig (Elt F)) :=
  [ StableHlo.nullary main_cst_34 (constant S_ .f32 0x00000000#32),
    StableHlo.binary main_v214 main_cst_34 main_v215 ((fun x v => Host.reduceAdd x v reducesTo_S500000x8_S8_d0 h_S_) : (⟨S500000x8, .f32⟩ : BufTy).Contents (Elt F) → (⟨S_, .f32⟩ : BufTy).Contents (Elt F) → (⟨S8, .f32⟩ : BufTy).Contents (Elt F)),
    StableHlo.nullary main_cst_35 (constant S_ .f32 0x48F42400#32),
    StableHlo.unary main_cst_35 main_v216 (broadcastInDim S8 ![] bcast_S_S8 : (⟨S_, .f32⟩ : BufTy).Contents (Elt F) → (⟨S8, .f32⟩ : BufTy).Contents (Elt F)),
    StableHlo.binary main_v215 main_v216 main_v217 (Host.divf : (⟨S8, .f32⟩ : BufTy).Contents (Elt F) → (⟨S8, .f32⟩ : BufTy).Contents (Elt F) → (⟨S8, .f32⟩ : BufTy).Contents (Elt F)),
    StableHlo.nullary main_c_36 (constantI S_ 32 0#32),
    StableHlo.TRef.nullary main_call8.cst (constant S_ .f32 0x00000000#32),
    StableHlo.TRef.binary (.of main_v214 : StableHlo.TRef sig ⟨S500000x8, .f32⟩) main_call8.cst main_call8.v0 (fun x v => Host.reduceAdd x v reducesTo_S500000x8_S8_d0 h_S_),
    StableHlo.TRef.unary main_call8.v0 main_call8.v1 (broadcastInDim S1x8 ![1] bcast_S8_S1x8_1),
    StableHlo.TRef.nullary main_call8.cst_0 (constant S_ .f32 0x48F42400#32),
    StableHlo.TRef.unary main_call8.cst_0 main_call8.v2 (broadcastInDim S1x8 ![] bcast_S_S1x8),
    StableHlo.TRef.binary main_call8.v1 main_call8.v2 main_call8.v3 Host.divf,
    StableHlo.TRef.unary main_call8.v3 main_call8.v4 (broadcastInDim S500000x8 ![0, 1] bcast_S1x8_S500000x8_0_1),
    StableHlo.TRef.binary (.of main_v214 : StableHlo.TRef sig ⟨S500000x8, .f32⟩) main_call8.v4 main_call8.v5 subf,
    StableHlo.TRef.binary main_call8.v5 main_call8.v5 main_call8.v6 mulf,
    StableHlo.TRef.unary (.of main_c_36 : StableHlo.TRef sig ⟨S_, .i32⟩) main_call8.v7 (sitofp .f32),
    StableHlo.TRef.nullary main_call8.cst_1 (constant S_ .f32 0x48F42400#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S500000x8_S8_d0 h_S_),
    StableHlo.TRef.unary main_call8.v8 main_call8.v10 (broadcastInDim S8 ![] bcast_S_S8),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S8 ![] bcast_S_S8),
    StableHlo.TRef.ternary main_call8.v12 main_call8.v11 main_call8.call0.v1 main_call8.call0.v2 (fun p a b => select (broadcastInDim S8 ![] bcast_S_S8 p) a b),
    StableHlo.unary main_v217 main_v219 (broadcastInDim S1x8 ![1] bcast_S8_S1x8_1 : (⟨S8, .f32⟩ : BufTy).Contents (Elt F) → (⟨S1x8, .f32⟩ : BufTy).Contents (Elt F)),
    StableHlo.unary main_v219 main_v220 (broadcastInDim S500000x8 ![0, 1] bcast_S1x8_S500000x8_0_1 : (⟨S1x8, .f32⟩ : BufTy).Contents (Elt F) → (⟨S500000x8, .f32⟩ : BufTy).Contents (Elt F)),
    StableHlo.binary main_v214 main_v220 main_v221 (subf : (⟨S500000x8, .f32⟩ : BufTy).Contents (Elt F) → (⟨S500000x8, .f32⟩ : BufTy).Contents (Elt F) → (⟨S500000x8, .f32⟩ : BufTy).Contents (Elt F)),
    StableHlo.nullary main_cst_37 (constant S_ .f32 0x3727C5AC#32),
    StableHlo.unary main_cst_37 main_v222 (broadcastInDim S8 ![] bcast_S_S8 : (⟨S_, .f32⟩ : BufTy).Contents (Elt F) → (⟨S8, .f32⟩ : BufTy).Contents (Elt F)),
    StableHlo.binary main_v218 main_v222 main_v223 (addf : (⟨S8, .f32⟩ : BufTy).Contents (Elt F) → (⟨S8, .f32⟩ : BufTy).Contents (Elt F) → (⟨S8, .f32⟩ : BufTy).Contents (Elt F)),
    StableHlo.unary main_v223 main_v224 (Host.rsqrt : (⟨S8, .f32⟩ : BufTy).Contents (Elt F) → (⟨S8, .f32⟩ : BufTy).Contents (Elt F)),
    StableHlo.unary main_v224 main_v225 (broadcastInDim S1x8 ![1] bcast_S8_S1x8_1 : (⟨S8, .f32⟩ : BufTy).Contents (Elt F) → (⟨S1x8, .f32⟩ : BufTy).Contents (Elt F)),
    StableHlo.unary main_v225 main_v226 (broadcastInDim S500000x8 ![0, 1] bcast_S1x8_S500000x8_0_1 : (⟨S1x8, .f32⟩ : BufTy).Contents (Elt F) → (⟨S500000x8, .f32⟩ : BufTy).Contents (Elt F)),
    StableHlo.binary main_v221 main_v226 main_v227 (mulf : (⟨S500000x8, .f32⟩ : BufTy).Contents (Elt F) → (⟨S500000x8, .f32⟩ : BufTy).Contents (Elt F) → (⟨S500000x8, .f32⟩ : BufTy).Contents (Elt F)),
    StableHlo.unary main_arg4 main_v228 ((extractStridedSlice S1x8 ![4, 0] · slices_S8x8_S1x8_4_0) : (⟨S8x8, .f32⟩ : BufTy).Contents (Elt F) → (⟨S1x8, .f32⟩ : BufTy).Contents (Elt F)),
    StableHlo.reshape main_v228 main_v229 rfl shapeCasts_S1x8_S8,
    StableHlo.unary main_v229 main_v230 (broadcastInDim S1x8 ![1] bcast_S8_S1x8_1 : (⟨S8, .f32⟩ : BufTy).Contents (Elt F) → (⟨S1x8, .f32⟩ : BufTy).Contents (Elt F)),
    StableHlo.unary main_v230 main_v231 (broadcastInDim S500000x8 ![0, 1] bcast_S1x8_S500000x8_0_1 : (⟨S1x8, .f32⟩ : BufTy).Contents (Elt F) → (⟨S500000x8, .f32⟩ : BufTy).Contents (Elt F)),
    StableHlo.binary main_v227 main_v231 main_v232 (mulf : (⟨S500000x8, .f32⟩ : BufTy).Contents (Elt F) → (⟨S500000x8, .f32⟩ : BufTy).Contents (Elt F) → (⟨S500000x8, .f32⟩ : BufTy).Contents (Elt F)),
    StableHlo.unary main_arg5 main_v233 ((extractStridedSlice S1x8 ![4, 0] · slices_S8x8_S1x8_4_0) : (⟨S8x8, .f32⟩ : BufTy).Contents (Elt F) → (⟨S1x8, .f32⟩ : BufTy).Contents (Elt F)),
    StableHlo.reshape main_v233 main_v234 rfl shapeCasts_S1x8_S8,
    StableHlo.unary main_v234 main_v235 (broadcastInDim S1x8 ![1] bcast_S8_S1x8_1 : (⟨S8, .f32⟩ : BufTy).Contents (Elt F) → (⟨S1x8, .f32⟩ : BufTy).Contents (Elt F)),
    StableHlo.unary main_v235 main_v236 (broadcastInDim S500000x8 ![0, 1] bcast_S1x8_S500000x8_0_1 : (⟨S1x8, .f32⟩ : BufTy).Contents (Elt F) → (⟨S500000x8, .f32⟩ : BufTy).Contents (Elt F)),
    StableHlo.binary main_v232 main_v236 main_v237 (addf : (⟨S500000x8, .f32⟩ : BufTy).Contents (Elt F) → (⟨S500000x8, .f32⟩ : BufTy).Contents (Elt F) → (⟨S500000x8, .f32⟩ : BufTy).Contents (Elt F)),
    StableHlo.unary main_arg6 main_v238 ((extractStridedSlice S1x8x8 ![4, 0, 0] · slices_S8x8x8_S1x8x8_4_0_0) : (⟨S8x8x8, .f32⟩ : BufTy).Contents (Elt F) → (⟨S1x8x8, .f32⟩ : BufTy).Contents (Elt F)),
    StableHlo.reshape main_v238 main_v239 rfl shapeCasts_S1x8x8_S8x8,
    StableHlo.binary main_v237 main_v239 main_v240 ((fun l r => Host.dotGeneral dot_S500000x8_S8x8_S500000x8_1_0_0_1_n_n none l r) : (⟨S500000x8, .f32⟩ : BufTy).Contents (Elt F) → (⟨S8x8, .f32⟩ : BufTy).Contents (Elt F) → (⟨S500000x8, .f32⟩ : BufTy).Contents (Elt F)),
    StableHlo.nullary main_c_38 (constantI S_ 32 0#32),
    StableHlo.unary main_c_38 main_v241 (broadcastInDim S8500000 ![] bcast_S_S8500000 : (⟨S_, .i32⟩ : BufTy).Contents (Elt F) → (⟨S8500000, .i32⟩ : BufTy).Contents (Elt F)),
    StableHlo.binary main_v3 main_v241 main_v242 (cmpi .slt : (⟨S8500000, .i32⟩ : BufTy).Contents (Elt F) → (⟨S8500000, .i32⟩ : BufTy).Contents (Elt F) → (⟨S8500000, .i1⟩ : BufTy).Contents (Elt F)),
    StableHlo.nullary main_c_39 (constantI S_ 32 500000#32),
    StableHlo.unary main_c_39 main_v243 (broadcastInDim S8500000 ![] bcast_S_S8500000 : (⟨S_, .i32⟩ : BufTy).Contents (Elt F) → (⟨S8500000, .i32⟩ : BufTy).Contents (Elt F)),
    StableHlo.binary main_v3 main_v243 main_v244 (addi : (⟨S8500000, .i32⟩ : BufTy).Contents (Elt F) → (⟨S8500000, .i32⟩ : BufTy).Contents (Elt F) → (⟨S8500000, .i32⟩ : BufTy).Contents (Elt F)),
    StableHlo.ternary main_v242 main_v244 main_v3 main_v245 (select : (⟨S8500000, .i1⟩ : BufTy).Contents (Elt F) → (⟨S8500000, .i32⟩ : BufTy).Contents (Elt F) → (⟨S8500000, .i32⟩ : BufTy).Contents (Elt F) → (⟨S8500000, .i32⟩ : BufTy).Contents (Elt F)),
    StableHlo.unary main_v245 main_v246 (broadcastInDim S8500000x1 ![0] bcast_S8500000_S8500000x1_0 : (⟨S8500000, .i32⟩ : BufTy).Contents (Elt F) → (⟨S8500000x1, .i32⟩ : BufTy).Contents (Elt F)),
    StableHlo.binary main_v240 main_v246 main_v247 ((fun x i => Host.gather gather_S500000x8_S8500000x1_S8500000x8_1_0_n_n_0_1_18 x i) : (⟨S500000x8, .f32⟩ : BufTy).Contents (Elt F) → (⟨S8500000x1, .i32⟩ : BufTy).Contents (Elt F) → (⟨S8500000x8, .f32⟩ : BufTy).Contents (Elt F)),
    StableHlo.unary main_v27 main_v248 (broadcastInDim S8500000x8 ![0, 1] bcast_S8500000x1_S8500000x8_0_1 : (⟨S8500000x1, .f32⟩ : BufTy).Contents (Elt F) → (⟨S8500000x8, .f32⟩ : BufTy).Contents (Elt F)),
    StableHlo.binary main_v248 main_v247 main_v249 (mulf : (⟨S8500000x8, .f32⟩ : BufTy).Contents (Elt F) → (⟨S8500000x8, .f32⟩ : BufTy).Contents (Elt F) → (⟨S8500000x8, .f32⟩ : BufTy).Contents (Elt F)),
    StableHlo.nullary main_cst_40 (constant S_ .f32 0x00000000#32),
    StableHlo.unary main_cst_40 main_v250 (broadcastInDim S500000x8 ![] bcast_S_S500000x8 : (⟨S_, .f32⟩ : BufTy).Contents (Elt F) → (⟨S500000x8, .f32⟩ : BufTy).Contents (Elt F)),
    StableHlo.unary main_v6 main_v251 (broadcastInDim S8500000x1 ![0] bcast_S8500000_S8500000x1_0 : (⟨S8500000, .i32⟩ : BufTy).Contents (Elt F) → (⟨S8500000x1, .i32⟩ : BufTy).Contents (Elt F)),
    StableHlo.ternary main_v250 main_v251 main_v249 main_v252 ((fun x i u => Host.scatterAdd scatter_S500000x8_S8500000x1_S8500000x8_1_0_0_1 x i u) : (⟨S500000x8, .f32⟩ : BufTy).Contents (Elt F) → (⟨S8500000x1, .i32⟩ : BufTy).Contents (Elt F) → (⟨S8500000x8, .f32⟩ : BufTy).Contents (Elt F) → (⟨S500000x8, .f32⟩ : BufTy).Contents (Elt F)),
    StableHlo.unary main_arg7 main_v253 ((extractStridedSlice S1x8 ![4, 0] · slices_S8x8_S1x8_4_0) : (⟨S8x8, .f32⟩ : BufTy).Contents (Elt F) → (⟨S1x8, .f32⟩ : BufTy).Contents (Elt F)),
    StableHlo.reshape main_v253 main_v254 rfl shapeCasts_S1x8_S8,
    StableHlo.unary main_v254 main_v255 (broadcastInDim S1x8 ![1] bcast_S8_S1x8_1 : (⟨S8, .f32⟩ : BufTy).Contents (Elt F) → (⟨S1x8, .f32⟩ : BufTy).Contents (Elt F)),
    StableHlo.unary main_v255 main_v256 (broadcastInDim S500000x8 ![0, 1] bcast_S1x8_S500000x8_0_1 : (⟨S1x8, .f32⟩ : BufTy).Contents (Elt F) → (⟨S500000x8, .f32⟩ : BufTy).Contents (Elt F)),
    StableHlo.binary main_v252 main_v256 main_v257 (addf : (⟨S500000x8, .f32⟩ : BufTy).Contents (Elt F) → (⟨S500000x8, .f32⟩ : BufTy).Contents (Elt F) → (⟨S500000x8, .f32⟩ : BufTy).Contents (Elt F)),
    StableHlo.binary main_v214 main_v257 main_v258 (addf : (⟨S500000x8, .f32⟩ : BufTy).Contents (Elt F) → (⟨S500000x8, .f32⟩ : BufTy).Contents (Elt F) → (⟨S500000x8, .f32⟩ : BufTy).Contents (Elt F)),
    StableHlo.TRef.nullary main_call9.cst (constant S_ .f32 0x00000000#32),
    StableHlo.TRef.unary main_call9.cst main_call9.v0 (broadcastInDim S500000x8 ![] bcast_S_S500000x8),
    StableHlo.TRef.binary (.of main_v258 : StableHlo.TRef sig ⟨S500000x8, .f32⟩) main_call9.v0 main_call9.v1 maximumf ]

set_option maxRecDepth 8192 in
theorem opsL4_sub : (opsL4 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩

set_option maxRecDepth 8192 in
theorem opsL4_fresh : (opsL4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 5: from the statement after the previous layer's output to the rectifier that writes %304, the variance and the rectifier written out at their calls. 75 operations. -/
abbrev opsL5 : List (HloOp τ sig (Elt F)) :=
  [ StableHlo.nullary main_cst_41 (constant S_ .f32 0x00000000#32),
    StableHlo.binary main_v259 main_cst_41 main_v260 ((fun x v => Host.reduceAdd x v reducesTo_S500000x8_S8_d0 h_S_) : (⟨S500000x8, .f32⟩ : BufTy).Contents (Elt F) → (⟨S_, .f32⟩ : BufTy).Contents (Elt F) → (⟨S8, .f32⟩ : BufTy).Contents (Elt F)),
    StableHlo.nullary main_cst_42 (constant S_ .f32 0x48F42400#32),
    StableHlo.unary main_cst_42 main_v261 (broadcastInDim S8 ![] bcast_S_S8 : (⟨S_, .f32⟩ : BufTy).Contents (Elt F) → (⟨S8, .f32⟩ : BufTy).Contents (Elt F)),
    StableHlo.binary main_v260 main_v261 main_v262 (Host.divf : (⟨S8, .f32⟩ : BufTy).Contents (Elt F) → (⟨S8, .f32⟩ : BufTy).Contents (Elt F) → (⟨S8, .f32⟩ : BufTy).Contents (Elt F)),
    StableHlo.nullary main_c_43 (constantI S_ 32 0#32),
    StableHlo.TRef.nullary main_call10.cst (constant S_ .f32 0x00000000#32),
    StableHlo.TRef.binary (.of main_v259 : StableHlo.TRef sig ⟨S500000x8, .f32⟩) main_call10.cst main_call10.v0 (fun x v => Host.reduceAdd x v reducesTo_S500000x8_S8_d0 h_S_),
    StableHlo.TRef.unary main_call10.v0 main_call10.v1 (broadcastInDim S1x8 ![1] bcast_S8_S1x8_1),
    StableHlo.TRef.nullary main_call10.cst_0 (constant S_ .f32 0x48F42400#32),
    StableHlo.TRef.unary main_call10.cst_0 main_call10.v2 (broadcastInDim S1x8 ![] bcast_S_S1x8),
    StableHlo.TRef.binary main_call10.v1 main_call10.v2 main_call10.v3 Host.divf,
    StableHlo.TRef.unary main_call10.v3 main_call10.v4 (broadcastInDim S500000x8 ![0, 1] bcast_S1x8_S500000x8_0_1),
    StableHlo.TRef.binary (.of main_v259 : StableHlo.TRef sig ⟨S500000x8, .f32⟩) main_call10.v4 main_call10.v5 subf,
    StableHlo.TRef.binary main_call10.v5 main_call10.v5 main_call10.v6 mulf,
    StableHlo.TRef.unary (.of main_c_43 : StableHlo.TRef sig ⟨S_, .i32⟩) main_call10.v7 (sitofp .f32),
    StableHlo.TRef.nullary main_call10.cst_1 (constant S_ .f32 0x48F42400#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S500000x8_S8_d0 h_S_),
    StableHlo.TRef.unary main_call10.v8 main_call10.v10 (broadcastInDim S8 ![] bcast_S_S8),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S8 ![] bcast_S_S8),
    StableHlo.TRef.ternary main_call10.v12 main_call10.v11 main_call10.call0.v1 main_call10.call0.v2 (fun p a b => select (broadcastInDim S8 ![] bcast_S_S8 p) a b),
    StableHlo.unary main_v262 main_v264 (broadcastInDim S1x8 ![1] bcast_S8_S1x8_1 : (⟨S8, .f32⟩ : BufTy).Contents (Elt F) → (⟨S1x8, .f32⟩ : BufTy).Contents (Elt F)),
    StableHlo.unary main_v264 main_v265 (broadcastInDim S500000x8 ![0, 1] bcast_S1x8_S500000x8_0_1 : (⟨S1x8, .f32⟩ : BufTy).Contents (Elt F) → (⟨S500000x8, .f32⟩ : BufTy).Contents (Elt F)),
    StableHlo.binary main_v259 main_v265 main_v266 (subf : (⟨S500000x8, .f32⟩ : BufTy).Contents (Elt F) → (⟨S500000x8, .f32⟩ : BufTy).Contents (Elt F) → (⟨S500000x8, .f32⟩ : BufTy).Contents (Elt F)),
    StableHlo.nullary main_cst_44 (constant S_ .f32 0x3727C5AC#32),
    StableHlo.unary main_cst_44 main_v267 (broadcastInDim S8 ![] bcast_S_S8 : (⟨S_, .f32⟩ : BufTy).Contents (Elt F) → (⟨S8, .f32⟩ : BufTy).Contents (Elt F)),
    StableHlo.binary main_v263 main_v267 main_v268 (addf : (⟨S8, .f32⟩ : BufTy).Contents (Elt F) → (⟨S8, .f32⟩ : BufTy).Contents (Elt F) → (⟨S8, .f32⟩ : BufTy).Contents (Elt F)),
    StableHlo.unary main_v268 main_v269 (Host.rsqrt : (⟨S8, .f32⟩ : BufTy).Contents (Elt F) → (⟨S8, .f32⟩ : BufTy).Contents (Elt F)),
    StableHlo.unary main_v269 main_v270 (broadcastInDim S1x8 ![1] bcast_S8_S1x8_1 : (⟨S8, .f32⟩ : BufTy).Contents (Elt F) → (⟨S1x8, .f32⟩ : BufTy).Contents (Elt F)),
    StableHlo.unary main_v270 main_v271 (broadcastInDim S500000x8 ![0, 1] bcast_S1x8_S500000x8_0_1 : (⟨S1x8, .f32⟩ : BufTy).Contents (Elt F) → (⟨S500000x8, .f32⟩ : BufTy).Contents (Elt F)),
    StableHlo.binary main_v266 main_v271 main_v272 (mulf : (⟨S500000x8, .f32⟩ : BufTy).Contents (Elt F) → (⟨S500000x8, .f32⟩ : BufTy).Contents (Elt F) → (⟨S500000x8, .f32⟩ : BufTy).Contents (Elt F)),
    StableHlo.unary main_arg4 main_v273 ((extractStridedSlice S1x8 ![5, 0] · slices_S8x8_S1x8_5_0) : (⟨S8x8, .f32⟩ : BufTy).Contents (Elt F) → (⟨S1x8, .f32⟩ : BufTy).Contents (Elt F)),
    StableHlo.reshape main_v273 main_v274 rfl shapeCasts_S1x8_S8,
    StableHlo.unary main_v274 main_v275 (broadcastInDim S1x8 ![1] bcast_S8_S1x8_1 : (⟨S8, .f32⟩ : BufTy).Contents (Elt F) → (⟨S1x8, .f32⟩ : BufTy).Contents (Elt F)),
    StableHlo.unary main_v275 main_v276 (broadcastInDim S500000x8 ![0, 1] bcast_S1x8_S500000x8_0_1 : (⟨S1x8, .f32⟩ : BufTy).Contents (Elt F) → (⟨S500000x8, .f32⟩ : BufTy).Contents (Elt F)),
    StableHlo.binary main_v272 main_v276 main_v277 (mulf : (⟨S500000x8, .f32⟩ : BufTy).Contents (Elt F) → (⟨S500000x8, .f32⟩ : BufTy).Contents (Elt F) → (⟨S500000x8, .f32⟩ : BufTy).Contents (Elt F)),
    StableHlo.unary main_arg5 main_v278 ((extractStridedSlice S1x8 ![5, 0] · slices_S8x8_S1x8_5_0) : (⟨S8x8, .f32⟩ : BufTy).Contents (Elt F) → (⟨S1x8, .f32⟩ : BufTy).Contents (Elt F)),
    StableHlo.reshape main_v278 main_v279 rfl shapeCasts_S1x8_S8,
    StableHlo.unary main_v279 main_v280 (broadcastInDim S1x8 ![1] bcast_S8_S1x8_1 : (⟨S8, .f32⟩ : BufTy).Contents (Elt F) → (⟨S1x8, .f32⟩ : BufTy).Contents (Elt F)),
    StableHlo.unary main_v280 main_v281 (broadcastInDim S500000x8 ![0, 1] bcast_S1x8_S500000x8_0_1 : (⟨S1x8, .f32⟩ : BufTy).Contents (Elt F) → (⟨S500000x8, .f32⟩ : BufTy).Contents (Elt F)),
    StableHlo.binary main_v277 main_v281 main_v282 (addf : (⟨S500000x8, .f32⟩ : BufTy).Contents (Elt F) → (⟨S500000x8, .f32⟩ : BufTy).Contents (Elt F) → (⟨S500000x8, .f32⟩ : BufTy).Contents (Elt F)),
    StableHlo.unary main_arg6 main_v283 ((extractStridedSlice S1x8x8 ![5, 0, 0] · slices_S8x8x8_S1x8x8_5_0_0) : (⟨S8x8x8, .f32⟩ : BufTy).Contents (Elt F) → (⟨S1x8x8, .f32⟩ : BufTy).Contents (Elt F)),
    StableHlo.reshape main_v283 main_v284 rfl shapeCasts_S1x8x8_S8x8,
    StableHlo.binary main_v282 main_v284 main_v285 ((fun l r => Host.dotGeneral dot_S500000x8_S8x8_S500000x8_1_0_0_1_n_n none l r) : (⟨S500000x8, .f32⟩ : BufTy).Contents (Elt F) → (⟨S8x8, .f32⟩ : BufTy).Contents (Elt F) → (⟨S500000x8, .f32⟩ : BufTy).Contents (Elt F)),
    StableHlo.nullary main_c_45 (constantI S_ 32 0#32),
    StableHlo.unary main_c_45 main_v286 (broadcastInDim S8500000 ![] bcast_S_S8500000 : (⟨S_, .i32⟩ : BufTy).Contents (Elt F) → (⟨S8500000, .i32⟩ : BufTy).Contents (Elt F)),
    StableHlo.binary main_v3 main_v286 main_v287 (cmpi .slt : (⟨S8500000, .i32⟩ : BufTy).Contents (Elt F) → (⟨S8500000, .i32⟩ : BufTy).Contents (Elt F) → (⟨S8500000, .i1⟩ : BufTy).Contents (Elt F)),
    StableHlo.nullary main_c_46 (constantI S_ 32 500000#32),
    StableHlo.unary main_c_46 main_v288 (broadcastInDim S8500000 ![] bcast_S_S8500000 : (⟨S_, .i32⟩ : BufTy).Contents (Elt F) → (⟨S8500000, .i32⟩ : BufTy).Contents (Elt F)),
    StableHlo.binary main_v3 main_v288 main_v289 (addi : (⟨S8500000, .i32⟩ : BufTy).Contents (Elt F) → (⟨S8500000, .i32⟩ : BufTy).Contents (Elt F) → (⟨S8500000, .i32⟩ : BufTy).Contents (Elt F)),
    StableHlo.ternary main_v287 main_v289 main_v3 main_v290 (select : (⟨S8500000, .i1⟩ : BufTy).Contents (Elt F) → (⟨S8500000, .i32⟩ : BufTy).Contents (Elt F) → (⟨S8500000, .i32⟩ : BufTy).Contents (Elt F) → (⟨S8500000, .i32⟩ : BufTy).Contents (Elt F)),
    StableHlo.unary main_v290 main_v291 (broadcastInDim S8500000x1 ![0] bcast_S8500000_S8500000x1_0 : (⟨S8500000, .i32⟩ : BufTy).Contents (Elt F) → (⟨S8500000x1, .i32⟩ : BufTy).Contents (Elt F)),
    StableHlo.binary main_v285 main_v291 main_v292 ((fun x i => Host.gather gather_S500000x8_S8500000x1_S8500000x8_1_0_n_n_0_1_18 x i) : (⟨S500000x8, .f32⟩ : BufTy).Contents (Elt F) → (⟨S8500000x1, .i32⟩ : BufTy).Contents (Elt F) → (⟨S8500000x8, .f32⟩ : BufTy).Contents (Elt F)),
    StableHlo.unary main_v27 main_v293 (broadcastInDim S8500000x8 ![0, 1] bcast_S8500000x1_S8500000x8_0_1 : (⟨S8500000x1, .f32⟩ : BufTy).Contents (Elt F) → (⟨S8500000x8, .f32⟩ : BufTy).Contents (Elt F)),
    StableHlo.binary main_v293 main_v292 main_v294 (mulf : (⟨S8500000x8, .f32⟩ : BufTy).Contents (Elt F) → (⟨S8500000x8, .f32⟩ : BufTy).Contents (Elt F) → (⟨S8500000x8, .f32⟩ : BufTy).Contents (Elt F)),
    StableHlo.nullary main_cst_47 (constant S_ .f32 0x00000000#32),
    StableHlo.unary main_cst_47 main_v295 (broadcastInDim S500000x8 ![] bcast_S_S500000x8 : (⟨S_, .f32⟩ : BufTy).Contents (Elt F) → (⟨S500000x8, .f32⟩ : BufTy).Contents (Elt F)),
    StableHlo.unary main_v6 main_v296 (broadcastInDim S8500000x1 ![0] bcast_S8500000_S8500000x1_0 : (⟨S8500000, .i32⟩ : BufTy).Contents (Elt F) → (⟨S8500000x1, .i32⟩ : BufTy).Contents (Elt F)),
    StableHlo.ternary main_v295 main_v296 main_v294 main_v297 ((fun x i u => Host.scatterAdd scatter_S500000x8_S8500000x1_S8500000x8_1_0_0_1 x i u) : (⟨S500000x8, .f32⟩ : BufTy).Contents (Elt F) → (⟨S8500000x1, .i32⟩ : BufTy).Contents (Elt F) → (⟨S8500000x8, .f32⟩ : BufTy).Contents (Elt F) → (⟨S500000x8, .f32⟩ : BufTy).Contents (Elt F)),
    StableHlo.unary main_arg7 main_v298 ((extractStridedSlice S1x8 ![5, 0] · slices_S8x8_S1x8_5_0) : (⟨S8x8, .f32⟩ : BufTy).Contents (Elt F) → (⟨S1x8, .f32⟩ : BufTy).Contents (Elt F)),
    StableHlo.reshape main_v298 main_v299 rfl shapeCasts_S1x8_S8,
    StableHlo.unary main_v299 main_v300 (broadcastInDim S1x8 ![1] bcast_S8_S1x8_1 : (⟨S8, .f32⟩ : BufTy).Contents (Elt F) → (⟨S1x8, .f32⟩ : BufTy).Contents (Elt F)),
    StableHlo.unary main_v300 main_v301 (broadcastInDim S500000x8 ![0, 1] bcast_S1x8_S500000x8_0_1 : (⟨S1x8, .f32⟩ : BufTy).Contents (Elt F) → (⟨S500000x8, .f32⟩ : BufTy).Contents (Elt F)),
    StableHlo.binary main_v297 main_v301 main_v302 (addf : (⟨S500000x8, .f32⟩ : BufTy).Contents (Elt F) → (⟨S500000x8, .f32⟩ : BufTy).Contents (Elt F) → (⟨S500000x8, .f32⟩ : BufTy).Contents (Elt F)),
    StableHlo.binary main_v259 main_v302 main_v303 (addf : (⟨S500000x8, .f32⟩ : BufTy).Contents (Elt F) → (⟨S500000x8, .f32⟩ : BufTy).Contents (Elt F) → (⟨S500000x8, .f32⟩ : BufTy).Contents (Elt F)),
    StableHlo.TRef.nullary main_call11.cst (constant S_ .f32 0x00000000#32),
    StableHlo.TRef.unary main_call11.cst main_call11.v0 (broadcastInDim S500000x8 ![] bcast_S_S500000x8),
    StableHlo.TRef.binary (.of main_v303 : StableHlo.TRef sig ⟨S500000x8, .f32⟩) main_call11.v0 main_call11.v1 maximumf ]

set_option maxRecDepth 8192 in
theorem opsL5_sub : (opsL5 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩

set_option maxRecDepth 8192 in
theorem opsL5_fresh : (opsL5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 6: from the statement after the previous layer's output to the rectifier that writes %349, the variance and the rectifier written out at their calls. 75 operations. -/
abbrev opsL6 : List (HloOp τ sig (Elt F)) :=
  [ StableHlo.nullary main_cst_48 (constant S_ .f32 0x00000000#32),
    StableHlo.binary main_v304 main_cst_48 main_v305 ((fun x v => Host.reduceAdd x v reducesTo_S500000x8_S8_d0 h_S_) : (⟨S500000x8, .f32⟩ : BufTy).Contents (Elt F) → (⟨S_, .f32⟩ : BufTy).Contents (Elt F) → (⟨S8, .f32⟩ : BufTy).Contents (Elt F)),
    StableHlo.nullary main_cst_49 (constant S_ .f32 0x48F42400#32),
    StableHlo.unary main_cst_49 main_v306 (broadcastInDim S8 ![] bcast_S_S8 : (⟨S_, .f32⟩ : BufTy).Contents (Elt F) → (⟨S8, .f32⟩ : BufTy).Contents (Elt F)),
    StableHlo.binary main_v305 main_v306 main_v307 (Host.divf : (⟨S8, .f32⟩ : BufTy).Contents (Elt F) → (⟨S8, .f32⟩ : BufTy).Contents (Elt F) → (⟨S8, .f32⟩ : BufTy).Contents (Elt F)),
    StableHlo.nullary main_c_50 (constantI S_ 32 0#32),
    StableHlo.TRef.nullary main_call12.cst (constant S_ .f32 0x00000000#32),
    StableHlo.TRef.binary (.of main_v304 : StableHlo.TRef sig ⟨S500000x8, .f32⟩) main_call12.cst main_call12.v0 (fun x v => Host.reduceAdd x v reducesTo_S500000x8_S8_d0 h_S_),
    StableHlo.TRef.unary main_call12.v0 main_call12.v1 (broadcastInDim S1x8 ![1] bcast_S8_S1x8_1),
    StableHlo.TRef.nullary main_call12.cst_0 (constant S_ .f32 0x48F42400#32),
    StableHlo.TRef.unary main_call12.cst_0 main_call12.v2 (broadcastInDim S1x8 ![] bcast_S_S1x8),
    StableHlo.TRef.binary main_call12.v1 main_call12.v2 main_call12.v3 Host.divf,
    StableHlo.TRef.unary main_call12.v3 main_call12.v4 (broadcastInDim S500000x8 ![0, 1] bcast_S1x8_S500000x8_0_1),
    StableHlo.TRef.binary (.of main_v304 : StableHlo.TRef sig ⟨S500000x8, .f32⟩) main_call12.v4 main_call12.v5 subf,
    StableHlo.TRef.binary main_call12.v5 main_call12.v5 main_call12.v6 mulf,
    StableHlo.TRef.unary (.of main_c_50 : StableHlo.TRef sig ⟨S_, .i32⟩) main_call12.v7 (sitofp .f32),
    StableHlo.TRef.nullary main_call12.cst_1 (constant S_ .f32 0x48F42400#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S500000x8_S8_d0 h_S_),
    StableHlo.TRef.unary main_call12.v8 main_call12.v10 (broadcastInDim S8 ![] bcast_S_S8),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S8 ![] bcast_S_S8),
    StableHlo.TRef.ternary main_call12.v12 main_call12.v11 main_call12.call0.v1 main_call12.call0.v2 (fun p a b => select (broadcastInDim S8 ![] bcast_S_S8 p) a b),
    StableHlo.unary main_v307 main_v309 (broadcastInDim S1x8 ![1] bcast_S8_S1x8_1 : (⟨S8, .f32⟩ : BufTy).Contents (Elt F) → (⟨S1x8, .f32⟩ : BufTy).Contents (Elt F)),
    StableHlo.unary main_v309 main_v310 (broadcastInDim S500000x8 ![0, 1] bcast_S1x8_S500000x8_0_1 : (⟨S1x8, .f32⟩ : BufTy).Contents (Elt F) → (⟨S500000x8, .f32⟩ : BufTy).Contents (Elt F)),
    StableHlo.binary main_v304 main_v310 main_v311 (subf : (⟨S500000x8, .f32⟩ : BufTy).Contents (Elt F) → (⟨S500000x8, .f32⟩ : BufTy).Contents (Elt F) → (⟨S500000x8, .f32⟩ : BufTy).Contents (Elt F)),
    StableHlo.nullary main_cst_51 (constant S_ .f32 0x3727C5AC#32),
    StableHlo.unary main_cst_51 main_v312 (broadcastInDim S8 ![] bcast_S_S8 : (⟨S_, .f32⟩ : BufTy).Contents (Elt F) → (⟨S8, .f32⟩ : BufTy).Contents (Elt F)),
    StableHlo.binary main_v308 main_v312 main_v313 (addf : (⟨S8, .f32⟩ : BufTy).Contents (Elt F) → (⟨S8, .f32⟩ : BufTy).Contents (Elt F) → (⟨S8, .f32⟩ : BufTy).Contents (Elt F)),
    StableHlo.unary main_v313 main_v314 (Host.rsqrt : (⟨S8, .f32⟩ : BufTy).Contents (Elt F) → (⟨S8, .f32⟩ : BufTy).Contents (Elt F)),
    StableHlo.unary main_v314 main_v315 (broadcastInDim S1x8 ![1] bcast_S8_S1x8_1 : (⟨S8, .f32⟩ : BufTy).Contents (Elt F) → (⟨S1x8, .f32⟩ : BufTy).Contents (Elt F)),
    StableHlo.unary main_v315 main_v316 (broadcastInDim S500000x8 ![0, 1] bcast_S1x8_S500000x8_0_1 : (⟨S1x8, .f32⟩ : BufTy).Contents (Elt F) → (⟨S500000x8, .f32⟩ : BufTy).Contents (Elt F)),
    StableHlo.binary main_v311 main_v316 main_v317 (mulf : (⟨S500000x8, .f32⟩ : BufTy).Contents (Elt F) → (⟨S500000x8, .f32⟩ : BufTy).Contents (Elt F) → (⟨S500000x8, .f32⟩ : BufTy).Contents (Elt F)),
    StableHlo.unary main_arg4 main_v318 ((extractStridedSlice S1x8 ![6, 0] · slices_S8x8_S1x8_6_0) : (⟨S8x8, .f32⟩ : BufTy).Contents (Elt F) → (⟨S1x8, .f32⟩ : BufTy).Contents (Elt F)),
    StableHlo.reshape main_v318 main_v319 rfl shapeCasts_S1x8_S8,
    StableHlo.unary main_v319 main_v320 (broadcastInDim S1x8 ![1] bcast_S8_S1x8_1 : (⟨S8, .f32⟩ : BufTy).Contents (Elt F) → (⟨S1x8, .f32⟩ : BufTy).Contents (Elt F)),
    StableHlo.unary main_v320 main_v321 (broadcastInDim S500000x8 ![0, 1] bcast_S1x8_S500000x8_0_1 : (⟨S1x8, .f32⟩ : BufTy).Contents (Elt F) → (⟨S500000x8, .f32⟩ : BufTy).Contents (Elt F)),
    StableHlo.binary main_v317 main_v321 main_v322 (mulf : (⟨S500000x8, .f32⟩ : BufTy).Contents (Elt F) → (⟨S500000x8, .f32⟩ : BufTy).Contents (Elt F) → (⟨S500000x8, .f32⟩ : BufTy).Contents (Elt F)),
    StableHlo.unary main_arg5 main_v323 ((extractStridedSlice S1x8 ![6, 0] · slices_S8x8_S1x8_6_0) : (⟨S8x8, .f32⟩ : BufTy).Contents (Elt F) → (⟨S1x8, .f32⟩ : BufTy).Contents (Elt F)),
    StableHlo.reshape main_v323 main_v324 rfl shapeCasts_S1x8_S8,
    StableHlo.unary main_v324 main_v325 (broadcastInDim S1x8 ![1] bcast_S8_S1x8_1 : (⟨S8, .f32⟩ : BufTy).Contents (Elt F) → (⟨S1x8, .f32⟩ : BufTy).Contents (Elt F)),
    StableHlo.unary main_v325 main_v326 (broadcastInDim S500000x8 ![0, 1] bcast_S1x8_S500000x8_0_1 : (⟨S1x8, .f32⟩ : BufTy).Contents (Elt F) → (⟨S500000x8, .f32⟩ : BufTy).Contents (Elt F)),
    StableHlo.binary main_v322 main_v326 main_v327 (addf : (⟨S500000x8, .f32⟩ : BufTy).Contents (Elt F) → (⟨S500000x8, .f32⟩ : BufTy).Contents (Elt F) → (⟨S500000x8, .f32⟩ : BufTy).Contents (Elt F)),
    StableHlo.unary main_arg6 main_v328 ((extractStridedSlice S1x8x8 ![6, 0, 0] · slices_S8x8x8_S1x8x8_6_0_0) : (⟨S8x8x8, .f32⟩ : BufTy).Contents (Elt F) → (⟨S1x8x8, .f32⟩ : BufTy).Contents (Elt F)),
    StableHlo.reshape main_v328 main_v329 rfl shapeCasts_S1x8x8_S8x8,
    StableHlo.binary main_v327 main_v329 main_v330 ((fun l r => Host.dotGeneral dot_S500000x8_S8x8_S500000x8_1_0_0_1_n_n none l r) : (⟨S500000x8, .f32⟩ : BufTy).Contents (Elt F) → (⟨S8x8, .f32⟩ : BufTy).Contents (Elt F) → (⟨S500000x8, .f32⟩ : BufTy).Contents (Elt F)),
    StableHlo.nullary main_c_52 (constantI S_ 32 0#32),
    StableHlo.unary main_c_52 main_v331 (broadcastInDim S8500000 ![] bcast_S_S8500000 : (⟨S_, .i32⟩ : BufTy).Contents (Elt F) → (⟨S8500000, .i32⟩ : BufTy).Contents (Elt F)),
    StableHlo.binary main_v3 main_v331 main_v332 (cmpi .slt : (⟨S8500000, .i32⟩ : BufTy).Contents (Elt F) → (⟨S8500000, .i32⟩ : BufTy).Contents (Elt F) → (⟨S8500000, .i1⟩ : BufTy).Contents (Elt F)),
    StableHlo.nullary main_c_53 (constantI S_ 32 500000#32),
    StableHlo.unary main_c_53 main_v333 (broadcastInDim S8500000 ![] bcast_S_S8500000 : (⟨S_, .i32⟩ : BufTy).Contents (Elt F) → (⟨S8500000, .i32⟩ : BufTy).Contents (Elt F)),
    StableHlo.binary main_v3 main_v333 main_v334 (addi : (⟨S8500000, .i32⟩ : BufTy).Contents (Elt F) → (⟨S8500000, .i32⟩ : BufTy).Contents (Elt F) → (⟨S8500000, .i32⟩ : BufTy).Contents (Elt F)),
    StableHlo.ternary main_v332 main_v334 main_v3 main_v335 (select : (⟨S8500000, .i1⟩ : BufTy).Contents (Elt F) → (⟨S8500000, .i32⟩ : BufTy).Contents (Elt F) → (⟨S8500000, .i32⟩ : BufTy).Contents (Elt F) → (⟨S8500000, .i32⟩ : BufTy).Contents (Elt F)),
    StableHlo.unary main_v335 main_v336 (broadcastInDim S8500000x1 ![0] bcast_S8500000_S8500000x1_0 : (⟨S8500000, .i32⟩ : BufTy).Contents (Elt F) → (⟨S8500000x1, .i32⟩ : BufTy).Contents (Elt F)),
    StableHlo.binary main_v330 main_v336 main_v337 ((fun x i => Host.gather gather_S500000x8_S8500000x1_S8500000x8_1_0_n_n_0_1_18 x i) : (⟨S500000x8, .f32⟩ : BufTy).Contents (Elt F) → (⟨S8500000x1, .i32⟩ : BufTy).Contents (Elt F) → (⟨S8500000x8, .f32⟩ : BufTy).Contents (Elt F)),
    StableHlo.unary main_v27 main_v338 (broadcastInDim S8500000x8 ![0, 1] bcast_S8500000x1_S8500000x8_0_1 : (⟨S8500000x1, .f32⟩ : BufTy).Contents (Elt F) → (⟨S8500000x8, .f32⟩ : BufTy).Contents (Elt F)),
    StableHlo.binary main_v338 main_v337 main_v339 (mulf : (⟨S8500000x8, .f32⟩ : BufTy).Contents (Elt F) → (⟨S8500000x8, .f32⟩ : BufTy).Contents (Elt F) → (⟨S8500000x8, .f32⟩ : BufTy).Contents (Elt F)),
    StableHlo.nullary main_cst_54 (constant S_ .f32 0x00000000#32),
    StableHlo.unary main_cst_54 main_v340 (broadcastInDim S500000x8 ![] bcast_S_S500000x8 : (⟨S_, .f32⟩ : BufTy).Contents (Elt F) → (⟨S500000x8, .f32⟩ : BufTy).Contents (Elt F)),
    StableHlo.unary main_v6 main_v341 (broadcastInDim S8500000x1 ![0] bcast_S8500000_S8500000x1_0 : (⟨S8500000, .i32⟩ : BufTy).Contents (Elt F) → (⟨S8500000x1, .i32⟩ : BufTy).Contents (Elt F)),
    StableHlo.ternary main_v340 main_v341 main_v339 main_v342 ((fun x i u => Host.scatterAdd scatter_S500000x8_S8500000x1_S8500000x8_1_0_0_1 x i u) : (⟨S500000x8, .f32⟩ : BufTy).Contents (Elt F) → (⟨S8500000x1, .i32⟩ : BufTy).Contents (Elt F) → (⟨S8500000x8, .f32⟩ : BufTy).Contents (Elt F) → (⟨S500000x8, .f32⟩ : BufTy).Contents (Elt F)),
    StableHlo.unary main_arg7 main_v343 ((extractStridedSlice S1x8 ![6, 0] · slices_S8x8_S1x8_6_0) : (⟨S8x8, .f32⟩ : BufTy).Contents (Elt F) → (⟨S1x8, .f32⟩ : BufTy).Contents (Elt F)),
    StableHlo.reshape main_v343 main_v344 rfl shapeCasts_S1x8_S8,
    StableHlo.unary main_v344 main_v345 (broadcastInDim S1x8 ![1] bcast_S8_S1x8_1 : (⟨S8, .f32⟩ : BufTy).Contents (Elt F) → (⟨S1x8, .f32⟩ : BufTy).Contents (Elt F)),
    StableHlo.unary main_v345 main_v346 (broadcastInDim S500000x8 ![0, 1] bcast_S1x8_S500000x8_0_1 : (⟨S1x8, .f32⟩ : BufTy).Contents (Elt F) → (⟨S500000x8, .f32⟩ : BufTy).Contents (Elt F)),
    StableHlo.binary main_v342 main_v346 main_v347 (addf : (⟨S500000x8, .f32⟩ : BufTy).Contents (Elt F) → (⟨S500000x8, .f32⟩ : BufTy).Contents (Elt F) → (⟨S500000x8, .f32⟩ : BufTy).Contents (Elt F)),
    StableHlo.binary main_v304 main_v347 main_v348 (addf : (⟨S500000x8, .f32⟩ : BufTy).Contents (Elt F) → (⟨S500000x8, .f32⟩ : BufTy).Contents (Elt F) → (⟨S500000x8, .f32⟩ : BufTy).Contents (Elt F)),
    StableHlo.TRef.nullary main_call13.cst (constant S_ .f32 0x00000000#32),
    StableHlo.TRef.unary main_call13.cst main_call13.v0 (broadcastInDim S500000x8 ![] bcast_S_S500000x8),
    StableHlo.TRef.binary (.of main_v348 : StableHlo.TRef sig ⟨S500000x8, .f32⟩) main_call13.v0 main_call13.v1 maximumf ]

set_option maxRecDepth 8192 in
theorem opsL6_sub : (opsL6 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩

set_option maxRecDepth 8192 in
theorem opsL6_fresh : (opsL6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 7: from the statement after the previous layer's output to the rectifier that writes %394, the variance and the rectifier written out at their calls. 75 operations. -/
abbrev opsL7 : List (HloOp τ sig (Elt F)) :=
  [ StableHlo.nullary main_cst_55 (constant S_ .f32 0x00000000#32),
    StableHlo.binary main_v349 main_cst_55 main_v350 ((fun x v => Host.reduceAdd x v reducesTo_S500000x8_S8_d0 h_S_) : (⟨S500000x8, .f32⟩ : BufTy).Contents (Elt F) → (⟨S_, .f32⟩ : BufTy).Contents (Elt F) → (⟨S8, .f32⟩ : BufTy).Contents (Elt F)),
    StableHlo.nullary main_cst_56 (constant S_ .f32 0x48F42400#32),
    StableHlo.unary main_cst_56 main_v351 (broadcastInDim S8 ![] bcast_S_S8 : (⟨S_, .f32⟩ : BufTy).Contents (Elt F) → (⟨S8, .f32⟩ : BufTy).Contents (Elt F)),
    StableHlo.binary main_v350 main_v351 main_v352 (Host.divf : (⟨S8, .f32⟩ : BufTy).Contents (Elt F) → (⟨S8, .f32⟩ : BufTy).Contents (Elt F) → (⟨S8, .f32⟩ : BufTy).Contents (Elt F)),
    StableHlo.nullary main_c_57 (constantI S_ 32 0#32),
    StableHlo.TRef.nullary main_call14.cst (constant S_ .f32 0x00000000#32),
    StableHlo.TRef.binary (.of main_v349 : StableHlo.TRef sig ⟨S500000x8, .f32⟩) main_call14.cst main_call14.v0 (fun x v => Host.reduceAdd x v reducesTo_S500000x8_S8_d0 h_S_),
    StableHlo.TRef.unary main_call14.v0 main_call14.v1 (broadcastInDim S1x8 ![1] bcast_S8_S1x8_1),
    StableHlo.TRef.nullary main_call14.cst_0 (constant S_ .f32 0x48F42400#32),
    StableHlo.TRef.unary main_call14.cst_0 main_call14.v2 (broadcastInDim S1x8 ![] bcast_S_S1x8),
    StableHlo.TRef.binary main_call14.v1 main_call14.v2 main_call14.v3 Host.divf,
    StableHlo.TRef.unary main_call14.v3 main_call14.v4 (broadcastInDim S500000x8 ![0, 1] bcast_S1x8_S500000x8_0_1),
    StableHlo.TRef.binary (.of main_v349 : StableHlo.TRef sig ⟨S500000x8, .f32⟩) main_call14.v4 main_call14.v5 subf,
    StableHlo.TRef.binary main_call14.v5 main_call14.v5 main_call14.v6 mulf,
    StableHlo.TRef.unary (.of main_c_57 : StableHlo.TRef sig ⟨S_, .i32⟩) main_call14.v7 (sitofp .f32),
    StableHlo.TRef.nullary main_call14.cst_1 (constant S_ .f32 0x48F42400#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S500000x8_S8_d0 h_S_),
    StableHlo.TRef.unary main_call14.v8 main_call14.v10 (broadcastInDim S8 ![] bcast_S_S8),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S8 ![] bcast_S_S8),
    StableHlo.TRef.ternary main_call14.v12 main_call14.v11 main_call14.call0.v1 main_call14.call0.v2 (fun p a b => select (broadcastInDim S8 ![] bcast_S_S8 p) a b),
    StableHlo.unary main_v352 main_v354 (broadcastInDim S1x8 ![1] bcast_S8_S1x8_1 : (⟨S8, .f32⟩ : BufTy).Contents (Elt F) → (⟨S1x8, .f32⟩ : BufTy).Contents (Elt F)),
    StableHlo.unary main_v354 main_v355 (broadcastInDim S500000x8 ![0, 1] bcast_S1x8_S500000x8_0_1 : (⟨S1x8, .f32⟩ : BufTy).Contents (Elt F) → (⟨S500000x8, .f32⟩ : BufTy).Contents (Elt F)),
    StableHlo.binary main_v349 main_v355 main_v356 (subf : (⟨S500000x8, .f32⟩ : BufTy).Contents (Elt F) → (⟨S500000x8, .f32⟩ : BufTy).Contents (Elt F) → (⟨S500000x8, .f32⟩ : BufTy).Contents (Elt F)),
    StableHlo.nullary main_cst_58 (constant S_ .f32 0x3727C5AC#32),
    StableHlo.unary main_cst_58 main_v357 (broadcastInDim S8 ![] bcast_S_S8 : (⟨S_, .f32⟩ : BufTy).Contents (Elt F) → (⟨S8, .f32⟩ : BufTy).Contents (Elt F)),
    StableHlo.binary main_v353 main_v357 main_v358 (addf : (⟨S8, .f32⟩ : BufTy).Contents (Elt F) → (⟨S8, .f32⟩ : BufTy).Contents (Elt F) → (⟨S8, .f32⟩ : BufTy).Contents (Elt F)),
    StableHlo.unary main_v358 main_v359 (Host.rsqrt : (⟨S8, .f32⟩ : BufTy).Contents (Elt F) → (⟨S8, .f32⟩ : BufTy).Contents (Elt F)),
    StableHlo.unary main_v359 main_v360 (broadcastInDim S1x8 ![1] bcast_S8_S1x8_1 : (⟨S8, .f32⟩ : BufTy).Contents (Elt F) → (⟨S1x8, .f32⟩ : BufTy).Contents (Elt F)),
    StableHlo.unary main_v360 main_v361 (broadcastInDim S500000x8 ![0, 1] bcast_S1x8_S500000x8_0_1 : (⟨S1x8, .f32⟩ : BufTy).Contents (Elt F) → (⟨S500000x8, .f32⟩ : BufTy).Contents (Elt F)),
    StableHlo.binary main_v356 main_v361 main_v362 (mulf : (⟨S500000x8, .f32⟩ : BufTy).Contents (Elt F) → (⟨S500000x8, .f32⟩ : BufTy).Contents (Elt F) → (⟨S500000x8, .f32⟩ : BufTy).Contents (Elt F)),
    StableHlo.unary main_arg4 main_v363 ((extractStridedSlice S1x8 ![7, 0] · slices_S8x8_S1x8_7_0) : (⟨S8x8, .f32⟩ : BufTy).Contents (Elt F) → (⟨S1x8, .f32⟩ : BufTy).Contents (Elt F)),
    StableHlo.reshape main_v363 main_v364 rfl shapeCasts_S1x8_S8,
    StableHlo.unary main_v364 main_v365 (broadcastInDim S1x8 ![1] bcast_S8_S1x8_1 : (⟨S8, .f32⟩ : BufTy).Contents (Elt F) → (⟨S1x8, .f32⟩ : BufTy).Contents (Elt F)),
    StableHlo.unary main_v365 main_v366 (broadcastInDim S500000x8 ![0, 1] bcast_S1x8_S500000x8_0_1 : (⟨S1x8, .f32⟩ : BufTy).Contents (Elt F) → (⟨S500000x8, .f32⟩ : BufTy).Contents (Elt F)),
    StableHlo.binary main_v362 main_v366 main_v367 (mulf : (⟨S500000x8, .f32⟩ : BufTy).Contents (Elt F) → (⟨S500000x8, .f32⟩ : BufTy).Contents (Elt F) → (⟨S500000x8, .f32⟩ : BufTy).Contents (Elt F)),
    StableHlo.unary main_arg5 main_v368 ((extractStridedSlice S1x8 ![7, 0] · slices_S8x8_S1x8_7_0) : (⟨S8x8, .f32⟩ : BufTy).Contents (Elt F) → (⟨S1x8, .f32⟩ : BufTy).Contents (Elt F)),
    StableHlo.reshape main_v368 main_v369 rfl shapeCasts_S1x8_S8,
    StableHlo.unary main_v369 main_v370 (broadcastInDim S1x8 ![1] bcast_S8_S1x8_1 : (⟨S8, .f32⟩ : BufTy).Contents (Elt F) → (⟨S1x8, .f32⟩ : BufTy).Contents (Elt F)),
    StableHlo.unary main_v370 main_v371 (broadcastInDim S500000x8 ![0, 1] bcast_S1x8_S500000x8_0_1 : (⟨S1x8, .f32⟩ : BufTy).Contents (Elt F) → (⟨S500000x8, .f32⟩ : BufTy).Contents (Elt F)),
    StableHlo.binary main_v367 main_v371 main_v372 (addf : (⟨S500000x8, .f32⟩ : BufTy).Contents (Elt F) → (⟨S500000x8, .f32⟩ : BufTy).Contents (Elt F) → (⟨S500000x8, .f32⟩ : BufTy).Contents (Elt F)),
    StableHlo.unary main_arg6 main_v373 ((extractStridedSlice S1x8x8 ![7, 0, 0] · slices_S8x8x8_S1x8x8_7_0_0) : (⟨S8x8x8, .f32⟩ : BufTy).Contents (Elt F) → (⟨S1x8x8, .f32⟩ : BufTy).Contents (Elt F)),
    StableHlo.reshape main_v373 main_v374 rfl shapeCasts_S1x8x8_S8x8,
    StableHlo.binary main_v372 main_v374 main_v375 ((fun l r => Host.dotGeneral dot_S500000x8_S8x8_S500000x8_1_0_0_1_n_n none l r) : (⟨S500000x8, .f32⟩ : BufTy).Contents (Elt F) → (⟨S8x8, .f32⟩ : BufTy).Contents (Elt F) → (⟨S500000x8, .f32⟩ : BufTy).Contents (Elt F)),
    StableHlo.nullary main_c_59 (constantI S_ 32 0#32),
    StableHlo.unary main_c_59 main_v376 (broadcastInDim S8500000 ![] bcast_S_S8500000 : (⟨S_, .i32⟩ : BufTy).Contents (Elt F) → (⟨S8500000, .i32⟩ : BufTy).Contents (Elt F)),
    StableHlo.binary main_v3 main_v376 main_v377 (cmpi .slt : (⟨S8500000, .i32⟩ : BufTy).Contents (Elt F) → (⟨S8500000, .i32⟩ : BufTy).Contents (Elt F) → (⟨S8500000, .i1⟩ : BufTy).Contents (Elt F)),
    StableHlo.nullary main_c_60 (constantI S_ 32 500000#32),
    StableHlo.unary main_c_60 main_v378 (broadcastInDim S8500000 ![] bcast_S_S8500000 : (⟨S_, .i32⟩ : BufTy).Contents (Elt F) → (⟨S8500000, .i32⟩ : BufTy).Contents (Elt F)),
    StableHlo.binary main_v3 main_v378 main_v379 (addi : (⟨S8500000, .i32⟩ : BufTy).Contents (Elt F) → (⟨S8500000, .i32⟩ : BufTy).Contents (Elt F) → (⟨S8500000, .i32⟩ : BufTy).Contents (Elt F)),
    StableHlo.ternary main_v377 main_v379 main_v3 main_v380 (select : (⟨S8500000, .i1⟩ : BufTy).Contents (Elt F) → (⟨S8500000, .i32⟩ : BufTy).Contents (Elt F) → (⟨S8500000, .i32⟩ : BufTy).Contents (Elt F) → (⟨S8500000, .i32⟩ : BufTy).Contents (Elt F)),
    StableHlo.unary main_v380 main_v381 (broadcastInDim S8500000x1 ![0] bcast_S8500000_S8500000x1_0 : (⟨S8500000, .i32⟩ : BufTy).Contents (Elt F) → (⟨S8500000x1, .i32⟩ : BufTy).Contents (Elt F)),
    StableHlo.binary main_v375 main_v381 main_v382 ((fun x i => Host.gather gather_S500000x8_S8500000x1_S8500000x8_1_0_n_n_0_1_18 x i) : (⟨S500000x8, .f32⟩ : BufTy).Contents (Elt F) → (⟨S8500000x1, .i32⟩ : BufTy).Contents (Elt F) → (⟨S8500000x8, .f32⟩ : BufTy).Contents (Elt F)),
    StableHlo.unary main_v27 main_v383 (broadcastInDim S8500000x8 ![0, 1] bcast_S8500000x1_S8500000x8_0_1 : (⟨S8500000x1, .f32⟩ : BufTy).Contents (Elt F) → (⟨S8500000x8, .f32⟩ : BufTy).Contents (Elt F)),
    StableHlo.binary main_v383 main_v382 main_v384 (mulf : (⟨S8500000x8, .f32⟩ : BufTy).Contents (Elt F) → (⟨S8500000x8, .f32⟩ : BufTy).Contents (Elt F) → (⟨S8500000x8, .f32⟩ : BufTy).Contents (Elt F)),
    StableHlo.nullary main_cst_61 (constant S_ .f32 0x00000000#32),
    StableHlo.unary main_cst_61 main_v385 (broadcastInDim S500000x8 ![] bcast_S_S500000x8 : (⟨S_, .f32⟩ : BufTy).Contents (Elt F) → (⟨S500000x8, .f32⟩ : BufTy).Contents (Elt F)),
    StableHlo.unary main_v6 main_v386 (broadcastInDim S8500000x1 ![0] bcast_S8500000_S8500000x1_0 : (⟨S8500000, .i32⟩ : BufTy).Contents (Elt F) → (⟨S8500000x1, .i32⟩ : BufTy).Contents (Elt F)),
    StableHlo.ternary main_v385 main_v386 main_v384 main_v387 ((fun x i u => Host.scatterAdd scatter_S500000x8_S8500000x1_S8500000x8_1_0_0_1 x i u) : (⟨S500000x8, .f32⟩ : BufTy).Contents (Elt F) → (⟨S8500000x1, .i32⟩ : BufTy).Contents (Elt F) → (⟨S8500000x8, .f32⟩ : BufTy).Contents (Elt F) → (⟨S500000x8, .f32⟩ : BufTy).Contents (Elt F)),
    StableHlo.unary main_arg7 main_v388 ((extractStridedSlice S1x8 ![7, 0] · slices_S8x8_S1x8_7_0) : (⟨S8x8, .f32⟩ : BufTy).Contents (Elt F) → (⟨S1x8, .f32⟩ : BufTy).Contents (Elt F)),
    StableHlo.reshape main_v388 main_v389 rfl shapeCasts_S1x8_S8,
    StableHlo.unary main_v389 main_v390 (broadcastInDim S1x8 ![1] bcast_S8_S1x8_1 : (⟨S8, .f32⟩ : BufTy).Contents (Elt F) → (⟨S1x8, .f32⟩ : BufTy).Contents (Elt F)),
    StableHlo.unary main_v390 main_v391 (broadcastInDim S500000x8 ![0, 1] bcast_S1x8_S500000x8_0_1 : (⟨S1x8, .f32⟩ : BufTy).Contents (Elt F) → (⟨S500000x8, .f32⟩ : BufTy).Contents (Elt F)),
    StableHlo.binary main_v387 main_v391 main_v392 (addf : (⟨S500000x8, .f32⟩ : BufTy).Contents (Elt F) → (⟨S500000x8, .f32⟩ : BufTy).Contents (Elt F) → (⟨S500000x8, .f32⟩ : BufTy).Contents (Elt F)),
    StableHlo.binary main_v349 main_v392 main_v393 (addf : (⟨S500000x8, .f32⟩ : BufTy).Contents (Elt F) → (⟨S500000x8, .f32⟩ : BufTy).Contents (Elt F) → (⟨S500000x8, .f32⟩ : BufTy).Contents (Elt F)),
    StableHlo.TRef.nullary main_call15.cst (constant S_ .f32 0x00000000#32),
    StableHlo.TRef.unary main_call15.cst main_call15.v0 (broadcastInDim S500000x8 ![] bcast_S_S500000x8),
    StableHlo.TRef.binary (.of main_v393 : StableHlo.TRef sig ⟨S500000x8, .f32⟩) main_call15.v0 main_call15.v1 maximumf ]

set_option maxRecDepth 8192 in
theorem opsL7_sub : (opsL7 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩

set_option maxRecDepth 8192 in
theorem opsL7_fresh : (opsL7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The readout: the pooling scatter, the two dense maps and the reshape that writes %407. 16 operations. -/
abbrev opsPost : List (HloOp τ sig (Elt F)) :=
  [ StableHlo.nullary main_cst_62 (constant S_ .f32 0x00000000#32),
    StableHlo.unary main_cst_62 main_v395 (broadcastInDim S5000x8 ![] bcast_S_S5000x8 : (⟨S_, .f32⟩ : BufTy).Contents (Elt F) → (⟨S5000x8, .f32⟩ : BufTy).Contents (Elt F)),
    StableHlo.unary main_arg2 main_v396 (broadcastInDim S500000x1 ![0] bcast_S500000_S500000x1_0 : (⟨S500000, .i32⟩ : BufTy).Contents (Elt F) → (⟨S500000x1, .i32⟩ : BufTy).Contents (Elt F)),
    StableHlo.ternary main_v395 main_v396 main_v394 main_v397 ((fun x i u => Host.scatterAdd scatter_S5000x8_S500000x1_S500000x8_1_0_0_1 x i u) : (⟨S5000x8, .f32⟩ : BufTy).Contents (Elt F) → (⟨S500000x1, .i32⟩ : BufTy).Contents (Elt F) → (⟨S500000x8, .f32⟩ : BufTy).Contents (Elt F) → (⟨S5000x8, .f32⟩ : BufTy).Contents (Elt F)),
    StableHlo.binary main_v397 main_arg8 main_v398 ((fun l r => Host.dotGeneral dot_S5000x8_S8x128_S5000x128_1_0_0_1_n_n none l r) : (⟨S5000x8, .f32⟩ : BufTy).Contents (Elt F) → (⟨S8x128, .f32⟩ : BufTy).Contents (Elt F) → (⟨S5000x128, .f32⟩ : BufTy).Contents (Elt F)),
    StableHlo.unary main_arg9 main_v399 (broadcastInDim S1x128 ![1] bcast_S128_S1x128_1 : (⟨S128, .f32⟩ : BufTy).Contents (Elt F) → (⟨S1x128, .f32⟩ : BufTy).Contents (Elt F)),
    StableHlo.unary main_v399 main_v400 (broadcastInDim S5000x128 ![0, 1] bcast_S1x128_S5000x128_0_1 : (⟨S1x128, .f32⟩ : BufTy).Contents (Elt F) → (⟨S5000x128, .f32⟩ : BufTy).Contents (Elt F)),
    StableHlo.binary main_v398 main_v400 main_v401 (addf : (⟨S5000x128, .f32⟩ : BufTy).Contents (Elt F) → (⟨S5000x128, .f32⟩ : BufTy).Contents (Elt F) → (⟨S5000x128, .f32⟩ : BufTy).Contents (Elt F)),
    StableHlo.TRef.nullary main_call16.cst (constant S_ .f32 0x00000000#32),
    StableHlo.TRef.unary main_call16.cst main_call16.v0 (broadcastInDim S5000x128 ![] bcast_S_S5000x128),
    StableHlo.TRef.binary (.of main_v401 : StableHlo.TRef sig ⟨S5000x128, .f32⟩) main_call16.v0 main_call16.v1 maximumf,
    StableHlo.binary main_v402 main_arg10 main_v403 ((fun l r => Host.dotGeneral dot_S5000x128_S128x1_S5000x1_1_0_0_1_n_n none l r) : (⟨S5000x128, .f32⟩ : BufTy).Contents (Elt F) → (⟨S128x1, .f32⟩ : BufTy).Contents (Elt F) → (⟨S5000x1, .f32⟩ : BufTy).Contents (Elt F)),
    StableHlo.unary main_arg11 main_v404 (broadcastInDim S1x1 ![1] bcast_S1_S1x1_1 : (⟨S1, .f32⟩ : BufTy).Contents (Elt F) → (⟨S1x1, .f32⟩ : BufTy).Contents (Elt F)),
    StableHlo.unary main_v404 main_v405 (broadcastInDim S5000x1 ![0, 1] bcast_S1x1_S5000x1_0_1 : (⟨S1x1, .f32⟩ : BufTy).Contents (Elt F) → (⟨S5000x1, .f32⟩ : BufTy).Contents (Elt F)),
    StableHlo.binary main_v403 main_v405 main_v406 (addf : (⟨S5000x1, .f32⟩ : BufTy).Contents (Elt F) → (⟨S5000x1, .f32⟩ : BufTy).Contents (Elt F) → (⟨S5000x1, .f32⟩ : BufTy).Contents (Elt F)),
    StableHlo.reshape main_v406 main_v407 rfl shapeCasts_S5000x1_S5000 ]

set_option maxRecDepth 8192 in
theorem opsPost_sub : (opsPost : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.reshape_bufs_sub ..⟩

set_option maxRecDepth 8192 in
theorem opsPost_fresh : (opsPost : List (HloOp τ sig (Elt F))).Forall fun op => op.fresh = ∅ :=
  ⟨rfl, rfl, rfl, rfl, rfl, rfl, rfl, rfl, rfl, rfl, rfl, rfl, rfl, rfl, rfl, rfl⟩

/-- @main's 659 operations, in order. -/
abbrev ops : List (HloOp τ sig (Elt F)) :=
  opsPre ++ opsL0 ++ opsL1 ++ opsL2 ++ opsL3 ++ opsL4 ++ opsL5 ++ opsL6 ++ opsL7 ++ opsPost

end Cert.ReferenceIdeal.RefRun

end
-- ==== Proof.RefRunB.lean ====
import proofs.«143139_j73710228734964_1_alg».proof.Proof.RefRunA

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- One operation's written buffer is in the list: what it writes is the singleton of its result. -/
local macro "w1" : tactic => `(tactic| (simp only [StableHlo.nullary_writes, StableHlo.unary_writes, StableHlo.binary_writes, StableHlo.ternary_writes, StableHlo.reshape_writes, Finset.singleton_subset_iff, List.mem_toFinset]; exact List.mem_map_of_mem (by decide)))

/-- The buffers the operations of `opsPre` write, in order. -/
abbrev opsPre_W : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_v27, main_c_4, main_v28, main_v29, main_c_5, main_v30, main_v31, main_v32, main_v33, main_v34]

set_option maxRecDepth 8192 in
theorem opsPre_writes : (opsPre : List (HloOp τ sig (Elt F))).Forall fun op => op.writes ⊆ (opsPre_W.map (Proc.devRef (τ := τ) .tc)).toFinset := by
  simp only [List.Forall]
  exact ⟨by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1⟩

/-- The buffers the operations of `opsL0` write, in order. -/
abbrev opsL0_W : List (Ref sig .tc) := [main_cst_6, main_v35, main_cst_7, main_v36, main_v37, main_c_8, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v39, main_v40, main_v41, main_cst_9, main_v42, main_v43, main_v44, main_v45, main_v46, main_v47, main_v48, main_v49, main_v50, main_v51, main_v52, main_v53, main_v54, main_v55, main_v56, main_v57, main_v58, main_v59, main_v60, main_c_10, main_v61, main_v62, main_c_11, main_v63, main_v64, main_v65, main_v66, main_v67, main_v68, main_v69, main_cst_12, main_v70, main_v71, main_v72, main_v73, main_v74, main_v75, main_v76, main_v77, main_v78, main_call1.cst.ref, main_call1.v0.ref, main_call1.v1.ref]

set_option maxRecDepth 8192 in
theorem opsL0_writes : (opsL0 : List (HloOp τ sig (Elt F))).Forall fun op => op.writes ⊆ (opsL0_W.map (Proc.devRef (τ := τ) .tc)).toFinset := by
  simp only [List.Forall]
  exact ⟨by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1⟩

/-- The buffers the operations of `opsL1` write, in order. -/
abbrev opsL1_W : List (Ref sig .tc) := [main_cst_13, main_v80, main_cst_14, main_v81, main_v82, main_c_15, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v84, main_v85, main_v86, main_cst_16, main_v87, main_v88, main_v89, main_v90, main_v91, main_v92, main_v93, main_v94, main_v95, main_v96, main_v97, main_v98, main_v99, main_v100, main_v101, main_v102, main_v103, main_v104, main_v105, main_c_17, main_v106, main_v107, main_c_18, main_v108, main_v109, main_v110, main_v111, main_v112, main_v113, main_v114, main_cst_19, main_v115, main_v116, main_v117, main_v118, main_v119, main_v120, main_v121, main_v122, main_v123, main_call3.cst.ref, main_call3.v0.ref, main_call3.v1.ref]

set_option maxRecDepth 8192 in
theorem opsL1_writes : (opsL1 : List (HloOp τ sig (Elt F))).Forall fun op => op.writes ⊆ (opsL1_W.map (Proc.devRef (τ := τ) .tc)).toFinset := by
  simp only [List.Forall]
  exact ⟨by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1⟩

/-- The buffers the operations of `opsL2` write, in order. -/
abbrev opsL2_W : List (Ref sig .tc) := [main_cst_20, main_v125, main_cst_21, main_v126, main_v127, main_c_22, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v129, main_v130, main_v131, main_cst_23, main_v132, main_v133, main_v134, main_v135, main_v136, main_v137, main_v138, main_v139, main_v140, main_v141, main_v142, main_v143, main_v144, main_v145, main_v146, main_v147, main_v148, main_v149, main_v150, main_c_24, main_v151, main_v152, main_c_25, main_v153, main_v154, main_v155, main_v156, main_v157, main_v158, main_v159, main_cst_26, main_v160, main_v161, main_v162, main_v163, main_v164, main_v165, main_v166, main_v167, main_v168, main_call5.cst.ref, main_call5.v0.ref, main_call5.v1.ref]

set_option maxRecDepth 8192 in
theorem opsL2_writes : (opsL2 : List (HloOp τ sig (Elt F))).Forall fun op => op.writes ⊆ (opsL2_W.map (Proc.devRef (τ := τ) .tc)).toFinset := by
  simp only [List.Forall]
  exact ⟨by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1⟩

/-- The buffers the operations of `opsL3` write, in order. -/
abbrev opsL3_W : List (Ref sig .tc) := [main_cst_27, main_v170, main_cst_28, main_v171, main_v172, main_c_29, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v174, main_v175, main_v176, main_cst_30, main_v177, main_v178, main_v179, main_v180, main_v181, main_v182, main_v183, main_v184, main_v185, main_v186, main_v187, main_v188, main_v189, main_v190, main_v191, main_v192, main_v193, main_v194, main_v195, main_c_31, main_v196, main_v197, main_c_32, main_v198, main_v199, main_v200, main_v201, main_v202, main_v203, main_v204, main_cst_33, main_v205, main_v206, main_v207, main_v208, main_v209, main_v210, main_v211, main_v212, main_v213, main_call7.cst.ref, main_call7.v0.ref, main_call7.v1.ref]

set_option maxRecDepth 8192 in
theorem opsL3_writes : (opsL3 : List (HloOp τ sig (Elt F))).Forall fun op => op.writes ⊆ (opsL3_W.map (Proc.devRef (τ := τ) .tc)).toFinset := by
  simp only [List.Forall]
  exact ⟨by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1⟩

/-- The buffers the operations of `opsL4` write, in order. -/
abbrev opsL4_W : List (Ref sig .tc) := [main_cst_34, main_v215, main_cst_35, main_v216, main_v217, main_c_36, main_call8.cst.ref, main_call8.v0.ref, main_call8.v1.ref, main_call8.cst_0.ref, main_call8.v2.ref, main_call8.v3.ref, main_call8.v4.ref, main_call8.v5.ref, main_call8.v6.ref, main_call8.v7.ref, main_call8.cst_1.ref, main_call8.v8.ref, main_call8.cst_2.ref, main_call8.v9.ref, main_call8.v10.ref, main_call8.v11.ref, main_call8.cst_3.ref, main_call8.v12.ref, main_call8.cst_4.ref, main_call8.call0.v0.ref, main_call8.call0.v1.ref, main_call8.call0.v2.ref, main_v219, main_v220, main_v221, main_cst_37, main_v222, main_v223, main_v224, main_v225, main_v226, main_v227, main_v228, main_v229, main_v230, main_v231, main_v232, main_v233, main_v234, main_v235, main_v236, main_v237, main_v238, main_v239, main_v240, main_c_38, main_v241, main_v242, main_c_39, main_v243, main_v244, main_v245, main_v246, main_v247, main_v248, main_v249, main_cst_40, main_v250, main_v251, main_v252, main_v253, main_v254, main_v255, main_v256, main_v257, main_v258, main_call9.cst.ref, main_call9.v0.ref, main_call9.v1.ref]

set_option maxRecDepth 8192 in
theorem opsL4_writes : (opsL4 : List (HloOp τ sig (Elt F))).Forall fun op => op.writes ⊆ (opsL4_W.map (Proc.devRef (τ := τ) .tc)).toFinset := by
  simp only [List.Forall]
  exact ⟨by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1⟩

/-- The buffers the operations of `opsL5` write, in order. -/
abbrev opsL5_W : List (Ref sig .tc) := [main_cst_41, main_v260, main_cst_42, main_v261, main_v262, main_c_43, main_call10.cst.ref, main_call10.v0.ref, main_call10.v1.ref, main_call10.cst_0.ref, main_call10.v2.ref, main_call10.v3.ref, main_call10.v4.ref, main_call10.v5.ref, main_call10.v6.ref, main_call10.v7.ref, main_call10.cst_1.ref, main_call10.v8.ref, main_call10.cst_2.ref, main_call10.v9.ref, main_call10.v10.ref, main_call10.v11.ref, main_call10.cst_3.ref, main_call10.v12.ref, main_call10.cst_4.ref, main_call10.call0.v0.ref, main_call10.call0.v1.ref, main_call10.call0.v2.ref, main_v264, main_v265, main_v266, main_cst_44, main_v267, main_v268, main_v269, main_v270, main_v271, main_v272, main_v273, main_v274, main_v275, main_v276, main_v277, main_v278, main_v279, main_v280, main_v281, main_v282, main_v283, main_v284, main_v285, main_c_45, main_v286, main_v287, main_c_46, main_v288, main_v289, main_v290, main_v291, main_v292, main_v293, main_v294, main_cst_47, main_v295, main_v296, main_v297, main_v298, main_v299, main_v300, main_v301, main_v302, main_v303, main_call11.cst.ref, main_call11.v0.ref, main_call11.v1.ref]

set_option maxRecDepth 8192 in
theorem opsL5_writes : (opsL5 : List (HloOp τ sig (Elt F))).Forall fun op => op.writes ⊆ (opsL5_W.map (Proc.devRef (τ := τ) .tc)).toFinset := by
  simp only [List.Forall]
  exact ⟨by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1⟩

/-- The buffers the operations of `opsL6` write, in order. -/
abbrev opsL6_W : List (Ref sig .tc) := [main_cst_48, main_v305, main_cst_49, main_v306, main_v307, main_c_50, main_call12.cst.ref, main_call12.v0.ref, main_call12.v1.ref, main_call12.cst_0.ref, main_call12.v2.ref, main_call12.v3.ref, main_call12.v4.ref, main_call12.v5.ref, main_call12.v6.ref, main_call12.v7.ref, main_call12.cst_1.ref, main_call12.v8.ref, main_call12.cst_2.ref, main_call12.v9.ref, main_call12.v10.ref, main_call12.v11.ref, main_call12.cst_3.ref, main_call12.v12.ref, main_call12.cst_4.ref, main_call12.call0.v0.ref, main_call12.call0.v1.ref, main_call12.call0.v2.ref, main_v309, main_v310, main_v311, main_cst_51, main_v312, main_v313, main_v314, main_v315, main_v316, main_v317, main_v318, main_v319, main_v320, main_v321, main_v322, main_v323, main_v324, main_v325, main_v326, main_v327, main_v328, main_v329, main_v330, main_c_52, main_v331, main_v332, main_c_53, main_v333, main_v334, main_v335, main_v336, main_v337, main_v338, main_v339, main_cst_54, main_v340, main_v341, main_v342, main_v343, main_v344, main_v345, main_v346, main_v347, main_v348, main_call13.cst.ref, main_call13.v0.ref, main_call13.v1.ref]

set_option maxRecDepth 8192 in
theorem opsL6_writes : (opsL6 : List (HloOp τ sig (Elt F))).Forall fun op => op.writes ⊆ (opsL6_W.map (Proc.devRef (τ := τ) .tc)).toFinset := by
  simp only [List.Forall]
  exact ⟨by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1⟩

/-- The buffers the operations of `opsL7` write, in order. -/
abbrev opsL7_W : List (Ref sig .tc) := [main_cst_55, main_v350, main_cst_56, main_v351, main_v352, main_c_57, main_call14.cst.ref, main_call14.v0.ref, main_call14.v1.ref, main_call14.cst_0.ref, main_call14.v2.ref, main_call14.v3.ref, main_call14.v4.ref, main_call14.v5.ref, main_call14.v6.ref, main_call14.v7.ref, main_call14.cst_1.ref, main_call14.v8.ref, main_call14.cst_2.ref, main_call14.v9.ref, main_call14.v10.ref, main_call14.v11.ref, main_call14.cst_3.ref, main_call14.v12.ref, main_call14.cst_4.ref, main_call14.call0.v0.ref, main_call14.call0.v1.ref, main_call14.call0.v2.ref, main_v354, main_v355, main_v356, main_cst_58, main_v357, main_v358, main_v359, main_v360, main_v361, main_v362, main_v363, main_v364, main_v365, main_v366, main_v367, main_v368, main_v369, main_v370, main_v371, main_v372, main_v373, main_v374, main_v375, main_c_59, main_v376, main_v377, main_c_60, main_v378, main_v379, main_v380, main_v381, main_v382, main_v383, main_v384, main_cst_61, main_v385, main_v386, main_v387, main_v388, main_v389, main_v390, main_v391, main_v392, main_v393, main_call15.cst.ref, main_call15.v0.ref, main_call15.v1.ref]

set_option maxRecDepth 8192 in
theorem opsL7_writes : (opsL7 : List (HloOp τ sig (Elt F))).Forall fun op => op.writes ⊆ (opsL7_W.map (Proc.devRef (τ := τ) .tc)).toFinset := by
  simp only [List.Forall]
  exact ⟨by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1, by w1⟩

/-- The buffers the operations of `opsPost` write, in order. -/
abbrev opsPost_W : List (Ref sig .tc) := [main_cst_62, main_v395, main_v396, main_v397, main_v398, main_v399, main_v400, main_v401, main_call16.cst.ref, main_call16.v0.ref, main_call16.v1.ref, main_v403, main_v404, main_v405, main_v406, main_v407]

set_option maxRecDepth 8192 in
theorem opsPost_writes : (opsPost : List (HloOp τ sig (Elt F))).Forall fun op => op.writes ⊆ (opsPost_W.map (Proc.devRef (τ := τ) .tc)).toFinset := by
  simp only [List.Forall]
  exact ⟨by w1, by w1, by w1, by w1, by w1, by w1, by w1, by w1, by w1, by w1, by w1, by w1, by w1, by w1, by w1, by w1⟩

end Cert.ReferenceIdeal.RefRun

end
-- ==== Proof.RefRun.lean ====
/- The run of the reference program's @main, read as one straight line of host operations: @main is the sequence of
   the operations listed in RefRunA.lean (each callee's body standing at its call), so every weakly fair execution
   terminates with each buffer at the fold of the operations' results over the launch contents; no operation writes an
   argument, so each argument ends as launched. -/
import proofs.«143139_j73710228734964_1_alg».proof.Proof.RefRunB

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Lists run in turn -/

/-- The contents after two lines run one after the other: the second line's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A list cut at `n` and followed by more is the list followed by the same. -/
theorem take_drop_app {α : Type} (n : Nat) (l X : List α) : l.take n ++ (l.drop n ++ X) = l ++ X := by
  rw [← List.append_assoc, List.take_append_drop]

/-- What holds of every operation of each list holds of every operation of @main. -/
theorem forall_ops {p : HloOp τ sig (Elt F) → Prop} (hPre : opsPre.Forall p) (h0 : opsL0.Forall p) (h1 : opsL1.Forall p)
    (h2 : opsL2.Forall p) (h3 : opsL3.Forall p) (h4 : opsL4.Forall p) (h5 : opsL5.Forall p) (h6 : opsL6.Forall p)
    (h7 : opsL7.Forall p) (hPost : opsPost.Forall p) : (ops : List (HloOp τ sig (Elt F))).Forall p :=
  List.forall_iff_forall_mem.mpr fun op h => by
    simp only [ops, List.mem_append] at h
    rcases h with (((((((((h | h) | h) | h) | h) | h) | h) | h) | h) | h)
    exacts [List.forall_iff_forall_mem.mp hPre op h, List.forall_iff_forall_mem.mp h0 op h,
      List.forall_iff_forall_mem.mp h1 op h, List.forall_iff_forall_mem.mp h2 op h, List.forall_iff_forall_mem.mp h3 op h,
      List.forall_iff_forall_mem.mp h4 op h, List.forall_iff_forall_mem.mp h5 op h, List.forall_iff_forall_mem.mp h6 op h,
      List.forall_iff_forall_mem.mp h7 op h, List.forall_iff_forall_mem.mp hPost op h]

/-! ## @main is the line

@main is printed in eight windows; a window ends inside a layer, so each window is the tail of one list, whole lists,
and the head of another. Each window is its stretch of operations by computation (the callees' definitions unfold at
their calls, the records at their fields); the stretches in order are the lists in order. -/

/-- Window 0: the first list and layer 0 through the product with the normalising factor (%47). -/
def win0 : List (HloOp τ sig (Elt F)) := opsPre ++ opsL0.take 38
/-- Window 1: the rest of layer 0, layer 1 through %100. -/
def win1 : List (HloOp τ sig (Elt F)) := opsL0.drop 38 ++ opsL1.take 46
/-- Window 2: the rest of layer 1, layer 2 through %153. -/
def win2 : List (HloOp τ sig (Elt F)) := opsL1.drop 46 ++ opsL2.take 54
/-- Window 3: the rest of layer 2, the head of layer 3. -/
def win3 : List (HloOp τ sig (Elt F)) := opsL2.drop 54 ++ opsL3.take 62
/-- Window 4: the rest of layer 3, the head of layer 4. -/
def win4 : List (HloOp τ sig (Elt F)) := opsL3.drop 62 ++ opsL4.take 70
/-- Window 5: the rest of layer 4, layer 5 whole, the head of layer 6. -/
def win5 : List (HloOp τ sig (Elt F)) := opsL4.drop 70 ++ opsL5 ++ opsL6.take 5
/-- Window 6: the rest of layer 6, the head of layer 7. -/
def win6 : List (HloOp τ sig (Elt F)) := opsL6.drop 5 ++ opsL7.take 34
/-- Window 7: the rest of layer 7 and the readout. -/
def win7 : List (HloOp τ sig (Elt F)) := opsL7.drop 34 ++ opsPost

set_option maxRecDepth 16384 in
set_option maxHeartbeats 4000000 in
theorem main_part0_eq (c : Dev nD) : main_part0 (F := F) c = seq win0 := rfl
set_option maxRecDepth 16384 in
set_option maxHeartbeats 4000000 in
theorem main_part1_eq (c : Dev nD) : main_part1 (F := F) c = seq win1 := rfl
set_option maxRecDepth 16384 in
set_option maxHeartbeats 4000000 in
theorem main_part2_eq (c : Dev nD) : main_part2 (F := F) c = seq win2 := rfl
set_option maxRecDepth 16384 in
set_option maxHeartbeats 4000000 in
theorem main_part3_eq (c : Dev nD) : main_part3 (F := F) c = seq win3 := rfl
set_option maxRecDepth 16384 in
set_option maxHeartbeats 4000000 in
theorem main_part4_eq (c : Dev nD) : main_part4 (F := F) c = seq win4 := rfl
set_option maxRecDepth 16384 in
set_option maxHeartbeats 4000000 in
theorem main_part5_eq (c : Dev nD) : main_part5 (F := F) c = seq win5 := rfl
set_option maxRecDepth 16384 in
set_option maxHeartbeats 4000000 in
theorem main_part6_eq (c : Dev nD) : main_part6 (F := F) c = seq win6 := rfl
set_option maxRecDepth 16384 in
set_option maxHeartbeats 4000000 in
theorem main_part7_eq (c : Dev nD) : main_part7 (F := F) c = seq win7 := rfl

/-- The windows' stretches in order are the lists in order: each cut list is put back together. -/
theorem ops_cut : (ops : List (HloOp τ sig (Elt F)))
    = win0 ++ (win1 ++ (win2 ++ (win3 ++ (win4 ++ (win5 ++ (win6 ++ win7)))))) := by
  simp only [ops, win0, win1, win2, win3, win4, win5, win6, win7, List.append_assoc, take_drop_app]

/-- @main is the line of its operations. -/
theorem main_eq (c : Dev nD) : main (F := F) c = seq ops := by
  rw [ops_cut]
  simp only [seq_append, ← main_part0_eq c, ← main_part1_eq c, ← main_part2_eq c, ← main_part3_eq c,
    ← main_part4_eq c, ← main_part5_eq c, ← main_part6_eq c, ← main_part7_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  forall_ops opsPre_sub opsL0_sub opsL1_sub opsL2_sub opsL3_sub opsL4_sub opsL5_sub opsL6_sub opsL7_sub opsPost_sub

/-- Every operation determines its results. -/
theorem ops_fresh : ∀ op ∈ (ops : List (HloOp τ sig (Elt F))), op.fresh = ∅ :=
  List.forall_iff_forall_mem.mp
    (forall_ops opsPre_fresh opsL0_fresh opsL1_fresh opsL2_fresh opsL3_fresh opsL4_fresh opsL5_fresh opsL6_fresh opsL7_fresh
      opsPost_fresh)

/-! ## The run -/

/-- On the one device, for any float values, from any memory with zero counters: every weakly fair execution of
    @main terminates, and every final state has each TensorCore buffer at the fold of the operations' results over
    the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The arguments end as launched -/

/-- A buffer none of the lists writes keeps its contents through @main. -/
theorem after_ops_keep (V : Valuation τ sig (Elt F)) (r : Ref sig .tc) (hPre : r ∉ opsPre_W) (h0 : r ∉ opsL0_W)
    (h1 : r ∉ opsL1_W) (h2 : r ∉ opsL2_W) (h3 : r ∉ opsL3_W) (h4 : r ∉ opsL4_W) (h5 : r ∉ opsL5_W) (h6 : r ∉ opsL6_W)
    (h7 : r ∉ opsL7_W) (hPost : r ∉ opsPost_W) :
    after ops V (Proc.devRef .tc r) = V (Proc.devRef .tc r) := by
  simp only [ops, after_app]
  rw [after_of_writes_sub opsPost _ opsPost_writes hPost, after_of_writes_sub opsL7 _ opsL7_writes h7,
    after_of_writes_sub opsL6 _ opsL6_writes h6, after_of_writes_sub opsL5 _ opsL5_writes h5,
    after_of_writes_sub opsL4 _ opsL4_writes h4, after_of_writes_sub opsL3 _ opsL3_writes h3,
    after_of_writes_sub opsL2 _ opsL2_writes h2, after_of_writes_sub opsL1 _ opsL1_writes h1,
    after_of_writes_sub opsL0 _ opsL0_writes h0, after_of_writes_sub opsPre _ opsPre_writes hPre]

theorem arg0_kept (V : Valuation τ sig (Elt F)) :
    after ops V (Proc.devRef .tc main_arg0) = V (Proc.devRef .tc main_arg0) :=
  after_ops_keep V main_arg0 (by decide) (by decide) (by decide) (by decide) (by decide) (by decide) (by decide) (by decide)
    (by decide) (by decide)
theorem arg1_kept (V : Valuation τ sig (Elt F)) :
    after ops V (Proc.devRef .tc main_arg1) = V (Proc.devRef .tc main_arg1) :=
  after_ops_keep V main_arg1 (by decide) (by decide) (by decide) (by decide) (by decide) (by decide) (by decide) (by decide)
    (by decide) (by decide)
theorem arg2_kept (V : Valuation τ sig (Elt F)) :
    after ops V (Proc.devRef .tc main_arg2) = V (Proc.devRef .tc main_arg2) :=
  after_ops_keep V main_arg2 (by decide) (by decide) (by decide) (by decide) (by decide) (by decide) (by decide) (by decide)
    (by decide) (by decide)
theorem arg3_kept (V : Valuation τ sig (Elt F)) :
    after ops V (Proc.devRef .tc main_arg3) = V (Proc.devRef .tc main_arg3) :=
  after_ops_keep V main_arg3 (by decide) (by decide) (by decide) (by decide) (by decide) (by decide) (by decide) (by decide)
    (by decide) (by decide)
theorem arg4_kept (V : Valuation τ sig (Elt F)) :
    after ops V (Proc.devRef .tc main_arg4) = V (Proc.devRef .tc main_arg4) :=
  after_ops_keep V main_arg4 (by decide) (by decide) (by decide) (by decide) (by decide) (by decide) (by decide) (by decide)
    (by decide) (by decide)
theorem arg5_kept (V : Valuation τ sig (Elt F)) :
    after ops V (Proc.devRef .tc main_arg5) = V (Proc.devRef .tc main_arg5) :=
  after_ops_keep V main_arg5 (by decide) (by decide) (by decide) (by decide) (by decide) (by decide) (by decide) (by decide)
    (by decide) (by decide)
theorem arg6_kept (V : Valuation τ sig (Elt F)) :
    after ops V (Proc.devRef .tc main_arg6) = V (Proc.devRef .tc main_arg6) :=
  after_ops_keep V main_arg6 (by decide) (by decide) (by decide) (by decide) (by decide) (by decide) (by decide) (by decide)
    (by decide) (by decide)
theorem arg7_kept (V : Valuation τ sig (Elt F)) :
    after ops V (Proc.devRef .tc main_arg7) = V (Proc.devRef .tc main_arg7) :=
  after_ops_keep V main_arg7 (by decide) (by decide) (by decide) (by decide) (by decide) (by decide) (by decide) (by decide)
    (by decide) (by decide)
theorem arg8_kept (V : Valuation τ sig (Elt F)) :
    after ops V (Proc.devRef .tc main_arg8) = V (Proc.devRef .tc main_arg8) :=
  after_ops_keep V main_arg8 (by decide) (by decide) (by decide) (by decide) (by decide) (by decide) (by decide) (by decide)
    (by decide) (by decide)
theorem arg9_kept (V : Valuation τ sig (Elt F)) :
    after ops V (Proc.devRef .tc main_arg9) = V (Proc.devRef .tc main_arg9) :=
  after_ops_keep V main_arg9 (by decide) (by decide) (by decide) (by decide) (by decide) (by decide) (by decide) (by decide)
    (by decide) (by decide)
theorem arg10_kept (V : Valuation τ sig (Elt F)) :
    after ops V (Proc.devRef .tc main_arg10) = V (Proc.devRef .tc main_arg10) :=
  after_ops_keep V main_arg10 (by decide) (by decide) (by decide) (by decide) (by decide) (by decide) (by decide) (by decide)
    (by decide) (by decide)
theorem arg11_kept (V : Valuation τ sig (Elt F)) :
    after ops V (Proc.devRef .tc main_arg11) = V (Proc.devRef .tc main_arg11) :=
  after_ops_keep V main_arg11 (by decide) (by decide) (by decide) (by decide) (by decide) (by decide) (by decide) (by decide)
    (by decide) (by decide)

/-- No operation writes an argument: each of the twelve ends at its launch contents. -/
theorem args_kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9)
    ∧ after ops V (Proc.devRef .tc main_arg10) = V (Proc.devRef .tc main_arg10)
    ∧ after ops V (Proc.devRef .tc main_arg11) = V (Proc.devRef .tc main_arg11) :=
  ⟨arg0_kept V, arg1_kept V, arg2_kept V, arg3_kept V, arg4_kept V, arg5_kept V, arg6_kept V, arg7_kept V, arg8_kept V,
    arg9_kept V, arg10_kept V, arg11_kept V⟩

end Cert.ReferenceIdeal.RefRun

end
-- ==== Proof.RefFrame.lean ====
/-
  The reference program's frame: its run (Proof/RefRun.lean) terminates without a fault, and no operation of
  @main writes an argument array, so each argument ends at its launch contents.
-/
import proofs.«143139_j73710228734964_1_alg».proof.Defs
import proofs.«143139_j73710228734964_1_alg».proof.Proof.RefRun

noncomputable section

namespace Cert.Proof.RefFrame

open Idealize.ShloMosaic Idealize.ShloMosaic.TcCoe Idealize.SL.Sem Idealize.ShloMosaic.StableHlo

theorem frame_ri [Cert.ReferenceIdeal.Facts] [Cert.Pre_finite_inputs.Facts] : Cert.frame_ReferenceIdeal := fun m ρ _ =>
  (θ_run (Cert.ReferenceIdeal.defs (F := Ideal)) _ _).mono (fun r h c =>
    ⟨(h c Cert.ReferenceIdeal.main_arg0).trans (Cert.ReferenceIdeal.RefRun.arg0_kept _),
      (h c Cert.ReferenceIdeal.main_arg1).trans (Cert.ReferenceIdeal.RefRun.arg1_kept _),
      (h c Cert.ReferenceIdeal.main_arg2).trans (Cert.ReferenceIdeal.RefRun.arg2_kept _),
      (h c Cert.ReferenceIdeal.main_arg3).trans (Cert.ReferenceIdeal.RefRun.arg3_kept _),
      (h c Cert.ReferenceIdeal.main_arg4).trans (Cert.ReferenceIdeal.RefRun.arg4_kept _),
      (h c Cert.ReferenceIdeal.main_arg5).trans (Cert.ReferenceIdeal.RefRun.arg5_kept _),
      (h c Cert.ReferenceIdeal.main_arg6).trans (Cert.ReferenceIdeal.RefRun.arg6_kept _),
      (h c Cert.ReferenceIdeal.main_arg7).trans (Cert.ReferenceIdeal.RefRun.arg7_kept _),
      (h c Cert.ReferenceIdeal.main_arg8).trans (Cert.ReferenceIdeal.RefRun.arg8_kept _),
      (h c Cert.ReferenceIdeal.main_arg9).trans (Cert.ReferenceIdeal.RefRun.arg9_kept _),
      (h c Cert.ReferenceIdeal.main_arg10).trans (Cert.ReferenceIdeal.RefRun.arg10_kept _),
      (h c Cert.ReferenceIdeal.main_arg11).trans (Cert.ReferenceIdeal.RefRun.arg11_kept _)⟩)
    (Cert.ReferenceIdeal.RefRun.run_raw (F := Ideal) m ρ)

end Cert.Proof.RefFrame

end
-- ==== Proof.KHead.lean ====
/-
  The kernel program's first two host stretches, read at the buffers the bridge needs: the second stretch (the zero
  padding of the transposed embedding rows) writes neither the edge buffers nor an argument, and the first writes no
  argument; so at the first layer's entry the edge sources, targets and norm are what the first stretch computed, and
  every argument array is as launched.
-/
import proofs.«143139_j73710228734964_1_alg».proof.Proof.KernelIdealFrameP

noncomputable section

namespace Cert.KernelIdeal.Head

open Cert.KernelIdeal Cert.KernelIdeal.Gen Cert.KernelIdeal.GenP
open Idealize.ShloMosaic Idealize.ShloMosaic.TcCoe

variable {F : FTy → Type} [FloatOps F]
variable (m : (ℓ : Loc nD τ sig) → Buf (Elt F) ℓ) (ρ : Dev nD → PrngReg) (c : Dev nD)

theorem W2_main_v3 : W2 m ρ c (Proc.devRef .tc main_v3) = W1 m ρ c (Proc.devRef .tc main_v3) :=
  StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_main_v6 : W2 m ρ c (Proc.devRef .tc main_v6) = W1 m ρ c (Proc.devRef .tc main_v6) :=
  StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_main_v26 : W2 m ρ c (Proc.devRef .tc main_v26) = W1 m ρ c (Proc.devRef .tc main_v26) :=
  StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_main_v33 : W2 m ρ c (Proc.devRef .tc main_v33) = W1 m ρ c (Proc.devRef .tc main_v33) :=
  StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_main_v34 : W2 m ρ c (Proc.devRef .tc main_v34) = W1 m ρ c (Proc.devRef .tc main_v34) :=
  StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_main_arg0_W0 : W2 m ρ c (Proc.devRef .tc main_arg0) = W0 m ρ c (Proc.devRef .tc main_arg0) :=
  calc W2 m ρ c (Proc.devRef .tc main_arg0)
    _ = W1 m ρ c (Proc.devRef .tc main_arg0) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg0) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_main_arg0 : W2 m ρ c (Proc.devRef .tc main_arg0) = m ((c : Thread nD τ).loc main_arg0) := W2_main_arg0_W0 m ρ c
theorem W2_main_arg1_W0 : W2 m ρ c (Proc.devRef .tc main_arg1) = W0 m ρ c (Proc.devRef .tc main_arg1) :=
  calc W2 m ρ c (Proc.devRef .tc main_arg1)
    _ = W1 m ρ c (Proc.devRef .tc main_arg1) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg1) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_main_arg1 : W2 m ρ c (Proc.devRef .tc main_arg1) = m ((c : Thread nD τ).loc main_arg1) := W2_main_arg1_W0 m ρ c
theorem W2_main_arg2_W0 : W2 m ρ c (Proc.devRef .tc main_arg2) = W0 m ρ c (Proc.devRef .tc main_arg2) :=
  calc W2 m ρ c (Proc.devRef .tc main_arg2)
    _ = W1 m ρ c (Proc.devRef .tc main_arg2) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg2) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_main_arg2 : W2 m ρ c (Proc.devRef .tc main_arg2) = m ((c : Thread nD τ).loc main_arg2) := W2_main_arg2_W0 m ρ c
theorem W2_main_arg3_W0 : W2 m ρ c (Proc.devRef .tc main_arg3) = W0 m ρ c (Proc.devRef .tc main_arg3) :=
  calc W2 m ρ c (Proc.devRef .tc main_arg3)
    _ = W1 m ρ c (Proc.devRef .tc main_arg3) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_main_arg3 : W2 m ρ c (Proc.devRef .tc main_arg3) = m ((c : Thread nD τ).loc main_arg3) := W2_main_arg3_W0 m ρ c
theorem W2_main_arg4_W0 : W2 m ρ c (Proc.devRef .tc main_arg4) = W0 m ρ c (Proc.devRef .tc main_arg4) :=
  calc W2 m ρ c (Proc.devRef .tc main_arg4)
    _ = W1 m ρ c (Proc.devRef .tc main_arg4) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_main_arg4 : W2 m ρ c (Proc.devRef .tc main_arg4) = m ((c : Thread nD τ).loc main_arg4) := W2_main_arg4_W0 m ρ c
theorem W2_main_arg5_W0 : W2 m ρ c (Proc.devRef .tc main_arg5) = W0 m ρ c (Proc.devRef .tc main_arg5) :=
  calc W2 m ρ c (Proc.devRef .tc main_arg5)
    _ = W1 m ρ c (Proc.devRef .tc main_arg5) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg5) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_main_arg5 : W2 m ρ c (Proc.devRef .tc main_arg5) = m ((c : Thread nD τ).loc main_arg5) := W2_main_arg5_W0 m ρ c
theorem W2_main_arg6_W0 : W2 m ρ c (Proc.devRef .tc main_arg6) = W0 m ρ c (Proc.devRef .tc main_arg6) :=
  calc W2 m ρ c (Proc.devRef .tc main_arg6)
    _ = W1 m ρ c (Proc.devRef .tc main_arg6) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg6) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_main_arg6 : W2 m ρ c (Proc.devRef .tc main_arg6) = m ((c : Thread nD τ).loc main_arg6) := W2_main_arg6_W0 m ρ c
theorem W2_main_arg7_W0 : W2 m ρ c (Proc.devRef .tc main_arg7) = W0 m ρ c (Proc.devRef .tc main_arg7) :=
  calc W2 m ρ c (Proc.devRef .tc main_arg7)
    _ = W1 m ρ c (Proc.devRef .tc main_arg7) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg7) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_main_arg7 : W2 m ρ c (Proc.devRef .tc main_arg7) = m ((c : Thread nD τ).loc main_arg7) := W2_main_arg7_W0 m ρ c
theorem W2_main_arg8_W0 : W2 m ρ c (Proc.devRef .tc main_arg8) = W0 m ρ c (Proc.devRef .tc main_arg8) :=
  calc W2 m ρ c (Proc.devRef .tc main_arg8)
    _ = W1 m ρ c (Proc.devRef .tc main_arg8) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg8) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_main_arg8 : W2 m ρ c (Proc.devRef .tc main_arg8) = m ((c : Thread nD τ).loc main_arg8) := W2_main_arg8_W0 m ρ c
theorem W2_main_arg9_W0 : W2 m ρ c (Proc.devRef .tc main_arg9) = W0 m ρ c (Proc.devRef .tc main_arg9) :=
  calc W2 m ρ c (Proc.devRef .tc main_arg9)
    _ = W1 m ρ c (Proc.devRef .tc main_arg9) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg9) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_main_arg9 : W2 m ρ c (Proc.devRef .tc main_arg9) = m ((c : Thread nD τ).loc main_arg9) := W2_main_arg9_W0 m ρ c
theorem W2_main_arg10_W0 : W2 m ρ c (Proc.devRef .tc main_arg10) = W0 m ρ c (Proc.devRef .tc main_arg10) :=
  calc W2 m ρ c (Proc.devRef .tc main_arg10)
    _ = W1 m ρ c (Proc.devRef .tc main_arg10) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg10) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_main_arg10 : W2 m ρ c (Proc.devRef .tc main_arg10) = m ((c : Thread nD τ).loc main_arg10) := W2_main_arg10_W0 m ρ c
theorem W2_main_arg11_W0 : W2 m ρ c (Proc.devRef .tc main_arg11) = W0 m ρ c (Proc.devRef .tc main_arg11) :=
  calc W2 m ρ c (Proc.devRef .tc main_arg11)
    _ = W1 m ρ c (Proc.devRef .tc main_arg11) := StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg11) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_main_arg11 : W2 m ρ c (Proc.devRef .tc main_arg11) = m ((c : Thread nD τ).loc main_arg11) := W2_main_arg11_W0 m ρ c

end Cert.KernelIdeal.Head

end
-- ==== Proof.Spec.lean ====
/-
  The mathematics of one GCN layer, free of any program: closed forms, index by index over the extended
  reals, of what the reference computes on a node-major array `h : [N, 8]` and of what the kernel computes on
  the channel-major, zero-padded array `H : [8, NP]` (N = 500000 nodes, NP = 8 · 65536 = 524288 columns),
  and the statement that joins them: if `H` is the padded transpose of `h` and every entry of `h` and of the
  layer's parameters is a real number, the kernel's layer is the padded transpose of the reference's, whose
  entries are real again.
  The edge aggregation (gather the rows at the edge sources, scale by the edge norm, scatter-add at the edge
  targets) is the same chain of host operations in both programs: here it is an abstract function `A` on
  node-major arrays, of which only one thing is used: real entries in, real entries out.
  The two batch-norm variances differ in form: the reference's is the mean of the squared deviations, the
  kernel's the mean of the squares minus the squared mean; they are one real number when every entry is real.
-/
import Idealize.ShloMosaic.PureOps.Ideal
import Idealize.ShloMosaic.Lib.ValueIdx

noncomputable section

namespace Cert.GCN

open Idealize.ShloMosaic
open scoped BigOperators

/-- The number of nodes, and the padded number of columns (8 tiles of 65536 lanes). -/
abbrev NN : ℕ := 500000
abbrev NP : ℕ := 524288

/-- A node-major array `[N, 8]`, a channel-major padded array `[8, NP]`, a channel vector, a channel matrix. -/
abbrev ArrNC := Fin NN → Fin 8 → EReal
abbrev ArrCP := Fin 8 → Fin NP → EReal
abbrev Vec8 := Fin 8 → EReal
abbrev Mat8 := Fin 8 → Fin 8 → EReal

/-- An extended real that is a real number. -/
def IsReal (x : EReal) : Prop := x ≠ ⊤ ∧ x ≠ ⊥
def RealNC (h : ArrNC) : Prop := ∀ n c, IsReal (h n c)
def RealV (g : Vec8) : Prop := ∀ c, IsReal (g c)
def RealM (w : Mat8) : Prop := ∀ a b, IsReal (w a b)

/-- The number of nodes as an extended real (the f32 word 0x48F42400 denotes it), and the batch norm's epsilon
    (the f32 word nearest 1e-5, kept as its word: both programs carry the same word). -/
def nN : EReal := ((500000 : ℝ) : EReal)
def eps : EReal := Ideal.ofBits .f32 0x3727C5AC#32

/-- The channel-major, zero-padded layout of a node-major array: column `n` of row `c` is node `n`'s channel `c`,
    and zero past the last node. -/
def padT (h : ArrNC) : ArrCP := fun c n => if hn : n.val < NN then h ⟨n.val, hn⟩ c else 0

/-- The first `N` columns of a channel-major array, node-major. -/
def unpadT (H : ArrCP) : ArrNC := fun n c => H c ⟨n.val, Nat.lt_trans n.isLt (by decide)⟩

/-! ## The reference's layer on `h : [N, 8]` -/

/-- Batch mean per channel. -/
def meanR (h : ArrNC) : Vec8 := fun c => Ideal.div (∑ n : Fin NN, h n c) nN
/-- Batch variance per channel: the mean of the squared deviations from the mean. -/
def varR (h : ArrNC) : Vec8 := fun c =>
  Ideal.div (∑ n : Fin NN, (h n c - meanR h c) * (h n c - meanR h c)) nN
/-- Batch norm with scale `γ` and shift `β`. -/
def hbR (h : ArrNC) (γ β : Vec8) : ArrNC := fun n c =>
  (h n c - meanR h c) * Ideal.rsqrt (varR h c + eps) * γ c + β c
/-- The linear map `hb · w` (rows times the `[in, out]` matrix `w`). -/
def hwR (h : ArrNC) (γ β : Vec8) (w : Mat8) : ArrNC := fun n co => ∑ ci : Fin 8, hbR h γ β n ci * w ci co
/-- The layer: residual, aggregated messages plus bias, relu. -/
def layerR (A : ArrNC → ArrNC) (h : ArrNC) (γ β : Vec8) (w : Mat8) (b : Vec8) : ArrNC := fun n c =>
  max (h n c + (A (hwR h γ β w) n c + b c)) 0

/-! ## The kernel's layer on `H : [8, NP]` -/

/-- Column `65536 · t + l`: lane `l` of tile `t`. -/
def col (t : Fin 8) (l : Fin 65536) : Fin NP := ⟨65536 * t.val + l.val, by have := t.isLt; have := l.isLt; show 65536 * t.val + l.val < 524288; omega⟩
/-- Row sums and row sums of squares, accumulated tile by tile. -/
def sumK (H : ArrCP) : Vec8 := fun c => ∑ t : Fin 8, ∑ l : Fin 65536, H c (col t l)
def ssqK (H : ArrCP) : Vec8 := fun c => ∑ t : Fin 8, ∑ l : Fin 65536, H c (col t l) * H c (col t l)
def meanK (H : ArrCP) : Vec8 := fun c => Ideal.div (sumK H c) nN
/-- The mean of the squares minus the squared mean. -/
def varK (H : ArrCP) : Vec8 := fun c => Ideal.div (ssqK H c) nN - meanK H c * meanK H c
def hbK (H : ArrCP) (γ β : Vec8) : ArrCP := fun c n =>
  (H c n - meanK H c) * Ideal.rsqrt (varK H c + eps) * γ c + β c
/-- The linear map `wT · hb` (the `[out, in]` matrix `wT` times columns). -/
def hwK (H : ArrCP) (γ β : Vec8) (wT : Mat8) : ArrCP := fun co n => ∑ ci : Fin 8, wT co ci * hbK H γ β ci n
/-- One on the columns of real nodes, zero on the padding. -/
def maskK (n : Fin NP) : EReal := if n.val < NN then 1 else 0
/-- The layer: the linear map's first `N` columns go node-major through the aggregation and come back padded;
    residual, bias, relu, and the padding masked to zero. -/
def layerK (A : ArrNC → ArrNC) (H : ArrCP) (γ β : Vec8) (wT : Mat8) (b : Vec8) : ArrCP := fun c n =>
  max (H c n + padT (A (unpadT (hwK H γ β wT))) c n + b c) 0 * maskK n

/-! ## The statements that join them (proved in Proof/LayerMath.lean) -/

end Cert.GCN

end
-- ==== Proof.Conv.lean ====
/-
  Curried views of shaped arrays: an array over a rank-2 index type read as a function of its two coordinates,
  and back. The programs' arrays are functions of `Shape.Idx`; the layer's mathematics (Proof/Spec.lean) is
  written over plain coordinates.
-/
import proofs.«143139_j73710228734964_1_alg».proof.Proof.Spec
import Idealize.ShloMosaic.Lib.ValueIdx

noncomputable section

namespace Cert.GCN

open Idealize.ShloMosaic Idealize.ShloMosaic.ValueIdx

/-- `[8, NP]` channel-major. -/
def toCP (x : (⟨2, ![8, 524288]⟩ : Shape).Idx → EReal) : ArrCP := fun c n => x (ix2 c n)
def ofCP (H : ArrCP) : (⟨2, ![8, 524288]⟩ : Shape).Idx → EReal := fun j => H (j 0) (j 1)
/-- `[N, 8]` node-major. -/
def toNC (x : (⟨2, ![500000, 8]⟩ : Shape).Idx → EReal) : ArrNC := fun n c => x (ix2 n c)
def ofNC (h : ArrNC) : (⟨2, ![500000, 8]⟩ : Shape).Idx → EReal := fun j => h (j 0) (j 1)
/-- `[8, 1]` column, `[8]` vector, `[8, 8]` matrix. -/
def toV81 (x : (⟨2, ![8, 1]⟩ : Shape).Idx → EReal) : Vec8 := fun c => x (ix2 c 0)
def toV8 (x : (⟨1, ![8]⟩ : Shape).Idx → EReal) : Vec8 := fun c => x (ix1 c)
def toM8 (x : (⟨2, ![8, 8]⟩ : Shape).Idx → EReal) : Mat8 := fun a b => x (ix2 a b)

theorem toCP_ofCP (H : ArrCP) : toCP (ofCP H) = H := rfl
theorem ofCP_toCP (x : (⟨2, ![8, 524288]⟩ : Shape).Idx → EReal) : ofCP (toCP x) = x :=
  funext fun j => congrArg x (eq_ix2 j).symm
theorem toNC_ofNC (h : ArrNC) : toNC (ofNC h) = h := rfl
theorem ofNC_toNC (x : (⟨2, ![500000, 8]⟩ : Shape).Idx → EReal) : ofNC (toNC x) = x :=
  funext fun j => congrArg x (eq_ix2 j).symm
theorem toCP_apply (x : (⟨2, ![8, 524288]⟩ : Shape).Idx → EReal) (j : (⟨2, ![8, 524288]⟩ : Shape).Idx) :
    x j = toCP x (j 0) (j 1) := congrArg x (eq_ix2 j)
theorem toNC_apply (x : (⟨2, ![500000, 8]⟩ : Shape).Idx → EReal) (j : (⟨2, ![500000, 8]⟩ : Shape).Idx) :
    x j = toNC x (j 0) (j 1) := congrArg x (eq_ix2 j)

end Cert.GCN

end
-- ==== Proof.KHost2.lean ====
/-
  The kernel program's host operations between a layer's transform region and its residual region, read at an
  index over the extended reals, from any contents of the buffers they start from.
  Two layout facts carry everything. The first `N` columns of a channel-major array `[8, NP]`, transposed, are its
  node-major reading `[N, 8]`: entry `(n, c)` is entry `(c, n)`. A node-major array transposed and padded with zeros
  to `NP` columns is its channel-major padded layout: entry `(c, n)` is entry `(n, c)` below the last node and zero
  past it (the pad value is the integer zero converted to a float, which is zero).
  The operations slice and transpose the transform's output, aggregate it over the edges (gather at the sources,
  scale by the norms, add up at the targets: one function `AGG` of the sources, the targets, the norms and the
  array, never opened), transpose and pad the result back, and cut the layer's row out of the bias matrix as a
  column. Every buffer these operations do not write keeps its contents.
-/
import proofs.«143139_j73710228734964_1_alg».proof.Proof.Gen.KernelIdeal.Launch
import proofs.«143139_j73710228734964_1_alg».proof.Proof.Spec
import proofs.«143139_j73710228734964_1_alg».proof.Proof.Conv
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host2

open Cert.KernelIdeal Cert.KernelIdeal.Gen Cert.GCN Idealize.ShloMosaic Idealize.ShloMosaic.ValueIdx

/-- The first `N` columns of a channel-major array, transposed, are its node-major reading: index `(n, c)` reads `(c, n)`. -/
theorem unpad_layout (X : S8x524288.Idx → EReal) (hs : S8x524288.Slices ![0, 0] S8x500000)
    (ht : S8x500000.Transposes [1, 0] S500000x8) :
    transpose S500000x8 [1, 0] (extractStridedSlice S8x500000 ![0, 0] X hs) ht = ofNC (unpadT (toCP X)) := by
  funext j
  obtain ⟨n, c, rfl⟩ : ∃ (n : Fin 500000) (c : Fin 8), j = ix2 n c := ⟨j 0, j 1, eq_ix2 j⟩
  rw [transpose_ix2_apply]
  refine (extractStridedSlice_apply _ X hs _ (ix2 c ⟨n.val, Nat.lt_trans n.isLt (by decide)⟩) fun a => ?_).trans ?_
  · match a with
    | ⟨0, _⟩ => simp
    | ⟨1, _⟩ => simp
  · rfl

/-- A node-major array transposed and zero-padded to `NP` columns is its channel-major padded layout: index `(c, n)`
    reads `(n, c)` below the last node and the pad value past it. -/
theorem pad_layout (Y : S500000x8.Idx → EReal) (z : S_.Idx → EReal) (hz : ∀ i, z i = 0)
    (ht : S500000x8.Transposes [1, 0] S8x500000)
    (hp : S8x500000.Pads (![0, 0] : Fin 2 → Nat) ![0, 24288] ![0, 0] S8x524288) (hu : 0 < S_.numel) :
    pad S8x524288 ![0, 0] ![0, 24288] ![0, 0] (transpose S8x500000 [1, 0] Y ht) z hp hu = ofCP (padT (toNC Y)) := by
  funext j
  obtain ⟨c, n, rfl⟩ : ∃ (c : Fin 8) (n : Fin 524288), j = ix2 c n := ⟨j 0, j 1, eq_ix2 j⟩
  show _ = (if hn : n.val < NN then Y (ix2 ⟨n.val, hn⟩ c) else 0)
  unfold pad
  by_cases hn : n.val < NN
  · have hcond : ∀ a : Fin S8x500000.rank, (![0, 0] : Fin 2 → Nat) a ≤ ((ix2 c n : S8x524288.Idx) (a.cast hp.1)).val
        ∧ (((ix2 c n : S8x524288.Idx) (a.cast hp.1)).val - (![0, 0] : Fin 2 → Nat) a) % ((![0, 0] : Fin 2 → Nat) a + 1) = 0
        ∧ (((ix2 c n : S8x524288.Idx) (a.cast hp.1)).val - (![0, 0] : Fin 2 → Nat) a) / ((![0, 0] : Fin 2 → Nat) a + 1) < S8x500000.size a := by
      intro a
      match a with
      | ⟨0, _⟩ =>
        show (0 : ℕ) ≤ c.val ∧ (c.val - 0) % (0 + 1) = 0 ∧ (c.val - 0) / (0 + 1) < 8
        have := c.isLt; omega
      | ⟨1, _⟩ =>
        show (0 : ℕ) ≤ n.val ∧ (n.val - 0) % (0 + 1) = 0 ∧ (n.val - 0) / (0 + 1) < 500000
        have : n.val < 500000 := hn
        omega
    rw [dif_pos hn, dif_pos hcond]
    refine transpose_apply _ Y ht _ (ix2 ⟨n.val, hn⟩ c) fun b => ?_
    match b with
    | ⟨0, _⟩ => show c.val = (c.val - 0) / (0 + 1); omega
    | ⟨1, _⟩ => show n.val = (n.val - 0) / (0 + 1); omega
  · rw [dif_neg hn, dif_neg ?_, hz]
    intro h
    have h1 := (h ⟨1, by decide⟩).2.2
    have h1' : (n.val - 0) / (0 + 1) < 500000 := h1
    exact hn (show n.val < 500000 by omega)

/-- The edge aggregation on a node-major array `hw`: gather the rows at the edge sources (a negative source index
    counted from the end), scale each by its edge's norm, and add them up at the edge targets, from zero. -/
def AGG (src dst : IVec S8500000 32) (norm : FVec Ideal S8500000 .f32) (hw : FVec Ideal S500000x8 .f32) :
    FVec Ideal S500000x8 .f32 :=
  Host.scatterAdd scatter_S500000x8_S8500000x1_S8500000x8_1_0_0_1
    (broadcastInDim S500000x8 ![] bcast_S_S500000x8 (constant (F := Ideal) S_ .f32 0x00000000#32))
    (broadcastInDim S8500000x1 ![0] bcast_S8500000_S8500000x1_0 dst)
    (mulf
      (Host.gather gather_S500000x8_S8500000x1_S8500000x8_1_0_n_n_0_1_18 hw
        (broadcastInDim S8500000x1 ![0] bcast_S8500000_S8500000x1_0
          (select (cmpi .slt src (broadcastInDim S8500000 ![] bcast_S_S8500000 (constantI S_ 32 0#32)))
            (addi src (broadcastInDim S8500000 ![] bcast_S_S8500000 (constantI S_ 32 500000#32)))
            src)))
      (broadcastInDim S8500000x8 ![0, 1] bcast_S8500000x1_S8500000x8_0_1
        (broadcastInDim S8500000x1 ![0] bcast_S8500000_S8500000x1_0 norm)))

/-- The scalar the padding calls pad with, the integer zero read as a float, is zero. -/
theorem pad_zero (i : S_.Idx) : sitofp (F := Ideal) .f32 (constantI S_ 32 0#32) i = 0 := by
  show (((BitVec.toInt (0#32 : BitVec 32) : ℤ) : ℝ) : EReal) = 0
  rw [show BitVec.toInt (0#32 : BitVec 32) = 0 from by decide]
  simp

set_option maxRecDepth 16384 in
/-- The padding call after the aggregation stretch: the padded buffer is the pad of the transposed buffer by the
    converted constant, whatever the valuation before the call. -/
theorem pad_call1 (V : Valuation τ sig (Elt Ideal)) :
    @Eq (S8x524288.Idx → EReal) (StableHlo.after (hostOps2_1 (F := Ideal)) V (Proc.devRef .tc main_v69))
      (pad S8x524288 ![0, 0] ![0, 24288] ![0, 0] (V (Proc.devRef .tc main_v68))
        (sitofp (F := Ideal) .f32 (V (Proc.devRef .tc main_c_12))) pads_S8x500000_S8x524288_000_0242880 h_S_) := by
  dsimp only [hostOps2_1]
  after_results
  rfl

set_option maxRecDepth 16384 in
set_option maxHeartbeats 1000000 in
/-- What the padded buffer holds after the aggregation stretch and its padding call, as the operations spell it. -/
theorem v69_eq (W : Valuation τ sig (Elt Ideal)) :
    @Eq (S8x524288.Idx → EReal)
      (StableHlo.after (hostOps2_1 (F := Ideal)) (StableHlo.after (hostOps2 (F := Ideal)) W) (Proc.devRef .tc main_v69))
      (pad S8x524288 ![0, 0] ![0, 24288] ![0, 0]
        (transpose S8x500000 [1, 0]
          (Host.scatterAdd scatter_S500000x8_S8500000x1_S8500000x8_1_0_0_1
            (broadcastInDim S500000x8 ![] bcast_S_S500000x8 (constant (F := Ideal) S_ .f32 0x00000000#32))
            (broadcastInDim S8500000x1 ![0] bcast_S8500000_S8500000x1_0 (W (Proc.devRef .tc main_v6)))
            (mulf
              (Host.gather gather_S500000x8_S8500000x1_S8500000x8_1_0_n_n_0_1_18
                (transpose S500000x8 [1, 0]
                  (extractStridedSlice S8x500000 ![0, 0] (W (Proc.devRef .tc main_v52)) slices_S8x524288_S8x500000_0_0)
                  transposes_S8x500000_S500000x8_1_0)
                (broadcastInDim S8500000x1 ![0] bcast_S8500000_S8500000x1_0
                  (select
                    (cmpi .slt (W (Proc.devRef .tc main_v3)) (broadcastInDim S8500000 ![] bcast_S_S8500000 (constantI S_ 32 0#32)))
                    (addi (W (Proc.devRef .tc main_v3)) (broadcastInDim S8500000 ![] bcast_S_S8500000 (constantI S_ 32 500000#32)))
                    (W (Proc.devRef .tc main_v3)))))
              (broadcastInDim S8500000x8 ![0, 1] bcast_S8500000x1_S8500000x8_0_1
                (broadcastInDim S8500000x1 ![0] bcast_S8500000_S8500000x1_0 (W (Proc.devRef .tc main_v26))))))
          transposes_S500000x8_S8x500000_1_0)
        (sitofp (F := Ideal) .f32 (constantI S_ 32 0#32)) pads_S8x500000_S8x524288_000_0242880 h_S_) := by
  rw [pad_call1]
  dsimp only [hostOps2]
  after_results

set_option maxRecDepth 16384 in
/-- After the aggregation stretch and its padding call, the padded buffer holds the channel-major padded layout of the
    aggregation of the node-major reading of the transform's output. -/
theorem agg2 (W : Valuation τ sig (Elt Ideal)) :
    toCP (StableHlo.after (hostOps2_1 (F := Ideal)) (StableHlo.after (hostOps2 (F := Ideal)) W) (Proc.devRef .tc main_v69))
      = padT (toNC (AGG (W (Proc.devRef .tc main_v3)) (W (Proc.devRef .tc main_v6)) (W (Proc.devRef .tc main_v26))
          (ofNC (unpadT (toCP (W (Proc.devRef .tc main_v52))))))) := by
  rw [v69_eq W]
  unfold AGG
  rw [unpad_layout, pad_layout _ _ pad_zero, toCP_ofCP]

set_option maxRecDepth 16384 in
/-- After the bias stretch, the bias column holds the layer's row of the bias matrix. -/
theorem bias2 (W : Valuation τ sig (Elt Ideal)) :
    toV81 (StableHlo.after (hostOps2_2 (F := Ideal)) W (Proc.devRef .tc main_v72))
      = fun c => toM8 (W (Proc.devRef .tc main_arg7)) (0 : Fin 8) c := by
  funext c
  unfold toV81 toM8
  dsimp only [hostOps2_2]
  after_results
  dsimp only
  -- a vector of 8 read as 8 rows of one entry, at row c, is its entry c
  refine (shapeCast_apply (s := S8) (t := S8x1) _ _ (ix2 c 0) (ix1 c) ?_).trans ?_
  · rw [Shape.rowMajor_val_two, Shape.rowMajor_val_one]
    show c.val = c.val * 1 + 0
    omega
  -- one row of 8 read as a vector, at c, is the row's entry c
  refine (shapeCast_1a_a_apply _ _ c).trans ?_
  -- the one-row slice at entry c is the matrix at the layer's row
  exact extractStridedSlice_apply _ _ _ _ (ix2 (0 : Fin 8) c) fun a => match a with
    | ⟨0, _⟩ => rfl
    | ⟨1, _⟩ => (Nat.zero_add _).symm

/-! ## What the stretches leave alone -/

/-- The references the aggregation stretch, its padding call, and the bias stretch write. -/
abbrev hostOps2_W : List (Ref sig .tc) :=
  [main_v53, main_v54, main_c_9, main_v55, main_v56, main_c_10, main_v57, main_v58, main_v59, main_v60, main_v61,
    main_v62, main_v63, main_v64, main_cst_11, main_v65, main_v66, main_v67, main_v68, main_c_12]
abbrev hostOps2_1_W : List (Ref sig .tc) := [main_call1_v0, main_v69]
abbrev hostOps2_2_W : List (Ref sig .tc) := [main_v70, main_v71, main_v72]

set_option maxRecDepth 16384 in
theorem hostOps2_writes : (hostOps2 (F := Ideal)).Forall fun op =>
    op.writes ⊆ (hostOps2_W.map (Proc.devRef (τ := τ) .tc)).toFinset := by
  simp only [hostOps2, List.Forall, StableHlo.nullary_writes, StableHlo.unary_writes, StableHlo.binary_writes,
    StableHlo.ternary_writes, Finset.singleton_subset_iff, List.mem_toFinset]
  refine ⟨?_, ?_, ?_, ?_, ?_, ?_, ?_, ?_, ?_, ?_, ?_, ?_, ?_, ?_, ?_, ?_, ?_, ?_, ?_, ?_⟩
  all_goals exact List.mem_map.mpr ⟨_, by decide, rfl⟩

set_option maxRecDepth 16384 in
theorem hostOps2_1_writes : (hostOps2_1 (F := Ideal)).Forall fun op =>
    op.writes ⊆ (hostOps2_1_W.map (Proc.devRef (τ := τ) .tc)).toFinset := by
  simp only [hostOps2_1, List.Forall, StableHlo.unary_writes, StableHlo.binary_writes,
    Finset.singleton_subset_iff, List.mem_toFinset]
  refine ⟨?_, ?_⟩
  all_goals exact List.mem_map.mpr ⟨_, by decide, rfl⟩

set_option maxRecDepth 16384 in
theorem hostOps2_2_writes : (hostOps2_2 (F := Ideal)).Forall fun op =>
    op.writes ⊆ (hostOps2_2_W.map (Proc.devRef (τ := τ) .tc)).toFinset := by
  simp only [hostOps2_2, List.Forall, StableHlo.unary_writes, StableHlo.reshape_writes,
    Finset.singleton_subset_iff, List.mem_toFinset]
  refine ⟨?_, ?_, ?_⟩
  all_goals exact List.mem_map.mpr ⟨_, by decide, rfl⟩

/-- A buffer none of the three stretches writes holds after them what it held before. -/
theorem kept2 (W : Valuation τ sig (Elt Ideal)) (r : Ref sig .tc)
    (h : r ∉ hostOps2_W) (h1 : r ∉ hostOps2_1_W) (h2 : r ∉ hostOps2_2_W) :
    StableHlo.after (hostOps2_2 (F := Ideal)) (StableHlo.after (hostOps2_1 (F := Ideal))
      (StableHlo.after (hostOps2 (F := Ideal)) W)) (Proc.devRef .tc r) = W (Proc.devRef .tc r) :=
  (StableHlo.after_of_writes_sub hostOps2_2 _ hostOps2_2_writes h2).trans <|
    (StableHlo.after_of_writes_sub hostOps2_1 _ hostOps2_1_writes h1).trans <|
      StableHlo.after_of_writes_sub hostOps2 _ hostOps2_writes h

/-- The same, stretch by stretch. -/
theorem kept_hostOps2 (W : Valuation τ sig (Elt Ideal)) (r : Ref sig .tc) (h : r ∉ hostOps2_W) :
    StableHlo.after (hostOps2 (F := Ideal)) W (Proc.devRef .tc r) = W (Proc.devRef .tc r) :=
  StableHlo.after_of_writes_sub hostOps2 _ hostOps2_writes h
theorem kept_hostOps2_1 (W : Valuation τ sig (Elt Ideal)) (r : Ref sig .tc) (h : r ∉ hostOps2_1_W) :
    StableHlo.after (hostOps2_1 (F := Ideal)) W (Proc.devRef .tc r) = W (Proc.devRef .tc r) :=
  StableHlo.after_of_writes_sub hostOps2_1 _ hostOps2_1_writes h
theorem kept_hostOps2_2 (W : Valuation τ sig (Elt Ideal)) (r : Ref sig .tc) (h : r ∉ hostOps2_2_W) :
    StableHlo.after (hostOps2_2 (F := Ideal)) W (Proc.devRef .tc r) = W (Proc.devRef .tc r) :=
  StableHlo.after_of_writes_sub hostOps2_2 _ hostOps2_2_writes h

end Cert.KernelIdeal.Host2

end
-- ==== Proof.KInit.lean ====
/-
  The kernel program's host operations before the first layer, read at an index over the extended reals, from any
  contents of the buffers they start from: the gathered embedding rows, a node-major array `[N, 8]`, are transposed
  and padded with zeros to `NP` columns, which is their channel-major padded layout. Every buffer the padding call
  does not write keeps its contents.
-/
import proofs.«143139_j73710228734964_1_alg».proof.Proof.KHost2

noncomputable section

namespace Cert.KernelIdeal.Init

open Cert.KernelIdeal Cert.KernelIdeal.Gen Cert.GCN Cert.KernelIdeal.Host2 Idealize.ShloMosaic Idealize.ShloMosaic.ValueIdx

set_option maxRecDepth 16384 in
/-- The padding call after the embedding stretch: the padded buffer is the pad of the transposed buffer by the
    converted constant, whatever the valuation before the call. -/
theorem pad_call0 (V : Valuation τ sig (Elt Ideal)) :
    @Eq (S8x524288.Idx → EReal) (StableHlo.after (hostOps0_1 (F := Ideal)) V (Proc.devRef .tc main_v35))
      (pad S8x524288 ![0, 0] ![0, 24288] ![0, 0] (V (Proc.devRef .tc main_v34))
        (sitofp (F := Ideal) .f32 (V (Proc.devRef .tc main_c_6))) pads_S8x500000_S8x524288_000_0242880 h_S_) := by
  dsimp only [hostOps0_1]
  after_results
  rfl

set_option maxRecDepth 16384 in
set_option maxHeartbeats 1000000 in
/-- The embedding stretch ends with the transpose of the gathered rows and the integer zero: what its last two
    operations leave, in terms of what the stretch leaves at the gathered rows. -/
theorem tail0 (W : Valuation τ sig (Elt Ideal)) :
    @Eq (S8x500000.Idx → EReal) (StableHlo.after (hostOps0 (F := Ideal)) W (Proc.devRef .tc main_v34))
        (transpose S8x500000 [1, 0] (StableHlo.after (hostOps0 (F := Ideal)) W (Proc.devRef .tc main_v33))
          transposes_S500000x8_S8x500000_1_0)
      ∧ @Eq (S_.Idx → BitVec 32) (StableHlo.after (hostOps0 (F := Ideal)) W (Proc.devRef .tc main_c_6)) (constantI S_ 32 0#32) := by
  rw [← List.take_append_drop 42 (hostOps0 (F := Ideal)), StableHlo.after_append]
  generalize StableHlo.after (List.take 42 (hostOps0 (F := Ideal))) W = V
  simp only [hostOps0, List.drop_succ_cons, List.drop_zero]
  constructor
  · after_results
  · after_results

/-- After the embedding stretch and its padding call, the padded buffer holds the channel-major padded layout of the
    gathered embedding rows. -/
theorem init0 (W : Valuation τ sig (Elt Ideal)) :
    toCP (StableHlo.after (hostOps0_1 (F := Ideal)) (StableHlo.after (hostOps0 (F := Ideal)) W) (Proc.devRef .tc main_v35))
      = padT (toNC (StableHlo.after (hostOps0 (F := Ideal)) W (Proc.devRef .tc main_v33))) := by
  rw [pad_call0, (tail0 W).1, (tail0 W).2, pad_layout _ _ pad_zero, toCP_ofCP]

/-! ## What the padding call leaves alone -/

/-- The references the embedding stretch's padding call writes. -/
abbrev hostOps0_1_W : List (Ref sig .tc) := [main_call0_v0, main_v35]

set_option maxRecDepth 16384 in
theorem hostOps0_1_writes : (hostOps0_1 (F := Ideal)).Forall fun op =>
    op.writes ⊆ (hostOps0_1_W.map (Proc.devRef (τ := τ) .tc)).toFinset := by
  simp only [hostOps0_1, List.Forall, StableHlo.unary_writes, StableHlo.binary_writes,
    Finset.singleton_subset_iff, List.mem_toFinset]
  refine ⟨?_, ?_⟩
  all_goals exact List.mem_map.mpr ⟨_, by decide, rfl⟩

/-- A buffer the padding call does not write holds after it what it held before. -/
theorem kept_hostOps0_1 (W : Valuation τ sig (Elt Ideal)) (r : Ref sig .tc) (h : r ∉ hostOps0_1_W) :
    StableHlo.after (hostOps0_1 (F := Ideal)) W (Proc.devRef .tc r) = W (Proc.devRef .tc r) :=
  StableHlo.after_of_writes_sub hostOps0_1 _ hostOps0_1_writes h

end Cert.KernelIdeal.Init

end
-- ==== Proof.KStats0.lean ====
/-
  The value of region 0, the stats kernel of the first layer: over the eight grid points the two `[8, 1]` outputs
  accumulate, per row of the `[8, 524288]` input, the sum and the sum of squares of its eight tiles of 65536
  lanes; the arrays they are written back to end holding the row sums and the row sums of squares.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val0

open Cert.KernelIdeal Cert.KernelIdeal.Gen Cert.KernelIdeal.GenP Cert.GCN
open Idealize.ShloMosaic Idealize.ShloMosaic.TcCoe Idealize.ShloMosaic.ValueIdx Idealize.ShloMosaic.Tactic
open Idealize.SL.Sem
open Idealize.ShloMosaic.Pipeline (Dat)
open scoped BigOperators

/-! ## The body's arithmetic at an index -/

/-- An `[a]` vector cast to an `[a, 1]` column reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row `r` of the reduced `[8]` vector with lane `k` put back is `(r, k)`. -/
theorem lane_lift (h : S8x65536.Reduces [1] S8) (r : Fin 8) (k : Fin (S8x65536.size 1)) :
    h.lift (ix1 r) k = ix2 r (⟨k.val, k.isLt⟩ : Fin 65536) := by
  funext c; apply Fin.ext
  fin_cases c <;> rfl

/-- The lane sum of an `[8, 65536]` block, at row `r`. -/
theorem laneSum_apply (x : FVec Ideal S8x65536 .f32) (h : S8x65536.Reduces [1] S8) (hφ : FKind.Formats .f32)
    (hacc : (0x00000000#32 : BitVec 32) = FKind.add.neutral .f32 hφ) (r : Fin 8) :
    multiReduction .add [1] S8 x 0x00000000#32 h hφ hacc (ix1 r) = ∑ l : Fin 65536, x (ix2 r l) :=
  (Ideal.multiReduction_add_single x 0x00000000#32 h hφ hacc (ix1 r)).trans
    (Finset.sum_congr rfl fun k _ => congrArg x (lane_lift h r k))

/-- The running row sum: what the buffer held plus the block's lane sum. -/
theorem pay4_apply (x : Vec Ideal S8x65536 .f32) (xo : Vec Ideal S8x1 .f32) (r : Fin 8) :
    k0_pay4 (F := Ideal) x xo (ix2 r 0) = xo (ix2 r 0) + ∑ l : Fin 65536, x (ix2 r l) := by
  unfold k0_pay4 k0_pay3
  dsimp only
  rw [addf_apply, shapeCast_self, shapeCast_self, shapeCast_a_a1_apply]
  exact congrArg (xo (ix2 r 0) + ·) (laneSum_apply x _ _ _ r)

/-- The running row sum of squares. -/
theorem pay5_apply (x : Vec Ideal S8x65536 .f32) (xo : Vec Ideal S8x1 .f32) (r : Fin 8) :
    k0_pay5 (F := Ideal) x xo (ix2 r 0) = xo (ix2 r 0) + ∑ l : Fin 65536, x (ix2 r l) * x (ix2 r l) := by
  unfold k0_pay5 k0_pay3
  dsimp only
  rw [addf_apply, shapeCast_self, shapeCast_self, shapeCast_a_a1_apply]
  exact congrArg (xo (ix2 r 0) + ·) (laneSum_apply (mulf x x) _ _ _ r)

/-- The reset value is zero. -/
theorem pay1_apply (j : S8x1.Idx) : k0_pay1 (F := Ideal) j = 0 := Ideal.ofBits_zero_f32
theorem pay2_apply (j : S8x1.Idx) : k0_pay2 (F := Ideal) j = 0 := Ideal.ofBits_zero_f32

/-! ## The input block at a point -/

variable {F : FTy → Type} [FloatOps F]
variable (V : (c : Dev nD) → (b : Ref sig .tc) → Buf (Elt F) ((c : Thread nD τ).loc b))

/-- The input array as the region finds it, and its block at a point, over their literal shapes. -/
abbrev harr (c : Dev nD) : Vec F S8x524288 .f32 := V c (Pipeline.arrRef spec0 0)
abbrev hblk (c : Dev nD) (t : Fin cfg0.N) : Vec F S8x65536 .f32 := iblk0 V c 0 t

/-- The input window's block index at point `t`: row block 0, column block `t`. -/
theorem idx_in : ∀ t : Fin cfg0.N, win0_0.index t 0 = 0 ∧ win0_0.index t 1 = t.val :=
  (by decide +kernel : ∀ t : Fin grid0.N, win0_0.index t 0 = 0 ∧ win0_0.index t 1 = t.val)

/-- The input window's block at point `t` is columns `65536 t … 65536 t + 65535` of the array. -/
theorem blk_read (c : Dev nD) (t : Fin cfg0.N) (t' : Fin 8) (ht : t'.val = t.val) (r : Fin 8) (l : Fin 65536) :
    hblk V c t (ix2 r l) = harr V c (ix2 r (col t' l)) := by
  have hi := idx_in t
  unfold hblk iblk0
  rw [View.read_apply]
  show V c (Pipeline.arrRef spec0 0) _ = V c (Pipeline.arrRef spec0 0) _
  congr 1
  funext a
  apply Fin.ext
  match a with
  | ⟨0, _⟩ => show win0_0.index t 0 * 8 + 1 * r.val = r.val; rw [hi.1]; omega
  | ⟨1, _⟩ => show win0_0.index t 1 * 65536 + 1 * l.val = 65536 * t'.val + l.val; rw [hi.2, ht]; omega

/-! ## What each case of the body leaves in the outputs -/

theorem hz : (![0, 0] : Fin 2 → Nat) = fun _ => 0 := funext fun a => by fin_cases a <;> rfl

/-- At a later point output 1 is left at what it held plus the block's lane sums. -/
theorem out_B_1 (c : Dev nD) (i : grid0.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : ¬cond0_0 i) (x : Vec F S8x65536 .f32) (xo1 xo2 : Vec F S8x1 .f32) :
    out0_B_1 c i a1 h1 a2 h2 a3 h3 hc x xo1 xo2 = k0_pay4 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero hz]
  simp only [View.readAt_eq_ld, h1.read_unread, h2.read_unread, h3.read_unread, View.ld_unit_zero (S := S8x1) hz,
    View.ld_unit_zero (S := S8x65536) hz]

/-- At a later point output 2 is left at what it held plus the lane sums of the block's squares. -/
theorem out_B_2 (c : Dev nD) (i : grid0.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : ¬cond0_0 i) (x : Vec F S8x65536 .f32) (xo1 xo2 : Vec F S8x1 .f32) :
    out0_B_2 c i a1 h1 a2 h2 a3 h3 hc x xo1 xo2 = k0_pay5 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero hz]
  simp only [View.readAt_eq_ld, h1.read_unread, h2.read_unread, h3.read_unread, View.ld_unit_zero (S := S8x1) hz,
    View.ld_unit_zero (S := S8x65536) hz]

/-- At the first point output 1 is reset to zero, read back, and left at zero plus the block's lane sums. -/
theorem out_A_1 (c : Dev nD) (i : grid0.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : cond0_0 i) (x : Vec F S8x65536 .f32) :
    out0_A_1 c i a1 h1 a2 h2 a3 h3 hc x = k0_pay4 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S8x1) hz, View.readCov_unit_zero (S := S8x1) _ hz]
  simp only [View.readAt_eq_ld, h1.read_unread, View.ld_unit_zero (S := S8x65536) hz]

/-- At the first point output 2 is reset to zero, read back, and left at zero plus the lane sums of the block's squares. -/
theorem out_A_2 (c : Dev nD) (i : grid0.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : cond0_0 i) (x : Vec F S8x65536 .f32) :
    out0_A_2 c i a1 h1 a2 h2 a3 h3 hc x = k0_pay5 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S8x1) hz, View.readCov_unit_zero (S := S8x1) _ hz]
  simp only [View.readAt_eq_ld, h1.read_unread, View.ld_unit_zero (S := S8x65536) hz]

/-! ## The outputs after each point -/

/-- At the first point: the reset value plus the block's contribution. -/
theorem outsAt_A (c : Dev nD) (t : Fin cfg0.N) (h0 : t.val % 8 = 0) :
    outsAt0 V c t.val t.isLt
      = (k0_pay4 (hblk V c t) (k0_pay1 (F := F)), k0_pay5 (hblk V c t) (k0_pay2 (F := F))) := by
  rw [outsAt0_A V c t h0,
    out_A_1 c (grid0.coords t) (ms0_0 t) (hs0_0 t) (ms0_1 t) (hs0_1 t) (ms0_2 t) (hs0_2 t) ((hcond0_0 t).mpr h0) (iblk0 V c 0 t),
    out_A_2 c (grid0.coords t) (ms0_0 t) (hs0_0 t) (ms0_1 t) (hs0_1 t) (ms0_2 t) (hs0_2 t) ((hcond0_0 t).mpr h0) (iblk0 V c 0 t)]

/-- At a later point: what the point before left plus the block's contribution. -/
theorem outsAt_B (c : Dev nD) (t : Fin cfg0.N) (h0 : ¬t.val % 8 = 0) :
    outsAt0 V c t.val t.isLt
      = (k0_pay4 (hblk V c t) (outsAt0 V c (t.val - 1) (Nat.lt_of_le_of_lt (Nat.sub_le _ _) t.isLt)).1,
         k0_pay5 (hblk V c t) (outsAt0 V c (t.val - 1) (Nat.lt_of_le_of_lt (Nat.sub_le _ _) t.isLt)).2) := by
  rw [outsAt0_B V c t h0,
    out_B_1 c (grid0.coords t) (ms0_0 t) (hs0_0 t) (ms0_1 t) (hs0_1 t) (ms0_2 t) (hs0_2 t) (fun h => h0 ((hcond0_0 t).mp h)) (iblk0 V c 0 t)
      (outsAt0 V c (t.val - 1) (Nat.lt_of_le_of_lt (Nat.sub_le _ _) t.isLt)).1 (outsAt0 V c (t.val - 1) (Nat.lt_of_le_of_lt (Nat.sub_le _ _) t.isLt)).2,
    out_B_2 c (grid0.coords t) (ms0_0 t) (hs0_0 t) (ms0_1 t) (hs0_1 t) (ms0_2 t) (hs0_2 t) (fun h => h0 ((hcond0_0 t).mp h)) (iblk0 V c 0 t)
      (outsAt0 V c (t.val - 1) (Nat.lt_of_le_of_lt (Nat.sub_le _ _) t.isLt)).1 (outsAt0 V c (t.val - 1) (Nat.lt_of_le_of_lt (Nat.sub_le _ _) t.isLt)).2]

/-! ## The partial sums, over the extended reals -/

/-- Tile `s`'s contribution to row `r`'s sum and sum of squares (zero past the last tile). -/
def tileSum (H : ArrCP) (r : Fin 8) (s : ℕ) : EReal := if h : s < 8 then ∑ l : Fin 65536, H r (col ⟨s, h⟩ l) else 0
def tileSsq (H : ArrCP) (r : Fin 8) (s : ℕ) : EReal :=
  if h : s < 8 then ∑ l : Fin 65536, H r (col ⟨s, h⟩ l) * H r (col ⟨s, h⟩ l) else 0

section AtIdeal

variable (W : (c : Dev nD) → (b : Ref sig .tc) → Buf (Elt Ideal) ((c : Thread nD τ).loc b))

/-- The block at point `t` contributes tile `t`. -/
theorem blockSum (c : Dev nD) (t : Fin cfg0.N) (r : Fin 8) :
    ∑ l : Fin 65536, hblk W c t (ix2 r l) = tileSum (toCP (harr W c)) r t.val := by
  have h8 : t.val < 8 := lt_of_lt_of_eq t.isLt (show cfg0.N = 8 from N_0)
  unfold tileSum
  rw [dif_pos h8]
  exact Finset.sum_congr rfl fun l _ => blk_read W c t ⟨t.val, h8⟩ rfl r l

theorem blockSsq (c : Dev nD) (t : Fin cfg0.N) (r : Fin 8) :
    ∑ l : Fin 65536, hblk W c t (ix2 r l) * hblk W c t (ix2 r l) = tileSsq (toCP (harr W c)) r t.val := by
  have h8 : t.val < 8 := lt_of_lt_of_eq t.isLt (show cfg0.N = 8 from N_0)
  unfold tileSsq
  rw [dif_pos h8]
  exact Finset.sum_congr rfl fun l _ => by rw [blk_read W c t ⟨t.val, h8⟩ rfl r l]; rfl

/-- After point `n` row `r` of output 1 holds the sum of tiles `0 … n`, and of output 2 the sum of their squares. -/
theorem outsAt_eq (c : Dev nD) : ∀ (n : ℕ) (h : n < cfg0.N) (r : Fin 8),
    ((outsAt0 W c n h).1 : Vec Ideal S8x1 .f32) (ix2 r 0) = ∑ s ∈ Finset.range (n + 1), tileSum (toCP (harr W c)) r s
      ∧ ((outsAt0 W c n h).2 : Vec Ideal S8x1 .f32) (ix2 r 0) = ∑ s ∈ Finset.range (n + 1), tileSsq (toCP (harr W c)) r s
  | 0, h, r => by
    rw [outsAt_A W c ⟨0, h⟩ rfl]
    dsimp only
    rw [pay4_apply (hblk W c ⟨0, h⟩) (k0_pay1 (F := Ideal)) r, pay5_apply (hblk W c ⟨0, h⟩) (k0_pay2 (F := Ideal)) r,
      pay1_apply, pay2_apply, Finset.sum_range_one, Finset.sum_range_one, zero_add, zero_add]
    exact ⟨blockSum W c ⟨0, h⟩ r, blockSsq W c ⟨0, h⟩ r⟩
  | n + 1, h, r => by
    have hN : cfg0.N = 8 := N_0
    have hB : ¬(⟨n + 1, h⟩ : Fin cfg0.N).val % 8 = 0 := by dsimp only; omega
    obtain ⟨ih1, ih2⟩ := outsAt_eq c n (Nat.lt_of_succ_lt h) r
    rw [outsAt_B W c ⟨n + 1, h⟩ hB]
    dsimp only
    refine ⟨?_, ?_⟩
    · refine (pay4_apply (hblk W c ⟨n + 1, h⟩) (outsAt0 W c n (Nat.lt_of_succ_lt h)).1 r).trans ?_
      rw [ih1, Finset.sum_range_succ _ (n + 1), blockSum W c ⟨n + 1, h⟩ r]
    · refine (pay5_apply (hblk W c ⟨n + 1, h⟩) (outsAt0 W c n (Nat.lt_of_succ_lt h)).2 r).trans ?_
      rw [ih2, Finset.sum_range_succ _ (n + 1), blockSsq W c ⟨n + 1, h⟩ r]

end AtIdeal

/-! ## The arrays the outputs are written back to -/

/-- What the outputs hold after the last point, as contents of their arrays (the one block is the array). -/
abbrev last1 (c : Dev nD) : Buf (Elt F) ((c : Thread nD τ).loc main_v36_0) :=
  (outsAt0 V c t0_7.val t0_7.isLt).1
abbrev last2 (c : Dev nD) : Buf (Elt F) ((c : Thread nD τ).loc main_v36_1) :=
  (outsAt0 V c t0_7.val t0_7.isLt).2

/-- The one write-back of output 1, at the last point, writes it. -/
theorem flushed_eq1 (c : Dev nD) (t : Fin cfg0.N) (hf : (cfg0.win 1).flush t = true) :
    (dat0 V c).flushed 1 t = ((cfg0.win 1).blk t).view.read (Elt F) (last1 V c) := by
  have hN : cfg0.N = 8 := N_0
  have h7 : t.val = 7 := by have := (flush0_1 t).mp hf; have := t.isLt; omega
  obtain rfl : t = t0_7 := Fin.ext h7
  show (cfg0.win 1).cut (grid0.coords t0_7) ((dat0 V c).after 1 t0_7) = _
  rw [after0_1]
  have hz' : (fun a => win0_1.index t0_7 a * main_v36_0.ty.shape.size a) = fun _ => 0 := funext fun a => by fin_cases a <;> decide
  exact (Memref.read_access_unit_zero (Elt F) main_v36_0 hz' (fun a => by rw [congrFun hz' a]; simp) (last1 V c)).symm

theorem flushed_eq2 (c : Dev nD) (t : Fin cfg0.N) (hf : (cfg0.win 2).flush t = true) :
    (dat0 V c).flushed 2 t = ((cfg0.win 2).blk t).view.read (Elt F) (last2 V c) := by
  have hN : cfg0.N = 8 := N_0
  have h7 : t.val = 7 := by have := (flush0_2 t).mp hf; have := t.isLt; omega
  obtain rfl : t = t0_7 := Fin.ext h7
  show (cfg0.win 2).cut (grid0.coords t0_7) ((dat0 V c).after 2 t0_7) = _
  rw [after0_2]
  have hz' : (fun a => win0_2.index t0_7 a * main_v36_1.ty.shape.size a) = fun _ => 0 := funext fun a => by fin_cases a <;> decide
  exact (Memref.read_access_unit_zero (Elt F) main_v36_1 hz' (fun a => by rw [congrFun hz' a]; simp) (last2 V c)).symm

/-- So the arrays end holding what the outputs hold after the last point: its block covers them. -/
theorem final1 (c : Dev nD) : (dat0 V c).arrAt 1 cfg0.N = last1 V c :=
  (dat0 V c).arrAt_eq_of_cover 1 (last1 V c) (flushed_eq1 V c) fun i =>
    ⟨t0_7, (flush0_1 t0_7).mpr rfl, by
      show i ∈ ((View.whole main_v36_0).slice (win0_1.rect t0_7)).set
      rw [View.set_slice_whole, Rect.mem_set_unit]
      intro a
      have h0 : (i 0 : Nat) < 8 := (i 0).isLt
      have h1 : (i 1 : Nat) < 1 := (i 1).isLt
      match a with
      | ⟨0, _⟩ => show win0_1.index t0_7 0 * win0_1.size 0 ≤ (i 0 : Nat) ∧ (i 0 : Nat) < win0_1.index t0_7 0 * win0_1.size 0 + win0_1.xsize (grid0.coords t0_7) 0
                  rw [show win0_1.index t0_7 0 * win0_1.size 0 = 0 from by decide +kernel, show win0_1.xsize (grid0.coords t0_7) 0 = 8 from by decide +kernel]; omega
      | ⟨1, _⟩ => show win0_1.index t0_7 1 * win0_1.size 1 ≤ (i 1 : Nat) ∧ (i 1 : Nat) < win0_1.index t0_7 1 * win0_1.size 1 + win0_1.xsize (grid0.coords t0_7) 1
                  rw [show win0_1.index t0_7 1 * win0_1.size 1 = 0 from by decide +kernel, show win0_1.xsize (grid0.coords t0_7) 1 = 1 from by decide +kernel]; omega⟩

theorem final2 (c : Dev nD) : (dat0 V c).arrAt 2 cfg0.N = last2 V c :=
  (dat0 V c).arrAt_eq_of_cover 2 (last2 V c) (flushed_eq2 V c) fun i =>
    ⟨t0_7, (flush0_2 t0_7).mpr rfl, by
      show i ∈ ((View.whole main_v36_1).slice (win0_2.rect t0_7)).set
      rw [View.set_slice_whole, Rect.mem_set_unit]
      intro a
      have h0 : (i 0 : Nat) < 8 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 8 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

/-! ## The value of the region -/

/-- The eight tiles' contributions are the spec's sums. -/
theorem sum_tiles (H : ArrCP) (r : Fin 8) : ∑ s ∈ Finset.range (7 + 1), tileSum H r s = sumK H r := by
  unfold sumK
  rw [Finset.sum_range]
  exact Finset.sum_congr rfl fun t _ => by unfold tileSum; rw [dif_pos t.isLt]

theorem ssq_tiles (H : ArrCP) (r : Fin 8) : ∑ s ∈ Finset.range (7 + 1), tileSsq H r s = ssqK H r := by
  unfold ssqK
  rw [Finset.sum_range]
  exact Finset.sum_congr rfl fun t _ => by unfold tileSsq; rw [dif_pos t.isLt]

/-- Output 1's array ends holding the input's row sums. -/
theorem stats0_sum (W : (c : Dev nD) → (b : Ref sig .tc) → Buf (Elt Ideal) ((c : Thread nD τ).loc b)) (c : Dev nD) :
    toV81 ((dat0 (F := Ideal) W c).arrAt 1 cfg0.N) = sumK (toCP (W c (Pipeline.arrRef spec0 0))) := by
  rw [final1 W c]
  funext r
  exact ((outsAt_eq W c t0_7.val t0_7.isLt r).1).trans (sum_tiles _ r)

/-- Output 2's array ends holding the input's row sums of squares. -/
theorem stats0_ssq (W : (c : Dev nD) → (b : Ref sig .tc) → Buf (Elt Ideal) ((c : Thread nD τ).loc b)) (c : Dev nD) :
    toV81 ((dat0 (F := Ideal) W c).arrAt 2 cfg0.N) = ssqK (toCP (W c (Pipeline.arrRef spec0 0))) := by
  rw [final2 W c]
  funext r
  exact ((outsAt_eq W c t0_7.val t0_7.isLt r).2).trans (ssq_tiles _ r)

end Cert.KernelIdeal.Val0

end
-- ==== Proof.KHost1.lean ====
/-
  What the host operations between the statistics and the transform of a layer compute, read at an index, over
  the extended reals: the row sums divided by the number of nodes (the batch mean), the row sums of squares
  divided by the number of nodes minus the squared mean (the batch variance), the layer's row of the scales
  and of the shifts as columns, and the layer's weight matrix transposed. They hold from any contents the
  operations start from; a buffer none of them writes keeps its contents.
-/
import proofs.«143139_j73710228734964_1_alg».proof.Proof.Gen.KernelIdeal.Launch
import proofs.«143139_j73710228734964_1_alg».proof.Proof.Spec
import proofs.«143139_j73710228734964_1_alg».proof.Proof.Conv
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 2928

noncomputable section

namespace Cert.KernelIdeal.Host1

open Cert.KernelIdeal Cert.KernelIdeal.Gen Cert.GCN Idealize.ShloMosaic Idealize.ShloMosaic.ValueIdx

/-! ## The divisor -/

/-- The word `0x48F42400` denotes the number of nodes, 500000. -/
theorem ofBits_nN : Ideal.ofBits .f32 0x48F42400#32 = nN := by
  show Ideal.ieee 8 23 (0x48F42400#32 : BitVec 32) = ((500000 : ℝ) : EReal)
  simp [Ideal.ieee]
  rw [← EReal.coe_mul]
  norm_num

/-- The scalar constant 500000 broadcast to a column `[8, 1]`. -/
local notation "colN" =>
  (broadcastInDim S8x1 ![] bcast_S_S8x1 (constant (F := Ideal) S_ FTy.f32 0x48F42400#32) : S8x1.Idx → EReal)

/-- It reads 500000 at every index. -/
theorem colN_apply (j : S8x1.Idx) : colN j = nN := by
  rw [broadcastInDim_scalar_apply, constant_apply, ofBits_nN]

/-! ## The operations read at an index, over variables -/

/-- A column divided by the constant column, read at row `c`. -/
theorem divN_apply (x : S8x1.Idx → EReal) (c : Fin 8) :
    toV81 (Host.divf (F := Ideal) (φ := .f32) x colN) c = Ideal.div (toV81 x c) nN := by
  show Ideal.div (x (ix2 c 0)) (colN (ix2 c 0)) = _
  rw [colN_apply]
  rfl

/-- The quotient of `y` minus the squared quotient of `x`, read at row `c`. -/
theorem varN_apply (x y : S8x1.Idx → EReal) (c : Fin 8) :
    toV81 (subf (F := Ideal) (φ := .f32) (Host.divf (F := Ideal) (φ := .f32) y colN)
        (mulf (F := Ideal) (φ := .f32) (Host.divf (F := Ideal) (φ := .f32) x colN) (Host.divf (F := Ideal) (φ := .f32) x colN))) c
      = Ideal.div (toV81 y c) nN - Ideal.div (toV81 x c) nN * Ideal.div (toV81 x c) nN := by
  show Ideal.div (y (ix2 c 0)) (colN (ix2 c 0))
      - Ideal.div (x (ix2 c 0)) (colN (ix2 c 0)) * Ideal.div (x (ix2 c 0)) (colN (ix2 c 0)) = _
  rw [colN_apply]
  rfl

/-- A vector `[8]` cast to a column `[8, 1]` reads, at `(c, u)`, the vector at `c`. -/
theorem shapeCast_8_8x1_apply (x : S8.Idx → EReal) (h : S8.ShapeCasts S8x1) (c : Fin 8) (u : Fin 1) :
    shapeCast S8x1 x h (ix2 c u) = x (ix1 c) :=
  shapeCast_apply x h _ _ (by
    have hu : u.val = 0 := by omega
    rw [Shape.rowMajor_val_two, Shape.rowMajor_val_one]
    show c.val = c.val * 1 + u.val
    omega)

/-- Row `o` of a matrix `[8, 8]`, cut out as `[1, 8]`, cast to `[8]` and then to a column `[8, 1]`: its row `c` is the
    matrix at `(o, c)`. -/
theorem rowCol_apply (o : Nat) (x : S8x8.Idx → EReal) (h : S8x8.Slices ![o, 0] S1x8) (r : Fin 8) (hr : r.val = o) (c : Fin 8) :
    toV81 (shapeCast S8x1 (shapeCast S8 (extractStridedSlice S1x8 ![o, 0] x h) shapeCasts_S1x8_S8) shapeCasts_S8_S8x1) c
      = toM8 x r c := by
  show shapeCast S8x1 (shapeCast S8 (extractStridedSlice S1x8 ![o, 0] x h) shapeCasts_S1x8_S8) shapeCasts_S8_S8x1 (ix2 c 0)
      = x (ix2 r c)
  rw [shapeCast_8_8x1_apply, shapeCast_1a_a_apply]
  exact slice2_axis0_apply o x h 0 c r hr

/-- Matrix `o` of a stack `[8, 8, 8]`, cut out as `[1, 8, 8]`, cast to `[8, 8]` and transposed: its entry `(a, b)` is the
    stack at `(o, b, a)`. -/
theorem sliceT_apply (o : Nat) (x : S8x8x8.Idx → EReal) (h : S8x8x8.Slices ![o, 0, 0] S1x8x8) (r : Fin 8) (hr : r.val = o)
    (a b : Fin 8) :
    toM8 (transpose S8x8 [1, 0] (shapeCast S8x8 (extractStridedSlice S1x8x8 ![o, 0, 0] x h) shapeCasts_S1x8x8_S8x8)
        transposes_S8x8_S8x8_1_0) a b = x (ix3 r b a) := by
  show transpose S8x8 [1, 0] (shapeCast S8x8 (extractStridedSlice S1x8x8 ![o, 0, 0] x h) shapeCasts_S1x8x8_S8x8)
        transposes_S8x8_S8x8_1_0 (ix2 a b) = x (ix3 r b a)
  rw [transpose_ix2_apply, shapeCast_1ab_ab_apply]
  exact extractStridedSlice_apply _ _ _ _ _ (fun ax => by
    match ax with
    | ⟨0, _⟩ => exact hr
    | ⟨1, _⟩ => exact (Nat.zero_add _).symm
    | ⟨2, _⟩ => exact (Nat.zero_add _).symm)

/-! ## The stretch's results -/

section Results

variable (W : Valuation τ sig (Elt Ideal))

theorem after_main_v38 :
    (StableHlo.after (hostOps1 (F := Ideal)) W (Proc.devRef .tc main_v38) : S8x1.Idx → EReal)
      = Host.divf (F := Ideal) (φ := .f32) (W (Proc.devRef .tc main_v36_0)) colN := by
  after_results <;> rfl

theorem after_main_v42 :
    (StableHlo.after (hostOps1 (F := Ideal)) W (Proc.devRef .tc main_v42) : S8x1.Idx → EReal)
      = subf (F := Ideal) (φ := .f32) (Host.divf (F := Ideal) (φ := .f32) (W (Proc.devRef .tc main_v36_1)) colN)
          (mulf (F := Ideal) (φ := .f32) (Host.divf (F := Ideal) (φ := .f32) (W (Proc.devRef .tc main_v36_0)) colN)
            (Host.divf (F := Ideal) (φ := .f32) (W (Proc.devRef .tc main_v36_0)) colN)) := by
  after_results <;> rfl

/-- The batch mean's column: the row sums over the number of nodes. -/
theorem mean1 :
    toV81 (StableHlo.after (hostOps1 (F := Ideal)) W (Proc.devRef .tc main_v38))
      = fun c => Ideal.div (toV81 (W (Proc.devRef .tc main_v36_0)) c) nN := by
  funext c
  rw [after_main_v38]
  exact divN_apply _ c

/-- The batch variance's column: the mean of the squares minus the squared mean. -/
theorem var1 :
    toV81 (StableHlo.after (hostOps1 (F := Ideal)) W (Proc.devRef .tc main_v42))
      = fun c => Ideal.div (toV81 (W (Proc.devRef .tc main_v36_1)) c) nN
          - Ideal.div (toV81 (W (Proc.devRef .tc main_v36_0)) c) nN * Ideal.div (toV81 (W (Proc.devRef .tc main_v36_0)) c) nN := by
  funext c
  rw [after_main_v42]
  exact varN_apply _ _ c

/-- The scale's column: row 0 of the scales' matrix. -/
theorem gamma1 :
    toV81 (StableHlo.after (hostOps1 (F := Ideal)) W (Proc.devRef .tc main_v45))
      = fun c => toM8 (W (Proc.devRef .tc main_arg4)) (0 : Fin 8) c := by
  funext c
  after_results
  exact rowCol_apply _ _ _ (0 : Fin 8) rfl c

/-- The shift's column: row 0 of the shifts' matrix. -/
theorem beta1 :
    toV81 (StableHlo.after (hostOps1 (F := Ideal)) W (Proc.devRef .tc main_v48))
      = fun c => toM8 (W (Proc.devRef .tc main_arg5)) (0 : Fin 8) c := by
  funext c
  after_results
  exact rowCol_apply _ _ _ (0 : Fin 8) rfl c

/-- The weights: matrix 0 of the stack, transposed. -/
theorem wT1 :
    toM8 (StableHlo.after (hostOps1 (F := Ideal)) W (Proc.devRef .tc main_v51))
      = fun a b => (W (Proc.devRef .tc main_arg6) : S8x8x8.Idx → EReal) (ValueIdx.ix3 (0 : Fin 8) b a) := by
  funext a b
  after_results
  exact sliceT_apply _ _ _ (0 : Fin 8) rfl a b

/-- The buffers the stretch writes. -/
def writes1 : List (Ref sig .tc) :=
  [main_cst_7, main_v37, main_v38, main_cst_8, main_v39, main_v40, main_v41, main_v42, main_v43, main_v44, main_v45,
    main_v46, main_v47, main_v48, main_v49, main_v50, main_v51]

/-- A buffer the stretch does not write keeps its contents. -/
theorem kept1 {b : Ref sig .tc} (hb : b ∉ writes1) :
    StableHlo.after (hostOps1 (F := Ideal)) W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (fun e => hb (by rw [e]; decide))))

theorem kept1_main_v35 : StableHlo.after (hostOps1 (F := Ideal)) W (Proc.devRef .tc main_v35) = W (Proc.devRef .tc main_v35) :=
  kept1 W (by decide)
theorem kept1_main_v3 : StableHlo.after (hostOps1 (F := Ideal)) W (Proc.devRef .tc main_v3) = W (Proc.devRef .tc main_v3) :=
  kept1 W (by decide)
theorem kept1_main_v6 : StableHlo.after (hostOps1 (F := Ideal)) W (Proc.devRef .tc main_v6) = W (Proc.devRef .tc main_v6) :=
  kept1 W (by decide)
theorem kept1_main_v26 : StableHlo.after (hostOps1 (F := Ideal)) W (Proc.devRef .tc main_v26) = W (Proc.devRef .tc main_v26) :=
  kept1 W (by decide)
theorem kept1_main_arg7 : StableHlo.after (hostOps1 (F := Ideal)) W (Proc.devRef .tc main_arg7) = W (Proc.devRef .tc main_arg7) :=
  kept1 W (by decide)

end Results

end Cert.KernelIdeal.Host1

end
-- ==== Proof.KTransform1.lean ====
/-
  The value of the transform kernel of layer 0 (region 1 of the kernel program), at the ideal values and for any
  contents `V` of the buffers when the region is entered.

  The region walks the 8 column blocks of 65536 lanes of `H : [8, 524288]`. At block `t` it reads the block of `H`,
  the four columns `[8, 1]` (mean, variance, scale, shift) and the matrix `wT : [8, 8]` whole, and stores
    wT · ((x − mean) · rsqrt(var + eps) · scale + shift)
  into block `t` of the output: entry `(co, l)` of the stored block is the sum over the input channel `ci` of
  `wT (co, ci)` times the normalised entry `(ci, l)` of the block. The 8 blocks tile the output array, so the array
  ends holding, at `(co, n)`, the same sum with column `n = 65536 · t + l` of `H`.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.PureOps.Ideal.Laws

noncomputable section

namespace Cert.KernelIdeal.Val1

open Cert.KernelIdeal Cert.KernelIdeal.Gen Cert.KernelIdeal.GenP Cert.GCN
open Idealize.ShloMosaic Idealize.ShloMosaic.TcCoe Idealize.ShloMosaic.ValueIdx Idealize.SL.Sem
open Idealize.ShloMosaic.Pipeline (Dat)
open scoped BigOperators

/-! ## The payload at an index -/

/-- An `[8, 1]` column broadcast along the lanes reads, at `(p, l)`, the column's entry of row `p`. -/
theorem bcast_col_apply {α : Type} (v : S8x1.Idx → α) (h : S8x1.Broadcasts S8x65536) (p : Fin 8) (l : Fin 65536) :
    broadcastTo S8x65536 v h (ix2 p l) = v (ix2 p (0 : Fin 1)) := by
  refine broadcastTo_apply v h (ix2 p l) (ix2 p (0 : Fin 1)) fun ax => ?_
  match ax with
  | ⟨0, _⟩ => rfl
  | ⟨1, _⟩ => rfl

/-- The product's left operand is read at the output's row … -/
theorem lhs_dot_0 (j : S8x65536.Idx) (k : dot_S8x8_S8x65536_S8x65536_1_0_0_1_n_n.contr.Idx) :
    ((dot_S8x8_S8x65536_S8x65536_1_0_0_1_n_n.lhsIdx j k 0 : Fin _) : ℕ) = (j 0 : ℕ) := by
  simp [DotDims.lhsIdx, dot_S8x8_S8x65536_S8x65536_1_0_0_1_n_n]
  rfl

/-- … and at the contracted coordinate; -/
theorem lhs_dot_1 (j : S8x65536.Idx) (k : dot_S8x8_S8x65536_S8x65536_1_0_0_1_n_n.contr.Idx) :
    ((dot_S8x8_S8x65536_S8x65536_1_0_0_1_n_n.lhsIdx j k 1 : Fin _) : ℕ) = (k ⟨0, by decide⟩ : ℕ) :=
  dot_S8x8_S8x65536_S8x65536_1_0_0_1_n_n.lhsIdx_val_of_single rfl j k

/-- the right operand at the contracted coordinate … -/
theorem rhs_dot_0 (j : S8x65536.Idx) (k : dot_S8x8_S8x65536_S8x65536_1_0_0_1_n_n.contr.Idx) :
    ((dot_S8x8_S8x65536_S8x65536_1_0_0_1_n_n.rhsIdx j k 0 : Fin _) : ℕ) = (k ⟨0, by decide⟩ : ℕ) :=
  dot_S8x8_S8x65536_S8x65536_1_0_0_1_n_n.rhsIdx_val_of_single rfl j k

/-- … and at the output's lane. -/
theorem rhs_dot_1 (j : S8x65536.Idx) (k : dot_S8x8_S8x65536_S8x65536_1_0_0_1_n_n.contr.Idx) :
    ((dot_S8x8_S8x65536_S8x65536_1_0_0_1_n_n.rhsIdx j k 1 : Fin _) : ℕ) = (j 1 : ℕ) := by
  simp [DotDims.rhsIdx, dot_S8x8_S8x65536_S8x65536_1_0_0_1_n_n]
  rfl

/-- The payload at `(co, l)`: the normalised, scaled and shifted column `l` of the block, multiplied on the left by
    row `co` of the matrix. The product's zero accumulator adds nothing, and the narrowing of the two operands is the
    identity on the extended reals. -/
theorem pay1_apply (v0 v2 v4 v6 : Vec Ideal S8x1 .f32) (v11 : Vec Ideal S8x65536 .f32) (v21 : Vec Ideal S8x8 .f32)
    (co : Fin 8) (l : Fin 65536) :
    k1_pay1 (F := Ideal) v0 v2 v4 v6 v11 v21 (ix2 co l)
      = ∑ ci : Fin 8, v21 (ix2 co ci)
          * ((v11 (ix2 ci l) - v0 (ix2 ci (0 : Fin 1))) * Ideal.rsqrt (v2 (ix2 ci (0 : Fin 1)) + eps) * v4 (ix2 ci (0 : Fin 1))
              + v6 (ix2 ci (0 : Fin 1))) := by
  unfold k1_pay1
  refine (Ideal.matmul_constant_zero_apply dot_S8x8_S8x65536_S8x65536_1_0_0_1_n_n none _ _ (ix2 co l)).trans ?_
  refine (Equiv.sum_comp (contrEquiv1 dot_S8x8_S8x65536_S8x65536_1_0_0_1_n_n 8 rfl rfl).symm _).symm.trans ?_
  refine Finset.sum_congr rfl fun ci _ => ?_
  have c2 := contrEquiv1_symm_val dot_S8x8_S8x65536_S8x65536_1_0_0_1_n_n 8 rfl rfl ci
  have l2 : dot_S8x8_S8x65536_S8x65536_1_0_0_1_n_n.lhsIdx (ix2 co l) ((contrEquiv1 _ 8 rfl rfl).symm ci) = ix2 co ci := by
    funext ax; apply Fin.ext
    match ax with
    | ⟨0, _⟩ => exact lhs_dot_0 _ _
    | ⟨1, _⟩ => exact (lhs_dot_1 _ _).trans c2
  have r2 : dot_S8x8_S8x65536_S8x65536_1_0_0_1_n_n.rhsIdx (ix2 co l) ((contrEquiv1 _ 8 rfl rfl).symm ci) = ix2 ci l := by
    funext ax; apply Fin.ext
    match ax with
    | ⟨0, _⟩ => exact (rhs_dot_0 _ _).trans c2
    | ⟨1, _⟩ => exact rhs_dot_1 _ _
  rw [l2, r2]
  simp only [truncf_apply, shapeCast_self, addf_apply, mulf_apply, subf_apply, bcast_col_apply]
  rfl

/-- The same at an index of the block given by its two coordinates' values. -/
theorem pay1_at (x0 : Vec Ideal S8x65536 .f32) (x1 x2 x3 x4 : Vec Ideal S8x1 .f32) (x5 : Vec Ideal S8x8 .f32)
    (y : S8x65536.Idx) (p : Fin 8) (q : Fin 65536) (hp : (y 0).val = p.val) (hq : (y 1).val = q.val) :
    k1_pay1 (F := Ideal) x1 x2 x3 x4 x0 x5 y
      = ∑ ci : Fin 8, x5 (ix2 p ci)
          * ((x0 (ix2 ci q) - x1 (ix2 ci (0 : Fin 1))) * Ideal.rsqrt (x2 (ix2 ci (0 : Fin 1)) + eps) * x3 (ix2 ci (0 : Fin 1))
              + x4 (ix2 ci (0 : Fin 1))) := by
  have hy : y = ix2 p q := by
    funext a; apply Fin.ext
    match a with
    | ⟨0, _⟩ => exact hp
    | ⟨1, _⟩ => exact hq
  rw [hy]
  exact pay1_apply x1 x2 x3 x4 x0 x5 p q

/-! ## From blocks to the array -/

section Blocks

variable (V : (c : Dev nD) → (b : Ref sig .tc) → Buf (Elt Ideal) ((c : Thread nD τ).loc b))

/-- The six arrays the region reads, as it finds them: `H`, the mean, variance, scale and shift columns, the matrix. -/
abbrev harr (c : Dev nD) : Vec Ideal S8x524288 .f32 := V c (Pipeline.arrRef spec1 0)
abbrev marr (c : Dev nD) : Vec Ideal S8x1 .f32 := V c (Pipeline.arrRef spec1 1)
abbrev sarr (c : Dev nD) : Vec Ideal S8x1 .f32 := V c (Pipeline.arrRef spec1 2)
abbrev garr (c : Dev nD) : Vec Ideal S8x1 .f32 := V c (Pipeline.arrRef spec1 3)
abbrev barr (c : Dev nD) : Vec Ideal S8x1 .f32 := V c (Pipeline.arrRef spec1 4)
abbrev warr (c : Dev nD) : Vec Ideal S8x8 .f32 := V c (Pipeline.arrRef spec1 5)

/-- The transform at `(co, n)`: row `co` of the matrix times the normalised column `n` of `H`. -/
def T1 (c : Dev nD) (co : Fin 8) (n : Fin 524288) : EReal :=
  ∑ ci : Fin 8, warr V c (ix2 co ci)
    * ((harr V c (ix2 ci n) - marr V c (ix2 ci (0 : Fin 1))) * Ideal.rsqrt (sarr V c (ix2 ci (0 : Fin 1)) + eps) * garr V c (ix2 ci (0 : Fin 1))
        + barr V c (ix2 ci (0 : Fin 1)))

/-- The array the region leaves, as a function of its index. -/
abbrev G1 (c : Dev nD) : Vec Ideal S8x524288 .f32 := fun i => T1 V c (i 0) (i 1)

theorem hz : (![0, 0] : Fin 2 → Nat) = fun _ => 0 := funext fun a => by fin_cases a <;> rfl

/-- The block indices over the grid: the windows of `H` and of the output are at column block `t`, the five small
    windows at block `(0, 0)`. -/
theorem idx_facts1 : ∀ t : Fin cfg1.N,
    win1_0.index t (0 : Fin 2) = 0 ∧ win1_0.index t (1 : Fin 2) = t.val
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = t.val :=
  (by decide +kernel : ∀ t : Fin grid1.N, _)

/-- Entry `(r, l)` of the block of `H` at point `t` is entry `(r, 65536 · t + l)` of `H`. -/
theorem iblk1_0_apply (c : Dev nD) (t : Fin cfg1.N) (x : S8x65536.Idx) (k : S8x524288.Idx)
    (hk0 : (k 0).val = (x 0).val) (hk1 : (k 1).val = 65536 * t.val + (x 1).val) :
    (iblk1 V c 0 t : Vec Ideal S8x65536 .f32) x = harr V c k := by
  obtain ⟨e0, e1, -⟩ := idx_facts1 t
  unfold iblk1
  rw [View.read_apply]
  show V c (Pipeline.arrRef spec1 0) _ = V c (Pipeline.arrRef spec1 0) k
  congr 1
  funext a
  apply Fin.ext
  match a with
  | ⟨0, _⟩ => show win1_0.index t 0 * 8 + 1 * (x 0).val = (k 0).val; rw [e0, hk0]; omega
  | ⟨1, _⟩ => show win1_0.index t 1 * 65536 + 1 * (x 1).val = (k 1).val; rw [e1, hk1]; omega

/-- The block of each small window is its whole array, at every point. -/
theorem iblk1_1_eq (c : Dev nD) (t : Fin cfg1.N) : (iblk1 V c 1 t : Vec Ideal S8x1 .f32) = marr V c := by
  obtain ⟨-, -, e0, e1, -⟩ := idx_facts1 t
  funext x
  unfold iblk1
  rw [View.read_apply]
  show V c (Pipeline.arrRef spec1 1) _ = V c (Pipeline.arrRef spec1 1) x
  congr 1
  funext a
  apply Fin.ext
  match a with
  | ⟨0, _⟩ => show win1_1.index t 0 * 8 + 1 * (x 0).val = (x 0).val; rw [e0]; omega
  | ⟨1, _⟩ => show win1_1.index t 1 * 1 + 1 * (x 1).val = (x 1).val; rw [e1]; omega

theorem iblk1_2_eq (c : Dev nD) (t : Fin cfg1.N) : (iblk1 V c 2 t : Vec Ideal S8x1 .f32) = sarr V c := by
  obtain ⟨-, -, -, -, e0, e1, -⟩ := idx_facts1 t
  funext x
  unfold iblk1
  rw [View.read_apply]
  show V c (Pipeline.arrRef spec1 2) _ = V c (Pipeline.arrRef spec1 2) x
  congr 1
  funext a
  apply Fin.ext
  match a with
  | ⟨0, _⟩ => show win1_2.index t 0 * 8 + 1 * (x 0).val = (x 0).val; rw [e0]; omega
  | ⟨1, _⟩ => show win1_2.index t 1 * 1 + 1 * (x 1).val = (x 1).val; rw [e1]; omega

theorem iblk1_3_eq (c : Dev nD) (t : Fin cfg1.N) : (iblk1 V c 3 t : Vec Ideal S8x1 .f32) = garr V c := by
  obtain ⟨-, -, -, -, -, -, e0, e1, -⟩ := idx_facts1 t
  funext x
  unfold iblk1
  rw [View.read_apply]
  show V c (Pipeline.arrRef spec1 3) _ = V c (Pipeline.arrRef spec1 3) x
  congr 1
  funext a
  apply Fin.ext
  match a with
  | ⟨0, _⟩ => show win1_3.index t 0 * 8 + 1 * (x 0).val = (x 0).val; rw [e0]; omega
  | ⟨1, _⟩ => show win1_3.index t 1 * 1 + 1 * (x 1).val = (x 1).val; rw [e1]; omega

theorem iblk1_4_eq (c : Dev nD) (t : Fin cfg1.N) : (iblk1 V c 4 t : Vec Ideal S8x1 .f32) = barr V c := by
  obtain ⟨-, -, -, -, -, -, -, -, e0, e1, -⟩ := idx_facts1 t
  funext x
  unfold iblk1
  rw [View.read_apply]
  show V c (Pipeline.arrRef spec1 4) _ = V c (Pipeline.arrRef spec1 4) x
  congr 1
  funext a
  apply Fin.ext
  match a with
  | ⟨0, _⟩ => show win1_4.index t 0 * 8 + 1 * (x 0).val = (x 0).val; rw [e0]; omega
  | ⟨1, _⟩ => show win1_4.index t 1 * 1 + 1 * (x 1).val = (x 1).val; rw [e1]; omega

theorem iblk1_5_eq (c : Dev nD) (t : Fin cfg1.N) : (iblk1 V c 5 t : Vec Ideal S8x8 .f32) = warr V c := by
  obtain ⟨-, -, -, -, -, -, -, -, -, -, e0, e1, -⟩ := idx_facts1 t
  funext x
  unfold iblk1
  rw [View.read_apply]
  show V c (Pipeline.arrRef spec1 5) _ = V c (Pipeline.arrRef spec1 5) x
  congr 1
  funext a
  apply Fin.ext
  match a with
  | ⟨0, _⟩ => show win1_5.index t 0 * 8 + 1 * (x 0).val = (x 0).val; rw [e0]; omega
  | ⟨1, _⟩ => show win1_5.index t 1 * 8 + 1 * (x 1).val = (x 1).val; rw [e1]; omega

/-- What point `t` writes back is block `t` of the transformed array: entry `(co, l)` of the stored block is the
    transform at column `65536 · t + l`. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S8x1) hz, View.ld_unit_zero (S := S8x65536) hz, View.ld_unit_zero (S := S8x8) hz]
  obtain ⟨-, -, -, -, -, -, -, -, -, -, -, -, e0, e1⟩ := idx_facts1 t
  have ht : t.val < 8 := lt_of_lt_of_eq t.isLt N_1
  funext j
  have hj0 : (j 0).val < 8 := (j 0).isLt
  have hj1 : (j 1).val < 65536 := (j 1).isLt
  have hn : 65536 * t.val + (j 1).val < 524288 := by omega
  rw [View.read_apply]
  show k1_pay1 (F := Ideal) (iblk1 V c 1 t) (iblk1 V c 2 t) (iblk1 V c 3 t) (iblk1 V c 4 t) (iblk1 V c 0 t) (iblk1 V c 5 t)
      ((cfg1.win 6).xinj (grid1.coords t) j)
    = T1 V c ((((cfg1.win 6).blk t).view.emb j) 0) ((((cfg1.win 6).blk t).view.emb j) 1)
  have he0 : ((((cfg1.win 6).blk t).view.emb j) 0 : Fin 8) = ⟨(j 0).val, hj0⟩ :=
    Fin.ext (by show win1_6.index t 0 * 8 + 1 * (j 0).val = (j 0).val; rw [e0]; omega)
  have he1 : ((((cfg1.win 6).blk t).view.emb j) 1 : Fin 524288) = ⟨65536 * t.val + (j 1).val, hn⟩ :=
    Fin.ext (by show win1_6.index t 1 * 65536 + 1 * (j 1).val = 65536 * t.val + (j 1).val; rw [e1]; omega)
  rw [he0, he1]
  refine (pay1_at (iblk1 V c 0 t) (iblk1 V c 1 t) (iblk1 V c 2 t) (iblk1 V c 3 t) (iblk1 V c 4 t) (iblk1 V c 5 t)
    ((cfg1.win 6).xinj (grid1.coords t) j) ⟨(j 0).val, hj0⟩ ⟨(j 1).val, hj1⟩ rfl rfl).trans ?_
  unfold T1
  refine Finset.sum_congr rfl fun ci _ => ?_
  rw [iblk1_1_eq, iblk1_2_eq, iblk1_3_eq, iblk1_4_eq, iblk1_5_eq,
    iblk1_0_apply V c t (ix2 ci ⟨(j 1).val, hj1⟩) (ix2 ci ⟨65536 * t.val + (j 1).val, hn⟩) rfl rfl]
  rfl

/-- An index of the array is in point `t`'s block iff each coordinate is in the block's range on its axis. -/
theorem mem_blk1_6 (t : Fin cfg1.N) (i : S8x524288.Idx) :
    i ∈ ((cfg1.win 6).blk t).view.set ↔ ∀ a : Fin 2, win1_6.index t a * S8x65536.size a ≤ (i a).val ∧ (i a).val < win1_6.index t a * S8x65536.size a + S8x65536.size a := by
  show i ∈ ((View.whole main_v52).slice (win1_6.rect t)).set ↔ _
  rw [View.set_slice_whole, Rect.mem_set_unit]
  exact Iff.rfl

/-- Every index `(r, n)` of the array is in the block of point `n / 65536`. -/
theorem cover1 (i : S8x524288.Idx) : ∃ t : Fin cfg1.N, (cfg1.win 6).flush t = true ∧ i ∈ ((cfg1.win 6).blk t).view.set := by
  have hN : cfg1.N = 8 := N_1
  have h0 : (i 0).val < 8 := (i 0).isLt
  have h1 : (i 1).val < 524288 := (i 1).isLt
  obtain ⟨t, ht⟩ : ∃ t : Fin cfg1.N, t.val = (i 1).val / 65536 := ⟨⟨(i 1).val / 65536, lt_of_lt_of_eq (by omega) hN.symm⟩, rfl⟩
  obtain ⟨-, -, -, -, -, -, -, -, -, -, -, -, e0, e1⟩ := idx_facts1 t
  refine ⟨t, flush1_6 t, ?_⟩
  rw [mem_blk1_6]
  intro a
  match a with
  | ⟨0, _⟩ => show win1_6.index t 0 * 8 ≤ (i 0).val ∧ (i 0).val < win1_6.index t 0 * 8 + 8; rw [e0]; omega
  | ⟨1, _⟩ => show win1_6.index t 1 * 65536 ≤ (i 1).val ∧ (i 1).val < win1_6.index t 1 * 65536 + 65536; rw [e1, ht]; omega

/-- The output array after the region's 8 points is the transformed array. -/
theorem final1 (c : Dev nD) : (dat1 V c).arrAt 6 cfg1.N = G1 V c :=
  (dat1 V c).arrAt_eq_of_cover 6 (G1 V c) (fun t _ => flushed1_eq V c t) cover1

/-- THE VALUE of the transform region over the curried views: with `H`, the mean `μ`, the variance `σ²`, the scale
    `γ`, the shift `β` and the matrix `wT` read off the arrays as the region finds them, the output array is, at
    `(co, n)`, the sum over `ci` of `wT co ci · ((H ci n − μ ci) · rsqrt(σ² ci + eps) · γ ci + β ci)`. -/
theorem transform1_val (c : Dev nD) :
    toCP ((dat1 V c).arrAt 6 cfg1.N)
      = fun co n => ∑ ci : Fin 8, toM8 (V c (Pipeline.arrRef spec1 5)) co ci
          * ((toCP (V c (Pipeline.arrRef spec1 0)) ci n - toV81 (V c (Pipeline.arrRef spec1 1)) ci)
              * Ideal.rsqrt (toV81 (V c (Pipeline.arrRef spec1 2)) ci + eps) * toV81 (V c (Pipeline.arrRef spec1 3)) ci
              + toV81 (V c (Pipeline.arrRef spec1 4)) ci) := by
  rw [final1]
  rfl

end Blocks

end Cert.KernelIdeal.Val1

end
-- ==== Proof.KResid2.lean ====
/-
  The value of the residual region of the first layer: the output array `[8, 524288]` after the region's eight grid
  points, index by index, as a function of the three arrays the region reads (the layer's input `H`, the aggregated
  messages, the bias column): entry `(ch, n)` is `max (H ch n + agg ch n + bias ch) 0` times the mask of column `n`
  (one on the columns of real nodes, zero on the padding).
  The mask is built inside the body from the grid coordinate: tile `t`, lane `l` is column `65536 · t + l`, compared as
  a signed 32-bit word with 500000; no column number wraps, so the comparison is the one of the naturals.
  Then the road from blocks to the array: the payload at an index, each input block as columns of its array, what the
  body leaves at a point as a block of the one whole-array function, the tiling of the array by the eight blocks.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val2

open Cert.KernelIdeal Cert.KernelIdeal.Gen Cert.KernelIdeal.GenP Cert.GCN
open Idealize.ShloMosaic Idealize.ShloMosaic.TcCoe Idealize.ShloMosaic.ValueIdx Idealize.SL.Sem
open Idealize.ShloMosaic.Pipeline (Dat)

/-- The column number as a 32-bit word: no wrap-around, the largest is 65536·7 + 65535. -/
theorem colWord_eq (t : Fin 8) (l : Fin 65536) :
    IntOp.addi (Scalar.muli (BitVec.ofNat 32 t.val) 65536#32) (BitVec.ofNat 32 l.val) = BitVec.ofNat 32 (65536 * t.val + l.val) := by
  unfold IntOp.addi Scalar.muli IntOp.muli
  rw [show (65536#32 : BitVec 32) = BitVec.ofNat 32 65536 from rfl, BitVec.ofNat_mul_ofNat, BitVec.ofNat_add_ofNat, Nat.mul_comm]

/-- The signed comparison of a column number with the number of nodes is the comparison of the naturals: both are
    below 2^31, so both read signed as themselves. -/
theorem slt_colWord (n : Nat) (hn : n < 524288) :
    IntOp.cmpi .slt (BitVec.ofNat 32 n) 500000#32 = if n < 500000 then 1#1 else 0#1 := by
  unfold IntOp.cmpi
  dsimp only
  rw [BitVec.slt_eq_decide]
  have h1 : (BitVec.ofNat 32 n).toInt = (n : Int) := by
    rw [BitVec.toInt_eq_toNat_of_lt (by rw [BitVec.toNat_ofNat, Nat.mod_eq_of_lt (by omega)]; omega), BitVec.toNat_ofNat, Nat.mod_eq_of_lt (by omega)]
  have h2 : (500000#32 : BitVec 32).toInt = 500000 := by decide
  rw [h1, h2]
  by_cases h : n < 500000
  · rw [if_pos h, decide_eq_true (by omega)]; rfl
  · rw [if_neg h, decide_eq_false (by omega)]; rfl

/-- THE MASK AT A COLUMN: the comparison bit, widened and converted, is one on the columns of real nodes and zero on
    the padding. -/
theorem maskWord (t : Fin 8) (l : Fin 65536) :
    (FloatOps.sitofp (F := Ideal) .f32 ((IntOp.cmpi .slt (IntOp.addi (Scalar.muli (BitVec.ofNat 32 t.val) 65536#32) (BitVec.ofNat 32 l.val)) 500000#32).setWidth 32) : EReal)
      = if 65536 * t.val + l.val < 500000 then 1 else 0 := by
  rw [colWord_eq, slt_colWord _ (by have := t.isLt; have := l.isLt; omega)]
  by_cases h : 65536 * t.val + l.val < 500000
  · rw [if_pos h, if_pos h]
    show (((BitVec.setWidth 32 1#1).toInt : ℝ) : EReal) = 1
    rw [show (BitVec.setWidth 32 1#1).toInt = 1 from by decide]
    simp
  · rw [if_neg h, if_neg h]
    show (((BitVec.setWidth 32 0#1).toInt : ℝ) : EReal) = 0
    rw [show (BitVec.setWidth 32 0#1).toInt = 0 from by decide]
    simp

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mask row the body builds from the grid coordinate, read at lane `l` of tile `t`. -/
theorem maskRow_apply (i : grid2.Coords) (t : Fin 8) (ht : (i 0).val = t.val) (l : Fin 65536) :
    (sitofp (F := Ideal) .f32 (extui 32 (cmpi .slt (addi (broadcast S1x65536 (Scalar.muli (BitVec.ofNat 32 (i 0).val) 65536#32))
        (iota .tc S1x65536 32 [1] iota_S1x65536_d1_w32)) (broadcast S1x65536 500000#32)) natLt_1_32) : FVec Ideal S1x65536 .f32) (ix2 (0 : Fin 1) l)
      = if 65536 * t.val + l.val < 500000 then 1 else 0 := by
  show FloatOps.sitofp (F := Ideal) .f32 ((IntOp.cmpi .slt (IntOp.addi (Scalar.muli (BitVec.ofNat 32 (i 0).val) 65536#32)
      (iota .tc S1x65536 32 [1] iota_S1x65536_d1_w32 (ix2 (0 : Fin 1) l))) 500000#32).setWidth 32) = _
  rw [iota_single_apply, ht]
  exact maskWord t l

/-- THE PAYLOAD AT AN INDEX: residual plus aggregate plus bias, clipped below at zero, times the mask of the column. -/
theorem pay_apply (i : grid2.Coords) (t : Fin 8) (ht : (i 0).val = t.val) (v0 : Vec Ideal S8x1 .f32) (v10 v12 : Vec Ideal S8x65536 .f32)
    (p : Fin 8) (l : Fin 65536) :
    k2_pay1 (F := Ideal) i v0 v10 v12 (ix2 p l)
      = max (v10 (ix2 p l) + v12 (ix2 p l) + v0 (ix2 p (0 : Fin 1))) 0 * (if 65536 * t.val + l.val < 500000 then 1 else 0) := by
  unfold k2_pay1
  dsimp only
  rw [mulf_apply, maximumf_apply, addf_apply, addf_apply, broadcast_apply, shapeCast_self, shapeCast_self, shapeCast_self,
    broadcastTo_1b_ab_apply, broadcastTo_a1_ab_apply, maskRow_apply i t ht l]
  show max _ (Ideal.ofBits .f32 0x00000000#32) * _ = _
  rw [Ideal.ofBits_zero_f32]

variable (V : (c : Dev nD) → (b : Ref sig .tc) → Buf (Elt Ideal) ((c : Thread nD τ).loc b))

/-- The three arrays the region reads, as it finds them: the layer's input `H`, the aggregated messages, the bias column. -/
abbrev harr (c : Dev nD) : Vec Ideal S8x524288 .f32 := V c (Pipeline.arrRef spec2 0)
abbrev garr (c : Dev nD) : Vec Ideal S8x524288 .f32 := V c (Pipeline.arrRef spec2 1)
abbrev barr (c : Dev nD) : Vec Ideal S8x1 .f32 := V c (Pipeline.arrRef spec2 2)

/-- Their blocks at a grid point. -/
abbrev hblk (c : Dev nD) (t : Fin cfg2.N) : Vec Ideal S8x65536 .f32 := iblk2 V c 0 t
abbrev gblk (c : Dev nD) (t : Fin cfg2.N) : Vec Ideal S8x65536 .f32 := iblk2 V c 1 t
abbrev bblk (c : Dev nD) (t : Fin cfg2.N) : Vec Ideal S8x1 .f32 := iblk2 V c 2 t

/-- WHAT THE REGION COMPUTES, as one array: entry `(ch, n)` is `max (H + agg + bias) 0` there, times the mask of column `n`. -/
def resid (c : Dev nD) : Vec Ideal S8x524288 .f32 :=
  ofCP fun ch n => max (toCP (harr V c) ch n + toCP (garr V c) ch n + toV81 (barr V c) ch) 0 * maskK n

theorem hz : (![0, 0] : Fin 2 → Nat) = fun _ => 0 := funext fun a => by fin_cases a <;> rfl

/-- The grid has eight points. -/
theorem lt8 (t : Fin cfg2.N) : t.val < 8 := Nat.lt_of_lt_of_eq t.isLt (N_2 : cfg2.N = 8)

/-- The printed index maps, decided once over the grid: the grid coordinate is the point; the two tiled inputs and the
    output sit at column block `t`, the bias column at block zero. -/
theorem idx_facts : ∀ t : Fin cfg2.N, (grid2.coords t 0).val = t.val
    ∧ win2_0.index t (0 : Fin 2) = 0 ∧ win2_0.index t (1 : Fin 2) = t.val
    ∧ win2_1.index t (0 : Fin 2) = 0 ∧ win2_1.index t (1 : Fin 2) = t.val
    ∧ win2_2.index t (0 : Fin 2) = 0 ∧ win2_2.index t (1 : Fin 2) = 0
    ∧ win2_3.index t (0 : Fin 2) = 0 ∧ win2_3.index t (1 : Fin 2) = t.val :=
  (by decide +kernel : ∀ t : Fin grid2.N, _)

/-- Lane `l` of the input block at point `t` is column `65536 · t + l` of the input. -/
theorem hblk_apply (c : Dev nD) (t : Fin cfg2.N) (p : Fin 8) (l : Fin 65536) (n : Fin 524288) (hn : n.val = 65536 * t.val + l.val) :
    hblk V c t (ix2 p l) = harr V c (ix2 p n) := by
  obtain ⟨-, e0, e1, -⟩ := idx_facts t
  show V c (Pipeline.arrRef spec2 0) (((cfg2.win 0).blk t).view.emb (ix2 p l)) = V c (Pipeline.arrRef spec2 0) (ix2 p n)
  congr 1
  funext a
  apply Fin.ext
  match a with
  | ⟨0, _⟩ => show win2_0.index t (0 : Fin 2) * 8 + 1 * p.val = p.val; rw [e0]; omega
  | ⟨1, _⟩ => show win2_0.index t (1 : Fin 2) * 65536 + 1 * l.val = n.val; rw [e1, hn]; omega

/-- The same for the aggregated messages. -/
theorem gblk_apply (c : Dev nD) (t : Fin cfg2.N) (p : Fin 8) (l : Fin 65536) (n : Fin 524288) (hn : n.val = 65536 * t.val + l.val) :
    gblk V c t (ix2 p l) = garr V c (ix2 p n) := by
  obtain ⟨-, -, -, e0, e1, -⟩ := idx_facts t
  show V c (Pipeline.arrRef spec2 1) (((cfg2.win 1).blk t).view.emb (ix2 p l)) = V c (Pipeline.arrRef spec2 1) (ix2 p n)
  congr 1
  funext a
  apply Fin.ext
  match a with
  | ⟨0, _⟩ => show win2_1.index t (0 : Fin 2) * 8 + 1 * p.val = p.val; rw [e0]; omega
  | ⟨1, _⟩ => show win2_1.index t (1 : Fin 2) * 65536 + 1 * l.val = n.val; rw [e1, hn]; omega

/-- The bias block is the whole bias column at every point. -/
theorem bblk_apply (c : Dev nD) (t : Fin cfg2.N) (p : Fin 8) :
    bblk V c t (ix2 p (0 : Fin 1)) = barr V c (ix2 p (0 : Fin 1)) := by
  obtain ⟨-, -, -, -, -, e0, e1, -⟩ := idx_facts t
  show V c (Pipeline.arrRef spec2 2) (((cfg2.win 2).blk t).view.emb (ix2 p (0 : Fin 1))) = V c (Pipeline.arrRef spec2 2) (ix2 p (0 : Fin 1))
  congr 1
  funext a
  apply Fin.ext
  match a with
  | ⟨0, _⟩ => show win2_2.index t (0 : Fin 2) * 8 + 1 * p.val = p.val; rw [e0]; omega
  | ⟨1, _⟩ => show win2_2.index t (1 : Fin 2) * 1 + 1 * 0 = 0; rw [e1]

/-- Lane `l` of the output block at point `t` is column `65536 · t + l` of the output. -/
theorem oblk_read (c : Dev nD) (t : Fin cfg2.N) (X : Vec Ideal S8x524288 .f32) (p : Fin 8) (l : Fin 65536) (n : Fin 524288) (hn : n.val = 65536 * t.val + l.val) :
    (((cfg2.win 3).blk t).view.read (Elt Ideal) X : Vec Ideal S8x65536 .f32) (ix2 p l) = X (ix2 p n) := by
  obtain ⟨-, -, -, -, -, -, -, e0, e1⟩ := idx_facts t
  show X (((cfg2.win 3).blk t).view.emb (ix2 p l)) = X (ix2 p n)
  congr 1
  funext a
  apply Fin.ext
  match a with
  | ⟨0, _⟩ => show win2_3.index t (0 : Fin 2) * 8 + 1 * p.val = p.val; rw [e0]; omega
  | ⟨1, _⟩ => show win2_3.index t (1 : Fin 2) * 65536 + 1 * l.val = n.val; rw [e1, hn]; omega

/-- WHAT THE BODY LEAVES at point `t` is block `t` of `resid`. -/
theorem out_eq (c : Dev nD) (t : Fin cfg2.N) :
    out2_3 (grid2.coords t) (hblk V c t) (gblk V c t) (bblk V c t) = ((cfg2.win 3).blk t).view.read (Elt Ideal) (resid V c) := by
  unfold out2_3
  rw [View.canon_unit_zero hz]
  simp only [View.ld_unit_zero (S := S8x65536) hz, View.ld_unit_zero (S := S8x1) hz]
  funext j
  obtain ⟨p, l, rfl⟩ : ∃ (p : Fin 8) (l : Fin 65536), j = ix2 p l := ⟨j 0, j 1, eq_ix2 j⟩
  have ec : (grid2.coords t 0).val = (⟨t.val, lt8 t⟩ : Fin 8).val := (idx_facts t).1
  have hn : (col ⟨t.val, lt8 t⟩ l).val = 65536 * t.val + l.val := rfl
  rw [pay_apply (grid2.coords t) ⟨t.val, lt8 t⟩ ec, hblk_apply V c t p l _ hn, gblk_apply V c t p l _ hn, bblk_apply V c t p,
    oblk_read c t (resid V c) p l _ hn]
  rfl

/-- An index of the output array is in point `t`'s block iff each coordinate is in the block's range on its axis. -/
theorem mem_oblk (t : Fin cfg2.N) (i : S8x524288.Idx) :
    i ∈ ((cfg2.win 3).blk t).view.set ↔ ∀ a : Fin 2, win2_3.index t a * S8x65536.size a ≤ (i a).val ∧ (i a).val < win2_3.index t a * S8x65536.size a + S8x65536.size a := by
  show i ∈ ((View.whole (Pipeline.arrRef spec2 3)).slice (win2_3.rect t)).set ↔ _
  rw [View.set_slice_whole, Rect.mem_set_unit]
  exact Iff.rfl

/-- Every column lies in the block of the point `column / 65536`: the eight blocks tile the array. -/
theorem cover (i : S8x524288.Idx) : ∃ t : Fin cfg2.N, (cfg2.win 3).flush t = true ∧ i ∈ ((cfg2.win 3).blk t).view.set := by
  have h0 : (i 0).val < 8 := (i 0).isLt
  have h1 : (i 1).val < 524288 := (i 1).isLt
  have hN : cfg2.N = 8 := N_2
  have hq : (i 1).val / 65536 < cfg2.N := by rw [hN]; omega
  obtain ⟨-, -, -, -, -, -, -, e0, e1⟩ := idx_facts ⟨(i 1).val / 65536, hq⟩
  refine ⟨⟨(i 1).val / 65536, hq⟩, flush2_3 _, ?_⟩
  rw [mem_oblk]
  intro a
  match a with
  | ⟨0, _⟩ =>
    show win2_3.index ⟨(i 1).val / 65536, hq⟩ (0 : Fin 2) * 8 ≤ (i 0).val ∧ (i 0).val < win2_3.index ⟨(i 1).val / 65536, hq⟩ (0 : Fin 2) * 8 + 8
    rw [e0]; omega
  | ⟨1, _⟩ =>
    show win2_3.index ⟨(i 1).val / 65536, hq⟩ (1 : Fin 2) * 65536 ≤ (i 1).val ∧ (i 1).val < win2_3.index ⟨(i 1).val / 65536, hq⟩ (1 : Fin 2) * 65536 + 65536
    rw [e1]
    show (i 1).val / 65536 * 65536 ≤ (i 1).val ∧ (i 1).val < (i 1).val / 65536 * 65536 + 65536
    omega

/-- WHAT POINT `t` WRITES BACK is block `t` of `resid`. -/
theorem flushed_eq (c : Dev nD) (t : Fin cfg2.N) :
    (dat2 (F := Ideal) V c).flushed 3 t = ((cfg2.win 3).blk t).view.read (Elt Ideal) (resid V c) := by
  show (cfg2.win 3).cut (grid2.coords t) ((dat2 (F := Ideal) V c).after 3 t) = _
  rw [after2_3]
  exact out_eq V c t

/-- THE OUTPUT ARRAY after the eight points is `resid`: every block written back is its block, and the blocks tile it. -/
theorem final (c : Dev nD) : (dat2 (F := Ideal) V c).arrAt 3 cfg2.N = resid V c :=
  (dat2 (F := Ideal) V c).arrAt_eq_of_cover 3 (resid V c) (fun t _ => flushed_eq V c t) cover

/-- THE REGION'S VALUE, by coordinates: channel `ch`, column `n` of the output is the residual sum clipped at zero, masked
    to the columns of real nodes. -/
theorem resid2_val (c : Dev nD) :
    toCP ((dat2 (F := Ideal) V c).arrAt 3 cfg2.N)
      = fun ch n => max (toCP (V c (Pipeline.arrRef spec2 0)) ch n + toCP (V c (Pipeline.arrRef spec2 1)) ch n
          + toV81 (V c (Pipeline.arrRef spec2 2)) ch) 0 * maskK n :=
  (congrArg toCP (final V c)).trans (toCP_ofCP _)

end Cert.KernelIdeal.Val2

end
-- ==== Proof.KLayer0.lean ====
/-
  Layer 0 of the kernel program as one step on the channel-major activations.
  The program runs the layer as three pipelined regions with host stretches between them. Region 0 reads the
  activations H and leaves the row sums and the row sums of squares; the first host stretch divides them by the
  number of nodes into the batch mean and the batch variance (the mean of the squares minus the squared mean) and
  cuts the layer's row out of the scales, the shifts and the weights; region 1 normalises H, scales, shifts and
  applies the transposed weights; the next host stretches take the first N columns node-major through the edge
  aggregation and pad the result back, and cut the layer's row out of the biases; region 2 adds H, the padded
  aggregate and the bias, clamps below at zero and zeroes the padding.
  Each region and each stretch is read by its own module. Here the readings are chained: a buffer a region only
  reads leaves the region as it entered, a buffer a region or a stretch does not touch crosses it unchanged, and
  the five readings then compose to the layer's closed form `layerK` at the contents the layer was entered with.
  The edge lists, the edge norm and the program's arguments cross the whole layer unchanged.
-/
import proofs.«143139_j73710228734964_1_alg».proof.Proof.KernelIdealFrameP
import proofs.«143139_j73710228734964_1_alg».proof.Proof.Spec
import proofs.«143139_j73710228734964_1_alg».proof.Proof.Conv
import proofs.«143139_j73710228734964_1_alg».proof.Proof.KStats0
import proofs.«143139_j73710228734964_1_alg».proof.Proof.KHost1
import proofs.«143139_j73710228734964_1_alg».proof.Proof.KTransform1
import proofs.«143139_j73710228734964_1_alg».proof.Proof.KHost2
import proofs.«143139_j73710228734964_1_alg».proof.Proof.KResid2
import Idealize.ShloMosaic.Lib.StableHlo.Run
import Idealize.ShloMosaic.Lib.Pipeline.Cells
import Idealize.ShloMosaic.Lib.ValueIdx

set_option maxRecDepth 16384

noncomputable section

namespace Cert.KernelIdeal.Layer0

open Cert.KernelIdeal Cert.KernelIdeal.Gen Cert.KernelIdeal.GenP Cert.GCN
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)

/-- No operation of the host stretch writes the buffer: each operation writes one buffer, and it is another one. -/
local macro "not_written" : tactic => `(tactic|
  exact List.forall_iff_forall_mem.mp (by
    simp only [hostOps1, hostOps2, hostOps2_1, hostOps2_2, List.flatten_cons, List.flatten_nil, List.append_nil,
      List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

/-- A host stretch leaves a buffer that none of its operations writes as it was. -/
local macro "host_kept" : tactic => `(tactic|
  exact StableHlo.after_of_forall_not_mem (b := _) _ _ (by not_written))

/-! ## The activations H cross the layer: every region only reads them, no stretch writes them -/

/-- Region 0 reads H through an input window: it leaves as it entered. -/
theorem W3_main_v35 : W3 m ρ c (Proc.devRef .tc main_v35) = W2 m ρ c (Proc.devRef .tc main_v35) :=
  (W3_arr m ρ c 0).trans (((dat0 (V2 m ρ) c).arrAt_in 0 rfl _).trans (A_eq0 (V2 m ρ) c 0))

theorem W4_main_v35 : W4 m ρ c (Proc.devRef .tc main_v35) = W2 m ρ c (Proc.devRef .tc main_v35) :=
  calc W4 m ρ c (Proc.devRef .tc main_v35)
    _ = W3 m ρ c (Proc.devRef .tc main_v35) := by host_kept
    _ = W2 m ρ c (Proc.devRef .tc main_v35) := W3_main_v35 m ρ c

/-- Region 1 reads H through an input window too. -/
theorem W5_main_v35 : W5 m ρ c (Proc.devRef .tc main_v35) = W2 m ρ c (Proc.devRef .tc main_v35) :=
  calc W5 m ρ c (Proc.devRef .tc main_v35)
    _ = W4 m ρ c (Proc.devRef .tc main_v35) :=
        (W5_arr m ρ c 0).trans (((dat1 (V4 m ρ) c).arrAt_in 0 rfl _).trans (A_eq1 (V4 m ρ) c 0))
    _ = W2 m ρ c (Proc.devRef .tc main_v35) := W4_main_v35 m ρ c

theorem W8_main_v35 : W8 m ρ c (Proc.devRef .tc main_v35) = W2 m ρ c (Proc.devRef .tc main_v35) :=
  calc W8 m ρ c (Proc.devRef .tc main_v35)
    _ = W7 m ρ c (Proc.devRef .tc main_v35) := by host_kept
    _ = W6 m ρ c (Proc.devRef .tc main_v35) := by host_kept
    _ = W5 m ρ c (Proc.devRef .tc main_v35) := by host_kept
    _ = W2 m ρ c (Proc.devRef .tc main_v35) := W5_main_v35 m ρ c

/-! ## A buffer the layer touches nowhere crosses it unchanged -/

/-- Through region 0, the first stretch and region 1: the buffer is no window's array of either region and no
    operation of the stretch writes it. -/
theorem W5_kept {b : Ref sig .tc} (h0 : ∀ w, Pipeline.arrRef spec0 w ≠ b) (h1 : ∀ w, Pipeline.arrRef spec1 w ≠ b)
    (g1 : ∀ op ∈ (hostOps1 : List (HloOp τ sig (Elt Ideal))), Proc.devRef (τ := τ) .tc b ∉ op.writes) :
    W5 m ρ c (Proc.devRef .tc b) = W2 m ρ c (Proc.devRef .tc b) :=
  calc W5 m ρ c (Proc.devRef .tc b)
    _ = W4 m ρ c (Proc.devRef .tc b) := W5_of_ne m ρ c b h1
    _ = W3 m ρ c (Proc.devRef .tc b) := StableHlo.after_of_forall_not_mem (b := Proc.devRef .tc b) _ _ g1
    _ = W2 m ρ c (Proc.devRef .tc b) := W3_of_ne m ρ c b h0

/-- Through the three stretches before region 2: no operation of them writes the buffer. -/
theorem W8_kept {b : Ref sig .tc}
    (g2 : ∀ op ∈ (hostOps2 : List (HloOp τ sig (Elt Ideal))), Proc.devRef (τ := τ) .tc b ∉ op.writes)
    (g2_1 : ∀ op ∈ (hostOps2_1 : List (HloOp τ sig (Elt Ideal))), Proc.devRef (τ := τ) .tc b ∉ op.writes)
    (g2_2 : ∀ op ∈ (hostOps2_2 : List (HloOp τ sig (Elt Ideal))), Proc.devRef (τ := τ) .tc b ∉ op.writes) :
    W8 m ρ c (Proc.devRef .tc b) = W5 m ρ c (Proc.devRef .tc b) :=
  calc W8 m ρ c (Proc.devRef .tc b)
    _ = W7 m ρ c (Proc.devRef .tc b) := StableHlo.after_of_forall_not_mem (b := Proc.devRef .tc b) _ _ g2_2
    _ = W6 m ρ c (Proc.devRef .tc b) := StableHlo.after_of_forall_not_mem (b := Proc.devRef .tc b) _ _ g2_1
    _ = W5 m ρ c (Proc.devRef .tc b) := StableHlo.after_of_forall_not_mem (b := Proc.devRef .tc b) _ _ g2

/-- Through the whole layer. -/
theorem W9_kept {b : Ref sig .tc} (h0 : ∀ w, Pipeline.arrRef spec0 w ≠ b) (h1 : ∀ w, Pipeline.arrRef spec1 w ≠ b)
    (h2 : ∀ w, Pipeline.arrRef spec2 w ≠ b)
    (g1 : ∀ op ∈ (hostOps1 : List (HloOp τ sig (Elt Ideal))), Proc.devRef (τ := τ) .tc b ∉ op.writes)
    (g2 : ∀ op ∈ (hostOps2 : List (HloOp τ sig (Elt Ideal))), Proc.devRef (τ := τ) .tc b ∉ op.writes)
    (g2_1 : ∀ op ∈ (hostOps2_1 : List (HloOp τ sig (Elt Ideal))), Proc.devRef (τ := τ) .tc b ∉ op.writes)
    (g2_2 : ∀ op ∈ (hostOps2_2 : List (HloOp τ sig (Elt Ideal))), Proc.devRef (τ := τ) .tc b ∉ op.writes) :
    W9 m ρ c (Proc.devRef .tc b) = W2 m ρ c (Proc.devRef .tc b) :=
  calc W9 m ρ c (Proc.devRef .tc b)
    _ = W8 m ρ c (Proc.devRef .tc b) := W9_of_ne m ρ c b h2
    _ = W5 m ρ c (Proc.devRef .tc b) := W8_kept m ρ c g2 g2_1 g2_2
    _ = W2 m ρ c (Proc.devRef .tc b) := W5_kept m ρ c h0 h1 g1

theorem W5_main_v3 : W5 m ρ c (Proc.devRef .tc main_v3) = W2 m ρ c (Proc.devRef .tc main_v3) :=
  W5_kept m ρ c (b := main_v3) (by decide) (by decide) (by not_written)
theorem W5_main_v6 : W5 m ρ c (Proc.devRef .tc main_v6) = W2 m ρ c (Proc.devRef .tc main_v6) :=
  W5_kept m ρ c (b := main_v6) (by decide) (by decide) (by not_written)
theorem W5_main_v26 : W5 m ρ c (Proc.devRef .tc main_v26) = W2 m ρ c (Proc.devRef .tc main_v26) :=
  W5_kept m ρ c (b := main_v26) (by decide) (by decide) (by not_written)
theorem W5_main_arg7 : W5 m ρ c (Proc.devRef .tc main_arg7) = W2 m ρ c (Proc.devRef .tc main_arg7) :=
  W5_kept m ρ c (b := main_arg7) (by decide) (by decide) (by not_written)

theorem W9_main_v3 : W9 m ρ c (Proc.devRef .tc main_v3) = W2 m ρ c (Proc.devRef .tc main_v3) :=
  W9_kept m ρ c (b := main_v3) (by decide) (by decide) (by decide) (by not_written) (by not_written) (by not_written) (by not_written)
theorem W9_main_v6 : W9 m ρ c (Proc.devRef .tc main_v6) = W2 m ρ c (Proc.devRef .tc main_v6) :=
  W9_kept m ρ c (b := main_v6) (by decide) (by decide) (by decide) (by not_written) (by not_written) (by not_written) (by not_written)
theorem W9_main_v26 : W9 m ρ c (Proc.devRef .tc main_v26) = W2 m ρ c (Proc.devRef .tc main_v26) :=
  W9_kept m ρ c (b := main_v26) (by decide) (by decide) (by decide) (by not_written) (by not_written) (by not_written) (by not_written)
theorem W9_main_arg0 : W9 m ρ c (Proc.devRef .tc main_arg0) = W2 m ρ c (Proc.devRef .tc main_arg0) :=
  W9_kept m ρ c (b := main_arg0) (by decide) (by decide) (by decide) (by not_written) (by not_written) (by not_written) (by not_written)
theorem W9_main_arg1 : W9 m ρ c (Proc.devRef .tc main_arg1) = W2 m ρ c (Proc.devRef .tc main_arg1) :=
  W9_kept m ρ c (b := main_arg1) (by decide) (by decide) (by decide) (by not_written) (by not_written) (by not_written) (by not_written)
theorem W9_main_arg2 : W9 m ρ c (Proc.devRef .tc main_arg2) = W2 m ρ c (Proc.devRef .tc main_arg2) :=
  W9_kept m ρ c (b := main_arg2) (by decide) (by decide) (by decide) (by not_written) (by not_written) (by not_written) (by not_written)
theorem W9_main_arg3 : W9 m ρ c (Proc.devRef .tc main_arg3) = W2 m ρ c (Proc.devRef .tc main_arg3) :=
  W9_kept m ρ c (b := main_arg3) (by decide) (by decide) (by decide) (by not_written) (by not_written) (by not_written) (by not_written)
theorem W9_main_arg4 : W9 m ρ c (Proc.devRef .tc main_arg4) = W2 m ρ c (Proc.devRef .tc main_arg4) :=
  W9_kept m ρ c (b := main_arg4) (by decide) (by decide) (by decide) (by not_written) (by not_written) (by not_written) (by not_written)
theorem W9_main_arg5 : W9 m ρ c (Proc.devRef .tc main_arg5) = W2 m ρ c (Proc.devRef .tc main_arg5) :=
  W9_kept m ρ c (b := main_arg5) (by decide) (by decide) (by decide) (by not_written) (by not_written) (by not_written) (by not_written)
theorem W9_main_arg6 : W9 m ρ c (Proc.devRef .tc main_arg6) = W2 m ρ c (Proc.devRef .tc main_arg6) :=
  W9_kept m ρ c (b := main_arg6) (by decide) (by decide) (by decide) (by not_written) (by not_written) (by not_written) (by not_written)
theorem W9_main_arg7 : W9 m ρ c (Proc.devRef .tc main_arg7) = W2 m ρ c (Proc.devRef .tc main_arg7) :=
  W9_kept m ρ c (b := main_arg7) (by decide) (by decide) (by decide) (by not_written) (by not_written) (by not_written) (by not_written)
theorem W9_main_arg8 : W9 m ρ c (Proc.devRef .tc main_arg8) = W2 m ρ c (Proc.devRef .tc main_arg8) :=
  W9_kept m ρ c (b := main_arg8) (by decide) (by decide) (by decide) (by not_written) (by not_written) (by not_written) (by not_written)
theorem W9_main_arg9 : W9 m ρ c (Proc.devRef .tc main_arg9) = W2 m ρ c (Proc.devRef .tc main_arg9) :=
  W9_kept m ρ c (b := main_arg9) (by decide) (by decide) (by decide) (by not_written) (by not_written) (by not_written) (by not_written)
theorem W9_main_arg10 : W9 m ρ c (Proc.devRef .tc main_arg10) = W2 m ρ c (Proc.devRef .tc main_arg10) :=
  W9_kept m ρ c (b := main_arg10) (by decide) (by decide) (by decide) (by not_written) (by not_written) (by not_written) (by not_written)
theorem W9_main_arg11 : W9 m ρ c (Proc.devRef .tc main_arg11) = W2 m ρ c (Proc.devRef .tc main_arg11) :=
  W9_kept m ρ c (b := main_arg11) (by decide) (by decide) (by decide) (by not_written) (by not_written) (by not_written) (by not_written)

/-! ## Region 0: the row sums and the row sums of squares of H -/

theorem W3_main_v36_0 :
    toV81 (W3 m ρ c (Proc.devRef .tc main_v36_0)) = sumK (toCP (W2 m ρ c (Proc.devRef .tc main_v35))) :=
  (congrArg toV81 (W3_arr m ρ c 1)).trans (Val0.stats0_sum (V2 m ρ) c)

theorem W3_main_v36_1 :
    toV81 (W3 m ρ c (Proc.devRef .tc main_v36_1)) = ssqK (toCP (W2 m ρ c (Proc.devRef .tc main_v35))) :=
  (congrArg toV81 (W3_arr m ρ c 2)).trans (Val0.stats0_ssq (V2 m ρ) c)

/-! ## The first stretch: the batch mean and variance of H, and the layer's scale, shift and weights -/

theorem W4_main_v38 :
    toV81 (W4 m ρ c (Proc.devRef .tc main_v38)) = meanK (toCP (W2 m ρ c (Proc.devRef .tc main_v35))) := by
  refine (Host1.mean1 (W3 m ρ c)).trans ?_
  rw [W3_main_v36_0 m ρ c]
  rfl

theorem W4_main_v42 :
    toV81 (W4 m ρ c (Proc.devRef .tc main_v42)) = varK (toCP (W2 m ρ c (Proc.devRef .tc main_v35))) := by
  refine (Host1.var1 (W3 m ρ c)).trans ?_
  rw [W3_main_v36_0 m ρ c, W3_main_v36_1 m ρ c]
  rfl

theorem W4_main_v45 :
    toV81 (W4 m ρ c (Proc.devRef .tc main_v45)) = fun ch => toM8 (W2 m ρ c (Proc.devRef .tc main_arg4)) (0 : Fin 8) ch := by
  refine (Host1.gamma1 (W3 m ρ c)).trans ?_
  rw [W3_of_ne m ρ c main_arg4 (by decide)]

theorem W4_main_v48 :
    toV81 (W4 m ρ c (Proc.devRef .tc main_v48)) = fun ch => toM8 (W2 m ρ c (Proc.devRef .tc main_arg5)) (0 : Fin 8) ch := by
  refine (Host1.beta1 (W3 m ρ c)).trans ?_
  rw [W3_of_ne m ρ c main_arg5 (by decide)]

theorem W4_main_v51 :
    toM8 (W4 m ρ c (Proc.devRef .tc main_v51))
      = fun a b => (W2 m ρ c (Proc.devRef .tc main_arg6) : S8x8x8.Idx → EReal) (ix3 (0 : Fin 8) b a) := by
  refine (Host1.wT1 (W3 m ρ c)).trans ?_
  rw [W3_of_ne m ρ c main_arg6 (by decide)]

/-! ## Region 1: the normalised, scaled, shifted and transformed activations -/

theorem W5_main_v52 :
    toCP (W5 m ρ c (Proc.devRef .tc main_v52))
      = hwK (toCP (W2 m ρ c (Proc.devRef .tc main_v35)))
          (fun ch => toM8 (W2 m ρ c (Proc.devRef .tc main_arg4)) (0 : Fin 8) ch)
          (fun ch => toM8 (W2 m ρ c (Proc.devRef .tc main_arg5)) (0 : Fin 8) ch)
          (fun a b => (W2 m ρ c (Proc.devRef .tc main_arg6) : S8x8x8.Idx → EReal) (ix3 (0 : Fin 8) b a)) := by
  refine (congrArg toCP (W5_arr m ρ c 6)).trans ((Val1.transform1_val (V4 m ρ) c).trans ?_)
  show (fun co n => ∑ ci : Fin 8, toM8 (W4 m ρ c (Proc.devRef .tc main_v51)) co ci
          * ((toCP (W4 m ρ c (Proc.devRef .tc main_v35)) ci n - toV81 (W4 m ρ c (Proc.devRef .tc main_v38)) ci)
              * Ideal.rsqrt (toV81 (W4 m ρ c (Proc.devRef .tc main_v42)) ci + eps)
              * toV81 (W4 m ρ c (Proc.devRef .tc main_v45)) ci
              + toV81 (W4 m ρ c (Proc.devRef .tc main_v48)) ci)) = _
  rw [W4_main_v35 m ρ c, W4_main_v38 m ρ c, W4_main_v42 m ρ c, W4_main_v45 m ρ c, W4_main_v48 m ρ c, W4_main_v51 m ρ c]
  rfl

/-! ## The stretches before region 2: the padded aggregate and the layer's bias -/

theorem W8_main_v69 :
    toCP (W8 m ρ c (Proc.devRef .tc main_v69))
      = padT (toNC (Host2.AGG (W2 m ρ c (Proc.devRef .tc main_v3)) (W2 m ρ c (Proc.devRef .tc main_v6))
          (W2 m ρ c (Proc.devRef .tc main_v26))
          (ofNC (unpadT (hwK (toCP (W2 m ρ c (Proc.devRef .tc main_v35)))
            (fun ch => toM8 (W2 m ρ c (Proc.devRef .tc main_arg4)) (0 : Fin 8) ch)
            (fun ch => toM8 (W2 m ρ c (Proc.devRef .tc main_arg5)) (0 : Fin 8) ch)
            (fun a b => (W2 m ρ c (Proc.devRef .tc main_arg6) : S8x8x8.Idx → EReal) (ix3 (0 : Fin 8) b a))))))) := by
  have h87 : W8 m ρ c (Proc.devRef .tc main_v69) = W7 m ρ c (Proc.devRef .tc main_v69) := by host_kept
  refine (congrArg toCP h87).trans ((Host2.agg2 (W5 m ρ c)).trans ?_)
  rw [W5_main_v3 m ρ c, W5_main_v6 m ρ c, W5_main_v26 m ρ c, W5_main_v52 m ρ c]

theorem W8_main_v72 :
    toV81 (W8 m ρ c (Proc.devRef .tc main_v72)) = fun ch => toM8 (W2 m ρ c (Proc.devRef .tc main_arg7)) (0 : Fin 8) ch := by
  have h75 : W7 m ρ c (Proc.devRef .tc main_arg7) = W5 m ρ c (Proc.devRef .tc main_arg7) :=
    (show W7 m ρ c (Proc.devRef .tc main_arg7) = W6 m ρ c (Proc.devRef .tc main_arg7) by host_kept).trans
      (show W6 m ρ c (Proc.devRef .tc main_arg7) = W5 m ρ c (Proc.devRef .tc main_arg7) by host_kept)
  refine (Host2.bias2 (W7 m ρ c)).trans ?_
  rw [h75, W5_main_arg7 m ρ c]

/-! ## Region 2: the residual, the aggregate and the bias, clamped and masked: the layer -/

/-- The kernel program's layer 0 is the layer's closed form at the contents it was entered with. -/
theorem layer0_step :
    toCP (W9 m ρ c (Proc.devRef .tc main_v73))
      = layerK
          (fun hw => toNC (Host2.AGG (W2 m ρ c (Proc.devRef .tc main_v3)) (W2 m ρ c (Proc.devRef .tc main_v6))
            (W2 m ρ c (Proc.devRef .tc main_v26)) (ofNC hw)))
          (toCP (W2 m ρ c (Proc.devRef .tc main_v35)))
          (fun ch => toM8 (W2 m ρ c (Proc.devRef .tc main_arg4)) (0 : Fin 8) ch)
          (fun ch => toM8 (W2 m ρ c (Proc.devRef .tc main_arg5)) (0 : Fin 8) ch)
          (fun a b => (W2 m ρ c (Proc.devRef .tc main_arg6) : S8x8x8.Idx → EReal) (ix3 (0 : Fin 8) b a))
          (fun ch => toM8 (W2 m ρ c (Proc.devRef .tc main_arg7)) (0 : Fin 8) ch) := by
  refine (congrArg toCP (W9_arr m ρ c 3)).trans ((Val2.resid2_val (V8 m ρ) c).trans ?_)
  show (fun ch n => max (toCP (W8 m ρ c (Proc.devRef .tc main_v35)) ch n + toCP (W8 m ρ c (Proc.devRef .tc main_v69)) ch n
          + toV81 (W8 m ρ c (Proc.devRef .tc main_v72)) ch) 0 * maskK n) = _
  rw [W8_main_v35 m ρ c, W8_main_v69 m ρ c, W8_main_v72 m ρ c]
  rfl

/-- The edge sources, the edge targets, the edge norm and the program's arguments hold after the layer what they
    held before it. -/
theorem layer0_kept :
    W9 m ρ c (Proc.devRef .tc main_v3) = W2 m ρ c (Proc.devRef .tc main_v3)
    ∧ W9 m ρ c (Proc.devRef .tc main_v6) = W2 m ρ c (Proc.devRef .tc main_v6)
    ∧ W9 m ρ c (Proc.devRef .tc main_v26) = W2 m ρ c (Proc.devRef .tc main_v26)
    ∧ W9 m ρ c (Proc.devRef .tc main_arg0) = W2 m ρ c (Proc.devRef .tc main_arg0)
    ∧ W9 m ρ c (Proc.devRef .tc main_arg1) = W2 m ρ c (Proc.devRef .tc main_arg1)
    ∧ W9 m ρ c (Proc.devRef .tc main_arg2) = W2 m ρ c (Proc.devRef .tc main_arg2)
    ∧ W9 m ρ c (Proc.devRef .tc main_arg3) = W2 m ρ c (Proc.devRef .tc main_arg3)
    ∧ W9 m ρ c (Proc.devRef .tc main_arg4) = W2 m ρ c (Proc.devRef .tc main_arg4)
    ∧ W9 m ρ c (Proc.devRef .tc main_arg5) = W2 m ρ c (Proc.devRef .tc main_arg5)
    ∧ W9 m ρ c (Proc.devRef .tc main_arg6) = W2 m ρ c (Proc.devRef .tc main_arg6)
    ∧ W9 m ρ c (Proc.devRef .tc main_arg7) = W2 m ρ c (Proc.devRef .tc main_arg7)
    ∧ W9 m ρ c (Proc.devRef .tc main_arg8) = W2 m ρ c (Proc.devRef .tc main_arg8)
    ∧ W9 m ρ c (Proc.devRef .tc main_arg9) = W2 m ρ c (Proc.devRef .tc main_arg9)
    ∧ W9 m ρ c (Proc.devRef .tc main_arg10) = W2 m ρ c (Proc.devRef .tc main_arg10)
    ∧ W9 m ρ c (Proc.devRef .tc main_arg11) = W2 m ρ c (Proc.devRef .tc main_arg11) :=
  ⟨W9_main_v3 m ρ c, W9_main_v6 m ρ c, W9_main_v26 m ρ c, W9_main_arg0 m ρ c, W9_main_arg1 m ρ c, W9_main_arg2 m ρ c,
    W9_main_arg3 m ρ c, W9_main_arg4 m ρ c, W9_main_arg5 m ρ c, W9_main_arg6 m ρ c, W9_main_arg7 m ρ c,
    W9_main_arg8 m ρ c, W9_main_arg9 m ρ c, W9_main_arg10 m ρ c, W9_main_arg11 m ρ c⟩

end Cert.KernelIdeal.Layer0

end
-- ==== Proof.KStats3.lean ====
/-
  The value of region 0, the stats kernel of the first layer: over the eight grid points the two `[8, 1]` outputs
  accumulate, per row of the `[8, 524288]` input, the sum and the sum of squares of its eight tiles of 65536
  lanes; the arrays they are written back to end holding the row sums and the row sums of squares.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val3

open Cert.KernelIdeal Cert.KernelIdeal.Gen Cert.KernelIdeal.GenP Cert.GCN
open Idealize.ShloMosaic Idealize.ShloMosaic.TcCoe Idealize.ShloMosaic.ValueIdx Idealize.ShloMosaic.Tactic
open Idealize.SL.Sem
open Idealize.ShloMosaic.Pipeline (Dat)
open scoped BigOperators

/-! ## The body's arithmetic at an index -/

/-- An `[a]` vector cast to an `[a, 1]` column reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row `r` of the reduced `[8]` vector with lane `k` put back is `(r, k)`. -/
theorem lane_lift (h : S8x65536.Reduces [1] S8) (r : Fin 8) (k : Fin (S8x65536.size 1)) :
    h.lift (ix1 r) k = ix2 r (⟨k.val, k.isLt⟩ : Fin 65536) := by
  funext c; apply Fin.ext
  fin_cases c <;> rfl

/-- The lane sum of an `[8, 65536]` block, at row `r`. -/
theorem laneSum_apply (x : FVec Ideal S8x65536 .f32) (h : S8x65536.Reduces [1] S8) (hφ : FKind.Formats .f32)
    (hacc : (0x00000000#32 : BitVec 32) = FKind.add.neutral .f32 hφ) (r : Fin 8) :
    multiReduction .add [1] S8 x 0x00000000#32 h hφ hacc (ix1 r) = ∑ l : Fin 65536, x (ix2 r l) :=
  (Ideal.multiReduction_add_single x 0x00000000#32 h hφ hacc (ix1 r)).trans
    (Finset.sum_congr rfl fun k _ => congrArg x (lane_lift h r k))

/-- The running row sum: what the buffer held plus the block's lane sum. -/
theorem pay4_apply (x : Vec Ideal S8x65536 .f32) (xo : Vec Ideal S8x1 .f32) (r : Fin 8) :
    k3_pay4 (F := Ideal) x xo (ix2 r 0) = xo (ix2 r 0) + ∑ l : Fin 65536, x (ix2 r l) := by
  unfold k3_pay4 k3_pay3
  dsimp only
  rw [addf_apply, shapeCast_self, shapeCast_self, shapeCast_a_a1_apply]
  exact congrArg (xo (ix2 r 0) + ·) (laneSum_apply x _ _ _ r)

/-- The running row sum of squares. -/
theorem pay5_apply (x : Vec Ideal S8x65536 .f32) (xo : Vec Ideal S8x1 .f32) (r : Fin 8) :
    k3_pay5 (F := Ideal) x xo (ix2 r 0) = xo (ix2 r 0) + ∑ l : Fin 65536, x (ix2 r l) * x (ix2 r l) := by
  unfold k3_pay5 k3_pay3
  dsimp only
  rw [addf_apply, shapeCast_self, shapeCast_self, shapeCast_a_a1_apply]
  exact congrArg (xo (ix2 r 0) + ·) (laneSum_apply (mulf x x) _ _ _ r)

/-- The reset value is zero. -/
theorem pay1_apply (j : S8x1.Idx) : k3_pay1 (F := Ideal) j = 0 := Ideal.ofBits_zero_f32
theorem pay2_apply (j : S8x1.Idx) : k3_pay2 (F := Ideal) j = 0 := Ideal.ofBits_zero_f32

/-! ## The input block at a point -/

variable {F : FTy → Type} [FloatOps F]
variable (V : (c : Dev nD) → (b : Ref sig .tc) → Buf (Elt F) ((c : Thread nD τ).loc b))

/-- The input array as the region finds it, and its block at a point, over their literal shapes. -/
abbrev harr (c : Dev nD) : Vec F S8x524288 .f32 := V c (Pipeline.arrRef spec3 0)
abbrev hblk (c : Dev nD) (t : Fin cfg3.N) : Vec F S8x65536 .f32 := iblk3 V c 0 t

/-- The input window's block index at point `t`: row block 0, column block `t`. -/
theorem idx_in : ∀ t : Fin cfg3.N, win3_0.index t 0 = 0 ∧ win3_0.index t 1 = t.val :=
  (by decide +kernel : ∀ t : Fin grid3.N, win3_0.index t 0 = 0 ∧ win3_0.index t 1 = t.val)

/-- The input window's block at point `t` is columns `65536 t … 65536 t + 65535` of the array. -/
theorem blk_read (c : Dev nD) (t : Fin cfg3.N) (t' : Fin 8) (ht : t'.val = t.val) (r : Fin 8) (l : Fin 65536) :
    hblk V c t (ix2 r l) = harr V c (ix2 r (col t' l)) := by
  have hi := idx_in t
  unfold hblk iblk3
  rw [View.read_apply]
  show V c (Pipeline.arrRef spec3 0) _ = V c (Pipeline.arrRef spec3 0) _
  congr 1
  funext a
  apply Fin.ext
  match a with
  | ⟨0, _⟩ => show win3_0.index t 0 * 8 + 1 * r.val = r.val; rw [hi.1]; omega
  | ⟨1, _⟩ => show win3_0.index t 1 * 65536 + 1 * l.val = 65536 * t'.val + l.val; rw [hi.2, ht]; omega

/-! ## What each case of the body leaves in the outputs -/

theorem hz : (![0, 0] : Fin 2 → Nat) = fun _ => 0 := funext fun a => by fin_cases a <;> rfl

/-- At a later point output 1 is left at what it held plus the block's lane sums. -/
theorem out_B_1 (c : Dev nD) (i : grid3.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : ¬cond3_0 i) (x : Vec F S8x65536 .f32) (xo1 xo2 : Vec F S8x1 .f32) :
    out3_B_1 c i a1 h1 a2 h2 a3 h3 hc x xo1 xo2 = k3_pay4 x xo1 := by
  unfold out3_B_1
  rw [View.read_writes_eq_canon _ _ _ (cover3_B_1 c i a1 h1 a2 h2 a3 h3 hc x xo1 xo2)]
  unfold kernelRun3_B
  dsimp only
  sl_unfold_words
  rw [View.canon_unit_zero hz]
  simp only [View.readAt_eq_ld, h1.read_unread, h2.read_unread, h3.read_unread, View.ld_unit_zero (S := S8x1) hz,
    View.ld_unit_zero (S := S8x65536) hz]

/-- At a later point output 2 is left at what it held plus the lane sums of the block's squares. -/
theorem out_B_2 (c : Dev nD) (i : grid3.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : ¬cond3_0 i) (x : Vec F S8x65536 .f32) (xo1 xo2 : Vec F S8x1 .f32) :
    out3_B_2 c i a1 h1 a2 h2 a3 h3 hc x xo1 xo2 = k3_pay5 x xo2 := by
  unfold out3_B_2
  rw [View.read_writes_eq_canon _ _ _ (cover3_B_2 c i a1 h1 a2 h2 a3 h3 hc x xo1 xo2)]
  unfold kernelRun3_B
  dsimp only
  sl_unfold_words
  rw [View.canon_unit_zero hz]
  simp only [View.readAt_eq_ld, h1.read_unread, h2.read_unread, h3.read_unread, View.ld_unit_zero (S := S8x1) hz,
    View.ld_unit_zero (S := S8x65536) hz]

/-- At the first point output 1 is reset to zero, read back, and left at zero plus the block's lane sums. -/
theorem out_A_1 (c : Dev nD) (i : grid3.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : cond3_0 i) (x : Vec F S8x65536 .f32) :
    out3_A_1 c i a1 h1 a2 h2 a3 h3 hc x = k3_pay4 x (k3_pay1 (F := F)) := by
  unfold out3_A_1
  rw [View.read_writes_eq_canon _ _ _ (cover3_A_1 c i a1 h1 a2 h2 a3 h3 hc x)]
  unfold kernelRun3_A
  dsimp only
  sl_unfold_words
  rw [View.canon_cons_unit_zero (S := S8x1) hz, View.readCov_unit_zero (S := S8x1) _ hz]
  simp only [View.readAt_eq_ld, h1.read_unread, View.ld_unit_zero (S := S8x65536) hz]

/-- At the first point output 2 is reset to zero, read back, and left at zero plus the lane sums of the block's squares. -/
theorem out_A_2 (c : Dev nD) (i : grid3.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : cond3_0 i) (x : Vec F S8x65536 .f32) :
    out3_A_2 c i a1 h1 a2 h2 a3 h3 hc x = k3_pay5 x (k3_pay2 (F := F)) := by
  unfold out3_A_2
  rw [View.read_writes_eq_canon _ _ _ (cover3_A_2 c i a1 h1 a2 h2 a3 h3 hc x)]
  unfold kernelRun3_A
  dsimp only
  sl_unfold_words
  rw [View.canon_cons_unit_zero (S := S8x1) hz, View.readCov_unit_zero (S := S8x1) _ hz]
  simp only [View.readAt_eq_ld, h1.read_unread, View.ld_unit_zero (S := S8x65536) hz]

/-! ## The outputs after each point -/

/-- At the first point: the reset value plus the block's contribution. -/
theorem outsAt_A (c : Dev nD) (t : Fin cfg3.N) (h0 : t.val % 8 = 0) :
    outsAt3 V c t.val t.isLt
      = (k3_pay4 (hblk V c t) (k3_pay1 (F := F)), k3_pay5 (hblk V c t) (k3_pay2 (F := F))) := by
  rw [outsAt3_A V c t h0,
    out_A_1 c (grid3.coords t) (ms3_0 t) (hs3_0 t) (ms3_1 t) (hs3_1 t) (ms3_2 t) (hs3_2 t) ((hcond3_0 t).mpr h0) (iblk3 V c 0 t),
    out_A_2 c (grid3.coords t) (ms3_0 t) (hs3_0 t) (ms3_1 t) (hs3_1 t) (ms3_2 t) (hs3_2 t) ((hcond3_0 t).mpr h0) (iblk3 V c 0 t)]

/-- At a later point: what the point before left plus the block's contribution. -/
theorem outsAt_B (c : Dev nD) (t : Fin cfg3.N) (h0 : ¬t.val % 8 = 0) :
    outsAt3 V c t.val t.isLt
      = (k3_pay4 (hblk V c t) (outsAt3 V c (t.val - 1) (Nat.lt_of_le_of_lt (Nat.sub_le _ _) t.isLt)).1,
         k3_pay5 (hblk V c t) (outsAt3 V c (t.val - 1) (Nat.lt_of_le_of_lt (Nat.sub_le _ _) t.isLt)).2) := by
  rw [outsAt3_B V c t h0,
    out_B_1 c (grid3.coords t) (ms3_0 t) (hs3_0 t) (ms3_1 t) (hs3_1 t) (ms3_2 t) (hs3_2 t) (fun h => h0 ((hcond3_0 t).mp h)) (iblk3 V c 0 t)
      (outsAt3 V c (t.val - 1) (Nat.lt_of_le_of_lt (Nat.sub_le _ _) t.isLt)).1 (outsAt3 V c (t.val - 1) (Nat.lt_of_le_of_lt (Nat.sub_le _ _) t.isLt)).2,
    out_B_2 c (grid3.coords t) (ms3_0 t) (hs3_0 t) (ms3_1 t) (hs3_1 t) (ms3_2 t) (hs3_2 t) (fun h => h0 ((hcond3_0 t).mp h)) (iblk3 V c 0 t)
      (outsAt3 V c (t.val - 1) (Nat.lt_of_le_of_lt (Nat.sub_le _ _) t.isLt)).1 (outsAt3 V c (t.val - 1) (Nat.lt_of_le_of_lt (Nat.sub_le _ _) t.isLt)).2]

/-! ## The partial sums, over the extended reals -/

/-- Tile `s`'s contribution to row `r`'s sum and sum of squares (zero past the last tile). -/
def tileSum (H : ArrCP) (r : Fin 8) (s : ℕ) : EReal := if h : s < 8 then ∑ l : Fin 65536, H r (col ⟨s, h⟩ l) else 0
def tileSsq (H : ArrCP) (r : Fin 8) (s : ℕ) : EReal :=
  if h : s < 8 then ∑ l : Fin 65536, H r (col ⟨s, h⟩ l) * H r (col ⟨s, h⟩ l) else 0

section AtIdeal

variable (W : (c : Dev nD) → (b : Ref sig .tc) → Buf (Elt Ideal) ((c : Thread nD τ).loc b))

/-- The block at point `t` contributes tile `t`. -/
theorem blockSum (c : Dev nD) (t : Fin cfg3.N) (r : Fin 8) :
    ∑ l : Fin 65536, hblk W c t (ix2 r l) = tileSum (toCP (harr W c)) r t.val := by
  have h8 : t.val < 8 := lt_of_lt_of_eq t.isLt (show cfg3.N = 8 from N_3)
  unfold tileSum
  rw [dif_pos h8]
  exact Finset.sum_congr rfl fun l _ => blk_read W c t ⟨t.val, h8⟩ rfl r l

theorem blockSsq (c : Dev nD) (t : Fin cfg3.N) (r : Fin 8) :
    ∑ l : Fin 65536, hblk W c t (ix2 r l) * hblk W c t (ix2 r l) = tileSsq (toCP (harr W c)) r t.val := by
  have h8 : t.val < 8 := lt_of_lt_of_eq t.isLt (show cfg3.N = 8 from N_3)
  unfold tileSsq
  rw [dif_pos h8]
  exact Finset.sum_congr rfl fun l _ => by rw [blk_read W c t ⟨t.val, h8⟩ rfl r l]; rfl

/-- After point `n` row `r` of output 1 holds the sum of tiles `0 … n`, and of output 2 the sum of their squares. -/
theorem outsAt_eq (c : Dev nD) : ∀ (n : ℕ) (h : n < cfg3.N) (r : Fin 8),
    ((outsAt3 W c n h).1 : Vec Ideal S8x1 .f32) (ix2 r 0) = ∑ s ∈ Finset.range (n + 1), tileSum (toCP (harr W c)) r s
      ∧ ((outsAt3 W c n h).2 : Vec Ideal S8x1 .f32) (ix2 r 0) = ∑ s ∈ Finset.range (n + 1), tileSsq (toCP (harr W c)) r s
  | 0, h, r => by
    rw [outsAt_A W c ⟨0, h⟩ rfl]
    dsimp only
    rw [pay4_apply (hblk W c ⟨0, h⟩) (k3_pay1 (F := Ideal)) r, pay5_apply (hblk W c ⟨0, h⟩) (k3_pay2 (F := Ideal)) r,
      pay1_apply, pay2_apply, Finset.sum_range_one, Finset.sum_range_one, zero_add, zero_add]
    exact ⟨blockSum W c ⟨0, h⟩ r, blockSsq W c ⟨0, h⟩ r⟩
  | n + 1, h, r => by
    have hN : cfg3.N = 8 := N_3
    have hB : ¬(⟨n + 1, h⟩ : Fin cfg3.N).val % 8 = 0 := by dsimp only; omega
    obtain ⟨ih1, ih2⟩ := outsAt_eq c n (Nat.lt_of_succ_lt h) r
    rw [outsAt_B W c ⟨n + 1, h⟩ hB]
    dsimp only
    refine ⟨?_, ?_⟩
    · refine (pay4_apply (hblk W c ⟨n + 1, h⟩) (outsAt3 W c n (Nat.lt_of_succ_lt h)).1 r).trans ?_
      rw [ih1, Finset.sum_range_succ _ (n + 1), blockSum W c ⟨n + 1, h⟩ r]
    · refine (pay5_apply (hblk W c ⟨n + 1, h⟩) (outsAt3 W c n (Nat.lt_of_succ_lt h)).2 r).trans ?_
      rw [ih2, Finset.sum_range_succ _ (n + 1), blockSsq W c ⟨n + 1, h⟩ r]

end AtIdeal

/-! ## The arrays the outputs are written back to -/

/-- What the outputs hold after the last point, as contents of their arrays (the one block is the array). -/
abbrev last1 (c : Dev nD) : Buf (Elt F) ((c : Thread nD τ).loc main_v74_0) :=
  (outsAt3 V c t3_7.val t3_7.isLt).1
abbrev last2 (c : Dev nD) : Buf (Elt F) ((c : Thread nD τ).loc main_v74_1) :=
  (outsAt3 V c t3_7.val t3_7.isLt).2

/-- The one write-back of output 1, at the last point, writes it. -/
theorem flushed_eq1 (c : Dev nD) (t : Fin cfg3.N) (hf : (cfg3.win 1).flush t = true) :
    (dat3 V c).flushed 1 t = ((cfg3.win 1).blk t).view.read (Elt F) (last1 V c) := by
  have hN : cfg3.N = 8 := N_3
  have h7 : t.val = 7 := by have := (flush3_1 t).mp hf; have := t.isLt; omega
  obtain rfl : t = t3_7 := Fin.ext h7
  show (cfg3.win 1).cut (grid3.coords t3_7) ((dat3 V c).after 1 t3_7) = _
  rw [after3_1]
  have hz' : (fun a => win3_1.index t3_7 a * main_v74_0.ty.shape.size a) = fun _ => 0 := funext fun a => by fin_cases a <;> decide
  exact (Memref.read_access_unit_zero (Elt F) main_v74_0 hz' (fun a => by rw [congrFun hz' a]; simp) (last1 V c)).symm

theorem flushed_eq2 (c : Dev nD) (t : Fin cfg3.N) (hf : (cfg3.win 2).flush t = true) :
    (dat3 V c).flushed 2 t = ((cfg3.win 2).blk t).view.read (Elt F) (last2 V c) := by
  have hN : cfg3.N = 8 := N_3
  have h7 : t.val = 7 := by have := (flush3_2 t).mp hf; have := t.isLt; omega
  obtain rfl : t = t3_7 := Fin.ext h7
  show (cfg3.win 2).cut (grid3.coords t3_7) ((dat3 V c).after 2 t3_7) = _
  rw [after3_2]
  have hz' : (fun a => win3_2.index t3_7 a * main_v74_1.ty.shape.size a) = fun _ => 0 := funext fun a => by fin_cases a <;> decide
  exact (Memref.read_access_unit_zero (Elt F) main_v74_1 hz' (fun a => by rw [congrFun hz' a]; simp) (last2 V c)).symm

/-- So the arrays end holding what the outputs hold after the last point: its block covers them. -/
theorem final1 (c : Dev nD) : (dat3 V c).arrAt 1 cfg3.N = last1 V c :=
  (dat3 V c).arrAt_eq_of_cover 1 (last1 V c) (flushed_eq1 V c) fun i =>
    ⟨t3_7, (flush3_1 t3_7).mpr rfl, by
      show i ∈ ((View.whole main_v74_0).slice (win3_1.rect t3_7)).set
      rw [View.set_slice_whole, Rect.mem_set_unit]
      intro a
      have h0 : (i 0 : Nat) < 8 := (i 0).isLt
      have h1 : (i 1 : Nat) < 1 := (i 1).isLt
      match a with
      | ⟨0, _⟩ => show win3_1.index t3_7 0 * win3_1.size 0 ≤ (i 0 : Nat) ∧ (i 0 : Nat) < win3_1.index t3_7 0 * win3_1.size 0 + win3_1.xsize (grid3.coords t3_7) 0
                  rw [show win3_1.index t3_7 0 * win3_1.size 0 = 0 from by decide +kernel, show win3_1.xsize (grid3.coords t3_7) 0 = 8 from by decide +kernel]; omega
      | ⟨1, _⟩ => show win3_1.index t3_7 1 * win3_1.size 1 ≤ (i 1 : Nat) ∧ (i 1 : Nat) < win3_1.index t3_7 1 * win3_1.size 1 + win3_1.xsize (grid3.coords t3_7) 1
                  rw [show win3_1.index t3_7 1 * win3_1.size 1 = 0 from by decide +kernel, show win3_1.xsize (grid3.coords t3_7) 1 = 1 from by decide +kernel]; omega⟩

theorem final2 (c : Dev nD) : (dat3 V c).arrAt 2 cfg3.N = last2 V c :=
  (dat3 V c).arrAt_eq_of_cover 2 (last2 V c) (flushed_eq2 V c) fun i =>
    ⟨t3_7, (flush3_2 t3_7).mpr rfl, by
      show i ∈ ((View.whole main_v74_1).slice (win3_2.rect t3_7)).set
      rw [View.set_slice_whole, Rect.mem_set_unit]
      intro a
      have h0 : (i 0 : Nat) < 8 := (i 0).isLt
      have h1 : (i 1 : Nat) < 1 := (i 1).isLt
      match a with
      | ⟨0, _⟩ => show win3_2.index t3_7 0 * win3_2.size 0 ≤ (i 0 : Nat) ∧ (i 0 : Nat) < win3_2.index t3_7 0 * win3_2.size 0 + win3_2.xsize (grid3.coords t3_7) 0
                  rw [show win3_2.index t3_7 0 * win3_2.size 0 = 0 from by decide +kernel, show win3_2.xsize (grid3.coords t3_7) 0 = 8 from by decide +kernel]; omega
      | ⟨1, _⟩ => show win3_2.index t3_7 1 * win3_2.size 1 ≤ (i 1 : Nat) ∧ (i 1 : Nat) < win3_2.index t3_7 1 * win3_2.size 1 + win3_2.xsize (grid3.coords t3_7) 1
                  rw [show win3_2.index t3_7 1 * win3_2.size 1 = 0 from by decide +kernel, show win3_2.xsize (grid3.coords t3_7) 1 = 1 from by decide +kernel]; omega⟩

/-! ## The value of the region -/

/-- The eight tiles' contributions are the spec's sums. -/
theorem sum_tiles (H : ArrCP) (r : Fin 8) : ∑ s ∈ Finset.range (7 + 1), tileSum H r s = sumK H r := by
  unfold sumK
  rw [Finset.sum_range]
  exact Finset.sum_congr rfl fun t _ => by unfold tileSum; rw [dif_pos t.isLt]

theorem ssq_tiles (H : ArrCP) (r : Fin 8) : ∑ s ∈ Finset.range (7 + 1), tileSsq H r s = ssqK H r := by
  unfold ssqK
  rw [Finset.sum_range]
  exact Finset.sum_congr rfl fun t _ => by unfold tileSsq; rw [dif_pos t.isLt]

/-- Output 1's array ends holding the input's row sums. -/
theorem stats0_sum (W : (c : Dev nD) → (b : Ref sig .tc) → Buf (Elt Ideal) ((c : Thread nD τ).loc b)) (c : Dev nD) :
    toV81 ((dat3 (F := Ideal) W c).arrAt 1 cfg3.N) = sumK (toCP (W c (Pipeline.arrRef spec3 0))) := by
  rw [final1 W c]
  funext r
  exact ((outsAt_eq W c t3_7.val t3_7.isLt r).1).trans (sum_tiles _ r)

/-- Output 2's array ends holding the input's row sums of squares. -/
theorem stats0_ssq (W : (c : Dev nD) → (b : Ref sig .tc) → Buf (Elt Ideal) ((c : Thread nD τ).loc b)) (c : Dev nD) :
    toV81 ((dat3 (F := Ideal) W c).arrAt 2 cfg3.N) = ssqK (toCP (W c (Pipeline.arrRef spec3 0))) := by
  rw [final2 W c]
  funext r
  exact ((outsAt_eq W c t3_7.val t3_7.isLt r).2).trans (ssq_tiles _ r)

end Cert.KernelIdeal.Val3

end
-- ==== Proof.KHost4.lean ====
/-
  What the host operations between the statistics and the transform of a layer compute, read at an index, over
  the extended reals: the row sums divided by the number of nodes (the batch mean), the row sums of squares
  divided by the number of nodes minus the squared mean (the batch variance), the layer's row of the scales
  and of the shifts as columns, and the layer's weight matrix transposed. They hold from any contents the
  operations start from; a buffer none of them writes keeps its contents.
-/
import proofs.«143139_j73710228734964_1_alg».proof.Proof.Gen.KernelIdeal.Launch
import proofs.«143139_j73710228734964_1_alg».proof.Proof.Spec
import proofs.«143139_j73710228734964_1_alg».proof.Proof.Conv
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 2928

noncomputable section

namespace Cert.KernelIdeal.Host4

open Cert.KernelIdeal Cert.KernelIdeal.Gen Cert.GCN Idealize.ShloMosaic Idealize.ShloMosaic.ValueIdx

/-! ## The divisor -/

/-- The word `0x48F42400` denotes the number of nodes, 500000. -/
theorem ofBits_nN : Ideal.ofBits .f32 0x48F42400#32 = nN := by
  show Ideal.ieee 8 23 (0x48F42400#32 : BitVec 32) = ((500000 : ℝ) : EReal)
  simp [Ideal.ieee]
  rw [← EReal.coe_mul]
  norm_num

/-- The scalar constant 500000 broadcast to a column `[8, 1]`. -/
local notation "colN" =>
  (broadcastInDim S8x1 ![] bcast_S_S8x1 (constant (F := Ideal) S_ FTy.f32 0x48F42400#32) : S8x1.Idx → EReal)

/-- It reads 500000 at every index. -/
theorem colN_apply (j : S8x1.Idx) : colN j = nN := by
  rw [broadcastInDim_scalar_apply, constant_apply, ofBits_nN]

/-! ## The operations read at an index, over variables -/

/-- A column divided by the constant column, read at row `c`. -/
theorem divN_apply (x : S8x1.Idx → EReal) (c : Fin 8) :
    toV81 (Host.divf (F := Ideal) (φ := .f32) x colN) c = Ideal.div (toV81 x c) nN := by
  show Ideal.div (x (ix2 c 0)) (colN (ix2 c 0)) = _
  rw [colN_apply]
  rfl

/-- The quotient of `y` minus the squared quotient of `x`, read at row `c`. -/
theorem varN_apply (x y : S8x1.Idx → EReal) (c : Fin 8) :
    toV81 (subf (F := Ideal) (φ := .f32) (Host.divf (F := Ideal) (φ := .f32) y colN)
        (mulf (F := Ideal) (φ := .f32) (Host.divf (F := Ideal) (φ := .f32) x colN) (Host.divf (F := Ideal) (φ := .f32) x colN))) c
      = Ideal.div (toV81 y c) nN - Ideal.div (toV81 x c) nN * Ideal.div (toV81 x c) nN := by
  show Ideal.div (y (ix2 c 0)) (colN (ix2 c 0))
      - Ideal.div (x (ix2 c 0)) (colN (ix2 c 0)) * Ideal.div (x (ix2 c 0)) (colN (ix2 c 0)) = _
  rw [colN_apply]
  rfl

/-- A vector `[8]` cast to a column `[8, 1]` reads, at `(c, u)`, the vector at `c`. -/
theorem shapeCast_8_8x1_apply (x : S8.Idx → EReal) (h : S8.ShapeCasts S8x1) (c : Fin 8) (u : Fin 1) :
    shapeCast S8x1 x h (ix2 c u) = x (ix1 c) :=
  shapeCast_apply x h _ _ (by
    have hu : u.val = 0 := by omega
    rw [Shape.rowMajor_val_two, Shape.rowMajor_val_one]
    show c.val = c.val * 1 + u.val
    omega)

/-- Row `o` of a matrix `[8, 8]`, cut out as `[1, 8]`, cast to `[8]` and then to a column `[8, 1]`: its row `c` is the
    matrix at `(o, c)`. -/
theorem rowCol_apply (o : Nat) (x : S8x8.Idx → EReal) (h : S8x8.Slices ![o, 0] S1x8) (r : Fin 8) (hr : r.val = o) (c : Fin 8) :
    toV81 (shapeCast S8x1 (shapeCast S8 (extractStridedSlice S1x8 ![o, 0] x h) shapeCasts_S1x8_S8) shapeCasts_S8_S8x1) c
      = toM8 x r c := by
  show shapeCast S8x1 (shapeCast S8 (extractStridedSlice S1x8 ![o, 0] x h) shapeCasts_S1x8_S8) shapeCasts_S8_S8x1 (ix2 c 0)
      = x (ix2 r c)
  rw [shapeCast_8_8x1_apply, shapeCast_1a_a_apply]
  exact slice2_axis0_apply o x h 0 c r hr

/-- Matrix `o` of a stack `[8, 8, 8]`, cut out as `[1, 8, 8]`, cast to `[8, 8]` and transposed: its entry `(a, b)` is the
    stack at `(o, b, a)`. -/
theorem sliceT_apply (o : Nat) (x : S8x8x8.Idx → EReal) (h : S8x8x8.Slices ![o, 0, 0] S1x8x8) (r : Fin 8) (hr : r.val = o)
    (a b : Fin 8) :
    toM8 (transpose S8x8 [1, 0] (shapeCast S8x8 (extractStridedSlice S1x8x8 ![o, 0, 0] x h) shapeCasts_S1x8x8_S8x8)
        transposes_S8x8_S8x8_1_0) a b = x (ix3 r b a) := by
  show transpose S8x8 [1, 0] (shapeCast S8x8 (extractStridedSlice S1x8x8 ![o, 0, 0] x h) shapeCasts_S1x8x8_S8x8)
        transposes_S8x8_S8x8_1_0 (ix2 a b) = x (ix3 r b a)
  rw [transpose_ix2_apply, shapeCast_1ab_ab_apply]
  exact extractStridedSlice_apply _ _ _ _ _ (fun ax => by
    match ax with
    | ⟨0, _⟩ => exact hr
    | ⟨1, _⟩ => exact (Nat.zero_add _).symm
    | ⟨2, _⟩ => exact (Nat.zero_add _).symm)

/-! ## The stretch's results -/

section Results

variable (W : Valuation τ sig (Elt Ideal))

theorem after_main_v38 :
    (StableHlo.after (hostOps4 (F := Ideal)) W (Proc.devRef .tc main_v76) : S8x1.Idx → EReal)
      = Host.divf (F := Ideal) (φ := .f32) (W (Proc.devRef .tc main_v74_0)) colN := by
  after_results <;> rfl

theorem after_main_v42 :
    (StableHlo.after (hostOps4 (F := Ideal)) W (Proc.devRef .tc main_v80) : S8x1.Idx → EReal)
      = subf (F := Ideal) (φ := .f32) (Host.divf (F := Ideal) (φ := .f32) (W (Proc.devRef .tc main_v74_1)) colN)
          (mulf (F := Ideal) (φ := .f32) (Host.divf (F := Ideal) (φ := .f32) (W (Proc.devRef .tc main_v74_0)) colN)
            (Host.divf (F := Ideal) (φ := .f32) (W (Proc.devRef .tc main_v74_0)) colN)) := by
  after_results <;> rfl

/-- The batch mean's column: the row sums over the number of nodes. -/
theorem mean1 :
    toV81 (StableHlo.after (hostOps4 (F := Ideal)) W (Proc.devRef .tc main_v76))
      = fun c => Ideal.div (toV81 (W (Proc.devRef .tc main_v74_0)) c) nN := by
  funext c
  rw [after_main_v38]
  exact divN_apply _ c

/-- The batch variance's column: the mean of the squares minus the squared mean. -/
theorem var1 :
    toV81 (StableHlo.after (hostOps4 (F := Ideal)) W (Proc.devRef .tc main_v80))
      = fun c => Ideal.div (toV81 (W (Proc.devRef .tc main_v74_1)) c) nN
          - Ideal.div (toV81 (W (Proc.devRef .tc main_v74_0)) c) nN * Ideal.div (toV81 (W (Proc.devRef .tc main_v74_0)) c) nN := by
  funext c
  rw [after_main_v42]
  exact varN_apply _ _ c

/-- The scale's column: row 0 of the scales' matrix. -/
theorem gamma1 :
    toV81 (StableHlo.after (hostOps4 (F := Ideal)) W (Proc.devRef .tc main_v83))
      = fun c => toM8 (W (Proc.devRef .tc main_arg4)) (1 : Fin 8) c := by
  funext c
  after_results
  exact rowCol_apply _ _ _ (1 : Fin 8) rfl c

/-- The shift's column: row 0 of the shifts' matrix. -/
theorem beta1 :
    toV81 (StableHlo.after (hostOps4 (F := Ideal)) W (Proc.devRef .tc main_v86))
      = fun c => toM8 (W (Proc.devRef .tc main_arg5)) (1 : Fin 8) c := by
  funext c
  after_results
  exact rowCol_apply _ _ _ (1 : Fin 8) rfl c

/-- The weights: matrix 0 of the stack, transposed. -/
theorem wT1 :
    toM8 (StableHlo.after (hostOps4 (F := Ideal)) W (Proc.devRef .tc main_v89))
      = fun a b => (W (Proc.devRef .tc main_arg6) : S8x8x8.Idx → EReal) (ValueIdx.ix3 (1 : Fin 8) b a) := by
  funext a b
  after_results
  exact sliceT_apply _ _ _ (1 : Fin 8) rfl a b

/-- The buffers the stretch writes. -/
def writes1 : List (Ref sig .tc) :=
  [main_cst_13, main_v75, main_v76, main_cst_14, main_v77, main_v78, main_v79, main_v80, main_v81, main_v82, main_v83,
    main_v84, main_v85, main_v86, main_v87, main_v88, main_v89]

/-- A buffer the stretch does not write keeps its contents. -/
theorem kept1 {b : Ref sig .tc} (hb : b ∉ writes1) :
    StableHlo.after (hostOps4 (F := Ideal)) W (Proc.devRef .tc b) = W (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes,
      StableHlo.reshape_writes, Finset.mem_singleton]
    repeat' apply And.intro
    all_goals exact StableHlo.devRef_ne_of_ne (fun e => hb (by rw [e]; decide))))

theorem kept1_main_v35 : StableHlo.after (hostOps4 (F := Ideal)) W (Proc.devRef .tc main_v73) = W (Proc.devRef .tc main_v73) :=
  kept1 W (by decide)
theorem kept1_main_v3 : StableHlo.after (hostOps4 (F := Ideal)) W (Proc.devRef .tc main_v3) = W (Proc.devRef .tc main_v3) :=
  kept1 W (by decide)
theorem kept1_main_v6 : StableHlo.after (hostOps4 (F := Ideal)) W (Proc.devRef .tc main_v6) = W (Proc.devRef .tc main_v6) :=
  kept1 W (by decide)
theorem kept1_main_v26 : StableHlo.after (hostOps4 (F := Ideal)) W (Proc.devRef .tc main_v26) = W (Proc.devRef .tc main_v26) :=
  kept1 W (by decide)
theorem kept1_main_arg7 : StableHlo.after (hostOps4 (F := Ideal)) W (Proc.devRef .tc main_arg7) = W (Proc.devRef .tc main_arg7) :=
  kept1 W (by decide)

end Results

end Cert.KernelIdeal.Host4

end
-- ==== Proof.KTransform4.lean ====
/-
  The value of the transform kernel of layer 0 (region 1 of the kernel program), at the ideal values and for any
  contents `V` of the buffers when the region is entered.

  The region walks the 8 column blocks of 65536 lanes of `H : [8, 524288]`. At block `t` it reads the block of `H`,
  the four columns `[8, 1]` (mean, variance, scale, shift) and the matrix `wT : [8, 8]` whole, and stores
    wT · ((x − mean) · rsqrt(var + eps) · scale + shift)
  into block `t` of the output: entry `(co, l)` of the stored block is the sum over the input channel `ci` of
  `wT (co, ci)` times the normalised entry `(ci, l)` of the block. The 8 blocks tile the output array, so the array
  ends holding, at `(co, n)`, the same sum with column `n = 65536 · t + l` of `H`.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.PureOps.Ideal.Laws

noncomputable section

namespace Cert.KernelIdeal.Val4

open Cert.KernelIdeal Cert.KernelIdeal.Gen Cert.KernelIdeal.GenP Cert.GCN
open Idealize.ShloMosaic Idealize.ShloMosaic.TcCoe Idealize.ShloMosaic.ValueIdx Idealize.SL.Sem
open Idealize.ShloMosaic.Pipeline (Dat)
open scoped BigOperators

/-! ## The payload at an index -/

/-- An `[8, 1]` column broadcast along the lanes reads, at `(p, l)`, the column's entry of row `p`. -/
theorem bcast_col_apply {α : Type} (v : S8x1.Idx → α) (h : S8x1.Broadcasts S8x65536) (p : Fin 8) (l : Fin 65536) :
    broadcastTo S8x65536 v h (ix2 p l) = v (ix2 p (0 : Fin 1)) := by
  refine broadcastTo_apply v h (ix2 p l) (ix2 p (0 : Fin 1)) fun ax => ?_
  match ax with
  | ⟨0, _⟩ => rfl
  | ⟨1, _⟩ => rfl

/-- The product's left operand is read at the output's row … -/
theorem lhs_dot_0 (j : S8x65536.Idx) (k : dot_S8x8_S8x65536_S8x65536_1_0_0_1_n_n.contr.Idx) :
    ((dot_S8x8_S8x65536_S8x65536_1_0_0_1_n_n.lhsIdx j k 0 : Fin _) : ℕ) = (j 0 : ℕ) := by
  simp [DotDims.lhsIdx, dot_S8x8_S8x65536_S8x65536_1_0_0_1_n_n]
  rfl

/-- … and at the contracted coordinate; -/
theorem lhs_dot_1 (j : S8x65536.Idx) (k : dot_S8x8_S8x65536_S8x65536_1_0_0_1_n_n.contr.Idx) :
    ((dot_S8x8_S8x65536_S8x65536_1_0_0_1_n_n.lhsIdx j k 1 : Fin _) : ℕ) = (k ⟨0, by decide⟩ : ℕ) :=
  dot_S8x8_S8x65536_S8x65536_1_0_0_1_n_n.lhsIdx_val_of_single rfl j k

/-- the right operand at the contracted coordinate … -/
theorem rhs_dot_0 (j : S8x65536.Idx) (k : dot_S8x8_S8x65536_S8x65536_1_0_0_1_n_n.contr.Idx) :
    ((dot_S8x8_S8x65536_S8x65536_1_0_0_1_n_n.rhsIdx j k 0 : Fin _) : ℕ) = (k ⟨0, by decide⟩ : ℕ) :=
  dot_S8x8_S8x65536_S8x65536_1_0_0_1_n_n.rhsIdx_val_of_single rfl j k

/-- … and at the output's lane. -/
theorem rhs_dot_1 (j : S8x65536.Idx) (k : dot_S8x8_S8x65536_S8x65536_1_0_0_1_n_n.contr.Idx) :
    ((dot_S8x8_S8x65536_S8x65536_1_0_0_1_n_n.rhsIdx j k 1 : Fin _) : ℕ) = (j 1 : ℕ) := by
  simp [DotDims.rhsIdx, dot_S8x8_S8x65536_S8x65536_1_0_0_1_n_n]
  rfl

/-- The payload at `(co, l)`: the normalised, scaled and shifted column `l` of the block, multiplied on the left by
    row `co` of the matrix. The product's zero accumulator adds nothing, and the narrowing of the two operands is the
    identity on the extended reals. -/
theorem pay1_apply (v0 v2 v4 v6 : Vec Ideal S8x1 .f32) (v11 : Vec Ideal S8x65536 .f32) (v21 : Vec Ideal S8x8 .f32)
    (co : Fin 8) (l : Fin 65536) :
    k4_pay1 (F := Ideal) v0 v2 v4 v6 v11 v21 (ix2 co l)
      = ∑ ci : Fin 8, v21 (ix2 co ci)
          * ((v11 (ix2 ci l) - v0 (ix2 ci (0 : Fin 1))) * Ideal.rsqrt (v2 (ix2 ci (0 : Fin 1)) + eps) * v4 (ix2 ci (0 : Fin 1))
              + v6 (ix2 ci (0 : Fin 1))) := by
  unfold k4_pay1
  refine (Ideal.matmul_constant_zero_apply dot_S8x8_S8x65536_S8x65536_1_0_0_1_n_n none _ _ (ix2 co l)).trans ?_
  refine (Equiv.sum_comp (contrEquiv1 dot_S8x8_S8x65536_S8x65536_1_0_0_1_n_n 8 rfl rfl).symm _).symm.trans ?_
  refine Finset.sum_congr rfl fun ci _ => ?_
  have c2 := contrEquiv1_symm_val dot_S8x8_S8x65536_S8x65536_1_0_0_1_n_n 8 rfl rfl ci
  have l2 : dot_S8x8_S8x65536_S8x65536_1_0_0_1_n_n.lhsIdx (ix2 co l) ((contrEquiv1 _ 8 rfl rfl).symm ci) = ix2 co ci := by
    funext ax; apply Fin.ext
    match ax with
    | ⟨0, _⟩ => exact lhs_dot_0 _ _
    | ⟨1, _⟩ => exact (lhs_dot_1 _ _).trans c2
  have r2 : dot_S8x8_S8x65536_S8x65536_1_0_0_1_n_n.rhsIdx (ix2 co l) ((contrEquiv1 _ 8 rfl rfl).symm ci) = ix2 ci l := by
    funext ax; apply Fin.ext
    match ax with
    | ⟨0, _⟩ => exact (rhs_dot_0 _ _).trans c2
    | ⟨1, _⟩ => exact rhs_dot_1 _ _
  rw [l2, r2]
  simp only [truncf_apply, shapeCast_self, addf_apply, mulf_apply, subf_apply, bcast_col_apply]
  rfl

/-- The same at an index of the block given by its two coordinates' values. -/
theorem pay1_at (x0 : Vec Ideal S8x65536 .f32) (x1 x2 x3 x4 : Vec Ideal S8x1 .f32) (x5 : Vec Ideal S8x8 .f32)
    (y : S8x65536.Idx) (p : Fin 8) (q : Fin 65536) (hp : (y 0).val = p.val) (hq : (y 1).val = q.val) :
    k4_pay1 (F := Ideal) x1 x2 x3 x4 x0 x5 y
      = ∑ ci : Fin 8, x5 (ix2 p ci)
          * ((x0 (ix2 ci q) - x1 (ix2 ci (0 : Fin 1))) * Ideal.rsqrt (x2 (ix2 ci (0 : Fin 1)) + eps) * x3 (ix2 ci (0 : Fin 1))
              + x4 (ix2 ci (0 : Fin 1))) := by
  have hy : y = ix2 p q := by
    funext a; apply Fin.ext
    match a with
    | ⟨0, _⟩ => exact hp
    | ⟨1, _⟩ => exact hq
  rw [hy]
  exact pay1_apply x1 x2 x3 x4 x0 x5 p q

/-! ## From blocks to the array -/

section Blocks

variable (V : (c : Dev nD) → (b : Ref sig .tc) → Buf (Elt Ideal) ((c : Thread nD τ).loc b))

/-- The six arrays the region reads, as it finds them: `H`, the mean, variance, scale and shift columns, the matrix. -/
abbrev harr (c : Dev nD) : Vec Ideal S8x524288 .f32 := V c (Pipeline.arrRef spec4 0)
abbrev marr (c : Dev nD) : Vec Ideal S8x1 .f32 := V c (Pipeline.arrRef spec4 1)
abbrev sarr (c : Dev nD) : Vec Ideal S8x1 .f32 := V c (Pipeline.arrRef spec4 2)
abbrev garr (c : Dev nD) : Vec Ideal S8x1 .f32 := V c (Pipeline.arrRef spec4 3)
abbrev barr (c : Dev nD) : Vec Ideal S8x1 .f32 := V c (Pipeline.arrRef spec4 4)
abbrev warr (c : Dev nD) : Vec Ideal S8x8 .f32 := V c (Pipeline.arrRef spec4 5)

/-- The transform at `(co, n)`: row `co` of the matrix times the normalised column `n` of `H`. -/
def T1 (c : Dev nD) (co : Fin 8) (n : Fin 524288) : EReal :=
  ∑ ci : Fin 8, warr V c (ix2 co ci)
    * ((harr V c (ix2 ci n) - marr V c (ix2 ci (0 : Fin 1))) * Ideal.rsqrt (sarr V c (ix2 ci (0 : Fin 1)) + eps) * garr V c (ix2 ci (0 : Fin 1))
        + barr V c (ix2 ci (0 : Fin 1)))

/-- The array the region leaves, as a function of its index. -/
abbrev G1 (c : Dev nD) : Vec Ideal S8x524288 .f32 := fun i => T1 V c (i 0) (i 1)

theorem hz : (![0, 0] : Fin 2 → Nat) = fun _ => 0 := funext fun a => by fin_cases a <;> rfl

/-- The block indices over the grid: the windows of `H` and of the output are at column block `t`, the five small
    windows at block `(0, 0)`. -/
theorem idx_facts1 : ∀ t : Fin cfg4.N,
    win4_0.index t (0 : Fin 2) = 0 ∧ win4_0.index t (1 : Fin 2) = t.val
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = t.val :=
  (by decide +kernel : ∀ t : Fin grid4.N, _)

/-- Entry `(r, l)` of the block of `H` at point `t` is entry `(r, 65536 · t + l)` of `H`. -/
theorem iblk1_0_apply (c : Dev nD) (t : Fin cfg4.N) (x : S8x65536.Idx) (k : S8x524288.Idx)
    (hk0 : (k 0).val = (x 0).val) (hk1 : (k 1).val = 65536 * t.val + (x 1).val) :
    (iblk4 V c 0 t : Vec Ideal S8x65536 .f32) x = harr V c k := by
  obtain ⟨e0, e1, -⟩ := idx_facts1 t
  unfold iblk4
  rw [View.read_apply]
  show V c (Pipeline.arrRef spec4 0) _ = V c (Pipeline.arrRef spec4 0) k
  congr 1
  funext a
  apply Fin.ext
  match a with
  | ⟨0, _⟩ => show win4_0.index t 0 * 8 + 1 * (x 0).val = (k 0).val; rw [e0, hk0]; omega
  | ⟨1, _⟩ => show win4_0.index t 1 * 65536 + 1 * (x 1).val = (k 1).val; rw [e1, hk1]; omega

/-- The block of each small window is its whole array, at every point. -/
theorem iblk1_1_eq (c : Dev nD) (t : Fin cfg4.N) : (iblk4 V c 1 t : Vec Ideal S8x1 .f32) = marr V c := by
  obtain ⟨-, -, e0, e1, -⟩ := idx_facts1 t
  funext x
  unfold iblk4
  rw [View.read_apply]
  show V c (Pipeline.arrRef spec4 1) _ = V c (Pipeline.arrRef spec4 1) x
  congr 1
  funext a
  apply Fin.ext
  match a with
  | ⟨0, _⟩ => show win4_1.index t 0 * 8 + 1 * (x 0).val = (x 0).val; rw [e0]; omega
  | ⟨1, _⟩ => show win4_1.index t 1 * 1 + 1 * (x 1).val = (x 1).val; rw [e1]; omega

theorem iblk1_2_eq (c : Dev nD) (t : Fin cfg4.N) : (iblk4 V c 2 t : Vec Ideal S8x1 .f32) = sarr V c := by
  obtain ⟨-, -, -, -, e0, e1, -⟩ := idx_facts1 t
  funext x
  unfold iblk4
  rw [View.read_apply]
  show V c (Pipeline.arrRef spec4 2) _ = V c (Pipeline.arrRef spec4 2) x
  congr 1
  funext a
  apply Fin.ext
  match a with
  | ⟨0, _⟩ => show win4_2.index t 0 * 8 + 1 * (x 0).val = (x 0).val; rw [e0]; omega
  | ⟨1, _⟩ => show win4_2.index t 1 * 1 + 1 * (x 1).val = (x 1).val; rw [e1]; omega

theorem iblk1_3_eq (c : Dev nD) (t : Fin cfg4.N) : (iblk4 V c 3 t : Vec Ideal S8x1 .f32) = garr V c := by
  obtain ⟨-, -, -, -, -, -, e0, e1, -⟩ := idx_facts1 t
  funext x
  unfold iblk4
  rw [View.read_apply]
  show V c (Pipeline.arrRef spec4 3) _ = V c (Pipeline.arrRef spec4 3) x
  congr 1
  funext a
  apply Fin.ext
  match a with
  | ⟨0, _⟩ => show win4_3.index t 0 * 8 + 1 * (x 0).val = (x 0).val; rw [e0]; omega
  | ⟨1, _⟩ => show win4_3.index t 1 * 1 + 1 * (x 1).val = (x 1).val; rw [e1]; omega

theorem iblk1_4_eq (c : Dev nD) (t : Fin cfg4.N) : (iblk4 V c 4 t : Vec Ideal S8x1 .f32) = barr V c := by
  obtain ⟨-, -, -, -, -, -, -, -, e0, e1, -⟩ := idx_facts1 t
  funext x
  unfold iblk4
  rw [View.read_apply]
  show V c (Pipeline.arrRef spec4 4) _ = V c (Pipeline.arrRef spec4 4) x
  congr 1
  funext a
  apply Fin.ext
  match a with
  | ⟨0, _⟩ => show win4_4.index t 0 * 8 + 1 * (x 0).val = (x 0).val; rw [e0]; omega
  | ⟨1, _⟩ => show win4_4.index t 1 * 1 + 1 * (x 1).val = (x 1).val; rw [e1]; omega

theorem iblk1_5_eq (c : Dev nD) (t : Fin cfg4.N) : (iblk4 V c 5 t : Vec Ideal S8x8 .f32) = warr V c := by
  obtain ⟨-, -, -, -, -, -, -, -, -, -, e0, e1, -⟩ := idx_facts1 t
  funext x
  unfold iblk4
  rw [View.read_apply]
  show V c (Pipeline.arrRef spec4 5) _ = V c (Pipeline.arrRef spec4 5) x
  congr 1
  funext a
  apply Fin.ext
  match a with
  | ⟨0, _⟩ => show win4_5.index t 0 * 8 + 1 * (x 0).val = (x 0).val; rw [e0]; omega
  | ⟨1, _⟩ => show win4_5.index t 1 * 8 + 1 * (x 1).val = (x 1).val; rw [e1]; omega

/-- What point `t` writes back is block `t` of the transformed array: entry `(co, l)` of the stored block is the
    transform at column `65536 · t + l`. -/
theorem flushed1_eq (c : Dev nD) (t : Fin cfg4.N) :
    (dat4 V c).flushed 6 t = ((cfg4.win 6).blk t).view.read (Elt Ideal) (G1 V c) := by
  show (cfg4.win 6).cut (grid4.coords t) ((dat4 V c).after 6 t) = _
  rw [after4_6]
  unfold out4_6
  rw [View.canon_unit_zero hz]
  simp only [View.ld_unit_zero (S := S8x1) hz, View.ld_unit_zero (S := S8x65536) hz, View.ld_unit_zero (S := S8x8) hz]
  obtain ⟨-, -, -, -, -, -, -, -, -, -, -, -, e0, e1⟩ := idx_facts1 t
  have ht : t.val < 8 := lt_of_lt_of_eq t.isLt N_4
  funext j
  have hj0 : (j 0).val < 8 := (j 0).isLt
  have hj1 : (j 1).val < 65536 := (j 1).isLt
  have hn : 65536 * t.val + (j 1).val < 524288 := by omega
  rw [View.read_apply]
  show k4_pay1 (F := Ideal) (iblk4 V c 1 t) (iblk4 V c 2 t) (iblk4 V c 3 t) (iblk4 V c 4 t) (iblk4 V c 0 t) (iblk4 V c 5 t)
      ((cfg4.win 6).xinj (grid4.coords t) j)
    = T1 V c ((((cfg4.win 6).blk t).view.emb j) 0) ((((cfg4.win 6).blk t).view.emb j) 1)
  have he0 : ((((cfg4.win 6).blk t).view.emb j) 0 : Fin 8) = ⟨(j 0).val, hj0⟩ :=
    Fin.ext (by show win4_6.index t 0 * 8 + 1 * (j 0).val = (j 0).val; rw [e0]; omega)
  have he1 : ((((cfg4.win 6).blk t).view.emb j) 1 : Fin 524288) = ⟨65536 * t.val + (j 1).val, hn⟩ :=
    Fin.ext (by show win4_6.index t 1 * 65536 + 1 * (j 1).val = 65536 * t.val + (j 1).val; rw [e1]; omega)
  rw [he0, he1]
  refine (pay1_at (iblk4 V c 0 t) (iblk4 V c 1 t) (iblk4 V c 2 t) (iblk4 V c 3 t) (iblk4 V c 4 t) (iblk4 V c 5 t)
    ((cfg4.win 6).xinj (grid4.coords t) j) ⟨(j 0).val, hj0⟩ ⟨(j 1).val, hj1⟩ rfl rfl).trans ?_
  unfold T1
  refine Finset.sum_congr rfl fun ci _ => ?_
  rw [iblk1_1_eq, iblk1_2_eq, iblk1_3_eq, iblk1_4_eq, iblk1_5_eq,
    iblk1_0_apply V c t (ix2 ci ⟨(j 1).val, hj1⟩) (ix2 ci ⟨65536 * t.val + (j 1).val, hn⟩) rfl rfl]
  rfl

/-- An index of the array is in point `t`'s block iff each coordinate is in the block's range on its axis. -/
theorem mem_blk1_6 (t : Fin cfg4.N) (i : S8x524288.Idx) :
    i ∈ ((cfg4.win 6).blk t).view.set ↔ ∀ a : Fin 2, win4_6.index t a * S8x65536.size a ≤ (i a).val ∧ (i a).val < win4_6.index t a * S8x65536.size a + S8x65536.size a := by
  show i ∈ ((View.whole main_v90).slice (win4_6.rect t)).set ↔ _
  rw [View.set_slice_whole, Rect.mem_set_unit]
  exact Iff.rfl

/-- Every index `(r, n)` of the array is in the block of point `n / 65536`. -/
theorem cover1 (i : S8x524288.Idx) : ∃ t : Fin cfg4.N, (cfg4.win 6).flush t = true ∧ i ∈ ((cfg4.win 6).blk t).view.set := by
  have hN : cfg4.N = 8 := N_4
  have h0 : (i 0).val < 8 := (i 0).isLt
  have h1 : (i 1).val < 524288 := (i 1).isLt
  obtain ⟨t, ht⟩ : ∃ t : Fin cfg4.N, t.val = (i 1).val / 65536 := ⟨⟨(i 1).val / 65536, lt_of_lt_of_eq (by omega) hN.symm⟩, rfl⟩
  obtain ⟨-, -, -, -, -, -, -, -, -, -, -, -, e0, e1⟩ := idx_facts1 t
  refine ⟨t, flush4_6 t, ?_⟩
  rw [mem_blk1_6]
  intro a
  match a with
  | ⟨0, _⟩ => show win4_6.index t 0 * 8 ≤ (i 0).val ∧ (i 0).val < win4_6.index t 0 * 8 + 8; rw [e0]; omega
  | ⟨1, _⟩ => show win4_6.index t 1 * 65536 ≤ (i 1).val ∧ (i 1).val < win4_6.index t 1 * 65536 + 65536; rw [e1, ht]; omega

/-- The output array after the region's 8 points is the transformed array. -/
theorem final1 (c : Dev nD) : (dat4 V c).arrAt 6 cfg4.N = G1 V c :=
  (dat4 V c).arrAt_eq_of_cover 6 (G1 V c) (fun t _ => flushed1_eq V c t) cover1

/-- THE VALUE of the transform region over the curried views: with `H`, the mean `μ`, the variance `σ²`, the scale
    `γ`, the shift `β` and the matrix `wT` read off the arrays as the region finds them, the output array is, at
    `(co, n)`, the sum over `ci` of `wT co ci · ((H ci n − μ ci) · rsqrt(σ² ci + eps) · γ ci + β ci)`. -/
theorem transform1_val (c : Dev nD) :
    toCP ((dat4 V c).arrAt 6 cfg4.N)
      = fun co n => ∑ ci : Fin 8, toM8 (V c (Pipeline.arrRef spec4 5)) co ci
          * ((toCP (V c (Pipeline.arrRef spec4 0)) ci n - toV81 (V c (Pipeline.arrRef spec4 1)) ci)
              * Ideal.rsqrt (toV81 (V c (Pipeline.arrRef spec4 2)) ci + eps) * toV81 (V c (Pipeline.arrRef spec4 3)) ci
              + toV81 (V c (Pipeline.arrRef spec4 4)) ci) := by
  rw [final1]
  rfl

end Blocks

end Cert.KernelIdeal.Val4

end
-- ==== Proof.KHost5.lean ====
/-
  The kernel program's host operations between a layer's transform region and its residual region, read at an
  index over the extended reals, from any contents of the buffers they start from.
  Two layout facts carry everything. The first `N` columns of a channel-major array `[8, NP]`, transposed, are its
  node-major reading `[N, 8]`: entry `(n, c)` is entry `(c, n)`. A node-major array transposed and padded with zeros
  to `NP` columns is its channel-major padded layout: entry `(c, n)` is entry `(n, c)` below the last node and zero
  past it (the pad value is the integer zero converted to a float, which is zero).
  The operations slice and transpose the transform's output, aggregate it over the edges (gather at the sources,
  scale by the norms, add up at the targets: one function `AGG` of the sources, the targets, the norms and the
  array, never opened), transpose and pad the result back, and cut the layer's row out of the bias matrix as a
  column. Every buffer these operations do not write keeps its contents.
-/
import proofs.«143139_j73710228734964_1_alg».proof.Proof.Gen.KernelIdeal.Launch
import proofs.«143139_j73710228734964_1_alg».proof.Proof.Spec
import proofs.«143139_j73710228734964_1_alg».proof.Proof.Conv
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host5

open Cert.KernelIdeal Cert.KernelIdeal.Gen Cert.GCN Idealize.ShloMosaic Idealize.ShloMosaic.ValueIdx

/-- The first `N` columns of a channel-major array, transposed, are its node-major reading: index `(n, c)` reads `(c, n)`. -/
theorem unpad_layout (X : S8x524288.Idx → EReal) (hs : S8x524288.Slices ![0, 0] S8x500000)
    (ht : S8x500000.Transposes [1, 0] S500000x8) :
    transpose S500000x8 [1, 0] (extractStridedSlice S8x500000 ![0, 0] X hs) ht = ofNC (unpadT (toCP X)) := by
  funext j
  obtain ⟨n, c, rfl⟩ : ∃ (n : Fin 500000) (c : Fin 8), j = ix2 n c := ⟨j 0, j 1, eq_ix2 j⟩
  rw [transpose_ix2_apply]
  refine (extractStridedSlice_apply _ X hs _ (ix2 c ⟨n.val, Nat.lt_trans n.isLt (by decide)⟩) fun a => ?_).trans ?_
  · match a with
    | ⟨0, _⟩ => simp
    | ⟨1, _⟩ => simp
  · rfl

/-- A node-major array transposed and zero-padded to `NP` columns is its channel-major padded layout: index `(c, n)`
    reads `(n, c)` below the last node and the pad value past it. -/
theorem pad_layout (Y : S500000x8.Idx → EReal) (z : S_.Idx → EReal) (hz : ∀ i, z i = 0)
    (ht : S500000x8.Transposes [1, 0] S8x500000)
    (hp : S8x500000.Pads (![0, 0] : Fin 2 → Nat) ![0, 24288] ![0, 0] S8x524288) (hu : 0 < S_.numel) :
    pad S8x524288 ![0, 0] ![0, 24288] ![0, 0] (transpose S8x500000 [1, 0] Y ht) z hp hu = ofCP (padT (toNC Y)) := by
  funext j
  obtain ⟨c, n, rfl⟩ : ∃ (c : Fin 8) (n : Fin 524288), j = ix2 c n := ⟨j 0, j 1, eq_ix2 j⟩
  show _ = (if hn : n.val < NN then Y (ix2 ⟨n.val, hn⟩ c) else 0)
  unfold pad
  by_cases hn : n.val < NN
  · have hcond : ∀ a : Fin S8x500000.rank, (![0, 0] : Fin 2 → Nat) a ≤ ((ix2 c n : S8x524288.Idx) (a.cast hp.1)).val
        ∧ (((ix2 c n : S8x524288.Idx) (a.cast hp.1)).val - (![0, 0] : Fin 2 → Nat) a) % ((![0, 0] : Fin 2 → Nat) a + 1) = 0
        ∧ (((ix2 c n : S8x524288.Idx) (a.cast hp.1)).val - (![0, 0] : Fin 2 → Nat) a) / ((![0, 0] : Fin 2 → Nat) a + 1) < S8x500000.size a := by
      intro a
      match a with
      | ⟨0, _⟩ =>
        show (0 : ℕ) ≤ c.val ∧ (c.val - 0) % (0 + 1) = 0 ∧ (c.val - 0) / (0 + 1) < 8
        have := c.isLt; omega
      | ⟨1, _⟩ =>
        show (0 : ℕ) ≤ n.val ∧ (n.val - 0) % (0 + 1) = 0 ∧ (n.val - 0) / (0 + 1) < 500000
        have : n.val < 500000 := hn
        omega
    rw [dif_pos hn, dif_pos hcond]
    refine transpose_apply _ Y ht _ (ix2 ⟨n.val, hn⟩ c) fun b => ?_
    match b with
    | ⟨0, _⟩ => show c.val = (c.val - 0) / (0 + 1); omega
    | ⟨1, _⟩ => show n.val = (n.val - 0) / (0 + 1); omega
  · rw [dif_neg hn, dif_neg ?_, hz]
    intro h
    have h1 := (h ⟨1, by decide⟩).2.2
    have h1' : (n.val - 0) / (0 + 1) < 500000 := h1
    exact hn (show n.val < 500000 by omega)

/-- The edge aggregation on a node-major array `hw`: gather the rows at the edge sources (a negative source index
    counted from the end), scale each by its edge's norm, and add them up at the edge targets, from zero. -/
def AGG (src dst : IVec S8500000 32) (norm : FVec Ideal S8500000 .f32) (hw : FVec Ideal S500000x8 .f32) :
    FVec Ideal S500000x8 .f32 :=
  Host.scatterAdd scatter_S500000x8_S8500000x1_S8500000x8_1_0_0_1
    (broadcastInDim S500000x8 ![] bcast_S_S500000x8 (constant (F := Ideal) S_ .f32 0x00000000#32))
    (broadcastInDim S8500000x1 ![0] bcast_S8500000_S8500000x1_0 dst)
    (mulf
      (Host.gather gather_S500000x8_S8500000x1_S8500000x8_1_0_n_n_0_1_18 hw
        (broadcastInDim S8500000x1 ![0] bcast_S8500000_S8500000x1_0
          (select (cmpi .slt src (broadcastInDim S8500000 ![] bcast_S_S8500000 (constantI S_ 32 0#32)))
            (addi src (broadcastInDim S8500000 ![] bcast_S_S8500000 (constantI S_ 32 500000#32)))
            src)))
      (broadcastInDim S8500000x8 ![0, 1] bcast_S8500000x1_S8500000x8_0_1
        (broadcastInDim S8500000x1 ![0] bcast_S8500000_S8500000x1_0 norm)))

/-- The scalar the padding calls pad with, the integer zero read as a float, is zero. -/
theorem pad_zero (i : S_.Idx) : sitofp (F := Ideal) .f32 (constantI S_ 32 0#32) i = 0 := by
  show (((BitVec.toInt (0#32 : BitVec 32) : ℤ) : ℝ) : EReal) = 0
  rw [show BitVec.toInt (0#32 : BitVec 32) = 0 from by decide]
  simp

set_option maxRecDepth 16384 in
/-- The padding call after the aggregation stretch: the padded buffer is the pad of the transposed buffer by the
    converted constant, whatever the valuation before the call. -/
theorem pad_call1 (V : Valuation τ sig (Elt Ideal)) :
    @Eq (S8x524288.Idx → EReal) (StableHlo.after (hostOps5_1 (F := Ideal)) V (Proc.devRef .tc main_v107))
      (pad S8x524288 ![0, 0] ![0, 24288] ![0, 0] (V (Proc.devRef .tc main_v106))
        (sitofp (F := Ideal) .f32 (V (Proc.devRef .tc main_c_18))) pads_S8x500000_S8x524288_000_0242880 h_S_) := by
  dsimp only [hostOps5_1]
  after_results
  rfl

set_option maxRecDepth 16384 in
set_option maxHeartbeats 1000000 in
/-- What the padded buffer holds after the aggregation stretch and its padding call, as the operations spell it. -/
theorem v69_eq (W : Valuation τ sig (Elt Ideal)) :
    @Eq (S8x524288.Idx → EReal)
      (StableHlo.after (hostOps5_1 (F := Ideal)) (StableHlo.after (hostOps5 (F := Ideal)) W) (Proc.devRef .tc main_v107))
      (pad S8x524288 ![0, 0] ![0, 24288] ![0, 0]
        (transpose S8x500000 [1, 0]
          (Host.scatterAdd scatter_S500000x8_S8500000x1_S8500000x8_1_0_0_1
            (broadcastInDim S500000x8 ![] bcast_S_S500000x8 (constant (F := Ideal) S_ .f32 0x00000000#32))
            (broadcastInDim S8500000x1 ![0] bcast_S8500000_S8500000x1_0 (W (Proc.devRef .tc main_v6)))
            (mulf
              (Host.gather gather_S500000x8_S8500000x1_S8500000x8_1_0_n_n_0_1_18
                (transpose S500000x8 [1, 0]
                  (extractStridedSlice S8x500000 ![0, 0] (W (Proc.devRef .tc main_v90)) slices_S8x524288_S8x500000_0_0)
                  transposes_S8x500000_S500000x8_1_0)
                (broadcastInDim S8500000x1 ![0] bcast_S8500000_S8500000x1_0
                  (select
                    (cmpi .slt (W (Proc.devRef .tc main_v3)) (broadcastInDim S8500000 ![] bcast_S_S8500000 (constantI S_ 32 0#32)))
                    (addi (W (Proc.devRef .tc main_v3)) (broadcastInDim S8500000 ![] bcast_S_S8500000 (constantI S_ 32 500000#32)))
                    (W (Proc.devRef .tc main_v3)))))
              (broadcastInDim S8500000x8 ![0, 1] bcast_S8500000x1_S8500000x8_0_1
                (broadcastInDim S8500000x1 ![0] bcast_S8500000_S8500000x1_0 (W (Proc.devRef .tc main_v26))))))
          transposes_S500000x8_S8x500000_1_0)
        (sitofp (F := Ideal) .f32 (constantI S_ 32 0#32)) pads_S8x500000_S8x524288_000_0242880 h_S_) := by
  rw [pad_call1]
  dsimp only [hostOps5]
  after_results

set_option maxRecDepth 16384 in
/-- After the aggregation stretch and its padding call, the padded buffer holds the channel-major padded layout of the
    aggregation of the node-major reading of the transform's output. -/
theorem agg2 (W : Valuation τ sig (Elt Ideal)) :
    toCP (StableHlo.after (hostOps5_1 (F := Ideal)) (StableHlo.after (hostOps5 (F := Ideal)) W) (Proc.devRef .tc main_v107))
      = padT (toNC (AGG (W (Proc.devRef .tc main_v3)) (W (Proc.devRef .tc main_v6)) (W (Proc.devRef .tc main_v26))
          (ofNC (unpadT (toCP (W (Proc.devRef .tc main_v90))))))) := by
  rw [v69_eq W]
  unfold AGG
  rw [unpad_layout, pad_layout _ _ pad_zero, toCP_ofCP]

set_option maxRecDepth 16384 in
/-- After the bias stretch, the bias column holds the layer's row of the bias matrix. -/
theorem bias2 (W : Valuation τ sig (Elt Ideal)) :
    toV81 (StableHlo.after (hostOps5_2 (F := Ideal)) W (Proc.devRef .tc main_v110))
      = fun c => toM8 (W (Proc.devRef .tc main_arg7)) (1 : Fin 8) c := by
  funext c
  unfold toV81 toM8
  dsimp only [hostOps5_2]
  after_results
  dsimp only
  -- a vector of 8 read as 8 rows of one entry, at row c, is its entry c
  refine (shapeCast_apply (s := S8) (t := S8x1) _ _ (ix2 c 0) (ix1 c) ?_).trans ?_
  · rw [Shape.rowMajor_val_two, Shape.rowMajor_val_one]
    show c.val = c.val * 1 + 0
    omega
  -- one row of 8 read as a vector, at c, is the row's entry c
  refine (shapeCast_1a_a_apply _ _ c).trans ?_
  -- the one-row slice at entry c is the matrix at the layer's row
  exact extractStridedSlice_apply _ _ _ _ (ix2 (1 : Fin 8) c) fun a => match a with
    | ⟨0, _⟩ => rfl
    | ⟨1, _⟩ => (Nat.zero_add _).symm

/-! ## What the stretches leave alone -/

/-- The references the aggregation stretch, its padding call, and the bias stretch write. -/
abbrev hostOps2_W : List (Ref sig .tc) :=
  [main_v91, main_v92, main_c_15, main_v93, main_v94, main_c_16, main_v95, main_v96, main_v97, main_v98, main_v99,
    main_v100, main_v101, main_v102, main_cst_17, main_v103, main_v104, main_v105, main_v106, main_c_18]
abbrev hostOps2_1_W : List (Ref sig .tc) := [main_call2_v0, main_v107]
abbrev hostOps2_2_W : List (Ref sig .tc) := [main_v108, main_v109, main_v110]

set_option maxRecDepth 16384 in
theorem hostOps2_writes : (hostOps5 (F := Ideal)).Forall fun op =>
    op.writes ⊆ (hostOps2_W.map (Proc.devRef (τ := τ) .tc)).toFinset := by
  simp only [hostOps5, List.Forall, StableHlo.nullary_writes, StableHlo.unary_writes, StableHlo.binary_writes,
    StableHlo.ternary_writes, Finset.singleton_subset_iff, List.mem_toFinset]
  refine ⟨?_, ?_, ?_, ?_, ?_, ?_, ?_, ?_, ?_, ?_, ?_, ?_, ?_, ?_, ?_, ?_, ?_, ?_, ?_, ?_⟩
  all_goals exact List.mem_map.mpr ⟨_, by decide, rfl⟩

set_option maxRecDepth 16384 in
theorem hostOps2_1_writes : (hostOps5_1 (F := Ideal)).Forall fun op =>
    op.writes ⊆ (hostOps2_1_W.map (Proc.devRef (τ := τ) .tc)).toFinset := by
  simp only [hostOps5_1, List.Forall, StableHlo.unary_writes, StableHlo.binary_writes,
    Finset.singleton_subset_iff, List.mem_toFinset]
  refine ⟨?_, ?_⟩
  all_goals exact List.mem_map.mpr ⟨_, by decide, rfl⟩

set_option maxRecDepth 16384 in
theorem hostOps2_2_writes : (hostOps5_2 (F := Ideal)).Forall fun op =>
    op.writes ⊆ (hostOps2_2_W.map (Proc.devRef (τ := τ) .tc)).toFinset := by
  simp only [hostOps5_2, List.Forall, StableHlo.unary_writes, StableHlo.reshape_writes,
    Finset.singleton_subset_iff, List.mem_toFinset]
  refine ⟨?_, ?_, ?_⟩
  all_goals exact List.mem_map.mpr ⟨_, by decide, rfl⟩

/-- A buffer none of the three stretches writes holds after them what it held before. -/
theorem kept2 (W : Valuation τ sig (Elt Ideal)) (r : Ref sig .tc)
    (h : r ∉ hostOps2_W) (h1 : r ∉ hostOps2_1_W) (h2 : r ∉ hostOps2_2_W) :
    StableHlo.after (hostOps5_2 (F := Ideal)) (StableHlo.after (hostOps5_1 (F := Ideal))
      (StableHlo.after (hostOps5 (F := Ideal)) W)) (Proc.devRef .tc r) = W (Proc.devRef .tc r) :=
  (StableHlo.after_of_writes_sub hostOps5_2 _ hostOps2_2_writes h2).trans <|
    (StableHlo.after_of_writes_sub hostOps5_1 _ hostOps2_1_writes h1).trans <|
      StableHlo.after_of_writes_sub hostOps5 _ hostOps2_writes h

/-- The same, stretch by stretch. -/
theorem kept_hostOps2 (W : Valuation τ sig (Elt Ideal)) (r : Ref sig .tc) (h : r ∉ hostOps2_W) :
    StableHlo.after (hostOps5 (F := Ideal)) W (Proc.devRef .tc r) = W (Proc.devRef .tc r) :=
  StableHlo.after_of_writes_sub hostOps5 _ hostOps2_writes h
theorem kept_hostOps2_1 (W : Valuation τ sig (Elt Ideal)) (r : Ref sig .tc) (h : r ∉ hostOps2_1_W) :
    StableHlo.after (hostOps5_1 (F := Ideal)) W (Proc.devRef .tc r) = W (Proc.devRef .tc r) :=
  StableHlo.after_of_writes_sub hostOps5_1 _ hostOps2_1_writes h
theorem kept_hostOps2_2 (W : Valuation τ sig (Elt Ideal)) (r : Ref sig .tc) (h : r ∉ hostOps2_2_W) :
    StableHlo.after (hostOps5_2 (F := Ideal)) W (Proc.devRef .tc r) = W (Proc.devRef .tc r) :=
  StableHlo.after_of_writes_sub hostOps5_2 _ hostOps2_2_writes h

end Cert.KernelIdeal.Host5

end
-- ==== Proof.KResid5.lean ====
/-
  The value of the residual region of the first layer: the output array `[8, 524288]` after the region's eight grid
  points, index by index, as a function of the three arrays the region reads (the layer's input `H`, the aggregated
  messages, the bias column): entry `(ch, n)` is `max (H ch n + agg ch n + bias ch) 0` times the mask of column `n`
  (one on the columns of real nodes, zero on the padding).
  The mask is built inside the body from the grid coordinate: tile `t`, lane `l` is column `65536 · t + l`, compared as
  a signed 32-bit word with 500000; no column number wraps, so the comparison is the one of the naturals.
  Then the road from blocks to the array: the payload at an index, each input block as columns of its array, what the
  body leaves at a point as a block of the one whole-array function, the tiling of the array by the eight blocks.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val5

open Cert.KernelIdeal Cert.KernelIdeal.Gen Cert.KernelIdeal.GenP Cert.GCN
open Idealize.ShloMosaic Idealize.ShloMosaic.TcCoe Idealize.ShloMosaic.ValueIdx Idealize.SL.Sem
open Idealize.ShloMosaic.Pipeline (Dat)

/-- The column number as a 32-bit word: no wrap-around, the largest is 65536·7 + 65535. -/
theorem colWord_eq (t : Fin 8) (l : Fin 65536) :
    IntOp.addi (Scalar.muli (BitVec.ofNat 32 t.val) 65536#32) (BitVec.ofNat 32 l.val) = BitVec.ofNat 32 (65536 * t.val + l.val) := by
  unfold IntOp.addi Scalar.muli IntOp.muli
  rw [show (65536#32 : BitVec 32) = BitVec.ofNat 32 65536 from rfl, BitVec.ofNat_mul_ofNat, BitVec.ofNat_add_ofNat, Nat.mul_comm]

/-- The signed comparison of a column number with the number of nodes is the comparison of the naturals: both are
    below 2^31, so both read signed as themselves. -/
theorem slt_colWord (n : Nat) (hn : n < 524288) :
    IntOp.cmpi .slt (BitVec.ofNat 32 n) 500000#32 = if n < 500000 then 1#1 else 0#1 := by
  unfold IntOp.cmpi
  dsimp only
  rw [BitVec.slt_eq_decide]
  have h1 : (BitVec.ofNat 32 n).toInt = (n : Int) := by
    rw [BitVec.toInt_eq_toNat_of_lt (by rw [BitVec.toNat_ofNat, Nat.mod_eq_of_lt (by omega)]; omega), BitVec.toNat_ofNat, Nat.mod_eq_of_lt (by omega)]
  have h2 : (500000#32 : BitVec 32).toInt = 500000 := by decide
  rw [h1, h2]
  by_cases h : n < 500000
  · rw [if_pos h, decide_eq_true (by omega)]; rfl
  · rw [if_neg h, decide_eq_false (by omega)]; rfl

/-- THE MASK AT A COLUMN: the comparison bit, widened and converted, is one on the columns of real nodes and zero on
    the padding. -/
theorem maskWord (t : Fin 8) (l : Fin 65536) :
    (FloatOps.sitofp (F := Ideal) .f32 ((IntOp.cmpi .slt (IntOp.addi (Scalar.muli (BitVec.ofNat 32 t.val) 65536#32) (BitVec.ofNat 32 l.val)) 500000#32).setWidth 32) : EReal)
      = if 65536 * t.val + l.val < 500000 then 1 else 0 := by
  rw [colWord_eq, slt_colWord _ (by have := t.isLt; have := l.isLt; omega)]
  by_cases h : 65536 * t.val + l.val < 500000
  · rw [if_pos h, if_pos h]
    show (((BitVec.setWidth 32 1#1).toInt : ℝ) : EReal) = 1
    rw [show (BitVec.setWidth 32 1#1).toInt = 1 from by decide]
    simp
  · rw [if_neg h, if_neg h]
    show (((BitVec.setWidth 32 0#1).toInt : ℝ) : EReal) = 0
    rw [show (BitVec.setWidth 32 0#1).toInt = 0 from by decide]
    simp

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mask row the body builds from the grid coordinate, read at lane `l` of tile `t`. -/
theorem maskRow_apply (i : grid5.Coords) (t : Fin 8) (ht : (i 0).val = t.val) (l : Fin 65536) :
    (sitofp (F := Ideal) .f32 (extui 32 (cmpi .slt (addi (broadcast S1x65536 (Scalar.muli (BitVec.ofNat 32 (i 0).val) 65536#32))
        (iota .tc S1x65536 32 [1] iota_S1x65536_d1_w32)) (broadcast S1x65536 500000#32)) natLt_1_32) : FVec Ideal S1x65536 .f32) (ix2 (0 : Fin 1) l)
      = if 65536 * t.val + l.val < 500000 then 1 else 0 := by
  show FloatOps.sitofp (F := Ideal) .f32 ((IntOp.cmpi .slt (IntOp.addi (Scalar.muli (BitVec.ofNat 32 (i 0).val) 65536#32)
      (iota .tc S1x65536 32 [1] iota_S1x65536_d1_w32 (ix2 (0 : Fin 1) l))) 500000#32).setWidth 32) = _
  rw [iota_single_apply, ht]
  exact maskWord t l

/-- THE PAYLOAD AT AN INDEX: residual plus aggregate plus bias, clipped below at zero, times the mask of the column. -/
theorem pay_apply (i : grid5.Coords) (t : Fin 8) (ht : (i 0).val = t.val) (v0 : Vec Ideal S8x1 .f32) (v10 v12 : Vec Ideal S8x65536 .f32)
    (p : Fin 8) (l : Fin 65536) :
    k5_pay1 (F := Ideal) i v0 v10 v12 (ix2 p l)
      = max (v10 (ix2 p l) + v12 (ix2 p l) + v0 (ix2 p (0 : Fin 1))) 0 * (if 65536 * t.val + l.val < 500000 then 1 else 0) := by
  unfold k5_pay1
  dsimp only
  rw [mulf_apply, maximumf_apply, addf_apply, addf_apply, broadcast_apply, shapeCast_self, shapeCast_self, shapeCast_self,
    broadcastTo_1b_ab_apply, broadcastTo_a1_ab_apply, maskRow_apply i t ht l]
  show max _ (Ideal.ofBits .f32 0x00000000#32) * _ = _
  rw [Ideal.ofBits_zero_f32]

variable (V : (c : Dev nD) → (b : Ref sig .tc) → Buf (Elt Ideal) ((c : Thread nD τ).loc b))

/-- The three arrays the region reads, as it finds them: the layer's input `H`, the aggregated messages, the bias column. -/
abbrev harr (c : Dev nD) : Vec Ideal S8x524288 .f32 := V c (Pipeline.arrRef spec5 0)
abbrev garr (c : Dev nD) : Vec Ideal S8x524288 .f32 := V c (Pipeline.arrRef spec5 1)
abbrev barr (c : Dev nD) : Vec Ideal S8x1 .f32 := V c (Pipeline.arrRef spec5 2)

/-- Their blocks at a grid point. -/
abbrev hblk (c : Dev nD) (t : Fin cfg5.N) : Vec Ideal S8x65536 .f32 := iblk5 V c 0 t
abbrev gblk (c : Dev nD) (t : Fin cfg5.N) : Vec Ideal S8x65536 .f32 := iblk5 V c 1 t
abbrev bblk (c : Dev nD) (t : Fin cfg5.N) : Vec Ideal S8x1 .f32 := iblk5 V c 2 t

/-- WHAT THE REGION COMPUTES, as one array: entry `(ch, n)` is `max (H + agg + bias) 0` there, times the mask of column `n`. -/
def resid (c : Dev nD) : Vec Ideal S8x524288 .f32 :=
  ofCP fun ch n => max (toCP (harr V c) ch n + toCP (garr V c) ch n + toV81 (barr V c) ch) 0 * maskK n

theorem hz : (![0, 0] : Fin 2 → Nat) = fun _ => 0 := funext fun a => by fin_cases a <;> rfl

/-- The grid has eight points. -/
theorem lt8 (t : Fin cfg5.N) : t.val < 8 := Nat.lt_of_lt_of_eq t.isLt (N_5 : cfg5.N = 8)

/-- The printed index maps, decided once over the grid: the grid coordinate is the point; the two tiled inputs and the
    output sit at column block `t`, the bias column at block zero. -/
theorem idx_facts : ∀ t : Fin cfg5.N, (grid5.coords t 0).val = t.val
    ∧ win5_0.index t (0 : Fin 2) = 0 ∧ win5_0.index t (1 : Fin 2) = t.val
    ∧ win5_1.index t (0 : Fin 2) = 0 ∧ win5_1.index t (1 : Fin 2) = t.val
    ∧ win5_2.index t (0 : Fin 2) = 0 ∧ win5_2.index t (1 : Fin 2) = 0
    ∧ win5_3.index t (0 : Fin 2) = 0 ∧ win5_3.index t (1 : Fin 2) = t.val :=
  (by decide +kernel : ∀ t : Fin grid5.N, _)

/-- Lane `l` of the input block at point `t` is column `65536 · t + l` of the input. -/
theorem hblk_apply (c : Dev nD) (t : Fin cfg5.N) (p : Fin 8) (l : Fin 65536) (n : Fin 524288) (hn : n.val = 65536 * t.val + l.val) :
    hblk V c t (ix2 p l) = harr V c (ix2 p n) := by
  obtain ⟨-, e0, e1, -⟩ := idx_facts t
  show V c (Pipeline.arrRef spec5 0) (((cfg5.win 0).blk t).view.emb (ix2 p l)) = V c (Pipeline.arrRef spec5 0) (ix2 p n)
  congr 1
  funext a
  apply Fin.ext
  match a with
  | ⟨0, _⟩ => show win5_0.index t (0 : Fin 2) * 8 + 1 * p.val = p.val; rw [e0]; omega
  | ⟨1, _⟩ => show win5_0.index t (1 : Fin 2) * 65536 + 1 * l.val = n.val; rw [e1, hn]; omega

/-- The same for the aggregated messages. -/
theorem gblk_apply (c : Dev nD) (t : Fin cfg5.N) (p : Fin 8) (l : Fin 65536) (n : Fin 524288) (hn : n.val = 65536 * t.val + l.val) :
    gblk V c t (ix2 p l) = garr V c (ix2 p n) := by
  obtain ⟨-, -, -, e0, e1, -⟩ := idx_facts t
  show V c (Pipeline.arrRef spec5 1) (((cfg5.win 1).blk t).view.emb (ix2 p l)) = V c (Pipeline.arrRef spec5 1) (ix2 p n)
  congr 1
  funext a
  apply Fin.ext
  match a with
  | ⟨0, _⟩ => show win5_1.index t (0 : Fin 2) * 8 + 1 * p.val = p.val; rw [e0]; omega
  | ⟨1, _⟩ => show win5_1.index t (1 : Fin 2) * 65536 + 1 * l.val = n.val; rw [e1, hn]; omega

/-- The bias block is the whole bias column at every point. -/
theorem bblk_apply (c : Dev nD) (t : Fin cfg5.N) (p : Fin 8) :
    bblk V c t (ix2 p (0 : Fin 1)) = barr V c (ix2 p (0 : Fin 1)) := by
  obtain ⟨-, -, -, -, -, e0, e1, -⟩ := idx_facts t
  show V c (Pipeline.arrRef spec5 2) (((cfg5.win 2).blk t).view.emb (ix2 p (0 : Fin 1))) = V c (Pipeline.arrRef spec5 2) (ix2 p (0 : Fin 1))
  congr 1
  funext a
  apply Fin.ext
  match a with
  | ⟨0, _⟩ => show win5_2.index t (0 : Fin 2) * 8 + 1 * p.val = p.val; rw [e0]; omega
  | ⟨1, _⟩ => show win5_2.index t (1 : Fin 2) * 1 + 1 * 0 = 0; rw [e1]

/-- Lane `l` of the output block at point `t` is column `65536 · t + l` of the output. -/
theorem oblk_read (c : Dev nD) (t : Fin cfg5.N) (X : Vec Ideal S8x524288 .f32) (p : Fin 8) (l : Fin 65536) (n : Fin 524288) (hn : n.val = 65536 * t.val + l.val) :
    (((cfg5.win 3).blk t).view.read (Elt Ideal) X : Vec Ideal S8x65536 .f32) (ix2 p l) = X (ix2 p n) := by
  obtain ⟨-, -, -, -, -, -, -, e0, e1⟩ := idx_facts t
  show X (((cfg5.win 3).blk t).view.emb (ix2 p l)) = X (ix2 p n)
  congr 1
  funext a
  apply Fin.ext
  match a with
  | ⟨0, _⟩ => show win5_3.index t (0 : Fin 2) * 8 + 1 * p.val = p.val; rw [e0]; omega
  | ⟨1, _⟩ => show win5_3.index t (1 : Fin 2) * 65536 + 1 * l.val = n.val; rw [e1, hn]; omega

/-- WHAT THE BODY LEAVES at point `t` is block `t` of `resid`. -/
theorem out_eq (c : Dev nD) (t : Fin cfg5.N) :
    out5_3 (grid5.coords t) (hblk V c t) (gblk V c t) (bblk V c t) = ((cfg5.win 3).blk t).view.read (Elt Ideal) (resid V c) := by
  unfold out5_3
  rw [View.canon_unit_zero hz]
  simp only [View.ld_unit_zero (S := S8x65536) hz, View.ld_unit_zero (S := S8x1) hz]
  funext j
  obtain ⟨p, l, rfl⟩ : ∃ (p : Fin 8) (l : Fin 65536), j = ix2 p l := ⟨j 0, j 1, eq_ix2 j⟩
  have ec : (grid5.coords t 0).val = (⟨t.val, lt8 t⟩ : Fin 8).val := (idx_facts t).1
  have hn : (col ⟨t.val, lt8 t⟩ l).val = 65536 * t.val + l.val := rfl
  rw [pay_apply (grid5.coords t) ⟨t.val, lt8 t⟩ ec, hblk_apply V c t p l _ hn, gblk_apply V c t p l _ hn, bblk_apply V c t p,
    oblk_read c t (resid V c) p l _ hn]
  rfl

/-- An index of the output array is in point `t`'s block iff each coordinate is in the block's range on its axis. -/
theorem mem_oblk (t : Fin cfg5.N) (i : S8x524288.Idx) :
    i ∈ ((cfg5.win 3).blk t).view.set ↔ ∀ a : Fin 2, win5_3.index t a * S8x65536.size a ≤ (i a).val ∧ (i a).val < win5_3.index t a * S8x65536.size a + S8x65536.size a := by
  show i ∈ ((View.whole (Pipeline.arrRef spec5 3)).slice (win5_3.rect t)).set ↔ _
  rw [View.set_slice_whole, Rect.mem_set_unit]
  exact Iff.rfl

/-- Every column lies in the block of the point `column / 65536`: the eight blocks tile the array. -/
theorem cover (i : S8x524288.Idx) : ∃ t : Fin cfg5.N, (cfg5.win 3).flush t = true ∧ i ∈ ((cfg5.win 3).blk t).view.set := by
  have h0 : (i 0).val < 8 := (i 0).isLt
  have h1 : (i 1).val < 524288 := (i 1).isLt
  have hN : cfg5.N = 8 := N_5
  have hq : (i 1).val / 65536 < cfg5.N := by rw [hN]; omega
  obtain ⟨-, -, -, -, -, -, -, e0, e1⟩ := idx_facts ⟨(i 1).val / 65536, hq⟩
  refine ⟨⟨(i 1).val / 65536, hq⟩, flush5_3 _, ?_⟩
  rw [mem_oblk]
  intro a
  match a with
  | ⟨0, _⟩ =>
    show win5_3.index ⟨(i 1).val / 65536, hq⟩ (0 : Fin 2) * 8 ≤ (i 0).val ∧ (i 0).val < win5_3.index ⟨(i 1).val / 65536, hq⟩ (0 : Fin 2) * 8 + 8
    rw [e0]; omega
  | ⟨1, _⟩ =>
    show win5_3.index ⟨(i 1).val / 65536, hq⟩ (1 : Fin 2) * 65536 ≤ (i 1).val ∧ (i 1).val < win5_3.index ⟨(i 1).val / 65536, hq⟩ (1 : Fin 2) * 65536 + 65536
    rw [e1]
    show (i 1).val / 65536 * 65536 ≤ (i 1).val ∧ (i 1).val < (i 1).val / 65536 * 65536 + 65536
    omega

/-- WHAT POINT `t` WRITES BACK is block `t` of `resid`. -/
theorem flushed_eq (c : Dev nD) (t : Fin cfg5.N) :
    (dat5 (F := Ideal) V c).flushed 3 t = ((cfg5.win 3).blk t).view.read (Elt Ideal) (resid V c) := by
  show (cfg5.win 3).cut (grid5.coords t) ((dat5 (F := Ideal) V c).after 3 t) = _
  rw [after5_3]
  exact out_eq V c t

/-- THE OUTPUT ARRAY after the eight points is `resid`: every block written back is its block, and the blocks tile it. -/
theorem final (c : Dev nD) : (dat5 (F := Ideal) V c).arrAt 3 cfg5.N = resid V c :=
  (dat5 (F := Ideal) V c).arrAt_eq_of_cover 3 (resid V c) (fun t _ => flushed_eq V c t) cover

/-- THE REGION'S VALUE, by coordinates: channel `ch`, column `n` of the output is the residual sum clipped at zero, masked
    to the columns of real nodes. -/
theorem resid2_val (c : Dev nD) :
    toCP ((dat5 (F := Ideal) V c).arrAt 3 cfg5.N)
      = fun ch n => max (toCP (V c (Pipeline.arrRef spec5 0)) ch n + toCP (V c (Pipeline.arrRef spec5 1)) ch n
          + toV81 (V c (Pipeline.arrRef spec5 2)) ch) 0 * maskK n :=
  (congrArg toCP (final V c)).trans (toCP_ofCP _)

end Cert.KernelIdeal.Val5

end
-- ==== Proof.KLayer1.lean ====
/-
  Layer 0 of the kernel program as one step on the channel-major activations.
  The program runs the layer as three pipelined regions with host stretches between them. Region 0 reads the
  activations H and leaves the row sums and the row sums of squares; the first host stretch divides them by the
  number of nodes into the batch mean and the batch variance (the mean of the squares minus the squared mean) and
  cuts the layer's row out of the scales, the shifts and the weights; region 1 normalises H, scales, shifts and
  applies the transposed weights; the next host stretches take the first N columns node-major through the edge
  aggregation and pad the result back, and cut the layer's row out of the biases; region 2 adds H, the padded
  aggregate and the bias, clamps below at zero and zeroes the padding.
  Each region and each stretch is read by its own module. Here the readings are chained: a buffer a region only
  reads leaves the region as it entered, a buffer a region or a stretch does not touch crosses it unchanged, and
  the five readings then compose to the layer's closed form `layerK` at the contents the layer was entered with.
  The edge lists, the edge norm and the program's arguments cross the whole layer unchanged.
-/
import proofs.«143139_j73710228734964_1_alg».proof.Proof.KernelIdealFrameP
import proofs.«143139_j73710228734964_1_alg».proof.Proof.Spec
import proofs.«143139_j73710228734964_1_alg».proof.Proof.Conv
import proofs.«143139_j73710228734964_1_alg».proof.Proof.KStats3
import proofs.«143139_j73710228734964_1_alg».proof.Proof.KHost4
import proofs.«143139_j73710228734964_1_alg».proof.Proof.KTransform4
import proofs.«143139_j73710228734964_1_alg».proof.Proof.KHost5
import proofs.«143139_j73710228734964_1_alg».proof.Proof.KResid5
import Idealize.ShloMosaic.Lib.StableHlo.Run
import Idealize.ShloMosaic.Lib.Pipeline.Cells
import Idealize.ShloMosaic.Lib.ValueIdx

set_option maxRecDepth 16384

noncomputable section

namespace Cert.KernelIdeal.Layer1

open Cert.KernelIdeal Cert.KernelIdeal.Gen Cert.KernelIdeal.GenP Cert.GCN
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)

/-- No operation of the host stretch writes the buffer: each operation writes one buffer, and it is another one. -/
local macro "not_written" : tactic => `(tactic|
  exact List.forall_iff_forall_mem.mp (by
    simp only [hostOps4, hostOps5, hostOps5_1, hostOps5_2, List.flatten_cons, List.flatten_nil, List.append_nil,
      List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

/-- A host stretch leaves a buffer that none of its operations writes as it was. -/
local macro "host_kept" : tactic => `(tactic|
  exact StableHlo.after_of_forall_not_mem (b := _) _ _ (by not_written))

/-! ## The activations H cross the layer: every region only reads them, no stretch writes them -/

/-- Region 0 reads H through an input window: it leaves as it entered. -/
theorem W10_main_v35 : W10 m ρ c (Proc.devRef .tc main_v73) = W9 m ρ c (Proc.devRef .tc main_v73) :=
  (W10_arr m ρ c 0).trans (((dat3 (V9 m ρ) c).arrAt_in 0 rfl _).trans (A_eq3 (V9 m ρ) c 0))

theorem W11_main_v35 : W11 m ρ c (Proc.devRef .tc main_v73) = W9 m ρ c (Proc.devRef .tc main_v73) :=
  calc W11 m ρ c (Proc.devRef .tc main_v73)
    _ = W10 m ρ c (Proc.devRef .tc main_v73) := by host_kept
    _ = W9 m ρ c (Proc.devRef .tc main_v73) := W10_main_v35 m ρ c

/-- Region 1 reads H through an input window too. -/
theorem W12_main_v35 : W12 m ρ c (Proc.devRef .tc main_v73) = W9 m ρ c (Proc.devRef .tc main_v73) :=
  calc W12 m ρ c (Proc.devRef .tc main_v73)
    _ = W11 m ρ c (Proc.devRef .tc main_v73) :=
        (W12_arr m ρ c 0).trans (((dat4 (V11 m ρ) c).arrAt_in 0 rfl _).trans (A_eq4 (V11 m ρ) c 0))
    _ = W9 m ρ c (Proc.devRef .tc main_v73) := W11_main_v35 m ρ c

theorem W15_main_v35 : W15 m ρ c (Proc.devRef .tc main_v73) = W9 m ρ c (Proc.devRef .tc main_v73) :=
  calc W15 m ρ c (Proc.devRef .tc main_v73)
    _ = W14 m ρ c (Proc.devRef .tc main_v73) := by host_kept
    _ = W13 m ρ c (Proc.devRef .tc main_v73) := by host_kept
    _ = W12 m ρ c (Proc.devRef .tc main_v73) := by host_kept
    _ = W9 m ρ c (Proc.devRef .tc main_v73) := W12_main_v35 m ρ c

/-! ## A buffer the layer touches nowhere crosses it unchanged -/

/-- Through region 0, the first stretch and region 1: the buffer is no window's array of either region and no
    operation of the stretch writes it. -/
theorem W12_kept {b : Ref sig .tc} (h0 : ∀ w, Pipeline.arrRef spec3 w ≠ b) (h1 : ∀ w, Pipeline.arrRef spec4 w ≠ b)
    (g1 : ∀ op ∈ (hostOps4 : List (HloOp τ sig (Elt Ideal))), Proc.devRef (τ := τ) .tc b ∉ op.writes) :
    W12 m ρ c (Proc.devRef .tc b) = W9 m ρ c (Proc.devRef .tc b) :=
  calc W12 m ρ c (Proc.devRef .tc b)
    _ = W11 m ρ c (Proc.devRef .tc b) := W12_of_ne m ρ c b h1
    _ = W10 m ρ c (Proc.devRef .tc b) := StableHlo.after_of_forall_not_mem (b := Proc.devRef .tc b) _ _ g1
    _ = W9 m ρ c (Proc.devRef .tc b) := W10_of_ne m ρ c b h0

/-- Through the three stretches before region 2: no operation of them writes the buffer. -/
theorem W15_kept {b : Ref sig .tc}
    (g2 : ∀ op ∈ (hostOps5 : List (HloOp τ sig (Elt Ideal))), Proc.devRef (τ := τ) .tc b ∉ op.writes)
    (g2_1 : ∀ op ∈ (hostOps5_1 : List (HloOp τ sig (Elt Ideal))), Proc.devRef (τ := τ) .tc b ∉ op.writes)
    (g2_2 : ∀ op ∈ (hostOps5_2 : List (HloOp τ sig (Elt Ideal))), Proc.devRef (τ := τ) .tc b ∉ op.writes) :
    W15 m ρ c (Proc.devRef .tc b) = W12 m ρ c (Proc.devRef .tc b) :=
  calc W15 m ρ c (Proc.devRef .tc b)
    _ = W14 m ρ c (Proc.devRef .tc b) := StableHlo.after_of_forall_not_mem (b := Proc.devRef .tc b) _ _ g2_2
    _ = W13 m ρ c (Proc.devRef .tc b) := StableHlo.after_of_forall_not_mem (b := Proc.devRef .tc b) _ _ g2_1
    _ = W12 m ρ c (Proc.devRef .tc b) := StableHlo.after_of_forall_not_mem (b := Proc.devRef .tc b) _ _ g2

/-- Through the whole layer. -/
theorem W16_kept {b : Ref sig .tc} (h0 : ∀ w, Pipeline.arrRef spec3 w ≠ b) (h1 : ∀ w, Pipeline.arrRef spec4 w ≠ b)
    (h2 : ∀ w, Pipeline.arrRef spec5 w ≠ b)
    (g1 : ∀ op ∈ (hostOps4 : List (HloOp τ sig (Elt Ideal))), Proc.devRef (τ := τ) .tc b ∉ op.writes)
    (g2 : ∀ op ∈ (hostOps5 : List (HloOp τ sig (Elt Ideal))), Proc.devRef (τ := τ) .tc b ∉ op.writes)
    (g2_1 : ∀ op ∈ (hostOps5_1 : List (HloOp τ sig (Elt Ideal))), Proc.devRef (τ := τ) .tc b ∉ op.writes)
    (g2_2 : ∀ op ∈ (hostOps5_2 : List (HloOp τ sig (Elt Ideal))), Proc.devRef (τ := τ) .tc b ∉ op.writes) :
    W16 m ρ c (Proc.devRef .tc b) = W9 m ρ c (Proc.devRef .tc b) :=
  calc W16 m ρ c (Proc.devRef .tc b)
    _ = W15 m ρ c (Proc.devRef .tc b) := W16_of_ne m ρ c b h2
    _ = W12 m ρ c (Proc.devRef .tc b) := W15_kept m ρ c g2 g2_1 g2_2
    _ = W9 m ρ c (Proc.devRef .tc b) := W12_kept m ρ c h0 h1 g1

theorem W12_main_v3 : W12 m ρ c (Proc.devRef .tc main_v3) = W9 m ρ c (Proc.devRef .tc main_v3) :=
  W12_kept m ρ c (b := main_v3) (by decide) (by decide) (by not_written)
theorem W12_main_v6 : W12 m ρ c (Proc.devRef .tc main_v6) = W9 m ρ c (Proc.devRef .tc main_v6) :=
  W12_kept m ρ c (b := main_v6) (by decide) (by decide) (by not_written)
theorem W12_main_v26 : W12 m ρ c (Proc.devRef .tc main_v26) = W9 m ρ c (Proc.devRef .tc main_v26) :=
  W12_kept m ρ c (b := main_v26) (by decide) (by decide) (by not_written)
theorem W12_main_arg7 : W12 m ρ c (Proc.devRef .tc main_arg7) = W9 m ρ c (Proc.devRef .tc main_arg7) :=
  W12_kept m ρ c (b := main_arg7) (by decide) (by decide) (by not_written)

theorem W16_main_v3 : W16 m ρ c (Proc.devRef .tc main_v3) = W9 m ρ c (Proc.devRef .tc main_v3) :=
  W16_kept m ρ c (b := main_v3) (by decide) (by decide) (by decide) (by not_written) (by not_written) (by not_written) (by not_written)
theorem W16_main_v6 : W16 m ρ c (Proc.devRef .tc main_v6) = W9 m ρ c (Proc.devRef .tc main_v6) :=
  W16_kept m ρ c (b := main_v6) (by decide) (by decide) (by decide) (by not_written) (by not_written) (by not_written) (by not_written)
theorem W16_main_v26 : W16 m ρ c (Proc.devRef .tc main_v26) = W9 m ρ c (Proc.devRef .tc main_v26) :=
  W16_kept m ρ c (b := main_v26) (by decide) (by decide) (by decide) (by not_written) (by not_written) (by not_written) (by not_written)
theorem W16_main_arg0 : W16 m ρ c (Proc.devRef .tc main_arg0) = W9 m ρ c (Proc.devRef .tc main_arg0) :=
  W16_kept m ρ c (b := main_arg0) (by decide) (by decide) (by decide) (by not_written) (by not_written) (by not_written) (by not_written)
theorem W16_main_arg1 : W16 m ρ c (Proc.devRef .tc main_arg1) = W9 m ρ c (Proc.devRef .tc main_arg1) :=
  W16_kept m ρ c (b := main_arg1) (by decide) (by decide) (by decide) (by not_written) (by not_written) (by not_written) (by not_written)
theorem W16_main_arg2 : W16 m ρ c (Proc.devRef .tc main_arg2) = W9 m ρ c (Proc.devRef .tc main_arg2) :=
  W16_kept m ρ c (b := main_arg2) (by decide) (by decide) (by decide) (by not_written) (by not_written) (by not_written) (by not_written)
theorem W16_main_arg3 : W16 m ρ c (Proc.devRef .tc main_arg3) = W9 m ρ c (Proc.devRef .tc main_arg3) :=
  W16_kept m ρ c (b := main_arg3) (by decide) (by decide) (by decide) (by not_written) (by not_written) (by not_written) (by not_written)
theorem W16_main_arg4 : W16 m ρ c (Proc.devRef .tc main_arg4) = W9 m ρ c (Proc.devRef .tc main_arg4) :=
  W16_kept m ρ c (b := main_arg4) (by decide) (by decide) (by decide) (by not_written) (by not_written) (by not_written) (by not_written)
theorem W16_main_arg5 : W16 m ρ c (Proc.devRef .tc main_arg5) = W9 m ρ c (Proc.devRef .tc main_arg5) :=
  W16_kept m ρ c (b := main_arg5) (by decide) (by decide) (by decide) (by not_written) (by not_written) (by not_written) (by not_written)
theorem W16_main_arg6 : W16 m ρ c (Proc.devRef .tc main_arg6) = W9 m ρ c (Proc.devRef .tc main_arg6) :=
  W16_kept m ρ c (b := main_arg6) (by decide) (by decide) (by decide) (by not_written) (by not_written) (by not_written) (by not_written)
theorem W16_main_arg7 : W16 m ρ c (Proc.devRef .tc main_arg7) = W9 m ρ c (Proc.devRef .tc main_arg7) :=
  W16_kept m ρ c (b := main_arg7) (by decide) (by decide) (by decide) (by not_written) (by not_written) (by not_written) (by not_written)
theorem W16_main_arg8 : W16 m ρ c (Proc.devRef .tc main_arg8) = W9 m ρ c (Proc.devRef .tc main_arg8) :=
  W16_kept m ρ c (b := main_arg8) (by decide) (by decide) (by decide) (by not_written) (by not_written) (by not_written) (by not_written)
theorem W16_main_arg9 : W16 m ρ c (Proc.devRef .tc main_arg9) = W9 m ρ c (Proc.devRef .tc main_arg9) :=
  W16_kept m ρ c (b := main_arg9) (by decide) (by decide) (by decide) (by not_written) (by not_written) (by not_written) (by not_written)
theorem W16_main_arg10 : W16 m ρ c (Proc.devRef .tc main_arg10) = W9 m ρ c (Proc.devRef .tc main_arg10) :=
  W16_kept m ρ c (b := main_arg10) (by decide) (by decide) (by decide) (by not_written) (by not_written) (by not_written) (by not_written)
theorem W16_main_arg11 : W16 m ρ c (Proc.devRef .tc main_arg11) = W9 m ρ c (Proc.devRef .tc main_arg11) :=
  W16_kept m ρ c (b := main_arg11) (by decide) (by decide) (by decide) (by not_written) (by not_written) (by not_written) (by not_written)

/-! ## Region 0: the row sums and the row sums of squares of H -/

theorem W10_main_v36_0 :
    toV81 (W10 m ρ c (Proc.devRef .tc main_v74_0)) = sumK (toCP (W9 m ρ c (Proc.devRef .tc main_v73))) :=
  (congrArg toV81 (W10_arr m ρ c 1)).trans (Val3.stats0_sum (V9 m ρ) c)

theorem W10_main_v36_1 :
    toV81 (W10 m ρ c (Proc.devRef .tc main_v74_1)) = ssqK (toCP (W9 m ρ c (Proc.devRef .tc main_v73))) :=
  (congrArg toV81 (W10_arr m ρ c 2)).trans (Val3.stats0_ssq (V9 m ρ) c)

/-! ## The first stretch: the batch mean and variance of H, and the layer's scale, shift and weights -/

theorem W11_main_v38 :
    toV81 (W11 m ρ c (Proc.devRef .tc main_v76)) = meanK (toCP (W9 m ρ c (Proc.devRef .tc main_v73))) := by
  refine (Host4.mean1 (W10 m ρ c)).trans ?_
  rw [W10_main_v36_0 m ρ c]
  rfl

theorem W11_main_v42 :
    toV81 (W11 m ρ c (Proc.devRef .tc main_v80)) = varK (toCP (W9 m ρ c (Proc.devRef .tc main_v73))) := by
  refine (Host4.var1 (W10 m ρ c)).trans ?_
  rw [W10_main_v36_0 m ρ c, W10_main_v36_1 m ρ c]
  rfl

theorem W11_main_v45 :
    toV81 (W11 m ρ c (Proc.devRef .tc main_v83)) = fun ch => toM8 (W9 m ρ c (Proc.devRef .tc main_arg4)) (1 : Fin 8) ch := by
  refine (Host4.gamma1 (W10 m ρ c)).trans ?_
  rw [W10_of_ne m ρ c main_arg4 (by decide)]

theorem W11_main_v48 :
    toV81 (W11 m ρ c (Proc.devRef .tc main_v86)) = fun ch => toM8 (W9 m ρ c (Proc.devRef .tc main_arg5)) (1 : Fin 8) ch := by
  refine (Host4.beta1 (W10 m ρ c)).trans ?_
  rw [W10_of_ne m ρ c main_arg5 (by decide)]

theorem W11_main_v51 :
    toM8 (W11 m ρ c (Proc.devRef .tc main_v89))
      = fun a b => (W9 m ρ c (Proc.devRef .tc main_arg6) : S8x8x8.Idx → EReal) (ix3 (1 : Fin 8) b a) := by
  refine (Host4.wT1 (W10 m ρ c)).trans ?_
  rw [W10_of_ne m ρ c main_arg6 (by decide)]

/-! ## Region 1: the normalised, scaled, shifted and transformed activations -/

theorem W12_main_v52 :
    toCP (W12 m ρ c (Proc.devRef .tc main_v90))
      = hwK (toCP (W9 m ρ c (Proc.devRef .tc main_v73)))
          (fun ch => toM8 (W9 m ρ c (Proc.devRef .tc main_arg4)) (1 : Fin 8) ch)
          (fun ch => toM8 (W9 m ρ c (Proc.devRef .tc main_arg5)) (1 : Fin 8) ch)
          (fun a b => (W9 m ρ c (Proc.devRef .tc main_arg6) : S8x8x8.Idx → EReal) (ix3 (1 : Fin 8) b a)) := by
  refine (congrArg toCP (W12_arr m ρ c 6)).trans ((Val4.transform1_val (V11 m ρ) c).trans ?_)
  show (fun co n => ∑ ci : Fin 8, toM8 (W11 m ρ c (Proc.devRef .tc main_v89)) co ci
          * ((toCP (W11 m ρ c (Proc.devRef .tc main_v73)) ci n - toV81 (W11 m ρ c (Proc.devRef .tc main_v76)) ci)
              * Ideal.rsqrt (toV81 (W11 m ρ c (Proc.devRef .tc main_v80)) ci + eps)
              * toV81 (W11 m ρ c (Proc.devRef .tc main_v83)) ci
              + toV81 (W11 m ρ c (Proc.devRef .tc main_v86)) ci)) = _
  rw [W11_main_v35 m ρ c, W11_main_v38 m ρ c, W11_main_v42 m ρ c, W11_main_v45 m ρ c, W11_main_v48 m ρ c, W11_main_v51 m ρ c]
  rfl

/-! ## The stretches before region 2: the padded aggregate and the layer's bias -/

theorem W15_main_v69 :
    toCP (W15 m ρ c (Proc.devRef .tc main_v107))
      = padT (toNC (Host5.AGG (W9 m ρ c (Proc.devRef .tc main_v3)) (W9 m ρ c (Proc.devRef .tc main_v6))
          (W9 m ρ c (Proc.devRef .tc main_v26))
          (ofNC (unpadT (hwK (toCP (W9 m ρ c (Proc.devRef .tc main_v73)))
            (fun ch => toM8 (W9 m ρ c (Proc.devRef .tc main_arg4)) (1 : Fin 8) ch)
            (fun ch => toM8 (W9 m ρ c (Proc.devRef .tc main_arg5)) (1 : Fin 8) ch)
            (fun a b => (W9 m ρ c (Proc.devRef .tc main_arg6) : S8x8x8.Idx → EReal) (ix3 (1 : Fin 8) b a))))))) := by
  have h87 : W15 m ρ c (Proc.devRef .tc main_v107) = W14 m ρ c (Proc.devRef .tc main_v107) := by host_kept
  refine (congrArg toCP h87).trans ((Host5.agg2 (W12 m ρ c)).trans ?_)
  rw [W12_main_v3 m ρ c, W12_main_v6 m ρ c, W12_main_v26 m ρ c, W12_main_v52 m ρ c]

theorem W15_main_v72 :
    toV81 (W15 m ρ c (Proc.devRef .tc main_v110)) = fun ch => toM8 (W9 m ρ c (Proc.devRef .tc main_arg7)) (1 : Fin 8) ch := by
  have h75 : W14 m ρ c (Proc.devRef .tc main_arg7) = W12 m ρ c (Proc.devRef .tc main_arg7) :=
    (show W14 m ρ c (Proc.devRef .tc main_arg7) = W13 m ρ c (Proc.devRef .tc main_arg7) by host_kept).trans
      (show W13 m ρ c (Proc.devRef .tc main_arg7) = W12 m ρ c (Proc.devRef .tc main_arg7) by host_kept)
  refine (Host5.bias2 (W14 m ρ c)).trans ?_
  rw [h75, W12_main_arg7 m ρ c]

/-! ## Region 2: the residual, the aggregate and the bias, clamped and masked: the layer -/

/-- The kernel program's layer 0 is the layer's closed form at the contents it was entered with. -/
theorem layer0_step :
    toCP (W16 m ρ c (Proc.devRef .tc main_v111))
      = layerK
          (fun hw => toNC (Host5.AGG (W9 m ρ c (Proc.devRef .tc main_v3)) (W9 m ρ c (Proc.devRef .tc main_v6))
            (W9 m ρ c (Proc.devRef .tc main_v26)) (ofNC hw)))
          (toCP (W9 m ρ c (Proc.devRef .tc main_v73)))
          (fun ch => toM8 (W9 m ρ c (Proc.devRef .tc main_arg4)) (1 : Fin 8) ch)
          (fun ch => toM8 (W9 m ρ c (Proc.devRef .tc main_arg5)) (1 : Fin 8) ch)
          (fun a b => (W9 m ρ c (Proc.devRef .tc main_arg6) : S8x8x8.Idx → EReal) (ix3 (1 : Fin 8) b a))
          (fun ch => toM8 (W9 m ρ c (Proc.devRef .tc main_arg7)) (1 : Fin 8) ch) := by
  refine (congrArg toCP (W16_arr m ρ c 3)).trans ((Val5.resid2_val (V15 m ρ) c).trans ?_)
  show (fun ch n => max (toCP (W15 m ρ c (Proc.devRef .tc main_v73)) ch n + toCP (W15 m ρ c (Proc.devRef .tc main_v107)) ch n
          + toV81 (W15 m ρ c (Proc.devRef .tc main_v110)) ch) 0 * maskK n) = _
  rw [W15_main_v35 m ρ c, W15_main_v69 m ρ c, W15_main_v72 m ρ c]
  rfl

/-- The edge sources, the edge targets, the edge norm and the program's arguments hold after the layer what they
    held before it. -/
theorem layer0_kept :
    W16 m ρ c (Proc.devRef .tc main_v3) = W9 m ρ c (Proc.devRef .tc main_v3)
    ∧ W16 m ρ c (Proc.devRef .tc main_v6) = W9 m ρ c (Proc.devRef .tc main_v6)
    ∧ W16 m ρ c (Proc.devRef .tc main_v26) = W9 m ρ c (Proc.devRef .tc main_v26)
    ∧ W16 m ρ c (Proc.devRef .tc main_arg0) = W9 m ρ c (Proc.devRef .tc main_arg0)
    ∧ W16 m ρ c (Proc.devRef .tc main_arg1) = W9 m ρ c (Proc.devRef .tc main_arg1)
    ∧ W16 m ρ c (Proc.devRef .tc main_arg2) = W9 m ρ c (Proc.devRef .tc main_arg2)
    ∧ W16 m ρ c (Proc.devRef .tc main_arg3) = W9 m ρ c (Proc.devRef .tc main_arg3)
    ∧ W16 m ρ c (Proc.devRef .tc main_arg4) = W9 m ρ c (Proc.devRef .tc main_arg4)
    ∧ W16 m ρ c (Proc.devRef .tc main_arg5) = W9 m ρ c (Proc.devRef .tc main_arg5)
    ∧ W16 m ρ c (Proc.devRef .tc main_arg6) = W9 m ρ c (Proc.devRef .tc main_arg6)
    ∧ W16 m ρ c (Proc.devRef .tc main_arg7) = W9 m ρ c (Proc.devRef .tc main_arg7)
    ∧ W16 m ρ c (Proc.devRef .tc main_arg8) = W9 m ρ c (Proc.devRef .tc main_arg8)
    ∧ W16 m ρ c (Proc.devRef .tc main_arg9) = W9 m ρ c (Proc.devRef .tc main_arg9)
    ∧ W16 m ρ c (Proc.devRef .tc main_arg10) = W9 m ρ c (Proc.devRef .tc main_arg10)
    ∧ W16 m ρ c (Proc.devRef .tc main_arg11) = W9 m ρ c (Proc.devRef .tc main_arg11) :=
  ⟨W16_main_v3 m ρ c, W16_main_v6 m ρ c, W16_main_v26 m ρ c, W16_main_arg0 m ρ c, W16_main_arg1 m ρ c, W16_main_arg2 m ρ c,
    W16_main_arg3 m ρ c, W16_main_arg4 m ρ c, W16_main_arg5 m ρ c, W16_main_arg6 m ρ c, W16_main_arg7 m ρ c,
    W16_main_arg8 m ρ c, W16_main_arg9 m ρ c, W16_main_arg10 m ρ c, W16_main_arg11 m ρ c⟩

end Cert.KernelIdeal.Layer1

end
-- ==== Proof.KStats6.lean ====
/-
  The value of region 0, the stats kernel of the first layer: over the eight grid points the two `[8, 1]` outputs
  accumulate, per row of the `[8, 524288]` input, the sum and the sum of squares of its eight tiles of 65536
  lanes; the arrays they are written back to end holding the row sums and the row sums of squares.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val6

open Cert.KernelIdeal Cert.KernelIdeal.Gen Cert.KernelIdeal.GenP Cert.GCN
open Idealize.ShloMosaic Idealize.ShloMosaic.TcCoe Idealize.ShloMosaic.ValueIdx Idealize.ShloMosaic.Tactic
open Idealize.SL.Sem
open Idealize.ShloMosaic.Pipeline (Dat)
open scoped BigOperators

/-! ## The body's arithmetic at an index -/

/-- An `[a]` vector cast to an `[a, 1]` column reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row `r` of the reduced `[8]` vector with lane `k` put back is `(r, k)`. -/
theorem lane_lift (h : S8x65536.Reduces [1] S8) (r : Fin 8) (k : Fin (S8x65536.size 1)) :
    h.lift (ix1 r) k = ix2 r (⟨k.val, k.isLt⟩ : Fin 65536) := by
  funext c; apply Fin.ext
  fin_cases c <;> rfl

/-- The lane sum of an `[8, 65536]` block, at row `r`. -/
theorem laneSum_apply (x : FVec Ideal S8x65536 .f32) (h : S8x65536.Reduces [1] S8) (hφ : FKind.Formats .f32)
    (hacc : (0x00000000#32 : BitVec 32) = FKind.add.neutral .f32 hφ) (r : Fin 8) :
    multiReduction .add [1] S8 x 0x00000000#32 h hφ hacc (ix1 r) = ∑ l : Fin 65536, x (ix2 r l) :=
  (Ideal.multiReduction_add_single x 0x00000000#32 h hφ hacc (ix1 r)).trans
    (Finset.sum_congr rfl fun k _ => congrArg x (lane_lift h r k))

/-- The running row sum: what the buffer held plus the block's lane sum. -/
theorem pay4_apply (x : Vec Ideal S8x65536 .f32) (xo : Vec Ideal S8x1 .f32) (r : Fin 8) :
    k6_pay4 (F := Ideal) x xo (ix2 r 0) = xo (ix2 r 0) + ∑ l : Fin 65536, x (ix2 r l) := by
  unfold k6_pay4 k6_pay3
  dsimp only
  rw [addf_apply, shapeCast_self, shapeCast_self, shapeCast_a_a1_apply]
  exact congrArg (xo (ix2 r 0) + ·) (laneSum_apply x _ _ _ r)

/-- The running row sum of squares. -/
theorem pay5_apply (x : Vec Ideal S8x65536 .f32) (xo : Vec Ideal S8x1 .f32) (r : Fin 8) :
    k6_pay5 (F := Ideal) x xo (ix2 r 0) = xo (ix2 r 0) + ∑ l : Fin 65536, x (ix2 r l) * x (ix2 r l) := by
  unfold k6_pay5 k6_pay3
  dsimp only
  rw [addf_apply, shapeCast_self, shapeCast_self, shapeCast_a_a1_apply]
  exact congrArg (xo (ix2 r 0) + ·) (laneSum_apply (mulf x x) _ _ _ r)

/-- The reset value is zero. -/
theorem pay1_apply (j : S8x1.Idx) : k6_pay1 (F := Ideal) j = 0 := Ideal.ofBits_zero_f32
theorem pay2_apply (j : S8x1.Idx) : k6_pay2 (F := Ideal) j = 0 := Ideal.ofBits_zero_f32

/-! ## The input block at a point -/

variable {F : FTy → Type} [FloatOps F]
variable (V : (c : Dev nD) → (b : Ref sig .tc) → Buf (Elt F) ((c : Thread nD τ).loc b))

/-- The input array as the region finds it, and its block at a point, over their literal shapes. -/
abbrev harr (c : Dev nD) : Vec F S8x524288 .f32 := V c (Pipeline.arrRef spec6 0)
abbrev hblk (c : Dev nD) (t : Fin cfg6.N) : Vec F S8x65536 .f32 := iblk6 V c 0 t

/-- The input window's block index at point `t`: row block 0, column block `t`. -/
theorem idx_in : ∀ t : Fin cfg6.N, win6_0.index t 0 = 0 ∧ win6_0.index t 1 = t.val :=
  (by decide +kernel : ∀ t : Fin grid6.N, win6_0.index t 0 = 0 ∧ win6_0.index t 1 = t.val)

/-- The input window's block at point `t` is columns `65536 t … 65536 t + 65535` of the array. -/
theorem blk_read (c : Dev nD) (t : Fin cfg6.N) (t' : Fin 8) (ht : t'.val = t.val) (r : Fin 8) (l : Fin 65536) :
    hblk V c t (ix2 r l) = harr V c (ix2 r (col t' l)) := by
  have hi := idx_in t
  unfold hblk iblk6
  rw [View.read_apply]
  show V c (Pipeline.arrRef spec6 0) _ = V c (Pipeline.arrRef spec6 0) _
  congr 1
  funext a
  apply Fin.ext
  match a with
  | ⟨0, _⟩ => show win6_0.index t 0 * 8 + 1 * r.val = r.val; rw [hi.1]; omega
  | ⟨1, _⟩ => show win6_0.index t 1 * 65536 + 1 * l.val = 65536 * t'.val + l.val; rw [hi.2, ht]; omega

/-! ## What each case of the body leaves in the outputs -/

theorem hz : (![0, 0] : Fin 2 → Nat) = fun _ => 0 := funext fun a => by fin_cases a <;> rfl

/-- At a later point output 1 is left at what it held plus the block's lane sums. -/
theorem out_B_1 (c : Dev nD) (i : grid6.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : ¬cond6_0 i) (x : Vec F S8x65536 .f32) (xo1 xo2 : Vec F S8x1 .f32) :
    out6_B_1 c i a1 h1 a2 h2 a3 h3 hc x xo1 xo2 = k6_pay4 x xo1 := by
  unfold out6_B_1
  rw [View.read_writes_eq_canon _ _ _ (cover6_B_1 c i a1 h1 a2 h2 a3 h3 hc x xo1 xo2)]
  unfold kernelRun6_B
  dsimp only
  sl_unfold_words
  rw [View.canon_unit_zero hz]
  simp only [View.readAt_eq_ld, h1.read_unread, h2.read_unread, h3.read_unread, View.ld_unit_zero (S := S8x1) hz,
    View.ld_unit_zero (S := S8x65536) hz]

/-- At a later point output 2 is left at what it held plus the lane sums of the block's squares. -/
theorem out_B_2 (c : Dev nD) (i : grid6.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : ¬cond6_0 i) (x : Vec F S8x65536 .f32) (xo1 xo2 : Vec F S8x1 .f32) :
    out6_B_2 c i a1 h1 a2 h2 a3 h3 hc x xo1 xo2 = k6_pay5 x xo2 := by
  unfold out6_B_2
  rw [View.read_writes_eq_canon _ _ _ (cover6_B_2 c i a1 h1 a2 h2 a3 h3 hc x xo1 xo2)]
  unfold kernelRun6_B
  dsimp only
  sl_unfold_words
  rw [View.canon_unit_zero hz]
  simp only [View.readAt_eq_ld, h1.read_unread, h2.read_unread, h3.read_unread, View.ld_unit_zero (S := S8x1) hz,
    View.ld_unit_zero (S := S8x65536) hz]

/-- At the first point output 1 is reset to zero, read back, and left at zero plus the block's lane sums. -/
theorem out_A_1 (c : Dev nD) (i : grid6.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : cond6_0 i) (x : Vec F S8x65536 .f32) :
    out6_A_1 c i a1 h1 a2 h2 a3 h3 hc x = k6_pay4 x (k6_pay1 (F := F)) := by
  unfold out6_A_1
  rw [View.read_writes_eq_canon _ _ _ (cover6_A_1 c i a1 h1 a2 h2 a3 h3 hc x)]
  unfold kernelRun6_A
  dsimp only
  sl_unfold_words
  rw [View.canon_cons_unit_zero (S := S8x1) hz, View.readCov_unit_zero (S := S8x1) _ hz]
  simp only [View.readAt_eq_ld, h1.read_unread, View.ld_unit_zero (S := S8x65536) hz]

/-- At the first point output 2 is reset to zero, read back, and left at zero plus the lane sums of the block's squares. -/
theorem out_A_2 (c : Dev nD) (i : grid6.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : cond6_0 i) (x : Vec F S8x65536 .f32) :
    out6_A_2 c i a1 h1 a2 h2 a3 h3 hc x = k6_pay5 x (k6_pay2 (F := F)) := by
  unfold out6_A_2
  rw [View.read_writes_eq_canon _ _ _ (cover6_A_2 c i a1 h1 a2 h2 a3 h3 hc x)]
  unfold kernelRun6_A
  dsimp only
  sl_unfold_words
  rw [View.canon_cons_unit_zero (S := S8x1) hz, View.readCov_unit_zero (S := S8x1) _ hz]
  simp only [View.readAt_eq_ld, h1.read_unread, View.ld_unit_zero (S := S8x65536) hz]

/-! ## The outputs after each point -/

/-- At the first point: the reset value plus the block's contribution. -/
theorem outsAt_A (c : Dev nD) (t : Fin cfg6.N) (h0 : t.val % 8 = 0) :
    outsAt6 V c t.val t.isLt
      = (k6_pay4 (hblk V c t) (k6_pay1 (F := F)), k6_pay5 (hblk V c t) (k6_pay2 (F := F))) := by
  rw [outsAt6_A V c t h0,
    out_A_1 c (grid6.coords t) (ms6_0 t) (hs6_0 t) (ms6_1 t) (hs6_1 t) (ms6_2 t) (hs6_2 t) ((hcond6_0 t).mpr h0) (iblk6 V c 0 t),
    out_A_2 c (grid6.coords t) (ms6_0 t) (hs6_0 t) (ms6_1 t) (hs6_1 t) (ms6_2 t) (hs6_2 t) ((hcond6_0 t).mpr h0) (iblk6 V c 0 t)]

/-- At a later point: what the point before left plus the block's contribution. -/
theorem outsAt_B (c : Dev nD) (t : Fin cfg6.N) (h0 : ¬t.val % 8 = 0) :
    outsAt6 V c t.val t.isLt
      = (k6_pay4 (hblk V c t) (outsAt6 V c (t.val - 1) (Nat.lt_of_le_of_lt (Nat.sub_le _ _) t.isLt)).1,
         k6_pay5 (hblk V c t) (outsAt6 V c (t.val - 1) (Nat.lt_of_le_of_lt (Nat.sub_le _ _) t.isLt)).2) := by
  rw [outsAt6_B V c t h0,
    out_B_1 c (grid6.coords t) (ms6_0 t) (hs6_0 t) (ms6_1 t) (hs6_1 t) (ms6_2 t) (hs6_2 t) (fun h => h0 ((hcond6_0 t).mp h)) (iblk6 V c 0 t)
      (outsAt6 V c (t.val - 1) (Nat.lt_of_le_of_lt (Nat.sub_le _ _) t.isLt)).1 (outsAt6 V c (t.val - 1) (Nat.lt_of_le_of_lt (Nat.sub_le _ _) t.isLt)).2,
    out_B_2 c (grid6.coords t) (ms6_0 t) (hs6_0 t) (ms6_1 t) (hs6_1 t) (ms6_2 t) (hs6_2 t) (fun h => h0 ((hcond6_0 t).mp h)) (iblk6 V c 0 t)
      (outsAt6 V c (t.val - 1) (Nat.lt_of_le_of_lt (Nat.sub_le _ _) t.isLt)).1 (outsAt6 V c (t.val - 1) (Nat.lt_of_le_of_lt (Nat.sub_le _ _) t.isLt)).2]

/-! ## The partial sums, over the extended reals -/

/-- Tile `s`'s contribution to row `r`'s sum and sum of squares (zero past the last tile). -/
def tileSum (H : ArrCP) (r : Fin 8) (s : ℕ) : EReal := if h : s < 8 then ∑ l : Fin 65536, H r (col ⟨s, h⟩ l) else 0
def tileSsq (H : ArrCP) (r : Fin 8) (s : ℕ) : EReal :=
  if h : s < 8 then ∑ l : Fin 65536, H r (col ⟨s, h⟩ l) * H r (col ⟨s, h⟩ l) else 0

section AtIdeal

variable (W : (c : Dev nD) → (b : Ref sig .tc) → Buf (Elt Ideal) ((c : Thread nD τ).loc b))

/-- The block at point `t` contributes tile `t`. -/
theorem blockSum (c : Dev nD) (t : Fin cfg6.N) (r : Fin 8) :
    ∑ l : Fin 65536, hblk W c t (ix2 r l) = tileSum (toCP (harr W c)) r t.val := by
  have h8 : t.val < 8 := lt_of_lt_of_eq t.isLt (show cfg6.N = 8 from N_6)
  unfold tileSum
  rw [dif_pos h8]
  exact Finset.sum_congr rfl fun l _ => blk_read W c t ⟨t.val, h8⟩ rfl r l

theorem blockSsq (c : Dev nD) (t : Fin cfg6.N) (r : Fin 8) :
    ∑ l : Fin 65536, hblk W c t (ix2 r l) * hblk W c t (ix2 r l) = tileSsq (toCP (harr W c)) r t.val := by
  have h8 : t.val < 8 := lt_of_lt_of_eq t.isLt (show cfg6.N = 8 from N_6)
  unfold tileSsq
  rw [dif_pos h8]
  exact Finset.sum_congr rfl fun l _ => by rw [blk_read W c t ⟨t.val, h8⟩ rfl r l]; rfl

/-- After point `n` row `r` of output 1 holds the sum of tiles `0 … n`, and of output 2 the sum of their squares. -/
theorem outsAt_eq (c : Dev nD) : ∀ (n : ℕ) (h : n < cfg6.N) (r : Fin 8),
    ((outsAt6 W c n h).1 : Vec Ideal S8x1 .f32) (ix2 r 0) = ∑ s ∈ Finset.range (n + 1), tileSum (toCP (harr W c)) r s
      ∧ ((outsAt6 W c n h).2 : Vec Ideal S8x1 .f32) (ix2 r 0) = ∑ s ∈ Finset.range (n + 1), tileSsq (toCP (harr W c)) r s
  | 0, h, r => by
    rw [outsAt_A W c ⟨0, h⟩ rfl]
    dsimp only
    rw [pay4_apply (hblk W c ⟨0, h⟩) (k6_pay1 (F := Ideal)) r, pay5_apply (hblk W c ⟨0, h⟩) (k6_pay2 (F := Ideal)) r,
      pay1_apply, pay2_apply, Finset.sum_range_one, Finset.sum_range_one, zero_add, zero_add]
    exact ⟨blockSum W c ⟨0, h⟩ r, blockSsq W c ⟨0, h⟩ r⟩
  | n + 1, h, r => by
    have hN : cfg6.N = 8 := N_6
    have hB : ¬(⟨n + 1, h⟩ : Fin cfg6.N).val % 8 = 0 := by dsimp only; omega
    obtain ⟨ih1, ih2⟩ := outsAt_eq c n (Nat.lt_of_succ_lt h) r
    rw [outsAt_B W c ⟨n + 1, h⟩ hB]
    dsimp only
    refine ⟨?_, ?_⟩
    · refine (pay4_apply (hblk W c ⟨n + 1, h⟩) (outsAt6 W c n (Nat.lt_of_succ_lt h)).1 r).trans ?_
      rw [ih1, Finset.sum_range_succ _ (n + 1), blockSum W c ⟨n + 1, h⟩ r]
    · refine (pay5_apply (hblk W c ⟨n + 1, h⟩) (outsAt6 W c n (Nat.lt_of_succ_lt h)).2 r).trans ?_
      rw [ih2, Finset.sum_range_succ _ (n + 1), blockSsq W c ⟨n + 1, h⟩ r]

end AtIdeal

/-! ## The arrays the outputs are written back to -/

/-- What the outputs hold after the last point, as contents of their arrays (the one block is the array). -/
abbrev last1 (c : Dev nD) : Buf (Elt F) ((c : Thread nD τ).loc main_v112_0) :=
  (outsAt6 V c t6_7.val t6_7.isLt).1
abbrev last2 (c : Dev nD) : Buf (Elt F) ((c : Thread nD τ).loc main_v112_1) :=
  (outsAt6 V c t6_7.val t6_7.isLt).2

/-- The one write-back of output 1, at the last point, writes it. -/
theorem flushed_eq1 (c : Dev nD) (t : Fin cfg6.N) (hf : (cfg6.win 1).flush t = true) :
    (dat6 V c).flushed 1 t = ((cfg6.win 1).blk t).view.read (Elt F) (last1 V c) := by
  have hN : cfg6.N = 8 := N_6
  have h7 : t.val = 7 := by have := (flush6_1 t).mp hf; have := t.isLt; omega
  obtain rfl : t = t6_7 := Fin.ext h7
  show (cfg6.win 1).cut (grid6.coords t6_7) ((dat6 V c).after 1 t6_7) = _
  rw [after6_1]
  have hz' : (fun a => win6_1.index t6_7 a * main_v112_0.ty.shape.size a) = fun _ => 0 := funext fun a => by fin_cases a <;> decide
  exact (Memref.read_access_unit_zero (Elt F) main_v112_0 hz' (fun a => by rw [congrFun hz' a]; simp) (last1 V c)).symm

theorem flushed_eq2 (c : Dev nD) (t : Fin cfg6.N) (hf : (cfg6.win 2).flush t = true) :
    (dat6 V c).flushed 2 t = ((cfg6.win 2).blk t).view.read (Elt F) (last2 V c) := by
  have hN : cfg6.N = 8 := N_6
  have h7 : t.val = 7 := by have := (flush6_2 t).mp hf; have := t.isLt; omega
  obtain rfl : t = t6_7 := Fin.ext h7
  show (cfg6.win 2).cut (grid6.coords t6_7) ((dat6 V c).after 2 t6_7) = _
  rw [after6_2]
  have hz' : (fun a => win6_2.index t6_7 a * main_v112_1.ty.shape.size a) = fun _ => 0 := funext fun a => by fin_cases a <;> decide
  exact (Memref.read_access_unit_zero (Elt F) main_v112_1 hz' (fun a => by rw [congrFun hz' a]; simp) (last2 V c)).symm

/-- So the arrays end holding what the outputs hold after the last point: its block covers them. -/
theorem final1 (c : Dev nD) : (dat6 V c).arrAt 1 cfg6.N = last1 V c :=
  (dat6 V c).arrAt_eq_of_cover 1 (last1 V c) (flushed_eq1 V c) fun i =>
    ⟨t6_7, (flush6_1 t6_7).mpr rfl, by
      show i ∈ ((View.whole main_v112_0).slice (win6_1.rect t6_7)).set
      rw [View.set_slice_whole, Rect.mem_set_unit]
      intro a
      have h0 : (i 0 : Nat) < 8 := (i 0).isLt
      have h1 : (i 1 : Nat) < 1 := (i 1).isLt
      match a with
      | ⟨0, _⟩ => show win6_1.index t6_7 0 * win6_1.size 0 ≤ (i 0 : Nat) ∧ (i 0 : Nat) < win6_1.index t6_7 0 * win6_1.size 0 + win6_1.xsize (grid6.coords t6_7) 0
                  rw [show win6_1.index t6_7 0 * win6_1.size 0 = 0 from by decide +kernel, show win6_1.xsize (grid6.coords t6_7) 0 = 8 from by decide +kernel]; omega
      | ⟨1, _⟩ => show win6_1.index t6_7 1 * win6_1.size 1 ≤ (i 1 : Nat) ∧ (i 1 : Nat) < win6_1.index t6_7 1 * win6_1.size 1 + win6_1.xsize (grid6.coords t6_7) 1
                  rw [show win6_1.index t6_7 1 * win6_1.size 1 = 0 from by decide +kernel, show win6_1.xsize (grid6.coords t6_7) 1 = 1 from by decide +kernel]; omega⟩

theorem final2 (c : Dev nD) : (dat6 V c).arrAt 2 cfg6.N = last2 V c :=
  (dat6 V c).arrAt_eq_of_cover 2 (last2 V c) (flushed_eq2 V c) fun i =>
    ⟨t6_7, (flush6_2 t6_7).mpr rfl, by
      show i ∈ ((View.whole main_v112_1).slice (win6_2.rect t6_7)).set
      rw [View.set_slice_whole, Rect.mem_set_unit]
      intro a
      have h0 : (i 0 : Nat) < 8 := (i 0).isLt
      have h1 : (i 1 : Nat) < 1 := (i 1).isLt
      match a with
      | ⟨0, _⟩ => show win6_2.index t6_7 0 * win6_2.size 0 ≤ (i 0 : Nat) ∧ (i 0 : Nat) < win6_2.index t6_7 0 * win6_2.size 0 + win6_2.xsize (grid6.coords t6_7) 0
                  rw [show win6_2.index t6_7 0 * win6_2.size 0 = 0 from by decide +kernel, show win6_2.xsize (grid6.coords t6_7) 0 = 8 from by decide +kernel]; omega
      | ⟨1, _⟩ => show win6_2.index t6_7 1 * win6_2.size 1 ≤ (i 1 : Nat) ∧ (i 1 : Nat) < win6_2.index t6_7 1 * win6_2.size 1 + win6_2.xsize (grid6.coords t6_7) 1
                  rw [show win6_2.index t6_7 1 * win6_2.size 1 = 0 from by decide +kernel, show win6_2.xsize (grid6.coords t6_7) 1 = 1 from by decide +kernel]; omega⟩

/-! ## The value of the region -/

/-- The eight tiles' contributions are the spec's sums. -/
theorem sum_tiles (H : ArrCP) (r : Fin 8) : ∑ s ∈ Finset.range (7 + 1), tileSum H r s = sumK H r := by
  unfold sumK
  rw [Finset.sum_range]
  exact Finset.sum_congr rfl fun t _ => by unfold tileSum; rw [dif_pos t.isLt]

theorem ssq_tiles (H : ArrCP) (r : Fin 8) : ∑ s ∈ Finset.range (7 + 1), tileSsq H r s = ssqK H r := by
  unfold ssqK
  rw [Finset.sum_range]
  exact Finset.sum_congr rfl fun t _ => by unfold tileSsq; rw [dif_pos t.isLt]

/-- Output 1's array ends holding the input's row sums. -/
theorem stats0_sum (W : (c : Dev nD) → (b : Ref sig .tc) → Buf (Elt Ideal) ((c : Thread nD τ).loc b)) (c : Dev nD) :
    toV81 ((dat6 (F := Ideal) W c).arrAt 1 cfg6.N) = sumK (toCP (W c (Pipeline.arrRef spec6 0))) := by
  rw [final1 W c]
  funext r
  exact ((outsAt_eq W c t6_7.val t6_7.isLt r).1).trans (sum_tiles _ r)

/-- Output 2's array ends holding the input's row sums of squares. -/
theorem stats0_ssq (W : (c : Dev nD) → (b : Ref sig .tc) → Buf (Elt Ideal) ((c : Thread nD τ).loc b)) (c : Dev nD) :
    toV81 ((dat6 (F := Ideal) W c).arrAt 2 cfg6.N) = ssqK (toCP (W c (Pipeline.arrRef spec6 0))) := by
  rw [final2 W c]
  funext r
  exact ((outsAt_eq W c t6_7.val t6_7.isLt r).2).trans (ssq_tiles _ r)

end Cert.KernelIdeal.Val6

end
-- ==== Proof.KHost7.lean ====
/-
  What the host operations between the statistics and the transform of a layer compute, read at an index, over
  the extended reals: the row sums divided by the number of nodes (the batch mean), the row sums of squares
  divided by the number of nodes minus the squared mean (the batch variance), the layer's row of the scales
  and of the shifts as columns, and the layer's weight matrix transposed. They hold from any contents the
  operations start from; a buffer none of them writes keeps its contents.
-/
import proofs.«143139_j73710228734964_1_alg».proof.Proof.Gen.KernelIdeal.Launch
import proofs.«143139_j73710228734964_1_alg».proof.Proof.Spec
import proofs.«143139_j73710228734964_1_alg».proof.Proof.Conv
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 2928

noncomputable section

namespace Cert.KernelIdeal.Host7

open Cert.KernelIdeal Cert.KernelIdeal.Gen Cert.GCN Idealize.ShloMosaic Idealize.ShloMosaic.ValueIdx

/-! ## The divisor -/

/-- The word `0x48F42400` denotes the number of nodes, 500000. -/
theorem ofBits_nN : Ideal.ofBits .f32 0x48F42400#32 = nN := by
  show Ideal.ieee 8 23 (0x48F42400#32 : BitVec 32) = ((500000 : ℝ) : EReal)
  simp [Ideal.ieee]
  rw [← EReal.coe_mul]
  norm_num

/-- The scalar constant 500000 broadcast to a column `[8, 1]`. -/
local notation "colN" =>
  (broadcastInDim S8x1 ![] bcast_S_S8x1 (constant (F := Ideal) S_ FTy.f32 0x48F42400#32) : S8x1.Idx → EReal)

/-- It reads 500000 at every index. -/
theorem colN_apply (j : S8x1.Idx) : colN j = nN := by
  rw [broadcastInDim_scalar_apply, constant_apply, ofBits_nN]

/-! ## The operations read at an index, over variables -/

/-- A column divided by the constant column, read at row `c`. -/
theorem divN_apply (x : S8x1.Idx → EReal) (c : Fin 8) :
    toV81 (Host.divf (F := Ideal) (φ := .f32) x colN) c = Ideal.div (toV81 x c) nN := by
  show Ideal.div (x (ix2 c 0)) (colN (ix2 c 0)) = _
  rw [colN_apply]
  rfl

/-- The quotient of `y` minus the squared quotient of `x`, read at row `c`. -/
theorem varN_apply (x y : S8x1.Idx → EReal) (c : Fin 8) :
    toV81 (subf (F := Ideal) (φ := .f32) (Host.divf (F := Ideal) (φ := .f32) y colN)
        (mulf (F := Ideal) (φ := .f32) (Host.divf (F := Ideal) (φ := .f32) x colN) (Host.divf (F := Ideal) (φ := .f32) x colN))) c
      = Ideal.div (toV81 y c) nN - Ideal.div (toV81 x c) nN * Ideal.div (toV81 x c) nN := by
  show Ideal.div (y (ix2 c 0)) (colN (ix2 c 0))
      - Ideal.div (x (ix2 c 0)) (colN (ix2 c 0)) * Ideal.div (x (ix2 c 0)) (colN (ix2 c 0)) = _
  rw [colN_apply]
  rfl

/-- A vector `[8]` cast to a column `[8, 1]` reads, at `(c, u)`, the vector at `c`. -/
theorem shapeCast_8_8x1_apply (x : S8.Idx → EReal) (h : S8.ShapeCasts S8x1) (c : Fin 8) (u : Fin 1) :
    shapeCast S8x1 x h (ix2 c u) = x (ix1 c) :=
  shapeCast_apply x h _ _ (by
    have hu : u.val = 0 := by omega
    rw [Shape.rowMajor_val_two, Shape.rowMajor_val_one]
    show c.val = c.val * 1 + u.val
    omega)

/-- Row `o` of a matrix `[8, 8]`, cut out as `[1, 8]`, cast to `[8]` and then to a column `[8, 1]`: its row `c` is the
    matrix at `(o, c)`. -/
theorem rowCol_apply (o : Nat) (x : S8x8.Idx → EReal) (h : S8x8.Slices ![o, 0] S1x8) (r : Fin 8) (hr : r.val = o) (c : Fin 8) :
    toV81 (shapeCast S8x1 (shapeCast S8 (extractStridedSlice S1x8 ![o, 0] x h) shapeCasts_S1x8_S8) shapeCasts_S8_S8x1) c
      = toM8 x r c := by
  show shapeCast S8x1 (shapeCast S8 (extractStridedSlice S1x8 ![o, 0] x h) shapeCasts_S1x8_S8) shapeCasts_S8_S8x1 (ix2 c 0)
      = x (ix2 r c)
  rw [shapeCast_8_8x1_apply, shapeCast_1a_a_apply]
  exact slice2_axis0_apply o x h 0 c r hr

/-- Matrix `o` of a stack `[8, 8, 8]`, cut out as `[1, 8, 8]`, cast to `[8, 8]` and transposed: its entry `(a, b)` is the
    stack at `(o, b, a)`. -/
theorem sliceT_apply (o : Nat) (x : S8x8x8.Idx → EReal) (h : S8x8x8.Slices ![o, 0, 0] S1x8x8) (r : Fin 8) (hr : r.val = o)
    (a b : Fin 8) :
    toM8 (transpose S8x8 [1, 0] (shapeCast S8x8 (extractStridedSlice S1x8x8 ![o, 0, 0] x h) shapeCasts_S1x8x8_S8x8)
        transposes_S8x8_S8x8_1_0) a b = x (ix3 r b a) := by
  show transpose S8x8 [1, 0] (shapeCast S8x8 (extractStridedSlice S1x8x8 ![o, 0, 0] x h) shapeCasts_S1x8x8_S8x8)
        transposes_S8x8_S8x8_1_0 (ix2 a b) = x (ix3 r b a)
  rw [transpose_ix2_apply, shapeCast_1ab_ab_apply]
  exact extractStridedSlice_apply _ _ _ _ _ (fun ax => by
    match ax with
    | ⟨0, _⟩ => exact hr
    | ⟨1, _⟩ => exact (Nat.zero_add _).symm
    | ⟨2, _⟩ => exact (Nat.zero_add _).symm)

/-! ## The stretch's results -/

section Results

variable (W : Valuation τ sig (Elt Ideal))

theorem after_main_v38 :
    (StableHlo.after (hostOps7 (F := Ideal)) W (Proc.devRef .tc main_v114) : S8x1.Idx → EReal)
      = Host.divf (F := Ideal) (φ := .f32) (W (Proc.devRef .tc main_v112_0)) colN := by
  after_results <;> rfl

theorem after_main_v42 :
    (StableHlo.after (hostOps7 (F := Ideal)) W (Proc.devRef .tc main_v118) : S8x1.Idx → EReal)
      = subf (F := Ideal) (φ := .f32) (Host.divf (F := Ideal) (φ := .f32) (W (Proc.devRef .tc main_v112_1)) colN)
          (mulf (F := Ideal) (φ := .f32) (Host.divf (F := Ideal) (φ := .f32) (W (Proc.devRef .tc main_v112_0)) colN)
            (Host.divf (F := Ideal) (φ := .f32) (W (Proc.devRef .tc main_v112_0)) colN)) := by
  after_results <;> rfl

/-- The batch mean's column: the row sums over the number of nodes. -/
theorem mean1 :
    toV81 (StableHlo.after (hostOps7 (F := Ideal)) W (Proc.devRef .tc main_v114))
      = fun c => Ideal.div (toV81 (W (Proc.devRef .tc main_v112_0)) c) nN := by
  funext c
  rw [after_main_v38]
  exact divN_apply _ c

/-- The batch variance's column: the mean of the squares minus the squared mean. -/
theorem var1 :
    toV81 (StableHlo.after (hostOps7 (F := Ideal)) W (Proc.devRef .tc main_v118))
      = fun c => Ideal.div (toV81 (W (Proc.devRef .tc main_v112_1)) c) nN
          - Ideal.div (toV81 (W (Proc.devRef .tc main_v112_0)) c) nN * Ideal.div (toV81 (W (Proc.devRef .tc main_v112_0)) c) nN := by
  funext c
  rw [after_main_v42]
  exact varN_apply _ _ c

/-- The scale's column: row 0 of the scales' matrix. -/
theorem gamma1 :
    toV81 (StableHlo.after (hostOps7 (F := Ideal)) W (Proc.devRef .tc main_v121))
      = fun c => toM8 (W (Proc.devRef .tc main_arg4)) (2 : Fin 8) c := by
  funext c
  after_results
  exact rowCol_apply _ _ _ (2 : Fin 8) rfl c

/-- The shift's column: row 0 of the shifts' matrix. -/
theorem beta1 :
    toV81 (StableHlo.after (hostOps7 (F := Ideal)) W (Proc.devRef .tc main_v124))
      = fun c => toM8 (W (Proc.devRef .tc main_arg5)) (2 : Fin 8) c := by
  funext c
  after_results
  exact rowCol_apply _ _ _ (2 : Fin 8) rfl c

/-- The weights: matrix 0 of the stack, transposed. -/
theorem wT1 :
    toM8 (StableHlo.after (hostOps7 (F := Ideal)) W (Proc.devRef .tc main_v127))
      = fun a b => (W (Proc.devRef .tc main_arg6) : S8x8x8.Idx → EReal) (ValueIdx.ix3 (2 : Fin 8) b a) := by
  funext a b
  after_results
  exact sliceT_apply _ _ _ (2 : Fin 8) rfl a b

/-- The buffers the stretch writes. -/
def writes1 : List (Ref sig .tc) :=
  [main_cst_19, main_v113, main_v114, main_cst_20, main_v115, main_v116, main_v117, main_v118, main_v119, main_v120, main_v121,
    main_v122, main_v123, main_v124, main_v125, main_v126, main_v127]

/-- A buffer the stretch does not write keeps its contents. -/
theorem kept1 {b : Ref sig .tc} (hb : b ∉ writes1) :
    StableHlo.after (hostOps7 (F := Ideal)) W (Proc.devRef .tc b) = W (Proc.devRef .tc b) :=
  StableHlo.after_of_forall_not_mem (b := Proc.devRef .tc b) _ _ (List.forall_iff_forall_mem.mp (by
    simp only [hostOps7, List.Forall, StableHlo.nullary_writes, StableHlo.unary_writes, StableHlo.binary_writes,
      StableHlo.reshape_writes, Finset.mem_singleton]
    repeat' apply And.intro
    all_goals exact StableHlo.devRef_ne_of_ne (fun e => hb (by rw [e]; decide))))

theorem kept1_main_v35 : StableHlo.after (hostOps7 (F := Ideal)) W (Proc.devRef .tc main_v111) = W (Proc.devRef .tc main_v111) :=
  kept1 W (by decide)
theorem kept1_main_v3 : StableHlo.after (hostOps7 (F := Ideal)) W (Proc.devRef .tc main_v3) = W (Proc.devRef .tc main_v3) :=
  kept1 W (by decide)
theorem kept1_main_v6 : StableHlo.after (hostOps7 (F := Ideal)) W (Proc.devRef .tc main_v6) = W (Proc.devRef .tc main_v6) :=
  kept1 W (by decide)
theorem kept1_main_v26 : StableHlo.after (hostOps7 (F := Ideal)) W (Proc.devRef .tc main_v26) = W (Proc.devRef .tc main_v26) :=
  kept1 W (by decide)
theorem kept1_main_arg7 : StableHlo.after (hostOps7 (F := Ideal)) W (Proc.devRef .tc main_arg7) = W (Proc.devRef .tc main_arg7) :=
  kept1 W (by decide)

end Results

end Cert.KernelIdeal.Host7

end
-- ==== Proof.KTransform7.lean ====
/-
  The value of the transform kernel of layer 0 (region 1 of the kernel program), at the ideal values and for any
  contents `V` of the buffers when the region is entered.

  The region walks the 8 column blocks of 65536 lanes of `H : [8, 524288]`. At block `t` it reads the block of `H`,
  the four columns `[8, 1]` (mean, variance, scale, shift) and the matrix `wT : [8, 8]` whole, and stores
    wT · ((x − mean) · rsqrt(var + eps) · scale + shift)
  into block `t` of the output: entry `(co, l)` of the stored block is the sum over the input channel `ci` of
  `wT (co, ci)` times the normalised entry `(ci, l)` of the block. The 8 blocks tile the output array, so the array
  ends holding, at `(co, n)`, the same sum with column `n = 65536 · t + l` of `H`.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.PureOps.Ideal.Laws

noncomputable section

namespace Cert.KernelIdeal.Val7

open Cert.KernelIdeal Cert.KernelIdeal.Gen Cert.KernelIdeal.GenP Cert.GCN
open Idealize.ShloMosaic Idealize.ShloMosaic.TcCoe Idealize.ShloMosaic.ValueIdx Idealize.SL.Sem
open Idealize.ShloMosaic.Pipeline (Dat)
open scoped BigOperators

/-! ## The payload at an index -/

/-- An `[8, 1]` column broadcast along the lanes reads, at `(p, l)`, the column's entry of row `p`. -/
theorem bcast_col_apply {α : Type} (v : S8x1.Idx → α) (h : S8x1.Broadcasts S8x65536) (p : Fin 8) (l : Fin 65536) :
    broadcastTo S8x65536 v h (ix2 p l) = v (ix2 p (0 : Fin 1)) := by
  refine broadcastTo_apply v h (ix2 p l) (ix2 p (0 : Fin 1)) fun ax => ?_
  match ax with
  | ⟨0, _⟩ => rfl
  | ⟨1, _⟩ => rfl

/-- The product's left operand is read at the output's row … -/
theorem lhs_dot_0 (j : S8x65536.Idx) (k : dot_S8x8_S8x65536_S8x65536_1_0_0_1_n_n.contr.Idx) :
    ((dot_S8x8_S8x65536_S8x65536_1_0_0_1_n_n.lhsIdx j k 0 : Fin _) : ℕ) = (j 0 : ℕ) := by
  simp [DotDims.lhsIdx, dot_S8x8_S8x65536_S8x65536_1_0_0_1_n_n]
  rfl

/-- … and at the contracted coordinate; -/
theorem lhs_dot_1 (j : S8x65536.Idx) (k : dot_S8x8_S8x65536_S8x65536_1_0_0_1_n_n.contr.Idx) :
    ((dot_S8x8_S8x65536_S8x65536_1_0_0_1_n_n.lhsIdx j k 1 : Fin _) : ℕ) = (k ⟨0, by decide⟩ : ℕ) :=
  dot_S8x8_S8x65536_S8x65536_1_0_0_1_n_n.lhsIdx_val_of_single rfl j k

/-- the right operand at the contracted coordinate … -/
theorem rhs_dot_0 (j : S8x65536.Idx) (k : dot_S8x8_S8x65536_S8x65536_1_0_0_1_n_n.contr.Idx) :
    ((dot_S8x8_S8x65536_S8x65536_1_0_0_1_n_n.rhsIdx j k 0 : Fin _) : ℕ) = (k ⟨0, by decide⟩ : ℕ) :=
  dot_S8x8_S8x65536_S8x65536_1_0_0_1_n_n.rhsIdx_val_of_single rfl j k

/-- … and at the output's lane. -/
theorem rhs_dot_1 (j : S8x65536.Idx) (k : dot_S8x8_S8x65536_S8x65536_1_0_0_1_n_n.contr.Idx) :
    ((dot_S8x8_S8x65536_S8x65536_1_0_0_1_n_n.rhsIdx j k 1 : Fin _) : ℕ) = (j 1 : ℕ) := by
  simp [DotDims.rhsIdx, dot_S8x8_S8x65536_S8x65536_1_0_0_1_n_n]
  rfl

/-- The payload at `(co, l)`: the normalised, scaled and shifted column `l` of the block, multiplied on the left by
    row `co` of the matrix. The product's zero accumulator adds nothing, and the narrowing of the two operands is the
    identity on the extended reals. -/
theorem pay1_apply (v0 v2 v4 v6 : Vec Ideal S8x1 .f32) (v11 : Vec Ideal S8x65536 .f32) (v21 : Vec Ideal S8x8 .f32)
    (co : Fin 8) (l : Fin 65536) :
    k7_pay1 (F := Ideal) v0 v2 v4 v6 v11 v21 (ix2 co l)
      = ∑ ci : Fin 8, v21 (ix2 co ci)
          * ((v11 (ix2 ci l) - v0 (ix2 ci (0 : Fin 1))) * Ideal.rsqrt (v2 (ix2 ci (0 : Fin 1)) + eps) * v4 (ix2 ci (0 : Fin 1))
              + v6 (ix2 ci (0 : Fin 1))) := by
  unfold k7_pay1
  refine (Ideal.matmul_constant_zero_apply dot_S8x8_S8x65536_S8x65536_1_0_0_1_n_n none _ _ (ix2 co l)).trans ?_
  refine (Equiv.sum_comp (contrEquiv1 dot_S8x8_S8x65536_S8x65536_1_0_0_1_n_n 8 rfl rfl).symm _).symm.trans ?_
  refine Finset.sum_congr rfl fun ci _ => ?_
  have c2 := contrEquiv1_symm_val dot_S8x8_S8x65536_S8x65536_1_0_0_1_n_n 8 rfl rfl ci
  have l2 : dot_S8x8_S8x65536_S8x65536_1_0_0_1_n_n.lhsIdx (ix2 co l) ((contrEquiv1 _ 8 rfl rfl).symm ci) = ix2 co ci := by
    funext ax; apply Fin.ext
    match ax with
    | ⟨0, _⟩ => exact lhs_dot_0 _ _
    | ⟨1, _⟩ => exact (lhs_dot_1 _ _).trans c2
  have r2 : dot_S8x8_S8x65536_S8x65536_1_0_0_1_n_n.rhsIdx (ix2 co l) ((contrEquiv1 _ 8 rfl rfl).symm ci) = ix2 ci l := by
    funext ax; apply Fin.ext
    match ax with
    | ⟨0, _⟩ => exact (rhs_dot_0 _ _).trans c2
    | ⟨1, _⟩ => exact rhs_dot_1 _ _
  rw [l2, r2]
  simp only [truncf_apply, shapeCast_self, addf_apply, mulf_apply, subf_apply, bcast_col_apply]
  rfl

/-- The same at an index of the block given by its two coordinates' values. -/
theorem pay1_at (x0 : Vec Ideal S8x65536 .f32) (x1 x2 x3 x4 : Vec Ideal S8x1 .f32) (x5 : Vec Ideal S8x8 .f32)
    (y : S8x65536.Idx) (p : Fin 8) (q : Fin 65536) (hp : (y 0).val = p.val) (hq : (y 1).val = q.val) :
    k7_pay1 (F := Ideal) x1 x2 x3 x4 x0 x5 y
      = ∑ ci : Fin 8, x5 (ix2 p ci)
          * ((x0 (ix2 ci q) - x1 (ix2 ci (0 : Fin 1))) * Ideal.rsqrt (x2 (ix2 ci (0 : Fin 1)) + eps) * x3 (ix2 ci (0 : Fin 1))
              + x4 (ix2 ci (0 : Fin 1))) := by
  have hy : y = ix2 p q := by
    funext a; apply Fin.ext
    match a with
    | ⟨0, _⟩ => exact hp
    | ⟨1, _⟩ => exact hq
  rw [hy]
  exact pay1_apply x1 x2 x3 x4 x0 x5 p q

/-! ## From blocks to the array -/

section Blocks

variable (V : (c : Dev nD) → (b : Ref sig .tc) → Buf (Elt Ideal) ((c : Thread nD τ).loc b))

/-- The six arrays the region reads, as it finds them: `H`, the mean, variance, scale and shift columns, the matrix. -/
abbrev harr (c : Dev nD) : Vec Ideal S8x524288 .f32 := V c (Pipeline.arrRef spec7 0)
abbrev marr (c : Dev nD) : Vec Ideal S8x1 .f32 := V c (Pipeline.arrRef spec7 1)
abbrev sarr (c : Dev nD) : Vec Ideal S8x1 .f32 := V c (Pipeline.arrRef spec7 2)
abbrev garr (c : Dev nD) : Vec Ideal S8x1 .f32 := V c (Pipeline.arrRef spec7 3)
abbrev barr (c : Dev nD) : Vec Ideal S8x1 .f32 := V c (Pipeline.arrRef spec7 4)
abbrev warr (c : Dev nD) : Vec Ideal S8x8 .f32 := V c (Pipeline.arrRef spec7 5)

/-- The transform at `(co, n)`: row `co` of the matrix times the normalised column `n` of `H`. -/
def T1 (c : Dev nD) (co : Fin 8) (n : Fin 524288) : EReal :=
  ∑ ci : Fin 8, warr V c (ix2 co ci)
    * ((harr V c (ix2 ci n) - marr V c (ix2 ci (0 : Fin 1))) * Ideal.rsqrt (sarr V c (ix2 ci (0 : Fin 1)) + eps) * garr V c (ix2 ci (0 : Fin 1))
        + barr V c (ix2 ci (0 : Fin 1)))

/-- The array the region leaves, as a function of its index. -/
abbrev G1 (c : Dev nD) : Vec Ideal S8x524288 .f32 := fun i => T1 V c (i 0) (i 1)

theorem hz : (![0, 0] : Fin 2 → Nat) = fun _ => 0 := funext fun a => by fin_cases a <;> rfl

/-- The block indices over the grid: the windows of `H` and of the output are at column block `t`, the five small
    windows at block `(0, 0)`. -/
theorem idx_facts1 : ∀ t : Fin cfg7.N,
    win7_0.index t (0 : Fin 2) = 0 ∧ win7_0.index t (1 : Fin 2) = t.val
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = t.val :=
  (by decide +kernel : ∀ t : Fin grid7.N, _)

/-- Entry `(r, l)` of the block of `H` at point `t` is entry `(r, 65536 · t + l)` of `H`. -/
theorem iblk1_0_apply (c : Dev nD) (t : Fin cfg7.N) (x : S8x65536.Idx) (k : S8x524288.Idx)
    (hk0 : (k 0).val = (x 0).val) (hk1 : (k 1).val = 65536 * t.val + (x 1).val) :
    (iblk7 V c 0 t : Vec Ideal S8x65536 .f32) x = harr V c k := by
  obtain ⟨e0, e1, -⟩ := idx_facts1 t
  unfold iblk7
  rw [View.read_apply]
  show V c (Pipeline.arrRef spec7 0) _ = V c (Pipeline.arrRef spec7 0) k
  congr 1
  funext a
  apply Fin.ext
  match a with
  | ⟨0, _⟩ => show win7_0.index t 0 * 8 + 1 * (x 0).val = (k 0).val; rw [e0, hk0]; omega
  | ⟨1, _⟩ => show win7_0.index t 1 * 65536 + 1 * (x 1).val = (k 1).val; rw [e1, hk1]; omega

/-- The block of each small window is its whole array, at every point. -/
theorem iblk1_1_eq (c : Dev nD) (t : Fin cfg7.N) : (iblk7 V c 1 t : Vec Ideal S8x1 .f32) = marr V c := by
  obtain ⟨-, -, e0, e1, -⟩ := idx_facts1 t
  funext x
  unfold iblk7
  rw [View.read_apply]
  show V c (Pipeline.arrRef spec7 1) _ = V c (Pipeline.arrRef spec7 1) x
  congr 1
  funext a
  apply Fin.ext
  match a with
  | ⟨0, _⟩ => show win7_1.index t 0 * 8 + 1 * (x 0).val = (x 0).val; rw [e0]; omega
  | ⟨1, _⟩ => show win7_1.index t 1 * 1 + 1 * (x 1).val = (x 1).val; rw [e1]; omega

theorem iblk1_2_eq (c : Dev nD) (t : Fin cfg7.N) : (iblk7 V c 2 t : Vec Ideal S8x1 .f32) = sarr V c := by
  obtain ⟨-, -, -, -, e0, e1, -⟩ := idx_facts1 t
  funext x
  unfold iblk7
  rw [View.read_apply]
  show V c (Pipeline.arrRef spec7 2) _ = V c (Pipeline.arrRef spec7 2) x
  congr 1
  funext a
  apply Fin.ext
  match a with
  | ⟨0, _⟩ => show win7_2.index t 0 * 8 + 1 * (x 0).val = (x 0).val; rw [e0]; omega
  | ⟨1, _⟩ => show win7_2.index t 1 * 1 + 1 * (x 1).val = (x 1).val; rw [e1]; omega

theorem iblk1_3_eq (c : Dev nD) (t : Fin cfg7.N) : (iblk7 V c 3 t : Vec Ideal S8x1 .f32) = garr V c := by
  obtain ⟨-, -, -, -, -, -, e0, e1, -⟩ := idx_facts1 t
  funext x
  unfold iblk7
  rw [View.read_apply]
  show V c (Pipeline.arrRef spec7 3) _ = V c (Pipeline.arrRef spec7 3) x
  congr 1
  funext a
  apply Fin.ext
  match a with
  | ⟨0, _⟩ => show win7_3.index t 0 * 8 + 1 * (x 0).val = (x 0).val; rw [e0]; omega
  | ⟨1, _⟩ => show win7_3.index t 1 * 1 + 1 * (x 1).val = (x 1).val; rw [e1]; omega

theorem iblk1_4_eq (c : Dev nD) (t : Fin cfg7.N) : (iblk7 V c 4 t : Vec Ideal S8x1 .f32) = barr V c := by
  obtain ⟨-, -, -, -, -, -, -, -, e0, e1, -⟩ := idx_facts1 t
  funext x
  unfold iblk7
  rw [View.read_apply]
  show V c (Pipeline.arrRef spec7 4) _ = V c (Pipeline.arrRef spec7 4) x
  congr 1
  funext a
  apply Fin.ext
  match a with
  | ⟨0, _⟩ => show win7_4.index t 0 * 8 + 1 * (x 0).val = (x 0).val; rw [e0]; omega
  | ⟨1, _⟩ => show win7_4.index t 1 * 1 + 1 * (x 1).val = (x 1).val; rw [e1]; omega

theorem iblk1_5_eq (c : Dev nD) (t : Fin cfg7.N) : (iblk7 V c 5 t : Vec Ideal S8x8 .f32) = warr V c := by
  obtain ⟨-, -, -, -, -, -, -, -, -, -, e0, e1, -⟩ := idx_facts1 t
  funext x
  unfold iblk7
  rw [View.read_apply]
  show V c (Pipeline.arrRef spec7 5) _ = V c (Pipeline.arrRef spec7 5) x
  congr 1
  funext a
  apply Fin.ext
  match a with
  | ⟨0, _⟩ => show win7_5.index t 0 * 8 + 1 * (x 0).val = (x 0).val; rw [e0]; omega
  | ⟨1, _⟩ => show win7_5.index t 1 * 8 + 1 * (x 1).val = (x 1).val; rw [e1]; omega

/-- What point `t` writes back is block `t` of the transformed array: entry `(co, l)` of the stored block is the
    transform at column `65536 · t + l`. -/
theorem flushed1_eq (c : Dev nD) (t : Fin cfg7.N) :
    (dat7 V c).flushed 6 t = ((cfg7.win 6).blk t).view.read (Elt Ideal) (G1 V c) := by
  show (cfg7.win 6).cut (grid7.coords t) ((dat7 V c).after 6 t) = _
  rw [after7_6]
  unfold out7_6
  rw [View.canon_unit_zero hz]
  simp only [View.ld_unit_zero (S := S8x1) hz, View.ld_unit_zero (S := S8x65536) hz, View.ld_unit_zero (S := S8x8) hz]
  obtain ⟨-, -, -, -, -, -, -, -, -, -, -, -, e0, e1⟩ := idx_facts1 t
  have ht : t.val < 8 := lt_of_lt_of_eq t.isLt N_7
  funext j
  have hj0 : (j 0).val < 8 := (j 0).isLt
  have hj1 : (j 1).val < 65536 := (j 1).isLt
  have hn : 65536 * t.val + (j 1).val < 524288 := by omega
  rw [View.read_apply]
  show k7_pay1 (F := Ideal) (iblk7 V c 1 t) (iblk7 V c 2 t) (iblk7 V c 3 t) (iblk7 V c 4 t) (iblk7 V c 0 t) (iblk7 V c 5 t)
      ((cfg7.win 6).xinj (grid7.coords t) j)
    = T1 V c ((((cfg7.win 6).blk t).view.emb j) 0) ((((cfg7.win 6).blk t).view.emb j) 1)
  have he0 : ((((cfg7.win 6).blk t).view.emb j) 0 : Fin 8) = ⟨(j 0).val, hj0⟩ :=
    Fin.ext (by show win7_6.index t 0 * 8 + 1 * (j 0).val = (j 0).val; rw [e0]; omega)
  have he1 : ((((cfg7.win 6).blk t).view.emb j) 1 : Fin 524288) = ⟨65536 * t.val + (j 1).val, hn⟩ :=
    Fin.ext (by show win7_6.index t 1 * 65536 + 1 * (j 1).val = 65536 * t.val + (j 1).val; rw [e1]; omega)
  rw [he0, he1]
  refine (pay1_at (iblk7 V c 0 t) (iblk7 V c 1 t) (iblk7 V c 2 t) (iblk7 V c 3 t) (iblk7 V c 4 t) (iblk7 V c 5 t)
    ((cfg7.win 6).xinj (grid7.coords t) j) ⟨(j 0).val, hj0⟩ ⟨(j 1).val, hj1⟩ rfl rfl).trans ?_
  unfold T1
  refine Finset.sum_congr rfl fun ci _ => ?_
  rw [iblk1_1_eq, iblk1_2_eq, iblk1_3_eq, iblk1_4_eq, iblk1_5_eq,
    iblk1_0_apply V c t (ix2 ci ⟨(j 1).val, hj1⟩) (ix2 ci ⟨65536 * t.val + (j 1).val, hn⟩) rfl rfl]
  rfl

/-- An index of the array is in point `t`'s block iff each coordinate is in the block's range on its axis. -/
theorem mem_blk1_6 (t : Fin cfg7.N) (i : S8x524288.Idx) :
    i ∈ ((cfg7.win 6).blk t).view.set ↔ ∀ a : Fin 2, win7_6.index t a * S8x65536.size a ≤ (i a).val ∧ (i a).val < win7_6.index t a * S8x65536.size a + S8x65536.size a := by
  show i ∈ ((View.whole main_v128).slice (win7_6.rect t)).set ↔ _
  rw [View.set_slice_whole, Rect.mem_set_unit]
  exact Iff.rfl

/-- Every index `(r, n)` of the array is in the block of point `n / 65536`. -/
theorem cover1 (i : S8x524288.Idx) : ∃ t : Fin cfg7.N, (cfg7.win 6).flush t = true ∧ i ∈ ((cfg7.win 6).blk t).view.set := by
  have hN : cfg7.N = 8 := N_7
  have h0 : (i 0).val < 8 := (i 0).isLt
  have h1 : (i 1).val < 524288 := (i 1).isLt
  obtain ⟨t, ht⟩ : ∃ t : Fin cfg7.N, t.val = (i 1).val / 65536 := ⟨⟨(i 1).val / 65536, lt_of_lt_of_eq (by omega) hN.symm⟩, rfl⟩
  obtain ⟨-, -, -, -, -, -, -, -, -, -, -, -, e0, e1⟩ := idx_facts1 t
  refine ⟨t, flush7_6 t, ?_⟩
  rw [mem_blk1_6]
  intro a
  match a with
  | ⟨0, _⟩ => show win7_6.index t 0 * 8 ≤ (i 0).val ∧ (i 0).val < win7_6.index t 0 * 8 + 8; rw [e0]; omega
  | ⟨1, _⟩ => show win7_6.index t 1 * 65536 ≤ (i 1).val ∧ (i 1).val < win7_6.index t 1 * 65536 + 65536; rw [e1, ht]; omega

/-- The output array after the region's 8 points is the transformed array. -/
theorem final1 (c : Dev nD) : (dat7 V c).arrAt 6 cfg7.N = G1 V c :=
  (dat7 V c).arrAt_eq_of_cover 6 (G1 V c) (fun t _ => flushed1_eq V c t) cover1

/-- THE VALUE of the transform region over the curried views: with `H`, the mean `μ`, the variance `σ²`, the scale
    `γ`, the shift `β` and the matrix `wT` read off the arrays as the region finds them, the output array is, at
    `(co, n)`, the sum over `ci` of `wT co ci · ((H ci n − μ ci) · rsqrt(σ² ci + eps) · γ ci + β ci)`. -/
theorem transform1_val (c : Dev nD) :
    toCP ((dat7 V c).arrAt 6 cfg7.N)
      = fun co n => ∑ ci : Fin 8, toM8 (V c (Pipeline.arrRef spec7 5)) co ci
          * ((toCP (V c (Pipeline.arrRef spec7 0)) ci n - toV81 (V c (Pipeline.arrRef spec7 1)) ci)
              * Ideal.rsqrt (toV81 (V c (Pipeline.arrRef spec7 2)) ci + eps) * toV81 (V c (Pipeline.arrRef spec7 3)) ci
              + toV81 (V c (Pipeline.arrRef spec7 4)) ci) := by
  rw [final1]
  rfl

end Blocks

end Cert.KernelIdeal.Val7

end
-- ==== Proof.KHost8.lean ====
/-
  The kernel program's host operations between a layer's transform region and its residual region, read at an
  index over the extended reals, from any contents of the buffers they start from.
  Two layout facts carry everything. The first `N` columns of a channel-major array `[8, NP]`, transposed, are its
  node-major reading `[N, 8]`: entry `(n, c)` is entry `(c, n)`. A node-major array transposed and padded with zeros
  to `NP` columns is its channel-major padded layout: entry `(c, n)` is entry `(n, c)` below the last node and zero
  past it (the pad value is the integer zero converted to a float, which is zero).
  The operations slice and transpose the transform's output, aggregate it over the edges (gather at the sources,
  scale by the norms, add up at the targets: one function `AGG` of the sources, the targets, the norms and the
  array, never opened), transpose and pad the result back, and cut the layer's row out of the bias matrix as a
  column. Every buffer these operations do not write keeps its contents.
-/
import proofs.«143139_j73710228734964_1_alg».proof.Proof.Gen.KernelIdeal.Launch
import proofs.«143139_j73710228734964_1_alg».proof.Proof.Spec
import proofs.«143139_j73710228734964_1_alg».proof.Proof.Conv
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host8

open Cert.KernelIdeal Cert.KernelIdeal.Gen Cert.GCN Idealize.ShloMosaic Idealize.ShloMosaic.ValueIdx

/-- The first `N` columns of a channel-major array, transposed, are its node-major reading: index `(n, c)` reads `(c, n)`. -/
theorem unpad_layout (X : S8x524288.Idx → EReal) (hs : S8x524288.Slices ![0, 0] S8x500000)
    (ht : S8x500000.Transposes [1, 0] S500000x8) :
    transpose S500000x8 [1, 0] (extractStridedSlice S8x500000 ![0, 0] X hs) ht = ofNC (unpadT (toCP X)) := by
  funext j
  obtain ⟨n, c, rfl⟩ : ∃ (n : Fin 500000) (c : Fin 8), j = ix2 n c := ⟨j 0, j 1, eq_ix2 j⟩
  rw [transpose_ix2_apply]
  refine (extractStridedSlice_apply _ X hs _ (ix2 c ⟨n.val, Nat.lt_trans n.isLt (by decide)⟩) fun a => ?_).trans ?_
  · match a with
    | ⟨0, _⟩ => simp
    | ⟨1, _⟩ => simp
  · rfl

/-- A node-major array transposed and zero-padded to `NP` columns is its channel-major padded layout: index `(c, n)`
    reads `(n, c)` below the last node and the pad value past it. -/
theorem pad_layout (Y : S500000x8.Idx → EReal) (z : S_.Idx → EReal) (hz : ∀ i, z i = 0)
    (ht : S500000x8.Transposes [1, 0] S8x500000)
    (hp : S8x500000.Pads (![0, 0] : Fin 2 → Nat) ![0, 24288] ![0, 0] S8x524288) (hu : 0 < S_.numel) :
    pad S8x524288 ![0, 0] ![0, 24288] ![0, 0] (transpose S8x500000 [1, 0] Y ht) z hp hu = ofCP (padT (toNC Y)) := by
  funext j
  obtain ⟨c, n, rfl⟩ : ∃ (c : Fin 8) (n : Fin 524288), j = ix2 c n := ⟨j 0, j 1, eq_ix2 j⟩
  show _ = (if hn : n.val < NN then Y (ix2 ⟨n.val, hn⟩ c) else 0)
  unfold pad
  by_cases hn : n.val < NN
  · have hcond : ∀ a : Fin S8x500000.rank, (![0, 0] : Fin 2 → Nat) a ≤ ((ix2 c n : S8x524288.Idx) (a.cast hp.1)).val
        ∧ (((ix2 c n : S8x524288.Idx) (a.cast hp.1)).val - (![0, 0] : Fin 2 → Nat) a) % ((![0, 0] : Fin 2 → Nat) a + 1) = 0
        ∧ (((ix2 c n : S8x524288.Idx) (a.cast hp.1)).val - (![0, 0] : Fin 2 → Nat) a) / ((![0, 0] : Fin 2 → Nat) a + 1) < S8x500000.size a := by
      intro a
      match a with
      | ⟨0, _⟩ =>
        show (0 : ℕ) ≤ c.val ∧ (c.val - 0) % (0 + 1) = 0 ∧ (c.val - 0) / (0 + 1) < 8
        have := c.isLt; omega
      | ⟨1, _⟩ =>
        show (0 : ℕ) ≤ n.val ∧ (n.val - 0) % (0 + 1) = 0 ∧ (n.val - 0) / (0 + 1) < 500000
        have : n.val < 500000 := hn
        omega
    rw [dif_pos hn, dif_pos hcond]
    refine transpose_apply _ Y ht _ (ix2 ⟨n.val, hn⟩ c) fun b => ?_
    match b with
    | ⟨0, _⟩ => show c.val = (c.val - 0) / (0 + 1); omega
    | ⟨1, _⟩ => show n.val = (n.val - 0) / (0 + 1); omega
  · rw [dif_neg hn, dif_neg ?_, hz]
    intro h
    have h1 := (h ⟨1, by decide⟩).2.2
    have h1' : (n.val - 0) / (0 + 1) < 500000 := h1
    exact hn (show n.val < 500000 by omega)

/-- The edge aggregation on a node-major array `hw`: gather the rows at the edge sources (a negative source index
    counted from the end), scale each by its edge's norm, and add them up at the edge targets, from zero. -/
def AGG (src dst : IVec S8500000 32) (norm : FVec Ideal S8500000 .f32) (hw : FVec Ideal S500000x8 .f32) :
    FVec Ideal S500000x8 .f32 :=
  Host.scatterAdd scatter_S500000x8_S8500000x1_S8500000x8_1_0_0_1
    (broadcastInDim S500000x8 ![] bcast_S_S500000x8 (constant (F := Ideal) S_ .f32 0x00000000#32))
    (broadcastInDim S8500000x1 ![0] bcast_S8500000_S8500000x1_0 dst)
    (mulf
      (Host.gather gather_S500000x8_S8500000x1_S8500000x8_1_0_n_n_0_1_18 hw
        (broadcastInDim S8500000x1 ![0] bcast_S8500000_S8500000x1_0
          (select (cmpi .slt src (broadcastInDim S8500000 ![] bcast_S_S8500000 (constantI S_ 32 0#32)))
            (addi src (broadcastInDim S8500000 ![] bcast_S_S8500000 (constantI S_ 32 500000#32)))
            src)))
      (broadcastInDim S8500000x8 ![0, 1] bcast_S8500000x1_S8500000x8_0_1
        (broadcastInDim S8500000x1 ![0] bcast_S8500000_S8500000x1_0 norm)))

/-- The scalar the padding calls pad with, the integer zero read as a float, is zero. -/
theorem pad_zero (i : S_.Idx) : sitofp (F := Ideal) .f32 (constantI S_ 32 0#32) i = 0 := by
  show (((BitVec.toInt (0#32 : BitVec 32) : ℤ) : ℝ) : EReal) = 0
  rw [show BitVec.toInt (0#32 : BitVec 32) = 0 from by decide]
  simp

set_option maxRecDepth 16384 in
/-- The padding call after the aggregation stretch: the padded buffer is the pad of the transposed buffer by the
    converted constant, whatever the valuation before the call. -/
theorem pad_call1 (V : Valuation τ sig (Elt Ideal)) :
    @Eq (S8x524288.Idx → EReal) (StableHlo.after (hostOps8_1 (F := Ideal)) V (Proc.devRef .tc main_v145))
      (pad S8x524288 ![0, 0] ![0, 24288] ![0, 0] (V (Proc.devRef .tc main_v144))
        (sitofp (F := Ideal) .f32 (V (Proc.devRef .tc main_c_24))) pads_S8x500000_S8x524288_000_0242880 h_S_) := by
  dsimp only [hostOps8_1]
  after_results
  rfl

set_option maxRecDepth 16384 in
set_option maxHeartbeats 1000000 in
/-- What the padded buffer holds after the aggregation stretch and its padding call, as the operations spell it. -/
theorem v69_eq (W : Valuation τ sig (Elt Ideal)) :
    @Eq (S8x524288.Idx → EReal)
      (StableHlo.after (hostOps8_1 (F := Ideal)) (StableHlo.after (hostOps8 (F := Ideal)) W) (Proc.devRef .tc main_v145))
      (pad S8x524288 ![0, 0] ![0, 24288] ![0, 0]
        (transpose S8x500000 [1, 0]
          (Host.scatterAdd scatter_S500000x8_S8500000x1_S8500000x8_1_0_0_1
            (broadcastInDim S500000x8 ![] bcast_S_S500000x8 (constant (F := Ideal) S_ .f32 0x00000000#32))
            (broadcastInDim S8500000x1 ![0] bcast_S8500000_S8500000x1_0 (W (Proc.devRef .tc main_v6)))
            (mulf
              (Host.gather gather_S500000x8_S8500000x1_S8500000x8_1_0_n_n_0_1_18
                (transpose S500000x8 [1, 0]
                  (extractStridedSlice S8x500000 ![0, 0] (W (Proc.devRef .tc main_v128)) slices_S8x524288_S8x500000_0_0)
                  transposes_S8x500000_S500000x8_1_0)
                (broadcastInDim S8500000x1 ![0] bcast_S8500000_S8500000x1_0
                  (select
                    (cmpi .slt (W (Proc.devRef .tc main_v3)) (broadcastInDim S8500000 ![] bcast_S_S8500000 (constantI S_ 32 0#32)))
                    (addi (W (Proc.devRef .tc main_v3)) (broadcastInDim S8500000 ![] bcast_S_S8500000 (constantI S_ 32 500000#32)))
                    (W (Proc.devRef .tc main_v3)))))
              (broadcastInDim S8500000x8 ![0, 1] bcast_S8500000x1_S8500000x8_0_1
                (broadcastInDim S8500000x1 ![0] bcast_S8500000_S8500000x1_0 (W (Proc.devRef .tc main_v26))))))
          transposes_S500000x8_S8x500000_1_0)
        (sitofp (F := Ideal) .f32 (constantI S_ 32 0#32)) pads_S8x500000_S8x524288_000_0242880 h_S_) := by
  rw [pad_call1]
  dsimp only [hostOps8]
  after_results

set_option maxRecDepth 16384 in
/-- After the aggregation stretch and its padding call, the padded buffer holds the channel-major padded layout of the
    aggregation of the node-major reading of the transform's output. -/
theorem agg2 (W : Valuation τ sig (Elt Ideal)) :
    toCP (StableHlo.after (hostOps8_1 (F := Ideal)) (StableHlo.after (hostOps8 (F := Ideal)) W) (Proc.devRef .tc main_v145))
      = padT (toNC (AGG (W (Proc.devRef .tc main_v3)) (W (Proc.devRef .tc main_v6)) (W (Proc.devRef .tc main_v26))
          (ofNC (unpadT (toCP (W (Proc.devRef .tc main_v128))))))) := by
  rw [v69_eq W]
  unfold AGG
  rw [unpad_layout, pad_layout _ _ pad_zero, toCP_ofCP]

set_option maxRecDepth 16384 in
/-- After the bias stretch, the bias column holds the layer's row of the bias matrix. -/
theorem bias2 (W : Valuation τ sig (Elt Ideal)) :
    toV81 (StableHlo.after (hostOps8_2 (F := Ideal)) W (Proc.devRef .tc main_v148))
      = fun c => toM8 (W (Proc.devRef .tc main_arg7)) (2 : Fin 8) c := by
  funext c
  unfold toV81 toM8
  dsimp only [hostOps8_2]
  after_results
  dsimp only
  -- a vector of 8 read as 8 rows of one entry, at row c, is its entry c
  refine (shapeCast_apply (s := S8) (t := S8x1) _ _ (ix2 c 0) (ix1 c) ?_).trans ?_
  · rw [Shape.rowMajor_val_two, Shape.rowMajor_val_one]
    show c.val = c.val * 1 + 0
    omega
  -- one row of 8 read as a vector, at c, is the row's entry c
  refine (shapeCast_1a_a_apply _ _ c).trans ?_
  -- the one-row slice at entry c is the matrix at the layer's row
  exact extractStridedSlice_apply _ _ _ _ (ix2 (2 : Fin 8) c) fun a => match a with
    | ⟨0, _⟩ => rfl
    | ⟨1, _⟩ => (Nat.zero_add _).symm

/-! ## What the stretches leave alone -/

/-- The references the aggregation stretch, its padding call, and the bias stretch write. -/
abbrev hostOps2_W : List (Ref sig .tc) :=
  [main_v129, main_v130, main_c_21, main_v131, main_v132, main_c_22, main_v133, main_v134, main_v135, main_v136, main_v137,
    main_v138, main_v139, main_v140, main_cst_23, main_v141, main_v142, main_v143, main_v144, main_c_24]
abbrev hostOps2_1_W : List (Ref sig .tc) := [main_call3_v0, main_v145]
abbrev hostOps2_2_W : List (Ref sig .tc) := [main_v146, main_v147, main_v148]

set_option maxRecDepth 16384 in
theorem hostOps2_writes : (hostOps8 (F := Ideal)).Forall fun op =>
    op.writes ⊆ (hostOps2_W.map (Proc.devRef (τ := τ) .tc)).toFinset := by
  simp only [hostOps8, List.Forall, StableHlo.nullary_writes, StableHlo.unary_writes, StableHlo.binary_writes,
    StableHlo.ternary_writes, Finset.singleton_subset_iff, List.mem_toFinset]
  refine ⟨?_, ?_, ?_, ?_, ?_, ?_, ?_, ?_, ?_, ?_, ?_, ?_, ?_, ?_, ?_, ?_, ?_, ?_, ?_, ?_⟩
  all_goals exact List.mem_map.mpr ⟨_, by decide, rfl⟩

set_option maxRecDepth 16384 in
theorem hostOps2_1_writes : (hostOps8_1 (F := Ideal)).Forall fun op =>
    op.writes ⊆ (hostOps2_1_W.map (Proc.devRef (τ := τ) .tc)).toFinset := by
  simp only [hostOps8_1, List.Forall, StableHlo.unary_writes, StableHlo.binary_writes,
    Finset.singleton_subset_iff, List.mem_toFinset]
  refine ⟨?_, ?_⟩
  all_goals exact List.mem_map.mpr ⟨_, by decide, rfl⟩

set_option maxRecDepth 16384 in
theorem hostOps2_2_writes : (hostOps8_2 (F := Ideal)).Forall fun op =>
    op.writes ⊆ (hostOps2_2_W.map (Proc.devRef (τ := τ) .tc)).toFinset := by
  simp only [hostOps8_2, List.Forall, StableHlo.unary_writes, StableHlo.reshape_writes,
    Finset.singleton_subset_iff, List.mem_toFinset]
  refine ⟨?_, ?_, ?_⟩
  all_goals exact List.mem_map.mpr ⟨_, by decide, rfl⟩

/-- A buffer none of the three stretches writes holds after them what it held before. -/
theorem kept2 (W : Valuation τ sig (Elt Ideal)) (r : Ref sig .tc)
    (h : r ∉ hostOps2_W) (h1 : r ∉ hostOps2_1_W) (h2 : r ∉ hostOps2_2_W) :
    StableHlo.after (hostOps8_2 (F := Ideal)) (StableHlo.after (hostOps8_1 (F := Ideal))
      (StableHlo.after (hostOps8 (F := Ideal)) W)) (Proc.devRef .tc r) = W (Proc.devRef .tc r) :=
  (StableHlo.after_of_writes_sub hostOps8_2 _ hostOps2_2_writes h2).trans <|
    (StableHlo.after_of_writes_sub hostOps8_1 _ hostOps2_1_writes h1).trans <|
      StableHlo.after_of_writes_sub hostOps8 _ hostOps2_writes h

/-- The same, stretch by stretch. -/
theorem kept_hostOps2 (W : Valuation τ sig (Elt Ideal)) (r : Ref sig .tc) (h : r ∉ hostOps2_W) :
    StableHlo.after (hostOps8 (F := Ideal)) W (Proc.devRef .tc r) = W (Proc.devRef .tc r) :=
  StableHlo.after_of_writes_sub hostOps8 _ hostOps2_writes h
theorem kept_hostOps2_1 (W : Valuation τ sig (Elt Ideal)) (r : Ref sig .tc) (h : r ∉ hostOps2_1_W) :
    StableHlo.after (hostOps8_1 (F := Ideal)) W (Proc.devRef .tc r) = W (Proc.devRef .tc r) :=
  StableHlo.after_of_writes_sub hostOps8_1 _ hostOps2_1_writes h
theorem kept_hostOps2_2 (W : Valuation τ sig (Elt Ideal)) (r : Ref sig .tc) (h : r ∉ hostOps2_2_W) :
    StableHlo.after (hostOps8_2 (F := Ideal)) W (Proc.devRef .tc r) = W (Proc.devRef .tc r) :=
  StableHlo.after_of_writes_sub hostOps8_2 _ hostOps2_2_writes h

end Cert.KernelIdeal.Host8

end
-- ==== Proof.KResid8.lean ====
/-
  The value of the residual region of the first layer: the output array `[8, 524288]` after the region's eight grid
  points, index by index, as a function of the three arrays the region reads (the layer's input `H`, the aggregated
  messages, the bias column): entry `(ch, n)` is `max (H ch n + agg ch n + bias ch) 0` times the mask of column `n`
  (one on the columns of real nodes, zero on the padding).
  The mask is built inside the body from the grid coordinate: tile `t`, lane `l` is column `65536 · t + l`, compared as
  a signed 32-bit word with 500000; no column number wraps, so the comparison is the one of the naturals.
  Then the road from blocks to the array: the payload at an index, each input block as columns of its array, what the
  body leaves at a point as a block of the one whole-array function, the tiling of the array by the eight blocks.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val8

open Cert.KernelIdeal Cert.KernelIdeal.Gen Cert.KernelIdeal.GenP Cert.GCN
open Idealize.ShloMosaic Idealize.ShloMosaic.TcCoe Idealize.ShloMosaic.ValueIdx Idealize.SL.Sem
open Idealize.ShloMosaic.Pipeline (Dat)

/-- The column number as a 32-bit word: no wrap-around, the largest is 65536·7 + 65535. -/
theorem colWord_eq (t : Fin 8) (l : Fin 65536) :
    IntOp.addi (Scalar.muli (BitVec.ofNat 32 t.val) 65536#32) (BitVec.ofNat 32 l.val) = BitVec.ofNat 32 (65536 * t.val + l.val) := by
  unfold IntOp.addi Scalar.muli IntOp.muli
  rw [show (65536#32 : BitVec 32) = BitVec.ofNat 32 65536 from rfl, BitVec.ofNat_mul_ofNat, BitVec.ofNat_add_ofNat, Nat.mul_comm]

/-- The signed comparison of a column number with the number of nodes is the comparison of the naturals: both are
    below 2^31, so both read signed as themselves. -/
theorem slt_colWord (n : Nat) (hn : n < 524288) :
    IntOp.cmpi .slt (BitVec.ofNat 32 n) 500000#32 = if n < 500000 then 1#1 else 0#1 := by
  unfold IntOp.cmpi
  dsimp only
  rw [BitVec.slt_eq_decide]
  have h1 : (BitVec.ofNat 32 n).toInt = (n : Int) := by
    rw [BitVec.toInt_eq_toNat_of_lt (by rw [BitVec.toNat_ofNat, Nat.mod_eq_of_lt (by omega)]; omega), BitVec.toNat_ofNat, Nat.mod_eq_of_lt (by omega)]
  have h2 : (500000#32 : BitVec 32).toInt = 500000 := by decide
  rw [h1, h2]
  by_cases h : n < 500000
  · rw [if_pos h, decide_eq_true (by omega)]; rfl
  · rw [if_neg h, decide_eq_false (by omega)]; rfl

/-- THE MASK AT A COLUMN: the comparison bit, widened and converted, is one on the columns of real nodes and zero on
    the padding. -/
theorem maskWord (t : Fin 8) (l : Fin 65536) :
    (FloatOps.sitofp (F := Ideal) .f32 ((IntOp.cmpi .slt (IntOp.addi (Scalar.muli (BitVec.ofNat 32 t.val) 65536#32) (BitVec.ofNat 32 l.val)) 500000#32).setWidth 32) : EReal)
      = if 65536 * t.val + l.val < 500000 then 1 else 0 := by
  rw [colWord_eq, slt_colWord _ (by have := t.isLt; have := l.isLt; omega)]
  by_cases h : 65536 * t.val + l.val < 500000
  · rw [if_pos h, if_pos h]
    show (((BitVec.setWidth 32 1#1).toInt : ℝ) : EReal) = 1
    rw [show (BitVec.setWidth 32 1#1).toInt = 1 from by decide]
    simp
  · rw [if_neg h, if_neg h]
    show (((BitVec.setWidth 32 0#1).toInt : ℝ) : EReal) = 0
    rw [show (BitVec.setWidth 32 0#1).toInt = 0 from by decide]
    simp

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mask row the body builds from the grid coordinate, read at lane `l` of tile `t`. -/
theorem maskRow_apply (i : grid8.Coords) (t : Fin 8) (ht : (i 0).val = t.val) (l : Fin 65536) :
    (sitofp (F := Ideal) .f32 (extui 32 (cmpi .slt (addi (broadcast S1x65536 (Scalar.muli (BitVec.ofNat 32 (i 0).val) 65536#32))
        (iota .tc S1x65536 32 [1] iota_S1x65536_d1_w32)) (broadcast S1x65536 500000#32)) natLt_1_32) : FVec Ideal S1x65536 .f32) (ix2 (0 : Fin 1) l)
      = if 65536 * t.val + l.val < 500000 then 1 else 0 := by
  show FloatOps.sitofp (F := Ideal) .f32 ((IntOp.cmpi .slt (IntOp.addi (Scalar.muli (BitVec.ofNat 32 (i 0).val) 65536#32)
      (iota .tc S1x65536 32 [1] iota_S1x65536_d1_w32 (ix2 (0 : Fin 1) l))) 500000#32).setWidth 32) = _
  rw [iota_single_apply, ht]
  exact maskWord t l

/-- THE PAYLOAD AT AN INDEX: residual plus aggregate plus bias, clipped below at zero, times the mask of the column. -/
theorem pay_apply (i : grid8.Coords) (t : Fin 8) (ht : (i 0).val = t.val) (v0 : Vec Ideal S8x1 .f32) (v10 v12 : Vec Ideal S8x65536 .f32)
    (p : Fin 8) (l : Fin 65536) :
    k8_pay1 (F := Ideal) i v0 v10 v12 (ix2 p l)
      = max (v10 (ix2 p l) + v12 (ix2 p l) + v0 (ix2 p (0 : Fin 1))) 0 * (if 65536 * t.val + l.val < 500000 then 1 else 0) := by
  unfold k8_pay1
  dsimp only
  rw [mulf_apply, maximumf_apply, addf_apply, addf_apply, broadcast_apply, shapeCast_self, shapeCast_self, shapeCast_self,
    broadcastTo_1b_ab_apply, broadcastTo_a1_ab_apply, maskRow_apply i t ht l]
  show max _ (Ideal.ofBits .f32 0x00000000#32) * _ = _
  rw [Ideal.ofBits_zero_f32]

variable (V : (c : Dev nD) → (b : Ref sig .tc) → Buf (Elt Ideal) ((c : Thread nD τ).loc b))

/-- The three arrays the region reads, as it finds them: the layer's input `H`, the aggregated messages, the bias column. -/
abbrev harr (c : Dev nD) : Vec Ideal S8x524288 .f32 := V c (Pipeline.arrRef spec8 0)
abbrev garr (c : Dev nD) : Vec Ideal S8x524288 .f32 := V c (Pipeline.arrRef spec8 1)
abbrev barr (c : Dev nD) : Vec Ideal S8x1 .f32 := V c (Pipeline.arrRef spec8 2)

/-- Their blocks at a grid point. -/
abbrev hblk (c : Dev nD) (t : Fin cfg8.N) : Vec Ideal S8x65536 .f32 := iblk8 V c 0 t
abbrev gblk (c : Dev nD) (t : Fin cfg8.N) : Vec Ideal S8x65536 .f32 := iblk8 V c 1 t
abbrev bblk (c : Dev nD) (t : Fin cfg8.N) : Vec Ideal S8x1 .f32 := iblk8 V c 2 t

/-- WHAT THE REGION COMPUTES, as one array: entry `(ch, n)` is `max (H + agg + bias) 0` there, times the mask of column `n`. -/
def resid (c : Dev nD) : Vec Ideal S8x524288 .f32 :=
  ofCP fun ch n => max (toCP (harr V c) ch n + toCP (garr V c) ch n + toV81 (barr V c) ch) 0 * maskK n

theorem hz : (![0, 0] : Fin 2 → Nat) = fun _ => 0 := funext fun a => by fin_cases a <;> rfl

/-- The grid has eight points. -/
theorem lt8 (t : Fin cfg8.N) : t.val < 8 := Nat.lt_of_lt_of_eq t.isLt (N_8 : cfg8.N = 8)

/-- The printed index maps, decided once over the grid: the grid coordinate is the point; the two tiled inputs and the
    output sit at column block `t`, the bias column at block zero. -/
theorem idx_facts : ∀ t : Fin cfg8.N, (grid8.coords t 0).val = t.val
    ∧ win8_0.index t (0 : Fin 2) = 0 ∧ win8_0.index t (1 : Fin 2) = t.val
    ∧ win8_1.index t (0 : Fin 2) = 0 ∧ win8_1.index t (1 : Fin 2) = t.val
    ∧ win8_2.index t (0 : Fin 2) = 0 ∧ win8_2.index t (1 : Fin 2) = 0
    ∧ win8_3.index t (0 : Fin 2) = 0 ∧ win8_3.index t (1 : Fin 2) = t.val :=
  (by decide +kernel : ∀ t : Fin grid8.N, _)

/-- Lane `l` of the input block at point `t` is column `65536 · t + l` of the input. -/
theorem hblk_apply (c : Dev nD) (t : Fin cfg8.N) (p : Fin 8) (l : Fin 65536) (n : Fin 524288) (hn : n.val = 65536 * t.val + l.val) :
    hblk V c t (ix2 p l) = harr V c (ix2 p n) := by
  obtain ⟨-, e0, e1, -⟩ := idx_facts t
  show V c (Pipeline.arrRef spec8 0) (((cfg8.win 0).blk t).view.emb (ix2 p l)) = V c (Pipeline.arrRef spec8 0) (ix2 p n)
  congr 1
  funext a
  apply Fin.ext
  match a with
  | ⟨0, _⟩ => show win8_0.index t (0 : Fin 2) * 8 + 1 * p.val = p.val; rw [e0]; omega
  | ⟨1, _⟩ => show win8_0.index t (1 : Fin 2) * 65536 + 1 * l.val = n.val; rw [e1, hn]; omega

/-- The same for the aggregated messages. -/
theorem gblk_apply (c : Dev nD) (t : Fin cfg8.N) (p : Fin 8) (l : Fin 65536) (n : Fin 524288) (hn : n.val = 65536 * t.val + l.val) :
    gblk V c t (ix2 p l) = garr V c (ix2 p n) := by
  obtain ⟨-, -, -, e0, e1, -⟩ := idx_facts t
  show V c (Pipeline.arrRef spec8 1) (((cfg8.win 1).blk t).view.emb (ix2 p l)) = V c (Pipeline.arrRef spec8 1) (ix2 p n)
  congr 1
  funext a
  apply Fin.ext
  match a with
  | ⟨0, _⟩ => show win8_1.index t (0 : Fin 2) * 8 + 1 * p.val = p.val; rw [e0]; omega
  | ⟨1, _⟩ => show win8_1.index t (1 : Fin 2) * 65536 + 1 * l.val = n.val; rw [e1, hn]; omega

/-- The bias block is the whole bias column at every point. -/
theorem bblk_apply (c : Dev nD) (t : Fin cfg8.N) (p : Fin 8) :
    bblk V c t (ix2 p (0 : Fin 1)) = barr V c (ix2 p (0 : Fin 1)) := by
  obtain ⟨-, -, -, -, -, e0, e1, -⟩ := idx_facts t
  show V c (Pipeline.arrRef spec8 2) (((cfg8.win 2).blk t).view.emb (ix2 p (0 : Fin 1))) = V c (Pipeline.arrRef spec8 2) (ix2 p (0 : Fin 1))
  congr 1
  funext a
  apply Fin.ext
  match a with
  | ⟨0, _⟩ => show win8_2.index t (0 : Fin 2) * 8 + 1 * p.val = p.val; rw [e0]; omega
  | ⟨1, _⟩ => show win8_2.index t (1 : Fin 2) * 1 + 1 * 0 = 0; rw [e1]

/-- Lane `l` of the output block at point `t` is column `65536 · t + l` of the output. -/
theorem oblk_read (c : Dev nD) (t : Fin cfg8.N) (X : Vec Ideal S8x524288 .f32) (p : Fin 8) (l : Fin 65536) (n : Fin 524288) (hn : n.val = 65536 * t.val + l.val) :
    (((cfg8.win 3).blk t).view.read (Elt Ideal) X : Vec Ideal S8x65536 .f32) (ix2 p l) = X (ix2 p n) := by
  obtain ⟨-, -, -, -, -, -, -, e0, e1⟩ := idx_facts t
  show X (((cfg8.win 3).blk t).view.emb (ix2 p l)) = X (ix2 p n)
  congr 1
  funext a
  apply Fin.ext
  match a with
  | ⟨0, _⟩ => show win8_3.index t (0 : Fin 2) * 8 + 1 * p.val = p.val; rw [e0]; omega
  | ⟨1, _⟩ => show win8_3.index t (1 : Fin 2) * 65536 + 1 * l.val = n.val; rw [e1, hn]; omega

/-- WHAT THE BODY LEAVES at point `t` is block `t` of `resid`. -/
theorem out_eq (c : Dev nD) (t : Fin cfg8.N) :
    out8_3 (grid8.coords t) (hblk V c t) (gblk V c t) (bblk V c t) = ((cfg8.win 3).blk t).view.read (Elt Ideal) (resid V c) := by
  unfold out8_3
  rw [View.canon_unit_zero hz]
  simp only [View.ld_unit_zero (S := S8x65536) hz, View.ld_unit_zero (S := S8x1) hz]
  funext j
  obtain ⟨p, l, rfl⟩ : ∃ (p : Fin 8) (l : Fin 65536), j = ix2 p l := ⟨j 0, j 1, eq_ix2 j⟩
  have ec : (grid8.coords t 0).val = (⟨t.val, lt8 t⟩ : Fin 8).val := (idx_facts t).1
  have hn : (col ⟨t.val, lt8 t⟩ l).val = 65536 * t.val + l.val := rfl
  rw [pay_apply (grid8.coords t) ⟨t.val, lt8 t⟩ ec, hblk_apply V c t p l _ hn, gblk_apply V c t p l _ hn, bblk_apply V c t p,
    oblk_read c t (resid V c) p l _ hn]
  rfl

/-- An index of the output array is in point `t`'s block iff each coordinate is in the block's range on its axis. -/
theorem mem_oblk (t : Fin cfg8.N) (i : S8x524288.Idx) :
    i ∈ ((cfg8.win 3).blk t).view.set ↔ ∀ a : Fin 2, win8_3.index t a * S8x65536.size a ≤ (i a).val ∧ (i a).val < win8_3.index t a * S8x65536.size a + S8x65536.size a := by
  show i ∈ ((View.whole (Pipeline.arrRef spec8 3)).slice (win8_3.rect t)).set ↔ _
  rw [View.set_slice_whole, Rect.mem_set_unit]
  exact Iff.rfl

/-- Every column lies in the block of the point `column / 65536`: the eight blocks tile the array. -/
theorem cover (i : S8x524288.Idx) : ∃ t : Fin cfg8.N, (cfg8.win 3).flush t = true ∧ i ∈ ((cfg8.win 3).blk t).view.set := by
  have h0 : (i 0).val < 8 := (i 0).isLt
  have h1 : (i 1).val < 524288 := (i 1).isLt
  have hN : cfg8.N = 8 := N_8
  have hq : (i 1).val / 65536 < cfg8.N := by rw [hN]; omega
  obtain ⟨-, -, -, -, -, -, -, e0, e1⟩ := idx_facts ⟨(i 1).val / 65536, hq⟩
  refine ⟨⟨(i 1).val / 65536, hq⟩, flush8_3 _, ?_⟩
  rw [mem_oblk]
  intro a
  match a with
  | ⟨0, _⟩ =>
    show win8_3.index ⟨(i 1).val / 65536, hq⟩ (0 : Fin 2) * 8 ≤ (i 0).val ∧ (i 0).val < win8_3.index ⟨(i 1).val / 65536, hq⟩ (0 : Fin 2) * 8 + 8
    rw [e0]; omega
  | ⟨1, _⟩ =>
    show win8_3.index ⟨(i 1).val / 65536, hq⟩ (1 : Fin 2) * 65536 ≤ (i 1).val ∧ (i 1).val < win8_3.index ⟨(i 1).val / 65536, hq⟩ (1 : Fin 2) * 65536 + 65536
    rw [e1]
    show (i 1).val / 65536 * 65536 ≤ (i 1).val ∧ (i 1).val < (i 1).val / 65536 * 65536 + 65536
    omega

/-- WHAT POINT `t` WRITES BACK is block `t` of `resid`. -/
theorem flushed_eq (c : Dev nD) (t : Fin cfg8.N) :
    (dat8 (F := Ideal) V c).flushed 3 t = ((cfg8.win 3).blk t).view.read (Elt Ideal) (resid V c) := by
  show (cfg8.win 3).cut (grid8.coords t) ((dat8 (F := Ideal) V c).after 3 t) = _
  rw [after8_3]
  exact out_eq V c t

/-- THE OUTPUT ARRAY after the eight points is `resid`: every block written back is its block, and the blocks tile it. -/
theorem final (c : Dev nD) : (dat8 (F := Ideal) V c).arrAt 3 cfg8.N = resid V c :=
  (dat8 (F := Ideal) V c).arrAt_eq_of_cover 3 (resid V c) (fun t _ => flushed_eq V c t) cover

/-- THE REGION'S VALUE, by coordinates: channel `ch`, column `n` of the output is the residual sum clipped at zero, masked
    to the columns of real nodes. -/
theorem resid2_val (c : Dev nD) :
    toCP ((dat8 (F := Ideal) V c).arrAt 3 cfg8.N)
      = fun ch n => max (toCP (V c (Pipeline.arrRef spec8 0)) ch n + toCP (V c (Pipeline.arrRef spec8 1)) ch n
          + toV81 (V c (Pipeline.arrRef spec8 2)) ch) 0 * maskK n :=
  (congrArg toCP (final V c)).trans (toCP_ofCP _)

end Cert.KernelIdeal.Val8

end
-- ==== Proof.KLayer2.lean ====
/-
  Layer 0 of the kernel program as one step on the channel-major activations.
  The program runs the layer as three pipelined regions with host stretches between them. Region 0 reads the
  activations H and leaves the row sums and the row sums of squares; the first host stretch divides them by the
  number of nodes into the batch mean and the batch variance (the mean of the squares minus the squared mean) and
  cuts the layer's row out of the scales, the shifts and the weights; region 1 normalises H, scales, shifts and
  applies the transposed weights; the next host stretches take the first N columns node-major through the edge
  aggregation and pad the result back, and cut the layer's row out of the biases; region 2 adds H, the padded
  aggregate and the bias, clamps below at zero and zeroes the padding.
  Each region and each stretch is read by its own module. Here the readings are chained: a buffer a region only
  reads leaves the region as it entered, a buffer a region or a stretch does not touch crosses it unchanged, and
  the five readings then compose to the layer's closed form `layerK` at the contents the layer was entered with.
  The edge lists, the edge norm and the program's arguments cross the whole layer unchanged.
-/
import proofs.«143139_j73710228734964_1_alg».proof.Proof.KernelIdealFrameP
import proofs.«143139_j73710228734964_1_alg».proof.Proof.Spec
import proofs.«143139_j73710228734964_1_alg».proof.Proof.Conv
import proofs.«143139_j73710228734964_1_alg».proof.Proof.KStats6
import proofs.«143139_j73710228734964_1_alg».proof.Proof.KHost7
import proofs.«143139_j73710228734964_1_alg».proof.Proof.KTransform7
import proofs.«143139_j73710228734964_1_alg».proof.Proof.KHost8
import proofs.«143139_j73710228734964_1_alg».proof.Proof.KResid8
import Idealize.ShloMosaic.Lib.StableHlo.Run
import Idealize.ShloMosaic.Lib.Pipeline.Cells
import Idealize.ShloMosaic.Lib.ValueIdx

set_option maxRecDepth 16384

noncomputable section

namespace Cert.KernelIdeal.Layer2

open Cert.KernelIdeal Cert.KernelIdeal.Gen Cert.KernelIdeal.GenP Cert.GCN
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)

/-- No operation of the host stretch writes the buffer: each operation writes one buffer, and it is another one. -/
local macro "not_written" : tactic => `(tactic|
  exact List.forall_iff_forall_mem.mp (by
    simp only [hostOps7, hostOps8, hostOps8_1, hostOps8_2, List.flatten_cons, List.flatten_nil, List.append_nil,
      List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

/-- A host stretch leaves a buffer that none of its operations writes as it was. -/
local macro "host_kept" : tactic => `(tactic|
  exact StableHlo.after_of_forall_not_mem (b := _) _ _ (by not_written))

/-! ## The activations H cross the layer: every region only reads them, no stretch writes them -/

/-- Region 0 reads H through an input window: it leaves as it entered. -/
theorem W17_main_v35 : W17 m ρ c (Proc.devRef .tc main_v111) = W16 m ρ c (Proc.devRef .tc main_v111) :=
  (W17_arr m ρ c 0).trans (((dat6 (V16 m ρ) c).arrAt_in 0 rfl _).trans (A_eq6 (V16 m ρ) c 0))

theorem W18_main_v35 : W18 m ρ c (Proc.devRef .tc main_v111) = W16 m ρ c (Proc.devRef .tc main_v111) :=
  calc W18 m ρ c (Proc.devRef .tc main_v111)
    _ = W17 m ρ c (Proc.devRef .tc main_v111) := by host_kept
    _ = W16 m ρ c (Proc.devRef .tc main_v111) := W17_main_v35 m ρ c

/-- Region 1 reads H through an input window too. -/
theorem W19_main_v35 : W19 m ρ c (Proc.devRef .tc main_v111) = W16 m ρ c (Proc.devRef .tc main_v111) :=
  calc W19 m ρ c (Proc.devRef .tc main_v111)
    _ = W18 m ρ c (Proc.devRef .tc main_v111) :=
        (W19_arr m ρ c 0).trans (((dat7 (V18 m ρ) c).arrAt_in 0 rfl _).trans (A_eq7 (V18 m ρ) c 0))
    _ = W16 m ρ c (Proc.devRef .tc main_v111) := W18_main_v35 m ρ c

theorem W22_main_v35 : W22 m ρ c (Proc.devRef .tc main_v111) = W16 m ρ c (Proc.devRef .tc main_v111) :=
  calc W22 m ρ c (Proc.devRef .tc main_v111)
    _ = W21 m ρ c (Proc.devRef .tc main_v111) := by host_kept
    _ = W20 m ρ c (Proc.devRef .tc main_v111) := by host_kept
    _ = W19 m ρ c (Proc.devRef .tc main_v111) := by host_kept
    _ = W16 m ρ c (Proc.devRef .tc main_v111) := W19_main_v35 m ρ c

/-! ## A buffer the layer touches nowhere crosses it unchanged -/

/-- Through region 0, the first stretch and region 1: the buffer is no window's array of either region and no
    operation of the stretch writes it. -/
theorem W19_kept {b : Ref sig .tc} (h0 : ∀ w, Pipeline.arrRef spec6 w ≠ b) (h1 : ∀ w, Pipeline.arrRef spec7 w ≠ b)
    (g1 : ∀ op ∈ (hostOps7 : List (HloOp τ sig (Elt Ideal))), Proc.devRef (τ := τ) .tc b ∉ op.writes) :
    W19 m ρ c (Proc.devRef .tc b) = W16 m ρ c (Proc.devRef .tc b) :=
  calc W19 m ρ c (Proc.devRef .tc b)
    _ = W18 m ρ c (Proc.devRef .tc b) := W19_of_ne m ρ c b h1
    _ = W17 m ρ c (Proc.devRef .tc b) := StableHlo.after_of_forall_not_mem (b := Proc.devRef .tc b) _ _ g1
    _ = W16 m ρ c (Proc.devRef .tc b) := W17_of_ne m ρ c b h0

/-- Through the three stretches before region 2: no operation of them writes the buffer. -/
theorem W22_kept {b : Ref sig .tc}
    (g2 : ∀ op ∈ (hostOps8 : List (HloOp τ sig (Elt Ideal))), Proc.devRef (τ := τ) .tc b ∉ op.writes)
    (g2_1 : ∀ op ∈ (hostOps8_1 : List (HloOp τ sig (Elt Ideal))), Proc.devRef (τ := τ) .tc b ∉ op.writes)
    (g2_2 : ∀ op ∈ (hostOps8_2 : List (HloOp τ sig (Elt Ideal))), Proc.devRef (τ := τ) .tc b ∉ op.writes) :
    W22 m ρ c (Proc.devRef .tc b) = W19 m ρ c (Proc.devRef .tc b) :=
  calc W22 m ρ c (Proc.devRef .tc b)
    _ = W21 m ρ c (Proc.devRef .tc b) := StableHlo.after_of_forall_not_mem (b := Proc.devRef .tc b) _ _ g2_2
    _ = W20 m ρ c (Proc.devRef .tc b) := StableHlo.after_of_forall_not_mem (b := Proc.devRef .tc b) _ _ g2_1
    _ = W19 m ρ c (Proc.devRef .tc b) := StableHlo.after_of_forall_not_mem (b := Proc.devRef .tc b) _ _ g2

/-- Through the whole layer. -/
theorem W23_kept {b : Ref sig .tc} (h0 : ∀ w, Pipeline.arrRef spec6 w ≠ b) (h1 : ∀ w, Pipeline.arrRef spec7 w ≠ b)
    (h2 : ∀ w, Pipeline.arrRef spec8 w ≠ b)
    (g1 : ∀ op ∈ (hostOps7 : List (HloOp τ sig (Elt Ideal))), Proc.devRef (τ := τ) .tc b ∉ op.writes)
    (g2 : ∀ op ∈ (hostOps8 : List (HloOp τ sig (Elt Ideal))), Proc.devRef (τ := τ) .tc b ∉ op.writes)
    (g2_1 : ∀ op ∈ (hostOps8_1 : List (HloOp τ sig (Elt Ideal))), Proc.devRef (τ := τ) .tc b ∉ op.writes)
    (g2_2 : ∀ op ∈ (hostOps8_2 : List (HloOp τ sig (Elt Ideal))), Proc.devRef (τ := τ) .tc b ∉ op.writes) :
    W23 m ρ c (Proc.devRef .tc b) = W16 m ρ c (Proc.devRef .tc b) :=
  calc W23 m ρ c (Proc.devRef .tc b)
    _ = W22 m ρ c (Proc.devRef .tc b) := W23_of_ne m ρ c b h2
    _ = W19 m ρ c (Proc.devRef .tc b) := W22_kept m ρ c g2 g2_1 g2_2
    _ = W16 m ρ c (Proc.devRef .tc b) := W19_kept m ρ c h0 h1 g1

theorem W19_main_v3 : W19 m ρ c (Proc.devRef .tc main_v3) = W16 m ρ c (Proc.devRef .tc main_v3) :=
  W19_kept m ρ c (b := main_v3) (by decide) (by decide) (by not_written)
theorem W19_main_v6 : W19 m ρ c (Proc.devRef .tc main_v6) = W16 m ρ c (Proc.devRef .tc main_v6) :=
  W19_kept m ρ c (b := main_v6) (by decide) (by decide) (by not_written)
theorem W19_main_v26 : W19 m ρ c (Proc.devRef .tc main_v26) = W16 m ρ c (Proc.devRef .tc main_v26) :=
  W19_kept m ρ c (b := main_v26) (by decide) (by decide) (by not_written)
theorem W19_main_arg7 : W19 m ρ c (Proc.devRef .tc main_arg7) = W16 m ρ c (Proc.devRef .tc main_arg7) :=
  W19_kept m ρ c (b := main_arg7) (by decide) (by decide) (by not_written)

theorem W23_main_v3 : W23 m ρ c (Proc.devRef .tc main_v3) = W16 m ρ c (Proc.devRef .tc main_v3) :=
  W23_kept m ρ c (b := main_v3) (by decide) (by decide) (by decide) (by not_written) (by not_written) (by not_written) (by not_written)
theorem W23_main_v6 : W23 m ρ c (Proc.devRef .tc main_v6) = W16 m ρ c (Proc.devRef .tc main_v6) :=
  W23_kept m ρ c (b := main_v6) (by decide) (by decide) (by decide) (by not_written) (by not_written) (by not_written) (by not_written)
theorem W23_main_v26 : W23 m ρ c (Proc.devRef .tc main_v26) = W16 m ρ c (Proc.devRef .tc main_v26) :=
  W23_kept m ρ c (b := main_v26) (by decide) (by decide) (by decide) (by not_written) (by not_written) (by not_written) (by not_written)
theorem W23_main_arg0 : W23 m ρ c (Proc.devRef .tc main_arg0) = W16 m ρ c (Proc.devRef .tc main_arg0) :=
  W23_kept m ρ c (b := main_arg0) (by decide) (by decide) (by decide) (by not_written) (by not_written) (by not_written) (by not_written)
theorem W23_main_arg1 : W23 m ρ c (Proc.devRef .tc main_arg1) = W16 m ρ c (Proc.devRef .tc main_arg1) :=
  W23_kept m ρ c (b := main_arg1) (by decide) (by decide) (by decide) (by not_written) (by not_written) (by not_written) (by not_written)
theorem W23_main_arg2 : W23 m ρ c (Proc.devRef .tc main_arg2) = W16 m ρ c (Proc.devRef .tc main_arg2) :=
  W23_kept m ρ c (b := main_arg2) (by decide) (by decide) (by decide) (by not_written) (by not_written) (by not_written) (by not_written)
theorem W23_main_arg3 : W23 m ρ c (Proc.devRef .tc main_arg3) = W16 m ρ c (Proc.devRef .tc main_arg3) :=
  W23_kept m ρ c (b := main_arg3) (by decide) (by decide) (by decide) (by not_written) (by not_written) (by not_written) (by not_written)
theorem W23_main_arg4 : W23 m ρ c (Proc.devRef .tc main_arg4) = W16 m ρ c (Proc.devRef .tc main_arg4) :=
  W23_kept m ρ c (b := main_arg4) (by decide) (by decide) (by decide) (by not_written) (by not_written) (by not_written) (by not_written)
theorem W23_main_arg5 : W23 m ρ c (Proc.devRef .tc main_arg5) = W16 m ρ c (Proc.devRef .tc main_arg5) :=
  W23_kept m ρ c (b := main_arg5) (by decide) (by decide) (by decide) (by not_written) (by not_written) (by not_written) (by not_written)
theorem W23_main_arg6 : W23 m ρ c (Proc.devRef .tc main_arg6) = W16 m ρ c (Proc.devRef .tc main_arg6) :=
  W23_kept m ρ c (b := main_arg6) (by decide) (by decide) (by decide) (by not_written) (by not_written) (by not_written) (by not_written)
theorem W23_main_arg7 : W23 m ρ c (Proc.devRef .tc main_arg7) = W16 m ρ c (Proc.devRef .tc main_arg7) :=
  W23_kept m ρ c (b := main_arg7) (by decide) (by decide) (by decide) (by not_written) (by not_written) (by not_written) (by not_written)
theorem W23_main_arg8 : W23 m ρ c (Proc.devRef .tc main_arg8) = W16 m ρ c (Proc.devRef .tc main_arg8) :=
  W23_kept m ρ c (b := main_arg8) (by decide) (by decide) (by decide) (by not_written) (by not_written) (by not_written) (by not_written)
theorem W23_main_arg9 : W23 m ρ c (Proc.devRef .tc main_arg9) = W16 m ρ c (Proc.devRef .tc main_arg9) :=
  W23_kept m ρ c (b := main_arg9) (by decide) (by decide) (by decide) (by not_written) (by not_written) (by not_written) (by not_written)
theorem W23_main_arg10 : W23 m ρ c (Proc.devRef .tc main_arg10) = W16 m ρ c (Proc.devRef .tc main_arg10) :=
  W23_kept m ρ c (b := main_arg10) (by decide) (by decide) (by decide) (by not_written) (by not_written) (by not_written) (by not_written)
theorem W23_main_arg11 : W23 m ρ c (Proc.devRef .tc main_arg11) = W16 m ρ c (Proc.devRef .tc main_arg11) :=
  W23_kept m ρ c (b := main_arg11) (by decide) (by decide) (by decide) (by not_written) (by not_written) (by not_written) (by not_written)

/-! ## Region 0: the row sums and the row sums of squares of H -/

theorem W17_main_v36_0 :
    toV81 (W17 m ρ c (Proc.devRef .tc main_v112_0)) = sumK (toCP (W16 m ρ c (Proc.devRef .tc main_v111))) :=
  (congrArg toV81 (W17_arr m ρ c 1)).trans (Val6.stats0_sum (V16 m ρ) c)

theorem W17_main_v36_1 :
    toV81 (W17 m ρ c (Proc.devRef .tc main_v112_1)) = ssqK (toCP (W16 m ρ c (Proc.devRef .tc main_v111))) :=
  (congrArg toV81 (W17_arr m ρ c 2)).trans (Val6.stats0_ssq (V16 m ρ) c)

/-! ## The first stretch: the batch mean and variance of H, and the layer's scale, shift and weights -/

theorem W18_main_v38 :
    toV81 (W18 m ρ c (Proc.devRef .tc main_v114)) = meanK (toCP (W16 m ρ c (Proc.devRef .tc main_v111))) := by
  refine (Host7.mean1 (W17 m ρ c)).trans ?_
  rw [W17_main_v36_0 m ρ c]
  rfl

theorem W18_main_v42 :
    toV81 (W18 m ρ c (Proc.devRef .tc main_v118)) = varK (toCP (W16 m ρ c (Proc.devRef .tc main_v111))) := by
  refine (Host7.var1 (W17 m ρ c)).trans ?_
  rw [W17_main_v36_0 m ρ c, W17_main_v36_1 m ρ c]
  rfl

theorem W18_main_v45 :
    toV81 (W18 m ρ c (Proc.devRef .tc main_v121)) = fun ch => toM8 (W16 m ρ c (Proc.devRef .tc main_arg4)) (2 : Fin 8) ch := by
  refine (Host7.gamma1 (W17 m ρ c)).trans ?_
  rw [W17_of_ne m ρ c main_arg4 (by decide)]

theorem W18_main_v48 :
    toV81 (W18 m ρ c (Proc.devRef .tc main_v124)) = fun ch => toM8 (W16 m ρ c (Proc.devRef .tc main_arg5)) (2 : Fin 8) ch := by
  refine (Host7.beta1 (W17 m ρ c)).trans ?_
  rw [W17_of_ne m ρ c main_arg5 (by decide)]

theorem W18_main_v51 :
    toM8 (W18 m ρ c (Proc.devRef .tc main_v127))
      = fun a b => (W16 m ρ c (Proc.devRef .tc main_arg6) : S8x8x8.Idx → EReal) (ix3 (2 : Fin 8) b a) := by
  refine (Host7.wT1 (W17 m ρ c)).trans ?_
  rw [W17_of_ne m ρ c main_arg6 (by decide)]

/-! ## Region 1: the normalised, scaled, shifted and transformed activations -/

theorem W19_main_v52 :
    toCP (W19 m ρ c (Proc.devRef .tc main_v128))
      = hwK (toCP (W16 m ρ c (Proc.devRef .tc main_v111)))
          (fun ch => toM8 (W16 m ρ c (Proc.devRef .tc main_arg4)) (2 : Fin 8) ch)
          (fun ch => toM8 (W16 m ρ c (Proc.devRef .tc main_arg5)) (2 : Fin 8) ch)
          (fun a b => (W16 m ρ c (Proc.devRef .tc main_arg6) : S8x8x8.Idx → EReal) (ix3 (2 : Fin 8) b a)) := by
  refine (congrArg toCP (W19_arr m ρ c 6)).trans ((Val7.transform1_val (V18 m ρ) c).trans ?_)
  show (fun co n => ∑ ci : Fin 8, toM8 (W18 m ρ c (Proc.devRef .tc main_v127)) co ci
          * ((toCP (W18 m ρ c (Proc.devRef .tc main_v111)) ci n - toV81 (W18 m ρ c (Proc.devRef .tc main_v114)) ci)
              * Ideal.rsqrt (toV81 (W18 m ρ c (Proc.devRef .tc main_v118)) ci + eps)
              * toV81 (W18 m ρ c (Proc.devRef .tc main_v121)) ci
              + toV81 (W18 m ρ c (Proc.devRef .tc main_v124)) ci)) = _
  rw [W18_main_v35 m ρ c, W18_main_v38 m ρ c, W18_main_v42 m ρ c, W18_main_v45 m ρ c, W18_main_v48 m ρ c, W18_main_v51 m ρ c]
  rfl

/-! ## The stretches before region 2: the padded aggregate and the layer's bias -/

theorem W22_main_v69 :
    toCP (W22 m ρ c (Proc.devRef .tc main_v145))
      = padT (toNC (Host8.AGG (W16 m ρ c (Proc.devRef .tc main_v3)) (W16 m ρ c (Proc.devRef .tc main_v6))
          (W16 m ρ c (Proc.devRef .tc main_v26))
          (ofNC (unpadT (hwK (toCP (W16 m ρ c (Proc.devRef .tc main_v111)))
            (fun ch => toM8 (W16 m ρ c (Proc.devRef .tc main_arg4)) (2 : Fin 8) ch)
            (fun ch => toM8 (W16 m ρ c (Proc.devRef .tc main_arg5)) (2 : Fin 8) ch)
            (fun a b => (W16 m ρ c (Proc.devRef .tc main_arg6) : S8x8x8.Idx → EReal) (ix3 (2 : Fin 8) b a))))))) := by
  have h87 : W22 m ρ c (Proc.devRef .tc main_v145) = W21 m ρ c (Proc.devRef .tc main_v145) := by host_kept
  refine (congrArg toCP h87).trans ((Host8.agg2 (W19 m ρ c)).trans ?_)
  rw [W19_main_v3 m ρ c, W19_main_v6 m ρ c, W19_main_v26 m ρ c, W19_main_v52 m ρ c]

theorem W22_main_v72 :
    toV81 (W22 m ρ c (Proc.devRef .tc main_v148)) = fun ch => toM8 (W16 m ρ c (Proc.devRef .tc main_arg7)) (2 : Fin 8) ch := by
  have h75 : W21 m ρ c (Proc.devRef .tc main_arg7) = W19 m ρ c (Proc.devRef .tc main_arg7) :=
    (show W21 m ρ c (Proc.devRef .tc main_arg7) = W20 m ρ c (Proc.devRef .tc main_arg7) by host_kept).trans
      (show W20 m ρ c (Proc.devRef .tc main_arg7) = W19 m ρ c (Proc.devRef .tc main_arg7) by host_kept)
  refine (Host8.bias2 (W21 m ρ c)).trans ?_
  rw [h75, W19_main_arg7 m ρ c]

/-! ## Region 2: the residual, the aggregate and the bias, clamped and masked: the layer -/

/-- The kernel program's layer 0 is the layer's closed form at the contents it was entered with. -/
theorem layer0_step :
    toCP (W23 m ρ c (Proc.devRef .tc main_v149))
      = layerK
          (fun hw => toNC (Host8.AGG (W16 m ρ c (Proc.devRef .tc main_v3)) (W16 m ρ c (Proc.devRef .tc main_v6))
            (W16 m ρ c (Proc.devRef .tc main_v26)) (ofNC hw)))
          (toCP (W16 m ρ c (Proc.devRef .tc main_v111)))
          (fun ch => toM8 (W16 m ρ c (Proc.devRef .tc main_arg4)) (2 : Fin 8) ch)
          (fun ch => toM8 (W16 m ρ c (Proc.devRef .tc main_arg5)) (2 : Fin 8) ch)
          (fun a b => (W16 m ρ c (Proc.devRef .tc main_arg6) : S8x8x8.Idx → EReal) (ix3 (2 : Fin 8) b a))
          (fun ch => toM8 (W16 m ρ c (Proc.devRef .tc main_arg7)) (2 : Fin 8) ch) := by
  refine (congrArg toCP (W23_arr m ρ c 3)).trans ((Val8.resid2_val (V22 m ρ) c).trans ?_)
  show (fun ch n => max (toCP (W22 m ρ c (Proc.devRef .tc main_v111)) ch n + toCP (W22 m ρ c (Proc.devRef .tc main_v145)) ch n
          + toV81 (W22 m ρ c (Proc.devRef .tc main_v148)) ch) 0 * maskK n) = _
  rw [W22_main_v35 m ρ c, W22_main_v69 m ρ c, W22_main_v72 m ρ c]
  rfl

/-- The edge sources, the edge targets, the edge norm and the program's arguments hold after the layer what they
    held before it. -/
theorem layer0_kept :
    W23 m ρ c (Proc.devRef .tc main_v3) = W16 m ρ c (Proc.devRef .tc main_v3)
    ∧ W23 m ρ c (Proc.devRef .tc main_v6) = W16 m ρ c (Proc.devRef .tc main_v6)
    ∧ W23 m ρ c (Proc.devRef .tc main_v26) = W16 m ρ c (Proc.devRef .tc main_v26)
    ∧ W23 m ρ c (Proc.devRef .tc main_arg0) = W16 m ρ c (Proc.devRef .tc main_arg0)
    ∧ W23 m ρ c (Proc.devRef .tc main_arg1) = W16 m ρ c (Proc.devRef .tc main_arg1)
    ∧ W23 m ρ c (Proc.devRef .tc main_arg2) = W16 m ρ c (Proc.devRef .tc main_arg2)
    ∧ W23 m ρ c (Proc.devRef .tc main_arg3) = W16 m ρ c (Proc.devRef .tc main_arg3)
    ∧ W23 m ρ c (Proc.devRef .tc main_arg4) = W16 m ρ c (Proc.devRef .tc main_arg4)
    ∧ W23 m ρ c (Proc.devRef .tc main_arg5) = W16 m ρ c (Proc.devRef .tc main_arg5)
    ∧ W23 m ρ c (Proc.devRef .tc main_arg6) = W16 m ρ c (Proc.devRef .tc main_arg6)
    ∧ W23 m ρ c (Proc.devRef .tc main_arg7) = W16 m ρ c (Proc.devRef .tc main_arg7)
    ∧ W23 m ρ c (Proc.devRef .tc main_arg8) = W16 m ρ c (Proc.devRef .tc main_arg8)
    ∧ W23 m ρ c (Proc.devRef .tc main_arg9) = W16 m ρ c (Proc.devRef .tc main_arg9)
    ∧ W23 m ρ c (Proc.devRef .tc main_arg10) = W16 m ρ c (Proc.devRef .tc main_arg10)
    ∧ W23 m ρ c (Proc.devRef .tc main_arg11) = W16 m ρ c (Proc.devRef .tc main_arg11) :=
  ⟨W23_main_v3 m ρ c, W23_main_v6 m ρ c, W23_main_v26 m ρ c, W23_main_arg0 m ρ c, W23_main_arg1 m ρ c, W23_main_arg2 m ρ c,
    W23_main_arg3 m ρ c, W23_main_arg4 m ρ c, W23_main_arg5 m ρ c, W23_main_arg6 m ρ c, W23_main_arg7 m ρ c,
    W23_main_arg8 m ρ c, W23_main_arg9 m ρ c, W23_main_arg10 m ρ c, W23_main_arg11 m ρ c⟩

end Cert.KernelIdeal.Layer2

end
-- ==== Proof.KStats9.lean ====
/-
  The value of region 0, the stats kernel of the first layer: over the eight grid points the two `[8, 1]` outputs
  accumulate, per row of the `[8, 524288]` input, the sum and the sum of squares of its eight tiles of 65536
  lanes; the arrays they are written back to end holding the row sums and the row sums of squares.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val9

open Cert.KernelIdeal Cert.KernelIdeal.Gen Cert.KernelIdeal.GenP Cert.GCN
open Idealize.ShloMosaic Idealize.ShloMosaic.TcCoe Idealize.ShloMosaic.ValueIdx Idealize.ShloMosaic.Tactic
open Idealize.SL.Sem
open Idealize.ShloMosaic.Pipeline (Dat)
open scoped BigOperators

/-! ## The body's arithmetic at an index -/

/-- An `[a]` vector cast to an `[a, 1]` column reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row `r` of the reduced `[8]` vector with lane `k` put back is `(r, k)`. -/
theorem lane_lift (h : S8x65536.Reduces [1] S8) (r : Fin 8) (k : Fin (S8x65536.size 1)) :
    h.lift (ix1 r) k = ix2 r (⟨k.val, k.isLt⟩ : Fin 65536) := by
  funext c; apply Fin.ext
  fin_cases c <;> rfl

/-- The lane sum of an `[8, 65536]` block, at row `r`. -/
theorem laneSum_apply (x : FVec Ideal S8x65536 .f32) (h : S8x65536.Reduces [1] S8) (hφ : FKind.Formats .f32)
    (hacc : (0x00000000#32 : BitVec 32) = FKind.add.neutral .f32 hφ) (r : Fin 8) :
    multiReduction .add [1] S8 x 0x00000000#32 h hφ hacc (ix1 r) = ∑ l : Fin 65536, x (ix2 r l) :=
  (Ideal.multiReduction_add_single x 0x00000000#32 h hφ hacc (ix1 r)).trans
    (Finset.sum_congr rfl fun k _ => congrArg x (lane_lift h r k))

/-- The running row sum: what the buffer held plus the block's lane sum. -/
theorem pay4_apply (x : Vec Ideal S8x65536 .f32) (xo : Vec Ideal S8x1 .f32) (r : Fin 8) :
    k9_pay4 (F := Ideal) x xo (ix2 r 0) = xo (ix2 r 0) + ∑ l : Fin 65536, x (ix2 r l) := by
  unfold k9_pay4 k9_pay3
  dsimp only
  rw [addf_apply, shapeCast_self, shapeCast_self, shapeCast_a_a1_apply]
  exact congrArg (xo (ix2 r 0) + ·) (laneSum_apply x _ _ _ r)

/-- The running row sum of squares. -/
theorem pay5_apply (x : Vec Ideal S8x65536 .f32) (xo : Vec Ideal S8x1 .f32) (r : Fin 8) :
    k9_pay5 (F := Ideal) x xo (ix2 r 0) = xo (ix2 r 0) + ∑ l : Fin 65536, x (ix2 r l) * x (ix2 r l) := by
  unfold k9_pay5 k9_pay3
  dsimp only
  rw [addf_apply, shapeCast_self, shapeCast_self, shapeCast_a_a1_apply]
  exact congrArg (xo (ix2 r 0) + ·) (laneSum_apply (mulf x x) _ _ _ r)

/-- The reset value is zero. -/
theorem pay1_apply (j : S8x1.Idx) : k9_pay1 (F := Ideal) j = 0 := Ideal.ofBits_zero_f32
theorem pay2_apply (j : S8x1.Idx) : k9_pay2 (F := Ideal) j = 0 := Ideal.ofBits_zero_f32

/-! ## The input block at a point -/

variable {F : FTy → Type} [FloatOps F]
variable (V : (c : Dev nD) → (b : Ref sig .tc) → Buf (Elt F) ((c : Thread nD τ).loc b))

/-- The input array as the region finds it, and its block at a point, over their literal shapes. -/
abbrev harr (c : Dev nD) : Vec F S8x524288 .f32 := V c (Pipeline.arrRef spec9 0)
abbrev hblk (c : Dev nD) (t : Fin cfg9.N) : Vec F S8x65536 .f32 := iblk9 V c 0 t

/-- The input window's block index at point `t`: row block 0, column block `t`. -/
theorem idx_in : ∀ t : Fin cfg9.N, win9_0.index t 0 = 0 ∧ win9_0.index t 1 = t.val :=
  (by decide +kernel : ∀ t : Fin grid9.N, win9_0.index t 0 = 0 ∧ win9_0.index t 1 = t.val)

/-- The input window's block at point `t` is columns `65536 t … 65536 t + 65535` of the array. -/
theorem blk_read (c : Dev nD) (t : Fin cfg9.N) (t' : Fin 8) (ht : t'.val = t.val) (r : Fin 8) (l : Fin 65536) :
    hblk V c t (ix2 r l) = harr V c (ix2 r (col t' l)) := by
  have hi := idx_in t
  unfold hblk iblk9
  rw [View.read_apply]
  show V c (Pipeline.arrRef spec9 0) _ = V c (Pipeline.arrRef spec9 0) _
  congr 1
  funext a
  apply Fin.ext
  match a with
  | ⟨0, _⟩ => show win9_0.index t 0 * 8 + 1 * r.val = r.val; rw [hi.1]; omega
  | ⟨1, _⟩ => show win9_0.index t 1 * 65536 + 1 * l.val = 65536 * t'.val + l.val; rw [hi.2, ht]; omega

/-! ## What each case of the body leaves in the outputs -/

theorem hz : (![0, 0] : Fin 2 → Nat) = fun _ => 0 := funext fun a => by fin_cases a <;> rfl

/-- At a later point output 1 is left at what it held plus the block's lane sums. -/
theorem out_B_1 (c : Dev nD) (i : grid9.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : ¬cond9_0 i) (x : Vec F S8x65536 .f32) (xo1 xo2 : Vec F S8x1 .f32) :
    out9_B_1 c i a1 h1 a2 h2 a3 h3 hc x xo1 xo2 = k9_pay4 x xo1 := by
  unfold out9_B_1
  rw [View.read_writes_eq_canon _ _ _ (cover9_B_1 c i a1 h1 a2 h2 a3 h3 hc x xo1 xo2)]
  unfold kernelRun9_B
  dsimp only
  sl_unfold_words
  rw [View.canon_unit_zero hz]
  simp only [View.readAt_eq_ld, h1.read_unread, h2.read_unread, h3.read_unread, View.ld_unit_zero (S := S8x1) hz,
    View.ld_unit_zero (S := S8x65536) hz]

/-- At a later point output 2 is left at what it held plus the lane sums of the block's squares. -/
theorem out_B_2 (c : Dev nD) (i : grid9.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : ¬cond9_0 i) (x : Vec F S8x65536 .f32) (xo1 xo2 : Vec F S8x1 .f32) :
    out9_B_2 c i a1 h1 a2 h2 a3 h3 hc x xo1 xo2 = k9_pay5 x xo2 := by
  unfold out9_B_2
  rw [View.read_writes_eq_canon _ _ _ (cover9_B_2 c i a1 h1 a2 h2 a3 h3 hc x xo1 xo2)]
  unfold kernelRun9_B
  dsimp only
  sl_unfold_words
  rw [View.canon_unit_zero hz]
  simp only [View.readAt_eq_ld, h1.read_unread, h2.read_unread, h3.read_unread, View.ld_unit_zero (S := S8x1) hz,
    View.ld_unit_zero (S := S8x65536) hz]

/-- At the first point output 1 is reset to zero, read back, and left at zero plus the block's lane sums. -/
theorem out_A_1 (c : Dev nD) (i : grid9.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : cond9_0 i) (x : Vec F S8x65536 .f32) :
    out9_A_1 c i a1 h1 a2 h2 a3 h3 hc x = k9_pay4 x (k9_pay1 (F := F)) := by
  unfold out9_A_1
  rw [View.read_writes_eq_canon _ _ _ (cover9_A_1 c i a1 h1 a2 h2 a3 h3 hc x)]
  unfold kernelRun9_A
  dsimp only
  sl_unfold_words
  rw [View.canon_cons_unit_zero (S := S8x1) hz, View.readCov_unit_zero (S := S8x1) _ hz]
  simp only [View.readAt_eq_ld, h1.read_unread, View.ld_unit_zero (S := S8x65536) hz]

/-- At the first point output 2 is reset to zero, read back, and left at zero plus the lane sums of the block's squares. -/
theorem out_A_2 (c : Dev nD) (i : grid9.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : cond9_0 i) (x : Vec F S8x65536 .f32) :
    out9_A_2 c i a1 h1 a2 h2 a3 h3 hc x = k9_pay5 x (k9_pay2 (F := F)) := by
  unfold out9_A_2
  rw [View.read_writes_eq_canon _ _ _ (cover9_A_2 c i a1 h1 a2 h2 a3 h3 hc x)]
  unfold kernelRun9_A
  dsimp only
  sl_unfold_words
  rw [View.canon_cons_unit_zero (S := S8x1) hz, View.readCov_unit_zero (S := S8x1) _ hz]
  simp only [View.readAt_eq_ld, h1.read_unread, View.ld_unit_zero (S := S8x65536) hz]

/-! ## The outputs after each point -/

/-- At the first point: the reset value plus the block's contribution. -/
theorem outsAt_A (c : Dev nD) (t : Fin cfg9.N) (h0 : t.val % 8 = 0) :
    outsAt9 V c t.val t.isLt
      = (k9_pay4 (hblk V c t) (k9_pay1 (F := F)), k9_pay5 (hblk V c t) (k9_pay2 (F := F))) := by
  rw [outsAt9_A V c t h0,
    out_A_1 c (grid9.coords t) (ms9_0 t) (hs9_0 t) (ms9_1 t) (hs9_1 t) (ms9_2 t) (hs9_2 t) ((hcond9_0 t).mpr h0) (iblk9 V c 0 t),
    out_A_2 c (grid9.coords t) (ms9_0 t) (hs9_0 t) (ms9_1 t) (hs9_1 t) (ms9_2 t) (hs9_2 t) ((hcond9_0 t).mpr h0) (iblk9 V c 0 t)]

/-- At a later point: what the point before left plus the block's contribution. -/
theorem outsAt_B (c : Dev nD) (t : Fin cfg9.N) (h0 : ¬t.val % 8 = 0) :
    outsAt9 V c t.val t.isLt
      = (k9_pay4 (hblk V c t) (outsAt9 V c (t.val - 1) (Nat.lt_of_le_of_lt (Nat.sub_le _ _) t.isLt)).1,
         k9_pay5 (hblk V c t) (outsAt9 V c (t.val - 1) (Nat.lt_of_le_of_lt (Nat.sub_le _ _) t.isLt)).2) := by
  rw [outsAt9_B V c t h0,
    out_B_1 c (grid9.coords t) (ms9_0 t) (hs9_0 t) (ms9_1 t) (hs9_1 t) (ms9_2 t) (hs9_2 t) (fun h => h0 ((hcond9_0 t).mp h)) (iblk9 V c 0 t)
      (outsAt9 V c (t.val - 1) (Nat.lt_of_le_of_lt (Nat.sub_le _ _) t.isLt)).1 (outsAt9 V c (t.val - 1) (Nat.lt_of_le_of_lt (Nat.sub_le _ _) t.isLt)).2,
    out_B_2 c (grid9.coords t) (ms9_0 t) (hs9_0 t) (ms9_1 t) (hs9_1 t) (ms9_2 t) (hs9_2 t) (fun h => h0 ((hcond9_0 t).mp h)) (iblk9 V c 0 t)
      (outsAt9 V c (t.val - 1) (Nat.lt_of_le_of_lt (Nat.sub_le _ _) t.isLt)).1 (outsAt9 V c (t.val - 1) (Nat.lt_of_le_of_lt (Nat.sub_le _ _) t.isLt)).2]

/-! ## The partial sums, over the extended reals -/

/-- Tile `s`'s contribution to row `r`'s sum and sum of squares (zero past the last tile). -/
def tileSum (H : ArrCP) (r : Fin 8) (s : ℕ) : EReal := if h : s < 8 then ∑ l : Fin 65536, H r (col ⟨s, h⟩ l) else 0
def tileSsq (H : ArrCP) (r : Fin 8) (s : ℕ) : EReal :=
  if h : s < 8 then ∑ l : Fin 65536, H r (col ⟨s, h⟩ l) * H r (col ⟨s, h⟩ l) else 0

section AtIdeal

variable (W : (c : Dev nD) → (b : Ref sig .tc) → Buf (Elt Ideal) ((c : Thread nD τ).loc b))

/-- The block at point `t` contributes tile `t`. -/
theorem blockSum (c : Dev nD) (t : Fin cfg9.N) (r : Fin 8) :
    ∑ l : Fin 65536, hblk W c t (ix2 r l) = tileSum (toCP (harr W c)) r t.val := by
  have h8 : t.val < 8 := lt_of_lt_of_eq t.isLt (show cfg9.N = 8 from N_9)
  unfold tileSum
  rw [dif_pos h8]
  exact Finset.sum_congr rfl fun l _ => blk_read W c t ⟨t.val, h8⟩ rfl r l

theorem blockSsq (c : Dev nD) (t : Fin cfg9.N) (r : Fin 8) :
    ∑ l : Fin 65536, hblk W c t (ix2 r l) * hblk W c t (ix2 r l) = tileSsq (toCP (harr W c)) r t.val := by
  have h8 : t.val < 8 := lt_of_lt_of_eq t.isLt (show cfg9.N = 8 from N_9)
  unfold tileSsq
  rw [dif_pos h8]
  exact Finset.sum_congr rfl fun l _ => by rw [blk_read W c t ⟨t.val, h8⟩ rfl r l]; rfl

/-- After point `n` row `r` of output 1 holds the sum of tiles `0 … n`, and of output 2 the sum of their squares. -/
theorem outsAt_eq (c : Dev nD) : ∀ (n : ℕ) (h : n < cfg9.N) (r : Fin 8),
    ((outsAt9 W c n h).1 : Vec Ideal S8x1 .f32) (ix2 r 0) = ∑ s ∈ Finset.range (n + 1), tileSum (toCP (harr W c)) r s
      ∧ ((outsAt9 W c n h).2 : Vec Ideal S8x1 .f32) (ix2 r 0) = ∑ s ∈ Finset.range (n + 1), tileSsq (toCP (harr W c)) r s
  | 0, h, r => by
    rw [outsAt_A W c ⟨0, h⟩ rfl]
    dsimp only
    rw [pay4_apply (hblk W c ⟨0, h⟩) (k9_pay1 (F := Ideal)) r, pay5_apply (hblk W c ⟨0, h⟩) (k9_pay2 (F := Ideal)) r,
      pay1_apply, pay2_apply, Finset.sum_range_one, Finset.sum_range_one, zero_add, zero_add]
    exact ⟨blockSum W c ⟨0, h⟩ r, blockSsq W c ⟨0, h⟩ r⟩
  | n + 1, h, r => by
    have hN : cfg9.N = 8 := N_9
    have hB : ¬(⟨n + 1, h⟩ : Fin cfg9.N).val % 8 = 0 := by dsimp only; omega
    obtain ⟨ih1, ih2⟩ := outsAt_eq c n (Nat.lt_of_succ_lt h) r
    rw [outsAt_B W c ⟨n + 1, h⟩ hB]
    dsimp only
    refine ⟨?_, ?_⟩
    · refine (pay4_apply (hblk W c ⟨n + 1, h⟩) (outsAt9 W c n (Nat.lt_of_succ_lt h)).1 r).trans ?_
      rw [ih1, Finset.sum_range_succ _ (n + 1), blockSum W c ⟨n + 1, h⟩ r]
    · refine (pay5_apply (hblk W c ⟨n + 1, h⟩) (outsAt9 W c n (Nat.lt_of_succ_lt h)).2 r).trans ?_
      rw [ih2, Finset.sum_range_succ _ (n + 1), blockSsq W c ⟨n + 1, h⟩ r]

end AtIdeal

/-! ## The arrays the outputs are written back to -/

/-- What the outputs hold after the last point, as contents of their arrays (the one block is the array). -/
abbrev last1 (c : Dev nD) : Buf (Elt F) ((c : Thread nD τ).loc main_v150_0) :=
  (outsAt9 V c t9_7.val t9_7.isLt).1
abbrev last2 (c : Dev nD) : Buf (Elt F) ((c : Thread nD τ).loc main_v150_1) :=
  (outsAt9 V c t9_7.val t9_7.isLt).2

/-- The one write-back of output 1, at the last point, writes it. -/
theorem flushed_eq1 (c : Dev nD) (t : Fin cfg9.N) (hf : (cfg9.win 1).flush t = true) :
    (dat9 V c).flushed 1 t = ((cfg9.win 1).blk t).view.read (Elt F) (last1 V c) := by
  have hN : cfg9.N = 8 := N_9
  have h7 : t.val = 7 := by have := (flush9_1 t).mp hf; have := t.isLt; omega
  obtain rfl : t = t9_7 := Fin.ext h7
  show (cfg9.win 1).cut (grid9.coords t9_7) ((dat9 V c).after 1 t9_7) = _
  rw [after9_1]
  have hz' : (fun a => win9_1.index t9_7 a * main_v150_0.ty.shape.size a) = fun _ => 0 := funext fun a => by fin_cases a <;> decide
  exact (Memref.read_access_unit_zero (Elt F) main_v150_0 hz' (fun a => by rw [congrFun hz' a]; simp) (last1 V c)).symm

theorem flushed_eq2 (c : Dev nD) (t : Fin cfg9.N) (hf : (cfg9.win 2).flush t = true) :
    (dat9 V c).flushed 2 t = ((cfg9.win 2).blk t).view.read (Elt F) (last2 V c) := by
  have hN : cfg9.N = 8 := N_9
  have h7 : t.val = 7 := by have := (flush9_2 t).mp hf; have := t.isLt; omega
  obtain rfl : t = t9_7 := Fin.ext h7
  show (cfg9.win 2).cut (grid9.coords t9_7) ((dat9 V c).after 2 t9_7) = _
  rw [after9_2]
  have hz' : (fun a => win9_2.index t9_7 a * main_v150_1.ty.shape.size a) = fun _ => 0 := funext fun a => by fin_cases a <;> decide
  exact (Memref.read_access_unit_zero (Elt F) main_v150_1 hz' (fun a => by rw [congrFun hz' a]; simp) (last2 V c)).symm

/-- So the arrays end holding what the outputs hold after the last point: its block covers them. -/
theorem final1 (c : Dev nD) : (dat9 V c).arrAt 1 cfg9.N = last1 V c :=
  (dat9 V c).arrAt_eq_of_cover 1 (last1 V c) (flushed_eq1 V c) fun i =>
    ⟨t9_7, (flush9_1 t9_7).mpr rfl, by
      show i ∈ ((View.whole main_v150_0).slice (win9_1.rect t9_7)).set
      rw [View.set_slice_whole, Rect.mem_set_unit]
      intro a
      have h0 : (i 0 : Nat) < 8 := (i 0).isLt
      have h1 : (i 1 : Nat) < 1 := (i 1).isLt
      match a with
      | ⟨0, _⟩ => show win9_1.index t9_7 0 * win9_1.size 0 ≤ (i 0 : Nat) ∧ (i 0 : Nat) < win9_1.index t9_7 0 * win9_1.size 0 + win9_1.xsize (grid9.coords t9_7) 0
                  rw [show win9_1.index t9_7 0 * win9_1.size 0 = 0 from by decide +kernel, show win9_1.xsize (grid9.coords t9_7) 0 = 8 from by decide +kernel]; omega
      | ⟨1, _⟩ => show win9_1.index t9_7 1 * win9_1.size 1 ≤ (i 1 : Nat) ∧ (i 1 : Nat) < win9_1.index t9_7 1 * win9_1.size 1 + win9_1.xsize (grid9.coords t9_7) 1
                  rw [show win9_1.index t9_7 1 * win9_1.size 1 = 0 from by decide +kernel, show win9_1.xsize (grid9.coords t9_7) 1 = 1 from by decide +kernel]; omega⟩

theorem final2 (c : Dev nD) : (dat9 V c).arrAt 2 cfg9.N = last2 V c :=
  (dat9 V c).arrAt_eq_of_cover 2 (last2 V c) (flushed_eq2 V c) fun i =>
    ⟨t9_7, (flush9_2 t9_7).mpr rfl, by
      show i ∈ ((View.whole main_v150_1).slice (win9_2.rect t9_7)).set
      rw [View.set_slice_whole, Rect.mem_set_unit]
      intro a
      have h0 : (i 0 : Nat) < 8 := (i 0).isLt
      have h1 : (i 1 : Nat) < 1 := (i 1).isLt
      match a with
      | ⟨0, _⟩ => show win9_2.index t9_7 0 * win9_2.size 0 ≤ (i 0 : Nat) ∧ (i 0 : Nat) < win9_2.index t9_7 0 * win9_2.size 0 + win9_2.xsize (grid9.coords t9_7) 0
                  rw [show win9_2.index t9_7 0 * win9_2.size 0 = 0 from by decide +kernel, show win9_2.xsize (grid9.coords t9_7) 0 = 8 from by decide +kernel]; omega
      | ⟨1, _⟩ => show win9_2.index t9_7 1 * win9_2.size 1 ≤ (i 1 : Nat) ∧ (i 1 : Nat) < win9_2.index t9_7 1 * win9_2.size 1 + win9_2.xsize (grid9.coords t9_7) 1
                  rw [show win9_2.index t9_7 1 * win9_2.size 1 = 0 from by decide +kernel, show win9_2.xsize (grid9.coords t9_7) 1 = 1 from by decide +kernel]; omega⟩

/-! ## The value of the region -/

/-- The eight tiles' contributions are the spec's sums. -/
theorem sum_tiles (H : ArrCP) (r : Fin 8) : ∑ s ∈ Finset.range (7 + 1), tileSum H r s = sumK H r := by
  unfold sumK
  rw [Finset.sum_range]
  exact Finset.sum_congr rfl fun t _ => by unfold tileSum; rw [dif_pos t.isLt]

theorem ssq_tiles (H : ArrCP) (r : Fin 8) : ∑ s ∈ Finset.range (7 + 1), tileSsq H r s = ssqK H r := by
  unfold ssqK
  rw [Finset.sum_range]
  exact Finset.sum_congr rfl fun t _ => by unfold tileSsq; rw [dif_pos t.isLt]

/-- Output 1's array ends holding the input's row sums. -/
theorem stats0_sum (W : (c : Dev nD) → (b : Ref sig .tc) → Buf (Elt Ideal) ((c : Thread nD τ).loc b)) (c : Dev nD) :
    toV81 ((dat9 (F := Ideal) W c).arrAt 1 cfg9.N) = sumK (toCP (W c (Pipeline.arrRef spec9 0))) := by
  rw [final1 W c]
  funext r
  exact ((outsAt_eq W c t9_7.val t9_7.isLt r).1).trans (sum_tiles _ r)

/-- Output 2's array ends holding the input's row sums of squares. -/
theorem stats0_ssq (W : (c : Dev nD) → (b : Ref sig .tc) → Buf (Elt Ideal) ((c : Thread nD τ).loc b)) (c : Dev nD) :
    toV81 ((dat9 (F := Ideal) W c).arrAt 2 cfg9.N) = ssqK (toCP (W c (Pipeline.arrRef spec9 0))) := by
  rw [final2 W c]
  funext r
  exact ((outsAt_eq W c t9_7.val t9_7.isLt r).2).trans (ssq_tiles _ r)

end Cert.KernelIdeal.Val9

end
-- ==== Proof.KHost10.lean ====
/-
  What the host operations between the statistics and the transform of a layer compute, read at an index, over
  the extended reals: the row sums divided by the number of nodes (the batch mean), the row sums of squares
  divided by the number of nodes minus the squared mean (the batch variance), the layer's row of the scales
  and of the shifts as columns, and the layer's weight matrix transposed. They hold from any contents the
  operations start from; a buffer none of them writes keeps its contents.
-/
import proofs.«143139_j73710228734964_1_alg».proof.Proof.Gen.KernelIdeal.Launch
import proofs.«143139_j73710228734964_1_alg».proof.Proof.Spec
import proofs.«143139_j73710228734964_1_alg».proof.Proof.Conv
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 2928

noncomputable section

namespace Cert.KernelIdeal.Host10

open Cert.KernelIdeal Cert.KernelIdeal.Gen Cert.GCN Idealize.ShloMosaic Idealize.ShloMosaic.ValueIdx

/-! ## The divisor -/

/-- The word `0x48F42400` denotes the number of nodes, 500000. -/
theorem ofBits_nN : Ideal.ofBits .f32 0x48F42400#32 = nN := by
  show Ideal.ieee 8 23 (0x48F42400#32 : BitVec 32) = ((500000 : ℝ) : EReal)
  simp [Ideal.ieee]
  rw [← EReal.coe_mul]
  norm_num

/-- The scalar constant 500000 broadcast to a column `[8, 1]`. -/
local notation "colN" =>
  (broadcastInDim S8x1 ![] bcast_S_S8x1 (constant (F := Ideal) S_ FTy.f32 0x48F42400#32) : S8x1.Idx → EReal)

/-- It reads 500000 at every index. -/
theorem colN_apply (j : S8x1.Idx) : colN j = nN := by
  rw [broadcastInDim_scalar_apply, constant_apply, ofBits_nN]

/-! ## The operations read at an index, over variables -/

/-- A column divided by the constant column, read at row `c`. -/
theorem divN_apply (x : S8x1.Idx → EReal) (c : Fin 8) :
    toV81 (Host.divf (F := Ideal) (φ := .f32) x colN) c = Ideal.div (toV81 x c) nN := by
  show Ideal.div (x (ix2 c 0)) (colN (ix2 c 0)) = _
  rw [colN_apply]
  rfl

/-- The quotient of `y` minus the squared quotient of `x`, read at row `c`. -/
theorem varN_apply (x y : S8x1.Idx → EReal) (c : Fin 8) :
    toV81 (subf (F := Ideal) (φ := .f32) (Host.divf (F := Ideal) (φ := .f32) y colN)
        (mulf (F := Ideal) (φ := .f32) (Host.divf (F := Ideal) (φ := .f32) x colN) (Host.divf (F := Ideal) (φ := .f32) x colN))) c
      = Ideal.div (toV81 y c) nN - Ideal.div (toV81 x c) nN * Ideal.div (toV81 x c) nN := by
  show Ideal.div (y (ix2 c 0)) (colN (ix2 c 0))
      - Ideal.div (x (ix2 c 0)) (colN (ix2 c 0)) * Ideal.div (x (ix2 c 0)) (colN (ix2 c 0)) = _
  rw [colN_apply]
  rfl

/-- A vector `[8]` cast to a column `[8, 1]` reads, at `(c, u)`, the vector at `c`. -/
theorem shapeCast_8_8x1_apply (x : S8.Idx → EReal) (h : S8.ShapeCasts S8x1) (c : Fin 8) (u : Fin 1) :
    shapeCast S8x1 x h (ix2 c u) = x (ix1 c) :=
  shapeCast_apply x h _ _ (by
    have hu : u.val = 0 := by omega
    rw [Shape.rowMajor_val_two, Shape.rowMajor_val_one]
    show c.val = c.val * 1 + u.val
    omega)

/-- Row `o` of a matrix `[8, 8]`, cut out as `[1, 8]`, cast to `[8]` and then to a column `[8, 1]`: its row `c` is the
    matrix at `(o, c)`. -/
theorem rowCol_apply (o : Nat) (x : S8x8.Idx → EReal) (h : S8x8.Slices ![o, 0] S1x8) (r : Fin 8) (hr : r.val = o) (c : Fin 8) :
    toV81 (shapeCast S8x1 (shapeCast S8 (extractStridedSlice S1x8 ![o, 0] x h) shapeCasts_S1x8_S8) shapeCasts_S8_S8x1) c
      = toM8 x r c := by
  show shapeCast S8x1 (shapeCast S8 (extractStridedSlice S1x8 ![o, 0] x h) shapeCasts_S1x8_S8) shapeCasts_S8_S8x1 (ix2 c 0)
      = x (ix2 r c)
  rw [shapeCast_8_8x1_apply, shapeCast_1a_a_apply]
  exact slice2_axis0_apply o x h 0 c r hr

/-- Matrix `o` of a stack `[8, 8, 8]`, cut out as `[1, 8, 8]`, cast to `[8, 8]` and transposed: its entry `(a, b)` is the
    stack at `(o, b, a)`. -/
theorem sliceT_apply (o : Nat) (x : S8x8x8.Idx → EReal) (h : S8x8x8.Slices ![o, 0, 0] S1x8x8) (r : Fin 8) (hr : r.val = o)
    (a b : Fin 8) :
    toM8 (transpose S8x8 [1, 0] (shapeCast S8x8 (extractStridedSlice S1x8x8 ![o, 0, 0] x h) shapeCasts_S1x8x8_S8x8)
        transposes_S8x8_S8x8_1_0) a b = x (ix3 r b a) := by
  show transpose S8x8 [1, 0] (shapeCast S8x8 (extractStridedSlice S1x8x8 ![o, 0, 0] x h) shapeCasts_S1x8x8_S8x8)
        transposes_S8x8_S8x8_1_0 (ix2 a b) = x (ix3 r b a)
  rw [transpose_ix2_apply, shapeCast_1ab_ab_apply]
  exact extractStridedSlice_apply _ _ _ _ _ (fun ax => by
    match ax with
    | ⟨0, _⟩ => exact hr
    | ⟨1, _⟩ => exact (Nat.zero_add _).symm
    | ⟨2, _⟩ => exact (Nat.zero_add _).symm)

/-! ## The stretch's results -/

section Results

variable (W : Valuation τ sig (Elt Ideal))

theorem after_main_v38 :
    (StableHlo.after (hostOps10 (F := Ideal)) W (Proc.devRef .tc main_v152) : S8x1.Idx → EReal)
      = Host.divf (F := Ideal) (φ := .f32) (W (Proc.devRef .tc main_v150_0)) colN := by
  after_results <;> rfl

theorem after_main_v42 :
    (StableHlo.after (hostOps10 (F := Ideal)) W (Proc.devRef .tc main_v156) : S8x1.Idx → EReal)
      = subf (F := Ideal) (φ := .f32) (Host.divf (F := Ideal) (φ := .f32) (W (Proc.devRef .tc main_v150_1)) colN)
          (mulf (F := Ideal) (φ := .f32) (Host.divf (F := Ideal) (φ := .f32) (W (Proc.devRef .tc main_v150_0)) colN)
            (Host.divf (F := Ideal) (φ := .f32) (W (Proc.devRef .tc main_v150_0)) colN)) := by
  after_results <;> rfl

/-- The batch mean's column: the row sums over the number of nodes. -/
theorem mean1 :
    toV81 (StableHlo.after (hostOps10 (F := Ideal)) W (Proc.devRef .tc main_v152))
      = fun c => Ideal.div (toV81 (W (Proc.devRef .tc main_v150_0)) c) nN := by
  funext c
  rw [after_main_v38]
  exact divN_apply _ c

/-- The batch variance's column: the mean of the squares minus the squared mean. -/
theorem var1 :
    toV81 (StableHlo.after (hostOps10 (F := Ideal)) W (Proc.devRef .tc main_v156))
      = fun c => Ideal.div (toV81 (W (Proc.devRef .tc main_v150_1)) c) nN
          - Ideal.div (toV81 (W (Proc.devRef .tc main_v150_0)) c) nN * Ideal.div (toV81 (W (Proc.devRef .tc main_v150_0)) c) nN := by
  funext c
  rw [after_main_v42]
  exact varN_apply _ _ c

/-- The scale's column: row 0 of the scales' matrix. -/
theorem gamma1 :
    toV81 (StableHlo.after (hostOps10 (F := Ideal)) W (Proc.devRef .tc main_v159))
      = fun c => toM8 (W (Proc.devRef .tc main_arg4)) (3 : Fin 8) c := by
  funext c
  after_results
  exact rowCol_apply _ _ _ (3 : Fin 8) rfl c

/-- The shift's column: row 0 of the shifts' matrix. -/
theorem beta1 :
    toV81 (StableHlo.after (hostOps10 (F := Ideal)) W (Proc.devRef .tc main_v162))
      = fun c => toM8 (W (Proc.devRef .tc main_arg5)) (3 : Fin 8) c := by
  funext c
  after_results
  exact rowCol_apply _ _ _ (3 : Fin 8) rfl c

/-- The weights: matrix 0 of the stack, transposed. -/
theorem wT1 :
    toM8 (StableHlo.after (hostOps10 (F := Ideal)) W (Proc.devRef .tc main_v165))
      = fun a b => (W (Proc.devRef .tc main_arg6) : S8x8x8.Idx → EReal) (ValueIdx.ix3 (3 : Fin 8) b a) := by
  funext a b
  after_results
  exact sliceT_apply _ _ _ (3 : Fin 8) rfl a b

/-- The buffers the stretch writes. -/
def writes1 : List (Ref sig .tc) :=
  [main_cst_25, main_v151, main_v152, main_cst_26, main_v153, main_v154, main_v155, main_v156, main_v157, main_v158, main_v159,
    main_v160, main_v161, main_v162, main_v163, main_v164, main_v165]

/-- A buffer the stretch does not write keeps its contents. -/
theorem kept1 {b : Ref sig .tc} (hb : b ∉ writes1) :
    StableHlo.after (hostOps10 (F := Ideal)) W (Proc.devRef .tc b) = W (Proc.devRef .tc b) :=
  StableHlo.after_of_forall_not_mem (b := Proc.devRef .tc b) _ _ (List.forall_iff_forall_mem.mp (by
    simp only [hostOps10, List.Forall, StableHlo.nullary_writes, StableHlo.unary_writes, StableHlo.binary_writes,
      StableHlo.reshape_writes, Finset.mem_singleton]
    repeat' apply And.intro
    all_goals exact StableHlo.devRef_ne_of_ne (fun e => hb (by rw [e]; decide))))

theorem kept1_main_v35 : StableHlo.after (hostOps10 (F := Ideal)) W (Proc.devRef .tc main_v149) = W (Proc.devRef .tc main_v149) :=
  kept1 W (by decide)
theorem kept1_main_v3 : StableHlo.after (hostOps10 (F := Ideal)) W (Proc.devRef .tc main_v3) = W (Proc.devRef .tc main_v3) :=
  kept1 W (by decide)
theorem kept1_main_v6 : StableHlo.after (hostOps10 (F := Ideal)) W (Proc.devRef .tc main_v6) = W (Proc.devRef .tc main_v6) :=
  kept1 W (by decide)
theorem kept1_main_v26 : StableHlo.after (hostOps10 (F := Ideal)) W (Proc.devRef .tc main_v26) = W (Proc.devRef .tc main_v26) :=
  kept1 W (by decide)
theorem kept1_main_arg7 : StableHlo.after (hostOps10 (F := Ideal)) W (Proc.devRef .tc main_arg7) = W (Proc.devRef .tc main_arg7) :=
  kept1 W (by decide)

end Results

end Cert.KernelIdeal.Host10

end
-- ==== Proof.KTransform10.lean ====
/-
  The value of the transform kernel of layer 0 (region 1 of the kernel program), at the ideal values and for any
  contents `V` of the buffers when the region is entered.

  The region walks the 8 column blocks of 65536 lanes of `H : [8, 524288]`. At block `t` it reads the block of `H`,
  the four columns `[8, 1]` (mean, variance, scale, shift) and the matrix `wT : [8, 8]` whole, and stores
    wT · ((x − mean) · rsqrt(var + eps) · scale + shift)
  into block `t` of the output: entry `(co, l)` of the stored block is the sum over the input channel `ci` of
  `wT (co, ci)` times the normalised entry `(ci, l)` of the block. The 8 blocks tile the output array, so the array
  ends holding, at `(co, n)`, the same sum with column `n = 65536 · t + l` of `H`.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.PureOps.Ideal.Laws

noncomputable section

namespace Cert.KernelIdeal.Val10

open Cert.KernelIdeal Cert.KernelIdeal.Gen Cert.KernelIdeal.GenP Cert.GCN
open Idealize.ShloMosaic Idealize.ShloMosaic.TcCoe Idealize.ShloMosaic.ValueIdx Idealize.SL.Sem
open Idealize.ShloMosaic.Pipeline (Dat)
open scoped BigOperators

/-! ## The payload at an index -/

/-- An `[8, 1]` column broadcast along the lanes reads, at `(p, l)`, the column's entry of row `p`. -/
theorem bcast_col_apply {α : Type} (v : S8x1.Idx → α) (h : S8x1.Broadcasts S8x65536) (p : Fin 8) (l : Fin 65536) :
    broadcastTo S8x65536 v h (ix2 p l) = v (ix2 p (0 : Fin 1)) := by
  refine broadcastTo_apply v h (ix2 p l) (ix2 p (0 : Fin 1)) fun ax => ?_
  match ax with
  | ⟨0, _⟩ => rfl
  | ⟨1, _⟩ => rfl

/-- The product's left operand is read at the output's row … -/
theorem lhs_dot_0 (j : S8x65536.Idx) (k : dot_S8x8_S8x65536_S8x65536_1_0_0_1_n_n.contr.Idx) :
    ((dot_S8x8_S8x65536_S8x65536_1_0_0_1_n_n.lhsIdx j k 0 : Fin _) : ℕ) = (j 0 : ℕ) := by
  simp [DotDims.lhsIdx, dot_S8x8_S8x65536_S8x65536_1_0_0_1_n_n]
  rfl

/-- … and at the contracted coordinate; -/
theorem lhs_dot_1 (j : S8x65536.Idx) (k : dot_S8x8_S8x65536_S8x65536_1_0_0_1_n_n.contr.Idx) :
    ((dot_S8x8_S8x65536_S8x65536_1_0_0_1_n_n.lhsIdx j k 1 : Fin _) : ℕ) = (k ⟨0, by decide⟩ : ℕ) :=
  dot_S8x8_S8x65536_S8x65536_1_0_0_1_n_n.lhsIdx_val_of_single rfl j k

/-- the right operand at the contracted coordinate … -/
theorem rhs_dot_0 (j : S8x65536.Idx) (k : dot_S8x8_S8x65536_S8x65536_1_0_0_1_n_n.contr.Idx) :
    ((dot_S8x8_S8x65536_S8x65536_1_0_0_1_n_n.rhsIdx j k 0 : Fin _) : ℕ) = (k ⟨0, by decide⟩ : ℕ) :=
  dot_S8x8_S8x65536_S8x65536_1_0_0_1_n_n.rhsIdx_val_of_single rfl j k

/-- … and at the output's lane. -/
theorem rhs_dot_1 (j : S8x65536.Idx) (k : dot_S8x8_S8x65536_S8x65536_1_0_0_1_n_n.contr.Idx) :
    ((dot_S8x8_S8x65536_S8x65536_1_0_0_1_n_n.rhsIdx j k 1 : Fin _) : ℕ) = (j 1 : ℕ) := by
  simp [DotDims.rhsIdx, dot_S8x8_S8x65536_S8x65536_1_0_0_1_n_n]
  rfl

/-- The payload at `(co, l)`: the normalised, scaled and shifted column `l` of the block, multiplied on the left by
    row `co` of the matrix. The product's zero accumulator adds nothing, and the narrowing of the two operands is the
    identity on the extended reals. -/
theorem pay1_apply (v0 v2 v4 v6 : Vec Ideal S8x1 .f32) (v11 : Vec Ideal S8x65536 .f32) (v21 : Vec Ideal S8x8 .f32)
    (co : Fin 8) (l : Fin 65536) :
    k10_pay1 (F := Ideal) v0 v2 v4 v6 v11 v21 (ix2 co l)
      = ∑ ci : Fin 8, v21 (ix2 co ci)
          * ((v11 (ix2 ci l) - v0 (ix2 ci (0 : Fin 1))) * Ideal.rsqrt (v2 (ix2 ci (0 : Fin 1)) + eps) * v4 (ix2 ci (0 : Fin 1))
              + v6 (ix2 ci (0 : Fin 1))) := by
  unfold k10_pay1
  refine (Ideal.matmul_constant_zero_apply dot_S8x8_S8x65536_S8x65536_1_0_0_1_n_n none _ _ (ix2 co l)).trans ?_
  refine (Equiv.sum_comp (contrEquiv1 dot_S8x8_S8x65536_S8x65536_1_0_0_1_n_n 8 rfl rfl).symm _).symm.trans ?_
  refine Finset.sum_congr rfl fun ci _ => ?_
  have c2 := contrEquiv1_symm_val dot_S8x8_S8x65536_S8x65536_1_0_0_1_n_n 8 rfl rfl ci
  have l2 : dot_S8x8_S8x65536_S8x65536_1_0_0_1_n_n.lhsIdx (ix2 co l) ((contrEquiv1 _ 8 rfl rfl).symm ci) = ix2 co ci := by
    funext ax; apply Fin.ext
    match ax with
    | ⟨0, _⟩ => exact lhs_dot_0 _ _
    | ⟨1, _⟩ => exact (lhs_dot_1 _ _).trans c2
  have r2 : dot_S8x8_S8x65536_S8x65536_1_0_0_1_n_n.rhsIdx (ix2 co l) ((contrEquiv1 _ 8 rfl rfl).symm ci) = ix2 ci l := by
    funext ax; apply Fin.ext
    match ax with
    | ⟨0, _⟩ => exact (rhs_dot_0 _ _).trans c2
    | ⟨1, _⟩ => exact rhs_dot_1 _ _
  rw [l2, r2]
  simp only [truncf_apply, shapeCast_self, addf_apply, mulf_apply, subf_apply, bcast_col_apply]
  rfl

/-- The same at an index of the block given by its two coordinates' values. -/
theorem pay1_at (x0 : Vec Ideal S8x65536 .f32) (x1 x2 x3 x4 : Vec Ideal S8x1 .f32) (x5 : Vec Ideal S8x8 .f32)
    (y : S8x65536.Idx) (p : Fin 8) (q : Fin 65536) (hp : (y 0).val = p.val) (hq : (y 1).val = q.val) :
    k10_pay1 (F := Ideal) x1 x2 x3 x4 x0 x5 y
      = ∑ ci : Fin 8, x5 (ix2 p ci)
          * ((x0 (ix2 ci q) - x1 (ix2 ci (0 : Fin 1))) * Ideal.rsqrt (x2 (ix2 ci (0 : Fin 1)) + eps) * x3 (ix2 ci (0 : Fin 1))
              + x4 (ix2 ci (0 : Fin 1))) := by
  have hy : y = ix2 p q := by
    funext a; apply Fin.ext
    match a with
    | ⟨0, _⟩ => exact hp
    | ⟨1, _⟩ => exact hq
  rw [hy]
  exact pay1_apply x1 x2 x3 x4 x0 x5 p q

/-! ## From blocks to the array -/

section Blocks

variable (V : (c : Dev nD) → (b : Ref sig .tc) → Buf (Elt Ideal) ((c : Thread nD τ).loc b))

/-- The six arrays the region reads, as it finds them: `H`, the mean, variance, scale and shift columns, the matrix. -/
abbrev harr (c : Dev nD) : Vec Ideal S8x524288 .f32 := V c (Pipeline.arrRef spec10 0)
abbrev marr (c : Dev nD) : Vec Ideal S8x1 .f32 := V c (Pipeline.arrRef spec10 1)
abbrev sarr (c : Dev nD) : Vec Ideal S8x1 .f32 := V c (Pipeline.arrRef spec10 2)
abbrev garr (c : Dev nD) : Vec Ideal S8x1 .f32 := V c (Pipeline.arrRef spec10 3)
abbrev barr (c : Dev nD) : Vec Ideal S8x1 .f32 := V c (Pipeline.arrRef spec10 4)
abbrev warr (c : Dev nD) : Vec Ideal S8x8 .f32 := V c (Pipeline.arrRef spec10 5)

/-- The transform at `(co, n)`: row `co` of the matrix times the normalised column `n` of `H`. -/
def T1 (c : Dev nD) (co : Fin 8) (n : Fin 524288) : EReal :=
  ∑ ci : Fin 8, warr V c (ix2 co ci)
    * ((harr V c (ix2 ci n) - marr V c (ix2 ci (0 : Fin 1))) * Ideal.rsqrt (sarr V c (ix2 ci (0 : Fin 1)) + eps) * garr V c (ix2 ci (0 : Fin 1))
        + barr V c (ix2 ci (0 : Fin 1)))

/-- The array the region leaves, as a function of its index. -/
abbrev G1 (c : Dev nD) : Vec Ideal S8x524288 .f32 := fun i => T1 V c (i 0) (i 1)

theorem hz : (![0, 0] : Fin 2 → Nat) = fun _ => 0 := funext fun a => by fin_cases a <;> rfl

/-- The block indices over the grid: the windows of `H` and of the output are at column block `t`, the five small
    windows at block `(0, 0)`. -/
theorem idx_facts1 : ∀ t : Fin cfg10.N,
    win10_0.index t (0 : Fin 2) = 0 ∧ win10_0.index t (1 : Fin 2) = t.val
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = t.val :=
  (by decide +kernel : ∀ t : Fin grid10.N, _)

/-- Entry `(r, l)` of the block of `H` at point `t` is entry `(r, 65536 · t + l)` of `H`. -/
theorem iblk1_0_apply (c : Dev nD) (t : Fin cfg10.N) (x : S8x65536.Idx) (k : S8x524288.Idx)
    (hk0 : (k 0).val = (x 0).val) (hk1 : (k 1).val = 65536 * t.val + (x 1).val) :
    (iblk10 V c 0 t : Vec Ideal S8x65536 .f32) x = harr V c k := by
  obtain ⟨e0, e1, -⟩ := idx_facts1 t
  unfold iblk10
  rw [View.read_apply]
  show V c (Pipeline.arrRef spec10 0) _ = V c (Pipeline.arrRef spec10 0) k
  congr 1
  funext a
  apply Fin.ext
  match a with
  | ⟨0, _⟩ => show win10_0.index t 0 * 8 + 1 * (x 0).val = (k 0).val; rw [e0, hk0]; omega
  | ⟨1, _⟩ => show win10_0.index t 1 * 65536 + 1 * (x 1).val = (k 1).val; rw [e1, hk1]; omega

/-- The block of each small window is its whole array, at every point. -/
theorem iblk1_1_eq (c : Dev nD) (t : Fin cfg10.N) : (iblk10 V c 1 t : Vec Ideal S8x1 .f32) = marr V c := by
  obtain ⟨-, -, e0, e1, -⟩ := idx_facts1 t
  funext x
  unfold iblk10
  rw [View.read_apply]
  show V c (Pipeline.arrRef spec10 1) _ = V c (Pipeline.arrRef spec10 1) x
  congr 1
  funext a
  apply Fin.ext
  match a with
  | ⟨0, _⟩ => show win10_1.index t 0 * 8 + 1 * (x 0).val = (x 0).val; rw [e0]; omega
  | ⟨1, _⟩ => show win10_1.index t 1 * 1 + 1 * (x 1).val = (x 1).val; rw [e1]; omega

theorem iblk1_2_eq (c : Dev nD) (t : Fin cfg10.N) : (iblk10 V c 2 t : Vec Ideal S8x1 .f32) = sarr V c := by
  obtain ⟨-, -, -, -, e0, e1, -⟩ := idx_facts1 t
  funext x
  unfold iblk10
  rw [View.read_apply]
  show V c (Pipeline.arrRef spec10 2) _ = V c (Pipeline.arrRef spec10 2) x
  congr 1
  funext a
  apply Fin.ext
  match a with
  | ⟨0, _⟩ => show win10_2.index t 0 * 8 + 1 * (x 0).val = (x 0).val; rw [e0]; omega
  | ⟨1, _⟩ => show win10_2.index t 1 * 1 + 1 * (x 1).val = (x 1).val; rw [e1]; omega

theorem iblk1_3_eq (c : Dev nD) (t : Fin cfg10.N) : (iblk10 V c 3 t : Vec Ideal S8x1 .f32) = garr V c := by
  obtain ⟨-, -, -, -, -, -, e0, e1, -⟩ := idx_facts1 t
  funext x
  unfold iblk10
  rw [View.read_apply]
  show V c (Pipeline.arrRef spec10 3) _ = V c (Pipeline.arrRef spec10 3) x
  congr 1
  funext a
  apply Fin.ext
  match a with
  | ⟨0, _⟩ => show win10_3.index t 0 * 8 + 1 * (x 0).val = (x 0).val; rw [e0]; omega
  | ⟨1, _⟩ => show win10_3.index t 1 * 1 + 1 * (x 1).val = (x 1).val; rw [e1]; omega

theorem iblk1_4_eq (c : Dev nD) (t : Fin cfg10.N) : (iblk10 V c 4 t : Vec Ideal S8x1 .f32) = barr V c := by
  obtain ⟨-, -, -, -, -, -, -, -, e0, e1, -⟩ := idx_facts1 t
  funext x
  unfold iblk10
  rw [View.read_apply]
  show V c (Pipeline.arrRef spec10 4) _ = V c (Pipeline.arrRef spec10 4) x
  congr 1
  funext a
  apply Fin.ext
  match a with
  | ⟨0, _⟩ => show win10_4.index t 0 * 8 + 1 * (x 0).val = (x 0).val; rw [e0]; omega
  | ⟨1, _⟩ => show win10_4.index t 1 * 1 + 1 * (x 1).val = (x 1).val; rw [e1]; omega

theorem iblk1_5_eq (c : Dev nD) (t : Fin cfg10.N) : (iblk10 V c 5 t : Vec Ideal S8x8 .f32) = warr V c := by
  obtain ⟨-, -, -, -, -, -, -, -, -, -, e0, e1, -⟩ := idx_facts1 t
  funext x
  unfold iblk10
  rw [View.read_apply]
  show V c (Pipeline.arrRef spec10 5) _ = V c (Pipeline.arrRef spec10 5) x
  congr 1
  funext a
  apply Fin.ext
  match a with
  | ⟨0, _⟩ => show win10_5.index t 0 * 8 + 1 * (x 0).val = (x 0).val; rw [e0]; omega
  | ⟨1, _⟩ => show win10_5.index t 1 * 8 + 1 * (x 1).val = (x 1).val; rw [e1]; omega

/-- What point `t` writes back is block `t` of the transformed array: entry `(co, l)` of the stored block is the
    transform at column `65536 · t + l`. -/
theorem flushed1_eq (c : Dev nD) (t : Fin cfg10.N) :
    (dat10 V c).flushed 6 t = ((cfg10.win 6).blk t).view.read (Elt Ideal) (G1 V c) := by
  show (cfg10.win 6).cut (grid10.coords t) ((dat10 V c).after 6 t) = _
  rw [after10_6]
  unfold out10_6
  rw [View.canon_unit_zero hz]
  simp only [View.ld_unit_zero (S := S8x1) hz, View.ld_unit_zero (S := S8x65536) hz, View.ld_unit_zero (S := S8x8) hz]
  obtain ⟨-, -, -, -, -, -, -, -, -, -, -, -, e0, e1⟩ := idx_facts1 t
  have ht : t.val < 8 := lt_of_lt_of_eq t.isLt N_10
  funext j
  have hj0 : (j 0).val < 8 := (j 0).isLt
  have hj1 : (j 1).val < 65536 := (j 1).isLt
  have hn : 65536 * t.val + (j 1).val < 524288 := by omega
  rw [View.read_apply]
  show k10_pay1 (F := Ideal) (iblk10 V c 1 t) (iblk10 V c 2 t) (iblk10 V c 3 t) (iblk10 V c 4 t) (iblk10 V c 0 t) (iblk10 V c 5 t)
      ((cfg10.win 6).xinj (grid10.coords t) j)
    = T1 V c ((((cfg10.win 6).blk t).view.emb j) 0) ((((cfg10.win 6).blk t).view.emb j) 1)
  have he0 : ((((cfg10.win 6).blk t).view.emb j) 0 : Fin 8) = ⟨(j 0).val, hj0⟩ :=
    Fin.ext (by show win10_6.index t 0 * 8 + 1 * (j 0).val = (j 0).val; rw [e0]; omega)
  have he1 : ((((cfg10.win 6).blk t).view.emb j) 1 : Fin 524288) = ⟨65536 * t.val + (j 1).val, hn⟩ :=
    Fin.ext (by show win10_6.index t 1 * 65536 + 1 * (j 1).val = 65536 * t.val + (j 1).val; rw [e1]; omega)
  rw [he0, he1]
  refine (pay1_at (iblk10 V c 0 t) (iblk10 V c 1 t) (iblk10 V c 2 t) (iblk10 V c 3 t) (iblk10 V c 4 t) (iblk10 V c 5 t)
    ((cfg10.win 6).xinj (grid10.coords t) j) ⟨(j 0).val, hj0⟩ ⟨(j 1).val, hj1⟩ rfl rfl).trans ?_
  unfold T1
  refine Finset.sum_congr rfl fun ci _ => ?_
  rw [iblk1_1_eq, iblk1_2_eq, iblk1_3_eq, iblk1_4_eq, iblk1_5_eq,
    iblk1_0_apply V c t (ix2 ci ⟨(j 1).val, hj1⟩) (ix2 ci ⟨65536 * t.val + (j 1).val, hn⟩) rfl rfl]
  rfl

/-- An index of the array is in point `t`'s block iff each coordinate is in the block's range on its axis. -/
theorem mem_blk1_6 (t : Fin cfg10.N) (i : S8x524288.Idx) :
    i ∈ ((cfg10.win 6).blk t).view.set ↔ ∀ a : Fin 2, win10_6.index t a * S8x65536.size a ≤ (i a).val ∧ (i a).val < win10_6.index t a * S8x65536.size a + S8x65536.size a := by
  show i ∈ ((View.whole main_v166).slice (win10_6.rect t)).set ↔ _
  rw [View.set_slice_whole, Rect.mem_set_unit]
  exact Iff.rfl

/-- Every index `(r, n)` of the array is in the block of point `n / 65536`. -/
theorem cover1 (i : S8x524288.Idx) : ∃ t : Fin cfg10.N, (cfg10.win 6).flush t = true ∧ i ∈ ((cfg10.win 6).blk t).view.set := by
  have hN : cfg10.N = 8 := N_10
  have h0 : (i 0).val < 8 := (i 0).isLt
  have h1 : (i 1).val < 524288 := (i 1).isLt
  obtain ⟨t, ht⟩ : ∃ t : Fin cfg10.N, t.val = (i 1).val / 65536 := ⟨⟨(i 1).val / 65536, lt_of_lt_of_eq (by omega) hN.symm⟩, rfl⟩
  obtain ⟨-, -, -, -, -, -, -, -, -, -, -, -, e0, e1⟩ := idx_facts1 t
  refine ⟨t, flush10_6 t, ?_⟩
  rw [mem_blk1_6]
  intro a
  match a with
  | ⟨0, _⟩ => show win10_6.index t 0 * 8 ≤ (i 0).val ∧ (i 0).val < win10_6.index t 0 * 8 + 8; rw [e0]; omega
  | ⟨1, _⟩ => show win10_6.index t 1 * 65536 ≤ (i 1).val ∧ (i 1).val < win10_6.index t 1 * 65536 + 65536; rw [e1, ht]; omega

/-- The output array after the region's 8 points is the transformed array. -/
theorem final1 (c : Dev nD) : (dat10 V c).arrAt 6 cfg10.N = G1 V c :=
  (dat10 V c).arrAt_eq_of_cover 6 (G1 V c) (fun t _ => flushed1_eq V c t) cover1

/-- THE VALUE of the transform region over the curried views: with `H`, the mean `μ`, the variance `σ²`, the scale
    `γ`, the shift `β` and the matrix `wT` read off the arrays as the region finds them, the output array is, at
    `(co, n)`, the sum over `ci` of `wT co ci · ((H ci n − μ ci) · rsqrt(σ² ci + eps) · γ ci + β ci)`. -/
theorem transform1_val (c : Dev nD) :
    toCP ((dat10 V c).arrAt 6 cfg10.N)
      = fun co n => ∑ ci : Fin 8, toM8 (V c (Pipeline.arrRef spec10 5)) co ci
          * ((toCP (V c (Pipeline.arrRef spec10 0)) ci n - toV81 (V c (Pipeline.arrRef spec10 1)) ci)
              * Ideal.rsqrt (toV81 (V c (Pipeline.arrRef spec10 2)) ci + eps) * toV81 (V c (Pipeline.arrRef spec10 3)) ci
              + toV81 (V c (Pipeline.arrRef spec10 4)) ci) := by
  rw [final1]
  rfl

end Blocks

end Cert.KernelIdeal.Val10

end
-- ==== Proof.KHost11.lean ====
/-
  The kernel program's host operations between a layer's transform region and its residual region, read at an
  index over the extended reals, from any contents of the buffers they start from.
  Two layout facts carry everything. The first `N` columns of a channel-major array `[8, NP]`, transposed, are its
  node-major reading `[N, 8]`: entry `(n, c)` is entry `(c, n)`. A node-major array transposed and padded with zeros
  to `NP` columns is its channel-major padded layout: entry `(c, n)` is entry `(n, c)` below the last node and zero
  past it (the pad value is the integer zero converted to a float, which is zero).
  The operations slice and transpose the transform's output, aggregate it over the edges (gather at the sources,
  scale by the norms, add up at the targets: one function `AGG` of the sources, the targets, the norms and the
  array, never opened), transpose and pad the result back, and cut the layer's row out of the bias matrix as a
  column. Every buffer these operations do not write keeps its contents.
-/
import proofs.«143139_j73710228734964_1_alg».proof.Proof.Gen.KernelIdeal.Launch
import proofs.«143139_j73710228734964_1_alg».proof.Proof.Spec
import proofs.«143139_j73710228734964_1_alg».proof.Proof.Conv
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host11

open Cert.KernelIdeal Cert.KernelIdeal.Gen Cert.GCN Idealize.ShloMosaic Idealize.ShloMosaic.ValueIdx

/-- The first `N` columns of a channel-major array, transposed, are its node-major reading: index `(n, c)` reads `(c, n)`. -/
theorem unpad_layout (X : S8x524288.Idx → EReal) (hs : S8x524288.Slices ![0, 0] S8x500000)
    (ht : S8x500000.Transposes [1, 0] S500000x8) :
    transpose S500000x8 [1, 0] (extractStridedSlice S8x500000 ![0, 0] X hs) ht = ofNC (unpadT (toCP X)) := by
  funext j
  obtain ⟨n, c, rfl⟩ : ∃ (n : Fin 500000) (c : Fin 8), j = ix2 n c := ⟨j 0, j 1, eq_ix2 j⟩
  rw [transpose_ix2_apply]
  refine (extractStridedSlice_apply _ X hs _ (ix2 c ⟨n.val, Nat.lt_trans n.isLt (by decide)⟩) fun a => ?_).trans ?_
  · match a with
    | ⟨0, _⟩ => simp
    | ⟨1, _⟩ => simp
  · rfl

/-- A node-major array transposed and zero-padded to `NP` columns is its channel-major padded layout: index `(c, n)`
    reads `(n, c)` below the last node and the pad value past it. -/
theorem pad_layout (Y : S500000x8.Idx → EReal) (z : S_.Idx → EReal) (hz : ∀ i, z i = 0)
    (ht : S500000x8.Transposes [1, 0] S8x500000)
    (hp : S8x500000.Pads (![0, 0] : Fin 2 → Nat) ![0, 24288] ![0, 0] S8x524288) (hu : 0 < S_.numel) :
    pad S8x524288 ![0, 0] ![0, 24288] ![0, 0] (transpose S8x500000 [1, 0] Y ht) z hp hu = ofCP (padT (toNC Y)) := by
  funext j
  obtain ⟨c, n, rfl⟩ : ∃ (c : Fin 8) (n : Fin 524288), j = ix2 c n := ⟨j 0, j 1, eq_ix2 j⟩
  show _ = (if hn : n.val < NN then Y (ix2 ⟨n.val, hn⟩ c) else 0)
  unfold pad
  by_cases hn : n.val < NN
  · have hcond : ∀ a : Fin S8x500000.rank, (![0, 0] : Fin 2 → Nat) a ≤ ((ix2 c n : S8x524288.Idx) (a.cast hp.1)).val
        ∧ (((ix2 c n : S8x524288.Idx) (a.cast hp.1)).val - (![0, 0] : Fin 2 → Nat) a) % ((![0, 0] : Fin 2 → Nat) a + 1) = 0
        ∧ (((ix2 c n : S8x524288.Idx) (a.cast hp.1)).val - (![0, 0] : Fin 2 → Nat) a) / ((![0, 0] : Fin 2 → Nat) a + 1) < S8x500000.size a := by
      intro a
      match a with
      | ⟨0, _⟩ =>
        show (0 : ℕ) ≤ c.val ∧ (c.val - 0) % (0 + 1) = 0 ∧ (c.val - 0) / (0 + 1) < 8
        have := c.isLt; omega
      | ⟨1, _⟩ =>
        show (0 : ℕ) ≤ n.val ∧ (n.val - 0) % (0 + 1) = 0 ∧ (n.val - 0) / (0 + 1) < 500000
        have : n.val < 500000 := hn
        omega
    rw [dif_pos hn, dif_pos hcond]
    refine transpose_apply _ Y ht _ (ix2 ⟨n.val, hn⟩ c) fun b => ?_
    match b with
    | ⟨0, _⟩ => show c.val = (c.val - 0) / (0 + 1); omega
    | ⟨1, _⟩ => show n.val = (n.val - 0) / (0 + 1); omega
  · rw [dif_neg hn, dif_neg ?_, hz]
    intro h
    have h1 := (h ⟨1, by decide⟩).2.2
    have h1' : (n.val - 0) / (0 + 1) < 500000 := h1
    exact hn (show n.val < 500000 by omega)

/-- The edge aggregation on a node-major array `hw`: gather the rows at the edge sources (a negative source index
    counted from the end), scale each by its edge's norm, and add them up at the edge targets, from zero. -/
def AGG (src dst : IVec S8500000 32) (norm : FVec Ideal S8500000 .f32) (hw : FVec Ideal S500000x8 .f32) :
    FVec Ideal S500000x8 .f32 :=
  Host.scatterAdd scatter_S500000x8_S8500000x1_S8500000x8_1_0_0_1
    (broadcastInDim S500000x8 ![] bcast_S_S500000x8 (constant (F := Ideal) S_ .f32 0x00000000#32))
    (broadcastInDim S8500000x1 ![0] bcast_S8500000_S8500000x1_0 dst)
    (mulf
      (Host.gather gather_S500000x8_S8500000x1_S8500000x8_1_0_n_n_0_1_18 hw
        (broadcastInDim S8500000x1 ![0] bcast_S8500000_S8500000x1_0
          (select (cmpi .slt src (broadcastInDim S8500000 ![] bcast_S_S8500000 (constantI S_ 32 0#32)))
            (addi src (broadcastInDim S8500000 ![] bcast_S_S8500000 (constantI S_ 32 500000#32)))
            src)))
      (broadcastInDim S8500000x8 ![0, 1] bcast_S8500000x1_S8500000x8_0_1
        (broadcastInDim S8500000x1 ![0] bcast_S8500000_S8500000x1_0 norm)))

/-- The scalar the padding calls pad with, the integer zero read as a float, is zero. -/
theorem pad_zero (i : S_.Idx) : sitofp (F := Ideal) .f32 (constantI S_ 32 0#32) i = 0 := by
  show (((BitVec.toInt (0#32 : BitVec 32) : ℤ) : ℝ) : EReal) = 0
  rw [show BitVec.toInt (0#32 : BitVec 32) = 0 from by decide]
  simp

set_option maxRecDepth 16384 in
/-- The padding call after the aggregation stretch: the padded buffer is the pad of the transposed buffer by the
    converted constant, whatever the valuation before the call. -/
theorem pad_call1 (V : Valuation τ sig (Elt Ideal)) :
    @Eq (S8x524288.Idx → EReal) (StableHlo.after (hostOps11_1 (F := Ideal)) V (Proc.devRef .tc main_v183))
      (pad S8x524288 ![0, 0] ![0, 24288] ![0, 0] (V (Proc.devRef .tc main_v182))
        (sitofp (F := Ideal) .f32 (V (Proc.devRef .tc main_c_30))) pads_S8x500000_S8x524288_000_0242880 h_S_) := by
  dsimp only [hostOps11_1]
  after_results
  rfl

set_option maxRecDepth 16384 in
set_option maxHeartbeats 1000000 in
/-- What the padded buffer holds after the aggregation stretch and its padding call, as the operations spell it. -/
theorem v69_eq (W : Valuation τ sig (Elt Ideal)) :
    @Eq (S8x524288.Idx → EReal)
      (StableHlo.after (hostOps11_1 (F := Ideal)) (StableHlo.after (hostOps11 (F := Ideal)) W) (Proc.devRef .tc main_v183))
      (pad S8x524288 ![0, 0] ![0, 24288] ![0, 0]
        (transpose S8x500000 [1, 0]
          (Host.scatterAdd scatter_S500000x8_S8500000x1_S8500000x8_1_0_0_1
            (broadcastInDim S500000x8 ![] bcast_S_S500000x8 (constant (F := Ideal) S_ .f32 0x00000000#32))
            (broadcastInDim S8500000x1 ![0] bcast_S8500000_S8500000x1_0 (W (Proc.devRef .tc main_v6)))
            (mulf
              (Host.gather gather_S500000x8_S8500000x1_S8500000x8_1_0_n_n_0_1_18
                (transpose S500000x8 [1, 0]
                  (extractStridedSlice S8x500000 ![0, 0] (W (Proc.devRef .tc main_v166)) slices_S8x524288_S8x500000_0_0)
                  transposes_S8x500000_S500000x8_1_0)
                (broadcastInDim S8500000x1 ![0] bcast_S8500000_S8500000x1_0
                  (select
                    (cmpi .slt (W (Proc.devRef .tc main_v3)) (broadcastInDim S8500000 ![] bcast_S_S8500000 (constantI S_ 32 0#32)))
                    (addi (W (Proc.devRef .tc main_v3)) (broadcastInDim S8500000 ![] bcast_S_S8500000 (constantI S_ 32 500000#32)))
                    (W (Proc.devRef .tc main_v3)))))
              (broadcastInDim S8500000x8 ![0, 1] bcast_S8500000x1_S8500000x8_0_1
                (broadcastInDim S8500000x1 ![0] bcast_S8500000_S8500000x1_0 (W (Proc.devRef .tc main_v26))))))
          transposes_S500000x8_S8x500000_1_0)
        (sitofp (F := Ideal) .f32 (constantI S_ 32 0#32)) pads_S8x500000_S8x524288_000_0242880 h_S_) := by
  rw [pad_call1]
  dsimp only [hostOps11]
  after_results

set_option maxRecDepth 16384 in
/-- After the aggregation stretch and its padding call, the padded buffer holds the channel-major padded layout of the
    aggregation of the node-major reading of the transform's output. -/
theorem agg2 (W : Valuation τ sig (Elt Ideal)) :
    toCP (StableHlo.after (hostOps11_1 (F := Ideal)) (StableHlo.after (hostOps11 (F := Ideal)) W) (Proc.devRef .tc main_v183))
      = padT (toNC (AGG (W (Proc.devRef .tc main_v3)) (W (Proc.devRef .tc main_v6)) (W (Proc.devRef .tc main_v26))
          (ofNC (unpadT (toCP (W (Proc.devRef .tc main_v166))))))) := by
  rw [v69_eq W]
  unfold AGG
  rw [unpad_layout, pad_layout _ _ pad_zero, toCP_ofCP]

set_option maxRecDepth 16384 in
/-- After the bias stretch, the bias column holds the layer's row of the bias matrix. -/
theorem bias2 (W : Valuation τ sig (Elt Ideal)) :
    toV81 (StableHlo.after (hostOps11_2 (F := Ideal)) W (Proc.devRef .tc main_v186))
      = fun c => toM8 (W (Proc.devRef .tc main_arg7)) (3 : Fin 8) c := by
  funext c
  unfold toV81 toM8
  dsimp only [hostOps11_2]
  after_results
  dsimp only
  -- a vector of 8 read as 8 rows of one entry, at row c, is its entry c
  refine (shapeCast_apply (s := S8) (t := S8x1) _ _ (ix2 c 0) (ix1 c) ?_).trans ?_
  · rw [Shape.rowMajor_val_two, Shape.rowMajor_val_one]
    show c.val = c.val * 1 + 0
    omega
  -- one row of 8 read as a vector, at c, is the row's entry c
  refine (shapeCast_1a_a_apply _ _ c).trans ?_
  -- the one-row slice at entry c is the matrix at the layer's row
  exact extractStridedSlice_apply _ _ _ _ (ix2 (3 : Fin 8) c) fun a => match a with
    | ⟨0, _⟩ => rfl
    | ⟨1, _⟩ => (Nat.zero_add _).symm

/-! ## What the stretches leave alone -/

/-- The references the aggregation stretch, its padding call, and the bias stretch write. -/
abbrev hostOps2_W : List (Ref sig .tc) :=
  [main_v167, main_v168, main_c_27, main_v169, main_v170, main_c_28, main_v171, main_v172, main_v173, main_v174, main_v175,
    main_v176, main_v177, main_v178, main_cst_29, main_v179, main_v180, main_v181, main_v182, main_c_30]
abbrev hostOps2_1_W : List (Ref sig .tc) := [main_call4_v0, main_v183]
abbrev hostOps2_2_W : List (Ref sig .tc) := [main_v184, main_v185, main_v186]

set_option maxRecDepth 16384 in
theorem hostOps2_writes : (hostOps11 (F := Ideal)).Forall fun op =>
    op.writes ⊆ (hostOps2_W.map (Proc.devRef (τ := τ) .tc)).toFinset := by
  simp only [hostOps11, List.Forall, StableHlo.nullary_writes, StableHlo.unary_writes, StableHlo.binary_writes,
    StableHlo.ternary_writes, Finset.singleton_subset_iff, List.mem_toFinset]
  refine ⟨?_, ?_, ?_, ?_, ?_, ?_, ?_, ?_, ?_, ?_, ?_, ?_, ?_, ?_, ?_, ?_, ?_, ?_, ?_, ?_⟩
  all_goals exact List.mem_map.mpr ⟨_, by decide, rfl⟩

set_option maxRecDepth 16384 in
theorem hostOps2_1_writes : (hostOps11_1 (F := Ideal)).Forall fun op =>
    op.writes ⊆ (hostOps2_1_W.map (Proc.devRef (τ := τ) .tc)).toFinset := by
  simp only [hostOps11_1, List.Forall, StableHlo.unary_writes, StableHlo.binary_writes,
    Finset.singleton_subset_iff, List.mem_toFinset]
  refine ⟨?_, ?_⟩
  all_goals exact List.mem_map.mpr ⟨_, by decide, rfl⟩

set_option maxRecDepth 16384 in
theorem hostOps2_2_writes : (hostOps11_2 (F := Ideal)).Forall fun op =>
    op.writes ⊆ (hostOps2_2_W.map (Proc.devRef (τ := τ) .tc)).toFinset := by
  simp only [hostOps11_2, List.Forall, StableHlo.unary_writes, StableHlo.reshape_writes,
    Finset.singleton_subset_iff, List.mem_toFinset]
  refine ⟨?_, ?_, ?_⟩
  all_goals exact List.mem_map.mpr ⟨_, by decide, rfl⟩

/-- A buffer none of the three stretches writes holds after them what it held before. -/
theorem kept2 (W : Valuation τ sig (Elt Ideal)) (r : Ref sig .tc)
    (h : r ∉ hostOps2_W) (h1 : r ∉ hostOps2_1_W) (h2 : r ∉ hostOps2_2_W) :
    StableHlo.after (hostOps11_2 (F := Ideal)) (StableHlo.after (hostOps11_1 (F := Ideal))
      (StableHlo.after (hostOps11 (F := Ideal)) W)) (Proc.devRef .tc r) = W (Proc.devRef .tc r) :=
  (StableHlo.after_of_writes_sub hostOps11_2 _ hostOps2_2_writes h2).trans <|
    (StableHlo.after_of_writes_sub hostOps11_1 _ hostOps2_1_writes h1).trans <|
      StableHlo.after_of_writes_sub hostOps11 _ hostOps2_writes h

/-- The same, stretch by stretch. -/
theorem kept_hostOps2 (W : Valuation τ sig (Elt Ideal)) (r : Ref sig .tc) (h : r ∉ hostOps2_W) :
    StableHlo.after (hostOps11 (F := Ideal)) W (Proc.devRef .tc r) = W (Proc.devRef .tc r) :=
  StableHlo.after_of_writes_sub hostOps11 _ hostOps2_writes h
theorem kept_hostOps2_1 (W : Valuation τ sig (Elt Ideal)) (r : Ref sig .tc) (h : r ∉ hostOps2_1_W) :
    StableHlo.after (hostOps11_1 (F := Ideal)) W (Proc.devRef .tc r) = W (Proc.devRef .tc r) :=
  StableHlo.after_of_writes_sub hostOps11_1 _ hostOps2_1_writes h
theorem kept_hostOps2_2 (W : Valuation τ sig (Elt Ideal)) (r : Ref sig .tc) (h : r ∉ hostOps2_2_W) :
    StableHlo.after (hostOps11_2 (F := Ideal)) W (Proc.devRef .tc r) = W (Proc.devRef .tc r) :=
  StableHlo.after_of_writes_sub hostOps11_2 _ hostOps2_2_writes h

end Cert.KernelIdeal.Host11

end
-- ==== Proof.KResid11.lean ====
/-
  The value of the residual region of the first layer: the output array `[8, 524288]` after the region's eight grid
  points, index by index, as a function of the three arrays the region reads (the layer's input `H`, the aggregated
  messages, the bias column): entry `(ch, n)` is `max (H ch n + agg ch n + bias ch) 0` times the mask of column `n`
  (one on the columns of real nodes, zero on the padding).
  The mask is built inside the body from the grid coordinate: tile `t`, lane `l` is column `65536 · t + l`, compared as
  a signed 32-bit word with 500000; no column number wraps, so the comparison is the one of the naturals.
  Then the road from blocks to the array: the payload at an index, each input block as columns of its array, what the
  body leaves at a point as a block of the one whole-array function, the tiling of the array by the eight blocks.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val11

open Cert.KernelIdeal Cert.KernelIdeal.Gen Cert.KernelIdeal.GenP Cert.GCN
open Idealize.ShloMosaic Idealize.ShloMosaic.TcCoe Idealize.ShloMosaic.ValueIdx Idealize.SL.Sem
open Idealize.ShloMosaic.Pipeline (Dat)

/-- The column number as a 32-bit word: no wrap-around, the largest is 65536·7 + 65535. -/
theorem colWord_eq (t : Fin 8) (l : Fin 65536) :
    IntOp.addi (Scalar.muli (BitVec.ofNat 32 t.val) 65536#32) (BitVec.ofNat 32 l.val) = BitVec.ofNat 32 (65536 * t.val + l.val) := by
  unfold IntOp.addi Scalar.muli IntOp.muli
  rw [show (65536#32 : BitVec 32) = BitVec.ofNat 32 65536 from rfl, BitVec.ofNat_mul_ofNat, BitVec.ofNat_add_ofNat, Nat.mul_comm]

/-- The signed comparison of a column number with the number of nodes is the comparison of the naturals: both are
    below 2^31, so both read signed as themselves. -/
theorem slt_colWord (n : Nat) (hn : n < 524288) :
    IntOp.cmpi .slt (BitVec.ofNat 32 n) 500000#32 = if n < 500000 then 1#1 else 0#1 := by
  unfold IntOp.cmpi
  dsimp only
  rw [BitVec.slt_eq_decide]
  have h1 : (BitVec.ofNat 32 n).toInt = (n : Int) := by
    rw [BitVec.toInt_eq_toNat_of_lt (by rw [BitVec.toNat_ofNat, Nat.mod_eq_of_lt (by omega)]; omega), BitVec.toNat_ofNat, Nat.mod_eq_of_lt (by omega)]
  have h2 : (500000#32 : BitVec 32).toInt = 500000 := by decide
  rw [h1, h2]
  by_cases h : n < 500000
  · rw [if_pos h, decide_eq_true (by omega)]; rfl
  · rw [if_neg h, decide_eq_false (by omega)]; rfl

/-- THE MASK AT A COLUMN: the comparison bit, widened and converted, is one on the columns of real nodes and zero on
    the padding. -/
theorem maskWord (t : Fin 8) (l : Fin 65536) :
    (FloatOps.sitofp (F := Ideal) .f32 ((IntOp.cmpi .slt (IntOp.addi (Scalar.muli (BitVec.ofNat 32 t.val) 65536#32) (BitVec.ofNat 32 l.val)) 500000#32).setWidth 32) : EReal)
      = if 65536 * t.val + l.val < 500000 then 1 else 0 := by
  rw [colWord_eq, slt_colWord _ (by have := t.isLt; have := l.isLt; omega)]
  by_cases h : 65536 * t.val + l.val < 500000
  · rw [if_pos h, if_pos h]
    show (((BitVec.setWidth 32 1#1).toInt : ℝ) : EReal) = 1
    rw [show (BitVec.setWidth 32 1#1).toInt = 1 from by decide]
    simp
  · rw [if_neg h, if_neg h]
    show (((BitVec.setWidth 32 0#1).toInt : ℝ) : EReal) = 0
    rw [show (BitVec.setWidth 32 0#1).toInt = 0 from by decide]
    simp

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mask row the body builds from the grid coordinate, read at lane `l` of tile `t`. -/
theorem maskRow_apply (i : grid11.Coords) (t : Fin 8) (ht : (i 0).val = t.val) (l : Fin 65536) :
    (sitofp (F := Ideal) .f32 (extui 32 (cmpi .slt (addi (broadcast S1x65536 (Scalar.muli (BitVec.ofNat 32 (i 0).val) 65536#32))
        (iota .tc S1x65536 32 [1] iota_S1x65536_d1_w32)) (broadcast S1x65536 500000#32)) natLt_1_32) : FVec Ideal S1x65536 .f32) (ix2 (0 : Fin 1) l)
      = if 65536 * t.val + l.val < 500000 then 1 else 0 := by
  show FloatOps.sitofp (F := Ideal) .f32 ((IntOp.cmpi .slt (IntOp.addi (Scalar.muli (BitVec.ofNat 32 (i 0).val) 65536#32)
      (iota .tc S1x65536 32 [1] iota_S1x65536_d1_w32 (ix2 (0 : Fin 1) l))) 500000#32).setWidth 32) = _
  rw [iota_single_apply, ht]
  exact maskWord t l

/-- THE PAYLOAD AT AN INDEX: residual plus aggregate plus bias, clipped below at zero, times the mask of the column. -/
theorem pay_apply (i : grid11.Coords) (t : Fin 8) (ht : (i 0).val = t.val) (v0 : Vec Ideal S8x1 .f32) (v10 v12 : Vec Ideal S8x65536 .f32)
    (p : Fin 8) (l : Fin 65536) :
    k11_pay1 (F := Ideal) i v0 v10 v12 (ix2 p l)
      = max (v10 (ix2 p l) + v12 (ix2 p l) + v0 (ix2 p (0 : Fin 1))) 0 * (if 65536 * t.val + l.val < 500000 then 1 else 0) := by
  unfold k11_pay1
  dsimp only
  rw [mulf_apply, maximumf_apply, addf_apply, addf_apply, broadcast_apply, shapeCast_self, shapeCast_self, shapeCast_self,
    broadcastTo_1b_ab_apply, broadcastTo_a1_ab_apply, maskRow_apply i t ht l]
  show max _ (Ideal.ofBits .f32 0x00000000#32) * _ = _
  rw [Ideal.ofBits_zero_f32]

variable (V : (c : Dev nD) → (b : Ref sig .tc) → Buf (Elt Ideal) ((c : Thread nD τ).loc b))

/-- The three arrays the region reads, as it finds them: the layer's input `H`, the aggregated messages, the bias column. -/
abbrev harr (c : Dev nD) : Vec Ideal S8x524288 .f32 := V c (Pipeline.arrRef spec11 0)
abbrev garr (c : Dev nD) : Vec Ideal S8x524288 .f32 := V c (Pipeline.arrRef spec11 1)
abbrev barr (c : Dev nD) : Vec Ideal S8x1 .f32 := V c (Pipeline.arrRef spec11 2)

/-- Their blocks at a grid point. -/
abbrev hblk (c : Dev nD) (t : Fin cfg11.N) : Vec Ideal S8x65536 .f32 := iblk11 V c 0 t
abbrev gblk (c : Dev nD) (t : Fin cfg11.N) : Vec Ideal S8x65536 .f32 := iblk11 V c 1 t
abbrev bblk (c : Dev nD) (t : Fin cfg11.N) : Vec Ideal S8x1 .f32 := iblk11 V c 2 t

/-- WHAT THE REGION COMPUTES, as one array: entry `(ch, n)` is `max (H + agg + bias) 0` there, times the mask of column `n`. -/
def resid (c : Dev nD) : Vec Ideal S8x524288 .f32 :=
  ofCP fun ch n => max (toCP (harr V c) ch n + toCP (garr V c) ch n + toV81 (barr V c) ch) 0 * maskK n

theorem hz : (![0, 0] : Fin 2 → Nat) = fun _ => 0 := funext fun a => by fin_cases a <;> rfl

/-- The grid has eight points. -/
theorem lt8 (t : Fin cfg11.N) : t.val < 8 := Nat.lt_of_lt_of_eq t.isLt (N_11 : cfg11.N = 8)

/-- The printed index maps, decided once over the grid: the grid coordinate is the point; the two tiled inputs and the
    output sit at column block `t`, the bias column at block zero. -/
theorem idx_facts : ∀ t : Fin cfg11.N, (grid11.coords t 0).val = t.val
    ∧ win11_0.index t (0 : Fin 2) = 0 ∧ win11_0.index t (1 : Fin 2) = t.val
    ∧ win11_1.index t (0 : Fin 2) = 0 ∧ win11_1.index t (1 : Fin 2) = t.val
    ∧ win11_2.index t (0 : Fin 2) = 0 ∧ win11_2.index t (1 : Fin 2) = 0
    ∧ win11_3.index t (0 : Fin 2) = 0 ∧ win11_3.index t (1 : Fin 2) = t.val :=
  (by decide +kernel : ∀ t : Fin grid11.N, _)

/-- Lane `l` of the input block at point `t` is column `65536 · t + l` of the input. -/
theorem hblk_apply (c : Dev nD) (t : Fin cfg11.N) (p : Fin 8) (l : Fin 65536) (n : Fin 524288) (hn : n.val = 65536 * t.val + l.val) :
    hblk V c t (ix2 p l) = harr V c (ix2 p n) := by
  obtain ⟨-, e0, e1, -⟩ := idx_facts t
  show V c (Pipeline.arrRef spec11 0) (((cfg11.win 0).blk t).view.emb (ix2 p l)) = V c (Pipeline.arrRef spec11 0) (ix2 p n)
  congr 1
  funext a
  apply Fin.ext
  match a with
  | ⟨0, _⟩ => show win11_0.index t (0 : Fin 2) * 8 + 1 * p.val = p.val; rw [e0]; omega
  | ⟨1, _⟩ => show win11_0.index t (1 : Fin 2) * 65536 + 1 * l.val = n.val; rw [e1, hn]; omega

/-- The same for the aggregated messages. -/
theorem gblk_apply (c : Dev nD) (t : Fin cfg11.N) (p : Fin 8) (l : Fin 65536) (n : Fin 524288) (hn : n.val = 65536 * t.val + l.val) :
    gblk V c t (ix2 p l) = garr V c (ix2 p n) := by
  obtain ⟨-, -, -, e0, e1, -⟩ := idx_facts t
  show V c (Pipeline.arrRef spec11 1) (((cfg11.win 1).blk t).view.emb (ix2 p l)) = V c (Pipeline.arrRef spec11 1) (ix2 p n)
  congr 1
  funext a
  apply Fin.ext
  match a with
  | ⟨0, _⟩ => show win11_1.index t (0 : Fin 2) * 8 + 1 * p.val = p.val; rw [e0]; omega
  | ⟨1, _⟩ => show win11_1.index t (1 : Fin 2) * 65536 + 1 * l.val = n.val; rw [e1, hn]; omega

/-- The bias block is the whole bias column at every point. -/
theorem bblk_apply (c : Dev nD) (t : Fin cfg11.N) (p : Fin 8) :
    bblk V c t (ix2 p (0 : Fin 1)) = barr V c (ix2 p (0 : Fin 1)) := by
  obtain ⟨-, -, -, -, -, e0, e1, -⟩ := idx_facts t
  show V c (Pipeline.arrRef spec11 2) (((cfg11.win 2).blk t).view.emb (ix2 p (0 : Fin 1))) = V c (Pipeline.arrRef spec11 2) (ix2 p (0 : Fin 1))
  congr 1
  funext a
  apply Fin.ext
  match a with
  | ⟨0, _⟩ => show win11_2.index t (0 : Fin 2) * 8 + 1 * p.val = p.val; rw [e0]; omega
  | ⟨1, _⟩ => show win11_2.index t (1 : Fin 2) * 1 + 1 * 0 = 0; rw [e1]

/-- Lane `l` of the output block at point `t` is column `65536 · t + l` of the output. -/
theorem oblk_read (c : Dev nD) (t : Fin cfg11.N) (X : Vec Ideal S8x524288 .f32) (p : Fin 8) (l : Fin 65536) (n : Fin 524288) (hn : n.val = 65536 * t.val + l.val) :
    (((cfg11.win 3).blk t).view.read (Elt Ideal) X : Vec Ideal S8x65536 .f32) (ix2 p l) = X (ix2 p n) := by
  obtain ⟨-, -, -, -, -, -, -, e0, e1⟩ := idx_facts t
  show X (((cfg11.win 3).blk t).view.emb (ix2 p l)) = X (ix2 p n)
  congr 1
  funext a
  apply Fin.ext
  match a with
  | ⟨0, _⟩ => show win11_3.index t (0 : Fin 2) * 8 + 1 * p.val = p.val; rw [e0]; omega
  | ⟨1, _⟩ => show win11_3.index t (1 : Fin 2) * 65536 + 1 * l.val = n.val; rw [e1, hn]; omega

/-- WHAT THE BODY LEAVES at point `t` is block `t` of `resid`. -/
theorem out_eq (c : Dev nD) (t : Fin cfg11.N) :
    out11_3 (grid11.coords t) (hblk V c t) (gblk V c t) (bblk V c t) = ((cfg11.win 3).blk t).view.read (Elt Ideal) (resid V c) := by
  unfold out11_3
  rw [View.canon_unit_zero hz]
  simp only [View.ld_unit_zero (S := S8x65536) hz, View.ld_unit_zero (S := S8x1) hz]
  funext j
  obtain ⟨p, l, rfl⟩ : ∃ (p : Fin 8) (l : Fin 65536), j = ix2 p l := ⟨j 0, j 1, eq_ix2 j⟩
  have ec : (grid11.coords t 0).val = (⟨t.val, lt8 t⟩ : Fin 8).val := (idx_facts t).1
  have hn : (col ⟨t.val, lt8 t⟩ l).val = 65536 * t.val + l.val := rfl
  rw [pay_apply (grid11.coords t) ⟨t.val, lt8 t⟩ ec, hblk_apply V c t p l _ hn, gblk_apply V c t p l _ hn, bblk_apply V c t p,
    oblk_read c t (resid V c) p l _ hn]
  rfl

/-- An index of the output array is in point `t`'s block iff each coordinate is in the block's range on its axis. -/
theorem mem_oblk (t : Fin cfg11.N) (i : S8x524288.Idx) :
    i ∈ ((cfg11.win 3).blk t).view.set ↔ ∀ a : Fin 2, win11_3.index t a * S8x65536.size a ≤ (i a).val ∧ (i a).val < win11_3.index t a * S8x65536.size a + S8x65536.size a := by
  show i ∈ ((View.whole (Pipeline.arrRef spec11 3)).slice (win11_3.rect t)).set ↔ _
  rw [View.set_slice_whole, Rect.mem_set_unit]
  exact Iff.rfl

/-- Every column lies in the block of the point `column / 65536`: the eight blocks tile the array. -/
theorem cover (i : S8x524288.Idx) : ∃ t : Fin cfg11.N, (cfg11.win 3).flush t = true ∧ i ∈ ((cfg11.win 3).blk t).view.set := by
  have h0 : (i 0).val < 8 := (i 0).isLt
  have h1 : (i 1).val < 524288 := (i 1).isLt
  have hN : cfg11.N = 8 := N_11
  have hq : (i 1).val / 65536 < cfg11.N := by rw [hN]; omega
  obtain ⟨-, -, -, -, -, -, -, e0, e1⟩ := idx_facts ⟨(i 1).val / 65536, hq⟩
  refine ⟨⟨(i 1).val / 65536, hq⟩, flush11_3 _, ?_⟩
  rw [mem_oblk]
  intro a
  match a with
  | ⟨0, _⟩ =>
    show win11_3.index ⟨(i 1).val / 65536, hq⟩ (0 : Fin 2) * 8 ≤ (i 0).val ∧ (i 0).val < win11_3.index ⟨(i 1).val / 65536, hq⟩ (0 : Fin 2) * 8 + 8
    rw [e0]; omega
  | ⟨1, _⟩ =>
    show win11_3.index ⟨(i 1).val / 65536, hq⟩ (1 : Fin 2) * 65536 ≤ (i 1).val ∧ (i 1).val < win11_3.index ⟨(i 1).val / 65536, hq⟩ (1 : Fin 2) * 65536 + 65536
    rw [e1]
    show (i 1).val / 65536 * 65536 ≤ (i 1).val ∧ (i 1).val < (i 1).val / 65536 * 65536 + 65536
    omega

/-- WHAT POINT `t` WRITES BACK is block `t` of `resid`. -/
theorem flushed_eq (c : Dev nD) (t : Fin cfg11.N) :
    (dat11 (F := Ideal) V c).flushed 3 t = ((cfg11.win 3).blk t).view.read (Elt Ideal) (resid V c) := by
  show (cfg11.win 3).cut (grid11.coords t) ((dat11 (F := Ideal) V c).after 3 t) = _
  rw [after11_3]
  exact out_eq V c t

/-- THE OUTPUT ARRAY after the eight points is `resid`: every block written back is its block, and the blocks tile it. -/
theorem final (c : Dev nD) : (dat11 (F := Ideal) V c).arrAt 3 cfg11.N = resid V c :=
  (dat11 (F := Ideal) V c).arrAt_eq_of_cover 3 (resid V c) (fun t _ => flushed_eq V c t) cover

/-- THE REGION'S VALUE, by coordinates: channel `ch`, column `n` of the output is the residual sum clipped at zero, masked
    to the columns of real nodes. -/
theorem resid2_val (c : Dev nD) :
    toCP ((dat11 (F := Ideal) V c).arrAt 3 cfg11.N)
      = fun ch n => max (toCP (V c (Pipeline.arrRef spec11 0)) ch n + toCP (V c (Pipeline.arrRef spec11 1)) ch n
          + toV81 (V c (Pipeline.arrRef spec11 2)) ch) 0 * maskK n :=
  (congrArg toCP (final V c)).trans (toCP_ofCP _)

end Cert.KernelIdeal.Val11

end
-- ==== Proof.KLayer3.lean ====
/-
  Layer 0 of the kernel program as one step on the channel-major activations.
  The program runs the layer as three pipelined regions with host stretches between them. Region 0 reads the
  activations H and leaves the row sums and the row sums of squares; the first host stretch divides them by the
  number of nodes into the batch mean and the batch variance (the mean of the squares minus the squared mean) and
  cuts the layer's row out of the scales, the shifts and the weights; region 1 normalises H, scales, shifts and
  applies the transposed weights; the next host stretches take the first N columns node-major through the edge
  aggregation and pad the result back, and cut the layer's row out of the biases; region 2 adds H, the padded
  aggregate and the bias, clamps below at zero and zeroes the padding.
  Each region and each stretch is read by its own module. Here the readings are chained: a buffer a region only
  reads leaves the region as it entered, a buffer a region or a stretch does not touch crosses it unchanged, and
  the five readings then compose to the layer's closed form `layerK` at the contents the layer was entered with.
  The edge lists, the edge norm and the program's arguments cross the whole layer unchanged.
-/
import proofs.«143139_j73710228734964_1_alg».proof.Proof.KernelIdealFrameP
import proofs.«143139_j73710228734964_1_alg».proof.Proof.Spec
import proofs.«143139_j73710228734964_1_alg».proof.Proof.Conv
import proofs.«143139_j73710228734964_1_alg».proof.Proof.KStats9
import proofs.«143139_j73710228734964_1_alg».proof.Proof.KHost10
import proofs.«143139_j73710228734964_1_alg».proof.Proof.KTransform10
import proofs.«143139_j73710228734964_1_alg».proof.Proof.KHost11
import proofs.«143139_j73710228734964_1_alg».proof.Proof.KResid11
import Idealize.ShloMosaic.Lib.StableHlo.Run
import Idealize.ShloMosaic.Lib.Pipeline.Cells
import Idealize.ShloMosaic.Lib.ValueIdx

set_option maxRecDepth 16384

noncomputable section

namespace Cert.KernelIdeal.Layer3

open Cert.KernelIdeal Cert.KernelIdeal.Gen Cert.KernelIdeal.GenP Cert.GCN
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)

/-- No operation of the host stretch writes the buffer: each operation writes one buffer, and it is another one. -/
local macro "not_written" : tactic => `(tactic|
  exact List.forall_iff_forall_mem.mp (by
    simp only [hostOps10, hostOps11, hostOps11_1, hostOps11_2, List.flatten_cons, List.flatten_nil, List.append_nil,
      List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

/-- A host stretch leaves a buffer that none of its operations writes as it was. -/
local macro "host_kept" : tactic => `(tactic|
  exact StableHlo.after_of_forall_not_mem (b := _) _ _ (by not_written))

/-! ## The activations H cross the layer: every region only reads them, no stretch writes them -/

/-- Region 0 reads H through an input window: it leaves as it entered. -/
theorem W24_main_v35 : W24 m ρ c (Proc.devRef .tc main_v149) = W23 m ρ c (Proc.devRef .tc main_v149) :=
  (W24_arr m ρ c 0).trans (((dat9 (V23 m ρ) c).arrAt_in 0 rfl _).trans (A_eq9 (V23 m ρ) c 0))

theorem W25_main_v35 : W25 m ρ c (Proc.devRef .tc main_v149) = W23 m ρ c (Proc.devRef .tc main_v149) :=
  calc W25 m ρ c (Proc.devRef .tc main_v149)
    _ = W24 m ρ c (Proc.devRef .tc main_v149) := by host_kept
    _ = W23 m ρ c (Proc.devRef .tc main_v149) := W24_main_v35 m ρ c

/-- Region 1 reads H through an input window too. -/
theorem W26_main_v35 : W26 m ρ c (Proc.devRef .tc main_v149) = W23 m ρ c (Proc.devRef .tc main_v149) :=
  calc W26 m ρ c (Proc.devRef .tc main_v149)
    _ = W25 m ρ c (Proc.devRef .tc main_v149) :=
        (W26_arr m ρ c 0).trans (((dat10 (V25 m ρ) c).arrAt_in 0 rfl _).trans (A_eq10 (V25 m ρ) c 0))
    _ = W23 m ρ c (Proc.devRef .tc main_v149) := W25_main_v35 m ρ c

theorem W29_main_v35 : W29 m ρ c (Proc.devRef .tc main_v149) = W23 m ρ c (Proc.devRef .tc main_v149) :=
  calc W29 m ρ c (Proc.devRef .tc main_v149)
    _ = W28 m ρ c (Proc.devRef .tc main_v149) := by host_kept
    _ = W27 m ρ c (Proc.devRef .tc main_v149) := by host_kept
    _ = W26 m ρ c (Proc.devRef .tc main_v149) := by host_kept
    _ = W23 m ρ c (Proc.devRef .tc main_v149) := W26_main_v35 m ρ c

/-! ## A buffer the layer touches nowhere crosses it unchanged -/

/-- Through region 0, the first stretch and region 1: the buffer is no window's array of either region and no
    operation of the stretch writes it. -/
theorem W26_kept {b : Ref sig .tc} (h0 : ∀ w, Pipeline.arrRef spec9 w ≠ b) (h1 : ∀ w, Pipeline.arrRef spec10 w ≠ b)
    (g1 : ∀ op ∈ (hostOps10 : List (HloOp τ sig (Elt Ideal))), Proc.devRef (τ := τ) .tc b ∉ op.writes) :
    W26 m ρ c (Proc.devRef .tc b) = W23 m ρ c (Proc.devRef .tc b) :=
  calc W26 m ρ c (Proc.devRef .tc b)
    _ = W25 m ρ c (Proc.devRef .tc b) := W26_of_ne m ρ c b h1
    _ = W24 m ρ c (Proc.devRef .tc b) := StableHlo.after_of_forall_not_mem (b := Proc.devRef .tc b) _ _ g1
    _ = W23 m ρ c (Proc.devRef .tc b) := W24_of_ne m ρ c b h0

/-- Through the three stretches before region 2: no operation of them writes the buffer. -/
theorem W29_kept {b : Ref sig .tc}
    (g2 : ∀ op ∈ (hostOps11 : List (HloOp τ sig (Elt Ideal))), Proc.devRef (τ := τ) .tc b ∉ op.writes)
    (g2_1 : ∀ op ∈ (hostOps11_1 : List (HloOp τ sig (Elt Ideal))), Proc.devRef (τ := τ) .tc b ∉ op.writes)
    (g2_2 : ∀ op ∈ (hostOps11_2 : List (HloOp τ sig (Elt Ideal))), Proc.devRef (τ := τ) .tc b ∉ op.writes) :
    W29 m ρ c (Proc.devRef .tc b) = W26 m ρ c (Proc.devRef .tc b) :=
  calc W29 m ρ c (Proc.devRef .tc b)
    _ = W28 m ρ c (Proc.devRef .tc b) := StableHlo.after_of_forall_not_mem (b := Proc.devRef .tc b) _ _ g2_2
    _ = W27 m ρ c (Proc.devRef .tc b) := StableHlo.after_of_forall_not_mem (b := Proc.devRef .tc b) _ _ g2_1
    _ = W26 m ρ c (Proc.devRef .tc b) := StableHlo.after_of_forall_not_mem (b := Proc.devRef .tc b) _ _ g2

/-- Through the whole layer. -/
theorem W30_kept {b : Ref sig .tc} (h0 : ∀ w, Pipeline.arrRef spec9 w ≠ b) (h1 : ∀ w, Pipeline.arrRef spec10 w ≠ b)
    (h2 : ∀ w, Pipeline.arrRef spec11 w ≠ b)
    (g1 : ∀ op ∈ (hostOps10 : List (HloOp τ sig (Elt Ideal))), Proc.devRef (τ := τ) .tc b ∉ op.writes)
    (g2 : ∀ op ∈ (hostOps11 : List (HloOp τ sig (Elt Ideal))), Proc.devRef (τ := τ) .tc b ∉ op.writes)
    (g2_1 : ∀ op ∈ (hostOps11_1 : List (HloOp τ sig (Elt Ideal))), Proc.devRef (τ := τ) .tc b ∉ op.writes)
    (g2_2 : ∀ op ∈ (hostOps11_2 : List (HloOp τ sig (Elt Ideal))), Proc.devRef (τ := τ) .tc b ∉ op.writes) :
    W30 m ρ c (Proc.devRef .tc b) = W23 m ρ c (Proc.devRef .tc b) :=
  calc W30 m ρ c (Proc.devRef .tc b)
    _ = W29 m ρ c (Proc.devRef .tc b) := W30_of_ne m ρ c b h2
    _ = W26 m ρ c (Proc.devRef .tc b) := W29_kept m ρ c g2 g2_1 g2_2
    _ = W23 m ρ c (Proc.devRef .tc b) := W26_kept m ρ c h0 h1 g1

theorem W26_main_v3 : W26 m ρ c (Proc.devRef .tc main_v3) = W23 m ρ c (Proc.devRef .tc main_v3) :=
  W26_kept m ρ c (b := main_v3) (by decide) (by decide) (by not_written)
theorem W26_main_v6 : W26 m ρ c (Proc.devRef .tc main_v6) = W23 m ρ c (Proc.devRef .tc main_v6) :=
  W26_kept m ρ c (b := main_v6) (by decide) (by decide) (by not_written)
theorem W26_main_v26 : W26 m ρ c (Proc.devRef .tc main_v26) = W23 m ρ c (Proc.devRef .tc main_v26) :=
  W26_kept m ρ c (b := main_v26) (by decide) (by decide) (by not_written)
theorem W26_main_arg7 : W26 m ρ c (Proc.devRef .tc main_arg7) = W23 m ρ c (Proc.devRef .tc main_arg7) :=
  W26_kept m ρ c (b := main_arg7) (by decide) (by decide) (by not_written)

theorem W30_main_v3 : W30 m ρ c (Proc.devRef .tc main_v3) = W23 m ρ c (Proc.devRef .tc main_v3) :=
  W30_kept m ρ c (b := main_v3) (by decide) (by decide) (by decide) (by not_written) (by not_written) (by not_written) (by not_written)
theorem W30_main_v6 : W30 m ρ c (Proc.devRef .tc main_v6) = W23 m ρ c (Proc.devRef .tc main_v6) :=
  W30_kept m ρ c (b := main_v6) (by decide) (by decide) (by decide) (by not_written) (by not_written) (by not_written) (by not_written)
theorem W30_main_v26 : W30 m ρ c (Proc.devRef .tc main_v26) = W23 m ρ c (Proc.devRef .tc main_v26) :=
  W30_kept m ρ c (b := main_v26) (by decide) (by decide) (by decide) (by not_written) (by not_written) (by not_written) (by not_written)
theorem W30_main_arg0 : W30 m ρ c (Proc.devRef .tc main_arg0) = W23 m ρ c (Proc.devRef .tc main_arg0) :=
  W30_kept m ρ c (b := main_arg0) (by decide) (by decide) (by decide) (by not_written) (by not_written) (by not_written) (by not_written)
theorem W30_main_arg1 : W30 m ρ c (Proc.devRef .tc main_arg1) = W23 m ρ c (Proc.devRef .tc main_arg1) :=
  W30_kept m ρ c (b := main_arg1) (by decide) (by decide) (by decide) (by not_written) (by not_written) (by not_written) (by not_written)
theorem W30_main_arg2 : W30 m ρ c (Proc.devRef .tc main_arg2) = W23 m ρ c (Proc.devRef .tc main_arg2) :=
  W30_kept m ρ c (b := main_arg2) (by decide) (by decide) (by decide) (by not_written) (by not_written) (by not_written) (by not_written)
theorem W30_main_arg3 : W30 m ρ c (Proc.devRef .tc main_arg3) = W23 m ρ c (Proc.devRef .tc main_arg3) :=
  W30_kept m ρ c (b := main_arg3) (by decide) (by decide) (by decide) (by not_written) (by not_written) (by not_written) (by not_written)
theorem W30_main_arg4 : W30 m ρ c (Proc.devRef .tc main_arg4) = W23 m ρ c (Proc.devRef .tc main_arg4) :=
  W30_kept m ρ c (b := main_arg4) (by decide) (by decide) (by decide) (by not_written) (by not_written) (by not_written) (by not_written)
theorem W30_main_arg5 : W30 m ρ c (Proc.devRef .tc main_arg5) = W23 m ρ c (Proc.devRef .tc main_arg5) :=
  W30_kept m ρ c (b := main_arg5) (by decide) (by decide) (by decide) (by not_written) (by not_written) (by not_written) (by not_written)
theorem W30_main_arg6 : W30 m ρ c (Proc.devRef .tc main_arg6) = W23 m ρ c (Proc.devRef .tc main_arg6) :=
  W30_kept m ρ c (b := main_arg6) (by decide) (by decide) (by decide) (by not_written) (by not_written) (by not_written) (by not_written)
theorem W30_main_arg7 : W30 m ρ c (Proc.devRef .tc main_arg7) = W23 m ρ c (Proc.devRef .tc main_arg7) :=
  W30_kept m ρ c (b := main_arg7) (by decide) (by decide) (by decide) (by not_written) (by not_written) (by not_written) (by not_written)
theorem W30_main_arg8 : W30 m ρ c (Proc.devRef .tc main_arg8) = W23 m ρ c (Proc.devRef .tc main_arg8) :=
  W30_kept m ρ c (b := main_arg8) (by decide) (by decide) (by decide) (by not_written) (by not_written) (by not_written) (by not_written)
theorem W30_main_arg9 : W30 m ρ c (Proc.devRef .tc main_arg9) = W23 m ρ c (Proc.devRef .tc main_arg9) :=
  W30_kept m ρ c (b := main_arg9) (by decide) (by decide) (by decide) (by not_written) (by not_written) (by not_written) (by not_written)
theorem W30_main_arg10 : W30 m ρ c (Proc.devRef .tc main_arg10) = W23 m ρ c (Proc.devRef .tc main_arg10) :=
  W30_kept m ρ c (b := main_arg10) (by decide) (by decide) (by decide) (by not_written) (by not_written) (by not_written) (by not_written)
theorem W30_main_arg11 : W30 m ρ c (Proc.devRef .tc main_arg11) = W23 m ρ c (Proc.devRef .tc main_arg11) :=
  W30_kept m ρ c (b := main_arg11) (by decide) (by decide) (by decide) (by not_written) (by not_written) (by not_written) (by not_written)

/-! ## Region 0: the row sums and the row sums of squares of H -/

theorem W24_main_v36_0 :
    toV81 (W24 m ρ c (Proc.devRef .tc main_v150_0)) = sumK (toCP (W23 m ρ c (Proc.devRef .tc main_v149))) :=
  (congrArg toV81 (W24_arr m ρ c 1)).trans (Val9.stats0_sum (V23 m ρ) c)

theorem W24_main_v36_1 :
    toV81 (W24 m ρ c (Proc.devRef .tc main_v150_1)) = ssqK (toCP (W23 m ρ c (Proc.devRef .tc main_v149))) :=
  (congrArg toV81 (W24_arr m ρ c 2)).trans (Val9.stats0_ssq (V23 m ρ) c)

/-! ## The first stretch: the batch mean and variance of H, and the layer's scale, shift and weights -/

theorem W25_main_v38 :
    toV81 (W25 m ρ c (Proc.devRef .tc main_v152)) = meanK (toCP (W23 m ρ c (Proc.devRef .tc main_v149))) := by
  refine (Host10.mean1 (W24 m ρ c)).trans ?_
  rw [W24_main_v36_0 m ρ c]
  rfl

theorem W25_main_v42 :
    toV81 (W25 m ρ c (Proc.devRef .tc main_v156)) = varK (toCP (W23 m ρ c (Proc.devRef .tc main_v149))) := by
  refine (Host10.var1 (W24 m ρ c)).trans ?_
  rw [W24_main_v36_0 m ρ c, W24_main_v36_1 m ρ c]
  rfl

theorem W25_main_v45 :
    toV81 (W25 m ρ c (Proc.devRef .tc main_v159)) = fun ch => toM8 (W23 m ρ c (Proc.devRef .tc main_arg4)) (3 : Fin 8) ch := by
  refine (Host10.gamma1 (W24 m ρ c)).trans ?_
  rw [W24_of_ne m ρ c main_arg4 (by decide)]

theorem W25_main_v48 :
    toV81 (W25 m ρ c (Proc.devRef .tc main_v162)) = fun ch => toM8 (W23 m ρ c (Proc.devRef .tc main_arg5)) (3 : Fin 8) ch := by
  refine (Host10.beta1 (W24 m ρ c)).trans ?_
  rw [W24_of_ne m ρ c main_arg5 (by decide)]

theorem W25_main_v51 :
    toM8 (W25 m ρ c (Proc.devRef .tc main_v165))
      = fun a b => (W23 m ρ c (Proc.devRef .tc main_arg6) : S8x8x8.Idx → EReal) (ix3 (3 : Fin 8) b a) := by
  refine (Host10.wT1 (W24 m ρ c)).trans ?_
  rw [W24_of_ne m ρ c main_arg6 (by decide)]

/-! ## Region 1: the normalised, scaled, shifted and transformed activations -/

theorem W26_main_v52 :
    toCP (W26 m ρ c (Proc.devRef .tc main_v166))
      = hwK (toCP (W23 m ρ c (Proc.devRef .tc main_v149)))
          (fun ch => toM8 (W23 m ρ c (Proc.devRef .tc main_arg4)) (3 : Fin 8) ch)
          (fun ch => toM8 (W23 m ρ c (Proc.devRef .tc main_arg5)) (3 : Fin 8) ch)
          (fun a b => (W23 m ρ c (Proc.devRef .tc main_arg6) : S8x8x8.Idx → EReal) (ix3 (3 : Fin 8) b a)) := by
  refine (congrArg toCP (W26_arr m ρ c 6)).trans ((Val10.transform1_val (V25 m ρ) c).trans ?_)
  show (fun co n => ∑ ci : Fin 8, toM8 (W25 m ρ c (Proc.devRef .tc main_v165)) co ci
          * ((toCP (W25 m ρ c (Proc.devRef .tc main_v149)) ci n - toV81 (W25 m ρ c (Proc.devRef .tc main_v152)) ci)
              * Ideal.rsqrt (toV81 (W25 m ρ c (Proc.devRef .tc main_v156)) ci + eps)
              * toV81 (W25 m ρ c (Proc.devRef .tc main_v159)) ci
              + toV81 (W25 m ρ c (Proc.devRef .tc main_v162)) ci)) = _
  rw [W25_main_v35 m ρ c, W25_main_v38 m ρ c, W25_main_v42 m ρ c, W25_main_v45 m ρ c, W25_main_v48 m ρ c, W25_main_v51 m ρ c]
  rfl

/-! ## The stretches before region 2: the padded aggregate and the layer's bias -/

theorem W29_main_v69 :
    toCP (W29 m ρ c (Proc.devRef .tc main_v183))
      = padT (toNC (Host11.AGG (W23 m ρ c (Proc.devRef .tc main_v3)) (W23 m ρ c (Proc.devRef .tc main_v6))
          (W23 m ρ c (Proc.devRef .tc main_v26))
          (ofNC (unpadT (hwK (toCP (W23 m ρ c (Proc.devRef .tc main_v149)))
            (fun ch => toM8 (W23 m ρ c (Proc.devRef .tc main_arg4)) (3 : Fin 8) ch)
            (fun ch => toM8 (W23 m ρ c (Proc.devRef .tc main_arg5)) (3 : Fin 8) ch)
            (fun a b => (W23 m ρ c (Proc.devRef .tc main_arg6) : S8x8x8.Idx → EReal) (ix3 (3 : Fin 8) b a))))))) := by
  have h87 : W29 m ρ c (Proc.devRef .tc main_v183) = W28 m ρ c (Proc.devRef .tc main_v183) := by host_kept
  refine (congrArg toCP h87).trans ((Host11.agg2 (W26 m ρ c)).trans ?_)
  rw [W26_main_v3 m ρ c, W26_main_v6 m ρ c, W26_main_v26 m ρ c, W26_main_v52 m ρ c]

theorem W29_main_v72 :
    toV81 (W29 m ρ c (Proc.devRef .tc main_v186)) = fun ch => toM8 (W23 m ρ c (Proc.devRef .tc main_arg7)) (3 : Fin 8) ch := by
  have h75 : W28 m ρ c (Proc.devRef .tc main_arg7) = W26 m ρ c (Proc.devRef .tc main_arg7) :=
    (show W28 m ρ c (Proc.devRef .tc main_arg7) = W27 m ρ c (Proc.devRef .tc main_arg7) by host_kept).trans
      (show W27 m ρ c (Proc.devRef .tc main_arg7) = W26 m ρ c (Proc.devRef .tc main_arg7) by host_kept)
  refine (Host11.bias2 (W28 m ρ c)).trans ?_
  rw [h75, W26_main_arg7 m ρ c]

/-! ## Region 2: the residual, the aggregate and the bias, clamped and masked: the layer -/

/-- The kernel program's layer 0 is the layer's closed form at the contents it was entered with. -/
theorem layer0_step :
    toCP (W30 m ρ c (Proc.devRef .tc main_v187))
      = layerK
          (fun hw => toNC (Host11.AGG (W23 m ρ c (Proc.devRef .tc main_v3)) (W23 m ρ c (Proc.devRef .tc main_v6))
            (W23 m ρ c (Proc.devRef .tc main_v26)) (ofNC hw)))
          (toCP (W23 m ρ c (Proc.devRef .tc main_v149)))
          (fun ch => toM8 (W23 m ρ c (Proc.devRef .tc main_arg4)) (3 : Fin 8) ch)
          (fun ch => toM8 (W23 m ρ c (Proc.devRef .tc main_arg5)) (3 : Fin 8) ch)
          (fun a b => (W23 m ρ c (Proc.devRef .tc main_arg6) : S8x8x8.Idx → EReal) (ix3 (3 : Fin 8) b a))
          (fun ch => toM8 (W23 m ρ c (Proc.devRef .tc main_arg7)) (3 : Fin 8) ch) := by
  refine (congrArg toCP (W30_arr m ρ c 3)).trans ((Val11.resid2_val (V29 m ρ) c).trans ?_)
  show (fun ch n => max (toCP (W29 m ρ c (Proc.devRef .tc main_v149)) ch n + toCP (W29 m ρ c (Proc.devRef .tc main_v183)) ch n
          + toV81 (W29 m ρ c (Proc.devRef .tc main_v186)) ch) 0 * maskK n) = _
  rw [W29_main_v35 m ρ c, W29_main_v69 m ρ c, W29_main_v72 m ρ c]
  rfl

/-- The edge sources, the edge targets, the edge norm and the program's arguments hold after the layer what they
    held before it. -/
theorem layer0_kept :
    W30 m ρ c (Proc.devRef .tc main_v3) = W23 m ρ c (Proc.devRef .tc main_v3)
    ∧ W30 m ρ c (Proc.devRef .tc main_v6) = W23 m ρ c (Proc.devRef .tc main_v6)
    ∧ W30 m ρ c (Proc.devRef .tc main_v26) = W23 m ρ c (Proc.devRef .tc main_v26)
    ∧ W30 m ρ c (Proc.devRef .tc main_arg0) = W23 m ρ c (Proc.devRef .tc main_arg0)
    ∧ W30 m ρ c (Proc.devRef .tc main_arg1) = W23 m ρ c (Proc.devRef .tc main_arg1)
    ∧ W30 m ρ c (Proc.devRef .tc main_arg2) = W23 m ρ c (Proc.devRef .tc main_arg2)
    ∧ W30 m ρ c (Proc.devRef .tc main_arg3) = W23 m ρ c (Proc.devRef .tc main_arg3)
    ∧ W30 m ρ c (Proc.devRef .tc main_arg4) = W23 m ρ c (Proc.devRef .tc main_arg4)
    ∧ W30 m ρ c (Proc.devRef .tc main_arg5) = W23 m ρ c (Proc.devRef .tc main_arg5)
    ∧ W30 m ρ c (Proc.devRef .tc main_arg6) = W23 m ρ c (Proc.devRef .tc main_arg6)
    ∧ W30 m ρ c (Proc.devRef .tc main_arg7) = W23 m ρ c (Proc.devRef .tc main_arg7)
    ∧ W30 m ρ c (Proc.devRef .tc main_arg8) = W23 m ρ c (Proc.devRef .tc main_arg8)
    ∧ W30 m ρ c (Proc.devRef .tc main_arg9) = W23 m ρ c (Proc.devRef .tc main_arg9)
    ∧ W30 m ρ c (Proc.devRef .tc main_arg10) = W23 m ρ c (Proc.devRef .tc main_arg10)
    ∧ W30 m ρ c (Proc.devRef .tc main_arg11) = W23 m ρ c (Proc.devRef .tc main_arg11) :=
  ⟨W30_main_v3 m ρ c, W30_main_v6 m ρ c, W30_main_v26 m ρ c, W30_main_arg0 m ρ c, W30_main_arg1 m ρ c, W30_main_arg2 m ρ c,
    W30_main_arg3 m ρ c, W30_main_arg4 m ρ c, W30_main_arg5 m ρ c, W30_main_arg6 m ρ c, W30_main_arg7 m ρ c,
    W30_main_arg8 m ρ c, W30_main_arg9 m ρ c, W30_main_arg10 m ρ c, W30_main_arg11 m ρ c⟩

end Cert.KernelIdeal.Layer3

end
-- ==== Proof.KStats12.lean ====
/-
  The value of region 0, the stats kernel of the first layer: over the eight grid points the two `[8, 1]` outputs
  accumulate, per row of the `[8, 524288]` input, the sum and the sum of squares of its eight tiles of 65536
  lanes; the arrays they are written back to end holding the row sums and the row sums of squares.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val12

open Cert.KernelIdeal Cert.KernelIdeal.Gen Cert.KernelIdeal.GenP Cert.GCN
open Idealize.ShloMosaic Idealize.ShloMosaic.TcCoe Idealize.ShloMosaic.ValueIdx Idealize.ShloMosaic.Tactic
open Idealize.SL.Sem
open Idealize.ShloMosaic.Pipeline (Dat)
open scoped BigOperators

/-! ## The body's arithmetic at an index -/

/-- An `[a]` vector cast to an `[a, 1]` column reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row `r` of the reduced `[8]` vector with lane `k` put back is `(r, k)`. -/
theorem lane_lift (h : S8x65536.Reduces [1] S8) (r : Fin 8) (k : Fin (S8x65536.size 1)) :
    h.lift (ix1 r) k = ix2 r (⟨k.val, k.isLt⟩ : Fin 65536) := by
  funext c; apply Fin.ext
  fin_cases c <;> rfl

/-- The lane sum of an `[8, 65536]` block, at row `r`. -/
theorem laneSum_apply (x : FVec Ideal S8x65536 .f32) (h : S8x65536.Reduces [1] S8) (hφ : FKind.Formats .f32)
    (hacc : (0x00000000#32 : BitVec 32) = FKind.add.neutral .f32 hφ) (r : Fin 8) :
    multiReduction .add [1] S8 x 0x00000000#32 h hφ hacc (ix1 r) = ∑ l : Fin 65536, x (ix2 r l) :=
  (Ideal.multiReduction_add_single x 0x00000000#32 h hφ hacc (ix1 r)).trans
    (Finset.sum_congr rfl fun k _ => congrArg x (lane_lift h r k))

/-- The running row sum: what the buffer held plus the block's lane sum. -/
theorem pay4_apply (x : Vec Ideal S8x65536 .f32) (xo : Vec Ideal S8x1 .f32) (r : Fin 8) :
    k12_pay4 (F := Ideal) x xo (ix2 r 0) = xo (ix2 r 0) + ∑ l : Fin 65536, x (ix2 r l) := by
  unfold k12_pay4 k12_pay3
  dsimp only
  rw [addf_apply, shapeCast_self, shapeCast_self, shapeCast_a_a1_apply]
  exact congrArg (xo (ix2 r 0) + ·) (laneSum_apply x _ _ _ r)

/-- The running row sum of squares. -/
theorem pay5_apply (x : Vec Ideal S8x65536 .f32) (xo : Vec Ideal S8x1 .f32) (r : Fin 8) :
    k12_pay5 (F := Ideal) x xo (ix2 r 0) = xo (ix2 r 0) + ∑ l : Fin 65536, x (ix2 r l) * x (ix2 r l) := by
  unfold k12_pay5 k12_pay3
  dsimp only
  rw [addf_apply, shapeCast_self, shapeCast_self, shapeCast_a_a1_apply]
  exact congrArg (xo (ix2 r 0) + ·) (laneSum_apply (mulf x x) _ _ _ r)

/-- The reset value is zero. -/
theorem pay1_apply (j : S8x1.Idx) : k12_pay1 (F := Ideal) j = 0 := Ideal.ofBits_zero_f32
theorem pay2_apply (j : S8x1.Idx) : k12_pay2 (F := Ideal) j = 0 := Ideal.ofBits_zero_f32

/-! ## The input block at a point -/

variable {F : FTy → Type} [FloatOps F]
variable (V : (c : Dev nD) → (b : Ref sig .tc) → Buf (Elt F) ((c : Thread nD τ).loc b))

/-- The input array as the region finds it, and its block at a point, over their literal shapes. -/
abbrev harr (c : Dev nD) : Vec F S8x524288 .f32 := V c (Pipeline.arrRef spec12 0)
abbrev hblk (c : Dev nD) (t : Fin cfg12.N) : Vec F S8x65536 .f32 := iblk12 V c 0 t

/-- The input window's block index at point `t`: row block 0, column block `t`. -/
theorem idx_in : ∀ t : Fin cfg12.N, win12_0.index t 0 = 0 ∧ win12_0.index t 1 = t.val :=
  (by decide +kernel : ∀ t : Fin grid12.N, win12_0.index t 0 = 0 ∧ win12_0.index t 1 = t.val)

/-- The input window's block at point `t` is columns `65536 t … 65536 t + 65535` of the array. -/
theorem blk_read (c : Dev nD) (t : Fin cfg12.N) (t' : Fin 8) (ht : t'.val = t.val) (r : Fin 8) (l : Fin 65536) :
    hblk V c t (ix2 r l) = harr V c (ix2 r (col t' l)) := by
  have hi := idx_in t
  unfold hblk iblk12
  rw [View.read_apply]
  show V c (Pipeline.arrRef spec12 0) _ = V c (Pipeline.arrRef spec12 0) _
  congr 1
  funext a
  apply Fin.ext
  match a with
  | ⟨0, _⟩ => show win12_0.index t 0 * 8 + 1 * r.val = r.val; rw [hi.1]; omega
  | ⟨1, _⟩ => show win12_0.index t 1 * 65536 + 1 * l.val = 65536 * t'.val + l.val; rw [hi.2, ht]; omega

/-! ## What each case of the body leaves in the outputs -/

theorem hz : (![0, 0] : Fin 2 → Nat) = fun _ => 0 := funext fun a => by fin_cases a <;> rfl

/-- At a later point output 1 is left at what it held plus the block's lane sums. -/
theorem out_B_1 (c : Dev nD) (i : grid12.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : ¬cond12_0 i) (x : Vec F S8x65536 .f32) (xo1 xo2 : Vec F S8x1 .f32) :
    out12_B_1 c i a1 h1 a2 h2 a3 h3 hc x xo1 xo2 = k12_pay4 x xo1 := by
  unfold out12_B_1
  rw [View.read_writes_eq_canon _ _ _ (cover12_B_1 c i a1 h1 a2 h2 a3 h3 hc x xo1 xo2)]
  unfold kernelRun12_B
  dsimp only
  sl_unfold_words
  rw [View.canon_unit_zero hz]
  simp only [View.readAt_eq_ld, h1.read_unread, h2.read_unread, h3.read_unread, View.ld_unit_zero (S := S8x1) hz,
    View.ld_unit_zero (S := S8x65536) hz]

/-- At a later point output 2 is left at what it held plus the lane sums of the block's squares. -/
theorem out_B_2 (c : Dev nD) (i : grid12.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : ¬cond12_0 i) (x : Vec F S8x65536 .f32) (xo1 xo2 : Vec F S8x1 .f32) :
    out12_B_2 c i a1 h1 a2 h2 a3 h3 hc x xo1 xo2 = k12_pay5 x xo2 := by
  unfold out12_B_2
  rw [View.read_writes_eq_canon _ _ _ (cover12_B_2 c i a1 h1 a2 h2 a3 h3 hc x xo1 xo2)]
  unfold kernelRun12_B
  dsimp only
  sl_unfold_words
  rw [View.canon_unit_zero hz]
  simp only [View.readAt_eq_ld, h1.read_unread, h2.read_unread, h3.read_unread, View.ld_unit_zero (S := S8x1) hz,
    View.ld_unit_zero (S := S8x65536) hz]

/-- At the first point output 1 is reset to zero, read back, and left at zero plus the block's lane sums. -/
theorem out_A_1 (c : Dev nD) (i : grid12.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : cond12_0 i) (x : Vec F S8x65536 .f32) :
    out12_A_1 c i a1 h1 a2 h2 a3 h3 hc x = k12_pay4 x (k12_pay1 (F := F)) := by
  unfold out12_A_1
  rw [View.read_writes_eq_canon _ _ _ (cover12_A_1 c i a1 h1 a2 h2 a3 h3 hc x)]
  unfold kernelRun12_A
  dsimp only
  sl_unfold_words
  rw [View.canon_cons_unit_zero (S := S8x1) hz, View.readCov_unit_zero (S := S8x1) _ hz]
  simp only [View.readAt_eq_ld, h1.read_unread, View.ld_unit_zero (S := S8x65536) hz]

/-- At the first point output 2 is reset to zero, read back, and left at zero plus the lane sums of the block's squares. -/
theorem out_A_2 (c : Dev nD) (i : grid12.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : cond12_0 i) (x : Vec F S8x65536 .f32) :
    out12_A_2 c i a1 h1 a2 h2 a3 h3 hc x = k12_pay5 x (k12_pay2 (F := F)) := by
  unfold out12_A_2
  rw [View.read_writes_eq_canon _ _ _ (cover12_A_2 c i a1 h1 a2 h2 a3 h3 hc x)]
  unfold kernelRun12_A
  dsimp only
  sl_unfold_words
  rw [View.canon_cons_unit_zero (S := S8x1) hz, View.readCov_unit_zero (S := S8x1) _ hz]
  simp only [View.readAt_eq_ld, h1.read_unread, View.ld_unit_zero (S := S8x65536) hz]

/-! ## The outputs after each point -/

/-- At the first point: the reset value plus the block's contribution. -/
theorem outsAt_A (c : Dev nD) (t : Fin cfg12.N) (h0 : t.val % 8 = 0) :
    outsAt12 V c t.val t.isLt
      = (k12_pay4 (hblk V c t) (k12_pay1 (F := F)), k12_pay5 (hblk V c t) (k12_pay2 (F := F))) := by
  rw [outsAt12_A V c t h0,
    out_A_1 c (grid12.coords t) (ms12_0 t) (hs12_0 t) (ms12_1 t) (hs12_1 t) (ms12_2 t) (hs12_2 t) ((hcond12_0 t).mpr h0) (iblk12 V c 0 t),
    out_A_2 c (grid12.coords t) (ms12_0 t) (hs12_0 t) (ms12_1 t) (hs12_1 t) (ms12_2 t) (hs12_2 t) ((hcond12_0 t).mpr h0) (iblk12 V c 0 t)]

/-- At a later point: what the point before left plus the block's contribution. -/
theorem outsAt_B (c : Dev nD) (t : Fin cfg12.N) (h0 : ¬t.val % 8 = 0) :
    outsAt12 V c t.val t.isLt
      = (k12_pay4 (hblk V c t) (outsAt12 V c (t.val - 1) (Nat.lt_of_le_of_lt (Nat.sub_le _ _) t.isLt)).1,
         k12_pay5 (hblk V c t) (outsAt12 V c (t.val - 1) (Nat.lt_of_le_of_lt (Nat.sub_le _ _) t.isLt)).2) := by
  rw [outsAt12_B V c t h0,
    out_B_1 c (grid12.coords t) (ms12_0 t) (hs12_0 t) (ms12_1 t) (hs12_1 t) (ms12_2 t) (hs12_2 t) (fun h => h0 ((hcond12_0 t).mp h)) (iblk12 V c 0 t)
      (outsAt12 V c (t.val - 1) (Nat.lt_of_le_of_lt (Nat.sub_le _ _) t.isLt)).1 (outsAt12 V c (t.val - 1) (Nat.lt_of_le_of_lt (Nat.sub_le _ _) t.isLt)).2,
    out_B_2 c (grid12.coords t) (ms12_0 t) (hs12_0 t) (ms12_1 t) (hs12_1 t) (ms12_2 t) (hs12_2 t) (fun h => h0 ((hcond12_0 t).mp h)) (iblk12 V c 0 t)
      (outsAt12 V c (t.val - 1) (Nat.lt_of_le_of_lt (Nat.sub_le _ _) t.isLt)).1 (outsAt12 V c (t.val - 1) (Nat.lt_of_le_of_lt (Nat.sub_le _ _) t.isLt)).2]

/-! ## The partial sums, over the extended reals -/

/-- Tile `s`'s contribution to row `r`'s sum and sum of squares (zero past the last tile). -/
def tileSum (H : ArrCP) (r : Fin 8) (s : ℕ) : EReal := if h : s < 8 then ∑ l : Fin 65536, H r (col ⟨s, h⟩ l) else 0
def tileSsq (H : ArrCP) (r : Fin 8) (s : ℕ) : EReal :=
  if h : s < 8 then ∑ l : Fin 65536, H r (col ⟨s, h⟩ l) * H r (col ⟨s, h⟩ l) else 0

section AtIdeal

variable (W : (c : Dev nD) → (b : Ref sig .tc) → Buf (Elt Ideal) ((c : Thread nD τ).loc b))

/-- The block at point `t` contributes tile `t`. -/
theorem blockSum (c : Dev nD) (t : Fin cfg12.N) (r : Fin 8) :
    ∑ l : Fin 65536, hblk W c t (ix2 r l) = tileSum (toCP (harr W c)) r t.val := by
  have h8 : t.val < 8 := lt_of_lt_of_eq t.isLt (show cfg12.N = 8 from N_12)
  unfold tileSum
  rw [dif_pos h8]
  exact Finset.sum_congr rfl fun l _ => blk_read W c t ⟨t.val, h8⟩ rfl r l

theorem blockSsq (c : Dev nD) (t : Fin cfg12.N) (r : Fin 8) :
    ∑ l : Fin 65536, hblk W c t (ix2 r l) * hblk W c t (ix2 r l) = tileSsq (toCP (harr W c)) r t.val := by
  have h8 : t.val < 8 := lt_of_lt_of_eq t.isLt (show cfg12.N = 8 from N_12)
  unfold tileSsq
  rw [dif_pos h8]
  exact Finset.sum_congr rfl fun l _ => by rw [blk_read W c t ⟨t.val, h8⟩ rfl r l]; rfl

/-- After point `n` row `r` of output 1 holds the sum of tiles `0 … n`, and of output 2 the sum of their squares. -/
theorem outsAt_eq (c : Dev nD) : ∀ (n : ℕ) (h : n < cfg12.N) (r : Fin 8),
    ((outsAt12 W c n h).1 : Vec Ideal S8x1 .f32) (ix2 r 0) = ∑ s ∈ Finset.range (n + 1), tileSum (toCP (harr W c)) r s
      ∧ ((outsAt12 W c n h).2 : Vec Ideal S8x1 .f32) (ix2 r 0) = ∑ s ∈ Finset.range (n + 1), tileSsq (toCP (harr W c)) r s
  | 0, h, r => by
    rw [outsAt_A W c ⟨0, h⟩ rfl]
    dsimp only
    rw [pay4_apply (hblk W c ⟨0, h⟩) (k12_pay1 (F := Ideal)) r, pay5_apply (hblk W c ⟨0, h⟩) (k12_pay2 (F := Ideal)) r,
      pay1_apply, pay2_apply, Finset.sum_range_one, Finset.sum_range_one, zero_add, zero_add]
    exact ⟨blockSum W c ⟨0, h⟩ r, blockSsq W c ⟨0, h⟩ r⟩
  | n + 1, h, r => by
    have hN : cfg12.N = 8 := N_12
    have hB : ¬(⟨n + 1, h⟩ : Fin cfg12.N).val % 8 = 0 := by dsimp only; omega
    obtain ⟨ih1, ih2⟩ := outsAt_eq c n (Nat.lt_of_succ_lt h) r
    rw [outsAt_B W c ⟨n + 1, h⟩ hB]
    dsimp only
    refine ⟨?_, ?_⟩
    · refine (pay4_apply (hblk W c ⟨n + 1, h⟩) (outsAt12 W c n (Nat.lt_of_succ_lt h)).1 r).trans ?_
      rw [ih1, Finset.sum_range_succ _ (n + 1), blockSum W c ⟨n + 1, h⟩ r]
    · refine (pay5_apply (hblk W c ⟨n + 1, h⟩) (outsAt12 W c n (Nat.lt_of_succ_lt h)).2 r).trans ?_
      rw [ih2, Finset.sum_range_succ _ (n + 1), blockSsq W c ⟨n + 1, h⟩ r]

end AtIdeal

/-! ## The arrays the outputs are written back to -/

/-- What the outputs hold after the last point, as contents of their arrays (the one block is the array). -/
abbrev last1 (c : Dev nD) : Buf (Elt F) ((c : Thread nD τ).loc main_v188_0) :=
  (outsAt12 V c t12_7.val t12_7.isLt).1
abbrev last2 (c : Dev nD) : Buf (Elt F) ((c : Thread nD τ).loc main_v188_1) :=
  (outsAt12 V c t12_7.val t12_7.isLt).2

/-- The one write-back of output 1, at the last point, writes it. -/
theorem flushed_eq1 (c : Dev nD) (t : Fin cfg12.N) (hf : (cfg12.win 1).flush t = true) :
    (dat12 V c).flushed 1 t = ((cfg12.win 1).blk t).view.read (Elt F) (last1 V c) := by
  have hN : cfg12.N = 8 := N_12
  have h7 : t.val = 7 := by have := (flush12_1 t).mp hf; have := t.isLt; omega
  obtain rfl : t = t12_7 := Fin.ext h7
  show (cfg12.win 1).cut (grid12.coords t12_7) ((dat12 V c).after 1 t12_7) = _
  rw [after12_1]
  have hz' : (fun a => win12_1.index t12_7 a * main_v188_0.ty.shape.size a) = fun _ => 0 := funext fun a => by fin_cases a <;> decide
  exact (Memref.read_access_unit_zero (Elt F) main_v188_0 hz' (fun a => by rw [congrFun hz' a]; simp) (last1 V c)).symm

theorem flushed_eq2 (c : Dev nD) (t : Fin cfg12.N) (hf : (cfg12.win 2).flush t = true) :
    (dat12 V c).flushed 2 t = ((cfg12.win 2).blk t).view.read (Elt F) (last2 V c) := by
  have hN : cfg12.N = 8 := N_12
  have h7 : t.val = 7 := by have := (flush12_2 t).mp hf; have := t.isLt; omega
  obtain rfl : t = t12_7 := Fin.ext h7
  show (cfg12.win 2).cut (grid12.coords t12_7) ((dat12 V c).after 2 t12_7) = _
  rw [after12_2]
  have hz' : (fun a => win12_2.index t12_7 a * main_v188_1.ty.shape.size a) = fun _ => 0 := funext fun a => by fin_cases a <;> decide
  exact (Memref.read_access_unit_zero (Elt F) main_v188_1 hz' (fun a => by rw [congrFun hz' a]; simp) (last2 V c)).symm

/-- So the arrays end holding what the outputs hold after the last point: its block covers them. -/
theorem final1 (c : Dev nD) : (dat12 V c).arrAt 1 cfg12.N = last1 V c :=
  (dat12 V c).arrAt_eq_of_cover 1 (last1 V c) (flushed_eq1 V c) fun i =>
    ⟨t12_7, (flush12_1 t12_7).mpr rfl, by
      show i ∈ ((View.whole main_v188_0).slice (win12_1.rect t12_7)).set
      rw [View.set_slice_whole, Rect.mem_set_unit]
      intro a
      have h0 : (i 0 : Nat) < 8 := (i 0).isLt
      have h1 : (i 1 : Nat) < 1 := (i 1).isLt
      match a with
      | ⟨0, _⟩ => show win12_1.index t12_7 0 * win12_1.size 0 ≤ (i 0 : Nat) ∧ (i 0 : Nat) < win12_1.index t12_7 0 * win12_1.size 0 + win12_1.xsize (grid12.coords t12_7) 0
                  rw [show win12_1.index t12_7 0 * win12_1.size 0 = 0 from by decide +kernel, show win12_1.xsize (grid12.coords t12_7) 0 = 8 from by decide +kernel]; omega
      | ⟨1, _⟩ => show win12_1.index t12_7 1 * win12_1.size 1 ≤ (i 1 : Nat) ∧ (i 1 : Nat) < win12_1.index t12_7 1 * win12_1.size 1 + win12_1.xsize (grid12.coords t12_7) 1
                  rw [show win12_1.index t12_7 1 * win12_1.size 1 = 0 from by decide +kernel, show win12_1.xsize (grid12.coords t12_7) 1 = 1 from by decide +kernel]; omega⟩

theorem final2 (c : Dev nD) : (dat12 V c).arrAt 2 cfg12.N = last2 V c :=
  (dat12 V c).arrAt_eq_of_cover 2 (last2 V c) (flushed_eq2 V c) fun i =>
    ⟨t12_7, (flush12_2 t12_7).mpr rfl, by
      show i ∈ ((View.whole main_v188_1).slice (win12_2.rect t12_7)).set
      rw [View.set_slice_whole, Rect.mem_set_unit]
      intro a
      have h0 : (i 0 : Nat) < 8 := (i 0).isLt
      have h1 : (i 1 : Nat) < 1 := (i 1).isLt
      match a with
      | ⟨0, _⟩ => show win12_2.index t12_7 0 * win12_2.size 0 ≤ (i 0 : Nat) ∧ (i 0 : Nat) < win12_2.index t12_7 0 * win12_2.size 0 + win12_2.xsize (grid12.coords t12_7) 0
                  rw [show win12_2.index t12_7 0 * win12_2.size 0 = 0 from by decide +kernel, show win12_2.xsize (grid12.coords t12_7) 0 = 8 from by decide +kernel]; omega
      | ⟨1, _⟩ => show win12_2.index t12_7 1 * win12_2.size 1 ≤ (i 1 : Nat) ∧ (i 1 : Nat) < win12_2.index t12_7 1 * win12_2.size 1 + win12_2.xsize (grid12.coords t12_7) 1
                  rw [show win12_2.index t12_7 1 * win12_2.size 1 = 0 from by decide +kernel, show win12_2.xsize (grid12.coords t12_7) 1 = 1 from by decide +kernel]; omega⟩

/-! ## The value of the region -/

/-- The eight tiles' contributions are the spec's sums. -/
theorem sum_tiles (H : ArrCP) (r : Fin 8) : ∑ s ∈ Finset.range (7 + 1), tileSum H r s = sumK H r := by
  unfold sumK
  rw [Finset.sum_range]
  exact Finset.sum_congr rfl fun t _ => by unfold tileSum; rw [dif_pos t.isLt]

theorem ssq_tiles (H : ArrCP) (r : Fin 8) : ∑ s ∈ Finset.range (7 + 1), tileSsq H r s = ssqK H r := by
  unfold ssqK
  rw [Finset.sum_range]
  exact Finset.sum_congr rfl fun t _ => by unfold tileSsq; rw [dif_pos t.isLt]

/-- Output 1's array ends holding the input's row sums. -/
theorem stats0_sum (W : (c : Dev nD) → (b : Ref sig .tc) → Buf (Elt Ideal) ((c : Thread nD τ).loc b)) (c : Dev nD) :
    toV81 ((dat12 (F := Ideal) W c).arrAt 1 cfg12.N) = sumK (toCP (W c (Pipeline.arrRef spec12 0))) := by
  rw [final1 W c]
  funext r
  exact ((outsAt_eq W c t12_7.val t12_7.isLt r).1).trans (sum_tiles _ r)

/-- Output 2's array ends holding the input's row sums of squares. -/
theorem stats0_ssq (W : (c : Dev nD) → (b : Ref sig .tc) → Buf (Elt Ideal) ((c : Thread nD τ).loc b)) (c : Dev nD) :
    toV81 ((dat12 (F := Ideal) W c).arrAt 2 cfg12.N) = ssqK (toCP (W c (Pipeline.arrRef spec12 0))) := by
  rw [final2 W c]
  funext r
  exact ((outsAt_eq W c t12_7.val t12_7.isLt r).2).trans (ssq_tiles _ r)

end Cert.KernelIdeal.Val12

end
-- ==== Proof.KHost13.lean ====
/-
  What the host operations between the statistics and the transform of a layer compute, read at an index, over
  the extended reals: the row sums divided by the number of nodes (the batch mean), the row sums of squares
  divided by the number of nodes minus the squared mean (the batch variance), the layer's row of the scales
  and of the shifts as columns, and the layer's weight matrix transposed. They hold from any contents the
  operations start from; a buffer none of them writes keeps its contents.
-/
import proofs.«143139_j73710228734964_1_alg».proof.Proof.Gen.KernelIdeal.Launch
import proofs.«143139_j73710228734964_1_alg».proof.Proof.Spec
import proofs.«143139_j73710228734964_1_alg».proof.Proof.Conv
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 2928

noncomputable section

namespace Cert.KernelIdeal.Host13

open Cert.KernelIdeal Cert.KernelIdeal.Gen Cert.GCN Idealize.ShloMosaic Idealize.ShloMosaic.ValueIdx

/-! ## The divisor -/

/-- The word `0x48F42400` denotes the number of nodes, 500000. -/
theorem ofBits_nN : Ideal.ofBits .f32 0x48F42400#32 = nN := by
  show Ideal.ieee 8 23 (0x48F42400#32 : BitVec 32) = ((500000 : ℝ) : EReal)
  simp [Ideal.ieee]
  rw [← EReal.coe_mul]
  norm_num

/-- The scalar constant 500000 broadcast to a column `[8, 1]`. -/
local notation "colN" =>
  (broadcastInDim S8x1 ![] bcast_S_S8x1 (constant (F := Ideal) S_ FTy.f32 0x48F42400#32) : S8x1.Idx → EReal)

/-- It reads 500000 at every index. -/
theorem colN_apply (j : S8x1.Idx) : colN j = nN := by
  rw [broadcastInDim_scalar_apply, constant_apply, ofBits_nN]

/-! ## The operations read at an index, over variables -/

/-- A column divided by the constant column, read at row `c`. -/
theorem divN_apply (x : S8x1.Idx → EReal) (c : Fin 8) :
    toV81 (Host.divf (F := Ideal) (φ := .f32) x colN) c = Ideal.div (toV81 x c) nN := by
  show Ideal.div (x (ix2 c 0)) (colN (ix2 c 0)) = _
  rw [colN_apply]
  rfl

/-- The quotient of `y` minus the squared quotient of `x`, read at row `c`. -/
theorem varN_apply (x y : S8x1.Idx → EReal) (c : Fin 8) :
    toV81 (subf (F := Ideal) (φ := .f32) (Host.divf (F := Ideal) (φ := .f32) y colN)
        (mulf (F := Ideal) (φ := .f32) (Host.divf (F := Ideal) (φ := .f32) x colN) (Host.divf (F := Ideal) (φ := .f32) x colN))) c
      = Ideal.div (toV81 y c) nN - Ideal.div (toV81 x c) nN * Ideal.div (toV81 x c) nN := by
  show Ideal.div (y (ix2 c 0)) (colN (ix2 c 0))
      - Ideal.div (x (ix2 c 0)) (colN (ix2 c 0)) * Ideal.div (x (ix2 c 0)) (colN (ix2 c 0)) = _
  rw [colN_apply]
  rfl

/-- A vector `[8]` cast to a column `[8, 1]` reads, at `(c, u)`, the vector at `c`. -/
theorem shapeCast_8_8x1_apply (x : S8.Idx → EReal) (h : S8.ShapeCasts S8x1) (c : Fin 8) (u : Fin 1) :
    shapeCast S8x1 x h (ix2 c u) = x (ix1 c) :=
  shapeCast_apply x h _ _ (by
    have hu : u.val = 0 := by omega
    rw [Shape.rowMajor_val_two, Shape.rowMajor_val_one]
    show c.val = c.val * 1 + u.val
    omega)

/-- Row `o` of a matrix `[8, 8]`, cut out as `[1, 8]`, cast to `[8]` and then to a column `[8, 1]`: its row `c` is the
    matrix at `(o, c)`. -/
theorem rowCol_apply (o : Nat) (x : S8x8.Idx → EReal) (h : S8x8.Slices ![o, 0] S1x8) (r : Fin 8) (hr : r.val = o) (c : Fin 8) :
    toV81 (shapeCast S8x1 (shapeCast S8 (extractStridedSlice S1x8 ![o, 0] x h) shapeCasts_S1x8_S8) shapeCasts_S8_S8x1) c
      = toM8 x r c := by
  show shapeCast S8x1 (shapeCast S8 (extractStridedSlice S1x8 ![o, 0] x h) shapeCasts_S1x8_S8) shapeCasts_S8_S8x1 (ix2 c 0)
      = x (ix2 r c)
  rw [shapeCast_8_8x1_apply, shapeCast_1a_a_apply]
  exact slice2_axis0_apply o x h 0 c r hr

/-- Matrix `o` of a stack `[8, 8, 8]`, cut out as `[1, 8, 8]`, cast to `[8, 8]` and transposed: its entry `(a, b)` is the
    stack at `(o, b, a)`. -/
theorem sliceT_apply (o : Nat) (x : S8x8x8.Idx → EReal) (h : S8x8x8.Slices ![o, 0, 0] S1x8x8) (r : Fin 8) (hr : r.val = o)
    (a b : Fin 8) :
    toM8 (transpose S8x8 [1, 0] (shapeCast S8x8 (extractStridedSlice S1x8x8 ![o, 0, 0] x h) shapeCasts_S1x8x8_S8x8)
        transposes_S8x8_S8x8_1_0) a b = x (ix3 r b a) := by
  show transpose S8x8 [1, 0] (shapeCast S8x8 (extractStridedSlice S1x8x8 ![o, 0, 0] x h) shapeCasts_S1x8x8_S8x8)
        transposes_S8x8_S8x8_1_0 (ix2 a b) = x (ix3 r b a)
  rw [transpose_ix2_apply, shapeCast_1ab_ab_apply]
  exact extractStridedSlice_apply _ _ _ _ _ (fun ax => by
    match ax with
    | ⟨0, _⟩ => exact hr
    | ⟨1, _⟩ => exact (Nat.zero_add _).symm
    | ⟨2, _⟩ => exact (Nat.zero_add _).symm)

/-! ## The stretch's results -/

section Results

variable (W : Valuation τ sig (Elt Ideal))

theorem after_main_v38 :
    (StableHlo.after (hostOps13 (F := Ideal)) W (Proc.devRef .tc main_v190) : S8x1.Idx → EReal)
      = Host.divf (F := Ideal) (φ := .f32) (W (Proc.devRef .tc main_v188_0)) colN := by
  after_results <;> rfl

theorem after_main_v42 :
    (StableHlo.after (hostOps13 (F := Ideal)) W (Proc.devRef .tc main_v194) : S8x1.Idx → EReal)
      = subf (F := Ideal) (φ := .f32) (Host.divf (F := Ideal) (φ := .f32) (W (Proc.devRef .tc main_v188_1)) colN)
          (mulf (F := Ideal) (φ := .f32) (Host.divf (F := Ideal) (φ := .f32) (W (Proc.devRef .tc main_v188_0)) colN)
            (Host.divf (F := Ideal) (φ := .f32) (W (Proc.devRef .tc main_v188_0)) colN)) := by
  after_results <;> rfl

/-- The batch mean's column: the row sums over the number of nodes. -/
theorem mean1 :
    toV81 (StableHlo.after (hostOps13 (F := Ideal)) W (Proc.devRef .tc main_v190))
      = fun c => Ideal.div (toV81 (W (Proc.devRef .tc main_v188_0)) c) nN := by
  funext c
  rw [after_main_v38]
  exact divN_apply _ c

/-- The batch variance's column: the mean of the squares minus the squared mean. -/
theorem var1 :
    toV81 (StableHlo.after (hostOps13 (F := Ideal)) W (Proc.devRef .tc main_v194))
      = fun c => Ideal.div (toV81 (W (Proc.devRef .tc main_v188_1)) c) nN
          - Ideal.div (toV81 (W (Proc.devRef .tc main_v188_0)) c) nN * Ideal.div (toV81 (W (Proc.devRef .tc main_v188_0)) c) nN := by
  funext c
  rw [after_main_v42]
  exact varN_apply _ _ c

/-- The scale's column: row 0 of the scales' matrix. -/
theorem gamma1 :
    toV81 (StableHlo.after (hostOps13 (F := Ideal)) W (Proc.devRef .tc main_v197))
      = fun c => toM8 (W (Proc.devRef .tc main_arg4)) (4 : Fin 8) c := by
  funext c
  after_results
  exact rowCol_apply _ _ _ (4 : Fin 8) rfl c

/-- The shift's column: row 0 of the shifts' matrix. -/
theorem beta1 :
    toV81 (StableHlo.after (hostOps13 (F := Ideal)) W (Proc.devRef .tc main_v200))
      = fun c => toM8 (W (Proc.devRef .tc main_arg5)) (4 : Fin 8) c := by
  funext c
  after_results
  exact rowCol_apply _ _ _ (4 : Fin 8) rfl c

/-- The weights: matrix 0 of the stack, transposed. -/
theorem wT1 :
    toM8 (StableHlo.after (hostOps13 (F := Ideal)) W (Proc.devRef .tc main_v203))
      = fun a b => (W (Proc.devRef .tc main_arg6) : S8x8x8.Idx → EReal) (ValueIdx.ix3 (4 : Fin 8) b a) := by
  funext a b
  after_results
  exact sliceT_apply _ _ _ (4 : Fin 8) rfl a b

/-- The buffers the stretch writes. -/
def writes1 : List (Ref sig .tc) :=
  [main_cst_31, main_v189, main_v190, main_cst_32, main_v191, main_v192, main_v193, main_v194, main_v195, main_v196, main_v197,
    main_v198, main_v199, main_v200, main_v201, main_v202, main_v203]

/-- A buffer the stretch does not write keeps its contents. -/
theorem kept1 {b : Ref sig .tc} (hb : b ∉ writes1) :
    StableHlo.after (hostOps13 (F := Ideal)) W (Proc.devRef .tc b) = W (Proc.devRef .tc b) :=
  StableHlo.after_of_forall_not_mem (b := Proc.devRef .tc b) _ _ (List.forall_iff_forall_mem.mp (by
    simp only [hostOps13, List.Forall, StableHlo.nullary_writes, StableHlo.unary_writes, StableHlo.binary_writes,
      StableHlo.reshape_writes, Finset.mem_singleton]
    repeat' apply And.intro
    all_goals exact StableHlo.devRef_ne_of_ne (fun e => hb (by rw [e]; decide))))

theorem kept1_main_v35 : StableHlo.after (hostOps13 (F := Ideal)) W (Proc.devRef .tc main_v187) = W (Proc.devRef .tc main_v187) :=
  kept1 W (by decide)
theorem kept1_main_v3 : StableHlo.after (hostOps13 (F := Ideal)) W (Proc.devRef .tc main_v3) = W (Proc.devRef .tc main_v3) :=
  kept1 W (by decide)
theorem kept1_main_v6 : StableHlo.after (hostOps13 (F := Ideal)) W (Proc.devRef .tc main_v6) = W (Proc.devRef .tc main_v6) :=
  kept1 W (by decide)
theorem kept1_main_v26 : StableHlo.after (hostOps13 (F := Ideal)) W (Proc.devRef .tc main_v26) = W (Proc.devRef .tc main_v26) :=
  kept1 W (by decide)
theorem kept1_main_arg7 : StableHlo.after (hostOps13 (F := Ideal)) W (Proc.devRef .tc main_arg7) = W (Proc.devRef .tc main_arg7) :=
  kept1 W (by decide)

end Results

end Cert.KernelIdeal.Host13

end
-- ==== Proof.KTransform13.lean ====
/-
  The value of the transform kernel of layer 0 (region 1 of the kernel program), at the ideal values and for any
  contents `V` of the buffers when the region is entered.

  The region walks the 8 column blocks of 65536 lanes of `H : [8, 524288]`. At block `t` it reads the block of `H`,
  the four columns `[8, 1]` (mean, variance, scale, shift) and the matrix `wT : [8, 8]` whole, and stores
    wT · ((x − mean) · rsqrt(var + eps) · scale + shift)
  into block `t` of the output: entry `(co, l)` of the stored block is the sum over the input channel `ci` of
  `wT (co, ci)` times the normalised entry `(ci, l)` of the block. The 8 blocks tile the output array, so the array
  ends holding, at `(co, n)`, the same sum with column `n = 65536 · t + l` of `H`.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.PureOps.Ideal.Laws

noncomputable section

namespace Cert.KernelIdeal.Val13

open Cert.KernelIdeal Cert.KernelIdeal.Gen Cert.KernelIdeal.GenP Cert.GCN
open Idealize.ShloMosaic Idealize.ShloMosaic.TcCoe Idealize.ShloMosaic.ValueIdx Idealize.SL.Sem
open Idealize.ShloMosaic.Pipeline (Dat)
open scoped BigOperators

/-! ## The payload at an index -/

/-- An `[8, 1]` column broadcast along the lanes reads, at `(p, l)`, the column's entry of row `p`. -/
theorem bcast_col_apply {α : Type} (v : S8x1.Idx → α) (h : S8x1.Broadcasts S8x65536) (p : Fin 8) (l : Fin 65536) :
    broadcastTo S8x65536 v h (ix2 p l) = v (ix2 p (0 : Fin 1)) := by
  refine broadcastTo_apply v h (ix2 p l) (ix2 p (0 : Fin 1)) fun ax => ?_
  match ax with
  | ⟨0, _⟩ => rfl
  | ⟨1, _⟩ => rfl

/-- The product's left operand is read at the output's row … -/
theorem lhs_dot_0 (j : S8x65536.Idx) (k : dot_S8x8_S8x65536_S8x65536_1_0_0_1_n_n.contr.Idx) :
    ((dot_S8x8_S8x65536_S8x65536_1_0_0_1_n_n.lhsIdx j k 0 : Fin _) : ℕ) = (j 0 : ℕ) := by
  simp [DotDims.lhsIdx, dot_S8x8_S8x65536_S8x65536_1_0_0_1_n_n]
  rfl

/-- … and at the contracted coordinate; -/
theorem lhs_dot_1 (j : S8x65536.Idx) (k : dot_S8x8_S8x65536_S8x65536_1_0_0_1_n_n.contr.Idx) :
    ((dot_S8x8_S8x65536_S8x65536_1_0_0_1_n_n.lhsIdx j k 1 : Fin _) : ℕ) = (k ⟨0, by decide⟩ : ℕ) :=
  dot_S8x8_S8x65536_S8x65536_1_0_0_1_n_n.lhsIdx_val_of_single rfl j k

/-- the right operand at the contracted coordinate … -/
theorem rhs_dot_0 (j : S8x65536.Idx) (k : dot_S8x8_S8x65536_S8x65536_1_0_0_1_n_n.contr.Idx) :
    ((dot_S8x8_S8x65536_S8x65536_1_0_0_1_n_n.rhsIdx j k 0 : Fin _) : ℕ) = (k ⟨0, by decide⟩ : ℕ) :=
  dot_S8x8_S8x65536_S8x65536_1_0_0_1_n_n.rhsIdx_val_of_single rfl j k

/-- … and at the output's lane. -/
theorem rhs_dot_1 (j : S8x65536.Idx) (k : dot_S8x8_S8x65536_S8x65536_1_0_0_1_n_n.contr.Idx) :
    ((dot_S8x8_S8x65536_S8x65536_1_0_0_1_n_n.rhsIdx j k 1 : Fin _) : ℕ) = (j 1 : ℕ) := by
  simp [DotDims.rhsIdx, dot_S8x8_S8x65536_S8x65536_1_0_0_1_n_n]
  rfl

/-- The payload at `(co, l)`: the normalised, scaled and shifted column `l` of the block, multiplied on the left by
    row `co` of the matrix. The product's zero accumulator adds nothing, and the narrowing of the two operands is the
    identity on the extended reals. -/
theorem pay1_apply (v0 v2 v4 v6 : Vec Ideal S8x1 .f32) (v11 : Vec Ideal S8x65536 .f32) (v21 : Vec Ideal S8x8 .f32)
    (co : Fin 8) (l : Fin 65536) :
    k13_pay1 (F := Ideal) v0 v2 v4 v6 v11 v21 (ix2 co l)
      = ∑ ci : Fin 8, v21 (ix2 co ci)
          * ((v11 (ix2 ci l) - v0 (ix2 ci (0 : Fin 1))) * Ideal.rsqrt (v2 (ix2 ci (0 : Fin 1)) + eps) * v4 (ix2 ci (0 : Fin 1))
              + v6 (ix2 ci (0 : Fin 1))) := by
  unfold k13_pay1
  refine (Ideal.matmul_constant_zero_apply dot_S8x8_S8x65536_S8x65536_1_0_0_1_n_n none _ _ (ix2 co l)).trans ?_
  refine (Equiv.sum_comp (contrEquiv1 dot_S8x8_S8x65536_S8x65536_1_0_0_1_n_n 8 rfl rfl).symm _).symm.trans ?_
  refine Finset.sum_congr rfl fun ci _ => ?_
  have c2 := contrEquiv1_symm_val dot_S8x8_S8x65536_S8x65536_1_0_0_1_n_n 8 rfl rfl ci
  have l2 : dot_S8x8_S8x65536_S8x65536_1_0_0_1_n_n.lhsIdx (ix2 co l) ((contrEquiv1 _ 8 rfl rfl).symm ci) = ix2 co ci := by
    funext ax; apply Fin.ext
    match ax with
    | ⟨0, _⟩ => exact lhs_dot_0 _ _
    | ⟨1, _⟩ => exact (lhs_dot_1 _ _).trans c2
  have r2 : dot_S8x8_S8x65536_S8x65536_1_0_0_1_n_n.rhsIdx (ix2 co l) ((contrEquiv1 _ 8 rfl rfl).symm ci) = ix2 ci l := by
    funext ax; apply Fin.ext
    match ax with
    | ⟨0, _⟩ => exact (rhs_dot_0 _ _).trans c2
    | ⟨1, _⟩ => exact rhs_dot_1 _ _
  rw [l2, r2]
  simp only [truncf_apply, shapeCast_self, addf_apply, mulf_apply, subf_apply, bcast_col_apply]
  rfl

/-- The same at an index of the block given by its two coordinates' values. -/
theorem pay1_at (x0 : Vec Ideal S8x65536 .f32) (x1 x2 x3 x4 : Vec Ideal S8x1 .f32) (x5 : Vec Ideal S8x8 .f32)
    (y : S8x65536.Idx) (p : Fin 8) (q : Fin 65536) (hp : (y 0).val = p.val) (hq : (y 1).val = q.val) :
    k13_pay1 (F := Ideal) x1 x2 x3 x4 x0 x5 y
      = ∑ ci : Fin 8, x5 (ix2 p ci)
          * ((x0 (ix2 ci q) - x1 (ix2 ci (0 : Fin 1))) * Ideal.rsqrt (x2 (ix2 ci (0 : Fin 1)) + eps) * x3 (ix2 ci (0 : Fin 1))
              + x4 (ix2 ci (0 : Fin 1))) := by
  have hy : y = ix2 p q := by
    funext a; apply Fin.ext
    match a with
    | ⟨0, _⟩ => exact hp
    | ⟨1, _⟩ => exact hq
  rw [hy]
  exact pay1_apply x1 x2 x3 x4 x0 x5 p q

/-! ## From blocks to the array -/

section Blocks

variable (V : (c : Dev nD) → (b : Ref sig .tc) → Buf (Elt Ideal) ((c : Thread nD τ).loc b))

/-- The six arrays the region reads, as it finds them: `H`, the mean, variance, scale and shift columns, the matrix. -/
abbrev harr (c : Dev nD) : Vec Ideal S8x524288 .f32 := V c (Pipeline.arrRef spec13 0)
abbrev marr (c : Dev nD) : Vec Ideal S8x1 .f32 := V c (Pipeline.arrRef spec13 1)
abbrev sarr (c : Dev nD) : Vec Ideal S8x1 .f32 := V c (Pipeline.arrRef spec13 2)
abbrev garr (c : Dev nD) : Vec Ideal S8x1 .f32 := V c (Pipeline.arrRef spec13 3)
abbrev barr (c : Dev nD) : Vec Ideal S8x1 .f32 := V c (Pipeline.arrRef spec13 4)
abbrev warr (c : Dev nD) : Vec Ideal S8x8 .f32 := V c (Pipeline.arrRef spec13 5)

/-- The transform at `(co, n)`: row `co` of the matrix times the normalised column `n` of `H`. -/
def T1 (c : Dev nD) (co : Fin 8) (n : Fin 524288) : EReal :=
  ∑ ci : Fin 8, warr V c (ix2 co ci)
    * ((harr V c (ix2 ci n) - marr V c (ix2 ci (0 : Fin 1))) * Ideal.rsqrt (sarr V c (ix2 ci (0 : Fin 1)) + eps) * garr V c (ix2 ci (0 : Fin 1))
        + barr V c (ix2 ci (0 : Fin 1)))

/-- The array the region leaves, as a function of its index. -/
abbrev G1 (c : Dev nD) : Vec Ideal S8x524288 .f32 := fun i => T1 V c (i 0) (i 1)

theorem hz : (![0, 0] : Fin 2 → Nat) = fun _ => 0 := funext fun a => by fin_cases a <;> rfl

/-- The block indices over the grid: the windows of `H` and of the output are at column block `t`, the five small
    windows at block `(0, 0)`. -/
theorem idx_facts1 : ∀ t : Fin cfg13.N,
    win13_0.index t (0 : Fin 2) = 0 ∧ win13_0.index t (1 : Fin 2) = t.val
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = 0 ∧ win13_6.index t (1 : Fin 2) = t.val :=
  (by decide +kernel : ∀ t : Fin grid13.N, _)

/-- Entry `(r, l)` of the block of `H` at point `t` is entry `(r, 65536 · t + l)` of `H`. -/
theorem iblk1_0_apply (c : Dev nD) (t : Fin cfg13.N) (x : S8x65536.Idx) (k : S8x524288.Idx)
    (hk0 : (k 0).val = (x 0).val) (hk1 : (k 1).val = 65536 * t.val + (x 1).val) :
    (iblk13 V c 0 t : Vec Ideal S8x65536 .f32) x = harr V c k := by
  obtain ⟨e0, e1, -⟩ := idx_facts1 t
  unfold iblk13
  rw [View.read_apply]
  show V c (Pipeline.arrRef spec13 0) _ = V c (Pipeline.arrRef spec13 0) k
  congr 1
  funext a
  apply Fin.ext
  match a with
  | ⟨0, _⟩ => show win13_0.index t 0 * 8 + 1 * (x 0).val = (k 0).val; rw [e0, hk0]; omega
  | ⟨1, _⟩ => show win13_0.index t 1 * 65536 + 1 * (x 1).val = (k 1).val; rw [e1, hk1]; omega

/-- The block of each small window is its whole array, at every point. -/
theorem iblk1_1_eq (c : Dev nD) (t : Fin cfg13.N) : (iblk13 V c 1 t : Vec Ideal S8x1 .f32) = marr V c := by
  obtain ⟨-, -, e0, e1, -⟩ := idx_facts1 t
  funext x
  unfold iblk13
  rw [View.read_apply]
  show V c (Pipeline.arrRef spec13 1) _ = V c (Pipeline.arrRef spec13 1) x
  congr 1
  funext a
  apply Fin.ext
  match a with
  | ⟨0, _⟩ => show win13_1.index t 0 * 8 + 1 * (x 0).val = (x 0).val; rw [e0]; omega
  | ⟨1, _⟩ => show win13_1.index t 1 * 1 + 1 * (x 1).val = (x 1).val; rw [e1]; omega

theorem iblk1_2_eq (c : Dev nD) (t : Fin cfg13.N) : (iblk13 V c 2 t : Vec Ideal S8x1 .f32) = sarr V c := by
  obtain ⟨-, -, -, -, e0, e1, -⟩ := idx_facts1 t
  funext x
  unfold iblk13
  rw [View.read_apply]
  show V c (Pipeline.arrRef spec13 2) _ = V c (Pipeline.arrRef spec13 2) x
  congr 1
  funext a
  apply Fin.ext
  match a with
  | ⟨0, _⟩ => show win13_2.index t 0 * 8 + 1 * (x 0).val = (x 0).val; rw [e0]; omega
  | ⟨1, _⟩ => show win13_2.index t 1 * 1 + 1 * (x 1).val = (x 1).val; rw [e1]; omega

theorem iblk1_3_eq (c : Dev nD) (t : Fin cfg13.N) : (iblk13 V c 3 t : Vec Ideal S8x1 .f32) = garr V c := by
  obtain ⟨-, -, -, -, -, -, e0, e1, -⟩ := idx_facts1 t
  funext x
  unfold iblk13
  rw [View.read_apply]
  show V c (Pipeline.arrRef spec13 3) _ = V c (Pipeline.arrRef spec13 3) x
  congr 1
  funext a
  apply Fin.ext
  match a with
  | ⟨0, _⟩ => show win13_3.index t 0 * 8 + 1 * (x 0).val = (x 0).val; rw [e0]; omega
  | ⟨1, _⟩ => show win13_3.index t 1 * 1 + 1 * (x 1).val = (x 1).val; rw [e1]; omega

theorem iblk1_4_eq (c : Dev nD) (t : Fin cfg13.N) : (iblk13 V c 4 t : Vec Ideal S8x1 .f32) = barr V c := by
  obtain ⟨-, -, -, -, -, -, -, -, e0, e1, -⟩ := idx_facts1 t
  funext x
  unfold iblk13
  rw [View.read_apply]
  show V c (Pipeline.arrRef spec13 4) _ = V c (Pipeline.arrRef spec13 4) x
  congr 1
  funext a
  apply Fin.ext
  match a with
  | ⟨0, _⟩ => show win13_4.index t 0 * 8 + 1 * (x 0).val = (x 0).val; rw [e0]; omega
  | ⟨1, _⟩ => show win13_4.index t 1 * 1 + 1 * (x 1).val = (x 1).val; rw [e1]; omega

theorem iblk1_5_eq (c : Dev nD) (t : Fin cfg13.N) : (iblk13 V c 5 t : Vec Ideal S8x8 .f32) = warr V c := by
  obtain ⟨-, -, -, -, -, -, -, -, -, -, e0, e1, -⟩ := idx_facts1 t
  funext x
  unfold iblk13
  rw [View.read_apply]
  show V c (Pipeline.arrRef spec13 5) _ = V c (Pipeline.arrRef spec13 5) x
  congr 1
  funext a
  apply Fin.ext
  match a with
  | ⟨0, _⟩ => show win13_5.index t 0 * 8 + 1 * (x 0).val = (x 0).val; rw [e0]; omega
  | ⟨1, _⟩ => show win13_5.index t 1 * 8 + 1 * (x 1).val = (x 1).val; rw [e1]; omega

/-- What point `t` writes back is block `t` of the transformed array: entry `(co, l)` of the stored block is the
    transform at column `65536 · t + l`. -/
theorem flushed1_eq (c : Dev nD) (t : Fin cfg13.N) :
    (dat13 V c).flushed 6 t = ((cfg13.win 6).blk t).view.read (Elt Ideal) (G1 V c) := by
  show (cfg13.win 6).cut (grid13.coords t) ((dat13 V c).after 6 t) = _
  rw [after13_6]
  unfold out13_6
  rw [View.canon_unit_zero hz]
  simp only [View.ld_unit_zero (S := S8x1) hz, View.ld_unit_zero (S := S8x65536) hz, View.ld_unit_zero (S := S8x8) hz]
  obtain ⟨-, -, -, -, -, -, -, -, -, -, -, -, e0, e1⟩ := idx_facts1 t
  have ht : t.val < 8 := lt_of_lt_of_eq t.isLt N_13
  funext j
  have hj0 : (j 0).val < 8 := (j 0).isLt
  have hj1 : (j 1).val < 65536 := (j 1).isLt
  have hn : 65536 * t.val + (j 1).val < 524288 := by omega
  rw [View.read_apply]
  show k13_pay1 (F := Ideal) (iblk13 V c 1 t) (iblk13 V c 2 t) (iblk13 V c 3 t) (iblk13 V c 4 t) (iblk13 V c 0 t) (iblk13 V c 5 t)
      ((cfg13.win 6).xinj (grid13.coords t) j)
    = T1 V c ((((cfg13.win 6).blk t).view.emb j) 0) ((((cfg13.win 6).blk t).view.emb j) 1)
  have he0 : ((((cfg13.win 6).blk t).view.emb j) 0 : Fin 8) = ⟨(j 0).val, hj0⟩ :=
    Fin.ext (by show win13_6.index t 0 * 8 + 1 * (j 0).val = (j 0).val; rw [e0]; omega)
  have he1 : ((((cfg13.win 6).blk t).view.emb j) 1 : Fin 524288) = ⟨65536 * t.val + (j 1).val, hn⟩ :=
    Fin.ext (by show win13_6.index t 1 * 65536 + 1 * (j 1).val = 65536 * t.val + (j 1).val; rw [e1]; omega)
  rw [he0, he1]
  refine (pay1_at (iblk13 V c 0 t) (iblk13 V c 1 t) (iblk13 V c 2 t) (iblk13 V c 3 t) (iblk13 V c 4 t) (iblk13 V c 5 t)
    ((cfg13.win 6).xinj (grid13.coords t) j) ⟨(j 0).val, hj0⟩ ⟨(j 1).val, hj1⟩ rfl rfl).trans ?_
  unfold T1
  refine Finset.sum_congr rfl fun ci _ => ?_
  rw [iblk1_1_eq, iblk1_2_eq, iblk1_3_eq, iblk1_4_eq, iblk1_5_eq,
    iblk1_0_apply V c t (ix2 ci ⟨(j 1).val, hj1⟩) (ix2 ci ⟨65536 * t.val + (j 1).val, hn⟩) rfl rfl]
  rfl

/-- An index of the array is in point `t`'s block iff each coordinate is in the block's range on its axis. -/
theorem mem_blk1_6 (t : Fin cfg13.N) (i : S8x524288.Idx) :
    i ∈ ((cfg13.win 6).blk t).view.set ↔ ∀ a : Fin 2, win13_6.index t a * S8x65536.size a ≤ (i a).val ∧ (i a).val < win13_6.index t a * S8x65536.size a + S8x65536.size a := by
  show i ∈ ((View.whole main_v204).slice (win13_6.rect t)).set ↔ _
  rw [View.set_slice_whole, Rect.mem_set_unit]
  exact Iff.rfl

/-- Every index `(r, n)` of the array is in the block of point `n / 65536`. -/
theorem cover1 (i : S8x524288.Idx) : ∃ t : Fin cfg13.N, (cfg13.win 6).flush t = true ∧ i ∈ ((cfg13.win 6).blk t).view.set := by
  have hN : cfg13.N = 8 := N_13
  have h0 : (i 0).val < 8 := (i 0).isLt
  have h1 : (i 1).val < 524288 := (i 1).isLt
  obtain ⟨t, ht⟩ : ∃ t : Fin cfg13.N, t.val = (i 1).val / 65536 := ⟨⟨(i 1).val / 65536, lt_of_lt_of_eq (by omega) hN.symm⟩, rfl⟩
  obtain ⟨-, -, -, -, -, -, -, -, -, -, -, -, e0, e1⟩ := idx_facts1 t
  refine ⟨t, flush13_6 t, ?_⟩
  rw [mem_blk1_6]
  intro a
  match a with
  | ⟨0, _⟩ => show win13_6.index t 0 * 8 ≤ (i 0).val ∧ (i 0).val < win13_6.index t 0 * 8 + 8; rw [e0]; omega
  | ⟨1, _⟩ => show win13_6.index t 1 * 65536 ≤ (i 1).val ∧ (i 1).val < win13_6.index t 1 * 65536 + 65536; rw [e1, ht]; omega

/-- The output array after the region's 8 points is the transformed array. -/
theorem final1 (c : Dev nD) : (dat13 V c).arrAt 6 cfg13.N = G1 V c :=
  (dat13 V c).arrAt_eq_of_cover 6 (G1 V c) (fun t _ => flushed1_eq V c t) cover1

/-- THE VALUE of the transform region over the curried views: with `H`, the mean `μ`, the variance `σ²`, the scale
    `γ`, the shift `β` and the matrix `wT` read off the arrays as the region finds them, the output array is, at
    `(co, n)`, the sum over `ci` of `wT co ci · ((H ci n − μ ci) · rsqrt(σ² ci + eps) · γ ci + β ci)`. -/
theorem transform1_val (c : Dev nD) :
    toCP ((dat13 V c).arrAt 6 cfg13.N)
      = fun co n => ∑ ci : Fin 8, toM8 (V c (Pipeline.arrRef spec13 5)) co ci
          * ((toCP (V c (Pipeline.arrRef spec13 0)) ci n - toV81 (V c (Pipeline.arrRef spec13 1)) ci)
              * Ideal.rsqrt (toV81 (V c (Pipeline.arrRef spec13 2)) ci + eps) * toV81 (V c (Pipeline.arrRef spec13 3)) ci
              + toV81 (V c (Pipeline.arrRef spec13 4)) ci) := by
  rw [final1]
  rfl

end Blocks

end Cert.KernelIdeal.Val13

end
-- ==== Proof.KHost14.lean ====
/-
  The kernel program's host operations between a layer's transform region and its residual region, read at an
  index over the extended reals, from any contents of the buffers they start from.
  Two layout facts carry everything. The first `N` columns of a channel-major array `[8, NP]`, transposed, are its
  node-major reading `[N, 8]`: entry `(n, c)` is entry `(c, n)`. A node-major array transposed and padded with zeros
  to `NP` columns is its channel-major padded layout: entry `(c, n)` is entry `(n, c)` below the last node and zero
  past it (the pad value is the integer zero converted to a float, which is zero).
  The operations slice and transpose the transform's output, aggregate it over the edges (gather at the sources,
  scale by the norms, add up at the targets: one function `AGG` of the sources, the targets, the norms and the
  array, never opened), transpose and pad the result back, and cut the layer's row out of the bias matrix as a
  column. Every buffer these operations do not write keeps its contents.
-/
import proofs.«143139_j73710228734964_1_alg».proof.Proof.Gen.KernelIdeal.Launch
import proofs.«143139_j73710228734964_1_alg».proof.Proof.Spec
import proofs.«143139_j73710228734964_1_alg».proof.Proof.Conv
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host14

open Cert.KernelIdeal Cert.KernelIdeal.Gen Cert.GCN Idealize.ShloMosaic Idealize.ShloMosaic.ValueIdx

/-- The first `N` columns of a channel-major array, transposed, are its node-major reading: index `(n, c)` reads `(c, n)`. -/
theorem unpad_layout (X : S8x524288.Idx → EReal) (hs : S8x524288.Slices ![0, 0] S8x500000)
    (ht : S8x500000.Transposes [1, 0] S500000x8) :
    transpose S500000x8 [1, 0] (extractStridedSlice S8x500000 ![0, 0] X hs) ht = ofNC (unpadT (toCP X)) := by
  funext j
  obtain ⟨n, c, rfl⟩ : ∃ (n : Fin 500000) (c : Fin 8), j = ix2 n c := ⟨j 0, j 1, eq_ix2 j⟩
  rw [transpose_ix2_apply]
  refine (extractStridedSlice_apply _ X hs _ (ix2 c ⟨n.val, Nat.lt_trans n.isLt (by decide)⟩) fun a => ?_).trans ?_
  · match a with
    | ⟨0, _⟩ => simp
    | ⟨1, _⟩ => simp
  · rfl

/-- A node-major array transposed and zero-padded to `NP` columns is its channel-major padded layout: index `(c, n)`
    reads `(n, c)` below the last node and the pad value past it. -/
theorem pad_layout (Y : S500000x8.Idx → EReal) (z : S_.Idx → EReal) (hz : ∀ i, z i = 0)
    (ht : S500000x8.Transposes [1, 0] S8x500000)
    (hp : S8x500000.Pads (![0, 0] : Fin 2 → Nat) ![0, 24288] ![0, 0] S8x524288) (hu : 0 < S_.numel) :
    pad S8x524288 ![0, 0] ![0, 24288] ![0, 0] (transpose S8x500000 [1, 0] Y ht) z hp hu = ofCP (padT (toNC Y)) := by
  funext j
  obtain ⟨c, n, rfl⟩ : ∃ (c : Fin 8) (n : Fin 524288), j = ix2 c n := ⟨j 0, j 1, eq_ix2 j⟩
  show _ = (if hn : n.val < NN then Y (ix2 ⟨n.val, hn⟩ c) else 0)
  unfold pad
  by_cases hn : n.val < NN
  · have hcond : ∀ a : Fin S8x500000.rank, (![0, 0] : Fin 2 → Nat) a ≤ ((ix2 c n : S8x524288.Idx) (a.cast hp.1)).val
        ∧ (((ix2 c n : S8x524288.Idx) (a.cast hp.1)).val - (![0, 0] : Fin 2 → Nat) a) % ((![0, 0] : Fin 2 → Nat) a + 1) = 0
        ∧ (((ix2 c n : S8x524288.Idx) (a.cast hp.1)).val - (![0, 0] : Fin 2 → Nat) a) / ((![0, 0] : Fin 2 → Nat) a + 1) < S8x500000.size a := by
      intro a
      match a with
      | ⟨0, _⟩ =>
        show (0 : ℕ) ≤ c.val ∧ (c.val - 0) % (0 + 1) = 0 ∧ (c.val - 0) / (0 + 1) < 8
        have := c.isLt; omega
      | ⟨1, _⟩ =>
        show (0 : ℕ) ≤ n.val ∧ (n.val - 0) % (0 + 1) = 0 ∧ (n.val - 0) / (0 + 1) < 500000
        have : n.val < 500000 := hn
        omega
    rw [dif_pos hn, dif_pos hcond]
    refine transpose_apply _ Y ht _ (ix2 ⟨n.val, hn⟩ c) fun b => ?_
    match b with
    | ⟨0, _⟩ => show c.val = (c.val - 0) / (0 + 1); omega
    | ⟨1, _⟩ => show n.val = (n.val - 0) / (0 + 1); omega
  · rw [dif_neg hn, dif_neg ?_, hz]
    intro h
    have h1 := (h ⟨1, by decide⟩).2.2
    have h1' : (n.val - 0) / (0 + 1) < 500000 := h1
    exact hn (show n.val < 500000 by omega)

/-- The edge aggregation on a node-major array `hw`: gather the rows at the edge sources (a negative source index
    counted from the end), scale each by its edge's norm, and add them up at the edge targets, from zero. -/
def AGG (src dst : IVec S8500000 32) (norm : FVec Ideal S8500000 .f32) (hw : FVec Ideal S500000x8 .f32) :
    FVec Ideal S500000x8 .f32 :=
  Host.scatterAdd scatter_S500000x8_S8500000x1_S8500000x8_1_0_0_1
    (broadcastInDim S500000x8 ![] bcast_S_S500000x8 (constant (F := Ideal) S_ .f32 0x00000000#32))
    (broadcastInDim S8500000x1 ![0] bcast_S8500000_S8500000x1_0 dst)
    (mulf
      (Host.gather gather_S500000x8_S8500000x1_S8500000x8_1_0_n_n_0_1_18 hw
        (broadcastInDim S8500000x1 ![0] bcast_S8500000_S8500000x1_0
          (select (cmpi .slt src (broadcastInDim S8500000 ![] bcast_S_S8500000 (constantI S_ 32 0#32)))
            (addi src (broadcastInDim S8500000 ![] bcast_S_S8500000 (constantI S_ 32 500000#32)))
            src)))
      (broadcastInDim S8500000x8 ![0, 1] bcast_S8500000x1_S8500000x8_0_1
        (broadcastInDim S8500000x1 ![0] bcast_S8500000_S8500000x1_0 norm)))

/-- The scalar the padding calls pad with, the integer zero read as a float, is zero. -/
theorem pad_zero (i : S_.Idx) : sitofp (F := Ideal) .f32 (constantI S_ 32 0#32) i = 0 := by
  show (((BitVec.toInt (0#32 : BitVec 32) : ℤ) : ℝ) : EReal) = 0
  rw [show BitVec.toInt (0#32 : BitVec 32) = 0 from by decide]
  simp

set_option maxRecDepth 16384 in
/-- The padding call after the aggregation stretch: the padded buffer is the pad of the transposed buffer by the
    converted constant, whatever the valuation before the call. -/
theorem pad_call1 (V : Valuation τ sig (Elt Ideal)) :
    @Eq (S8x524288.Idx → EReal) (StableHlo.after (hostOps14_1 (F := Ideal)) V (Proc.devRef .tc main_v221))
      (pad S8x524288 ![0, 0] ![0, 24288] ![0, 0] (V (Proc.devRef .tc main_v220))
        (sitofp (F := Ideal) .f32 (V (Proc.devRef .tc main_c_36))) pads_S8x500000_S8x524288_000_0242880 h_S_) := by
  dsimp only [hostOps14_1]
  after_results
  rfl

set_option maxRecDepth 16384 in
set_option maxHeartbeats 1000000 in
/-- What the padded buffer holds after the aggregation stretch and its padding call, as the operations spell it. -/
theorem v69_eq (W : Valuation τ sig (Elt Ideal)) :
    @Eq (S8x524288.Idx → EReal)
      (StableHlo.after (hostOps14_1 (F := Ideal)) (StableHlo.after (hostOps14 (F := Ideal)) W) (Proc.devRef .tc main_v221))
      (pad S8x524288 ![0, 0] ![0, 24288] ![0, 0]
        (transpose S8x500000 [1, 0]
          (Host.scatterAdd scatter_S500000x8_S8500000x1_S8500000x8_1_0_0_1
            (broadcastInDim S500000x8 ![] bcast_S_S500000x8 (constant (F := Ideal) S_ .f32 0x00000000#32))
            (broadcastInDim S8500000x1 ![0] bcast_S8500000_S8500000x1_0 (W (Proc.devRef .tc main_v6)))
            (mulf
              (Host.gather gather_S500000x8_S8500000x1_S8500000x8_1_0_n_n_0_1_18
                (transpose S500000x8 [1, 0]
                  (extractStridedSlice S8x500000 ![0, 0] (W (Proc.devRef .tc main_v204)) slices_S8x524288_S8x500000_0_0)
                  transposes_S8x500000_S500000x8_1_0)
                (broadcastInDim S8500000x1 ![0] bcast_S8500000_S8500000x1_0
                  (select
                    (cmpi .slt (W (Proc.devRef .tc main_v3)) (broadcastInDim S8500000 ![] bcast_S_S8500000 (constantI S_ 32 0#32)))
                    (addi (W (Proc.devRef .tc main_v3)) (broadcastInDim S8500000 ![] bcast_S_S8500000 (constantI S_ 32 500000#32)))
                    (W (Proc.devRef .tc main_v3)))))
              (broadcastInDim S8500000x8 ![0, 1] bcast_S8500000x1_S8500000x8_0_1
                (broadcastInDim S8500000x1 ![0] bcast_S8500000_S8500000x1_0 (W (Proc.devRef .tc main_v26))))))
          transposes_S500000x8_S8x500000_1_0)
        (sitofp (F := Ideal) .f32 (constantI S_ 32 0#32)) pads_S8x500000_S8x524288_000_0242880 h_S_) := by
  rw [pad_call1]
  dsimp only [hostOps14]
  after_results

set_option maxRecDepth 16384 in
/-- After the aggregation stretch and its padding call, the padded buffer holds the channel-major padded layout of the
    aggregation of the node-major reading of the transform's output. -/
theorem agg2 (W : Valuation τ sig (Elt Ideal)) :
    toCP (StableHlo.after (hostOps14_1 (F := Ideal)) (StableHlo.after (hostOps14 (F := Ideal)) W) (Proc.devRef .tc main_v221))
      = padT (toNC (AGG (W (Proc.devRef .tc main_v3)) (W (Proc.devRef .tc main_v6)) (W (Proc.devRef .tc main_v26))
          (ofNC (unpadT (toCP (W (Proc.devRef .tc main_v204))))))) := by
  rw [v69_eq W]
  unfold AGG
  rw [unpad_layout, pad_layout _ _ pad_zero, toCP_ofCP]

set_option maxRecDepth 16384 in
/-- After the bias stretch, the bias column holds the layer's row of the bias matrix. -/
theorem bias2 (W : Valuation τ sig (Elt Ideal)) :
    toV81 (StableHlo.after (hostOps14_2 (F := Ideal)) W (Proc.devRef .tc main_v224))
      = fun c => toM8 (W (Proc.devRef .tc main_arg7)) (4 : Fin 8) c := by
  funext c
  unfold toV81 toM8
  dsimp only [hostOps14_2]
  after_results
  dsimp only
  -- a vector of 8 read as 8 rows of one entry, at row c, is its entry c
  refine (shapeCast_apply (s := S8) (t := S8x1) _ _ (ix2 c 0) (ix1 c) ?_).trans ?_
  · rw [Shape.rowMajor_val_two, Shape.rowMajor_val_one]
    show c.val = c.val * 1 + 0
    omega
  -- one row of 8 read as a vector, at c, is the row's entry c
  refine (shapeCast_1a_a_apply _ _ c).trans ?_
  -- the one-row slice at entry c is the matrix at the layer's row
  exact extractStridedSlice_apply _ _ _ _ (ix2 (4 : Fin 8) c) fun a => match a with
    | ⟨0, _⟩ => rfl
    | ⟨1, _⟩ => (Nat.zero_add _).symm

/-! ## What the stretches leave alone -/

/-- The references the aggregation stretch, its padding call, and the bias stretch write. -/
abbrev hostOps2_W : List (Ref sig .tc) :=
  [main_v205, main_v206, main_c_33, main_v207, main_v208, main_c_34, main_v209, main_v210, main_v211, main_v212, main_v213,
    main_v214, main_v215, main_v216, main_cst_35, main_v217, main_v218, main_v219, main_v220, main_c_36]
abbrev hostOps2_1_W : List (Ref sig .tc) := [main_call5_v0, main_v221]
abbrev hostOps2_2_W : List (Ref sig .tc) := [main_v222, main_v223, main_v224]

set_option maxRecDepth 16384 in
theorem hostOps2_writes : (hostOps14 (F := Ideal)).Forall fun op =>
    op.writes ⊆ (hostOps2_W.map (Proc.devRef (τ := τ) .tc)).toFinset := by
  simp only [hostOps14, List.Forall, StableHlo.nullary_writes, StableHlo.unary_writes, StableHlo.binary_writes,
    StableHlo.ternary_writes, Finset.singleton_subset_iff, List.mem_toFinset]
  refine ⟨?_, ?_, ?_, ?_, ?_, ?_, ?_, ?_, ?_, ?_, ?_, ?_, ?_, ?_, ?_, ?_, ?_, ?_, ?_, ?_⟩
  all_goals exact List.mem_map.mpr ⟨_, by decide, rfl⟩

set_option maxRecDepth 16384 in
theorem hostOps2_1_writes : (hostOps14_1 (F := Ideal)).Forall fun op =>
    op.writes ⊆ (hostOps2_1_W.map (Proc.devRef (τ := τ) .tc)).toFinset := by
  simp only [hostOps14_1, List.Forall, StableHlo.unary_writes, StableHlo.binary_writes,
    Finset.singleton_subset_iff, List.mem_toFinset]
  refine ⟨?_, ?_⟩
  all_goals exact List.mem_map.mpr ⟨_, by decide, rfl⟩

set_option maxRecDepth 16384 in
theorem hostOps2_2_writes : (hostOps14_2 (F := Ideal)).Forall fun op =>
    op.writes ⊆ (hostOps2_2_W.map (Proc.devRef (τ := τ) .tc)).toFinset := by
  simp only [hostOps14_2, List.Forall, StableHlo.unary_writes, StableHlo.reshape_writes,
    Finset.singleton_subset_iff, List.mem_toFinset]
  refine ⟨?_, ?_, ?_⟩
  all_goals exact List.mem_map.mpr ⟨_, by decide, rfl⟩

/-- A buffer none of the three stretches writes holds after them what it held before. -/
theorem kept2 (W : Valuation τ sig (Elt Ideal)) (r : Ref sig .tc)
    (h : r ∉ hostOps2_W) (h1 : r ∉ hostOps2_1_W) (h2 : r ∉ hostOps2_2_W) :
    StableHlo.after (hostOps14_2 (F := Ideal)) (StableHlo.after (hostOps14_1 (F := Ideal))
      (StableHlo.after (hostOps14 (F := Ideal)) W)) (Proc.devRef .tc r) = W (Proc.devRef .tc r) :=
  (StableHlo.after_of_writes_sub hostOps14_2 _ hostOps2_2_writes h2).trans <|
    (StableHlo.after_of_writes_sub hostOps14_1 _ hostOps2_1_writes h1).trans <|
      StableHlo.after_of_writes_sub hostOps14 _ hostOps2_writes h

/-- The same, stretch by stretch. -/
theorem kept_hostOps2 (W : Valuation τ sig (Elt Ideal)) (r : Ref sig .tc) (h : r ∉ hostOps2_W) :
    StableHlo.after (hostOps14 (F := Ideal)) W (Proc.devRef .tc r) = W (Proc.devRef .tc r) :=
  StableHlo.after_of_writes_sub hostOps14 _ hostOps2_writes h
theorem kept_hostOps2_1 (W : Valuation τ sig (Elt Ideal)) (r : Ref sig .tc) (h : r ∉ hostOps2_1_W) :
    StableHlo.after (hostOps14_1 (F := Ideal)) W (Proc.devRef .tc r) = W (Proc.devRef .tc r) :=
  StableHlo.after_of_writes_sub hostOps14_1 _ hostOps2_1_writes h
theorem kept_hostOps2_2 (W : Valuation τ sig (Elt Ideal)) (r : Ref sig .tc) (h : r ∉ hostOps2_2_W) :
    StableHlo.after (hostOps14_2 (F := Ideal)) W (Proc.devRef .tc r) = W (Proc.devRef .tc r) :=
  StableHlo.after_of_writes_sub hostOps14_2 _ hostOps2_2_writes h

end Cert.KernelIdeal.Host14

end
-- ==== Proof.KResid14.lean ====
/-
  The value of the residual region of the first layer: the output array `[8, 524288]` after the region's eight grid
  points, index by index, as a function of the three arrays the region reads (the layer's input `H`, the aggregated
  messages, the bias column): entry `(ch, n)` is `max (H ch n + agg ch n + bias ch) 0` times the mask of column `n`
  (one on the columns of real nodes, zero on the padding).
  The mask is built inside the body from the grid coordinate: tile `t`, lane `l` is column `65536 · t + l`, compared as
  a signed 32-bit word with 500000; no column number wraps, so the comparison is the one of the naturals.
  Then the road from blocks to the array: the payload at an index, each input block as columns of its array, what the
  body leaves at a point as a block of the one whole-array function, the tiling of the array by the eight blocks.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val14

open Cert.KernelIdeal Cert.KernelIdeal.Gen Cert.KernelIdeal.GenP Cert.GCN
open Idealize.ShloMosaic Idealize.ShloMosaic.TcCoe Idealize.ShloMosaic.ValueIdx Idealize.SL.Sem
open Idealize.ShloMosaic.Pipeline (Dat)

/-- The column number as a 32-bit word: no wrap-around, the largest is 65536·7 + 65535. -/
theorem colWord_eq (t : Fin 8) (l : Fin 65536) :
    IntOp.addi (Scalar.muli (BitVec.ofNat 32 t.val) 65536#32) (BitVec.ofNat 32 l.val) = BitVec.ofNat 32 (65536 * t.val + l.val) := by
  unfold IntOp.addi Scalar.muli IntOp.muli
  rw [show (65536#32 : BitVec 32) = BitVec.ofNat 32 65536 from rfl, BitVec.ofNat_mul_ofNat, BitVec.ofNat_add_ofNat, Nat.mul_comm]

/-- The signed comparison of a column number with the number of nodes is the comparison of the naturals: both are
    below 2^31, so both read signed as themselves. -/
theorem slt_colWord (n : Nat) (hn : n < 524288) :
    IntOp.cmpi .slt (BitVec.ofNat 32 n) 500000#32 = if n < 500000 then 1#1 else 0#1 := by
  unfold IntOp.cmpi
  dsimp only
  rw [BitVec.slt_eq_decide]
  have h1 : (BitVec.ofNat 32 n).toInt = (n : Int) := by
    rw [BitVec.toInt_eq_toNat_of_lt (by rw [BitVec.toNat_ofNat, Nat.mod_eq_of_lt (by omega)]; omega), BitVec.toNat_ofNat, Nat.mod_eq_of_lt (by omega)]
  have h2 : (500000#32 : BitVec 32).toInt = 500000 := by decide
  rw [h1, h2]
  by_cases h : n < 500000
  · rw [if_pos h, decide_eq_true (by omega)]; rfl
  · rw [if_neg h, decide_eq_false (by omega)]; rfl

/-- THE MASK AT A COLUMN: the comparison bit, widened and converted, is one on the columns of real nodes and zero on
    the padding. -/
theorem maskWord (t : Fin 8) (l : Fin 65536) :
    (FloatOps.sitofp (F := Ideal) .f32 ((IntOp.cmpi .slt (IntOp.addi (Scalar.muli (BitVec.ofNat 32 t.val) 65536#32) (BitVec.ofNat 32 l.val)) 500000#32).setWidth 32) : EReal)
      = if 65536 * t.val + l.val < 500000 then 1 else 0 := by
  rw [colWord_eq, slt_colWord _ (by have := t.isLt; have := l.isLt; omega)]
  by_cases h : 65536 * t.val + l.val < 500000
  · rw [if_pos h, if_pos h]
    show (((BitVec.setWidth 32 1#1).toInt : ℝ) : EReal) = 1
    rw [show (BitVec.setWidth 32 1#1).toInt = 1 from by decide]
    simp
  · rw [if_neg h, if_neg h]
    show (((BitVec.setWidth 32 0#1).toInt : ℝ) : EReal) = 0
    rw [show (BitVec.setWidth 32 0#1).toInt = 0 from by decide]
    simp

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mask row the body builds from the grid coordinate, read at lane `l` of tile `t`. -/
theorem maskRow_apply (i : grid14.Coords) (t : Fin 8) (ht : (i 0).val = t.val) (l : Fin 65536) :
    (sitofp (F := Ideal) .f32 (extui 32 (cmpi .slt (addi (broadcast S1x65536 (Scalar.muli (BitVec.ofNat 32 (i 0).val) 65536#32))
        (iota .tc S1x65536 32 [1] iota_S1x65536_d1_w32)) (broadcast S1x65536 500000#32)) natLt_1_32) : FVec Ideal S1x65536 .f32) (ix2 (0 : Fin 1) l)
      = if 65536 * t.val + l.val < 500000 then 1 else 0 := by
  show FloatOps.sitofp (F := Ideal) .f32 ((IntOp.cmpi .slt (IntOp.addi (Scalar.muli (BitVec.ofNat 32 (i 0).val) 65536#32)
      (iota .tc S1x65536 32 [1] iota_S1x65536_d1_w32 (ix2 (0 : Fin 1) l))) 500000#32).setWidth 32) = _
  rw [iota_single_apply, ht]
  exact maskWord t l

/-- THE PAYLOAD AT AN INDEX: residual plus aggregate plus bias, clipped below at zero, times the mask of the column. -/
theorem pay_apply (i : grid14.Coords) (t : Fin 8) (ht : (i 0).val = t.val) (v0 : Vec Ideal S8x1 .f32) (v10 v12 : Vec Ideal S8x65536 .f32)
    (p : Fin 8) (l : Fin 65536) :
    k14_pay1 (F := Ideal) i v0 v10 v12 (ix2 p l)
      = max (v10 (ix2 p l) + v12 (ix2 p l) + v0 (ix2 p (0 : Fin 1))) 0 * (if 65536 * t.val + l.val < 500000 then 1 else 0) := by
  unfold k14_pay1
  dsimp only
  rw [mulf_apply, maximumf_apply, addf_apply, addf_apply, broadcast_apply, shapeCast_self, shapeCast_self, shapeCast_self,
    broadcastTo_1b_ab_apply, broadcastTo_a1_ab_apply, maskRow_apply i t ht l]
  show max _ (Ideal.ofBits .f32 0x00000000#32) * _ = _
  rw [Ideal.ofBits_zero_f32]

variable (V : (c : Dev nD) → (b : Ref sig .tc) → Buf (Elt Ideal) ((c : Thread nD τ).loc b))

/-- The three arrays the region reads, as it finds them: the layer's input `H`, the aggregated messages, the bias column. -/
abbrev harr (c : Dev nD) : Vec Ideal S8x524288 .f32 := V c (Pipeline.arrRef spec14 0)
abbrev garr (c : Dev nD) : Vec Ideal S8x524288 .f32 := V c (Pipeline.arrRef spec14 1)
abbrev barr (c : Dev nD) : Vec Ideal S8x1 .f32 := V c (Pipeline.arrRef spec14 2)

/-- Their blocks at a grid point. -/
abbrev hblk (c : Dev nD) (t : Fin cfg14.N) : Vec Ideal S8x65536 .f32 := iblk14 V c 0 t
abbrev gblk (c : Dev nD) (t : Fin cfg14.N) : Vec Ideal S8x65536 .f32 := iblk14 V c 1 t
abbrev bblk (c : Dev nD) (t : Fin cfg14.N) : Vec Ideal S8x1 .f32 := iblk14 V c 2 t

/-- WHAT THE REGION COMPUTES, as one array: entry `(ch, n)` is `max (H + agg + bias) 0` there, times the mask of column `n`. -/
def resid (c : Dev nD) : Vec Ideal S8x524288 .f32 :=
  ofCP fun ch n => max (toCP (harr V c) ch n + toCP (garr V c) ch n + toV81 (barr V c) ch) 0 * maskK n

theorem hz : (![0, 0] : Fin 2 → Nat) = fun _ => 0 := funext fun a => by fin_cases a <;> rfl

/-- The grid has eight points. -/
theorem lt8 (t : Fin cfg14.N) : t.val < 8 := Nat.lt_of_lt_of_eq t.isLt (N_14 : cfg14.N = 8)

/-- The printed index maps, decided once over the grid: the grid coordinate is the point; the two tiled inputs and the
    output sit at column block `t`, the bias column at block zero. -/
theorem idx_facts : ∀ t : Fin cfg14.N, (grid14.coords t 0).val = t.val
    ∧ win14_0.index t (0 : Fin 2) = 0 ∧ win14_0.index t (1 : Fin 2) = t.val
    ∧ win14_1.index t (0 : Fin 2) = 0 ∧ win14_1.index t (1 : Fin 2) = t.val
    ∧ win14_2.index t (0 : Fin 2) = 0 ∧ win14_2.index t (1 : Fin 2) = 0
    ∧ win14_3.index t (0 : Fin 2) = 0 ∧ win14_3.index t (1 : Fin 2) = t.val :=
  (by decide +kernel : ∀ t : Fin grid14.N, _)

/-- Lane `l` of the input block at point `t` is column `65536 · t + l` of the input. -/
theorem hblk_apply (c : Dev nD) (t : Fin cfg14.N) (p : Fin 8) (l : Fin 65536) (n : Fin 524288) (hn : n.val = 65536 * t.val + l.val) :
    hblk V c t (ix2 p l) = harr V c (ix2 p n) := by
  obtain ⟨-, e0, e1, -⟩ := idx_facts t
  show V c (Pipeline.arrRef spec14 0) (((cfg14.win 0).blk t).view.emb (ix2 p l)) = V c (Pipeline.arrRef spec14 0) (ix2 p n)
  congr 1
  funext a
  apply Fin.ext
  match a with
  | ⟨0, _⟩ => show win14_0.index t (0 : Fin 2) * 8 + 1 * p.val = p.val; rw [e0]; omega
  | ⟨1, _⟩ => show win14_0.index t (1 : Fin 2) * 65536 + 1 * l.val = n.val; rw [e1, hn]; omega

/-- The same for the aggregated messages. -/
theorem gblk_apply (c : Dev nD) (t : Fin cfg14.N) (p : Fin 8) (l : Fin 65536) (n : Fin 524288) (hn : n.val = 65536 * t.val + l.val) :
    gblk V c t (ix2 p l) = garr V c (ix2 p n) := by
  obtain ⟨-, -, -, e0, e1, -⟩ := idx_facts t
  show V c (Pipeline.arrRef spec14 1) (((cfg14.win 1).blk t).view.emb (ix2 p l)) = V c (Pipeline.arrRef spec14 1) (ix2 p n)
  congr 1
  funext a
  apply Fin.ext
  match a with
  | ⟨0, _⟩ => show win14_1.index t (0 : Fin 2) * 8 + 1 * p.val = p.val; rw [e0]; omega
  | ⟨1, _⟩ => show win14_1.index t (1 : Fin 2) * 65536 + 1 * l.val = n.val; rw [e1, hn]; omega

/-- The bias block is the whole bias column at every point. -/
theorem bblk_apply (c : Dev nD) (t : Fin cfg14.N) (p : Fin 8) :
    bblk V c t (ix2 p (0 : Fin 1)) = barr V c (ix2 p (0 : Fin 1)) := by
  obtain ⟨-, -, -, -, -, e0, e1, -⟩ := idx_facts t
  show V c (Pipeline.arrRef spec14 2) (((cfg14.win 2).blk t).view.emb (ix2 p (0 : Fin 1))) = V c (Pipeline.arrRef spec14 2) (ix2 p (0 : Fin 1))
  congr 1
  funext a
  apply Fin.ext
  match a with
  | ⟨0, _⟩ => show win14_2.index t (0 : Fin 2) * 8 + 1 * p.val = p.val; rw [e0]; omega
  | ⟨1, _⟩ => show win14_2.index t (1 : Fin 2) * 1 + 1 * 0 = 0; rw [e1]

/-- Lane `l` of the output block at point `t` is column `65536 · t + l` of the output. -/
theorem oblk_read (c : Dev nD) (t : Fin cfg14.N) (X : Vec Ideal S8x524288 .f32) (p : Fin 8) (l : Fin 65536) (n : Fin 524288) (hn : n.val = 65536 * t.val + l.val) :
    (((cfg14.win 3).blk t).view.read (Elt Ideal) X : Vec Ideal S8x65536 .f32) (ix2 p l) = X (ix2 p n) := by
  obtain ⟨-, -, -, -, -, -, -, e0, e1⟩ := idx_facts t
  show X (((cfg14.win 3).blk t).view.emb (ix2 p l)) = X (ix2 p n)
  congr 1
  funext a
  apply Fin.ext
  match a with
  | ⟨0, _⟩ => show win14_3.index t (0 : Fin 2) * 8 + 1 * p.val = p.val; rw [e0]; omega
  | ⟨1, _⟩ => show win14_3.index t (1 : Fin 2) * 65536 + 1 * l.val = n.val; rw [e1, hn]; omega

/-- WHAT THE BODY LEAVES at point `t` is block `t` of `resid`. -/
theorem out_eq (c : Dev nD) (t : Fin cfg14.N) :
    out14_3 (grid14.coords t) (hblk V c t) (gblk V c t) (bblk V c t) = ((cfg14.win 3).blk t).view.read (Elt Ideal) (resid V c) := by
  unfold out14_3
  rw [View.canon_unit_zero hz]
  simp only [View.ld_unit_zero (S := S8x65536) hz, View.ld_unit_zero (S := S8x1) hz]
  funext j
  obtain ⟨p, l, rfl⟩ : ∃ (p : Fin 8) (l : Fin 65536), j = ix2 p l := ⟨j 0, j 1, eq_ix2 j⟩
  have ec : (grid14.coords t 0).val = (⟨t.val, lt8 t⟩ : Fin 8).val := (idx_facts t).1
  have hn : (col ⟨t.val, lt8 t⟩ l).val = 65536 * t.val + l.val := rfl
  rw [pay_apply (grid14.coords t) ⟨t.val, lt8 t⟩ ec, hblk_apply V c t p l _ hn, gblk_apply V c t p l _ hn, bblk_apply V c t p,
    oblk_read c t (resid V c) p l _ hn]
  rfl

/-- An index of the output array is in point `t`'s block iff each coordinate is in the block's range on its axis. -/
theorem mem_oblk (t : Fin cfg14.N) (i : S8x524288.Idx) :
    i ∈ ((cfg14.win 3).blk t).view.set ↔ ∀ a : Fin 2, win14_3.index t a * S8x65536.size a ≤ (i a).val ∧ (i a).val < win14_3.index t a * S8x65536.size a + S8x65536.size a := by
  show i ∈ ((View.whole (Pipeline.arrRef spec14 3)).slice (win14_3.rect t)).set ↔ _
  rw [View.set_slice_whole, Rect.mem_set_unit]
  exact Iff.rfl

/-- Every column lies in the block of the point `column / 65536`: the eight blocks tile the array. -/
theorem cover (i : S8x524288.Idx) : ∃ t : Fin cfg14.N, (cfg14.win 3).flush t = true ∧ i ∈ ((cfg14.win 3).blk t).view.set := by
  have h0 : (i 0).val < 8 := (i 0).isLt
  have h1 : (i 1).val < 524288 := (i 1).isLt
  have hN : cfg14.N = 8 := N_14
  have hq : (i 1).val / 65536 < cfg14.N := by rw [hN]; omega
  obtain ⟨-, -, -, -, -, -, -, e0, e1⟩ := idx_facts ⟨(i 1).val / 65536, hq⟩
  refine ⟨⟨(i 1).val / 65536, hq⟩, flush14_3 _, ?_⟩
  rw [mem_oblk]
  intro a
  match a with
  | ⟨0, _⟩ =>
    show win14_3.index ⟨(i 1).val / 65536, hq⟩ (0 : Fin 2) * 8 ≤ (i 0).val ∧ (i 0).val < win14_3.index ⟨(i 1).val / 65536, hq⟩ (0 : Fin 2) * 8 + 8
    rw [e0]; omega
  | ⟨1, _⟩ =>
    show win14_3.index ⟨(i 1).val / 65536, hq⟩ (1 : Fin 2) * 65536 ≤ (i 1).val ∧ (i 1).val < win14_3.index ⟨(i 1).val / 65536, hq⟩ (1 : Fin 2) * 65536 + 65536
    rw [e1]
    show (i 1).val / 65536 * 65536 ≤ (i 1).val ∧ (i 1).val < (i 1).val / 65536 * 65536 + 65536
    omega

/-- WHAT POINT `t` WRITES BACK is block `t` of `resid`. -/
theorem flushed_eq (c : Dev nD) (t : Fin cfg14.N) :
    (dat14 (F := Ideal) V c).flushed 3 t = ((cfg14.win 3).blk t).view.read (Elt Ideal) (resid V c) := by
  show (cfg14.win 3).cut (grid14.coords t) ((dat14 (F := Ideal) V c).after 3 t) = _
  rw [after14_3]
  exact out_eq V c t

/-- THE OUTPUT ARRAY after the eight points is `resid`: every block written back is its block, and the blocks tile it. -/
theorem final (c : Dev nD) : (dat14 (F := Ideal) V c).arrAt 3 cfg14.N = resid V c :=
  (dat14 (F := Ideal) V c).arrAt_eq_of_cover 3 (resid V c) (fun t _ => flushed_eq V c t) cover

/-- THE REGION'S VALUE, by coordinates: channel `ch`, column `n` of the output is the residual sum clipped at zero, masked
    to the columns of real nodes. -/
theorem resid2_val (c : Dev nD) :
    toCP ((dat14 (F := Ideal) V c).arrAt 3 cfg14.N)
      = fun ch n => max (toCP (V c (Pipeline.arrRef spec14 0)) ch n + toCP (V c (Pipeline.arrRef spec14 1)) ch n
          + toV81 (V c (Pipeline.arrRef spec14 2)) ch) 0 * maskK n :=
  (congrArg toCP (final V c)).trans (toCP_ofCP _)

end Cert.KernelIdeal.Val14

end
-- ==== Proof.KLayer4.lean ====
/-
  Layer 0 of the kernel program as one step on the channel-major activations.
  The program runs the layer as three pipelined regions with host stretches between them. Region 0 reads the
  activations H and leaves the row sums and the row sums of squares; the first host stretch divides them by the
  number of nodes into the batch mean and the batch variance (the mean of the squares minus the squared mean) and
  cuts the layer's row out of the scales, the shifts and the weights; region 1 normalises H, scales, shifts and
  applies the transposed weights; the next host stretches take the first N columns node-major through the edge
  aggregation and pad the result back, and cut the layer's row out of the biases; region 2 adds H, the padded
  aggregate and the bias, clamps below at zero and zeroes the padding.
  Each region and each stretch is read by its own module. Here the readings are chained: a buffer a region only
  reads leaves the region as it entered, a buffer a region or a stretch does not touch crosses it unchanged, and
  the five readings then compose to the layer's closed form `layerK` at the contents the layer was entered with.
  The edge lists, the edge norm and the program's arguments cross the whole layer unchanged.
-/
import proofs.«143139_j73710228734964_1_alg».proof.Proof.KernelIdealFrameP
import proofs.«143139_j73710228734964_1_alg».proof.Proof.Spec
import proofs.«143139_j73710228734964_1_alg».proof.Proof.Conv
import proofs.«143139_j73710228734964_1_alg».proof.Proof.KStats12
import proofs.«143139_j73710228734964_1_alg».proof.Proof.KHost13
import proofs.«143139_j73710228734964_1_alg».proof.Proof.KTransform13
import proofs.«143139_j73710228734964_1_alg».proof.Proof.KHost14
import proofs.«143139_j73710228734964_1_alg».proof.Proof.KResid14
import Idealize.ShloMosaic.Lib.StableHlo.Run
import Idealize.ShloMosaic.Lib.Pipeline.Cells
import Idealize.ShloMosaic.Lib.ValueIdx

set_option maxRecDepth 16384

noncomputable section

namespace Cert.KernelIdeal.Layer4

open Cert.KernelIdeal Cert.KernelIdeal.Gen Cert.KernelIdeal.GenP Cert.GCN
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)

/-- No operation of the host stretch writes the buffer: each operation writes one buffer, and it is another one. -/
local macro "not_written" : tactic => `(tactic|
  exact List.forall_iff_forall_mem.mp (by
    simp only [hostOps13, hostOps14, hostOps14_1, hostOps14_2, List.flatten_cons, List.flatten_nil, List.append_nil,
      List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

/-- A host stretch leaves a buffer that none of its operations writes as it was. -/
local macro "host_kept" : tactic => `(tactic|
  exact StableHlo.after_of_forall_not_mem (b := _) _ _ (by not_written))

/-! ## The activations H cross the layer: every region only reads them, no stretch writes them -/

/-- Region 0 reads H through an input window: it leaves as it entered. -/
theorem W31_main_v35 : W31 m ρ c (Proc.devRef .tc main_v187) = W30 m ρ c (Proc.devRef .tc main_v187) :=
  (W31_arr m ρ c 0).trans (((dat12 (V30 m ρ) c).arrAt_in 0 rfl _).trans (A_eq12 (V30 m ρ) c 0))

theorem W32_main_v35 : W32 m ρ c (Proc.devRef .tc main_v187) = W30 m ρ c (Proc.devRef .tc main_v187) :=
  calc W32 m ρ c (Proc.devRef .tc main_v187)
    _ = W31 m ρ c (Proc.devRef .tc main_v187) := by host_kept
    _ = W30 m ρ c (Proc.devRef .tc main_v187) := W31_main_v35 m ρ c

/-- Region 1 reads H through an input window too. -/
theorem W33_main_v35 : W33 m ρ c (Proc.devRef .tc main_v187) = W30 m ρ c (Proc.devRef .tc main_v187) :=
  calc W33 m ρ c (Proc.devRef .tc main_v187)
    _ = W32 m ρ c (Proc.devRef .tc main_v187) :=
        (W33_arr m ρ c 0).trans (((dat13 (V32 m ρ) c).arrAt_in 0 rfl _).trans (A_eq13 (V32 m ρ) c 0))
    _ = W30 m ρ c (Proc.devRef .tc main_v187) := W32_main_v35 m ρ c

theorem W36_main_v35 : W36 m ρ c (Proc.devRef .tc main_v187) = W30 m ρ c (Proc.devRef .tc main_v187) :=
  calc W36 m ρ c (Proc.devRef .tc main_v187)
    _ = W35 m ρ c (Proc.devRef .tc main_v187) := by host_kept
    _ = W34 m ρ c (Proc.devRef .tc main_v187) := by host_kept
    _ = W33 m ρ c (Proc.devRef .tc main_v187) := by host_kept
    _ = W30 m ρ c (Proc.devRef .tc main_v187) := W33_main_v35 m ρ c

/-! ## A buffer the layer touches nowhere crosses it unchanged -/

/-- Through region 0, the first stretch and region 1: the buffer is no window's array of either region and no
    operation of the stretch writes it. -/
theorem W33_kept {b : Ref sig .tc} (h0 : ∀ w, Pipeline.arrRef spec12 w ≠ b) (h1 : ∀ w, Pipeline.arrRef spec13 w ≠ b)
    (g1 : ∀ op ∈ (hostOps13 : List (HloOp τ sig (Elt Ideal))), Proc.devRef (τ := τ) .tc b ∉ op.writes) :
    W33 m ρ c (Proc.devRef .tc b) = W30 m ρ c (Proc.devRef .tc b) :=
  calc W33 m ρ c (Proc.devRef .tc b)
    _ = W32 m ρ c (Proc.devRef .tc b) := W33_of_ne m ρ c b h1
    _ = W31 m ρ c (Proc.devRef .tc b) := StableHlo.after_of_forall_not_mem (b := Proc.devRef .tc b) _ _ g1
    _ = W30 m ρ c (Proc.devRef .tc b) := W31_of_ne m ρ c b h0

/-- Through the three stretches before region 2: no operation of them writes the buffer. -/
theorem W36_kept {b : Ref sig .tc}
    (g2 : ∀ op ∈ (hostOps14 : List (HloOp τ sig (Elt Ideal))), Proc.devRef (τ := τ) .tc b ∉ op.writes)
    (g2_1 : ∀ op ∈ (hostOps14_1 : List (HloOp τ sig (Elt Ideal))), Proc.devRef (τ := τ) .tc b ∉ op.writes)
    (g2_2 : ∀ op ∈ (hostOps14_2 : List (HloOp τ sig (Elt Ideal))), Proc.devRef (τ := τ) .tc b ∉ op.writes) :
    W36 m ρ c (Proc.devRef .tc b) = W33 m ρ c (Proc.devRef .tc b) :=
  calc W36 m ρ c (Proc.devRef .tc b)
    _ = W35 m ρ c (Proc.devRef .tc b) := StableHlo.after_of_forall_not_mem (b := Proc.devRef .tc b) _ _ g2_2
    _ = W34 m ρ c (Proc.devRef .tc b) := StableHlo.after_of_forall_not_mem (b := Proc.devRef .tc b) _ _ g2_1
    _ = W33 m ρ c (Proc.devRef .tc b) := StableHlo.after_of_forall_not_mem (b := Proc.devRef .tc b) _ _ g2

/-- Through the whole layer. -/
theorem W37_kept {b : Ref sig .tc} (h0 : ∀ w, Pipeline.arrRef spec12 w ≠ b) (h1 : ∀ w, Pipeline.arrRef spec13 w ≠ b)
    (h2 : ∀ w, Pipeline.arrRef spec14 w ≠ b)
    (g1 : ∀ op ∈ (hostOps13 : List (HloOp τ sig (Elt Ideal))), Proc.devRef (τ := τ) .tc b ∉ op.writes)
    (g2 : ∀ op ∈ (hostOps14 : List (HloOp τ sig (Elt Ideal))), Proc.devRef (τ := τ) .tc b ∉ op.writes)
    (g2_1 : ∀ op ∈ (hostOps14_1 : List (HloOp τ sig (Elt Ideal))), Proc.devRef (τ := τ) .tc b ∉ op.writes)
    (g2_2 : ∀ op ∈ (hostOps14_2 : List (HloOp τ sig (Elt Ideal))), Proc.devRef (τ := τ) .tc b ∉ op.writes) :
    W37 m ρ c (Proc.devRef .tc b) = W30 m ρ c (Proc.devRef .tc b) :=
  calc W37 m ρ c (Proc.devRef .tc b)
    _ = W36 m ρ c (Proc.devRef .tc b) := W37_of_ne m ρ c b h2
    _ = W33 m ρ c (Proc.devRef .tc b) := W36_kept m ρ c g2 g2_1 g2_2
    _ = W30 m ρ c (Proc.devRef .tc b) := W33_kept m ρ c h0 h1 g1

theorem W33_main_v3 : W33 m ρ c (Proc.devRef .tc main_v3) = W30 m ρ c (Proc.devRef .tc main_v3) :=
  W33_kept m ρ c (b := main_v3) (by decide) (by decide) (by not_written)
theorem W33_main_v6 : W33 m ρ c (Proc.devRef .tc main_v6) = W30 m ρ c (Proc.devRef .tc main_v6) :=
  W33_kept m ρ c (b := main_v6) (by decide) (by decide) (by not_written)
theorem W33_main_v26 : W33 m ρ c (Proc.devRef .tc main_v26) = W30 m ρ c (Proc.devRef .tc main_v26) :=
  W33_kept m ρ c (b := main_v26) (by decide) (by decide) (by not_written)
theorem W33_main_arg7 : W33 m ρ c (Proc.devRef .tc main_arg7) = W30 m ρ c (Proc.devRef .tc main_arg7) :=
  W33_kept m ρ c (b := main_arg7) (by decide) (by decide) (by not_written)

theorem W37_main_v3 : W37 m ρ c (Proc.devRef .tc main_v3) = W30 m ρ c (Proc.devRef .tc main_v3) :=
  W37_kept m ρ c (b := main_v3) (by decide) (by decide) (by decide) (by not_written) (by not_written) (by not_written) (by not_written)
theorem W37_main_v6 : W37 m ρ c (Proc.devRef .tc main_v6) = W30 m ρ c (Proc.devRef .tc main_v6) :=
  W37_kept m ρ c (b := main_v6) (by decide) (by decide) (by decide) (by not_written) (by not_written) (by not_written) (by not_written)
theorem W37_main_v26 : W37 m ρ c (Proc.devRef .tc main_v26) = W30 m ρ c (Proc.devRef .tc main_v26) :=
  W37_kept m ρ c (b := main_v26) (by decide) (by decide) (by decide) (by not_written) (by not_written) (by not_written) (by not_written)
theorem W37_main_arg0 : W37 m ρ c (Proc.devRef .tc main_arg0) = W30 m ρ c (Proc.devRef .tc main_arg0) :=
  W37_kept m ρ c (b := main_arg0) (by decide) (by decide) (by decide) (by not_written) (by not_written) (by not_written) (by not_written)
theorem W37_main_arg1 : W37 m ρ c (Proc.devRef .tc main_arg1) = W30 m ρ c (Proc.devRef .tc main_arg1) :=
  W37_kept m ρ c (b := main_arg1) (by decide) (by decide) (by decide) (by not_written) (by not_written) (by not_written) (by not_written)
theorem W37_main_arg2 : W37 m ρ c (Proc.devRef .tc main_arg2) = W30 m ρ c (Proc.devRef .tc main_arg2) :=
  W37_kept m ρ c (b := main_arg2) (by decide) (by decide) (by decide) (by not_written) (by not_written) (by not_written) (by not_written)
theorem W37_main_arg3 : W37 m ρ c (Proc.devRef .tc main_arg3) = W30 m ρ c (Proc.devRef .tc main_arg3) :=
  W37_kept m ρ c (b := main_arg3) (by decide) (by decide) (by decide) (by not_written) (by not_written) (by not_written) (by not_written)
theorem W37_main_arg4 : W37 m ρ c (Proc.devRef .tc main_arg4) = W30 m ρ c (Proc.devRef .tc main_arg4) :=
  W37_kept m ρ c (b := main_arg4) (by decide) (by decide) (by decide) (by not_written) (by not_written) (by not_written) (by not_written)
theorem W37_main_arg5 : W37 m ρ c (Proc.devRef .tc main_arg5) = W30 m ρ c (Proc.devRef .tc main_arg5) :=
  W37_kept m ρ c (b := main_arg5) (by decide) (by decide) (by decide) (by not_written) (by not_written) (by not_written) (by not_written)
theorem W37_main_arg6 : W37 m ρ c (Proc.devRef .tc main_arg6) = W30 m ρ c (Proc.devRef .tc main_arg6) :=
  W37_kept m ρ c (b := main_arg6) (by decide) (by decide) (by decide) (by not_written) (by not_written) (by not_written) (by not_written)
theorem W37_main_arg7 : W37 m ρ c (Proc.devRef .tc main_arg7) = W30 m ρ c (Proc.devRef .tc main_arg7) :=
  W37_kept m ρ c (b := main_arg7) (by decide) (by decide) (by decide) (by not_written) (by not_written) (by not_written) (by not_written)
theorem W37_main_arg8 : W37 m ρ c (Proc.devRef .tc main_arg8) = W30 m ρ c (Proc.devRef .tc main_arg8) :=
  W37_kept m ρ c (b := main_arg8) (by decide) (by decide) (by decide) (by not_written) (by not_written) (by not_written) (by not_written)
theorem W37_main_arg9 : W37 m ρ c (Proc.devRef .tc main_arg9) = W30 m ρ c (Proc.devRef .tc main_arg9) :=
  W37_kept m ρ c (b := main_arg9) (by decide) (by decide) (by decide) (by not_written) (by not_written) (by not_written) (by not_written)
theorem W37_main_arg10 : W37 m ρ c (Proc.devRef .tc main_arg10) = W30 m ρ c (Proc.devRef .tc main_arg10) :=
  W37_kept m ρ c (b := main_arg10) (by decide) (by decide) (by decide) (by not_written) (by not_written) (by not_written) (by not_written)
theorem W37_main_arg11 : W37 m ρ c (Proc.devRef .tc main_arg11) = W30 m ρ c (Proc.devRef .tc main_arg11) :=
  W37_kept m ρ c (b := main_arg11) (by decide) (by decide) (by decide) (by not_written) (by not_written) (by not_written) (by not_written)

/-! ## Region 0: the row sums and the row sums of squares of H -/

theorem W31_main_v36_0 :
    toV81 (W31 m ρ c (Proc.devRef .tc main_v188_0)) = sumK (toCP (W30 m ρ c (Proc.devRef .tc main_v187))) :=
  (congrArg toV81 (W31_arr m ρ c 1)).trans (Val12.stats0_sum (V30 m ρ) c)

theorem W31_main_v36_1 :
    toV81 (W31 m ρ c (Proc.devRef .tc main_v188_1)) = ssqK (toCP (W30 m ρ c (Proc.devRef .tc main_v187))) :=
  (congrArg toV81 (W31_arr m ρ c 2)).trans (Val12.stats0_ssq (V30 m ρ) c)

/-! ## The first stretch: the batch mean and variance of H, and the layer's scale, shift and weights -/

theorem W32_main_v38 :
    toV81 (W32 m ρ c (Proc.devRef .tc main_v190)) = meanK (toCP (W30 m ρ c (Proc.devRef .tc main_v187))) := by
  refine (Host13.mean1 (W31 m ρ c)).trans ?_
  rw [W31_main_v36_0 m ρ c]
  rfl

theorem W32_main_v42 :
    toV81 (W32 m ρ c (Proc.devRef .tc main_v194)) = varK (toCP (W30 m ρ c (Proc.devRef .tc main_v187))) := by
  refine (Host13.var1 (W31 m ρ c)).trans ?_
  rw [W31_main_v36_0 m ρ c, W31_main_v36_1 m ρ c]
  rfl

theorem W32_main_v45 :
    toV81 (W32 m ρ c (Proc.devRef .tc main_v197)) = fun ch => toM8 (W30 m ρ c (Proc.devRef .tc main_arg4)) (4 : Fin 8) ch := by
  refine (Host13.gamma1 (W31 m ρ c)).trans ?_
  rw [W31_of_ne m ρ c main_arg4 (by decide)]

theorem W32_main_v48 :
    toV81 (W32 m ρ c (Proc.devRef .tc main_v200)) = fun ch => toM8 (W30 m ρ c (Proc.devRef .tc main_arg5)) (4 : Fin 8) ch := by
  refine (Host13.beta1 (W31 m ρ c)).trans ?_
  rw [W31_of_ne m ρ c main_arg5 (by decide)]

theorem W32_main_v51 :
    toM8 (W32 m ρ c (Proc.devRef .tc main_v203))
      = fun a b => (W30 m ρ c (Proc.devRef .tc main_arg6) : S8x8x8.Idx → EReal) (ix3 (4 : Fin 8) b a) := by
  refine (Host13.wT1 (W31 m ρ c)).trans ?_
  rw [W31_of_ne m ρ c main_arg6 (by decide)]

/-! ## Region 1: the normalised, scaled, shifted and transformed activations -/

theorem W33_main_v52 :
    toCP (W33 m ρ c (Proc.devRef .tc main_v204))
      = hwK (toCP (W30 m ρ c (Proc.devRef .tc main_v187)))
          (fun ch => toM8 (W30 m ρ c (Proc.devRef .tc main_arg4)) (4 : Fin 8) ch)
          (fun ch => toM8 (W30 m ρ c (Proc.devRef .tc main_arg5)) (4 : Fin 8) ch)
          (fun a b => (W30 m ρ c (Proc.devRef .tc main_arg6) : S8x8x8.Idx → EReal) (ix3 (4 : Fin 8) b a)) := by
  refine (congrArg toCP (W33_arr m ρ c 6)).trans ((Val13.transform1_val (V32 m ρ) c).trans ?_)
  show (fun co n => ∑ ci : Fin 8, toM8 (W32 m ρ c (Proc.devRef .tc main_v203)) co ci
          * ((toCP (W32 m ρ c (Proc.devRef .tc main_v187)) ci n - toV81 (W32 m ρ c (Proc.devRef .tc main_v190)) ci)
              * Ideal.rsqrt (toV81 (W32 m ρ c (Proc.devRef .tc main_v194)) ci + eps)
              * toV81 (W32 m ρ c (Proc.devRef .tc main_v197)) ci
              + toV81 (W32 m ρ c (Proc.devRef .tc main_v200)) ci)) = _
  rw [W32_main_v35 m ρ c, W32_main_v38 m ρ c, W32_main_v42 m ρ c, W32_main_v45 m ρ c, W32_main_v48 m ρ c, W32_main_v51 m ρ c]
  rfl

/-! ## The stretches before region 2: the padded aggregate and the layer's bias -/

theorem W36_main_v69 :
    toCP (W36 m ρ c (Proc.devRef .tc main_v221))
      = padT (toNC (Host14.AGG (W30 m ρ c (Proc.devRef .tc main_v3)) (W30 m ρ c (Proc.devRef .tc main_v6))
          (W30 m ρ c (Proc.devRef .tc main_v26))
          (ofNC (unpadT (hwK (toCP (W30 m ρ c (Proc.devRef .tc main_v187)))
            (fun ch => toM8 (W30 m ρ c (Proc.devRef .tc main_arg4)) (4 : Fin 8) ch)
            (fun ch => toM8 (W30 m ρ c (Proc.devRef .tc main_arg5)) (4 : Fin 8) ch)
            (fun a b => (W30 m ρ c (Proc.devRef .tc main_arg6) : S8x8x8.Idx → EReal) (ix3 (4 : Fin 8) b a))))))) := by
  have h87 : W36 m ρ c (Proc.devRef .tc main_v221) = W35 m ρ c (Proc.devRef .tc main_v221) := by host_kept
  refine (congrArg toCP h87).trans ((Host14.agg2 (W33 m ρ c)).trans ?_)
  rw [W33_main_v3 m ρ c, W33_main_v6 m ρ c, W33_main_v26 m ρ c, W33_main_v52 m ρ c]

theorem W36_main_v72 :
    toV81 (W36 m ρ c (Proc.devRef .tc main_v224)) = fun ch => toM8 (W30 m ρ c (Proc.devRef .tc main_arg7)) (4 : Fin 8) ch := by
  have h75 : W35 m ρ c (Proc.devRef .tc main_arg7) = W33 m ρ c (Proc.devRef .tc main_arg7) :=
    (show W35 m ρ c (Proc.devRef .tc main_arg7) = W34 m ρ c (Proc.devRef .tc main_arg7) by host_kept).trans
      (show W34 m ρ c (Proc.devRef .tc main_arg7) = W33 m ρ c (Proc.devRef .tc main_arg7) by host_kept)
  refine (Host14.bias2 (W35 m ρ c)).trans ?_
  rw [h75, W33_main_arg7 m ρ c]

/-! ## Region 2: the residual, the aggregate and the bias, clamped and masked: the layer -/

/-- The kernel program's layer 0 is the layer's closed form at the contents it was entered with. -/
theorem layer0_step :
    toCP (W37 m ρ c (Proc.devRef .tc main_v225))
      = layerK
          (fun hw => toNC (Host14.AGG (W30 m ρ c (Proc.devRef .tc main_v3)) (W30 m ρ c (Proc.devRef .tc main_v6))
            (W30 m ρ c (Proc.devRef .tc main_v26)) (ofNC hw)))
          (toCP (W30 m ρ c (Proc.devRef .tc main_v187)))
          (fun ch => toM8 (W30 m ρ c (Proc.devRef .tc main_arg4)) (4 : Fin 8) ch)
          (fun ch => toM8 (W30 m ρ c (Proc.devRef .tc main_arg5)) (4 : Fin 8) ch)
          (fun a b => (W30 m ρ c (Proc.devRef .tc main_arg6) : S8x8x8.Idx → EReal) (ix3 (4 : Fin 8) b a))
          (fun ch => toM8 (W30 m ρ c (Proc.devRef .tc main_arg7)) (4 : Fin 8) ch) := by
  refine (congrArg toCP (W37_arr m ρ c 3)).trans ((Val14.resid2_val (V36 m ρ) c).trans ?_)
  show (fun ch n => max (toCP (W36 m ρ c (Proc.devRef .tc main_v187)) ch n + toCP (W36 m ρ c (Proc.devRef .tc main_v221)) ch n
          + toV81 (W36 m ρ c (Proc.devRef .tc main_v224)) ch) 0 * maskK n) = _
  rw [W36_main_v35 m ρ c, W36_main_v69 m ρ c, W36_main_v72 m ρ c]
  rfl

/-- The edge sources, the edge targets, the edge norm and the program's arguments hold after the layer what they
    held before it. -/
theorem layer0_kept :
    W37 m ρ c (Proc.devRef .tc main_v3) = W30 m ρ c (Proc.devRef .tc main_v3)
    ∧ W37 m ρ c (Proc.devRef .tc main_v6) = W30 m ρ c (Proc.devRef .tc main_v6)
    ∧ W37 m ρ c (Proc.devRef .tc main_v26) = W30 m ρ c (Proc.devRef .tc main_v26)
    ∧ W37 m ρ c (Proc.devRef .tc main_arg0) = W30 m ρ c (Proc.devRef .tc main_arg0)
    ∧ W37 m ρ c (Proc.devRef .tc main_arg1) = W30 m ρ c (Proc.devRef .tc main_arg1)
    ∧ W37 m ρ c (Proc.devRef .tc main_arg2) = W30 m ρ c (Proc.devRef .tc main_arg2)
    ∧ W37 m ρ c (Proc.devRef .tc main_arg3) = W30 m ρ c (Proc.devRef .tc main_arg3)
    ∧ W37 m ρ c (Proc.devRef .tc main_arg4) = W30 m ρ c (Proc.devRef .tc main_arg4)
    ∧ W37 m ρ c (Proc.devRef .tc main_arg5) = W30 m ρ c (Proc.devRef .tc main_arg5)
    ∧ W37 m ρ c (Proc.devRef .tc main_arg6) = W30 m ρ c (Proc.devRef .tc main_arg6)
    ∧ W37 m ρ c (Proc.devRef .tc main_arg7) = W30 m ρ c (Proc.devRef .tc main_arg7)
    ∧ W37 m ρ c (Proc.devRef .tc main_arg8) = W30 m ρ c (Proc.devRef .tc main_arg8)
    ∧ W37 m ρ c (Proc.devRef .tc main_arg9) = W30 m ρ c (Proc.devRef .tc main_arg9)
    ∧ W37 m ρ c (Proc.devRef .tc main_arg10) = W30 m ρ c (Proc.devRef .tc main_arg10)
    ∧ W37 m ρ c (Proc.devRef .tc main_arg11) = W30 m ρ c (Proc.devRef .tc main_arg11) :=
  ⟨W37_main_v3 m ρ c, W37_main_v6 m ρ c, W37_main_v26 m ρ c, W37_main_arg0 m ρ c, W37_main_arg1 m ρ c, W37_main_arg2 m ρ c,
    W37_main_arg3 m ρ c, W37_main_arg4 m ρ c, W37_main_arg5 m ρ c, W37_main_arg6 m ρ c, W37_main_arg7 m ρ c,
    W37_main_arg8 m ρ c, W37_main_arg9 m ρ c, W37_main_arg10 m ρ c, W37_main_arg11 m ρ c⟩

end Cert.KernelIdeal.Layer4

end
-- ==== Proof.KStats15.lean ====
/-
  The value of region 0, the stats kernel of the first layer: over the eight grid points the two `[8, 1]` outputs
  accumulate, per row of the `[8, 524288]` input, the sum and the sum of squares of its eight tiles of 65536
  lanes; the arrays they are written back to end holding the row sums and the row sums of squares.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val15

open Cert.KernelIdeal Cert.KernelIdeal.Gen Cert.KernelIdeal.GenP Cert.GCN
open Idealize.ShloMosaic Idealize.ShloMosaic.TcCoe Idealize.ShloMosaic.ValueIdx Idealize.ShloMosaic.Tactic
open Idealize.SL.Sem
open Idealize.ShloMosaic.Pipeline (Dat)
open scoped BigOperators

/-! ## The body's arithmetic at an index -/

/-- An `[a]` vector cast to an `[a, 1]` column reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row `r` of the reduced `[8]` vector with lane `k` put back is `(r, k)`. -/
theorem lane_lift (h : S8x65536.Reduces [1] S8) (r : Fin 8) (k : Fin (S8x65536.size 1)) :
    h.lift (ix1 r) k = ix2 r (⟨k.val, k.isLt⟩ : Fin 65536) := by
  funext c; apply Fin.ext
  fin_cases c <;> rfl

/-- The lane sum of an `[8, 65536]` block, at row `r`. -/
theorem laneSum_apply (x : FVec Ideal S8x65536 .f32) (h : S8x65536.Reduces [1] S8) (hφ : FKind.Formats .f32)
    (hacc : (0x00000000#32 : BitVec 32) = FKind.add.neutral .f32 hφ) (r : Fin 8) :
    multiReduction .add [1] S8 x 0x00000000#32 h hφ hacc (ix1 r) = ∑ l : Fin 65536, x (ix2 r l) :=
  (Ideal.multiReduction_add_single x 0x00000000#32 h hφ hacc (ix1 r)).trans
    (Finset.sum_congr rfl fun k _ => congrArg x (lane_lift h r k))

/-- The running row sum: what the buffer held plus the block's lane sum. -/
theorem pay4_apply (x : Vec Ideal S8x65536 .f32) (xo : Vec Ideal S8x1 .f32) (r : Fin 8) :
    k15_pay4 (F := Ideal) x xo (ix2 r 0) = xo (ix2 r 0) + ∑ l : Fin 65536, x (ix2 r l) := by
  unfold k15_pay4 k15_pay3
  dsimp only
  rw [addf_apply, shapeCast_self, shapeCast_self, shapeCast_a_a1_apply]
  exact congrArg (xo (ix2 r 0) + ·) (laneSum_apply x _ _ _ r)

/-- The running row sum of squares. -/
theorem pay5_apply (x : Vec Ideal S8x65536 .f32) (xo : Vec Ideal S8x1 .f32) (r : Fin 8) :
    k15_pay5 (F := Ideal) x xo (ix2 r 0) = xo (ix2 r 0) + ∑ l : Fin 65536, x (ix2 r l) * x (ix2 r l) := by
  unfold k15_pay5 k15_pay3
  dsimp only
  rw [addf_apply, shapeCast_self, shapeCast_self, shapeCast_a_a1_apply]
  exact congrArg (xo (ix2 r 0) + ·) (laneSum_apply (mulf x x) _ _ _ r)

/-- The reset value is zero. -/
theorem pay1_apply (j : S8x1.Idx) : k15_pay1 (F := Ideal) j = 0 := Ideal.ofBits_zero_f32
theorem pay2_apply (j : S8x1.Idx) : k15_pay2 (F := Ideal) j = 0 := Ideal.ofBits_zero_f32

/-! ## The input block at a point -/

variable {F : FTy → Type} [FloatOps F]
variable (V : (c : Dev nD) → (b : Ref sig .tc) → Buf (Elt F) ((c : Thread nD τ).loc b))

/-- The input array as the region finds it, and its block at a point, over their literal shapes. -/
abbrev harr (c : Dev nD) : Vec F S8x524288 .f32 := V c (Pipeline.arrRef spec15 0)
abbrev hblk (c : Dev nD) (t : Fin cfg15.N) : Vec F S8x65536 .f32 := iblk15 V c 0 t

/-- The input window's block index at point `t`: row block 0, column block `t`. -/
theorem idx_in : ∀ t : Fin cfg15.N, win15_0.index t 0 = 0 ∧ win15_0.index t 1 = t.val :=
  (by decide +kernel : ∀ t : Fin grid15.N, win15_0.index t 0 = 0 ∧ win15_0.index t 1 = t.val)

/-- The input window's block at point `t` is columns `65536 t … 65536 t + 65535` of the array. -/
theorem blk_read (c : Dev nD) (t : Fin cfg15.N) (t' : Fin 8) (ht : t'.val = t.val) (r : Fin 8) (l : Fin 65536) :
    hblk V c t (ix2 r l) = harr V c (ix2 r (col t' l)) := by
  have hi := idx_in t
  unfold hblk iblk15
  rw [View.read_apply]
  show V c (Pipeline.arrRef spec15 0) _ = V c (Pipeline.arrRef spec15 0) _
  congr 1
  funext a
  apply Fin.ext
  match a with
  | ⟨0, _⟩ => show win15_0.index t 0 * 8 + 1 * r.val = r.val; rw [hi.1]; omega
  | ⟨1, _⟩ => show win15_0.index t 1 * 65536 + 1 * l.val = 65536 * t'.val + l.val; rw [hi.2, ht]; omega

/-! ## What each case of the body leaves in the outputs -/

theorem hz : (![0, 0] : Fin 2 → Nat) = fun _ => 0 := funext fun a => by fin_cases a <;> rfl

/-- At a later point output 1 is left at what it held plus the block's lane sums. -/
theorem out_B_1 (c : Dev nD) (i : grid15.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : ¬cond15_0 i) (x : Vec F S8x65536 .f32) (xo1 xo2 : Vec F S8x1 .f32) :
    out15_B_1 c i a1 h1 a2 h2 a3 h3 hc x xo1 xo2 = k15_pay4 x xo1 := by
  unfold out15_B_1
  rw [View.read_writes_eq_canon _ _ _ (cover15_B_1 c i a1 h1 a2 h2 a3 h3 hc x xo1 xo2)]
  unfold kernelRun15_B
  dsimp only
  sl_unfold_words
  rw [View.canon_unit_zero hz]
  simp only [View.readAt_eq_ld, h1.read_unread, h2.read_unread, h3.read_unread, View.ld_unit_zero (S := S8x1) hz,
    View.ld_unit_zero (S := S8x65536) hz]

/-- At a later point output 2 is left at what it held plus the lane sums of the block's squares. -/
theorem out_B_2 (c : Dev nD) (i : grid15.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : ¬cond15_0 i) (x : Vec F S8x65536 .f32) (xo1 xo2 : Vec F S8x1 .f32) :
    out15_B_2 c i a1 h1 a2 h2 a3 h3 hc x xo1 xo2 = k15_pay5 x xo2 := by
  unfold out15_B_2
  rw [View.read_writes_eq_canon _ _ _ (cover15_B_2 c i a1 h1 a2 h2 a3 h3 hc x xo1 xo2)]
  unfold kernelRun15_B
  dsimp only
  sl_unfold_words
  rw [View.canon_unit_zero hz]
  simp only [View.readAt_eq_ld, h1.read_unread, h2.read_unread, h3.read_unread, View.ld_unit_zero (S := S8x1) hz,
    View.ld_unit_zero (S := S8x65536) hz]

/-- At the first point output 1 is reset to zero, read back, and left at zero plus the block's lane sums. -/
theorem out_A_1 (c : Dev nD) (i : grid15.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : cond15_0 i) (x : Vec F S8x65536 .f32) :
    out15_A_1 c i a1 h1 a2 h2 a3 h3 hc x = k15_pay4 x (k15_pay1 (F := F)) := by
  unfold out15_A_1
  rw [View.read_writes_eq_canon _ _ _ (cover15_A_1 c i a1 h1 a2 h2 a3 h3 hc x)]
  unfold kernelRun15_A
  dsimp only
  sl_unfold_words
  rw [View.canon_cons_unit_zero (S := S8x1) hz, View.readCov_unit_zero (S := S8x1) _ hz]
  simp only [View.readAt_eq_ld, h1.read_unread, View.ld_unit_zero (S := S8x65536) hz]

/-- At the first point output 2 is reset to zero, read back, and left at zero plus the lane sums of the block's squares. -/
theorem out_A_2 (c : Dev nD) (i : grid15.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : cond15_0 i) (x : Vec F S8x65536 .f32) :
    out15_A_2 c i a1 h1 a2 h2 a3 h3 hc x = k15_pay5 x (k15_pay2 (F := F)) := by
  unfold out15_A_2
  rw [View.read_writes_eq_canon _ _ _ (cover15_A_2 c i a1 h1 a2 h2 a3 h3 hc x)]
  unfold kernelRun15_A
  dsimp only
  sl_unfold_words
  rw [View.canon_cons_unit_zero (S := S8x1) hz, View.readCov_unit_zero (S := S8x1) _ hz]
  simp only [View.readAt_eq_ld, h1.read_unread, View.ld_unit_zero (S := S8x65536) hz]

/-! ## The outputs after each point -/

/-- At the first point: the reset value plus the block's contribution. -/
theorem outsAt_A (c : Dev nD) (t : Fin cfg15.N) (h0 : t.val % 8 = 0) :
    outsAt15 V c t.val t.isLt
      = (k15_pay4 (hblk V c t) (k15_pay1 (F := F)), k15_pay5 (hblk V c t) (k15_pay2 (F := F))) := by
  rw [outsAt15_A V c t h0,
    out_A_1 c (grid15.coords t) (ms15_0 t) (hs15_0 t) (ms15_1 t) (hs15_1 t) (ms15_2 t) (hs15_2 t) ((hcond15_0 t).mpr h0) (iblk15 V c 0 t),
    out_A_2 c (grid15.coords t) (ms15_0 t) (hs15_0 t) (ms15_1 t) (hs15_1 t) (ms15_2 t) (hs15_2 t) ((hcond15_0 t).mpr h0) (iblk15 V c 0 t)]

/-- At a later point: what the point before left plus the block's contribution. -/
theorem outsAt_B (c : Dev nD) (t : Fin cfg15.N) (h0 : ¬t.val % 8 = 0) :
    outsAt15 V c t.val t.isLt
      = (k15_pay4 (hblk V c t) (outsAt15 V c (t.val - 1) (Nat.lt_of_le_of_lt (Nat.sub_le _ _) t.isLt)).1,
         k15_pay5 (hblk V c t) (outsAt15 V c (t.val - 1) (Nat.lt_of_le_of_lt (Nat.sub_le _ _) t.isLt)).2) := by
  rw [outsAt15_B V c t h0,
    out_B_1 c (grid15.coords t) (ms15_0 t) (hs15_0 t) (ms15_1 t) (hs15_1 t) (ms15_2 t) (hs15_2 t) (fun h => h0 ((hcond15_0 t).mp h)) (iblk15 V c 0 t)
      (outsAt15 V c (t.val - 1) (Nat.lt_of_le_of_lt (Nat.sub_le _ _) t.isLt)).1 (outsAt15 V c (t.val - 1) (Nat.lt_of_le_of_lt (Nat.sub_le _ _) t.isLt)).2,
    out_B_2 c (grid15.coords t) (ms15_0 t) (hs15_0 t) (ms15_1 t) (hs15_1 t) (ms15_2 t) (hs15_2 t) (fun h => h0 ((hcond15_0 t).mp h)) (iblk15 V c 0 t)
      (outsAt15 V c (t.val - 1) (Nat.lt_of_le_of_lt (Nat.sub_le _ _) t.isLt)).1 (outsAt15 V c (t.val - 1) (Nat.lt_of_le_of_lt (Nat.sub_le _ _) t.isLt)).2]

/-! ## The partial sums, over the extended reals -/

/-- Tile `s`'s contribution to row `r`'s sum and sum of squares (zero past the last tile). -/
def tileSum (H : ArrCP) (r : Fin 8) (s : ℕ) : EReal := if h : s < 8 then ∑ l : Fin 65536, H r (col ⟨s, h⟩ l) else 0
def tileSsq (H : ArrCP) (r : Fin 8) (s : ℕ) : EReal :=
  if h : s < 8 then ∑ l : Fin 65536, H r (col ⟨s, h⟩ l) * H r (col ⟨s, h⟩ l) else 0

section AtIdeal

variable (W : (c : Dev nD) → (b : Ref sig .tc) → Buf (Elt Ideal) ((c : Thread nD τ).loc b))

/-- The block at point `t` contributes tile `t`. -/
theorem blockSum (c : Dev nD) (t : Fin cfg15.N) (r : Fin 8) :
    ∑ l : Fin 65536, hblk W c t (ix2 r l) = tileSum (toCP (harr W c)) r t.val := by
  have h8 : t.val < 8 := lt_of_lt_of_eq t.isLt (show cfg15.N = 8 from N_15)
  unfold tileSum
  rw [dif_pos h8]
  exact Finset.sum_congr rfl fun l _ => blk_read W c t ⟨t.val, h8⟩ rfl r l

theorem blockSsq (c : Dev nD) (t : Fin cfg15.N) (r : Fin 8) :
    ∑ l : Fin 65536, hblk W c t (ix2 r l) * hblk W c t (ix2 r l) = tileSsq (toCP (harr W c)) r t.val := by
  have h8 : t.val < 8 := lt_of_lt_of_eq t.isLt (show cfg15.N = 8 from N_15)
  unfold tileSsq
  rw [dif_pos h8]
  exact Finset.sum_congr rfl fun l _ => by rw [blk_read W c t ⟨t.val, h8⟩ rfl r l]; rfl

/-- After point `n` row `r` of output 1 holds the sum of tiles `0 … n`, and of output 2 the sum of their squares. -/
theorem outsAt_eq (c : Dev nD) : ∀ (n : ℕ) (h : n < cfg15.N) (r : Fin 8),
    ((outsAt15 W c n h).1 : Vec Ideal S8x1 .f32) (ix2 r 0) = ∑ s ∈ Finset.range (n + 1), tileSum (toCP (harr W c)) r s
      ∧ ((outsAt15 W c n h).2 : Vec Ideal S8x1 .f32) (ix2 r 0) = ∑ s ∈ Finset.range (n + 1), tileSsq (toCP (harr W c)) r s
  | 0, h, r => by
    rw [outsAt_A W c ⟨0, h⟩ rfl]
    dsimp only
    rw [pay4_apply (hblk W c ⟨0, h⟩) (k15_pay1 (F := Ideal)) r, pay5_apply (hblk W c ⟨0, h⟩) (k15_pay2 (F := Ideal)) r,
      pay1_apply, pay2_apply, Finset.sum_range_one, Finset.sum_range_one, zero_add, zero_add]
    exact ⟨blockSum W c ⟨0, h⟩ r, blockSsq W c ⟨0, h⟩ r⟩
  | n + 1, h, r => by
    have hN : cfg15.N = 8 := N_15
    have hB : ¬(⟨n + 1, h⟩ : Fin cfg15.N).val % 8 = 0 := by dsimp only; omega
    obtain ⟨ih1, ih2⟩ := outsAt_eq c n (Nat.lt_of_succ_lt h) r
    rw [outsAt_B W c ⟨n + 1, h⟩ hB]
    dsimp only
    refine ⟨?_, ?_⟩
    · refine (pay4_apply (hblk W c ⟨n + 1, h⟩) (outsAt15 W c n (Nat.lt_of_succ_lt h)).1 r).trans ?_
      rw [ih1, Finset.sum_range_succ _ (n + 1), blockSum W c ⟨n + 1, h⟩ r]
    · refine (pay5_apply (hblk W c ⟨n + 1, h⟩) (outsAt15 W c n (Nat.lt_of_succ_lt h)).2 r).trans ?_
      rw [ih2, Finset.sum_range_succ _ (n + 1), blockSsq W c ⟨n + 1, h⟩ r]

end AtIdeal

/-! ## The arrays the outputs are written back to -/

/-- What the outputs hold after the last point, as contents of their arrays (the one block is the array). -/
abbrev last1 (c : Dev nD) : Buf (Elt F) ((c : Thread nD τ).loc main_v226_0) :=
  (outsAt15 V c t15_7.val t15_7.isLt).1
abbrev last2 (c : Dev nD) : Buf (Elt F) ((c : Thread nD τ).loc main_v226_1) :=
  (outsAt15 V c t15_7.val t15_7.isLt).2

/-- The one write-back of output 1, at the last point, writes it. -/
theorem flushed_eq1 (c : Dev nD) (t : Fin cfg15.N) (hf : (cfg15.win 1).flush t = true) :
    (dat15 V c).flushed 1 t = ((cfg15.win 1).blk t).view.read (Elt F) (last1 V c) := by
  have hN : cfg15.N = 8 := N_15
  have h7 : t.val = 7 := by have := (flush15_1 t).mp hf; have := t.isLt; omega
  obtain rfl : t = t15_7 := Fin.ext h7
  show (cfg15.win 1).cut (grid15.coords t15_7) ((dat15 V c).after 1 t15_7) = _
  rw [after15_1]
  have hz' : (fun a => win15_1.index t15_7 a * main_v226_0.ty.shape.size a) = fun _ => 0 := funext fun a => by fin_cases a <;> decide
  exact (Memref.read_access_unit_zero (Elt F) main_v226_0 hz' (fun a => by rw [congrFun hz' a]; simp) (last1 V c)).symm

theorem flushed_eq2 (c : Dev nD) (t : Fin cfg15.N) (hf : (cfg15.win 2).flush t = true) :
    (dat15 V c).flushed 2 t = ((cfg15.win 2).blk t).view.read (Elt F) (last2 V c) := by
  have hN : cfg15.N = 8 := N_15
  have h7 : t.val = 7 := by have := (flush15_2 t).mp hf; have := t.isLt; omega
  obtain rfl : t = t15_7 := Fin.ext h7
  show (cfg15.win 2).cut (grid15.coords t15_7) ((dat15 V c).after 2 t15_7) = _
  rw [after15_2]
  have hz' : (fun a => win15_2.index t15_7 a * main_v226_1.ty.shape.size a) = fun _ => 0 := funext fun a => by fin_cases a <;> decide
  exact (Memref.read_access_unit_zero (Elt F) main_v226_1 hz' (fun a => by rw [congrFun hz' a]; simp) (last2 V c)).symm

/-- So the arrays end holding what the outputs hold after the last point: its block covers them. -/
theorem final1 (c : Dev nD) : (dat15 V c).arrAt 1 cfg15.N = last1 V c :=
  (dat15 V c).arrAt_eq_of_cover 1 (last1 V c) (flushed_eq1 V c) fun i =>
    ⟨t15_7, (flush15_1 t15_7).mpr rfl, by
      show i ∈ ((View.whole main_v226_0).slice (win15_1.rect t15_7)).set
      rw [View.set_slice_whole, Rect.mem_set_unit]
      intro a
      have h0 : (i 0 : Nat) < 8 := (i 0).isLt
      have h1 : (i 1 : Nat) < 1 := (i 1).isLt
      match a with
      | ⟨0, _⟩ => show win15_1.index t15_7 0 * win15_1.size 0 ≤ (i 0 : Nat) ∧ (i 0 : Nat) < win15_1.index t15_7 0 * win15_1.size 0 + win15_1.xsize (grid15.coords t15_7) 0
                  rw [show win15_1.index t15_7 0 * win15_1.size 0 = 0 from by decide +kernel, show win15_1.xsize (grid15.coords t15_7) 0 = 8 from by decide +kernel]; omega
      | ⟨1, _⟩ => show win15_1.index t15_7 1 * win15_1.size 1 ≤ (i 1 : Nat) ∧ (i 1 : Nat) < win15_1.index t15_7 1 * win15_1.size 1 + win15_1.xsize (grid15.coords t15_7) 1
                  rw [show win15_1.index t15_7 1 * win15_1.size 1 = 0 from by decide +kernel, show win15_1.xsize (grid15.coords t15_7) 1 = 1 from by decide +kernel]; omega⟩

theorem final2 (c : Dev nD) : (dat15 V c).arrAt 2 cfg15.N = last2 V c :=
  (dat15 V c).arrAt_eq_of_cover 2 (last2 V c) (flushed_eq2 V c) fun i =>
    ⟨t15_7, (flush15_2 t15_7).mpr rfl, by
      show i ∈ ((View.whole main_v226_1).slice (win15_2.rect t15_7)).set
      rw [View.set_slice_whole, Rect.mem_set_unit]
      intro a
      have h0 : (i 0 : Nat) < 8 := (i 0).isLt
      have h1 : (i 1 : Nat) < 1 := (i 1).isLt
      match a with
      | ⟨0, _⟩ => show win15_2.index t15_7 0 * win15_2.size 0 ≤ (i 0 : Nat) ∧ (i 0 : Nat) < win15_2.index t15_7 0 * win15_2.size 0 + win15_2.xsize (grid15.coords t15_7) 0
                  rw [show win15_2.index t15_7 0 * win15_2.size 0 = 0 from by decide +kernel, show win15_2.xsize (grid15.coords t15_7) 0 = 8 from by decide +kernel]; omega
      | ⟨1, _⟩ => show win15_2.index t15_7 1 * win15_2.size 1 ≤ (i 1 : Nat) ∧ (i 1 : Nat) < win15_2.index t15_7 1 * win15_2.size 1 + win15_2.xsize (grid15.coords t15_7) 1
                  rw [show win15_2.index t15_7 1 * win15_2.size 1 = 0 from by decide +kernel, show win15_2.xsize (grid15.coords t15_7) 1 = 1 from by decide +kernel]; omega⟩

/-! ## The value of the region -/

/-- The eight tiles' contributions are the spec's sums. -/
theorem sum_tiles (H : ArrCP) (r : Fin 8) : ∑ s ∈ Finset.range (7 + 1), tileSum H r s = sumK H r := by
  unfold sumK
  rw [Finset.sum_range]
  exact Finset.sum_congr rfl fun t _ => by unfold tileSum; rw [dif_pos t.isLt]

theorem ssq_tiles (H : ArrCP) (r : Fin 8) : ∑ s ∈ Finset.range (7 + 1), tileSsq H r s = ssqK H r := by
  unfold ssqK
  rw [Finset.sum_range]
  exact Finset.sum_congr rfl fun t _ => by unfold tileSsq; rw [dif_pos t.isLt]

/-- Output 1's array ends holding the input's row sums. -/
theorem stats0_sum (W : (c : Dev nD) → (b : Ref sig .tc) → Buf (Elt Ideal) ((c : Thread nD τ).loc b)) (c : Dev nD) :
    toV81 ((dat15 (F := Ideal) W c).arrAt 1 cfg15.N) = sumK (toCP (W c (Pipeline.arrRef spec15 0))) := by
  rw [final1 W c]
  funext r
  exact ((outsAt_eq W c t15_7.val t15_7.isLt r).1).trans (sum_tiles _ r)

/-- Output 2's array ends holding the input's row sums of squares. -/
theorem stats0_ssq (W : (c : Dev nD) → (b : Ref sig .tc) → Buf (Elt Ideal) ((c : Thread nD τ).loc b)) (c : Dev nD) :
    toV81 ((dat15 (F := Ideal) W c).arrAt 2 cfg15.N) = ssqK (toCP (W c (Pipeline.arrRef spec15 0))) := by
  rw [final2 W c]
  funext r
  exact ((outsAt_eq W c t15_7.val t15_7.isLt r).2).trans (ssq_tiles _ r)

end Cert.KernelIdeal.Val15

end
-- ==== Proof.KHost16.lean ====
/-
  What the host operations between the statistics and the transform of a layer compute, read at an index, over
  the extended reals: the row sums divided by the number of nodes (the batch mean), the row sums of squares
  divided by the number of nodes minus the squared mean (the batch variance), the layer's row of the scales
  and of the shifts as columns, and the layer's weight matrix transposed. They hold from any contents the
  operations start from; a buffer none of them writes keeps its contents.
-/
import proofs.«143139_j73710228734964_1_alg».proof.Proof.Gen.KernelIdeal.Launch
import proofs.«143139_j73710228734964_1_alg».proof.Proof.Spec
import proofs.«143139_j73710228734964_1_alg».proof.Proof.Conv
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 2928

noncomputable section

namespace Cert.KernelIdeal.Host16

open Cert.KernelIdeal Cert.KernelIdeal.Gen Cert.GCN Idealize.ShloMosaic Idealize.ShloMosaic.ValueIdx

/-! ## The divisor -/

/-- The word `0x48F42400` denotes the number of nodes, 500000. -/
theorem ofBits_nN : Ideal.ofBits .f32 0x48F42400#32 = nN := by
  show Ideal.ieee 8 23 (0x48F42400#32 : BitVec 32) = ((500000 : ℝ) : EReal)
  simp [Ideal.ieee]
  rw [← EReal.coe_mul]
  norm_num

/-- The scalar constant 500000 broadcast to a column `[8, 1]`. -/
local notation "colN" =>
  (broadcastInDim S8x1 ![] bcast_S_S8x1 (constant (F := Ideal) S_ FTy.f32 0x48F42400#32) : S8x1.Idx → EReal)

/-- It reads 500000 at every index. -/
theorem colN_apply (j : S8x1.Idx) : colN j = nN := by
  rw [broadcastInDim_scalar_apply, constant_apply, ofBits_nN]

/-! ## The operations read at an index, over variables -/

/-- A column divided by the constant column, read at row `c`. -/
theorem divN_apply (x : S8x1.Idx → EReal) (c : Fin 8) :
    toV81 (Host.divf (F := Ideal) (φ := .f32) x colN) c = Ideal.div (toV81 x c) nN := by
  show Ideal.div (x (ix2 c 0)) (colN (ix2 c 0)) = _
  rw [colN_apply]
  rfl

/-- The quotient of `y` minus the squared quotient of `x`, read at row `c`. -/
theorem varN_apply (x y : S8x1.Idx → EReal) (c : Fin 8) :
    toV81 (subf (F := Ideal) (φ := .f32) (Host.divf (F := Ideal) (φ := .f32) y colN)
        (mulf (F := Ideal) (φ := .f32) (Host.divf (F := Ideal) (φ := .f32) x colN) (Host.divf (F := Ideal) (φ := .f32) x colN))) c
      = Ideal.div (toV81 y c) nN - Ideal.div (toV81 x c) nN * Ideal.div (toV81 x c) nN := by
  show Ideal.div (y (ix2 c 0)) (colN (ix2 c 0))
      - Ideal.div (x (ix2 c 0)) (colN (ix2 c 0)) * Ideal.div (x (ix2 c 0)) (colN (ix2 c 0)) = _
  rw [colN_apply]
  rfl

/-- A vector `[8]` cast to a column `[8, 1]` reads, at `(c, u)`, the vector at `c`. -/
theorem shapeCast_8_8x1_apply (x : S8.Idx → EReal) (h : S8.ShapeCasts S8x1) (c : Fin 8) (u : Fin 1) :
    shapeCast S8x1 x h (ix2 c u) = x (ix1 c) :=
  shapeCast_apply x h _ _ (by
    have hu : u.val = 0 := by omega
    rw [Shape.rowMajor_val_two, Shape.rowMajor_val_one]
    show c.val = c.val * 1 + u.val
    omega)

/-- Row `o` of a matrix `[8, 8]`, cut out as `[1, 8]`, cast to `[8]` and then to a column `[8, 1]`: its row `c` is the
    matrix at `(o, c)`. -/
theorem rowCol_apply (o : Nat) (x : S8x8.Idx → EReal) (h : S8x8.Slices ![o, 0] S1x8) (r : Fin 8) (hr : r.val = o) (c : Fin 8) :
    toV81 (shapeCast S8x1 (shapeCast S8 (extractStridedSlice S1x8 ![o, 0] x h) shapeCasts_S1x8_S8) shapeCasts_S8_S8x1) c
      = toM8 x r c := by
  show shapeCast S8x1 (shapeCast S8 (extractStridedSlice S1x8 ![o, 0] x h) shapeCasts_S1x8_S8) shapeCasts_S8_S8x1 (ix2 c 0)
      = x (ix2 r c)
  rw [shapeCast_8_8x1_apply, shapeCast_1a_a_apply]
  exact slice2_axis0_apply o x h 0 c r hr

/-- Matrix `o` of a stack `[8, 8, 8]`, cut out as `[1, 8, 8]`, cast to `[8, 8]` and transposed: its entry `(a, b)` is the
    stack at `(o, b, a)`. -/
theorem sliceT_apply (o : Nat) (x : S8x8x8.Idx → EReal) (h : S8x8x8.Slices ![o, 0, 0] S1x8x8) (r : Fin 8) (hr : r.val = o)
    (a b : Fin 8) :
    toM8 (transpose S8x8 [1, 0] (shapeCast S8x8 (extractStridedSlice S1x8x8 ![o, 0, 0] x h) shapeCasts_S1x8x8_S8x8)
        transposes_S8x8_S8x8_1_0) a b = x (ix3 r b a) := by
  show transpose S8x8 [1, 0] (shapeCast S8x8 (extractStridedSlice S1x8x8 ![o, 0, 0] x h) shapeCasts_S1x8x8_S8x8)
        transposes_S8x8_S8x8_1_0 (ix2 a b) = x (ix3 r b a)
  rw [transpose_ix2_apply, shapeCast_1ab_ab_apply]
  exact extractStridedSlice_apply _ _ _ _ _ (fun ax => by
    match ax with
    | ⟨0, _⟩ => exact hr
    | ⟨1, _⟩ => exact (Nat.zero_add _).symm
    | ⟨2, _⟩ => exact (Nat.zero_add _).symm)

/-! ## The stretch's results -/

section Results

variable (W : Valuation τ sig (Elt Ideal))

theorem after_main_v38 :
    (StableHlo.after (hostOps16 (F := Ideal)) W (Proc.devRef .tc main_v228) : S8x1.Idx → EReal)
      = Host.divf (F := Ideal) (φ := .f32) (W (Proc.devRef .tc main_v226_0)) colN := by
  after_results <;> rfl

theorem after_main_v42 :
    (StableHlo.after (hostOps16 (F := Ideal)) W (Proc.devRef .tc main_v232) : S8x1.Idx → EReal)
      = subf (F := Ideal) (φ := .f32) (Host.divf (F := Ideal) (φ := .f32) (W (Proc.devRef .tc main_v226_1)) colN)
          (mulf (F := Ideal) (φ := .f32) (Host.divf (F := Ideal) (φ := .f32) (W (Proc.devRef .tc main_v226_0)) colN)
            (Host.divf (F := Ideal) (φ := .f32) (W (Proc.devRef .tc main_v226_0)) colN)) := by
  after_results <;> rfl

/-- The batch mean's column: the row sums over the number of nodes. -/
theorem mean1 :
    toV81 (StableHlo.after (hostOps16 (F := Ideal)) W (Proc.devRef .tc main_v228))
      = fun c => Ideal.div (toV81 (W (Proc.devRef .tc main_v226_0)) c) nN := by
  funext c
  rw [after_main_v38]
  exact divN_apply _ c

/-- The batch variance's column: the mean of the squares minus the squared mean. -/
theorem var1 :
    toV81 (StableHlo.after (hostOps16 (F := Ideal)) W (Proc.devRef .tc main_v232))
      = fun c => Ideal.div (toV81 (W (Proc.devRef .tc main_v226_1)) c) nN
          - Ideal.div (toV81 (W (Proc.devRef .tc main_v226_0)) c) nN * Ideal.div (toV81 (W (Proc.devRef .tc main_v226_0)) c) nN := by
  funext c
  rw [after_main_v42]
  exact varN_apply _ _ c

/-- The scale's column: row 0 of the scales' matrix. -/
theorem gamma1 :
    toV81 (StableHlo.after (hostOps16 (F := Ideal)) W (Proc.devRef .tc main_v235))
      = fun c => toM8 (W (Proc.devRef .tc main_arg4)) (5 : Fin 8) c := by
  funext c
  after_results
  exact rowCol_apply _ _ _ (5 : Fin 8) rfl c

/-- The shift's column: row 0 of the shifts' matrix. -/
theorem beta1 :
    toV81 (StableHlo.after (hostOps16 (F := Ideal)) W (Proc.devRef .tc main_v238))
      = fun c => toM8 (W (Proc.devRef .tc main_arg5)) (5 : Fin 8) c := by
  funext c
  after_results
  exact rowCol_apply _ _ _ (5 : Fin 8) rfl c

/-- The weights: matrix 0 of the stack, transposed. -/
theorem wT1 :
    toM8 (StableHlo.after (hostOps16 (F := Ideal)) W (Proc.devRef .tc main_v241))
      = fun a b => (W (Proc.devRef .tc main_arg6) : S8x8x8.Idx → EReal) (ValueIdx.ix3 (5 : Fin 8) b a) := by
  funext a b
  after_results
  exact sliceT_apply _ _ _ (5 : Fin 8) rfl a b

/-- The buffers the stretch writes. -/
def writes1 : List (Ref sig .tc) :=
  [main_cst_37, main_v227, main_v228, main_cst_38, main_v229, main_v230, main_v231, main_v232, main_v233, main_v234, main_v235,
    main_v236, main_v237, main_v238, main_v239, main_v240, main_v241]

/-- A buffer the stretch does not write keeps its contents. -/
theorem kept1 {b : Ref sig .tc} (hb : b ∉ writes1) :
    StableHlo.after (hostOps16 (F := Ideal)) W (Proc.devRef .tc b) = W (Proc.devRef .tc b) :=
  StableHlo.after_of_forall_not_mem (b := Proc.devRef .tc b) _ _ (List.forall_iff_forall_mem.mp (by
    simp only [hostOps16, List.Forall, StableHlo.nullary_writes, StableHlo.unary_writes, StableHlo.binary_writes,
      StableHlo.reshape_writes, Finset.mem_singleton]
    repeat' apply And.intro
    all_goals exact StableHlo.devRef_ne_of_ne (fun e => hb (by rw [e]; decide))))

theorem kept1_main_v35 : StableHlo.after (hostOps16 (F := Ideal)) W (Proc.devRef .tc main_v225) = W (Proc.devRef .tc main_v225) :=
  kept1 W (by decide)
theorem kept1_main_v3 : StableHlo.after (hostOps16 (F := Ideal)) W (Proc.devRef .tc main_v3) = W (Proc.devRef .tc main_v3) :=
  kept1 W (by decide)
theorem kept1_main_v6 : StableHlo.after (hostOps16 (F := Ideal)) W (Proc.devRef .tc main_v6) = W (Proc.devRef .tc main_v6) :=
  kept1 W (by decide)
theorem kept1_main_v26 : StableHlo.after (hostOps16 (F := Ideal)) W (Proc.devRef .tc main_v26) = W (Proc.devRef .tc main_v26) :=
  kept1 W (by decide)
theorem kept1_main_arg7 : StableHlo.after (hostOps16 (F := Ideal)) W (Proc.devRef .tc main_arg7) = W (Proc.devRef .tc main_arg7) :=
  kept1 W (by decide)

end Results

end Cert.KernelIdeal.Host16

end
-- ==== Proof.KTransform16.lean ====
/-
  The value of the transform kernel of layer 0 (region 1 of the kernel program), at the ideal values and for any
  contents `V` of the buffers when the region is entered.

  The region walks the 8 column blocks of 65536 lanes of `H : [8, 524288]`. At block `t` it reads the block of `H`,
  the four columns `[8, 1]` (mean, variance, scale, shift) and the matrix `wT : [8, 8]` whole, and stores
    wT · ((x − mean) · rsqrt(var + eps) · scale + shift)
  into block `t` of the output: entry `(co, l)` of the stored block is the sum over the input channel `ci` of
  `wT (co, ci)` times the normalised entry `(ci, l)` of the block. The 8 blocks tile the output array, so the array
  ends holding, at `(co, n)`, the same sum with column `n = 65536 · t + l` of `H`.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.PureOps.Ideal.Laws

noncomputable section

namespace Cert.KernelIdeal.Val16

open Cert.KernelIdeal Cert.KernelIdeal.Gen Cert.KernelIdeal.GenP Cert.GCN
open Idealize.ShloMosaic Idealize.ShloMosaic.TcCoe Idealize.ShloMosaic.ValueIdx Idealize.SL.Sem
open Idealize.ShloMosaic.Pipeline (Dat)
open scoped BigOperators

/-! ## The payload at an index -/

/-- An `[8, 1]` column broadcast along the lanes reads, at `(p, l)`, the column's entry of row `p`. -/
theorem bcast_col_apply {α : Type} (v : S8x1.Idx → α) (h : S8x1.Broadcasts S8x65536) (p : Fin 8) (l : Fin 65536) :
    broadcastTo S8x65536 v h (ix2 p l) = v (ix2 p (0 : Fin 1)) := by
  refine broadcastTo_apply v h (ix2 p l) (ix2 p (0 : Fin 1)) fun ax => ?_
  match ax with
  | ⟨0, _⟩ => rfl
  | ⟨1, _⟩ => rfl

/-- The product's left operand is read at the output's row … -/
theorem lhs_dot_0 (j : S8x65536.Idx) (k : dot_S8x8_S8x65536_S8x65536_1_0_0_1_n_n.contr.Idx) :
    ((dot_S8x8_S8x65536_S8x65536_1_0_0_1_n_n.lhsIdx j k 0 : Fin _) : ℕ) = (j 0 : ℕ) := by
  simp [DotDims.lhsIdx, dot_S8x8_S8x65536_S8x65536_1_0_0_1_n_n]
  rfl

/-- … and at the contracted coordinate; -/
theorem lhs_dot_1 (j : S8x65536.Idx) (k : dot_S8x8_S8x65536_S8x65536_1_0_0_1_n_n.contr.Idx) :
    ((dot_S8x8_S8x65536_S8x65536_1_0_0_1_n_n.lhsIdx j k 1 : Fin _) : ℕ) = (k ⟨0, by decide⟩ : ℕ) :=
  dot_S8x8_S8x65536_S8x65536_1_0_0_1_n_n.lhsIdx_val_of_single rfl j k

/-- the right operand at the contracted coordinate … -/
theorem rhs_dot_0 (j : S8x65536.Idx) (k : dot_S8x8_S8x65536_S8x65536_1_0_0_1_n_n.contr.Idx) :
    ((dot_S8x8_S8x65536_S8x65536_1_0_0_1_n_n.rhsIdx j k 0 : Fin _) : ℕ) = (k ⟨0, by decide⟩ : ℕ) :=
  dot_S8x8_S8x65536_S8x65536_1_0_0_1_n_n.rhsIdx_val_of_single rfl j k

/-- … and at the output's lane. -/
theorem rhs_dot_1 (j : S8x65536.Idx) (k : dot_S8x8_S8x65536_S8x65536_1_0_0_1_n_n.contr.Idx) :
    ((dot_S8x8_S8x65536_S8x65536_1_0_0_1_n_n.rhsIdx j k 1 : Fin _) : ℕ) = (j 1 : ℕ) := by
  simp [DotDims.rhsIdx, dot_S8x8_S8x65536_S8x65536_1_0_0_1_n_n]
  rfl

/-- The payload at `(co, l)`: the normalised, scaled and shifted column `l` of the block, multiplied on the left by
    row `co` of the matrix. The product's zero accumulator adds nothing, and the narrowing of the two operands is the
    identity on the extended reals. -/
theorem pay1_apply (v0 v2 v4 v6 : Vec Ideal S8x1 .f32) (v11 : Vec Ideal S8x65536 .f32) (v21 : Vec Ideal S8x8 .f32)
    (co : Fin 8) (l : Fin 65536) :
    k16_pay1 (F := Ideal) v0 v2 v4 v6 v11 v21 (ix2 co l)
      = ∑ ci : Fin 8, v21 (ix2 co ci)
          * ((v11 (ix2 ci l) - v0 (ix2 ci (0 : Fin 1))) * Ideal.rsqrt (v2 (ix2 ci (0 : Fin 1)) + eps) * v4 (ix2 ci (0 : Fin 1))
              + v6 (ix2 ci (0 : Fin 1))) := by
  unfold k16_pay1
  refine (Ideal.matmul_constant_zero_apply dot_S8x8_S8x65536_S8x65536_1_0_0_1_n_n none _ _ (ix2 co l)).trans ?_
  refine (Equiv.sum_comp (contrEquiv1 dot_S8x8_S8x65536_S8x65536_1_0_0_1_n_n 8 rfl rfl).symm _).symm.trans ?_
  refine Finset.sum_congr rfl fun ci _ => ?_
  have c2 := contrEquiv1_symm_val dot_S8x8_S8x65536_S8x65536_1_0_0_1_n_n 8 rfl rfl ci
  have l2 : dot_S8x8_S8x65536_S8x65536_1_0_0_1_n_n.lhsIdx (ix2 co l) ((contrEquiv1 _ 8 rfl rfl).symm ci) = ix2 co ci := by
    funext ax; apply Fin.ext
    match ax with
    | ⟨0, _⟩ => exact lhs_dot_0 _ _
    | ⟨1, _⟩ => exact (lhs_dot_1 _ _).trans c2
  have r2 : dot_S8x8_S8x65536_S8x65536_1_0_0_1_n_n.rhsIdx (ix2 co l) ((contrEquiv1 _ 8 rfl rfl).symm ci) = ix2 ci l := by
    funext ax; apply Fin.ext
    match ax with
    | ⟨0, _⟩ => exact (rhs_dot_0 _ _).trans c2
    | ⟨1, _⟩ => exact rhs_dot_1 _ _
  rw [l2, r2]
  simp only [truncf_apply, shapeCast_self, addf_apply, mulf_apply, subf_apply, bcast_col_apply]
  rfl

/-- The same at an index of the block given by its two coordinates' values. -/
theorem pay1_at (x0 : Vec Ideal S8x65536 .f32) (x1 x2 x3 x4 : Vec Ideal S8x1 .f32) (x5 : Vec Ideal S8x8 .f32)
    (y : S8x65536.Idx) (p : Fin 8) (q : Fin 65536) (hp : (y 0).val = p.val) (hq : (y 1).val = q.val) :
    k16_pay1 (F := Ideal) x1 x2 x3 x4 x0 x5 y
      = ∑ ci : Fin 8, x5 (ix2 p ci)
          * ((x0 (ix2 ci q) - x1 (ix2 ci (0 : Fin 1))) * Ideal.rsqrt (x2 (ix2 ci (0 : Fin 1)) + eps) * x3 (ix2 ci (0 : Fin 1))
              + x4 (ix2 ci (0 : Fin 1))) := by
  have hy : y = ix2 p q := by
    funext a; apply Fin.ext
    match a with
    | ⟨0, _⟩ => exact hp
    | ⟨1, _⟩ => exact hq
  rw [hy]
  exact pay1_apply x1 x2 x3 x4 x0 x5 p q

/-! ## From blocks to the array -/

section Blocks

variable (V : (c : Dev nD) → (b : Ref sig .tc) → Buf (Elt Ideal) ((c : Thread nD τ).loc b))

/-- The six arrays the region reads, as it finds them: `H`, the mean, variance, scale and shift columns, the matrix. -/
abbrev harr (c : Dev nD) : Vec Ideal S8x524288 .f32 := V c (Pipeline.arrRef spec16 0)
abbrev marr (c : Dev nD) : Vec Ideal S8x1 .f32 := V c (Pipeline.arrRef spec16 1)
abbrev sarr (c : Dev nD) : Vec Ideal S8x1 .f32 := V c (Pipeline.arrRef spec16 2)
abbrev garr (c : Dev nD) : Vec Ideal S8x1 .f32 := V c (Pipeline.arrRef spec16 3)
abbrev barr (c : Dev nD) : Vec Ideal S8x1 .f32 := V c (Pipeline.arrRef spec16 4)
abbrev warr (c : Dev nD) : Vec Ideal S8x8 .f32 := V c (Pipeline.arrRef spec16 5)

/-- The transform at `(co, n)`: row `co` of the matrix times the normalised column `n` of `H`. -/
def T1 (c : Dev nD) (co : Fin 8) (n : Fin 524288) : EReal :=
  ∑ ci : Fin 8, warr V c (ix2 co ci)
    * ((harr V c (ix2 ci n) - marr V c (ix2 ci (0 : Fin 1))) * Ideal.rsqrt (sarr V c (ix2 ci (0 : Fin 1)) + eps) * garr V c (ix2 ci (0 : Fin 1))
        + barr V c (ix2 ci (0 : Fin 1)))

/-- The array the region leaves, as a function of its index. -/
abbrev G1 (c : Dev nD) : Vec Ideal S8x524288 .f32 := fun i => T1 V c (i 0) (i 1)

theorem hz : (![0, 0] : Fin 2 → Nat) = fun _ => 0 := funext fun a => by fin_cases a <;> rfl

/-- The block indices over the grid: the windows of `H` and of the output are at column block `t`, the five small
    windows at block `(0, 0)`. -/
theorem idx_facts1 : ∀ t : Fin cfg16.N,
    win16_0.index t (0 : Fin 2) = 0 ∧ win16_0.index t (1 : Fin 2) = t.val
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = 0 ∧ win16_5.index t (1 : Fin 2) = 0
    ∧ win16_6.index t (0 : Fin 2) = 0 ∧ win16_6.index t (1 : Fin 2) = t.val :=
  (by decide +kernel : ∀ t : Fin grid16.N, _)

/-- Entry `(r, l)` of the block of `H` at point `t` is entry `(r, 65536 · t + l)` of `H`. -/
theorem iblk1_0_apply (c : Dev nD) (t : Fin cfg16.N) (x : S8x65536.Idx) (k : S8x524288.Idx)
    (hk0 : (k 0).val = (x 0).val) (hk1 : (k 1).val = 65536 * t.val + (x 1).val) :
    (iblk16 V c 0 t : Vec Ideal S8x65536 .f32) x = harr V c k := by
  obtain ⟨e0, e1, -⟩ := idx_facts1 t
  unfold iblk16
  rw [View.read_apply]
  show V c (Pipeline.arrRef spec16 0) _ = V c (Pipeline.arrRef spec16 0) k
  congr 1
  funext a
  apply Fin.ext
  match a with
  | ⟨0, _⟩ => show win16_0.index t 0 * 8 + 1 * (x 0).val = (k 0).val; rw [e0, hk0]; omega
  | ⟨1, _⟩ => show win16_0.index t 1 * 65536 + 1 * (x 1).val = (k 1).val; rw [e1, hk1]; omega

/-- The block of each small window is its whole array, at every point. -/
theorem iblk1_1_eq (c : Dev nD) (t : Fin cfg16.N) : (iblk16 V c 1 t : Vec Ideal S8x1 .f32) = marr V c := by
  obtain ⟨-, -, e0, e1, -⟩ := idx_facts1 t
  funext x
  unfold iblk16
  rw [View.read_apply]
  show V c (Pipeline.arrRef spec16 1) _ = V c (Pipeline.arrRef spec16 1) x
  congr 1
  funext a
  apply Fin.ext
  match a with
  | ⟨0, _⟩ => show win16_1.index t 0 * 8 + 1 * (x 0).val = (x 0).val; rw [e0]; omega
  | ⟨1, _⟩ => show win16_1.index t 1 * 1 + 1 * (x 1).val = (x 1).val; rw [e1]; omega

theorem iblk1_2_eq (c : Dev nD) (t : Fin cfg16.N) : (iblk16 V c 2 t : Vec Ideal S8x1 .f32) = sarr V c := by
  obtain ⟨-, -, -, -, e0, e1, -⟩ := idx_facts1 t
  funext x
  unfold iblk16
  rw [View.read_apply]
  show V c (Pipeline.arrRef spec16 2) _ = V c (Pipeline.arrRef spec16 2) x
  congr 1
  funext a
  apply Fin.ext
  match a with
  | ⟨0, _⟩ => show win16_2.index t 0 * 8 + 1 * (x 0).val = (x 0).val; rw [e0]; omega
  | ⟨1, _⟩ => show win16_2.index t 1 * 1 + 1 * (x 1).val = (x 1).val; rw [e1]; omega

theorem iblk1_3_eq (c : Dev nD) (t : Fin cfg16.N) : (iblk16 V c 3 t : Vec Ideal S8x1 .f32) = garr V c := by
  obtain ⟨-, -, -, -, -, -, e0, e1, -⟩ := idx_facts1 t
  funext x
  unfold iblk16
  rw [View.read_apply]
  show V c (Pipeline.arrRef spec16 3) _ = V c (Pipeline.arrRef spec16 3) x
  congr 1
  funext a
  apply Fin.ext
  match a with
  | ⟨0, _⟩ => show win16_3.index t 0 * 8 + 1 * (x 0).val = (x 0).val; rw [e0]; omega
  | ⟨1, _⟩ => show win16_3.index t 1 * 1 + 1 * (x 1).val = (x 1).val; rw [e1]; omega

theorem iblk1_4_eq (c : Dev nD) (t : Fin cfg16.N) : (iblk16 V c 4 t : Vec Ideal S8x1 .f32) = barr V c := by
  obtain ⟨-, -, -, -, -, -, -, -, e0, e1, -⟩ := idx_facts1 t
  funext x
  unfold iblk16
  rw [View.read_apply]
  show V c (Pipeline.arrRef spec16 4) _ = V c (Pipeline.arrRef spec16 4) x
  congr 1
  funext a
  apply Fin.ext
  match a with
  | ⟨0, _⟩ => show win16_4.index t 0 * 8 + 1 * (x 0).val = (x 0).val; rw [e0]; omega
  | ⟨1, _⟩ => show win16_4.index t 1 * 1 + 1 * (x 1).val = (x 1).val; rw [e1]; omega

theorem iblk1_5_eq (c : Dev nD) (t : Fin cfg16.N) : (iblk16 V c 5 t : Vec Ideal S8x8 .f32) = warr V c := by
  obtain ⟨-, -, -, -, -, -, -, -, -, -, e0, e1, -⟩ := idx_facts1 t
  funext x
  unfold iblk16
  rw [View.read_apply]
  show V c (Pipeline.arrRef spec16 5) _ = V c (Pipeline.arrRef spec16 5) x
  congr 1
  funext a
  apply Fin.ext
  match a with
  | ⟨0, _⟩ => show win16_5.index t 0 * 8 + 1 * (x 0).val = (x 0).val; rw [e0]; omega
  | ⟨1, _⟩ => show win16_5.index t 1 * 8 + 1 * (x 1).val = (x 1).val; rw [e1]; omega

/-- What point `t` writes back is block `t` of the transformed array: entry `(co, l)` of the stored block is the
    transform at column `65536 · t + l`. -/
theorem flushed1_eq (c : Dev nD) (t : Fin cfg16.N) :
    (dat16 V c).flushed 6 t = ((cfg16.win 6).blk t).view.read (Elt Ideal) (G1 V c) := by
  show (cfg16.win 6).cut (grid16.coords t) ((dat16 V c).after 6 t) = _
  rw [after16_6]
  unfold out16_6
  rw [View.canon_unit_zero hz]
  simp only [View.ld_unit_zero (S := S8x1) hz, View.ld_unit_zero (S := S8x65536) hz, View.ld_unit_zero (S := S8x8) hz]
  obtain ⟨-, -, -, -, -, -, -, -, -, -, -, -, e0, e1⟩ := idx_facts1 t
  have ht : t.val < 8 := lt_of_lt_of_eq t.isLt N_16
  funext j
  have hj0 : (j 0).val < 8 := (j 0).isLt
  have hj1 : (j 1).val < 65536 := (j 1).isLt
  have hn : 65536 * t.val + (j 1).val < 524288 := by omega
  rw [View.read_apply]
  show k16_pay1 (F := Ideal) (iblk16 V c 1 t) (iblk16 V c 2 t) (iblk16 V c 3 t) (iblk16 V c 4 t) (iblk16 V c 0 t) (iblk16 V c 5 t)
      ((cfg16.win 6).xinj (grid16.coords t) j)
    = T1 V c ((((cfg16.win 6).blk t).view.emb j) 0) ((((cfg16.win 6).blk t).view.emb j) 1)
  have he0 : ((((cfg16.win 6).blk t).view.emb j) 0 : Fin 8) = ⟨(j 0).val, hj0⟩ :=
    Fin.ext (by show win16_6.index t 0 * 8 + 1 * (j 0).val = (j 0).val; rw [e0]; omega)
  have he1 : ((((cfg16.win 6).blk t).view.emb j) 1 : Fin 524288) = ⟨65536 * t.val + (j 1).val, hn⟩ :=
    Fin.ext (by show win16_6.index t 1 * 65536 + 1 * (j 1).val = 65536 * t.val + (j 1).val; rw [e1]; omega)
  rw [he0, he1]
  refine (pay1_at (iblk16 V c 0 t) (iblk16 V c 1 t) (iblk16 V c 2 t) (iblk16 V c 3 t) (iblk16 V c 4 t) (iblk16 V c 5 t)
    ((cfg16.win 6).xinj (grid16.coords t) j) ⟨(j 0).val, hj0⟩ ⟨(j 1).val, hj1⟩ rfl rfl).trans ?_
  unfold T1
  refine Finset.sum_congr rfl fun ci _ => ?_
  rw [iblk1_1_eq, iblk1_2_eq, iblk1_3_eq, iblk1_4_eq, iblk1_5_eq,
    iblk1_0_apply V c t (ix2 ci ⟨(j 1).val, hj1⟩) (ix2 ci ⟨65536 * t.val + (j 1).val, hn⟩) rfl rfl]
  rfl

/-- An index of the array is in point `t`'s block iff each coordinate is in the block's range on its axis. -/
theorem mem_blk1_6 (t : Fin cfg16.N) (i : S8x524288.Idx) :
    i ∈ ((cfg16.win 6).blk t).view.set ↔ ∀ a : Fin 2, win16_6.index t a * S8x65536.size a ≤ (i a).val ∧ (i a).val < win16_6.index t a * S8x65536.size a + S8x65536.size a := by
  show i ∈ ((View.whole main_v242).slice (win16_6.rect t)).set ↔ _
  rw [View.set_slice_whole, Rect.mem_set_unit]
  exact Iff.rfl

/-- Every index `(r, n)` of the array is in the block of point `n / 65536`. -/
theorem cover1 (i : S8x524288.Idx) : ∃ t : Fin cfg16.N, (cfg16.win 6).flush t = true ∧ i ∈ ((cfg16.win 6).blk t).view.set := by
  have hN : cfg16.N = 8 := N_16
  have h0 : (i 0).val < 8 := (i 0).isLt
  have h1 : (i 1).val < 524288 := (i 1).isLt
  obtain ⟨t, ht⟩ : ∃ t : Fin cfg16.N, t.val = (i 1).val / 65536 := ⟨⟨(i 1).val / 65536, lt_of_lt_of_eq (by omega) hN.symm⟩, rfl⟩
  obtain ⟨-, -, -, -, -, -, -, -, -, -, -, -, e0, e1⟩ := idx_facts1 t
  refine ⟨t, flush16_6 t, ?_⟩
  rw [mem_blk1_6]
  intro a
  match a with
  | ⟨0, _⟩ => show win16_6.index t 0 * 8 ≤ (i 0).val ∧ (i 0).val < win16_6.index t 0 * 8 + 8; rw [e0]; omega
  | ⟨1, _⟩ => show win16_6.index t 1 * 65536 ≤ (i 1).val ∧ (i 1).val < win16_6.index t 1 * 65536 + 65536; rw [e1, ht]; omega

/-- The output array after the region's 8 points is the transformed array. -/
theorem final1 (c : Dev nD) : (dat16 V c).arrAt 6 cfg16.N = G1 V c :=
  (dat16 V c).arrAt_eq_of_cover 6 (G1 V c) (fun t _ => flushed1_eq V c t) cover1

/-- THE VALUE of the transform region over the curried views: with `H`, the mean `μ`, the variance `σ²`, the scale
    `γ`, the shift `β` and the matrix `wT` read off the arrays as the region finds them, the output array is, at
    `(co, n)`, the sum over `ci` of `wT co ci · ((H ci n − μ ci) · rsqrt(σ² ci + eps) · γ ci + β ci)`. -/
theorem transform1_val (c : Dev nD) :
    toCP ((dat16 V c).arrAt 6 cfg16.N)
      = fun co n => ∑ ci : Fin 8, toM8 (V c (Pipeline.arrRef spec16 5)) co ci
          * ((toCP (V c (Pipeline.arrRef spec16 0)) ci n - toV81 (V c (Pipeline.arrRef spec16 1)) ci)
              * Ideal.rsqrt (toV81 (V c (Pipeline.arrRef spec16 2)) ci + eps) * toV81 (V c (Pipeline.arrRef spec16 3)) ci
              + toV81 (V c (Pipeline.arrRef spec16 4)) ci) := by
  rw [final1]
  rfl

end Blocks

end Cert.KernelIdeal.Val16

end
-- ==== Proof.KHost17.lean ====
/-
  The kernel program's host operations between a layer's transform region and its residual region, read at an
  index over the extended reals, from any contents of the buffers they start from.
  Two layout facts carry everything. The first `N` columns of a channel-major array `[8, NP]`, transposed, are its
  node-major reading `[N, 8]`: entry `(n, c)` is entry `(c, n)`. A node-major array transposed and padded with zeros
  to `NP` columns is its channel-major padded layout: entry `(c, n)` is entry `(n, c)` below the last node and zero
  past it (the pad value is the integer zero converted to a float, which is zero).
  The operations slice and transpose the transform's output, aggregate it over the edges (gather at the sources,
  scale by the norms, add up at the targets: one function `AGG` of the sources, the targets, the norms and the
  array, never opened), transpose and pad the result back, and cut the layer's row out of the bias matrix as a
  column. Every buffer these operations do not write keeps its contents.
-/
import proofs.«143139_j73710228734964_1_alg».proof.Proof.Gen.KernelIdeal.Launch
import proofs.«143139_j73710228734964_1_alg».proof.Proof.Spec
import proofs.«143139_j73710228734964_1_alg».proof.Proof.Conv
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host17

open Cert.KernelIdeal Cert.KernelIdeal.Gen Cert.GCN Idealize.ShloMosaic Idealize.ShloMosaic.ValueIdx

/-- The first `N` columns of a channel-major array, transposed, are its node-major reading: index `(n, c)` reads `(c, n)`. -/
theorem unpad_layout (X : S8x524288.Idx → EReal) (hs : S8x524288.Slices ![0, 0] S8x500000)
    (ht : S8x500000.Transposes [1, 0] S500000x8) :
    transpose S500000x8 [1, 0] (extractStridedSlice S8x500000 ![0, 0] X hs) ht = ofNC (unpadT (toCP X)) := by
  funext j
  obtain ⟨n, c, rfl⟩ : ∃ (n : Fin 500000) (c : Fin 8), j = ix2 n c := ⟨j 0, j 1, eq_ix2 j⟩
  rw [transpose_ix2_apply]
  refine (extractStridedSlice_apply _ X hs _ (ix2 c ⟨n.val, Nat.lt_trans n.isLt (by decide)⟩) fun a => ?_).trans ?_
  · match a with
    | ⟨0, _⟩ => simp
    | ⟨1, _⟩ => simp
  · rfl

/-- A node-major array transposed and zero-padded to `NP` columns is its channel-major padded layout: index `(c, n)`
    reads `(n, c)` below the last node and the pad value past it. -/
theorem pad_layout (Y : S500000x8.Idx → EReal) (z : S_.Idx → EReal) (hz : ∀ i, z i = 0)
    (ht : S500000x8.Transposes [1, 0] S8x500000)
    (hp : S8x500000.Pads (![0, 0] : Fin 2 → Nat) ![0, 24288] ![0, 0] S8x524288) (hu : 0 < S_.numel) :
    pad S8x524288 ![0, 0] ![0, 24288] ![0, 0] (transpose S8x500000 [1, 0] Y ht) z hp hu = ofCP (padT (toNC Y)) := by
  funext j
  obtain ⟨c, n, rfl⟩ : ∃ (c : Fin 8) (n : Fin 524288), j = ix2 c n := ⟨j 0, j 1, eq_ix2 j⟩
  show _ = (if hn : n.val < NN then Y (ix2 ⟨n.val, hn⟩ c) else 0)
  unfold pad
  by_cases hn : n.val < NN
  · have hcond : ∀ a : Fin S8x500000.rank, (![0, 0] : Fin 2 → Nat) a ≤ ((ix2 c n : S8x524288.Idx) (a.cast hp.1)).val
        ∧ (((ix2 c n : S8x524288.Idx) (a.cast hp.1)).val - (![0, 0] : Fin 2 → Nat) a) % ((![0, 0] : Fin 2 → Nat) a + 1) = 0
        ∧ (((ix2 c n : S8x524288.Idx) (a.cast hp.1)).val - (![0, 0] : Fin 2 → Nat) a) / ((![0, 0] : Fin 2 → Nat) a + 1) < S8x500000.size a := by
      intro a
      match a with
      | ⟨0, _⟩ =>
        show (0 : ℕ) ≤ c.val ∧ (c.val - 0) % (0 + 1) = 0 ∧ (c.val - 0) / (0 + 1) < 8
        have := c.isLt; omega
      | ⟨1, _⟩ =>
        show (0 : ℕ) ≤ n.val ∧ (n.val - 0) % (0 + 1) = 0 ∧ (n.val - 0) / (0 + 1) < 500000
        have : n.val < 500000 := hn
        omega
    rw [dif_pos hn, dif_pos hcond]
    refine transpose_apply _ Y ht _ (ix2 ⟨n.val, hn⟩ c) fun b => ?_
    match b with
    | ⟨0, _⟩ => show c.val = (c.val - 0) / (0 + 1); omega
    | ⟨1, _⟩ => show n.val = (n.val - 0) / (0 + 1); omega
  · rw [dif_neg hn, dif_neg ?_, hz]
    intro h
    have h1 := (h ⟨1, by decide⟩).2.2
    have h1' : (n.val - 0) / (0 + 1) < 500000 := h1
    exact hn (show n.val < 500000 by omega)

/-- The edge aggregation on a node-major array `hw`: gather the rows at the edge sources (a negative source index
    counted from the end), scale each by its edge's norm, and add them up at the edge targets, from zero. -/
def AGG (src dst : IVec S8500000 32) (norm : FVec Ideal S8500000 .f32) (hw : FVec Ideal S500000x8 .f32) :
    FVec Ideal S500000x8 .f32 :=
  Host.scatterAdd scatter_S500000x8_S8500000x1_S8500000x8_1_0_0_1
    (broadcastInDim S500000x8 ![] bcast_S_S500000x8 (constant (F := Ideal) S_ .f32 0x00000000#32))
    (broadcastInDim S8500000x1 ![0] bcast_S8500000_S8500000x1_0 dst)
    (mulf
      (Host.gather gather_S500000x8_S8500000x1_S8500000x8_1_0_n_n_0_1_18 hw
        (broadcastInDim S8500000x1 ![0] bcast_S8500000_S8500000x1_0
          (select (cmpi .slt src (broadcastInDim S8500000 ![] bcast_S_S8500000 (constantI S_ 32 0#32)))
            (addi src (broadcastInDim S8500000 ![] bcast_S_S8500000 (constantI S_ 32 500000#32)))
            src)))
      (broadcastInDim S8500000x8 ![0, 1] bcast_S8500000x1_S8500000x8_0_1
        (broadcastInDim S8500000x1 ![0] bcast_S8500000_S8500000x1_0 norm)))

/-- The scalar the padding calls pad with, the integer zero read as a float, is zero. -/
theorem pad_zero (i : S_.Idx) : sitofp (F := Ideal) .f32 (constantI S_ 32 0#32) i = 0 := by
  show (((BitVec.toInt (0#32 : BitVec 32) : ℤ) : ℝ) : EReal) = 0
  rw [show BitVec.toInt (0#32 : BitVec 32) = 0 from by decide]
  simp

set_option maxRecDepth 16384 in
/-- The padding call after the aggregation stretch: the padded buffer is the pad of the transposed buffer by the
    converted constant, whatever the valuation before the call. -/
theorem pad_call1 (V : Valuation τ sig (Elt Ideal)) :
    @Eq (S8x524288.Idx → EReal) (StableHlo.after (hostOps17_1 (F := Ideal)) V (Proc.devRef .tc main_v259))
      (pad S8x524288 ![0, 0] ![0, 24288] ![0, 0] (V (Proc.devRef .tc main_v258))
        (sitofp (F := Ideal) .f32 (V (Proc.devRef .tc main_c_42))) pads_S8x500000_S8x524288_000_0242880 h_S_) := by
  dsimp only [hostOps17_1]
  after_results
  rfl

set_option maxRecDepth 16384 in
set_option maxHeartbeats 1000000 in
/-- What the padded buffer holds after the aggregation stretch and its padding call, as the operations spell it. -/
theorem v69_eq (W : Valuation τ sig (Elt Ideal)) :
    @Eq (S8x524288.Idx → EReal)
      (StableHlo.after (hostOps17_1 (F := Ideal)) (StableHlo.after (hostOps17 (F := Ideal)) W) (Proc.devRef .tc main_v259))
      (pad S8x524288 ![0, 0] ![0, 24288] ![0, 0]
        (transpose S8x500000 [1, 0]
          (Host.scatterAdd scatter_S500000x8_S8500000x1_S8500000x8_1_0_0_1
            (broadcastInDim S500000x8 ![] bcast_S_S500000x8 (constant (F := Ideal) S_ .f32 0x00000000#32))
            (broadcastInDim S8500000x1 ![0] bcast_S8500000_S8500000x1_0 (W (Proc.devRef .tc main_v6)))
            (mulf
              (Host.gather gather_S500000x8_S8500000x1_S8500000x8_1_0_n_n_0_1_18
                (transpose S500000x8 [1, 0]
                  (extractStridedSlice S8x500000 ![0, 0] (W (Proc.devRef .tc main_v242)) slices_S8x524288_S8x500000_0_0)
                  transposes_S8x500000_S500000x8_1_0)
                (broadcastInDim S8500000x1 ![0] bcast_S8500000_S8500000x1_0
                  (select
                    (cmpi .slt (W (Proc.devRef .tc main_v3)) (broadcastInDim S8500000 ![] bcast_S_S8500000 (constantI S_ 32 0#32)))
                    (addi (W (Proc.devRef .tc main_v3)) (broadcastInDim S8500000 ![] bcast_S_S8500000 (constantI S_ 32 500000#32)))
                    (W (Proc.devRef .tc main_v3)))))
              (broadcastInDim S8500000x8 ![0, 1] bcast_S8500000x1_S8500000x8_0_1
                (broadcastInDim S8500000x1 ![0] bcast_S8500000_S8500000x1_0 (W (Proc.devRef .tc main_v26))))))
          transposes_S500000x8_S8x500000_1_0)
        (sitofp (F := Ideal) .f32 (constantI S_ 32 0#32)) pads_S8x500000_S8x524288_000_0242880 h_S_) := by
  rw [pad_call1]
  dsimp only [hostOps17]
  after_results

set_option maxRecDepth 16384 in
/-- After the aggregation stretch and its padding call, the padded buffer holds the channel-major padded layout of the
    aggregation of the node-major reading of the transform's output. -/
theorem agg2 (W : Valuation τ sig (Elt Ideal)) :
    toCP (StableHlo.after (hostOps17_1 (F := Ideal)) (StableHlo.after (hostOps17 (F := Ideal)) W) (Proc.devRef .tc main_v259))
      = padT (toNC (AGG (W (Proc.devRef .tc main_v3)) (W (Proc.devRef .tc main_v6)) (W (Proc.devRef .tc main_v26))
          (ofNC (unpadT (toCP (W (Proc.devRef .tc main_v242))))))) := by
  rw [v69_eq W]
  unfold AGG
  rw [unpad_layout, pad_layout _ _ pad_zero, toCP_ofCP]

set_option maxRecDepth 16384 in
/-- After the bias stretch, the bias column holds the layer's row of the bias matrix. -/
theorem bias2 (W : Valuation τ sig (Elt Ideal)) :
    toV81 (StableHlo.after (hostOps17_2 (F := Ideal)) W (Proc.devRef .tc main_v262))
      = fun c => toM8 (W (Proc.devRef .tc main_arg7)) (5 : Fin 8) c := by
  funext c
  unfold toV81 toM8
  dsimp only [hostOps17_2]
  after_results
  dsimp only
  -- a vector of 8 read as 8 rows of one entry, at row c, is its entry c
  refine (shapeCast_apply (s := S8) (t := S8x1) _ _ (ix2 c 0) (ix1 c) ?_).trans ?_
  · rw [Shape.rowMajor_val_two, Shape.rowMajor_val_one]
    show c.val = c.val * 1 + 0
    omega
  -- one row of 8 read as a vector, at c, is the row's entry c
  refine (shapeCast_1a_a_apply _ _ c).trans ?_
  -- the one-row slice at entry c is the matrix at the layer's row
  exact extractStridedSlice_apply _ _ _ _ (ix2 (5 : Fin 8) c) fun a => match a with
    | ⟨0, _⟩ => rfl
    | ⟨1, _⟩ => (Nat.zero_add _).symm

/-! ## What the stretches leave alone -/

/-- The references the aggregation stretch, its padding call, and the bias stretch write. -/
abbrev hostOps2_W : List (Ref sig .tc) :=
  [main_v243, main_v244, main_c_39, main_v245, main_v246, main_c_40, main_v247, main_v248, main_v249, main_v250, main_v251,
    main_v252, main_v253, main_v254, main_cst_41, main_v255, main_v256, main_v257, main_v258, main_c_42]
abbrev hostOps2_1_W : List (Ref sig .tc) := [main_call6_v0, main_v259]
abbrev hostOps2_2_W : List (Ref sig .tc) := [main_v260, main_v261, main_v262]

set_option maxRecDepth 16384 in
theorem hostOps2_writes : (hostOps17 (F := Ideal)).Forall fun op =>
    op.writes ⊆ (hostOps2_W.map (Proc.devRef (τ := τ) .tc)).toFinset := by
  simp only [hostOps17, List.Forall, StableHlo.nullary_writes, StableHlo.unary_writes, StableHlo.binary_writes,
    StableHlo.ternary_writes, Finset.singleton_subset_iff, List.mem_toFinset]
  refine ⟨?_, ?_, ?_, ?_, ?_, ?_, ?_, ?_, ?_, ?_, ?_, ?_, ?_, ?_, ?_, ?_, ?_, ?_, ?_, ?_⟩
  all_goals exact List.mem_map.mpr ⟨_, by decide, rfl⟩

set_option maxRecDepth 16384 in
theorem hostOps2_1_writes : (hostOps17_1 (F := Ideal)).Forall fun op =>
    op.writes ⊆ (hostOps2_1_W.map (Proc.devRef (τ := τ) .tc)).toFinset := by
  simp only [hostOps17_1, List.Forall, StableHlo.unary_writes, StableHlo.binary_writes,
    Finset.singleton_subset_iff, List.mem_toFinset]
  refine ⟨?_, ?_⟩
  all_goals exact List.mem_map.mpr ⟨_, by decide, rfl⟩

set_option maxRecDepth 16384 in
theorem hostOps2_2_writes : (hostOps17_2 (F := Ideal)).Forall fun op =>
    op.writes ⊆ (hostOps2_2_W.map (Proc.devRef (τ := τ) .tc)).toFinset := by
  simp only [hostOps17_2, List.Forall, StableHlo.unary_writes, StableHlo.reshape_writes,
    Finset.singleton_subset_iff, List.mem_toFinset]
  refine ⟨?_, ?_, ?_⟩
  all_goals exact List.mem_map.mpr ⟨_, by decide, rfl⟩

/-- A buffer none of the three stretches writes holds after them what it held before. -/
theorem kept2 (W : Valuation τ sig (Elt Ideal)) (r : Ref sig .tc)
    (h : r ∉ hostOps2_W) (h1 : r ∉ hostOps2_1_W) (h2 : r ∉ hostOps2_2_W) :
    StableHlo.after (hostOps17_2 (F := Ideal)) (StableHlo.after (hostOps17_1 (F := Ideal))
      (StableHlo.after (hostOps17 (F := Ideal)) W)) (Proc.devRef .tc r) = W (Proc.devRef .tc r) :=
  (StableHlo.after_of_writes_sub hostOps17_2 _ hostOps2_2_writes h2).trans <|
    (StableHlo.after_of_writes_sub hostOps17_1 _ hostOps2_1_writes h1).trans <|
      StableHlo.after_of_writes_sub hostOps17 _ hostOps2_writes h

/-- The same, stretch by stretch. -/
theorem kept_hostOps2 (W : Valuation τ sig (Elt Ideal)) (r : Ref sig .tc) (h : r ∉ hostOps2_W) :
    StableHlo.after (hostOps17 (F := Ideal)) W (Proc.devRef .tc r) = W (Proc.devRef .tc r) :=
  StableHlo.after_of_writes_sub hostOps17 _ hostOps2_writes h
theorem kept_hostOps2_1 (W : Valuation τ sig (Elt Ideal)) (r : Ref sig .tc) (h : r ∉ hostOps2_1_W) :
    StableHlo.after (hostOps17_1 (F := Ideal)) W (Proc.devRef .tc r) = W (Proc.devRef .tc r) :=
  StableHlo.after_of_writes_sub hostOps17_1 _ hostOps2_1_writes h
theorem kept_hostOps2_2 (W : Valuation τ sig (Elt Ideal)) (r : Ref sig .tc) (h : r ∉ hostOps2_2_W) :
    StableHlo.after (hostOps17_2 (F := Ideal)) W (Proc.devRef .tc r) = W (Proc.devRef .tc r) :=
  StableHlo.after_of_writes_sub hostOps17_2 _ hostOps2_2_writes h

end Cert.KernelIdeal.Host17

end
-- ==== Proof.KResid17.lean ====
/-
  The value of the residual region of the first layer: the output array `[8, 524288]` after the region's eight grid
  points, index by index, as a function of the three arrays the region reads (the layer's input `H`, the aggregated
  messages, the bias column): entry `(ch, n)` is `max (H ch n + agg ch n + bias ch) 0` times the mask of column `n`
  (one on the columns of real nodes, zero on the padding).
  The mask is built inside the body from the grid coordinate: tile `t`, lane `l` is column `65536 · t + l`, compared as
  a signed 32-bit word with 500000; no column number wraps, so the comparison is the one of the naturals.
  Then the road from blocks to the array: the payload at an index, each input block as columns of its array, what the
  body leaves at a point as a block of the one whole-array function, the tiling of the array by the eight blocks.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val17

open Cert.KernelIdeal Cert.KernelIdeal.Gen Cert.KernelIdeal.GenP Cert.GCN
open Idealize.ShloMosaic Idealize.ShloMosaic.TcCoe Idealize.ShloMosaic.ValueIdx Idealize.SL.Sem
open Idealize.ShloMosaic.Pipeline (Dat)

/-- The column number as a 32-bit word: no wrap-around, the largest is 65536·7 + 65535. -/
theorem colWord_eq (t : Fin 8) (l : Fin 65536) :
    IntOp.addi (Scalar.muli (BitVec.ofNat 32 t.val) 65536#32) (BitVec.ofNat 32 l.val) = BitVec.ofNat 32 (65536 * t.val + l.val) := by
  unfold IntOp.addi Scalar.muli IntOp.muli
  rw [show (65536#32 : BitVec 32) = BitVec.ofNat 32 65536 from rfl, BitVec.ofNat_mul_ofNat, BitVec.ofNat_add_ofNat, Nat.mul_comm]

/-- The signed comparison of a column number with the number of nodes is the comparison of the naturals: both are
    below 2^31, so both read signed as themselves. -/
theorem slt_colWord (n : Nat) (hn : n < 524288) :
    IntOp.cmpi .slt (BitVec.ofNat 32 n) 500000#32 = if n < 500000 then 1#1 else 0#1 := by
  unfold IntOp.cmpi
  dsimp only
  rw [BitVec.slt_eq_decide]
  have h1 : (BitVec.ofNat 32 n).toInt = (n : Int) := by
    rw [BitVec.toInt_eq_toNat_of_lt (by rw [BitVec.toNat_ofNat, Nat.mod_eq_of_lt (by omega)]; omega), BitVec.toNat_ofNat, Nat.mod_eq_of_lt (by omega)]
  have h2 : (500000#32 : BitVec 32).toInt = 500000 := by decide
  rw [h1, h2]
  by_cases h : n < 500000
  · rw [if_pos h, decide_eq_true (by omega)]; rfl
  · rw [if_neg h, decide_eq_false (by omega)]; rfl

/-- THE MASK AT A COLUMN: the comparison bit, widened and converted, is one on the columns of real nodes and zero on
    the padding. -/
theorem maskWord (t : Fin 8) (l : Fin 65536) :
    (FloatOps.sitofp (F := Ideal) .f32 ((IntOp.cmpi .slt (IntOp.addi (Scalar.muli (BitVec.ofNat 32 t.val) 65536#32) (BitVec.ofNat 32 l.val)) 500000#32).setWidth 32) : EReal)
      = if 65536 * t.val + l.val < 500000 then 1 else 0 := by
  rw [colWord_eq, slt_colWord _ (by have := t.isLt; have := l.isLt; omega)]
  by_cases h : 65536 * t.val + l.val < 500000
  · rw [if_pos h, if_pos h]
    show (((BitVec.setWidth 32 1#1).toInt : ℝ) : EReal) = 1
    rw [show (BitVec.setWidth 32 1#1).toInt = 1 from by decide]
    simp
  · rw [if_neg h, if_neg h]
    show (((BitVec.setWidth 32 0#1).toInt : ℝ) : EReal) = 0
    rw [show (BitVec.setWidth 32 0#1).toInt = 0 from by decide]
    simp

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mask row the body builds from the grid coordinate, read at lane `l` of tile `t`. -/
theorem maskRow_apply (i : grid17.Coords) (t : Fin 8) (ht : (i 0).val = t.val) (l : Fin 65536) :
    (sitofp (F := Ideal) .f32 (extui 32 (cmpi .slt (addi (broadcast S1x65536 (Scalar.muli (BitVec.ofNat 32 (i 0).val) 65536#32))
        (iota .tc S1x65536 32 [1] iota_S1x65536_d1_w32)) (broadcast S1x65536 500000#32)) natLt_1_32) : FVec Ideal S1x65536 .f32) (ix2 (0 : Fin 1) l)
      = if 65536 * t.val + l.val < 500000 then 1 else 0 := by
  show FloatOps.sitofp (F := Ideal) .f32 ((IntOp.cmpi .slt (IntOp.addi (Scalar.muli (BitVec.ofNat 32 (i 0).val) 65536#32)
      (iota .tc S1x65536 32 [1] iota_S1x65536_d1_w32 (ix2 (0 : Fin 1) l))) 500000#32).setWidth 32) = _
  rw [iota_single_apply, ht]
  exact maskWord t l

/-- THE PAYLOAD AT AN INDEX: residual plus aggregate plus bias, clipped below at zero, times the mask of the column. -/
theorem pay_apply (i : grid17.Coords) (t : Fin 8) (ht : (i 0).val = t.val) (v0 : Vec Ideal S8x1 .f32) (v10 v12 : Vec Ideal S8x65536 .f32)
    (p : Fin 8) (l : Fin 65536) :
    k17_pay1 (F := Ideal) i v0 v10 v12 (ix2 p l)
      = max (v10 (ix2 p l) + v12 (ix2 p l) + v0 (ix2 p (0 : Fin 1))) 0 * (if 65536 * t.val + l.val < 500000 then 1 else 0) := by
  unfold k17_pay1
  dsimp only
  rw [mulf_apply, maximumf_apply, addf_apply, addf_apply, broadcast_apply, shapeCast_self, shapeCast_self, shapeCast_self,
    broadcastTo_1b_ab_apply, broadcastTo_a1_ab_apply, maskRow_apply i t ht l]
  show max _ (Ideal.ofBits .f32 0x00000000#32) * _ = _
  rw [Ideal.ofBits_zero_f32]

variable (V : (c : Dev nD) → (b : Ref sig .tc) → Buf (Elt Ideal) ((c : Thread nD τ).loc b))

/-- The three arrays the region reads, as it finds them: the layer's input `H`, the aggregated messages, the bias column. -/
abbrev harr (c : Dev nD) : Vec Ideal S8x524288 .f32 := V c (Pipeline.arrRef spec17 0)
abbrev garr (c : Dev nD) : Vec Ideal S8x524288 .f32 := V c (Pipeline.arrRef spec17 1)
abbrev barr (c : Dev nD) : Vec Ideal S8x1 .f32 := V c (Pipeline.arrRef spec17 2)

/-- Their blocks at a grid point. -/
abbrev hblk (c : Dev nD) (t : Fin cfg17.N) : Vec Ideal S8x65536 .f32 := iblk17 V c 0 t
abbrev gblk (c : Dev nD) (t : Fin cfg17.N) : Vec Ideal S8x65536 .f32 := iblk17 V c 1 t
abbrev bblk (c : Dev nD) (t : Fin cfg17.N) : Vec Ideal S8x1 .f32 := iblk17 V c 2 t

/-- WHAT THE REGION COMPUTES, as one array: entry `(ch, n)` is `max (H + agg + bias) 0` there, times the mask of column `n`. -/
def resid (c : Dev nD) : Vec Ideal S8x524288 .f32 :=
  ofCP fun ch n => max (toCP (harr V c) ch n + toCP (garr V c) ch n + toV81 (barr V c) ch) 0 * maskK n

theorem hz : (![0, 0] : Fin 2 → Nat) = fun _ => 0 := funext fun a => by fin_cases a <;> rfl

/-- The grid has eight points. -/
theorem lt8 (t : Fin cfg17.N) : t.val < 8 := Nat.lt_of_lt_of_eq t.isLt (N_17 : cfg17.N = 8)

/-- The printed index maps, decided once over the grid: the grid coordinate is the point; the two tiled inputs and the
    output sit at column block `t`, the bias column at block zero. -/
theorem idx_facts : ∀ t : Fin cfg17.N, (grid17.coords t 0).val = t.val
    ∧ win17_0.index t (0 : Fin 2) = 0 ∧ win17_0.index t (1 : Fin 2) = t.val
    ∧ win17_1.index t (0 : Fin 2) = 0 ∧ win17_1.index t (1 : Fin 2) = t.val
    ∧ win17_2.index t (0 : Fin 2) = 0 ∧ win17_2.index t (1 : Fin 2) = 0
    ∧ win17_3.index t (0 : Fin 2) = 0 ∧ win17_3.index t (1 : Fin 2) = t.val :=
  (by decide +kernel : ∀ t : Fin grid17.N, _)

/-- Lane `l` of the input block at point `t` is column `65536 · t + l` of the input. -/
theorem hblk_apply (c : Dev nD) (t : Fin cfg17.N) (p : Fin 8) (l : Fin 65536) (n : Fin 524288) (hn : n.val = 65536 * t.val + l.val) :
    hblk V c t (ix2 p l) = harr V c (ix2 p n) := by
  obtain ⟨-, e0, e1, -⟩ := idx_facts t
  show V c (Pipeline.arrRef spec17 0) (((cfg17.win 0).blk t).view.emb (ix2 p l)) = V c (Pipeline.arrRef spec17 0) (ix2 p n)
  congr 1
  funext a
  apply Fin.ext
  match a with
  | ⟨0, _⟩ => show win17_0.index t (0 : Fin 2) * 8 + 1 * p.val = p.val; rw [e0]; omega
  | ⟨1, _⟩ => show win17_0.index t (1 : Fin 2) * 65536 + 1 * l.val = n.val; rw [e1, hn]; omega

/-- The same for the aggregated messages. -/
theorem gblk_apply (c : Dev nD) (t : Fin cfg17.N) (p : Fin 8) (l : Fin 65536) (n : Fin 524288) (hn : n.val = 65536 * t.val + l.val) :
    gblk V c t (ix2 p l) = garr V c (ix2 p n) := by
  obtain ⟨-, -, -, e0, e1, -⟩ := idx_facts t
  show V c (Pipeline.arrRef spec17 1) (((cfg17.win 1).blk t).view.emb (ix2 p l)) = V c (Pipeline.arrRef spec17 1) (ix2 p n)
  congr 1
  funext a
  apply Fin.ext
  match a with
  | ⟨0, _⟩ => show win17_1.index t (0 : Fin 2) * 8 + 1 * p.val = p.val; rw [e0]; omega
  | ⟨1, _⟩ => show win17_1.index t (1 : Fin 2) * 65536 + 1 * l.val = n.val; rw [e1, hn]; omega

/-- The bias block is the whole bias column at every point. -/
theorem bblk_apply (c : Dev nD) (t : Fin cfg17.N) (p : Fin 8) :
    bblk V c t (ix2 p (0 : Fin 1)) = barr V c (ix2 p (0 : Fin 1)) := by
  obtain ⟨-, -, -, -, -, e0, e1, -⟩ := idx_facts t
  show V c (Pipeline.arrRef spec17 2) (((cfg17.win 2).blk t).view.emb (ix2 p (0 : Fin 1))) = V c (Pipeline.arrRef spec17 2) (ix2 p (0 : Fin 1))
  congr 1
  funext a
  apply Fin.ext
  match a with
  | ⟨0, _⟩ => show win17_2.index t (0 : Fin 2) * 8 + 1 * p.val = p.val; rw [e0]; omega
  | ⟨1, _⟩ => show win17_2.index t (1 : Fin 2) * 1 + 1 * 0 = 0; rw [e1]

/-- Lane `l` of the output block at point `t` is column `65536 · t + l` of the output. -/
theorem oblk_read (c : Dev nD) (t : Fin cfg17.N) (X : Vec Ideal S8x524288 .f32) (p : Fin 8) (l : Fin 65536) (n : Fin 524288) (hn : n.val = 65536 * t.val + l.val) :
    (((cfg17.win 3).blk t).view.read (Elt Ideal) X : Vec Ideal S8x65536 .f32) (ix2 p l) = X (ix2 p n) := by
  obtain ⟨-, -, -, -, -, -, -, e0, e1⟩ := idx_facts t
  show X (((cfg17.win 3).blk t).view.emb (ix2 p l)) = X (ix2 p n)
  congr 1
  funext a
  apply Fin.ext
  match a with
  | ⟨0, _⟩ => show win17_3.index t (0 : Fin 2) * 8 + 1 * p.val = p.val; rw [e0]; omega
  | ⟨1, _⟩ => show win17_3.index t (1 : Fin 2) * 65536 + 1 * l.val = n.val; rw [e1, hn]; omega

/-- WHAT THE BODY LEAVES at point `t` is block `t` of `resid`. -/
theorem out_eq (c : Dev nD) (t : Fin cfg17.N) :
    out17_3 (grid17.coords t) (hblk V c t) (gblk V c t) (bblk V c t) = ((cfg17.win 3).blk t).view.read (Elt Ideal) (resid V c) := by
  unfold out17_3
  rw [View.canon_unit_zero hz]
  simp only [View.ld_unit_zero (S := S8x65536) hz, View.ld_unit_zero (S := S8x1) hz]
  funext j
  obtain ⟨p, l, rfl⟩ : ∃ (p : Fin 8) (l : Fin 65536), j = ix2 p l := ⟨j 0, j 1, eq_ix2 j⟩
  have ec : (grid17.coords t 0).val = (⟨t.val, lt8 t⟩ : Fin 8).val := (idx_facts t).1
  have hn : (col ⟨t.val, lt8 t⟩ l).val = 65536 * t.val + l.val := rfl
  rw [pay_apply (grid17.coords t) ⟨t.val, lt8 t⟩ ec, hblk_apply V c t p l _ hn, gblk_apply V c t p l _ hn, bblk_apply V c t p,
    oblk_read c t (resid V c) p l _ hn]
  rfl

/-- An index of the output array is in point `t`'s block iff each coordinate is in the block's range on its axis. -/
theorem mem_oblk (t : Fin cfg17.N) (i : S8x524288.Idx) :
    i ∈ ((cfg17.win 3).blk t).view.set ↔ ∀ a : Fin 2, win17_3.index t a * S8x65536.size a ≤ (i a).val ∧ (i a).val < win17_3.index t a * S8x65536.size a + S8x65536.size a := by
  show i ∈ ((View.whole (Pipeline.arrRef spec17 3)).slice (win17_3.rect t)).set ↔ _
  rw [View.set_slice_whole, Rect.mem_set_unit]
  exact Iff.rfl

/-- Every column lies in the block of the point `column / 65536`: the eight blocks tile the array. -/
theorem cover (i : S8x524288.Idx) : ∃ t : Fin cfg17.N, (cfg17.win 3).flush t = true ∧ i ∈ ((cfg17.win 3).blk t).view.set := by
  have h0 : (i 0).val < 8 := (i 0).isLt
  have h1 : (i 1).val < 524288 := (i 1).isLt
  have hN : cfg17.N = 8 := N_17
  have hq : (i 1).val / 65536 < cfg17.N := by rw [hN]; omega
  obtain ⟨-, -, -, -, -, -, -, e0, e1⟩ := idx_facts ⟨(i 1).val / 65536, hq⟩
  refine ⟨⟨(i 1).val / 65536, hq⟩, flush17_3 _, ?_⟩
  rw [mem_oblk]
  intro a
  match a with
  | ⟨0, _⟩ =>
    show win17_3.index ⟨(i 1).val / 65536, hq⟩ (0 : Fin 2) * 8 ≤ (i 0).val ∧ (i 0).val < win17_3.index ⟨(i 1).val / 65536, hq⟩ (0 : Fin 2) * 8 + 8
    rw [e0]; omega
  | ⟨1, _⟩ =>
    show win17_3.index ⟨(i 1).val / 65536, hq⟩ (1 : Fin 2) * 65536 ≤ (i 1).val ∧ (i 1).val < win17_3.index ⟨(i 1).val / 65536, hq⟩ (1 : Fin 2) * 65536 + 65536
    rw [e1]
    show (i 1).val / 65536 * 65536 ≤ (i 1).val ∧ (i 1).val < (i 1).val / 65536 * 65536 + 65536
    omega

/-- WHAT POINT `t` WRITES BACK is block `t` of `resid`. -/
theorem flushed_eq (c : Dev nD) (t : Fin cfg17.N) :
    (dat17 (F := Ideal) V c).flushed 3 t = ((cfg17.win 3).blk t).view.read (Elt Ideal) (resid V c) := by
  show (cfg17.win 3).cut (grid17.coords t) ((dat17 (F := Ideal) V c).after 3 t) = _
  rw [after17_3]
  exact out_eq V c t

/-- THE OUTPUT ARRAY after the eight points is `resid`: every block written back is its block, and the blocks tile it. -/
theorem final (c : Dev nD) : (dat17 (F := Ideal) V c).arrAt 3 cfg17.N = resid V c :=
  (dat17 (F := Ideal) V c).arrAt_eq_of_cover 3 (resid V c) (fun t _ => flushed_eq V c t) cover

/-- THE REGION'S VALUE, by coordinates: channel `ch`, column `n` of the output is the residual sum clipped at zero, masked
    to the columns of real nodes. -/
theorem resid2_val (c : Dev nD) :
    toCP ((dat17 (F := Ideal) V c).arrAt 3 cfg17.N)
      = fun ch n => max (toCP (V c (Pipeline.arrRef spec17 0)) ch n + toCP (V c (Pipeline.arrRef spec17 1)) ch n
          + toV81 (V c (Pipeline.arrRef spec17 2)) ch) 0 * maskK n :=
  (congrArg toCP (final V c)).trans (toCP_ofCP _)

end Cert.KernelIdeal.Val17

end
-- ==== Proof.KLayer5.lean ====
/-
  Layer 0 of the kernel program as one step on the channel-major activations.
  The program runs the layer as three pipelined regions with host stretches between them. Region 0 reads the
  activations H and leaves the row sums and the row sums of squares; the first host stretch divides them by the
  number of nodes into the batch mean and the batch variance (the mean of the squares minus the squared mean) and
  cuts the layer's row out of the scales, the shifts and the weights; region 1 normalises H, scales, shifts and
  applies the transposed weights; the next host stretches take the first N columns node-major through the edge
  aggregation and pad the result back, and cut the layer's row out of the biases; region 2 adds H, the padded
  aggregate and the bias, clamps below at zero and zeroes the padding.
  Each region and each stretch is read by its own module. Here the readings are chained: a buffer a region only
  reads leaves the region as it entered, a buffer a region or a stretch does not touch crosses it unchanged, and
  the five readings then compose to the layer's closed form `layerK` at the contents the layer was entered with.
  The edge lists, the edge norm and the program's arguments cross the whole layer unchanged.
-/
import proofs.«143139_j73710228734964_1_alg».proof.Proof.KernelIdealFrameP
import proofs.«143139_j73710228734964_1_alg».proof.Proof.Spec
import proofs.«143139_j73710228734964_1_alg».proof.Proof.Conv
import proofs.«143139_j73710228734964_1_alg».proof.Proof.KStats15
import proofs.«143139_j73710228734964_1_alg».proof.Proof.KHost16
import proofs.«143139_j73710228734964_1_alg».proof.Proof.KTransform16
import proofs.«143139_j73710228734964_1_alg».proof.Proof.KHost17
import proofs.«143139_j73710228734964_1_alg».proof.Proof.KResid17
import Idealize.ShloMosaic.Lib.StableHlo.Run
import Idealize.ShloMosaic.Lib.Pipeline.Cells
import Idealize.ShloMosaic.Lib.ValueIdx

set_option maxRecDepth 16384

noncomputable section

namespace Cert.KernelIdeal.Layer5

open Cert.KernelIdeal Cert.KernelIdeal.Gen Cert.KernelIdeal.GenP Cert.GCN
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)

/-- No operation of the host stretch writes the buffer: each operation writes one buffer, and it is another one. -/
local macro "not_written" : tactic => `(tactic|
  exact List.forall_iff_forall_mem.mp (by
    simp only [hostOps16, hostOps17, hostOps17_1, hostOps17_2, List.flatten_cons, List.flatten_nil, List.append_nil,
      List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

/-- A host stretch leaves a buffer that none of its operations writes as it was. -/
local macro "host_kept" : tactic => `(tactic|
  exact StableHlo.after_of_forall_not_mem (b := _) _ _ (by not_written))

/-! ## The activations H cross the layer: every region only reads them, no stretch writes them -/

/-- Region 0 reads H through an input window: it leaves as it entered. -/
theorem W38_main_v35 : W38 m ρ c (Proc.devRef .tc main_v225) = W37 m ρ c (Proc.devRef .tc main_v225) :=
  (W38_arr m ρ c 0).trans (((dat15 (V37 m ρ) c).arrAt_in 0 rfl _).trans (A_eq15 (V37 m ρ) c 0))

theorem W39_main_v35 : W39 m ρ c (Proc.devRef .tc main_v225) = W37 m ρ c (Proc.devRef .tc main_v225) :=
  calc W39 m ρ c (Proc.devRef .tc main_v225)
    _ = W38 m ρ c (Proc.devRef .tc main_v225) := by host_kept
    _ = W37 m ρ c (Proc.devRef .tc main_v225) := W38_main_v35 m ρ c

/-- Region 1 reads H through an input window too. -/
theorem W40_main_v35 : W40 m ρ c (Proc.devRef .tc main_v225) = W37 m ρ c (Proc.devRef .tc main_v225) :=
  calc W40 m ρ c (Proc.devRef .tc main_v225)
    _ = W39 m ρ c (Proc.devRef .tc main_v225) :=
        (W40_arr m ρ c 0).trans (((dat16 (V39 m ρ) c).arrAt_in 0 rfl _).trans (A_eq16 (V39 m ρ) c 0))
    _ = W37 m ρ c (Proc.devRef .tc main_v225) := W39_main_v35 m ρ c

theorem W43_main_v35 : W43 m ρ c (Proc.devRef .tc main_v225) = W37 m ρ c (Proc.devRef .tc main_v225) :=
  calc W43 m ρ c (Proc.devRef .tc main_v225)
    _ = W42 m ρ c (Proc.devRef .tc main_v225) := by host_kept
    _ = W41 m ρ c (Proc.devRef .tc main_v225) := by host_kept
    _ = W40 m ρ c (Proc.devRef .tc main_v225) := by host_kept
    _ = W37 m ρ c (Proc.devRef .tc main_v225) := W40_main_v35 m ρ c

/-! ## A buffer the layer touches nowhere crosses it unchanged -/

/-- Through region 0, the first stretch and region 1: the buffer is no window's array of either region and no
    operation of the stretch writes it. -/
theorem W40_kept {b : Ref sig .tc} (h0 : ∀ w, Pipeline.arrRef spec15 w ≠ b) (h1 : ∀ w, Pipeline.arrRef spec16 w ≠ b)
    (g1 : ∀ op ∈ (hostOps16 : List (HloOp τ sig (Elt Ideal))), Proc.devRef (τ := τ) .tc b ∉ op.writes) :
    W40 m ρ c (Proc.devRef .tc b) = W37 m ρ c (Proc.devRef .tc b) :=
  calc W40 m ρ c (Proc.devRef .tc b)
    _ = W39 m ρ c (Proc.devRef .tc b) := W40_of_ne m ρ c b h1
    _ = W38 m ρ c (Proc.devRef .tc b) := StableHlo.after_of_forall_not_mem (b := Proc.devRef .tc b) _ _ g1
    _ = W37 m ρ c (Proc.devRef .tc b) := W38_of_ne m ρ c b h0

/-- Through the three stretches before region 2: no operation of them writes the buffer. -/
theorem W43_kept {b : Ref sig .tc}
    (g2 : ∀ op ∈ (hostOps17 : List (HloOp τ sig (Elt Ideal))), Proc.devRef (τ := τ) .tc b ∉ op.writes)
    (g2_1 : ∀ op ∈ (hostOps17_1 : List (HloOp τ sig (Elt Ideal))), Proc.devRef (τ := τ) .tc b ∉ op.writes)
    (g2_2 : ∀ op ∈ (hostOps17_2 : List (HloOp τ sig (Elt Ideal))), Proc.devRef (τ := τ) .tc b ∉ op.writes) :
    W43 m ρ c (Proc.devRef .tc b) = W40 m ρ c (Proc.devRef .tc b) :=
  calc W43 m ρ c (Proc.devRef .tc b)
    _ = W42 m ρ c (Proc.devRef .tc b) := StableHlo.after_of_forall_not_mem (b := Proc.devRef .tc b) _ _ g2_2
    _ = W41 m ρ c (Proc.devRef .tc b) := StableHlo.after_of_forall_not_mem (b := Proc.devRef .tc b) _ _ g2_1
    _ = W40 m ρ c (Proc.devRef .tc b) := StableHlo.after_of_forall_not_mem (b := Proc.devRef .tc b) _ _ g2

/-- Through the whole layer. -/
theorem W44_kept {b : Ref sig .tc} (h0 : ∀ w, Pipeline.arrRef spec15 w ≠ b) (h1 : ∀ w, Pipeline.arrRef spec16 w ≠ b)
    (h2 : ∀ w, Pipeline.arrRef spec17 w ≠ b)
    (g1 : ∀ op ∈ (hostOps16 : List (HloOp τ sig (Elt Ideal))), Proc.devRef (τ := τ) .tc b ∉ op.writes)
    (g2 : ∀ op ∈ (hostOps17 : List (HloOp τ sig (Elt Ideal))), Proc.devRef (τ := τ) .tc b ∉ op.writes)
    (g2_1 : ∀ op ∈ (hostOps17_1 : List (HloOp τ sig (Elt Ideal))), Proc.devRef (τ := τ) .tc b ∉ op.writes)
    (g2_2 : ∀ op ∈ (hostOps17_2 : List (HloOp τ sig (Elt Ideal))), Proc.devRef (τ := τ) .tc b ∉ op.writes) :
    W44 m ρ c (Proc.devRef .tc b) = W37 m ρ c (Proc.devRef .tc b) :=
  calc W44 m ρ c (Proc.devRef .tc b)
    _ = W43 m ρ c (Proc.devRef .tc b) := W44_of_ne m ρ c b h2
    _ = W40 m ρ c (Proc.devRef .tc b) := W43_kept m ρ c g2 g2_1 g2_2
    _ = W37 m ρ c (Proc.devRef .tc b) := W40_kept m ρ c h0 h1 g1

theorem W40_main_v3 : W40 m ρ c (Proc.devRef .tc main_v3) = W37 m ρ c (Proc.devRef .tc main_v3) :=
  W40_kept m ρ c (b := main_v3) (by decide) (by decide) (by not_written)
theorem W40_main_v6 : W40 m ρ c (Proc.devRef .tc main_v6) = W37 m ρ c (Proc.devRef .tc main_v6) :=
  W40_kept m ρ c (b := main_v6) (by decide) (by decide) (by not_written)
theorem W40_main_v26 : W40 m ρ c (Proc.devRef .tc main_v26) = W37 m ρ c (Proc.devRef .tc main_v26) :=
  W40_kept m ρ c (b := main_v26) (by decide) (by decide) (by not_written)
theorem W40_main_arg7 : W40 m ρ c (Proc.devRef .tc main_arg7) = W37 m ρ c (Proc.devRef .tc main_arg7) :=
  W40_kept m ρ c (b := main_arg7) (by decide) (by decide) (by not_written)

theorem W44_main_v3 : W44 m ρ c (Proc.devRef .tc main_v3) = W37 m ρ c (Proc.devRef .tc main_v3) :=
  W44_kept m ρ c (b := main_v3) (by decide) (by decide) (by decide) (by not_written) (by not_written) (by not_written) (by not_written)
theorem W44_main_v6 : W44 m ρ c (Proc.devRef .tc main_v6) = W37 m ρ c (Proc.devRef .tc main_v6) :=
  W44_kept m ρ c (b := main_v6) (by decide) (by decide) (by decide) (by not_written) (by not_written) (by not_written) (by not_written)
theorem W44_main_v26 : W44 m ρ c (Proc.devRef .tc main_v26) = W37 m ρ c (Proc.devRef .tc main_v26) :=
  W44_kept m ρ c (b := main_v26) (by decide) (by decide) (by decide) (by not_written) (by not_written) (by not_written) (by not_written)
theorem W44_main_arg0 : W44 m ρ c (Proc.devRef .tc main_arg0) = W37 m ρ c (Proc.devRef .tc main_arg0) :=
  W44_kept m ρ c (b := main_arg0) (by decide) (by decide) (by decide) (by not_written) (by not_written) (by not_written) (by not_written)
theorem W44_main_arg1 : W44 m ρ c (Proc.devRef .tc main_arg1) = W37 m ρ c (Proc.devRef .tc main_arg1) :=
  W44_kept m ρ c (b := main_arg1) (by decide) (by decide) (by decide) (by not_written) (by not_written) (by not_written) (by not_written)
theorem W44_main_arg2 : W44 m ρ c (Proc.devRef .tc main_arg2) = W37 m ρ c (Proc.devRef .tc main_arg2) :=
  W44_kept m ρ c (b := main_arg2) (by decide) (by decide) (by decide) (by not_written) (by not_written) (by not_written) (by not_written)
theorem W44_main_arg3 : W44 m ρ c (Proc.devRef .tc main_arg3) = W37 m ρ c (Proc.devRef .tc main_arg3) :=
  W44_kept m ρ c (b := main_arg3) (by decide) (by decide) (by decide) (by not_written) (by not_written) (by not_written) (by not_written)
theorem W44_main_arg4 : W44 m ρ c (Proc.devRef .tc main_arg4) = W37 m ρ c (Proc.devRef .tc main_arg4) :=
  W44_kept m ρ c (b := main_arg4) (by decide) (by decide) (by decide) (by not_written) (by not_written) (by not_written) (by not_written)
theorem W44_main_arg5 : W44 m ρ c (Proc.devRef .tc main_arg5) = W37 m ρ c (Proc.devRef .tc main_arg5) :=
  W44_kept m ρ c (b := main_arg5) (by decide) (by decide) (by decide) (by not_written) (by not_written) (by not_written) (by not_written)
theorem W44_main_arg6 : W44 m ρ c (Proc.devRef .tc main_arg6) = W37 m ρ c (Proc.devRef .tc main_arg6) :=
  W44_kept m ρ c (b := main_arg6) (by decide) (by decide) (by decide) (by not_written) (by not_written) (by not_written) (by not_written)
theorem W44_main_arg7 : W44 m ρ c (Proc.devRef .tc main_arg7) = W37 m ρ c (Proc.devRef .tc main_arg7) :=
  W44_kept m ρ c (b := main_arg7) (by decide) (by decide) (by decide) (by not_written) (by not_written) (by not_written) (by not_written)
theorem W44_main_arg8 : W44 m ρ c (Proc.devRef .tc main_arg8) = W37 m ρ c (Proc.devRef .tc main_arg8) :=
  W44_kept m ρ c (b := main_arg8) (by decide) (by decide) (by decide) (by not_written) (by not_written) (by not_written) (by not_written)
theorem W44_main_arg9 : W44 m ρ c (Proc.devRef .tc main_arg9) = W37 m ρ c (Proc.devRef .tc main_arg9) :=
  W44_kept m ρ c (b := main_arg9) (by decide) (by decide) (by decide) (by not_written) (by not_written) (by not_written) (by not_written)
theorem W44_main_arg10 : W44 m ρ c (Proc.devRef .tc main_arg10) = W37 m ρ c (Proc.devRef .tc main_arg10) :=
  W44_kept m ρ c (b := main_arg10) (by decide) (by decide) (by decide) (by not_written) (by not_written) (by not_written) (by not_written)
theorem W44_main_arg11 : W44 m ρ c (Proc.devRef .tc main_arg11) = W37 m ρ c (Proc.devRef .tc main_arg11) :=
  W44_kept m ρ c (b := main_arg11) (by decide) (by decide) (by decide) (by not_written) (by not_written) (by not_written) (by not_written)

/-! ## Region 0: the row sums and the row sums of squares of H -/

theorem W38_main_v36_0 :
    toV81 (W38 m ρ c (Proc.devRef .tc main_v226_0)) = sumK (toCP (W37 m ρ c (Proc.devRef .tc main_v225))) :=
  (congrArg toV81 (W38_arr m ρ c 1)).trans (Val15.stats0_sum (V37 m ρ) c)

theorem W38_main_v36_1 :
    toV81 (W38 m ρ c (Proc.devRef .tc main_v226_1)) = ssqK (toCP (W37 m ρ c (Proc.devRef .tc main_v225))) :=
  (congrArg toV81 (W38_arr m ρ c 2)).trans (Val15.stats0_ssq (V37 m ρ) c)

/-! ## The first stretch: the batch mean and variance of H, and the layer's scale, shift and weights -/

theorem W39_main_v38 :
    toV81 (W39 m ρ c (Proc.devRef .tc main_v228)) = meanK (toCP (W37 m ρ c (Proc.devRef .tc main_v225))) := by
  refine (Host16.mean1 (W38 m ρ c)).trans ?_
  rw [W38_main_v36_0 m ρ c]
  rfl

theorem W39_main_v42 :
    toV81 (W39 m ρ c (Proc.devRef .tc main_v232)) = varK (toCP (W37 m ρ c (Proc.devRef .tc main_v225))) := by
  refine (Host16.var1 (W38 m ρ c)).trans ?_
  rw [W38_main_v36_0 m ρ c, W38_main_v36_1 m ρ c]
  rfl

theorem W39_main_v45 :
    toV81 (W39 m ρ c (Proc.devRef .tc main_v235)) = fun ch => toM8 (W37 m ρ c (Proc.devRef .tc main_arg4)) (5 : Fin 8) ch := by
  refine (Host16.gamma1 (W38 m ρ c)).trans ?_
  rw [W38_of_ne m ρ c main_arg4 (by decide)]

theorem W39_main_v48 :
    toV81 (W39 m ρ c (Proc.devRef .tc main_v238)) = fun ch => toM8 (W37 m ρ c (Proc.devRef .tc main_arg5)) (5 : Fin 8) ch := by
  refine (Host16.beta1 (W38 m ρ c)).trans ?_
  rw [W38_of_ne m ρ c main_arg5 (by decide)]

theorem W39_main_v51 :
    toM8 (W39 m ρ c (Proc.devRef .tc main_v241))
      = fun a b => (W37 m ρ c (Proc.devRef .tc main_arg6) : S8x8x8.Idx → EReal) (ix3 (5 : Fin 8) b a) := by
  refine (Host16.wT1 (W38 m ρ c)).trans ?_
  rw [W38_of_ne m ρ c main_arg6 (by decide)]

/-! ## Region 1: the normalised, scaled, shifted and transformed activations -/

theorem W40_main_v52 :
    toCP (W40 m ρ c (Proc.devRef .tc main_v242))
      = hwK (toCP (W37 m ρ c (Proc.devRef .tc main_v225)))
          (fun ch => toM8 (W37 m ρ c (Proc.devRef .tc main_arg4)) (5 : Fin 8) ch)
          (fun ch => toM8 (W37 m ρ c (Proc.devRef .tc main_arg5)) (5 : Fin 8) ch)
          (fun a b => (W37 m ρ c (Proc.devRef .tc main_arg6) : S8x8x8.Idx → EReal) (ix3 (5 : Fin 8) b a)) := by
  refine (congrArg toCP (W40_arr m ρ c 6)).trans ((Val16.transform1_val (V39 m ρ) c).trans ?_)
  show (fun co n => ∑ ci : Fin 8, toM8 (W39 m ρ c (Proc.devRef .tc main_v241)) co ci
          * ((toCP (W39 m ρ c (Proc.devRef .tc main_v225)) ci n - toV81 (W39 m ρ c (Proc.devRef .tc main_v228)) ci)
              * Ideal.rsqrt (toV81 (W39 m ρ c (Proc.devRef .tc main_v232)) ci + eps)
              * toV81 (W39 m ρ c (Proc.devRef .tc main_v235)) ci
              + toV81 (W39 m ρ c (Proc.devRef .tc main_v238)) ci)) = _
  rw [W39_main_v35 m ρ c, W39_main_v38 m ρ c, W39_main_v42 m ρ c, W39_main_v45 m ρ c, W39_main_v48 m ρ c, W39_main_v51 m ρ c]
  rfl

/-! ## The stretches before region 2: the padded aggregate and the layer's bias -/

theorem W43_main_v69 :
    toCP (W43 m ρ c (Proc.devRef .tc main_v259))
      = padT (toNC (Host17.AGG (W37 m ρ c (Proc.devRef .tc main_v3)) (W37 m ρ c (Proc.devRef .tc main_v6))
          (W37 m ρ c (Proc.devRef .tc main_v26))
          (ofNC (unpadT (hwK (toCP (W37 m ρ c (Proc.devRef .tc main_v225)))
            (fun ch => toM8 (W37 m ρ c (Proc.devRef .tc main_arg4)) (5 : Fin 8) ch)
            (fun ch => toM8 (W37 m ρ c (Proc.devRef .tc main_arg5)) (5 : Fin 8) ch)
            (fun a b => (W37 m ρ c (Proc.devRef .tc main_arg6) : S8x8x8.Idx → EReal) (ix3 (5 : Fin 8) b a))))))) := by
  have h87 : W43 m ρ c (Proc.devRef .tc main_v259) = W42 m ρ c (Proc.devRef .tc main_v259) := by host_kept
  refine (congrArg toCP h87).trans ((Host17.agg2 (W40 m ρ c)).trans ?_)
  rw [W40_main_v3 m ρ c, W40_main_v6 m ρ c, W40_main_v26 m ρ c, W40_main_v52 m ρ c]

theorem W43_main_v72 :
    toV81 (W43 m ρ c (Proc.devRef .tc main_v262)) = fun ch => toM8 (W37 m ρ c (Proc.devRef .tc main_arg7)) (5 : Fin 8) ch := by
  have h75 : W42 m ρ c (Proc.devRef .tc main_arg7) = W40 m ρ c (Proc.devRef .tc main_arg7) :=
    (show W42 m ρ c (Proc.devRef .tc main_arg7) = W41 m ρ c (Proc.devRef .tc main_arg7) by host_kept).trans
      (show W41 m ρ c (Proc.devRef .tc main_arg7) = W40 m ρ c (Proc.devRef .tc main_arg7) by host_kept)
  refine (Host17.bias2 (W42 m ρ c)).trans ?_
  rw [h75, W40_main_arg7 m ρ c]

/-! ## Region 2: the residual, the aggregate and the bias, clamped and masked: the layer -/

/-- The kernel program's layer 0 is the layer's closed form at the contents it was entered with. -/
theorem layer0_step :
    toCP (W44 m ρ c (Proc.devRef .tc main_v263))
      = layerK
          (fun hw => toNC (Host17.AGG (W37 m ρ c (Proc.devRef .tc main_v3)) (W37 m ρ c (Proc.devRef .tc main_v6))
            (W37 m ρ c (Proc.devRef .tc main_v26)) (ofNC hw)))
          (toCP (W37 m ρ c (Proc.devRef .tc main_v225)))
          (fun ch => toM8 (W37 m ρ c (Proc.devRef .tc main_arg4)) (5 : Fin 8) ch)
          (fun ch => toM8 (W37 m ρ c (Proc.devRef .tc main_arg5)) (5 : Fin 8) ch)
          (fun a b => (W37 m ρ c (Proc.devRef .tc main_arg6) : S8x8x8.Idx → EReal) (ix3 (5 : Fin 8) b a))
          (fun ch => toM8 (W37 m ρ c (Proc.devRef .tc main_arg7)) (5 : Fin 8) ch) := by
  refine (congrArg toCP (W44_arr m ρ c 3)).trans ((Val17.resid2_val (V43 m ρ) c).trans ?_)
  show (fun ch n => max (toCP (W43 m ρ c (Proc.devRef .tc main_v225)) ch n + toCP (W43 m ρ c (Proc.devRef .tc main_v259)) ch n
          + toV81 (W43 m ρ c (Proc.devRef .tc main_v262)) ch) 0 * maskK n) = _
  rw [W43_main_v35 m ρ c, W43_main_v69 m ρ c, W43_main_v72 m ρ c]
  rfl

/-- The edge sources, the edge targets, the edge norm and the program's arguments hold after the layer what they
    held before it. -/
theorem layer0_kept :
    W44 m ρ c (Proc.devRef .tc main_v3) = W37 m ρ c (Proc.devRef .tc main_v3)
    ∧ W44 m ρ c (Proc.devRef .tc main_v6) = W37 m ρ c (Proc.devRef .tc main_v6)
    ∧ W44 m ρ c (Proc.devRef .tc main_v26) = W37 m ρ c (Proc.devRef .tc main_v26)
    ∧ W44 m ρ c (Proc.devRef .tc main_arg0) = W37 m ρ c (Proc.devRef .tc main_arg0)
    ∧ W44 m ρ c (Proc.devRef .tc main_arg1) = W37 m ρ c (Proc.devRef .tc main_arg1)
    ∧ W44 m ρ c (Proc.devRef .tc main_arg2) = W37 m ρ c (Proc.devRef .tc main_arg2)
    ∧ W44 m ρ c (Proc.devRef .tc main_arg3) = W37 m ρ c (Proc.devRef .tc main_arg3)
    ∧ W44 m ρ c (Proc.devRef .tc main_arg4) = W37 m ρ c (Proc.devRef .tc main_arg4)
    ∧ W44 m ρ c (Proc.devRef .tc main_arg5) = W37 m ρ c (Proc.devRef .tc main_arg5)
    ∧ W44 m ρ c (Proc.devRef .tc main_arg6) = W37 m ρ c (Proc.devRef .tc main_arg6)
    ∧ W44 m ρ c (Proc.devRef .tc main_arg7) = W37 m ρ c (Proc.devRef .tc main_arg7)
    ∧ W44 m ρ c (Proc.devRef .tc main_arg8) = W37 m ρ c (Proc.devRef .tc main_arg8)
    ∧ W44 m ρ c (Proc.devRef .tc main_arg9) = W37 m ρ c (Proc.devRef .tc main_arg9)
    ∧ W44 m ρ c (Proc.devRef .tc main_arg10) = W37 m ρ c (Proc.devRef .tc main_arg10)
    ∧ W44 m ρ c (Proc.devRef .tc main_arg11) = W37 m ρ c (Proc.devRef .tc main_arg11) :=
  ⟨W44_main_v3 m ρ c, W44_main_v6 m ρ c, W44_main_v26 m ρ c, W44_main_arg0 m ρ c, W44_main_arg1 m ρ c, W44_main_arg2 m ρ c,
    W44_main_arg3 m ρ c, W44_main_arg4 m ρ c, W44_main_arg5 m ρ c, W44_main_arg6 m ρ c, W44_main_arg7 m ρ c,
    W44_main_arg8 m ρ c, W44_main_arg9 m ρ c, W44_main_arg10 m ρ c, W44_main_arg11 m ρ c⟩

end Cert.KernelIdeal.Layer5

end
-- ==== Proof.KStats18.lean ====
/-
  The value of region 0, the stats kernel of the first layer: over the eight grid points the two `[8, 1]` outputs
  accumulate, per row of the `[8, 524288]` input, the sum and the sum of squares of its eight tiles of 65536
  lanes; the arrays they are written back to end holding the row sums and the row sums of squares.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val18

open Cert.KernelIdeal Cert.KernelIdeal.Gen Cert.KernelIdeal.GenP Cert.GCN
open Idealize.ShloMosaic Idealize.ShloMosaic.TcCoe Idealize.ShloMosaic.ValueIdx Idealize.ShloMosaic.Tactic
open Idealize.SL.Sem
open Idealize.ShloMosaic.Pipeline (Dat)
open scoped BigOperators

/-! ## The body's arithmetic at an index -/

/-- An `[a]` vector cast to an `[a, 1]` column reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row `r` of the reduced `[8]` vector with lane `k` put back is `(r, k)`. -/
theorem lane_lift (h : S8x65536.Reduces [1] S8) (r : Fin 8) (k : Fin (S8x65536.size 1)) :
    h.lift (ix1 r) k = ix2 r (⟨k.val, k.isLt⟩ : Fin 65536) := by
  funext c; apply Fin.ext
  fin_cases c <;> rfl

/-- The lane sum of an `[8, 65536]` block, at row `r`. -/
theorem laneSum_apply (x : FVec Ideal S8x65536 .f32) (h : S8x65536.Reduces [1] S8) (hφ : FKind.Formats .f32)
    (hacc : (0x00000000#32 : BitVec 32) = FKind.add.neutral .f32 hφ) (r : Fin 8) :
    multiReduction .add [1] S8 x 0x00000000#32 h hφ hacc (ix1 r) = ∑ l : Fin 65536, x (ix2 r l) :=
  (Ideal.multiReduction_add_single x 0x00000000#32 h hφ hacc (ix1 r)).trans
    (Finset.sum_congr rfl fun k _ => congrArg x (lane_lift h r k))

/-- The running row sum: what the buffer held plus the block's lane sum. -/
theorem pay4_apply (x : Vec Ideal S8x65536 .f32) (xo : Vec Ideal S8x1 .f32) (r : Fin 8) :
    k18_pay4 (F := Ideal) x xo (ix2 r 0) = xo (ix2 r 0) + ∑ l : Fin 65536, x (ix2 r l) := by
  unfold k18_pay4 k18_pay3
  dsimp only
  rw [addf_apply, shapeCast_self, shapeCast_self, shapeCast_a_a1_apply]
  exact congrArg (xo (ix2 r 0) + ·) (laneSum_apply x _ _ _ r)

/-- The running row sum of squares. -/
theorem pay5_apply (x : Vec Ideal S8x65536 .f32) (xo : Vec Ideal S8x1 .f32) (r : Fin 8) :
    k18_pay5 (F := Ideal) x xo (ix2 r 0) = xo (ix2 r 0) + ∑ l : Fin 65536, x (ix2 r l) * x (ix2 r l) := by
  unfold k18_pay5 k18_pay3
  dsimp only
  rw [addf_apply, shapeCast_self, shapeCast_self, shapeCast_a_a1_apply]
  exact congrArg (xo (ix2 r 0) + ·) (laneSum_apply (mulf x x) _ _ _ r)

/-- The reset value is zero. -/
theorem pay1_apply (j : S8x1.Idx) : k18_pay1 (F := Ideal) j = 0 := Ideal.ofBits_zero_f32
theorem pay2_apply (j : S8x1.Idx) : k18_pay2 (F := Ideal) j = 0 := Ideal.ofBits_zero_f32

/-! ## The input block at a point -/

variable {F : FTy → Type} [FloatOps F]
variable (V : (c : Dev nD) → (b : Ref sig .tc) → Buf (Elt F) ((c : Thread nD τ).loc b))

/-- The input array as the region finds it, and its block at a point, over their literal shapes. -/
abbrev harr (c : Dev nD) : Vec F S8x524288 .f32 := V c (Pipeline.arrRef spec18 0)
abbrev hblk (c : Dev nD) (t : Fin cfg18.N) : Vec F S8x65536 .f32 := iblk18 V c 0 t

/-- The input window's block index at point `t`: row block 0, column block `t`. -/
theorem idx_in : ∀ t : Fin cfg18.N, win18_0.index t 0 = 0 ∧ win18_0.index t 1 = t.val :=
  (by decide +kernel : ∀ t : Fin grid18.N, win18_0.index t 0 = 0 ∧ win18_0.index t 1 = t.val)

/-- The input window's block at point `t` is columns `65536 t … 65536 t + 65535` of the array. -/
theorem blk_read (c : Dev nD) (t : Fin cfg18.N) (t' : Fin 8) (ht : t'.val = t.val) (r : Fin 8) (l : Fin 65536) :
    hblk V c t (ix2 r l) = harr V c (ix2 r (col t' l)) := by
  have hi := idx_in t
  unfold hblk iblk18
  rw [View.read_apply]
  show V c (Pipeline.arrRef spec18 0) _ = V c (Pipeline.arrRef spec18 0) _
  congr 1
  funext a
  apply Fin.ext
  match a with
  | ⟨0, _⟩ => show win18_0.index t 0 * 8 + 1 * r.val = r.val; rw [hi.1]; omega
  | ⟨1, _⟩ => show win18_0.index t 1 * 65536 + 1 * l.val = 65536 * t'.val + l.val; rw [hi.2, ht]; omega

/-! ## What each case of the body leaves in the outputs -/

theorem hz : (![0, 0] : Fin 2 → Nat) = fun _ => 0 := funext fun a => by fin_cases a <;> rfl

/-- At a later point output 1 is left at what it held plus the block's lane sums. -/
theorem out_B_1 (c : Dev nD) (i : grid18.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : ¬cond18_0 i) (x : Vec F S8x65536 .f32) (xo1 xo2 : Vec F S8x1 .f32) :
    out18_B_1 c i a1 h1 a2 h2 a3 h3 hc x xo1 xo2 = k18_pay4 x xo1 := by
  unfold out18_B_1
  rw [View.read_writes_eq_canon _ _ _ (cover18_B_1 c i a1 h1 a2 h2 a3 h3 hc x xo1 xo2)]
  unfold kernelRun18_B
  dsimp only
  sl_unfold_words
  rw [View.canon_unit_zero hz]
  simp only [View.readAt_eq_ld, h1.read_unread, h2.read_unread, h3.read_unread, View.ld_unit_zero (S := S8x1) hz,
    View.ld_unit_zero (S := S8x65536) hz]

/-- At a later point output 2 is left at what it held plus the lane sums of the block's squares. -/
theorem out_B_2 (c : Dev nD) (i : grid18.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : ¬cond18_0 i) (x : Vec F S8x65536 .f32) (xo1 xo2 : Vec F S8x1 .f32) :
    out18_B_2 c i a1 h1 a2 h2 a3 h3 hc x xo1 xo2 = k18_pay5 x xo2 := by
  unfold out18_B_2
  rw [View.read_writes_eq_canon _ _ _ (cover18_B_2 c i a1 h1 a2 h2 a3 h3 hc x xo1 xo2)]
  unfold kernelRun18_B
  dsimp only
  sl_unfold_words
  rw [View.canon_unit_zero hz]
  simp only [View.readAt_eq_ld, h1.read_unread, h2.read_unread, h3.read_unread, View.ld_unit_zero (S := S8x1) hz,
    View.ld_unit_zero (S := S8x65536) hz]

/-- At the first point output 1 is reset to zero, read back, and left at zero plus the block's lane sums. -/
theorem out_A_1 (c : Dev nD) (i : grid18.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : cond18_0 i) (x : Vec F S8x65536 .f32) :
    out18_A_1 c i a1 h1 a2 h2 a3 h3 hc x = k18_pay4 x (k18_pay1 (F := F)) := by
  unfold out18_A_1
  rw [View.read_writes_eq_canon _ _ _ (cover18_A_1 c i a1 h1 a2 h2 a3 h3 hc x)]
  unfold kernelRun18_A
  dsimp only
  sl_unfold_words
  rw [View.canon_cons_unit_zero (S := S8x1) hz, View.readCov_unit_zero (S := S8x1) _ hz]
  simp only [View.readAt_eq_ld, h1.read_unread, View.ld_unit_zero (S := S8x65536) hz]

/-- At the first point output 2 is reset to zero, read back, and left at zero plus the lane sums of the block's squares. -/
theorem out_A_2 (c : Dev nD) (i : grid18.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : cond18_0 i) (x : Vec F S8x65536 .f32) :
    out18_A_2 c i a1 h1 a2 h2 a3 h3 hc x = k18_pay5 x (k18_pay2 (F := F)) := by
  unfold out18_A_2
  rw [View.read_writes_eq_canon _ _ _ (cover18_A_2 c i a1 h1 a2 h2 a3 h3 hc x)]
  unfold kernelRun18_A
  dsimp only
  sl_unfold_words
  rw [View.canon_cons_unit_zero (S := S8x1) hz, View.readCov_unit_zero (S := S8x1) _ hz]
  simp only [View.readAt_eq_ld, h1.read_unread, View.ld_unit_zero (S := S8x65536) hz]

/-! ## The outputs after each point -/

/-- At the first point: the reset value plus the block's contribution. -/
theorem outsAt_A (c : Dev nD) (t : Fin cfg18.N) (h0 : t.val % 8 = 0) :
    outsAt18 V c t.val t.isLt
      = (k18_pay4 (hblk V c t) (k18_pay1 (F := F)), k18_pay5 (hblk V c t) (k18_pay2 (F := F))) := by
  rw [outsAt18_A V c t h0,
    out_A_1 c (grid18.coords t) (ms18_0 t) (hs18_0 t) (ms18_1 t) (hs18_1 t) (ms18_2 t) (hs18_2 t) ((hcond18_0 t).mpr h0) (iblk18 V c 0 t),
    out_A_2 c (grid18.coords t) (ms18_0 t) (hs18_0 t) (ms18_1 t) (hs18_1 t) (ms18_2 t) (hs18_2 t) ((hcond18_0 t).mpr h0) (iblk18 V c 0 t)]

/-- At a later point: what the point before left plus the block's contribution. -/
theorem outsAt_B (c : Dev nD) (t : Fin cfg18.N) (h0 : ¬t.val % 8 = 0) :
    outsAt18 V c t.val t.isLt
      = (k18_pay4 (hblk V c t) (outsAt18 V c (t.val - 1) (Nat.lt_of_le_of_lt (Nat.sub_le _ _) t.isLt)).1,
         k18_pay5 (hblk V c t) (outsAt18 V c (t.val - 1) (Nat.lt_of_le_of_lt (Nat.sub_le _ _) t.isLt)).2) := by
  rw [outsAt18_B V c t h0,
    out_B_1 c (grid18.coords t) (ms18_0 t) (hs18_0 t) (ms18_1 t) (hs18_1 t) (ms18_2 t) (hs18_2 t) (fun h => h0 ((hcond18_0 t).mp h)) (iblk18 V c 0 t)
      (outsAt18 V c (t.val - 1) (Nat.lt_of_le_of_lt (Nat.sub_le _ _) t.isLt)).1 (outsAt18 V c (t.val - 1) (Nat.lt_of_le_of_lt (Nat.sub_le _ _) t.isLt)).2,
    out_B_2 c (grid18.coords t) (ms18_0 t) (hs18_0 t) (ms18_1 t) (hs18_1 t) (ms18_2 t) (hs18_2 t) (fun h => h0 ((hcond18_0 t).mp h)) (iblk18 V c 0 t)
      (outsAt18 V c (t.val - 1) (Nat.lt_of_le_of_lt (Nat.sub_le _ _) t.isLt)).1 (outsAt18 V c (t.val - 1) (Nat.lt_of_le_of_lt (Nat.sub_le _ _) t.isLt)).2]

/-! ## The partial sums, over the extended reals -/

/-- Tile `s`'s contribution to row `r`'s sum and sum of squares (zero past the last tile). -/
def tileSum (H : ArrCP) (r : Fin 8) (s : ℕ) : EReal := if h : s < 8 then ∑ l : Fin 65536, H r (col ⟨s, h⟩ l) else 0
def tileSsq (H : ArrCP) (r : Fin 8) (s : ℕ) : EReal :=
  if h : s < 8 then ∑ l : Fin 65536, H r (col ⟨s, h⟩ l) * H r (col ⟨s, h⟩ l) else 0

section AtIdeal

variable (W : (c : Dev nD) → (b : Ref sig .tc) → Buf (Elt Ideal) ((c : Thread nD τ).loc b))

/-- The block at point `t` contributes tile `t`. -/
theorem blockSum (c : Dev nD) (t : Fin cfg18.N) (r : Fin 8) :
    ∑ l : Fin 65536, hblk W c t (ix2 r l) = tileSum (toCP (harr W c)) r t.val := by
  have h8 : t.val < 8 := lt_of_lt_of_eq t.isLt (show cfg18.N = 8 from N_18)
  unfold tileSum
  rw [dif_pos h8]
  exact Finset.sum_congr rfl fun l _ => blk_read W c t ⟨t.val, h8⟩ rfl r l

theorem blockSsq (c : Dev nD) (t : Fin cfg18.N) (r : Fin 8) :
    ∑ l : Fin 65536, hblk W c t (ix2 r l) * hblk W c t (ix2 r l) = tileSsq (toCP (harr W c)) r t.val := by
  have h8 : t.val < 8 := lt_of_lt_of_eq t.isLt (show cfg18.N = 8 from N_18)
  unfold tileSsq
  rw [dif_pos h8]
  exact Finset.sum_congr rfl fun l _ => by rw [blk_read W c t ⟨t.val, h8⟩ rfl r l]; rfl

/-- After point `n` row `r` of output 1 holds the sum of tiles `0 … n`, and of output 2 the sum of their squares. -/
theorem outsAt_eq (c : Dev nD) : ∀ (n : ℕ) (h : n < cfg18.N) (r : Fin 8),
    ((outsAt18 W c n h).1 : Vec Ideal S8x1 .f32) (ix2 r 0) = ∑ s ∈ Finset.range (n + 1), tileSum (toCP (harr W c)) r s
      ∧ ((outsAt18 W c n h).2 : Vec Ideal S8x1 .f32) (ix2 r 0) = ∑ s ∈ Finset.range (n + 1), tileSsq (toCP (harr W c)) r s
  | 0, h, r => by
    rw [outsAt_A W c ⟨0, h⟩ rfl]
    dsimp only
    rw [pay4_apply (hblk W c ⟨0, h⟩) (k18_pay1 (F := Ideal)) r, pay5_apply (hblk W c ⟨0, h⟩) (k18_pay2 (F := Ideal)) r,
      pay1_apply, pay2_apply, Finset.sum_range_one, Finset.sum_range_one, zero_add, zero_add]
    exact ⟨blockSum W c ⟨0, h⟩ r, blockSsq W c ⟨0, h⟩ r⟩
  | n + 1, h, r => by
    have hN : cfg18.N = 8 := N_18
    have hB : ¬(⟨n + 1, h⟩ : Fin cfg18.N).val % 8 = 0 := by dsimp only; omega
    obtain ⟨ih1, ih2⟩ := outsAt_eq c n (Nat.lt_of_succ_lt h) r
    rw [outsAt_B W c ⟨n + 1, h⟩ hB]
    dsimp only
    refine ⟨?_, ?_⟩
    · refine (pay4_apply (hblk W c ⟨n + 1, h⟩) (outsAt18 W c n (Nat.lt_of_succ_lt h)).1 r).trans ?_
      rw [ih1, Finset.sum_range_succ _ (n + 1), blockSum W c ⟨n + 1, h⟩ r]
    · refine (pay5_apply (hblk W c ⟨n + 1, h⟩) (outsAt18 W c n (Nat.lt_of_succ_lt h)).2 r).trans ?_
      rw [ih2, Finset.sum_range_succ _ (n + 1), blockSsq W c ⟨n + 1, h⟩ r]

end AtIdeal

/-! ## The arrays the outputs are written back to -/

/-- What the outputs hold after the last point, as contents of their arrays (the one block is the array). -/
abbrev last1 (c : Dev nD) : Buf (Elt F) ((c : Thread nD τ).loc main_v264_0) :=
  (outsAt18 V c t18_7.val t18_7.isLt).1
abbrev last2 (c : Dev nD) : Buf (Elt F) ((c : Thread nD τ).loc main_v264_1) :=
  (outsAt18 V c t18_7.val t18_7.isLt).2

/-- The one write-back of output 1, at the last point, writes it. -/
theorem flushed_eq1 (c : Dev nD) (t : Fin cfg18.N) (hf : (cfg18.win 1).flush t = true) :
    (dat18 V c).flushed 1 t = ((cfg18.win 1).blk t).view.read (Elt F) (last1 V c) := by
  have hN : cfg18.N = 8 := N_18
  have h7 : t.val = 7 := by have := (flush18_1 t).mp hf; have := t.isLt; omega
  obtain rfl : t = t18_7 := Fin.ext h7
  show (cfg18.win 1).cut (grid18.coords t18_7) ((dat18 V c).after 1 t18_7) = _
  rw [after18_1]
  have hz' : (fun a => win18_1.index t18_7 a * main_v264_0.ty.shape.size a) = fun _ => 0 := funext fun a => by fin_cases a <;> decide
  exact (Memref.read_access_unit_zero (Elt F) main_v264_0 hz' (fun a => by rw [congrFun hz' a]; simp) (last1 V c)).symm

theorem flushed_eq2 (c : Dev nD) (t : Fin cfg18.N) (hf : (cfg18.win 2).flush t = true) :
    (dat18 V c).flushed 2 t = ((cfg18.win 2).blk t).view.read (Elt F) (last2 V c) := by
  have hN : cfg18.N = 8 := N_18
  have h7 : t.val = 7 := by have := (flush18_2 t).mp hf; have := t.isLt; omega
  obtain rfl : t = t18_7 := Fin.ext h7
  show (cfg18.win 2).cut (grid18.coords t18_7) ((dat18 V c).after 2 t18_7) = _
  rw [after18_2]
  have hz' : (fun a => win18_2.index t18_7 a * main_v264_1.ty.shape.size a) = fun _ => 0 := funext fun a => by fin_cases a <;> decide
  exact (Memref.read_access_unit_zero (Elt F) main_v264_1 hz' (fun a => by rw [congrFun hz' a]; simp) (last2 V c)).symm

/-- So the arrays end holding what the outputs hold after the last point: its block covers them. -/
theorem final1 (c : Dev nD) : (dat18 V c).arrAt 1 cfg18.N = last1 V c :=
  (dat18 V c).arrAt_eq_of_cover 1 (last1 V c) (flushed_eq1 V c) fun i =>
    ⟨t18_7, (flush18_1 t18_7).mpr rfl, by
      show i ∈ ((View.whole main_v264_0).slice (win18_1.rect t18_7)).set
      rw [View.set_slice_whole, Rect.mem_set_unit]
      intro a
      have h0 : (i 0 : Nat) < 8 := (i 0).isLt
      have h1 : (i 1 : Nat) < 1 := (i 1).isLt
      match a with
      | ⟨0, _⟩ => show win18_1.index t18_7 0 * win18_1.size 0 ≤ (i 0 : Nat) ∧ (i 0 : Nat) < win18_1.index t18_7 0 * win18_1.size 0 + win18_1.xsize (grid18.coords t18_7) 0
                  rw [show win18_1.index t18_7 0 * win18_1.size 0 = 0 from by decide +kernel, show win18_1.xsize (grid18.coords t18_7) 0 = 8 from by decide +kernel]; omega
      | ⟨1, _⟩ => show win18_1.index t18_7 1 * win18_1.size 1 ≤ (i 1 : Nat) ∧ (i 1 : Nat) < win18_1.index t18_7 1 * win18_1.size 1 + win18_1.xsize (grid18.coords t18_7) 1
                  rw [show win18_1.index t18_7 1 * win18_1.size 1 = 0 from by decide +kernel, show win18_1.xsize (grid18.coords t18_7) 1 = 1 from by decide +kernel]; omega⟩

theorem final2 (c : Dev nD) : (dat18 V c).arrAt 2 cfg18.N = last2 V c :=
  (dat18 V c).arrAt_eq_of_cover 2 (last2 V c) (flushed_eq2 V c) fun i =>
    ⟨t18_7, (flush18_2 t18_7).mpr rfl, by
      show i ∈ ((View.whole main_v264_1).slice (win18_2.rect t18_7)).set
      rw [View.set_slice_whole, Rect.mem_set_unit]
      intro a
      have h0 : (i 0 : Nat) < 8 := (i 0).isLt
      have h1 : (i 1 : Nat) < 1 := (i 1).isLt
      match a with
      | ⟨0, _⟩ => show win18_2.index t18_7 0 * win18_2.size 0 ≤ (i 0 : Nat) ∧ (i 0 : Nat) < win18_2.index t18_7 0 * win18_2.size 0 + win18_2.xsize (grid18.coords t18_7) 0
                  rw [show win18_2.index t18_7 0 * win18_2.size 0 = 0 from by decide +kernel, show win18_2.xsize (grid18.coords t18_7) 0 = 8 from by decide +kernel]; omega
      | ⟨1, _⟩ => show win18_2.index t18_7 1 * win18_2.size 1 ≤ (i 1 : Nat) ∧ (i 1 : Nat) < win18_2.index t18_7 1 * win18_2.size 1 + win18_2.xsize (grid18.coords t18_7) 1
                  rw [show win18_2.index t18_7 1 * win18_2.size 1 = 0 from by decide +kernel, show win18_2.xsize (grid18.coords t18_7) 1 = 1 from by decide +kernel]; omega⟩

/-! ## The value of the region -/

/-- The eight tiles' contributions are the spec's sums. -/
theorem sum_tiles (H : ArrCP) (r : Fin 8) : ∑ s ∈ Finset.range (7 + 1), tileSum H r s = sumK H r := by
  unfold sumK
  rw [Finset.sum_range]
  exact Finset.sum_congr rfl fun t _ => by unfold tileSum; rw [dif_pos t.isLt]

theorem ssq_tiles (H : ArrCP) (r : Fin 8) : ∑ s ∈ Finset.range (7 + 1), tileSsq H r s = ssqK H r := by
  unfold ssqK
  rw [Finset.sum_range]
  exact Finset.sum_congr rfl fun t _ => by unfold tileSsq; rw [dif_pos t.isLt]

/-- Output 1's array ends holding the input's row sums. -/
theorem stats0_sum (W : (c : Dev nD) → (b : Ref sig .tc) → Buf (Elt Ideal) ((c : Thread nD τ).loc b)) (c : Dev nD) :
    toV81 ((dat18 (F := Ideal) W c).arrAt 1 cfg18.N) = sumK (toCP (W c (Pipeline.arrRef spec18 0))) := by
  rw [final1 W c]
  funext r
  exact ((outsAt_eq W c t18_7.val t18_7.isLt r).1).trans (sum_tiles _ r)

/-- Output 2's array ends holding the input's row sums of squares. -/
theorem stats0_ssq (W : (c : Dev nD) → (b : Ref sig .tc) → Buf (Elt Ideal) ((c : Thread nD τ).loc b)) (c : Dev nD) :
    toV81 ((dat18 (F := Ideal) W c).arrAt 2 cfg18.N) = ssqK (toCP (W c (Pipeline.arrRef spec18 0))) := by
  rw [final2 W c]
  funext r
  exact ((outsAt_eq W c t18_7.val t18_7.isLt r).2).trans (ssq_tiles _ r)

end Cert.KernelIdeal.Val18

end
-- ==== Proof.KHost19.lean ====
/-
  What the host operations between the statistics and the transform of a layer compute, read at an index, over
  the extended reals: the row sums divided by the number of nodes (the batch mean), the row sums of squares
  divided by the number of nodes minus the squared mean (the batch variance), the layer's row of the scales
  and of the shifts as columns, and the layer's weight matrix transposed. They hold from any contents the
  operations start from; a buffer none of them writes keeps its contents.
-/
import proofs.«143139_j73710228734964_1_alg».proof.Proof.Gen.KernelIdeal.Launch
import proofs.«143139_j73710228734964_1_alg».proof.Proof.Spec
import proofs.«143139_j73710228734964_1_alg».proof.Proof.Conv
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 2928

noncomputable section

namespace Cert.KernelIdeal.Host19

open Cert.KernelIdeal Cert.KernelIdeal.Gen Cert.GCN Idealize.ShloMosaic Idealize.ShloMosaic.ValueIdx

/-! ## The divisor -/

/-- The word `0x48F42400` denotes the number of nodes, 500000. -/
theorem ofBits_nN : Ideal.ofBits .f32 0x48F42400#32 = nN := by
  show Ideal.ieee 8 23 (0x48F42400#32 : BitVec 32) = ((500000 : ℝ) : EReal)
  simp [Ideal.ieee]
  rw [← EReal.coe_mul]
  norm_num

/-- The scalar constant 500000 broadcast to a column `[8, 1]`. -/
local notation "colN" =>
  (broadcastInDim S8x1 ![] bcast_S_S8x1 (constant (F := Ideal) S_ FTy.f32 0x48F42400#32) : S8x1.Idx → EReal)

/-- It reads 500000 at every index. -/
theorem colN_apply (j : S8x1.Idx) : colN j = nN := by
  rw [broadcastInDim_scalar_apply, constant_apply, ofBits_nN]

/-! ## The operations read at an index, over variables -/

/-- A column divided by the constant column, read at row `c`. -/
theorem divN_apply (x : S8x1.Idx → EReal) (c : Fin 8) :
    toV81 (Host.divf (F := Ideal) (φ := .f32) x colN) c = Ideal.div (toV81 x c) nN := by
  show Ideal.div (x (ix2 c 0)) (colN (ix2 c 0)) = _
  rw [colN_apply]
  rfl

/-- The quotient of `y` minus the squared quotient of `x`, read at row `c`. -/
theorem varN_apply (x y : S8x1.Idx → EReal) (c : Fin 8) :
    toV81 (subf (F := Ideal) (φ := .f32) (Host.divf (F := Ideal) (φ := .f32) y colN)
        (mulf (F := Ideal) (φ := .f32) (Host.divf (F := Ideal) (φ := .f32) x colN) (Host.divf (F := Ideal) (φ := .f32) x colN))) c
      = Ideal.div (toV81 y c) nN - Ideal.div (toV81 x c) nN * Ideal.div (toV81 x c) nN := by
  show Ideal.div (y (ix2 c 0)) (colN (ix2 c 0))
      - Ideal.div (x (ix2 c 0)) (colN (ix2 c 0)) * Ideal.div (x (ix2 c 0)) (colN (ix2 c 0)) = _
  rw [colN_apply]
  rfl

/-- A vector `[8]` cast to a column `[8, 1]` reads, at `(c, u)`, the vector at `c`. -/
theorem shapeCast_8_8x1_apply (x : S8.Idx → EReal) (h : S8.ShapeCasts S8x1) (c : Fin 8) (u : Fin 1) :
    shapeCast S8x1 x h (ix2 c u) = x (ix1 c) :=
  shapeCast_apply x h _ _ (by
    have hu : u.val = 0 := by omega
    rw [Shape.rowMajor_val_two, Shape.rowMajor_val_one]
    show c.val = c.val * 1 + u.val
    omega)

/-- Row `o` of a matrix `[8, 8]`, cut out as `[1, 8]`, cast to `[8]` and then to a column `[8, 1]`: its row `c` is the
    matrix at `(o, c)`. -/
theorem rowCol_apply (o : Nat) (x : S8x8.Idx → EReal) (h : S8x8.Slices ![o, 0] S1x8) (r : Fin 8) (hr : r.val = o) (c : Fin 8) :
    toV81 (shapeCast S8x1 (shapeCast S8 (extractStridedSlice S1x8 ![o, 0] x h) shapeCasts_S1x8_S8) shapeCasts_S8_S8x1) c
      = toM8 x r c := by
  show shapeCast S8x1 (shapeCast S8 (extractStridedSlice S1x8 ![o, 0] x h) shapeCasts_S1x8_S8) shapeCasts_S8_S8x1 (ix2 c 0)
      = x (ix2 r c)
  rw [shapeCast_8_8x1_apply, shapeCast_1a_a_apply]
  exact slice2_axis0_apply o x h 0 c r hr

/-- Matrix `o` of a stack `[8, 8, 8]`, cut out as `[1, 8, 8]`, cast to `[8, 8]` and transposed: its entry `(a, b)` is the
    stack at `(o, b, a)`. -/
theorem sliceT_apply (o : Nat) (x : S8x8x8.Idx → EReal) (h : S8x8x8.Slices ![o, 0, 0] S1x8x8) (r : Fin 8) (hr : r.val = o)
    (a b : Fin 8) :
    toM8 (transpose S8x8 [1, 0] (shapeCast S8x8 (extractStridedSlice S1x8x8 ![o, 0, 0] x h) shapeCasts_S1x8x8_S8x8)
        transposes_S8x8_S8x8_1_0) a b = x (ix3 r b a) := by
  show transpose S8x8 [1, 0] (shapeCast S8x8 (extractStridedSlice S1x8x8 ![o, 0, 0] x h) shapeCasts_S1x8x8_S8x8)
        transposes_S8x8_S8x8_1_0 (ix2 a b) = x (ix3 r b a)
  rw [transpose_ix2_apply, shapeCast_1ab_ab_apply]
  exact extractStridedSlice_apply _ _ _ _ _ (fun ax => by
    match ax with
    | ⟨0, _⟩ => exact hr
    | ⟨1, _⟩ => exact (Nat.zero_add _).symm
    | ⟨2, _⟩ => exact (Nat.zero_add _).symm)

/-! ## The stretch's results -/

section Results

variable (W : Valuation τ sig (Elt Ideal))

theorem after_main_v38 :
    (StableHlo.after (hostOps19 (F := Ideal)) W (Proc.devRef .tc main_v266) : S8x1.Idx → EReal)
      = Host.divf (F := Ideal) (φ := .f32) (W (Proc.devRef .tc main_v264_0)) colN := by
  after_results <;> rfl

theorem after_main_v42 :
    (StableHlo.after (hostOps19 (F := Ideal)) W (Proc.devRef .tc main_v270) : S8x1.Idx → EReal)
      = subf (F := Ideal) (φ := .f32) (Host.divf (F := Ideal) (φ := .f32) (W (Proc.devRef .tc main_v264_1)) colN)
          (mulf (F := Ideal) (φ := .f32) (Host.divf (F := Ideal) (φ := .f32) (W (Proc.devRef .tc main_v264_0)) colN)
            (Host.divf (F := Ideal) (φ := .f32) (W (Proc.devRef .tc main_v264_0)) colN)) := by
  after_results <;> rfl

/-- The batch mean's column: the row sums over the number of nodes. -/
theorem mean1 :
    toV81 (StableHlo.after (hostOps19 (F := Ideal)) W (Proc.devRef .tc main_v266))
      = fun c => Ideal.div (toV81 (W (Proc.devRef .tc main_v264_0)) c) nN := by
  funext c
  rw [after_main_v38]
  exact divN_apply _ c

/-- The batch variance's column: the mean of the squares minus the squared mean. -/
theorem var1 :
    toV81 (StableHlo.after (hostOps19 (F := Ideal)) W (Proc.devRef .tc main_v270))
      = fun c => Ideal.div (toV81 (W (Proc.devRef .tc main_v264_1)) c) nN
          - Ideal.div (toV81 (W (Proc.devRef .tc main_v264_0)) c) nN * Ideal.div (toV81 (W (Proc.devRef .tc main_v264_0)) c) nN := by
  funext c
  rw [after_main_v42]
  exact varN_apply _ _ c

/-- The scale's column: row 0 of the scales' matrix. -/
theorem gamma1 :
    toV81 (StableHlo.after (hostOps19 (F := Ideal)) W (Proc.devRef .tc main_v273))
      = fun c => toM8 (W (Proc.devRef .tc main_arg4)) (6 : Fin 8) c := by
  funext c
  after_results
  exact rowCol_apply _ _ _ (6 : Fin 8) rfl c

/-- The shift's column: row 0 of the shifts' matrix. -/
theorem beta1 :
    toV81 (StableHlo.after (hostOps19 (F := Ideal)) W (Proc.devRef .tc main_v276))
      = fun c => toM8 (W (Proc.devRef .tc main_arg5)) (6 : Fin 8) c := by
  funext c
  after_results
  exact rowCol_apply _ _ _ (6 : Fin 8) rfl c

/-- The weights: matrix 0 of the stack, transposed. -/
theorem wT1 :
    toM8 (StableHlo.after (hostOps19 (F := Ideal)) W (Proc.devRef .tc main_v279))
      = fun a b => (W (Proc.devRef .tc main_arg6) : S8x8x8.Idx → EReal) (ValueIdx.ix3 (6 : Fin 8) b a) := by
  funext a b
  after_results
  exact sliceT_apply _ _ _ (6 : Fin 8) rfl a b

/-- The buffers the stretch writes. -/
def writes1 : List (Ref sig .tc) :=
  [main_cst_43, main_v265, main_v266, main_cst_44, main_v267, main_v268, main_v269, main_v270, main_v271, main_v272, main_v273,
    main_v274, main_v275, main_v276, main_v277, main_v278, main_v279]

/-- A buffer the stretch does not write keeps its contents. -/
theorem kept1 {b : Ref sig .tc} (hb : b ∉ writes1) :
    StableHlo.after (hostOps19 (F := Ideal)) W (Proc.devRef .tc b) = W (Proc.devRef .tc b) :=
  StableHlo.after_of_forall_not_mem (b := Proc.devRef .tc b) _ _ (List.forall_iff_forall_mem.mp (by
    simp only [hostOps19, List.Forall, StableHlo.nullary_writes, StableHlo.unary_writes, StableHlo.binary_writes,
      StableHlo.reshape_writes, Finset.mem_singleton]
    repeat' apply And.intro
    all_goals exact StableHlo.devRef_ne_of_ne (fun e => hb (by rw [e]; decide))))

theorem kept1_main_v35 : StableHlo.after (hostOps19 (F := Ideal)) W (Proc.devRef .tc main_v263) = W (Proc.devRef .tc main_v263) :=
  kept1 W (by decide)
theorem kept1_main_v3 : StableHlo.after (hostOps19 (F := Ideal)) W (Proc.devRef .tc main_v3) = W (Proc.devRef .tc main_v3) :=
  kept1 W (by decide)
theorem kept1_main_v6 : StableHlo.after (hostOps19 (F := Ideal)) W (Proc.devRef .tc main_v6) = W (Proc.devRef .tc main_v6) :=
  kept1 W (by decide)
theorem kept1_main_v26 : StableHlo.after (hostOps19 (F := Ideal)) W (Proc.devRef .tc main_v26) = W (Proc.devRef .tc main_v26) :=
  kept1 W (by decide)
theorem kept1_main_arg7 : StableHlo.after (hostOps19 (F := Ideal)) W (Proc.devRef .tc main_arg7) = W (Proc.devRef .tc main_arg7) :=
  kept1 W (by decide)

end Results

end Cert.KernelIdeal.Host19

end
-- ==== Proof.KTransform19.lean ====
/-
  The value of the transform kernel of layer 0 (region 1 of the kernel program), at the ideal values and for any
  contents `V` of the buffers when the region is entered.

  The region walks the 8 column blocks of 65536 lanes of `H : [8, 524288]`. At block `t` it reads the block of `H`,
  the four columns `[8, 1]` (mean, variance, scale, shift) and the matrix `wT : [8, 8]` whole, and stores
    wT · ((x − mean) · rsqrt(var + eps) · scale + shift)
  into block `t` of the output: entry `(co, l)` of the stored block is the sum over the input channel `ci` of
  `wT (co, ci)` times the normalised entry `(ci, l)` of the block. The 8 blocks tile the output array, so the array
  ends holding, at `(co, n)`, the same sum with column `n = 65536 · t + l` of `H`.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.PureOps.Ideal.Laws

noncomputable section

namespace Cert.KernelIdeal.Val19

open Cert.KernelIdeal Cert.KernelIdeal.Gen Cert.KernelIdeal.GenP Cert.GCN
open Idealize.ShloMosaic Idealize.ShloMosaic.TcCoe Idealize.ShloMosaic.ValueIdx Idealize.SL.Sem
open Idealize.ShloMosaic.Pipeline (Dat)
open scoped BigOperators

/-! ## The payload at an index -/

/-- An `[8, 1]` column broadcast along the lanes reads, at `(p, l)`, the column's entry of row `p`. -/
theorem bcast_col_apply {α : Type} (v : S8x1.Idx → α) (h : S8x1.Broadcasts S8x65536) (p : Fin 8) (l : Fin 65536) :
    broadcastTo S8x65536 v h (ix2 p l) = v (ix2 p (0 : Fin 1)) := by
  refine broadcastTo_apply v h (ix2 p l) (ix2 p (0 : Fin 1)) fun ax => ?_
  match ax with
  | ⟨0, _⟩ => rfl
  | ⟨1, _⟩ => rfl

/-- The product's left operand is read at the output's row … -/
theorem lhs_dot_0 (j : S8x65536.Idx) (k : dot_S8x8_S8x65536_S8x65536_1_0_0_1_n_n.contr.Idx) :
    ((dot_S8x8_S8x65536_S8x65536_1_0_0_1_n_n.lhsIdx j k 0 : Fin _) : ℕ) = (j 0 : ℕ) := by
  simp [DotDims.lhsIdx, dot_S8x8_S8x65536_S8x65536_1_0_0_1_n_n]
  rfl

/-- … and at the contracted coordinate; -/
theorem lhs_dot_1 (j : S8x65536.Idx) (k : dot_S8x8_S8x65536_S8x65536_1_0_0_1_n_n.contr.Idx) :
    ((dot_S8x8_S8x65536_S8x65536_1_0_0_1_n_n.lhsIdx j k 1 : Fin _) : ℕ) = (k ⟨0, by decide⟩ : ℕ) :=
  dot_S8x8_S8x65536_S8x65536_1_0_0_1_n_n.lhsIdx_val_of_single rfl j k

/-- the right operand at the contracted coordinate … -/
theorem rhs_dot_0 (j : S8x65536.Idx) (k : dot_S8x8_S8x65536_S8x65536_1_0_0_1_n_n.contr.Idx) :
    ((dot_S8x8_S8x65536_S8x65536_1_0_0_1_n_n.rhsIdx j k 0 : Fin _) : ℕ) = (k ⟨0, by decide⟩ : ℕ) :=
  dot_S8x8_S8x65536_S8x65536_1_0_0_1_n_n.rhsIdx_val_of_single rfl j k

/-- … and at the output's lane. -/
theorem rhs_dot_1 (j : S8x65536.Idx) (k : dot_S8x8_S8x65536_S8x65536_1_0_0_1_n_n.contr.Idx) :
    ((dot_S8x8_S8x65536_S8x65536_1_0_0_1_n_n.rhsIdx j k 1 : Fin _) : ℕ) = (j 1 : ℕ) := by
  simp [DotDims.rhsIdx, dot_S8x8_S8x65536_S8x65536_1_0_0_1_n_n]
  rfl

/-- The payload at `(co, l)`: the normalised, scaled and shifted column `l` of the block, multiplied on the left by
    row `co` of the matrix. The product's zero accumulator adds nothing, and the narrowing of the two operands is the
    identity on the extended reals. -/
theorem pay1_apply (v0 v2 v4 v6 : Vec Ideal S8x1 .f32) (v11 : Vec Ideal S8x65536 .f32) (v21 : Vec Ideal S8x8 .f32)
    (co : Fin 8) (l : Fin 65536) :
    k19_pay1 (F := Ideal) v0 v2 v4 v6 v11 v21 (ix2 co l)
      = ∑ ci : Fin 8, v21 (ix2 co ci)
          * ((v11 (ix2 ci l) - v0 (ix2 ci (0 : Fin 1))) * Ideal.rsqrt (v2 (ix2 ci (0 : Fin 1)) + eps) * v4 (ix2 ci (0 : Fin 1))
              + v6 (ix2 ci (0 : Fin 1))) := by
  unfold k19_pay1
  refine (Ideal.matmul_constant_zero_apply dot_S8x8_S8x65536_S8x65536_1_0_0_1_n_n none _ _ (ix2 co l)).trans ?_
  refine (Equiv.sum_comp (contrEquiv1 dot_S8x8_S8x65536_S8x65536_1_0_0_1_n_n 8 rfl rfl).symm _).symm.trans ?_
  refine Finset.sum_congr rfl fun ci _ => ?_
  have c2 := contrEquiv1_symm_val dot_S8x8_S8x65536_S8x65536_1_0_0_1_n_n 8 rfl rfl ci
  have l2 : dot_S8x8_S8x65536_S8x65536_1_0_0_1_n_n.lhsIdx (ix2 co l) ((contrEquiv1 _ 8 rfl rfl).symm ci) = ix2 co ci := by
    funext ax; apply Fin.ext
    match ax with
    | ⟨0, _⟩ => exact lhs_dot_0 _ _
    | ⟨1, _⟩ => exact (lhs_dot_1 _ _).trans c2
  have r2 : dot_S8x8_S8x65536_S8x65536_1_0_0_1_n_n.rhsIdx (ix2 co l) ((contrEquiv1 _ 8 rfl rfl).symm ci) = ix2 ci l := by
    funext ax; apply Fin.ext
    match ax with
    | ⟨0, _⟩ => exact (rhs_dot_0 _ _).trans c2
    | ⟨1, _⟩ => exact rhs_dot_1 _ _
  rw [l2, r2]
  simp only [truncf_apply, shapeCast_self, addf_apply, mulf_apply, subf_apply, bcast_col_apply]
  rfl

/-- The same at an index of the block given by its two coordinates' values. -/
theorem pay1_at (x0 : Vec Ideal S8x65536 .f32) (x1 x2 x3 x4 : Vec Ideal S8x1 .f32) (x5 : Vec Ideal S8x8 .f32)
    (y : S8x65536.Idx) (p : Fin 8) (q : Fin 65536) (hp : (y 0).val = p.val) (hq : (y 1).val = q.val) :
    k19_pay1 (F := Ideal) x1 x2 x3 x4 x0 x5 y
      = ∑ ci : Fin 8, x5 (ix2 p ci)
          * ((x0 (ix2 ci q) - x1 (ix2 ci (0 : Fin 1))) * Ideal.rsqrt (x2 (ix2 ci (0 : Fin 1)) + eps) * x3 (ix2 ci (0 : Fin 1))
              + x4 (ix2 ci (0 : Fin 1))) := by
  have hy : y = ix2 p q := by
    funext a; apply Fin.ext
    match a with
    | ⟨0, _⟩ => exact hp
    | ⟨1, _⟩ => exact hq
  rw [hy]
  exact pay1_apply x1 x2 x3 x4 x0 x5 p q

/-! ## From blocks to the array -/

section Blocks

variable (V : (c : Dev nD) → (b : Ref sig .tc) → Buf (Elt Ideal) ((c : Thread nD τ).loc b))

/-- The six arrays the region reads, as it finds them: `H`, the mean, variance, scale and shift columns, the matrix. -/
abbrev harr (c : Dev nD) : Vec Ideal S8x524288 .f32 := V c (Pipeline.arrRef spec19 0)
abbrev marr (c : Dev nD) : Vec Ideal S8x1 .f32 := V c (Pipeline.arrRef spec19 1)
abbrev sarr (c : Dev nD) : Vec Ideal S8x1 .f32 := V c (Pipeline.arrRef spec19 2)
abbrev garr (c : Dev nD) : Vec Ideal S8x1 .f32 := V c (Pipeline.arrRef spec19 3)
abbrev barr (c : Dev nD) : Vec Ideal S8x1 .f32 := V c (Pipeline.arrRef spec19 4)
abbrev warr (c : Dev nD) : Vec Ideal S8x8 .f32 := V c (Pipeline.arrRef spec19 5)

/-- The transform at `(co, n)`: row `co` of the matrix times the normalised column `n` of `H`. -/
def T1 (c : Dev nD) (co : Fin 8) (n : Fin 524288) : EReal :=
  ∑ ci : Fin 8, warr V c (ix2 co ci)
    * ((harr V c (ix2 ci n) - marr V c (ix2 ci (0 : Fin 1))) * Ideal.rsqrt (sarr V c (ix2 ci (0 : Fin 1)) + eps) * garr V c (ix2 ci (0 : Fin 1))
        + barr V c (ix2 ci (0 : Fin 1)))

/-- The array the region leaves, as a function of its index. -/
abbrev G1 (c : Dev nD) : Vec Ideal S8x524288 .f32 := fun i => T1 V c (i 0) (i 1)

theorem hz : (![0, 0] : Fin 2 → Nat) = fun _ => 0 := funext fun a => by fin_cases a <;> rfl

/-- The block indices over the grid: the windows of `H` and of the output are at column block `t`, the five small
    windows at block `(0, 0)`. -/
theorem idx_facts1 : ∀ t : Fin cfg19.N,
    win19_0.index t (0 : Fin 2) = 0 ∧ win19_0.index t (1 : Fin 2) = t.val
    ∧ win19_1.index t (0 : Fin 2) = 0 ∧ win19_1.index t (1 : Fin 2) = 0
    ∧ win19_2.index t (0 : Fin 2) = 0 ∧ win19_2.index t (1 : Fin 2) = 0
    ∧ win19_3.index t (0 : Fin 2) = 0 ∧ win19_3.index t (1 : Fin 2) = 0
    ∧ win19_4.index t (0 : Fin 2) = 0 ∧ win19_4.index t (1 : Fin 2) = 0
    ∧ win19_5.index t (0 : Fin 2) = 0 ∧ win19_5.index t (1 : Fin 2) = 0
    ∧ win19_6.index t (0 : Fin 2) = 0 ∧ win19_6.index t (1 : Fin 2) = t.val :=
  (by decide +kernel : ∀ t : Fin grid19.N, _)

/-- Entry `(r, l)` of the block of `H` at point `t` is entry `(r, 65536 · t + l)` of `H`. -/
theorem iblk1_0_apply (c : Dev nD) (t : Fin cfg19.N) (x : S8x65536.Idx) (k : S8x524288.Idx)
    (hk0 : (k 0).val = (x 0).val) (hk1 : (k 1).val = 65536 * t.val + (x 1).val) :
    (iblk19 V c 0 t : Vec Ideal S8x65536 .f32) x = harr V c k := by
  obtain ⟨e0, e1, -⟩ := idx_facts1 t
  unfold iblk19
  rw [View.read_apply]
  show V c (Pipeline.arrRef spec19 0) _ = V c (Pipeline.arrRef spec19 0) k
  congr 1
  funext a
  apply Fin.ext
  match a with
  | ⟨0, _⟩ => show win19_0.index t 0 * 8 + 1 * (x 0).val = (k 0).val; rw [e0, hk0]; omega
  | ⟨1, _⟩ => show win19_0.index t 1 * 65536 + 1 * (x 1).val = (k 1).val; rw [e1, hk1]; omega

/-- The block of each small window is its whole array, at every point. -/
theorem iblk1_1_eq (c : Dev nD) (t : Fin cfg19.N) : (iblk19 V c 1 t : Vec Ideal S8x1 .f32) = marr V c := by
  obtain ⟨-, -, e0, e1, -⟩ := idx_facts1 t
  funext x
  unfold iblk19
  rw [View.read_apply]
  show V c (Pipeline.arrRef spec19 1) _ = V c (Pipeline.arrRef spec19 1) x
  congr 1
  funext a
  apply Fin.ext
  match a with
  | ⟨0, _⟩ => show win19_1.index t 0 * 8 + 1 * (x 0).val = (x 0).val; rw [e0]; omega
  | ⟨1, _⟩ => show win19_1.index t 1 * 1 + 1 * (x 1).val = (x 1).val; rw [e1]; omega

theorem iblk1_2_eq (c : Dev nD) (t : Fin cfg19.N) : (iblk19 V c 2 t : Vec Ideal S8x1 .f32) = sarr V c := by
  obtain ⟨-, -, -, -, e0, e1, -⟩ := idx_facts1 t
  funext x
  unfold iblk19
  rw [View.read_apply]
  show V c (Pipeline.arrRef spec19 2) _ = V c (Pipeline.arrRef spec19 2) x
  congr 1
  funext a
  apply Fin.ext
  match a with
  | ⟨0, _⟩ => show win19_2.index t 0 * 8 + 1 * (x 0).val = (x 0).val; rw [e0]; omega
  | ⟨1, _⟩ => show win19_2.index t 1 * 1 + 1 * (x 1).val = (x 1).val; rw [e1]; omega

theorem iblk1_3_eq (c : Dev nD) (t : Fin cfg19.N) : (iblk19 V c 3 t : Vec Ideal S8x1 .f32) = garr V c := by
  obtain ⟨-, -, -, -, -, -, e0, e1, -⟩ := idx_facts1 t
  funext x
  unfold iblk19
  rw [View.read_apply]
  show V c (Pipeline.arrRef spec19 3) _ = V c (Pipeline.arrRef spec19 3) x
  congr 1
  funext a
  apply Fin.ext
  match a with
  | ⟨0, _⟩ => show win19_3.index t 0 * 8 + 1 * (x 0).val = (x 0).val; rw [e0]; omega
  | ⟨1, _⟩ => show win19_3.index t 1 * 1 + 1 * (x 1).val = (x 1).val; rw [e1]; omega

theorem iblk1_4_eq (c : Dev nD) (t : Fin cfg19.N) : (iblk19 V c 4 t : Vec Ideal S8x1 .f32) = barr V c := by
  obtain ⟨-, -, -, -, -, -, -, -, e0, e1, -⟩ := idx_facts1 t
  funext x
  unfold iblk19
  rw [View.read_apply]
  show V c (Pipeline.arrRef spec19 4) _ = V c (Pipeline.arrRef spec19 4) x
  congr 1
  funext a
  apply Fin.ext
  match a with
  | ⟨0, _⟩ => show win19_4.index t 0 * 8 + 1 * (x 0).val = (x 0).val; rw [e0]; omega
  | ⟨1, _⟩ => show win19_4.index t 1 * 1 + 1 * (x 1).val = (x 1).val; rw [e1]; omega

theorem iblk1_5_eq (c : Dev nD) (t : Fin cfg19.N) : (iblk19 V c 5 t : Vec Ideal S8x8 .f32) = warr V c := by
  obtain ⟨-, -, -, -, -, -, -, -, -, -, e0, e1, -⟩ := idx_facts1 t
  funext x
  unfold iblk19
  rw [View.read_apply]
  show V c (Pipeline.arrRef spec19 5) _ = V c (Pipeline.arrRef spec19 5) x
  congr 1
  funext a
  apply Fin.ext
  match a with
  | ⟨0, _⟩ => show win19_5.index t 0 * 8 + 1 * (x 0).val = (x 0).val; rw [e0]; omega
  | ⟨1, _⟩ => show win19_5.index t 1 * 8 + 1 * (x 1).val = (x 1).val; rw [e1]; omega

/-- What point `t` writes back is block `t` of the transformed array: entry `(co, l)` of the stored block is the
    transform at column `65536 · t + l`. -/
theorem flushed1_eq (c : Dev nD) (t : Fin cfg19.N) :
    (dat19 V c).flushed 6 t = ((cfg19.win 6).blk t).view.read (Elt Ideal) (G1 V c) := by
  show (cfg19.win 6).cut (grid19.coords t) ((dat19 V c).after 6 t) = _
  rw [after19_6]
  unfold out19_6
  rw [View.canon_unit_zero hz]
  simp only [View.ld_unit_zero (S := S8x1) hz, View.ld_unit_zero (S := S8x65536) hz, View.ld_unit_zero (S := S8x8) hz]
  obtain ⟨-, -, -, -, -, -, -, -, -, -, -, -, e0, e1⟩ := idx_facts1 t
  have ht : t.val < 8 := lt_of_lt_of_eq t.isLt N_19
  funext j
  have hj0 : (j 0).val < 8 := (j 0).isLt
  have hj1 : (j 1).val < 65536 := (j 1).isLt
  have hn : 65536 * t.val + (j 1).val < 524288 := by omega
  rw [View.read_apply]
  show k19_pay1 (F := Ideal) (iblk19 V c 1 t) (iblk19 V c 2 t) (iblk19 V c 3 t) (iblk19 V c 4 t) (iblk19 V c 0 t) (iblk19 V c 5 t)
      ((cfg19.win 6).xinj (grid19.coords t) j)
    = T1 V c ((((cfg19.win 6).blk t).view.emb j) 0) ((((cfg19.win 6).blk t).view.emb j) 1)
  have he0 : ((((cfg19.win 6).blk t).view.emb j) 0 : Fin 8) = ⟨(j 0).val, hj0⟩ :=
    Fin.ext (by show win19_6.index t 0 * 8 + 1 * (j 0).val = (j 0).val; rw [e0]; omega)
  have he1 : ((((cfg19.win 6).blk t).view.emb j) 1 : Fin 524288) = ⟨65536 * t.val + (j 1).val, hn⟩ :=
    Fin.ext (by show win19_6.index t 1 * 65536 + 1 * (j 1).val = 65536 * t.val + (j 1).val; rw [e1]; omega)
  rw [he0, he1]
  refine (pay1_at (iblk19 V c 0 t) (iblk19 V c 1 t) (iblk19 V c 2 t) (iblk19 V c 3 t) (iblk19 V c 4 t) (iblk19 V c 5 t)
    ((cfg19.win 6).xinj (grid19.coords t) j) ⟨(j 0).val, hj0⟩ ⟨(j 1).val, hj1⟩ rfl rfl).trans ?_
  unfold T1
  refine Finset.sum_congr rfl fun ci _ => ?_
  rw [iblk1_1_eq, iblk1_2_eq, iblk1_3_eq, iblk1_4_eq, iblk1_5_eq,
    iblk1_0_apply V c t (ix2 ci ⟨(j 1).val, hj1⟩) (ix2 ci ⟨65536 * t.val + (j 1).val, hn⟩) rfl rfl]
  rfl

/-- An index of the array is in point `t`'s block iff each coordinate is in the block's range on its axis. -/
theorem mem_blk1_6 (t : Fin cfg19.N) (i : S8x524288.Idx) :
    i ∈ ((cfg19.win 6).blk t).view.set ↔ ∀ a : Fin 2, win19_6.index t a * S8x65536.size a ≤ (i a).val ∧ (i a).val < win19_6.index t a * S8x65536.size a + S8x65536.size a := by
  show i ∈ ((View.whole main_v280).slice (win19_6.rect t)).set ↔ _
  rw [View.set_slice_whole, Rect.mem_set_unit]
  exact Iff.rfl

/-- Every index `(r, n)` of the array is in the block of point `n / 65536`. -/
theorem cover1 (i : S8x524288.Idx) : ∃ t : Fin cfg19.N, (cfg19.win 6).flush t = true ∧ i ∈ ((cfg19.win 6).blk t).view.set := by
  have hN : cfg19.N = 8 := N_19
  have h0 : (i 0).val < 8 := (i 0).isLt
  have h1 : (i 1).val < 524288 := (i 1).isLt
  obtain ⟨t, ht⟩ : ∃ t : Fin cfg19.N, t.val = (i 1).val / 65536 := ⟨⟨(i 1).val / 65536, lt_of_lt_of_eq (by omega) hN.symm⟩, rfl⟩
  obtain ⟨-, -, -, -, -, -, -, -, -, -, -, -, e0, e1⟩ := idx_facts1 t
  refine ⟨t, flush19_6 t, ?_⟩
  rw [mem_blk1_6]
  intro a
  match a with
  | ⟨0, _⟩ => show win19_6.index t 0 * 8 ≤ (i 0).val ∧ (i 0).val < win19_6.index t 0 * 8 + 8; rw [e0]; omega
  | ⟨1, _⟩ => show win19_6.index t 1 * 65536 ≤ (i 1).val ∧ (i 1).val < win19_6.index t 1 * 65536 + 65536; rw [e1, ht]; omega

/-- The output array after the region's 8 points is the transformed array. -/
theorem final1 (c : Dev nD) : (dat19 V c).arrAt 6 cfg19.N = G1 V c :=
  (dat19 V c).arrAt_eq_of_cover 6 (G1 V c) (fun t _ => flushed1_eq V c t) cover1

/-- THE VALUE of the transform region over the curried views: with `H`, the mean `μ`, the variance `σ²`, the scale
    `γ`, the shift `β` and the matrix `wT` read off the arrays as the region finds them, the output array is, at
    `(co, n)`, the sum over `ci` of `wT co ci · ((H ci n − μ ci) · rsqrt(σ² ci + eps) · γ ci + β ci)`. -/
theorem transform1_val (c : Dev nD) :
    toCP ((dat19 V c).arrAt 6 cfg19.N)
      = fun co n => ∑ ci : Fin 8, toM8 (V c (Pipeline.arrRef spec19 5)) co ci
          * ((toCP (V c (Pipeline.arrRef spec19 0)) ci n - toV81 (V c (Pipeline.arrRef spec19 1)) ci)
              * Ideal.rsqrt (toV81 (V c (Pipeline.arrRef spec19 2)) ci + eps) * toV81 (V c (Pipeline.arrRef spec19 3)) ci
              + toV81 (V c (Pipeline.arrRef spec19 4)) ci) := by
  rw [final1]
  rfl

end Blocks

end Cert.KernelIdeal.Val19

end
-- ==== Proof.KHost20.lean ====
/-
  The kernel program's host operations between a layer's transform region and its residual region, read at an
  index over the extended reals, from any contents of the buffers they start from.
  Two layout facts carry everything. The first `N` columns of a channel-major array `[8, NP]`, transposed, are its
  node-major reading `[N, 8]`: entry `(n, c)` is entry `(c, n)`. A node-major array transposed and padded with zeros
  to `NP` columns is its channel-major padded layout: entry `(c, n)` is entry `(n, c)` below the last node and zero
  past it (the pad value is the integer zero converted to a float, which is zero).
  The operations slice and transpose the transform's output, aggregate it over the edges (gather at the sources,
  scale by the norms, add up at the targets: one function `AGG` of the sources, the targets, the norms and the
  array, never opened), transpose and pad the result back, and cut the layer's row out of the bias matrix as a
  column. Every buffer these operations do not write keeps its contents.
-/
import proofs.«143139_j73710228734964_1_alg».proof.Proof.Gen.KernelIdeal.Launch
import proofs.«143139_j73710228734964_1_alg».proof.Proof.Spec
import proofs.«143139_j73710228734964_1_alg».proof.Proof.Conv
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host20

open Cert.KernelIdeal Cert.KernelIdeal.Gen Cert.GCN Idealize.ShloMosaic Idealize.ShloMosaic.ValueIdx

/-- The first `N` columns of a channel-major array, transposed, are its node-major reading: index `(n, c)` reads `(c, n)`. -/
theorem unpad_layout (X : S8x524288.Idx → EReal) (hs : S8x524288.Slices ![0, 0] S8x500000)
    (ht : S8x500000.Transposes [1, 0] S500000x8) :
    transpose S500000x8 [1, 0] (extractStridedSlice S8x500000 ![0, 0] X hs) ht = ofNC (unpadT (toCP X)) := by
  funext j
  obtain ⟨n, c, rfl⟩ : ∃ (n : Fin 500000) (c : Fin 8), j = ix2 n c := ⟨j 0, j 1, eq_ix2 j⟩
  rw [transpose_ix2_apply]
  refine (extractStridedSlice_apply _ X hs _ (ix2 c ⟨n.val, Nat.lt_trans n.isLt (by decide)⟩) fun a => ?_).trans ?_
  · match a with
    | ⟨0, _⟩ => simp
    | ⟨1, _⟩ => simp
  · rfl

/-- A node-major array transposed and zero-padded to `NP` columns is its channel-major padded layout: index `(c, n)`
    reads `(n, c)` below the last node and the pad value past it. -/
theorem pad_layout (Y : S500000x8.Idx → EReal) (z : S_.Idx → EReal) (hz : ∀ i, z i = 0)
    (ht : S500000x8.Transposes [1, 0] S8x500000)
    (hp : S8x500000.Pads (![0, 0] : Fin 2 → Nat) ![0, 24288] ![0, 0] S8x524288) (hu : 0 < S_.numel) :
    pad S8x524288 ![0, 0] ![0, 24288] ![0, 0] (transpose S8x500000 [1, 0] Y ht) z hp hu = ofCP (padT (toNC Y)) := by
  funext j
  obtain ⟨c, n, rfl⟩ : ∃ (c : Fin 8) (n : Fin 524288), j = ix2 c n := ⟨j 0, j 1, eq_ix2 j⟩
  show _ = (if hn : n.val < NN then Y (ix2 ⟨n.val, hn⟩ c) else 0)
  unfold pad
  by_cases hn : n.val < NN
  · have hcond : ∀ a : Fin S8x500000.rank, (![0, 0] : Fin 2 → Nat) a ≤ ((ix2 c n : S8x524288.Idx) (a.cast hp.1)).val
        ∧ (((ix2 c n : S8x524288.Idx) (a.cast hp.1)).val - (![0, 0] : Fin 2 → Nat) a) % ((![0, 0] : Fin 2 → Nat) a + 1) = 0
        ∧ (((ix2 c n : S8x524288.Idx) (a.cast hp.1)).val - (![0, 0] : Fin 2 → Nat) a) / ((![0, 0] : Fin 2 → Nat) a + 1) < S8x500000.size a := by
      intro a
      match a with
      | ⟨0, _⟩ =>
        show (0 : ℕ) ≤ c.val ∧ (c.val - 0) % (0 + 1) = 0 ∧ (c.val - 0) / (0 + 1) < 8
        have := c.isLt; omega
      | ⟨1, _⟩ =>
        show (0 : ℕ) ≤ n.val ∧ (n.val - 0) % (0 + 1) = 0 ∧ (n.val - 0) / (0 + 1) < 500000
        have : n.val < 500000 := hn
        omega
    rw [dif_pos hn, dif_pos hcond]
    refine transpose_apply _ Y ht _ (ix2 ⟨n.val, hn⟩ c) fun b => ?_
    match b with
    | ⟨0, _⟩ => show c.val = (c.val - 0) / (0 + 1); omega
    | ⟨1, _⟩ => show n.val = (n.val - 0) / (0 + 1); omega
  · rw [dif_neg hn, dif_neg ?_, hz]
    intro h
    have h1 := (h ⟨1, by decide⟩).2.2
    have h1' : (n.val - 0) / (0 + 1) < 500000 := h1
    exact hn (show n.val < 500000 by omega)

/-- The edge aggregation on a node-major array `hw`: gather the rows at the edge sources (a negative source index
    counted from the end), scale each by its edge's norm, and add them up at the edge targets, from zero. -/
def AGG (src dst : IVec S8500000 32) (norm : FVec Ideal S8500000 .f32) (hw : FVec Ideal S500000x8 .f32) :
    FVec Ideal S500000x8 .f32 :=
  Host.scatterAdd scatter_S500000x8_S8500000x1_S8500000x8_1_0_0_1
    (broadcastInDim S500000x8 ![] bcast_S_S500000x8 (constant (F := Ideal) S_ .f32 0x00000000#32))
    (broadcastInDim S8500000x1 ![0] bcast_S8500000_S8500000x1_0 dst)
    (mulf
      (Host.gather gather_S500000x8_S8500000x1_S8500000x8_1_0_n_n_0_1_18 hw
        (broadcastInDim S8500000x1 ![0] bcast_S8500000_S8500000x1_0
          (select (cmpi .slt src (broadcastInDim S8500000 ![] bcast_S_S8500000 (constantI S_ 32 0#32)))
            (addi src (broadcastInDim S8500000 ![] bcast_S_S8500000 (constantI S_ 32 500000#32)))
            src)))
      (broadcastInDim S8500000x8 ![0, 1] bcast_S8500000x1_S8500000x8_0_1
        (broadcastInDim S8500000x1 ![0] bcast_S8500000_S8500000x1_0 norm)))

/-- The scalar the padding calls pad with, the integer zero read as a float, is zero. -/
theorem pad_zero (i : S_.Idx) : sitofp (F := Ideal) .f32 (constantI S_ 32 0#32) i = 0 := by
  show (((BitVec.toInt (0#32 : BitVec 32) : ℤ) : ℝ) : EReal) = 0
  rw [show BitVec.toInt (0#32 : BitVec 32) = 0 from by decide]
  simp

set_option maxRecDepth 16384 in
/-- The padding call after the aggregation stretch: the padded buffer is the pad of the transposed buffer by the
    converted constant, whatever the valuation before the call. -/
theorem pad_call1 (V : Valuation τ sig (Elt Ideal)) :
    @Eq (S8x524288.Idx → EReal) (StableHlo.after (hostOps20_1 (F := Ideal)) V (Proc.devRef .tc main_v297))
      (pad S8x524288 ![0, 0] ![0, 24288] ![0, 0] (V (Proc.devRef .tc main_v296))
        (sitofp (F := Ideal) .f32 (V (Proc.devRef .tc main_c_48))) pads_S8x500000_S8x524288_000_0242880 h_S_) := by
  dsimp only [hostOps20_1]
  after_results
  rfl

set_option maxRecDepth 16384 in
set_option maxHeartbeats 1000000 in
/-- What the padded buffer holds after the aggregation stretch and its padding call, as the operations spell it. -/
theorem v69_eq (W : Valuation τ sig (Elt Ideal)) :
    @Eq (S8x524288.Idx → EReal)
      (StableHlo.after (hostOps20_1 (F := Ideal)) (StableHlo.after (hostOps20 (F := Ideal)) W) (Proc.devRef .tc main_v297))
      (pad S8x524288 ![0, 0] ![0, 24288] ![0, 0]
        (transpose S8x500000 [1, 0]
          (Host.scatterAdd scatter_S500000x8_S8500000x1_S8500000x8_1_0_0_1
            (broadcastInDim S500000x8 ![] bcast_S_S500000x8 (constant (F := Ideal) S_ .f32 0x00000000#32))
            (broadcastInDim S8500000x1 ![0] bcast_S8500000_S8500000x1_0 (W (Proc.devRef .tc main_v6)))
            (mulf
              (Host.gather gather_S500000x8_S8500000x1_S8500000x8_1_0_n_n_0_1_18
                (transpose S500000x8 [1, 0]
                  (extractStridedSlice S8x500000 ![0, 0] (W (Proc.devRef .tc main_v280)) slices_S8x524288_S8x500000_0_0)
                  transposes_S8x500000_S500000x8_1_0)
                (broadcastInDim S8500000x1 ![0] bcast_S8500000_S8500000x1_0
                  (select
                    (cmpi .slt (W (Proc.devRef .tc main_v3)) (broadcastInDim S8500000 ![] bcast_S_S8500000 (constantI S_ 32 0#32)))
                    (addi (W (Proc.devRef .tc main_v3)) (broadcastInDim S8500000 ![] bcast_S_S8500000 (constantI S_ 32 500000#32)))
                    (W (Proc.devRef .tc main_v3)))))
              (broadcastInDim S8500000x8 ![0, 1] bcast_S8500000x1_S8500000x8_0_1
                (broadcastInDim S8500000x1 ![0] bcast_S8500000_S8500000x1_0 (W (Proc.devRef .tc main_v26))))))
          transposes_S500000x8_S8x500000_1_0)
        (sitofp (F := Ideal) .f32 (constantI S_ 32 0#32)) pads_S8x500000_S8x524288_000_0242880 h_S_) := by
  rw [pad_call1]
  dsimp only [hostOps20]
  after_results

set_option maxRecDepth 16384 in
/-- After the aggregation stretch and its padding call, the padded buffer holds the channel-major padded layout of the
    aggregation of the node-major reading of the transform's output. -/
theorem agg2 (W : Valuation τ sig (Elt Ideal)) :
    toCP (StableHlo.after (hostOps20_1 (F := Ideal)) (StableHlo.after (hostOps20 (F := Ideal)) W) (Proc.devRef .tc main_v297))
      = padT (toNC (AGG (W (Proc.devRef .tc main_v3)) (W (Proc.devRef .tc main_v6)) (W (Proc.devRef .tc main_v26))
          (ofNC (unpadT (toCP (W (Proc.devRef .tc main_v280))))))) := by
  rw [v69_eq W]
  unfold AGG
  rw [unpad_layout, pad_layout _ _ pad_zero, toCP_ofCP]

set_option maxRecDepth 16384 in
/-- After the bias stretch, the bias column holds the layer's row of the bias matrix. -/
theorem bias2 (W : Valuation τ sig (Elt Ideal)) :
    toV81 (StableHlo.after (hostOps20_2 (F := Ideal)) W (Proc.devRef .tc main_v300))
      = fun c => toM8 (W (Proc.devRef .tc main_arg7)) (6 : Fin 8) c := by
  funext c
  unfold toV81 toM8
  dsimp only [hostOps20_2]
  after_results
  dsimp only
  -- a vector of 8 read as 8 rows of one entry, at row c, is its entry c
  refine (shapeCast_apply (s := S8) (t := S8x1) _ _ (ix2 c 0) (ix1 c) ?_).trans ?_
  · rw [Shape.rowMajor_val_two, Shape.rowMajor_val_one]
    show c.val = c.val * 1 + 0
    omega
  -- one row of 8 read as a vector, at c, is the row's entry c
  refine (shapeCast_1a_a_apply _ _ c).trans ?_
  -- the one-row slice at entry c is the matrix at the layer's row
  exact extractStridedSlice_apply _ _ _ _ (ix2 (6 : Fin 8) c) fun a => match a with
    | ⟨0, _⟩ => rfl
    | ⟨1, _⟩ => (Nat.zero_add _).symm

/-! ## What the stretches leave alone -/

/-- The references the aggregation stretch, its padding call, and the bias stretch write. -/
abbrev hostOps2_W : List (Ref sig .tc) :=
  [main_v281, main_v282, main_c_45, main_v283, main_v284, main_c_46, main_v285, main_v286, main_v287, main_v288, main_v289,
    main_v290, main_v291, main_v292, main_cst_47, main_v293, main_v294, main_v295, main_v296, main_c_48]
abbrev hostOps2_1_W : List (Ref sig .tc) := [main_call7_v0, main_v297]
abbrev hostOps2_2_W : List (Ref sig .tc) := [main_v298, main_v299, main_v300]

set_option maxRecDepth 16384 in
theorem hostOps2_writes : (hostOps20 (F := Ideal)).Forall fun op =>
    op.writes ⊆ (hostOps2_W.map (Proc.devRef (τ := τ) .tc)).toFinset := by
  simp only [hostOps20, List.Forall, StableHlo.nullary_writes, StableHlo.unary_writes, StableHlo.binary_writes,
    StableHlo.ternary_writes, Finset.singleton_subset_iff, List.mem_toFinset]
  refine ⟨?_, ?_, ?_, ?_, ?_, ?_, ?_, ?_, ?_, ?_, ?_, ?_, ?_, ?_, ?_, ?_, ?_, ?_, ?_, ?_⟩
  all_goals exact List.mem_map.mpr ⟨_, by decide, rfl⟩

set_option maxRecDepth 16384 in
theorem hostOps2_1_writes : (hostOps20_1 (F := Ideal)).Forall fun op =>
    op.writes ⊆ (hostOps2_1_W.map (Proc.devRef (τ := τ) .tc)).toFinset := by
  simp only [hostOps20_1, List.Forall, StableHlo.unary_writes, StableHlo.binary_writes,
    Finset.singleton_subset_iff, List.mem_toFinset]
  refine ⟨?_, ?_⟩
  all_goals exact List.mem_map.mpr ⟨_, by decide, rfl⟩

set_option maxRecDepth 16384 in
theorem hostOps2_2_writes : (hostOps20_2 (F := Ideal)).Forall fun op =>
    op.writes ⊆ (hostOps2_2_W.map (Proc.devRef (τ := τ) .tc)).toFinset := by
  simp only [hostOps20_2, List.Forall, StableHlo.unary_writes, StableHlo.reshape_writes,
    Finset.singleton_subset_iff, List.mem_toFinset]
  refine ⟨?_, ?_, ?_⟩
  all_goals exact List.mem_map.mpr ⟨_, by decide, rfl⟩

/-- A buffer none of the three stretches writes holds after them what it held before. -/
theorem kept2 (W : Valuation τ sig (Elt Ideal)) (r : Ref sig .tc)
    (h : r ∉ hostOps2_W) (h1 : r ∉ hostOps2_1_W) (h2 : r ∉ hostOps2_2_W) :
    StableHlo.after (hostOps20_2 (F := Ideal)) (StableHlo.after (hostOps20_1 (F := Ideal))
      (StableHlo.after (hostOps20 (F := Ideal)) W)) (Proc.devRef .tc r) = W (Proc.devRef .tc r) :=
  (StableHlo.after_of_writes_sub hostOps20_2 _ hostOps2_2_writes h2).trans <|
    (StableHlo.after_of_writes_sub hostOps20_1 _ hostOps2_1_writes h1).trans <|
      StableHlo.after_of_writes_sub hostOps20 _ hostOps2_writes h

/-- The same, stretch by stretch. -/
theorem kept_hostOps2 (W : Valuation τ sig (Elt Ideal)) (r : Ref sig .tc) (h : r ∉ hostOps2_W) :
    StableHlo.after (hostOps20 (F := Ideal)) W (Proc.devRef .tc r) = W (Proc.devRef .tc r) :=
  StableHlo.after_of_writes_sub hostOps20 _ hostOps2_writes h
theorem kept_hostOps2_1 (W : Valuation τ sig (Elt Ideal)) (r : Ref sig .tc) (h : r ∉ hostOps2_1_W) :
    StableHlo.after (hostOps20_1 (F := Ideal)) W (Proc.devRef .tc r) = W (Proc.devRef .tc r) :=
  StableHlo.after_of_writes_sub hostOps20_1 _ hostOps2_1_writes h
theorem kept_hostOps2_2 (W : Valuation τ sig (Elt Ideal)) (r : Ref sig .tc) (h : r ∉ hostOps2_2_W) :
    StableHlo.after (hostOps20_2 (F := Ideal)) W (Proc.devRef .tc r) = W (Proc.devRef .tc r) :=
  StableHlo.after_of_writes_sub hostOps20_2 _ hostOps2_2_writes h

end Cert.KernelIdeal.Host20

end
-- ==== Proof.KResid20.lean ====
/-
  The value of the residual region of the first layer: the output array `[8, 524288]` after the region's eight grid
  points, index by index, as a function of the three arrays the region reads (the layer's input `H`, the aggregated
  messages, the bias column): entry `(ch, n)` is `max (H ch n + agg ch n + bias ch) 0` times the mask of column `n`
  (one on the columns of real nodes, zero on the padding).
  The mask is built inside the body from the grid coordinate: tile `t`, lane `l` is column `65536 · t + l`, compared as
  a signed 32-bit word with 500000; no column number wraps, so the comparison is the one of the naturals.
  Then the road from blocks to the array: the payload at an index, each input block as columns of its array, what the
  body leaves at a point as a block of the one whole-array function, the tiling of the array by the eight blocks.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val20

open Cert.KernelIdeal Cert.KernelIdeal.Gen Cert.KernelIdeal.GenP Cert.GCN
open Idealize.ShloMosaic Idealize.ShloMosaic.TcCoe Idealize.ShloMosaic.ValueIdx Idealize.SL.Sem
open Idealize.ShloMosaic.Pipeline (Dat)

/-- The column number as a 32-bit word: no wrap-around, the largest is 65536·7 + 65535. -/
theorem colWord_eq (t : Fin 8) (l : Fin 65536) :
    IntOp.addi (Scalar.muli (BitVec.ofNat 32 t.val) 65536#32) (BitVec.ofNat 32 l.val) = BitVec.ofNat 32 (65536 * t.val + l.val) := by
  unfold IntOp.addi Scalar.muli IntOp.muli
  rw [show (65536#32 : BitVec 32) = BitVec.ofNat 32 65536 from rfl, BitVec.ofNat_mul_ofNat, BitVec.ofNat_add_ofNat, Nat.mul_comm]

/-- The signed comparison of a column number with the number of nodes is the comparison of the naturals: both are
    below 2^31, so both read signed as themselves. -/
theorem slt_colWord (n : Nat) (hn : n < 524288) :
    IntOp.cmpi .slt (BitVec.ofNat 32 n) 500000#32 = if n < 500000 then 1#1 else 0#1 := by
  unfold IntOp.cmpi
  dsimp only
  rw [BitVec.slt_eq_decide]
  have h1 : (BitVec.ofNat 32 n).toInt = (n : Int) := by
    rw [BitVec.toInt_eq_toNat_of_lt (by rw [BitVec.toNat_ofNat, Nat.mod_eq_of_lt (by omega)]; omega), BitVec.toNat_ofNat, Nat.mod_eq_of_lt (by omega)]
  have h2 : (500000#32 : BitVec 32).toInt = 500000 := by decide
  rw [h1, h2]
  by_cases h : n < 500000
  · rw [if_pos h, decide_eq_true (by omega)]; rfl
  · rw [if_neg h, decide_eq_false (by omega)]; rfl

/-- THE MASK AT A COLUMN: the comparison bit, widened and converted, is one on the columns of real nodes and zero on
    the padding. -/
theorem maskWord (t : Fin 8) (l : Fin 65536) :
    (FloatOps.sitofp (F := Ideal) .f32 ((IntOp.cmpi .slt (IntOp.addi (Scalar.muli (BitVec.ofNat 32 t.val) 65536#32) (BitVec.ofNat 32 l.val)) 500000#32).setWidth 32) : EReal)
      = if 65536 * t.val + l.val < 500000 then 1 else 0 := by
  rw [colWord_eq, slt_colWord _ (by have := t.isLt; have := l.isLt; omega)]
  by_cases h : 65536 * t.val + l.val < 500000
  · rw [if_pos h, if_pos h]
    show (((BitVec.setWidth 32 1#1).toInt : ℝ) : EReal) = 1
    rw [show (BitVec.setWidth 32 1#1).toInt = 1 from by decide]
    simp
  · rw [if_neg h, if_neg h]
    show (((BitVec.setWidth 32 0#1).toInt : ℝ) : EReal) = 0
    rw [show (BitVec.setWidth 32 0#1).toInt = 0 from by decide]
    simp

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mask row the body builds from the grid coordinate, read at lane `l` of tile `t`. -/
theorem maskRow_apply (i : grid20.Coords) (t : Fin 8) (ht : (i 0).val = t.val) (l : Fin 65536) :
    (sitofp (F := Ideal) .f32 (extui 32 (cmpi .slt (addi (broadcast S1x65536 (Scalar.muli (BitVec.ofNat 32 (i 0).val) 65536#32))
        (iota .tc S1x65536 32 [1] iota_S1x65536_d1_w32)) (broadcast S1x65536 500000#32)) natLt_1_32) : FVec Ideal S1x65536 .f32) (ix2 (0 : Fin 1) l)
      = if 65536 * t.val + l.val < 500000 then 1 else 0 := by
  show FloatOps.sitofp (F := Ideal) .f32 ((IntOp.cmpi .slt (IntOp.addi (Scalar.muli (BitVec.ofNat 32 (i 0).val) 65536#32)
      (iota .tc S1x65536 32 [1] iota_S1x65536_d1_w32 (ix2 (0 : Fin 1) l))) 500000#32).setWidth 32) = _
  rw [iota_single_apply, ht]
  exact maskWord t l

/-- THE PAYLOAD AT AN INDEX: residual plus aggregate plus bias, clipped below at zero, times the mask of the column. -/
theorem pay_apply (i : grid20.Coords) (t : Fin 8) (ht : (i 0).val = t.val) (v0 : Vec Ideal S8x1 .f32) (v10 v12 : Vec Ideal S8x65536 .f32)
    (p : Fin 8) (l : Fin 65536) :
    k20_pay1 (F := Ideal) i v0 v10 v12 (ix2 p l)
      = max (v10 (ix2 p l) + v12 (ix2 p l) + v0 (ix2 p (0 : Fin 1))) 0 * (if 65536 * t.val + l.val < 500000 then 1 else 0) := by
  unfold k20_pay1
  dsimp only
  rw [mulf_apply, maximumf_apply, addf_apply, addf_apply, broadcast_apply, shapeCast_self, shapeCast_self, shapeCast_self,
    broadcastTo_1b_ab_apply, broadcastTo_a1_ab_apply, maskRow_apply i t ht l]
  show max _ (Ideal.ofBits .f32 0x00000000#32) * _ = _
  rw [Ideal.ofBits_zero_f32]

variable (V : (c : Dev nD) → (b : Ref sig .tc) → Buf (Elt Ideal) ((c : Thread nD τ).loc b))

/-- The three arrays the region reads, as it finds them: the layer's input `H`, the aggregated messages, the bias column. -/
abbrev harr (c : Dev nD) : Vec Ideal S8x524288 .f32 := V c (Pipeline.arrRef spec20 0)
abbrev garr (c : Dev nD) : Vec Ideal S8x524288 .f32 := V c (Pipeline.arrRef spec20 1)
abbrev barr (c : Dev nD) : Vec Ideal S8x1 .f32 := V c (Pipeline.arrRef spec20 2)

/-- Their blocks at a grid point. -/
abbrev hblk (c : Dev nD) (t : Fin cfg20.N) : Vec Ideal S8x65536 .f32 := iblk20 V c 0 t
abbrev gblk (c : Dev nD) (t : Fin cfg20.N) : Vec Ideal S8x65536 .f32 := iblk20 V c 1 t
abbrev bblk (c : Dev nD) (t : Fin cfg20.N) : Vec Ideal S8x1 .f32 := iblk20 V c 2 t

/-- WHAT THE REGION COMPUTES, as one array: entry `(ch, n)` is `max (H + agg + bias) 0` there, times the mask of column `n`. -/
def resid (c : Dev nD) : Vec Ideal S8x524288 .f32 :=
  ofCP fun ch n => max (toCP (harr V c) ch n + toCP (garr V c) ch n + toV81 (barr V c) ch) 0 * maskK n

theorem hz : (![0, 0] : Fin 2 → Nat) = fun _ => 0 := funext fun a => by fin_cases a <;> rfl

/-- The grid has eight points. -/
theorem lt8 (t : Fin cfg20.N) : t.val < 8 := Nat.lt_of_lt_of_eq t.isLt (N_20 : cfg20.N = 8)

/-- The printed index maps, decided once over the grid: the grid coordinate is the point; the two tiled inputs and the
    output sit at column block `t`, the bias column at block zero. -/
theorem idx_facts : ∀ t : Fin cfg20.N, (grid20.coords t 0).val = t.val
    ∧ win20_0.index t (0 : Fin 2) = 0 ∧ win20_0.index t (1 : Fin 2) = t.val
    ∧ win20_1.index t (0 : Fin 2) = 0 ∧ win20_1.index t (1 : Fin 2) = t.val
    ∧ win20_2.index t (0 : Fin 2) = 0 ∧ win20_2.index t (1 : Fin 2) = 0
    ∧ win20_3.index t (0 : Fin 2) = 0 ∧ win20_3.index t (1 : Fin 2) = t.val :=
  (by decide +kernel : ∀ t : Fin grid20.N, _)

/-- Lane `l` of the input block at point `t` is column `65536 · t + l` of the input. -/
theorem hblk_apply (c : Dev nD) (t : Fin cfg20.N) (p : Fin 8) (l : Fin 65536) (n : Fin 524288) (hn : n.val = 65536 * t.val + l.val) :
    hblk V c t (ix2 p l) = harr V c (ix2 p n) := by
  obtain ⟨-, e0, e1, -⟩ := idx_facts t
  show V c (Pipeline.arrRef spec20 0) (((cfg20.win 0).blk t).view.emb (ix2 p l)) = V c (Pipeline.arrRef spec20 0) (ix2 p n)
  congr 1
  funext a
  apply Fin.ext
  match a with
  | ⟨0, _⟩ => show win20_0.index t (0 : Fin 2) * 8 + 1 * p.val = p.val; rw [e0]; omega
  | ⟨1, _⟩ => show win20_0.index t (1 : Fin 2) * 65536 + 1 * l.val = n.val; rw [e1, hn]; omega

/-- The same for the aggregated messages. -/
theorem gblk_apply (c : Dev nD) (t : Fin cfg20.N) (p : Fin 8) (l : Fin 65536) (n : Fin 524288) (hn : n.val = 65536 * t.val + l.val) :
    gblk V c t (ix2 p l) = garr V c (ix2 p n) := by
  obtain ⟨-, -, -, e0, e1, -⟩ := idx_facts t
  show V c (Pipeline.arrRef spec20 1) (((cfg20.win 1).blk t).view.emb (ix2 p l)) = V c (Pipeline.arrRef spec20 1) (ix2 p n)
  congr 1
  funext a
  apply Fin.ext
  match a with
  | ⟨0, _⟩ => show win20_1.index t (0 : Fin 2) * 8 + 1 * p.val = p.val; rw [e0]; omega
  | ⟨1, _⟩ => show win20_1.index t (1 : Fin 2) * 65536 + 1 * l.val = n.val; rw [e1, hn]; omega

/-- The bias block is the whole bias column at every point. -/
theorem bblk_apply (c : Dev nD) (t : Fin cfg20.N) (p : Fin 8) :
    bblk V c t (ix2 p (0 : Fin 1)) = barr V c (ix2 p (0 : Fin 1)) := by
  obtain ⟨-, -, -, -, -, e0, e1, -⟩ := idx_facts t
  show V c (Pipeline.arrRef spec20 2) (((cfg20.win 2).blk t).view.emb (ix2 p (0 : Fin 1))) = V c (Pipeline.arrRef spec20 2) (ix2 p (0 : Fin 1))
  congr 1
  funext a
  apply Fin.ext
  match a with
  | ⟨0, _⟩ => show win20_2.index t (0 : Fin 2) * 8 + 1 * p.val = p.val; rw [e0]; omega
  | ⟨1, _⟩ => show win20_2.index t (1 : Fin 2) * 1 + 1 * 0 = 0; rw [e1]

/-- Lane `l` of the output block at point `t` is column `65536 · t + l` of the output. -/
theorem oblk_read (c : Dev nD) (t : Fin cfg20.N) (X : Vec Ideal S8x524288 .f32) (p : Fin 8) (l : Fin 65536) (n : Fin 524288) (hn : n.val = 65536 * t.val + l.val) :
    (((cfg20.win 3).blk t).view.read (Elt Ideal) X : Vec Ideal S8x65536 .f32) (ix2 p l) = X (ix2 p n) := by
  obtain ⟨-, -, -, -, -, -, -, e0, e1⟩ := idx_facts t
  show X (((cfg20.win 3).blk t).view.emb (ix2 p l)) = X (ix2 p n)
  congr 1
  funext a
  apply Fin.ext
  match a with
  | ⟨0, _⟩ => show win20_3.index t (0 : Fin 2) * 8 + 1 * p.val = p.val; rw [e0]; omega
  | ⟨1, _⟩ => show win20_3.index t (1 : Fin 2) * 65536 + 1 * l.val = n.val; rw [e1, hn]; omega

/-- WHAT THE BODY LEAVES at point `t` is block `t` of `resid`. -/
theorem out_eq (c : Dev nD) (t : Fin cfg20.N) :
    out20_3 (grid20.coords t) (hblk V c t) (gblk V c t) (bblk V c t) = ((cfg20.win 3).blk t).view.read (Elt Ideal) (resid V c) := by
  unfold out20_3
  rw [View.canon_unit_zero hz]
  simp only [View.ld_unit_zero (S := S8x65536) hz, View.ld_unit_zero (S := S8x1) hz]
  funext j
  obtain ⟨p, l, rfl⟩ : ∃ (p : Fin 8) (l : Fin 65536), j = ix2 p l := ⟨j 0, j 1, eq_ix2 j⟩
  have ec : (grid20.coords t 0).val = (⟨t.val, lt8 t⟩ : Fin 8).val := (idx_facts t).1
  have hn : (col ⟨t.val, lt8 t⟩ l).val = 65536 * t.val + l.val := rfl
  rw [pay_apply (grid20.coords t) ⟨t.val, lt8 t⟩ ec, hblk_apply V c t p l _ hn, gblk_apply V c t p l _ hn, bblk_apply V c t p,
    oblk_read c t (resid V c) p l _ hn]
  rfl

/-- An index of the output array is in point `t`'s block iff each coordinate is in the block's range on its axis. -/
theorem mem_oblk (t : Fin cfg20.N) (i : S8x524288.Idx) :
    i ∈ ((cfg20.win 3).blk t).view.set ↔ ∀ a : Fin 2, win20_3.index t a * S8x65536.size a ≤ (i a).val ∧ (i a).val < win20_3.index t a * S8x65536.size a + S8x65536.size a := by
  show i ∈ ((View.whole (Pipeline.arrRef spec20 3)).slice (win20_3.rect t)).set ↔ _
  rw [View.set_slice_whole, Rect.mem_set_unit]
  exact Iff.rfl

/-- Every column lies in the block of the point `column / 65536`: the eight blocks tile the array. -/
theorem cover (i : S8x524288.Idx) : ∃ t : Fin cfg20.N, (cfg20.win 3).flush t = true ∧ i ∈ ((cfg20.win 3).blk t).view.set := by
  have h0 : (i 0).val < 8 := (i 0).isLt
  have h1 : (i 1).val < 524288 := (i 1).isLt
  have hN : cfg20.N = 8 := N_20
  have hq : (i 1).val / 65536 < cfg20.N := by rw [hN]; omega
  obtain ⟨-, -, -, -, -, -, -, e0, e1⟩ := idx_facts ⟨(i 1).val / 65536, hq⟩
  refine ⟨⟨(i 1).val / 65536, hq⟩, flush20_3 _, ?_⟩
  rw [mem_oblk]
  intro a
  match a with
  | ⟨0, _⟩ =>
    show win20_3.index ⟨(i 1).val / 65536, hq⟩ (0 : Fin 2) * 8 ≤ (i 0).val ∧ (i 0).val < win20_3.index ⟨(i 1).val / 65536, hq⟩ (0 : Fin 2) * 8 + 8
    rw [e0]; omega
  | ⟨1, _⟩ =>
    show win20_3.index ⟨(i 1).val / 65536, hq⟩ (1 : Fin 2) * 65536 ≤ (i 1).val ∧ (i 1).val < win20_3.index ⟨(i 1).val / 65536, hq⟩ (1 : Fin 2) * 65536 + 65536
    rw [e1]
    show (i 1).val / 65536 * 65536 ≤ (i 1).val ∧ (i 1).val < (i 1).val / 65536 * 65536 + 65536
    omega

/-- WHAT POINT `t` WRITES BACK is block `t` of `resid`. -/
theorem flushed_eq (c : Dev nD) (t : Fin cfg20.N) :
    (dat20 (F := Ideal) V c).flushed 3 t = ((cfg20.win 3).blk t).view.read (Elt Ideal) (resid V c) := by
  show (cfg20.win 3).cut (grid20.coords t) ((dat20 (F := Ideal) V c).after 3 t) = _
  rw [after20_3]
  exact out_eq V c t

/-- THE OUTPUT ARRAY after the eight points is `resid`: every block written back is its block, and the blocks tile it. -/
theorem final (c : Dev nD) : (dat20 (F := Ideal) V c).arrAt 3 cfg20.N = resid V c :=
  (dat20 (F := Ideal) V c).arrAt_eq_of_cover 3 (resid V c) (fun t _ => flushed_eq V c t) cover

/-- THE REGION'S VALUE, by coordinates: channel `ch`, column `n` of the output is the residual sum clipped at zero, masked
    to the columns of real nodes. -/
theorem resid2_val (c : Dev nD) :
    toCP ((dat20 (F := Ideal) V c).arrAt 3 cfg20.N)
      = fun ch n => max (toCP (V c (Pipeline.arrRef spec20 0)) ch n + toCP (V c (Pipeline.arrRef spec20 1)) ch n
          + toV81 (V c (Pipeline.arrRef spec20 2)) ch) 0 * maskK n :=
  (congrArg toCP (final V c)).trans (toCP_ofCP _)

end Cert.KernelIdeal.Val20

end
-- ==== Proof.KLayer6.lean ====
/-
  Layer 0 of the kernel program as one step on the channel-major activations.
  The program runs the layer as three pipelined regions with host stretches between them. Region 0 reads the
  activations H and leaves the row sums and the row sums of squares; the first host stretch divides them by the
  number of nodes into the batch mean and the batch variance (the mean of the squares minus the squared mean) and
  cuts the layer's row out of the scales, the shifts and the weights; region 1 normalises H, scales, shifts and
  applies the transposed weights; the next host stretches take the first N columns node-major through the edge
  aggregation and pad the result back, and cut the layer's row out of the biases; region 2 adds H, the padded
  aggregate and the bias, clamps below at zero and zeroes the padding.
  Each region and each stretch is read by its own module. Here the readings are chained: a buffer a region only
  reads leaves the region as it entered, a buffer a region or a stretch does not touch crosses it unchanged, and
  the five readings then compose to the layer's closed form `layerK` at the contents the layer was entered with.
  The edge lists, the edge norm and the program's arguments cross the whole layer unchanged.
-/
import proofs.«143139_j73710228734964_1_alg».proof.Proof.KernelIdealFrameP
import proofs.«143139_j73710228734964_1_alg».proof.Proof.Spec
import proofs.«143139_j73710228734964_1_alg».proof.Proof.Conv
import proofs.«143139_j73710228734964_1_alg».proof.Proof.KStats18
import proofs.«143139_j73710228734964_1_alg».proof.Proof.KHost19
import proofs.«143139_j73710228734964_1_alg».proof.Proof.KTransform19
import proofs.«143139_j73710228734964_1_alg».proof.Proof.KHost20
import proofs.«143139_j73710228734964_1_alg».proof.Proof.KResid20
import Idealize.ShloMosaic.Lib.StableHlo.Run
import Idealize.ShloMosaic.Lib.Pipeline.Cells
import Idealize.ShloMosaic.Lib.ValueIdx

set_option maxRecDepth 16384

noncomputable section

namespace Cert.KernelIdeal.Layer6

open Cert.KernelIdeal Cert.KernelIdeal.Gen Cert.KernelIdeal.GenP Cert.GCN
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)

/-- No operation of the host stretch writes the buffer: each operation writes one buffer, and it is another one. -/
local macro "not_written" : tactic => `(tactic|
  exact List.forall_iff_forall_mem.mp (by
    simp only [hostOps19, hostOps20, hostOps20_1, hostOps20_2, List.flatten_cons, List.flatten_nil, List.append_nil,
      List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

/-- A host stretch leaves a buffer that none of its operations writes as it was. -/
local macro "host_kept" : tactic => `(tactic|
  exact StableHlo.after_of_forall_not_mem (b := _) _ _ (by not_written))

/-! ## The activations H cross the layer: every region only reads them, no stretch writes them -/

/-- Region 0 reads H through an input window: it leaves as it entered. -/
theorem W45_main_v35 : W45 m ρ c (Proc.devRef .tc main_v263) = W44 m ρ c (Proc.devRef .tc main_v263) :=
  (W45_arr m ρ c 0).trans (((dat18 (V44 m ρ) c).arrAt_in 0 rfl _).trans (A_eq18 (V44 m ρ) c 0))

theorem W46_main_v35 : W46 m ρ c (Proc.devRef .tc main_v263) = W44 m ρ c (Proc.devRef .tc main_v263) :=
  calc W46 m ρ c (Proc.devRef .tc main_v263)
    _ = W45 m ρ c (Proc.devRef .tc main_v263) := by host_kept
    _ = W44 m ρ c (Proc.devRef .tc main_v263) := W45_main_v35 m ρ c

/-- Region 1 reads H through an input window too. -/
theorem W47_main_v35 : W47 m ρ c (Proc.devRef .tc main_v263) = W44 m ρ c (Proc.devRef .tc main_v263) :=
  calc W47 m ρ c (Proc.devRef .tc main_v263)
    _ = W46 m ρ c (Proc.devRef .tc main_v263) :=
        (W47_arr m ρ c 0).trans (((dat19 (V46 m ρ) c).arrAt_in 0 rfl _).trans (A_eq19 (V46 m ρ) c 0))
    _ = W44 m ρ c (Proc.devRef .tc main_v263) := W46_main_v35 m ρ c

theorem W50_main_v35 : W50 m ρ c (Proc.devRef .tc main_v263) = W44 m ρ c (Proc.devRef .tc main_v263) :=
  calc W50 m ρ c (Proc.devRef .tc main_v263)
    _ = W49 m ρ c (Proc.devRef .tc main_v263) := by host_kept
    _ = W48 m ρ c (Proc.devRef .tc main_v263) := by host_kept
    _ = W47 m ρ c (Proc.devRef .tc main_v263) := by host_kept
    _ = W44 m ρ c (Proc.devRef .tc main_v263) := W47_main_v35 m ρ c

/-! ## A buffer the layer touches nowhere crosses it unchanged -/

/-- Through region 0, the first stretch and region 1: the buffer is no window's array of either region and no
    operation of the stretch writes it. -/
theorem W47_kept {b : Ref sig .tc} (h0 : ∀ w, Pipeline.arrRef spec18 w ≠ b) (h1 : ∀ w, Pipeline.arrRef spec19 w ≠ b)
    (g1 : ∀ op ∈ (hostOps19 : List (HloOp τ sig (Elt Ideal))), Proc.devRef (τ := τ) .tc b ∉ op.writes) :
    W47 m ρ c (Proc.devRef .tc b) = W44 m ρ c (Proc.devRef .tc b) :=
  calc W47 m ρ c (Proc.devRef .tc b)
    _ = W46 m ρ c (Proc.devRef .tc b) := W47_of_ne m ρ c b h1
    _ = W45 m ρ c (Proc.devRef .tc b) := StableHlo.after_of_forall_not_mem (b := Proc.devRef .tc b) _ _ g1
    _ = W44 m ρ c (Proc.devRef .tc b) := W45_of_ne m ρ c b h0

/-- Through the three stretches before region 2: no operation of them writes the buffer. -/
theorem W50_kept {b : Ref sig .tc}
    (g2 : ∀ op ∈ (hostOps20 : List (HloOp τ sig (Elt Ideal))), Proc.devRef (τ := τ) .tc b ∉ op.writes)
    (g2_1 : ∀ op ∈ (hostOps20_1 : List (HloOp τ sig (Elt Ideal))), Proc.devRef (τ := τ) .tc b ∉ op.writes)
    (g2_2 : ∀ op ∈ (hostOps20_2 : List (HloOp τ sig (Elt Ideal))), Proc.devRef (τ := τ) .tc b ∉ op.writes) :
    W50 m ρ c (Proc.devRef .tc b) = W47 m ρ c (Proc.devRef .tc b) :=
  calc W50 m ρ c (Proc.devRef .tc b)
    _ = W49 m ρ c (Proc.devRef .tc b) := StableHlo.after_of_forall_not_mem (b := Proc.devRef .tc b) _ _ g2_2
    _ = W48 m ρ c (Proc.devRef .tc b) := StableHlo.after_of_forall_not_mem (b := Proc.devRef .tc b) _ _ g2_1
    _ = W47 m ρ c (Proc.devRef .tc b) := StableHlo.after_of_forall_not_mem (b := Proc.devRef .tc b) _ _ g2

/-- Through the whole layer. -/
theorem W51_kept {b : Ref sig .tc} (h0 : ∀ w, Pipeline.arrRef spec18 w ≠ b) (h1 : ∀ w, Pipeline.arrRef spec19 w ≠ b)
    (h2 : ∀ w, Pipeline.arrRef spec20 w ≠ b)
    (g1 : ∀ op ∈ (hostOps19 : List (HloOp τ sig (Elt Ideal))), Proc.devRef (τ := τ) .tc b ∉ op.writes)
    (g2 : ∀ op ∈ (hostOps20 : List (HloOp τ sig (Elt Ideal))), Proc.devRef (τ := τ) .tc b ∉ op.writes)
    (g2_1 : ∀ op ∈ (hostOps20_1 : List (HloOp τ sig (Elt Ideal))), Proc.devRef (τ := τ) .tc b ∉ op.writes)
    (g2_2 : ∀ op ∈ (hostOps20_2 : List (HloOp τ sig (Elt Ideal))), Proc.devRef (τ := τ) .tc b ∉ op.writes) :
    W51 m ρ c (Proc.devRef .tc b) = W44 m ρ c (Proc.devRef .tc b) :=
  calc W51 m ρ c (Proc.devRef .tc b)
    _ = W50 m ρ c (Proc.devRef .tc b) := W51_of_ne m ρ c b h2
    _ = W47 m ρ c (Proc.devRef .tc b) := W50_kept m ρ c g2 g2_1 g2_2
    _ = W44 m ρ c (Proc.devRef .tc b) := W47_kept m ρ c h0 h1 g1

theorem W47_main_v3 : W47 m ρ c (Proc.devRef .tc main_v3) = W44 m ρ c (Proc.devRef .tc main_v3) :=
  W47_kept m ρ c (b := main_v3) (by decide) (by decide) (by not_written)
theorem W47_main_v6 : W47 m ρ c (Proc.devRef .tc main_v6) = W44 m ρ c (Proc.devRef .tc main_v6) :=
  W47_kept m ρ c (b := main_v6) (by decide) (by decide) (by not_written)
theorem W47_main_v26 : W47 m ρ c (Proc.devRef .tc main_v26) = W44 m ρ c (Proc.devRef .tc main_v26) :=
  W47_kept m ρ c (b := main_v26) (by decide) (by decide) (by not_written)
theorem W47_main_arg7 : W47 m ρ c (Proc.devRef .tc main_arg7) = W44 m ρ c (Proc.devRef .tc main_arg7) :=
  W47_kept m ρ c (b := main_arg7) (by decide) (by decide) (by not_written)

theorem W51_main_v3 : W51 m ρ c (Proc.devRef .tc main_v3) = W44 m ρ c (Proc.devRef .tc main_v3) :=
  W51_kept m ρ c (b := main_v3) (by decide) (by decide) (by decide) (by not_written) (by not_written) (by not_written) (by not_written)
theorem W51_main_v6 : W51 m ρ c (Proc.devRef .tc main_v6) = W44 m ρ c (Proc.devRef .tc main_v6) :=
  W51_kept m ρ c (b := main_v6) (by decide) (by decide) (by decide) (by not_written) (by not_written) (by not_written) (by not_written)
theorem W51_main_v26 : W51 m ρ c (Proc.devRef .tc main_v26) = W44 m ρ c (Proc.devRef .tc main_v26) :=
  W51_kept m ρ c (b := main_v26) (by decide) (by decide) (by decide) (by not_written) (by not_written) (by not_written) (by not_written)
theorem W51_main_arg0 : W51 m ρ c (Proc.devRef .tc main_arg0) = W44 m ρ c (Proc.devRef .tc main_arg0) :=
  W51_kept m ρ c (b := main_arg0) (by decide) (by decide) (by decide) (by not_written) (by not_written) (by not_written) (by not_written)
theorem W51_main_arg1 : W51 m ρ c (Proc.devRef .tc main_arg1) = W44 m ρ c (Proc.devRef .tc main_arg1) :=
  W51_kept m ρ c (b := main_arg1) (by decide) (by decide) (by decide) (by not_written) (by not_written) (by not_written) (by not_written)
theorem W51_main_arg2 : W51 m ρ c (Proc.devRef .tc main_arg2) = W44 m ρ c (Proc.devRef .tc main_arg2) :=
  W51_kept m ρ c (b := main_arg2) (by decide) (by decide) (by decide) (by not_written) (by not_written) (by not_written) (by not_written)
theorem W51_main_arg3 : W51 m ρ c (Proc.devRef .tc main_arg3) = W44 m ρ c (Proc.devRef .tc main_arg3) :=
  W51_kept m ρ c (b := main_arg3) (by decide) (by decide) (by decide) (by not_written) (by not_written) (by not_written) (by not_written)
theorem W51_main_arg4 : W51 m ρ c (Proc.devRef .tc main_arg4) = W44 m ρ c (Proc.devRef .tc main_arg4) :=
  W51_kept m ρ c (b := main_arg4) (by decide) (by decide) (by decide) (by not_written) (by not_written) (by not_written) (by not_written)
theorem W51_main_arg5 : W51 m ρ c (Proc.devRef .tc main_arg5) = W44 m ρ c (Proc.devRef .tc main_arg5) :=
  W51_kept m ρ c (b := main_arg5) (by decide) (by decide) (by decide) (by not_written) (by not_written) (by not_written) (by not_written)
theorem W51_main_arg6 : W51 m ρ c (Proc.devRef .tc main_arg6) = W44 m ρ c (Proc.devRef .tc main_arg6) :=
  W51_kept m ρ c (b := main_arg6) (by decide) (by decide) (by decide) (by not_written) (by not_written) (by not_written) (by not_written)
theorem W51_main_arg7 : W51 m ρ c (Proc.devRef .tc main_arg7) = W44 m ρ c (Proc.devRef .tc main_arg7) :=
  W51_kept m ρ c (b := main_arg7) (by decide) (by decide) (by decide) (by not_written) (by not_written) (by not_written) (by not_written)
theorem W51_main_arg8 : W51 m ρ c (Proc.devRef .tc main_arg8) = W44 m ρ c (Proc.devRef .tc main_arg8) :=
  W51_kept m ρ c (b := main_arg8) (by decide) (by decide) (by decide) (by not_written) (by not_written) (by not_written) (by not_written)
theorem W51_main_arg9 : W51 m ρ c (Proc.devRef .tc main_arg9) = W44 m ρ c (Proc.devRef .tc main_arg9) :=
  W51_kept m ρ c (b := main_arg9) (by decide) (by decide) (by decide) (by not_written) (by not_written) (by not_written) (by not_written)
theorem W51_main_arg10 : W51 m ρ c (Proc.devRef .tc main_arg10) = W44 m ρ c (Proc.devRef .tc main_arg10) :=
  W51_kept m ρ c (b := main_arg10) (by decide) (by decide) (by decide) (by not_written) (by not_written) (by not_written) (by not_written)
theorem W51_main_arg11 : W51 m ρ c (Proc.devRef .tc main_arg11) = W44 m ρ c (Proc.devRef .tc main_arg11) :=
  W51_kept m ρ c (b := main_arg11) (by decide) (by decide) (by decide) (by not_written) (by not_written) (by not_written) (by not_written)

/-! ## Region 0: the row sums and the row sums of squares of H -/

theorem W45_main_v36_0 :
    toV81 (W45 m ρ c (Proc.devRef .tc main_v264_0)) = sumK (toCP (W44 m ρ c (Proc.devRef .tc main_v263))) :=
  (congrArg toV81 (W45_arr m ρ c 1)).trans (Val18.stats0_sum (V44 m ρ) c)

theorem W45_main_v36_1 :
    toV81 (W45 m ρ c (Proc.devRef .tc main_v264_1)) = ssqK (toCP (W44 m ρ c (Proc.devRef .tc main_v263))) :=
  (congrArg toV81 (W45_arr m ρ c 2)).trans (Val18.stats0_ssq (V44 m ρ) c)

/-! ## The first stretch: the batch mean and variance of H, and the layer's scale, shift and weights -/

theorem W46_main_v38 :
    toV81 (W46 m ρ c (Proc.devRef .tc main_v266)) = meanK (toCP (W44 m ρ c (Proc.devRef .tc main_v263))) := by
  refine (Host19.mean1 (W45 m ρ c)).trans ?_
  rw [W45_main_v36_0 m ρ c]
  rfl

theorem W46_main_v42 :
    toV81 (W46 m ρ c (Proc.devRef .tc main_v270)) = varK (toCP (W44 m ρ c (Proc.devRef .tc main_v263))) := by
  refine (Host19.var1 (W45 m ρ c)).trans ?_
  rw [W45_main_v36_0 m ρ c, W45_main_v36_1 m ρ c]
  rfl

theorem W46_main_v45 :
    toV81 (W46 m ρ c (Proc.devRef .tc main_v273)) = fun ch => toM8 (W44 m ρ c (Proc.devRef .tc main_arg4)) (6 : Fin 8) ch := by
  refine (Host19.gamma1 (W45 m ρ c)).trans ?_
  rw [W45_of_ne m ρ c main_arg4 (by decide)]

theorem W46_main_v48 :
    toV81 (W46 m ρ c (Proc.devRef .tc main_v276)) = fun ch => toM8 (W44 m ρ c (Proc.devRef .tc main_arg5)) (6 : Fin 8) ch := by
  refine (Host19.beta1 (W45 m ρ c)).trans ?_
  rw [W45_of_ne m ρ c main_arg5 (by decide)]

theorem W46_main_v51 :
    toM8 (W46 m ρ c (Proc.devRef .tc main_v279))
      = fun a b => (W44 m ρ c (Proc.devRef .tc main_arg6) : S8x8x8.Idx → EReal) (ix3 (6 : Fin 8) b a) := by
  refine (Host19.wT1 (W45 m ρ c)).trans ?_
  rw [W45_of_ne m ρ c main_arg6 (by decide)]

/-! ## Region 1: the normalised, scaled, shifted and transformed activations -/

theorem W47_main_v52 :
    toCP (W47 m ρ c (Proc.devRef .tc main_v280))
      = hwK (toCP (W44 m ρ c (Proc.devRef .tc main_v263)))
          (fun ch => toM8 (W44 m ρ c (Proc.devRef .tc main_arg4)) (6 : Fin 8) ch)
          (fun ch => toM8 (W44 m ρ c (Proc.devRef .tc main_arg5)) (6 : Fin 8) ch)
          (fun a b => (W44 m ρ c (Proc.devRef .tc main_arg6) : S8x8x8.Idx → EReal) (ix3 (6 : Fin 8) b a)) := by
  refine (congrArg toCP (W47_arr m ρ c 6)).trans ((Val19.transform1_val (V46 m ρ) c).trans ?_)
  show (fun co n => ∑ ci : Fin 8, toM8 (W46 m ρ c (Proc.devRef .tc main_v279)) co ci
          * ((toCP (W46 m ρ c (Proc.devRef .tc main_v263)) ci n - toV81 (W46 m ρ c (Proc.devRef .tc main_v266)) ci)
              * Ideal.rsqrt (toV81 (W46 m ρ c (Proc.devRef .tc main_v270)) ci + eps)
              * toV81 (W46 m ρ c (Proc.devRef .tc main_v273)) ci
              + toV81 (W46 m ρ c (Proc.devRef .tc main_v276)) ci)) = _
  rw [W46_main_v35 m ρ c, W46_main_v38 m ρ c, W46_main_v42 m ρ c, W46_main_v45 m ρ c, W46_main_v48 m ρ c, W46_main_v51 m ρ c]
  rfl

/-! ## The stretches before region 2: the padded aggregate and the layer's bias -/

theorem W50_main_v69 :
    toCP (W50 m ρ c (Proc.devRef .tc main_v297))
      = padT (toNC (Host20.AGG (W44 m ρ c (Proc.devRef .tc main_v3)) (W44 m ρ c (Proc.devRef .tc main_v6))
          (W44 m ρ c (Proc.devRef .tc main_v26))
          (ofNC (unpadT (hwK (toCP (W44 m ρ c (Proc.devRef .tc main_v263)))
            (fun ch => toM8 (W44 m ρ c (Proc.devRef .tc main_arg4)) (6 : Fin 8) ch)
            (fun ch => toM8 (W44 m ρ c (Proc.devRef .tc main_arg5)) (6 : Fin 8) ch)
            (fun a b => (W44 m ρ c (Proc.devRef .tc main_arg6) : S8x8x8.Idx → EReal) (ix3 (6 : Fin 8) b a))))))) := by
  have h87 : W50 m ρ c (Proc.devRef .tc main_v297) = W49 m ρ c (Proc.devRef .tc main_v297) := by host_kept
  refine (congrArg toCP h87).trans ((Host20.agg2 (W47 m ρ c)).trans ?_)
  rw [W47_main_v3 m ρ c, W47_main_v6 m ρ c, W47_main_v26 m ρ c, W47_main_v52 m ρ c]

theorem W50_main_v72 :
    toV81 (W50 m ρ c (Proc.devRef .tc main_v300)) = fun ch => toM8 (W44 m ρ c (Proc.devRef .tc main_arg7)) (6 : Fin 8) ch := by
  have h75 : W49 m ρ c (Proc.devRef .tc main_arg7) = W47 m ρ c (Proc.devRef .tc main_arg7) :=
    (show W49 m ρ c (Proc.devRef .tc main_arg7) = W48 m ρ c (Proc.devRef .tc main_arg7) by host_kept).trans
      (show W48 m ρ c (Proc.devRef .tc main_arg7) = W47 m ρ c (Proc.devRef .tc main_arg7) by host_kept)
  refine (Host20.bias2 (W49 m ρ c)).trans ?_
  rw [h75, W47_main_arg7 m ρ c]

/-! ## Region 2: the residual, the aggregate and the bias, clamped and masked: the layer -/

/-- The kernel program's layer 0 is the layer's closed form at the contents it was entered with. -/
theorem layer0_step :
    toCP (W51 m ρ c (Proc.devRef .tc main_v301))
      = layerK
          (fun hw => toNC (Host20.AGG (W44 m ρ c (Proc.devRef .tc main_v3)) (W44 m ρ c (Proc.devRef .tc main_v6))
            (W44 m ρ c (Proc.devRef .tc main_v26)) (ofNC hw)))
          (toCP (W44 m ρ c (Proc.devRef .tc main_v263)))
          (fun ch => toM8 (W44 m ρ c (Proc.devRef .tc main_arg4)) (6 : Fin 8) ch)
          (fun ch => toM8 (W44 m ρ c (Proc.devRef .tc main_arg5)) (6 : Fin 8) ch)
          (fun a b => (W44 m ρ c (Proc.devRef .tc main_arg6) : S8x8x8.Idx → EReal) (ix3 (6 : Fin 8) b a))
          (fun ch => toM8 (W44 m ρ c (Proc.devRef .tc main_arg7)) (6 : Fin 8) ch) := by
  refine (congrArg toCP (W51_arr m ρ c 3)).trans ((Val20.resid2_val (V50 m ρ) c).trans ?_)
  show (fun ch n => max (toCP (W50 m ρ c (Proc.devRef .tc main_v263)) ch n + toCP (W50 m ρ c (Proc.devRef .tc main_v297)) ch n
          + toV81 (W50 m ρ c (Proc.devRef .tc main_v300)) ch) 0 * maskK n) = _
  rw [W50_main_v35 m ρ c, W50_main_v69 m ρ c, W50_main_v72 m ρ c]
  rfl

/-- The edge sources, the edge targets, the edge norm and the program's arguments hold after the layer what they
    held before it. -/
theorem layer0_kept :
    W51 m ρ c (Proc.devRef .tc main_v3) = W44 m ρ c (Proc.devRef .tc main_v3)
    ∧ W51 m ρ c (Proc.devRef .tc main_v6) = W44 m ρ c (Proc.devRef .tc main_v6)
    ∧ W51 m ρ c (Proc.devRef .tc main_v26) = W44 m ρ c (Proc.devRef .tc main_v26)
    ∧ W51 m ρ c (Proc.devRef .tc main_arg0) = W44 m ρ c (Proc.devRef .tc main_arg0)
    ∧ W51 m ρ c (Proc.devRef .tc main_arg1) = W44 m ρ c (Proc.devRef .tc main_arg1)
    ∧ W51 m ρ c (Proc.devRef .tc main_arg2) = W44 m ρ c (Proc.devRef .tc main_arg2)
    ∧ W51 m ρ c (Proc.devRef .tc main_arg3) = W44 m ρ c (Proc.devRef .tc main_arg3)
    ∧ W51 m ρ c (Proc.devRef .tc main_arg4) = W44 m ρ c (Proc.devRef .tc main_arg4)
    ∧ W51 m ρ c (Proc.devRef .tc main_arg5) = W44 m ρ c (Proc.devRef .tc main_arg5)
    ∧ W51 m ρ c (Proc.devRef .tc main_arg6) = W44 m ρ c (Proc.devRef .tc main_arg6)
    ∧ W51 m ρ c (Proc.devRef .tc main_arg7) = W44 m ρ c (Proc.devRef .tc main_arg7)
    ∧ W51 m ρ c (Proc.devRef .tc main_arg8) = W44 m ρ c (Proc.devRef .tc main_arg8)
    ∧ W51 m ρ c (Proc.devRef .tc main_arg9) = W44 m ρ c (Proc.devRef .tc main_arg9)
    ∧ W51 m ρ c (Proc.devRef .tc main_arg10) = W44 m ρ c (Proc.devRef .tc main_arg10)
    ∧ W51 m ρ c (Proc.devRef .tc main_arg11) = W44 m ρ c (Proc.devRef .tc main_arg11) :=
  ⟨W51_main_v3 m ρ c, W51_main_v6 m ρ c, W51_main_v26 m ρ c, W51_main_arg0 m ρ c, W51_main_arg1 m ρ c, W51_main_arg2 m ρ c,
    W51_main_arg3 m ρ c, W51_main_arg4 m ρ c, W51_main_arg5 m ρ c, W51_main_arg6 m ρ c, W51_main_arg7 m ρ c,
    W51_main_arg8 m ρ c, W51_main_arg9 m ρ c, W51_main_arg10 m ρ c, W51_main_arg11 m ρ c⟩

end Cert.KernelIdeal.Layer6

end
-- ==== Proof.KStats21.lean ====
/-
  The value of region 0, the stats kernel of the first layer: over the eight grid points the two `[8, 1]` outputs
  accumulate, per row of the `[8, 524288]` input, the sum and the sum of squares of its eight tiles of 65536
  lanes; the arrays they are written back to end holding the row sums and the row sums of squares.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val21

open Cert.KernelIdeal Cert.KernelIdeal.Gen Cert.KernelIdeal.GenP Cert.GCN
open Idealize.ShloMosaic Idealize.ShloMosaic.TcCoe Idealize.ShloMosaic.ValueIdx Idealize.ShloMosaic.Tactic
open Idealize.SL.Sem
open Idealize.ShloMosaic.Pipeline (Dat)
open scoped BigOperators

/-! ## The body's arithmetic at an index -/

/-- An `[a]` vector cast to an `[a, 1]` column reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row `r` of the reduced `[8]` vector with lane `k` put back is `(r, k)`. -/
theorem lane_lift (h : S8x65536.Reduces [1] S8) (r : Fin 8) (k : Fin (S8x65536.size 1)) :
    h.lift (ix1 r) k = ix2 r (⟨k.val, k.isLt⟩ : Fin 65536) := by
  funext c; apply Fin.ext
  fin_cases c <;> rfl

/-- The lane sum of an `[8, 65536]` block, at row `r`. -/
theorem laneSum_apply (x : FVec Ideal S8x65536 .f32) (h : S8x65536.Reduces [1] S8) (hφ : FKind.Formats .f32)
    (hacc : (0x00000000#32 : BitVec 32) = FKind.add.neutral .f32 hφ) (r : Fin 8) :
    multiReduction .add [1] S8 x 0x00000000#32 h hφ hacc (ix1 r) = ∑ l : Fin 65536, x (ix2 r l) :=
  (Ideal.multiReduction_add_single x 0x00000000#32 h hφ hacc (ix1 r)).trans
    (Finset.sum_congr rfl fun k _ => congrArg x (lane_lift h r k))

/-- The running row sum: what the buffer held plus the block's lane sum. -/
theorem pay4_apply (x : Vec Ideal S8x65536 .f32) (xo : Vec Ideal S8x1 .f32) (r : Fin 8) :
    k21_pay4 (F := Ideal) x xo (ix2 r 0) = xo (ix2 r 0) + ∑ l : Fin 65536, x (ix2 r l) := by
  unfold k21_pay4 k21_pay3
  dsimp only
  rw [addf_apply, shapeCast_self, shapeCast_self, shapeCast_a_a1_apply]
  exact congrArg (xo (ix2 r 0) + ·) (laneSum_apply x _ _ _ r)

/-- The running row sum of squares. -/
theorem pay5_apply (x : Vec Ideal S8x65536 .f32) (xo : Vec Ideal S8x1 .f32) (r : Fin 8) :
    k21_pay5 (F := Ideal) x xo (ix2 r 0) = xo (ix2 r 0) + ∑ l : Fin 65536, x (ix2 r l) * x (ix2 r l) := by
  unfold k21_pay5 k21_pay3
  dsimp only
  rw [addf_apply, shapeCast_self, shapeCast_self, shapeCast_a_a1_apply]
  exact congrArg (xo (ix2 r 0) + ·) (laneSum_apply (mulf x x) _ _ _ r)

/-- The reset value is zero. -/
theorem pay1_apply (j : S8x1.Idx) : k21_pay1 (F := Ideal) j = 0 := Ideal.ofBits_zero_f32
theorem pay2_apply (j : S8x1.Idx) : k21_pay2 (F := Ideal) j = 0 := Ideal.ofBits_zero_f32

/-! ## The input block at a point -/

variable {F : FTy → Type} [FloatOps F]
variable (V : (c : Dev nD) → (b : Ref sig .tc) → Buf (Elt F) ((c : Thread nD τ).loc b))

/-- The input array as the region finds it, and its block at a point, over their literal shapes. -/
abbrev harr (c : Dev nD) : Vec F S8x524288 .f32 := V c (Pipeline.arrRef spec21 0)
abbrev hblk (c : Dev nD) (t : Fin cfg21.N) : Vec F S8x65536 .f32 := iblk21 V c 0 t

/-- The input window's block index at point `t`: row block 0, column block `t`. -/
theorem idx_in : ∀ t : Fin cfg21.N, win21_0.index t 0 = 0 ∧ win21_0.index t 1 = t.val :=
  (by decide +kernel : ∀ t : Fin grid21.N, win21_0.index t 0 = 0 ∧ win21_0.index t 1 = t.val)

/-- The input window's block at point `t` is columns `65536 t … 65536 t + 65535` of the array. -/
theorem blk_read (c : Dev nD) (t : Fin cfg21.N) (t' : Fin 8) (ht : t'.val = t.val) (r : Fin 8) (l : Fin 65536) :
    hblk V c t (ix2 r l) = harr V c (ix2 r (col t' l)) := by
  have hi := idx_in t
  unfold hblk iblk21
  rw [View.read_apply]
  show V c (Pipeline.arrRef spec21 0) _ = V c (Pipeline.arrRef spec21 0) _
  congr 1
  funext a
  apply Fin.ext
  match a with
  | ⟨0, _⟩ => show win21_0.index t 0 * 8 + 1 * r.val = r.val; rw [hi.1]; omega
  | ⟨1, _⟩ => show win21_0.index t 1 * 65536 + 1 * l.val = 65536 * t'.val + l.val; rw [hi.2, ht]; omega

/-! ## What each case of the body leaves in the outputs -/

theorem hz : (![0, 0] : Fin 2 → Nat) = fun _ => 0 := funext fun a => by fin_cases a <;> rfl

/-- At a later point output 1 is left at what it held plus the block's lane sums. -/
theorem out_B_1 (c : Dev nD) (i : grid21.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : ¬cond21_0 i) (x : Vec F S8x65536 .f32) (xo1 xo2 : Vec F S8x1 .f32) :
    out21_B_1 c i a1 h1 a2 h2 a3 h3 hc x xo1 xo2 = k21_pay4 x xo1 := by
  unfold out21_B_1
  rw [View.read_writes_eq_canon _ _ _ (cover21_B_1 c i a1 h1 a2 h2 a3 h3 hc x xo1 xo2)]
  unfold kernelRun21_B
  dsimp only
  sl_unfold_words
  rw [View.canon_unit_zero hz]
  simp only [View.readAt_eq_ld, h1.read_unread, h2.read_unread, h3.read_unread, View.ld_unit_zero (S := S8x1) hz,
    View.ld_unit_zero (S := S8x65536) hz]

/-- At a later point output 2 is left at what it held plus the lane sums of the block's squares. -/
theorem out_B_2 (c : Dev nD) (i : grid21.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : ¬cond21_0 i) (x : Vec F S8x65536 .f32) (xo1 xo2 : Vec F S8x1 .f32) :
    out21_B_2 c i a1 h1 a2 h2 a3 h3 hc x xo1 xo2 = k21_pay5 x xo2 := by
  unfold out21_B_2
  rw [View.read_writes_eq_canon _ _ _ (cover21_B_2 c i a1 h1 a2 h2 a3 h3 hc x xo1 xo2)]
  unfold kernelRun21_B
  dsimp only
  sl_unfold_words
  rw [View.canon_unit_zero hz]
  simp only [View.readAt_eq_ld, h1.read_unread, h2.read_unread, h3.read_unread, View.ld_unit_zero (S := S8x1) hz,
    View.ld_unit_zero (S := S8x65536) hz]

/-- At the first point output 1 is reset to zero, read back, and left at zero plus the block's lane sums. -/
theorem out_A_1 (c : Dev nD) (i : grid21.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : cond21_0 i) (x : Vec F S8x65536 .f32) :
    out21_A_1 c i a1 h1 a2 h2 a3 h3 hc x = k21_pay4 x (k21_pay1 (F := F)) := by
  unfold out21_A_1
  rw [View.read_writes_eq_canon _ _ _ (cover21_A_1 c i a1 h1 a2 h2 a3 h3 hc x)]
  unfold kernelRun21_A
  dsimp only
  sl_unfold_words
  rw [View.canon_cons_unit_zero (S := S8x1) hz, View.readCov_unit_zero (S := S8x1) _ hz]
  simp only [View.readAt_eq_ld, h1.read_unread, View.ld_unit_zero (S := S8x65536) hz]

/-- At the first point output 2 is reset to zero, read back, and left at zero plus the lane sums of the block's squares. -/
theorem out_A_2 (c : Dev nD) (i : grid21.Coords) (a1 : Memref sig .tc .vmem S8x65536 .f32) (h1 : a1.IsWhole)
    (a2 : Memref sig .tc .vmem S8x1 .f32) (h2 : a2.IsWhole) (a3 : Memref sig .tc .vmem S8x1 .f32) (h3 : a3.IsWhole)
    (hc : cond21_0 i) (x : Vec F S8x65536 .f32) :
    out21_A_2 c i a1 h1 a2 h2 a3 h3 hc x = k21_pay5 x (k21_pay2 (F := F)) := by
  unfold out21_A_2
  rw [View.read_writes_eq_canon _ _ _ (cover21_A_2 c i a1 h1 a2 h2 a3 h3 hc x)]
  unfold kernelRun21_A
  dsimp only
  sl_unfold_words
  rw [View.canon_cons_unit_zero (S := S8x1) hz, View.readCov_unit_zero (S := S8x1) _ hz]
  simp only [View.readAt_eq_ld, h1.read_unread, View.ld_unit_zero (S := S8x65536) hz]

/-! ## The outputs after each point -/

/-- At the first point: the reset value plus the block's contribution. -/
theorem outsAt_A (c : Dev nD) (t : Fin cfg21.N) (h0 : t.val % 8 = 0) :
    outsAt21 V c t.val t.isLt
      = (k21_pay4 (hblk V c t) (k21_pay1 (F := F)), k21_pay5 (hblk V c t) (k21_pay2 (F := F))) := by
  rw [outsAt21_A V c t h0,
    out_A_1 c (grid21.coords t) (ms21_0 t) (hs21_0 t) (ms21_1 t) (hs21_1 t) (ms21_2 t) (hs21_2 t) ((hcond21_0 t).mpr h0) (iblk21 V c 0 t),
    out_A_2 c (grid21.coords t) (ms21_0 t) (hs21_0 t) (ms21_1 t) (hs21_1 t) (ms21_2 t) (hs21_2 t) ((hcond21_0 t).mpr h0) (iblk21 V c 0 t)]

/-- At a later point: what the point before left plus the block's contribution. -/
theorem outsAt_B (c : Dev nD) (t : Fin cfg21.N) (h0 : ¬t.val % 8 = 0) :
    outsAt21 V c t.val t.isLt
      = (k21_pay4 (hblk V c t) (outsAt21 V c (t.val - 1) (Nat.lt_of_le_of_lt (Nat.sub_le _ _) t.isLt)).1,
         k21_pay5 (hblk V c t) (outsAt21 V c (t.val - 1) (Nat.lt_of_le_of_lt (Nat.sub_le _ _) t.isLt)).2) := by
  rw [outsAt21_B V c t h0,
    out_B_1 c (grid21.coords t) (ms21_0 t) (hs21_0 t) (ms21_1 t) (hs21_1 t) (ms21_2 t) (hs21_2 t) (fun h => h0 ((hcond21_0 t).mp h)) (iblk21 V c 0 t)
      (outsAt21 V c (t.val - 1) (Nat.lt_of_le_of_lt (Nat.sub_le _ _) t.isLt)).1 (outsAt21 V c (t.val - 1) (Nat.lt_of_le_of_lt (Nat.sub_le _ _) t.isLt)).2,
    out_B_2 c (grid21.coords t) (ms21_0 t) (hs21_0 t) (ms21_1 t) (hs21_1 t) (ms21_2 t) (hs21_2 t) (fun h => h0 ((hcond21_0 t).mp h)) (iblk21 V c 0 t)
      (outsAt21 V c (t.val - 1) (Nat.lt_of_le_of_lt (Nat.sub_le _ _) t.isLt)).1 (outsAt21 V c (t.val - 1) (Nat.lt_of_le_of_lt (Nat.sub_le _ _) t.isLt)).2]

/-! ## The partial sums, over the extended reals -/

/-- Tile `s`'s contribution to row `r`'s sum and sum of squares (zero past the last tile). -/
def tileSum (H : ArrCP) (r : Fin 8) (s : ℕ) : EReal := if h : s < 8 then ∑ l : Fin 65536, H r (col ⟨s, h⟩ l) else 0
def tileSsq (H : ArrCP) (r : Fin 8) (s : ℕ) : EReal :=
  if h : s < 8 then ∑ l : Fin 65536, H r (col ⟨s, h⟩ l) * H r (col ⟨s, h⟩ l) else 0

section AtIdeal

variable (W : (c : Dev nD) → (b : Ref sig .tc) → Buf (Elt Ideal) ((c : Thread nD τ).loc b))

/-- The block at point `t` contributes tile `t`. -/
theorem blockSum (c : Dev nD) (t : Fin cfg21.N) (r : Fin 8) :
    ∑ l : Fin 65536, hblk W c t (ix2 r l) = tileSum (toCP (harr W c)) r t.val := by
  have h8 : t.val < 8 := lt_of_lt_of_eq t.isLt (show cfg21.N = 8 from N_21)
  unfold tileSum
  rw [dif_pos h8]
  exact Finset.sum_congr rfl fun l _ => blk_read W c t ⟨t.val, h8⟩ rfl r l

theorem blockSsq (c : Dev nD) (t : Fin cfg21.N) (r : Fin 8) :
    ∑ l : Fin 65536, hblk W c t (ix2 r l) * hblk W c t (ix2 r l) = tileSsq (toCP (harr W c)) r t.val := by
  have h8 : t.val < 8 := lt_of_lt_of_eq t.isLt (show cfg21.N = 8 from N_21)
  unfold tileSsq
  rw [dif_pos h8]
  exact Finset.sum_congr rfl fun l _ => by rw [blk_read W c t ⟨t.val, h8⟩ rfl r l]; rfl

/-- After point `n` row `r` of output 1 holds the sum of tiles `0 … n`, and of output 2 the sum of their squares. -/
theorem outsAt_eq (c : Dev nD) : ∀ (n : ℕ) (h : n < cfg21.N) (r : Fin 8),
    ((outsAt21 W c n h).1 : Vec Ideal S8x1 .f32) (ix2 r 0) = ∑ s ∈ Finset.range (n + 1), tileSum (toCP (harr W c)) r s
      ∧ ((outsAt21 W c n h).2 : Vec Ideal S8x1 .f32) (ix2 r 0) = ∑ s ∈ Finset.range (n + 1), tileSsq (toCP (harr W c)) r s
  | 0, h, r => by
    rw [outsAt_A W c ⟨0, h⟩ rfl]
    dsimp only
    rw [pay4_apply (hblk W c ⟨0, h⟩) (k21_pay1 (F := Ideal)) r, pay5_apply (hblk W c ⟨0, h⟩) (k21_pay2 (F := Ideal)) r,
      pay1_apply, pay2_apply, Finset.sum_range_one, Finset.sum_range_one, zero_add, zero_add]
    exact ⟨blockSum W c ⟨0, h⟩ r, blockSsq W c ⟨0, h⟩ r⟩
  | n + 1, h, r => by
    have hN : cfg21.N = 8 := N_21
    have hB : ¬(⟨n + 1, h⟩ : Fin cfg21.N).val % 8 = 0 := by dsimp only; omega
    obtain ⟨ih1, ih2⟩ := outsAt_eq c n (Nat.lt_of_succ_lt h) r
    rw [outsAt_B W c ⟨n + 1, h⟩ hB]
    dsimp only
    refine ⟨?_, ?_⟩
    · refine (pay4_apply (hblk W c ⟨n + 1, h⟩) (outsAt21 W c n (Nat.lt_of_succ_lt h)).1 r).trans ?_
      rw [ih1, Finset.sum_range_succ _ (n + 1), blockSum W c ⟨n + 1, h⟩ r]
    · refine (pay5_apply (hblk W c ⟨n + 1, h⟩) (outsAt21 W c n (Nat.lt_of_succ_lt h)).2 r).trans ?_
      rw [ih2, Finset.sum_range_succ _ (n + 1), blockSsq W c ⟨n + 1, h⟩ r]

end AtIdeal

/-! ## The arrays the outputs are written back to -/

/-- What the outputs hold after the last point, as contents of their arrays (the one block is the array). -/
abbrev last1 (c : Dev nD) : Buf (Elt F) ((c : Thread nD τ).loc main_v302_0) :=
  (outsAt21 V c t21_7.val t21_7.isLt).1
abbrev last2 (c : Dev nD) : Buf (Elt F) ((c : Thread nD τ).loc main_v302_1) :=
  (outsAt21 V c t21_7.val t21_7.isLt).2

/-- The one write-back of output 1, at the last point, writes it. -/
theorem flushed_eq1 (c : Dev nD) (t : Fin cfg21.N) (hf : (cfg21.win 1).flush t = true) :
    (dat21 V c).flushed 1 t = ((cfg21.win 1).blk t).view.read (Elt F) (last1 V c) := by
  have hN : cfg21.N = 8 := N_21
  have h7 : t.val = 7 := by have := (flush21_1 t).mp hf; have := t.isLt; omega
  obtain rfl : t = t21_7 := Fin.ext h7
  show (cfg21.win 1).cut (grid21.coords t21_7) ((dat21 V c).after 1 t21_7) = _
  rw [after21_1]
  have hz' : (fun a => win21_1.index t21_7 a * main_v302_0.ty.shape.size a) = fun _ => 0 := funext fun a => by fin_cases a <;> decide
  exact (Memref.read_access_unit_zero (Elt F) main_v302_0 hz' (fun a => by rw [congrFun hz' a]; simp) (last1 V c)).symm

theorem flushed_eq2 (c : Dev nD) (t : Fin cfg21.N) (hf : (cfg21.win 2).flush t = true) :
    (dat21 V c).flushed 2 t = ((cfg21.win 2).blk t).view.read (Elt F) (last2 V c) := by
  have hN : cfg21.N = 8 := N_21
  have h7 : t.val = 7 := by have := (flush21_2 t).mp hf; have := t.isLt; omega
  obtain rfl : t = t21_7 := Fin.ext h7
  show (cfg21.win 2).cut (grid21.coords t21_7) ((dat21 V c).after 2 t21_7) = _
  rw [after21_2]
  have hz' : (fun a => win21_2.index t21_7 a * main_v302_1.ty.shape.size a) = fun _ => 0 := funext fun a => by fin_cases a <;> decide
  exact (Memref.read_access_unit_zero (Elt F) main_v302_1 hz' (fun a => by rw [congrFun hz' a]; simp) (last2 V c)).symm

/-- So the arrays end holding what the outputs hold after the last point: its block covers them. -/
theorem final1 (c : Dev nD) : (dat21 V c).arrAt 1 cfg21.N = last1 V c :=
  (dat21 V c).arrAt_eq_of_cover 1 (last1 V c) (flushed_eq1 V c) fun i =>
    ⟨t21_7, (flush21_1 t21_7).mpr rfl, by
      show i ∈ ((View.whole main_v302_0).slice (win21_1.rect t21_7)).set
      rw [View.set_slice_whole, Rect.mem_set_unit]
      intro a
      have h0 : (i 0 : Nat) < 8 := (i 0).isLt
      have h1 : (i 1 : Nat) < 1 := (i 1).isLt
      match a with
      | ⟨0, _⟩ => show win21_1.index t21_7 0 * win21_1.size 0 ≤ (i 0 : Nat) ∧ (i 0 : Nat) < win21_1.index t21_7 0 * win21_1.size 0 + win21_1.xsize (grid21.coords t21_7) 0
                  rw [show win21_1.index t21_7 0 * win21_1.size 0 = 0 from by decide +kernel, show win21_1.xsize (grid21.coords t21_7) 0 = 8 from by decide +kernel]; omega
      | ⟨1, _⟩ => show win21_1.index t21_7 1 * win21_1.size 1 ≤ (i 1 : Nat) ∧ (i 1 : Nat) < win21_1.index t21_7 1 * win21_1.size 1 + win21_1.xsize (grid21.coords t21_7) 1
                  rw [show win21_1.index t21_7 1 * win21_1.size 1 = 0 from by decide +kernel, show win21_1.xsize (grid21.coords t21_7) 1 = 1 from by decide +kernel]; omega⟩

theorem final2 (c : Dev nD) : (dat21 V c).arrAt 2 cfg21.N = last2 V c :=
  (dat21 V c).arrAt_eq_of_cover 2 (last2 V c) (flushed_eq2 V c) fun i =>
    ⟨t21_7, (flush21_2 t21_7).mpr rfl, by
      show i ∈ ((View.whole main_v302_1).slice (win21_2.rect t21_7)).set
      rw [View.set_slice_whole, Rect.mem_set_unit]
      intro a
      have h0 : (i 0 : Nat) < 8 := (i 0).isLt
      have h1 : (i 1 : Nat) < 1 := (i 1).isLt
      match a with
      | ⟨0, _⟩ => show win21_2.index t21_7 0 * win21_2.size 0 ≤ (i 0 : Nat) ∧ (i 0 : Nat) < win21_2.index t21_7 0 * win21_2.size 0 + win21_2.xsize (grid21.coords t21_7) 0
                  rw [show win21_2.index t21_7 0 * win21_2.size 0 = 0 from by decide +kernel, show win21_2.xsize (grid21.coords t21_7) 0 = 8 from by decide +kernel]; omega
      | ⟨1, _⟩ => show win21_2.index t21_7 1 * win21_2.size 1 ≤ (i 1 : Nat) ∧ (i 1 : Nat) < win21_2.index t21_7 1 * win21_2.size 1 + win21_2.xsize (grid21.coords t21_7) 1
                  rw [show win21_2.index t21_7 1 * win21_2.size 1 = 0 from by decide +kernel, show win21_2.xsize (grid21.coords t21_7) 1 = 1 from by decide +kernel]; omega⟩

/-! ## The value of the region -/

/-- The eight tiles' contributions are the spec's sums. -/
theorem sum_tiles (H : ArrCP) (r : Fin 8) : ∑ s ∈ Finset.range (7 + 1), tileSum H r s = sumK H r := by
  unfold sumK
  rw [Finset.sum_range]
  exact Finset.sum_congr rfl fun t _ => by unfold tileSum; rw [dif_pos t.isLt]

theorem ssq_tiles (H : ArrCP) (r : Fin 8) : ∑ s ∈ Finset.range (7 + 1), tileSsq H r s = ssqK H r := by
  unfold ssqK
  rw [Finset.sum_range]
  exact Finset.sum_congr rfl fun t _ => by unfold tileSsq; rw [dif_pos t.isLt]

/-- Output 1's array ends holding the input's row sums. -/
theorem stats0_sum (W : (c : Dev nD) → (b : Ref sig .tc) → Buf (Elt Ideal) ((c : Thread nD τ).loc b)) (c : Dev nD) :
    toV81 ((dat21 (F := Ideal) W c).arrAt 1 cfg21.N) = sumK (toCP (W c (Pipeline.arrRef spec21 0))) := by
  rw [final1 W c]
  funext r
  exact ((outsAt_eq W c t21_7.val t21_7.isLt r).1).trans (sum_tiles _ r)

/-- Output 2's array ends holding the input's row sums of squares. -/
theorem stats0_ssq (W : (c : Dev nD) → (b : Ref sig .tc) → Buf (Elt Ideal) ((c : Thread nD τ).loc b)) (c : Dev nD) :
    toV81 ((dat21 (F := Ideal) W c).arrAt 2 cfg21.N) = ssqK (toCP (W c (Pipeline.arrRef spec21 0))) := by
  rw [final2 W c]
  funext r
  exact ((outsAt_eq W c t21_7.val t21_7.isLt r).2).trans (ssq_tiles _ r)

end Cert.KernelIdeal.Val21

end
-- ==== Proof.KHost22.lean ====
/-
  What the host operations between the statistics and the transform of a layer compute, read at an index, over
  the extended reals: the row sums divided by the number of nodes (the batch mean), the row sums of squares
  divided by the number of nodes minus the squared mean (the batch variance), the layer's row of the scales
  and of the shifts as columns, and the layer's weight matrix transposed. They hold from any contents the
  operations start from; a buffer none of them writes keeps its contents.
-/
import proofs.«143139_j73710228734964_1_alg».proof.Proof.Gen.KernelIdeal.Launch
import proofs.«143139_j73710228734964_1_alg».proof.Proof.Spec
import proofs.«143139_j73710228734964_1_alg».proof.Proof.Conv
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 2928

noncomputable section

namespace Cert.KernelIdeal.Host22

open Cert.KernelIdeal Cert.KernelIdeal.Gen Cert.GCN Idealize.ShloMosaic Idealize.ShloMosaic.ValueIdx

/-! ## The divisor -/

/-- The word `0x48F42400` denotes the number of nodes, 500000. -/
theorem ofBits_nN : Ideal.ofBits .f32 0x48F42400#32 = nN := by
  show Ideal.ieee 8 23 (0x48F42400#32 : BitVec 32) = ((500000 : ℝ) : EReal)
  simp [Ideal.ieee]
  rw [← EReal.coe_mul]
  norm_num

/-- The scalar constant 500000 broadcast to a column `[8, 1]`. -/
local notation "colN" =>
  (broadcastInDim S8x1 ![] bcast_S_S8x1 (constant (F := Ideal) S_ FTy.f32 0x48F42400#32) : S8x1.Idx → EReal)

/-- It reads 500000 at every index. -/
theorem colN_apply (j : S8x1.Idx) : colN j = nN := by
  rw [broadcastInDim_scalar_apply, constant_apply, ofBits_nN]

/-! ## The operations read at an index, over variables -/

/-- A column divided by the constant column, read at row `c`. -/
theorem divN_apply (x : S8x1.Idx → EReal) (c : Fin 8) :
    toV81 (Host.divf (F := Ideal) (φ := .f32) x colN) c = Ideal.div (toV81 x c) nN := by
  show Ideal.div (x (ix2 c 0)) (colN (ix2 c 0)) = _
  rw [colN_apply]
  rfl

/-- The quotient of `y` minus the squared quotient of `x`, read at row `c`. -/
theorem varN_apply (x y : S8x1.Idx → EReal) (c : Fin 8) :
    toV81 (subf (F := Ideal) (φ := .f32) (Host.divf (F := Ideal) (φ := .f32) y colN)
        (mulf (F := Ideal) (φ := .f32) (Host.divf (F := Ideal) (φ := .f32) x colN) (Host.divf (F := Ideal) (φ := .f32) x colN))) c
      = Ideal.div (toV81 y c) nN - Ideal.div (toV81 x c) nN * Ideal.div (toV81 x c) nN := by
  show Ideal.div (y (ix2 c 0)) (colN (ix2 c 0))
      - Ideal.div (x (ix2 c 0)) (colN (ix2 c 0)) * Ideal.div (x (ix2 c 0)) (colN (ix2 c 0)) = _
  rw [colN_apply]
  rfl

/-- A vector `[8]` cast to a column `[8, 1]` reads, at `(c, u)`, the vector at `c`. -/
theorem shapeCast_8_8x1_apply (x : S8.Idx → EReal) (h : S8.ShapeCasts S8x1) (c : Fin 8) (u : Fin 1) :
    shapeCast S8x1 x h (ix2 c u) = x (ix1 c) :=
  shapeCast_apply x h _ _ (by
    have hu : u.val = 0 := by omega
    rw [Shape.rowMajor_val_two, Shape.rowMajor_val_one]
    show c.val = c.val * 1 + u.val
    omega)

/-- Row `o` of a matrix `[8, 8]`, cut out as `[1, 8]`, cast to `[8]` and then to a column `[8, 1]`: its row `c` is the
    matrix at `(o, c)`. -/
theorem rowCol_apply (o : Nat) (x : S8x8.Idx → EReal) (h : S8x8.Slices ![o, 0] S1x8) (r : Fin 8) (hr : r.val = o) (c : Fin 8) :
    toV81 (shapeCast S8x1 (shapeCast S8 (extractStridedSlice S1x8 ![o, 0] x h) shapeCasts_S1x8_S8) shapeCasts_S8_S8x1) c
      = toM8 x r c := by
  show shapeCast S8x1 (shapeCast S8 (extractStridedSlice S1x8 ![o, 0] x h) shapeCasts_S1x8_S8) shapeCasts_S8_S8x1 (ix2 c 0)
      = x (ix2 r c)
  rw [shapeCast_8_8x1_apply, shapeCast_1a_a_apply]
  exact slice2_axis0_apply o x h 0 c r hr

/-- Matrix `o` of a stack `[8, 8, 8]`, cut out as `[1, 8, 8]`, cast to `[8, 8]` and transposed: its entry `(a, b)` is the
    stack at `(o, b, a)`. -/
theorem sliceT_apply (o : Nat) (x : S8x8x8.Idx → EReal) (h : S8x8x8.Slices ![o, 0, 0] S1x8x8) (r : Fin 8) (hr : r.val = o)
    (a b : Fin 8) :
    toM8 (transpose S8x8 [1, 0] (shapeCast S8x8 (extractStridedSlice S1x8x8 ![o, 0, 0] x h) shapeCasts_S1x8x8_S8x8)
        transposes_S8x8_S8x8_1_0) a b = x (ix3 r b a) := by
  show transpose S8x8 [1, 0] (shapeCast S8x8 (extractStridedSlice S1x8x8 ![o, 0, 0] x h) shapeCasts_S1x8x8_S8x8)
        transposes_S8x8_S8x8_1_0 (ix2 a b) = x (ix3 r b a)
  rw [transpose_ix2_apply, shapeCast_1ab_ab_apply]
  exact extractStridedSlice_apply _ _ _ _ _ (fun ax => by
    match ax with
    | ⟨0, _⟩ => exact hr
    | ⟨1, _⟩ => exact (Nat.zero_add _).symm
    | ⟨2, _⟩ => exact (Nat.zero_add _).symm)

/-! ## The stretch's results -/

section Results

variable (W : Valuation τ sig (Elt Ideal))

theorem after_main_v38 :
    (StableHlo.after (hostOps22 (F := Ideal)) W (Proc.devRef .tc main_v304) : S8x1.Idx → EReal)
      = Host.divf (F := Ideal) (φ := .f32) (W (Proc.devRef .tc main_v302_0)) colN := by
  after_results <;> rfl

theorem after_main_v42 :
    (StableHlo.after (hostOps22 (F := Ideal)) W (Proc.devRef .tc main_v308) : S8x1.Idx → EReal)
      = subf (F := Ideal) (φ := .f32) (Host.divf (F := Ideal) (φ := .f32) (W (Proc.devRef .tc main_v302_1)) colN)
          (mulf (F := Ideal) (φ := .f32) (Host.divf (F := Ideal) (φ := .f32) (W (Proc.devRef .tc main_v302_0)) colN)
            (Host.divf (F := Ideal) (φ := .f32) (W (Proc.devRef .tc main_v302_0)) colN)) := by
  after_results <;> rfl

/-- The batch mean's column: the row sums over the number of nodes. -/
theorem mean1 :
    toV81 (StableHlo.after (hostOps22 (F := Ideal)) W (Proc.devRef .tc main_v304))
      = fun c => Ideal.div (toV81 (W (Proc.devRef .tc main_v302_0)) c) nN := by
  funext c
  rw [after_main_v38]
  exact divN_apply _ c

/-- The batch variance's column: the mean of the squares minus the squared mean. -/
theorem var1 :
    toV81 (StableHlo.after (hostOps22 (F := Ideal)) W (Proc.devRef .tc main_v308))
      = fun c => Ideal.div (toV81 (W (Proc.devRef .tc main_v302_1)) c) nN
          - Ideal.div (toV81 (W (Proc.devRef .tc main_v302_0)) c) nN * Ideal.div (toV81 (W (Proc.devRef .tc main_v302_0)) c) nN := by
  funext c
  rw [after_main_v42]
  exact varN_apply _ _ c

/-- The scale's column: row 0 of the scales' matrix. -/
theorem gamma1 :
    toV81 (StableHlo.after (hostOps22 (F := Ideal)) W (Proc.devRef .tc main_v311))
      = fun c => toM8 (W (Proc.devRef .tc main_arg4)) (7 : Fin 8) c := by
  funext c
  after_results
  exact rowCol_apply _ _ _ (7 : Fin 8) rfl c

/-- The shift's column: row 0 of the shifts' matrix. -/
theorem beta1 :
    toV81 (StableHlo.after (hostOps22 (F := Ideal)) W (Proc.devRef .tc main_v314))
      = fun c => toM8 (W (Proc.devRef .tc main_arg5)) (7 : Fin 8) c := by
  funext c
  after_results
  exact rowCol_apply _ _ _ (7 : Fin 8) rfl c

/-- The weights: matrix 0 of the stack, transposed. -/
theorem wT1 :
    toM8 (StableHlo.after (hostOps22 (F := Ideal)) W (Proc.devRef .tc main_v317))
      = fun a b => (W (Proc.devRef .tc main_arg6) : S8x8x8.Idx → EReal) (ValueIdx.ix3 (7 : Fin 8) b a) := by
  funext a b
  after_results
  exact sliceT_apply _ _ _ (7 : Fin 8) rfl a b

/-- The buffers the stretch writes. -/
def writes1 : List (Ref sig .tc) :=
  [main_cst_49, main_v303, main_v304, main_cst_50, main_v305, main_v306, main_v307, main_v308, main_v309, main_v310, main_v311,
    main_v312, main_v313, main_v314, main_v315, main_v316, main_v317]

/-- A buffer the stretch does not write keeps its contents. -/
theorem kept1 {b : Ref sig .tc} (hb : b ∉ writes1) :
    StableHlo.after (hostOps22 (F := Ideal)) W (Proc.devRef .tc b) = W (Proc.devRef .tc b) :=
  StableHlo.after_of_forall_not_mem (b := Proc.devRef .tc b) _ _ (List.forall_iff_forall_mem.mp (by
    simp only [hostOps22, List.Forall, StableHlo.nullary_writes, StableHlo.unary_writes, StableHlo.binary_writes,
      StableHlo.reshape_writes, Finset.mem_singleton]
    repeat' apply And.intro
    all_goals exact StableHlo.devRef_ne_of_ne (fun e => hb (by rw [e]; decide))))

theorem kept1_main_v35 : StableHlo.after (hostOps22 (F := Ideal)) W (Proc.devRef .tc main_v301) = W (Proc.devRef .tc main_v301) :=
  kept1 W (by decide)
theorem kept1_main_v3 : StableHlo.after (hostOps22 (F := Ideal)) W (Proc.devRef .tc main_v3) = W (Proc.devRef .tc main_v3) :=
  kept1 W (by decide)
theorem kept1_main_v6 : StableHlo.after (hostOps22 (F := Ideal)) W (Proc.devRef .tc main_v6) = W (Proc.devRef .tc main_v6) :=
  kept1 W (by decide)
theorem kept1_main_v26 : StableHlo.after (hostOps22 (F := Ideal)) W (Proc.devRef .tc main_v26) = W (Proc.devRef .tc main_v26) :=
  kept1 W (by decide)
theorem kept1_main_arg7 : StableHlo.after (hostOps22 (F := Ideal)) W (Proc.devRef .tc main_arg7) = W (Proc.devRef .tc main_arg7) :=
  kept1 W (by decide)

end Results

end Cert.KernelIdeal.Host22

end
-- ==== Proof.KTransform22.lean ====
/-
  The value of the transform kernel of layer 0 (region 1 of the kernel program), at the ideal values and for any
  contents `V` of the buffers when the region is entered.

  The region walks the 8 column blocks of 65536 lanes of `H : [8, 524288]`. At block `t` it reads the block of `H`,
  the four columns `[8, 1]` (mean, variance, scale, shift) and the matrix `wT : [8, 8]` whole, and stores
    wT · ((x − mean) · rsqrt(var + eps) · scale + shift)
  into block `t` of the output: entry `(co, l)` of the stored block is the sum over the input channel `ci` of
  `wT (co, ci)` times the normalised entry `(ci, l)` of the block. The 8 blocks tile the output array, so the array
  ends holding, at `(co, n)`, the same sum with column `n = 65536 · t + l` of `H`.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.PureOps.Ideal.Laws

noncomputable section

namespace Cert.KernelIdeal.Val22

open Cert.KernelIdeal Cert.KernelIdeal.Gen Cert.KernelIdeal.GenP Cert.GCN
open Idealize.ShloMosaic Idealize.ShloMosaic.TcCoe Idealize.ShloMosaic.ValueIdx Idealize.SL.Sem
open Idealize.ShloMosaic.Pipeline (Dat)
open scoped BigOperators

/-! ## The payload at an index -/

/-- An `[8, 1]` column broadcast along the lanes reads, at `(p, l)`, the column's entry of row `p`. -/
theorem bcast_col_apply {α : Type} (v : S8x1.Idx → α) (h : S8x1.Broadcasts S8x65536) (p : Fin 8) (l : Fin 65536) :
    broadcastTo S8x65536 v h (ix2 p l) = v (ix2 p (0 : Fin 1)) := by
  refine broadcastTo_apply v h (ix2 p l) (ix2 p (0 : Fin 1)) fun ax => ?_
  match ax with
  | ⟨0, _⟩ => rfl
  | ⟨1, _⟩ => rfl

/-- The product's left operand is read at the output's row … -/
theorem lhs_dot_0 (j : S8x65536.Idx) (k : dot_S8x8_S8x65536_S8x65536_1_0_0_1_n_n.contr.Idx) :
    ((dot_S8x8_S8x65536_S8x65536_1_0_0_1_n_n.lhsIdx j k 0 : Fin _) : ℕ) = (j 0 : ℕ) := by
  simp [DotDims.lhsIdx, dot_S8x8_S8x65536_S8x65536_1_0_0_1_n_n]
  rfl

/-- … and at the contracted coordinate; -/
theorem lhs_dot_1 (j : S8x65536.Idx) (k : dot_S8x8_S8x65536_S8x65536_1_0_0_1_n_n.contr.Idx) :
    ((dot_S8x8_S8x65536_S8x65536_1_0_0_1_n_n.lhsIdx j k 1 : Fin _) : ℕ) = (k ⟨0, by decide⟩ : ℕ) :=
  dot_S8x8_S8x65536_S8x65536_1_0_0_1_n_n.lhsIdx_val_of_single rfl j k

/-- the right operand at the contracted coordinate … -/
theorem rhs_dot_0 (j : S8x65536.Idx) (k : dot_S8x8_S8x65536_S8x65536_1_0_0_1_n_n.contr.Idx) :
    ((dot_S8x8_S8x65536_S8x65536_1_0_0_1_n_n.rhsIdx j k 0 : Fin _) : ℕ) = (k ⟨0, by decide⟩ : ℕ) :=
  dot_S8x8_S8x65536_S8x65536_1_0_0_1_n_n.rhsIdx_val_of_single rfl j k

/-- … and at the output's lane. -/
theorem rhs_dot_1 (j : S8x65536.Idx) (k : dot_S8x8_S8x65536_S8x65536_1_0_0_1_n_n.contr.Idx) :
    ((dot_S8x8_S8x65536_S8x65536_1_0_0_1_n_n.rhsIdx j k 1 : Fin _) : ℕ) = (j 1 : ℕ) := by
  simp [DotDims.rhsIdx, dot_S8x8_S8x65536_S8x65536_1_0_0_1_n_n]
  rfl

/-- The payload at `(co, l)`: the normalised, scaled and shifted column `l` of the block, multiplied on the left by
    row `co` of the matrix. The product's zero accumulator adds nothing, and the narrowing of the two operands is the
    identity on the extended reals. -/
theorem pay1_apply (v0 v2 v4 v6 : Vec Ideal S8x1 .f32) (v11 : Vec Ideal S8x65536 .f32) (v21 : Vec Ideal S8x8 .f32)
    (co : Fin 8) (l : Fin 65536) :
    k22_pay1 (F := Ideal) v0 v2 v4 v6 v11 v21 (ix2 co l)
      = ∑ ci : Fin 8, v21 (ix2 co ci)
          * ((v11 (ix2 ci l) - v0 (ix2 ci (0 : Fin 1))) * Ideal.rsqrt (v2 (ix2 ci (0 : Fin 1)) + eps) * v4 (ix2 ci (0 : Fin 1))
              + v6 (ix2 ci (0 : Fin 1))) := by
  unfold k22_pay1
  refine (Ideal.matmul_constant_zero_apply dot_S8x8_S8x65536_S8x65536_1_0_0_1_n_n none _ _ (ix2 co l)).trans ?_
  refine (Equiv.sum_comp (contrEquiv1 dot_S8x8_S8x65536_S8x65536_1_0_0_1_n_n 8 rfl rfl).symm _).symm.trans ?_
  refine Finset.sum_congr rfl fun ci _ => ?_
  have c2 := contrEquiv1_symm_val dot_S8x8_S8x65536_S8x65536_1_0_0_1_n_n 8 rfl rfl ci
  have l2 : dot_S8x8_S8x65536_S8x65536_1_0_0_1_n_n.lhsIdx (ix2 co l) ((contrEquiv1 _ 8 rfl rfl).symm ci) = ix2 co ci := by
    funext ax; apply Fin.ext
    match ax with
    | ⟨0, _⟩ => exact lhs_dot_0 _ _
    | ⟨1, _⟩ => exact (lhs_dot_1 _ _).trans c2
  have r2 : dot_S8x8_S8x65536_S8x65536_1_0_0_1_n_n.rhsIdx (ix2 co l) ((contrEquiv1 _ 8 rfl rfl).symm ci) = ix2 ci l := by
    funext ax; apply Fin.ext
    match ax with
    | ⟨0, _⟩ => exact (rhs_dot_0 _ _).trans c2
    | ⟨1, _⟩ => exact rhs_dot_1 _ _
  rw [l2, r2]
  simp only [truncf_apply, shapeCast_self, addf_apply, mulf_apply, subf_apply, bcast_col_apply]
  rfl

/-- The same at an index of the block given by its two coordinates' values. -/
theorem pay1_at (x0 : Vec Ideal S8x65536 .f32) (x1 x2 x3 x4 : Vec Ideal S8x1 .f32) (x5 : Vec Ideal S8x8 .f32)
    (y : S8x65536.Idx) (p : Fin 8) (q : Fin 65536) (hp : (y 0).val = p.val) (hq : (y 1).val = q.val) :
    k22_pay1 (F := Ideal) x1 x2 x3 x4 x0 x5 y
      = ∑ ci : Fin 8, x5 (ix2 p ci)
          * ((x0 (ix2 ci q) - x1 (ix2 ci (0 : Fin 1))) * Ideal.rsqrt (x2 (ix2 ci (0 : Fin 1)) + eps) * x3 (ix2 ci (0 : Fin 1))
              + x4 (ix2 ci (0 : Fin 1))) := by
  have hy : y = ix2 p q := by
    funext a; apply Fin.ext
    match a with
    | ⟨0, _⟩ => exact hp
    | ⟨1, _⟩ => exact hq
  rw [hy]
  exact pay1_apply x1 x2 x3 x4 x0 x5 p q

/-! ## From blocks to the array -/

section Blocks

variable (V : (c : Dev nD) → (b : Ref sig .tc) → Buf (Elt Ideal) ((c : Thread nD τ).loc b))

/-- The six arrays the region reads, as it finds them: `H`, the mean, variance, scale and shift columns, the matrix. -/
abbrev harr (c : Dev nD) : Vec Ideal S8x524288 .f32 := V c (Pipeline.arrRef spec22 0)
abbrev marr (c : Dev nD) : Vec Ideal S8x1 .f32 := V c (Pipeline.arrRef spec22 1)
abbrev sarr (c : Dev nD) : Vec Ideal S8x1 .f32 := V c (Pipeline.arrRef spec22 2)
abbrev garr (c : Dev nD) : Vec Ideal S8x1 .f32 := V c (Pipeline.arrRef spec22 3)
abbrev barr (c : Dev nD) : Vec Ideal S8x1 .f32 := V c (Pipeline.arrRef spec22 4)
abbrev warr (c : Dev nD) : Vec Ideal S8x8 .f32 := V c (Pipeline.arrRef spec22 5)

/-- The transform at `(co, n)`: row `co` of the matrix times the normalised column `n` of `H`. -/
def T1 (c : Dev nD) (co : Fin 8) (n : Fin 524288) : EReal :=
  ∑ ci : Fin 8, warr V c (ix2 co ci)
    * ((harr V c (ix2 ci n) - marr V c (ix2 ci (0 : Fin 1))) * Ideal.rsqrt (sarr V c (ix2 ci (0 : Fin 1)) + eps) * garr V c (ix2 ci (0 : Fin 1))
        + barr V c (ix2 ci (0 : Fin 1)))

/-- The array the region leaves, as a function of its index. -/
abbrev G1 (c : Dev nD) : Vec Ideal S8x524288 .f32 := fun i => T1 V c (i 0) (i 1)

theorem hz : (![0, 0] : Fin 2 → Nat) = fun _ => 0 := funext fun a => by fin_cases a <;> rfl

/-- The block indices over the grid: the windows of `H` and of the output are at column block `t`, the five small
    windows at block `(0, 0)`. -/
theorem idx_facts1 : ∀ t : Fin cfg22.N,
    win22_0.index t (0 : Fin 2) = 0 ∧ win22_0.index t (1 : Fin 2) = t.val
    ∧ win22_1.index t (0 : Fin 2) = 0 ∧ win22_1.index t (1 : Fin 2) = 0
    ∧ win22_2.index t (0 : Fin 2) = 0 ∧ win22_2.index t (1 : Fin 2) = 0
    ∧ win22_3.index t (0 : Fin 2) = 0 ∧ win22_3.index t (1 : Fin 2) = 0
    ∧ win22_4.index t (0 : Fin 2) = 0 ∧ win22_4.index t (1 : Fin 2) = 0
    ∧ win22_5.index t (0 : Fin 2) = 0 ∧ win22_5.index t (1 : Fin 2) = 0
    ∧ win22_6.index t (0 : Fin 2) = 0 ∧ win22_6.index t (1 : Fin 2) = t.val :=
  (by decide +kernel : ∀ t : Fin grid22.N, _)

/-- Entry `(r, l)` of the block of `H` at point `t` is entry `(r, 65536 · t + l)` of `H`. -/
theorem iblk1_0_apply (c : Dev nD) (t : Fin cfg22.N) (x : S8x65536.Idx) (k : S8x524288.Idx)
    (hk0 : (k 0).val = (x 0).val) (hk1 : (k 1).val = 65536 * t.val + (x 1).val) :
    (iblk22 V c 0 t : Vec Ideal S8x65536 .f32) x = harr V c k := by
  obtain ⟨e0, e1, -⟩ := idx_facts1 t
  unfold iblk22
  rw [View.read_apply]
  show V c (Pipeline.arrRef spec22 0) _ = V c (Pipeline.arrRef spec22 0) k
  congr 1
  funext a
  apply Fin.ext
  match a with
  | ⟨0, _⟩ => show win22_0.index t 0 * 8 + 1 * (x 0).val = (k 0).val; rw [e0, hk0]; omega
  | ⟨1, _⟩ => show win22_0.index t 1 * 65536 + 1 * (x 1).val = (k 1).val; rw [e1, hk1]; omega

/-- The block of each small window is its whole array, at every point. -/
theorem iblk1_1_eq (c : Dev nD) (t : Fin cfg22.N) : (iblk22 V c 1 t : Vec Ideal S8x1 .f32) = marr V c := by
  obtain ⟨-, -, e0, e1, -⟩ := idx_facts1 t
  funext x
  unfold iblk22
  rw [View.read_apply]
  show V c (Pipeline.arrRef spec22 1) _ = V c (Pipeline.arrRef spec22 1) x
  congr 1
  funext a
  apply Fin.ext
  match a with
  | ⟨0, _⟩ => show win22_1.index t 0 * 8 + 1 * (x 0).val = (x 0).val; rw [e0]; omega
  | ⟨1, _⟩ => show win22_1.index t 1 * 1 + 1 * (x 1).val = (x 1).val; rw [e1]; omega

theorem iblk1_2_eq (c : Dev nD) (t : Fin cfg22.N) : (iblk22 V c 2 t : Vec Ideal S8x1 .f32) = sarr V c := by
  obtain ⟨-, -, -, -, e0, e1, -⟩ := idx_facts1 t
  funext x
  unfold iblk22
  rw [View.read_apply]
  show V c (Pipeline.arrRef spec22 2) _ = V c (Pipeline.arrRef spec22 2) x
  congr 1
  funext a
  apply Fin.ext
  match a with
  | ⟨0, _⟩ => show win22_2.index t 0 * 8 + 1 * (x 0).val = (x 0).val; rw [e0]; omega
  | ⟨1, _⟩ => show win22_2.index t 1 * 1 + 1 * (x 1).val = (x 1).val; rw [e1]; omega

theorem iblk1_3_eq (c : Dev nD) (t : Fin cfg22.N) : (iblk22 V c 3 t : Vec Ideal S8x1 .f32) = garr V c := by
  obtain ⟨-, -, -, -, -, -, e0, e1, -⟩ := idx_facts1 t
  funext x
  unfold iblk22
  rw [View.read_apply]
  show V c (Pipeline.arrRef spec22 3) _ = V c (Pipeline.arrRef spec22 3) x
  congr 1
  funext a
  apply Fin.ext
  match a with
  | ⟨0, _⟩ => show win22_3.index t 0 * 8 + 1 * (x 0).val = (x 0).val; rw [e0]; omega
  | ⟨1, _⟩ => show win22_3.index t 1 * 1 + 1 * (x 1).val = (x 1).val; rw [e1]; omega

theorem iblk1_4_eq (c : Dev nD) (t : Fin cfg22.N) : (iblk22 V c 4 t : Vec Ideal S8x1 .f32) = barr V c := by
  obtain ⟨-, -, -, -, -, -, -, -, e0, e1, -⟩ := idx_facts1 t
  funext x
  unfold iblk22
  rw [View.read_apply]
  show V c (Pipeline.arrRef spec22 4) _ = V c (Pipeline.arrRef spec22 4) x
  congr 1
  funext a
  apply Fin.ext
  match a with
  | ⟨0, _⟩ => show win22_4.index t 0 * 8 + 1 * (x 0).val = (x 0).val; rw [e0]; omega
  | ⟨1, _⟩ => show win22_4.index t 1 * 1 + 1 * (x 1).val = (x 1).val; rw [e1]; omega

theorem iblk1_5_eq (c : Dev nD) (t : Fin cfg22.N) : (iblk22 V c 5 t : Vec Ideal S8x8 .f32) = warr V c := by
  obtain ⟨-, -, -, -, -, -, -, -, -, -, e0, e1, -⟩ := idx_facts1 t
  funext x
  unfold iblk22
  rw [View.read_apply]
  show V c (Pipeline.arrRef spec22 5) _ = V c (Pipeline.arrRef spec22 5) x
  congr 1
  funext a
  apply Fin.ext
  match a with
  | ⟨0, _⟩ => show win22_5.index t 0 * 8 + 1 * (x 0).val = (x 0).val; rw [e0]; omega
  | ⟨1, _⟩ => show win22_5.index t 1 * 8 + 1 * (x 1).val = (x 1).val; rw [e1]; omega

/-- What point `t` writes back is block `t` of the transformed array: entry `(co, l)` of the stored block is the
    transform at column `65536 · t + l`. -/
theorem flushed1_eq (c : Dev nD) (t : Fin cfg22.N) :
    (dat22 V c).flushed 6 t = ((cfg22.win 6).blk t).view.read (Elt Ideal) (G1 V c) := by
  show (cfg22.win 6).cut (grid22.coords t) ((dat22 V c).after 6 t) = _
  rw [after22_6]
  unfold out22_6
  rw [View.canon_unit_zero hz]
  simp only [View.ld_unit_zero (S := S8x1) hz, View.ld_unit_zero (S := S8x65536) hz, View.ld_unit_zero (S := S8x8) hz]
  obtain ⟨-, -, -, -, -, -, -, -, -, -, -, -, e0, e1⟩ := idx_facts1 t
  have ht : t.val < 8 := lt_of_lt_of_eq t.isLt N_22
  funext j
  have hj0 : (j 0).val < 8 := (j 0).isLt
  have hj1 : (j 1).val < 65536 := (j 1).isLt
  have hn : 65536 * t.val + (j 1).val < 524288 := by omega
  rw [View.read_apply]
  show k22_pay1 (F := Ideal) (iblk22 V c 1 t) (iblk22 V c 2 t) (iblk22 V c 3 t) (iblk22 V c 4 t) (iblk22 V c 0 t) (iblk22 V c 5 t)
      ((cfg22.win 6).xinj (grid22.coords t) j)
    = T1 V c ((((cfg22.win 6).blk t).view.emb j) 0) ((((cfg22.win 6).blk t).view.emb j) 1)
  have he0 : ((((cfg22.win 6).blk t).view.emb j) 0 : Fin 8) = ⟨(j 0).val, hj0⟩ :=
    Fin.ext (by show win22_6.index t 0 * 8 + 1 * (j 0).val = (j 0).val; rw [e0]; omega)
  have he1 : ((((cfg22.win 6).blk t).view.emb j) 1 : Fin 524288) = ⟨65536 * t.val + (j 1).val, hn⟩ :=
    Fin.ext (by show win22_6.index t 1 * 65536 + 1 * (j 1).val = 65536 * t.val + (j 1).val; rw [e1]; omega)
  rw [he0, he1]
  refine (pay1_at (iblk22 V c 0 t) (iblk22 V c 1 t) (iblk22 V c 2 t) (iblk22 V c 3 t) (iblk22 V c 4 t) (iblk22 V c 5 t)
    ((cfg22.win 6).xinj (grid22.coords t) j) ⟨(j 0).val, hj0⟩ ⟨(j 1).val, hj1⟩ rfl rfl).trans ?_
  unfold T1
  refine Finset.sum_congr rfl fun ci _ => ?_
  rw [iblk1_1_eq, iblk1_2_eq, iblk1_3_eq, iblk1_4_eq, iblk1_5_eq,
    iblk1_0_apply V c t (ix2 ci ⟨(j 1).val, hj1⟩) (ix2 ci ⟨65536 * t.val + (j 1).val, hn⟩) rfl rfl]
  rfl

/-- An index of the array is in point `t`'s block iff each coordinate is in the block's range on its axis. -/
theorem mem_blk1_6 (t : Fin cfg22.N) (i : S8x524288.Idx) :
    i ∈ ((cfg22.win 6).blk t).view.set ↔ ∀ a : Fin 2, win22_6.index t a * S8x65536.size a ≤ (i a).val ∧ (i a).val < win22_6.index t a * S8x65536.size a + S8x65536.size a := by
  show i ∈ ((View.whole main_v318).slice (win22_6.rect t)).set ↔ _
  rw [View.set_slice_whole, Rect.mem_set_unit]
  exact Iff.rfl

/-- Every index `(r, n)` of the array is in the block of point `n / 65536`. -/
theorem cover1 (i : S8x524288.Idx) : ∃ t : Fin cfg22.N, (cfg22.win 6).flush t = true ∧ i ∈ ((cfg22.win 6).blk t).view.set := by
  have hN : cfg22.N = 8 := N_22
  have h0 : (i 0).val < 8 := (i 0).isLt
  have h1 : (i 1).val < 524288 := (i 1).isLt
  obtain ⟨t, ht⟩ : ∃ t : Fin cfg22.N, t.val = (i 1).val / 65536 := ⟨⟨(i 1).val / 65536, lt_of_lt_of_eq (by omega) hN.symm⟩, rfl⟩
  obtain ⟨-, -, -, -, -, -, -, -, -, -, -, -, e0, e1⟩ := idx_facts1 t
  refine ⟨t, flush22_6 t, ?_⟩
  rw [mem_blk1_6]
  intro a
  match a with
  | ⟨0, _⟩ => show win22_6.index t 0 * 8 ≤ (i 0).val ∧ (i 0).val < win22_6.index t 0 * 8 + 8; rw [e0]; omega
  | ⟨1, _⟩ => show win22_6.index t 1 * 65536 ≤ (i 1).val ∧ (i 1).val < win22_6.index t 1 * 65536 + 65536; rw [e1, ht]; omega

/-- The output array after the region's 8 points is the transformed array. -/
theorem final1 (c : Dev nD) : (dat22 V c).arrAt 6 cfg22.N = G1 V c :=
  (dat22 V c).arrAt_eq_of_cover 6 (G1 V c) (fun t _ => flushed1_eq V c t) cover1

/-- THE VALUE of the transform region over the curried views: with `H`, the mean `μ`, the variance `σ²`, the scale
    `γ`, the shift `β` and the matrix `wT` read off the arrays as the region finds them, the output array is, at
    `(co, n)`, the sum over `ci` of `wT co ci · ((H ci n − μ ci) · rsqrt(σ² ci + eps) · γ ci + β ci)`. -/
theorem transform1_val (c : Dev nD) :
    toCP ((dat22 V c).arrAt 6 cfg22.N)
      = fun co n => ∑ ci : Fin 8, toM8 (V c (Pipeline.arrRef spec22 5)) co ci
          * ((toCP (V c (Pipeline.arrRef spec22 0)) ci n - toV81 (V c (Pipeline.arrRef spec22 1)) ci)
              * Ideal.rsqrt (toV81 (V c (Pipeline.arrRef spec22 2)) ci + eps) * toV81 (V c (Pipeline.arrRef spec22 3)) ci
              + toV81 (V c (Pipeline.arrRef spec22 4)) ci) := by
  rw [final1]
  rfl

end Blocks

end Cert.KernelIdeal.Val22

end
-- ==== Proof.KHost23.lean ====
/-
  The kernel program's host operations between a layer's transform region and its residual region, read at an
  index over the extended reals, from any contents of the buffers they start from.
  Two layout facts carry everything. The first `N` columns of a channel-major array `[8, NP]`, transposed, are its
  node-major reading `[N, 8]`: entry `(n, c)` is entry `(c, n)`. A node-major array transposed and padded with zeros
  to `NP` columns is its channel-major padded layout: entry `(c, n)` is entry `(n, c)` below the last node and zero
  past it (the pad value is the integer zero converted to a float, which is zero).
  The operations slice and transpose the transform's output, aggregate it over the edges (gather at the sources,
  scale by the norms, add up at the targets: one function `AGG` of the sources, the targets, the norms and the
  array, never opened), transpose and pad the result back, and cut the layer's row out of the bias matrix as a
  column. Every buffer these operations do not write keeps its contents.
-/
import proofs.«143139_j73710228734964_1_alg».proof.Proof.Gen.KernelIdeal.Launch
import proofs.«143139_j73710228734964_1_alg».proof.Proof.Spec
import proofs.«143139_j73710228734964_1_alg».proof.Proof.Conv
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host23

open Cert.KernelIdeal Cert.KernelIdeal.Gen Cert.GCN Idealize.ShloMosaic Idealize.ShloMosaic.ValueIdx

/-- The first `N` columns of a channel-major array, transposed, are its node-major reading: index `(n, c)` reads `(c, n)`. -/
theorem unpad_layout (X : S8x524288.Idx → EReal) (hs : S8x524288.Slices ![0, 0] S8x500000)
    (ht : S8x500000.Transposes [1, 0] S500000x8) :
    transpose S500000x8 [1, 0] (extractStridedSlice S8x500000 ![0, 0] X hs) ht = ofNC (unpadT (toCP X)) := by
  funext j
  obtain ⟨n, c, rfl⟩ : ∃ (n : Fin 500000) (c : Fin 8), j = ix2 n c := ⟨j 0, j 1, eq_ix2 j⟩
  rw [transpose_ix2_apply]
  refine (extractStridedSlice_apply _ X hs _ (ix2 c ⟨n.val, Nat.lt_trans n.isLt (by decide)⟩) fun a => ?_).trans ?_
  · match a with
    | ⟨0, _⟩ => simp
    | ⟨1, _⟩ => simp
  · rfl

/-- A node-major array transposed and zero-padded to `NP` columns is its channel-major padded layout: index `(c, n)`
    reads `(n, c)` below the last node and the pad value past it. -/
theorem pad_layout (Y : S500000x8.Idx → EReal) (z : S_.Idx → EReal) (hz : ∀ i, z i = 0)
    (ht : S500000x8.Transposes [1, 0] S8x500000)
    (hp : S8x500000.Pads (![0, 0] : Fin 2 → Nat) ![0, 24288] ![0, 0] S8x524288) (hu : 0 < S_.numel) :
    pad S8x524288 ![0, 0] ![0, 24288] ![0, 0] (transpose S8x500000 [1, 0] Y ht) z hp hu = ofCP (padT (toNC Y)) := by
  funext j
  obtain ⟨c, n, rfl⟩ : ∃ (c : Fin 8) (n : Fin 524288), j = ix2 c n := ⟨j 0, j 1, eq_ix2 j⟩
  show _ = (if hn : n.val < NN then Y (ix2 ⟨n.val, hn⟩ c) else 0)
  unfold pad
  by_cases hn : n.val < NN
  · have hcond : ∀ a : Fin S8x500000.rank, (![0, 0] : Fin 2 → Nat) a ≤ ((ix2 c n : S8x524288.Idx) (a.cast hp.1)).val
        ∧ (((ix2 c n : S8x524288.Idx) (a.cast hp.1)).val - (![0, 0] : Fin 2 → Nat) a) % ((![0, 0] : Fin 2 → Nat) a + 1) = 0
        ∧ (((ix2 c n : S8x524288.Idx) (a.cast hp.1)).val - (![0, 0] : Fin 2 → Nat) a) / ((![0, 0] : Fin 2 → Nat) a + 1) < S8x500000.size a := by
      intro a
      match a with
      | ⟨0, _⟩ =>
        show (0 : ℕ) ≤ c.val ∧ (c.val - 0) % (0 + 1) = 0 ∧ (c.val - 0) / (0 + 1) < 8
        have := c.isLt; omega
      | ⟨1, _⟩ =>
        show (0 : ℕ) ≤ n.val ∧ (n.val - 0) % (0 + 1) = 0 ∧ (n.val - 0) / (0 + 1) < 500000
        have : n.val < 500000 := hn
        omega
    rw [dif_pos hn, dif_pos hcond]
    refine transpose_apply _ Y ht _ (ix2 ⟨n.val, hn⟩ c) fun b => ?_
    match b with
    | ⟨0, _⟩ => show c.val = (c.val - 0) / (0 + 1); omega
    | ⟨1, _⟩ => show n.val = (n.val - 0) / (0 + 1); omega
  · rw [dif_neg hn, dif_neg ?_, hz]
    intro h
    have h1 := (h ⟨1, by decide⟩).2.2
    have h1' : (n.val - 0) / (0 + 1) < 500000 := h1
    exact hn (show n.val < 500000 by omega)

/-- The edge aggregation on a node-major array `hw`: gather the rows at the edge sources (a negative source index
    counted from the end), scale each by its edge's norm, and add them up at the edge targets, from zero. -/
def AGG (src dst : IVec S8500000 32) (norm : FVec Ideal S8500000 .f32) (hw : FVec Ideal S500000x8 .f32) :
    FVec Ideal S500000x8 .f32 :=
  Host.scatterAdd scatter_S500000x8_S8500000x1_S8500000x8_1_0_0_1
    (broadcastInDim S500000x8 ![] bcast_S_S500000x8 (constant (F := Ideal) S_ .f32 0x00000000#32))
    (broadcastInDim S8500000x1 ![0] bcast_S8500000_S8500000x1_0 dst)
    (mulf
      (Host.gather gather_S500000x8_S8500000x1_S8500000x8_1_0_n_n_0_1_18 hw
        (broadcastInDim S8500000x1 ![0] bcast_S8500000_S8500000x1_0
          (select (cmpi .slt src (broadcastInDim S8500000 ![] bcast_S_S8500000 (constantI S_ 32 0#32)))
            (addi src (broadcastInDim S8500000 ![] bcast_S_S8500000 (constantI S_ 32 500000#32)))
            src)))
      (broadcastInDim S8500000x8 ![0, 1] bcast_S8500000x1_S8500000x8_0_1
        (broadcastInDim S8500000x1 ![0] bcast_S8500000_S8500000x1_0 norm)))

/-- The scalar the padding calls pad with, the integer zero read as a float, is zero. -/
theorem pad_zero (i : S_.Idx) : sitofp (F := Ideal) .f32 (constantI S_ 32 0#32) i = 0 := by
  show (((BitVec.toInt (0#32 : BitVec 32) : ℤ) : ℝ) : EReal) = 0
  rw [show BitVec.toInt (0#32 : BitVec 32) = 0 from by decide]
  simp

set_option maxRecDepth 16384 in
/-- The padding call after the aggregation stretch: the padded buffer is the pad of the transposed buffer by the
    converted constant, whatever the valuation before the call. -/
theorem pad_call1 (V : Valuation τ sig (Elt Ideal)) :
    @Eq (S8x524288.Idx → EReal) (StableHlo.after (hostOps23_1 (F := Ideal)) V (Proc.devRef .tc main_v335))
      (pad S8x524288 ![0, 0] ![0, 24288] ![0, 0] (V (Proc.devRef .tc main_v334))
        (sitofp (F := Ideal) .f32 (V (Proc.devRef .tc main_c_54))) pads_S8x500000_S8x524288_000_0242880 h_S_) := by
  dsimp only [hostOps23_1]
  after_results
  rfl

set_option maxRecDepth 16384 in
set_option maxHeartbeats 1000000 in
/-- What the padded buffer holds after the aggregation stretch and its padding call, as the operations spell it. -/
theorem v69_eq (W : Valuation τ sig (Elt Ideal)) :
    @Eq (S8x524288.Idx → EReal)
      (StableHlo.after (hostOps23_1 (F := Ideal)) (StableHlo.after (hostOps23 (F := Ideal)) W) (Proc.devRef .tc main_v335))
      (pad S8x524288 ![0, 0] ![0, 24288] ![0, 0]
        (transpose S8x500000 [1, 0]
          (Host.scatterAdd scatter_S500000x8_S8500000x1_S8500000x8_1_0_0_1
            (broadcastInDim S500000x8 ![] bcast_S_S500000x8 (constant (F := Ideal) S_ .f32 0x00000000#32))
            (broadcastInDim S8500000x1 ![0] bcast_S8500000_S8500000x1_0 (W (Proc.devRef .tc main_v6)))
            (mulf
              (Host.gather gather_S500000x8_S8500000x1_S8500000x8_1_0_n_n_0_1_18
                (transpose S500000x8 [1, 0]
                  (extractStridedSlice S8x500000 ![0, 0] (W (Proc.devRef .tc main_v318)) slices_S8x524288_S8x500000_0_0)
                  transposes_S8x500000_S500000x8_1_0)
                (broadcastInDim S8500000x1 ![0] bcast_S8500000_S8500000x1_0
                  (select
                    (cmpi .slt (W (Proc.devRef .tc main_v3)) (broadcastInDim S8500000 ![] bcast_S_S8500000 (constantI S_ 32 0#32)))
                    (addi (W (Proc.devRef .tc main_v3)) (broadcastInDim S8500000 ![] bcast_S_S8500000 (constantI S_ 32 500000#32)))
                    (W (Proc.devRef .tc main_v3)))))
              (broadcastInDim S8500000x8 ![0, 1] bcast_S8500000x1_S8500000x8_0_1
                (broadcastInDim S8500000x1 ![0] bcast_S8500000_S8500000x1_0 (W (Proc.devRef .tc main_v26))))))
          transposes_S500000x8_S8x500000_1_0)
        (sitofp (F := Ideal) .f32 (constantI S_ 32 0#32)) pads_S8x500000_S8x524288_000_0242880 h_S_) := by
  rw [pad_call1]
  dsimp only [hostOps23]
  after_results

set_option maxRecDepth 16384 in
/-- After the aggregation stretch and its padding call, the padded buffer holds the channel-major padded layout of the
    aggregation of the node-major reading of the transform's output. -/
theorem agg2 (W : Valuation τ sig (Elt Ideal)) :
    toCP (StableHlo.after (hostOps23_1 (F := Ideal)) (StableHlo.after (hostOps23 (F := Ideal)) W) (Proc.devRef .tc main_v335))
      = padT (toNC (AGG (W (Proc.devRef .tc main_v3)) (W (Proc.devRef .tc main_v6)) (W (Proc.devRef .tc main_v26))
          (ofNC (unpadT (toCP (W (Proc.devRef .tc main_v318))))))) := by
  rw [v69_eq W]
  unfold AGG
  rw [unpad_layout, pad_layout _ _ pad_zero, toCP_ofCP]

set_option maxRecDepth 16384 in
/-- After the bias stretch, the bias column holds the layer's row of the bias matrix. -/
theorem bias2 (W : Valuation τ sig (Elt Ideal)) :
    toV81 (StableHlo.after (hostOps23_2 (F := Ideal)) W (Proc.devRef .tc main_v338))
      = fun c => toM8 (W (Proc.devRef .tc main_arg7)) (7 : Fin 8) c := by
  funext c
  unfold toV81 toM8
  dsimp only [hostOps23_2]
  after_results
  dsimp only
  -- a vector of 8 read as 8 rows of one entry, at row c, is its entry c
  refine (shapeCast_apply (s := S8) (t := S8x1) _ _ (ix2 c 0) (ix1 c) ?_).trans ?_
  · rw [Shape.rowMajor_val_two, Shape.rowMajor_val_one]
    show c.val = c.val * 1 + 0
    omega
  -- one row of 8 read as a vector, at c, is the row's entry c
  refine (shapeCast_1a_a_apply _ _ c).trans ?_
  -- the one-row slice at entry c is the matrix at the layer's row
  exact extractStridedSlice_apply _ _ _ _ (ix2 (7 : Fin 8) c) fun a => match a with
    | ⟨0, _⟩ => rfl
    | ⟨1, _⟩ => (Nat.zero_add _).symm

/-! ## What the stretches leave alone -/

/-- The references the aggregation stretch, its padding call, and the bias stretch write. -/
abbrev hostOps2_W : List (Ref sig .tc) :=
  [main_v319, main_v320, main_c_51, main_v321, main_v322, main_c_52, main_v323, main_v324, main_v325, main_v326, main_v327,
    main_v328, main_v329, main_v330, main_cst_53, main_v331, main_v332, main_v333, main_v334, main_c_54]
abbrev hostOps2_1_W : List (Ref sig .tc) := [main_call8_v0, main_v335]
abbrev hostOps2_2_W : List (Ref sig .tc) := [main_v336, main_v337, main_v338]

set_option maxRecDepth 16384 in
theorem hostOps2_writes : (hostOps23 (F := Ideal)).Forall fun op =>
    op.writes ⊆ (hostOps2_W.map (Proc.devRef (τ := τ) .tc)).toFinset := by
  simp only [hostOps23, List.Forall, StableHlo.nullary_writes, StableHlo.unary_writes, StableHlo.binary_writes,
    StableHlo.ternary_writes, Finset.singleton_subset_iff, List.mem_toFinset]
  refine ⟨?_, ?_, ?_, ?_, ?_, ?_, ?_, ?_, ?_, ?_, ?_, ?_, ?_, ?_, ?_, ?_, ?_, ?_, ?_, ?_⟩
  all_goals exact List.mem_map.mpr ⟨_, by decide, rfl⟩

set_option maxRecDepth 16384 in
theorem hostOps2_1_writes : (hostOps23_1 (F := Ideal)).Forall fun op =>
    op.writes ⊆ (hostOps2_1_W.map (Proc.devRef (τ := τ) .tc)).toFinset := by
  simp only [hostOps23_1, List.Forall, StableHlo.unary_writes, StableHlo.binary_writes,
    Finset.singleton_subset_iff, List.mem_toFinset]
  refine ⟨?_, ?_⟩
  all_goals exact List.mem_map.mpr ⟨_, by decide, rfl⟩

set_option maxRecDepth 16384 in
theorem hostOps2_2_writes : (hostOps23_2 (F := Ideal)).Forall fun op =>
    op.writes ⊆ (hostOps2_2_W.map (Proc.devRef (τ := τ) .tc)).toFinset := by
  simp only [hostOps23_2, List.Forall, StableHlo.unary_writes, StableHlo.reshape_writes,
    Finset.singleton_subset_iff, List.mem_toFinset]
  refine ⟨?_, ?_, ?_⟩
  all_goals exact List.mem_map.mpr ⟨_, by decide, rfl⟩

/-- A buffer none of the three stretches writes holds after them what it held before. -/
theorem kept2 (W : Valuation τ sig (Elt Ideal)) (r : Ref sig .tc)
    (h : r ∉ hostOps2_W) (h1 : r ∉ hostOps2_1_W) (h2 : r ∉ hostOps2_2_W) :
    StableHlo.after (hostOps23_2 (F := Ideal)) (StableHlo.after (hostOps23_1 (F := Ideal))
      (StableHlo.after (hostOps23 (F := Ideal)) W)) (Proc.devRef .tc r) = W (Proc.devRef .tc r) :=
  (StableHlo.after_of_writes_sub hostOps23_2 _ hostOps2_2_writes h2).trans <|
    (StableHlo.after_of_writes_sub hostOps23_1 _ hostOps2_1_writes h1).trans <|
      StableHlo.after_of_writes_sub hostOps23 _ hostOps2_writes h

/-- The same, stretch by stretch. -/
theorem kept_hostOps2 (W : Valuation τ sig (Elt Ideal)) (r : Ref sig .tc) (h : r ∉ hostOps2_W) :
    StableHlo.after (hostOps23 (F := Ideal)) W (Proc.devRef .tc r) = W (Proc.devRef .tc r) :=
  StableHlo.after_of_writes_sub hostOps23 _ hostOps2_writes h
theorem kept_hostOps2_1 (W : Valuation τ sig (Elt Ideal)) (r : Ref sig .tc) (h : r ∉ hostOps2_1_W) :
    StableHlo.after (hostOps23_1 (F := Ideal)) W (Proc.devRef .tc r) = W (Proc.devRef .tc r) :=
  StableHlo.after_of_writes_sub hostOps23_1 _ hostOps2_1_writes h
theorem kept_hostOps2_2 (W : Valuation τ sig (Elt Ideal)) (r : Ref sig .tc) (h : r ∉ hostOps2_2_W) :
    StableHlo.after (hostOps23_2 (F := Ideal)) W (Proc.devRef .tc r) = W (Proc.devRef .tc r) :=
  StableHlo.after_of_writes_sub hostOps23_2 _ hostOps2_2_writes h

end Cert.KernelIdeal.Host23

end
-- ==== Proof.KResid23.lean ====
/-
  The value of the residual region of the first layer: the output array `[8, 524288]` after the region's eight grid
  points, index by index, as a function of the three arrays the region reads (the layer's input `H`, the aggregated
  messages, the bias column): entry `(ch, n)` is `max (H ch n + agg ch n + bias ch) 0` times the mask of column `n`
  (one on the columns of real nodes, zero on the padding).
  The mask is built inside the body from the grid coordinate: tile `t`, lane `l` is column `65536 · t + l`, compared as
  a signed 32-bit word with 500000; no column number wraps, so the comparison is the one of the naturals.
  Then the road from blocks to the array: the payload at an index, each input block as columns of its array, what the
  body leaves at a point as a block of the one whole-array function, the tiling of the array by the eight blocks.
-/
import proofs.«143139_j73710228734964_1_alg».proof.Proof.KernelIdealFrameP
import proofs.«143139_j73710228734964_1_alg».proof.Proof.Spec
import proofs.«143139_j73710228734964_1_alg».proof.Proof.Conv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val23

open Cert.KernelIdeal Cert.KernelIdeal.Gen Cert.KernelIdeal.GenP Cert.GCN
open Idealize.ShloMosaic Idealize.ShloMosaic.TcCoe Idealize.ShloMosaic.ValueIdx Idealize.SL.Sem
open Idealize.ShloMosaic.Pipeline (Dat)

/-- The column number as a 32-bit word: no wrap-around, the largest is 65536·7 + 65535. -/
theorem colWord_eq (t : Fin 8) (l : Fin 65536) :
    IntOp.addi (Scalar.muli (BitVec.ofNat 32 t.val) 65536#32) (BitVec.ofNat 32 l.val) = BitVec.ofNat 32 (65536 * t.val + l.val) := by
  unfold IntOp.addi Scalar.muli IntOp.muli
  rw [show (65536#32 : BitVec 32) = BitVec.ofNat 32 65536 from rfl, BitVec.ofNat_mul_ofNat, BitVec.ofNat_add_ofNat, Nat.mul_comm]

/-- The signed comparison of a column number with the number of nodes is the comparison of the naturals: both are
    below 2^31, so both read signed as themselves. -/
theorem slt_colWord (n : Nat) (hn : n < 524288) :
    IntOp.cmpi .slt (BitVec.ofNat 32 n) 500000#32 = if n < 500000 then 1#1 else 0#1 := by
  unfold IntOp.cmpi
  dsimp only
  rw [BitVec.slt_eq_decide]
  have h1 : (BitVec.ofNat 32 n).toInt = (n : Int) := by
    rw [BitVec.toInt_eq_toNat_of_lt (by rw [BitVec.toNat_ofNat, Nat.mod_eq_of_lt (by omega)]; omega), BitVec.toNat_ofNat, Nat.mod_eq_of_lt (by omega)]
  have h2 : (500000#32 : BitVec 32).toInt = 500000 := by decide
  rw [h1, h2]
  by_cases h : n < 500000
  · rw [if_pos h, decide_eq_true (by omega)]; rfl
  · rw [if_neg h, decide_eq_false (by omega)]; rfl

/-- THE MASK AT A COLUMN: the comparison bit, widened and converted, is one on the columns of real nodes and zero on
    the padding. -/
theorem maskWord (t : Fin 8) (l : Fin 65536) :
    (FloatOps.sitofp (F := Ideal) .f32 ((IntOp.cmpi .slt (IntOp.addi (Scalar.muli (BitVec.ofNat 32 t.val) 65536#32) (BitVec.ofNat 32 l.val)) 500000#32).setWidth 32) : EReal)
      = if 65536 * t.val + l.val < 500000 then 1 else 0 := by
  rw [colWord_eq, slt_colWord _ (by have := t.isLt; have := l.isLt; omega)]
  by_cases h : 65536 * t.val + l.val < 500000
  · rw [if_pos h, if_pos h]
    show (((BitVec.setWidth 32 1#1).toInt : ℝ) : EReal) = 1
    rw [show (BitVec.setWidth 32 1#1).toInt = 1 from by decide]
    simp
  · rw [if_neg h, if_neg h]
    show (((BitVec.setWidth 32 0#1).toInt : ℝ) : EReal) = 0
    rw [show (BitVec.setWidth 32 0#1).toInt = 0 from by decide]
    simp

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mask row the body builds from the grid coordinate, read at lane `l` of tile `t`. -/
theorem maskRow_apply (i : grid23.Coords) (t : Fin 8) (ht : (i 0).val = t.val) (l : Fin 65536) :
    (sitofp (F := Ideal) .f32 (extui 32 (cmpi .slt (addi (broadcast S1x65536 (Scalar.muli (BitVec.ofNat 32 (i 0).val) 65536#32))
        (iota .tc S1x65536 32 [1] iota_S1x65536_d1_w32)) (broadcast S1x65536 500000#32)) natLt_1_32) : FVec Ideal S1x65536 .f32) (ix2 (0 : Fin 1) l)
      = if 65536 * t.val + l.val < 500000 then 1 else 0 := by
  show FloatOps.sitofp (F := Ideal) .f32 ((IntOp.cmpi .slt (IntOp.addi (Scalar.muli (BitVec.ofNat 32 (i 0).val) 65536#32)
      (iota .tc S1x65536 32 [1] iota_S1x65536_d1_w32 (ix2 (0 : Fin 1) l))) 500000#32).setWidth 32) = _
  rw [iota_single_apply, ht]
  exact maskWord t l

/-- THE PAYLOAD AT AN INDEX: residual plus aggregate plus bias, clipped below at zero, times the mask of the column. -/
theorem pay_apply (i : grid23.Coords) (t : Fin 8) (ht : (i 0).val = t.val) (v0 : Vec Ideal S8x1 .f32) (v10 v12 : Vec Ideal S8x65536 .f32)
    (p : Fin 8) (l : Fin 65536) :
    k23_pay1 (F := Ideal) i v0 v10 v12 (ix2 p l)
      = max (v10 (ix2 p l) + v12 (ix2 p l) + v0 (ix2 p (0 : Fin 1))) 0 * (if 65536 * t.val + l.val < 500000 then 1 else 0) := by
  unfold k23_pay1
  dsimp only
  rw [mulf_apply, maximumf_apply, addf_apply, addf_apply, broadcast_apply, shapeCast_self, shapeCast_self, shapeCast_self,
    broadcastTo_1b_ab_apply, broadcastTo_a1_ab_apply, maskRow_apply i t ht l]
  show max _ (Ideal.ofBits .f32 0x00000000#32) * _ = _
  rw [Ideal.ofBits_zero_f32]

variable (V : (c : Dev nD) → (b : Ref sig .tc) → Buf (Elt Ideal) ((c : Thread nD τ).loc b))

/-- The three arrays the region reads, as it finds them: the layer's input `H`, the aggregated messages, the bias column. -/
abbrev harr (c : Dev nD) : Vec Ideal S8x524288 .f32 := V c (Pipeline.arrRef spec23 0)
abbrev garr (c : Dev nD) : Vec Ideal S8x524288 .f32 := V c (Pipeline.arrRef spec23 1)
abbrev barr (c : Dev nD) : Vec Ideal S8x1 .f32 := V c (Pipeline.arrRef spec23 2)

/-- Their blocks at a grid point. -/
abbrev hblk (c : Dev nD) (t : Fin cfg23.N) : Vec Ideal S8x65536 .f32 := iblk23 V c 0 t
abbrev gblk (c : Dev nD) (t : Fin cfg23.N) : Vec Ideal S8x65536 .f32 := iblk23 V c 1 t
abbrev bblk (c : Dev nD) (t : Fin cfg23.N) : Vec Ideal S8x1 .f32 := iblk23 V c 2 t

/-- WHAT THE REGION COMPUTES, as one array: entry `(ch, n)` is `max (H + agg + bias) 0` there, times the mask of column `n`. -/
def resid (c : Dev nD) : Vec Ideal S8x524288 .f32 :=
  ofCP fun ch n => max (toCP (harr V c) ch n + toCP (garr V c) ch n + toV81 (barr V c) ch) 0 * maskK n

theorem hz : (![0, 0] : Fin 2 → Nat) = fun _ => 0 := funext fun a => by fin_cases a <;> rfl

/-- The grid has eight points. -/
theorem lt8 (t : Fin cfg23.N) : t.val < 8 := Nat.lt_of_lt_of_eq t.isLt (N_23 : cfg23.N = 8)

/-- The printed index maps, decided once over the grid: the grid coordinate is the point; the two tiled inputs and the
    output sit at column block `t`, the bias column at block zero. -/
theorem idx_facts : ∀ t : Fin cfg23.N, (grid23.coords t 0).val = t.val
    ∧ win23_0.index t (0 : Fin 2) = 0 ∧ win23_0.index t (1 : Fin 2) = t.val
    ∧ win23_1.index t (0 : Fin 2) = 0 ∧ win23_1.index t (1 : Fin 2) = t.val
    ∧ win23_2.index t (0 : Fin 2) = 0 ∧ win23_2.index t (1 : Fin 2) = 0
    ∧ win23_3.index t (0 : Fin 2) = 0 ∧ win23_3.index t (1 : Fin 2) = t.val :=
  (by decide +kernel : ∀ t : Fin grid23.N, _)

/-- Lane `l` of the input block at point `t` is column `65536 · t + l` of the input. -/
theorem hblk_apply (c : Dev nD) (t : Fin cfg23.N) (p : Fin 8) (l : Fin 65536) (n : Fin 524288) (hn : n.val = 65536 * t.val + l.val) :
    hblk V c t (ix2 p l) = harr V c (ix2 p n) := by
  obtain ⟨-, e0, e1, -⟩ := idx_facts t
  show V c (Pipeline.arrRef spec23 0) (((cfg23.win 0).blk t).view.emb (ix2 p l)) = V c (Pipeline.arrRef spec23 0) (ix2 p n)
  congr 1
  funext a
  apply Fin.ext
  match a with
  | ⟨0, _⟩ => show win23_0.index t (0 : Fin 2) * 8 + 1 * p.val = p.val; rw [e0]; omega
  | ⟨1, _⟩ => show win23_0.index t (1 : Fin 2) * 65536 + 1 * l.val = n.val; rw [e1, hn]; omega

/-- The same for the aggregated messages. -/
theorem gblk_apply (c : Dev nD) (t : Fin cfg23.N) (p : Fin 8) (l : Fin 65536) (n : Fin 524288) (hn : n.val = 65536 * t.val + l.val) :
    gblk V c t (ix2 p l) = garr V c (ix2 p n) := by
  obtain ⟨-, -, -, e0, e1, -⟩ := idx_facts t
  show V c (Pipeline.arrRef spec23 1) (((cfg23.win 1).blk t).view.emb (ix2 p l)) = V c (Pipeline.arrRef spec23 1) (ix2 p n)
  congr 1
  funext a
  apply Fin.ext
  match a with
  | ⟨0, _⟩ => show win23_1.index t (0 : Fin 2) * 8 + 1 * p.val = p.val; rw [e0]; omega
  | ⟨1, _⟩ => show win23_1.index t (1 : Fin 2) * 65536 + 1 * l.val = n.val; rw [e1, hn]; omega

/-- The bias block is the whole bias column at every point. -/
theorem bblk_apply (c : Dev nD) (t : Fin cfg23.N) (p : Fin 8) :
    bblk V c t (ix2 p (0 : Fin 1)) = barr V c (ix2 p (0 : Fin 1)) := by
  obtain ⟨-, -, -, -, -, e0, e1, -⟩ := idx_facts t
  show V c (Pipeline.arrRef spec23 2) (((cfg23.win 2).blk t).view.emb (ix2 p (0 : Fin 1))) = V c (Pipeline.arrRef spec23 2) (ix2 p (0 : Fin 1))
  congr 1
  funext a
  apply Fin.ext
  match a with
  | ⟨0, _⟩ => show win23_2.index t (0 : Fin 2) * 8 + 1 * p.val = p.val; rw [e0]; omega
  | ⟨1, _⟩ => show win23_2.index t (1 : Fin 2) * 1 + 1 * 0 = 0; rw [e1]

/-- Lane `l` of the output block at point `t` is column `65536 · t + l` of the output. -/
theorem oblk_read (c : Dev nD) (t : Fin cfg23.N) (X : Vec Ideal S8x524288 .f32) (p : Fin 8) (l : Fin 65536) (n : Fin 524288) (hn : n.val = 65536 * t.val + l.val) :
    (((cfg23.win 3).blk t).view.read (Elt Ideal) X : Vec Ideal S8x65536 .f32) (ix2 p l) = X (ix2 p n) := by
  obtain ⟨-, -, -, -, -, -, -, e0, e1⟩ := idx_facts t
  show X (((cfg23.win 3).blk t).view.emb (ix2 p l)) = X (ix2 p n)
  congr 1
  funext a
  apply Fin.ext
  match a with
  | ⟨0, _⟩ => show win23_3.index t (0 : Fin 2) * 8 + 1 * p.val = p.val; rw [e0]; omega
  | ⟨1, _⟩ => show win23_3.index t (1 : Fin 2) * 65536 + 1 * l.val = n.val; rw [e1, hn]; omega

/-- WHAT THE BODY LEAVES at point `t` is block `t` of `resid`. -/
theorem out_eq (c : Dev nD) (t : Fin cfg23.N) :
    out23_3 (grid23.coords t) (hblk V c t) (gblk V c t) (bblk V c t) = ((cfg23.win 3).blk t).view.read (Elt Ideal) (resid V c) := by
  unfold out23_3
  rw [View.canon_unit_zero hz]
  simp only [View.ld_unit_zero (S := S8x65536) hz, View.ld_unit_zero (S := S8x1) hz]
  funext j
  obtain ⟨p, l, rfl⟩ : ∃ (p : Fin 8) (l : Fin 65536), j = ix2 p l := ⟨j 0, j 1, eq_ix2 j⟩
  have ec : (grid23.coords t 0).val = (⟨t.val, lt8 t⟩ : Fin 8).val := (idx_facts t).1
  have hn : (col ⟨t.val, lt8 t⟩ l).val = 65536 * t.val + l.val := rfl
  rw [pay_apply (grid23.coords t) ⟨t.val, lt8 t⟩ ec, hblk_apply V c t p l _ hn, gblk_apply V c t p l _ hn, bblk_apply V c t p,
    oblk_read c t (resid V c) p l _ hn]
  rfl

/-- An index of the output array is in point `t`'s block iff each coordinate is in the block's range on its axis. -/
theorem mem_oblk (t : Fin cfg23.N) (i : S8x524288.Idx) :
    i ∈ ((cfg23.win 3).blk t).view.set ↔ ∀ a : Fin 2, win23_3.index t a * S8x65536.size a ≤ (i a).val ∧ (i a).val < win23_3.index t a * S8x65536.size a + S8x65536.size a := by
  show i ∈ ((View.whole (Pipeline.arrRef spec23 3)).slice (win23_3.rect t)).set ↔ _
  rw [View.set_slice_whole, Rect.mem_set_unit]
  exact Iff.rfl

/-- Every column lies in the block of the point `column / 65536`: the eight blocks tile the array. -/
theorem cover (i : S8x524288.Idx) : ∃ t : Fin cfg23.N, (cfg23.win 3).flush t = true ∧ i ∈ ((cfg23.win 3).blk t).view.set := by
  have h0 : (i 0).val < 8 := (i 0).isLt
  have h1 : (i 1).val < 524288 := (i 1).isLt
  have hN : cfg23.N = 8 := N_23
  have hq : (i 1).val / 65536 < cfg23.N := by rw [hN]; omega
  obtain ⟨-, -, -, -, -, -, -, e0, e1⟩ := idx_facts ⟨(i 1).val / 65536, hq⟩
  refine ⟨⟨(i 1).val / 65536, hq⟩, flush23_3 _, ?_⟩
  rw [mem_oblk]
  intro a
  match a with
  | ⟨0, _⟩ =>
    show win23_3.index ⟨(i 1).val / 65536, hq⟩ (0 : Fin 2) * 8 ≤ (i 0).val ∧ (i 0).val < win23_3.index ⟨(i 1).val / 65536, hq⟩ (0 : Fin 2) * 8 + 8
    rw [e0]; omega
  | ⟨1, _⟩ =>
    show win23_3.index ⟨(i 1).val / 65536, hq⟩ (1 : Fin 2) * 65536 ≤ (i 1).val ∧ (i 1).val < win23_3.index ⟨(i 1).val / 65536, hq⟩ (1 : Fin 2) * 65536 + 65536
    rw [e1]
    show (i 1).val / 65536 * 65536 ≤ (i 1).val ∧ (i 1).val < (i 1).val / 65536 * 65536 + 65536
    omega

/-- WHAT POINT `t` WRITES BACK is block `t` of `resid`. -/
theorem flushed_eq (c : Dev nD) (t : Fin cfg23.N) :
    (dat23 (F := Ideal) V c).flushed 3 t = ((cfg23.win 3).blk t).view.read (Elt Ideal) (resid V c) := by
  show (cfg23.win 3).cut (grid23.coords t) ((dat23 (F := Ideal) V c).after 3 t) = _
  rw [after23_3]
  exact out_eq V c t

/-- THE OUTPUT ARRAY after the eight points is `resid`: every block written back is its block, and the blocks tile it. -/
theorem final (c : Dev nD) : (dat23 (F := Ideal) V c).arrAt 3 cfg23.N = resid V c :=
  (dat23 (F := Ideal) V c).arrAt_eq_of_cover 3 (resid V c) (fun t _ => flushed_eq V c t) cover

/-- THE REGION'S VALUE, by coordinates: channel `ch`, column `n` of the output is the residual sum clipped at zero, masked
    to the columns of real nodes. -/
theorem resid2_val (c : Dev nD) :
    toCP ((dat23 (F := Ideal) V c).arrAt 3 cfg23.N)
      = fun ch n => max (toCP (V c (Pipeline.arrRef spec23 0)) ch n + toCP (V c (Pipeline.arrRef spec23 1)) ch n
          + toV81 (V c (Pipeline.arrRef spec23 2)) ch) 0 * maskK n :=
  (congrArg toCP (final V c)).trans (toCP_ofCP _)

end Cert.KernelIdeal.Val23

end
-- ==== Proof.KLayer7.lean ====
/-
  Layer 0 of the kernel program as one step on the channel-major activations.
  The program runs the layer as three pipelined regions with host stretches between them. Region 0 reads the
  activations H and leaves the row sums and the row sums of squares; the first host stretch divides them by the
  number of nodes into the batch mean and the batch variance (the mean of the squares minus the squared mean) and
  cuts the layer's row out of the scales, the shifts and the weights; region 1 normalises H, scales, shifts and
  applies the transposed weights; the next host stretches take the first N columns node-major through the edge
  aggregation and pad the result back, and cut the layer's row out of the biases; region 2 adds H, the padded
  aggregate and the bias, clamps below at zero and zeroes the padding.
  Each region and each stretch is read by its own module. Here the readings are chained: a buffer a region only
  reads leaves the region as it entered, a buffer a region or a stretch does not touch crosses it unchanged, and
  the five readings then compose to the layer's closed form `layerK` at the contents the layer was entered with.
  The edge lists, the edge norm and the program's arguments cross the whole layer unchanged.
-/
import proofs.«143139_j73710228734964_1_alg».proof.Proof.KernelIdealFrameP
import proofs.«143139_j73710228734964_1_alg».proof.Proof.Spec
import proofs.«143139_j73710228734964_1_alg».proof.Proof.Conv
import proofs.«143139_j73710228734964_1_alg».proof.Proof.KStats21
import proofs.«143139_j73710228734964_1_alg».proof.Proof.KHost22
import proofs.«143139_j73710228734964_1_alg».proof.Proof.KTransform22
import proofs.«143139_j73710228734964_1_alg».proof.Proof.KHost23
import proofs.«143139_j73710228734964_1_alg».proof.Proof.KResid23
import Idealize.ShloMosaic.Lib.StableHlo.Run
import Idealize.ShloMosaic.Lib.Pipeline.Cells
import Idealize.ShloMosaic.Lib.ValueIdx

set_option maxRecDepth 16384

noncomputable section

namespace Cert.KernelIdeal.Layer7

open Cert.KernelIdeal Cert.KernelIdeal.Gen Cert.KernelIdeal.GenP Cert.GCN
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)

/-- No operation of the host stretch writes the buffer: each operation writes one buffer, and it is another one. -/
local macro "not_written" : tactic => `(tactic|
  exact List.forall_iff_forall_mem.mp (by
    simp only [hostOps22, hostOps23, hostOps23_1, hostOps23_2, List.flatten_cons, List.flatten_nil, List.append_nil,
      List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

/-- A host stretch leaves a buffer that none of its operations writes as it was. -/
local macro "host_kept" : tactic => `(tactic|
  exact StableHlo.after_of_forall_not_mem (b := _) _ _ (by not_written))

/-! ## The activations H cross the layer: every region only reads them, no stretch writes them -/

/-- Region 0 reads H through an input window: it leaves as it entered. -/
theorem W52_main_v35 : W52 m ρ c (Proc.devRef .tc main_v301) = W51 m ρ c (Proc.devRef .tc main_v301) :=
  (W52_arr m ρ c 0).trans (((dat21 (V51 m ρ) c).arrAt_in 0 rfl _).trans (A_eq21 (V51 m ρ) c 0))

theorem W53_main_v35 : W53 m ρ c (Proc.devRef .tc main_v301) = W51 m ρ c (Proc.devRef .tc main_v301) :=
  calc W53 m ρ c (Proc.devRef .tc main_v301)
    _ = W52 m ρ c (Proc.devRef .tc main_v301) := by host_kept
    _ = W51 m ρ c (Proc.devRef .tc main_v301) := W52_main_v35 m ρ c

/-- Region 1 reads H through an input window too. -/
theorem W54_main_v35 : W54 m ρ c (Proc.devRef .tc main_v301) = W51 m ρ c (Proc.devRef .tc main_v301) :=
  calc W54 m ρ c (Proc.devRef .tc main_v301)
    _ = W53 m ρ c (Proc.devRef .tc main_v301) :=
        (W54_arr m ρ c 0).trans (((dat22 (V53 m ρ) c).arrAt_in 0 rfl _).trans (A_eq22 (V53 m ρ) c 0))
    _ = W51 m ρ c (Proc.devRef .tc main_v301) := W53_main_v35 m ρ c

theorem W57_main_v35 : W57 m ρ c (Proc.devRef .tc main_v301) = W51 m ρ c (Proc.devRef .tc main_v301) :=
  calc W57 m ρ c (Proc.devRef .tc main_v301)
    _ = W56 m ρ c (Proc.devRef .tc main_v301) := by host_kept
    _ = W55 m ρ c (Proc.devRef .tc main_v301) := by host_kept
    _ = W54 m ρ c (Proc.devRef .tc main_v301) := by host_kept
    _ = W51 m ρ c (Proc.devRef .tc main_v301) := W54_main_v35 m ρ c

/-! ## A buffer the layer touches nowhere crosses it unchanged -/

/-- Through region 0, the first stretch and region 1: the buffer is no window's array of either region and no
    operation of the stretch writes it. -/
theorem W54_kept {b : Ref sig .tc} (h0 : ∀ w, Pipeline.arrRef spec21 w ≠ b) (h1 : ∀ w, Pipeline.arrRef spec22 w ≠ b)
    (g1 : ∀ op ∈ (hostOps22 : List (HloOp τ sig (Elt Ideal))), Proc.devRef (τ := τ) .tc b ∉ op.writes) :
    W54 m ρ c (Proc.devRef .tc b) = W51 m ρ c (Proc.devRef .tc b) :=
  calc W54 m ρ c (Proc.devRef .tc b)
    _ = W53 m ρ c (Proc.devRef .tc b) := W54_of_ne m ρ c b h1
    _ = W52 m ρ c (Proc.devRef .tc b) := StableHlo.after_of_forall_not_mem (b := Proc.devRef .tc b) _ _ g1
    _ = W51 m ρ c (Proc.devRef .tc b) := W52_of_ne m ρ c b h0

/-- Through the three stretches before region 2: no operation of them writes the buffer. -/
theorem W57_kept {b : Ref sig .tc}
    (g2 : ∀ op ∈ (hostOps23 : List (HloOp τ sig (Elt Ideal))), Proc.devRef (τ := τ) .tc b ∉ op.writes)
    (g2_1 : ∀ op ∈ (hostOps23_1 : List (HloOp τ sig (Elt Ideal))), Proc.devRef (τ := τ) .tc b ∉ op.writes)
    (g2_2 : ∀ op ∈ (hostOps23_2 : List (HloOp τ sig (Elt Ideal))), Proc.devRef (τ := τ) .tc b ∉ op.writes) :
    W57 m ρ c (Proc.devRef .tc b) = W54 m ρ c (Proc.devRef .tc b) :=
  calc W57 m ρ c (Proc.devRef .tc b)
    _ = W56 m ρ c (Proc.devRef .tc b) := StableHlo.after_of_forall_not_mem (b := Proc.devRef .tc b) _ _ g2_2
    _ = W55 m ρ c (Proc.devRef .tc b) := StableHlo.after_of_forall_not_mem (b := Proc.devRef .tc b) _ _ g2_1
    _ = W54 m ρ c (Proc.devRef .tc b) := StableHlo.after_of_forall_not_mem (b := Proc.devRef .tc b) _ _ g2

/-- Through the whole layer. -/
theorem W58_kept {b : Ref sig .tc} (h0 : ∀ w, Pipeline.arrRef spec21 w ≠ b) (h1 : ∀ w, Pipeline.arrRef spec22 w ≠ b)
    (h2 : ∀ w, Pipeline.arrRef spec23 w ≠ b)
    (g1 : ∀ op ∈ (hostOps22 : List (HloOp τ sig (Elt Ideal))), Proc.devRef (τ := τ) .tc b ∉ op.writes)
    (g2 : ∀ op ∈ (hostOps23 : List (HloOp τ sig (Elt Ideal))), Proc.devRef (τ := τ) .tc b ∉ op.writes)
    (g2_1 : ∀ op ∈ (hostOps23_1 : List (HloOp τ sig (Elt Ideal))), Proc.devRef (τ := τ) .tc b ∉ op.writes)
    (g2_2 : ∀ op ∈ (hostOps23_2 : List (HloOp τ sig (Elt Ideal))), Proc.devRef (τ := τ) .tc b ∉ op.writes) :
    W58 m ρ c (Proc.devRef .tc b) = W51 m ρ c (Proc.devRef .tc b) :=
  calc W58 m ρ c (Proc.devRef .tc b)
    _ = W57 m ρ c (Proc.devRef .tc b) := W58_of_ne m ρ c b h2
    _ = W54 m ρ c (Proc.devRef .tc b) := W57_kept m ρ c g2 g2_1 g2_2
    _ = W51 m ρ c (Proc.devRef .tc b) := W54_kept m ρ c h0 h1 g1

theorem W54_main_v3 : W54 m ρ c (Proc.devRef .tc main_v3) = W51 m ρ c (Proc.devRef .tc main_v3) :=
  W54_kept m ρ c (b := main_v3) (by decide) (by decide) (by not_written)
theorem W54_main_v6 : W54 m ρ c (Proc.devRef .tc main_v6) = W51 m ρ c (Proc.devRef .tc main_v6) :=
  W54_kept m ρ c (b := main_v6) (by decide) (by decide) (by not_written)
theorem W54_main_v26 : W54 m ρ c (Proc.devRef .tc main_v26) = W51 m ρ c (Proc.devRef .tc main_v26) :=
  W54_kept m ρ c (b := main_v26) (by decide) (by decide) (by not_written)
theorem W54_main_arg7 : W54 m ρ c (Proc.devRef .tc main_arg7) = W51 m ρ c (Proc.devRef .tc main_arg7) :=
  W54_kept m ρ c (b := main_arg7) (by decide) (by decide) (by not_written)

theorem W58_main_v3 : W58 m ρ c (Proc.devRef .tc main_v3) = W51 m ρ c (Proc.devRef .tc main_v3) :=
  W58_kept m ρ c (b := main_v3) (by decide) (by decide) (by decide) (by not_written) (by not_written) (by not_written) (by not_written)
theorem W58_main_v6 : W58 m ρ c (Proc.devRef .tc main_v6) = W51 m ρ c (Proc.devRef .tc main_v6) :=
  W58_kept m ρ c (b := main_v6) (by decide) (by decide) (by decide) (by not_written) (by not_written) (by not_written) (by not_written)
theorem W58_main_v26 : W58 m ρ c (Proc.devRef .tc main_v26) = W51 m ρ c (Proc.devRef .tc main_v26) :=
  W58_kept m ρ c (b := main_v26) (by decide) (by decide) (by decide) (by not_written) (by not_written) (by not_written) (by not_written)
theorem W58_main_arg0 : W58 m ρ c (Proc.devRef .tc main_arg0) = W51 m ρ c (Proc.devRef .tc main_arg0) :=
  W58_kept m ρ c (b := main_arg0) (by decide) (by decide) (by decide) (by not_written) (by not_written) (by not_written) (by not_written)
theorem W58_main_arg1 : W58 m ρ c (Proc.devRef .tc main_arg1) = W51 m ρ c (Proc.devRef .tc main_arg1) :=
  W58_kept m ρ c (b := main_arg1) (by decide) (by decide) (by decide) (by not_written) (by not_written) (by not_written) (by not_written)
theorem W58_main_arg2 : W58 m ρ c (Proc.devRef .tc main_arg2) = W51 m ρ c (Proc.devRef .tc main_arg2) :=
  W58_kept m ρ c (b := main_arg2) (by decide) (by decide) (by decide) (by not_written) (by not_written) (by not_written) (by not_written)
theorem W58_main_arg3 : W58 m ρ c (Proc.devRef .tc main_arg3) = W51 m ρ c (Proc.devRef .tc main_arg3) :=
  W58_kept m ρ c (b := main_arg3) (by decide) (by decide) (by decide) (by not_written) (by not_written) (by not_written) (by not_written)
theorem W58_main_arg4 : W58 m ρ c (Proc.devRef .tc main_arg4) = W51 m ρ c (Proc.devRef .tc main_arg4) :=
  W58_kept m ρ c (b := main_arg4) (by decide) (by decide) (by decide) (by not_written) (by not_written) (by not_written) (by not_written)
theorem W58_main_arg5 : W58 m ρ c (Proc.devRef .tc main_arg5) = W51 m ρ c (Proc.devRef .tc main_arg5) :=
  W58_kept m ρ c (b := main_arg5) (by decide) (by decide) (by decide) (by not_written) (by not_written) (by not_written) (by not_written)
theorem W58_main_arg6 : W58 m ρ c (Proc.devRef .tc main_arg6) = W51 m ρ c (Proc.devRef .tc main_arg6) :=
  W58_kept m ρ c (b := main_arg6) (by decide) (by decide) (by decide) (by not_written) (by not_written) (by not_written) (by not_written)
theorem W58_main_arg7 : W58 m ρ c (Proc.devRef .tc main_arg7) = W51 m ρ c (Proc.devRef .tc main_arg7) :=
  W58_kept m ρ c (b := main_arg7) (by decide) (by decide) (by decide) (by not_written) (by not_written) (by not_written) (by not_written)
theorem W58_main_arg8 : W58 m ρ c (Proc.devRef .tc main_arg8) = W51 m ρ c (Proc.devRef .tc main_arg8) :=
  W58_kept m ρ c (b := main_arg8) (by decide) (by decide) (by decide) (by not_written) (by not_written) (by not_written) (by not_written)
theorem W58_main_arg9 : W58 m ρ c (Proc.devRef .tc main_arg9) = W51 m ρ c (Proc.devRef .tc main_arg9) :=
  W58_kept m ρ c (b := main_arg9) (by decide) (by decide) (by decide) (by not_written) (by not_written) (by not_written) (by not_written)
theorem W58_main_arg10 : W58 m ρ c (Proc.devRef .tc main_arg10) = W51 m ρ c (Proc.devRef .tc main_arg10) :=
  W58_kept m ρ c (b := main_arg10) (by decide) (by decide) (by decide) (by not_written) (by not_written) (by not_written) (by not_written)
theorem W58_main_arg11 : W58 m ρ c (Proc.devRef .tc main_arg11) = W51 m ρ c (Proc.devRef .tc main_arg11) :=
  W58_kept m ρ c (b := main_arg11) (by decide) (by decide) (by decide) (by not_written) (by not_written) (by not_written) (by not_written)

/-! ## Region 0: the row sums and the row sums of squares of H -/

theorem W52_main_v36_0 :
    toV81 (W52 m ρ c (Proc.devRef .tc main_v302_0)) = sumK (toCP (W51 m ρ c (Proc.devRef .tc main_v301))) :=
  (congrArg toV81 (W52_arr m ρ c 1)).trans (Val21.stats0_sum (V51 m ρ) c)

theorem W52_main_v36_1 :
    toV81 (W52 m ρ c (Proc.devRef .tc main_v302_1)) = ssqK (toCP (W51 m ρ c (Proc.devRef .tc main_v301))) :=
  (congrArg toV81 (W52_arr m ρ c 2)).trans (Val21.stats0_ssq (V51 m ρ) c)

/-! ## The first stretch: the batch mean and variance of H, and the layer's scale, shift and weights -/

theorem W53_main_v38 :
    toV81 (W53 m ρ c (Proc.devRef .tc main_v304)) = meanK (toCP (W51 m ρ c (Proc.devRef .tc main_v301))) := by
  refine (Host22.mean1 (W52 m ρ c)).trans ?_
  rw [W52_main_v36_0 m ρ c]
  rfl

theorem W53_main_v42 :
    toV81 (W53 m ρ c (Proc.devRef .tc main_v308)) = varK (toCP (W51 m ρ c (Proc.devRef .tc main_v301))) := by
  refine (Host22.var1 (W52 m ρ c)).trans ?_
  rw [W52_main_v36_0 m ρ c, W52_main_v36_1 m ρ c]
  rfl

theorem W53_main_v45 :
    toV81 (W53 m ρ c (Proc.devRef .tc main_v311)) = fun ch => toM8 (W51 m ρ c (Proc.devRef .tc main_arg4)) (7 : Fin 8) ch := by
  refine (Host22.gamma1 (W52 m ρ c)).trans ?_
  rw [W52_of_ne m ρ c main_arg4 (by decide)]

theorem W53_main_v48 :
    toV81 (W53 m ρ c (Proc.devRef .tc main_v314)) = fun ch => toM8 (W51 m ρ c (Proc.devRef .tc main_arg5)) (7 : Fin 8) ch := by
  refine (Host22.beta1 (W52 m ρ c)).trans ?_
  rw [W52_of_ne m ρ c main_arg5 (by decide)]

theorem W53_main_v51 :
    toM8 (W53 m ρ c (Proc.devRef .tc main_v317))
      = fun a b => (W51 m ρ c (Proc.devRef .tc main_arg6) : S8x8x8.Idx → EReal) (ix3 (7 : Fin 8) b a) := by
  refine (Host22.wT1 (W52 m ρ c)).trans ?_
  rw [W52_of_ne m ρ c main_arg6 (by decide)]

/-! ## Region 1: the normalised, scaled, shifted and transformed activations -/

theorem W54_main_v52 :
    toCP (W54 m ρ c (Proc.devRef .tc main_v318))
      = hwK (toCP (W51 m ρ c (Proc.devRef .tc main_v301)))
          (fun ch => toM8 (W51 m ρ c (Proc.devRef .tc main_arg4)) (7 : Fin 8) ch)
          (fun ch => toM8 (W51 m ρ c (Proc.devRef .tc main_arg5)) (7 : Fin 8) ch)
          (fun a b => (W51 m ρ c (Proc.devRef .tc main_arg6) : S8x8x8.Idx → EReal) (ix3 (7 : Fin 8) b a)) := by
  refine (congrArg toCP (W54_arr m ρ c 6)).trans ((Val22.transform1_val (V53 m ρ) c).trans ?_)
  show (fun co n => ∑ ci : Fin 8, toM8 (W53 m ρ c (Proc.devRef .tc main_v317)) co ci
          * ((toCP (W53 m ρ c (Proc.devRef .tc main_v301)) ci n - toV81 (W53 m ρ c (Proc.devRef .tc main_v304)) ci)
              * Ideal.rsqrt (toV81 (W53 m ρ c (Proc.devRef .tc main_v308)) ci + eps)
              * toV81 (W53 m ρ c (Proc.devRef .tc main_v311)) ci
              + toV81 (W53 m ρ c (Proc.devRef .tc main_v314)) ci)) = _
  rw [W53_main_v35 m ρ c, W53_main_v38 m ρ c, W53_main_v42 m ρ c, W53_main_v45 m ρ c, W53_main_v48 m ρ c, W53_main_v51 m ρ c]
  rfl

/-! ## The stretches before region 2: the padded aggregate and the layer's bias -/

theorem W57_main_v69 :
    toCP (W57 m ρ c (Proc.devRef .tc main_v335))
      = padT (toNC (Host23.AGG (W51 m ρ c (Proc.devRef .tc main_v3)) (W51 m ρ c (Proc.devRef .tc main_v6))
          (W51 m ρ c (Proc.devRef .tc main_v26))
          (ofNC (unpadT (hwK (toCP (W51 m ρ c (Proc.devRef .tc main_v301)))
            (fun ch => toM8 (W51 m ρ c (Proc.devRef .tc main_arg4)) (7 : Fin 8) ch)
            (fun ch => toM8 (W51 m ρ c (Proc.devRef .tc main_arg5)) (7 : Fin 8) ch)
            (fun a b => (W51 m ρ c (Proc.devRef .tc main_arg6) : S8x8x8.Idx → EReal) (ix3 (7 : Fin 8) b a))))))) := by
  have h87 : W57 m ρ c (Proc.devRef .tc main_v335) = W56 m ρ c (Proc.devRef .tc main_v335) := by host_kept
  refine (congrArg toCP h87).trans ((Host23.agg2 (W54 m ρ c)).trans ?_)
  rw [W54_main_v3 m ρ c, W54_main_v6 m ρ c, W54_main_v26 m ρ c, W54_main_v52 m ρ c]

theorem W57_main_v72 :
    toV81 (W57 m ρ c (Proc.devRef .tc main_v338)) = fun ch => toM8 (W51 m ρ c (Proc.devRef .tc main_arg7)) (7 : Fin 8) ch := by
  have h75 : W56 m ρ c (Proc.devRef .tc main_arg7) = W54 m ρ c (Proc.devRef .tc main_arg7) :=
    (show W56 m ρ c (Proc.devRef .tc main_arg7) = W55 m ρ c (Proc.devRef .tc main_arg7) by host_kept).trans
      (show W55 m ρ c (Proc.devRef .tc main_arg7) = W54 m ρ c (Proc.devRef .tc main_arg7) by host_kept)
  refine (Host23.bias2 (W56 m ρ c)).trans ?_
  rw [h75, W54_main_arg7 m ρ c]

/-! ## Region 2: the residual, the aggregate and the bias, clamped and masked: the layer -/

/-- The kernel program's layer 0 is the layer's closed form at the contents it was entered with. -/
theorem layer0_step :
    toCP (W58 m ρ c (Proc.devRef .tc main_v339))
      = layerK
          (fun hw => toNC (Host23.AGG (W51 m ρ c (Proc.devRef .tc main_v3)) (W51 m ρ c (Proc.devRef .tc main_v6))
            (W51 m ρ c (Proc.devRef .tc main_v26)) (ofNC hw)))
          (toCP (W51 m ρ c (Proc.devRef .tc main_v301)))
          (fun ch => toM8 (W51 m ρ c (Proc.devRef .tc main_arg4)) (7 : Fin 8) ch)
          (fun ch => toM8 (W51 m ρ c (Proc.devRef .tc main_arg5)) (7 : Fin 8) ch)
          (fun a b => (W51 m ρ c (Proc.devRef .tc main_arg6) : S8x8x8.Idx → EReal) (ix3 (7 : Fin 8) b a))
          (fun ch => toM8 (W51 m ρ c (Proc.devRef .tc main_arg7)) (7 : Fin 8) ch) := by
  refine (congrArg toCP (W58_arr m ρ c 3)).trans ((Val23.resid2_val (V57 m ρ) c).trans ?_)
  show (fun ch n => max (toCP (W57 m ρ c (Proc.devRef .tc main_v301)) ch n + toCP (W57 m ρ c (Proc.devRef .tc main_v335)) ch n
          + toV81 (W57 m ρ c (Proc.devRef .tc main_v338)) ch) 0 * maskK n) = _
  rw [W57_main_v35 m ρ c, W57_main_v69 m ρ c, W57_main_v72 m ρ c]
  rfl

/-- The edge sources, the edge targets, the edge norm and the program's arguments hold after the layer what they
    held before it. -/
theorem layer0_kept :
    W58 m ρ c (Proc.devRef .tc main_v3) = W51 m ρ c (Proc.devRef .tc main_v3)
    ∧ W58 m ρ c (Proc.devRef .tc main_v6) = W51 m ρ c (Proc.devRef .tc main_v6)
    ∧ W58 m ρ c (Proc.devRef .tc main_v26) = W51 m ρ c (Proc.devRef .tc main_v26)
    ∧ W58 m ρ c (Proc.devRef .tc main_arg0) = W51 m ρ c (Proc.devRef .tc main_arg0)
    ∧ W58 m ρ c (Proc.devRef .tc main_arg1) = W51 m ρ c (Proc.devRef .tc main_arg1)
    ∧ W58 m ρ c (Proc.devRef .tc main_arg2) = W51 m ρ c (Proc.devRef .tc main_arg2)
    ∧ W58 m ρ c (Proc.devRef .tc main_arg3) = W51 m ρ c (Proc.devRef .tc main_arg3)
    ∧ W58 m ρ c (Proc.devRef .tc main_arg4) = W51 m ρ c (Proc.devRef .tc main_arg4)
    ∧ W58 m ρ c (Proc.devRef .tc main_arg5) = W51 m ρ c (Proc.devRef .tc main_arg5)
    ∧ W58 m ρ c (Proc.devRef .tc main_arg6) = W51 m ρ c (Proc.devRef .tc main_arg6)
    ∧ W58 m ρ c (Proc.devRef .tc main_arg7) = W51 m ρ c (Proc.devRef .tc main_arg7)
    ∧ W58 m ρ c (Proc.devRef .tc main_arg8) = W51 m ρ c (Proc.devRef .tc main_arg8)
    ∧ W58 m ρ c (Proc.devRef .tc main_arg9) = W51 m ρ c (Proc.devRef .tc main_arg9)
    ∧ W58 m ρ c (Proc.devRef .tc main_arg10) = W51 m ρ c (Proc.devRef .tc main_arg10)
    ∧ W58 m ρ c (Proc.devRef .tc main_arg11) = W51 m ρ c (Proc.devRef .tc main_arg11) :=
  ⟨W58_main_v3 m ρ c, W58_main_v6 m ρ c, W58_main_v26 m ρ c, W58_main_arg0 m ρ c, W58_main_arg1 m ρ c, W58_main_arg2 m ρ c,
    W58_main_arg3 m ρ c, W58_main_arg4 m ρ c, W58_main_arg5 m ρ c, W58_main_arg6 m ρ c, W58_main_arg7 m ρ c,
    W58_main_arg8 m ρ c, W58_main_arg9 m ρ c, W58_main_arg10 m ρ c, W58_main_arg11 m ρ c⟩

end Cert.KernelIdeal.Layer7

end
-- ==== Proof.SumsMath.lean ====
/-
  Row sums of the padded layout. Summing a row of the channel-major, zero-padded array tile by tile
  (8 tiles of 65536 lanes) is summing the channel over the nodes: the tiles' lanes enumerate the columns
  0 … 524287 once each, and the columns past the last node hold zero.
-/
import proofs.«143139_j73710228734964_1_alg».proof.Proof.Spec

noncomputable section

namespace Cert.GCN

open scoped BigOperators

/-- The tiles' lanes, as an enumeration of the columns: pair `(t, l)` goes to column `65536 · t + l`. -/
def tileEquiv : Fin 8 × Fin 65536 ≃ Fin NP :=
  finProdFinEquiv.trans (finCongr (by norm_num : 8 * 65536 = NP))

theorem tileEquiv_apply (x : Fin 8 × Fin 65536) : tileEquiv x = col x.1 x.2 := by
  apply Fin.ext
  show x.2.val + 65536 * x.1.val = 65536 * x.1.val + x.2.val
  exact Nat.add_comm _ _

/-- Tile by tile, lane by lane, is column by column. -/
theorem sum_tiles (f : Fin NP → EReal) : (∑ t : Fin 8, ∑ l : Fin 65536, f (col t l)) = ∑ n : Fin NP, f n := by
  rw [← Fintype.sum_prod_type' (fun t l => f (col t l))]
  exact Fintype.sum_equiv tileEquiv _ _ (fun x => by rw [tileEquiv_apply])

/-- A sum over `m + k` indices of a function that vanishes from index `m` on is the sum over the first `m`. -/
theorem sum_pad_aux (m k : ℕ) (g : Fin m → EReal) :
    (∑ n : Fin (m + k), (if hn : n.val < m then g ⟨n.val, hn⟩ else 0)) = ∑ n : Fin m, g n := by
  rw [Fin.sum_univ_add]
  have h1 : ∀ i : Fin m,
      (if hn : (Fin.castAdd k i).val < m then g ⟨(Fin.castAdd k i).val, hn⟩ else 0) = g i := by
    intro i
    have hi : (Fin.castAdd k i).val < m := i.isLt
    rw [dif_pos hi]
    rfl
  have h2 : ∀ i : Fin k,
      (if hn : (Fin.natAdd m i).val < m then g ⟨(Fin.natAdd m i).val, hn⟩ else 0) = 0 := by
    intro i
    have hi : ¬ (Fin.natAdd m i).val < m := by
      show ¬ (m + i.val < m)
      omega
    rw [dif_neg hi]
  rw [Finset.sum_congr rfl (fun i _ => h1 i), Finset.sum_congr rfl (fun i _ => h2 i),
    Finset.sum_const_zero, add_zero]

/-- A sum over all columns of a function that vanishes past the last node is the sum over the nodes. -/
theorem sum_pad (g : Fin NN → EReal) :
    (∑ n : Fin NP, (if hn : n.val < NN then g ⟨n.val, hn⟩ else 0)) = ∑ n : Fin NN, g n :=
  sum_pad_aux NN 24288 g

theorem sumK_padT (h : ArrNC) (c : Fin 8) : sumK (padT h) c = ∑ n : Fin NN, h n c := by
  show (∑ t : Fin 8, ∑ l : Fin 65536, (fun n => padT h c n) (col t l)) = _
  rw [sum_tiles (fun n => padT h c n)]
  exact sum_pad (fun n => h n c)

theorem ssqK_padT (h : ArrNC) (c : Fin 8) : ssqK (padT h) c = ∑ n : Fin NN, h n c * h n c := by
  show (∑ t : Fin 8, ∑ l : Fin 65536, (fun n => padT h c n * padT h c n) (col t l)) = _
  rw [sum_tiles (fun n => padT h c n * padT h c n), ← sum_pad (fun n => h n c * h n c)]
  refine Finset.sum_congr rfl (fun n _ => ?_)
  show (if hn : n.val < NN then h ⟨n.val, hn⟩ c else 0) * (if hn : n.val < NN then h ⟨n.val, hn⟩ c else 0)
      = (if hn : n.val < NN then h ⟨n.val, hn⟩ c * h ⟨n.val, hn⟩ c else 0)
  by_cases hn : n.val < NN
  · rw [dif_pos hn, dif_pos hn]
  · rw [dif_neg hn, dif_neg hn, mul_zero]

end Cert.GCN

end
-- ==== Proof.StatsMath.lean ====
/-
  The batch statistics agree. With every entry of `h` a real number: the kernel's mean of the padded layout is
  the reference's mean; the kernel's variance (mean of squares minus squared mean) is the reference's (mean of
  squared deviations): over the reals, with μ = (Σ x)/N, (Σ (x − μ)²)/N = (Σ x²)/N − μ². Both are real numbers,
  the variance is nonnegative, so variance plus epsilon is a positive real and its reciprocal square root is real.
-/
import proofs.«143139_j73710228734964_1_alg».proof.Proof.Spec
import proofs.«143139_j73710228734964_1_alg».proof.Proof.SumsMath

noncomputable section

namespace Cert.GCN

open Idealize.ShloMosaic
open scoped BigOperators

/-- A finite sum of real numbers, read in the extended reals, is the real sum. -/
theorem stats_coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- An array of real entries is the image of a real array. -/
theorem stats_exists_real (h : ArrNC) (hh : RealNC h) :
    ∃ x : Fin NN → Fin 8 → ℝ, ∀ n c, h n c = ((x n c : ℝ) : EReal) :=
  ⟨fun n c => (h n c).toReal, fun n c => (EReal.coe_toReal (hh n c).1 (hh n c).2).symm⟩

/-- The mean of a real array, as a real. -/
theorem stats_meanR_eq (h : ArrNC) (x : Fin NN → Fin 8 → ℝ) (hx : ∀ n c, h n c = ((x n c : ℝ) : EReal)) (c : Fin 8) :
    meanR h c = (((∑ n : Fin NN, x n c) * (1 / 500000) : ℝ) : EReal) := by
  unfold meanR nN
  rw [Ideal.div_coe (by norm_num)]
  simp only [hx]
  rw [stats_coe_sum, ← EReal.coe_mul]

/-- The variance of a real array, as a real. -/
theorem stats_varR_eq (h : ArrNC) (x : Fin NN → Fin 8 → ℝ) (hx : ∀ n c, h n c = ((x n c : ℝ) : EReal)) (c : Fin 8) :
    varR h c = (((∑ n : Fin NN, (x n c - (∑ m : Fin NN, x m c) * (1 / 500000))
      * (x n c - (∑ m : Fin NN, x m c) * (1 / 500000))) * (1 / 500000) : ℝ) : EReal) := by
  unfold varR nN
  rw [Ideal.div_coe (by norm_num), stats_meanR_eq h x hx c]
  simp only [hx, ← EReal.coe_sub, ← EReal.coe_mul]
  rw [stats_coe_sum, ← EReal.coe_mul]

/-- Over the reals: the mean of the squared deviations is the mean of the squares minus the squared mean. -/
theorem stats_var_identity (f : Fin NN → ℝ) :
    (∑ n : Fin NN, (f n - (∑ m : Fin NN, f m) * (1 / 500000)) * (f n - (∑ m : Fin NN, f m) * (1 / 500000)))
        * (1 / 500000)
      = (∑ n : Fin NN, f n * f n) * (1 / 500000)
        - ((∑ m : Fin NN, f m) * (1 / 500000)) * ((∑ m : Fin NN, f m) * (1 / 500000)) := by
  generalize hS : (∑ m : Fin NN, f m) = S
  have h1 : ∀ n, (f n - S * (1 / 500000)) * (f n - S * (1 / 500000))
      = f n * f n - (2 * (S * (1 / 500000))) * f n + (S * (1 / 500000)) * (S * (1 / 500000)) := fun n => by ring
  simp only [h1]
  rw [Finset.sum_add_distrib, Finset.sum_sub_distrib, ← Finset.mul_sum, Finset.sum_const, Finset.card_univ,
    Fintype.card_fin, hS, nsmul_eq_mul]
  have hN : ((NN : ℕ) : ℝ) = 500000 := by norm_num
  rw [hN]
  ring

/-- The epsilon's word denotes a positive real. -/
theorem eps_pos : ∃ r : ℝ, 0 < r ∧ eps = (r : EReal) := by
  refine ⟨10995116 * (2 : ℝ) ^ (-40 : ℤ), by positivity, ?_⟩
  simp [eps, Ideal.ofBits, Ideal.ieee, -EReal.coe_mul]

theorem meanR_real (h : ArrNC) (hh : RealNC h) : RealV (meanR h) := by
  obtain ⟨x, hx⟩ := stats_exists_real h hh
  intro c
  rw [stats_meanR_eq h x hx c]
  exact ⟨EReal.coe_ne_top _, EReal.coe_ne_bot _⟩

theorem meanK_padT (h : ArrNC) (c : Fin 8) : meanK (padT h) c = meanR h c := by
  unfold meanK meanR
  rw [sumK_padT]

/-- The reference's variance is a nonnegative real. -/
theorem varR_nonneg_real (h : ArrNC) (hh : RealNC h) (c : Fin 8) : ∃ r : ℝ, 0 ≤ r ∧ varR h c = (r : EReal) := by
  obtain ⟨x, hx⟩ := stats_exists_real h hh
  exact ⟨_, mul_nonneg (Finset.sum_nonneg (fun n _ => mul_self_nonneg _)) (by norm_num), stats_varR_eq h x hx c⟩

theorem varK_padT (h : ArrNC) (hh : RealNC h) (c : Fin 8) : varK (padT h) c = varR h c := by
  obtain ⟨x, hx⟩ := stats_exists_real h hh
  rw [stats_varR_eq h x hx c, stats_var_identity]
  unfold varK
  rw [meanK_padT, stats_meanR_eq h x hx c, ssqK_padT]
  unfold nN
  rw [Ideal.div_coe (by norm_num)]
  simp only [hx, ← EReal.coe_mul]
  rw [stats_coe_sum, ← EReal.coe_mul, ← EReal.coe_sub]

/-- The normalising factor is a real number. -/
theorem rsqrt_var_real (h : ArrNC) (hh : RealNC h) (c : Fin 8) : IsReal (Ideal.rsqrt (varR h c + eps)) := by
  obtain ⟨r, hr0, hr⟩ := varR_nonneg_real h hh c
  obtain ⟨e, he0, he⟩ := eps_pos
  have hpos : 0 < r + e := add_pos_of_nonneg_of_pos hr0 he0
  rw [hr, he, ← EReal.coe_add, Ideal.rsqrt_coe, if_neg (not_lt.mpr hpos.le), if_neg hpos.ne']
  exact ⟨EReal.coe_ne_top _, EReal.coe_ne_bot _⟩

end Cert.GCN

end
-- ==== Proof.LayerMath.lean ====
/-
  One layer: the kernel's, on the padded transpose of `h`, is the padded transpose of the reference's.
  On a node's column: the statistics agree (Proof/StatsMath.lean), so the normalised entries agree, the
  linear map agrees (`wT` is the transpose of `w`; the product commutes), the aggregation is one function of
  equal arrays, `(h + agg) + b = h + (agg + b)`, and the mask is one. On a padding column the mask is zero.
  Every entry of the result is real: sums, products and maxima of reals, the aggregation by hypothesis.
-/
import proofs.«143139_j73710228734964_1_alg».proof.Proof.Spec
import proofs.«143139_j73710228734964_1_alg».proof.Proof.SumsMath
import proofs.«143139_j73710228734964_1_alg».proof.Proof.StatsMath

noncomputable section

namespace Cert.GCN

open Idealize.ShloMosaic
open scoped BigOperators

/-- A real extended real is the image of a real number. -/
theorem layerReal_exists {x : EReal} (hx : IsReal x) : ∃ r : ℝ, x = (r : EReal) :=
  ⟨x.toReal, (EReal.coe_toReal hx.1 hx.2).symm⟩

/-- The image of a real number is real. -/
theorem layerReal_coe (r : ℝ) : IsReal (r : EReal) := ⟨EReal.coe_ne_top r, EReal.coe_ne_bot r⟩

/-- Zero is real. -/
theorem layerReal_zero : IsReal (0 : EReal) := by
  have := layerReal_coe 0
  simpa using this

/-- Sums, differences and products of reals are real. -/
theorem layerReal_add {x y : EReal} (hx : IsReal x) (hy : IsReal y) : IsReal (x + y) := by
  obtain ⟨r, rfl⟩ := layerReal_exists hx
  obtain ⟨s, rfl⟩ := layerReal_exists hy
  rw [← EReal.coe_add]; exact layerReal_coe _

theorem layerReal_sub {x y : EReal} (hx : IsReal x) (hy : IsReal y) : IsReal (x - y) := by
  obtain ⟨r, rfl⟩ := layerReal_exists hx
  obtain ⟨s, rfl⟩ := layerReal_exists hy
  rw [← EReal.coe_sub]; exact layerReal_coe _

theorem layerReal_mul {x y : EReal} (hx : IsReal x) (hy : IsReal y) : IsReal (x * y) := by
  obtain ⟨r, rfl⟩ := layerReal_exists hx
  obtain ⟨s, rfl⟩ := layerReal_exists hy
  rw [← EReal.coe_mul]; exact layerReal_coe _

/-- The maximum of a real and zero is real. -/
theorem layerReal_max_zero {x : EReal} (hx : IsReal x) : IsReal (max x 0) := by
  rcases max_choice x 0 with h | h
  · rw [h]; exact hx
  · rw [h]; exact layerReal_zero

/-- A finite sum of reals is real. -/
theorem layerReal_sum {ι : Type} (s : Finset ι) (f : ι → EReal) (hf : ∀ i ∈ s, IsReal (f i)) :
    IsReal (∑ i ∈ s, f i) := by
  classical
  induction s using Finset.induction_on with
  | empty => simpa using layerReal_zero
  | insert a s ha ih =>
    rw [Finset.sum_insert ha]
    exact layerReal_add (hf a (Finset.mem_insert_self a s))
      (ih (fun i hi => hf i (Finset.mem_insert_of_mem hi)))

theorem unpadT_padT (h : ArrNC) : unpadT (padT h) = h := by
  funext n c
  unfold unpadT padT
  simp only [dif_pos n.isLt]

/-- The normalised entries agree on a node's column. -/
theorem hbK_padT (h : ArrNC) (hh : RealNC h) (γ β : Vec8) (c : Fin 8) (n : Fin NN) :
    hbK (padT h) γ β c ⟨n.val, Nat.lt_trans n.isLt (by decide)⟩ = hbR h γ β n c := by
  unfold hbK hbR
  rw [meanK_padT, varK_padT h hh]
  have : padT h c ⟨n.val, Nat.lt_trans n.isLt (by decide)⟩ = h n c := by
    unfold padT
    simp only [dif_pos n.isLt]
  rw [this]

theorem hbR_real (h : ArrNC) (hh : RealNC h) (γ β : Vec8) (hγ : RealV γ) (hβ : RealV β) : RealNC (hbR h γ β) := by
  intro n c
  unfold hbR
  exact layerReal_add (layerReal_mul (layerReal_mul (layerReal_sub (hh n c) (meanR_real h hh c)) (rsqrt_var_real h hh c)) (hγ c)) (hβ c)

/-- The linear maps agree, node-major. -/
theorem hwK_padT (h : ArrNC) (hh : RealNC h) (γ β : Vec8) (w wT : Mat8) (hwT : ∀ a c, wT a c = w c a) :
    unpadT (hwK (padT h) γ β wT) = hwR h γ β w := by
  funext n co
  unfold unpadT hwK hwR
  refine Finset.sum_congr rfl (fun ci _ => ?_)
  rw [hwT, mul_comm, hbK_padT h hh]

theorem hwR_real (h : ArrNC) (hh : RealNC h) (γ β : Vec8) (hγ : RealV γ) (hβ : RealV β) (w : Mat8) (hw : RealM w) :
    RealNC (hwR h γ β w) := by
  intro n co
  unfold hwR
  exact layerReal_sum _ _ (fun ci _ => layerReal_mul (hbR_real h hh γ β hγ hβ n ci) (hw ci co))

/-- Every entry of the reference's layer is real. -/
theorem layerR_real (A : ArrNC → ArrNC) (hA : ∀ x, RealNC x → RealNC (A x))
    (h : ArrNC) (hh : RealNC h) (γ β b : Vec8) (hγ : RealV γ) (hβ : RealV β) (hb : RealV b)
    (w : Mat8) (hw : RealM w) : RealNC (layerR A h γ β w b) := by
  intro n c
  unfold layerR
  exact layerReal_max_zero (layerReal_add (hh n c) (layerReal_add (hA _ (hwR_real h hh γ β hγ hβ w hw) n c) (hb c)))

/-- THE LAYER STEP. -/
theorem layer_step (A : ArrNC → ArrNC) (hA : ∀ x, RealNC x → RealNC (A x))
    (h : ArrNC) (hh : RealNC h) (γ β b : Vec8) (hγ : RealV γ) (hβ : RealV β) (hb : RealV b)
    (w wT : Mat8) (hw : RealM w) (hwT : ∀ a c, wT a c = w c a) :
    layerK A (padT h) γ β wT b = padT (layerR A h γ β w b) ∧ RealNC (layerR A h γ β w b) := by
  refine ⟨?_, layerR_real A hA h hh γ β b hγ hβ hb w hw⟩
  funext c n
  unfold layerK
  rw [hwK_padT h hh γ β w wT hwT]
  by_cases hn : n.val < NN
  · have hm : maskK n = 1 := by unfold maskK; rw [if_pos hn]
    have hp : ∀ g : ArrNC, padT g c n = g ⟨n.val, hn⟩ c := by
      intro g; unfold padT; rw [dif_pos hn]
    rw [hm, mul_one, hp, hp, hp]
    unfold layerR
    rw [add_assoc]
  · have hm : maskK n = 0 := by unfold maskK; rw [if_neg hn]
    have hp : ∀ g : ArrNC, padT g c n = 0 := by
      intro g; unfold padT; rw [dif_neg hn]
    rw [hm, mul_zero, hp]

end Cert.GCN

end
-- ==== Proof.ChainMath.lean ====
/-
  The chain of layers. Both programs apply the same layer several times, each time with its own batch
  norm scale and shift, weight matrix and bias: the reference to a node-major array, the kernel to the
  channel-major, zero-padded array, with the weight matrix transposed. Here the layers' parameters are
  sequences indexed by the layer's number and the two chains are defined by recursion on the number of
  layers applied. By induction on that number, one layer at a time: if the kernel's chain starts at the
  padded transpose of the reference's start, whose entries and whose parameters are real numbers, then
  after any number of layers the kernel's array is the padded transpose of the reference's, whose entries
  are real again.
-/
import proofs.«143139_j73710228734964_1_alg».proof.Proof.Spec
import proofs.«143139_j73710228734964_1_alg».proof.Proof.SumsMath
import proofs.«143139_j73710228734964_1_alg».proof.Proof.StatsMath
import proofs.«143139_j73710228734964_1_alg».proof.Proof.LayerMath

noncomputable section

namespace Cert.GCN

open Idealize.ShloMosaic

/-- The parameters of the layers, by the layer's number: the batch norm's scale `γ` and shift `β`, the
    bias `b`, and the weight matrix `w` in the reference's `[in, out]` layout. -/
structure LayerParams where
  γ : ℕ → Vec8
  β : ℕ → Vec8
  b : ℕ → Vec8
  w : ℕ → Mat8

/-- Every entry of every layer's parameters is a real number. -/
def LayerParams.Real (P : LayerParams) : Prop :=
  ∀ j, RealV (P.γ j) ∧ RealV (P.β j) ∧ RealV (P.b j) ∧ RealM (P.w j)

/-- The reference's array after `j` layers, from `h0`: layer `j` (counted from zero) takes the
    parameters numbered `j`. -/
def iterR (A : ArrNC → ArrNC) (P : LayerParams) (h0 : ArrNC) : ℕ → ArrNC
  | 0 => h0
  | j + 1 => layerR A (iterR A P h0 j) (P.γ j) (P.β j) (P.w j) (P.b j)

/-- The kernel's array after `j` layers, from `H0`: the same parameters, the weight matrix transposed
    into the kernel's `[out, in]` layout. -/
def iterK (A : ArrNC → ArrNC) (P : LayerParams) (H0 : ArrCP) : ℕ → ArrCP
  | 0 => H0
  | j + 1 => layerK A (iterK A P H0 j) (P.γ j) (P.β j) (fun a c => P.w j c a) (P.b j)

/-! ## The unfolding equations -/

theorem iterR_zero (A : ArrNC → ArrNC) (P : LayerParams) (h0 : ArrNC) : iterR A P h0 0 = h0 := rfl

theorem iterR_succ (A : ArrNC → ArrNC) (P : LayerParams) (h0 : ArrNC) (j : ℕ) :
    iterR A P h0 (j + 1) = layerR A (iterR A P h0 j) (P.γ j) (P.β j) (P.w j) (P.b j) := rfl

theorem iterK_zero (A : ArrNC → ArrNC) (P : LayerParams) (H0 : ArrCP) : iterK A P H0 0 = H0 := rfl

theorem iterK_succ (A : ArrNC → ArrNC) (P : LayerParams) (H0 : ArrCP) (j : ℕ) :
    iterK A P H0 (j + 1) = layerK A (iterK A P H0 j) (P.γ j) (P.β j) (fun a c => P.w j c a) (P.b j) := rfl

/-! ## The two chains agree -/

/-- After any number of layers the kernel's array is the padded transpose of the reference's, and the
    reference's entries are real: nothing to do before the first layer; one more layer is one layer's
    statement at the arrays reached so far, the kernel's weight matrix being the transpose by definition. -/
theorem iter_eq (A : ArrNC → ArrNC) (hA : ∀ x, RealNC x → RealNC (A x)) (P : LayerParams) (hP : P.Real)
    (h0 : ArrNC) (hh0 : RealNC h0) :
    ∀ j, iterK A P (padT h0) j = padT (iterR A P h0 j) ∧ RealNC (iterR A P h0 j) := by
  intro j
  induction j with
  | zero => exact ⟨rfl, hh0⟩
  | succ j ih =>
    obtain ⟨hK, hR⟩ := ih
    obtain ⟨hγ, hβ, hb, hw⟩ := hP j
    rw [iterK_succ, iterR_succ, hK]
    exact layer_step A hA (iterR A P h0 j) hR (P.γ j) (P.β j) (P.b j) hγ hβ hb (P.w j)
      (fun a c => P.w j c a) hw (fun _ _ => rfl)

/-- The first `N` columns of the kernel's array after `j` layers, node-major, are the reference's array. -/
theorem iter_unpad (A : ArrNC → ArrNC) (hA : ∀ x, RealNC x → RealNC (A x)) (P : LayerParams) (hP : P.Real)
    (h0 : ArrNC) (hh0 : RealNC h0) (j : ℕ) : unpadT (iterK A P (padT h0) j) = iterR A P h0 j := by
  rw [(iter_eq A hA P hP h0 hh0 j).1, unpadT_padT]

end Cert.GCN

end
-- ==== Proof.KChain.lean ====
/-
  The kernel program's eight layers as one chain. Layer j takes the channel-major activations at its stats
  region's entry to those at the next layer's entry by one layer step (Proof/KLayer<j>.lean), with the
  aggregation and the layer's parameters read off buffers that no layer writes (edge sources, targets and
  norm; the arguments): so all eight steps are steps of ONE aggregation A and ONE parameter family P,
  read at the first layer's entry, and the activations after j layers are the j-fold iterate of the step.
-/
import proofs.«143139_j73710228734964_1_alg».proof.Proof.KLayer0
import proofs.«143139_j73710228734964_1_alg».proof.Proof.KLayer1
import proofs.«143139_j73710228734964_1_alg».proof.Proof.KLayer2
import proofs.«143139_j73710228734964_1_alg».proof.Proof.KLayer3
import proofs.«143139_j73710228734964_1_alg».proof.Proof.KLayer4
import proofs.«143139_j73710228734964_1_alg».proof.Proof.KLayer5
import proofs.«143139_j73710228734964_1_alg».proof.Proof.KLayer6
import proofs.«143139_j73710228734964_1_alg».proof.Proof.KLayer7
import proofs.«143139_j73710228734964_1_alg».proof.Proof.ChainMath

noncomputable section

namespace Cert.KernelIdeal.Chain

open Cert.KernelIdeal Cert.KernelIdeal.Gen Cert.KernelIdeal.GenP Cert.GCN
open Idealize.ShloMosaic Idealize.ShloMosaic.TcCoe Idealize.ShloMosaic.ValueIdx

variable (m : (ℓ : Loc nD τ sig) → Buf (Elt Ideal) ℓ) (ρ : Dev nD → PrngReg) (c : Dev nD)

/-- The layer's row of a parameter array, from the layer's number. -/
abbrev row (j : ℕ) : Fin 8 := Fin.ofNat 8 j

/-- The aggregation, with the edge sources, targets and norm as the first layer finds them. -/
def A : ArrNC → ArrNC := fun hw =>
  toNC (Host2.AGG (W2 m ρ c (Proc.devRef .tc main_v3)) (W2 m ρ c (Proc.devRef .tc main_v6)) (W2 m ρ c (Proc.devRef .tc main_v26)) (ofNC hw))

/-- The layers' parameters, rows of the argument arrays as the first layer finds them. -/
def P : LayerParams where
  γ j := fun ch => toM8 (W2 m ρ c (Proc.devRef .tc main_arg4)) (row j) ch
  β j := fun ch => toM8 (W2 m ρ c (Proc.devRef .tc main_arg5)) (row j) ch
  b j := fun ch => toM8 (W2 m ρ c (Proc.devRef .tc main_arg7)) (row j) ch
  w j := fun a b => (W2 m ρ c (Proc.devRef .tc main_arg6) : S8x8x8.Idx → EReal) (ix3 (row j) a b)

/-! ## What no layer writes, read at each layer's entry -/

theorem kept1_main_v3 : W9 m ρ c (Proc.devRef .tc main_v3) = W2 m ρ c (Proc.devRef .tc main_v3) := Layer0.W9_main_v3 m ρ c
theorem kept1_main_v6 : W9 m ρ c (Proc.devRef .tc main_v6) = W2 m ρ c (Proc.devRef .tc main_v6) := Layer0.W9_main_v6 m ρ c
theorem kept1_main_v26 : W9 m ρ c (Proc.devRef .tc main_v26) = W2 m ρ c (Proc.devRef .tc main_v26) := Layer0.W9_main_v26 m ρ c
theorem kept1_main_arg0 : W9 m ρ c (Proc.devRef .tc main_arg0) = W2 m ρ c (Proc.devRef .tc main_arg0) := Layer0.W9_main_arg0 m ρ c
theorem kept1_main_arg1 : W9 m ρ c (Proc.devRef .tc main_arg1) = W2 m ρ c (Proc.devRef .tc main_arg1) := Layer0.W9_main_arg1 m ρ c
theorem kept1_main_arg2 : W9 m ρ c (Proc.devRef .tc main_arg2) = W2 m ρ c (Proc.devRef .tc main_arg2) := Layer0.W9_main_arg2 m ρ c
theorem kept1_main_arg3 : W9 m ρ c (Proc.devRef .tc main_arg3) = W2 m ρ c (Proc.devRef .tc main_arg3) := Layer0.W9_main_arg3 m ρ c
theorem kept1_main_arg4 : W9 m ρ c (Proc.devRef .tc main_arg4) = W2 m ρ c (Proc.devRef .tc main_arg4) := Layer0.W9_main_arg4 m ρ c
theorem kept1_main_arg5 : W9 m ρ c (Proc.devRef .tc main_arg5) = W2 m ρ c (Proc.devRef .tc main_arg5) := Layer0.W9_main_arg5 m ρ c
theorem kept1_main_arg6 : W9 m ρ c (Proc.devRef .tc main_arg6) = W2 m ρ c (Proc.devRef .tc main_arg6) := Layer0.W9_main_arg6 m ρ c
theorem kept1_main_arg7 : W9 m ρ c (Proc.devRef .tc main_arg7) = W2 m ρ c (Proc.devRef .tc main_arg7) := Layer0.W9_main_arg7 m ρ c
theorem kept1_main_arg8 : W9 m ρ c (Proc.devRef .tc main_arg8) = W2 m ρ c (Proc.devRef .tc main_arg8) := Layer0.W9_main_arg8 m ρ c
theorem kept1_main_arg9 : W9 m ρ c (Proc.devRef .tc main_arg9) = W2 m ρ c (Proc.devRef .tc main_arg9) := Layer0.W9_main_arg9 m ρ c
theorem kept1_main_arg10 : W9 m ρ c (Proc.devRef .tc main_arg10) = W2 m ρ c (Proc.devRef .tc main_arg10) := Layer0.W9_main_arg10 m ρ c
theorem kept1_main_arg11 : W9 m ρ c (Proc.devRef .tc main_arg11) = W2 m ρ c (Proc.devRef .tc main_arg11) := Layer0.W9_main_arg11 m ρ c
theorem kept2_main_v3 : W16 m ρ c (Proc.devRef .tc main_v3) = W2 m ρ c (Proc.devRef .tc main_v3) := (Layer1.W16_main_v3 m ρ c).trans (kept1_main_v3 m ρ c)
theorem kept2_main_v6 : W16 m ρ c (Proc.devRef .tc main_v6) = W2 m ρ c (Proc.devRef .tc main_v6) := (Layer1.W16_main_v6 m ρ c).trans (kept1_main_v6 m ρ c)
theorem kept2_main_v26 : W16 m ρ c (Proc.devRef .tc main_v26) = W2 m ρ c (Proc.devRef .tc main_v26) := (Layer1.W16_main_v26 m ρ c).trans (kept1_main_v26 m ρ c)
theorem kept2_main_arg0 : W16 m ρ c (Proc.devRef .tc main_arg0) = W2 m ρ c (Proc.devRef .tc main_arg0) := (Layer1.W16_main_arg0 m ρ c).trans (kept1_main_arg0 m ρ c)
theorem kept2_main_arg1 : W16 m ρ c (Proc.devRef .tc main_arg1) = W2 m ρ c (Proc.devRef .tc main_arg1) := (Layer1.W16_main_arg1 m ρ c).trans (kept1_main_arg1 m ρ c)
theorem kept2_main_arg2 : W16 m ρ c (Proc.devRef .tc main_arg2) = W2 m ρ c (Proc.devRef .tc main_arg2) := (Layer1.W16_main_arg2 m ρ c).trans (kept1_main_arg2 m ρ c)
theorem kept2_main_arg3 : W16 m ρ c (Proc.devRef .tc main_arg3) = W2 m ρ c (Proc.devRef .tc main_arg3) := (Layer1.W16_main_arg3 m ρ c).trans (kept1_main_arg3 m ρ c)
theorem kept2_main_arg4 : W16 m ρ c (Proc.devRef .tc main_arg4) = W2 m ρ c (Proc.devRef .tc main_arg4) := (Layer1.W16_main_arg4 m ρ c).trans (kept1_main_arg4 m ρ c)
theorem kept2_main_arg5 : W16 m ρ c (Proc.devRef .tc main_arg5) = W2 m ρ c (Proc.devRef .tc main_arg5) := (Layer1.W16_main_arg5 m ρ c).trans (kept1_main_arg5 m ρ c)
theorem kept2_main_arg6 : W16 m ρ c (Proc.devRef .tc main_arg6) = W2 m ρ c (Proc.devRef .tc main_arg6) := (Layer1.W16_main_arg6 m ρ c).trans (kept1_main_arg6 m ρ c)
theorem kept2_main_arg7 : W16 m ρ c (Proc.devRef .tc main_arg7) = W2 m ρ c (Proc.devRef .tc main_arg7) := (Layer1.W16_main_arg7 m ρ c).trans (kept1_main_arg7 m ρ c)
theorem kept2_main_arg8 : W16 m ρ c (Proc.devRef .tc main_arg8) = W2 m ρ c (Proc.devRef .tc main_arg8) := (Layer1.W16_main_arg8 m ρ c).trans (kept1_main_arg8 m ρ c)
theorem kept2_main_arg9 : W16 m ρ c (Proc.devRef .tc main_arg9) = W2 m ρ c (Proc.devRef .tc main_arg9) := (Layer1.W16_main_arg9 m ρ c).trans (kept1_main_arg9 m ρ c)
theorem kept2_main_arg10 : W16 m ρ c (Proc.devRef .tc main_arg10) = W2 m ρ c (Proc.devRef .tc main_arg10) := (Layer1.W16_main_arg10 m ρ c).trans (kept1_main_arg10 m ρ c)
theorem kept2_main_arg11 : W16 m ρ c (Proc.devRef .tc main_arg11) = W2 m ρ c (Proc.devRef .tc main_arg11) := (Layer1.W16_main_arg11 m ρ c).trans (kept1_main_arg11 m ρ c)
theorem kept3_main_v3 : W23 m ρ c (Proc.devRef .tc main_v3) = W2 m ρ c (Proc.devRef .tc main_v3) := (Layer2.W23_main_v3 m ρ c).trans (kept2_main_v3 m ρ c)
theorem kept3_main_v6 : W23 m ρ c (Proc.devRef .tc main_v6) = W2 m ρ c (Proc.devRef .tc main_v6) := (Layer2.W23_main_v6 m ρ c).trans (kept2_main_v6 m ρ c)
theorem kept3_main_v26 : W23 m ρ c (Proc.devRef .tc main_v26) = W2 m ρ c (Proc.devRef .tc main_v26) := (Layer2.W23_main_v26 m ρ c).trans (kept2_main_v26 m ρ c)
theorem kept3_main_arg0 : W23 m ρ c (Proc.devRef .tc main_arg0) = W2 m ρ c (Proc.devRef .tc main_arg0) := (Layer2.W23_main_arg0 m ρ c).trans (kept2_main_arg0 m ρ c)
theorem kept3_main_arg1 : W23 m ρ c (Proc.devRef .tc main_arg1) = W2 m ρ c (Proc.devRef .tc main_arg1) := (Layer2.W23_main_arg1 m ρ c).trans (kept2_main_arg1 m ρ c)
theorem kept3_main_arg2 : W23 m ρ c (Proc.devRef .tc main_arg2) = W2 m ρ c (Proc.devRef .tc main_arg2) := (Layer2.W23_main_arg2 m ρ c).trans (kept2_main_arg2 m ρ c)
theorem kept3_main_arg3 : W23 m ρ c (Proc.devRef .tc main_arg3) = W2 m ρ c (Proc.devRef .tc main_arg3) := (Layer2.W23_main_arg3 m ρ c).trans (kept2_main_arg3 m ρ c)
theorem kept3_main_arg4 : W23 m ρ c (Proc.devRef .tc main_arg4) = W2 m ρ c (Proc.devRef .tc main_arg4) := (Layer2.W23_main_arg4 m ρ c).trans (kept2_main_arg4 m ρ c)
theorem kept3_main_arg5 : W23 m ρ c (Proc.devRef .tc main_arg5) = W2 m ρ c (Proc.devRef .tc main_arg5) := (Layer2.W23_main_arg5 m ρ c).trans (kept2_main_arg5 m ρ c)
theorem kept3_main_arg6 : W23 m ρ c (Proc.devRef .tc main_arg6) = W2 m ρ c (Proc.devRef .tc main_arg6) := (Layer2.W23_main_arg6 m ρ c).trans (kept2_main_arg6 m ρ c)
theorem kept3_main_arg7 : W23 m ρ c (Proc.devRef .tc main_arg7) = W2 m ρ c (Proc.devRef .tc main_arg7) := (Layer2.W23_main_arg7 m ρ c).trans (kept2_main_arg7 m ρ c)
theorem kept3_main_arg8 : W23 m ρ c (Proc.devRef .tc main_arg8) = W2 m ρ c (Proc.devRef .tc main_arg8) := (Layer2.W23_main_arg8 m ρ c).trans (kept2_main_arg8 m ρ c)
theorem kept3_main_arg9 : W23 m ρ c (Proc.devRef .tc main_arg9) = W2 m ρ c (Proc.devRef .tc main_arg9) := (Layer2.W23_main_arg9 m ρ c).trans (kept2_main_arg9 m ρ c)
theorem kept3_main_arg10 : W23 m ρ c (Proc.devRef .tc main_arg10) = W2 m ρ c (Proc.devRef .tc main_arg10) := (Layer2.W23_main_arg10 m ρ c).trans (kept2_main_arg10 m ρ c)
theorem kept3_main_arg11 : W23 m ρ c (Proc.devRef .tc main_arg11) = W2 m ρ c (Proc.devRef .tc main_arg11) := (Layer2.W23_main_arg11 m ρ c).trans (kept2_main_arg11 m ρ c)
theorem kept4_main_v3 : W30 m ρ c (Proc.devRef .tc main_v3) = W2 m ρ c (Proc.devRef .tc main_v3) := (Layer3.W30_main_v3 m ρ c).trans (kept3_main_v3 m ρ c)
theorem kept4_main_v6 : W30 m ρ c (Proc.devRef .tc main_v6) = W2 m ρ c (Proc.devRef .tc main_v6) := (Layer3.W30_main_v6 m ρ c).trans (kept3_main_v6 m ρ c)
theorem kept4_main_v26 : W30 m ρ c (Proc.devRef .tc main_v26) = W2 m ρ c (Proc.devRef .tc main_v26) := (Layer3.W30_main_v26 m ρ c).trans (kept3_main_v26 m ρ c)
theorem kept4_main_arg0 : W30 m ρ c (Proc.devRef .tc main_arg0) = W2 m ρ c (Proc.devRef .tc main_arg0) := (Layer3.W30_main_arg0 m ρ c).trans (kept3_main_arg0 m ρ c)
theorem kept4_main_arg1 : W30 m ρ c (Proc.devRef .tc main_arg1) = W2 m ρ c (Proc.devRef .tc main_arg1) := (Layer3.W30_main_arg1 m ρ c).trans (kept3_main_arg1 m ρ c)
theorem kept4_main_arg2 : W30 m ρ c (Proc.devRef .tc main_arg2) = W2 m ρ c (Proc.devRef .tc main_arg2) := (Layer3.W30_main_arg2 m ρ c).trans (kept3_main_arg2 m ρ c)
theorem kept4_main_arg3 : W30 m ρ c (Proc.devRef .tc main_arg3) = W2 m ρ c (Proc.devRef .tc main_arg3) := (Layer3.W30_main_arg3 m ρ c).trans (kept3_main_arg3 m ρ c)
theorem kept4_main_arg4 : W30 m ρ c (Proc.devRef .tc main_arg4) = W2 m ρ c (Proc.devRef .tc main_arg4) := (Layer3.W30_main_arg4 m ρ c).trans (kept3_main_arg4 m ρ c)
theorem kept4_main_arg5 : W30 m ρ c (Proc.devRef .tc main_arg5) = W2 m ρ c (Proc.devRef .tc main_arg5) := (Layer3.W30_main_arg5 m ρ c).trans (kept3_main_arg5 m ρ c)
theorem kept4_main_arg6 : W30 m ρ c (Proc.devRef .tc main_arg6) = W2 m ρ c (Proc.devRef .tc main_arg6) := (Layer3.W30_main_arg6 m ρ c).trans (kept3_main_arg6 m ρ c)
theorem kept4_main_arg7 : W30 m ρ c (Proc.devRef .tc main_arg7) = W2 m ρ c (Proc.devRef .tc main_arg7) := (Layer3.W30_main_arg7 m ρ c).trans (kept3_main_arg7 m ρ c)
theorem kept4_main_arg8 : W30 m ρ c (Proc.devRef .tc main_arg8) = W2 m ρ c (Proc.devRef .tc main_arg8) := (Layer3.W30_main_arg8 m ρ c).trans (kept3_main_arg8 m ρ c)
theorem kept4_main_arg9 : W30 m ρ c (Proc.devRef .tc main_arg9) = W2 m ρ c (Proc.devRef .tc main_arg9) := (Layer3.W30_main_arg9 m ρ c).trans (kept3_main_arg9 m ρ c)
theorem kept4_main_arg10 : W30 m ρ c (Proc.devRef .tc main_arg10) = W2 m ρ c (Proc.devRef .tc main_arg10) := (Layer3.W30_main_arg10 m ρ c).trans (kept3_main_arg10 m ρ c)
theorem kept4_main_arg11 : W30 m ρ c (Proc.devRef .tc main_arg11) = W2 m ρ c (Proc.devRef .tc main_arg11) := (Layer3.W30_main_arg11 m ρ c).trans (kept3_main_arg11 m ρ c)
theorem kept5_main_v3 : W37 m ρ c (Proc.devRef .tc main_v3) = W2 m ρ c (Proc.devRef .tc main_v3) := (Layer4.W37_main_v3 m ρ c).trans (kept4_main_v3 m ρ c)
theorem kept5_main_v6 : W37 m ρ c (Proc.devRef .tc main_v6) = W2 m ρ c (Proc.devRef .tc main_v6) := (Layer4.W37_main_v6 m ρ c).trans (kept4_main_v6 m ρ c)
theorem kept5_main_v26 : W37 m ρ c (Proc.devRef .tc main_v26) = W2 m ρ c (Proc.devRef .tc main_v26) := (Layer4.W37_main_v26 m ρ c).trans (kept4_main_v26 m ρ c)
theorem kept5_main_arg0 : W37 m ρ c (Proc.devRef .tc main_arg0) = W2 m ρ c (Proc.devRef .tc main_arg0) := (Layer4.W37_main_arg0 m ρ c).trans (kept4_main_arg0 m ρ c)
theorem kept5_main_arg1 : W37 m ρ c (Proc.devRef .tc main_arg1) = W2 m ρ c (Proc.devRef .tc main_arg1) := (Layer4.W37_main_arg1 m ρ c).trans (kept4_main_arg1 m ρ c)
theorem kept5_main_arg2 : W37 m ρ c (Proc.devRef .tc main_arg2) = W2 m ρ c (Proc.devRef .tc main_arg2) := (Layer4.W37_main_arg2 m ρ c).trans (kept4_main_arg2 m ρ c)
theorem kept5_main_arg3 : W37 m ρ c (Proc.devRef .tc main_arg3) = W2 m ρ c (Proc.devRef .tc main_arg3) := (Layer4.W37_main_arg3 m ρ c).trans (kept4_main_arg3 m ρ c)
theorem kept5_main_arg4 : W37 m ρ c (Proc.devRef .tc main_arg4) = W2 m ρ c (Proc.devRef .tc main_arg4) := (Layer4.W37_main_arg4 m ρ c).trans (kept4_main_arg4 m ρ c)
theorem kept5_main_arg5 : W37 m ρ c (Proc.devRef .tc main_arg5) = W2 m ρ c (Proc.devRef .tc main_arg5) := (Layer4.W37_main_arg5 m ρ c).trans (kept4_main_arg5 m ρ c)
theorem kept5_main_arg6 : W37 m ρ c (Proc.devRef .tc main_arg6) = W2 m ρ c (Proc.devRef .tc main_arg6) := (Layer4.W37_main_arg6 m ρ c).trans (kept4_main_arg6 m ρ c)
theorem kept5_main_arg7 : W37 m ρ c (Proc.devRef .tc main_arg7) = W2 m ρ c (Proc.devRef .tc main_arg7) := (Layer4.W37_main_arg7 m ρ c).trans (kept4_main_arg7 m ρ c)
theorem kept5_main_arg8 : W37 m ρ c (Proc.devRef .tc main_arg8) = W2 m ρ c (Proc.devRef .tc main_arg8) := (Layer4.W37_main_arg8 m ρ c).trans (kept4_main_arg8 m ρ c)
theorem kept5_main_arg9 : W37 m ρ c (Proc.devRef .tc main_arg9) = W2 m ρ c (Proc.devRef .tc main_arg9) := (Layer4.W37_main_arg9 m ρ c).trans (kept4_main_arg9 m ρ c)
theorem kept5_main_arg10 : W37 m ρ c (Proc.devRef .tc main_arg10) = W2 m ρ c (Proc.devRef .tc main_arg10) := (Layer4.W37_main_arg10 m ρ c).trans (kept4_main_arg10 m ρ c)
theorem kept5_main_arg11 : W37 m ρ c (Proc.devRef .tc main_arg11) = W2 m ρ c (Proc.devRef .tc main_arg11) := (Layer4.W37_main_arg11 m ρ c).trans (kept4_main_arg11 m ρ c)
theorem kept6_main_v3 : W44 m ρ c (Proc.devRef .tc main_v3) = W2 m ρ c (Proc.devRef .tc main_v3) := (Layer5.W44_main_v3 m ρ c).trans (kept5_main_v3 m ρ c)
theorem kept6_main_v6 : W44 m ρ c (Proc.devRef .tc main_v6) = W2 m ρ c (Proc.devRef .tc main_v6) := (Layer5.W44_main_v6 m ρ c).trans (kept5_main_v6 m ρ c)
theorem kept6_main_v26 : W44 m ρ c (Proc.devRef .tc main_v26) = W2 m ρ c (Proc.devRef .tc main_v26) := (Layer5.W44_main_v26 m ρ c).trans (kept5_main_v26 m ρ c)
theorem kept6_main_arg0 : W44 m ρ c (Proc.devRef .tc main_arg0) = W2 m ρ c (Proc.devRef .tc main_arg0) := (Layer5.W44_main_arg0 m ρ c).trans (kept5_main_arg0 m ρ c)
theorem kept6_main_arg1 : W44 m ρ c (Proc.devRef .tc main_arg1) = W2 m ρ c (Proc.devRef .tc main_arg1) := (Layer5.W44_main_arg1 m ρ c).trans (kept5_main_arg1 m ρ c)
theorem kept6_main_arg2 : W44 m ρ c (Proc.devRef .tc main_arg2) = W2 m ρ c (Proc.devRef .tc main_arg2) := (Layer5.W44_main_arg2 m ρ c).trans (kept5_main_arg2 m ρ c)
theorem kept6_main_arg3 : W44 m ρ c (Proc.devRef .tc main_arg3) = W2 m ρ c (Proc.devRef .tc main_arg3) := (Layer5.W44_main_arg3 m ρ c).trans (kept5_main_arg3 m ρ c)
theorem kept6_main_arg4 : W44 m ρ c (Proc.devRef .tc main_arg4) = W2 m ρ c (Proc.devRef .tc main_arg4) := (Layer5.W44_main_arg4 m ρ c).trans (kept5_main_arg4 m ρ c)
theorem kept6_main_arg5 : W44 m ρ c (Proc.devRef .tc main_arg5) = W2 m ρ c (Proc.devRef .tc main_arg5) := (Layer5.W44_main_arg5 m ρ c).trans (kept5_main_arg5 m ρ c)
theorem kept6_main_arg6 : W44 m ρ c (Proc.devRef .tc main_arg6) = W2 m ρ c (Proc.devRef .tc main_arg6) := (Layer5.W44_main_arg6 m ρ c).trans (kept5_main_arg6 m ρ c)
theorem kept6_main_arg7 : W44 m ρ c (Proc.devRef .tc main_arg7) = W2 m ρ c (Proc.devRef .tc main_arg7) := (Layer5.W44_main_arg7 m ρ c).trans (kept5_main_arg7 m ρ c)
theorem kept6_main_arg8 : W44 m ρ c (Proc.devRef .tc main_arg8) = W2 m ρ c (Proc.devRef .tc main_arg8) := (Layer5.W44_main_arg8 m ρ c).trans (kept5_main_arg8 m ρ c)
theorem kept6_main_arg9 : W44 m ρ c (Proc.devRef .tc main_arg9) = W2 m ρ c (Proc.devRef .tc main_arg9) := (Layer5.W44_main_arg9 m ρ c).trans (kept5_main_arg9 m ρ c)
theorem kept6_main_arg10 : W44 m ρ c (Proc.devRef .tc main_arg10) = W2 m ρ c (Proc.devRef .tc main_arg10) := (Layer5.W44_main_arg10 m ρ c).trans (kept5_main_arg10 m ρ c)
theorem kept6_main_arg11 : W44 m ρ c (Proc.devRef .tc main_arg11) = W2 m ρ c (Proc.devRef .tc main_arg11) := (Layer5.W44_main_arg11 m ρ c).trans (kept5_main_arg11 m ρ c)
theorem kept7_main_v3 : W51 m ρ c (Proc.devRef .tc main_v3) = W2 m ρ c (Proc.devRef .tc main_v3) := (Layer6.W51_main_v3 m ρ c).trans (kept6_main_v3 m ρ c)
theorem kept7_main_v6 : W51 m ρ c (Proc.devRef .tc main_v6) = W2 m ρ c (Proc.devRef .tc main_v6) := (Layer6.W51_main_v6 m ρ c).trans (kept6_main_v6 m ρ c)
theorem kept7_main_v26 : W51 m ρ c (Proc.devRef .tc main_v26) = W2 m ρ c (Proc.devRef .tc main_v26) := (Layer6.W51_main_v26 m ρ c).trans (kept6_main_v26 m ρ c)
theorem kept7_main_arg0 : W51 m ρ c (Proc.devRef .tc main_arg0) = W2 m ρ c (Proc.devRef .tc main_arg0) := (Layer6.W51_main_arg0 m ρ c).trans (kept6_main_arg0 m ρ c)
theorem kept7_main_arg1 : W51 m ρ c (Proc.devRef .tc main_arg1) = W2 m ρ c (Proc.devRef .tc main_arg1) := (Layer6.W51_main_arg1 m ρ c).trans (kept6_main_arg1 m ρ c)
theorem kept7_main_arg2 : W51 m ρ c (Proc.devRef .tc main_arg2) = W2 m ρ c (Proc.devRef .tc main_arg2) := (Layer6.W51_main_arg2 m ρ c).trans (kept6_main_arg2 m ρ c)
theorem kept7_main_arg3 : W51 m ρ c (Proc.devRef .tc main_arg3) = W2 m ρ c (Proc.devRef .tc main_arg3) := (Layer6.W51_main_arg3 m ρ c).trans (kept6_main_arg3 m ρ c)
theorem kept7_main_arg4 : W51 m ρ c (Proc.devRef .tc main_arg4) = W2 m ρ c (Proc.devRef .tc main_arg4) := (Layer6.W51_main_arg4 m ρ c).trans (kept6_main_arg4 m ρ c)
theorem kept7_main_arg5 : W51 m ρ c (Proc.devRef .tc main_arg5) = W2 m ρ c (Proc.devRef .tc main_arg5) := (Layer6.W51_main_arg5 m ρ c).trans (kept6_main_arg5 m ρ c)
theorem kept7_main_arg6 : W51 m ρ c (Proc.devRef .tc main_arg6) = W2 m ρ c (Proc.devRef .tc main_arg6) := (Layer6.W51_main_arg6 m ρ c).trans (kept6_main_arg6 m ρ c)
theorem kept7_main_arg7 : W51 m ρ c (Proc.devRef .tc main_arg7) = W2 m ρ c (Proc.devRef .tc main_arg7) := (Layer6.W51_main_arg7 m ρ c).trans (kept6_main_arg7 m ρ c)
theorem kept7_main_arg8 : W51 m ρ c (Proc.devRef .tc main_arg8) = W2 m ρ c (Proc.devRef .tc main_arg8) := (Layer6.W51_main_arg8 m ρ c).trans (kept6_main_arg8 m ρ c)
theorem kept7_main_arg9 : W51 m ρ c (Proc.devRef .tc main_arg9) = W2 m ρ c (Proc.devRef .tc main_arg9) := (Layer6.W51_main_arg9 m ρ c).trans (kept6_main_arg9 m ρ c)
theorem kept7_main_arg10 : W51 m ρ c (Proc.devRef .tc main_arg10) = W2 m ρ c (Proc.devRef .tc main_arg10) := (Layer6.W51_main_arg10 m ρ c).trans (kept6_main_arg10 m ρ c)
theorem kept7_main_arg11 : W51 m ρ c (Proc.devRef .tc main_arg11) = W2 m ρ c (Proc.devRef .tc main_arg11) := (Layer6.W51_main_arg11 m ρ c).trans (kept6_main_arg11 m ρ c)
theorem kept8_main_v3 : W58 m ρ c (Proc.devRef .tc main_v3) = W2 m ρ c (Proc.devRef .tc main_v3) := (Layer7.W58_main_v3 m ρ c).trans (kept7_main_v3 m ρ c)
theorem kept8_main_v6 : W58 m ρ c (Proc.devRef .tc main_v6) = W2 m ρ c (Proc.devRef .tc main_v6) := (Layer7.W58_main_v6 m ρ c).trans (kept7_main_v6 m ρ c)
theorem kept8_main_v26 : W58 m ρ c (Proc.devRef .tc main_v26) = W2 m ρ c (Proc.devRef .tc main_v26) := (Layer7.W58_main_v26 m ρ c).trans (kept7_main_v26 m ρ c)
theorem kept8_main_arg0 : W58 m ρ c (Proc.devRef .tc main_arg0) = W2 m ρ c (Proc.devRef .tc main_arg0) := (Layer7.W58_main_arg0 m ρ c).trans (kept7_main_arg0 m ρ c)
theorem kept8_main_arg1 : W58 m ρ c (Proc.devRef .tc main_arg1) = W2 m ρ c (Proc.devRef .tc main_arg1) := (Layer7.W58_main_arg1 m ρ c).trans (kept7_main_arg1 m ρ c)
theorem kept8_main_arg2 : W58 m ρ c (Proc.devRef .tc main_arg2) = W2 m ρ c (Proc.devRef .tc main_arg2) := (Layer7.W58_main_arg2 m ρ c).trans (kept7_main_arg2 m ρ c)
theorem kept8_main_arg3 : W58 m ρ c (Proc.devRef .tc main_arg3) = W2 m ρ c (Proc.devRef .tc main_arg3) := (Layer7.W58_main_arg3 m ρ c).trans (kept7_main_arg3 m ρ c)
theorem kept8_main_arg4 : W58 m ρ c (Proc.devRef .tc main_arg4) = W2 m ρ c (Proc.devRef .tc main_arg4) := (Layer7.W58_main_arg4 m ρ c).trans (kept7_main_arg4 m ρ c)
theorem kept8_main_arg5 : W58 m ρ c (Proc.devRef .tc main_arg5) = W2 m ρ c (Proc.devRef .tc main_arg5) := (Layer7.W58_main_arg5 m ρ c).trans (kept7_main_arg5 m ρ c)
theorem kept8_main_arg6 : W58 m ρ c (Proc.devRef .tc main_arg6) = W2 m ρ c (Proc.devRef .tc main_arg6) := (Layer7.W58_main_arg6 m ρ c).trans (kept7_main_arg6 m ρ c)
theorem kept8_main_arg7 : W58 m ρ c (Proc.devRef .tc main_arg7) = W2 m ρ c (Proc.devRef .tc main_arg7) := (Layer7.W58_main_arg7 m ρ c).trans (kept7_main_arg7 m ρ c)
theorem kept8_main_arg8 : W58 m ρ c (Proc.devRef .tc main_arg8) = W2 m ρ c (Proc.devRef .tc main_arg8) := (Layer7.W58_main_arg8 m ρ c).trans (kept7_main_arg8 m ρ c)
theorem kept8_main_arg9 : W58 m ρ c (Proc.devRef .tc main_arg9) = W2 m ρ c (Proc.devRef .tc main_arg9) := (Layer7.W58_main_arg9 m ρ c).trans (kept7_main_arg9 m ρ c)
theorem kept8_main_arg10 : W58 m ρ c (Proc.devRef .tc main_arg10) = W2 m ρ c (Proc.devRef .tc main_arg10) := (Layer7.W58_main_arg10 m ρ c).trans (kept7_main_arg10 m ρ c)
theorem kept8_main_arg11 : W58 m ρ c (Proc.devRef .tc main_arg11) = W2 m ρ c (Proc.devRef .tc main_arg11) := (Layer7.W58_main_arg11 m ρ c).trans (kept7_main_arg11 m ρ c)

/-! ## The chain -/

theorem chain0 : toCP (W2 m ρ c (Proc.devRef .tc main_v35)) = iterK (A m ρ c) (P m ρ c) (toCP (W2 m ρ c (Proc.devRef .tc main_v35))) 0 := rfl

/-- Layer 0. -/
theorem chain1 : toCP (W9 m ρ c (Proc.devRef .tc main_v73)) = iterK (A m ρ c) (P m ρ c) (toCP (W2 m ρ c (Proc.devRef .tc main_v35))) 1 := by
  rw [iterK_succ, ← chain0 m ρ c, Layer0.layer0_step m ρ c]
  unfold A P
  generalize W2 m ρ c (Proc.devRef .tc main_v3) = s; generalize W2 m ρ c (Proc.devRef .tc main_v6) = d; generalize W2 m ρ c (Proc.devRef .tc main_v26) = nrm
  generalize W2 m ρ c (Proc.devRef .tc main_arg4) = g4; generalize W2 m ρ c (Proc.devRef .tc main_arg5) = g5; generalize W2 m ρ c (Proc.devRef .tc main_arg6) = g6; generalize W2 m ρ c (Proc.devRef .tc main_arg7) = g7
  generalize toCP (W2 m ρ c (Proc.devRef .tc main_v35)) = H
  rfl

/-- Layer 1. -/
theorem chain2 : toCP (W16 m ρ c (Proc.devRef .tc main_v111)) = iterK (A m ρ c) (P m ρ c) (toCP (W2 m ρ c (Proc.devRef .tc main_v35))) 2 := by
  rw [iterK_succ, ← chain1 m ρ c, Layer1.layer0_step m ρ c]
  rw [kept1_main_v3 m ρ c, kept1_main_v6 m ρ c, kept1_main_v26 m ρ c, kept1_main_arg4 m ρ c, kept1_main_arg5 m ρ c, kept1_main_arg6 m ρ c, kept1_main_arg7 m ρ c]
  unfold A P
  generalize W2 m ρ c (Proc.devRef .tc main_v3) = s; generalize W2 m ρ c (Proc.devRef .tc main_v6) = d; generalize W2 m ρ c (Proc.devRef .tc main_v26) = nrm
  generalize W2 m ρ c (Proc.devRef .tc main_arg4) = g4; generalize W2 m ρ c (Proc.devRef .tc main_arg5) = g5; generalize W2 m ρ c (Proc.devRef .tc main_arg6) = g6; generalize W2 m ρ c (Proc.devRef .tc main_arg7) = g7
  generalize toCP (W9 m ρ c (Proc.devRef .tc main_v73)) = H
  rfl

/-- Layer 2. -/
theorem chain3 : toCP (W23 m ρ c (Proc.devRef .tc main_v149)) = iterK (A m ρ c) (P m ρ c) (toCP (W2 m ρ c (Proc.devRef .tc main_v35))) 3 := by
  rw [iterK_succ, ← chain2 m ρ c, Layer2.layer0_step m ρ c]
  rw [kept2_main_v3 m ρ c, kept2_main_v6 m ρ c, kept2_main_v26 m ρ c, kept2_main_arg4 m ρ c, kept2_main_arg5 m ρ c, kept2_main_arg6 m ρ c, kept2_main_arg7 m ρ c]
  unfold A P
  generalize W2 m ρ c (Proc.devRef .tc main_v3) = s; generalize W2 m ρ c (Proc.devRef .tc main_v6) = d; generalize W2 m ρ c (Proc.devRef .tc main_v26) = nrm
  generalize W2 m ρ c (Proc.devRef .tc main_arg4) = g4; generalize W2 m ρ c (Proc.devRef .tc main_arg5) = g5; generalize W2 m ρ c (Proc.devRef .tc main_arg6) = g6; generalize W2 m ρ c (Proc.devRef .tc main_arg7) = g7
  generalize toCP (W16 m ρ c (Proc.devRef .tc main_v111)) = H
  rfl

/-- Layer 3. -/
theorem chain4 : toCP (W30 m ρ c (Proc.devRef .tc main_v187)) = iterK (A m ρ c) (P m ρ c) (toCP (W2 m ρ c (Proc.devRef .tc main_v35))) 4 := by
  rw [iterK_succ, ← chain3 m ρ c, Layer3.layer0_step m ρ c]
  rw [kept3_main_v3 m ρ c, kept3_main_v6 m ρ c, kept3_main_v26 m ρ c, kept3_main_arg4 m ρ c, kept3_main_arg5 m ρ c, kept3_main_arg6 m ρ c, kept3_main_arg7 m ρ c]
  unfold A P
  generalize W2 m ρ c (Proc.devRef .tc main_v3) = s; generalize W2 m ρ c (Proc.devRef .tc main_v6) = d; generalize W2 m ρ c (Proc.devRef .tc main_v26) = nrm
  generalize W2 m ρ c (Proc.devRef .tc main_arg4) = g4; generalize W2 m ρ c (Proc.devRef .tc main_arg5) = g5; generalize W2 m ρ c (Proc.devRef .tc main_arg6) = g6; generalize W2 m ρ c (Proc.devRef .tc main_arg7) = g7
  generalize toCP (W23 m ρ c (Proc.devRef .tc main_v149)) = H
  rfl

/-- Layer 4. -/
theorem chain5 : toCP (W37 m ρ c (Proc.devRef .tc main_v225)) = iterK (A m ρ c) (P m ρ c) (toCP (W2 m ρ c (Proc.devRef .tc main_v35))) 5 := by
  rw [iterK_succ, ← chain4 m ρ c, Layer4.layer0_step m ρ c]
  rw [kept4_main_v3 m ρ c, kept4_main_v6 m ρ c, kept4_main_v26 m ρ c, kept4_main_arg4 m ρ c, kept4_main_arg5 m ρ c, kept4_main_arg6 m ρ c, kept4_main_arg7 m ρ c]
  unfold A P
  generalize W2 m ρ c (Proc.devRef .tc main_v3) = s; generalize W2 m ρ c (Proc.devRef .tc main_v6) = d; generalize W2 m ρ c (Proc.devRef .tc main_v26) = nrm
  generalize W2 m ρ c (Proc.devRef .tc main_arg4) = g4; generalize W2 m ρ c (Proc.devRef .tc main_arg5) = g5; generalize W2 m ρ c (Proc.devRef .tc main_arg6) = g6; generalize W2 m ρ c (Proc.devRef .tc main_arg7) = g7
  generalize toCP (W30 m ρ c (Proc.devRef .tc main_v187)) = H
  rfl

/-- Layer 5. -/
theorem chain6 : toCP (W44 m ρ c (Proc.devRef .tc main_v263)) = iterK (A m ρ c) (P m ρ c) (toCP (W2 m ρ c (Proc.devRef .tc main_v35))) 6 := by
  rw [iterK_succ, ← chain5 m ρ c, Layer5.layer0_step m ρ c]
  rw [kept5_main_v3 m ρ c, kept5_main_v6 m ρ c, kept5_main_v26 m ρ c, kept5_main_arg4 m ρ c, kept5_main_arg5 m ρ c, kept5_main_arg6 m ρ c, kept5_main_arg7 m ρ c]
  unfold A P
  generalize W2 m ρ c (Proc.devRef .tc main_v3) = s; generalize W2 m ρ c (Proc.devRef .tc main_v6) = d; generalize W2 m ρ c (Proc.devRef .tc main_v26) = nrm
  generalize W2 m ρ c (Proc.devRef .tc main_arg4) = g4; generalize W2 m ρ c (Proc.devRef .tc main_arg5) = g5; generalize W2 m ρ c (Proc.devRef .tc main_arg6) = g6; generalize W2 m ρ c (Proc.devRef .tc main_arg7) = g7
  generalize toCP (W37 m ρ c (Proc.devRef .tc main_v225)) = H
  rfl

/-- Layer 6. -/
theorem chain7 : toCP (W51 m ρ c (Proc.devRef .tc main_v301)) = iterK (A m ρ c) (P m ρ c) (toCP (W2 m ρ c (Proc.devRef .tc main_v35))) 7 := by
  rw [iterK_succ, ← chain6 m ρ c, Layer6.layer0_step m ρ c]
  rw [kept6_main_v3 m ρ c, kept6_main_v6 m ρ c, kept6_main_v26 m ρ c, kept6_main_arg4 m ρ c, kept6_main_arg5 m ρ c, kept6_main_arg6 m ρ c, kept6_main_arg7 m ρ c]
  unfold A P
  generalize W2 m ρ c (Proc.devRef .tc main_v3) = s; generalize W2 m ρ c (Proc.devRef .tc main_v6) = d; generalize W2 m ρ c (Proc.devRef .tc main_v26) = nrm
  generalize W2 m ρ c (Proc.devRef .tc main_arg4) = g4; generalize W2 m ρ c (Proc.devRef .tc main_arg5) = g5; generalize W2 m ρ c (Proc.devRef .tc main_arg6) = g6; generalize W2 m ρ c (Proc.devRef .tc main_arg7) = g7
  generalize toCP (W44 m ρ c (Proc.devRef .tc main_v263)) = H
  rfl

/-- Layer 7. -/
theorem chain8 : toCP (W58 m ρ c (Proc.devRef .tc main_v339)) = iterK (A m ρ c) (P m ρ c) (toCP (W2 m ρ c (Proc.devRef .tc main_v35))) 8 := by
  rw [iterK_succ, ← chain7 m ρ c, Layer7.layer0_step m ρ c]
  rw [kept7_main_v3 m ρ c, kept7_main_v6 m ρ c, kept7_main_v26 m ρ c, kept7_main_arg4 m ρ c, kept7_main_arg5 m ρ c, kept7_main_arg6 m ρ c, kept7_main_arg7 m ρ c]
  unfold A P
  generalize W2 m ρ c (Proc.devRef .tc main_v3) = s; generalize W2 m ρ c (Proc.devRef .tc main_v6) = d; generalize W2 m ρ c (Proc.devRef .tc main_v26) = nrm
  generalize W2 m ρ c (Proc.devRef .tc main_arg4) = g4; generalize W2 m ρ c (Proc.devRef .tc main_arg5) = g5; generalize W2 m ρ c (Proc.devRef .tc main_arg6) = g6; generalize W2 m ρ c (Proc.devRef .tc main_arg7) = g7
  generalize toCP (W51 m ρ c (Proc.devRef .tc main_v301)) = H
  rfl

end Cert.KernelIdeal.Chain

end
-- ==== Proof.RefStages.lean ====
/-
  The stages of one layer of the reference, as the reference's operations spell them on a node-major array
  `[500000, 8]`, and each stage read at an index: column sums, the mean, the deviations and the variance (the
  count it divides by is the node count minus a converted integer zero, and the guard on that count is true), the
  normalised entries with scale and shift, the product with the layer's weight matrix, the edge aggregation
  (left closed: gather at the sources, scale by the edge norm, scatter-add at the targets), residual, bias and
  rectifier. The stages' composition, read node by node and channel by channel, is the layer of
  Proof/Spec.lean over the curried views of Proof/Conv.lean. None of this depends on which layer it is: a
  layer supplies its input array, a row of each parameter, a slab of the weights and the three edge buffers.
-/
import proofs.«143139_j73710228734964_1_alg».proof.Proof.Gen.ReferenceIdeal
import proofs.«143139_j73710228734964_1_alg».proof.Proof.Spec
import proofs.«143139_j73710228734964_1_alg».proof.Proof.Conv
import Idealize.ShloMosaic.Lib.IdealHost
import Idealize.ShloMosaic.Lib.ValueIdx
import Idealize.ShloMosaic.Lib.Pipeline.Value
import Idealize.ShloMosaic.PureOps.Ideal.Laws
import Idealize.ShloMosaic.Lib.StackMember

noncomputable section

namespace Cert.ReferenceIdeal.Stages

open Cert.ReferenceIdeal Cert.ReferenceIdeal.Gen Cert.GCN Idealize.ShloMosaic Idealize.ShloMosaic.ValueIdx
open scoped BigOperators

/-- A node-major array, a channel vector, a channel matrix, at the ideal values. -/
abbrev A58 := FVec Ideal S500000x8 .f32
abbrev V8 := FVec Ideal S8 .f32
abbrev M88 := FVec Ideal S8x8 .f32

/-! ## The stages, spelled as the operations spell them -/

/-- Column sums from the zero word. -/
def colSum (x : A58) : V8 :=
  Host.reduceAdd x (constant (F := Ideal) S_ .f32 0x00000000#32) reducesTo_S500000x8_S8_d0 h_S_

/-- A channel vector as a row, copied to every node. -/
def rowB (v : V8) : A58 :=
  broadcastInDim S500000x8 ![0, 1] bcast_S1x8_S500000x8_0_1 (broadcastInDim S1x8 ![1] bcast_S8_S1x8_1 v)

/-- The mean per channel. -/
def meanT (x : A58) : V8 :=
  Host.divf (colSum x) (broadcastInDim S8 ![] bcast_S_S8 (constant (F := Ideal) S_ .f32 0x48F42400#32))

/-- The count the variance divides by: the node count minus the converted integer zero. -/
def cntT : FVec Ideal S_ .f32 :=
  subf (constant (F := Ideal) S_ .f32 0x48F42400#32) (sitofp .f32 (constantI S_ 32 0#32))

/-- Deviations from the keepdims mean. -/
def devT (x : A58) : A58 :=
  subf x (broadcastInDim S500000x8 ![0, 1] bcast_S1x8_S500000x8_0_1
    (Host.divf (broadcastInDim S1x8 ![1] bcast_S8_S1x8_1 (colSum x))
      (broadcastInDim S1x8 ![] bcast_S_S1x8 (constant (F := Ideal) S_ .f32 0x48F42400#32))))

/-- The variance per channel: the mean of the squared deviations where the count is positive. -/
def varT (x : A58) : V8 :=
  select (broadcastInDim S8 ![] bcast_S_S8 (cmpf .ogt cntT (constant (F := Ideal) S_ .f32 0x00000000#32)))
    (Host.divf (Host.reduceAdd (mulf (devT x) (devT x)) (constant (F := Ideal) S_ .f32 0x00000000#32) reducesTo_S500000x8_S8_d0 h_S_)
      (broadcastInDim S8 ![] bcast_S_S8 cntT))
    (broadcastInDim S8 ![] bcast_S_S8 (id (constant (F := Ideal) S_ .f32 0x7FC00000#32)))

/-- Batch norm with scale `g` and shift `b`. -/
def hbT (x : A58) (g b : V8) : A58 :=
  addf (mulf (mulf (subf x (rowB (meanT x)))
      (rowB (Host.rsqrt (addf (varT x) (broadcastInDim S8 ![] bcast_S_S8 (constant (F := Ideal) S_ .f32 0x3727C5AC#32))))))
      (rowB g))
    (rowB b)

/-- The normalised rows times the weight matrix. -/
def hwT (x : A58) (g b : V8) (w : M88) : A58 :=
  Host.dotGeneral dot_S500000x8_S8x8_S500000x8_1_0_0_1_n_n none (hbT x g b) w

/-- The edge aggregation, as the operations spell it. -/
def AGGR (src dst : IVec S8500000 32) (normB : FVec Ideal S8500000x1 .f32) (hw : A58) : A58 :=
  Host.scatterAdd scatter_S500000x8_S8500000x1_S8500000x8_1_0_0_1
    (broadcastInDim S500000x8 ![] bcast_S_S500000x8 (constant (F := Ideal) S_ .f32 0x00000000#32))
    (broadcastInDim S8500000x1 ![0] bcast_S8500000_S8500000x1_0 dst)
    (mulf (broadcastInDim S8500000x8 ![0, 1] bcast_S8500000x1_S8500000x8_0_1 normB)
      (Host.gather gather_S500000x8_S8500000x1_S8500000x8_1_0_n_n_0_1_18 hw
        (broadcastInDim S8500000x1 ![0] bcast_S8500000_S8500000x1_0
          (select (cmpi .slt src (broadcastInDim S8500000 ![] bcast_S_S8500000 (constantI S_ 32 0#32)))
            (addi src (broadcastInDim S8500000 ![] bcast_S_S8500000 (constantI S_ 32 500000#32))) src))))

/-- The layer: residual, aggregated messages plus bias, rectifier. -/
def layerT (x : A58) (g b : V8) (w : M88) (bias : V8)
    (src dst : IVec S8500000 32) (normB : FVec Ideal S8500000x1 .f32) : A58 :=
  maximumf (addf x (addf (AGGR src dst normB (hwT x g b w)) (rowB bias)))
    (broadcastInDim S500000x8 ![] bcast_S_S500000x8 (constant (F := Ideal) S_ .f32 0x00000000#32))

/-! ## The stages read at an index -/

/-- The f32 word 0x48F42400 denotes the node count. -/
theorem nN_word : Ideal.ofBits .f32 0x48F42400#32 = nN := by
  unfold nN
  simp [Ideal.ofBits, Ideal.ieee, -EReal.coe_mul]; norm_num

theorem rowB_apply (v : V8) (n : Fin 500000) (c : Fin 8) : rowB v (ix2 n c) = v (ix1 c) := by
  unfold rowB
  rw [broadcastInDim_apply _ _ _ (ix2 n c) (ix2 (0 : Fin 1) c) (fun a => by
        match a with
        | ⟨0, _⟩ => rfl
        | ⟨1, _⟩ => rfl),
      broadcastInDim_apply _ _ _ (ix2 (0 : Fin 1) c) (ix1 c) (fun a => by
        match a with
        | ⟨0, _⟩ => rfl)]

theorem colSum_apply (x : A58) (c : Fin 8) : colSum x (ix1 c) = ∑ n : Fin 500000, x (ix2 n c) := by
  unfold colSum
  rw [hostReduceAdd_apply, Ideal.hostReduceAdd_single reducesTo_S500000x8_S8_d0 (by decide : S500000x8.Reduces [0] S8),
    constant_apply, Ideal.ofBits_zero_f32, zero_add]
  refine Finset.sum_congr rfl (fun n _ => congrArg x (funext fun a => Fin.ext ?_))
  match a with
  | ⟨0, _⟩ => rfl
  | ⟨1, _⟩ => rfl

theorem meanT_apply (x : A58) (c : Fin 8) : meanT x (ix1 c) = meanR (toNC x) c := by
  unfold meanT meanR
  rw [hostDivf_apply, colSum_apply, broadcastInDim_scalar_apply, constant_apply, nN_word]
  rfl

/-- The count is the node count. -/
theorem cntT_apply : cntT ix0 = nN := by
  unfold cntT
  rw [subf_apply, constant_apply, nN_word, sitofp_apply]
  show nN - (((0#32 : BitVec 32).toInt : ℝ) : EReal) = nN
  simp

/-- The node count is positive: the guard's bit is one. -/
theorem cnt_pos : FloatOps.cmpf (F := Ideal) (φ := .f32) .ogt nN (0 : EReal) = 1#1 := by
  rw [Ideal.cmpf_def]
  unfold Ideal.cmp nN
  have h : (0 : EReal) < ((500000 : ℝ) : EReal) := by
    rw [show (0 : EReal) = ((0 : ℝ) : EReal) from rfl, EReal.coe_lt_coe_iff]; norm_num
  simp [h]

theorem devT_apply (x : A58) (n : Fin 500000) (c : Fin 8) : devT x (ix2 n c) = toNC x n c - meanR (toNC x) c := by
  unfold devT
  rw [subf_apply, broadcastInDim_apply _ _ _ (ix2 n c) (ix2 (0 : Fin 1) c) (fun a => by
        match a with
        | ⟨0, _⟩ => rfl
        | ⟨1, _⟩ => rfl),
      hostDivf_apply,
      broadcastInDim_apply _ _ _ (ix2 (0 : Fin 1) c) (ix1 c) (fun a => by
        match a with
        | ⟨0, _⟩ => rfl),
      colSum_apply, broadcastInDim_scalar_apply, constant_apply, nN_word]
  rfl

theorem varT_apply (x : A58) (c : Fin 8) : varT x (ix1 c) = varR (toNC x) c := by
  unfold varT varR
  rw [select_apply, broadcastInDim_scalar_apply, cmpf_apply, cntT_apply, constant_apply, Ideal.ofBits_zero_f32, cnt_pos,
    select_one, hostDivf_apply, hostReduceAdd_apply,
    Ideal.hostReduceAdd_single reducesTo_S500000x8_S8_d0 (by decide : S500000x8.Reduces [0] S8),
    constant_apply, Ideal.ofBits_zero_f32, zero_add, broadcastInDim_scalar_apply, cntT_apply]
  refine congrArg (fun s => Ideal.div s nN) ?_
  show (∑ n : Fin 500000, mulf (devT x) (devT x) ((by decide : S500000x8.Reduces [0] S8).lift (ix1 c) n)) = _
  refine Finset.sum_congr rfl (fun n _ => ?_)
  have e : (by decide : S500000x8.Reduces [0] S8).lift (ix1 c) n = ix2 n c := by
    funext a; apply Fin.ext
    match a with
    | ⟨0, _⟩ => rfl
    | ⟨1, _⟩ => rfl
  rw [e, mulf_apply, devT_apply]

theorem hbT_apply (x : A58) (g b : V8) (n : Fin 500000) (c : Fin 8) :
    hbT x g b (ix2 n c) = hbR (toNC x) (toV8 g) (toV8 b) n c := by
  unfold hbT hbR
  rw [addf_apply, mulf_apply, mulf_apply, subf_apply, rowB_apply, rowB_apply, rowB_apply, rowB_apply, meanT_apply]
  show (_ - _) * Ideal.rsqrt (addf (varT x) _ (ix1 c)) * _ + _ = _
  rw [addf_apply, varT_apply, broadcastInDim_scalar_apply, constant_apply]
  rfl

/-- The product's dimension numbers are the plain matrix product's. -/
theorem dot_eq_plain : dot_S500000x8_S8x8_S500000x8_1_0_0_1_n_n = DotDims.plain 500000 8 8 := rfl

theorem hwT_apply (x : A58) (g b : V8) (w : M88) (n : Fin 500000) (co : Fin 8) :
    hwT x g b w (ix2 n co) = hwR (toNC x) (toV8 g) (toV8 b) (toM8 w) n co := by
  unfold hwT hwR
  rw [dot_eq_plain, StackMember.dotGeneral_plain_apply]
  exact Finset.sum_congr rfl (fun ci _ => by rw [hbT_apply]; rfl)

theorem hwT_eq (x : A58) (g b : V8) (w : M88) : hwT x g b w = ofNC (hwR (toNC x) (toV8 g) (toV8 b) (toM8 w)) := by
  funext j
  obtain ⟨n, co, rfl⟩ : ∃ (n : Fin 500000) (co : Fin 8), j = ix2 n co := ⟨j 0, j 1, eq_ix2 j⟩
  rw [hwT_apply]
  rfl

/-- The stages' composition is the specification's layer. -/
theorem layerT_read (x : A58) (g b : V8) (w : M88) (bias : V8) (src dst : IVec S8500000 32) (normB : FVec Ideal S8500000x1 .f32) :
    toNC (layerT x g b w bias src dst normB)
      = layerR (fun hw => toNC (AGGR src dst normB (ofNC hw))) (toNC x) (toV8 g) (toV8 b) (toM8 w) (toV8 bias) := by
  funext n c
  show layerT x g b w bias src dst normB (ix2 n c) = _
  unfold layerT layerR
  rw [maximumf_apply, addf_apply, addf_apply, rowB_apply, broadcastInDim_scalar_apply, constant_apply, Ideal.ofBits_zero_f32, hwT_eq]
  rfl

/-! ## A row of a parameter, a slab of the weights -/

/-- Row `r` of an `[8, 8]` parameter, cut out and flattened, at channel `c`. -/
theorem rowSlice_apply (r : Fin 8) (a : M88) (h : S8x8.Slices ![r.val, 0] S1x8) (h' : S1x8.ShapeCasts S8) (c : Fin 8) :
    shapeCast S8 (extractStridedSlice S1x8 ![r.val, 0] a h) h' (ix1 c) = a (ix2 r c) := by
  rw [shapeCast_apply _ _ (ix1 c) (ix2 (0 : Fin 1) c) (by
        rw [Shape.rowMajor_val_two, Shape.rowMajor_val_one]
        show 0 * 8 + c.val = c.val
        omega),
      extractStridedSlice_apply _ _ _ (ix2 (0 : Fin 1) c) (ix2 r c) (fun ax => by
        match ax with
        | ⟨0, _⟩ => show r.val = r.val + 0; omega
        | ⟨1, _⟩ => show c.val = 0 + c.val; omega)]

/-- Slab `r` of the `[8, 8, 8]` weights, cut out and flattened, at `(p, q)`. -/
theorem slabSlice_apply (r : Fin 8) (a : FVec Ideal S8x8x8 .f32) (h : S8x8x8.Slices ![r.val, 0, 0] S1x8x8)
    (h' : S1x8x8.ShapeCasts S8x8) (p q : Fin 8) :
    shapeCast S8x8 (extractStridedSlice S1x8x8 ![r.val, 0, 0] a h) h' (ix2 p q) = a (ix3 r p q) := by
  rw [shapeCast_apply _ _ (ix2 p q) (ix3 (0 : Fin 1) p q) (by
        rw [Shape.rowMajor_val_three, Shape.rowMajor_val_two]
        show (0 * 8 + p.val) * 8 + q.val = p.val * 8 + q.val
        omega),
      extractStridedSlice_apply _ _ _ (ix3 (0 : Fin 1) p q) (ix3 r p q) (fun ax => by
        match ax with
        | ⟨0, _⟩ => show r.val = r.val + 0; omega
        | ⟨1, _⟩ => show p.val = 0 + p.val; omega
        | ⟨2, _⟩ => show q.val = 0 + q.val; omega)]

end Cert.ReferenceIdeal.Stages

end
-- ==== Proof.RefLayer0.lean ====
/-
  One layer of the reference program, read at an index. Over any contents `W` the layer's stretch of
  operations starts from, the stretch (the batch statistics, the normalisation with the layer's row of the scale
  and shift parameters, the product with the layer's slab of the weights, the edge aggregation, the residual
  with the layer's row of the bias, the rectifier) leaves in the layer's output buffer the stages' composition
  (Proof/RefStages.lean) of the input array, of the four parameter pieces the stretch cuts out, and of the three
  edge buffers; each piece read at an index is the parameter's entry in the layer's row (slab); so the output,
  node by node and channel by channel, is the specification's layer. The edge buffers and the program's
  arguments are not written by the stretch.
-/
import proofs.«143139_j73710228734964_1_alg».proof.Proof.RefRunA
import proofs.«143139_j73710228734964_1_alg».proof.Proof.RefStages
import Idealize.ShloMosaic.Lib.StableHlo.Run

noncomputable section

namespace Cert.ReferenceIdeal.Layer0

open Cert.ReferenceIdeal Cert.ReferenceIdeal.Gen Cert.ReferenceIdeal.RefRun Cert.ReferenceIdeal.Stages Cert.GCN
open Idealize.ShloMosaic Idealize.ShloMosaic.ValueIdx

variable (W : Valuation τ sig (Elt Ideal))

attribute [local irreducible] Host.reduceAdd Host.gather Host.scatterAdd in
set_option maxRecDepth 8192 in
set_option maxHeartbeats 2000000 in
/-- The layer's output buffer holds the stages' composition, over the input array, the four parameter buffers the
    stretch cuts out, and the three edge buffers. -/
theorem after_out :
    (StableHlo.after (opsL0 (F := Ideal)) W (Proc.devRef .tc main_v79) : A58)
      = layerT (W (Proc.devRef .tc main_v34))
          (StableHlo.after (opsL0 (F := Ideal)) W (Proc.devRef .tc main_v49))
          (StableHlo.after (opsL0 (F := Ideal)) W (Proc.devRef .tc main_v54))
          (StableHlo.after (opsL0 (F := Ideal)) W (Proc.devRef .tc main_v59))
          (StableHlo.after (opsL0 (F := Ideal)) W (Proc.devRef .tc main_v74))
          (W (Proc.devRef .tc main_v3)) (W (Proc.devRef .tc main_v6)) (W (Proc.devRef .tc main_v27)) := by
  after_results_simp
  rfl

set_option maxRecDepth 8192 in
set_option maxHeartbeats 2000000 in
/-- The scale piece is the layer's row of the scale parameter. -/
theorem gamma_read :
    toV8 (StableHlo.after (opsL0 (F := Ideal)) W (Proc.devRef .tc main_v49))
      = fun c => toM8 (W (Proc.devRef .tc main_arg4)) (0 : Fin 8) c := by
  funext c
  show (StableHlo.after (opsL0 (F := Ideal)) W (Proc.devRef .tc main_v49) : V8) (ix1 c)
    = (W (Proc.devRef .tc main_arg4) : M88) (ix2 (0 : Fin 8) c)
  after_results_simp
  exact rowSlice_apply (0 : Fin 8) _ _ _ c

set_option maxRecDepth 8192 in
set_option maxHeartbeats 2000000 in
/-- The shift piece is the layer's row of the shift parameter. -/
theorem beta_read :
    toV8 (StableHlo.after (opsL0 (F := Ideal)) W (Proc.devRef .tc main_v54))
      = fun c => toM8 (W (Proc.devRef .tc main_arg5)) (0 : Fin 8) c := by
  funext c
  show (StableHlo.after (opsL0 (F := Ideal)) W (Proc.devRef .tc main_v54) : V8) (ix1 c)
    = (W (Proc.devRef .tc main_arg5) : M88) (ix2 (0 : Fin 8) c)
  after_results_simp
  exact rowSlice_apply (0 : Fin 8) _ _ _ c

set_option maxRecDepth 8192 in
set_option maxHeartbeats 2000000 in
/-- The weight piece is the layer's slab of the weights. -/
theorem slab_read :
    toM8 (StableHlo.after (opsL0 (F := Ideal)) W (Proc.devRef .tc main_v59))
      = fun p q => (W (Proc.devRef .tc main_arg6) : FVec Ideal S8x8x8 .f32) (ix3 (0 : Fin 8) p q) := by
  funext p q
  show (StableHlo.after (opsL0 (F := Ideal)) W (Proc.devRef .tc main_v59) : M88) (ix2 p q)
    = (W (Proc.devRef .tc main_arg6) : FVec Ideal S8x8x8 .f32) (ix3 (0 : Fin 8) p q)
  after_results_simp
  exact slabSlice_apply (0 : Fin 8) _ _ _ p q

set_option maxRecDepth 8192 in
set_option maxHeartbeats 2000000 in
/-- The bias piece is the layer's row of the bias parameter. -/
theorem bias_read :
    toV8 (StableHlo.after (opsL0 (F := Ideal)) W (Proc.devRef .tc main_v74))
      = fun c => toM8 (W (Proc.devRef .tc main_arg7)) (0 : Fin 8) c := by
  funext c
  show (StableHlo.after (opsL0 (F := Ideal)) W (Proc.devRef .tc main_v74) : V8) (ix1 c)
    = (W (Proc.devRef .tc main_arg7) : M88) (ix2 (0 : Fin 8) c)
  after_results_simp
  exact rowSlice_apply (0 : Fin 8) _ _ _ c

/-- THE LAYER of the reference, read at an index: the layer of the specification over the input array, the
    layer's row of the scale, shift and bias parameters, the layer's slab of the weights, and the aggregation
    over the three edge buffers. -/
theorem layer0_read :
    toNC (StableHlo.after (opsL0 (F := Ideal)) W (Proc.devRef .tc main_v79))
      = layerR (fun hw => toNC (AGGR (W (Proc.devRef .tc main_v3)) (W (Proc.devRef .tc main_v6)) (W (Proc.devRef .tc main_v27)) (ofNC hw)))
          (toNC (W (Proc.devRef .tc main_v34)))
          (fun c => toM8 (W (Proc.devRef .tc main_arg4)) (0 : Fin 8) c)
          (fun c => toM8 (W (Proc.devRef .tc main_arg5)) (0 : Fin 8) c)
          (fun p q => (W (Proc.devRef .tc main_arg6) : FVec Ideal S8x8x8 .f32) (ix3 (0 : Fin 8) p q))
          (fun c => toM8 (W (Proc.devRef .tc main_arg7)) (0 : Fin 8) c) := by
  rw [after_out, layerT_read, gamma_read, beta_read, slab_read, bias_read]

/-! ## What the stretch keeps -/

set_option maxRecDepth 8192 in
theorem kept_v3 :
    StableHlo.after (opsL0 (F := Ideal)) W (Proc.devRef .tc main_v3) = W (Proc.devRef .tc main_v3) := by
  simp only [StableHlo.after_cons, StableHlo.after_nil]
  rfl

set_option maxRecDepth 8192 in
theorem kept_v6 :
    StableHlo.after (opsL0 (F := Ideal)) W (Proc.devRef .tc main_v6) = W (Proc.devRef .tc main_v6) := by
  simp only [StableHlo.after_cons, StableHlo.after_nil]
  rfl

set_option maxRecDepth 8192 in
theorem kept_v27 :
    StableHlo.after (opsL0 (F := Ideal)) W (Proc.devRef .tc main_v27) = W (Proc.devRef .tc main_v27) := by
  simp only [StableHlo.after_cons, StableHlo.after_nil]
  rfl

set_option maxRecDepth 8192 in
theorem kept_arg0 :
    StableHlo.after (opsL0 (F := Ideal)) W (Proc.devRef .tc main_arg0) = W (Proc.devRef .tc main_arg0) := by
  simp only [StableHlo.after_cons, StableHlo.after_nil]
  rfl

set_option maxRecDepth 8192 in
theorem kept_arg1 :
    StableHlo.after (opsL0 (F := Ideal)) W (Proc.devRef .tc main_arg1) = W (Proc.devRef .tc main_arg1) := by
  simp only [StableHlo.after_cons, StableHlo.after_nil]
  rfl

set_option maxRecDepth 8192 in
theorem kept_arg2 :
    StableHlo.after (opsL0 (F := Ideal)) W (Proc.devRef .tc main_arg2) = W (Proc.devRef .tc main_arg2) := by
  simp only [StableHlo.after_cons, StableHlo.after_nil]
  rfl

set_option maxRecDepth 8192 in
theorem kept_arg3 :
    StableHlo.after (opsL0 (F := Ideal)) W (Proc.devRef .tc main_arg3) = W (Proc.devRef .tc main_arg3) := by
  simp only [StableHlo.after_cons, StableHlo.after_nil]
  rfl

set_option maxRecDepth 8192 in
theorem kept_arg4 :
    StableHlo.after (opsL0 (F := Ideal)) W (Proc.devRef .tc main_arg4) = W (Proc.devRef .tc main_arg4) := by
  simp only [StableHlo.after_cons, StableHlo.after_nil]
  rfl

set_option maxRecDepth 8192 in
theorem kept_arg5 :
    StableHlo.after (opsL0 (F := Ideal)) W (Proc.devRef .tc main_arg5) = W (Proc.devRef .tc main_arg5) := by
  simp only [StableHlo.after_cons, StableHlo.after_nil]
  rfl

set_option maxRecDepth 8192 in
theorem kept_arg6 :
    StableHlo.after (opsL0 (F := Ideal)) W (Proc.devRef .tc main_arg6) = W (Proc.devRef .tc main_arg6) := by
  simp only [StableHlo.after_cons, StableHlo.after_nil]
  rfl

set_option maxRecDepth 8192 in
theorem kept_arg7 :
    StableHlo.after (opsL0 (F := Ideal)) W (Proc.devRef .tc main_arg7) = W (Proc.devRef .tc main_arg7) := by
  simp only [StableHlo.after_cons, StableHlo.after_nil]
  rfl

set_option maxRecDepth 8192 in
theorem kept_arg8 :
    StableHlo.after (opsL0 (F := Ideal)) W (Proc.devRef .tc main_arg8) = W (Proc.devRef .tc main_arg8) := by
  simp only [StableHlo.after_cons, StableHlo.after_nil]
  rfl

set_option maxRecDepth 8192 in
theorem kept_arg9 :
    StableHlo.after (opsL0 (F := Ideal)) W (Proc.devRef .tc main_arg9) = W (Proc.devRef .tc main_arg9) := by
  simp only [StableHlo.after_cons, StableHlo.after_nil]
  rfl

set_option maxRecDepth 8192 in
theorem kept_arg10 :
    StableHlo.after (opsL0 (F := Ideal)) W (Proc.devRef .tc main_arg10) = W (Proc.devRef .tc main_arg10) := by
  simp only [StableHlo.after_cons, StableHlo.after_nil]
  rfl

set_option maxRecDepth 8192 in
theorem kept_arg11 :
    StableHlo.after (opsL0 (F := Ideal)) W (Proc.devRef .tc main_arg11) = W (Proc.devRef .tc main_arg11) := by
  simp only [StableHlo.after_cons, StableHlo.after_nil]
  rfl

end Cert.ReferenceIdeal.Layer0

end
-- ==== Proof.RefLayer1.lean ====
/-
  One layer of the reference program, read at an index. Over any contents `W` the layer's stretch of
  operations starts from, the stretch (the batch statistics, the normalisation with the layer's row of the scale
  and shift parameters, the product with the layer's slab of the weights, the edge aggregation, the residual
  with the layer's row of the bias, the rectifier) leaves in the layer's output buffer the stages' composition
  (Proof/RefStages.lean) of the input array, of the four parameter pieces the stretch cuts out, and of the three
  edge buffers; each piece read at an index is the parameter's entry in the layer's row (slab); so the output,
  node by node and channel by channel, is the specification's layer. The edge buffers and the program's
  arguments are not written by the stretch.
-/
import proofs.«143139_j73710228734964_1_alg».proof.Proof.RefRunA
import proofs.«143139_j73710228734964_1_alg».proof.Proof.RefStages
import Idealize.ShloMosaic.Lib.StableHlo.Run

noncomputable section

namespace Cert.ReferenceIdeal.Layer1

open Cert.ReferenceIdeal Cert.ReferenceIdeal.Gen Cert.ReferenceIdeal.RefRun Cert.ReferenceIdeal.Stages Cert.GCN
open Idealize.ShloMosaic Idealize.ShloMosaic.ValueIdx

variable (W : Valuation τ sig (Elt Ideal))

attribute [local irreducible] Host.reduceAdd Host.gather Host.scatterAdd in
set_option maxRecDepth 8192 in
set_option maxHeartbeats 2000000 in
/-- The layer's output buffer holds the stages' composition, over the input array, the four parameter buffers the
    stretch cuts out, and the three edge buffers. -/
theorem after_out :
    (StableHlo.after (opsL1 (F := Ideal)) W (Proc.devRef .tc main_v124) : A58)
      = layerT (W (Proc.devRef .tc main_v79))
          (StableHlo.after (opsL1 (F := Ideal)) W (Proc.devRef .tc main_v94))
          (StableHlo.after (opsL1 (F := Ideal)) W (Proc.devRef .tc main_v99))
          (StableHlo.after (opsL1 (F := Ideal)) W (Proc.devRef .tc main_v104))
          (StableHlo.after (opsL1 (F := Ideal)) W (Proc.devRef .tc main_v119))
          (W (Proc.devRef .tc main_v3)) (W (Proc.devRef .tc main_v6)) (W (Proc.devRef .tc main_v27)) := by
  after_results_simp
  rfl

set_option maxRecDepth 8192 in
set_option maxHeartbeats 2000000 in
/-- The scale piece is the layer's row of the scale parameter. -/
theorem gamma_read :
    toV8 (StableHlo.after (opsL1 (F := Ideal)) W (Proc.devRef .tc main_v94))
      = fun c => toM8 (W (Proc.devRef .tc main_arg4)) (1 : Fin 8) c := by
  funext c
  show (StableHlo.after (opsL1 (F := Ideal)) W (Proc.devRef .tc main_v94) : V8) (ix1 c)
    = (W (Proc.devRef .tc main_arg4) : M88) (ix2 (1 : Fin 8) c)
  after_results_simp
  exact rowSlice_apply (1 : Fin 8) _ _ _ c

set_option maxRecDepth 8192 in
set_option maxHeartbeats 2000000 in
/-- The shift piece is the layer's row of the shift parameter. -/
theorem beta_read :
    toV8 (StableHlo.after (opsL1 (F := Ideal)) W (Proc.devRef .tc main_v99))
      = fun c => toM8 (W (Proc.devRef .tc main_arg5)) (1 : Fin 8) c := by
  funext c
  show (StableHlo.after (opsL1 (F := Ideal)) W (Proc.devRef .tc main_v99) : V8) (ix1 c)
    = (W (Proc.devRef .tc main_arg5) : M88) (ix2 (1 : Fin 8) c)
  after_results_simp
  exact rowSlice_apply (1 : Fin 8) _ _ _ c

set_option maxRecDepth 8192 in
set_option maxHeartbeats 2000000 in
/-- The weight piece is the layer's slab of the weights. -/
theorem slab_read :
    toM8 (StableHlo.after (opsL1 (F := Ideal)) W (Proc.devRef .tc main_v104))
      = fun p q => (W (Proc.devRef .tc main_arg6) : FVec Ideal S8x8x8 .f32) (ix3 (1 : Fin 8) p q) := by
  funext p q
  show (StableHlo.after (opsL1 (F := Ideal)) W (Proc.devRef .tc main_v104) : M88) (ix2 p q)
    = (W (Proc.devRef .tc main_arg6) : FVec Ideal S8x8x8 .f32) (ix3 (1 : Fin 8) p q)
  after_results_simp
  exact slabSlice_apply (1 : Fin 8) _ _ _ p q

set_option maxRecDepth 8192 in
set_option maxHeartbeats 2000000 in
/-- The bias piece is the layer's row of the bias parameter. -/
theorem bias_read :
    toV8 (StableHlo.after (opsL1 (F := Ideal)) W (Proc.devRef .tc main_v119))
      = fun c => toM8 (W (Proc.devRef .tc main_arg7)) (1 : Fin 8) c := by
  funext c
  show (StableHlo.after (opsL1 (F := Ideal)) W (Proc.devRef .tc main_v119) : V8) (ix1 c)
    = (W (Proc.devRef .tc main_arg7) : M88) (ix2 (1 : Fin 8) c)
  after_results_simp
  exact rowSlice_apply (1 : Fin 8) _ _ _ c

/-- THE LAYER of the reference, read at an index: the layer of the specification over the input array, the
    layer's row of the scale, shift and bias parameters, the layer's slab of the weights, and the aggregation
    over the three edge buffers. -/
theorem layer0_read :
    toNC (StableHlo.after (opsL1 (F := Ideal)) W (Proc.devRef .tc main_v124))
      = layerR (fun hw => toNC (AGGR (W (Proc.devRef .tc main_v3)) (W (Proc.devRef .tc main_v6)) (W (Proc.devRef .tc main_v27)) (ofNC hw)))
          (toNC (W (Proc.devRef .tc main_v79)))
          (fun c => toM8 (W (Proc.devRef .tc main_arg4)) (1 : Fin 8) c)
          (fun c => toM8 (W (Proc.devRef .tc main_arg5)) (1 : Fin 8) c)
          (fun p q => (W (Proc.devRef .tc main_arg6) : FVec Ideal S8x8x8 .f32) (ix3 (1 : Fin 8) p q))
          (fun c => toM8 (W (Proc.devRef .tc main_arg7)) (1 : Fin 8) c) := by
  rw [after_out, layerT_read, gamma_read, beta_read, slab_read, bias_read]

/-! ## What the stretch keeps -/

set_option maxRecDepth 8192 in
theorem kept_v3 :
    StableHlo.after (opsL1 (F := Ideal)) W (Proc.devRef .tc main_v3) = W (Proc.devRef .tc main_v3) := by
  simp only [StableHlo.after_cons, StableHlo.after_nil]
  rfl

set_option maxRecDepth 8192 in
theorem kept_v6 :
    StableHlo.after (opsL1 (F := Ideal)) W (Proc.devRef .tc main_v6) = W (Proc.devRef .tc main_v6) := by
  simp only [StableHlo.after_cons, StableHlo.after_nil]
  rfl

set_option maxRecDepth 8192 in
theorem kept_v27 :
    StableHlo.after (opsL1 (F := Ideal)) W (Proc.devRef .tc main_v27) = W (Proc.devRef .tc main_v27) := by
  simp only [StableHlo.after_cons, StableHlo.after_nil]
  rfl

set_option maxRecDepth 8192 in
theorem kept_arg0 :
    StableHlo.after (opsL1 (F := Ideal)) W (Proc.devRef .tc main_arg0) = W (Proc.devRef .tc main_arg0) := by
  simp only [StableHlo.after_cons, StableHlo.after_nil]
  rfl

set_option maxRecDepth 8192 in
theorem kept_arg1 :
    StableHlo.after (opsL1 (F := Ideal)) W (Proc.devRef .tc main_arg1) = W (Proc.devRef .tc main_arg1) := by
  simp only [StableHlo.after_cons, StableHlo.after_nil]
  rfl

set_option maxRecDepth 8192 in
theorem kept_arg2 :
    StableHlo.after (opsL1 (F := Ideal)) W (Proc.devRef .tc main_arg2) = W (Proc.devRef .tc main_arg2) := by
  simp only [StableHlo.after_cons, StableHlo.after_nil]
  rfl

set_option maxRecDepth 8192 in
theorem kept_arg3 :
    StableHlo.after (opsL1 (F := Ideal)) W (Proc.devRef .tc main_arg3) = W (Proc.devRef .tc main_arg3) := by
  simp only [StableHlo.after_cons, StableHlo.after_nil]
  rfl

set_option maxRecDepth 8192 in
theorem kept_arg4 :
    StableHlo.after (opsL1 (F := Ideal)) W (Proc.devRef .tc main_arg4) = W (Proc.devRef .tc main_arg4) := by
  simp only [StableHlo.after_cons, StableHlo.after_nil]
  rfl

set_option maxRecDepth 8192 in
theorem kept_arg5 :
    StableHlo.after (opsL1 (F := Ideal)) W (Proc.devRef .tc main_arg5) = W (Proc.devRef .tc main_arg5) := by
  simp only [StableHlo.after_cons, StableHlo.after_nil]
  rfl

set_option maxRecDepth 8192 in
theorem kept_arg6 :
    StableHlo.after (opsL1 (F := Ideal)) W (Proc.devRef .tc main_arg6) = W (Proc.devRef .tc main_arg6) := by
  simp only [StableHlo.after_cons, StableHlo.after_nil]
  rfl

set_option maxRecDepth 8192 in
theorem kept_arg7 :
    StableHlo.after (opsL1 (F := Ideal)) W (Proc.devRef .tc main_arg7) = W (Proc.devRef .tc main_arg7) := by
  simp only [StableHlo.after_cons, StableHlo.after_nil]
  rfl

set_option maxRecDepth 8192 in
theorem kept_arg8 :
    StableHlo.after (opsL1 (F := Ideal)) W (Proc.devRef .tc main_arg8) = W (Proc.devRef .tc main_arg8) := by
  simp only [StableHlo.after_cons, StableHlo.after_nil]
  rfl

set_option maxRecDepth 8192 in
theorem kept_arg9 :
    StableHlo.after (opsL1 (F := Ideal)) W (Proc.devRef .tc main_arg9) = W (Proc.devRef .tc main_arg9) := by
  simp only [StableHlo.after_cons, StableHlo.after_nil]
  rfl

set_option maxRecDepth 8192 in
theorem kept_arg10 :
    StableHlo.after (opsL1 (F := Ideal)) W (Proc.devRef .tc main_arg10) = W (Proc.devRef .tc main_arg10) := by
  simp only [StableHlo.after_cons, StableHlo.after_nil]
  rfl

set_option maxRecDepth 8192 in
theorem kept_arg11 :
    StableHlo.after (opsL1 (F := Ideal)) W (Proc.devRef .tc main_arg11) = W (Proc.devRef .tc main_arg11) := by
  simp only [StableHlo.after_cons, StableHlo.after_nil]
  rfl

end Cert.ReferenceIdeal.Layer1

end
-- ==== Proof.RefLayer2.lean ====
/-
  One layer of the reference program, read at an index. Over any contents `W` the layer's stretch of
  operations starts from, the stretch (the batch statistics, the normalisation with the layer's row of the scale
  and shift parameters, the product with the layer's slab of the weights, the edge aggregation, the residual
  with the layer's row of the bias, the rectifier) leaves in the layer's output buffer the stages' composition
  (Proof/RefStages.lean) of the input array, of the four parameter pieces the stretch cuts out, and of the three
  edge buffers; each piece read at an index is the parameter's entry in the layer's row (slab); so the output,
  node by node and channel by channel, is the specification's layer. The edge buffers and the program's
  arguments are not written by the stretch.
-/
import proofs.«143139_j73710228734964_1_alg».proof.Proof.RefRunA
import proofs.«143139_j73710228734964_1_alg».proof.Proof.RefStages
import Idealize.ShloMosaic.Lib.StableHlo.Run

noncomputable section

namespace Cert.ReferenceIdeal.Layer2

open Cert.ReferenceIdeal Cert.ReferenceIdeal.Gen Cert.ReferenceIdeal.RefRun Cert.ReferenceIdeal.Stages Cert.GCN
open Idealize.ShloMosaic Idealize.ShloMosaic.ValueIdx

variable (W : Valuation τ sig (Elt Ideal))

attribute [local irreducible] Host.reduceAdd Host.gather Host.scatterAdd in
set_option maxRecDepth 8192 in
set_option maxHeartbeats 2000000 in
/-- The layer's output buffer holds the stages' composition, over the input array, the four parameter buffers the
    stretch cuts out, and the three edge buffers. -/
theorem after_out :
    (StableHlo.after (opsL2 (F := Ideal)) W (Proc.devRef .tc main_v169) : A58)
      = layerT (W (Proc.devRef .tc main_v124))
          (StableHlo.after (opsL2 (F := Ideal)) W (Proc.devRef .tc main_v139))
          (StableHlo.after (opsL2 (F := Ideal)) W (Proc.devRef .tc main_v144))
          (StableHlo.after (opsL2 (F := Ideal)) W (Proc.devRef .tc main_v149))
          (StableHlo.after (opsL2 (F := Ideal)) W (Proc.devRef .tc main_v164))
          (W (Proc.devRef .tc main_v3)) (W (Proc.devRef .tc main_v6)) (W (Proc.devRef .tc main_v27)) := by
  after_results_simp
  rfl

set_option maxRecDepth 8192 in
set_option maxHeartbeats 2000000 in
/-- The scale piece is the layer's row of the scale parameter. -/
theorem gamma_read :
    toV8 (StableHlo.after (opsL2 (F := Ideal)) W (Proc.devRef .tc main_v139))
      = fun c => toM8 (W (Proc.devRef .tc main_arg4)) (2 : Fin 8) c := by
  funext c
  show (StableHlo.after (opsL2 (F := Ideal)) W (Proc.devRef .tc main_v139) : V8) (ix1 c)
    = (W (Proc.devRef .tc main_arg4) : M88) (ix2 (2 : Fin 8) c)
  after_results_simp
  exact rowSlice_apply (2 : Fin 8) _ _ _ c

set_option maxRecDepth 8192 in
set_option maxHeartbeats 2000000 in
/-- The shift piece is the layer's row of the shift parameter. -/
theorem beta_read :
    toV8 (StableHlo.after (opsL2 (F := Ideal)) W (Proc.devRef .tc main_v144))
      = fun c => toM8 (W (Proc.devRef .tc main_arg5)) (2 : Fin 8) c := by
  funext c
  show (StableHlo.after (opsL2 (F := Ideal)) W (Proc.devRef .tc main_v144) : V8) (ix1 c)
    = (W (Proc.devRef .tc main_arg5) : M88) (ix2 (2 : Fin 8) c)
  after_results_simp
  exact rowSlice_apply (2 : Fin 8) _ _ _ c

set_option maxRecDepth 8192 in
set_option maxHeartbeats 2000000 in
/-- The weight piece is the layer's slab of the weights. -/
theorem slab_read :
    toM8 (StableHlo.after (opsL2 (F := Ideal)) W (Proc.devRef .tc main_v149))
      = fun p q => (W (Proc.devRef .tc main_arg6) : FVec Ideal S8x8x8 .f32) (ix3 (2 : Fin 8) p q) := by
  funext p q
  show (StableHlo.after (opsL2 (F := Ideal)) W (Proc.devRef .tc main_v149) : M88) (ix2 p q)
    = (W (Proc.devRef .tc main_arg6) : FVec Ideal S8x8x8 .f32) (ix3 (2 : Fin 8) p q)
  after_results_simp
  exact slabSlice_apply (2 : Fin 8) _ _ _ p q

set_option maxRecDepth 8192 in
set_option maxHeartbeats 2000000 in
/-- The bias piece is the layer's row of the bias parameter. -/
theorem bias_read :
    toV8 (StableHlo.after (opsL2 (F := Ideal)) W (Proc.devRef .tc main_v164))
      = fun c => toM8 (W (Proc.devRef .tc main_arg7)) (2 : Fin 8) c := by
  funext c
  show (StableHlo.after (opsL2 (F := Ideal)) W (Proc.devRef .tc main_v164) : V8) (ix1 c)
    = (W (Proc.devRef .tc main_arg7) : M88) (ix2 (2 : Fin 8) c)
  after_results_simp
  exact rowSlice_apply (2 : Fin 8) _ _ _ c

/-- THE LAYER of the reference, read at an index: the layer of the specification over the input array, the
    layer's row of the scale, shift and bias parameters, the layer's slab of the weights, and the aggregation
    over the three edge buffers. -/
theorem layer0_read :
    toNC (StableHlo.after (opsL2 (F := Ideal)) W (Proc.devRef .tc main_v169))
      = layerR (fun hw => toNC (AGGR (W (Proc.devRef .tc main_v3)) (W (Proc.devRef .tc main_v6)) (W (Proc.devRef .tc main_v27)) (ofNC hw)))
          (toNC (W (Proc.devRef .tc main_v124)))
          (fun c => toM8 (W (Proc.devRef .tc main_arg4)) (2 : Fin 8) c)
          (fun c => toM8 (W (Proc.devRef .tc main_arg5)) (2 : Fin 8) c)
          (fun p q => (W (Proc.devRef .tc main_arg6) : FVec Ideal S8x8x8 .f32) (ix3 (2 : Fin 8) p q))
          (fun c => toM8 (W (Proc.devRef .tc main_arg7)) (2 : Fin 8) c) := by
  rw [after_out, layerT_read, gamma_read, beta_read, slab_read, bias_read]

/-! ## What the stretch keeps -/

set_option maxRecDepth 8192 in
theorem kept_v3 :
    StableHlo.after (opsL2 (F := Ideal)) W (Proc.devRef .tc main_v3) = W (Proc.devRef .tc main_v3) := by
  simp only [StableHlo.after_cons, StableHlo.after_nil]
  rfl

set_option maxRecDepth 8192 in
theorem kept_v6 :
    StableHlo.after (opsL2 (F := Ideal)) W (Proc.devRef .tc main_v6) = W (Proc.devRef .tc main_v6) := by
  simp only [StableHlo.after_cons, StableHlo.after_nil]
  rfl

set_option maxRecDepth 8192 in
theorem kept_v27 :
    StableHlo.after (opsL2 (F := Ideal)) W (Proc.devRef .tc main_v27) = W (Proc.devRef .tc main_v27) := by
  simp only [StableHlo.after_cons, StableHlo.after_nil]
  rfl

set_option maxRecDepth 8192 in
theorem kept_arg0 :
    StableHlo.after (opsL2 (F := Ideal)) W (Proc.devRef .tc main_arg0) = W (Proc.devRef .tc main_arg0) := by
  simp only [StableHlo.after_cons, StableHlo.after_nil]
  rfl

set_option maxRecDepth 8192 in
theorem kept_arg1 :
    StableHlo.after (opsL2 (F := Ideal)) W (Proc.devRef .tc main_arg1) = W (Proc.devRef .tc main_arg1) := by
  simp only [StableHlo.after_cons, StableHlo.after_nil]
  rfl

set_option maxRecDepth 8192 in
theorem kept_arg2 :
    StableHlo.after (opsL2 (F := Ideal)) W (Proc.devRef .tc main_arg2) = W (Proc.devRef .tc main_arg2) := by
  simp only [StableHlo.after_cons, StableHlo.after_nil]
  rfl

set_option maxRecDepth 8192 in
theorem kept_arg3 :
    StableHlo.after (opsL2 (F := Ideal)) W (Proc.devRef .tc main_arg3) = W (Proc.devRef .tc main_arg3) := by
  simp only [StableHlo.after_cons, StableHlo.after_nil]
  rfl

set_option maxRecDepth 8192 in
theorem kept_arg4 :
    StableHlo.after (opsL2 (F := Ideal)) W (Proc.devRef .tc main_arg4) = W (Proc.devRef .tc main_arg4) := by
  simp only [StableHlo.after_cons, StableHlo.after_nil]
  rfl

set_option maxRecDepth 8192 in
theorem kept_arg5 :
    StableHlo.after (opsL2 (F := Ideal)) W (Proc.devRef .tc main_arg5) = W (Proc.devRef .tc main_arg5) := by
  simp only [StableHlo.after_cons, StableHlo.after_nil]
  rfl

set_option maxRecDepth 8192 in
theorem kept_arg6 :
    StableHlo.after (opsL2 (F := Ideal)) W (Proc.devRef .tc main_arg6) = W (Proc.devRef .tc main_arg6) := by
  simp only [StableHlo.after_cons, StableHlo.after_nil]
  rfl

set_option maxRecDepth 8192 in
theorem kept_arg7 :
    StableHlo.after (opsL2 (F := Ideal)) W (Proc.devRef .tc main_arg7) = W (Proc.devRef .tc main_arg7) := by
  simp only [StableHlo.after_cons, StableHlo.after_nil]
  rfl

set_option maxRecDepth 8192 in
theorem kept_arg8 :
    StableHlo.after (opsL2 (F := Ideal)) W (Proc.devRef .tc main_arg8) = W (Proc.devRef .tc main_arg8) := by
  simp only [StableHlo.after_cons, StableHlo.after_nil]
  rfl

set_option maxRecDepth 8192 in
theorem kept_arg9 :
    StableHlo.after (opsL2 (F := Ideal)) W (Proc.devRef .tc main_arg9) = W (Proc.devRef .tc main_arg9) := by
  simp only [StableHlo.after_cons, StableHlo.after_nil]
  rfl

set_option maxRecDepth 8192 in
theorem kept_arg10 :
    StableHlo.after (opsL2 (F := Ideal)) W (Proc.devRef .tc main_arg10) = W (Proc.devRef .tc main_arg10) := by
  simp only [StableHlo.after_cons, StableHlo.after_nil]
  rfl

set_option maxRecDepth 8192 in
theorem kept_arg11 :
    StableHlo.after (opsL2 (F := Ideal)) W (Proc.devRef .tc main_arg11) = W (Proc.devRef .tc main_arg11) := by
  simp only [StableHlo.after_cons, StableHlo.after_nil]
  rfl

end Cert.ReferenceIdeal.Layer2

end
-- ==== Proof.RefLayer3.lean ====
/-
  One layer of the reference program, read at an index. Over any contents `W` the layer's stretch of
  operations starts from, the stretch (the batch statistics, the normalisation with the layer's row of the scale
  and shift parameters, the product with the layer's slab of the weights, the edge aggregation, the residual
  with the layer's row of the bias, the rectifier) leaves in the layer's output buffer the stages' composition
  (Proof/RefStages.lean) of the input array, of the four parameter pieces the stretch cuts out, and of the three
  edge buffers; each piece read at an index is the parameter's entry in the layer's row (slab); so the output,
  node by node and channel by channel, is the specification's layer. The edge buffers and the program's
  arguments are not written by the stretch.
-/
import proofs.«143139_j73710228734964_1_alg».proof.Proof.RefRunA
import proofs.«143139_j73710228734964_1_alg».proof.Proof.RefStages
import Idealize.ShloMosaic.Lib.StableHlo.Run

noncomputable section

namespace Cert.ReferenceIdeal.Layer3

open Cert.ReferenceIdeal Cert.ReferenceIdeal.Gen Cert.ReferenceIdeal.RefRun Cert.ReferenceIdeal.Stages Cert.GCN
open Idealize.ShloMosaic Idealize.ShloMosaic.ValueIdx

variable (W : Valuation τ sig (Elt Ideal))

attribute [local irreducible] Host.reduceAdd Host.gather Host.scatterAdd in
set_option maxRecDepth 8192 in
set_option maxHeartbeats 2000000 in
/-- The layer's output buffer holds the stages' composition, over the input array, the four parameter buffers the
    stretch cuts out, and the three edge buffers. -/
theorem after_out :
    (StableHlo.after (opsL3 (F := Ideal)) W (Proc.devRef .tc main_v214) : A58)
      = layerT (W (Proc.devRef .tc main_v169))
          (StableHlo.after (opsL3 (F := Ideal)) W (Proc.devRef .tc main_v184))
          (StableHlo.after (opsL3 (F := Ideal)) W (Proc.devRef .tc main_v189))
          (StableHlo.after (opsL3 (F := Ideal)) W (Proc.devRef .tc main_v194))
          (StableHlo.after (opsL3 (F := Ideal)) W (Proc.devRef .tc main_v209))
          (W (Proc.devRef .tc main_v3)) (W (Proc.devRef .tc main_v6)) (W (Proc.devRef .tc main_v27)) := by
  after_results_simp
  rfl

set_option maxRecDepth 8192 in
set_option maxHeartbeats 2000000 in
/-- The scale piece is the layer's row of the scale parameter. -/
theorem gamma_read :
    toV8 (StableHlo.after (opsL3 (F := Ideal)) W (Proc.devRef .tc main_v184))
      = fun c => toM8 (W (Proc.devRef .tc main_arg4)) (3 : Fin 8) c := by
  funext c
  show (StableHlo.after (opsL3 (F := Ideal)) W (Proc.devRef .tc main_v184) : V8) (ix1 c)
    = (W (Proc.devRef .tc main_arg4) : M88) (ix2 (3 : Fin 8) c)
  after_results_simp
  exact rowSlice_apply (3 : Fin 8) _ _ _ c

set_option maxRecDepth 8192 in
set_option maxHeartbeats 2000000 in
/-- The shift piece is the layer's row of the shift parameter. -/
theorem beta_read :
    toV8 (StableHlo.after (opsL3 (F := Ideal)) W (Proc.devRef .tc main_v189))
      = fun c => toM8 (W (Proc.devRef .tc main_arg5)) (3 : Fin 8) c := by
  funext c
  show (StableHlo.after (opsL3 (F := Ideal)) W (Proc.devRef .tc main_v189) : V8) (ix1 c)
    = (W (Proc.devRef .tc main_arg5) : M88) (ix2 (3 : Fin 8) c)
  after_results_simp
  exact rowSlice_apply (3 : Fin 8) _ _ _ c

set_option maxRecDepth 8192 in
set_option maxHeartbeats 2000000 in
/-- The weight piece is the layer's slab of the weights. -/
theorem slab_read :
    toM8 (StableHlo.after (opsL3 (F := Ideal)) W (Proc.devRef .tc main_v194))
      = fun p q => (W (Proc.devRef .tc main_arg6) : FVec Ideal S8x8x8 .f32) (ix3 (3 : Fin 8) p q) := by
  funext p q
  show (StableHlo.after (opsL3 (F := Ideal)) W (Proc.devRef .tc main_v194) : M88) (ix2 p q)
    = (W (Proc.devRef .tc main_arg6) : FVec Ideal S8x8x8 .f32) (ix3 (3 : Fin 8) p q)
  after_results_simp
  exact slabSlice_apply (3 : Fin 8) _ _ _ p q

set_option maxRecDepth 8192 in
set_option maxHeartbeats 2000000 in
/-- The bias piece is the layer's row of the bias parameter. -/
theorem bias_read :
    toV8 (StableHlo.after (opsL3 (F := Ideal)) W (Proc.devRef .tc main_v209))
      = fun c => toM8 (W (Proc.devRef .tc main_arg7)) (3 : Fin 8) c := by
  funext c
  show (StableHlo.after (opsL3 (F := Ideal)) W (Proc.devRef .tc main_v209) : V8) (ix1 c)
    = (W (Proc.devRef .tc main_arg7) : M88) (ix2 (3 : Fin 8) c)
  after_results_simp
  exact rowSlice_apply (3 : Fin 8) _ _ _ c

/-- THE LAYER of the reference, read at an index: the layer of the specification over the input array, the
    layer's row of the scale, shift and bias parameters, the layer's slab of the weights, and the aggregation
    over the three edge buffers. -/
theorem layer0_read :
    toNC (StableHlo.after (opsL3 (F := Ideal)) W (Proc.devRef .tc main_v214))
      = layerR (fun hw => toNC (AGGR (W (Proc.devRef .tc main_v3)) (W (Proc.devRef .tc main_v6)) (W (Proc.devRef .tc main_v27)) (ofNC hw)))
          (toNC (W (Proc.devRef .tc main_v169)))
          (fun c => toM8 (W (Proc.devRef .tc main_arg4)) (3 : Fin 8) c)
          (fun c => toM8 (W (Proc.devRef .tc main_arg5)) (3 : Fin 8) c)
          (fun p q => (W (Proc.devRef .tc main_arg6) : FVec Ideal S8x8x8 .f32) (ix3 (3 : Fin 8) p q))
          (fun c => toM8 (W (Proc.devRef .tc main_arg7)) (3 : Fin 8) c) := by
  rw [after_out, layerT_read, gamma_read, beta_read, slab_read, bias_read]

/-! ## What the stretch keeps -/

set_option maxRecDepth 8192 in
theorem kept_v3 :
    StableHlo.after (opsL3 (F := Ideal)) W (Proc.devRef .tc main_v3) = W (Proc.devRef .tc main_v3) := by
  simp only [StableHlo.after_cons, StableHlo.after_nil]
  rfl

set_option maxRecDepth 8192 in
theorem kept_v6 :
    StableHlo.after (opsL3 (F := Ideal)) W (Proc.devRef .tc main_v6) = W (Proc.devRef .tc main_v6) := by
  simp only [StableHlo.after_cons, StableHlo.after_nil]
  rfl

set_option maxRecDepth 8192 in
theorem kept_v27 :
    StableHlo.after (opsL3 (F := Ideal)) W (Proc.devRef .tc main_v27) = W (Proc.devRef .tc main_v27) := by
  simp only [StableHlo.after_cons, StableHlo.after_nil]
  rfl

set_option maxRecDepth 8192 in
theorem kept_arg0 :
    StableHlo.after (opsL3 (F := Ideal)) W (Proc.devRef .tc main_arg0) = W (Proc.devRef .tc main_arg0) := by
  simp only [StableHlo.after_cons, StableHlo.after_nil]
  rfl

set_option maxRecDepth 8192 in
theorem kept_arg1 :
    StableHlo.after (opsL3 (F := Ideal)) W (Proc.devRef .tc main_arg1) = W (Proc.devRef .tc main_arg1) := by
  simp only [StableHlo.after_cons, StableHlo.after_nil]
  rfl

set_option maxRecDepth 8192 in
theorem kept_arg2 :
    StableHlo.after (opsL3 (F := Ideal)) W (Proc.devRef .tc main_arg2) = W (Proc.devRef .tc main_arg2) := by
  simp only [StableHlo.after_cons, StableHlo.after_nil]
  rfl

set_option maxRecDepth 8192 in
theorem kept_arg3 :
    StableHlo.after (opsL3 (F := Ideal)) W (Proc.devRef .tc main_arg3) = W (Proc.devRef .tc main_arg3) := by
  simp only [StableHlo.after_cons, StableHlo.after_nil]
  rfl

set_option maxRecDepth 8192 in
theorem kept_arg4 :
    StableHlo.after (opsL3 (F := Ideal)) W (Proc.devRef .tc main_arg4) = W (Proc.devRef .tc main_arg4) := by
  simp only [StableHlo.after_cons, StableHlo.after_nil]
  rfl

set_option maxRecDepth 8192 in
theorem kept_arg5 :
    StableHlo.after (opsL3 (F := Ideal)) W (Proc.devRef .tc main_arg5) = W (Proc.devRef .tc main_arg5) := by
  simp only [StableHlo.after_cons, StableHlo.after_nil]
  rfl

set_option maxRecDepth 8192 in
theorem kept_arg6 :
    StableHlo.after (opsL3 (F := Ideal)) W (Proc.devRef .tc main_arg6) = W (Proc.devRef .tc main_arg6) := by
  simp only [StableHlo.after_cons, StableHlo.after_nil]
  rfl

set_option maxRecDepth 8192 in
theorem kept_arg7 :
    StableHlo.after (opsL3 (F := Ideal)) W (Proc.devRef .tc main_arg7) = W (Proc.devRef .tc main_arg7) := by
  simp only [StableHlo.after_cons, StableHlo.after_nil]
  rfl

set_option maxRecDepth 8192 in
theorem kept_arg8 :
    StableHlo.after (opsL3 (F := Ideal)) W (Proc.devRef .tc main_arg8) = W (Proc.devRef .tc main_arg8) := by
  simp only [StableHlo.after_cons, StableHlo.after_nil]
  rfl

set_option maxRecDepth 8192 in
theorem kept_arg9 :
    StableHlo.after (opsL3 (F := Ideal)) W (Proc.devRef .tc main_arg9) = W (Proc.devRef .tc main_arg9) := by
  simp only [StableHlo.after_cons, StableHlo.after_nil]
  rfl

set_option maxRecDepth 8192 in
theorem kept_arg10 :
    StableHlo.after (opsL3 (F := Ideal)) W (Proc.devRef .tc main_arg10) = W (Proc.devRef .tc main_arg10) := by
  simp only [StableHlo.after_cons, StableHlo.after_nil]
  rfl

set_option maxRecDepth 8192 in
theorem kept_arg11 :
    StableHlo.after (opsL3 (F := Ideal)) W (Proc.devRef .tc main_arg11) = W (Proc.devRef .tc main_arg11) := by
  simp only [StableHlo.after_cons, StableHlo.after_nil]
  rfl

end Cert.ReferenceIdeal.Layer3

end
-- ==== Proof.RefLayer4.lean ====
/-
  One layer of the reference program, read at an index. Over any contents `W` the layer's stretch of
  operations starts from, the stretch (the batch statistics, the normalisation with the layer's row of the scale
  and shift parameters, the product with the layer's slab of the weights, the edge aggregation, the residual
  with the layer's row of the bias, the rectifier) leaves in the layer's output buffer the stages' composition
  (Proof/RefStages.lean) of the input array, of the four parameter pieces the stretch cuts out, and of the three
  edge buffers; each piece read at an index is the parameter's entry in the layer's row (slab); so the output,
  node by node and channel by channel, is the specification's layer. The edge buffers and the program's
  arguments are not written by the stretch.
-/
import proofs.«143139_j73710228734964_1_alg».proof.Proof.RefRunA
import proofs.«143139_j73710228734964_1_alg».proof.Proof.RefStages
import Idealize.ShloMosaic.Lib.StableHlo.Run

noncomputable section

namespace Cert.ReferenceIdeal.Layer4

open Cert.ReferenceIdeal Cert.ReferenceIdeal.Gen Cert.ReferenceIdeal.RefRun Cert.ReferenceIdeal.Stages Cert.GCN
open Idealize.ShloMosaic Idealize.ShloMosaic.ValueIdx

variable (W : Valuation τ sig (Elt Ideal))

attribute [local irreducible] Host.reduceAdd Host.gather Host.scatterAdd in
set_option maxRecDepth 8192 in
set_option maxHeartbeats 2000000 in
/-- The layer's output buffer holds the stages' composition, over the input array, the four parameter buffers the
    stretch cuts out, and the three edge buffers. -/
theorem after_out :
    (StableHlo.after (opsL4 (F := Ideal)) W (Proc.devRef .tc main_v259) : A58)
      = layerT (W (Proc.devRef .tc main_v214))
          (StableHlo.after (opsL4 (F := Ideal)) W (Proc.devRef .tc main_v229))
          (StableHlo.after (opsL4 (F := Ideal)) W (Proc.devRef .tc main_v234))
          (StableHlo.after (opsL4 (F := Ideal)) W (Proc.devRef .tc main_v239))
          (StableHlo.after (opsL4 (F := Ideal)) W (Proc.devRef .tc main_v254))
          (W (Proc.devRef .tc main_v3)) (W (Proc.devRef .tc main_v6)) (W (Proc.devRef .tc main_v27)) := by
  after_results_simp
  rfl

set_option maxRecDepth 8192 in
set_option maxHeartbeats 2000000 in
/-- The scale piece is the layer's row of the scale parameter. -/
theorem gamma_read :
    toV8 (StableHlo.after (opsL4 (F := Ideal)) W (Proc.devRef .tc main_v229))
      = fun c => toM8 (W (Proc.devRef .tc main_arg4)) (4 : Fin 8) c := by
  funext c
  show (StableHlo.after (opsL4 (F := Ideal)) W (Proc.devRef .tc main_v229) : V8) (ix1 c)
    = (W (Proc.devRef .tc main_arg4) : M88) (ix2 (4 : Fin 8) c)
  after_results_simp
  exact rowSlice_apply (4 : Fin 8) _ _ _ c

set_option maxRecDepth 8192 in
set_option maxHeartbeats 2000000 in
/-- The shift piece is the layer's row of the shift parameter. -/
theorem beta_read :
    toV8 (StableHlo.after (opsL4 (F := Ideal)) W (Proc.devRef .tc main_v234))
      = fun c => toM8 (W (Proc.devRef .tc main_arg5)) (4 : Fin 8) c := by
  funext c
  show (StableHlo.after (opsL4 (F := Ideal)) W (Proc.devRef .tc main_v234) : V8) (ix1 c)
    = (W (Proc.devRef .tc main_arg5) : M88) (ix2 (4 : Fin 8) c)
  after_results_simp
  exact rowSlice_apply (4 : Fin 8) _ _ _ c

set_option maxRecDepth 8192 in
set_option maxHeartbeats 2000000 in
/-- The weight piece is the layer's slab of the weights. -/
theorem slab_read :
    toM8 (StableHlo.after (opsL4 (F := Ideal)) W (Proc.devRef .tc main_v239))
      = fun p q => (W (Proc.devRef .tc main_arg6) : FVec Ideal S8x8x8 .f32) (ix3 (4 : Fin 8) p q) := by
  funext p q
  show (StableHlo.after (opsL4 (F := Ideal)) W (Proc.devRef .tc main_v239) : M88) (ix2 p q)
    = (W (Proc.devRef .tc main_arg6) : FVec Ideal S8x8x8 .f32) (ix3 (4 : Fin 8) p q)
  after_results_simp
  exact slabSlice_apply (4 : Fin 8) _ _ _ p q

set_option maxRecDepth 8192 in
set_option maxHeartbeats 2000000 in
/-- The bias piece is the layer's row of the bias parameter. -/
theorem bias_read :
    toV8 (StableHlo.after (opsL4 (F := Ideal)) W (Proc.devRef .tc main_v254))
      = fun c => toM8 (W (Proc.devRef .tc main_arg7)) (4 : Fin 8) c := by
  funext c
  show (StableHlo.after (opsL4 (F := Ideal)) W (Proc.devRef .tc main_v254) : V8) (ix1 c)
    = (W (Proc.devRef .tc main_arg7) : M88) (ix2 (4 : Fin 8) c)
  after_results_simp
  exact rowSlice_apply (4 : Fin 8) _ _ _ c

/-- THE LAYER of the reference, read at an index: the layer of the specification over the input array, the
    layer's row of the scale, shift and bias parameters, the layer's slab of the weights, and the aggregation
    over the three edge buffers. -/
theorem layer0_read :
    toNC (StableHlo.after (opsL4 (F := Ideal)) W (Proc.devRef .tc main_v259))
      = layerR (fun hw => toNC (AGGR (W (Proc.devRef .tc main_v3)) (W (Proc.devRef .tc main_v6)) (W (Proc.devRef .tc main_v27)) (ofNC hw)))
          (toNC (W (Proc.devRef .tc main_v214)))
          (fun c => toM8 (W (Proc.devRef .tc main_arg4)) (4 : Fin 8) c)
          (fun c => toM8 (W (Proc.devRef .tc main_arg5)) (4 : Fin 8) c)
          (fun p q => (W (Proc.devRef .tc main_arg6) : FVec Ideal S8x8x8 .f32) (ix3 (4 : Fin 8) p q))
          (fun c => toM8 (W (Proc.devRef .tc main_arg7)) (4 : Fin 8) c) := by
  rw [after_out, layerT_read, gamma_read, beta_read, slab_read, bias_read]

/-! ## What the stretch keeps -/

set_option maxRecDepth 8192 in
theorem kept_v3 :
    StableHlo.after (opsL4 (F := Ideal)) W (Proc.devRef .tc main_v3) = W (Proc.devRef .tc main_v3) := by
  simp only [StableHlo.after_cons, StableHlo.after_nil]
  rfl

set_option maxRecDepth 8192 in
theorem kept_v6 :
    StableHlo.after (opsL4 (F := Ideal)) W (Proc.devRef .tc main_v6) = W (Proc.devRef .tc main_v6) := by
  simp only [StableHlo.after_cons, StableHlo.after_nil]
  rfl

set_option maxRecDepth 8192 in
theorem kept_v27 :
    StableHlo.after (opsL4 (F := Ideal)) W (Proc.devRef .tc main_v27) = W (Proc.devRef .tc main_v27) := by
  simp only [StableHlo.after_cons, StableHlo.after_nil]
  rfl

set_option maxRecDepth 8192 in
theorem kept_arg0 :
    StableHlo.after (opsL4 (F := Ideal)) W (Proc.devRef .tc main_arg0) = W (Proc.devRef .tc main_arg0) := by
  simp only [StableHlo.after_cons, StableHlo.after_nil]
  rfl

set_option maxRecDepth 8192 in
theorem kept_arg1 :
    StableHlo.after (opsL4 (F := Ideal)) W (Proc.devRef .tc main_arg1) = W (Proc.devRef .tc main_arg1) := by
  simp only [StableHlo.after_cons, StableHlo.after_nil]
  rfl

set_option maxRecDepth 8192 in
theorem kept_arg2 :
    StableHlo.after (opsL4 (F := Ideal)) W (Proc.devRef .tc main_arg2) = W (Proc.devRef .tc main_arg2) := by
  simp only [StableHlo.after_cons, StableHlo.after_nil]
  rfl

set_option maxRecDepth 8192 in
theorem kept_arg3 :
    StableHlo.after (opsL4 (F := Ideal)) W (Proc.devRef .tc main_arg3) = W (Proc.devRef .tc main_arg3) := by
  simp only [StableHlo.after_cons, StableHlo.after_nil]
  rfl

set_option maxRecDepth 8192 in
theorem kept_arg4 :
    StableHlo.after (opsL4 (F := Ideal)) W (Proc.devRef .tc main_arg4) = W (Proc.devRef .tc main_arg4) := by
  simp only [StableHlo.after_cons, StableHlo.after_nil]
  rfl

set_option maxRecDepth 8192 in
theorem kept_arg5 :
    StableHlo.after (opsL4 (F := Ideal)) W (Proc.devRef .tc main_arg5) = W (Proc.devRef .tc main_arg5) := by
  simp only [StableHlo.after_cons, StableHlo.after_nil]
  rfl

set_option maxRecDepth 8192 in
theorem kept_arg6 :
    StableHlo.after (opsL4 (F := Ideal)) W (Proc.devRef .tc main_arg6) = W (Proc.devRef .tc main_arg6) := by
  simp only [StableHlo.after_cons, StableHlo.after_nil]
  rfl

set_option maxRecDepth 8192 in
theorem kept_arg7 :
    StableHlo.after (opsL4 (F := Ideal)) W (Proc.devRef .tc main_arg7) = W (Proc.devRef .tc main_arg7) := by
  simp only [StableHlo.after_cons, StableHlo.after_nil]
  rfl

set_option maxRecDepth 8192 in
theorem kept_arg8 :
    StableHlo.after (opsL4 (F := Ideal)) W (Proc.devRef .tc main_arg8) = W (Proc.devRef .tc main_arg8) := by
  simp only [StableHlo.after_cons, StableHlo.after_nil]
  rfl

set_option maxRecDepth 8192 in
theorem kept_arg9 :
    StableHlo.after (opsL4 (F := Ideal)) W (Proc.devRef .tc main_arg9) = W (Proc.devRef .tc main_arg9) := by
  simp only [StableHlo.after_cons, StableHlo.after_nil]
  rfl

set_option maxRecDepth 8192 in
theorem kept_arg10 :
    StableHlo.after (opsL4 (F := Ideal)) W (Proc.devRef .tc main_arg10) = W (Proc.devRef .tc main_arg10) := by
  simp only [StableHlo.after_cons, StableHlo.after_nil]
  rfl

set_option maxRecDepth 8192 in
theorem kept_arg11 :
    StableHlo.after (opsL4 (F := Ideal)) W (Proc.devRef .tc main_arg11) = W (Proc.devRef .tc main_arg11) := by
  simp only [StableHlo.after_cons, StableHlo.after_nil]
  rfl

end Cert.ReferenceIdeal.Layer4

end
-- ==== Proof.RefLayer5.lean ====
/-
  One layer of the reference program, read at an index. Over any contents `W` the layer's stretch of
  operations starts from, the stretch (the batch statistics, the normalisation with the layer's row of the scale
  and shift parameters, the product with the layer's slab of the weights, the edge aggregation, the residual
  with the layer's row of the bias, the rectifier) leaves in the layer's output buffer the stages' composition
  (Proof/RefStages.lean) of the input array, of the four parameter pieces the stretch cuts out, and of the three
  edge buffers; each piece read at an index is the parameter's entry in the layer's row (slab); so the output,
  node by node and channel by channel, is the specification's layer. The edge buffers and the program's
  arguments are not written by the stretch.
-/
import proofs.«143139_j73710228734964_1_alg».proof.Proof.RefRunA
import proofs.«143139_j73710228734964_1_alg».proof.Proof.RefStages
import Idealize.ShloMosaic.Lib.StableHlo.Run

noncomputable section

namespace Cert.ReferenceIdeal.Layer5

open Cert.ReferenceIdeal Cert.ReferenceIdeal.Gen Cert.ReferenceIdeal.RefRun Cert.ReferenceIdeal.Stages Cert.GCN
open Idealize.ShloMosaic Idealize.ShloMosaic.ValueIdx

variable (W : Valuation τ sig (Elt Ideal))

attribute [local irreducible] Host.reduceAdd Host.gather Host.scatterAdd in
set_option maxRecDepth 8192 in
set_option maxHeartbeats 2000000 in
/-- The layer's output buffer holds the stages' composition, over the input array, the four parameter buffers the
    stretch cuts out, and the three edge buffers. -/
theorem after_out :
    (StableHlo.after (opsL5 (F := Ideal)) W (Proc.devRef .tc main_v304) : A58)
      = layerT (W (Proc.devRef .tc main_v259))
          (StableHlo.after (opsL5 (F := Ideal)) W (Proc.devRef .tc main_v274))
          (StableHlo.after (opsL5 (F := Ideal)) W (Proc.devRef .tc main_v279))
          (StableHlo.after (opsL5 (F := Ideal)) W (Proc.devRef .tc main_v284))
          (StableHlo.after (opsL5 (F := Ideal)) W (Proc.devRef .tc main_v299))
          (W (Proc.devRef .tc main_v3)) (W (Proc.devRef .tc main_v6)) (W (Proc.devRef .tc main_v27)) := by
  after_results_simp
  rfl

set_option maxRecDepth 8192 in
set_option maxHeartbeats 2000000 in
/-- The scale piece is the layer's row of the scale parameter. -/
theorem gamma_read :
    toV8 (StableHlo.after (opsL5 (F := Ideal)) W (Proc.devRef .tc main_v274))
      = fun c => toM8 (W (Proc.devRef .tc main_arg4)) (5 : Fin 8) c := by
  funext c
  show (StableHlo.after (opsL5 (F := Ideal)) W (Proc.devRef .tc main_v274) : V8) (ix1 c)
    = (W (Proc.devRef .tc main_arg4) : M88) (ix2 (5 : Fin 8) c)
  after_results_simp
  exact rowSlice_apply (5 : Fin 8) _ _ _ c

set_option maxRecDepth 8192 in
set_option maxHeartbeats 2000000 in
/-- The shift piece is the layer's row of the shift parameter. -/
theorem beta_read :
    toV8 (StableHlo.after (opsL5 (F := Ideal)) W (Proc.devRef .tc main_v279))
      = fun c => toM8 (W (Proc.devRef .tc main_arg5)) (5 : Fin 8) c := by
  funext c
  show (StableHlo.after (opsL5 (F := Ideal)) W (Proc.devRef .tc main_v279) : V8) (ix1 c)
    = (W (Proc.devRef .tc main_arg5) : M88) (ix2 (5 : Fin 8) c)
  after_results_simp
  exact rowSlice_apply (5 : Fin 8) _ _ _ c

set_option maxRecDepth 8192 in
set_option maxHeartbeats 2000000 in
/-- The weight piece is the layer's slab of the weights. -/
theorem slab_read :
    toM8 (StableHlo.after (opsL5 (F := Ideal)) W (Proc.devRef .tc main_v284))
      = fun p q => (W (Proc.devRef .tc main_arg6) : FVec Ideal S8x8x8 .f32) (ix3 (5 : Fin 8) p q) := by
  funext p q
  show (StableHlo.after (opsL5 (F := Ideal)) W (Proc.devRef .tc main_v284) : M88) (ix2 p q)
    = (W (Proc.devRef .tc main_arg6) : FVec Ideal S8x8x8 .f32) (ix3 (5 : Fin 8) p q)
  after_results_simp
  exact slabSlice_apply (5 : Fin 8) _ _ _ p q

set_option maxRecDepth 8192 in
set_option maxHeartbeats 2000000 in
/-- The bias piece is the layer's row of the bias parameter. -/
theorem bias_read :
    toV8 (StableHlo.after (opsL5 (F := Ideal)) W (Proc.devRef .tc main_v299))
      = fun c => toM8 (W (Proc.devRef .tc main_arg7)) (5 : Fin 8) c := by
  funext c
  show (StableHlo.after (opsL5 (F := Ideal)) W (Proc.devRef .tc main_v299) : V8) (ix1 c)
    = (W (Proc.devRef .tc main_arg7) : M88) (ix2 (5 : Fin 8) c)
  after_results_simp
  exact rowSlice_apply (5 : Fin 8) _ _ _ c

/-- THE LAYER of the reference, read at an index: the layer of the specification over the input array, the
    layer's row of the scale, shift and bias parameters, the layer's slab of the weights, and the aggregation
    over the three edge buffers. -/
theorem layer0_read :
    toNC (StableHlo.after (opsL5 (F := Ideal)) W (Proc.devRef .tc main_v304))
      = layerR (fun hw => toNC (AGGR (W (Proc.devRef .tc main_v3)) (W (Proc.devRef .tc main_v6)) (W (Proc.devRef .tc main_v27)) (ofNC hw)))
          (toNC (W (Proc.devRef .tc main_v259)))
          (fun c => toM8 (W (Proc.devRef .tc main_arg4)) (5 : Fin 8) c)
          (fun c => toM8 (W (Proc.devRef .tc main_arg5)) (5 : Fin 8) c)
          (fun p q => (W (Proc.devRef .tc main_arg6) : FVec Ideal S8x8x8 .f32) (ix3 (5 : Fin 8) p q))
          (fun c => toM8 (W (Proc.devRef .tc main_arg7)) (5 : Fin 8) c) := by
  rw [after_out, layerT_read, gamma_read, beta_read, slab_read, bias_read]

/-! ## What the stretch keeps -/

set_option maxRecDepth 8192 in
theorem kept_v3 :
    StableHlo.after (opsL5 (F := Ideal)) W (Proc.devRef .tc main_v3) = W (Proc.devRef .tc main_v3) := by
  simp only [StableHlo.after_cons, StableHlo.after_nil]
  rfl

set_option maxRecDepth 8192 in
theorem kept_v6 :
    StableHlo.after (opsL5 (F := Ideal)) W (Proc.devRef .tc main_v6) = W (Proc.devRef .tc main_v6) := by
  simp only [StableHlo.after_cons, StableHlo.after_nil]
  rfl

set_option maxRecDepth 8192 in
theorem kept_v27 :
    StableHlo.after (opsL5 (F := Ideal)) W (Proc.devRef .tc main_v27) = W (Proc.devRef .tc main_v27) := by
  simp only [StableHlo.after_cons, StableHlo.after_nil]
  rfl

set_option maxRecDepth 8192 in
theorem kept_arg0 :
    StableHlo.after (opsL5 (F := Ideal)) W (Proc.devRef .tc main_arg0) = W (Proc.devRef .tc main_arg0) := by
  simp only [StableHlo.after_cons, StableHlo.after_nil]
  rfl

set_option maxRecDepth 8192 in
theorem kept_arg1 :
    StableHlo.after (opsL5 (F := Ideal)) W (Proc.devRef .tc main_arg1) = W (Proc.devRef .tc main_arg1) := by
  simp only [StableHlo.after_cons, StableHlo.after_nil]
  rfl

set_option maxRecDepth 8192 in
theorem kept_arg2 :
    StableHlo.after (opsL5 (F := Ideal)) W (Proc.devRef .tc main_arg2) = W (Proc.devRef .tc main_arg2) := by
  simp only [StableHlo.after_cons, StableHlo.after_nil]
  rfl

set_option maxRecDepth 8192 in
theorem kept_arg3 :
    StableHlo.after (opsL5 (F := Ideal)) W (Proc.devRef .tc main_arg3) = W (Proc.devRef .tc main_arg3) := by
  simp only [StableHlo.after_cons, StableHlo.after_nil]
  rfl

set_option maxRecDepth 8192 in
theorem kept_arg4 :
    StableHlo.after (opsL5 (F := Ideal)) W (Proc.devRef .tc main_arg4) = W (Proc.devRef .tc main_arg4) := by
  simp only [StableHlo.after_cons, StableHlo.after_nil]
  rfl

set_option maxRecDepth 8192 in
theorem kept_arg5 :
    StableHlo.after (opsL5 (F := Ideal)) W (Proc.devRef .tc main_arg5) = W (Proc.devRef .tc main_arg5) := by
  simp only [StableHlo.after_cons, StableHlo.after_nil]
  rfl

set_option maxRecDepth 8192 in
theorem kept_arg6 :
    StableHlo.after (opsL5 (F := Ideal)) W (Proc.devRef .tc main_arg6) = W (Proc.devRef .tc main_arg6) := by
  simp only [StableHlo.after_cons, StableHlo.after_nil]
  rfl

set_option maxRecDepth 8192 in
theorem kept_arg7 :
    StableHlo.after (opsL5 (F := Ideal)) W (Proc.devRef .tc main_arg7) = W (Proc.devRef .tc main_arg7) := by
  simp only [StableHlo.after_cons, StableHlo.after_nil]
  rfl

set_option maxRecDepth 8192 in
theorem kept_arg8 :
    StableHlo.after (opsL5 (F := Ideal)) W (Proc.devRef .tc main_arg8) = W (Proc.devRef .tc main_arg8) := by
  simp only [StableHlo.after_cons, StableHlo.after_nil]
  rfl

set_option maxRecDepth 8192 in
theorem kept_arg9 :
    StableHlo.after (opsL5 (F := Ideal)) W (Proc.devRef .tc main_arg9) = W (Proc.devRef .tc main_arg9) := by
  simp only [StableHlo.after_cons, StableHlo.after_nil]
  rfl

set_option maxRecDepth 8192 in
theorem kept_arg10 :
    StableHlo.after (opsL5 (F := Ideal)) W (Proc.devRef .tc main_arg10) = W (Proc.devRef .tc main_arg10) := by
  simp only [StableHlo.after_cons, StableHlo.after_nil]
  rfl

set_option maxRecDepth 8192 in
theorem kept_arg11 :
    StableHlo.after (opsL5 (F := Ideal)) W (Proc.devRef .tc main_arg11) = W (Proc.devRef .tc main_arg11) := by
  simp only [StableHlo.after_cons, StableHlo.after_nil]
  rfl

end Cert.ReferenceIdeal.Layer5

end
-- ==== Proof.RefLayer6.lean ====
/-
  One layer of the reference program, read at an index. Over any contents `W` the layer's stretch of
  operations starts from, the stretch (the batch statistics, the normalisation with the layer's row of the scale
  and shift parameters, the product with the layer's slab of the weights, the edge aggregation, the residual
  with the layer's row of the bias, the rectifier) leaves in the layer's output buffer the stages' composition
  (Proof/RefStages.lean) of the input array, of the four parameter pieces the stretch cuts out, and of the three
  edge buffers; each piece read at an index is the parameter's entry in the layer's row (slab); so the output,
  node by node and channel by channel, is the specification's layer. The edge buffers and the program's
  arguments are not written by the stretch.
-/
import proofs.«143139_j73710228734964_1_alg».proof.Proof.RefRunA
import proofs.«143139_j73710228734964_1_alg».proof.Proof.RefStages
import Idealize.ShloMosaic.Lib.StableHlo.Run

noncomputable section

namespace Cert.ReferenceIdeal.Layer6

open Cert.ReferenceIdeal Cert.ReferenceIdeal.Gen Cert.ReferenceIdeal.RefRun Cert.ReferenceIdeal.Stages Cert.GCN
open Idealize.ShloMosaic Idealize.ShloMosaic.ValueIdx

variable (W : Valuation τ sig (Elt Ideal))

attribute [local irreducible] Host.reduceAdd Host.gather Host.scatterAdd in
set_option maxRecDepth 8192 in
set_option maxHeartbeats 2000000 in
/-- The layer's output buffer holds the stages' composition, over the input array, the four parameter buffers the
    stretch cuts out, and the three edge buffers. -/
theorem after_out :
    (StableHlo.after (opsL6 (F := Ideal)) W (Proc.devRef .tc main_v349) : A58)
      = layerT (W (Proc.devRef .tc main_v304))
          (StableHlo.after (opsL6 (F := Ideal)) W (Proc.devRef .tc main_v319))
          (StableHlo.after (opsL6 (F := Ideal)) W (Proc.devRef .tc main_v324))
          (StableHlo.after (opsL6 (F := Ideal)) W (Proc.devRef .tc main_v329))
          (StableHlo.after (opsL6 (F := Ideal)) W (Proc.devRef .tc main_v344))
          (W (Proc.devRef .tc main_v3)) (W (Proc.devRef .tc main_v6)) (W (Proc.devRef .tc main_v27)) := by
  after_results_simp
  rfl

set_option maxRecDepth 8192 in
set_option maxHeartbeats 2000000 in
/-- The scale piece is the layer's row of the scale parameter. -/
theorem gamma_read :
    toV8 (StableHlo.after (opsL6 (F := Ideal)) W (Proc.devRef .tc main_v319))
      = fun c => toM8 (W (Proc.devRef .tc main_arg4)) (6 : Fin 8) c := by
  funext c
  show (StableHlo.after (opsL6 (F := Ideal)) W (Proc.devRef .tc main_v319) : V8) (ix1 c)
    = (W (Proc.devRef .tc main_arg4) : M88) (ix2 (6 : Fin 8) c)
  after_results_simp
  exact rowSlice_apply (6 : Fin 8) _ _ _ c

set_option maxRecDepth 8192 in
set_option maxHeartbeats 2000000 in
/-- The shift piece is the layer's row of the shift parameter. -/
theorem beta_read :
    toV8 (StableHlo.after (opsL6 (F := Ideal)) W (Proc.devRef .tc main_v324))
      = fun c => toM8 (W (Proc.devRef .tc main_arg5)) (6 : Fin 8) c := by
  funext c
  show (StableHlo.after (opsL6 (F := Ideal)) W (Proc.devRef .tc main_v324) : V8) (ix1 c)
    = (W (Proc.devRef .tc main_arg5) : M88) (ix2 (6 : Fin 8) c)
  after_results_simp
  exact rowSlice_apply (6 : Fin 8) _ _ _ c

set_option maxRecDepth 8192 in
set_option maxHeartbeats 2000000 in
/-- The weight piece is the layer's slab of the weights. -/
theorem slab_read :
    toM8 (StableHlo.after (opsL6 (F := Ideal)) W (Proc.devRef .tc main_v329))
      = fun p q => (W (Proc.devRef .tc main_arg6) : FVec Ideal S8x8x8 .f32) (ix3 (6 : Fin 8) p q) := by
  funext p q
  show (StableHlo.after (opsL6 (F := Ideal)) W (Proc.devRef .tc main_v329) : M88) (ix2 p q)
    = (W (Proc.devRef .tc main_arg6) : FVec Ideal S8x8x8 .f32) (ix3 (6 : Fin 8) p q)
  after_results_simp
  exact slabSlice_apply (6 : Fin 8) _ _ _ p q

set_option maxRecDepth 8192 in
set_option maxHeartbeats 2000000 in
/-- The bias piece is the layer's row of the bias parameter. -/
theorem bias_read :
    toV8 (StableHlo.after (opsL6 (F := Ideal)) W (Proc.devRef .tc main_v344))
      = fun c => toM8 (W (Proc.devRef .tc main_arg7)) (6 : Fin 8) c := by
  funext c
  show (StableHlo.after (opsL6 (F := Ideal)) W (Proc.devRef .tc main_v344) : V8) (ix1 c)
    = (W (Proc.devRef .tc main_arg7) : M88) (ix2 (6 : Fin 8) c)
  after_results_simp
  exact rowSlice_apply (6 : Fin 8) _ _ _ c

/-- THE LAYER of the reference, read at an index: the layer of the specification over the input array, the
    layer's row of the scale, shift and bias parameters, the layer's slab of the weights, and the aggregation
    over the three edge buffers. -/
theorem layer0_read :
    toNC (StableHlo.after (opsL6 (F := Ideal)) W (Proc.devRef .tc main_v349))
      = layerR (fun hw => toNC (AGGR (W (Proc.devRef .tc main_v3)) (W (Proc.devRef .tc main_v6)) (W (Proc.devRef .tc main_v27)) (ofNC hw)))
          (toNC (W (Proc.devRef .tc main_v304)))
          (fun c => toM8 (W (Proc.devRef .tc main_arg4)) (6 : Fin 8) c)
          (fun c => toM8 (W (Proc.devRef .tc main_arg5)) (6 : Fin 8) c)
          (fun p q => (W (Proc.devRef .tc main_arg6) : FVec Ideal S8x8x8 .f32) (ix3 (6 : Fin 8) p q))
          (fun c => toM8 (W (Proc.devRef .tc main_arg7)) (6 : Fin 8) c) := by
  rw [after_out, layerT_read, gamma_read, beta_read, slab_read, bias_read]

/-! ## What the stretch keeps -/

set_option maxRecDepth 8192 in
theorem kept_v3 :
    StableHlo.after (opsL6 (F := Ideal)) W (Proc.devRef .tc main_v3) = W (Proc.devRef .tc main_v3) := by
  simp only [StableHlo.after_cons, StableHlo.after_nil]
  rfl

set_option maxRecDepth 8192 in
theorem kept_v6 :
    StableHlo.after (opsL6 (F := Ideal)) W (Proc.devRef .tc main_v6) = W (Proc.devRef .tc main_v6) := by
  simp only [StableHlo.after_cons, StableHlo.after_nil]
  rfl

set_option maxRecDepth 8192 in
theorem kept_v27 :
    StableHlo.after (opsL6 (F := Ideal)) W (Proc.devRef .tc main_v27) = W (Proc.devRef .tc main_v27) := by
  simp only [StableHlo.after_cons, StableHlo.after_nil]
  rfl

set_option maxRecDepth 8192 in
theorem kept_arg0 :
    StableHlo.after (opsL6 (F := Ideal)) W (Proc.devRef .tc main_arg0) = W (Proc.devRef .tc main_arg0) := by
  simp only [StableHlo.after_cons, StableHlo.after_nil]
  rfl

set_option maxRecDepth 8192 in
theorem kept_arg1 :
    StableHlo.after (opsL6 (F := Ideal)) W (Proc.devRef .tc main_arg1) = W (Proc.devRef .tc main_arg1) := by
  simp only [StableHlo.after_cons, StableHlo.after_nil]
  rfl

set_option maxRecDepth 8192 in
theorem kept_arg2 :
    StableHlo.after (opsL6 (F := Ideal)) W (Proc.devRef .tc main_arg2) = W (Proc.devRef .tc main_arg2) := by
  simp only [StableHlo.after_cons, StableHlo.after_nil]
  rfl

set_option maxRecDepth 8192 in
theorem kept_arg3 :
    StableHlo.after (opsL6 (F := Ideal)) W (Proc.devRef .tc main_arg3) = W (Proc.devRef .tc main_arg3) := by
  simp only [StableHlo.after_cons, StableHlo.after_nil]
  rfl

set_option maxRecDepth 8192 in
theorem kept_arg4 :
    StableHlo.after (opsL6 (F := Ideal)) W (Proc.devRef .tc main_arg4) = W (Proc.devRef .tc main_arg4) := by
  simp only [StableHlo.after_cons, StableHlo.after_nil]
  rfl

set_option maxRecDepth 8192 in
theorem kept_arg5 :
    StableHlo.after (opsL6 (F := Ideal)) W (Proc.devRef .tc main_arg5) = W (Proc.devRef .tc main_arg5) := by
  simp only [StableHlo.after_cons, StableHlo.after_nil]
  rfl

set_option maxRecDepth 8192 in
theorem kept_arg6 :
    StableHlo.after (opsL6 (F := Ideal)) W (Proc.devRef .tc main_arg6) = W (Proc.devRef .tc main_arg6) := by
  simp only [StableHlo.after_cons, StableHlo.after_nil]
  rfl

set_option maxRecDepth 8192 in
theorem kept_arg7 :
    StableHlo.after (opsL6 (F := Ideal)) W (Proc.devRef .tc main_arg7) = W (Proc.devRef .tc main_arg7) := by
  simp only [StableHlo.after_cons, StableHlo.after_nil]
  rfl

set_option maxRecDepth 8192 in
theorem kept_arg8 :
    StableHlo.after (opsL6 (F := Ideal)) W (Proc.devRef .tc main_arg8) = W (Proc.devRef .tc main_arg8) := by
  simp only [StableHlo.after_cons, StableHlo.after_nil]
  rfl

set_option maxRecDepth 8192 in
theorem kept_arg9 :
    StableHlo.after (opsL6 (F := Ideal)) W (Proc.devRef .tc main_arg9) = W (Proc.devRef .tc main_arg9) := by
  simp only [StableHlo.after_cons, StableHlo.after_nil]
  rfl

set_option maxRecDepth 8192 in
theorem kept_arg10 :
    StableHlo.after (opsL6 (F := Ideal)) W (Proc.devRef .tc main_arg10) = W (Proc.devRef .tc main_arg10) := by
  simp only [StableHlo.after_cons, StableHlo.after_nil]
  rfl

set_option maxRecDepth 8192 in
theorem kept_arg11 :
    StableHlo.after (opsL6 (F := Ideal)) W (Proc.devRef .tc main_arg11) = W (Proc.devRef .tc main_arg11) := by
  simp only [StableHlo.after_cons, StableHlo.after_nil]
  rfl

end Cert.ReferenceIdeal.Layer6

end
-- ==== Proof.RefLayer7.lean ====
/-
  One layer of the reference program, read at an index. Over any contents `W` the layer's stretch of
  operations starts from, the stretch (the batch statistics, the normalisation with the layer's row of the scale
  and shift parameters, the product with the layer's slab of the weights, the edge aggregation, the residual
  with the layer's row of the bias, the rectifier) leaves in the layer's output buffer the stages' composition
  (Proof/RefStages.lean) of the input array, of the four parameter pieces the stretch cuts out, and of the three
  edge buffers; each piece read at an index is the parameter's entry in the layer's row (slab); so the output,
  node by node and channel by channel, is the specification's layer. The edge buffers and the program's
  arguments are not written by the stretch.
-/
import proofs.«143139_j73710228734964_1_alg».proof.Proof.RefRunA
import proofs.«143139_j73710228734964_1_alg».proof.Proof.RefStages
import Idealize.ShloMosaic.Lib.StableHlo.Run

noncomputable section

namespace Cert.ReferenceIdeal.Layer7

open Cert.ReferenceIdeal Cert.ReferenceIdeal.Gen Cert.ReferenceIdeal.RefRun Cert.ReferenceIdeal.Stages Cert.GCN
open Idealize.ShloMosaic Idealize.ShloMosaic.ValueIdx

variable (W : Valuation τ sig (Elt Ideal))

attribute [local irreducible] Host.reduceAdd Host.gather Host.scatterAdd in
set_option maxRecDepth 8192 in
set_option maxHeartbeats 2000000 in
/-- The layer's output buffer holds the stages' composition, over the input array, the four parameter buffers the
    stretch cuts out, and the three edge buffers. -/
theorem after_out :
    (StableHlo.after (opsL7 (F := Ideal)) W (Proc.devRef .tc main_v394) : A58)
      = layerT (W (Proc.devRef .tc main_v349))
          (StableHlo.after (opsL7 (F := Ideal)) W (Proc.devRef .tc main_v364))
          (StableHlo.after (opsL7 (F := Ideal)) W (Proc.devRef .tc main_v369))
          (StableHlo.after (opsL7 (F := Ideal)) W (Proc.devRef .tc main_v374))
          (StableHlo.after (opsL7 (F := Ideal)) W (Proc.devRef .tc main_v389))
          (W (Proc.devRef .tc main_v3)) (W (Proc.devRef .tc main_v6)) (W (Proc.devRef .tc main_v27)) := by
  after_results_simp
  rfl

set_option maxRecDepth 8192 in
set_option maxHeartbeats 2000000 in
/-- The scale piece is the layer's row of the scale parameter. -/
theorem gamma_read :
    toV8 (StableHlo.after (opsL7 (F := Ideal)) W (Proc.devRef .tc main_v364))
      = fun c => toM8 (W (Proc.devRef .tc main_arg4)) (7 : Fin 8) c := by
  funext c
  show (StableHlo.after (opsL7 (F := Ideal)) W (Proc.devRef .tc main_v364) : V8) (ix1 c)
    = (W (Proc.devRef .tc main_arg4) : M88) (ix2 (7 : Fin 8) c)
  after_results_simp
  exact rowSlice_apply (7 : Fin 8) _ _ _ c

set_option maxRecDepth 8192 in
set_option maxHeartbeats 2000000 in
/-- The shift piece is the layer's row of the shift parameter. -/
theorem beta_read :
    toV8 (StableHlo.after (opsL7 (F := Ideal)) W (Proc.devRef .tc main_v369))
      = fun c => toM8 (W (Proc.devRef .tc main_arg5)) (7 : Fin 8) c := by
  funext c
  show (StableHlo.after (opsL7 (F := Ideal)) W (Proc.devRef .tc main_v369) : V8) (ix1 c)
    = (W (Proc.devRef .tc main_arg5) : M88) (ix2 (7 : Fin 8) c)
  after_results_simp
  exact rowSlice_apply (7 : Fin 8) _ _ _ c

set_option maxRecDepth 8192 in
set_option maxHeartbeats 2000000 in
/-- The weight piece is the layer's slab of the weights. -/
theorem slab_read :
    toM8 (StableHlo.after (opsL7 (F := Ideal)) W (Proc.devRef .tc main_v374))
      = fun p q => (W (Proc.devRef .tc main_arg6) : FVec Ideal S8x8x8 .f32) (ix3 (7 : Fin 8) p q) := by
  funext p q
  show (StableHlo.after (opsL7 (F := Ideal)) W (Proc.devRef .tc main_v374) : M88) (ix2 p q)
    = (W (Proc.devRef .tc main_arg6) : FVec Ideal S8x8x8 .f32) (ix3 (7 : Fin 8) p q)
  after_results_simp
  exact slabSlice_apply (7 : Fin 8) _ _ _ p q

set_option maxRecDepth 8192 in
set_option maxHeartbeats 2000000 in
/-- The bias piece is the layer's row of the bias parameter. -/
theorem bias_read :
    toV8 (StableHlo.after (opsL7 (F := Ideal)) W (Proc.devRef .tc main_v389))
      = fun c => toM8 (W (Proc.devRef .tc main_arg7)) (7 : Fin 8) c := by
  funext c
  show (StableHlo.after (opsL7 (F := Ideal)) W (Proc.devRef .tc main_v389) : V8) (ix1 c)
    = (W (Proc.devRef .tc main_arg7) : M88) (ix2 (7 : Fin 8) c)
  after_results_simp
  exact rowSlice_apply (7 : Fin 8) _ _ _ c

/-- THE LAYER of the reference, read at an index: the layer of the specification over the input array, the
    layer's row of the scale, shift and bias parameters, the layer's slab of the weights, and the aggregation
    over the three edge buffers. -/
theorem layer0_read :
    toNC (StableHlo.after (opsL7 (F := Ideal)) W (Proc.devRef .tc main_v394))
      = layerR (fun hw => toNC (AGGR (W (Proc.devRef .tc main_v3)) (W (Proc.devRef .tc main_v6)) (W (Proc.devRef .tc main_v27)) (ofNC hw)))
          (toNC (W (Proc.devRef .tc main_v349)))
          (fun c => toM8 (W (Proc.devRef .tc main_arg4)) (7 : Fin 8) c)
          (fun c => toM8 (W (Proc.devRef .tc main_arg5)) (7 : Fin 8) c)
          (fun p q => (W (Proc.devRef .tc main_arg6) : FVec Ideal S8x8x8 .f32) (ix3 (7 : Fin 8) p q))
          (fun c => toM8 (W (Proc.devRef .tc main_arg7)) (7 : Fin 8) c) := by
  rw [after_out, layerT_read, gamma_read, beta_read, slab_read, bias_read]

/-! ## What the stretch keeps -/

set_option maxRecDepth 8192 in
theorem kept_v3 :
    StableHlo.after (opsL7 (F := Ideal)) W (Proc.devRef .tc main_v3) = W (Proc.devRef .tc main_v3) := by
  simp only [StableHlo.after_cons, StableHlo.after_nil]
  rfl

set_option maxRecDepth 8192 in
theorem kept_v6 :
    StableHlo.after (opsL7 (F := Ideal)) W (Proc.devRef .tc main_v6) = W (Proc.devRef .tc main_v6) := by
  simp only [StableHlo.after_cons, StableHlo.after_nil]
  rfl

set_option maxRecDepth 8192 in
theorem kept_v27 :
    StableHlo.after (opsL7 (F := Ideal)) W (Proc.devRef .tc main_v27) = W (Proc.devRef .tc main_v27) := by
  simp only [StableHlo.after_cons, StableHlo.after_nil]
  rfl

set_option maxRecDepth 8192 in
theorem kept_arg0 :
    StableHlo.after (opsL7 (F := Ideal)) W (Proc.devRef .tc main_arg0) = W (Proc.devRef .tc main_arg0) := by
  simp only [StableHlo.after_cons, StableHlo.after_nil]
  rfl

set_option maxRecDepth 8192 in
theorem kept_arg1 :
    StableHlo.after (opsL7 (F := Ideal)) W (Proc.devRef .tc main_arg1) = W (Proc.devRef .tc main_arg1) := by
  simp only [StableHlo.after_cons, StableHlo.after_nil]
  rfl

set_option maxRecDepth 8192 in
theorem kept_arg2 :
    StableHlo.after (opsL7 (F := Ideal)) W (Proc.devRef .tc main_arg2) = W (Proc.devRef .tc main_arg2) := by
  simp only [StableHlo.after_cons, StableHlo.after_nil]
  rfl

set_option maxRecDepth 8192 in
theorem kept_arg3 :
    StableHlo.after (opsL7 (F := Ideal)) W (Proc.devRef .tc main_arg3) = W (Proc.devRef .tc main_arg3) := by
  simp only [StableHlo.after_cons, StableHlo.after_nil]
  rfl

set_option maxRecDepth 8192 in
theorem kept_arg4 :
    StableHlo.after (opsL7 (F := Ideal)) W (Proc.devRef .tc main_arg4) = W (Proc.devRef .tc main_arg4) := by
  simp only [StableHlo.after_cons, StableHlo.after_nil]
  rfl

set_option maxRecDepth 8192 in
theorem kept_arg5 :
    StableHlo.after (opsL7 (F := Ideal)) W (Proc.devRef .tc main_arg5) = W (Proc.devRef .tc main_arg5) := by
  simp only [StableHlo.after_cons, StableHlo.after_nil]
  rfl

set_option maxRecDepth 8192 in
theorem kept_arg6 :
    StableHlo.after (opsL7 (F := Ideal)) W (Proc.devRef .tc main_arg6) = W (Proc.devRef .tc main_arg6) := by
  simp only [StableHlo.after_cons, StableHlo.after_nil]
  rfl

set_option maxRecDepth 8192 in
theorem kept_arg7 :
    StableHlo.after (opsL7 (F := Ideal)) W (Proc.devRef .tc main_arg7) = W (Proc.devRef .tc main_arg7) := by
  simp only [StableHlo.after_cons, StableHlo.after_nil]
  rfl

set_option maxRecDepth 8192 in
theorem kept_arg8 :
    StableHlo.after (opsL7 (F := Ideal)) W (Proc.devRef .tc main_arg8) = W (Proc.devRef .tc main_arg8) := by
  simp only [StableHlo.after_cons, StableHlo.after_nil]
  rfl

set_option maxRecDepth 8192 in
theorem kept_arg9 :
    StableHlo.after (opsL7 (F := Ideal)) W (Proc.devRef .tc main_arg9) = W (Proc.devRef .tc main_arg9) := by
  simp only [StableHlo.after_cons, StableHlo.after_nil]
  rfl

set_option maxRecDepth 8192 in
theorem kept_arg10 :
    StableHlo.after (opsL7 (F := Ideal)) W (Proc.devRef .tc main_arg10) = W (Proc.devRef .tc main_arg10) := by
  simp only [StableHlo.after_cons, StableHlo.after_nil]
  rfl

set_option maxRecDepth 8192 in
theorem kept_arg11 :
    StableHlo.after (opsL7 (F := Ideal)) W (Proc.devRef .tc main_arg11) = W (Proc.devRef .tc main_arg11) := by
  simp only [StableHlo.after_cons, StableHlo.after_nil]
  rfl

end Cert.ReferenceIdeal.Layer7

end
-- ==== Proof.RefChain.lean ====
/-
  The reference's eight layers as one chain. Each layer's stretch of operations, read at the contents the stretches
  before it leave, is one layer of the specification (Proof/RefLayer0.lean … RefLayer7.lean): over the array the previous
  layer wrote, the edge aggregation (Proof/RefStages.lean) over the three edge buffers the first list makes, and row `j` of the parameter
  arguments. No layer writes an edge buffer and no list writes an argument, so every layer reads the same aggregation
  and the launch contents of the parameters: the last layer's output is eight steps of the recursion `iterR`
  (Proof/ChainMath.lean) from the embedding rows.
-/
import proofs.«143139_j73710228734964_1_alg».proof.Proof.RefRun
import proofs.«143139_j73710228734964_1_alg».proof.Proof.ChainMath
import proofs.«143139_j73710228734964_1_alg».proof.Proof.Conv
import proofs.«143139_j73710228734964_1_alg».proof.Proof.RefStages
import proofs.«143139_j73710228734964_1_alg».proof.Proof.RefLayer0
import proofs.«143139_j73710228734964_1_alg».proof.Proof.RefLayer1
import proofs.«143139_j73710228734964_1_alg».proof.Proof.RefLayer2
import proofs.«143139_j73710228734964_1_alg».proof.Proof.RefLayer3
import proofs.«143139_j73710228734964_1_alg».proof.Proof.RefLayer4
import proofs.«143139_j73710228734964_1_alg».proof.Proof.RefLayer5
import proofs.«143139_j73710228734964_1_alg».proof.Proof.RefLayer6
import proofs.«143139_j73710228734964_1_alg».proof.Proof.RefLayer7
import Idealize.ShloMosaic.Lib.ValueIdx

noncomputable section

namespace Cert.ReferenceIdeal.Chain

open Cert.ReferenceIdeal Cert.ReferenceIdeal.Gen Cert.ReferenceIdeal.RefRun Cert.GCN Idealize.ShloMosaic Idealize.ShloMosaic.ValueIdx Idealize.ShloMosaic.StableHlo

/-! ## The contents after each list -/

/-- The valuations of the device's buffers at `F := Ideal`. -/
abbrev Val : Type := Valuation τ sig (Elt Ideal)

/-- The contents after the first list (the edge buffers and the embedding rows are in place). -/
def R0 (V : Val) : Val := after (opsPre (F := Ideal)) V
/-- The contents after layer 0. -/
def R1 (V : Val) : Val := after (opsL0 (F := Ideal)) (R0 V)
/-- The contents after layer 1. -/
def R2 (V : Val) : Val := after (opsL1 (F := Ideal)) (R1 V)
/-- The contents after layer 2. -/
def R3 (V : Val) : Val := after (opsL2 (F := Ideal)) (R2 V)
/-- The contents after layer 3. -/
def R4 (V : Val) : Val := after (opsL3 (F := Ideal)) (R3 V)
/-- The contents after layer 4. -/
def R5 (V : Val) : Val := after (opsL4 (F := Ideal)) (R4 V)
/-- The contents after layer 5. -/
def R6 (V : Val) : Val := after (opsL5 (F := Ideal)) (R5 V)
/-- The contents after layer 6. -/
def R7 (V : Val) : Val := after (opsL6 (F := Ideal)) (R6 V)
/-- The contents after layer 7. -/
def R8 (V : Val) : Val := after (opsL7 (F := Ideal)) (R7 V)

/-- The nine lists before the readout, as one. -/
abbrev body : List (HloOp τ sig (Elt Ideal)) := opsPre ++ opsL0 ++ opsL1 ++ opsL2 ++ opsL3 ++ opsL4 ++ opsL5 ++ opsL6 ++ opsL7

/-- The contents after the nine lists are the contents after layer 7. -/
theorem after_body (V : Val) : after body V = R8 V := by
  simp only [body, after_app]
  rfl

/-! ## What the layers keep

No layer writes the three edge buffers the first list makes (the sources %3, the targets %6, the edge norm %27), and
no list writes an argument: read after any number of layers they are what the first list left, or the launch contents. -/

/-- A buffer the first list does not write holds the launch contents after it. -/
theorem R0_keep (V : Val) (r : Ref sig .tc) (h : r ∉ opsPre_W) : R0 V (Proc.devRef .tc r) = V (Proc.devRef .tc r) :=
  after_of_writes_sub opsPre _ opsPre_writes h

/-- A buffer holds, after each layer, what the first list left. -/
abbrev KeptL (V : Val) (r : Ref sig .tc) : Prop :=
  R1 V (Proc.devRef .tc r) = R0 V (Proc.devRef .tc r) ∧ R2 V (Proc.devRef .tc r) = R0 V (Proc.devRef .tc r)
  ∧ R3 V (Proc.devRef .tc r) = R0 V (Proc.devRef .tc r) ∧ R4 V (Proc.devRef .tc r) = R0 V (Proc.devRef .tc r)
  ∧ R5 V (Proc.devRef .tc r) = R0 V (Proc.devRef .tc r) ∧ R6 V (Proc.devRef .tc r) = R0 V (Proc.devRef .tc r)
  ∧ R7 V (Proc.devRef .tc r) = R0 V (Proc.devRef .tc r) ∧ R8 V (Proc.devRef .tc r) = R0 V (Proc.devRef .tc r)

/-- A buffer no layer writes holds, after each layer, what the first list left. -/
theorem keepL (V : Val) (r : Ref sig .tc) (h0 : r ∉ opsL0_W) (h1 : r ∉ opsL1_W) (h2 : r ∉ opsL2_W) (h3 : r ∉ opsL3_W)
    (h4 : r ∉ opsL4_W) (h5 : r ∉ opsL5_W) (h6 : r ∉ opsL6_W) (h7 : r ∉ opsL7_W) : KeptL V r := by
  have e1 : R1 V (Proc.devRef .tc r) = R0 V (Proc.devRef .tc r) := after_of_writes_sub opsL0 _ opsL0_writes h0
  have e2 : R2 V (Proc.devRef .tc r) = R0 V (Proc.devRef .tc r) :=
    (after_of_writes_sub opsL1 _ opsL1_writes h1).trans e1
  have e3 : R3 V (Proc.devRef .tc r) = R0 V (Proc.devRef .tc r) :=
    (after_of_writes_sub opsL2 _ opsL2_writes h2).trans e2
  have e4 : R4 V (Proc.devRef .tc r) = R0 V (Proc.devRef .tc r) :=
    (after_of_writes_sub opsL3 _ opsL3_writes h3).trans e3
  have e5 : R5 V (Proc.devRef .tc r) = R0 V (Proc.devRef .tc r) :=
    (after_of_writes_sub opsL4 _ opsL4_writes h4).trans e4
  have e6 : R6 V (Proc.devRef .tc r) = R0 V (Proc.devRef .tc r) :=
    (after_of_writes_sub opsL5 _ opsL5_writes h5).trans e5
  have e7 : R7 V (Proc.devRef .tc r) = R0 V (Proc.devRef .tc r) :=
    (after_of_writes_sub opsL6 _ opsL6_writes h6).trans e6
  have e8 : R8 V (Proc.devRef .tc r) = R0 V (Proc.devRef .tc r) :=
    (after_of_writes_sub opsL7 _ opsL7_writes h7).trans e7
  exact ⟨e1, e2, e3, e4, e5, e6, e7, e8⟩

theorem keepL_v3 (V : Val) : KeptL V main_v3 := keepL V main_v3 (by decide) (by decide) (by decide) (by decide) (by decide) (by decide) (by decide) (by decide)
theorem keepL_v6 (V : Val) : KeptL V main_v6 := keepL V main_v6 (by decide) (by decide) (by decide) (by decide) (by decide) (by decide) (by decide) (by decide)
theorem keepL_v27 (V : Val) : KeptL V main_v27 := keepL V main_v27 (by decide) (by decide) (by decide) (by decide) (by decide) (by decide) (by decide) (by decide)
theorem keepL_arg2 (V : Val) : KeptL V main_arg2 := keepL V main_arg2 (by decide) (by decide) (by decide) (by decide) (by decide) (by decide) (by decide) (by decide)
theorem keepL_arg4 (V : Val) : KeptL V main_arg4 := keepL V main_arg4 (by decide) (by decide) (by decide) (by decide) (by decide) (by decide) (by decide) (by decide)
theorem keepL_arg5 (V : Val) : KeptL V main_arg5 := keepL V main_arg5 (by decide) (by decide) (by decide) (by decide) (by decide) (by decide) (by decide) (by decide)
theorem keepL_arg6 (V : Val) : KeptL V main_arg6 := keepL V main_arg6 (by decide) (by decide) (by decide) (by decide) (by decide) (by decide) (by decide) (by decide)
theorem keepL_arg7 (V : Val) : KeptL V main_arg7 := keepL V main_arg7 (by decide) (by decide) (by decide) (by decide) (by decide) (by decide) (by decide) (by decide)
theorem keepL_arg8 (V : Val) : KeptL V main_arg8 := keepL V main_arg8 (by decide) (by decide) (by decide) (by decide) (by decide) (by decide) (by decide) (by decide)
theorem keepL_arg9 (V : Val) : KeptL V main_arg9 := keepL V main_arg9 (by decide) (by decide) (by decide) (by decide) (by decide) (by decide) (by decide) (by decide)
theorem keepL_arg10 (V : Val) : KeptL V main_arg10 := keepL V main_arg10 (by decide) (by decide) (by decide) (by decide) (by decide) (by decide) (by decide) (by decide)
theorem keepL_arg11 (V : Val) : KeptL V main_arg11 := keepL V main_arg11 (by decide) (by decide) (by decide) (by decide) (by decide) (by decide) (by decide) (by decide)
theorem R0_arg2 (V : Val) : R0 V (Proc.devRef .tc main_arg2) = V (Proc.devRef .tc main_arg2) := R0_keep V main_arg2 (by decide)
theorem R0_arg4 (V : Val) : R0 V (Proc.devRef .tc main_arg4) = V (Proc.devRef .tc main_arg4) := R0_keep V main_arg4 (by decide)
theorem R0_arg5 (V : Val) : R0 V (Proc.devRef .tc main_arg5) = V (Proc.devRef .tc main_arg5) := R0_keep V main_arg5 (by decide)
theorem R0_arg6 (V : Val) : R0 V (Proc.devRef .tc main_arg6) = V (Proc.devRef .tc main_arg6) := R0_keep V main_arg6 (by decide)
theorem R0_arg7 (V : Val) : R0 V (Proc.devRef .tc main_arg7) = V (Proc.devRef .tc main_arg7) := R0_keep V main_arg7 (by decide)
theorem R0_arg8 (V : Val) : R0 V (Proc.devRef .tc main_arg8) = V (Proc.devRef .tc main_arg8) := R0_keep V main_arg8 (by decide)
theorem R0_arg9 (V : Val) : R0 V (Proc.devRef .tc main_arg9) = V (Proc.devRef .tc main_arg9) := R0_keep V main_arg9 (by decide)
theorem R0_arg10 (V : Val) : R0 V (Proc.devRef .tc main_arg10) = V (Proc.devRef .tc main_arg10) := R0_keep V main_arg10 (by decide)
theorem R0_arg11 (V : Val) : R0 V (Proc.devRef .tc main_arg11) = V (Proc.devRef .tc main_arg11) := R0_keep V main_arg11 (by decide)

/-! ## The chain -/

/-- The edge aggregation over the three edge buffers the first list leaves, on node-major arrays. -/
def A (V : Val) : ArrNC → ArrNC := fun hw =>
  toNC (Stages.AGGR (R0 V (Proc.devRef .tc main_v3)) (R0 V (Proc.devRef .tc main_v6)) (R0 V (Proc.devRef .tc main_v27)) (ofNC hw))

/-- The layers' parameters, read off the launch contents of the four parameter arguments: layer `j` takes row `j`
    of the scale (%arg4), the shift (%arg5) and the bias (%arg7), and slab `j` of the weights (%arg6). -/
def P (V : Val) : LayerParams :=
  ⟨fun j c => toM8 (V (Proc.devRef .tc main_arg4)) (Fin.ofNat 8 j) c,
   fun j c => toM8 (V (Proc.devRef .tc main_arg5)) (Fin.ofNat 8 j) c,
   fun j c => toM8 (V (Proc.devRef .tc main_arg7)) (Fin.ofNat 8 j) c,
   fun j a b => (V (Proc.devRef .tc main_arg6) : FVec Ideal S8x8x8 .f32) (ix3 (Fin.ofNat 8 j) a b)⟩

/-- The array the chain starts from: the embedding rows (%34), node-major. -/
def h0 (V : Val) : ArrNC := toNC (R0 V (Proc.devRef .tc main_v34))

/-- Layer 0's output is one layer of the chain: the layer read at the contents after the first list, its parameter
    arguments at their launch contents. -/
theorem step0 (V : Val) : toNC (R1 V (Proc.devRef .tc main_v79)) = iterR (A V) (P V) (h0 V) 1 := by
  have h := Layer0.layer0_read (W := R0 V)
  rw [R0_arg4 V, R0_arg5 V, R0_arg6 V, R0_arg7 V] at h
  exact h.trans (iterR_succ (A V) (P V) (h0 V) 0).symm

/-- Layer 1's output is 2 layers of the chain: the layer read at the contents after layer 0, whose edge buffers
    are the first list's and whose parameter arguments are the launch contents. -/
theorem step1 (V : Val) : toNC (R2 V (Proc.devRef .tc main_v124)) = iterR (A V) (P V) (h0 V) 2 := by
  have h := Layer1.layer0_read (W := R1 V)
  rw [(keepL_v3 V).1, (keepL_v6 V).1, (keepL_v27 V).1, (keepL_arg4 V).1, R0_arg4 V, (keepL_arg5 V).1, R0_arg5 V, (keepL_arg6 V).1, R0_arg6 V, (keepL_arg7 V).1, R0_arg7 V,
    step0 V] at h
  exact h.trans (iterR_succ (A V) (P V) (h0 V) 1).symm

/-- Layer 2's output is 3 layers of the chain: the layer read at the contents after layer 1, whose edge buffers
    are the first list's and whose parameter arguments are the launch contents. -/
theorem step2 (V : Val) : toNC (R3 V (Proc.devRef .tc main_v169)) = iterR (A V) (P V) (h0 V) 3 := by
  have h := Layer2.layer0_read (W := R2 V)
  rw [(keepL_v3 V).2.1, (keepL_v6 V).2.1, (keepL_v27 V).2.1, (keepL_arg4 V).2.1, R0_arg4 V, (keepL_arg5 V).2.1, R0_arg5 V, (keepL_arg6 V).2.1, R0_arg6 V, (keepL_arg7 V).2.1, R0_arg7 V,
    step1 V] at h
  exact h.trans (iterR_succ (A V) (P V) (h0 V) 2).symm

/-- Layer 3's output is 4 layers of the chain: the layer read at the contents after layer 2, whose edge buffers
    are the first list's and whose parameter arguments are the launch contents. -/
theorem step3 (V : Val) : toNC (R4 V (Proc.devRef .tc main_v214)) = iterR (A V) (P V) (h0 V) 4 := by
  have h := Layer3.layer0_read (W := R3 V)
  rw [(keepL_v3 V).2.2.1, (keepL_v6 V).2.2.1, (keepL_v27 V).2.2.1, (keepL_arg4 V).2.2.1, R0_arg4 V, (keepL_arg5 V).2.2.1, R0_arg5 V, (keepL_arg6 V).2.2.1, R0_arg6 V, (keepL_arg7 V).2.2.1, R0_arg7 V,
    step2 V] at h
  exact h.trans (iterR_succ (A V) (P V) (h0 V) 3).symm

/-- Layer 4's output is 5 layers of the chain: the layer read at the contents after layer 3, whose edge buffers
    are the first list's and whose parameter arguments are the launch contents. -/
theorem step4 (V : Val) : toNC (R5 V (Proc.devRef .tc main_v259)) = iterR (A V) (P V) (h0 V) 5 := by
  have h := Layer4.layer0_read (W := R4 V)
  rw [(keepL_v3 V).2.2.2.1, (keepL_v6 V).2.2.2.1, (keepL_v27 V).2.2.2.1, (keepL_arg4 V).2.2.2.1, R0_arg4 V, (keepL_arg5 V).2.2.2.1, R0_arg5 V, (keepL_arg6 V).2.2.2.1, R0_arg6 V, (keepL_arg7 V).2.2.2.1, R0_arg7 V,
    step3 V] at h
  exact h.trans (iterR_succ (A V) (P V) (h0 V) 4).symm

/-- Layer 5's output is 6 layers of the chain: the layer read at the contents after layer 4, whose edge buffers
    are the first list's and whose parameter arguments are the launch contents. -/
theorem step5 (V : Val) : toNC (R6 V (Proc.devRef .tc main_v304)) = iterR (A V) (P V) (h0 V) 6 := by
  have h := Layer5.layer0_read (W := R5 V)
  rw [(keepL_v3 V).2.2.2.2.1, (keepL_v6 V).2.2.2.2.1, (keepL_v27 V).2.2.2.2.1, (keepL_arg4 V).2.2.2.2.1, R0_arg4 V, (keepL_arg5 V).2.2.2.2.1, R0_arg5 V, (keepL_arg6 V).2.2.2.2.1, R0_arg6 V, (keepL_arg7 V).2.2.2.2.1, R0_arg7 V,
    step4 V] at h
  exact h.trans (iterR_succ (A V) (P V) (h0 V) 5).symm

/-- Layer 6's output is 7 layers of the chain: the layer read at the contents after layer 5, whose edge buffers
    are the first list's and whose parameter arguments are the launch contents. -/
theorem step6 (V : Val) : toNC (R7 V (Proc.devRef .tc main_v349)) = iterR (A V) (P V) (h0 V) 7 := by
  have h := Layer6.layer0_read (W := R6 V)
  rw [(keepL_v3 V).2.2.2.2.2.1, (keepL_v6 V).2.2.2.2.2.1, (keepL_v27 V).2.2.2.2.2.1, (keepL_arg4 V).2.2.2.2.2.1, R0_arg4 V, (keepL_arg5 V).2.2.2.2.2.1, R0_arg5 V, (keepL_arg6 V).2.2.2.2.2.1, R0_arg6 V, (keepL_arg7 V).2.2.2.2.2.1, R0_arg7 V,
    step5 V] at h
  exact h.trans (iterR_succ (A V) (P V) (h0 V) 6).symm

/-- Layer 7's output is 8 layers of the chain: the layer read at the contents after layer 6, whose edge buffers
    are the first list's and whose parameter arguments are the launch contents. -/
theorem step7 (V : Val) : toNC (R8 V (Proc.devRef .tc main_v394)) = iterR (A V) (P V) (h0 V) 8 := by
  have h := Layer7.layer0_read (W := R7 V)
  rw [(keepL_v3 V).2.2.2.2.2.2.1, (keepL_v6 V).2.2.2.2.2.2.1, (keepL_v27 V).2.2.2.2.2.2.1, (keepL_arg4 V).2.2.2.2.2.2.1, R0_arg4 V, (keepL_arg5 V).2.2.2.2.2.2.1, R0_arg5 V, (keepL_arg6 V).2.2.2.2.2.2.1, R0_arg6 V, (keepL_arg7 V).2.2.2.2.2.2.1, R0_arg7 V,
    step6 V] at h
  exact h.trans (iterR_succ (A V) (P V) (h0 V) 7).symm

/-- The eight layers as one chain: the last layer's output (%394), node-major, is eight layers of the chain from the
    embedding rows. -/
theorem chain (V : Val) :
    toNC (after (opsPre ++ opsL0 ++ opsL1 ++ opsL2 ++ opsL3 ++ opsL4 ++ opsL5 ++ opsL6 ++ opsL7) V (Proc.devRef .tc main_v394))
      = iterR (A V) (P V) (toNC (R0 V (Proc.devRef .tc main_v34))) 8 := by
  have e : after (opsPre ++ opsL0 ++ opsL1 ++ opsL2 ++ opsL3 ++ opsL4 ++ opsL5 ++ opsL6 ++ opsL7) V = R8 V := after_body V
  rw [e]
  exact step7 V

/-- The result buffer (%407) is the readout run from the contents after the eight layers. -/
theorem result (V : Val) :
    after ops V (Proc.devRef .tc main_v407) = after opsPost (after (opsPre ++ opsL0 ++ opsL1 ++ opsL2 ++ opsL3 ++ opsL4 ++ opsL5 ++ opsL6 ++ opsL7) V) (Proc.devRef .tc main_v407) :=
  congrFun (after_app (opsPre ++ opsL0 ++ opsL1 ++ opsL2 ++ opsL3 ++ opsL4 ++ opsL5 ++ opsL6 ++ opsL7) opsPost V) _

/-! ## The arguments the readout reads hold the launch contents after the eight layers -/

theorem body_arg2 (V : Val) :
    after (opsPre ++ opsL0 ++ opsL1 ++ opsL2 ++ opsL3 ++ opsL4 ++ opsL5 ++ opsL6 ++ opsL7) V (Proc.devRef .tc main_arg2) = V (Proc.devRef .tc main_arg2) := by
  have e : after (opsPre ++ opsL0 ++ opsL1 ++ opsL2 ++ opsL3 ++ opsL4 ++ opsL5 ++ opsL6 ++ opsL7) V = R8 V := after_body V
  rw [e]
  exact ((keepL_arg2 V).2.2.2.2.2.2.2).trans (R0_arg2 V)
theorem body_arg8 (V : Val) :
    after (opsPre ++ opsL0 ++ opsL1 ++ opsL2 ++ opsL3 ++ opsL4 ++ opsL5 ++ opsL6 ++ opsL7) V (Proc.devRef .tc main_arg8) = V (Proc.devRef .tc main_arg8) := by
  have e : after (opsPre ++ opsL0 ++ opsL1 ++ opsL2 ++ opsL3 ++ opsL4 ++ opsL5 ++ opsL6 ++ opsL7) V = R8 V := after_body V
  rw [e]
  exact ((keepL_arg8 V).2.2.2.2.2.2.2).trans (R0_arg8 V)
theorem body_arg9 (V : Val) :
    after (opsPre ++ opsL0 ++ opsL1 ++ opsL2 ++ opsL3 ++ opsL4 ++ opsL5 ++ opsL6 ++ opsL7) V (Proc.devRef .tc main_arg9) = V (Proc.devRef .tc main_arg9) := by
  have e : after (opsPre ++ opsL0 ++ opsL1 ++ opsL2 ++ opsL3 ++ opsL4 ++ opsL5 ++ opsL6 ++ opsL7) V = R8 V := after_body V
  rw [e]
  exact ((keepL_arg9 V).2.2.2.2.2.2.2).trans (R0_arg9 V)
theorem body_arg10 (V : Val) :
    after (opsPre ++ opsL0 ++ opsL1 ++ opsL2 ++ opsL3 ++ opsL4 ++ opsL5 ++ opsL6 ++ opsL7) V (Proc.devRef .tc main_arg10) = V (Proc.devRef .tc main_arg10) := by
  have e : after (opsPre ++ opsL0 ++ opsL1 ++ opsL2 ++ opsL3 ++ opsL4 ++ opsL5 ++ opsL6 ++ opsL7) V = R8 V := after_body V
  rw [e]
  exact ((keepL_arg10 V).2.2.2.2.2.2.2).trans (R0_arg10 V)
theorem body_arg11 (V : Val) :
    after (opsPre ++ opsL0 ++ opsL1 ++ opsL2 ++ opsL3 ++ opsL4 ++ opsL5 ++ opsL6 ++ opsL7) V (Proc.devRef .tc main_arg11) = V (Proc.devRef .tc main_arg11) := by
  have e : after (opsPre ++ opsL0 ++ opsL1 ++ opsL2 ++ opsL3 ++ opsL4 ++ opsL5 ++ opsL6 ++ opsL7) V = R8 V := after_body V
  rw [e]
  exact ((keepL_arg11 V).2.2.2.2.2.2.2).trans (R0_arg11 V)

end Cert.ReferenceIdeal.Chain

end
-- ==== Proof.HeadTail.lean ====
/-
  The two programs' head and tail are the same host operations on equal arguments, so they compute equal values.

  The head builds, from the edge list, the edge sources and targets with one self loop per node, every node's
  degree, and every edge's weight (the product of the inverse square roots of its end points' degrees); and, from
  the node types and the embedding table, every node's embedding row. The tail pools the last layer's node features
  by graph and applies two dense maps. Each statement is over any arithmetic, from the agreement of the arguments
  the operations read.
-/
import proofs.«143139_j73710228734964_1_alg».proof.Proof.Gen.KernelIdeal.Launch
import proofs.«143139_j73710228734964_1_alg».proof.Proof.RefRunA
import proofs.«143139_j73710228734964_1_alg».proof.Proof.Spec
import proofs.«143139_j73710228734964_1_alg».proof.Proof.Conv
import Idealize.ShloMosaic.Lib.StableHlo.Run

set_option maxRecDepth 2928

noncomputable section

namespace Cert.Proof.HeadTail

open Idealize.ShloMosaic Idealize.ShloMosaic.TcCoe Idealize.SL.Sem

variable {F : FTy → Type} [FloatOps F]
variable (WK : Valuation Cert.KernelIdeal.τ Cert.KernelIdeal.sig (Elt F))
variable (WR : Valuation Cert.ReferenceIdeal.τ Cert.ReferenceIdeal.sig (Elt F))

/-- The results of the few operations left under a concatenation's operand list, one rewrite each. -/
macro "results_rw" : tactic =>
  `(tactic| (repeat (first
     | rw [StableHlo.nullary_result] | rw [StableHlo.unary_result] | rw [StableHlo.binary_result] | rw [StableHlo.ternary_result]
     | rw [StableHlo.reshape_result]
     | (rw [StableHlo.nullary_result_ne]; rotate_left; decide)
     | (rw [StableHlo.unary_result_ne]; rotate_left; decide)
     | (rw [StableHlo.binary_result_ne]; rotate_left; decide)
     | (rw [StableHlo.ternary_result_ne]; rotate_left; decide)
     | (rw [StableHlo.reshape_result_ne]; rotate_left; decide))))

/-! ## The head: edge lists, edge weights, embedding rows -/

/-- The edge sources (the first row of the edge list, then one self loop per node) agree. -/
theorem head_src
    (h1 : WR (Proc.devRef .tc Cert.ReferenceIdeal.main_arg1) = WK (Proc.devRef .tc Cert.KernelIdeal.main_arg1)) :
    StableHlo.after Cert.KernelIdeal.Gen.hostOps0 WK (Proc.devRef .tc Cert.KernelIdeal.main_v3)
      = StableHlo.after Cert.ReferenceIdeal.RefRun.opsPre WR (Proc.devRef .tc Cert.ReferenceIdeal.main_v3) := by
  after_results_simp
  results_rw
  rw [h1]
  rfl

/-- The edge targets (the second row of the edge list, then one self loop per node) agree. -/
theorem head_dst
    (h1 : WR (Proc.devRef .tc Cert.ReferenceIdeal.main_arg1) = WK (Proc.devRef .tc Cert.KernelIdeal.main_arg1)) :
    StableHlo.after Cert.KernelIdeal.Gen.hostOps0 WK (Proc.devRef .tc Cert.KernelIdeal.main_v6)
      = StableHlo.after Cert.ReferenceIdeal.RefRun.opsPre WR (Proc.devRef .tc Cert.ReferenceIdeal.main_v6) := by
  after_results_simp
  results_rw
  rw [h1]
  rfl

/-- The weight of every edge (the product of the inverse square roots of its two end points' degrees) agrees. -/
theorem head_norm
    (h1 : WR (Proc.devRef .tc Cert.ReferenceIdeal.main_arg1) = WK (Proc.devRef .tc Cert.KernelIdeal.main_arg1)) :
    StableHlo.after Cert.KernelIdeal.Gen.hostOps0 WK (Proc.devRef .tc Cert.KernelIdeal.main_v26)
      = StableHlo.after Cert.ReferenceIdeal.RefRun.opsPre WR (Proc.devRef .tc Cert.ReferenceIdeal.main_v26) := by
  after_results_simp
  results_rw
  rw [h1]
  rfl

/-- The reference's column of edge weights is its vector of edge weights, one per row. -/
theorem head_normB :
    StableHlo.after Cert.ReferenceIdeal.RefRun.opsPre WR (Proc.devRef .tc Cert.ReferenceIdeal.main_v27)
      = broadcastInDim Cert.ReferenceIdeal.S8500000x1 ![0] Cert.ReferenceIdeal.Gen.bcast_S8500000_S8500000x1_0
          (StableHlo.after Cert.ReferenceIdeal.RefRun.opsPre WR (Proc.devRef .tc Cert.ReferenceIdeal.main_v26)) := by
  after_results_simp

/-- The embedding rows (the table's row of every node's type) agree. -/
theorem head_emb
    (h0 : WR (Proc.devRef .tc Cert.ReferenceIdeal.main_arg0) = WK (Proc.devRef .tc Cert.KernelIdeal.main_arg0))
    (h3 : WR (Proc.devRef .tc Cert.ReferenceIdeal.main_arg3) = WK (Proc.devRef .tc Cert.KernelIdeal.main_arg3)) :
    StableHlo.after Cert.KernelIdeal.Gen.hostOps0 WK (Proc.devRef .tc Cert.KernelIdeal.main_v33)
      = StableHlo.after Cert.ReferenceIdeal.RefRun.opsPre WR (Proc.devRef .tc Cert.ReferenceIdeal.main_v34) := by
  after_results_simp
  rw [h0, h3]
  rfl

/-! ## The tail: pooling by graph and the two dense maps -/

/-- From equal node features (the kernel's channel-major array cut to the nodes and transposed) and equal weights,
    the two programs' readouts agree. -/
theorem tail_eq
    (hH : WR (Proc.devRef .tc Cert.ReferenceIdeal.main_v394)
        = transpose (s := Cert.KernelIdeal.S8x500000) Cert.KernelIdeal.S500000x8 [1, 0]
            (extractStridedSlice (s := Cert.KernelIdeal.S8x524288) Cert.KernelIdeal.S8x500000 ![0, 0]
              (WK (Proc.devRef .tc Cert.KernelIdeal.main_v339))
              Cert.KernelIdeal.Gen.slices_S8x524288_S8x500000_0_0)
            Cert.KernelIdeal.Gen.transposes_S8x500000_S500000x8_1_0)
    (h2 : WR (Proc.devRef .tc Cert.ReferenceIdeal.main_arg2) = WK (Proc.devRef .tc Cert.KernelIdeal.main_arg2))
    (h8 : WR (Proc.devRef .tc Cert.ReferenceIdeal.main_arg8) = WK (Proc.devRef .tc Cert.KernelIdeal.main_arg8))
    (h9 : WR (Proc.devRef .tc Cert.ReferenceIdeal.main_arg9) = WK (Proc.devRef .tc Cert.KernelIdeal.main_arg9))
    (h10 : WR (Proc.devRef .tc Cert.ReferenceIdeal.main_arg10) = WK (Proc.devRef .tc Cert.KernelIdeal.main_arg10))
    (h11 : WR (Proc.devRef .tc Cert.ReferenceIdeal.main_arg11) = WK (Proc.devRef .tc Cert.KernelIdeal.main_arg11)) :
    StableHlo.after Cert.KernelIdeal.Gen.hostOps24_2
        (StableHlo.after Cert.KernelIdeal.Gen.hostOps24_1 (StableHlo.after Cert.KernelIdeal.Gen.hostOps24 WK))
        (Proc.devRef .tc Cert.KernelIdeal.main_v354)
      = StableHlo.after Cert.ReferenceIdeal.RefRun.opsPost WR (Proc.devRef .tc Cert.ReferenceIdeal.main_v407) := by
  after_results_simp
  rw [hH, h2, h8, h9, h10, h11]
  rfl

/-! ## The head's arrays as terms over the arguments -/

/-- The kernel program's edge sources, written out. -/
theorem head_src_term :
    StableHlo.after Cert.KernelIdeal.Gen.hostOps0 WK (Proc.devRef .tc Cert.KernelIdeal.main_v3)
      = concatenate Cert.KernelIdeal.S8500000 0
          [⟨Cert.KernelIdeal.S8000000,
              shapeCast (s := Cert.KernelIdeal.S1x8000000) Cert.KernelIdeal.S8000000
                (extractStridedSlice (s := Cert.KernelIdeal.S2x8000000) Cert.KernelIdeal.S1x8000000 ![0, 0]
                  (WK (Proc.devRef .tc Cert.KernelIdeal.main_arg1)) Cert.KernelIdeal.Gen.slices_S2x8000000_S1x8000000_0_0)
                Cert.KernelIdeal.Gen.shapeCasts_S1x8000000_S8000000⟩,
           ⟨Cert.KernelIdeal.S500000, iotaInDim Cert.KernelIdeal.S500000 32 0⟩]
          Cert.KernelIdeal.Gen.concatenates_S8000000_S500000_S8500000_d0 := by
  after_results_simp
  results_rw
  rfl

/-- The kernel program's edge targets, written out. -/
theorem head_dst_term :
    StableHlo.after Cert.KernelIdeal.Gen.hostOps0 WK (Proc.devRef .tc Cert.KernelIdeal.main_v6)
      = concatenate Cert.KernelIdeal.S8500000 0
          [⟨Cert.KernelIdeal.S8000000,
              shapeCast (s := Cert.KernelIdeal.S1x8000000) Cert.KernelIdeal.S8000000
                (extractStridedSlice (s := Cert.KernelIdeal.S2x8000000) Cert.KernelIdeal.S1x8000000 ![1, 0]
                  (WK (Proc.devRef .tc Cert.KernelIdeal.main_arg1)) Cert.KernelIdeal.Gen.slices_S2x8000000_S1x8000000_1_0)
                Cert.KernelIdeal.Gen.shapeCasts_S1x8000000_S8000000⟩,
           ⟨Cert.KernelIdeal.S500000, iotaInDim Cert.KernelIdeal.S500000 32 0⟩]
          Cert.KernelIdeal.Gen.concatenates_S8000000_S500000_S8500000_d0 := by
  after_results_simp
  results_rw
  rfl

/-- The kernel program's degrees: one added at every edge's target, from zero. -/
theorem head_deg_term :
    (StableHlo.after Cert.KernelIdeal.Gen.hostOps0 WK (Proc.devRef .tc Cert.KernelIdeal.main_v10))
      = Host.scatterAdd Cert.KernelIdeal.scatter_S500000_S8500000x1_S8500000_n_0_0_1
          (broadcastInDim Cert.KernelIdeal.S500000 ![] Cert.KernelIdeal.Gen.bcast_S_S500000 (constant (F := F) Cert.KernelIdeal.S_ .f32 0x00000000#32))
          (broadcastInDim Cert.KernelIdeal.S8500000x1 ![0] Cert.KernelIdeal.Gen.bcast_S8500000_S8500000x1_0 (StableHlo.after Cert.KernelIdeal.Gen.hostOps0 WK (Proc.devRef .tc Cert.KernelIdeal.main_v6)))
          (broadcastInDim Cert.KernelIdeal.S8500000 ![] Cert.KernelIdeal.Gen.bcast_S_S8500000 (constant (F := F) Cert.KernelIdeal.S_ .f32 0x3F800000#32)) := by
  after_results_simp
  results_rw
  try rfl

/-- The kernel program's edge weights: the degrees' inverse square roots read at the source and at the target
    (an index below zero read from the end), multiplied. -/
theorem head_norm_term :
    (StableHlo.after Cert.KernelIdeal.Gen.hostOps0 WK (Proc.devRef .tc Cert.KernelIdeal.main_v26))
      = mulf
          (Host.gather Cert.KernelIdeal.gather_S500000_S8500000x1_S8500000_n_0_n_n_0_1_1 (Host.rsqrt (StableHlo.after Cert.KernelIdeal.Gen.hostOps0 WK (Proc.devRef .tc Cert.KernelIdeal.main_v10)))
            (broadcastInDim Cert.KernelIdeal.S8500000x1 ![0] Cert.KernelIdeal.Gen.bcast_S8500000_S8500000x1_0
              (select (cmpi .slt (StableHlo.after Cert.KernelIdeal.Gen.hostOps0 WK (Proc.devRef .tc Cert.KernelIdeal.main_v3)) (broadcastInDim Cert.KernelIdeal.S8500000 ![] Cert.KernelIdeal.Gen.bcast_S_S8500000 (constantI Cert.KernelIdeal.S_ 32 0#32)))
                (addi (StableHlo.after Cert.KernelIdeal.Gen.hostOps0 WK (Proc.devRef .tc Cert.KernelIdeal.main_v3)) (broadcastInDim Cert.KernelIdeal.S8500000 ![] Cert.KernelIdeal.Gen.bcast_S_S8500000 (constantI Cert.KernelIdeal.S_ 32 500000#32)))
                (StableHlo.after Cert.KernelIdeal.Gen.hostOps0 WK (Proc.devRef .tc Cert.KernelIdeal.main_v3)))))
          (Host.gather Cert.KernelIdeal.gather_S500000_S8500000x1_S8500000_n_0_n_n_0_1_1 (Host.rsqrt (StableHlo.after Cert.KernelIdeal.Gen.hostOps0 WK (Proc.devRef .tc Cert.KernelIdeal.main_v10)))
            (broadcastInDim Cert.KernelIdeal.S8500000x1 ![0] Cert.KernelIdeal.Gen.bcast_S8500000_S8500000x1_0
              (select (cmpi .slt (StableHlo.after Cert.KernelIdeal.Gen.hostOps0 WK (Proc.devRef .tc Cert.KernelIdeal.main_v6)) (broadcastInDim Cert.KernelIdeal.S8500000 ![] Cert.KernelIdeal.Gen.bcast_S_S8500000 (constantI Cert.KernelIdeal.S_ 32 0#32)))
                (addi (StableHlo.after Cert.KernelIdeal.Gen.hostOps0 WK (Proc.devRef .tc Cert.KernelIdeal.main_v6)) (broadcastInDim Cert.KernelIdeal.S8500000 ![] Cert.KernelIdeal.Gen.bcast_S_S8500000 (constantI Cert.KernelIdeal.S_ 32 500000#32)))
                (StableHlo.after Cert.KernelIdeal.Gen.hostOps0 WK (Proc.devRef .tc Cert.KernelIdeal.main_v6))))) := by
  after_results_simp
  results_rw
  try rfl

/-- The kernel program's embedding rows: the table read at every node's type (an index below zero read from the end). -/
theorem head_emb_term :
    (StableHlo.after Cert.KernelIdeal.Gen.hostOps0 WK (Proc.devRef .tc Cert.KernelIdeal.main_v33))
      = Host.gather Cert.KernelIdeal.gather_S6x8_S500000x1_S500000x8_1_0_n_n_0_1_18 (WK (Proc.devRef .tc Cert.KernelIdeal.main_arg3))
          (broadcastInDim Cert.KernelIdeal.S500000x1 ![0] Cert.KernelIdeal.Gen.bcast_S500000_S500000x1_0
            (select
              (cmpi .slt (WK (Proc.devRef .tc Cert.KernelIdeal.main_arg0))
                (broadcastInDim Cert.KernelIdeal.S500000 ![] Cert.KernelIdeal.Gen.bcast_S_S500000 (constantI Cert.KernelIdeal.S_ 32 0#32)))
              (addi (WK (Proc.devRef .tc Cert.KernelIdeal.main_arg0))
                (broadcastInDim Cert.KernelIdeal.S500000 ![] Cert.KernelIdeal.Gen.bcast_S_S500000 (constantI Cert.KernelIdeal.S_ 32 6#32)))
              (WK (Proc.devRef .tc Cert.KernelIdeal.main_arg0)))) := by
  after_results_simp
  try rfl

/-- The kernel program's channel-major embedding: the rows transposed. -/
theorem head_embT_term :
    (StableHlo.after Cert.KernelIdeal.Gen.hostOps0 WK (Proc.devRef .tc Cert.KernelIdeal.main_v34))
      = transpose (s := Cert.KernelIdeal.S500000x8) Cert.KernelIdeal.S8x500000 [1, 0] (StableHlo.after Cert.KernelIdeal.Gen.hostOps0 WK (Proc.devRef .tc Cert.KernelIdeal.main_v33)) Cert.KernelIdeal.Gen.transposes_S500000x8_S8x500000_1_0 := by
  after_results_simp
  try rfl

end Cert.Proof.HeadTail

end
-- ==== Proof.Agg.lean ====
/-
  The edge aggregation and the edge norm of the graph convolution, as pure functions of the edge lists and of a
  node-major array, and the facts the layer mathematics needs of them.
  The aggregation gathers the rows of the array at the edge sources, scales each by the edge's norm and
  scatter-adds them at the edge targets, from an array of zeros. Both programs spell it so, up to the order of
  the two factors of the product: the two spellings are one function. Every entry of the result is zero plus a
  finite sum of products of an edge norm by an entry of the array: a real number when those are real.
  The edge lists carry one self-loop per node after the given edges. The degree of a node counts the edges that
  target it: at least the self-loop, so a natural number at least one. The reciprocal square root of a real number
  at least one is a positive real, and the edge norm, the product of two entries of it, is real.
-/
import proofs.«143139_j73710228734964_1_alg».proof.KernelIdeal
import proofs.«143139_j73710228734964_1_alg».proof.ReferenceIdeal
import proofs.«143139_j73710228734964_1_alg».proof.Proof.Spec
import Idealize.ShloMosaic.PureOps.Ideal
import Idealize.ShloMosaic.PureOps.Ideal.Laws
import Idealize.ShloMosaic.Lib.ValueIdx
import Idealize.ShloMosaic.Lib.IdealHost
import Idealize.ShloMosaic.Lib.WordArith
import Idealize.ShloMosaic.Lib.Pipeline.Value

noncomputable section

namespace Cert.GCN

open Idealize.ShloMosaic
open Idealize.ShloMosaic.ValueIdx
open scoped BigOperators
open Cert.ReferenceIdeal (S_ S500000 S8000000 S8500000 S8500000x1 S500000x8 S8500000x8)

/-! ## Real extended reals under sums and products -/

theorem aggReal_coe (r : ℝ) : IsReal (r : EReal) := ⟨EReal.coe_ne_top r, EReal.coe_ne_bot r⟩

theorem aggReal_exists {x : EReal} (hx : IsReal x) : ∃ r : ℝ, x = (r : EReal) := by
  induction x using EReal.rec with
  | bot => exact absurd rfl hx.2
  | coe r => exact ⟨r, rfl⟩
  | top => exact absurd rfl hx.1

theorem aggReal_zero : IsReal (0 : EReal) := by
  have h : (0 : EReal) = ((0 : ℝ) : EReal) := rfl
  rw [h]; exact aggReal_coe 0

theorem aggReal_add {x y : EReal} (hx : IsReal x) (hy : IsReal y) : IsReal (x + y) := by
  obtain ⟨a, rfl⟩ := aggReal_exists hx
  obtain ⟨b, rfl⟩ := aggReal_exists hy
  rw [← EReal.coe_add]; exact aggReal_coe _

theorem aggReal_mul {x y : EReal} (hx : IsReal x) (hy : IsReal y) : IsReal (x * y) := by
  obtain ⟨a, rfl⟩ := aggReal_exists hx
  obtain ⟨b, rfl⟩ := aggReal_exists hy
  rw [← EReal.coe_mul]; exact aggReal_coe _

theorem aggReal_sum {ι : Type} (s : Finset ι) (f : ι → EReal) (hf : ∀ i ∈ s, IsReal (f i)) :
    IsReal (∑ i ∈ s, f i) := by
  classical
  induction s using Finset.induction_on with
  | empty => rw [Finset.sum_empty]; exact aggReal_zero
  | insert a s ha ih =>
    rw [Finset.sum_insert ha]
    exact aggReal_add (hf a (Finset.mem_insert_self a s))
      (ih fun i hi => hf i (Finset.mem_insert_of_mem hi))

/-- A scatter-add from zeros of real updates is real at every entry, whatever the indices: zero plus a finite
    sum of reals. -/
theorem aggReal_scatter {s si u : Shape} {w : ℕ} (d : ScatterDims s si u) (x : FVec Ideal s .f32) (idx : IVec si w)
    (upd : FVec Ideal u .f32) (hx : ∀ i, IsReal (x i)) (hu : ∀ j, IsReal (upd j)) (i : s.Idx) :
    IsReal (Host.scatterAdd (F := Ideal) d x idx upd i) := by
  unfold Host.scatterAdd
  rw [Ideal.hostScatterAdd_def]
  unfold Ideal.hostScatterAdd
  exact aggReal_add (hx i) (aggReal_sum _ _ fun j _ => hu j)

/-- An array of zeros is real. -/
theorem aggReal_zeros {T : Shape} (h : S_.BroadcastsInDim T ![]) (i : T.Idx) :
    IsReal (broadcastInDim T ![] h (constant (F := Ideal) S_ .f32 0x00000000#32) i) := by
  rw [broadcastInDim_scalar_apply, constant_apply, Ideal.ofBits_zero_f32]; exact aggReal_zero

/-! ## The aggregation -/

section
variable [Cert.ReferenceIdeal.Facts₀]

/-- The reference's spelling: from zeros, scatter-add at the targets the norm times the rows gathered at the
    sources. -/
def aggTerm (srcB dstB : IVec S8500000x1 32) (normB : FVec Ideal S8500000x8 .f32) (hw : FVec Ideal S500000x8 .f32) :
    FVec Ideal S500000x8 .f32 :=
  Host.scatterAdd (F := Ideal) Cert.ReferenceIdeal.scatter_S500000x8_S8500000x1_S8500000x8_1_0_0_1
    (broadcastInDim S500000x8 ![] Cert.ReferenceIdeal.Facts₀.bcast_S_S500000x8 (constant (F := Ideal) S_ .f32 0x00000000#32))
    dstB
    (mulf normB (Host.gather Cert.ReferenceIdeal.gather_S500000x8_S8500000x1_S8500000x8_1_0_n_n_0_1_18 hw srcB))

/-- The product of two arrays does not depend on the order of its factors. -/
theorem aggMulf_comm {T : Shape} (a b : FVec Ideal T .f32) : mulf a b = mulf b a := by
  funext j
  rw [mulf_apply, mulf_apply]
  exact mul_comm _ _

/-- The kernel's spelling, the rows gathered at the sources times the norm, is the same function. -/
theorem aggTerm_comm (srcB dstB : IVec S8500000x1 32) (normB : FVec Ideal S8500000x8 .f32) (hw : FVec Ideal S500000x8 .f32) :
    Host.scatterAdd (F := Ideal) Cert.ReferenceIdeal.scatter_S500000x8_S8500000x1_S8500000x8_1_0_0_1
      (broadcastInDim S500000x8 ![] Cert.ReferenceIdeal.Facts₀.bcast_S_S500000x8 (constant (F := Ideal) S_ .f32 0x00000000#32))
      dstB
      (mulf (Host.gather Cert.ReferenceIdeal.gather_S500000x8_S8500000x1_S8500000x8_1_0_n_n_0_1_18 hw srcB) normB)
      = aggTerm srcB dstB normB hw := by
  unfold aggTerm
  rw [aggMulf_comm]

/-- Real norms and a real array give a real aggregate: zero plus a finite sum of products of reals. -/
theorem aggTerm_real (srcB dstB : IVec S8500000x1 32) (normB : FVec Ideal S8500000x8 .f32) (hw : FVec Ideal S500000x8 .f32)
    (hn : ∀ j, IsReal (normB j)) (hh : ∀ i, IsReal (hw i)) (i : S500000x8.Idx) :
    IsReal (aggTerm srcB dstB normB hw i) := by
  unfold aggTerm
  refine aggReal_scatter _ _ _ _ (fun i => aggReal_zeros _ i) (fun j => ?_) i
  rw [mulf_apply]
  unfold Host.gather
  exact aggReal_mul (hn j) (hh _)

end

/-! ## The degree and the edge norm -/

section
variable [Cert.ReferenceIdeal.Facts₀]

/-- Arrays read through a broadcast keep real entries: every entry of the result is an entry of the operand. -/
theorem aggReal_bcast {s t : Shape} (dims : Fin s.rank → Fin t.rank) (h : s.BroadcastsInDim t dims) (x : FVec Ideal s .f32)
    (hx : ∀ k, IsReal (x k)) (j : t.Idx) : IsReal (broadcastInDim t dims h x j) := by
  unfold broadcastInDim
  exact hx _

/-- The degree: from zeros, scatter-add a one at every edge target. -/
def degTerm (dst : IVec S8500000 32) : FVec Ideal S500000 .f32 :=
  Host.scatterAdd (F := Ideal) Cert.ReferenceIdeal.scatter_S500000_S8500000x1_S8500000_n_0_0_1
    (broadcastInDim S500000 ![] Cert.ReferenceIdeal.Facts₀.bcast_S_S500000 (constant (F := Ideal) S_ .f32 0x00000000#32))
    (broadcastInDim S8500000x1 ![0] Cert.ReferenceIdeal.Facts₀.bcast_S8500000_S8500000x1_0 dst)
    (broadcastInDim S8500000 ![] Cert.ReferenceIdeal.Facts₀.bcast_S_S8500000 (constant (F := Ideal) S_ .f32 0x3F800000#32))

/-- A negative node index counts from the end. -/
def wrapIdx (i : IVec S8500000 32) : IVec S8500000 32 :=
  select (cmpi .slt i (broadcastInDim S8500000 ![] Cert.ReferenceIdeal.Facts₀.bcast_S_S8500000 (constantI S_ 32 0#32)))
    (addi i (broadcastInDim S8500000 ![] Cert.ReferenceIdeal.Facts₀.bcast_S_S8500000 (constantI S_ 32 500000#32))) i

/-- The edge norm: the reciprocal square root of the degree at the source times that at the target. -/
def normTerm (src dst : IVec S8500000 32) : FVec Ideal S8500000 .f32 :=
  mulf
    (Host.gather Cert.ReferenceIdeal.gather_S500000_S8500000x1_S8500000_n_0_n_n_0_1_1 (Host.rsqrt (degTerm dst))
      (broadcastInDim S8500000x1 ![0] Cert.ReferenceIdeal.Facts₀.bcast_S8500000_S8500000x1_0 (wrapIdx src)))
    (Host.gather Cert.ReferenceIdeal.gather_S500000_S8500000x1_S8500000_n_0_n_n_0_1_1 (Host.rsqrt (degTerm dst))
      (broadcastInDim S8500000x1 ![0] Cert.ReferenceIdeal.Facts₀.bcast_S8500000_S8500000x1_0 (wrapIdx dst)))

/-- The start of the degree's scatter at an update is the target word of that edge, read signed. -/
theorem deg_start (dst : IVec S8500000 32) (j : S8500000.Idx) (a : Fin 1) :
    Cert.ReferenceIdeal.scatter_S500000_S8500000x1_S8500000_n_0_0_1.start j
      (broadcastInDim S8500000x1 ![0] Cert.ReferenceIdeal.Facts₀.bcast_S8500000_S8500000x1_0 dst) a = (dst j).toInt := by
  obtain rfl : a = 0 := Subsingleton.elim _ _
  unfold ScatterDims.start
  have ha : (0 : Fin 1) ∈ Cert.ReferenceIdeal.scatter_S500000_S8500000x1_S8500000_n_0_0_1.scatterDimsToOperandDims :=
    List.mem_singleton.2 rfl
  rw [dif_pos ha]
  unfold broadcastInDim
  refine congrArg BitVec.toInt (congrArg dst (funext fun b => Fin.ext ?_))
  obtain rfl : b = 0 := Subsingleton.elim _ _
  rw [dif_neg (show ¬ S8500000.size 0 = 1 from by decide)]
  dsimp only
  unfold ScatterDims.siIdx
  have hb : ¬ ((![0] (0 : Fin 1) : Fin 2).val = Cert.ReferenceIdeal.scatter_S500000_S8500000x1_S8500000_n_0_0_1.indexVectorDim) := by
    show ¬ ((0 : ℕ) = 1)
    decide
  rw [dif_neg hb]
  unfold ScatterDims.siCoord
  exact congrArg (fun k => (j k).val) (Subsingleton.elim _ _)

/-- The degree's scatter has no window: an update is one element. -/
theorem deg_window (j : S8500000.Idx) (a : Fin 1) :
    Cert.ReferenceIdeal.scatter_S500000_S8500000x1_S8500000_n_0_0_1.window j a = 0 := by
  unfold ScatterDims.window
  have ha : a ∉ Cert.ReferenceIdeal.scatter_S500000_S8500000x1_S8500000_n_0_0_1.sKept := by
    obtain rfl : a = 0 := Subsingleton.elim _ _
    show (0 : Fin 1) ∉ S500000.kept [(0 : Fin 1)]
    decide
  rw [dif_neg ha]

/-- An update whose target word names node i lands on node i. -/
theorem deg_resultIdx (dst : IVec S8500000 32) (j : S8500000.Idx) (i : S500000.Idx)
    (h : (dst j).toInt = ((i 0).val : ℤ)) :
    Cert.ReferenceIdeal.scatter_S500000_S8500000x1_S8500000_n_0_0_1.resultIdx? j
      (broadcastInDim S8500000x1 ![0] Cert.ReferenceIdeal.Facts₀.bcast_S8500000_S8500000x1_0 dst) = some i := by
  have hi : (i 0).val < 500000 := (i 0).isLt
  unfold ScatterDims.resultIdx?
  have H : ∀ a : Fin S500000.rank,
      0 ≤ Cert.ReferenceIdeal.scatter_S500000_S8500000x1_S8500000_n_0_0_1.start j
            (broadcastInDim S8500000x1 ![0] Cert.ReferenceIdeal.Facts₀.bcast_S8500000_S8500000x1_0 dst) a
          + Cert.ReferenceIdeal.scatter_S500000_S8500000x1_S8500000_n_0_0_1.window j a ∧
      Cert.ReferenceIdeal.scatter_S500000_S8500000x1_S8500000_n_0_0_1.start j
            (broadcastInDim S8500000x1 ![0] Cert.ReferenceIdeal.Facts₀.bcast_S8500000_S8500000x1_0 dst) a
          + Cert.ReferenceIdeal.scatter_S500000_S8500000x1_S8500000_n_0_0_1.window j a < S500000.size a := by
    intro a
    rw [deg_start, deg_window, h]
    obtain rfl : a = 0 := Subsingleton.elim _ _
    show 0 ≤ ((i 0).val : ℤ) + ((0 : ℕ) : ℤ) ∧ ((i 0).val : ℤ) + ((0 : ℕ) : ℤ) < ((500000 : ℕ) : ℤ)
    omega
  rw [dif_pos H]
  refine congrArg some (funext fun a => Fin.ext ?_)
  dsimp only
  rw [deg_start, deg_window, h]
  obtain rfl : a = 0 := Subsingleton.elim _ _
  omega

/-- A sum of ones over a finite set is its number of elements. -/
theorem aggSum_ones (n : ℕ) : n • (1 : EReal) = ((n : ℝ) : EReal) := by
  induction n with
  | zero => rw [zero_nsmul, Nat.cast_zero, EReal.coe_zero]
  | succ k ih => rw [succ_nsmul, ih, Nat.cast_succ, EReal.coe_add, EReal.coe_one]

/-- The self-loop of node i: the edge after the given ones, at position 8000000 + i. -/
def selfLoop (i : S500000.Idx) : S8500000.Idx :=
  ix1 ⟨8000000 + (i 0).val, by have hi : (i 0).val < 500000 := (i 0).isLt; omega⟩

/-- The target word of node i's self-loop is i. -/
theorem selfLoop_word (a : IVec S8000000 32) (i : S500000.Idx) :
    (concatenate S8500000 0 [⟨S8000000, a⟩, ⟨S500000, iotaInDim S500000 32 0⟩]
      Cert.ReferenceIdeal.Facts₀.concatenates_S8000000_S500000_S8500000_d0 (selfLoop i)).toInt = ((i 0).val : ℤ) := by
  have hi : (i 0).val < 500000 := (i 0).isLt
  rw [concatenate_pair_apply_right (0 : Fin 1) a (iotaInDim S500000 32 0)
    Cert.ReferenceIdeal.Facts₀.concatenates_S8000000_S500000_S8500000_d0 (selfLoop i) rfl rfl i
    (fun b hb => absurd (Subsingleton.elim _ _) hb)
    (by show (i 0).val + 8000000 = 8000000 + (i 0).val; omega)]
  rw [iotaInDim_apply]
  exact WordArith.toInt_ofNat_small _ (by omega)

/-- A scatter-add of ones from a zero counts the updates that land on the entry: a natural number, at least one
    as soon as one update lands there. -/
theorem aggScatter_ones_ge_one {s si u : Shape} {w : ℕ} (d : ScatterDims s si u) (x : FVec Ideal s .f32) (idx : IVec si w)
    (upd : FVec Ideal u .f32) (i : s.Idx) (j₀ : u.Idx) (hx : x i = 0) (hu : ∀ j, upd j = 1)
    (hj : d.resultIdx? j₀ idx = some i) :
    ∃ r : ℝ, 1 ≤ r ∧ Host.scatterAdd (F := Ideal) d x idx upd i = (r : EReal) := by
  unfold Host.scatterAdd
  rw [Ideal.hostScatterAdd_def]
  unfold Ideal.hostScatterAdd
  show ∃ r : ℝ, 1 ≤ r ∧ x i + Finset.sum _ (fun j => upd j) = (r : EReal)
  rw [hx, zero_add, Finset.sum_congr rfl (fun j _ => hu j), Finset.sum_const, aggSum_ones]
  exact ⟨_, Nat.one_le_cast.2 (Finset.card_pos.2 ⟨j₀, Finset.mem_filter.2 ⟨Finset.mem_univ _, hj⟩⟩), rfl⟩

/-- An array of zeros reads zero, an array of ones reads one. -/
theorem aggZeros_apply {T : Shape} (h : S_.BroadcastsInDim T ![]) (i : T.Idx) :
    broadcastInDim T ![] h (constant (F := Ideal) S_ .f32 0x00000000#32) i = 0 := by
  rw [broadcastInDim_scalar_apply, constant_apply, Ideal.ofBits_zero_f32]

theorem aggOnes_apply {T : Shape} (h : S_.BroadcastsInDim T ![]) (i : T.Idx) :
    broadcastInDim T ![] h (constant (F := Ideal) S_ .f32 0x3F800000#32) i = 1 := by
  rw [broadcastInDim_scalar_apply, constant_apply, Ideal.ofBits_one_f32]

/-- With a self-loop per node after the given edges, every degree is a real number at least one. -/
theorem deg_ge_one (a : IVec S8000000 32) (i : S500000.Idx) :
    ∃ r : ℝ, 1 ≤ r ∧
      degTerm (concatenate S8500000 0 [⟨S8000000, a⟩, ⟨S500000, iotaInDim S500000 32 0⟩]
        Cert.ReferenceIdeal.Facts₀.concatenates_S8000000_S500000_S8500000_d0) i = (r : EReal) :=
  aggScatter_ones_ge_one _ _ _ _ i (selfLoop i) (aggZeros_apply _ i) (fun j => aggOnes_apply _ j)
    (deg_resultIdx _ (selfLoop i) i (selfLoop_word a i))

/-- The reciprocal square root of a real number at least one is real. -/
theorem aggReal_rsqrt {x : EReal} (hx : ∃ r : ℝ, 1 ≤ r ∧ x = (r : EReal)) : IsReal (Ideal.rsqrt x) := by
  obtain ⟨r, hr, rfl⟩ := hx
  rw [Ideal.rsqrt_coe, if_neg (by linarith), if_neg (by linarith)]
  exact aggReal_coe _

/-- The reciprocal square root of an array is real wherever the array is a real number at least one. -/
theorem aggReal_hostRsqrt {T : Shape} (x : FVec Ideal T .f32) (i : T.Idx) (hx : ∃ r : ℝ, 1 ≤ r ∧ x i = (r : EReal)) :
    IsReal (Host.rsqrt x i) := by
  unfold Host.rsqrt
  rw [Ideal.hostUnary_rsqrt_def]
  exact aggReal_rsqrt hx

/-- The edge norm is real wherever the reciprocal square roots of the degrees are. -/
theorem norm_real_of (src dst : IVec S8500000 32) (hd : ∀ i, IsReal (Host.rsqrt (degTerm dst) i)) (j : S8500000.Idx) :
    IsReal (normTerm src dst j) := by
  unfold normTerm
  rw [mulf_apply]
  unfold Host.gather
  exact aggReal_mul (hd _) (hd _)

/-- With a self-loop per node, every edge norm is real: a product of two reciprocal square roots of degrees. -/
theorem norm_real (src : IVec S8500000 32) (a : IVec S8000000 32) (j : S8500000.Idx) :
    IsReal (normTerm src (concatenate S8500000 0 [⟨S8000000, a⟩, ⟨S500000, iotaInDim S500000 32 0⟩]
      Cert.ReferenceIdeal.Facts₀.concatenates_S8000000_S500000_S8500000_d0) j) :=
  norm_real_of src _ (fun i => aggReal_hostRsqrt _ i (deg_ge_one a i)) j

end

/-! ## The aggregation of both programs, as a function of the edge lists -/

section
variable [Cert.ReferenceIdeal.Facts₀]

/-- The edge norm, broadcast along the channels, is real with a self-loop per node. -/
theorem normB_real (src : IVec S8500000 32) (a : IVec S8000000 32) (j : S8500000x8.Idx) :
    IsReal (broadcastInDim S8500000x8 ![0, 1] Cert.ReferenceIdeal.Facts₀.bcast_S8500000x1_S8500000x8_0_1
      (broadcastInDim S8500000x1 ![0] Cert.ReferenceIdeal.Facts₀.bcast_S8500000_S8500000x1_0
        (normTerm src (concatenate S8500000 0 [⟨S8000000, a⟩, ⟨S500000, iotaInDim S500000 32 0⟩]
          Cert.ReferenceIdeal.Facts₀.concatenates_S8000000_S500000_S8500000_d0))) j) :=
  aggReal_bcast _ _ _ (fun k => aggReal_bcast _ _ _ (fun l => norm_real src a l) k) j

/-- The aggregation as the programs run it: rows gathered at the wrapped sources, scaled by the edge norm,
    scatter-added at the targets. -/
def aggFun (src dst : IVec S8500000 32) (hw : FVec Ideal S500000x8 .f32) : FVec Ideal S500000x8 .f32 :=
  aggTerm (broadcastInDim S8500000x1 ![0] Cert.ReferenceIdeal.Facts₀.bcast_S8500000_S8500000x1_0 (wrapIdx src))
    (broadcastInDim S8500000x1 ![0] Cert.ReferenceIdeal.Facts₀.bcast_S8500000_S8500000x1_0 dst)
    (broadcastInDim S8500000x8 ![0, 1] Cert.ReferenceIdeal.Facts₀.bcast_S8500000x1_S8500000x8_0_1
      (broadcastInDim S8500000x1 ![0] Cert.ReferenceIdeal.Facts₀.bcast_S8500000_S8500000x1_0 (normTerm src dst)))
    hw

/-- With a self-loop per node, the aggregation sends real arrays to real arrays. -/
theorem aggFun_real (src : IVec S8500000 32) (a : IVec S8000000 32) (hw : FVec Ideal S500000x8 .f32)
    (hh : ∀ i, IsReal (hw i)) (i : S500000x8.Idx) :
    IsReal (aggFun src (concatenate S8500000 0 [⟨S8000000, a⟩, ⟨S500000, iotaInDim S500000 32 0⟩]
      Cert.ReferenceIdeal.Facts₀.concatenates_S8000000_S500000_S8500000_d0) hw i) :=
  aggTerm_real _ _ _ hw (fun j => normB_real src a j) hh i

end

/-! ## The kernel program's spelling -/

section
variable [Cert.ReferenceIdeal.Facts₀] [Cert.KernelIdeal.Facts₀]

/-- The two programs name the same dimension numbers. -/
theorem scatter8_kernel_eq :
    Cert.KernelIdeal.scatter_S500000x8_S8500000x1_S8500000x8_1_0_0_1
      = Cert.ReferenceIdeal.scatter_S500000x8_S8500000x1_S8500000x8_1_0_0_1 := rfl
theorem gather8_kernel_eq :
    Cert.KernelIdeal.gather_S500000x8_S8500000x1_S8500000x8_1_0_n_n_0_1_18
      = Cert.ReferenceIdeal.gather_S500000x8_S8500000x1_S8500000x8_1_0_n_n_0_1_18 := rfl
theorem scatter1_kernel_eq :
    Cert.KernelIdeal.scatter_S500000_S8500000x1_S8500000_n_0_0_1
      = Cert.ReferenceIdeal.scatter_S500000_S8500000x1_S8500000_n_0_0_1 := rfl
theorem gather1_kernel_eq :
    Cert.KernelIdeal.gather_S500000_S8500000x1_S8500000_n_0_n_n_0_1_1
      = Cert.ReferenceIdeal.gather_S500000_S8500000x1_S8500000_n_0_n_n_0_1_1 := rfl

/-- The kernel program's aggregation, in its own names and with the rows first in the product, is the same
    function. -/
theorem aggTerm_kernel (srcB dstB : IVec S8500000x1 32) (normB : FVec Ideal S8500000x8 .f32) (hw : FVec Ideal S500000x8 .f32) :
    Host.scatterAdd (F := Ideal) Cert.KernelIdeal.scatter_S500000x8_S8500000x1_S8500000x8_1_0_0_1
      (broadcastInDim Cert.KernelIdeal.S500000x8 ![] Cert.KernelIdeal.Facts₀.bcast_S_S500000x8
        (constant (F := Ideal) Cert.KernelIdeal.S_ .f32 0x00000000#32))
      dstB
      (mulf (Host.gather Cert.KernelIdeal.gather_S500000x8_S8500000x1_S8500000x8_1_0_n_n_0_1_18 hw srcB) normB)
      = aggTerm srcB dstB normB hw := by
  rw [scatter8_kernel_eq, gather8_kernel_eq]
  exact aggTerm_comm srcB dstB normB hw

end

end Cert.GCN

end
-- ==== Proof.AggBridge.lean ====
/-
  The two programs' edge aggregation is one function, and it keeps real entries real.
  The kernel gathers the rows of a node-major array at the edge sources, multiplies each by its edge's norm and
  scatter-adds the products at the edge targets, from zeros; the reference does the same with the product's two
  factors in the other order and the norm already broadcast to a column. The shape records the two programs
  name carry the same data, and multiplication commutes: the two spellings are equal as functions of the edge
  lists, the norm and the array. Every entry of the result is zero plus a finite sum of products of an edge
  norm by an entry of the array, so real norms and a real array give a real result; read over plain
  coordinates, the aggregation sends arrays of reals to arrays of reals.
  The edge norm itself, the product of the reciprocal square roots of the degrees at the two ends of an edge,
  is spelled alike in both programs: with one self-loop per node after the given edges every degree is at
  least one, and every entry of the norm is real.
-/
import proofs.«143139_j73710228734964_1_alg».proof.Proof.Agg
import proofs.«143139_j73710228734964_1_alg».proof.Proof.KHost2
import proofs.«143139_j73710228734964_1_alg».proof.Proof.RefStages
import proofs.«143139_j73710228734964_1_alg».proof.Proof.Conv
import proofs.«143139_j73710228734964_1_alg».proof.Proof.Gen.KernelIdeal
import proofs.«143139_j73710228734964_1_alg».proof.Proof.Gen.ReferenceIdeal

noncomputable section

namespace Cert.Proof.AggBridge

open Idealize.ShloMosaic Idealize.ShloMosaic.ValueIdx Cert.GCN

/-- The kernel's spelling of the aggregation is the reference's, at the norm broadcast to a column: the two
    programs' shape records carry the same data, and the product's two factors commute. -/
theorem agg_eq (src dst : IVec Cert.KernelIdeal.S8500000 32) (norm : FVec Ideal Cert.KernelIdeal.S8500000 .f32)
    (hw : FVec Ideal Cert.KernelIdeal.S500000x8 .f32) :
    Cert.KernelIdeal.Host2.AGG src dst norm hw
      = Cert.ReferenceIdeal.Stages.AGGR src dst
          (broadcastInDim Cert.ReferenceIdeal.S8500000x1 ![0] Cert.ReferenceIdeal.Gen.bcast_S8500000_S8500000x1_0 norm) hw := by
  unfold Cert.KernelIdeal.Host2.AGG Cert.ReferenceIdeal.Stages.AGGR
  rw [aggMulf_comm]
  rfl

/-- The reference's spelling is the aggregation term at the broadcast edge lists and the norm broadcast to
    every channel. -/
theorem aggr_term (src dst : IVec Cert.ReferenceIdeal.S8500000 32) (normB : FVec Ideal Cert.ReferenceIdeal.S8500000x1 .f32)
    (hw : FVec Ideal Cert.ReferenceIdeal.S500000x8 .f32) :
    Cert.ReferenceIdeal.Stages.AGGR src dst normB hw
      = aggTerm
          (broadcastInDim Cert.ReferenceIdeal.S8500000x1 ![0] Cert.ReferenceIdeal.Gen.bcast_S8500000_S8500000x1_0
            (select (cmpi .slt src (broadcastInDim Cert.ReferenceIdeal.S8500000 ![] Cert.ReferenceIdeal.Gen.bcast_S_S8500000 (constantI Cert.ReferenceIdeal.S_ 32 0#32)))
              (addi src (broadcastInDim Cert.ReferenceIdeal.S8500000 ![] Cert.ReferenceIdeal.Gen.bcast_S_S8500000 (constantI Cert.ReferenceIdeal.S_ 32 500000#32))) src))
          (broadcastInDim Cert.ReferenceIdeal.S8500000x1 ![0] Cert.ReferenceIdeal.Gen.bcast_S8500000_S8500000x1_0 dst)
          (broadcastInDim Cert.ReferenceIdeal.S8500000x8 ![0, 1] Cert.ReferenceIdeal.Gen.bcast_S8500000x1_S8500000x8_0_1 normB)
          hw := by
  unfold Cert.ReferenceIdeal.Stages.AGGR aggTerm
  rfl

/-- Real edge norms and a real array give a real aggregate, whatever the edge lists. -/
theorem agg_real (src dst : IVec Cert.KernelIdeal.S8500000 32) (norm : FVec Ideal Cert.KernelIdeal.S8500000 .f32)
    (hn : ∀ j, IsReal (norm j)) (hw : FVec Ideal Cert.KernelIdeal.S500000x8 .f32) (hh : ∀ i, IsReal (hw i)) :
    ∀ i, IsReal (Cert.KernelIdeal.Host2.AGG src dst norm hw i) := by
  intro i
  rw [agg_eq, aggr_term]
  exact aggTerm_real _ _ _ _ (fun j => aggReal_bcast _ _ _ (fun k => aggReal_bcast _ _ _ hn k) j) hh i

/-- The aggregation as a function of node-major arrays over plain coordinates: real entries in, real entries
    out. -/
theorem A_real (src dst : IVec Cert.KernelIdeal.S8500000 32) (norm : FVec Ideal Cert.KernelIdeal.S8500000 .f32)
    (hn : ∀ j, IsReal (norm j)) :
    ∀ x : ArrNC, RealNC x → RealNC (toNC (Cert.KernelIdeal.Host2.AGG src dst norm (ofNC x))) := by
  intro x hx n c
  exact agg_real src dst norm hn (ofNC x) (fun i => hx (i 0) (i 1)) (ix2 n c)

/-! ## The edge norm -/

/-- The kernel's reciprocal square roots of the degrees: from zeros, a one added at every edge target, then the
    reciprocal square root, entry by entry. -/
def dinvK (dst : IVec Cert.KernelIdeal.S8500000 32) : FVec Ideal Cert.KernelIdeal.S500000 .f32 :=
  Host.rsqrt
    (Host.scatterAdd Cert.KernelIdeal.scatter_S500000_S8500000x1_S8500000_n_0_0_1
      (broadcastInDim Cert.KernelIdeal.S500000 ![] Cert.KernelIdeal.Gen.bcast_S_S500000
        (constant (F := Ideal) Cert.KernelIdeal.S_ .f32 0x00000000#32))
      (broadcastInDim Cert.KernelIdeal.S8500000x1 ![0] Cert.KernelIdeal.Gen.bcast_S8500000_S8500000x1_0 dst)
      (broadcastInDim Cert.KernelIdeal.S8500000 ![] Cert.KernelIdeal.Gen.bcast_S_S8500000
        (constant (F := Ideal) Cert.KernelIdeal.S_ .f32 0x3F800000#32)))

/-- A negative node index counts from the end, as the kernel spells it. -/
def wrapK (i : IVec Cert.KernelIdeal.S8500000 32) : IVec Cert.KernelIdeal.S8500000 32 :=
  select (cmpi .slt i (broadcastInDim Cert.KernelIdeal.S8500000 ![] Cert.KernelIdeal.Gen.bcast_S_S8500000 (constantI Cert.KernelIdeal.S_ 32 0#32)))
    (addi i (broadcastInDim Cert.KernelIdeal.S8500000 ![] Cert.KernelIdeal.Gen.bcast_S_S8500000 (constantI Cert.KernelIdeal.S_ 32 500000#32))) i

/-- The kernel's edge norm as a function of the edge lists: the reciprocal square root of the degree at the
    source times that at the target. -/
def normK (src dst : IVec Cert.KernelIdeal.S8500000 32) : FVec Ideal Cert.KernelIdeal.S8500000 .f32 :=
  mulf
    (Host.gather Cert.KernelIdeal.gather_S500000_S8500000x1_S8500000_n_0_n_n_0_1_1 (dinvK dst)
      (broadcastInDim Cert.KernelIdeal.S8500000x1 ![0] Cert.KernelIdeal.Gen.bcast_S8500000_S8500000x1_0 (wrapK src)))
    (Host.gather Cert.KernelIdeal.gather_S500000_S8500000x1_S8500000_n_0_n_n_0_1_1 (dinvK dst)
      (broadcastInDim Cert.KernelIdeal.S8500000x1 ![0] Cert.KernelIdeal.Gen.bcast_S8500000_S8500000x1_0 (wrapK dst)))

/-- The kernel's edge norm is the reference's: the same operations over records with the same data. -/
theorem normK_eq (src dst : IVec Cert.KernelIdeal.S8500000 32) : normK src dst = normTerm src dst := by
  unfold normK dinvK wrapK normTerm degTerm wrapIdx
  rfl

/-- With a self-loop per node after the given edges, every entry of the kernel's edge norm is real, whatever the
    sources are. -/
theorem norm_entries_real (src : IVec Cert.KernelIdeal.S8500000 32) (a : IVec Cert.KernelIdeal.S8000000 32)
    (j : Cert.KernelIdeal.S8500000.Idx) :
    IsReal (normK src
      (concatenate Cert.KernelIdeal.S8500000 0
        [⟨Cert.KernelIdeal.S8000000, a⟩, ⟨Cert.KernelIdeal.S500000, iotaInDim Cert.KernelIdeal.S500000 32 0⟩]
        Cert.KernelIdeal.Gen.concatenates_S8000000_S500000_S8500000_d0) j) := by
  rw [normK_eq]
  exact norm_real src a j

end Cert.Proof.AggBridge

end
-- ==== Proof.PreReal.lean ====
/-
  From the certificate's precondition to the realness of the float arguments, and the realness of the
  embedding rows.
  The precondition is a conjunction, one conjunct per float argument `v`, of `all (|v| < +∞)`: the
  absolute value compared, entry by entry, with the f32 word `0x7F800000`, and the one-bit results
  reduced by `and` over every axis. Read at the extended reals the word is `⊤`, `|x|` is `max x (-x)`,
  and `max x (-x) < ⊤` says that `x` is neither `⊤` nor `⊥`: a real number.
  The embedding lookup is a gather of rows of the `[6, 8]` table: whatever the start indices, each
  entry of the result is the table's entry at some index, so real entries in, real entries out.
-/
import proofs.«143139_j73710228734964_1_alg».proof.Defs
import proofs.«143139_j73710228734964_1_alg».proof.Proof.Spec
import Idealize.ShloMosaic.Lib.ReduceAll

noncomputable section

namespace Cert.Proof.PreReal

open Idealize.ShloMosaic Idealize.SL.Sem Cert.GCN

/-- The scalar shape has exactly one index. -/
instance : Subsingleton Cert.Pre_finite_inputs.S_.Idx := ⟨fun a b => funext fun d => d.elim0⟩

/-- A one-bit word made from a Boolean is 1 only when the Boolean is true. -/
theorem ofBool_eq_one : ∀ b : Bool, BitVec.ofBool b = 1#1 → b = true := by decide

/-- The f32 word `0x7F800000` (exponent all ones, significand zero, sign clear) denotes `+∞`. -/
theorem inf_word : Ideal.ofBits .f32 0x7F800000#32 = (⊤ : EReal) := by
  simp [Ideal.ofBits, Ideal.ieee]

/-- `|x| < +∞` makes `x` a real number: at `⊤` the maximum is `⊤`, at `⊥` the negation is. -/
theorem isReal_of_abs_lt_top (x : EReal) (h : max x (-x) < ⊤) : IsReal x := by
  constructor
  · rintro rfl; simp at h
  · rintro rfl; simp at h

/-- One conjunct of the precondition, for an array `v` of any shape: if the `and` over all axes of
    `|v| < +∞` is 1, every entry of `v` is a real number. -/
theorem all_real {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf v) (broadcastInDim s ![] hb (constant Cert.Pre_finite_inputs.S_ .f32 0x7F800000#32)))
          (constantI Cert.Pre_finite_inputs.S_ 1 1#1) hr hu ValueIdx.ix0 = 1#1) (i : s.Idx) : IsReal (v i) := by
  have h := Host.reduce_andi_all _ _ hr hu _ e i
  change Ideal.cmp .olt (max (v i) (-(v i))) (Ideal.ofBits .f32 0x7F800000#32) = 1#1 at h
  rw [inf_word] at h
  have h2 : BitVec.ofBool (decide (max (v i) (-(v i)) < ⊤)) = 1#1 := h
  exact isReal_of_abs_lt_top _ (of_decide_eq_true (ofBool_eq_one _ h2))

/-- Under the precondition every entry of each of the nine float arguments (the embedding table, the
    batch norm's scales and shifts, the convolution's weights and biases, the hidden and output layers'
    weights and biases) is a real number, on every device. The precondition's value at its one index is a
    left-nested `and` of nine bits, one per argument; it is 1, so each bit is. -/
theorem args_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg3) : FVec Ideal Cert.KernelIdeal.S6x8 .f32) i))
      ∧ (∀ i, IsReal ((m ((c.tc : Thread Cert.KernelIdeal.nD Cert.KernelIdeal.τ).loc Cert.KernelIdeal.main_arg4) : FVec Ideal Cert.KernelIdeal.S8x8 .f32) i))
      ∧ (∀ i, IsReal ((m ((c.tc : Thread Cert.KernelIdeal.nD Cert.KernelIdeal.τ).loc Cert.KernelIdeal.main_arg5) : FVec Ideal Cert.KernelIdeal.S8x8 .f32) i))
      ∧ (∀ i, IsReal ((m ((c.tc : Thread Cert.KernelIdeal.nD Cert.KernelIdeal.τ).loc Cert.KernelIdeal.main_arg6) : FVec Ideal Cert.KernelIdeal.S8x8x8 .f32) i))
      ∧ (∀ i, IsReal ((m ((c.tc : Thread Cert.KernelIdeal.nD Cert.KernelIdeal.τ).loc Cert.KernelIdeal.main_arg7) : FVec Ideal Cert.KernelIdeal.S8x8 .f32) i))
      ∧ (∀ i, IsReal ((m ((c.tc : Thread Cert.KernelIdeal.nD Cert.KernelIdeal.τ).loc Cert.KernelIdeal.main_arg8) : FVec Ideal Cert.KernelIdeal.S8x128 .f32) i))
      ∧ (∀ i, IsReal ((m ((c.tc : Thread Cert.KernelIdeal.nD Cert.KernelIdeal.τ).loc Cert.KernelIdeal.main_arg9) : FVec Ideal Cert.KernelIdeal.S128 .f32) i))
      ∧ (∀ i, IsReal ((m ((c.tc : Thread Cert.KernelIdeal.nD Cert.KernelIdeal.τ).loc Cert.KernelIdeal.main_arg10) : FVec Ideal Cert.KernelIdeal.S128x1 .f32) i))
      ∧ (∀ i, IsReal ((m ((c.tc : Thread Cert.KernelIdeal.nD Cert.KernelIdeal.τ).loc Cert.KernelIdeal.main_arg11) : FVec Ideal Cert.KernelIdeal.S1 .f32) i)) := by
  have h0 := congrFun (h c) ValueIdx.ix0
  dsimp only [Cert.Pre_finite_inputs.fn, Cert.Pre_finite_inputs.fn_part1, Cert.Pre_finite_inputs.fn_part2] at h0
  obtain ⟨h8, e11⟩ := IntOp.andi_eq_one.1 (show IntOp.andi _ _ = 1#1 from h0)
  obtain ⟨h7, e10⟩ := IntOp.andi_eq_one.1 (show IntOp.andi _ _ = 1#1 from h8)
  obtain ⟨h6, e9⟩ := IntOp.andi_eq_one.1 (show IntOp.andi _ _ = 1#1 from h7)
  obtain ⟨h5, e8⟩ := IntOp.andi_eq_one.1 (show IntOp.andi _ _ = 1#1 from h6)
  obtain ⟨h4, e7⟩ := IntOp.andi_eq_one.1 (show IntOp.andi _ _ = 1#1 from h5)
  obtain ⟨h3, e6⟩ := IntOp.andi_eq_one.1 (show IntOp.andi _ _ = 1#1 from h4)
  obtain ⟨h2, e5⟩ := IntOp.andi_eq_one.1 (show IntOp.andi _ _ = 1#1 from h3)
  obtain ⟨e3, e4⟩ := IntOp.andi_eq_one.1 (show IntOp.andi _ _ = 1#1 from h2)
  exact ⟨all_real _ _ _ _ e3, all_real _ _ _ _ e4, all_real _ _ _ _ e5, all_real _ _ _ _ e6, all_real _ _ _ _ e7,
    all_real _ _ _ _ e8, all_real _ _ _ _ e9, all_real _ _ _ _ e10, all_real _ _ _ _ e11⟩

/-- The embedding rows: a gather reads, at each result index, the table at some index (the start index
    read signed and clamped into the table, plus the offset within the row), so if every entry of the table
    is real, every entry of the gathered array is, whatever the start indices are. -/
theorem emb_rows_real [Cert.ReferenceIdeal.Facts] (emb : FVec Ideal Cert.ReferenceIdeal.S6x8 .f32)
    (hemb : ∀ i, IsReal (emb i)) (x : IVec Cert.ReferenceIdeal.S500000x1 32) (j : Cert.ReferenceIdeal.S500000x8.Idx) :
    IsReal (Host.gather Cert.ReferenceIdeal.gather_S6x8_S500000x1_S500000x8_1_0_n_n_0_1_18 emb x j) :=
  hemb _

end Cert.Proof.PreReal

end
-- ==== Proof.Bridge.lean ====
/-
  The two programs end with equal results. From memories that agree on the twelve arguments, of which the float
  ones hold real numbers:
  • head: the two programs' first stretches are the same operations on equal arguments, so the edge sources,
    targets and norm and the embedding rows h₀ are equal (Proof/HeadTail.lean); the kernel pads the transposed rows:
    its first activations are `padT h₀` (Proof/KHost2.lean);
  • layers: the kernel's activations after j layers are `iterK A P (padT h₀) j` (Proof/KChain.lean), the reference's
    `iterR A P h₀ j` (Proof/RefChain.lean), with ONE aggregation `A` (equal edge buffers; the kernel's spelling
    is the reference's up to the order of a product, Proof/AggBridge.lean) and ONE parameter family `P` (equal
    arguments), all real; so (Proof/ChainMath.lean) the first 500000 columns of the kernel's last activations are,
    node-major, the reference's h₈;
  • tail: the two programs' last stretches are the same operations on that array and equal arguments.
-/
import proofs.«143139_j73710228734964_1_alg».proof.Defs
import proofs.«143139_j73710228734964_1_alg».proof.Proof.KHead
import proofs.«143139_j73710228734964_1_alg».proof.Proof.KInit
import proofs.«143139_j73710228734964_1_alg».proof.Proof.KChain
import proofs.«143139_j73710228734964_1_alg».proof.Proof.RefChain
import proofs.«143139_j73710228734964_1_alg».proof.Proof.HeadTail
import proofs.«143139_j73710228734964_1_alg».proof.Proof.AggBridge
import proofs.«143139_j73710228734964_1_alg».proof.Proof.PreReal
import proofs.«143139_j73710228734964_1_alg».proof.Proof.ChainMath

noncomputable section

namespace Cert.Proof.Bridge

open Idealize.ShloMosaic Idealize.ShloMosaic.TcCoe Idealize.SL.Sem Idealize.ShloMosaic.StableHlo Idealize.ShloMosaic.ValueIdx
open Cert.GCN
open Cert.KernelIdeal.GenP (W0 W1 W2 W58 W59 W60 W61)

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The reference's launch contents on core `c`. -/
abbrev VR : Cert.ReferenceIdeal.Chain.Val := launchContents m' c

/-! ## Head -/

/-- The edge sources at the first layer's entry are the reference's. -/
theorem src_eq (h1 : VR m' c (Proc.devRef .tc Cert.ReferenceIdeal.main_arg1) = W0 m ρ c (Proc.devRef .tc Cert.KernelIdeal.main_arg1)) : W2 m ρ c (Proc.devRef .tc Cert.KernelIdeal.main_v3)
    = Cert.ReferenceIdeal.Chain.R0 (VR m' c) (Proc.devRef .tc Cert.ReferenceIdeal.main_v3) :=
  (Cert.KernelIdeal.Head.W2_main_v3 m ρ c).trans (Cert.Proof.HeadTail.head_src (W0 m ρ c) (VR m' c) h1)

theorem dst_eq (h1 : VR m' c (Proc.devRef .tc Cert.ReferenceIdeal.main_arg1) = W0 m ρ c (Proc.devRef .tc Cert.KernelIdeal.main_arg1)) : W2 m ρ c (Proc.devRef .tc Cert.KernelIdeal.main_v6)
    = Cert.ReferenceIdeal.Chain.R0 (VR m' c) (Proc.devRef .tc Cert.ReferenceIdeal.main_v6) :=
  (Cert.KernelIdeal.Head.W2_main_v6 m ρ c).trans (Cert.Proof.HeadTail.head_dst (W0 m ρ c) (VR m' c) h1)

theorem norm_eq (h1 : VR m' c (Proc.devRef .tc Cert.ReferenceIdeal.main_arg1) = W0 m ρ c (Proc.devRef .tc Cert.KernelIdeal.main_arg1)) : W2 m ρ c (Proc.devRef .tc Cert.KernelIdeal.main_v26)
    = Cert.ReferenceIdeal.Chain.R0 (VR m' c) (Proc.devRef .tc Cert.ReferenceIdeal.main_v26) :=
  (Cert.KernelIdeal.Head.W2_main_v26 m ρ c).trans (Cert.Proof.HeadTail.head_norm (W0 m ρ c) (VR m' c) h1)

/-- The embedding rows. -/
theorem emb_eq (h0 : VR m' c (Proc.devRef .tc Cert.ReferenceIdeal.main_arg0) = W0 m ρ c (Proc.devRef .tc Cert.KernelIdeal.main_arg0)) (h3 : VR m' c (Proc.devRef .tc Cert.ReferenceIdeal.main_arg3) = W0 m ρ c (Proc.devRef .tc Cert.KernelIdeal.main_arg3)) : W1 m ρ c (Proc.devRef .tc Cert.KernelIdeal.main_v33)
    = Cert.ReferenceIdeal.Chain.R0 (VR m' c) (Proc.devRef .tc Cert.ReferenceIdeal.main_v34) :=
  Cert.Proof.HeadTail.head_emb (W0 m ρ c) (VR m' c) h0 h3

/-- The kernel's first activations are the padded transpose of the reference's h₀. -/
theorem H0_eq (h0 : VR m' c (Proc.devRef .tc Cert.ReferenceIdeal.main_arg0) = W0 m ρ c (Proc.devRef .tc Cert.KernelIdeal.main_arg0)) (h3 : VR m' c (Proc.devRef .tc Cert.ReferenceIdeal.main_arg3) = W0 m ρ c (Proc.devRef .tc Cert.KernelIdeal.main_arg3)) : toCP (W2 m ρ c (Proc.devRef .tc Cert.KernelIdeal.main_v35)) = padT (Cert.ReferenceIdeal.Chain.h0 (VR m' c)) := by
  have e := Cert.KernelIdeal.Init.init0 (W0 m ρ c)
  rw [show StableHlo.after (Cert.KernelIdeal.Gen.hostOps0 (F := Ideal)) (W0 m ρ c) (Proc.devRef .tc Cert.KernelIdeal.main_v33)
      = Cert.ReferenceIdeal.Chain.R0 (VR m' c) (Proc.devRef .tc Cert.ReferenceIdeal.main_v34) from emb_eq m ρ m' c h0 h3] at e
  exact e

/-! ## One aggregation, one parameter family -/

theorem A_eq (h1 : VR m' c (Proc.devRef .tc Cert.ReferenceIdeal.main_arg1) = W0 m ρ c (Proc.devRef .tc Cert.KernelIdeal.main_arg1)) : Cert.KernelIdeal.Chain.A m ρ c = Cert.ReferenceIdeal.Chain.A (VR m' c) := by
  funext hw
  unfold Cert.KernelIdeal.Chain.A Cert.ReferenceIdeal.Chain.A
  rw [src_eq m ρ m' c h1, dst_eq m ρ m' c h1, norm_eq m ρ m' c h1]
  rw [show Cert.ReferenceIdeal.Chain.R0 (VR m' c) (Proc.devRef .tc Cert.ReferenceIdeal.main_v27)
      = broadcastInDim Cert.ReferenceIdeal.S8500000x1 ![0] Cert.ReferenceIdeal.Gen.bcast_S8500000_S8500000x1_0
          (Cert.ReferenceIdeal.Chain.R0 (VR m' c) (Proc.devRef .tc Cert.ReferenceIdeal.main_v26))
      from Cert.Proof.HeadTail.head_normB (VR m' c)]
  exact congrArg toNC (Cert.Proof.AggBridge.agg_eq _ _ _ _)

theorem P_eq (h4 : VR m' c (Proc.devRef .tc Cert.ReferenceIdeal.main_arg4) = W0 m ρ c (Proc.devRef .tc Cert.KernelIdeal.main_arg4)) (h5 : VR m' c (Proc.devRef .tc Cert.ReferenceIdeal.main_arg5) = W0 m ρ c (Proc.devRef .tc Cert.KernelIdeal.main_arg5)) (h6 : VR m' c (Proc.devRef .tc Cert.ReferenceIdeal.main_arg6) = W0 m ρ c (Proc.devRef .tc Cert.KernelIdeal.main_arg6)) (h7 : VR m' c (Proc.devRef .tc Cert.ReferenceIdeal.main_arg7) = W0 m ρ c (Proc.devRef .tc Cert.KernelIdeal.main_arg7)) : Cert.KernelIdeal.Chain.P m ρ c = Cert.ReferenceIdeal.Chain.P (VR m' c) := by
  unfold Cert.KernelIdeal.Chain.P Cert.ReferenceIdeal.Chain.P
  rw [Cert.KernelIdeal.Head.W2_main_arg4_W0 m ρ c, Cert.KernelIdeal.Head.W2_main_arg5_W0 m ρ c,
    Cert.KernelIdeal.Head.W2_main_arg6_W0 m ρ c, Cert.KernelIdeal.Head.W2_main_arg7_W0 m ρ c, ← h4, ← h5, ← h6, ← h7]

/-! ## The chains join -/

/-- The first 500000 columns of the kernel's last activations, node-major, are the reference's h₈. -/
theorem unpad_H8 (h0 : VR m' c (Proc.devRef .tc Cert.ReferenceIdeal.main_arg0) = W0 m ρ c (Proc.devRef .tc Cert.KernelIdeal.main_arg0)) (h1 : VR m' c (Proc.devRef .tc Cert.ReferenceIdeal.main_arg1) = W0 m ρ c (Proc.devRef .tc Cert.KernelIdeal.main_arg1)) (h3 : VR m' c (Proc.devRef .tc Cert.ReferenceIdeal.main_arg3) = W0 m ρ c (Proc.devRef .tc Cert.KernelIdeal.main_arg3)) (h4 : VR m' c (Proc.devRef .tc Cert.ReferenceIdeal.main_arg4) = W0 m ρ c (Proc.devRef .tc Cert.KernelIdeal.main_arg4)) (h5 : VR m' c (Proc.devRef .tc Cert.ReferenceIdeal.main_arg5) = W0 m ρ c (Proc.devRef .tc Cert.KernelIdeal.main_arg5)) (h6 : VR m' c (Proc.devRef .tc Cert.ReferenceIdeal.main_arg6) = W0 m ρ c (Proc.devRef .tc Cert.KernelIdeal.main_arg6)) (h7 : VR m' c (Proc.devRef .tc Cert.ReferenceIdeal.main_arg7) = W0 m ρ c (Proc.devRef .tc Cert.KernelIdeal.main_arg7))
    (hA : ∀ x, RealNC x → RealNC (Cert.ReferenceIdeal.Chain.A (VR m' c) x))
    (hP : (Cert.ReferenceIdeal.Chain.P (VR m' c)).Real) (hh0 : RealNC (Cert.ReferenceIdeal.Chain.h0 (VR m' c))) :
    unpadT (toCP (W58 m ρ c (Proc.devRef .tc Cert.KernelIdeal.main_v339)))
      = toNC (Cert.ReferenceIdeal.Chain.R8 (VR m' c) (Proc.devRef .tc Cert.ReferenceIdeal.main_v394)) := by
  rw [Cert.KernelIdeal.Chain.chain8 m ρ c, H0_eq m ρ m' c h0 h3, A_eq m ρ m' c h1, P_eq m ρ m' c h4 h5 h6 h7,
    iter_unpad _ hA _ hP _ hh0 8, Cert.ReferenceIdeal.Chain.step7 (VR m' c)]

/-! ## Tail -/

/-- An argument at the last layer's exit on the kernel side is the launch contents. -/
theorem W58_arg (b : Ref Cert.KernelIdeal.sig .tc)
    (hk : W58 m ρ c (Proc.devRef .tc b) = W2 m ρ c (Proc.devRef .tc b))
    (h2 : W2 m ρ c (Proc.devRef .tc b) = W0 m ρ c (Proc.devRef .tc b)) :
    W58 m ρ c (Proc.devRef .tc b) = W0 m ρ c (Proc.devRef .tc b) := hk.trans h2

/-- THE RESULTS AGREE. -/
theorem result_eq (h0 : VR m' c (Proc.devRef .tc Cert.ReferenceIdeal.main_arg0) = W0 m ρ c (Proc.devRef .tc Cert.KernelIdeal.main_arg0))
    (h1 : VR m' c (Proc.devRef .tc Cert.ReferenceIdeal.main_arg1) = W0 m ρ c (Proc.devRef .tc Cert.KernelIdeal.main_arg1))
    (h2 : VR m' c (Proc.devRef .tc Cert.ReferenceIdeal.main_arg2) = W0 m ρ c (Proc.devRef .tc Cert.KernelIdeal.main_arg2))
    (h3 : VR m' c (Proc.devRef .tc Cert.ReferenceIdeal.main_arg3) = W0 m ρ c (Proc.devRef .tc Cert.KernelIdeal.main_arg3))
    (h4 : VR m' c (Proc.devRef .tc Cert.ReferenceIdeal.main_arg4) = W0 m ρ c (Proc.devRef .tc Cert.KernelIdeal.main_arg4))
    (h5 : VR m' c (Proc.devRef .tc Cert.ReferenceIdeal.main_arg5) = W0 m ρ c (Proc.devRef .tc Cert.KernelIdeal.main_arg5))
    (h6 : VR m' c (Proc.devRef .tc Cert.ReferenceIdeal.main_arg6) = W0 m ρ c (Proc.devRef .tc Cert.KernelIdeal.main_arg6))
    (h7 : VR m' c (Proc.devRef .tc Cert.ReferenceIdeal.main_arg7) = W0 m ρ c (Proc.devRef .tc Cert.KernelIdeal.main_arg7))
    (h8 : VR m' c (Proc.devRef .tc Cert.ReferenceIdeal.main_arg8) = W0 m ρ c (Proc.devRef .tc Cert.KernelIdeal.main_arg8))
    (h9 : VR m' c (Proc.devRef .tc Cert.ReferenceIdeal.main_arg9) = W0 m ρ c (Proc.devRef .tc Cert.KernelIdeal.main_arg9))
    (h10 : VR m' c (Proc.devRef .tc Cert.ReferenceIdeal.main_arg10) = W0 m ρ c (Proc.devRef .tc Cert.KernelIdeal.main_arg10))
    (h11 : VR m' c (Proc.devRef .tc Cert.ReferenceIdeal.main_arg11) = W0 m ρ c (Proc.devRef .tc Cert.KernelIdeal.main_arg11))
    (hA : ∀ x, RealNC x → RealNC (Cert.ReferenceIdeal.Chain.A (VR m' c) x))
    (hP : (Cert.ReferenceIdeal.Chain.P (VR m' c)).Real) (hh0 : RealNC (Cert.ReferenceIdeal.Chain.h0 (VR m' c))) :
    StableHlo.after (Cert.ReferenceIdeal.RefRun.ops (F := Ideal)) (VR m' c) (Proc.devRef .tc Cert.ReferenceIdeal.main_v407)
      = W61 m ρ c (Proc.devRef .tc Cert.KernelIdeal.main_v354) := by
  rw [Cert.ReferenceIdeal.Chain.result (VR m' c)]
  have eb : StableHlo.after (Cert.ReferenceIdeal.RefRun.opsPre ++ Cert.ReferenceIdeal.RefRun.opsL0 ++ Cert.ReferenceIdeal.RefRun.opsL1
      ++ Cert.ReferenceIdeal.RefRun.opsL2 ++ Cert.ReferenceIdeal.RefRun.opsL3 ++ Cert.ReferenceIdeal.RefRun.opsL4
      ++ Cert.ReferenceIdeal.RefRun.opsL5 ++ Cert.ReferenceIdeal.RefRun.opsL6 ++ Cert.ReferenceIdeal.RefRun.opsL7) (VR m' c)
      = Cert.ReferenceIdeal.Chain.R8 (VR m' c) := Cert.ReferenceIdeal.Chain.after_body (VR m' c)
  have hH : Cert.ReferenceIdeal.Chain.R8 (VR m' c) (Proc.devRef .tc Cert.ReferenceIdeal.main_v394)
      = transpose (s := Cert.KernelIdeal.S8x500000) Cert.KernelIdeal.S500000x8 [1, 0]
          (extractStridedSlice (s := Cert.KernelIdeal.S8x524288) Cert.KernelIdeal.S8x500000 ![0, 0]
            (W58 m ρ c (Proc.devRef .tc Cert.KernelIdeal.main_v339)) Cert.KernelIdeal.Gen.slices_S8x524288_S8x500000_0_0)
          Cert.KernelIdeal.Gen.transposes_S8x500000_S500000x8_1_0 := by
    rw [Cert.KernelIdeal.Host2.unpad_layout, unpad_H8 m ρ m' c h0 h1 h3 h4 h5 h6 h7 hA hP hh0]
    exact (ofNC_toNC _).symm
  have a2 := (Cert.ReferenceIdeal.Chain.body_arg2 (VR m' c)).trans (h2.trans (W58_arg m ρ c _ (Cert.KernelIdeal.Chain.kept8_main_arg2 m ρ c) (Cert.KernelIdeal.Head.W2_main_arg2_W0 m ρ c)).symm)
  have a8 := (Cert.ReferenceIdeal.Chain.body_arg8 (VR m' c)).trans (h8.trans (W58_arg m ρ c _ (Cert.KernelIdeal.Chain.kept8_main_arg8 m ρ c) (Cert.KernelIdeal.Head.W2_main_arg8_W0 m ρ c)).symm)
  have a9 := (Cert.ReferenceIdeal.Chain.body_arg9 (VR m' c)).trans (h9.trans (W58_arg m ρ c _ (Cert.KernelIdeal.Chain.kept8_main_arg9 m ρ c) (Cert.KernelIdeal.Head.W2_main_arg9_W0 m ρ c)).symm)
  have a10 := (Cert.ReferenceIdeal.Chain.body_arg10 (VR m' c)).trans (h10.trans (W58_arg m ρ c _ (Cert.KernelIdeal.Chain.kept8_main_arg10 m ρ c) (Cert.KernelIdeal.Head.W2_main_arg10_W0 m ρ c)).symm)
  have a11 := (Cert.ReferenceIdeal.Chain.body_arg11 (VR m' c)).trans (h11.trans (W58_arg m ρ c _ (Cert.KernelIdeal.Chain.kept8_main_arg11 m ρ c) (Cert.KernelIdeal.Head.W2_main_arg11_W0 m ρ c)).symm)
  rw [eb] at a2 a8 a9 a10 a11 ⊢
  exact (Cert.Proof.HeadTail.tail_eq (W58 m ρ c) (Cert.ReferenceIdeal.Chain.R8 (VR m' c)) hH a2 a8 a9 a10 a11).symm

end Cert.Proof.Bridge

end
-- ==== Proof.HeadReal.lean ====
/-
  Two facts of the head about real numbers. Every edge's weight is a real number: the kernel program's weights are
  the weight function of its two edge lists, each a row of the edge list followed by one self loop per node, and with
  a self loop at every node no degree is zero. Every entry of the reference program's embedding rows is a real
  number when the embedding table's entries are: the rows are the table read at every node's type.
-/
import proofs.«143139_j73710228734964_1_alg».proof.Proof.HeadTail
import proofs.«143139_j73710228734964_1_alg».proof.Proof.AggBridge
import proofs.«143139_j73710228734964_1_alg».proof.Proof.PreReal
import proofs.«143139_j73710228734964_1_alg».proof.Proof.Spec
import proofs.«143139_j73710228734964_1_alg».proof.Proof.Conv

set_option maxRecDepth 2928

noncomputable section

namespace Cert.Proof.HeadReal

open Idealize.ShloMosaic Idealize.ShloMosaic.TcCoe Idealize.SL.Sem Cert.GCN

/-! ## The edge weights are real -/

/-- The kernel program's edge weights are the weight function of its two edge lists: the edge list's two rows,
    each followed by one self loop per node. -/
theorem norm_term (WK : Valuation Cert.KernelIdeal.τ Cert.KernelIdeal.sig (Elt Ideal)) :
    (StableHlo.after Cert.KernelIdeal.Gen.hostOps0 WK (Proc.devRef .tc Cert.KernelIdeal.main_v26) : Cert.KernelIdeal.S8500000.Idx → EReal)
      = Cert.Proof.AggBridge.normK
          (concatenate Cert.KernelIdeal.S8500000 0
            [⟨Cert.KernelIdeal.S8000000,
                shapeCast (s := Cert.KernelIdeal.S1x8000000) Cert.KernelIdeal.S8000000
                  (extractStridedSlice (s := Cert.KernelIdeal.S2x8000000) Cert.KernelIdeal.S1x8000000 ![0, 0]
                    (WK (Proc.devRef .tc Cert.KernelIdeal.main_arg1)) Cert.KernelIdeal.Gen.slices_S2x8000000_S1x8000000_0_0)
                  Cert.KernelIdeal.Gen.shapeCasts_S1x8000000_S8000000⟩,
             ⟨Cert.KernelIdeal.S500000, iotaInDim Cert.KernelIdeal.S500000 32 0⟩]
            Cert.KernelIdeal.Gen.concatenates_S8000000_S500000_S8500000_d0)
          (concatenate Cert.KernelIdeal.S8500000 0
            [⟨Cert.KernelIdeal.S8000000,
                shapeCast (s := Cert.KernelIdeal.S1x8000000) Cert.KernelIdeal.S8000000
                  (extractStridedSlice (s := Cert.KernelIdeal.S2x8000000) Cert.KernelIdeal.S1x8000000 ![1, 0]
                    (WK (Proc.devRef .tc Cert.KernelIdeal.main_arg1)) Cert.KernelIdeal.Gen.slices_S2x8000000_S1x8000000_1_0)
                  Cert.KernelIdeal.Gen.shapeCasts_S1x8000000_S8000000⟩,
             ⟨Cert.KernelIdeal.S500000, iotaInDim Cert.KernelIdeal.S500000 32 0⟩]
            Cert.KernelIdeal.Gen.concatenates_S8000000_S500000_S8500000_d0) := by
  rw [Cert.Proof.HeadTail.head_norm_term WK, Cert.Proof.HeadTail.head_deg_term WK,
    Cert.Proof.HeadTail.head_src_term WK, Cert.Proof.HeadTail.head_dst_term WK]
  rfl

/-- Every edge's weight is a real number: with a self loop at every node no degree is zero. -/
theorem norm_real (WK : Valuation Cert.KernelIdeal.τ Cert.KernelIdeal.sig (Elt Ideal)) :
    ∀ j, IsReal ((StableHlo.after Cert.KernelIdeal.Gen.hostOps0 WK (Proc.devRef .tc Cert.KernelIdeal.main_v26) : Cert.KernelIdeal.S8500000.Idx → EReal) j) := by
  intro j
  rw [norm_term WK]
  exact Cert.Proof.AggBridge.norm_entries_real _ _ j

/-! ## The embedding rows are real -/

/-- The reference program's embedding rows: the table read at every node's type (an index below zero read from
    the end). -/
theorem embR_term {F : FTy → Type} [FloatOps F] (WR : Valuation Cert.ReferenceIdeal.τ Cert.ReferenceIdeal.sig (Elt F)) :
    StableHlo.after Cert.ReferenceIdeal.RefRun.opsPre WR (Proc.devRef .tc Cert.ReferenceIdeal.main_v34)
      = Host.gather Cert.ReferenceIdeal.gather_S6x8_S500000x1_S500000x8_1_0_n_n_0_1_18 (WR (Proc.devRef .tc Cert.ReferenceIdeal.main_arg3))
          (broadcastInDim Cert.ReferenceIdeal.S500000x1 ![0] Cert.ReferenceIdeal.Gen.bcast_S500000_S500000x1_0
            (select
              (cmpi .slt (WR (Proc.devRef .tc Cert.ReferenceIdeal.main_arg0))
                (broadcastInDim Cert.ReferenceIdeal.S500000 ![] Cert.ReferenceIdeal.Gen.bcast_S_S500000 (constantI Cert.ReferenceIdeal.S_ 32 0#32)))
              (addi (WR (Proc.devRef .tc Cert.ReferenceIdeal.main_arg0))
                (broadcastInDim Cert.ReferenceIdeal.S500000 ![] Cert.ReferenceIdeal.Gen.bcast_S_S500000 (constantI Cert.ReferenceIdeal.S_ 32 6#32)))
              (WR (Proc.devRef .tc Cert.ReferenceIdeal.main_arg0)))) := by
  after_results_simp
  try rfl

/-- Every entry of the reference program's embedding rows is a real number when the table's entries are. -/
theorem emb_real (WR : Valuation Cert.ReferenceIdeal.τ Cert.ReferenceIdeal.sig (Elt Ideal))
    (hemb : ∀ i, IsReal ((WR (Proc.devRef .tc Cert.ReferenceIdeal.main_arg3) : Cert.ReferenceIdeal.S6x8.Idx → EReal) i)) :
    RealNC (toNC (StableHlo.after Cert.ReferenceIdeal.RefRun.opsPre WR (Proc.devRef .tc Cert.ReferenceIdeal.main_v34))) := by
  intro n c
  rw [embR_term WR]
  exact Cert.Proof.PreReal.emb_rows_real _ hemb _ _

end Cert.Proof.HeadReal

end
-- ==== Proof.Final.lean ====
/-
  The algebraic conjunct. The kernel's run (Proof/KRun.lean) ends with its result buffer at the last boundary's
  contents; the reference's run (Proof/RefRun.lean) with its result at the fold of its operations over the launch
  contents; the two are equal (Proof/Bridge.lean) because the memories agree on the arguments and the precondition
  makes every float argument's entries real (Proof/PreReal.lean), hence the edge norm (Proof/HeadReal.lean), the
  aggregation's output (Proof/AggBridge.lean), the layers' parameters and the embedding rows.
-/
import proofs.«143139_j73710228734964_1_alg».proof.Defs
import proofs.«143139_j73710228734964_1_alg».proof.Proof.Gen.Pre_finite_inputs
import proofs.«143139_j73710228734964_1_alg».proof.Proof.Bridge
import proofs.«143139_j73710228734964_1_alg».proof.Proof.KRun
import proofs.«143139_j73710228734964_1_alg».proof.Proof.RefRun
import proofs.«143139_j73710228734964_1_alg».proof.Proof.HeadReal
import proofs.«143139_j73710228734964_1_alg».proof.Proof.PreReal
import proofs.«143139_j73710228734964_1_alg».proof.Proof.AggBridge

noncomputable section

namespace Cert.Proof.Final

open Idealize.ShloMosaic Idealize.ShloMosaic.TcCoe Idealize.SL.Sem Idealize.ShloMosaic.StableHlo Idealize.ShloMosaic.ValueIdx
open Cert.GCN Cert.Proof.Bridge
open Cert.KernelIdeal.GenP (W0 W2 W61)

theorem algebraic : Cert.algebraic_KernelIdeal_ReferenceIdeal := by
  intro m ρ m' ρ' hpre hag
  refine ⟨fun c => W61 m ρ c (Proc.devRef .tc Cert.KernelIdeal.main_v354), Cert.KernelIdeal.GenP.run_val m ρ, ?_⟩
  refine (θ_run (Cert.ReferenceIdeal.defs (F := Ideal)) _ _).mono (fun r h c => ?_)
    (Cert.ReferenceIdeal.RefRun.run_raw (F := Ideal) m' ρ')
  obtain ⟨g0, g1, g2, g3, g4, g5, g6, g7, g8, g9, g10, g11⟩ := hag c
  obtain ⟨r3, r4, r5, r6, r7, r8, r9, r10, r11⟩ := Cert.Proof.PreReal.args_real m hpre c
  -- the edge norm at the first layer's entry is real
  have hn : ∀ j, IsReal ((W2 m ρ c (Proc.devRef .tc Cert.KernelIdeal.main_v26) : Cert.KernelIdeal.S8500000.Idx → EReal) j) := by
    intro j
    rw [Cert.KernelIdeal.Head.W2_main_v26 m ρ c]
    exact Cert.Proof.HeadReal.norm_real (W0 m ρ c) j
  have hA : ∀ x, RealNC x → RealNC (Cert.ReferenceIdeal.Chain.A (VR m' c) x) := by
    intro x hx
    rw [← A_eq m ρ m' c g1]
    exact Cert.Proof.AggBridge.A_real _ _ _ hn x hx
  have hP : (Cert.ReferenceIdeal.Chain.P (VR m' c)).Real := by
    intro j
    refine ⟨fun ch => ?_, fun ch => ?_, fun ch => ?_, fun a b => ?_⟩
    · show IsReal (toM8 (VR m' c (Proc.devRef .tc Cert.ReferenceIdeal.main_arg4)) (Fin.ofNat 8 j) ch)
      rw [show VR m' c (Proc.devRef .tc Cert.ReferenceIdeal.main_arg4) = W0 m ρ c (Proc.devRef .tc Cert.KernelIdeal.main_arg4) from g4]
      exact r4 _
    · show IsReal (toM8 (VR m' c (Proc.devRef .tc Cert.ReferenceIdeal.main_arg5)) (Fin.ofNat 8 j) ch)
      rw [show VR m' c (Proc.devRef .tc Cert.ReferenceIdeal.main_arg5) = W0 m ρ c (Proc.devRef .tc Cert.KernelIdeal.main_arg5) from g5]
      exact r5 _
    · show IsReal (toM8 (VR m' c (Proc.devRef .tc Cert.ReferenceIdeal.main_arg7)) (Fin.ofNat 8 j) ch)
      rw [show VR m' c (Proc.devRef .tc Cert.ReferenceIdeal.main_arg7) = W0 m ρ c (Proc.devRef .tc Cert.KernelIdeal.main_arg7) from g7]
      exact r7 _
    · show IsReal ((VR m' c (Proc.devRef .tc Cert.ReferenceIdeal.main_arg6) : Cert.ReferenceIdeal.S8x8x8.Idx → EReal) (ix3 (Fin.ofNat 8 j) a b))
      rw [show VR m' c (Proc.devRef .tc Cert.ReferenceIdeal.main_arg6) = W0 m ρ c (Proc.devRef .tc Cert.KernelIdeal.main_arg6) from g6]
      exact r6 _
  have hh0 : RealNC (Cert.ReferenceIdeal.Chain.h0 (VR m' c)) :=
    Cert.Proof.HeadReal.emb_real (VR m' c) (fun i => by
      rw [show VR m' c (Proc.devRef .tc Cert.ReferenceIdeal.main_arg3) = W0 m ρ c (Proc.devRef .tc Cert.KernelIdeal.main_arg3) from g3]
      exact r3 i)
  exact ⟨(h c Cert.ReferenceIdeal.main_v407).trans (result_eq m ρ m' c g0 g1 g2 g3 g4 g5 g6 g7 g8 g9 g10 g11 hA hP hh0),
      (h c Cert.ReferenceIdeal.main_arg0).trans (Cert.ReferenceIdeal.RefRun.arg0_kept _),
      (h c Cert.ReferenceIdeal.main_arg1).trans (Cert.ReferenceIdeal.RefRun.arg1_kept _),
      (h c Cert.ReferenceIdeal.main_arg2).trans (Cert.ReferenceIdeal.RefRun.arg2_kept _),
      (h c Cert.ReferenceIdeal.main_arg3).trans (Cert.ReferenceIdeal.RefRun.arg3_kept _),
      (h c Cert.ReferenceIdeal.main_arg4).trans (Cert.ReferenceIdeal.RefRun.arg4_kept _),
      (h c Cert.ReferenceIdeal.main_arg5).trans (Cert.ReferenceIdeal.RefRun.arg5_kept _),
      (h c Cert.ReferenceIdeal.main_arg6).trans (Cert.ReferenceIdeal.RefRun.arg6_kept _),
      (h c Cert.ReferenceIdeal.main_arg7).trans (Cert.ReferenceIdeal.RefRun.arg7_kept _),
      (h c Cert.ReferenceIdeal.main_arg8).trans (Cert.ReferenceIdeal.RefRun.arg8_kept _),
      (h c Cert.ReferenceIdeal.main_arg9).trans (Cert.ReferenceIdeal.RefRun.arg9_kept _),
      (h c Cert.ReferenceIdeal.main_arg10).trans (Cert.ReferenceIdeal.RefRun.arg10_kept _),
      (h c Cert.ReferenceIdeal.main_arg11).trans (Cert.ReferenceIdeal.RefRun.arg11_kept _)⟩

end Cert.Proof.Final

end
-- ==== Proof.lean ====
/-
  The certificate: the kernel and its idealization run to the end with their arguments unchanged (the two frame
  certificates, Proof/KernelFrameP.lean and Proof/KernelIdealFrameP.lean), so does the reference (Proof/RefFrame.lean);
  the ideal pass rewrote nothing, so the idealization is the program's own text; and at the ideal instance the
  kernel's and the reference's results are equal as extended reals (Proof/Final.lean): both compute eight graph
  convolution layers — batch norm, an 8×8 linear map, the normalised edge aggregation, residual, relu — the kernel
  on the channel-major, zero-padded transpose of the reference's node-major activations, with the batch variance as
  the mean of squares minus the squared mean where the reference takes the mean of squared deviations.
-/
import proofs.«143139_j73710228734964_1_alg».proof.Defs
import proofs.«143139_j73710228734964_1_alg».proof.Proof.Gen.Kernel
import proofs.«143139_j73710228734964_1_alg».proof.Proof.Gen.KernelIdeal
import proofs.«143139_j73710228734964_1_alg».proof.Proof.Gen.ReferenceIdeal
import proofs.«143139_j73710228734964_1_alg».proof.Proof.Gen.Pre_finite_inputs
import proofs.«143139_j73710228734964_1_alg».proof.Proof.KernelFrameP
import proofs.«143139_j73710228734964_1_alg».proof.Proof.KernelIdealFrameP
import proofs.«143139_j73710228734964_1_alg».proof.Proof.RefFrame
import proofs.«143139_j73710228734964_1_alg».proof.Proof.Final

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  Cert.Proof.RefFrame.frame_ri,
  trivial,
  Cert.Proof.Final.algebraic⟩

end Cert.Proof

end
